-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v184)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000x4000 : Shape := ⟨2, ![4000, 4000]⟩
abbrev S2000x2000 : Shape := ⟨2, ![2000, 2000]⟩
abbrev S2000x4000 : Shape := ⟨2, ![2000, 4000]⟩
abbrev S1000x2000 : Shape := ⟨2, ![1000, 2000]⟩
abbrev S6000x6000 : Shape := ⟨2, ![6000, 6000]⟩
abbrev S16384 : Shape := ⟨1, ![16384]⟩
abbrev S4000x256 : Shape := ⟨2, ![4000, 256]⟩
abbrev S256 : Shape := ⟨1, ![256]⟩
abbrev S256x256 : Shape := ⟨2, ![256, 256]⟩
abbrev S2000x256 : Shape := ⟨2, ![2000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S4000x4000 : S_.BroadcastsInDim S4000x4000 (![] : Fin 0 → Fin S4000x4000.rank)
  reducesTo_S4000x4000_S_d0_1 : S4000x4000.ReducesTo [0, 1] S_
  h_S_ : 0 < S_.numel
  bcast_S_S2000x2000 : S_.BroadcastsInDim S2000x2000 (![] : Fin 0 → Fin S2000x2000.rank)
  reducesTo_S2000x2000_S_d0_1 : S2000x2000.ReducesTo [0, 1] S_
  bcast_S_S2000x4000 : S_.BroadcastsInDim S2000x4000 (![] : Fin 0 → Fin S2000x4000.rank)
  reducesTo_S2000x4000_S_d0_1 : S2000x4000.ReducesTo [0, 1] S_
  bcast_S_S1000x2000 : S_.BroadcastsInDim S1000x2000 (![] : Fin 0 → Fin S1000x2000.rank)
  reducesTo_S1000x2000_S_d0_1 : S1000x2000.ReducesTo [0, 1] S_
  bcast_S_S6000x6000 : S_.BroadcastsInDim S6000x6000 (![] : Fin 0 → Fin S6000x6000.rank)
  reducesTo_S6000x6000_S_d0_1 : S6000x6000.ReducesTo [0, 1] S_
  bcast_S_S4000x256 : S_.BroadcastsInDim S4000x256 (![] : Fin 0 → Fin S4000x256.rank)
  reducesTo_S4000x256_S_d0_1 : S4000x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2000x256 : S_.BroadcastsInDim S2000x256 (![] : Fin 0 → Fin S2000x256.rank)
  reducesTo_S2000x256_S_d0_1 : S2000x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part7 {F : FTy → Type} [FloatOps F] (main_arg6 : IVec S16384 32) (main_v113 : IVec S_ 1) (main_v118 : IVec S16384 1) (main_c_46 : IVec S_ 1) : IVec S_ 1 :=
  let main_v119 : IVec S_ 1 := (fun x v => Host.reduce IntOp.andi x v reducesTo_S16384_S_d0 h_S_) main_v118 main_c_46
  let main_v120 : IVec S_ 1 := andi main_v113 main_v119
  let main_c_47 : IVec S_ 32 := constantI S_ 32 4294963296#32
  let main_v121 : IVec S16384 32 := broadcastInDim S16384 ![] bcast_S_S16384 main_c_47
  let main_v122 : IVec S16384 1 := cmpi .sge main_arg6 main_v121
  let main_c_48 : IVec S_ 32 := constantI S_ 32 2000#32
  let main_v123 : IVec S16384 32 := broadcastInDim S16384 ![] bcast_S_S16384 main_c_48
  let main_v124 : IVec S16384 1 := cmpi .slt main_arg6 main_v123
  let main_v125 : IVec S16384 1 := andi main_v122 main_v124
  let main_c_49 : IVec S_ 1 := constantI S_ 1 1#1
  let main_v126 : IVec S_ 1 := (fun x v => Host.reduce IntOp.andi x v reducesTo_S16384_S_d0 h_S_) main_v125 main_c_49
  let main_v127 : IVec S_ 1 := andi main_v120 main_v126
  main_v127

def fn_part6 {F : FTy → Type} [FloatOps F] (main_arg5 : IVec S16384 32) (main_arg6 : IVec S16384 32) (main_arg23 : FVec F S32x1 .f32) (main_arg24 : FVec F S1 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x1 .f32 := Host.absf main_arg23
  let main_cst_40 : FVec F S_ .f32 := constant S_ .f32 0x7F800000#32
  let main_v105 : FVec F S32x1 .f32 := broadcastInDim S32x1 ![] bcast_S_S32x1 main_cst_40
  let main_v106 : IVec S32x1 1 := cmpf .olt main_v104 main_v105
  let main_c_41 : IVec S_ 1 := constantI S_ 1 1#1
  let main_v107 : IVec S_ 1 := (fun x v => Host.reduce IntOp.andi x v reducesTo_S32x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_c_44 : IVec S_ 32 := constantI S_ 32 0#32
  let main_v114 : IVec S16384 32 := broadcastInDim S16384 ![] bcast_S_S16384 main_c_44
  let main_v115 : IVec S16384 1 := cmpi .sge main_arg5 main_v114
  let main_c_45 : IVec S_ 32 := constantI S_ 32 6000#32
  let main_v116 : IVec S16384 32 := broadcastInDim S16384 ![] bcast_S_S16384 main_c_45
  let main_v117 : IVec S16384 1 := cmpi .slt main_arg5 main_v116
  let main_v118 : IVec S16384 1 := andi main_v115 main_v117
  let main_c_46 : IVec S_ 1 := constantI S_ 1 1#1
  fn_part7 (F := F) main_arg6 main_v113 main_v118 main_c_46

def fn_part5 {F : FTy → Type} [FloatOps F] (main_arg5 : IVec S16384 32) (main_arg6 : IVec S16384 32) (main_arg20 : FVec F S64 .f32) (main_arg21 : FVec F S64x32 .f32) (main_arg22 : FVec F S32 .f32) (main_arg23 : FVec F S32x1 .f32) (main_arg24 : FVec F S1 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x32 .f32 := Host.absf main_arg21
  let main_cst_36 : FVec F S_ .f32 := constant S_ .f32 0x7F800000#32
  let main_v95 : FVec F S64x32 .f32 := broadcastInDim S64x32 ![] bcast_S_S64x32 main_cst_36
  let main_v96 : IVec S64x32 1 := cmpf .olt main_v94 main_v95
  let main_c_37 : IVec S_ 1 := constantI S_ 1 1#1
  let main_v97 : IVec S_ 1 := (fun x v => Host.reduce IntOp.andi x v reducesTo_S64x32_S_d0_1 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg5 main_arg6 main_arg23 main_arg24 main_v98 main_v101 main_c_39

def fn_part4 {F : FTy → Type} [FloatOps F] (main_arg5 : IVec S16384 32) (main_arg6 : IVec S16384 32) (main_arg16 : FVec F S256 .f32) (main_arg17 : FVec F S256x128 .f32) (main_arg18 : FVec F S128 .f32) (main_arg19 : FVec F S128x64 .f32) (main_arg20 : FVec F S64 .f32) (main_arg21 : FVec F S64x32 .f32) (main_arg22 : FVec F S32 .f32) (main_arg23 : FVec F S32x1 .f32) (main_arg24 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg17
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x64 .f32 := Host.absf main_arg19
  let main_cst_32 : FVec F S_ .f32 := constant S_ .f32 0x7F800000#32
  fn_part5 (F := F) main_arg5 main_arg6 main_arg20 main_arg21 main_arg22 main_arg23 main_arg24 main_v83 main_v84 main_cst_32

def fn_part3 {F : FTy → Type} [FloatOps F] (main_arg5 : IVec S16384 32) (main_arg6 : IVec S16384 32) (main_arg13 : FVec F S256x256 .f32) (main_arg14 : FVec F S256 .f32) (main_arg15 : FVec F S256x256 .f32) (main_arg16 : FVec F S256 .f32) (main_arg17 : FVec F S256x128 .f32) (main_arg18 : FVec F S128 .f32) (main_arg19 : FVec F S128x64 .f32) (main_arg20 : FVec F S64 .f32) (main_arg21 : FVec F S64x32 .f32) (main_arg22 : FVec F S32 .f32) (main_arg23 : FVec F S32x1 .f32) (main_arg24 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg5 main_arg6 main_arg16 main_arg17 main_arg18 main_arg19 main_arg20 main_arg21 main_arg22 main_arg23 main_arg24 main_v63 main_v67

def fn_part2 {F : FTy → Type} [FloatOps F] (main_arg5 : IVec S16384 32) (main_arg6 : IVec S16384 32) (main_arg9 : FVec F S256x256 .f32) (main_arg10 : FVec F S256 .f32) (main_arg11 : FVec F S2000x256 .f32) (main_arg12 : FVec F S256 .f32) (main_arg13 : FVec F S256x256 .f32) (main_arg14 : FVec F S256 .f32) (main_arg15 : FVec F S256x256 .f32) (main_arg16 : FVec F S256 .f32) (main_arg17 : FVec F S256x128 .f32) (main_arg18 : FVec F S128 .f32) (main_arg19 : FVec F S128x64 .f32) (main_arg20 : FVec F S64 .f32) (main_arg21 : FVec F S64x32 .f32) (main_arg22 : FVec F S32 .f32) (main_arg23 : FVec F S32x1 .f32) (main_arg24 : FVec F S1 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S2000x256 .f32 := Host.absf main_arg11
  let main_cst_16 : FVec F S_ .f32 := constant S_ .f32 0x7F800000#32
  let main_v45 : FVec F S2000x256 .f32 := broadcastInDim S2000x256 ![] bcast_S_S2000x256 main_cst_16
  let main_v46 : IVec S2000x256 1 := cmpf .olt main_v44 main_v45
  let main_c_17 : IVec S_ 1 := constantI S_ 1 1#1
  let main_v47 : IVec S_ 1 := (fun x v => Host.reduce IntOp.andi x v reducesTo_S2000x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg5 main_arg6 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S6000x6000 .f32) (main_arg5 : IVec S16384 32) (main_arg6 : IVec S16384 32) (main_arg7 : FVec F S4000x256 .f32) (main_arg8 : FVec F S256 .f32) (main_arg9 : FVec F S256x256 .f32) (main_arg10 : FVec F S256 .f32) (main_arg11 : FVec F S2000x256 .f32) (main_arg12 : FVec F S256 .f32) (main_arg13 : FVec F S256x256 .f32) (main_arg14 : FVec F S256 .f32) (main_arg15 : FVec F S256x256 .f32) (main_arg16 : FVec F S256 .f32) (main_arg17 : FVec F S256x128 .f32) (main_arg18 : FVec F S128 .f32) (main_arg19 : FVec F S128x64 .f32) (main_arg20 : FVec F S64 .f32) (main_arg21 : FVec F S64x32 .f32) (main_arg22 : FVec F S32 .f32) (main_arg23 : FVec F S32x1 .f32) (main_arg24 : FVec F S1 .f32) (main_v13 : IVec S_ 1) (main_v16 : IVec S1000x2000 1) : IVec S_ 1 :=
  let main_c_5 : IVec S_ 1 := constantI S_ 1 1#1
  let main_v17 : IVec S_ 1 := (fun x v => Host.reduce IntOp.andi x v reducesTo_S1000x2000_S_d0_1 h_S_) main_v16 main_c_5
  let main_v18 : IVec S_ 1 := andi main_v13 main_v17
  let main_v19 : FVec F S6000x6000 .f32 := Host.absf main_arg4
  let main_cst_6 : FVec F S_ .f32 := constant S_ .f32 0x7F800000#32
  let main_v20 : FVec F S6000x6000 .f32 := broadcastInDim S6000x6000 ![] bcast_S_S6000x6000 main_cst_6
  let main_v21 : IVec S6000x6000 1 := cmpf .olt main_v19 main_v20
  let main_c_7 : IVec S_ 1 := constantI S_ 1 1#1
  let main_v22 : IVec S_ 1 := (fun x v => Host.reduce IntOp.andi x v reducesTo_S6000x6000_S_d0_1 h_S_) main_v21 main_c_7
  let main_v23 : IVec S_ 1 := andi main_v18 main_v22
  let main_v24 : FVec F S4000x256 .f32 := Host.absf main_arg7
  let main_cst_8 : FVec F S_ .f32 := constant S_ .f32 0x7F800000#32
  let main_v25 : FVec F S4000x256 .f32 := broadcastInDim S4000x256 ![] bcast_S_S4000x256 main_cst_8
  let main_v26 : IVec S4000x256 1 := cmpf .olt main_v24 main_v25
  let main_c_9 : IVec S_ 1 := constantI S_ 1 1#1
  let main_v27 : IVec S_ 1 := (fun x v => Host.reduce IntOp.andi x v reducesTo_S4000x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg5 main_arg6 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S4000x4000 .f32) (main_arg1 : FVec F S2000x2000 .f32) (main_arg2 : FVec F S2000x4000 .f32) (main_arg3 : FVec F S1000x2000 .f32) (main_arg4 : FVec F S6000x6000 .f32) (main_arg5 : IVec S16384 32) (main_arg6 : IVec S16384 32) (main_arg7 : FVec F S4000x256 .f32) (main_arg8 : FVec F S256 .f32) (main_arg9 : FVec F S256x256 .f32) (main_arg10 : FVec F S256 .f32) (main_arg11 : FVec F S2000x256 .f32) (main_arg12 : FVec F S256 .f32) (main_arg13 : FVec F S256x256 .f32) (main_arg14 : FVec F S256 .f32) (main_arg15 : FVec F S256x256 .f32) (main_arg16 : FVec F S256 .f32) (main_arg17 : FVec F S256x128 .f32) (main_arg18 : FVec F S128 .f32) (main_arg19 : FVec F S128x64 .f32) (main_arg20 : FVec F S64 .f32) (main_arg21 : FVec F S64x32 .f32) (main_arg22 : FVec F S32 .f32) (main_arg23 : FVec F S32x1 .f32) (main_arg24 : FVec F S1 .f32) : IVec S_ 1 :=
  let main_v0 : FVec F S4000x4000 .f32 := Host.absf main_arg0
  let main_cst : FVec F S_ .f32 := constant S_ .f32 0x7F800000#32
  let main_v1 : FVec F S4000x4000 .f32 := broadcastInDim S4000x4000 ![] bcast_S_S4000x4000 main_cst
  let main_v2 : IVec S4000x4000 1 := cmpf .olt main_v0 main_v1
  let main_c : IVec S_ 1 := constantI S_ 1 1#1
  let main_v3 : IVec S_ 1 := (fun x v => Host.reduce IntOp.andi x v reducesTo_S4000x4000_S_d0_1 h_S_) main_v2 main_c
  let main_v4 : FVec F S2000x2000 .f32 := Host.absf main_arg1
  let main_cst_0 : FVec F S_ .f32 := constant S_ .f32 0x7F800000#32
  let main_v5 : FVec F S2000x2000 .f32 := broadcastInDim S2000x2000 ![] bcast_S_S2000x2000 main_cst_0
  let main_v6 : IVec S2000x2000 1 := cmpf .olt main_v4 main_v5
  let main_c_1 : IVec S_ 1 := constantI S_ 1 1#1
  let main_v7 : IVec S_ 1 := (fun x v => Host.reduce IntOp.andi x v reducesTo_S2000x2000_S_d0_1 h_S_) main_v6 main_c_1
  let main_v8 : IVec S_ 1 := andi main_v3 main_v7
  let main_v9 : FVec F S2000x4000 .f32 := Host.absf main_arg2
  let main_cst_2 : FVec F S_ .f32 := constant S_ .f32 0x7F800000#32
  let main_v10 : FVec F S2000x4000 .f32 := broadcastInDim S2000x4000 ![] bcast_S_S2000x4000 main_cst_2
  let main_v11 : IVec S2000x4000 1 := cmpf .olt main_v9 main_v10
  let main_c_3 : IVec S_ 1 := constantI S_ 1 1#1
  let main_v12 : IVec S_ 1 := (fun x v => Host.reduce IntOp.andi x v reducesTo_S2000x4000_S_d0_1 h_S_) main_v11 main_c_3
  let main_v13 : IVec S_ 1 := andi main_v8 main_v12
  let main_v14 : FVec F S1000x2000 .f32 := Host.absf main_arg3
  let main_cst_4 : FVec F S_ .f32 := constant S_ .f32 0x7F800000#32
  let main_v15 : FVec F S1000x2000 .f32 := broadcastInDim S1000x2000 ![] bcast_S_S1000x2000 main_cst_4
  let main_v16 : IVec S1000x2000 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4000x4000 : Shape := ⟨2, ![4000, 4000]⟩
abbrev S2000x2000 : Shape := ⟨2, ![2000, 2000]⟩
abbrev S2000x4000 : Shape := ⟨2, ![2000, 4000]⟩
abbrev S1000x2000 : Shape := ⟨2, ![1000, 2000]⟩
abbrev S6000x6000 : Shape := ⟨2, ![6000, 6000]⟩
abbrev S16384 : Shape := ⟨1, ![16384]⟩
abbrev S4000x256 : Shape := ⟨2, ![4000, 256]⟩
abbrev S256 : Shape := ⟨1, ![256]⟩
abbrev S256x256 : Shape := ⟨2, ![256, 256]⟩
abbrev S2000x256 : Shape := ⟨2, ![2000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S4000x2000 : Shape := ⟨2, ![4000, 2000]⟩
abbrev S2000x1000 : Shape := ⟨2, ![2000, 1000]⟩
abbrev S_ : Shape := ⟨0, ![]⟩
abbrev S4000 : Shape := ⟨1, ![4000]⟩
abbrev S4000x1 : Shape := ⟨2, ![4000, 1]⟩
abbrev S2000 : Shape := ⟨1, ![2000]⟩
abbrev S2000x1 : Shape := ⟨2, ![2000, 1]⟩
abbrev S1000 : Shape := ⟨1, ![1000]⟩
abbrev S1000x1 : Shape := ⟨2, ![1000, 1]⟩
abbrev S1x256 : Shape := ⟨2, ![1, 256]⟩
abbrev S4096x4096 : Shape := ⟨2, ![4096, 4096]⟩
abbrev S4096x256 : Shape := ⟨2, ![4096, 256]⟩
abbrev S4096x1 : Shape := ⟨2, ![4096, 1]⟩
abbrev S1024x1024 : Shape := ⟨2, ![1024, 1024]⟩
abbrev S1024x256 : Shape := ⟨2, ![1024, 256]⟩
abbrev S1024x1 : Shape := ⟨2, ![1024, 1]⟩
abbrev S2048x4096 : Shape := ⟨2, ![2048, 4096]⟩
abbrev S2048x1 : Shape := ⟨2, ![2048, 1]⟩
abbrev S2048x256 : Shape := ⟨2, ![2048, 256]⟩
abbrev S4096x2048 : Shape := ⟨2, ![4096, 2048]⟩
abbrev S256x1 : Shape := ⟨2, ![256, 1]⟩
abbrev S2048x2048 : Shape := ⟨2, ![2048, 2048]⟩
abbrev S1000x2048 : Shape := ⟨2, ![1000, 2048]⟩
abbrev S1000x256 : Shape := ⟨2, ![1000, 256]⟩
abbrev S1000x1024 : Shape := ⟨2, ![1000, 1024]⟩
abbrev S2048x1000 : Shape := ⟨2, ![2048, 1000]⟩
abbrev S1024x1000 : Shape := ⟨2, ![1024, 1000]⟩
abbrev S6000x256 : Shape := ⟨2, ![6000, 256]⟩
abbrev S6000 : Shape := ⟨1, ![6000]⟩
abbrev S6000x1 : Shape := ⟨2, ![6000, 1]⟩
abbrev S6144x6144 : Shape := ⟨2, ![6144, 6144]⟩
abbrev S6144x1 : Shape := ⟨2, ![6144, 1]⟩
abbrev S6144x256 : Shape := ⟨2, ![6144, 256]⟩
abbrev S16384x1 : Shape := ⟨2, ![16384, 1]⟩
abbrev S1x1 : Shape := ⟨2, ![1, 1]⟩
abbrev S16384x256 : Shape := ⟨2, ![16384, 256]⟩
abbrev S1x128 : Shape := ⟨2, ![1, 128]⟩
abbrev S1x64 : Shape := ⟨2, ![1, 64]⟩
abbrev S1x32 : Shape := ⟨2, ![1, 32]⟩
abbrev S2048x128 : Shape := ⟨2, ![2048, 128]⟩
abbrev S2048x64 : Shape := ⟨2, ![2048, 64]⟩
abbrev S2048x32 : Shape := ⟨2, ![2048, 32]⟩

abbrev nBuf : Space → Nat
  | .hbm => 378
  | .vmem => 196
  | .smem => 0
  | _ => 0

abbrev hbmTy0_0 (i : Nat) : BufTy := match i % 128 with
  | 0 => ⟨S4000x4000, .f32⟩
  | 1 => ⟨S2000x2000, .f32⟩
  | 2 => ⟨S2000x4000, .f32⟩
  | 3 => ⟨S1000x2000, .f32⟩
  | 4 => ⟨S6000x6000, .f32⟩
  | 5 => ⟨S16384, .i32⟩
  | 6 => ⟨S16384, .i32⟩
  | 7 => ⟨S4000x256, .f32⟩
  | 8 => ⟨S256, .f32⟩
  | 9 => ⟨S256x256, .f32⟩
  | 10 => ⟨S256, .f32⟩
  | 11 => ⟨S2000x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x128, .f32⟩
  | 18 => ⟨S128, .f32⟩
  | 19 => ⟨S128x64, .f32⟩
  | 20 => ⟨S64, .f32⟩
  | 21 => ⟨S64x32, .f32⟩
  | 22 => ⟨S32, .f32⟩
  | 23 => ⟨S32x1, .f32⟩
  | 24 => ⟨S1, .f32⟩
  | 25 => ⟨S4000x2000, .f32⟩
  | 26 => ⟨S2000x1000, .f32⟩
  | 27 => ⟨S_, .f32⟩
  | 28 => ⟨S4000, .f32⟩
  | 29 => ⟨S_, .f32⟩
  | 30 => ⟨S4000, .f32⟩
  | 31 => ⟨S4000, .i1⟩
  | 32 => ⟨S_, .f32⟩
  | 33 => ⟨S4000, .f32⟩
  | 34 => ⟨S4000, .f32⟩
  | 35 => ⟨S_, .f32⟩
  | 36 => ⟨S4000, .f32⟩
  | 37 => ⟨S4000, .f32⟩
  | 38 => ⟨S_, .f32⟩
  | 39 => ⟨S_, .f32⟩
  | 40 => ⟨S4000, .f32⟩
  | 41 => ⟨S4000, .f32⟩
  | 42 => ⟨S4000x1, .f32⟩
  | 43 => ⟨S_, .f32⟩
  | 44 => ⟨S2000, .f32⟩
  | 45 => ⟨S_, .f32⟩
  | 46 => ⟨S2000, .f32⟩
  | 47 => ⟨S2000, .i1⟩
  | 48 => ⟨S_, .f32⟩
  | 49 => ⟨S2000, .f32⟩
  | 50 => ⟨S2000, .f32⟩
  | 51 => ⟨S_, .f32⟩
  | 52 => ⟨S2000, .f32⟩
  | 53 => ⟨S2000, .f32⟩
  | 54 => ⟨S_, .f32⟩
  | 55 => ⟨S_, .f32⟩
  | 56 => ⟨S2000, .f32⟩
  | 57 => ⟨S2000, .f32⟩
  | 58 => ⟨S2000x1, .f32⟩
  | 59 => ⟨S_, .f32⟩
  | 60 => ⟨S2000, .f32⟩
  | 61 => ⟨S_, .f32⟩
  | 62 => ⟨S2000, .f32⟩
  | 63 => ⟨S2000, .i1⟩
  | 64 => ⟨S_, .f32⟩
  | 65 => ⟨S2000, .f32⟩
  | 66 => ⟨S2000, .f32⟩
  | 67 => ⟨S_, .f32⟩
  | 68 => ⟨S2000, .f32⟩
  | 69 => ⟨S2000, .f32⟩
  | 70 => ⟨S_, .f32⟩
  | 71 => ⟨S_, .f32⟩
  | 72 => ⟨S2000, .f32⟩
  | 73 => ⟨S2000, .f32⟩
  | 74 => ⟨S2000x1, .f32⟩
  | 75 => ⟨S_, .f32⟩
  | 76 => ⟨S1000, .f32⟩
  | 77 => ⟨S_, .f32⟩
  | 78 => ⟨S1000, .f32⟩
  | 79 => ⟨S1000, .i1⟩
  | 80 => ⟨S_, .f32⟩
  | 81 => ⟨S1000, .f32⟩
  | 82 => ⟨S1000, .f32⟩
  | 83 => ⟨S_, .f32⟩
  | 84 => ⟨S1000, .f32⟩
  | 85 => ⟨S1000, .f32⟩
  | 86 => ⟨S_, .f32⟩
  | 87 => ⟨S_, .f32⟩
  | 88 => ⟨S1000, .f32⟩
  | 89 => ⟨S1000, .f32⟩
  | 90 => ⟨S1000x1, .f32⟩
  | 91 => ⟨S1x256, .f32⟩
  | 92 => ⟨S1x256, .f32⟩
  | 93 => ⟨S1x256, .f32⟩
  | 94 => ⟨S1x256, .f32⟩
  | 95 => ⟨S1x256, .f32⟩
  | 96 => ⟨S4000x4000, .bf16⟩
  | 97 => ⟨S_, .i32⟩
  | 98 => ⟨S_, .bf16⟩
  | 99 => ⟨S4096x4096, .bf16⟩
  | 100 => ⟨S4000x256, .bf16⟩
  | 101 => ⟨S_, .i32⟩
  | 102 => ⟨S_, .bf16⟩
  | 103 => ⟨S4096x256, .bf16⟩
  | 104 => ⟨S_, .f32⟩
  | 105 => ⟨S4096x1, .f32⟩
  | 106 => ⟨S_, .f32⟩
  | 107 => ⟨S4096x1, .f32⟩
  | 108 => ⟨S_, .f32⟩
  | 109 => ⟨S1x256, .f32⟩
  | 110 => ⟨S4096x256, .f32⟩
  | 111 => ⟨S4000x256, .f32⟩
  | 112 => ⟨S2000x4000, .bf16⟩
  | 113 => ⟨S_, .i32⟩
  | 114 => ⟨S_, .bf16⟩
  | 115 => ⟨S2048x4096, .bf16⟩
  | 116 => ⟨S4000x256, .bf16⟩
  | 117 => ⟨S_, .i32⟩
  | 118 => ⟨S_, .bf16⟩
  | 119 => ⟨S4096x256, .bf16⟩
  | 120 => ⟨S_, .f32⟩
  | 121 => ⟨S4096x1, .f32⟩
  | 122 => ⟨S_, .i32⟩
  | 123 => ⟨S_, .f32⟩
  | 124 => ⟨S2048x1, .f32⟩
  | 125 => ⟨S_, .f32⟩
  | 126 => ⟨S1x256, .f32⟩
  | 127 => ⟨S2048x256, .f32⟩
  | _ => ⟨S4000x4000, .f32⟩

abbrev hbmTy0_1 (i : Nat) : BufTy := match i % 128 with
  | 0 => ⟨S2000x256, .f32⟩
  | 1 => ⟨S4000x2000, .bf16⟩
  | 2 => ⟨S_, .i32⟩
  | 3 => ⟨S_, .bf16⟩
  | 4 => ⟨S4096x2048, .bf16⟩
  | 5 => ⟨S2000x256, .bf16⟩
  | 6 => ⟨S_, .i32⟩
  | 7 => ⟨S_, .bf16⟩
  | 8 => ⟨S2048x256, .bf16⟩
  | 9 => ⟨S_, .f32⟩
  | 10 => ⟨S2048x1, .f32⟩
  | 11 => ⟨S_, .i32⟩
  | 12 => ⟨S_, .f32⟩
  | 13 => ⟨S4096x1, .f32⟩
  | 14 => ⟨S4096x256, .f32⟩
  | 15 => ⟨S4000x256, .f32⟩
  | 16 => ⟨S4000x256, .bf16⟩
  | 17 => ⟨S_, .i32⟩
  | 18 => ⟨S_, .bf16⟩
  | 19 => ⟨S4096x256, .bf16⟩
  | 20 => ⟨S256x256, .bf16⟩
  | 21 => ⟨S_, .f32⟩
  | 22 => ⟨S256x1, .f32⟩
  | 23 => ⟨S_, .f32⟩
  | 24 => ⟨S4096x1, .f32⟩
  | 25 => ⟨S_, .f32⟩
  | 26 => ⟨S1x256, .f32⟩
  | 27 => ⟨S4096x256, .f32⟩
  | 28 => ⟨S4000x256, .f32⟩
  | 29 => ⟨S2000x4000, .bf16⟩
  | 30 => ⟨S_, .i32⟩
  | 31 => ⟨S_, .bf16⟩
  | 32 => ⟨S2048x4096, .bf16⟩
  | 33 => ⟨S4000x256, .bf16⟩
  | 34 => ⟨S_, .i32⟩
  | 35 => ⟨S_, .bf16⟩
  | 36 => ⟨S4096x256, .bf16⟩
  | 37 => ⟨S_, .f32⟩
  | 38 => ⟨S4096x1, .f32⟩
  | 39 => ⟨S_, .i32⟩
  | 40 => ⟨S_, .f32⟩
  | 41 => ⟨S2048x1, .f32⟩
  | 42 => ⟨S_, .f32⟩
  | 43 => ⟨S1x256, .f32⟩
  | 44 => ⟨S2048x256, .f32⟩
  | 45 => ⟨S2000x256, .f32⟩
  | 46 => ⟨S4000x2000, .bf16⟩
  | 47 => ⟨S_, .i32⟩
  | 48 => ⟨S_, .bf16⟩
  | 49 => ⟨S4096x2048, .bf16⟩
  | 50 => ⟨S2000x256, .bf16⟩
  | 51 => ⟨S_, .i32⟩
  | 52 => ⟨S_, .bf16⟩
  | 53 => ⟨S2048x256, .bf16⟩
  | 54 => ⟨S_, .f32⟩
  | 55 => ⟨S2048x1, .f32⟩
  | 56 => ⟨S_, .i32⟩
  | 57 => ⟨S_, .f32⟩
  | 58 => ⟨S4096x1, .f32⟩
  | 59 => ⟨S4096x256, .f32⟩
  | 60 => ⟨S4000x256, .f32⟩
  | 61 => ⟨S2000x2000, .bf16⟩
  | 62 => ⟨S_, .i32⟩
  | 63 => ⟨S_, .bf16⟩
  | 64 => ⟨S2048x2048, .bf16⟩
  | 65 => ⟨S2000x256, .bf16⟩
  | 66 => ⟨S_, .i32⟩
  | 67 => ⟨S_, .bf16⟩
  | 68 => ⟨S2048x256, .bf16⟩
  | 69 => ⟨S_, .f32⟩
  | 70 => ⟨S2048x1, .f32⟩
  | 71 => ⟨S_, .f32⟩
  | 72 => ⟨S2048x1, .f32⟩
  | 73 => ⟨S_, .f32⟩
  | 74 => ⟨S1x256, .f32⟩
  | 75 => ⟨S2048x256, .f32⟩
  | 76 => ⟨S2000x256, .f32⟩
  | 77 => ⟨S1000x2000, .bf16⟩
  | 78 => ⟨S_, .i32⟩
  | 79 => ⟨S_, .bf16⟩
  | 80 => ⟨S1000x2048, .bf16⟩
  | 81 => ⟨S2000x256, .bf16⟩
  | 82 => ⟨S_, .i32⟩
  | 83 => ⟨S_, .bf16⟩
  | 84 => ⟨S2048x256, .bf16⟩
  | 85 => ⟨S_, .f32⟩
  | 86 => ⟨S2048x1, .f32⟩
  | 87 => ⟨S_, .f32⟩
  | 88 => ⟨S1x256, .f32⟩
  | 89 => ⟨S1000x256, .f32⟩
  | 90 => ⟨S2000x1000, .bf16⟩
  | 91 => ⟨S_, .i32⟩
  | 92 => ⟨S_, .bf16⟩
  | 93 => ⟨S2048x1000, .bf16⟩
  | 94 => ⟨S1000x256, .bf16⟩
  | 95 => ⟨S_, .f32⟩
  | 96 => ⟨S1000x1, .f32⟩
  | 97 => ⟨S_, .i32⟩
  | 98 => ⟨S_, .f32⟩
  | 99 => ⟨S2048x1, .f32⟩
  | 100 => ⟨S2048x256, .f32⟩
  | 101 => ⟨S2000x256, .f32⟩
  | 102 => ⟨S2000x256, .bf16⟩
  | 103 => ⟨S_, .i32⟩
  | 104 => ⟨S_, .bf16⟩
  | 105 => ⟨S2048x256, .bf16⟩
  | 106 => ⟨S256x256, .bf16⟩
  | 107 => ⟨S_, .f32⟩
  | 108 => ⟨S256x1, .f32⟩
  | 109 => ⟨S_, .f32⟩
  | 110 => ⟨S2048x1, .f32⟩
  | 111 => ⟨S_, .f32⟩
  | 112 => ⟨S1x256, .f32⟩
  | 113 => ⟨S2048x256, .f32⟩
  | 114 => ⟨S2000x256, .f32⟩
  | 115 => ⟨S1000x2000, .bf16⟩
  | 116 => ⟨S_, .i32⟩
  | 117 => ⟨S_, .bf16⟩
  | 118 => ⟨S1000x2048, .bf16⟩
  | 119 => ⟨S2000x256, .bf16⟩
  | 120 => ⟨S_, .i32⟩
  | 121 => ⟨S_, .bf16⟩
  | 122 => ⟨S2048x256, .bf16⟩
  | 123 => ⟨S_, .f32⟩
  | 124 => ⟨S2048x1, .f32⟩
  | 125 => ⟨S_, .f32⟩
  | 126 => ⟨S1x256, .f32⟩
  | 127 => ⟨S1000x256, .f32⟩
  | _ => ⟨S4000x4000, .f32⟩

abbrev hbmTy0_2 (i : Nat) : BufTy := match i % 128 with
  | 0 => ⟨S2000x1000, .bf16⟩
  | 1 => ⟨S_, .i32⟩
  | 2 => ⟨S_, .bf16⟩
  | 3 => ⟨S2048x1000, .bf16⟩
  | 4 => ⟨S1000x256, .bf16⟩
  | 5 => ⟨S_, .f32⟩
  | 6 => ⟨S1000x1, .f32⟩
  | 7 => ⟨S_, .i32⟩
  | 8 => ⟨S_, .f32⟩
  | 9 => ⟨S2048x1, .f32⟩
  | 10 => ⟨S2048x256, .f32⟩
  | 11 => ⟨S2000x256, .f32⟩
  | 12 => ⟨S6000x256, .f32⟩
  | 13 => ⟨S_, .f32⟩
  | 14 => ⟨S6000, .f32⟩
  | 15 => ⟨S_, .f32⟩
  | 16 => ⟨S_, .f32⟩
  | 17 => ⟨S6000, .f32⟩
  | 18 => ⟨S6000, .f32⟩
  | 19 => ⟨S_, .f32⟩
  | 20 => ⟨S6000, .f32⟩
  | 21 => ⟨S6000, .f32⟩
  | 22 => ⟨S6000x1, .f32⟩
  | 23 => ⟨S6000x6000, .bf16⟩
  | 24 => ⟨S6000x6000, .bf16⟩
  | 25 => ⟨S_, .i32⟩
  | 26 => ⟨S_, .bf16⟩
  | 27 => ⟨S6144x6144, .bf16⟩
  | 28 => ⟨S_, .i32⟩
  | 29 => ⟨S_, .f32⟩
  | 30 => ⟨S6144x1, .f32⟩
  | 31 => ⟨S256x256, .bf16⟩
  | 32 => ⟨S6000x256, .bf16⟩
  | 33 => ⟨S_, .i32⟩
  | 34 => ⟨S_, .bf16⟩
  | 35 => ⟨S6144x256, .bf16⟩
  | 36 => ⟨S256x256, .bf16⟩
  | 37 => ⟨S_, .f32⟩
  | 38 => ⟨S256x1, .f32⟩
  | 39 => ⟨S_, .f32⟩
  | 40 => ⟨S6144x1, .f32⟩
  | 41 => ⟨S6144x256, .f32⟩
  | 42 => ⟨S6000x256, .f32⟩
  | 43 => ⟨S_, .i32⟩
  | 44 => ⟨S_, .f32⟩
  | 45 => ⟨S6144x256, .f32⟩
  | 46 => ⟨S6144x256, .bf16⟩
  | 47 => ⟨S6144x256, .bf16⟩
  | 48 => ⟨S6144x256, .f32⟩
  | 49 => ⟨S6000x256, .f32⟩
  | 50 => ⟨S6000x256, .f32⟩
  | 51 => ⟨S6144x256, .bf16⟩
  | 52 => ⟨S6144x256, .f32⟩
  | 53 => ⟨S6000x256, .f32⟩
  | 54 => ⟨S6000x256, .f32⟩
  | 55 => ⟨S6144x256, .bf16⟩
  | 56 => ⟨S6144x256, .f32⟩
  | 57 => ⟨S6000x256, .f32⟩
  | 58 => ⟨S6000x256, .f32⟩
  | 59 => ⟨S_, .f32⟩
  | 60 => ⟨S6000x256, .f32⟩
  | 61 => ⟨S6000x256, .f32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S1, .i32⟩
  | 71 => ⟨S_, .i32⟩
  | 72 => ⟨S16384x1, .i32⟩
  | 73 => ⟨S16384x1, .i1⟩
  | 74 => ⟨S1x1, .i32⟩
  | 75 => ⟨S16384x1, .i32⟩
  | 76 => ⟨S16384x1, .i1⟩
  | 77 => ⟨S16384x1, .i1⟩
  | 78 => ⟨S_, .i1⟩
  | 79 => ⟨S16384, .i1⟩
  | 80 => ⟨S16384x256, .f32⟩
  | 81 => ⟨S16384x256, .i1⟩
  | 82 => ⟨S_, .f32⟩
  | 83 => ⟨S16384x256, .f32⟩
  | 84 => ⟨S16384x256, .f32⟩
  | 85 => ⟨S_, .i32⟩
  | 86 => ⟨S16384, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S1, .i32⟩
  | 97 => ⟨S_, .i32⟩
  | 98 => ⟨S16384x1, .i32⟩
  | 99 => ⟨S16384x1, .i1⟩
  | 100 => ⟨S1x1, .i32⟩
  | 101 => ⟨S16384x1, .i32⟩
  | 102 => ⟨S16384x1, .i1⟩
  | 103 => ⟨S16384x1, .i1⟩
  | 104 => ⟨S_, .i1⟩
  | 105 => ⟨S16384, .i1⟩
  | 106 => ⟨S16384x256, .f32⟩
  | 107 => ⟨S16384x256, .i1⟩
  | 108 => ⟨S_, .f32⟩
  | 109 => ⟨S16384x256, .f32⟩
  | 110 => ⟨S16384x256, .f32⟩
  | 111 => ⟨S16384x256, .f32⟩
  | 112 => ⟨S16384x256, .bf16⟩
  | 113 => ⟨S256x128, .bf16⟩
  | 114 => ⟨S128x64, .bf16⟩
  | 115 => ⟨S64x32, .bf16⟩
  | 116 => ⟨S32x1, .bf16⟩
  | 117 => ⟨S1x128, .f32⟩
  | 118 => ⟨S1x64, .f32⟩
  | 119 => ⟨S1x32, .f32⟩
  | 120 => ⟨S1x1, .f32⟩
  | 121 => ⟨S16384x1, .f32⟩
  | _ => ⟨S4000x4000, .f32⟩

abbrev hbmTy (i : Nat) : BufTy := match i / 128 with
  | 0 => hbmTy0_0 i
  | 1 => hbmTy0_1 i
  | 2 => hbmTy0_2 i
  | _ => ⟨S4000x4000, .f32⟩

abbrev vmemTy0_0 (i : Nat) : BufTy := match i % 128 with
  | 0 => ⟨S1024x1024, .bf16⟩
  | 1 => ⟨S1024x1024, .bf16⟩
  | 2 => ⟨S1024x256, .bf16⟩
  | 3 => ⟨S1024x256, .bf16⟩
  | 4 => ⟨S1024x1, .f32⟩
  | 5 => ⟨S1024x1, .f32⟩
  | 6 => ⟨S1024x1, .f32⟩
  | 7 => ⟨S1024x1, .f32⟩
  | 8 => ⟨S1x256, .f32⟩
  | 9 => ⟨S1024x256, .f32⟩
  | 10 => ⟨S1024x256, .f32⟩
  | 11 => ⟨S1024x256, .f32⟩
  | 12 => ⟨S1024x1024, .bf16⟩
  | 13 => ⟨S1024x1024, .bf16⟩
  | 14 => ⟨S1024x256, .bf16⟩
  | 15 => ⟨S1024x256, .bf16⟩
  | 16 => ⟨S1024x1, .f32⟩
  | 17 => ⟨S1024x1, .f32⟩
  | 18 => ⟨S1024x1, .f32⟩
  | 19 => ⟨S1024x1, .f32⟩
  | 20 => ⟨S1x256, .f32⟩
  | 21 => ⟨S1024x256, .f32⟩
  | 22 => ⟨S1024x256, .f32⟩
  | 23 => ⟨S1024x256, .f32⟩
  | 24 => ⟨S1024x1024, .bf16⟩
  | 25 => ⟨S1024x1024, .bf16⟩
  | 26 => ⟨S1024x256, .bf16⟩
  | 27 => ⟨S1024x256, .bf16⟩
  | 28 => ⟨S1024x1, .f32⟩
  | 29 => ⟨S1024x1, .f32⟩
  | 30 => ⟨S1024x1, .f32⟩
  | 31 => ⟨S1024x1, .f32⟩
  | 32 => ⟨S1x256, .f32⟩
  | 33 => ⟨S1024x256, .f32⟩
  | 34 => ⟨S1024x256, .f32⟩
  | 35 => ⟨S1024x256, .f32⟩
  | 36 => ⟨S1024x256, .bf16⟩
  | 37 => ⟨S1024x256, .bf16⟩
  | 38 => ⟨S256x256, .bf16⟩
  | 39 => ⟨S256x1, .f32⟩
  | 40 => ⟨S1024x1, .f32⟩
  | 41 => ⟨S1024x1, .f32⟩
  | 42 => ⟨S1x256, .f32⟩
  | 43 => ⟨S1024x256, .f32⟩
  | 44 => ⟨S1024x256, .f32⟩
  | 45 => ⟨S1024x256, .f32⟩
  | 46 => ⟨S1024x1024, .bf16⟩
  | 47 => ⟨S1024x1024, .bf16⟩
  | 48 => ⟨S1024x256, .bf16⟩
  | 49 => ⟨S1024x256, .bf16⟩
  | 50 => ⟨S1024x1, .f32⟩
  | 51 => ⟨S1024x1, .f32⟩
  | 52 => ⟨S1024x1, .f32⟩
  | 53 => ⟨S1024x1, .f32⟩
  | 54 => ⟨S1x256, .f32⟩
  | 55 => ⟨S1024x256, .f32⟩
  | 56 => ⟨S1024x256, .f32⟩
  | 57 => ⟨S1024x256, .f32⟩
  | 58 => ⟨S1024x1024, .bf16⟩
  | 59 => ⟨S1024x1024, .bf16⟩
  | 60 => ⟨S1024x256, .bf16⟩
  | 61 => ⟨S1024x256, .bf16⟩
  | 62 => ⟨S1024x1, .f32⟩
  | 63 => ⟨S1024x1, .f32⟩
  | 64 => ⟨S1024x1, .f32⟩
  | 65 => ⟨S1024x1, .f32⟩
  | 66 => ⟨S1x256, .f32⟩
  | 67 => ⟨S1024x256, .f32⟩
  | 68 => ⟨S1024x256, .f32⟩
  | 69 => ⟨S1024x256, .f32⟩
  | 70 => ⟨S1024x1024, .bf16⟩
  | 71 => ⟨S1024x1024, .bf16⟩
  | 72 => ⟨S1024x256, .bf16⟩
  | 73 => ⟨S1024x256, .bf16⟩
  | 74 => ⟨S1024x1, .f32⟩
  | 75 => ⟨S1024x1, .f32⟩
  | 76 => ⟨S1024x1, .f32⟩
  | 77 => ⟨S1024x1, .f32⟩
  | 78 => ⟨S1x256, .f32⟩
  | 79 => ⟨S1024x256, .f32⟩
  | 80 => ⟨S1024x256, .f32⟩
  | 81 => ⟨S1024x256, .f32⟩
  | 82 => ⟨S1000x1024, .bf16⟩
  | 83 => ⟨S1000x1024, .bf16⟩
  | 84 => ⟨S1024x256, .bf16⟩
  | 85 => ⟨S1024x256, .bf16⟩
  | 86 => ⟨S1024x1, .f32⟩
  | 87 => ⟨S1024x1, .f32⟩
  | 88 => ⟨S1000x1, .f32⟩
  | 89 => ⟨S1x256, .f32⟩
  | 90 => ⟨S1000x256, .f32⟩
  | 91 => ⟨S1000x256, .f32⟩
  | 92 => ⟨S1024x1000, .bf16⟩
  | 93 => ⟨S1024x1000, .bf16⟩
  | 94 => ⟨S1000x256, .bf16⟩
  | 95 => ⟨S1000x1, .f32⟩
  | 96 => ⟨S1024x1, .f32⟩
  | 97 => ⟨S1024x1, .f32⟩
  | 98 => ⟨S1x256, .f32⟩
  | 99 => ⟨S1024x256, .f32⟩
  | 100 => ⟨S1024x256, .f32⟩
  | 101 => ⟨S1024x256, .f32⟩
  | 102 => ⟨S1024x256, .bf16⟩
  | 103 => ⟨S1024x256, .bf16⟩
  | 104 => ⟨S256x256, .bf16⟩
  | 105 => ⟨S256x1, .f32⟩
  | 106 => ⟨S1024x1, .f32⟩
  | 107 => ⟨S1024x1, .f32⟩
  | 108 => ⟨S1x256, .f32⟩
  | 109 => ⟨S1024x256, .f32⟩
  | 110 => ⟨S1024x256, .f32⟩
  | 111 => ⟨S1024x256, .f32⟩
  | 112 => ⟨S1000x1024, .bf16⟩
  | 113 => ⟨S1000x1024, .bf16⟩
  | 114 => ⟨S1024x256, .bf16⟩
  | 115 => ⟨S1024x256, .bf16⟩
  | 116 => ⟨S1024x1, .f32⟩
  | 117 => ⟨S1024x1, .f32⟩
  | 118 => ⟨S1000x1, .f32⟩
  | 119 => ⟨S1x256, .f32⟩
  | 120 => ⟨S1000x256, .f32⟩
  | 121 => ⟨S1000x256, .f32⟩
  | 122 => ⟨S1024x1000, .bf16⟩
  | 123 => ⟨S1024x1000, .bf16⟩
  | 124 => ⟨S1000x256, .bf16⟩
  | 125 => ⟨S1000x1, .f32⟩
  | 126 => ⟨S1024x1, .f32⟩
  | 127 => ⟨S1024x1, .f32⟩
  | _ => ⟨S4000x4000, .f32⟩

abbrev vmemTy0_1 (i : Nat) : BufTy := match i % 128 with
  | 0 => ⟨S1x256, .f32⟩
  | 1 => ⟨S1024x256, .f32⟩
  | 2 => ⟨S1024x256, .f32⟩
  | 3 => ⟨S1024x256, .f32⟩
  | 4 => ⟨S1024x256, .bf16⟩
  | 5 => ⟨S1024x256, .bf16⟩
  | 6 => ⟨S256x256, .bf16⟩
  | 7 => ⟨S256x1, .f32⟩
  | 8 => ⟨S1024x1, .f32⟩
  | 9 => ⟨S1024x1, .f32⟩
  | 10 => ⟨S1x256, .f32⟩
  | 11 => ⟨S1024x256, .f32⟩
  | 12 => ⟨S1024x256, .f32⟩
  | 13 => ⟨S1024x256, .f32⟩
  | 14 => ⟨S1024x1024, .bf16⟩
  | 15 => ⟨S1024x1024, .bf16⟩
  | 16 => ⟨S6144x256, .bf16⟩
  | 17 => ⟨S1024x1, .f32⟩
  | 18 => ⟨S1024x1, .f32⟩
  | 19 => ⟨S1024x1, .f32⟩
  | 20 => ⟨S1024x1, .f32⟩
  | 21 => ⟨S256x256, .bf16⟩
  | 22 => ⟨S1x256, .f32⟩
  | 23 => ⟨S1024x256, .bf16⟩
  | 24 => ⟨S1024x256, .bf16⟩
  | 25 => ⟨S1024x256, .f32⟩
  | 26 => ⟨S1024x256, .f32⟩
  | 27 => ⟨S1024x256, .f32⟩
  | 28 => ⟨S1024x1024, .bf16⟩
  | 29 => ⟨S1024x1024, .bf16⟩
  | 30 => ⟨S6144x256, .bf16⟩
  | 31 => ⟨S1024x1, .f32⟩
  | 32 => ⟨S1024x1, .f32⟩
  | 33 => ⟨S1024x1, .f32⟩
  | 34 => ⟨S1024x1, .f32⟩
  | 35 => ⟨S256x256, .bf16⟩
  | 36 => ⟨S1x256, .f32⟩
  | 37 => ⟨S1024x256, .bf16⟩
  | 38 => ⟨S1024x256, .bf16⟩
  | 39 => ⟨S1024x256, .f32⟩
  | 40 => ⟨S1024x256, .f32⟩
  | 41 => ⟨S1024x256, .f32⟩
  | 42 => ⟨S1024x1024, .bf16⟩
  | 43 => ⟨S1024x1024, .bf16⟩
  | 44 => ⟨S6144x256, .bf16⟩
  | 45 => ⟨S1024x1, .f32⟩
  | 46 => ⟨S1024x1, .f32⟩
  | 47 => ⟨S1024x1, .f32⟩
  | 48 => ⟨S1024x1, .f32⟩
  | 49 => ⟨S256x256, .bf16⟩
  | 50 => ⟨S1x256, .f32⟩
  | 51 => ⟨S1024x256, .bf16⟩
  | 52 => ⟨S1024x256, .bf16⟩
  | 53 => ⟨S1024x256, .f32⟩
  | 54 => ⟨S1024x256, .f32⟩
  | 55 => ⟨S1024x256, .f32⟩
  | 56 => ⟨S2048x256, .bf16⟩
  | 57 => ⟨S2048x256, .bf16⟩
  | 58 => ⟨S256x128, .bf16⟩
  | 59 => ⟨S1x128, .f32⟩
  | 60 => ⟨S128x64, .bf16⟩
  | 61 => ⟨S1x64, .f32⟩
  | 62 => ⟨S64x32, .bf16⟩
  | 63 => ⟨S1x32, .f32⟩
  | 64 => ⟨S32x1, .bf16⟩
  | 65 => ⟨S1x1, .f32⟩
  | 66 => ⟨S2048x1, .f32⟩
  | 67 => ⟨S2048x1, .f32⟩
  | _ => ⟨S4000x4000, .f32⟩

abbrev vmemTy (i : Nat) : BufTy := match i / 128 with
  | 0 => vmemTy0_0 i
  | 1 => vmemTy0_1 i
  | _ => ⟨S4000x4000, .f32⟩

abbrev bufTy : (tb : Table) → Fin (tcTables nBuf tb) → BufTy
  | .hbm, ⟨i, _⟩ => hbmTy i
  | .local _ .vmem, ⟨i, _⟩ => vmemTy i
  | _, _ => ⟨S4000x4000, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 180 → Bool
  | ⟨i, _⟩ => dmaSemScopedAt i

abbrev sig : RefSig :=
  ofTc nBuf bufTy 0 180 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_cst_2 : Ref sig .tc := ⟨.hbm, 35, rfl⟩
abbrev main_v7 : Ref sig .tc := ⟨.hbm, 36, rfl⟩
abbrev main_v8 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v9 : Ref sig .tc := ⟨.hbm, 41, rfl⟩
abbrev main_v10 : Ref sig .tc := ⟨.hbm, 42, rfl⟩
abbrev main_cst_4 : Ref sig .tc := ⟨.hbm, 43, rfl⟩
abbrev main_v11 : Ref sig .tc := ⟨.hbm, 44, rfl⟩
abbrev main_cst_5 : Ref sig .tc := ⟨.hbm, 45, rfl⟩
abbrev main_v12 : Ref sig .tc := ⟨.hbm, 46, rfl⟩
abbrev main_v13 : Ref sig .tc := ⟨.hbm, 47, rfl⟩
abbrev main_cst_6 : Ref sig .tc := ⟨.hbm, 48, rfl⟩
abbrev main_v14 : Ref sig .tc := ⟨.hbm, 49, rfl⟩
abbrev main_v15 : Ref sig .tc := ⟨.hbm, 50, rfl⟩
abbrev main_cst_7 : Ref sig .tc := ⟨.hbm, 51, rfl⟩
abbrev main_v16 : Ref sig .tc := ⟨.hbm, 52, rfl⟩
abbrev main_v17 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_v18 : Ref sig .tc := ⟨.hbm, 57, rfl⟩
abbrev main_v19 : Ref sig .tc := ⟨.hbm, 58, rfl⟩
abbrev main_cst_9 : Ref sig .tc := ⟨.hbm, 59, rfl⟩
abbrev main_v20 : Ref sig .tc := ⟨.hbm, 60, rfl⟩
abbrev main_cst_10 : Ref sig .tc := ⟨.hbm, 61, rfl⟩
abbrev main_v21 : Ref sig .tc := ⟨.hbm, 62, rfl⟩
abbrev main_v22 : Ref sig .tc := ⟨.hbm, 63, rfl⟩
abbrev main_cst_11 : Ref sig .tc := ⟨.hbm, 64, rfl⟩
abbrev main_v23 : Ref sig .tc := ⟨.hbm, 65, rfl⟩
abbrev main_v24 : Ref sig .tc := ⟨.hbm, 66, rfl⟩
abbrev main_cst_12 : Ref sig .tc := ⟨.hbm, 67, rfl⟩
abbrev main_v25 : Ref sig .tc := ⟨.hbm, 68, rfl⟩
abbrev main_v26 : Ref sig .tc := ⟨.hbm, 69, rfl⟩
abbrev main_cst_13 : Ref sig .tc := ⟨.hbm, 70, rfl⟩
abbrev main_call2_v0 : Ref sig .tc := ⟨.hbm, 71, rfl⟩
abbrev main_call2_v1 : Ref sig .tc := ⟨.hbm, 72, rfl⟩
abbrev main_v27 : Ref sig .tc := ⟨.hbm, 73, rfl⟩
abbrev main_v28 : Ref sig .tc := ⟨.hbm, 74, rfl⟩
abbrev main_cst_14 : Ref sig .tc := ⟨.hbm, 75, rfl⟩
abbrev main_v29 : Ref sig .tc := ⟨.hbm, 76, rfl⟩
abbrev main_cst_15 : Ref sig .tc := ⟨.hbm, 77, rfl⟩
abbrev main_v30 : Ref sig .tc := ⟨.hbm, 78, rfl⟩
abbrev main_v31 : Ref sig .tc := ⟨.hbm, 79, rfl⟩
abbrev main_cst_16 : Ref sig .tc := ⟨.hbm, 80, rfl⟩
abbrev main_v32 : Ref sig .tc := ⟨.hbm, 81, rfl⟩
abbrev main_v33 : Ref sig .tc := ⟨.hbm, 82, rfl⟩
abbrev main_cst_17 : Ref sig .tc := ⟨.hbm, 83, rfl⟩
abbrev main_v34 : Ref sig .tc := ⟨.hbm, 84, rfl⟩
abbrev main_v35 : Ref sig .tc := ⟨.hbm, 85, rfl⟩
abbrev main_cst_18 : Ref sig .tc := ⟨.hbm, 86, rfl⟩
abbrev main_call3_v0 : Ref sig .tc := ⟨.hbm, 87, rfl⟩
abbrev main_call3_v1 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_c : Ref sig .tc := ⟨.hbm, 97, rfl⟩
abbrev main_call4_v0 : Ref sig .tc := ⟨.hbm, 98, rfl⟩
abbrev main_v44 : Ref sig .tc := ⟨.hbm, 99, rfl⟩
abbrev main_v45 : Ref sig .tc := ⟨.hbm, 100, rfl⟩
abbrev main_c_19 : Ref sig .tc := ⟨.hbm, 101, rfl⟩
abbrev main_call5_v0 : Ref sig .tc := ⟨.hbm, 102, rfl⟩
abbrev main_v46 : Ref sig .tc := ⟨.hbm, 103, rfl⟩
abbrev main_cst_20 : Ref sig .tc := ⟨.hbm, 104, rfl⟩
abbrev main_v47 : Ref sig .tc := ⟨.hbm, 105, rfl⟩
abbrev main_cst_21 : Ref sig .tc := ⟨.hbm, 106, rfl⟩
abbrev main_v48 : Ref sig .tc := ⟨.hbm, 107, rfl⟩
abbrev main_cst_22 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_c_23 : Ref sig .tc := ⟨.hbm, 113, rfl⟩
abbrev main_call6_v0 : Ref sig .tc := ⟨.hbm, 114, rfl⟩
abbrev main_v53 : Ref sig .tc := ⟨.hbm, 115, rfl⟩
abbrev main_v54 : Ref sig .tc := ⟨.hbm, 116, rfl⟩
abbrev main_c_24 : Ref sig .tc := ⟨.hbm, 117, rfl⟩
abbrev main_call7_v0 : Ref sig .tc := ⟨.hbm, 118, rfl⟩
abbrev main_v55 : Ref sig .tc := ⟨.hbm, 119, rfl⟩
abbrev main_cst_25 : Ref sig .tc := ⟨.hbm, 120, rfl⟩
abbrev main_v56 : Ref sig .tc := ⟨.hbm, 121, rfl⟩
abbrev main_c_26 : Ref sig .tc := ⟨.hbm, 122, rfl⟩
abbrev main_call8_v0 : Ref sig .tc := ⟨.hbm, 123, rfl⟩
abbrev main_v57 : Ref sig .tc := ⟨.hbm, 124, rfl⟩
abbrev main_cst_27 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_c_28 : Ref sig .tc := ⟨.hbm, 130, rfl⟩
abbrev main_call9_v0 : Ref sig .tc := ⟨.hbm, 131, rfl⟩
abbrev main_v62 : Ref sig .tc := ⟨.hbm, 132, rfl⟩
abbrev main_v63 : Ref sig .tc := ⟨.hbm, 133, rfl⟩
abbrev main_c_29 : Ref sig .tc := ⟨.hbm, 134, rfl⟩
abbrev main_call10_v0 : Ref sig .tc := ⟨.hbm, 135, rfl⟩
abbrev main_v64 : Ref sig .tc := ⟨.hbm, 136, rfl⟩
abbrev main_cst_30 : Ref sig .tc := ⟨.hbm, 137, rfl⟩
abbrev main_v65 : Ref sig .tc := ⟨.hbm, 138, rfl⟩
abbrev main_c_31 : Ref sig .tc := ⟨.hbm, 139, rfl⟩
abbrev main_call11_v0 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_c_32 : Ref sig .tc := ⟨.hbm, 145, rfl⟩
abbrev main_call12_v0 : Ref sig .tc := ⟨.hbm, 146, rfl⟩
abbrev main_v70 : Ref sig .tc := ⟨.hbm, 147, rfl⟩
abbrev main_v71 : Ref sig .tc := ⟨.hbm, 148, rfl⟩
abbrev main_cst_33 : Ref sig .tc := ⟨.hbm, 149, rfl⟩
abbrev main_v72 : Ref sig .tc := ⟨.hbm, 150, rfl⟩
abbrev main_cst_34 : Ref sig .tc := ⟨.hbm, 151, rfl⟩
abbrev main_v73 : Ref sig .tc := ⟨.hbm, 152, rfl⟩
abbrev main_cst_35 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_c_36 : Ref sig .tc := ⟨.hbm, 158, rfl⟩
abbrev main_call13_v0 : Ref sig .tc := ⟨.hbm, 159, rfl⟩
abbrev main_v78 : Ref sig .tc := ⟨.hbm, 160, rfl⟩
abbrev main_v79 : Ref sig .tc := ⟨.hbm, 161, rfl⟩
abbrev main_c_37 : Ref sig .tc := ⟨.hbm, 162, rfl⟩
abbrev main_call14_v0 : Ref sig .tc := ⟨.hbm, 163, rfl⟩
abbrev main_v80 : Ref sig .tc := ⟨.hbm, 164, rfl⟩
abbrev main_cst_38 : Ref sig .tc := ⟨.hbm, 165, rfl⟩
abbrev main_v81 : Ref sig .tc := ⟨.hbm, 166, rfl⟩
abbrev main_c_39 : Ref sig .tc := ⟨.hbm, 167, rfl⟩
abbrev main_call15_v0 : Ref sig .tc := ⟨.hbm, 168, rfl⟩
abbrev main_v82 : Ref sig .tc := ⟨.hbm, 169, rfl⟩
abbrev main_cst_40 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_c_41 : Ref sig .tc := ⟨.hbm, 175, rfl⟩
abbrev main_call16_v0 : Ref sig .tc := ⟨.hbm, 176, rfl⟩
abbrev main_v87 : Ref sig .tc := ⟨.hbm, 177, rfl⟩
abbrev main_v88 : Ref sig .tc := ⟨.hbm, 178, rfl⟩
abbrev main_c_42 : Ref sig .tc := ⟨.hbm, 179, rfl⟩
abbrev main_call17_v0 : Ref sig .tc := ⟨.hbm, 180, rfl⟩
abbrev main_v89 : Ref sig .tc := ⟨.hbm, 181, rfl⟩
abbrev main_cst_43 : Ref sig .tc := ⟨.hbm, 182, rfl⟩
abbrev main_v90 : Ref sig .tc := ⟨.hbm, 183, rfl⟩
abbrev main_c_44 : Ref sig .tc := ⟨.hbm, 184, rfl⟩
abbrev main_call18_v0 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_c_45 : Ref sig .tc := ⟨.hbm, 190, rfl⟩
abbrev main_call19_v0 : Ref sig .tc := ⟨.hbm, 191, rfl⟩
abbrev main_v95 : Ref sig .tc := ⟨.hbm, 192, rfl⟩
abbrev main_v96 : Ref sig .tc := ⟨.hbm, 193, rfl⟩
abbrev main_c_46 : Ref sig .tc := ⟨.hbm, 194, rfl⟩
abbrev main_call20_v0 : Ref sig .tc := ⟨.hbm, 195, rfl⟩
abbrev main_v97 : Ref sig .tc := ⟨.hbm, 196, rfl⟩
abbrev main_cst_47 : Ref sig .tc := ⟨.hbm, 197, rfl⟩
abbrev main_v98 : Ref sig .tc := ⟨.hbm, 198, rfl⟩
abbrev main_cst_48 : Ref sig .tc := ⟨.hbm, 199, rfl⟩
abbrev main_v99 : Ref sig .tc := ⟨.hbm, 200, rfl⟩
abbrev main_cst_49 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_c_50 : Ref sig .tc := ⟨.hbm, 206, rfl⟩
abbrev main_call21_v0 : Ref sig .tc := ⟨.hbm, 207, rfl⟩
abbrev main_v104 : Ref sig .tc := ⟨.hbm, 208, rfl⟩
abbrev main_v105 : Ref sig .tc := ⟨.hbm, 209, rfl⟩
abbrev main_c_51 : Ref sig .tc := ⟨.hbm, 210, rfl⟩
abbrev main_call22_v0 : Ref sig .tc := ⟨.hbm, 211, rfl⟩
abbrev main_v106 : Ref sig .tc := ⟨.hbm, 212, rfl⟩
abbrev main_cst_52 : Ref sig .tc := ⟨.hbm, 213, rfl⟩
abbrev main_v107 : Ref sig .tc := ⟨.hbm, 214, rfl⟩
abbrev main_cst_53 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_c_54 : Ref sig .tc := ⟨.hbm, 219, rfl⟩
abbrev main_call23_v0 : Ref sig .tc := ⟨.hbm, 220, rfl⟩
abbrev main_v111 : Ref sig .tc := ⟨.hbm, 221, rfl⟩
abbrev main_v112 : Ref sig .tc := ⟨.hbm, 222, rfl⟩
abbrev main_cst_55 : Ref sig .tc := ⟨.hbm, 223, rfl⟩
abbrev main_v113 : Ref sig .tc := ⟨.hbm, 224, rfl⟩
abbrev main_c_56 : Ref sig .tc := ⟨.hbm, 225, rfl⟩
abbrev main_call24_v0 : Ref sig .tc := ⟨.hbm, 226, rfl⟩
abbrev main_v114 : Ref sig .tc := ⟨.hbm, 227, rfl⟩
abbrev main_v115 : Ref sig .tc := ⟨.hbm, 228, rfl⟩
abbrev main_v116 : Ref sig .tc := ⟨.hbm, 229, rfl⟩
abbrev main_v117 : Ref sig .tc := ⟨.hbm, 230, rfl⟩
abbrev main_c_57 : Ref sig .tc := ⟨.hbm, 231, rfl⟩
abbrev main_call25_v0 : Ref sig .tc := ⟨.hbm, 232, rfl⟩
abbrev main_v118 : Ref sig .tc := ⟨.hbm, 233, rfl⟩
abbrev main_v119 : Ref sig .tc := ⟨.hbm, 234, rfl⟩
abbrev main_cst_58 : Ref sig .tc := ⟨.hbm, 235, rfl⟩
abbrev main_v120 : Ref sig .tc := ⟨.hbm, 236, rfl⟩
abbrev main_cst_59 : Ref sig .tc := ⟨.hbm, 237, rfl⟩
abbrev main_v121 : Ref sig .tc := ⟨.hbm, 238, rfl⟩
abbrev main_cst_60 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_c_61 : Ref sig .tc := ⟨.hbm, 244, rfl⟩
abbrev main_call26_v0 : Ref sig .tc := ⟨.hbm, 245, rfl⟩
abbrev main_v126 : Ref sig .tc := ⟨.hbm, 246, rfl⟩
abbrev main_v127 : Ref sig .tc := ⟨.hbm, 247, rfl⟩
abbrev main_c_62 : Ref sig .tc := ⟨.hbm, 248, rfl⟩
abbrev main_call27_v0 : Ref sig .tc := ⟨.hbm, 249, rfl⟩
abbrev main_v128 : Ref sig .tc := ⟨.hbm, 250, rfl⟩
abbrev main_cst_63 : Ref sig .tc := ⟨.hbm, 251, rfl⟩
abbrev main_v129 : Ref sig .tc := ⟨.hbm, 252, rfl⟩
abbrev main_cst_64 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_c_65 : Ref sig .tc := ⟨.hbm, 257, rfl⟩
abbrev main_call28_v0 : Ref sig .tc := ⟨.hbm, 258, rfl⟩
abbrev main_v133 : Ref sig .tc := ⟨.hbm, 259, rfl⟩
abbrev main_v134 : Ref sig .tc := ⟨.hbm, 260, rfl⟩
abbrev main_cst_66 : Ref sig .tc := ⟨.hbm, 261, rfl⟩
abbrev main_v135 : Ref sig .tc := ⟨.hbm, 262, rfl⟩
abbrev main_c_67 : Ref sig .tc := ⟨.hbm, 263, rfl⟩
abbrev main_call29_v0 : Ref sig .tc := ⟨.hbm, 264, rfl⟩
abbrev main_v136 : Ref sig .tc := ⟨.hbm, 265, rfl⟩
abbrev main_v137 : Ref sig .tc := ⟨.hbm, 266, rfl⟩
abbrev main_v138 : Ref sig .tc := ⟨.hbm, 267, rfl⟩
abbrev main_v139 : Ref sig .tc := ⟨.hbm, 268, rfl⟩
abbrev main_cst_68 : Ref sig .tc := ⟨.hbm, 269, rfl⟩
abbrev main_v140 : Ref sig .tc := ⟨.hbm, 270, rfl⟩
abbrev main_cst_69 : Ref sig .tc := ⟨.hbm, 271, rfl⟩
abbrev main_call30_v0 : Ref sig .tc := ⟨.hbm, 272, rfl⟩
abbrev main_call30_v1 : Ref sig .tc := ⟨.hbm, 273, rfl⟩
abbrev main_v141 : Ref sig .tc := ⟨.hbm, 274, rfl⟩
abbrev main_cst_70 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_c_71 : Ref sig .tc := ⟨.hbm, 281, rfl⟩
abbrev main_call31_v0 : Ref sig .tc := ⟨.hbm, 282, rfl⟩
abbrev main_v147 : Ref sig .tc := ⟨.hbm, 283, rfl⟩
abbrev main_c_72 : Ref sig .tc := ⟨.hbm, 284, rfl⟩
abbrev main_call32_v0 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_c_73 : Ref sig .tc := ⟨.hbm, 289, rfl⟩
abbrev main_call33_v0 : Ref sig .tc := ⟨.hbm, 290, rfl⟩
abbrev main_v151 : Ref sig .tc := ⟨.hbm, 291, rfl⟩
abbrev main_v152 : Ref sig .tc := ⟨.hbm, 292, rfl⟩
abbrev main_cst_74 : Ref sig .tc := ⟨.hbm, 293, rfl⟩
abbrev main_v153 : Ref sig .tc := ⟨.hbm, 294, rfl⟩
abbrev main_cst_75 : Ref sig .tc := ⟨.hbm, 295, rfl⟩
abbrev main_v154 : Ref sig .tc := ⟨.hbm, 296, rfl⟩
abbrev main_v155 : Ref sig .tc := ⟨.hbm, 297, rfl⟩
abbrev main_v156 : Ref sig .tc := ⟨.hbm, 298, rfl⟩
abbrev main_c_76 : Ref sig .tc := ⟨.hbm, 299, rfl⟩
abbrev main_call34_v0 : Ref sig .tc := ⟨.hbm, 300, rfl⟩
abbrev main_v157 : Ref sig .tc := ⟨.hbm, 301, rfl⟩
abbrev main_v158 : Ref sig .tc := ⟨.hbm, 302, rfl⟩
abbrev main_v159_0 : Ref sig .tc := ⟨.hbm, 303, rfl⟩
abbrev main_v159_1 : Ref sig .tc := ⟨.hbm, 304, rfl⟩
abbrev main_v160 : Ref sig .tc := ⟨.hbm, 305, rfl⟩
abbrev main_v161 : Ref sig .tc := ⟨.hbm, 306, rfl⟩
abbrev main_v162_0 : Ref sig .tc := ⟨.hbm, 307, rfl⟩
abbrev main_v162_1 : Ref sig .tc := ⟨.hbm, 308, rfl⟩
abbrev main_v163 : Ref sig .tc := ⟨.hbm, 309, rfl⟩
abbrev main_v164 : Ref sig .tc := ⟨.hbm, 310, rfl⟩
abbrev main_v165_0 : Ref sig .tc := ⟨.hbm, 311, rfl⟩
abbrev main_v165_1 : Ref sig .tc := ⟨.hbm, 312, rfl⟩
abbrev main_v166 : Ref sig .tc := ⟨.hbm, 313, rfl⟩
abbrev main_v167 : Ref sig .tc := ⟨.hbm, 314, rfl⟩
abbrev main_cst_77 : Ref sig .tc := ⟨.hbm, 315, rfl⟩
abbrev main_v168 : Ref sig .tc := ⟨.hbm, 316, rfl⟩
abbrev main_v169 : Ref sig .tc := ⟨.hbm, 317, rfl⟩
abbrev main_call35_c : Ref sig .tc := ⟨.hbm, 318, rfl⟩
abbrev main_call35_v0 : Ref sig .tc := ⟨.hbm, 319, rfl⟩
abbrev main_call35_v1 : Ref sig .tc := ⟨.hbm, 320, rfl⟩
abbrev main_call35_c_0 : Ref sig .tc := ⟨.hbm, 321, rfl⟩
abbrev main_call35_v2 : Ref sig .tc := ⟨.hbm, 322, rfl⟩
abbrev main_call35_v3 : Ref sig .tc := ⟨.hbm, 323, rfl⟩
abbrev main_call35_v4 : Ref sig .tc := ⟨.hbm, 324, rfl⟩
abbrev main_call35_v5 : Ref sig .tc := ⟨.hbm, 325, rfl⟩
abbrev main_call35_c_1 : Ref sig .tc := ⟨.hbm, 326, rfl⟩
abbrev main_call35_c_2 : Ref sig .tc := ⟨.hbm, 327, rfl⟩
abbrev main_call35_v6 : Ref sig .tc := ⟨.hbm, 328, rfl⟩
abbrev main_call35_v7 : Ref sig .tc := ⟨.hbm, 329, rfl⟩
abbrev main_call35_v8 : Ref sig .tc := ⟨.hbm, 330, rfl⟩
abbrev main_call35_v9 : Ref sig .tc := ⟨.hbm, 331, rfl⟩
abbrev main_call35_v10 : Ref sig .tc := ⟨.hbm, 332, rfl⟩
abbrev main_call35_v11 : Ref sig .tc := ⟨.hbm, 333, rfl⟩
abbrev main_call35_c_3 : Ref sig .tc := ⟨.hbm, 334, rfl⟩
abbrev main_call35_v12 : Ref sig .tc := ⟨.hbm, 335, rfl⟩
abbrev main_call35_v13 : Ref sig .tc := ⟨.hbm, 336, rfl⟩
abbrev main_call35_v14 : Ref sig .tc := ⟨.hbm, 337, rfl⟩
abbrev main_call35_cst : Ref sig .tc := ⟨.hbm, 338, rfl⟩
abbrev main_call35_v15 : Ref sig .tc := ⟨.hbm, 339, rfl⟩
abbrev main_v170 : Ref sig .tc := ⟨.hbm, 340, rfl⟩
abbrev main_c_78 : Ref sig .tc := ⟨.hbm, 341, rfl⟩
abbrev main_v171 : Ref sig .tc := ⟨.hbm, 342, rfl⟩
abbrev main_v172 : Ref sig .tc := ⟨.hbm, 343, rfl⟩
abbrev main_call36_c : Ref sig .tc := ⟨.hbm, 344, rfl⟩
abbrev main_call36_v0 : Ref sig .tc := ⟨.hbm, 345, rfl⟩
abbrev main_call36_v1 : Ref sig .tc := ⟨.hbm, 346, rfl⟩
abbrev main_call36_c_0 : Ref sig .tc := ⟨.hbm, 347, rfl⟩
abbrev main_call36_v2 : Ref sig .tc := ⟨.hbm, 348, rfl⟩
abbrev main_call36_v3 : Ref sig .tc := ⟨.hbm, 349, rfl⟩
abbrev main_call36_v4 : Ref sig .tc := ⟨.hbm, 350, rfl⟩
abbrev main_call36_v5 : Ref sig .tc := ⟨.hbm, 351, rfl⟩
abbrev main_call36_c_1 : Ref sig .tc := ⟨.hbm, 352, rfl⟩
abbrev main_call36_c_2 : Ref sig .tc := ⟨.hbm, 353, rfl⟩
abbrev main_call36_v6 : Ref sig .tc := ⟨.hbm, 354, rfl⟩
abbrev main_call36_v7 : Ref sig .tc := ⟨.hbm, 355, rfl⟩
abbrev main_call36_v8 : Ref sig .tc := ⟨.hbm, 356, rfl⟩
abbrev main_call36_v9 : Ref sig .tc := ⟨.hbm, 357, rfl⟩
abbrev main_call36_v10 : Ref sig .tc := ⟨.hbm, 358, rfl⟩
abbrev main_call36_v11 : Ref sig .tc := ⟨.hbm, 359, rfl⟩
abbrev main_call36_c_3 : Ref sig .tc := ⟨.hbm, 360, rfl⟩
abbrev main_call36_v12 : Ref sig .tc := ⟨.hbm, 361, rfl⟩
abbrev main_call36_v13 : Ref sig .tc := ⟨.hbm, 362, rfl⟩
abbrev main_call36_v14 : Ref sig .tc := ⟨.hbm, 363, rfl⟩
abbrev main_call36_cst : Ref sig .tc := ⟨.hbm, 364, rfl⟩
abbrev main_call36_v15 : Ref sig .tc := ⟨.hbm, 365, rfl⟩
abbrev main_v173 : Ref sig .tc := ⟨.hbm, 366, rfl⟩
abbrev main_v174 : Ref sig .tc := ⟨.hbm, 367, rfl⟩
abbrev main_v175 : Ref sig .tc := ⟨.hbm, 368, rfl⟩
abbrev main_v176 : Ref sig .tc := ⟨.hbm, 369, rfl⟩
abbrev main_v177 : Ref sig .tc := ⟨.hbm, 370, rfl⟩
abbrev main_v178 : Ref sig .tc := ⟨.hbm, 371, rfl⟩
abbrev main_v179 : Ref sig .tc := ⟨.hbm, 372, rfl⟩
abbrev main_v180 : Ref sig .tc := ⟨.hbm, 373, rfl⟩
abbrev main_v181 : Ref sig .tc := ⟨.hbm, 374, rfl⟩
abbrev main_v182 : Ref sig .tc := ⟨.hbm, 375, rfl⟩
abbrev main_v183 : Ref sig .tc := ⟨.hbm, 376, rfl⟩
abbrev main_v184 : Ref sig .tc := ⟨.hbm, 377, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc2_scratch0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg5_1 : Ref sig .tc := ⟨.vmem, 44, rfl⟩
abbrev cc3_scratch0 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg3_1 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg5_1 : Ref sig .tc := ⟨.vmem, 56, rfl⟩
abbrev cc4_scratch0 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg3_1 : Ref sig .tc := ⟨.vmem, 65, rfl⟩
abbrev cc5_stg4_0 : Ref sig .tc := ⟨.vmem, 66, rfl⟩
abbrev cc5_stg5_0 : Ref sig .tc := ⟨.vmem, 67, rfl⟩
abbrev cc5_stg5_1 : Ref sig .tc := ⟨.vmem, 68, rfl⟩
abbrev cc5_scratch0 : Ref sig .tc := ⟨.vmem, 69, rfl⟩
abbrev cc6_stg0_0 : Ref sig .tc := ⟨.vmem, 70, rfl⟩
abbrev cc6_stg0_1 : Ref sig .tc := ⟨.vmem, 71, rfl⟩
abbrev cc6_stg1_0 : Ref sig .tc := ⟨.vmem, 72, rfl⟩
abbrev cc6_stg1_1 : Ref sig .tc := ⟨.vmem, 73, rfl⟩
abbrev cc6_stg2_0 : Ref sig .tc := ⟨.vmem, 74, rfl⟩
abbrev cc6_stg2_1 : Ref sig .tc := ⟨.vmem, 75, rfl⟩
abbrev cc6_stg3_0 : Ref sig .tc := ⟨.vmem, 76, rfl⟩
abbrev cc6_stg3_1 : Ref sig .tc := ⟨.vmem, 77, rfl⟩
abbrev cc6_stg4_0 : Ref sig .tc := ⟨.vmem, 78, rfl⟩
abbrev cc6_stg5_0 : Ref sig .tc := ⟨.vmem, 79, rfl⟩
abbrev cc6_stg5_1 : Ref sig .tc := ⟨.vmem, 80, rfl⟩
abbrev cc6_scratch0 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg1_1 : Ref sig .tc := ⟨.vmem, 85, rfl⟩
abbrev cc7_stg2_0 : Ref sig .tc := ⟨.vmem, 86, rfl⟩
abbrev cc7_stg2_1 : Ref sig .tc := ⟨.vmem, 87, rfl⟩
abbrev cc7_stg3_0 : Ref sig .tc := ⟨.vmem, 88, rfl⟩
abbrev cc7_stg4_0 : Ref sig .tc := ⟨.vmem, 89, rfl⟩
abbrev cc7_stg5_0 : Ref sig .tc := ⟨.vmem, 90, rfl⟩
abbrev cc7_scratch0 : Ref sig .tc := ⟨.vmem, 91, rfl⟩
abbrev cc8_stg0_0 : Ref sig .tc := ⟨.vmem, 92, rfl⟩
abbrev cc8_stg0_1 : Ref sig .tc := ⟨.vmem, 93, rfl⟩
abbrev cc8_stg1_0 : Ref sig .tc := ⟨.vmem, 94, rfl⟩
abbrev cc8_stg2_0 : Ref sig .tc := ⟨.vmem, 95, rfl⟩
abbrev cc8_stg3_0 : Ref sig .tc := ⟨.vmem, 96, rfl⟩
abbrev cc8_stg3_1 : Ref sig .tc := ⟨.vmem, 97, rfl⟩
abbrev cc8_stg4_0 : Ref sig .tc := ⟨.vmem, 98, rfl⟩
abbrev cc8_stg5_0 : Ref sig .tc := ⟨.vmem, 99, rfl⟩
abbrev cc8_stg5_1 : Ref sig .tc := ⟨.vmem, 100, rfl⟩
abbrev cc8_scratch0 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg2_0 : Ref sig .tc := ⟨.vmem, 105, rfl⟩
abbrev cc9_stg3_0 : Ref sig .tc := ⟨.vmem, 106, rfl⟩
abbrev cc9_stg3_1 : Ref sig .tc := ⟨.vmem, 107, rfl⟩
abbrev cc9_stg4_0 : Ref sig .tc := ⟨.vmem, 108, rfl⟩
abbrev cc9_stg5_0 : Ref sig .tc := ⟨.vmem, 109, rfl⟩
abbrev cc9_stg5_1 : Ref sig .tc := ⟨.vmem, 110, rfl⟩
abbrev cc9_scratch0 : Ref sig .tc := ⟨.vmem, 111, rfl⟩
abbrev cc10_stg0_0 : Ref sig .tc := ⟨.vmem, 112, rfl⟩
abbrev cc10_stg0_1 : Ref sig .tc := ⟨.vmem, 113, rfl⟩
abbrev cc10_stg1_0 : Ref sig .tc := ⟨.vmem, 114, rfl⟩
abbrev cc10_stg1_1 : Ref sig .tc := ⟨.vmem, 115, rfl⟩
abbrev cc10_stg2_0 : Ref sig .tc := ⟨.vmem, 116, rfl⟩
abbrev cc10_stg2_1 : Ref sig .tc := ⟨.vmem, 117, rfl⟩
abbrev cc10_stg3_0 : Ref sig .tc := ⟨.vmem, 118, rfl⟩
abbrev cc10_stg4_0 : Ref sig .tc := ⟨.vmem, 119, rfl⟩
abbrev cc10_stg5_0 : Ref sig .tc := ⟨.vmem, 120, rfl⟩
abbrev cc10_scratch0 : Ref sig .tc := ⟨.vmem, 121, rfl⟩
abbrev cc11_stg0_0 : Ref sig .tc := ⟨.vmem, 122, rfl⟩
abbrev cc11_stg0_1 : Ref sig .tc := ⟨.vmem, 123, rfl⟩
abbrev cc11_stg1_0 : Ref sig .tc := ⟨.vmem, 124, rfl⟩
abbrev cc11_stg2_0 : Ref sig .tc := ⟨.vmem, 125, rfl⟩
abbrev cc11_stg3_0 : Ref sig .tc := ⟨.vmem, 126, rfl⟩
abbrev cc11_stg3_1 : Ref sig .tc := ⟨.vmem, 127, rfl⟩
abbrev cc11_stg4_0 : Ref sig .tc := ⟨.vmem, 128, rfl⟩
abbrev cc11_stg5_0 : Ref sig .tc := ⟨.vmem, 129, rfl⟩
abbrev cc11_stg5_1 : Ref sig .tc := ⟨.vmem, 130, rfl⟩
abbrev cc11_scratch0 : Ref sig .tc := ⟨.vmem, 131, rfl⟩
abbrev cc12_stg0_0 : Ref sig .tc := ⟨.vmem, 132, rfl⟩
abbrev cc12_stg0_1 : Ref sig .tc := ⟨.vmem, 133, rfl⟩
abbrev cc12_stg1_0 : Ref sig .tc := ⟨.vmem, 134, rfl⟩
abbrev cc12_stg2_0 : Ref sig .tc := ⟨.vmem, 135, rfl⟩
abbrev cc12_stg3_0 : Ref sig .tc := ⟨.vmem, 136, rfl⟩
abbrev cc12_stg3_1 : Ref sig .tc := ⟨.vmem, 137, rfl⟩
abbrev cc12_stg4_0 : Ref sig .tc := ⟨.vmem, 138, rfl⟩
abbrev cc12_stg5_0 : Ref sig .tc := ⟨.vmem, 139, rfl⟩
abbrev cc12_stg5_1 : Ref sig .tc := ⟨.vmem, 140, rfl⟩
abbrev cc12_scratch0 : Ref sig .tc := ⟨.vmem, 141, rfl⟩
abbrev cc13_stg0_0 : Ref sig .tc := ⟨.vmem, 142, rfl⟩
abbrev cc13_stg0_1 : Ref sig .tc := ⟨.vmem, 143, rfl⟩
abbrev cc13_stg1_0 : Ref sig .tc := ⟨.vmem, 144, rfl⟩
abbrev cc13_stg2_0 : Ref sig .tc := ⟨.vmem, 145, rfl⟩
abbrev cc13_stg2_1 : Ref sig .tc := ⟨.vmem, 146, rfl⟩
abbrev cc13_stg3_0 : Ref sig .tc := ⟨.vmem, 147, rfl⟩
abbrev cc13_stg3_1 : Ref sig .tc := ⟨.vmem, 148, rfl⟩
abbrev cc13_stg4_0 : Ref sig .tc := ⟨.vmem, 149, rfl⟩
abbrev cc13_stg5_0 : Ref sig .tc := ⟨.vmem, 150, rfl⟩
abbrev cc13_stg6_0 : Ref sig .tc := ⟨.vmem, 151, rfl⟩
abbrev cc13_stg6_1 : Ref sig .tc := ⟨.vmem, 152, rfl⟩
abbrev cc13_stg7_0 : Ref sig .tc := ⟨.vmem, 153, rfl⟩
abbrev cc13_stg7_1 : Ref sig .tc := ⟨.vmem, 154, rfl⟩
abbrev cc13_scratch0 : Ref sig .tc := ⟨.vmem, 155, rfl⟩
abbrev cc14_stg0_0 : Ref sig .tc := ⟨.vmem, 156, rfl⟩
abbrev cc14_stg0_1 : Ref sig .tc := ⟨.vmem, 157, rfl⟩
abbrev cc14_stg1_0 : Ref sig .tc := ⟨.vmem, 158, rfl⟩
abbrev cc14_stg2_0 : Ref sig .tc := ⟨.vmem, 159, rfl⟩
abbrev cc14_stg2_1 : Ref sig .tc := ⟨.vmem, 160, rfl⟩
abbrev cc14_stg3_0 : Ref sig .tc := ⟨.vmem, 161, rfl⟩
abbrev cc14_stg3_1 : Ref sig .tc := ⟨.vmem, 162, rfl⟩
abbrev cc14_stg4_0 : Ref sig .tc := ⟨.vmem, 163, rfl⟩
abbrev cc14_stg5_0 : Ref sig .tc := ⟨.vmem, 164, rfl⟩
abbrev cc14_stg6_0 : Ref sig .tc := ⟨.vmem, 165, rfl⟩
abbrev cc14_stg6_1 : Ref sig .tc := ⟨.vmem, 166, rfl⟩
abbrev cc14_stg7_0 : Ref sig .tc := ⟨.vmem, 167, rfl⟩
abbrev cc14_stg7_1 : Ref sig .tc := ⟨.vmem, 168, rfl⟩
abbrev cc14_scratch0 : Ref sig .tc := ⟨.vmem, 169, rfl⟩
abbrev cc15_stg0_0 : Ref sig .tc := ⟨.vmem, 170, rfl⟩
abbrev cc15_stg0_1 : Ref sig .tc := ⟨.vmem, 171, rfl⟩
abbrev cc15_stg1_0 : Ref sig .tc := ⟨.vmem, 172, rfl⟩
abbrev cc15_stg2_0 : Ref sig .tc := ⟨.vmem, 173, rfl⟩
abbrev cc15_stg2_1 : Ref sig .tc := ⟨.vmem, 174, rfl⟩
abbrev cc15_stg3_0 : Ref sig .tc := ⟨.vmem, 175, rfl⟩
abbrev cc15_stg3_1 : Ref sig .tc := ⟨.vmem, 176, rfl⟩
abbrev cc15_stg4_0 : Ref sig .tc := ⟨.vmem, 177, rfl⟩
abbrev cc15_stg5_0 : Ref sig .tc := ⟨.vmem, 178, rfl⟩
abbrev cc15_stg6_0 : Ref sig .tc := ⟨.vmem, 179, rfl⟩
abbrev cc15_stg6_1 : Ref sig .tc := ⟨.vmem, 180, rfl⟩
abbrev cc15_stg7_0 : Ref sig .tc := ⟨.vmem, 181, rfl⟩
abbrev cc15_stg7_1 : Ref sig .tc := ⟨.vmem, 182, rfl⟩
abbrev cc15_scratch0 : Ref sig .tc := ⟨.vmem, 183, rfl⟩
abbrev cc16_stg0_0 : Ref sig .tc := ⟨.vmem, 184, rfl⟩
abbrev cc16_stg0_1 : Ref sig .tc := ⟨.vmem, 185, rfl⟩
abbrev cc16_stg1_0 : Ref sig .tc := ⟨.vmem, 186, rfl⟩
abbrev cc16_stg2_0 : Ref sig .tc := ⟨.vmem, 187, rfl⟩
abbrev cc16_stg3_0 : Ref sig .tc := ⟨.vmem, 188, rfl⟩
abbrev cc16_stg4_0 : Ref sig .tc := ⟨.vmem, 189, rfl⟩
abbrev cc16_stg5_0 : Ref sig .tc := ⟨.vmem, 190, rfl⟩
abbrev cc16_stg6_0 : Ref sig .tc := ⟨.vmem, 191, rfl⟩
abbrev cc16_stg7_0 : Ref sig .tc := ⟨.vmem, 192, rfl⟩
abbrev cc16_stg8_0 : Ref sig .tc := ⟨.vmem, 193, rfl⟩
abbrev cc16_stg9_0 : Ref sig .tc := ⟨.vmem, 194, rfl⟩
abbrev cc16_stg9_1 : Ref sig .tc := ⟨.vmem, 195, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem3_1 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem5_0 : DmaSem sig := 51
abbrev cc4_sem5_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc5_sem3_0 : DmaSem sig := 59
abbrev cc5_sem3_1 : DmaSem sig := 60
abbrev cc5_sem4_0 : DmaSem sig := 61
abbrev cc5_sem5_0 : DmaSem sig := 62
abbrev cc5_sem5_1 : DmaSem sig := 63
abbrev cc6_sem0_0 : DmaSem sig := 64
abbrev cc6_sem0_1 : DmaSem sig := 65
abbrev cc6_sem1_0 : DmaSem sig := 66
abbrev cc6_sem1_1 : DmaSem sig := 67
abbrev cc6_sem2_0 : DmaSem sig := 68
abbrev cc6_sem2_1 : DmaSem sig := 69
abbrev cc6_sem3_0 : DmaSem sig := 70
abbrev cc6_sem3_1 : DmaSem sig := 71
abbrev cc6_sem4_0 : DmaSem sig := 72
abbrev cc6_sem5_0 : DmaSem sig := 73
abbrev cc6_sem5_1 : DmaSem sig := 74
abbrev cc7_sem0_0 : DmaSem sig := 75
abbrev cc7_sem0_1 : DmaSem sig := 76
abbrev cc7_sem1_0 : DmaSem sig := 77
abbrev cc7_sem1_1 : DmaSem sig := 78
abbrev cc7_sem2_0 : DmaSem sig := 79
abbrev cc7_sem2_1 : DmaSem sig := 80
abbrev cc7_sem3_0 : DmaSem sig := 81
abbrev cc7_sem4_0 : DmaSem sig := 82
abbrev cc7_sem5_0 : DmaSem sig := 83
abbrev cc8_sem0_0 : DmaSem sig := 84
abbrev cc8_sem0_1 : DmaSem sig := 85
abbrev cc8_sem1_0 : DmaSem sig := 86
abbrev cc8_sem2_0 : DmaSem sig := 87
abbrev cc8_sem3_0 : DmaSem sig := 88
abbrev cc8_sem3_1 : DmaSem sig := 89
abbrev cc8_sem4_0 : DmaSem sig := 90
abbrev cc8_sem5_0 : DmaSem sig := 91
abbrev cc8_sem5_1 : DmaSem sig := 92
abbrev cc9_sem0_0 : DmaSem sig := 93
abbrev cc9_sem0_1 : DmaSem sig := 94
abbrev cc9_sem1_0 : DmaSem sig := 95
abbrev cc9_sem2_0 : DmaSem sig := 96
abbrev cc9_sem3_0 : DmaSem sig := 97
abbrev cc9_sem3_1 : DmaSem sig := 98
abbrev cc9_sem4_0 : DmaSem sig := 99
abbrev cc9_sem5_0 : DmaSem sig := 100
abbrev cc9_sem5_1 : DmaSem sig := 101
abbrev cc10_sem0_0 : DmaSem sig := 102
abbrev cc10_sem0_1 : DmaSem sig := 103
abbrev cc10_sem1_0 : DmaSem sig := 104
abbrev cc10_sem1_1 : DmaSem sig := 105
abbrev cc10_sem2_0 : DmaSem sig := 106
abbrev cc10_sem2_1 : DmaSem sig := 107
abbrev cc10_sem3_0 : DmaSem sig := 108
abbrev cc10_sem4_0 : DmaSem sig := 109
abbrev cc10_sem5_0 : DmaSem sig := 110
abbrev cc11_sem0_0 : DmaSem sig := 111
abbrev cc11_sem0_1 : DmaSem sig := 112
abbrev cc11_sem1_0 : DmaSem sig := 113
abbrev cc11_sem2_0 : DmaSem sig := 114
abbrev cc11_sem3_0 : DmaSem sig := 115
abbrev cc11_sem3_1 : DmaSem sig := 116
abbrev cc11_sem4_0 : DmaSem sig := 117
abbrev cc11_sem5_0 : DmaSem sig := 118
abbrev cc11_sem5_1 : DmaSem sig := 119
abbrev cc12_sem0_0 : DmaSem sig := 120
abbrev cc12_sem0_1 : DmaSem sig := 121
abbrev cc12_sem1_0 : DmaSem sig := 122
abbrev cc12_sem2_0 : DmaSem sig := 123
abbrev cc12_sem3_0 : DmaSem sig := 124
abbrev cc12_sem3_1 : DmaSem sig := 125
abbrev cc12_sem4_0 : DmaSem sig := 126
abbrev cc12_sem5_0 : DmaSem sig := 127
abbrev cc12_sem5_1 : DmaSem sig := 128
abbrev cc13_sem0_0 : DmaSem sig := 129
abbrev cc13_sem0_1 : DmaSem sig := 130
abbrev cc13_sem1_0 : DmaSem sig := 131
abbrev cc13_sem2_0 : DmaSem sig := 132
abbrev cc13_sem2_1 : DmaSem sig := 133
abbrev cc13_sem3_0 : DmaSem sig := 134
abbrev cc13_sem3_1 : DmaSem sig := 135
abbrev cc13_sem4_0 : DmaSem sig := 136
abbrev cc13_sem5_0 : DmaSem sig := 137
abbrev cc13_sem6_0 : DmaSem sig := 138
abbrev cc13_sem6_1 : DmaSem sig := 139
abbrev cc13_sem7_0 : DmaSem sig := 140
abbrev cc13_sem7_1 : DmaSem sig := 141
abbrev cc14_sem0_0 : DmaSem sig := 142
abbrev cc14_sem0_1 : DmaSem sig := 143
abbrev cc14_sem1_0 : DmaSem sig := 144
abbrev cc14_sem2_0 : DmaSem sig := 145
abbrev cc14_sem2_1 : DmaSem sig := 146
abbrev cc14_sem3_0 : DmaSem sig := 147
abbrev cc14_sem3_1 : DmaSem sig := 148
abbrev cc14_sem4_0 : DmaSem sig := 149
abbrev cc14_sem5_0 : DmaSem sig := 150
abbrev cc14_sem6_0 : DmaSem sig := 151
abbrev cc14_sem6_1 : DmaSem sig := 152
abbrev cc14_sem7_0 : DmaSem sig := 153
abbrev cc14_sem7_1 : DmaSem sig := 154
abbrev cc15_sem0_0 : DmaSem sig := 155
abbrev cc15_sem0_1 : DmaSem sig := 156
abbrev cc15_sem1_0 : DmaSem sig := 157
abbrev cc15_sem2_0 : DmaSem sig := 158
abbrev cc15_sem2_1 : DmaSem sig := 159
abbrev cc15_sem3_0 : DmaSem sig := 160
abbrev cc15_sem3_1 : DmaSem sig := 161
abbrev cc15_sem4_0 : DmaSem sig := 162
abbrev cc15_sem5_0 : DmaSem sig := 163
abbrev cc15_sem6_0 : DmaSem sig := 164
abbrev cc15_sem6_1 : DmaSem sig := 165
abbrev cc15_sem7_0 : DmaSem sig := 166
abbrev cc15_sem7_1 : DmaSem sig := 167
abbrev cc16_sem0_0 : DmaSem sig := 168
abbrev cc16_sem0_1 : DmaSem sig := 169
abbrev cc16_sem1_0 : DmaSem sig := 170
abbrev cc16_sem2_0 : DmaSem sig := 171
abbrev cc16_sem3_0 : DmaSem sig := 172
abbrev cc16_sem4_0 : DmaSem sig := 173
abbrev cc16_sem5_0 : DmaSem sig := 174
abbrev cc16_sem6_0 : DmaSem sig := 175
abbrev cc16_sem7_0 : DmaSem sig := 176
abbrev cc16_sem8_0 : DmaSem sig := 177
abbrev cc16_sem9_0 : DmaSem sig := 178
abbrev cc16_sem9_1 : DmaSem sig := 179

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![4, 1], ![false, false]⟩

def k3_cond2 (i : grid3.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S256x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1024x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![2, 4], ![false, false]⟩

def k4_cond2 (i : grid4.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1024x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev grid5 : Pipeline.Grid := ⟨2, ![4, 2], ![false, false]⟩

def k5_cond2 (i : grid5.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1024x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1024x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨2, ![2, 2], ![false, false]⟩

def k6_cond2 (i : grid6.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1024x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 2 → Memref sig .tc .vmem S1024x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

abbrev grid7 : Pipeline.Grid := ⟨2, ![1, 2], ![false, false]⟩

def k7_cond2 (i : grid7.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1000x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1024x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 1 → Memref sig .tc .vmem S1000x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true, false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 1 → Memref sig .tc .vmem S1000x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true, false]

abbrev grid8 : Pipeline.Grid := ⟨2, ![2, 1], ![false, false]⟩

def k8_cond2 (i : grid8.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1024x1000 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S1000x256 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S1000x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, true]

abbrev stage8_3 : Fin 2 → Memref sig .tc .vmem S1024x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false, false]

abbrev stage8_5 : Fin 2 → Memref sig .tc .vmem S1024x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, false]

abbrev grid9 : Pipeline.Grid := ⟨2, ![2, 1], ![false, false]⟩

def k9_cond2 (i : grid9.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x256 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S256x256 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 1 → Memref sig .tc .vmem S256x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, true]

abbrev stage9_3 : Fin 2 → Memref sig .tc .vmem S1024x1 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false, false]

abbrev stage9_5 : Fin 2 → Memref sig .tc .vmem S1024x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, false]

abbrev grid10 : Pipeline.Grid := ⟨2, ![1, 2], ![false, false]⟩

def k10_cond2 (i : grid10.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S1000x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1024x256 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true]

abbrev stage10_3 : Fin 1 → Memref sig .tc .vmem S1000x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true, false]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false, false]

abbrev stage10_5 : Fin 1 → Memref sig .tc .vmem S1000x256 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![true, false]

abbrev grid11 : Pipeline.Grid := ⟨2, ![2, 1], ![false, false]⟩

def k11_cond2 (i : grid11.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S1024x1000 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 1 → Memref sig .tc .vmem S1000x256 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true]

abbrev stage11_2 : Fin 1 → Memref sig .tc .vmem S1000x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, true]

abbrev stage11_3 : Fin 2 → Memref sig .tc .vmem S1024x1 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false, false]

abbrev stage11_5 : Fin 2 → Memref sig .tc .vmem S1024x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true, false]

abbrev grid12 : Pipeline.Grid := ⟨2, ![6, 1], ![false, false]⟩

def k12_cond2 (i : grid12.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_3 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S1024x256 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 1 → Memref sig .tc .vmem S256x256 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true]

abbrev stage12_2 : Fin 1 → Memref sig .tc .vmem S256x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false, true]

abbrev stage12_3 : Fin 2 → Memref sig .tc .vmem S1024x1 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, false]

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false, false]

abbrev stage12_5 : Fin 2 → Memref sig .tc .vmem S1024x256 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true, false]

abbrev grid13 : Pipeline.Grid := ⟨2, ![6, 6], ![false, false]⟩

def k13_mult1 (i : grid13.Coords) : BitVec 32 :=
  let arg1 : BitVec 32 := BitVec.ofNat 32 (i 1).val
  let c1024_i32 : BitVec 32 := 1024#32
  let v5 : BitVec 32 := Scalar.muli arg1 c1024_i32
  v5
def k13_off1 (i : grid13.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k13_cond2 (i : grid13.Coords) : BitVec 1 :=
  let arg1 : BitVec 32 := BitVec.ofNat 32 (i 1).val
  let c5_i32 : BitVec 32 := 5#32
  let v22 : BitVec 1 := Scalar.cmpi .eq arg1 c5_i32
  let v23 : BitVec 32 := Scalar.extui v22
  let c0_i32_9 : BitVec 32 := 0#32
  let v24 : BitVec 1 := Scalar.cmpi .ne v23 c0_i32_9
  v24

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_7 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S1024x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 1 → Memref sig .tc .vmem S6144x256 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, false]

abbrev stage13_2 : Fin 2 → Memref sig .tc .vmem S1024x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![false, true]

abbrev stage13_3 : Fin 2 → Memref sig .tc .vmem S1024x1 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, false]

abbrev stage13_4 : Fin 1 → Memref sig .tc .vmem S256x256 .bf16 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false, false]

abbrev stage13_5 : Fin 1 → Memref sig .tc .vmem S1x256 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false, false]

abbrev stage13_6 : Fin 2 → Memref sig .tc .vmem S1024x256 .bf16 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true, false]

abbrev stage13_7 : Fin 2 → Memref sig .tc .vmem S1024x256 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true, false]

abbrev grid14 : Pipeline.Grid := ⟨2, ![6, 6], ![false, false]⟩

def k14_mult1 (i : grid14.Coords) : BitVec 32 :=
  let arg1 : BitVec 32 := BitVec.ofNat 32 (i 1).val
  let c1024_i32 : BitVec 32 := 1024#32
  let v5 : BitVec 32 := Scalar.muli arg1 c1024_i32
  v5
def k14_off1 (i : grid14.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k14_cond2 (i : grid14.Coords) : BitVec 1 :=
  let arg1 : BitVec 32 := BitVec.ofNat 32 (i 1).val
  let c5_i32 : BitVec 32 := 5#32
  let v22 : BitVec 1 := Scalar.cmpi .eq arg1 c5_i32
  let v23 : BitVec 32 := Scalar.extui v22
  let c0_i32_9 : BitVec 32 := 0#32
  let v24 : BitVec 1 := Scalar.cmpi .ne v23 c0_i32_9
  v24

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_3 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc14_transform_7 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage14_0 : Fin 2 → Memref sig .tc .vmem S1024x1024 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true]

abbrev stage14_1 : Fin 1 → Memref sig .tc .vmem S6144x256 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, false]

abbrev stage14_2 : Fin 2 → Memref sig .tc .vmem S1024x1 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![false, true]

abbrev stage14_3 : Fin 2 → Memref sig .tc .vmem S1024x1 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, false]

abbrev stage14_4 : Fin 1 → Memref sig .tc .vmem S256x256 .bf16 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false, false]

abbrev stage14_5 : Fin 1 → Memref sig .tc .vmem S1x256 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false, false]

abbrev stage14_6 : Fin 2 → Memref sig .tc .vmem S1024x256 .bf16 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true, false]

abbrev stage14_7 : Fin 2 → Memref sig .tc .vmem S1024x256 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true, false]

abbrev grid15 : Pipeline.Grid := ⟨2, ![6, 6], ![false, false]⟩

def k15_mult1 (i : grid15.Coords) : BitVec 32 :=
  let arg1 : BitVec 32 := BitVec.ofNat 32 (i 1).val
  let c1024_i32 : BitVec 32 := 1024#32
  let v5 : BitVec 32 := Scalar.muli arg1 c1024_i32
  v5
def k15_off1 (i : grid15.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k15_cond2 (i : grid15.Coords) : BitVec 1 :=
  let arg1 : BitVec 32 := BitVec.ofNat 32 (i 1).val
  let c5_i32 : BitVec 32 := 5#32
  let v22 : BitVec 1 := Scalar.cmpi .eq arg1 c5_i32
  let v23 : BitVec 32 := Scalar.extui v22
  let c0_i32_9 : BitVec 32 := 0#32
  let v24 : BitVec 1 := Scalar.cmpi .ne v23 c0_i32_9
  v24

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc15_transform_7 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage15_0 : Fin 2 → Memref sig .tc .vmem S1024x1024 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, true]

abbrev stage15_1 : Fin 1 → Memref sig .tc .vmem S6144x256 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false, false]

abbrev stage15_2 : Fin 2 → Memref sig .tc .vmem S1024x1 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![false, true]

abbrev stage15_3 : Fin 2 → Memref sig .tc .vmem S1024x1 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, false]

abbrev stage15_4 : Fin 1 → Memref sig .tc .vmem S256x256 .bf16 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false, false]

abbrev stage15_5 : Fin 1 → Memref sig .tc .vmem S1x256 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false, false]

abbrev stage15_6 : Fin 2 → Memref sig .tc .vmem S1024x256 .bf16 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true, false]

abbrev stage15_7 : Fin 2 → Memref sig .tc .vmem S1024x256 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true, false]

abbrev grid16 : Pipeline.Grid := ⟨1, ![8], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_8 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_9 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2048x256 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S256x128 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S128x64 .bf16 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x64 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S64x32 .bf16 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S1x32 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 1 → Memref sig .tc .vmem S32x1 .bf16 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))
abbrev reads16_7 : Fin grid16.rank → Bool := ![false]

abbrev stage16_8 : Fin 1 → Memref sig .tc .vmem S1x1 .f32 := fun | 0 => Memref.whole cc16_stg8_0 | ⟨_ + 1, h⟩ => absurd h (Nat.not_lt.2 (Nat.le_add_left _ _))
abbrev sem16_8 : Fin 1 → DmaSem sig := fun | 0 => cc16_sem8_0 | ⟨_ + 1, h⟩ => absurd h (Nat.not_lt.2 (Nat.le_add_left _ _))
abbrev reads16_8 : Fin grid16.rank → Bool := ![false]

abbrev stage16_9 : Fin 2 → Memref sig .tc .vmem S2048x1 .f32 := fun | 0 => Memref.whole cc16_stg9_0 | 1 => Memref.whole cc16_stg9_1 | ⟨_ + 2, h⟩ => absurd h (Nat.not_lt.2 (Nat.le_add_left _ _))
abbrev sem16_9 : Fin 2 → DmaSem sig := fun | 0 => cc16_sem9_0 | 1 => cc16_sem9_1 | ⟨_ + 2, h⟩ => absurd h (Nat.not_lt.2 (Nat.le_add_left _ _))
abbrev reads16_9 : Fin grid16.rank → Bool := ![true]

class Facts₀ : Prop where
  transposes_S2000x4000_S4000x2000_1_0 : S2000x4000.Transposes [1, 0] S4000x2000
  transposes_S1000x2000_S2000x1000_1_0 : S1000x2000.Transposes [1, 0] S2000x1000
  reducesTo_S2000x4000_S4000_d0 : S2000x4000.ReducesTo [0] S4000
  h_S_ : 0 < S_.numel
  bcast_S_S4000 : S_.BroadcastsInDim S4000 (![] : Fin 0 → Fin S4000.rank)
  bcast_S4000_S4000x1_0 : S4000.BroadcastsInDim S4000x1 (![0] : Fin 1 → Fin S4000x1.rank)
  reducesTo_S2000x4000_S2000_d1 : S2000x4000.ReducesTo [1] S2000
  bcast_S_S2000 : S_.BroadcastsInDim S2000 (![] : Fin 0 → Fin S2000.rank)
  bcast_S2000_S2000x1_0 : S2000.BroadcastsInDim S2000x1 (![0] : Fin 1 → Fin S2000x1.rank)
  reducesTo_S1000x2000_S2000_d0 : S1000x2000.ReducesTo [0] S2000
  reducesTo_S1000x2000_S1000_d1 : S1000x2000.ReducesTo [1] S1000
  bcast_S_S1000 : S_.BroadcastsInDim S1000 (![] : Fin 0 → Fin S1000.rank)
  bcast_S1000_S1000x1_0 : S1000.BroadcastsInDim S1000x1 (![0] : Fin 1 → Fin S1000x1.rank)
  bcast_S256_S1x256_1 : S256.BroadcastsInDim S1x256 (![1] : Fin 1 → Fin S1x256.rank)
  bitsLt_bf16_f32 : FTy.bits .bf16 < FTy.bits .f32
  pads_S4000x4000_S4096x4096_0960_0960 : S4000x4000.Pads (![0, 0] : Fin 2 → Nat) ![96, 96] ![0, 0] S4096x4096
  pads_S4000x256_S4096x256_0960_000 : S4000x256.Pads (![0, 0] : Fin 2 → Nat) ![96, 0] ![0, 0] S4096x256
  bcast_S_S4096x1 : S_.BroadcastsInDim S4096x1 (![] : Fin 0 → Fin S4096x1.rank)
  bcast_S_S1x256 : S_.BroadcastsInDim S1x256 (![] : Fin 0 → Fin S1x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S4096x256_S4000x256_0_0 : S4096x256.Slices ![0, 0] S4000x256
  pads_S2000x4000_S2048x4096_0480_0960 : S2000x4000.Pads (![0, 0] : Fin 2 → Nat) ![48, 96] ![0, 0] S2048x4096
  pads_S2000x1_S2048x1_0480_000 : S2000x1.Pads (![0, 0] : Fin 2 → Nat) ![48, 0] ![0, 0] S2048x1
  slices_S2048x256_S2000x256_0_0 : S2048x256.Slices ![0, 0] S2000x256
  pads_S4000x2000_S4096x2048_0960_0480 : S4000x2000.Pads (![0, 0] : Fin 2 → Nat) ![96, 48] ![0, 0] S4096x2048
  pads_S2000x256_S2048x256_0480_000 : S2000x256.Pads (![0, 0] : Fin 2 → Nat) ![48, 0] ![0, 0] S2048x256
  bcast_S_S2048x1 : S_.BroadcastsInDim S2048x1 (![] : Fin 0 → Fin S2048x1.rank)
  pads_S4000x1_S4096x1_0960_000 : S4000x1.Pads (![0, 0] : Fin 2 → Nat) ![96, 0] ![0, 0] S4096x1
  bcast_S_S256x1 : S_.BroadcastsInDim S256x1 (![] : Fin 0 → Fin S256x1.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  pads_S2000x2000_S2048x2048_0480_0480 : S2000x2000.Pads (![0, 0] : Fin 2 → Nat) ![48, 48] ![0, 0] S2048x2048
  pads_S1000x2000_S1000x2048_000_0480 : S1000x2000.Pads (![0, 0] : Fin 2 → Nat) ![0, 48] ![0, 0] S1000x2048
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  broadcasts_S1x256_S1000x256 : S1x256.Broadcasts S1000x256
  pads_S2000x1000_S2048x1000_0480_000 : S2000x1000.Pads (![0, 0] : Fin 2 → Nat) ![48, 0] ![0, 0] S2048x1000
  bcast_S_S1000x1 : S_.BroadcastsInDim S1000x1 (![] : Fin 0 → Fin S1000x1.rank)
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  concatenates_S4000x256_S2000x256_S6000x256_d0 : Shape.Concatenates [S4000x256, S2000x256] S6000x256 0
  reducesTo_S6000x6000_S6000_d1 : S6000x6000.ReducesTo [1] S6000
  bcast_S_S6000 : S_.BroadcastsInDim S6000 (![] : Fin 0 → Fin S6000.rank)
  bcast_S6000_S6000x1_0 : S6000.BroadcastsInDim S6000x1 (![0] : Fin 1 → Fin S6000x1.rank)
  transposes_S6000x6000_S6000x6000_1_0 : S6000x6000.Transposes [1, 0] S6000x6000
  pads_S6000x6000_S6144x6144_01440_01440 : S6000x6000.Pads (![0, 0] : Fin 2 → Nat) ![144, 144] ![0, 0] S6144x6144
  pads_S6000x1_S6144x1_01440_000 : S6000x1.Pads (![0, 0] : Fin 2 → Nat) ![144, 0] ![0, 0] S6144x1
  pads_S6000x256_S6144x256_01440_000 : S6000x256.Pads (![0, 0] : Fin 2 → Nat) ![144, 0] ![0, 0] S6144x256
  bcast_S_S6144x1 : S_.BroadcastsInDim S6144x1 (![] : Fin 0 → Fin S6144x1.rank)
  slices_S6144x256_S6000x256_0_0 : S6144x256.Slices ![0, 0] S6000x256
  packedbf16_S1024x256_S1024x256_0_0 : (Rect.unit (s := S1024x256) ![0, 0] S1024x256.size inb_S1024x256_S1024x256_0_0).PackedRows (EltTy.packing .bf16)
  bcast_S_S6000x256 : S_.BroadcastsInDim S6000x256 (![] : Fin 0 → Fin S6000x256.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x256_0 : S16384.BroadcastsInDim S16384x256 (![0] : Fin 1 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S64_S1x64_1 : S64.BroadcastsInDim S1x64 (![1] : Fin 1 → Fin S1x64.rank)
  bcast_S32_S1x32_1 : S32.BroadcastsInDim S1x32 (![1] : Fin 1 → Fin S1x32.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  dot_S1000x1024_S1024x256_S1000x256_1_0_0_1_n_n_wf : DotDims.WF S1000x1024 S1024x256 S1000x256 [1] [0] [0] [1] [] []
  dot_S1024x1000_S1000x256_S1024x256_1_0_0_1_n_n_wf : DotDims.WF S1024x1000 S1000x256 S1024x256 [1] [0] [0] [1] [] []
  gather_S6000x256_S16384x1_S16384x256_1_0_n_n_0_1_1256_wf : GatherDims.WF S6000x256 S16384x1 S16384x256 [1] [0] [] [0] [] 1 ![1, 256]
  dot_S2048x256_S256x128_S2048x128_1_0_0_1_n_n_wf : DotDims.WF S2048x256 S256x128 S2048x128 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .bf16 = 32 ∨ (Rect.block (s := S4096x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x256.size a
  hwx0_5 : ∀ i : grid0.Coords, EltTy.bits .f32 = 32 ∨ (Rect.block (s := S4096x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x4096.size a
  hwx1_0 : ∀ i : grid1.Coords, EltTy.bits .bf16 = 32 ∨ (Rect.block (s := S2048x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .bf16 = 32 ∨ (Rect.block (s := S4096x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S2048x1.size a
  hwx1_3 : ∀ i : grid1.Coords, EltTy.bits .f32 = 32 ∨ (Rect.block (s := S2048x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S2048x256.size a
  hwx1_5 : ∀ i : grid1.Coords, EltTy.bits .f32 = 32 ∨ (Rect.block (s := S2048x256) S1024x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x2048.size a
  hwx2_0 : ∀ i : grid2.Coords, EltTy.bits .bf16 = 32 ∨ (Rect.block (s := S4096x2048) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S2048x256.size a
  hwx2_1 : ∀ i : grid2.Coords, EltTy.bits .bf16 = 32 ∨ (Rect.block (s := S2048x256) S1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S2048x1.size a
  hwx2_2 : ∀ i : grid2.Coords, EltTy.bits .f32 = 32 ∨ (Rect.block (s := S2048x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .f32 = 32 ∨ (Rect.block (s := S4096x1) S1024x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S4096x256.size a
  hwx2_5 : ∀ i : grid2.Coords, EltTy.bits .f32 = 32 ∨ (Rect.block (s := S4096x256) S1024x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S4096x256.size a
  hwx3_0 : ∀ i : grid3.Coords, EltTy.bits .bf16 = 32 ∨ (Rect.block (s := S4096x256) S1024x256.size (cc3_transform_0 i) (hinb3_0 i)).WholeWords (EltTy.packing .bf16)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S256x1.size a ≤ S256x1.size a
  hwx3_2 : ∀ i : grid3.Coords, EltTy.bits .f32 = 32 ∨ (Rect.block (s := S256x1) S256x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S4096x1.size a
  hwx3_3 : ∀ i : grid3.Coords, EltTy.bits .f32 = 32 ∨ (Rect.block (s := S4096x1) S1024x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x256.size a ≤ S4096x256.size a
  hwx3_5 : ∀ i : grid3.Coords, EltTy.bits .f32 = 32 ∨ (Rect.block (s := S4096x256) S1024x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S2048x4096.size a
  hwx4_0 : ∀ i : grid4.Coords, EltTy.bits .bf16 = 32 ∨ (Rect.block (s := S2048x4096) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S4096x256.size a
  hwx4_1 : ∀ i : grid4.Coords, EltTy.bits .bf16 = 32 ∨ (Rect.block (s := S4096x256) S1024x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1.size a ≤ S4096x1.size a
  hwx4_2 : ∀ i : grid4.Coords, EltTy.bits .f32 = 32 ∨ (Rect.block (s := S4096x1) S1024x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1.size a ≤ S2048x1.size a
  hwx4_3 : ∀ i : grid4.Coords, EltTy.bits .f32 = 32 ∨ (Rect.block (s := S2048x1) S1024x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x256.size a ≤ S2048x256.size a
  hwx4_5 : ∀ i : grid4.Coords, EltTy.bits .f32 = 32 ∨ (Rect.block (s := S2048x256) S1024x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x2048.size a
  hwx5_0 : ∀ i : grid5.Coords, EltTy.bits .bf16 = 32 ∨ (Rect.block (s := S4096x2048) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x256.size a ≤ S2048x256.size a
  hwx5_1 : ∀ i : grid5.Coords, EltTy.bits .bf16 = 32 ∨ (Rect.block (s := S2048x256) S1024x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1.size a ≤ S2048x1.size a
  hwx5_2 : ∀ i : grid5.Coords, EltTy.bits .f32 = 32 ∨ (Rect.block (s := S2048x1) S1024x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1.size a ≤ S4096x1.size a
  hwx5_3 : ∀ i : grid5.Coords, EltTy.bits .f32 = 32 ∨ (Rect.block (s := S4096x1) S1024x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x256.size a ≤ S4096x256.size a
  hwx5_5 : ∀ i : grid5.Coords, EltTy.bits .f32 = 32 ∨ (Rect.block (s := S4096x256) S1024x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S2048x2048.size a
  hwx6_0 : ∀ i : grid6.Coords, EltTy.bits .bf16 = 32 ∨ (Rect.block (s := S2048x2048) S1024x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x256.size a ≤ S2048x256.size a
  hwx6_1 : ∀ i : grid6.Coords, EltTy.bits .bf16 = 32 ∨ (Rect.block (s := S2048x256) S1024x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x1.size a ≤ S2048x1.size a
  hwx6_2 : ∀ i : grid6.Coords, EltTy.bits .f32 = 32 ∨ (Rect.block (s := S2048x1) S1024x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x1.size a ≤ S2048x1.size a
  hwx6_3 : ∀ i : grid6.Coords, EltTy.bits .f32 = 32 ∨ (Rect.block (s := S2048x1) S1024x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x256.size a ≤ S2048x256.size a
  hwx6_5 : ∀ i : grid6.Coords, EltTy.bits .f32 = 32 ∨ (Rect.block (s := S2048x256) S1024x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x1024.size a ≤ S1000x2048.size a
  hwx7_0 : ∀ i : grid7.Coords, EltTy.bits .bf16 = 32 ∨ (Rect.block (s := S1000x2048) S1000x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x256.size a ≤ S2048x256.size a
  hwx7_1 : ∀ i : grid7.Coords, EltTy.bits .bf16 = 32 ∨ (Rect.block (s := S2048x256) S1024x256.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x1.size a ≤ S2048x1.size a
  hwx7_2 : ∀ i : grid7.Coords, EltTy.bits .f32 = 32 ∨ (Rect.block (s := S2048x1) S1024x1.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S1000x1.size a ≤ S1000x1.size a
  hwx7_3 : ∀ i : grid7.Coords, EltTy.bits .f32 = 32 ∨ (Rect.block (s := S1000x1) S1000x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 1
  hreads7_5 : ∀ i i' : grid7.Coords, (∀ a, reads7_5 a = true → i a = i' a) → cc7_transform_5 i = cc7_transform_5 i'
  hinb7_5 : ∀ (i : grid7.Coords) a, (cc7_transform_5 i a + 1) * S1000x256.size a ≤ S1000x256.size a
  hwx7_5 : ∀ i : grid7.Coords, EltTy.bits .f32 = 32 ∨ (Rect.block (s := S1000x256) S1000x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1000.size a ≤ S2048x1000.size a
  hwx8_0 : ∀ i : grid8.Coords, EltTy.bits .bf16 = 32 ∨ (Rect.block (s := S2048x1000) S1024x1000.size (cc8_transform_0 i) (hinb8_0 i)).WholeWords (EltTy.packing .bf16)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S1000x256.size a ≤ S1000x256.size a
  hwx8_1 : ∀ i : grid8.Coords, EltTy.bits .bf16 = 32 ∨ (Rect.block (s := S1000x256) S1000x256.size (cc8_transform_1 i) (hinb8_1 i)).WholeWords (EltTy.packing .bf16)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S1000x1.size a ≤ S1000x1.size a
  hwx8_2 : ∀ i : grid8.Coords, EltTy.bits .f32 = 32 ∨ (Rect.block (s := S1000x1) S1000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x1.size a ≤ S2048x1.size a
  hwx8_3 : ∀ i : grid8.Coords, EltTy.bits .f32 = 32 ∨ (Rect.block (s := S2048x1) S1024x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x256.size a ≤ S2048x256.size a
  hwx8_5 : ∀ i : grid8.Coords, EltTy.bits .f32 = 32 ∨ (Rect.block (s := S2048x256) S1024x256.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x256.size a ≤ S2048x256.size a
  hwx9_0 : ∀ i : grid9.Coords, EltTy.bits .bf16 = 32 ∨ (Rect.block (s := S2048x256) S1024x256.size (cc9_transform_0 i) (hinb9_0 i)).WholeWords (EltTy.packing .bf16)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S256x256.size a ≤ S256x256.size a
  hwx9_1 : ∀ i : grid9.Coords, EltTy.bits .bf16 = 32 ∨ (Rect.block (s := S256x256) S256x256.size (cc9_transform_1 i) (hinb9_1 i)).WholeWords (EltTy.packing .bf16)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S256x1.size a ≤ S256x1.size a
  hwx9_2 : ∀ i : grid9.Coords, EltTy.bits .f32 = 32 ∨ (Rect.block (s := S256x1) S256x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x1.size a ≤ S2048x1.size a
  hwx9_3 : ∀ i : grid9.Coords, EltTy.bits .f32 = 32 ∨ (Rect.block (s := S2048x1) S1024x1.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1024x256.size a ≤ S2048x256.size a
  hwx9_5 : ∀ i : grid9.Coords, EltTy.bits .f32 = 32 ∨ (Rect.block (s := S2048x256) S1024x256.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x1024.size a ≤ S1000x2048.size a
  hwx10_0 : ∀ i : grid10.Coords, EltTy.bits .bf16 = 32 ∨ (Rect.block (s := S1000x2048) S1000x1024.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x256.size a ≤ S2048x256.size a
  hwx10_1 : ∀ i : grid10.Coords, EltTy.bits .bf16 = 32 ∨ (Rect.block (s := S2048x256) S1024x256.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x1.size a ≤ S2048x1.size a
  hwx10_2 : ∀ i : grid10.Coords, EltTy.bits .f32 = 32 ∨ (Rect.block (s := S2048x1) S1024x1.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S1000x1.size a ≤ S1000x1.size a
  hwx10_3 : ∀ i : grid10.Coords, EltTy.bits .f32 = 32 ∨ (Rect.block (s := S1000x1) S1000x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 false = 1
  hreads10_5 : ∀ i i' : grid10.Coords, (∀ a, reads10_5 a = true → i a = i' a) → cc10_transform_5 i = cc10_transform_5 i'
  hinb10_5 : ∀ (i : grid10.Coords) a, (cc10_transform_5 i a + 1) * S1000x256.size a ≤ S1000x256.size a
  hwx10_5 : ∀ i : grid10.Coords, EltTy.bits .f32 = 32 ∨ (Rect.block (s := S1000x256) S1000x256.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x1000.size a ≤ S2048x1000.size a
  hwx11_0 : ∀ i : grid11.Coords, EltTy.bits .bf16 = 32 ∨ (Rect.block (s := S2048x1000) S1024x1000.size (cc11_transform_0 i) (hinb11_0 i)).WholeWords (EltTy.packing .bf16)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S1000x256.size a ≤ S1000x256.size a
  hwx11_1 : ∀ i : grid11.Coords, EltTy.bits .bf16 = 32 ∨ (Rect.block (s := S1000x256) S1000x256.size (cc11_transform_1 i) (hinb11_1 i)).WholeWords (EltTy.packing .bf16)
  hstage11_2 : ∀ j, (stage11_2 j).IsWhole
  nbuf11_2 : grid11.bufCount reads11_2 false = 1
  hreads11_2 : ∀ i i' : grid11.Coords, (∀ a, reads11_2 a = true → i a = i' a) → cc11_transform_2 i = cc11_transform_2 i'
  hinb11_2 : ∀ (i : grid11.Coords) a, (cc11_transform_2 i a + 1) * S1000x1.size a ≤ S1000x1.size a
  hwx11_2 : ∀ i : grid11.Coords, EltTy.bits .f32 = 32 ∨ (Rect.block (s := S1000x1) S1000x1.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1024x1.size a ≤ S2048x1.size a
  hwx11_3 : ∀ i : grid11.Coords, EltTy.bits .f32 = 32 ∨ (Rect.block (s := S2048x1) S1024x1.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S1024x256.size a ≤ S2048x256.size a
  hwx11_5 : ∀ i : grid11.Coords, EltTy.bits .f32 = 32 ∨ (Rect.block (s := S2048x256) S1024x256.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x256.size a ≤ S6144x256.size a
  hwx12_0 : ∀ i : grid12.Coords, EltTy.bits .bf16 = 32 ∨ (Rect.block (s := S6144x256) S1024x256.size (cc12_transform_0 i) (hinb12_0 i)).WholeWords (EltTy.packing .bf16)
  hstage12_1 : ∀ j, (stage12_1 j).IsWhole
  nbuf12_1 : grid12.bufCount reads12_1 false = 1
  hreads12_1 : ∀ i i' : grid12.Coords, (∀ a, reads12_1 a = true → i a = i' a) → cc12_transform_1 i = cc12_transform_1 i'
  hinb12_1 : ∀ (i : grid12.Coords) a, (cc12_transform_1 i a + 1) * S256x256.size a ≤ S256x256.size a
  hwx12_1 : ∀ i : grid12.Coords, EltTy.bits .bf16 = 32 ∨ (Rect.block (s := S256x256) S256x256.size (cc12_transform_1 i) (hinb12_1 i)).WholeWords (EltTy.packing .bf16)
  hstage12_2 : ∀ j, (stage12_2 j).IsWhole
  nbuf12_2 : grid12.bufCount reads12_2 false = 1
  hreads12_2 : ∀ i i' : grid12.Coords, (∀ a, reads12_2 a = true → i a = i' a) → cc12_transform_2 i = cc12_transform_2 i'
  hinb12_2 : ∀ (i : grid12.Coords) a, (cc12_transform_2 i a + 1) * S256x1.size a ≤ S256x1.size a
  hwx12_2 : ∀ i : grid12.Coords, EltTy.bits .f32 = 32 ∨ (Rect.block (s := S256x1) S256x1.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S1024x1.size a ≤ S6144x1.size a
  hwx12_3 : ∀ i : grid12.Coords, EltTy.bits .f32 = 32 ∨ (Rect.block (s := S6144x1) S1024x1.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x256.size a ≤ S1x256.size a
  hwx12_4 : ∀ i : grid12.Coords, EltTy.bits .f32 = 32 ∨ (Rect.block (s := S1x256) S1x256.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S1024x256.size a ≤ S6144x256.size a
  hwx12_5 : ∀ i : grid12.Coords, EltTy.bits .f32 = 32 ∨ (Rect.block (s := S6144x256) S1024x256.size (cc12_transform_5 i) (hinb12_5 i)).WholeWords (EltTy.packing .f32)
  hrank13 : 0 < grid13.rank
  k13_mult1_dvd : ∀ i : grid13.Coords, 1024 ∣ (k13_mult1 i).toNat
  k13_off1_inb : ∀ i : grid13.Coords, ∀ a, (k13_off1 i) a + S1024x256.size a ≤ S6144x256.size a
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x1024.size a ≤ S6144x6144.size a
  hwx13_0 : ∀ i : grid13.Coords, EltTy.bits .bf16 = 32 ∨ (Rect.block (s := S6144x6144) S1024x1024.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S6144x256.size a ≤ S6144x256.size a
  hwx13_1 : ∀ i : grid13.Coords, EltTy.bits .bf16 = 32 ∨ (Rect.block (s := S6144x256) S6144x256.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1024x1.size a ≤ S6144x1.size a
  hwx13_2 : ∀ i : grid13.Coords, EltTy.bits .f32 = 32 ∨ (Rect.block (s := S6144x1) S1024x1.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S1024x1.size a ≤ S6144x1.size a
  hwx13_3 : ∀ i : grid13.Coords, EltTy.bits .f32 = 32 ∨ (Rect.block (s := S6144x1) S1024x1.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S256x256.size a ≤ S256x256.size a
  hwx13_4 : ∀ i : grid13.Coords, EltTy.bits .bf16 = 32 ∨ (Rect.block (s := S256x256) S256x256.size (cc13_transform_4 i) (hinb13_4 i)).WholeWords (EltTy.packing .bf16)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x256.size a ≤ S1x256.size a
  hwx13_5 : ∀ i : grid13.Coords, EltTy.bits .f32 = 32 ∨ (Rect.block (s := S1x256) S1x256.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S1024x256.size a ≤ S6144x256.size a
  hwx13_6 : ∀ i : grid13.Coords, EltTy.bits .bf16 = 32 ∨ (Rect.block (s := S6144x256) S1024x256.size (cc13_transform_6 i) (hinb13_6 i)).WholeWords (EltTy.packing .bf16)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S1024x256.size a ≤ S6144x256.size a
  hwx13_7 : ∀ i : grid13.Coords, EltTy.bits .f32 = 32 ∨ (Rect.block (s := S6144x256) S1024x256.size (cc13_transform_7 i) (hinb13_7 i)).WholeWords (EltTy.packing .f32)
  hrank14 : 0 < grid14.rank
  k14_mult1_dvd : ∀ i : grid14.Coords, 1024 ∣ (k14_mult1 i).toNat
  k14_off1_inb : ∀ i : grid14.Coords, ∀ a, (k14_off1 i) a + S1024x256.size a ≤ S6144x256.size a
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1024x1024.size a ≤ S6144x6144.size a
  hwx14_0 : ∀ i : grid14.Coords, EltTy.bits .bf16 = 32 ∨ (Rect.block (s := S6144x6144) S1024x1024.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S6144x256.size a ≤ S6144x256.size a
  hwx14_1 : ∀ i : grid14.Coords, EltTy.bits .bf16 = 32 ∨ (Rect.block (s := S6144x256) S6144x256.size (cc14_transform_1 i) (hinb14_1 i)).WholeWords (EltTy.packing .bf16)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1024x1.size a ≤ S6144x1.size a
  hwx14_2 : ∀ i : grid14.Coords, EltTy.bits .f32 = 32 ∨ (Rect.block (s := S6144x1) S1024x1.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S1024x1.size a ≤ S6144x1.size a
  hwx14_3 : ∀ i : grid14.Coords, EltTy.bits .f32 = 32 ∨ (Rect.block (s := S6144x1) S1024x1.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S256x256.size a ≤ S256x256.size a
  hwx14_4 : ∀ i : grid14.Coords, EltTy.bits .bf16 = 32 ∨ (Rect.block (s := S256x256) S256x256.size (cc14_transform_4 i) (hinb14_4 i)).WholeWords (EltTy.packing .bf16)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x256.size a ≤ S1x256.size a
  hwx14_5 : ∀ i : grid14.Coords, EltTy.bits .f32 = 32 ∨ (Rect.block (s := S1x256) S1x256.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S1024x256.size a ≤ S6144x256.size a
  hwx14_6 : ∀ i : grid14.Coords, EltTy.bits .bf16 = 32 ∨ (Rect.block (s := S6144x256) S1024x256.size (cc14_transform_6 i) (hinb14_6 i)).WholeWords (EltTy.packing .bf16)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S1024x256.size a ≤ S6144x256.size a
  hwx14_7 : ∀ i : grid14.Coords, EltTy.bits .f32 = 32 ∨ (Rect.block (s := S6144x256) S1024x256.size (cc14_transform_7 i) (hinb14_7 i)).WholeWords (EltTy.packing .f32)
  hrank15 : 0 < grid15.rank
  k15_mult1_dvd : ∀ i : grid15.Coords, 1024 ∣ (k15_mult1 i).toNat
  k15_off1_inb : ∀ i : grid15.Coords, ∀ a, (k15_off1 i) a + S1024x256.size a ≤ S6144x256.size a
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1024x1024.size a ≤ S6144x6144.size a
  hwx15_0 : ∀ i : grid15.Coords, EltTy.bits .bf16 = 32 ∨ (Rect.block (s := S6144x6144) S1024x1024.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S6144x256.size a ≤ S6144x256.size a
  hwx15_1 : ∀ i : grid15.Coords, EltTy.bits .bf16 = 32 ∨ (Rect.block (s := S6144x256) S6144x256.size (cc15_transform_1 i) (hinb15_1 i)).WholeWords (EltTy.packing .bf16)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1024x1.size a ≤ S6144x1.size a
  hwx15_2 : ∀ i : grid15.Coords, EltTy.bits .f32 = 32 ∨ (Rect.block (s := S6144x1) S1024x1.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S1024x1.size a ≤ S6144x1.size a
  hwx15_3 : ∀ i : grid15.Coords, EltTy.bits .f32 = 32 ∨ (Rect.block (s := S6144x1) S1024x1.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S256x256.size a ≤ S256x256.size a
  hwx15_4 : ∀ i : grid15.Coords, EltTy.bits .bf16 = 32 ∨ (Rect.block (s := S256x256) S256x256.size (cc15_transform_4 i) (hinb15_4 i)).WholeWords (EltTy.packing .bf16)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S1x256.size a ≤ S1x256.size a
  hwx15_5 : ∀ i : grid15.Coords, EltTy.bits .f32 = 32 ∨ (Rect.block (s := S1x256) S1x256.size (cc15_transform_5 i) (hinb15_5 i)).WholeWords (EltTy.packing .f32)
  hstage15_6 : ∀ j, (stage15_6 j).IsWhole
  nbuf15_6 : grid15.bufCount reads15_6 false = 2
  hreads15_6 : ∀ i i' : grid15.Coords, (∀ a, reads15_6 a = true → i a = i' a) → cc15_transform_6 i = cc15_transform_6 i'
  hinb15_6 : ∀ (i : grid15.Coords) a, (cc15_transform_6 i a + 1) * S1024x256.size a ≤ S6144x256.size a
  hwx15_6 : ∀ i : grid15.Coords, EltTy.bits .bf16 = 32 ∨ (Rect.block (s := S6144x256) S1024x256.size (cc15_transform_6 i) (hinb15_6 i)).WholeWords (EltTy.packing .bf16)
  hstage15_7 : ∀ j, (stage15_7 j).IsWhole
  nbuf15_7 : grid15.bufCount reads15_7 false = 2
  hreads15_7 : ∀ i i' : grid15.Coords, (∀ a, reads15_7 a = true → i a = i' a) → cc15_transform_7 i = cc15_transform_7 i'
  hinb15_7 : ∀ (i : grid15.Coords) a, (cc15_transform_7 i a + 1) * S1024x256.size a ≤ S6144x256.size a
  hwx15_7 : ∀ i : grid15.Coords, EltTy.bits .f32 = 32 ∨ (Rect.block (s := S6144x256) S1024x256.size (cc15_transform_7 i) (hinb15_7 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2048x256.size a ≤ S16384x256.size a
  hwx16_0 : ∀ i : grid16.Coords, EltTy.bits .bf16 = 32 ∨ (Rect.block (s := S16384x256) S2048x256.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S256x128.size a ≤ S256x128.size a
  hwx16_1 : ∀ i : grid16.Coords, EltTy.bits .bf16 = 32 ∨ (Rect.block (s := S256x128) S256x128.size (cc16_transform_1 i) (hinb16_1 i)).WholeWords (EltTy.packing .bf16)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x64.size a ≤ S128x64.size a
  hwx16_3 : ∀ i : grid16.Coords, EltTy.bits .bf16 = 32 ∨ (Rect.block (s := S128x64) S128x64.size (cc16_transform_3 i) (hinb16_3 i)).WholeWords (EltTy.packing .bf16)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x64.size a ≤ S1x64.size a
  hwx16_4 : ∀ i : grid16.Coords, EltTy.bits .f32 = 32 ∨ (Rect.block (s := S1x64) S1x64.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S64x32.size a ≤ S64x32.size a
  hwx16_5 : ∀ i : grid16.Coords, EltTy.bits .bf16 = 32 ∨ (Rect.block (s := S64x32) S64x32.size (cc16_transform_5 i) (hinb16_5 i)).WholeWords (EltTy.packing .bf16)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x32.size a ≤ S1x32.size a
  hwx16_6 : ∀ i : grid16.Coords, EltTy.bits .f32 = 32 ∨ (Rect.block (s := S1x32) S1x32.size (cc16_transform_6 i) (hinb16_6 i)).WholeWords (EltTy.packing .f32)
  hstage16_7 : ∀ j, (stage16_7 j).IsWhole
  nbuf16_7 : grid16.bufCount reads16_7 true = 1
  hreads16_7 : ∀ i i' : grid16.Coords, (∀ a, reads16_7 a = true → i a = i' a) → cc16_transform_7 i = cc16_transform_7 i'
  hinb16_7 : ∀ (i : grid16.Coords) a, (cc16_transform_7 i a + 1) * S32x1.size a ≤ S32x1.size a
  hwx16_7 : ∀ i : grid16.Coords, EltTy.bits .bf16 = 32 ∨ (Rect.block (s := S32x1) S32x1.size (cc16_transform_7 i) (hinb16_7 i)).WholeWords (EltTy.packing .bf16)
  hstage16_8 : ∀ j, (stage16_8 j).IsWhole
  nbuf16_8 : grid16.bufCount reads16_8 true = 1
  hreads16_8 : ∀ i i' : grid16.Coords, (∀ a, reads16_8 a = true → i a = i' a) → cc16_transform_8 i = cc16_transform_8 i'
  hinb16_8 : ∀ (i : grid16.Coords) a, (cc16_transform_8 i a + 1) * S1x1.size a ≤ S1x1.size a
  hwx16_8 : ∀ i : grid16.Coords, EltTy.bits .f32 = 32 ∨ (Rect.block (s := S1x1) S1x1.size (cc16_transform_8 i) (hinb16_8 i)).WholeWords (EltTy.packing .f32)
  hstage16_9 : ∀ j, (stage16_9 j).IsWhole
  nbuf16_9 : grid16.bufCount reads16_9 false = 2
  hreads16_9 : ∀ i i' : grid16.Coords, (∀ a, reads16_9 a = true → i a = i' a) → cc16_transform_9 i = cc16_transform_9 i'
  hinb16_9 : ∀ (i : grid16.Coords) a, (cc16_transform_9 i a + 1) * S2048x1.size a ≤ S16384x1.size a
  hwx16_9 : ∀ i : grid16.Coords, EltTy.bits .f32 = 32 ∨ (Rect.block (s := S16384x1) S2048x1.size (cc16_transform_9 i) (hinb16_9 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf
def dot_S1024x1000_S1000x256_S1024x256_1_0_0_1_n_n : DotDims S1024x1000 S1000x256 S1024x256 where
  lhsContracting := [1]
  rhsContracting := [0]
  lhsNonContracting := [0]
  rhsNonContracting := [1]
  lhsBatch := []
  rhsBatch := []
  wf := dot_S1024x1000_S1000x256_S1024x256_1_0_0_1_n_n_wf
def gather_S6000x256_S16384x1_S16384x256_1_0_n_n_0_1_1256 : GatherDims S6000x256 S16384x1 S16384x256 where
  offsetDims := [1]
  collapsedSliceDims := [0]
  operandBatchingDims := []
  startIndicesBatchingDims := []
  startIndexMap := [0]
  indexVectorDim := 1
  sliceSizes := ![1, 256]
  wf := gather_S6000x256_S16384x1_S16384x256_1_0_n_n_0_1_1256_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_v44) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v53) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v62) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v70) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S256x256.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S256x1.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1024x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S1024x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v78) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1024x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1024x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S1024x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v87) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1024x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1024x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v91) S1024x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v39) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S1024x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

abbrev win6_0 : Pipeline.Window sig grid6 :=
  Pipeline.Window.ofSpec (Memref.whole main_v95) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S1024x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v98) S1024x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v99) S1024x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v100) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v101) S1024x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun _ => false | 5 => fun i => !(k6_cond2 i == 1#1) | ⟨_ + 6, h⟩ => absurd h (Nat.not_lt.2 (Nat.le_add_left _ _))

abbrev win7_0 : Pipeline.Window sig grid7 :=
  Pipeline.Window.ofSpec (Memref.whole main_v104) S1000x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v106) S1024x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v107) S1024x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v37) S1000x1.size cc7_transform_3 reads7_3 false false 1 stage7_3 sem7_3
    hrank7 hreads7_3 hinb7_3 nbuf7_3 (Memref.isWhole_whole _) hwx7_3 hstage7_3

abbrev win7_4 : Pipeline.Window sig grid7 :=
  Pipeline.Window.ofSpec (Memref.whole main_v108) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v109) S1000x256.size cc7_transform_5 reads7_5 true false 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun _ => false | 5 => fun i => !(k7_cond2 i == 1#1) | ⟨_ + 6, h⟩ => absurd h (Nat.not_lt.2 (Nat.le_add_left _ _))

abbrev win8_0 : Pipeline.Window sig grid8 :=
  Pipeline.Window.ofSpec (Memref.whole main_v111) S1024x1000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v112) S1000x256.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v113) S1000x1.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_v114) S1024x1.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v40) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v115) S1024x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev idle8 : Fin 6 → grid8.Coords → Bool := fun | 0 => fun _ => false | 1 => fun _ => false | 2 => fun _ => false | 3 => fun _ => false | 4 => fun _ => false | 5 => fun i => !(k8_cond2 i == 1#1) | ⟨_ + 6, h⟩ => absurd h (Nat.not_lt.2 (Nat.le_add_left _ _))

abbrev win9_0 : Pipeline.Window sig grid9 :=
  Pipeline.Window.ofSpec (Memref.whole main_v118) S1024x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v119) S256x256.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v120) S256x1.size cc9_transform_2 reads9_2 false false 1 stage9_2 sem9_2
    hrank9 hreads9_2 hinb9_2 nbuf9_2 (Memref.isWhole_whole _) hwx9_2 hstage9_2

abbrev win9_3 : Pipeline.Window sig grid9 :=
  Pipeline.Window.ofSpec (Memref.whole main_v121) S1024x1.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v122) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v123) S1024x256.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev idle9 : Fin 6 → grid9.Coords → Bool := fun | 0 => fun _ => false | 1 => fun _ => false | 2 => fun _ => false | 3 => fun _ => false | 4 => fun _ => false | 5 => fun i => !(k9_cond2 i == 1#1) | ⟨_ + 6, h⟩ => absurd h (Nat.not_lt.2 (Nat.le_add_left _ _))

abbrev win10_0 : Pipeline.Window sig grid10 :=
  Pipeline.Window.ofSpec (Memref.whole main_v126) S1000x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v128) S1024x256.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v129) S1024x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v37) S1000x1.size cc10_transform_3 reads10_3 false false 1 stage10_3 sem10_3
    hrank10 hreads10_3 hinb10_3 nbuf10_3 (Memref.isWhole_whole _) hwx10_3 hstage10_3

abbrev win10_4 : Pipeline.Window sig grid10 :=
  Pipeline.Window.ofSpec (Memref.whole main_v130) S1x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v131) S1000x256.size cc10_transform_5 reads10_5 true false 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev idle10 : Fin 6 → grid10.Coords → Bool := fun | 0 => fun _ => false | 1 => fun _ => false | 2 => fun _ => false | 3 => fun _ => false | 4 => fun _ => false | 5 => fun i => !(k10_cond2 i == 1#1) | ⟨_ + 6, h⟩ => absurd h (Nat.not_lt.2 (Nat.le_add_left _ _))

abbrev win11_0 : Pipeline.Window sig grid11 :=
  Pipeline.Window.ofSpec (Memref.whole main_v133) S1024x1000.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v134) S1000x256.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v135) S1000x1.size cc11_transform_2 reads11_2 false false 1 stage11_2 sem11_2
    hrank11 hreads11_2 hinb11_2 nbuf11_2 (Memref.isWhole_whole _) hwx11_2 hstage11_2

abbrev win11_3 : Pipeline.Window sig grid11 :=
  Pipeline.Window.ofSpec (Memref.whole main_v136) S1024x1.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v41) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v137) S1024x256.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev idle11 : Fin 6 → grid11.Coords → Bool := fun | 0 => fun _ => false | 1 => fun _ => false | 2 => fun _ => false | 3 => fun _ => false | 4 => fun _ => false | 5 => fun i => !(k11_cond2 i == 1#1) | ⟨_ + 6, h⟩ => absurd h (Nat.not_lt.2 (Nat.le_add_left _ _))

abbrev win12_0 : Pipeline.Window sig grid12 :=
  Pipeline.Window.ofSpec (Memref.whole main_v151) S1024x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v152) S256x256.size cc12_transform_1 reads12_1 false false 1 stage12_1 sem12_1
    hrank12 hreads12_1 hinb12_1 nbuf12_1 (Memref.isWhole_whole _) hwx12_1 hstage12_1

abbrev win12_2 : Pipeline.Window sig grid12 :=
  Pipeline.Window.ofSpec (Memref.whole main_v153) S256x1.size cc12_transform_2 reads12_2 false false 1 stage12_2 sem12_2
    hrank12 hreads12_2 hinb12_2 nbuf12_2 (Memref.isWhole_whole _) hwx12_2 hstage12_2

abbrev win12_3 : Pipeline.Window sig grid12 :=
  Pipeline.Window.ofSpec (Memref.whole main_v154) S1024x1.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v42) S1x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v155) S1024x256.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev idle12 : Fin 6 → grid12.Coords → Bool := fun | 0 => fun _ => false | 1 => fun _ => false | 2 => fun _ => false | 3 => fun _ => false | 4 => fun _ => false | 5 => fun i => !(k12_cond2 i == 1#1) | ⟨_ + 6, h⟩ => absurd h (Nat.not_lt.2 (Nat.le_add_left _ _))

abbrev win13_0 : Pipeline.Window sig grid13 :=
  Pipeline.Window.ofSpec (Memref.whole main_v147) S1024x1024.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v158) S6144x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v148) S1024x1.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v148) S1024x1.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v149) S256x256.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v42) S1x256.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v159_0) S1024x256.size cc13_transform_6 reads13_6 true false 2 stage13_6 sem13_6
    hrank13 hreads13_6 hinb13_6 nbuf13_6 (Memref.isWhole_whole _) hwx13_6 hstage13_6

abbrev win13_7 : Pipeline.Window sig grid13 :=
  Pipeline.Window.ofSpec (Memref.whole main_v159_1) S1024x256.size cc13_transform_7 reads13_7 true false 2 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev idle13 : Fin 8 → grid13.Coords → Bool := fun | 0 => fun _ => false | 1 => fun _ => false | 2 => fun _ => false | 3 => fun _ => false | 4 => fun _ => false | 5 => fun _ => false | 6 => fun i => !(k13_cond2 i == 1#1) | 7 => fun i => !(k13_cond2 i == 1#1) | ⟨_ + 8, h⟩ => absurd h (Nat.not_lt.2 (Nat.le_add_left _ _))

abbrev win14_0 : Pipeline.Window sig grid14 :=
  Pipeline.Window.ofSpec (Memref.whole main_v147) S1024x1024.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v159_0) S6144x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v148) S1024x1.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v148) S1024x1.size cc14_transform_3 reads14_3 false false 2 stage14_3 sem14_3
    hrank14 hreads14_3 hinb14_3 nbuf14_3 (Memref.isWhole_whole _) hwx14_3 hstage14_3

abbrev win14_4 : Pipeline.Window sig grid14 :=
  Pipeline.Window.ofSpec (Memref.whole main_v149) S256x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v42) S1x256.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v162_0) S1024x256.size cc14_transform_6 reads14_6 true false 2 stage14_6 sem14_6
    hrank14 hreads14_6 hinb14_6 nbuf14_6 (Memref.isWhole_whole _) hwx14_6 hstage14_6

abbrev win14_7 : Pipeline.Window sig grid14 :=
  Pipeline.Window.ofSpec (Memref.whole main_v162_1) S1024x256.size cc14_transform_7 reads14_7 true false 2 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

abbrev idle14 : Fin 8 → grid14.Coords → Bool := fun | 0 => fun _ => false | 1 => fun _ => false | 2 => fun _ => false | 3 => fun _ => false | 4 => fun _ => false | 5 => fun _ => false | 6 => fun i => !(k14_cond2 i == 1#1) | 7 => fun i => !(k14_cond2 i == 1#1) | ⟨_ + 8, h⟩ => absurd h (Nat.not_lt.2 (Nat.le_add_left _ _))

abbrev win15_0 : Pipeline.Window sig grid15 :=
  Pipeline.Window.ofSpec (Memref.whole main_v147) S1024x1024.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v162_0) S6144x256.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v148) S1024x1.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v148) S1024x1.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_v149) S256x256.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v42) S1x256.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v165_0) S1024x256.size cc15_transform_6 reads15_6 true false 2 stage15_6 sem15_6
    hrank15 hreads15_6 hinb15_6 nbuf15_6 (Memref.isWhole_whole _) hwx15_6 hstage15_6

abbrev win15_7 : Pipeline.Window sig grid15 :=
  Pipeline.Window.ofSpec (Memref.whole main_v165_1) S1024x256.size cc15_transform_7 reads15_7 true false 2 stage15_7 sem15_7
    hrank15 hreads15_7 hinb15_7 nbuf15_7 (Memref.isWhole_whole _) hwx15_7 hstage15_7

abbrev win15 : Fin 8 → Pipeline.Window sig grid15 := fun | 0 => win15_0 | 1 => win15_1 | 2 => win15_2 | 3 => win15_3 | 4 => win15_4 | 5 => win15_5 | 6 => win15_6 | 7 => win15_7 | ⟨_ + 8, h⟩ => absurd h (Nat.not_lt.2 (Nat.le_add_left _ _))
abbrev spec15 : Fin 8 → Pipeline.WinSpec sig grid15.rank := fun w => (win15 w).toWinSpec

abbrev idle15 : Fin 8 → grid15.Coords → Bool := fun | 0 => fun _ => false | 1 => fun _ => false | 2 => fun _ => false | 3 => fun _ => false | 4 => fun _ => false | 5 => fun _ => false | 6 => fun i => !(k15_cond2 i == 1#1) | 7 => fun i => !(k15_cond2 i == 1#1) | ⟨_ + 8, h⟩ => absurd h (Nat.not_lt.2 (Nat.le_add_left _ _))

abbrev win16_0 : Pipeline.Window sig grid16 :=
  Pipeline.Window.ofSpec (Memref.whole main_v175) S2048x256.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v176) S256x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v180) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v177) S128x64.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v181) S1x64.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v178) S64x32.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v182) S1x32.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v179) S32x1.size cc16_transform_7 reads16_7 false true 1 stage16_7 sem16_7
    hrank16 hreads16_7 hinb16_7 nbuf16_7 (Memref.isWhole_whole _) hwx16_7 hstage16_7

abbrev win16_8 : Pipeline.Window sig grid16 :=
  Pipeline.Window.ofSpec (Memref.whole main_v183) S1x1.size cc16_transform_8 reads16_8 false true 1 stage16_8 sem16_8
    hrank16 hreads16_8 hinb16_8 nbuf16_8 (Memref.isWhole_whole _) hwx16_8 hstage16_8

abbrev win16_9 : Pipeline.Window sig grid16 :=
  Pipeline.Window.ofSpec (Memref.whole main_v184) S2048x1.size cc16_transform_9 reads16_9 true false 2 stage16_9 sem16_9
    hrank16 hreads16_9 hinb16_9 nbuf16_9 (Memref.isWhole_whole _) hwx16_9 hstage16_9

abbrev win16 : Fin 10 → Pipeline.Window sig grid16 := fun | 0 => win16_0 | 1 => win16_1 | 2 => win16_2 | 3 => win16_3 | 4 => win16_4 | 5 => win16_5 | 6 => win16_6 | 7 => win16_7 | 8 => win16_8 | 9 => win16_9 | ⟨_ + 10, h⟩ => absurd h (Nat.not_lt.2 (Nat.le_add_left _ _))
abbrev spec16 : Fin 10 → Pipeline.WinSpec sig grid16.rank := fun w => (win16 w).toWinSpec

class Facts : Prop extends Facts₀ where

variable [Facts]
-- ==== ReferenceIdeal.lean ====
abbrev S4000x4000 : Shape := ⟨2, ![4000, 4000]⟩
abbrev S2000x2000 : Shape := ⟨2, ![2000, 2000]⟩
abbrev S2000x4000 : Shape := ⟨2, ![2000, 4000]⟩
abbrev S1000x2000 : Shape := ⟨2, ![1000, 2000]⟩
abbrev S6000x6000 : Shape := ⟨2, ![6000, 6000]⟩
abbrev S16384 : Shape := ⟨1, ![16384]⟩
abbrev S4000x256 : Shape := ⟨2, ![4000, 256]⟩
abbrev S256 : Shape := ⟨1, ![256]⟩
abbrev S256x256 : Shape := ⟨2, ![256, 256]⟩
abbrev S2000x256 : Shape := ⟨2, ![2000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S4000x2000 : Shape := ⟨2, ![4000, 2000]⟩
abbrev S2000x1000 : Shape := ⟨2, ![2000, 1000]⟩
abbrev S_ : Shape := ⟨0, ![]⟩
abbrev S4000 : Shape := ⟨1, ![4000]⟩
abbrev S2000 : Shape := ⟨1, ![2000]⟩
abbrev S2000x1 : Shape := ⟨2, ![2000, 1]⟩
abbrev S4000x1 : Shape := ⟨2, ![4000, 1]⟩
abbrev S1x256 : Shape := ⟨2, ![1, 256]⟩
abbrev S1000 : Shape := ⟨1, ![1000]⟩
abbrev S1000x256 : Shape := ⟨2, ![1000, 256]⟩
abbrev S1000x1 : Shape := ⟨2, ![1000, 1]⟩
abbrev S6000x256 : Shape := ⟨2, ![6000, 256]⟩
abbrev S6000 : Shape := ⟨1, ![6000]⟩
abbrev S6000x1 : Shape := ⟨2, ![6000, 1]⟩
abbrev S16384x1 : Shape := ⟨2, ![16384, 1]⟩
abbrev S16384x256 : Shape := ⟨2, ![16384, 256]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S1x1 : Shape := ⟨2, ![1, 1]⟩

abbrev nBuf : Space → Nat
  | .hbm => 297
  | .vmem => 0
  | .smem => 0
  | _ => 0

abbrev hbmTy0_0 (i : Nat) : BufTy := match i % 128 with
  | 0 => ⟨S4000x4000, .f32⟩
  | 1 => ⟨S2000x2000, .f32⟩
  | 2 => ⟨S2000x4000, .f32⟩
  | 3 => ⟨S1000x2000, .f32⟩
  | 4 => ⟨S6000x6000, .f32⟩
  | 5 => ⟨S16384, .i32⟩
  | 6 => ⟨S16384, .i32⟩
  | 7 => ⟨S4000x256, .f32⟩
  | 8 => ⟨S256, .f32⟩
  | 9 => ⟨S256x256, .f32⟩
  | 10 => ⟨S256, .f32⟩
  | 11 => ⟨S2000x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x128, .f32⟩
  | 18 => ⟨S128, .f32⟩
  | 19 => ⟨S128x64, .f32⟩
  | 20 => ⟨S64, .f32⟩
  | 21 => ⟨S64x32, .f32⟩
  | 22 => ⟨S32, .f32⟩
  | 23 => ⟨S32x1, .f32⟩
  | 24 => ⟨S1, .f32⟩
  | 25 => ⟨S4000x2000, .f32⟩
  | 26 => ⟨S2000x1000, .f32⟩
  | 27 => ⟨S_, .f32⟩
  | 28 => ⟨S4000, .f32⟩
  | 29 => ⟨S_, .f32⟩
  | 30 => ⟨S4000, .f32⟩
  | 31 => ⟨S4000, .i1⟩
  | 32 => ⟨S_, .f32⟩
  | 33 => ⟨S4000, .f32⟩
  | 34 => ⟨S4000, .f32⟩
  | 35 => ⟨S_, .f32⟩
  | 36 => ⟨S4000, .f32⟩
  | 37 => ⟨S4000, .f32⟩
  | 38 => ⟨S_, .f32⟩
  | 39 => ⟨S_, .f32⟩
  | 40 => ⟨S4000, .f32⟩
  | 41 => ⟨S4000, .f32⟩
  | 42 => ⟨S_, .f32⟩
  | 43 => ⟨S2000, .f32⟩
  | 44 => ⟨S_, .f32⟩
  | 45 => ⟨S2000, .f32⟩
  | 46 => ⟨S2000, .i1⟩
  | 47 => ⟨S_, .f32⟩
  | 48 => ⟨S2000, .f32⟩
  | 49 => ⟨S2000, .f32⟩
  | 50 => ⟨S_, .f32⟩
  | 51 => ⟨S2000, .f32⟩
  | 52 => ⟨S2000, .f32⟩
  | 53 => ⟨S_, .f32⟩
  | 54 => ⟨S_, .f32⟩
  | 55 => ⟨S2000, .f32⟩
  | 56 => ⟨S2000, .f32⟩
  | 57 => ⟨S4000x256, .f32⟩
  | 58 => ⟨S2000x4000, .f32⟩
  | 59 => ⟨S2000x256, .f32⟩
  | 60 => ⟨S2000x1, .f32⟩
  | 61 => ⟨S2000x256, .f32⟩
  | 62 => ⟨S2000x256, .f32⟩
  | 63 => ⟨S4000x256, .f32⟩
  | 64 => ⟨S4000x1, .f32⟩
  | 65 => ⟨S4000x256, .f32⟩
  | 66 => ⟨S4000x256, .f32⟩
  | 67 => ⟨S1x256, .f32⟩
  | 68 => ⟨S4000x256, .f32⟩
  | 69 => ⟨S4000x256, .f32⟩
  | 70 => ⟨S_, .f32⟩
  | 71 => ⟨S4000x256, .f32⟩
  | 72 => ⟨S4000x256, .f32⟩
  | 73 => ⟨S_, .f32⟩
  | 74 => ⟨S4000, .f32⟩
  | 75 => ⟨S_, .f32⟩
  | 76 => ⟨S4000, .f32⟩
  | 77 => ⟨S4000, .i1⟩
  | 78 => ⟨S_, .f32⟩
  | 79 => ⟨S4000, .f32⟩
  | 80 => ⟨S4000, .f32⟩
  | 81 => ⟨S_, .f32⟩
  | 82 => ⟨S4000, .f32⟩
  | 83 => ⟨S4000, .f32⟩
  | 84 => ⟨S_, .f32⟩
  | 85 => ⟨S_, .f32⟩
  | 86 => ⟨S4000, .f32⟩
  | 87 => ⟨S4000, .f32⟩
  | 88 => ⟨S_, .f32⟩
  | 89 => ⟨S2000, .f32⟩
  | 90 => ⟨S_, .f32⟩
  | 91 => ⟨S2000, .f32⟩
  | 92 => ⟨S2000, .i1⟩
  | 93 => ⟨S_, .f32⟩
  | 94 => ⟨S2000, .f32⟩
  | 95 => ⟨S2000, .f32⟩
  | 96 => ⟨S_, .f32⟩
  | 97 => ⟨S2000, .f32⟩
  | 98 => ⟨S2000, .f32⟩
  | 99 => ⟨S_, .f32⟩
  | 100 => ⟨S_, .f32⟩
  | 101 => ⟨S2000, .f32⟩
  | 102 => ⟨S2000, .f32⟩
  | 103 => ⟨S4000x256, .f32⟩
  | 104 => ⟨S2000x4000, .f32⟩
  | 105 => ⟨S2000x256, .f32⟩
  | 106 => ⟨S2000x1, .f32⟩
  | 107 => ⟨S2000x256, .f32⟩
  | 108 => ⟨S2000x256, .f32⟩
  | 109 => ⟨S4000x256, .f32⟩
  | 110 => ⟨S4000x1, .f32⟩
  | 111 => ⟨S4000x256, .f32⟩
  | 112 => ⟨S4000x256, .f32⟩
  | 113 => ⟨S1x256, .f32⟩
  | 114 => ⟨S4000x256, .f32⟩
  | 115 => ⟨S4000x256, .f32⟩
  | 116 => ⟨S_, .f32⟩
  | 117 => ⟨S2000, .f32⟩
  | 118 => ⟨S_, .f32⟩
  | 119 => ⟨S2000, .f32⟩
  | 120 => ⟨S2000, .i1⟩
  | 121 => ⟨S_, .f32⟩
  | 122 => ⟨S2000, .f32⟩
  | 123 => ⟨S2000, .f32⟩
  | 124 => ⟨S_, .f32⟩
  | 125 => ⟨S2000, .f32⟩
  | 126 => ⟨S2000, .f32⟩
  | 127 => ⟨S_, .f32⟩
  | _ => ⟨S4000x4000, .f32⟩

abbrev hbmTy0_1 (i : Nat) : BufTy := match i % 128 with
  | 0 => ⟨S_, .f32⟩
  | 1 => ⟨S2000, .f32⟩
  | 2 => ⟨S2000, .f32⟩
  | 3 => ⟨S_, .f32⟩
  | 4 => ⟨S1000, .f32⟩
  | 5 => ⟨S_, .f32⟩
  | 6 => ⟨S1000, .f32⟩
  | 7 => ⟨S1000, .i1⟩
  | 8 => ⟨S_, .f32⟩
  | 9 => ⟨S1000, .f32⟩
  | 10 => ⟨S1000, .f32⟩
  | 11 => ⟨S_, .f32⟩
  | 12 => ⟨S1000, .f32⟩
  | 13 => ⟨S1000, .f32⟩
  | 14 => ⟨S_, .f32⟩
  | 15 => ⟨S_, .f32⟩
  | 16 => ⟨S1000, .f32⟩
  | 17 => ⟨S1000, .f32⟩
  | 18 => ⟨S2000x256, .f32⟩
  | 19 => ⟨S1000x2000, .f32⟩
  | 20 => ⟨S1000x256, .f32⟩
  | 21 => ⟨S1000x1, .f32⟩
  | 22 => ⟨S1000x256, .f32⟩
  | 23 => ⟨S1000x256, .f32⟩
  | 24 => ⟨S2000x256, .f32⟩
  | 25 => ⟨S2000x1, .f32⟩
  | 26 => ⟨S2000x256, .f32⟩
  | 27 => ⟨S2000x256, .f32⟩
  | 28 => ⟨S1x256, .f32⟩
  | 29 => ⟨S2000x256, .f32⟩
  | 30 => ⟨S2000x256, .f32⟩
  | 31 => ⟨S_, .f32⟩
  | 32 => ⟨S2000x256, .f32⟩
  | 33 => ⟨S2000x256, .f32⟩
  | 34 => ⟨S_, .f32⟩
  | 35 => ⟨S2000, .f32⟩
  | 36 => ⟨S_, .f32⟩
  | 37 => ⟨S2000, .f32⟩
  | 38 => ⟨S2000, .i1⟩
  | 39 => ⟨S_, .f32⟩
  | 40 => ⟨S2000, .f32⟩
  | 41 => ⟨S2000, .f32⟩
  | 42 => ⟨S_, .f32⟩
  | 43 => ⟨S2000, .f32⟩
  | 44 => ⟨S2000, .f32⟩
  | 45 => ⟨S_, .f32⟩
  | 46 => ⟨S_, .f32⟩
  | 47 => ⟨S2000, .f32⟩
  | 48 => ⟨S2000, .f32⟩
  | 49 => ⟨S_, .f32⟩
  | 50 => ⟨S1000, .f32⟩
  | 51 => ⟨S_, .f32⟩
  | 52 => ⟨S1000, .f32⟩
  | 53 => ⟨S1000, .i1⟩
  | 54 => ⟨S_, .f32⟩
  | 55 => ⟨S1000, .f32⟩
  | 56 => ⟨S1000, .f32⟩
  | 57 => ⟨S_, .f32⟩
  | 58 => ⟨S1000, .f32⟩
  | 59 => ⟨S1000, .f32⟩
  | 60 => ⟨S_, .f32⟩
  | 61 => ⟨S_, .f32⟩
  | 62 => ⟨S1000, .f32⟩
  | 63 => ⟨S1000, .f32⟩
  | 64 => ⟨S2000x256, .f32⟩
  | 65 => ⟨S1000x2000, .f32⟩
  | 66 => ⟨S1000x256, .f32⟩
  | 67 => ⟨S1000x1, .f32⟩
  | 68 => ⟨S1000x256, .f32⟩
  | 69 => ⟨S1000x256, .f32⟩
  | 70 => ⟨S2000x256, .f32⟩
  | 71 => ⟨S2000x1, .f32⟩
  | 72 => ⟨S2000x256, .f32⟩
  | 73 => ⟨S2000x256, .f32⟩
  | 74 => ⟨S1x256, .f32⟩
  | 75 => ⟨S2000x256, .f32⟩
  | 76 => ⟨S2000x256, .f32⟩
  | 77 => ⟨S6000x256, .f32⟩
  | 78 => ⟨S_, .f32⟩
  | 79 => ⟨S6000, .f32⟩
  | 80 => ⟨S_, .f32⟩
  | 81 => ⟨S_, .f32⟩
  | 82 => ⟨S6000, .f32⟩
  | 83 => ⟨S6000, .f32⟩
  | 84 => ⟨S_, .f32⟩
  | 85 => ⟨S6000, .f32⟩
  | 86 => ⟨S6000, .f32⟩
  | 87 => ⟨S6000x1, .f32⟩
  | 88 => ⟨S6000x256, .f32⟩
  | 89 => ⟨S1x256, .f32⟩
  | 90 => ⟨S6000x256, .f32⟩
  | 91 => ⟨S6000x256, .f32⟩
  | 92 => ⟨S6000x6000, .f32⟩
  | 93 => ⟨S6000x256, .f32⟩
  | 94 => ⟨S6000x256, .f32⟩
  | 95 => ⟨S6000x256, .f32⟩
  | 96 => ⟨S6000x256, .f32⟩
  | 97 => ⟨S6000x256, .f32⟩
  | 98 => ⟨S6000x256, .f32⟩
  | 99 => ⟨S1x256, .f32⟩
  | 100 => ⟨S6000x256, .f32⟩
  | 101 => ⟨S6000x256, .f32⟩
  | 102 => ⟨S6000x256, .f32⟩
  | 103 => ⟨S6000x6000, .f32⟩
  | 104 => ⟨S6000x256, .f32⟩
  | 105 => ⟨S6000x256, .f32⟩
  | 106 => ⟨S6000x256, .f32⟩
  | 107 => ⟨S6000x256, .f32⟩
  | 108 => ⟨S6000x256, .f32⟩
  | 109 => ⟨S6000x256, .f32⟩
  | 110 => ⟨S1x256, .f32⟩
  | 111 => ⟨S6000x256, .f32⟩
  | 112 => ⟨S6000x256, .f32⟩
  | 113 => ⟨S6000x256, .f32⟩
  | 114 => ⟨S6000x6000, .f32⟩
  | 115 => ⟨S6000x256, .f32⟩
  | 116 => ⟨S6000x256, .f32⟩
  | 117 => ⟨S6000x256, .f32⟩
  | 118 => ⟨S6000x256, .f32⟩
  | 119 => ⟨S6000x256, .f32⟩
  | 120 => ⟨S6000x256, .f32⟩
  | 121 => ⟨S1x256, .f32⟩
  | 122 => ⟨S6000x256, .f32⟩
  | 123 => ⟨S6000x256, .f32⟩
  | 124 => ⟨S6000x256, .f32⟩
  | 125 => ⟨S_, .f32⟩
  | 126 => ⟨S6000x256, .f32⟩
  | 127 => ⟨S6000x256, .f32⟩
  | _ => ⟨S4000x4000, .f32⟩

abbrev hbmTy0_2 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S16384x256, .f32⟩
  | 9 => ⟨S_, .i32⟩
  | 10 => ⟨S16384, .i32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S16384x256, .f32⟩
  | 21 => ⟨S16384x256, .f32⟩
  | 22 => ⟨S16384x128, .f32⟩
  | 23 => ⟨S1x128, .f32⟩
  | 24 => ⟨S16384x128, .f32⟩
  | 25 => ⟨S16384x128, .f32⟩
  | 26 => ⟨S16384x128, .f32⟩
  | 27 => ⟨S16384x64, .f32⟩
  | 28 => ⟨S1x64, .f32⟩
  | 29 => ⟨S16384x64, .f32⟩
  | 30 => ⟨S16384x64, .f32⟩
  | 31 => ⟨S16384x64, .f32⟩
  | 32 => ⟨S16384x32, .f32⟩
  | 33 => ⟨S1x32, .f32⟩
  | 34 => ⟨S16384x32, .f32⟩
  | 35 => ⟨S16384x32, .f32⟩
  | 36 => ⟨S16384x32, .f32⟩
  | 37 => ⟨S16384x1, .f32⟩
  | 38 => ⟨S1x1, .f32⟩
  | 39 => ⟨S16384x1, .f32⟩
  | 40 => ⟨S16384x1, .f32⟩
  | _ => ⟨S4000x4000, .f32⟩

abbrev hbmTy (i : Nat) : BufTy := match i / 128 with
  | 0 => hbmTy0_0 i
  | 1 => hbmTy0_1 i
  | 2 => hbmTy0_2 i
  | _ => ⟨S4000x4000, .f32⟩

abbrev bufTy : (tb : Table) → Fin (tcTables nBuf tb) → BufTy
  | .hbm, ⟨i, _⟩ => hbmTy i
  | _, _ => ⟨S4000x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_cst_2 : Ref sig .tc := ⟨.hbm, 35, rfl⟩
abbrev main_v7 : Ref sig .tc := ⟨.hbm, 36, rfl⟩
abbrev main_v8 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v9 : Ref sig .tc := ⟨.hbm, 41, rfl⟩
abbrev main_cst_4 : Ref sig .tc := ⟨.hbm, 42, rfl⟩
abbrev main_v10 : Ref sig .tc := ⟨.hbm, 43, rfl⟩
abbrev main_cst_5 : Ref sig .tc := ⟨.hbm, 44, rfl⟩
abbrev main_v11 : Ref sig .tc := ⟨.hbm, 45, rfl⟩
abbrev main_v12 : Ref sig .tc := ⟨.hbm, 46, rfl⟩
abbrev main_cst_6 : Ref sig .tc := ⟨.hbm, 47, rfl⟩
abbrev main_v13 : Ref sig .tc := ⟨.hbm, 48, rfl⟩
abbrev main_v14 : Ref sig .tc := ⟨.hbm, 49, rfl⟩
abbrev main_cst_7 : Ref sig .tc := ⟨.hbm, 50, rfl⟩
abbrev main_v15 : Ref sig .tc := ⟨.hbm, 51, rfl⟩
abbrev main_v16 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_call2_cst : Ref sig .tc := ⟨.hbm, 70, rfl⟩
abbrev main_call2_v0 : Ref sig .tc := ⟨.hbm, 71, rfl⟩
abbrev main_v31 : Ref sig .tc := ⟨.hbm, 72, rfl⟩
abbrev main_cst_9 : Ref sig .tc := ⟨.hbm, 73, rfl⟩
abbrev main_v32 : Ref sig .tc := ⟨.hbm, 74, rfl⟩
abbrev main_cst_10 : Ref sig .tc := ⟨.hbm, 75, rfl⟩
abbrev main_v33 : Ref sig .tc := ⟨.hbm, 76, rfl⟩
abbrev main_v34 : Ref sig .tc := ⟨.hbm, 77, rfl⟩
abbrev main_cst_11 : Ref sig .tc := ⟨.hbm, 78, rfl⟩
abbrev main_v35 : Ref sig .tc := ⟨.hbm, 79, rfl⟩
abbrev main_v36 : Ref sig .tc := ⟨.hbm, 80, rfl⟩
abbrev main_cst_12 : Ref sig .tc := ⟨.hbm, 81, rfl⟩
abbrev main_v37 : Ref sig .tc := ⟨.hbm, 82, rfl⟩
abbrev main_v38 : Ref sig .tc := ⟨.hbm, 83, rfl⟩
abbrev main_cst_13 : Ref sig .tc := ⟨.hbm, 84, rfl⟩
abbrev main_call3_v0 : Ref sig .tc := ⟨.hbm, 85, rfl⟩
abbrev main_call3_v1 : Ref sig .tc := ⟨.hbm, 86, rfl⟩
abbrev main_v39 : Ref sig .tc := ⟨.hbm, 87, rfl⟩
abbrev main_cst_14 : Ref sig .tc := ⟨.hbm, 88, rfl⟩
abbrev main_v40 : Ref sig .tc := ⟨.hbm, 89, rfl⟩
abbrev main_cst_15 : Ref sig .tc := ⟨.hbm, 90, rfl⟩
abbrev main_v41 : Ref sig .tc := ⟨.hbm, 91, rfl⟩
abbrev main_v42 : Ref sig .tc := ⟨.hbm, 92, rfl⟩
abbrev main_cst_16 : Ref sig .tc := ⟨.hbm, 93, rfl⟩
abbrev main_v43 : Ref sig .tc := ⟨.hbm, 94, rfl⟩
abbrev main_v44 : Ref sig .tc := ⟨.hbm, 95, rfl⟩
abbrev main_cst_17 : Ref sig .tc := ⟨.hbm, 96, rfl⟩
abbrev main_v45 : Ref sig .tc := ⟨.hbm, 97, rfl⟩
abbrev main_v46 : Ref sig .tc := ⟨.hbm, 98, rfl⟩
abbrev main_cst_18 : Ref sig .tc := ⟨.hbm, 99, rfl⟩
abbrev main_call4_v0 : Ref sig .tc := ⟨.hbm, 100, rfl⟩
abbrev main_call4_v1 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_cst_19 : Ref sig .tc := ⟨.hbm, 116, rfl⟩
abbrev main_v61 : Ref sig .tc := ⟨.hbm, 117, rfl⟩
abbrev main_cst_20 : Ref sig .tc := ⟨.hbm, 118, rfl⟩
abbrev main_v62 : Ref sig .tc := ⟨.hbm, 119, rfl⟩
abbrev main_v63 : Ref sig .tc := ⟨.hbm, 120, rfl⟩
abbrev main_cst_21 : Ref sig .tc := ⟨.hbm, 121, rfl⟩
abbrev main_v64 : Ref sig .tc := ⟨.hbm, 122, rfl⟩
abbrev main_v65 : Ref sig .tc := ⟨.hbm, 123, rfl⟩
abbrev main_cst_22 : Ref sig .tc := ⟨.hbm, 124, rfl⟩
abbrev main_v66 : Ref sig .tc := ⟨.hbm, 125, rfl⟩
abbrev main_v67 : Ref sig .tc := ⟨.hbm, 126, rfl⟩
abbrev main_cst_23 : Ref sig .tc := ⟨.hbm, 127, rfl⟩
abbrev main_call5_v0 : Ref sig .tc := ⟨.hbm, 128, rfl⟩
abbrev main_call5_v1 : Ref sig .tc := ⟨.hbm, 129, rfl⟩
abbrev main_v68 : Ref sig .tc := ⟨.hbm, 130, rfl⟩
abbrev main_cst_24 : Ref sig .tc := ⟨.hbm, 131, rfl⟩
abbrev main_v69 : Ref sig .tc := ⟨.hbm, 132, rfl⟩
abbrev main_cst_25 : Ref sig .tc := ⟨.hbm, 133, rfl⟩
abbrev main_v70 : Ref sig .tc := ⟨.hbm, 134, rfl⟩
abbrev main_v71 : Ref sig .tc := ⟨.hbm, 135, rfl⟩
abbrev main_cst_26 : Ref sig .tc := ⟨.hbm, 136, rfl⟩
abbrev main_v72 : Ref sig .tc := ⟨.hbm, 137, rfl⟩
abbrev main_v73 : Ref sig .tc := ⟨.hbm, 138, rfl⟩
abbrev main_cst_27 : Ref sig .tc := ⟨.hbm, 139, rfl⟩
abbrev main_v74 : Ref sig .tc := ⟨.hbm, 140, rfl⟩
abbrev main_v75 : Ref sig .tc := ⟨.hbm, 141, rfl⟩
abbrev main_cst_28 : Ref sig .tc := ⟨.hbm, 142, rfl⟩
abbrev main_call6_v0 : Ref sig .tc := ⟨.hbm, 143, rfl⟩
abbrev main_call6_v1 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_call7_cst : Ref sig .tc := ⟨.hbm, 159, rfl⟩
abbrev main_call7_v0 : Ref sig .tc := ⟨.hbm, 160, rfl⟩
abbrev main_v90 : Ref sig .tc := ⟨.hbm, 161, rfl⟩
abbrev main_cst_29 : Ref sig .tc := ⟨.hbm, 162, rfl⟩
abbrev main_v91 : Ref sig .tc := ⟨.hbm, 163, rfl⟩
abbrev main_cst_30 : Ref sig .tc := ⟨.hbm, 164, rfl⟩
abbrev main_v92 : Ref sig .tc := ⟨.hbm, 165, rfl⟩
abbrev main_v93 : Ref sig .tc := ⟨.hbm, 166, rfl⟩
abbrev main_cst_31 : Ref sig .tc := ⟨.hbm, 167, rfl⟩
abbrev main_v94 : Ref sig .tc := ⟨.hbm, 168, rfl⟩
abbrev main_v95 : Ref sig .tc := ⟨.hbm, 169, rfl⟩
abbrev main_cst_32 : Ref sig .tc := ⟨.hbm, 170, rfl⟩
abbrev main_v96 : Ref sig .tc := ⟨.hbm, 171, rfl⟩
abbrev main_v97 : Ref sig .tc := ⟨.hbm, 172, rfl⟩
abbrev main_cst_33 : Ref sig .tc := ⟨.hbm, 173, rfl⟩
abbrev main_call8_v0 : Ref sig .tc := ⟨.hbm, 174, rfl⟩
abbrev main_call8_v1 : Ref sig .tc := ⟨.hbm, 175, rfl⟩
abbrev main_v98 : Ref sig .tc := ⟨.hbm, 176, rfl⟩
abbrev main_cst_34 : Ref sig .tc := ⟨.hbm, 177, rfl⟩
abbrev main_v99 : Ref sig .tc := ⟨.hbm, 178, rfl⟩
abbrev main_cst_35 : Ref sig .tc := ⟨.hbm, 179, rfl⟩
abbrev main_v100 : Ref sig .tc := ⟨.hbm, 180, rfl⟩
abbrev main_v101 : Ref sig .tc := ⟨.hbm, 181, rfl⟩
abbrev main_cst_36 : Ref sig .tc := ⟨.hbm, 182, rfl⟩
abbrev main_v102 : Ref sig .tc := ⟨.hbm, 183, rfl⟩
abbrev main_v103 : Ref sig .tc := ⟨.hbm, 184, rfl⟩
abbrev main_cst_37 : Ref sig .tc := ⟨.hbm, 185, rfl⟩
abbrev main_v104 : Ref sig .tc := ⟨.hbm, 186, rfl⟩
abbrev main_v105 : Ref sig .tc := ⟨.hbm, 187, rfl⟩
abbrev main_cst_38 : Ref sig .tc := ⟨.hbm, 188, rfl⟩
abbrev main_call9_v0 : Ref sig .tc := ⟨.hbm, 189, rfl⟩
abbrev main_call9_v1 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_cst_39 : Ref sig .tc := ⟨.hbm, 206, rfl⟩
abbrev main_v121 : Ref sig .tc := ⟨.hbm, 207, rfl⟩
abbrev main_cst_40 : Ref sig .tc := ⟨.hbm, 208, rfl⟩
abbrev main_call10_v0 : Ref sig .tc := ⟨.hbm, 209, rfl⟩
abbrev main_call10_v1 : Ref sig .tc := ⟨.hbm, 210, rfl⟩
abbrev main_v122 : Ref sig .tc := ⟨.hbm, 211, rfl⟩
abbrev main_cst_41 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_call11_cst : Ref sig .tc := ⟨.hbm, 253, rfl⟩
abbrev main_call11_v0 : Ref sig .tc := ⟨.hbm, 254, rfl⟩
abbrev main_v163 : Ref sig .tc := ⟨.hbm, 255, rfl⟩
abbrev main_c : Ref sig .tc := ⟨.hbm, 256, rfl⟩
abbrev main_v164 : Ref sig .tc := ⟨.hbm, 257, rfl⟩
abbrev main_v165 : Ref sig .tc := ⟨.hbm, 258, rfl⟩
abbrev main_c_42 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_c_43 : Ref sig .tc := ⟨.hbm, 265, rfl⟩
abbrev main_v171 : Ref sig .tc := ⟨.hbm, 266, rfl⟩
abbrev main_v172 : Ref sig .tc := ⟨.hbm, 267, rfl⟩
abbrev main_c_44 : Ref sig .tc := ⟨.hbm, 268, rfl⟩
abbrev main_v173 : Ref sig .tc := ⟨.hbm, 269, rfl⟩
abbrev main_v174 : Ref sig .tc := ⟨.hbm, 270, rfl⟩
abbrev main_c_45 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩

abbrev nD : Nat := 1
abbrev τ : Topo := Topo.v7x

variable {F : FTy → Type} [FloatOps F]

class Facts₀ : Prop where
  transposes_S2000x4000_S4000x2000_1_0 : S2000x4000.Transposes [1, 0] S4000x2000
  transposes_S1000x2000_S2000x1000_1_0 : S1000x2000.Transposes [1, 0] S2000x1000
  reducesTo_S4000x2000_S4000_d1 : S4000x2000.ReducesTo [1] S4000
  h_S_ : 0 < S_.numel
  bcast_S_S4000 : S_.BroadcastsInDim S4000 (![] : Fin 0 → Fin S4000.rank)
  reducesTo_S4000x2000_S2000_d0 : S4000x2000.ReducesTo [0] S2000
  bcast_S_S2000 : S_.BroadcastsInDim S2000 (![] : Fin 0 → Fin S2000.rank)
  transposes_S4000x2000_S2000x4000_1_0 : S4000x2000.Transposes [1, 0] S2000x4000
  bcast_S2000_S2000x1_0 : S2000.BroadcastsInDim S2000x1 (![0] : Fin 1 → Fin S2000x1.rank)
  bcast_S2000x1_S2000x256_0_1 : S2000x1.BroadcastsInDim S2000x256 (![0, 1] : Fin 2 → Fin S2000x256.rank)
  bcast_S4000_S4000x1_0 : S4000.BroadcastsInDim S4000x1 (![0] : Fin 1 → Fin S4000x1.rank)
  bcast_S4000x1_S4000x256_0_1 : S4000x1.BroadcastsInDim S4000x256 (![0, 1] : Fin 2 → Fin S4000x256.rank)
  bcast_S256_S1x256_1 : S256.BroadcastsInDim S1x256 (![1] : Fin 1 → Fin S1x256.rank)
  bcast_S1x256_S4000x256_0_1 : S1x256.BroadcastsInDim S4000x256 (![0, 1] : Fin 2 → Fin S4000x256.rank)
  bcast_S_S4000x256 : S_.BroadcastsInDim S4000x256 (![] : Fin 0 → Fin S4000x256.rank)
  reducesTo_S2000x1000_S2000_d1 : S2000x1000.ReducesTo [1] S2000
  reducesTo_S2000x1000_S1000_d0 : S2000x1000.ReducesTo [0] S1000
  bcast_S_S1000 : S_.BroadcastsInDim S1000 (![] : Fin 0 → Fin S1000.rank)
  transposes_S2000x1000_S1000x2000_1_0 : S2000x1000.Transposes [1, 0] S1000x2000
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  bcast_S1x256_S2000x256_0_1 : S1x256.BroadcastsInDim S2000x256 (![0, 1] : Fin 2 → Fin S2000x256.rank)
  bcast_S_S2000x256 : S_.BroadcastsInDim S2000x256 (![] : Fin 0 → Fin S2000x256.rank)
  concatenates_S4000x256_S2000x256_S6000x256_d0 : Shape.Concatenates [S4000x256, S2000x256] S6000x256 0
  reducesTo_S6000x6000_S6000_d1 : S6000x6000.ReducesTo [1] S6000
  bcast_S_S6000 : S_.BroadcastsInDim S6000 (![] : Fin 0 → Fin S6000.rank)
  bcast_S6000_S6000x1_0 : S6000.BroadcastsInDim S6000x1 (![0] : Fin 1 → Fin S6000x1.rank)
  bcast_S1x256_S6000x256_0_1 : S1x256.BroadcastsInDim S6000x256 (![0, 1] : Fin 2 → Fin S6000x256.rank)
  transposes_S6000x6000_S6000x6000_1_0 : S6000x6000.Transposes [1, 0] S6000x6000
  bcast_S6000x1_S6000x256_0_1 : S6000x1.BroadcastsInDim S6000x256 (![0, 1] : Fin 2 → Fin S6000x256.rank)
  bcast_S_S6000x256 : S_.BroadcastsInDim S6000x256 (![] : Fin 0 → Fin S6000x256.rank)
  bcast_S_S16384 : S_.BroadcastsInDim S16384 (![] : Fin 0 → Fin S16384.rank)
  bcast_S16384_S16384x1_0 : S16384.BroadcastsInDim S16384x1 (![0] : Fin 1 → Fin S16384x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S4000x4000_S4000x256_S4000x256_1_0_0_1_n_n_wf : DotDims.WF S4000x4000 S4000x256 S4000x256 [1] [0] [0] [1] [] []
  dot_S2000x4000_S4000x256_S2000x256_1_0_0_1_n_n_wf : DotDims.WF S2000x4000 S4000x256 S2000x256 [1] [0] [0] [1] [] []
  dot_S4000x2000_S2000x256_S4000x256_1_0_0_1_n_n_wf : DotDims.WF S4000x2000 S2000x256 S4000x256 [1] [0] [0] [1] [] []
  dot_S4000x256_S256x256_S4000x256_1_0_0_1_n_n_wf : DotDims.WF S4000x256 S256x256 S4000x256 [1] [0] [0] [1] [] []
  dot_S2000x2000_S2000x256_S2000x256_1_0_0_1_n_n_wf : DotDims.WF S2000x2000 S2000x256 S2000x256 [1] [0] [0] [1] [] []
  dot_S1000x2000_S2000x256_S1000x256_1_0_0_1_n_n_wf : DotDims.WF S1000x2000 S2000x256 S1000x256 [1] [0] [0] [1] [] []
  dot_S2000x1000_S1000x256_S2000x256_1_0_0_1_n_n_wf : DotDims.WF S2000x1000 S1000x256 S2000x256 [1] [0] [0] [1] [] []
  dot_S2000x256_S256x256_S2000x256_1_0_0_1_n_n_wf : DotDims.WF S2000x256 S256x256 S2000x256 [1] [0] [0] [1] [] []
  dot_S6000x256_S256x256_S6000x256_1_0_0_1_n_n_wf : DotDims.WF S6000x256 S256x256 S6000x256 [1] [0] [0] [1] [] []
  dot_S6000x6000_S6000x256_S6000x256_1_0_0_1_n_n_wf : DotDims.WF S6000x6000 S6000x256 S6000x256 [1] [0] [0] [1] [] []
  gather_S6000x256_S16384x1_S16384x256_1_0_n_n_0_1_1256_wf : GatherDims.WF S6000x256 S16384x1 S16384x256 [1] [0] [] [0] [] 1 ![1, 256]
  dot_S16384x256_S256x128_S16384x128_1_0_0_1_n_n_wf : DotDims.WF S16384x256 S256x128 S16384x128 [1] [0] [0] [1] [] []
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def dot_S4000x4000_S4000x256_S4000x256_1_0_0_1_n_n : DotDims S4000x4000 S4000x256 S4000x256 where
  lhsContracting := [1]
  rhsContracting := [0]
  lhsNonContracting := [0]
  rhsNonContracting := [1]
  lhsBatch := []
  rhsBatch := []
  wf := dot_S4000x4000_S4000x256_S4000x256_1_0_0_1_n_n_wf
def dot_S2000x4000_S4000x256_S2000x256_1_0_0_1_n_n : DotDims S2000x4000 S4000x256 S2000x256 where
  lhsContracting := [1]
  rhsContracting := [0]
  lhsNonContracting := [0]
  rhsNonContracting := [1]
  lhsBatch := []
  rhsBatch := []
  wf := dot_S2000x4000_S4000x256_S2000x256_1_0_0_1_n_n_wf
def dot_S4000x2000_S2000x256_S4000x256_1_0_0_1_n_n : DotDims S4000x2000 S2000x256 S4000x256 where
  lhsContracting := [1]
  rhsContracting := [0]
  lhsNonContracting := [0]
  rhsNonContracting := [1]
  lhsBatch := []
  rhsBatch := []
  wf := dot_S4000x2000_S2000x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S2000x2000_S2000x256_S2000x256_1_0_0_1_n_n : DotDims S2000x2000 S2000x256 S2000x256 where
  lhsContracting := [1]
  rhsContracting := [0]
  lhsNonContracting := [0]
  rhsNonContracting := [1]
  lhsBatch := []
  rhsBatch := []
  wf := dot_S2000x2000_S2000x256_S2000x256_1_0_0_1_n_n_wf
def dot_S1000x2000_S2000x256_S1000x256_1_0_0_1_n_n : DotDims S1000x2000 S2000x256 S1000x256 where
  lhsContracting := [1]
  rhsContracting := [0]
  lhsNonContracting := [0]
  rhsNonContracting := [1]
  lhsBatch := []
  rhsBatch := []
  wf := dot_S1000x2000_S2000x256_S1000x256_1_0_0_1_n_n_wf
def dot_S2000x1000_S1000x256_S2000x256_1_0_0_1_n_n : DotDims S2000x1000 S1000x256 S2000x256 where
  lhsContracting := [1]
  rhsContracting := [0]
  lhsNonContracting := [0]
  rhsNonContracting := [1]
  lhsBatch := []
  rhsBatch := []
  wf := dot_S2000x1000_S1000x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S6000x256_S256x256_S6000x256_1_0_0_1_n_n : DotDims S6000x256 S256x256 S6000x256 where
  lhsContracting := [1]
  rhsContracting := [0]
  lhsNonContracting := [0]
  rhsNonContracting := [1]
  lhsBatch := []
  rhsBatch := []
  wf := dot_S6000x256_S256x256_S6000x256_1_0_0_1_n_n_wf
def dot_S6000x6000_S6000x256_S6000x256_1_0_0_1_n_n : DotDims S6000x6000 S6000x256 S6000x256 where
  lhsContracting := [1]
  rhsContracting := [0]
  lhsNonContracting := [0]
  rhsNonContracting := [1]
  lhsBatch := []
  rhsBatch := []
  wf := dot_S6000x6000_S6000x256_S6000x256_1_0_0_1_n_n_wf
def gather_S6000x256_S16384x1_S16384x256_1_0_n_n_0_1_1256 : GatherDims S6000x256 S16384x1 S16384x256 where
  offsetDims := [1]
  collapsedSliceDims := [0]
  operandBatchingDims := []
  startIndicesBatchingDims := []
  startIndexMap := [0]
  indexVectorDim := 1
  sliceSizes := ![1, 256]
  wf := gather_S6000x256_S16384x1_S16384x256_1_0_n_n_0_1_1256_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.K.RunValue.lean ====
import proofs.«414035_j83562883711810_2_alg».proof.Proof.RegionsK

/-! # The run of @main with its result named

The kernel program's run, from one segment record per kernel region, read at its end: the result array `main_v184`
holds what the last region leaves in it, and every argument array holds its launch contents. One run serves any reading
of the last valuation (`run_cond_post`); the result and the arguments are one such reading (`run_cond`). -/

set_option maxRecDepth 2808

noncomputable section

namespace Cert.Kernel.RunValue

open Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

/-- @main on core `c` is the run of its segment list: the chain of the segments' fragments is @main's chain of
    items, item by item (a host segment's fragment is its stretch, a region's the call of its pipeline). -/
theorem main_run {Ix : Type} [DecidableEq Ix] {U : Type} [URA U] {Lvl : Type} [Preorder Lvl]
    (outs : Outs (F := F)) (𝒱₀ : Variants) (L : GSem nD τ sig → Finset Ix) (lv : GSem nD τ sig → Ix → Lvl)
    (E : Fin 18 → Dev nD → sProp (MT nD τ sig Ix (Elt F) ℕ U Lvl)) (ι : Ix)
    (pdats : (p : Fin 17) → (c : Dev nD) → Dat τ (Elt F) Ix ℕ U Lvl (cfgs p) c)
    (R0 : RegionSeg (pcfgs (F := F)) adm pdats ι defs₀ 𝒱₀ L lv 0)
    (R1 : RegionSeg (pcfgs (F := F)) adm pdats ι defs₀ 𝒱₀ L lv 1)
    (R2 : RegionSeg (pcfgs (F := F)) adm pdats ι defs₀ 𝒱₀ L lv 2)
    (R3 : RegionSeg (pcfgs (F := F)) adm pdats ι defs₀ 𝒱₀ L lv 3)
    (R4 : RegionSeg (pcfgs (F := F)) adm pdats ι defs₀ 𝒱₀ L lv 4)
    (R5 : RegionSeg (pcfgs (F := F)) adm pdats ι defs₀ 𝒱₀ L lv 5)
    (R6 : RegionSeg (pcfgs (F := F)) adm pdats ι defs₀ 𝒱₀ L lv 6)
    (R7 : RegionSeg (pcfgs (F := F)) adm pdats ι defs₀ 𝒱₀ L lv 7)
    (R8 : RegionSeg (pcfgs (F := F)) adm pdats ι defs₀ 𝒱₀ L lv 8)
    (R9 : RegionSeg (pcfgs (F := F)) adm pdats ι defs₀ 𝒱₀ L lv 9)
    (R10 : RegionSeg (pcfgs (F := F)) adm pdats ι defs₀ 𝒱₀ L lv 10)
    (R11 : RegionSeg (pcfgs (F := F)) adm pdats ι defs₀ 𝒱₀ L lv 11)
    (R12 : RegionSeg (pcfgs (F := F)) adm pdats ι defs₀ 𝒱₀ L lv 12)
    (R13 : RegionSeg (pcfgs (F := F)) adm pdats ι defs₀ 𝒱₀ L lv 13)
    (R14 : RegionSeg (pcfgs (F := F)) adm pdats ι defs₀ 𝒱₀ L lv 14)
    (R15 : RegionSeg (pcfgs (F := F)) adm pdats ι defs₀ 𝒱₀ L lv 15)
    (R16 : RegionSeg (pcfgs (F := F)) adm pdats ι defs₀ 𝒱₀ L lv 16)
    (c : Dev nD) :
    main (F := F) c = Seg.run (segs m outs 𝒱₀ L lv E ι pdats R0 R1 R2 R3 R4 R5 R6 R7 R8 R9 R10 R11 R12 R13 R14 R15 R16 c) :=
  calc main (F := F) c
      = Pipeline.chain ((segs m outs 𝒱₀ L lv E ι pdats R0 R1 R2 R3 R4 R5 R6 R7 R8 R9 R10 R11 R12 R13 R14 R15 R16 c).map Seg.prog) := (main_chain c).trans (congrArg Pipeline.chain rfl)
    _ = Seg.run (segs m outs 𝒱₀ L lv E ι pdats R0 R1 R2 R3 R4 R5 R6 R7 R8 R9 R10 R11 R12 R13 R14 R15 R16 c) := (Seg.run_eq_chain _).symm

set_option maxHeartbeats 4000000 in
set_option backward.isDefEq.respectTransparency.types false in
/-- THE RUN, READ AT THE END. Under the conditional frame's hypotheses — any rest states `E` the launch makes on every
    core at once and that end owing nothing, any contents `outs` the regions leave, and per region a segment record
    entered from the thread state before it and left at the one after it — every weakly fair execution of @main from
    memory `m` with zero counters terminates, and every final memory satisfies any predicate `QY` that holds of each
    memory agreeing, on core `c`'s unscoped buffers, with the last valuation `V104 m outs c`: at the end core `c`
    holds exactly those buffers at that valuation, and a buffer held is a buffer read. -/
theorem run_cond_post {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V21 m outs c) ∗ E 1 c) ⊢ R1.pre c)
    (hpost1 : ∀ c : Dev nD, R1.post c ⊢ iprop(StableHlo.held (c : Thread nD τ) (Pipeline.ucRefs τ sig) (V22 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V28 m outs c) ∗ E 2 c) ⊢ R2.pre c)
    (hpost2 : ∀ c : Dev nD, R2.post c ⊢ iprop(StableHlo.held (c : Thread nD τ) (Pipeline.ucRefs τ sig) (V29 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V32 m outs c) ∗ E 3 c) ⊢ R3.pre c)
    (hpost3 : ∀ c : Dev nD, R3.post c ⊢ iprop(StableHlo.held (c : Thread nD τ) (Pipeline.ucRefs τ sig) (V33 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V40 m outs c) ∗ E 4 c) ⊢ R4.pre c)
    (hpost4 : ∀ c : Dev nD, R4.post c ⊢ iprop(StableHlo.held (c : Thread nD τ) (Pipeline.ucRefs τ sig) (V41 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V47 m outs c) ∗ E 5 c) ⊢ R5.pre c)
    (hpost5 : ∀ c : Dev nD, R5.post c ⊢ iprop(StableHlo.held (c : Thread nD τ) (Pipeline.ucRefs τ sig) (V48 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V53 m outs c) ∗ E 6 c) ⊢ R6.pre c)
    (hpost6 : ∀ c : Dev nD, R6.post c ⊢ iprop(StableHlo.held (c : Thread nD τ) (Pipeline.ucRefs τ sig) (V54 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V59 m outs c) ∗ E 7 c) ⊢ R7.pre c)
    (hpost7 : ∀ c : Dev nD, R7.post c ⊢ iprop(StableHlo.held (c : Thread nD τ) (Pipeline.ucRefs τ sig) (V60 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V64 m outs c) ∗ E 8 c) ⊢ R8.pre c)
    (hpost8 : ∀ c : Dev nD, R8.post c ⊢ iprop(StableHlo.held (c : Thread nD τ) (Pipeline.ucRefs τ sig) (V65 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V68 m outs c) ∗ E 9 c) ⊢ R9.pre c)
    (hpost9 : ∀ c : Dev nD, R9.post c ⊢ iprop(StableHlo.held (c : Thread nD τ) (Pipeline.ucRefs τ sig) (V69 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V74 m outs c) ∗ E 10 c) ⊢ R10.pre c)
    (hpost10 : ∀ c : Dev nD, R10.post c ⊢ iprop(StableHlo.held (c : Thread nD τ) (Pipeline.ucRefs τ sig) (V75 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V79 m outs c) ∗ E 11 c) ⊢ R11.pre c)
    (hpost11 : ∀ c : Dev nD, R11.post c ⊢ iprop(StableHlo.held (c : Thread nD τ) (Pipeline.ucRefs τ sig) (V80 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V89 m outs c) ∗ E 12 c) ⊢ R12.pre c)
    (hpost12 : ∀ c : Dev nD, R12.post c ⊢ iprop(StableHlo.held (c : Thread nD τ) (Pipeline.ucRefs τ sig) (V90 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V93 m outs c) ∗ E 13 c) ⊢ R13.pre c)
    (hpost13 : ∀ c : Dev nD, R13.post c ⊢ iprop(StableHlo.held (c : Thread nD τ) (Pipeline.ucRefs τ sig) (V94 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V95 m outs c) ∗ E 14 c) ⊢ R14.pre c)
    (hpost14 : ∀ c : Dev nD, R14.post c ⊢ iprop(StableHlo.held (c : Thread nD τ) (Pipeline.ucRefs τ sig) (V96 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V97 m outs c) ∗ E 15 c) ⊢ R15.pre c)
    (hpost15 : ∀ c : Dev nD, R15.post c ⊢ iprop(StableHlo.held (c : Thread nD τ) (Pipeline.ucRefs τ sig) (V98 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V103 m outs c) ∗ E 16 c) ⊢ R16.pre c)
    (hpost16 : ∀ c : Dev nD, R16.post c ⊢ iprop(StableHlo.held (c : Thread nD τ) (Pipeline.ucRefs τ sig) (V104 m outs c) ∗ E 17 c))
    (QY : Dev nD → MemSt nD τ sig (Elt F) → Prop)
    (hQY : ∀ (c : Dev nD) (s : MemSt nD τ sig (Elt F)),
      (∀ b ∈ Pipeline.ucRefs τ sig, s.mem ((c : Thread nD τ).1, b) = V104 m outs c b) → QY c s) :
    θ_run defs (onTc (τ := τ) (main (F := F))) ⟨m, fun _ => 0, ρ⟩ (fun r => ∀ c : Dev nD, QY c r.2) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16)
    (fun c Q => by
      rewrite [main_run m outs 𝒱₀ L lv E ι pdats R0 R1 R2 R3 R4 R5 R6 R7 R8 R9 R10 R11 R12 R13 R14 R15 R16 c]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V104 m outs c))
    (hch := fun c => ⟨.rfl, .rfl, .rfl, .rfl, .rfl, .rfl, .rfl, .rfl, .rfl, .rfl, .rfl, .rfl, .rfl, hpre0 c, hpost0 c, .rfl, .rfl, .rfl, .rfl, .rfl, .rfl, hpre1 c, hpost1 c, .rfl, .rfl, .rfl, .rfl, .rfl, hpre2 c, hpost2 c, .rfl, .rfl, hpre3 c, hpost3 c, .rfl, .rfl, .rfl, .rfl, .rfl, .rfl, hpre4 c, hpost4 c, .rfl, .rfl, .rfl, .rfl, .rfl, hpre5 c, hpost5 c, .rfl, .rfl, .rfl, .rfl, hpre6 c, hpost6 c, .rfl, .rfl, .rfl, .rfl, hpre7 c, hpost7 c, .rfl, .rfl, .rfl, hpre8 c, hpost8 c, .rfl, .rfl, hpre9 c, hpost9 c, .rfl, .rfl, .rfl, .rfl, hpre10 c, hpost10 c, .rfl, .rfl, .rfl, hpre11 c, hpost11 c, .rfl, .rfl, .rfl, .rfl, .rfl, .rfl, .rfl, .rfl, hpre12 c, hpost12 c, .rfl, .rfl, hpre13 c, hpost13 c, hpre14 c, hpost14 c, hpre15 c, hpost15 c, .rfl, .rfl, .rfl, .rfl, hpre16 c, (hpost16 c).trans (sep_mono .rfl (hE17 c))⟩)
    (hinit := ?_) (QY := QY) (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer of core `c` read off the last valuation
    unfold StableHlo.held
    iintro ⟨Hh, HSI⟩
    ihave Hr := (pointsTo_read_all (Pipeline.ucRefs τ sig) (fun b => ((c : Thread nD τ).1, b)) (V104 m outs c) s') $$ [Hh HSI]
    · isplitl [Hh] <;> iassumption
    icases Hr with ⟨%h, HSI⟩
    imodintro
    isplitr
    · ipureintro
      exact hQY c s'.mem h
    · iexact HSI

/-- THE RUN WITH THE RESULT NAMED. Under the conditional frame's hypotheses every weakly fair execution of @main from
    memory `m` with zero counters terminates, and every final memory holds in `main_v184` what the last region leaves
    there, `outs 104 main_v184 c` (the last valuation is the one before it updated at `main_v184`, and no item follows
    that region), and holds each argument as launched (no host stretch writes an argument, no region may change one). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V21 m outs c) ∗ E 1 c) ⊢ R1.pre c)
    (hpost1 : ∀ c : Dev nD, R1.post c ⊢ iprop(StableHlo.held (c : Thread nD τ) (Pipeline.ucRefs τ sig) (V22 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V28 m outs c) ∗ E 2 c) ⊢ R2.pre c)
    (hpost2 : ∀ c : Dev nD, R2.post c ⊢ iprop(StableHlo.held (c : Thread nD τ) (Pipeline.ucRefs τ sig) (V29 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V32 m outs c) ∗ E 3 c) ⊢ R3.pre c)
    (hpost3 : ∀ c : Dev nD, R3.post c ⊢ iprop(StableHlo.held (c : Thread nD τ) (Pipeline.ucRefs τ sig) (V33 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V40 m outs c) ∗ E 4 c) ⊢ R4.pre c)
    (hpost4 : ∀ c : Dev nD, R4.post c ⊢ iprop(StableHlo.held (c : Thread nD τ) (Pipeline.ucRefs τ sig) (V41 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V47 m outs c) ∗ E 5 c) ⊢ R5.pre c)
    (hpost5 : ∀ c : Dev nD, R5.post c ⊢ iprop(StableHlo.held (c : Thread nD τ) (Pipeline.ucRefs τ sig) (V48 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V53 m outs c) ∗ E 6 c) ⊢ R6.pre c)
    (hpost6 : ∀ c : Dev nD, R6.post c ⊢ iprop(StableHlo.held (c : Thread nD τ) (Pipeline.ucRefs τ sig) (V54 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V59 m outs c) ∗ E 7 c) ⊢ R7.pre c)
    (hpost7 : ∀ c : Dev nD, R7.post c ⊢ iprop(StableHlo.held (c : Thread nD τ) (Pipeline.ucRefs τ sig) (V60 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V64 m outs c) ∗ E 8 c) ⊢ R8.pre c)
    (hpost8 : ∀ c : Dev nD, R8.post c ⊢ iprop(StableHlo.held (c : Thread nD τ) (Pipeline.ucRefs τ sig) (V65 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V68 m outs c) ∗ E 9 c) ⊢ R9.pre c)
    (hpost9 : ∀ c : Dev nD, R9.post c ⊢ iprop(StableHlo.held (c : Thread nD τ) (Pipeline.ucRefs τ sig) (V69 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V74 m outs c) ∗ E 10 c) ⊢ R10.pre c)
    (hpost10 : ∀ c : Dev nD, R10.post c ⊢ iprop(StableHlo.held (c : Thread nD τ) (Pipeline.ucRefs τ sig) (V75 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V79 m outs c) ∗ E 11 c) ⊢ R11.pre c)
    (hpost11 : ∀ c : Dev nD, R11.post c ⊢ iprop(StableHlo.held (c : Thread nD τ) (Pipeline.ucRefs τ sig) (V80 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V89 m outs c) ∗ E 12 c) ⊢ R12.pre c)
    (hpost12 : ∀ c : Dev nD, R12.post c ⊢ iprop(StableHlo.held (c : Thread nD τ) (Pipeline.ucRefs τ sig) (V90 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V93 m outs c) ∗ E 13 c) ⊢ R13.pre c)
    (hpost13 : ∀ c : Dev nD, R13.post c ⊢ iprop(StableHlo.held (c : Thread nD τ) (Pipeline.ucRefs τ sig) (V94 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V95 m outs c) ∗ E 14 c) ⊢ R14.pre c)
    (hpost14 : ∀ c : Dev nD, R14.post c ⊢ iprop(StableHlo.held (c : Thread nD τ) (Pipeline.ucRefs τ sig) (V96 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V97 m outs c) ∗ E 15 c) ⊢ R15.pre c)
    (hpost15 : ∀ c : Dev nD, R15.post c ⊢ iprop(StableHlo.held (c : Thread nD τ) (Pipeline.ucRefs τ sig) (V98 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V103 m outs c) ∗ E 16 c) ⊢ R16.pre c)
    (hpost16 : ∀ c : Dev nD, R16.post c ⊢ iprop(StableHlo.held (c : Thread nD τ) (Pipeline.ucRefs τ sig) (V104 m outs c) ∗ E 17 c)) :
    θ_run defs (onTc (τ := τ) (main (F := F))) ⟨m, fun _ => 0, ρ⟩ (fun r => ∀ c : Dev nD,
      r.2.mem ((c.tc : Thread nD τ).loc main_v184) = outs 104 main_v184 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  run_cond_post m EP ι 𝒱₀ L lv hL ρ outs pdats O₀ G u₀ hu₀ E hE0 hE17 R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15 R16 hpre16 hpost16
    (fun c s =>
      s.mem ((c.tc : Thread nD τ).loc main_v184) = outs 104 main_v184 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23)
      ∧ s.mem ((c.tc : Thread nD τ).loc main_arg24) = m ((c.tc : Thread nD τ).loc main_arg24))
    (fun c s h =>
      ⟨(h (Proc.devRef .tc main_v184) (Finset.mem_filter.mpr ⟨StableHlo.devRef_mem_tcRefs main_v184, by decide⟩)).trans (Function.update_self _ _ _),
        (h (Proc.devRef .tc main_arg0) (Finset.mem_filter.mpr ⟨StableHlo.devRef_mem_tcRefs main_arg0, by decide⟩)).trans (V104_main_arg0 m outs c),
        (h (Proc.devRef .tc main_arg1) (Finset.mem_filter.mpr ⟨StableHlo.devRef_mem_tcRefs main_arg1, by decide⟩)).trans (V104_main_arg1 m outs c),
        (h (Proc.devRef .tc main_arg2) (Finset.mem_filter.mpr ⟨StableHlo.devRef_mem_tcRefs main_arg2, by decide⟩)).trans (V104_main_arg2 m outs c),
        (h (Proc.devRef .tc main_arg3) (Finset.mem_filter.mpr ⟨StableHlo.devRef_mem_tcRefs main_arg3, by decide⟩)).trans (V104_main_arg3 m outs c),
        (h (Proc.devRef .tc main_arg4) (Finset.mem_filter.mpr ⟨StableHlo.devRef_mem_tcRefs main_arg4, by decide⟩)).trans (V104_main_arg4 m outs c),
        (h (Proc.devRef .tc main_arg5) (Finset.mem_filter.mpr ⟨StableHlo.devRef_mem_tcRefs main_arg5, by decide⟩)).trans (V104_main_arg5 m outs c),
        (h (Proc.devRef .tc main_arg6) (Finset.mem_filter.mpr ⟨StableHlo.devRef_mem_tcRefs main_arg6, by decide⟩)).trans (V104_main_arg6 m outs c),
        (h (Proc.devRef .tc main_arg7) (Finset.mem_filter.mpr ⟨StableHlo.devRef_mem_tcRefs main_arg7, by decide⟩)).trans (V104_main_arg7 m outs c),
        (h (Proc.devRef .tc main_arg8) (Finset.mem_filter.mpr ⟨StableHlo.devRef_mem_tcRefs main_arg8, by decide⟩)).trans (V104_main_arg8 m outs c),
        (h (Proc.devRef .tc main_arg9) (Finset.mem_filter.mpr ⟨StableHlo.devRef_mem_tcRefs main_arg9, by decide⟩)).trans (V104_main_arg9 m outs c),
        (h (Proc.devRef .tc main_arg10) (Finset.mem_filter.mpr ⟨StableHlo.devRef_mem_tcRefs main_arg10, by decide⟩)).trans (V104_main_arg10 m outs c),
        (h (Proc.devRef .tc main_arg11) (Finset.mem_filter.mpr ⟨StableHlo.devRef_mem_tcRefs main_arg11, by decide⟩)).trans (V104_main_arg11 m outs c),
        (h (Proc.devRef .tc main_arg12) (Finset.mem_filter.mpr ⟨StableHlo.devRef_mem_tcRefs main_arg12, by decide⟩)).trans (V104_main_arg12 m outs c),
        (h (Proc.devRef .tc main_arg13) (Finset.mem_filter.mpr ⟨StableHlo.devRef_mem_tcRefs main_arg13, by decide⟩)).trans (V104_main_arg13 m outs c),
        (h (Proc.devRef .tc main_arg14) (Finset.mem_filter.mpr ⟨StableHlo.devRef_mem_tcRefs main_arg14, by decide⟩)).trans (V104_main_arg14 m outs c),
        (h (Proc.devRef .tc main_arg15) (Finset.mem_filter.mpr ⟨StableHlo.devRef_mem_tcRefs main_arg15, by decide⟩)).trans (V104_main_arg15 m outs c),
        (h (Proc.devRef .tc main_arg16) (Finset.mem_filter.mpr ⟨StableHlo.devRef_mem_tcRefs main_arg16, by decide⟩)).trans (V104_main_arg16 m outs c),
        (h (Proc.devRef .tc main_arg17) (Finset.mem_filter.mpr ⟨StableHlo.devRef_mem_tcRefs main_arg17, by decide⟩)).trans (V104_main_arg17 m outs c),
        (h (Proc.devRef .tc main_arg18) (Finset.mem_filter.mpr ⟨StableHlo.devRef_mem_tcRefs main_arg18, by decide⟩)).trans (V104_main_arg18 m outs c),
        (h (Proc.devRef .tc main_arg19) (Finset.mem_filter.mpr ⟨StableHlo.devRef_mem_tcRefs main_arg19, by decide⟩)).trans (V104_main_arg19 m outs c),
        (h (Proc.devRef .tc main_arg20) (Finset.mem_filter.mpr ⟨StableHlo.devRef_mem_tcRefs main_arg20, by decide⟩)).trans (V104_main_arg20 m outs c),
        (h (Proc.devRef .tc main_arg21) (Finset.mem_filter.mpr ⟨StableHlo.devRef_mem_tcRefs main_arg21, by decide⟩)).trans (V104_main_arg21 m outs c),
        (h (Proc.devRef .tc main_arg22) (Finset.mem_filter.mpr ⟨StableHlo.devRef_mem_tcRefs main_arg22, by decide⟩)).trans (V104_main_arg22 m outs c),
        (h (Proc.devRef .tc main_arg23) (Finset.mem_filter.mpr ⟨StableHlo.devRef_mem_tcRefs main_arg23, by decide⟩)).trans (V104_main_arg23 m outs c),
        (h (Proc.devRef .tc main_arg24) (Finset.mem_filter.mpr ⟨StableHlo.devRef_mem_tcRefs main_arg24, by decide⟩)).trans (V104_main_arg24 m outs c)⟩)

end Cert.Kernel.RunValue

end
-- ==== Proof.K.AssemblyKit.lean ====
import proofs.«414035_j83562883711810_2_alg».proof.Proof.RegionsK
import proofs.«414035_j83562883711810_2_alg».proof.Proof.K.RunValue

/-! # The frame over seventeen kernel regions, from the regions' records

@main is a chain of host stretches and seventeen kernel regions. Between two items core `c` holds every unscoped buffer
whole at a valuation: the launch contents, then `StableHlo.after` each host stretch, then, after a region, the valuation
before it updated at the region's result arrays. What a region leaves in a result array is what its proof data compute
for that window after the last grid point, and those data are stated over the valuation the region is entered at. So the
contents the regions leave are determined region by region: the first region's from the launch contents alone, each
later one's from the contents the earlier regions leave. This module makes that recursion explicit (`outs`, in
seventeen stages), proves that the staged contents satisfy the equations the regions' records ask for, and hands the
records to the conditional frame and to the run with its result named. Everything is stated over ANY seventeen proof
data and records of the stated shapes (`Dats`, `Regs`); the regions' own modules supply them. -/

set_option maxRecDepth 2808

noncomputable section

namespace Cert.Kernel.AssemblyKit

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-! ## Stages -/

/-- One stage: the contents read at item `J` are those of the valuation `W`; at every other item, as before. -/
def stage (o : Outs (F := F)) (J : ℕ) (W : Dev nD → Valuation τ sig (Elt F)) : Outs (F := F) :=
  fun J' r c => if J' = J then W c r else o J' r c

theorem stage_self (o : Outs (F := F)) (J : ℕ) (W : Dev nD → Valuation τ sig (Elt F)) (r : Ref sig .tc) (c : Dev nD) :
    stage o J W J r c = W c r := by
  unfold stage; exact if_pos rfl

theorem stage_ne (o : Outs (F := F)) (W : Dev nD → Valuation τ sig (Elt F)) (r : Ref sig .tc) (c : Dev nD) {J J' : ℕ}
    (h : J' ≠ J) : stage o J W J' r c = o J' r c := by
  unfold stage; exact if_neg h

/-! ## The regions' proof data, and the contents the regions leave -/

/-- The seventeen regions' proof data, each over the valuation its region is entered at. -/
structure Dats (F : FTy → Type) [FloatOps F] where
  d0 : (V : Dev nD → Valuation τ sig (Elt F)) → (c : Dev nD) → Dat τ (Elt F) Unit ℕ (UR sig nD τ) ℕ cfg0 c
  d1 : (V : Dev nD → Valuation τ sig (Elt F)) → (c : Dev nD) → Dat τ (Elt F) Unit ℕ (UR sig nD τ) ℕ cfg1 c
  d2 : (V : Dev nD → Valuation τ sig (Elt F)) → (c : Dev nD) → Dat τ (Elt F) Unit ℕ (UR sig nD τ) ℕ cfg2 c
  d3 : (V : Dev nD → Valuation τ sig (Elt F)) → (c : Dev nD) → Dat τ (Elt F) Unit ℕ (UR sig nD τ) ℕ cfg3 c
  d4 : (V : Dev nD → Valuation τ sig (Elt F)) → (c : Dev nD) → Dat τ (Elt F) Unit ℕ (UR sig nD τ) ℕ cfg4 c
  d5 : (V : Dev nD → Valuation τ sig (Elt F)) → (c : Dev nD) → Dat τ (Elt F) Unit ℕ (UR sig nD τ) ℕ cfg5 c
  d6 : (V : Dev nD → Valuation τ sig (Elt F)) → (c : Dev nD) → Dat τ (Elt F) Unit ℕ (UR sig nD τ) ℕ cfg6 c
  d7 : (V : Dev nD → Valuation τ sig (Elt F)) → (c : Dev nD) → Dat τ (Elt F) Unit ℕ (UR sig nD τ) ℕ cfg7 c
  d8 : (V : Dev nD → Valuation τ sig (Elt F)) → (c : Dev nD) → Dat τ (Elt F) Unit ℕ (UR sig nD τ) ℕ cfg8 c
  d9 : (V : Dev nD → Valuation τ sig (Elt F)) → (c : Dev nD) → Dat τ (Elt F) Unit ℕ (UR sig nD τ) ℕ cfg9 c
  d10 : (V : Dev nD → Valuation τ sig (Elt F)) → (c : Dev nD) → Dat τ (Elt F) Unit ℕ (UR sig nD τ) ℕ cfg10 c
  d11 : (V : Dev nD → Valuation τ sig (Elt F)) → (c : Dev nD) → Dat τ (Elt F) Unit ℕ (UR sig nD τ) ℕ cfg11 c
  d12 : (V : Dev nD → Valuation τ sig (Elt F)) → (c : Dev nD) → Dat τ (Elt F) Unit ℕ (UR sig nD τ) ℕ cfg12 c
  d13 : (V : Dev nD → Valuation τ sig (Elt F)) → (c : Dev nD) → Dat τ (Elt F) Unit ℕ (UR sig nD τ) ℕ cfg13 c
  d14 : (V : Dev nD → Valuation τ sig (Elt F)) → (c : Dev nD) → Dat τ (Elt F) Unit ℕ (UR sig nD τ) ℕ cfg14 c
  d15 : (V : Dev nD → Valuation τ sig (Elt F)) → (c : Dev nD) → Dat τ (Elt F) Unit ℕ (UR sig nD τ) ℕ cfg15 c
  d16 : (V : Dev nD → Valuation τ sig (Elt F)) → (c : Dev nD) → Dat τ (Elt F) Unit ℕ (UR sig nD τ) ℕ cfg16 c

variable (D : Dats F) (m : (ℓ : Loc nD τ sig) → Buf (Elt F) ℓ)

/-! ## The contents the regions leave, stage by stage

`XK c` is core `c`'s valuation at region K's exit, computed from the stage before; `o(K+1)` reads it at region K's item. -/

def o0 : Outs (F := F) := fun _ r c => m ((c : Thread nD τ).loc r)
def X0 (c : Dev nD) : Valuation τ sig (Elt F) :=
  Function.update (V13 m c) main_v50 ((D.d0 (V13 m) c).arrAt 5 cfg0.N)
def o1 : Outs (F := F) := stage (o0 m) 14 (X0 D m)
def X1 (c : Dev nD) : Valuation τ sig (Elt F) :=
  Function.update (V21 m (o1 D m) c) main_v59 ((D.d1 (V21 m (o1 D m)) c).arrAt 5 cfg1.N)
def o2 : Outs (F := F) := stage (o1 D m) 22 (X1 D m)
def X2 (c : Dev nD) : Valuation τ sig (Elt F) :=
  Function.update (V28 m (o2 D m) c) main_v67 ((D.d2 (V28 m (o2 D m)) c).arrAt 5 cfg2.N)
def o3 : Outs (F := F) := stage (o2 D m) 29 (X2 D m)
def X3 (c : Dev nD) : Valuation τ sig (Elt F) :=
  Function.update (V32 m (o3 D m) c) main_v75 ((D.d3 (V32 m (o3 D m)) c).arrAt 5 cfg3.N)
def o4 : Outs (F := F) := stage (o3 D m) 33 (X3 D m)
def X4 (c : Dev nD) : Valuation τ sig (Elt F) :=
  Function.update (V40 m (o4 D m) c) main_v84 ((D.d4 (V40 m (o4 D m)) c).arrAt 5 cfg4.N)
def o5 : Outs (F := F) := stage (o4 D m) 41 (X4 D m)
def X5 (c : Dev nD) : Valuation τ sig (Elt F) :=
  Function.update (V47 m (o5 D m) c) main_v92 ((D.d5 (V47 m (o5 D m)) c).arrAt 5 cfg5.N)
def o6 : Outs (F := F) := stage (o5 D m) 48 (X5 D m)
def X6 (c : Dev nD) : Valuation τ sig (Elt F) :=
  Function.update (V53 m (o6 D m) c) main_v101 ((D.d6 (V53 m (o6 D m)) c).arrAt 5 cfg6.N)
def o7 : Outs (F := F) := stage (o6 D m) 54 (X6 D m)
def X7 (c : Dev nD) : Valuation τ sig (Elt F) :=
  Function.update (V59 m (o7 D m) c) main_v109 ((D.d7 (V59 m (o7 D m)) c).arrAt 5 cfg7.N)
def o8 : Outs (F := F) := stage (o7 D m) 60 (X7 D m)
def X8 (c : Dev nD) : Valuation τ sig (Elt F) :=
  Function.update (V64 m (o8 D m) c) main_v115 ((D.d8 (V64 m (o8 D m)) c).arrAt 5 cfg8.N)
def o9 : Outs (F := F) := stage (o8 D m) 65 (X8 D m)
def X9 (c : Dev nD) : Valuation τ sig (Elt F) :=
  Function.update (V68 m (o9 D m) c) main_v123 ((D.d9 (V68 m (o9 D m)) c).arrAt 5 cfg9.N)
def o10 : Outs (F := F) := stage (o9 D m) 69 (X9 D m)
def X10 (c : Dev nD) : Valuation τ sig (Elt F) :=
  Function.update (V74 m (o10 D m) c) main_v131 ((D.d10 (V74 m (o10 D m)) c).arrAt 5 cfg10.N)
def o11 : Outs (F := F) := stage (o10 D m) 75 (X10 D m)
def X11 (c : Dev nD) : Valuation τ sig (Elt F) :=
  Function.update (V79 m (o11 D m) c) main_v137 ((D.d11 (V79 m (o11 D m)) c).arrAt 5 cfg11.N)
def o12 : Outs (F := F) := stage (o11 D m) 80 (X11 D m)
def X12 (c : Dev nD) : Valuation τ sig (Elt F) :=
  Function.update (V89 m (o12 D m) c) main_v155 ((D.d12 (V89 m (o12 D m)) c).arrAt 5 cfg12.N)
def o13 : Outs (F := F) := stage (o12 D m) 90 (X12 D m)
def X13 (c : Dev nD) : Valuation τ sig (Elt F) :=
  Function.update (Function.update (V93 m (o13 D m) c) main_v159_0 ((D.d13 (V93 m (o13 D m)) c).arrAt 6 cfg13.N))
    main_v159_1 ((D.d13 (V93 m (o13 D m)) c).arrAt 7 cfg13.N)
def o14 : Outs (F := F) := stage (o13 D m) 94 (X13 D m)
def X14 (c : Dev nD) : Valuation τ sig (Elt F) :=
  Function.update (Function.update (V95 m (o14 D m) c) main_v162_0 ((D.d14 (V95 m (o14 D m)) c).arrAt 6 cfg14.N))
    main_v162_1 ((D.d14 (V95 m (o14 D m)) c).arrAt 7 cfg14.N)
def o15 : Outs (F := F) := stage (o14 D m) 96 (X14 D m)
def X15 (c : Dev nD) : Valuation τ sig (Elt F) :=
  Function.update (Function.update (V97 m (o15 D m) c) main_v165_0 ((D.d15 (V97 m (o15 D m)) c).arrAt 6 cfg15.N))
    main_v165_1 ((D.d15 (V97 m (o15 D m)) c).arrAt 7 cfg15.N)
def o16 : Outs (F := F) := stage (o15 D m) 98 (X15 D m)
def X16 (c : Dev nD) : Valuation τ sig (Elt F) :=
  Function.update (V103 m (o16 D m) c) main_v184 ((D.d16 (V103 m (o16 D m)) c).arrAt 9 cfg16.N)
/-- What every region leaves: the last stage. -/
def outs : Outs (F := F) := stage (o16 D m) 104 (X16 D m)

/-! ## Below a region's item the later stages change nothing -/

theorem outs_lt16 {J' : ℕ} (h : J' < 104) (r : Ref sig .tc) (c : Dev nD) : outs D m J' r c = o16 D m J' r c := by
  unfold outs; exact stage_ne _ _ _ _ (Nat.ne_of_lt h)
theorem outs_lt15 {J' : ℕ} (h : J' < 98) (r : Ref sig .tc) (c : Dev nD) : outs D m J' r c = o15 D m J' r c := by
  rw [outs_lt16 D m (by omega)]; unfold o16; exact stage_ne _ _ _ _ (Nat.ne_of_lt h)
theorem outs_lt14 {J' : ℕ} (h : J' < 96) (r : Ref sig .tc) (c : Dev nD) : outs D m J' r c = o14 D m J' r c := by
  rw [outs_lt15 D m (by omega)]; unfold o15; exact stage_ne _ _ _ _ (Nat.ne_of_lt h)
theorem outs_lt13 {J' : ℕ} (h : J' < 94) (r : Ref sig .tc) (c : Dev nD) : outs D m J' r c = o13 D m J' r c := by
  rw [outs_lt14 D m (by omega)]; unfold o14; exact stage_ne _ _ _ _ (Nat.ne_of_lt h)
theorem outs_lt12 {J' : ℕ} (h : J' < 90) (r : Ref sig .tc) (c : Dev nD) : outs D m J' r c = o12 D m J' r c := by
  rw [outs_lt13 D m (by omega)]; unfold o13; exact stage_ne _ _ _ _ (Nat.ne_of_lt h)
theorem outs_lt11 {J' : ℕ} (h : J' < 80) (r : Ref sig .tc) (c : Dev nD) : outs D m J' r c = o11 D m J' r c := by
  rw [outs_lt12 D m (by omega)]; unfold o12; exact stage_ne _ _ _ _ (Nat.ne_of_lt h)
theorem outs_lt10 {J' : ℕ} (h : J' < 75) (r : Ref sig .tc) (c : Dev nD) : outs D m J' r c = o10 D m J' r c := by
  rw [outs_lt11 D m (by omega)]; unfold o11; exact stage_ne _ _ _ _ (Nat.ne_of_lt h)
theorem outs_lt9 {J' : ℕ} (h : J' < 69) (r : Ref sig .tc) (c : Dev nD) : outs D m J' r c = o9 D m J' r c := by
  rw [outs_lt10 D m (by omega)]; unfold o10; exact stage_ne _ _ _ _ (Nat.ne_of_lt h)
theorem outs_lt8 {J' : ℕ} (h : J' < 65) (r : Ref sig .tc) (c : Dev nD) : outs D m J' r c = o8 D m J' r c := by
  rw [outs_lt9 D m (by omega)]; unfold o9; exact stage_ne _ _ _ _ (Nat.ne_of_lt h)
theorem outs_lt7 {J' : ℕ} (h : J' < 60) (r : Ref sig .tc) (c : Dev nD) : outs D m J' r c = o7 D m J' r c := by
  rw [outs_lt8 D m (by omega)]; unfold o8; exact stage_ne _ _ _ _ (Nat.ne_of_lt h)
theorem outs_lt6 {J' : ℕ} (h : J' < 54) (r : Ref sig .tc) (c : Dev nD) : outs D m J' r c = o6 D m J' r c := by
  rw [outs_lt7 D m (by omega)]; unfold o7; exact stage_ne _ _ _ _ (Nat.ne_of_lt h)
theorem outs_lt5 {J' : ℕ} (h : J' < 48) (r : Ref sig .tc) (c : Dev nD) : outs D m J' r c = o5 D m J' r c := by
  rw [outs_lt6 D m (by omega)]; unfold o6; exact stage_ne _ _ _ _ (Nat.ne_of_lt h)
theorem outs_lt4 {J' : ℕ} (h : J' < 41) (r : Ref sig .tc) (c : Dev nD) : outs D m J' r c = o4 D m J' r c := by
  rw [outs_lt5 D m (by omega)]; unfold o5; exact stage_ne _ _ _ _ (Nat.ne_of_lt h)
theorem outs_lt3 {J' : ℕ} (h : J' < 33) (r : Ref sig .tc) (c : Dev nD) : outs D m J' r c = o3 D m J' r c := by
  rw [outs_lt4 D m (by omega)]; unfold o4; exact stage_ne _ _ _ _ (Nat.ne_of_lt h)
theorem outs_lt2 {J' : ℕ} (h : J' < 29) (r : Ref sig .tc) (c : Dev nD) : outs D m J' r c = o2 D m J' r c := by
  rw [outs_lt3 D m (by omega)]; unfold o3; exact stage_ne _ _ _ _ (Nat.ne_of_lt h)
theorem outs_lt1 {J' : ℕ} (h : J' < 22) (r : Ref sig .tc) (c : Dev nD) : outs D m J' r c = o1 D m J' r c := by
  rw [outs_lt2 D m (by omega)]; unfold o2; exact stage_ne _ _ _ _ (Nat.ne_of_lt h)

/-! ## At a region's item the contents are its stage's valuation -/

theorem outs_at0 (r : Ref sig .tc) (c : Dev nD) : outs D m 14 r c = X0 D m c r := by
  rw [outs_lt1 D m (by decide)]; unfold o1; exact stage_self _ _ _ _ _
theorem outs_at1 (r : Ref sig .tc) (c : Dev nD) : outs D m 22 r c = X1 D m c r := by
  rw [outs_lt2 D m (by decide)]; unfold o2; exact stage_self _ _ _ _ _
theorem outs_at2 (r : Ref sig .tc) (c : Dev nD) : outs D m 29 r c = X2 D m c r := by
  rw [outs_lt3 D m (by decide)]; unfold o3; exact stage_self _ _ _ _ _
theorem outs_at3 (r : Ref sig .tc) (c : Dev nD) : outs D m 33 r c = X3 D m c r := by
  rw [outs_lt4 D m (by decide)]; unfold o4; exact stage_self _ _ _ _ _
theorem outs_at4 (r : Ref sig .tc) (c : Dev nD) : outs D m 41 r c = X4 D m c r := by
  rw [outs_lt5 D m (by decide)]; unfold o5; exact stage_self _ _ _ _ _
theorem outs_at5 (r : Ref sig .tc) (c : Dev nD) : outs D m 48 r c = X5 D m c r := by
  rw [outs_lt6 D m (by decide)]; unfold o6; exact stage_self _ _ _ _ _
theorem outs_at6 (r : Ref sig .tc) (c : Dev nD) : outs D m 54 r c = X6 D m c r := by
  rw [outs_lt7 D m (by decide)]; unfold o7; exact stage_self _ _ _ _ _
theorem outs_at7 (r : Ref sig .tc) (c : Dev nD) : outs D m 60 r c = X7 D m c r := by
  rw [outs_lt8 D m (by decide)]; unfold o8; exact stage_self _ _ _ _ _
theorem outs_at8 (r : Ref sig .tc) (c : Dev nD) : outs D m 65 r c = X8 D m c r := by
  rw [outs_lt9 D m (by decide)]; unfold o9; exact stage_self _ _ _ _ _
theorem outs_at9 (r : Ref sig .tc) (c : Dev nD) : outs D m 69 r c = X9 D m c r := by
  rw [outs_lt10 D m (by decide)]; unfold o10; exact stage_self _ _ _ _ _
theorem outs_at10 (r : Ref sig .tc) (c : Dev nD) : outs D m 75 r c = X10 D m c r := by
  rw [outs_lt11 D m (by decide)]; unfold o11; exact stage_self _ _ _ _ _
theorem outs_at11 (r : Ref sig .tc) (c : Dev nD) : outs D m 80 r c = X11 D m c r := by
  rw [outs_lt12 D m (by decide)]; unfold o12; exact stage_self _ _ _ _ _
theorem outs_at12 (r : Ref sig .tc) (c : Dev nD) : outs D m 90 r c = X12 D m c r := by
  rw [outs_lt13 D m (by decide)]; unfold o13; exact stage_self _ _ _ _ _
theorem outs_at13 (r : Ref sig .tc) (c : Dev nD) : outs D m 94 r c = X13 D m c r := by
  rw [outs_lt14 D m (by decide)]; unfold o14; exact stage_self _ _ _ _ _
theorem outs_at14 (r : Ref sig .tc) (c : Dev nD) : outs D m 96 r c = X14 D m c r := by
  rw [outs_lt15 D m (by decide)]; unfold o15; exact stage_self _ _ _ _ _
theorem outs_at15 (r : Ref sig .tc) (c : Dev nD) : outs D m 98 r c = X15 D m c r := by
  rw [outs_lt16 D m (by decide)]; unfold o16; exact stage_self _ _ _ _ _
theorem outs_at16 (r : Ref sig .tc) (c : Dev nD) : outs D m 104 r c = X16 D m c r := by
  unfold outs; exact stage_self _ _ _ _ _

/-! ## A region's entry valuation reads the contents only at earlier items

Two families of contents that agree at every item before region K's give the same valuation at region K's entry: the
valuation is the one at the region before, updated at that region's result arrays and carried through the host stretches
between. -/

omit D in
theorem agr1 (o o' : Outs (F := F)) (c : Dev nD) (h : ∀ J', J' < 22 → ∀ r, o J' r c = o' J' r c) :
    V21 m o c = V21 m o' c := by
  simp only [V21, V20, V19, V18, V17, V16, V15, V14, h 14 (by decide) main_v50]
omit D in
theorem agr2 (o o' : Outs (F := F)) (c : Dev nD) (h : ∀ J', J' < 29 → ∀ r, o J' r c = o' J' r c) :
    V28 m o c = V28 m o' c := by
  simp only [V28, V27, V26, V25, V24, V23, V22, h 22 (by decide) main_v59, agr1 m o o' c fun J' hJ => h J' (by omega)]
omit D in
theorem agr3 (o o' : Outs (F := F)) (c : Dev nD) (h : ∀ J', J' < 33 → ∀ r, o J' r c = o' J' r c) :
    V32 m o c = V32 m o' c := by
  simp only [V32, V31, V30, V29, h 29 (by decide) main_v67, agr2 m o o' c fun J' hJ => h J' (by omega)]
omit D in
theorem agr4 (o o' : Outs (F := F)) (c : Dev nD) (h : ∀ J', J' < 41 → ∀ r, o J' r c = o' J' r c) :
    V40 m o c = V40 m o' c := by
  simp only [V40, V39, V38, V37, V36, V35, V34, V33, h 33 (by decide) main_v75, agr3 m o o' c fun J' hJ => h J' (by omega)]
omit D in
theorem agr5 (o o' : Outs (F := F)) (c : Dev nD) (h : ∀ J', J' < 48 → ∀ r, o J' r c = o' J' r c) :
    V47 m o c = V47 m o' c := by
  simp only [V47, V46, V45, V44, V43, V42, V41, h 41 (by decide) main_v84, agr4 m o o' c fun J' hJ => h J' (by omega)]
omit D in
theorem agr6 (o o' : Outs (F := F)) (c : Dev nD) (h : ∀ J', J' < 54 → ∀ r, o J' r c = o' J' r c) :
    V53 m o c = V53 m o' c := by
  simp only [V53, V52, V51, V50, V49, V48, h 48 (by decide) main_v92, agr5 m o o' c fun J' hJ => h J' (by omega)]
omit D in
theorem agr7 (o o' : Outs (F := F)) (c : Dev nD) (h : ∀ J', J' < 60 → ∀ r, o J' r c = o' J' r c) :
    V59 m o c = V59 m o' c := by
  simp only [V59, V58, V57, V56, V55, V54, h 54 (by decide) main_v101, agr6 m o o' c fun J' hJ => h J' (by omega)]
omit D in
theorem agr8 (o o' : Outs (F := F)) (c : Dev nD) (h : ∀ J', J' < 65 → ∀ r, o J' r c = o' J' r c) :
    V64 m o c = V64 m o' c := by
  simp only [V64, V63, V62, V61, V60, h 60 (by decide) main_v109, agr7 m o o' c fun J' hJ => h J' (by omega)]
omit D in
theorem agr9 (o o' : Outs (F := F)) (c : Dev nD) (h : ∀ J', J' < 69 → ∀ r, o J' r c = o' J' r c) :
    V68 m o c = V68 m o' c := by
  simp only [V68, V67, V66, V65, h 65 (by decide) main_v115, agr8 m o o' c fun J' hJ => h J' (by omega)]
omit D in
theorem agr10 (o o' : Outs (F := F)) (c : Dev nD) (h : ∀ J', J' < 75 → ∀ r, o J' r c = o' J' r c) :
    V74 m o c = V74 m o' c := by
  simp only [V74, V73, V72, V71, V70, V69, h 69 (by decide) main_v123, agr9 m o o' c fun J' hJ => h J' (by omega)]
omit D in
theorem agr11 (o o' : Outs (F := F)) (c : Dev nD) (h : ∀ J', J' < 80 → ∀ r, o J' r c = o' J' r c) :
    V79 m o c = V79 m o' c := by
  simp only [V79, V78, V77, V76, V75, h 75 (by decide) main_v131, agr10 m o o' c fun J' hJ => h J' (by omega)]
omit D in
theorem agr12 (o o' : Outs (F := F)) (c : Dev nD) (h : ∀ J', J' < 90 → ∀ r, o J' r c = o' J' r c) :
    V89 m o c = V89 m o' c := by
  simp only [V89, V88, V87, V86, V85, V84, V83, V82, V81, V80, h 80 (by decide) main_v137,
    agr11 m o o' c fun J' hJ => h J' (by omega)]
omit D in
theorem agr13 (o o' : Outs (F := F)) (c : Dev nD) (h : ∀ J', J' < 94 → ∀ r, o J' r c = o' J' r c) :
    V93 m o c = V93 m o' c := by
  simp only [V93, V92, V91, V90, h 90 (by decide) main_v155, agr12 m o o' c fun J' hJ => h J' (by omega)]
omit D in
theorem agr14 (o o' : Outs (F := F)) (c : Dev nD) (h : ∀ J', J' < 96 → ∀ r, o J' r c = o' J' r c) :
    V95 m o c = V95 m o' c := by
  simp only [V95, V94, h 94 (by decide) main_v159_0, h 94 (by decide) main_v159_1,
    agr13 m o o' c fun J' hJ => h J' (by omega)]
omit D in
theorem agr15 (o o' : Outs (F := F)) (c : Dev nD) (h : ∀ J', J' < 98 → ∀ r, o J' r c = o' J' r c) :
    V97 m o c = V97 m o' c := by
  simp only [V97, V96, h 96 (by decide) main_v162_0, h 96 (by decide) main_v162_1,
    agr14 m o o' c fun J' hJ => h J' (by omega)]
omit D in
theorem agr16 (o o' : Outs (F := F)) (c : Dev nD) (h : ∀ J', J' < 104 → ∀ r, o J' r c = o' J' r c) :
    V103 m o c = V103 m o' c := by
  simp only [V103, V102, V101, V100, V99, V98, h 98 (by decide) main_v165_0, h 98 (by decide) main_v165_1,
    agr15 m o o' c fun J' hJ => h J' (by omega)]

/-- Region K is entered at the same valuation over the final contents as over its own stage's. -/
theorem VA1 : V21 m (outs D m) = V21 m (o1 D m) := funext fun c => agr1 m _ _ c fun _ h r => outs_lt1 D m h r c
theorem VA2 : V28 m (outs D m) = V28 m (o2 D m) := funext fun c => agr2 m _ _ c fun _ h r => outs_lt2 D m h r c
theorem VA3 : V32 m (outs D m) = V32 m (o3 D m) := funext fun c => agr3 m _ _ c fun _ h r => outs_lt3 D m h r c
theorem VA4 : V40 m (outs D m) = V40 m (o4 D m) := funext fun c => agr4 m _ _ c fun _ h r => outs_lt4 D m h r c
theorem VA5 : V47 m (outs D m) = V47 m (o5 D m) := funext fun c => agr5 m _ _ c fun _ h r => outs_lt5 D m h r c
theorem VA6 : V53 m (outs D m) = V53 m (o6 D m) := funext fun c => agr6 m _ _ c fun _ h r => outs_lt6 D m h r c
theorem VA7 : V59 m (outs D m) = V59 m (o7 D m) := funext fun c => agr7 m _ _ c fun _ h r => outs_lt7 D m h r c
theorem VA8 : V64 m (outs D m) = V64 m (o8 D m) := funext fun c => agr8 m _ _ c fun _ h r => outs_lt8 D m h r c
theorem VA9 : V68 m (outs D m) = V68 m (o9 D m) := funext fun c => agr9 m _ _ c fun _ h r => outs_lt9 D m h r c
theorem VA10 : V74 m (outs D m) = V74 m (o10 D m) := funext fun c => agr10 m _ _ c fun _ h r => outs_lt10 D m h r c
theorem VA11 : V79 m (outs D m) = V79 m (o11 D m) := funext fun c => agr11 m _ _ c fun _ h r => outs_lt11 D m h r c
theorem VA12 : V89 m (outs D m) = V89 m (o12 D m) := funext fun c => agr12 m _ _ c fun _ h r => outs_lt12 D m h r c
theorem VA13 : V93 m (outs D m) = V93 m (o13 D m) := funext fun c => agr13 m _ _ c fun _ h r => outs_lt13 D m h r c
theorem VA14 : V95 m (outs D m) = V95 m (o14 D m) := funext fun c => agr14 m _ _ c fun _ h r => outs_lt14 D m h r c
theorem VA15 : V97 m (outs D m) = V97 m (o15 D m) := funext fun c => agr15 m _ _ c fun _ h r => outs_lt15 D m h r c
theorem VA16 : V103 m (outs D m) = V103 m (o16 D m) := funext fun c => agr16 m _ _ c fun _ h r => outs_lt16 D m h r c

/-! ## The equations: what a region leaves is what its data compute, over the valuation it is entered at -/

theorem outs_R0 (c : Dev nD) : outs D m 14 main_v50 c = (D.d0 (V13 m) c).arrAt 5 cfg0.N := by
  rw [outs_at0, X0, Function.update_self]
theorem outs_R1 (c : Dev nD) : outs D m 22 main_v59 c = (D.d1 (V21 m (outs D m)) c).arrAt 5 cfg1.N := by
  rw [VA1 D m, outs_at1, X1, Function.update_self]
theorem outs_R2 (c : Dev nD) : outs D m 29 main_v67 c = (D.d2 (V28 m (outs D m)) c).arrAt 5 cfg2.N := by
  rw [VA2 D m, outs_at2, X2, Function.update_self]
theorem outs_R3 (c : Dev nD) : outs D m 33 main_v75 c = (D.d3 (V32 m (outs D m)) c).arrAt 5 cfg3.N := by
  rw [VA3 D m, outs_at3, X3, Function.update_self]
theorem outs_R4 (c : Dev nD) : outs D m 41 main_v84 c = (D.d4 (V40 m (outs D m)) c).arrAt 5 cfg4.N := by
  rw [VA4 D m, outs_at4, X4, Function.update_self]
theorem outs_R5 (c : Dev nD) : outs D m 48 main_v92 c = (D.d5 (V47 m (outs D m)) c).arrAt 5 cfg5.N := by
  rw [VA5 D m, outs_at5, X5, Function.update_self]
theorem outs_R6 (c : Dev nD) : outs D m 54 main_v101 c = (D.d6 (V53 m (outs D m)) c).arrAt 5 cfg6.N := by
  rw [VA6 D m, outs_at6, X6, Function.update_self]
theorem outs_R7 (c : Dev nD) : outs D m 60 main_v109 c = (D.d7 (V59 m (outs D m)) c).arrAt 5 cfg7.N := by
  rw [VA7 D m, outs_at7, X7, Function.update_self]
theorem outs_R8 (c : Dev nD) : outs D m 65 main_v115 c = (D.d8 (V64 m (outs D m)) c).arrAt 5 cfg8.N := by
  rw [VA8 D m, outs_at8, X8, Function.update_self]
theorem outs_R9 (c : Dev nD) : outs D m 69 main_v123 c = (D.d9 (V68 m (outs D m)) c).arrAt 5 cfg9.N := by
  rw [VA9 D m, outs_at9, X9, Function.update_self]
theorem outs_R10 (c : Dev nD) : outs D m 75 main_v131 c = (D.d10 (V74 m (outs D m)) c).arrAt 5 cfg10.N := by
  rw [VA10 D m, outs_at10, X10, Function.update_self]
theorem outs_R11 (c : Dev nD) : outs D m 80 main_v137 c = (D.d11 (V79 m (outs D m)) c).arrAt 5 cfg11.N := by
  rw [VA11 D m, outs_at11, X11, Function.update_self]
theorem outs_R12 (c : Dev nD) : outs D m 90 main_v155 c = (D.d12 (V89 m (outs D m)) c).arrAt 5 cfg12.N := by
  rw [VA12 D m, outs_at12, X12, Function.update_self]
theorem outs_R13_0 (c : Dev nD) : outs D m 94 main_v159_0 c = (D.d13 (V93 m (outs D m)) c).arrAt 6 cfg13.N := by
  rw [VA13 D m, outs_at13, X13,
    Function.update_of_ne (StableHlo.devRef_ne_of_ne (by decide : main_v159_0 ≠ main_v159_1)), Function.update_self]
theorem outs_R13_1 (c : Dev nD) : outs D m 94 main_v159_1 c = (D.d13 (V93 m (outs D m)) c).arrAt 7 cfg13.N := by
  rw [VA13 D m, outs_at13, X13, Function.update_self]
theorem outs_R14_0 (c : Dev nD) : outs D m 96 main_v162_0 c = (D.d14 (V95 m (outs D m)) c).arrAt 6 cfg14.N := by
  rw [VA14 D m, outs_at14, X14,
    Function.update_of_ne (StableHlo.devRef_ne_of_ne (by decide : main_v162_0 ≠ main_v162_1)), Function.update_self]
theorem outs_R14_1 (c : Dev nD) : outs D m 96 main_v162_1 c = (D.d14 (V95 m (outs D m)) c).arrAt 7 cfg14.N := by
  rw [VA14 D m, outs_at14, X14, Function.update_self]
theorem outs_R15_0 (c : Dev nD) : outs D m 98 main_v165_0 c = (D.d15 (V97 m (outs D m)) c).arrAt 6 cfg15.N := by
  rw [VA15 D m, outs_at15, X15,
    Function.update_of_ne (StableHlo.devRef_ne_of_ne (by decide : main_v165_0 ≠ main_v165_1)), Function.update_self]
theorem outs_R15_1 (c : Dev nD) : outs D m 98 main_v165_1 c = (D.d15 (V97 m (outs D m)) c).arrAt 7 cfg15.N := by
  rw [VA15 D m, outs_at15, X15, Function.update_self]
theorem outs_R16 (c : Dev nD) : outs D m 104 main_v184 c = (D.d16 (V103 m (outs D m)) c).arrAt 9 cfg16.N := by
  rw [VA16 D m, outs_at16, X16, Function.update_self]

/-! ## The launch side, and the shape of a region's record -/

abbrev 𝒱₀ : Variants := Variants.none
/-- No core owes another anything: no level is assigned. -/
abbrev L₀ : GSem nD τ sig → Finset Unit := fun _ => ∅
abbrev lv₀ : GSem nD τ sig → Unit → ℕ := fun _ _ => 0

/-- The launch element: the pipelines' staging cells and transfers, nothing else. -/
def u₀ : UR sig nD τ := initOf (Pipeline.cells cfgs cellOf_inj) (Pipeline.launchToks cfgs cellOf_inj)

/-- What rides beside the buffers between any two items: the core's dues, at nothing. -/
abbrev Ē (c : Dev nD) : sProp 𝕄 := iprop(∃ W, owes (c : Thread nD τ) (0 : CellTallies nD τ sig Unit) W)

/-- A family of proof data, one per pipeline. -/
abbrev PD (F : FTy → Type) [FloatOps F] : Type _ :=
  (p : Fin 17) → (c : Dev nD) → Dat τ (Elt F) Unit ℕ (UR sig nD τ) ℕ (cfgs p) c

/-- Region `K`'s segment record over the family `pd`, entered with the unscoped buffers held at `V` and left with them
    held at `Vp`, the dues beside. -/
abbrev RegFor (pd : PD F) (K : Fin 17) (V Vp : Dev nD → Valuation τ sig (Elt F)) : Type _ :=
  {R : RegionSeg (pcfgs (F := F)) adm pd () defs₀ 𝒱₀ L₀ lv₀ K //
    (∀ c : Dev nD, iprop(StableHlo.held (c : Thread nD τ) (Pipeline.ucRefs τ sig) (V c) ∗ Ē c) ⊢ R.pre c) ∧
    (∀ c : Dev nD, R.post c ⊢ iprop(StableHlo.held (c : Thread nD τ) (Pipeline.ucRefs τ sig) (Vp c) ∗ Ē c))}

/-- The seventeen regions' records, each for ANY entry valuation `V`, ANY exit valuation `Vp` that is `V` off the
    region's result arrays and holds there what the region's data compute, and ANY family holding the region's data at
    its place. -/
structure Regs (D : Dats F) where
  r0 : ∀ (V Vp : Dev nD → Valuation τ sig (Elt F)) (pd : PD F), (∀ c, pd 0 c = D.d0 V c) →
    (∀ c, Vp c main_v50 = (D.d0 V c).arrAt 5 cfg0.N) → (∀ c (b : Ref sig .tc), b ≠ main_v50 → Vp c b = V c b) → RegFor pd 0 V Vp
  r1 : ∀ (V Vp : Dev nD → Valuation τ sig (Elt F)) (pd : PD F), (∀ c, pd 1 c = D.d1 V c) →
    (∀ c, Vp c main_v59 = (D.d1 V c).arrAt 5 cfg1.N) → (∀ c (b : Ref sig .tc), b ≠ main_v59 → Vp c b = V c b) → RegFor pd 1 V Vp
  r2 : ∀ (V Vp : Dev nD → Valuation τ sig (Elt F)) (pd : PD F), (∀ c, pd 2 c = D.d2 V c) →
    (∀ c, Vp c main_v67 = (D.d2 V c).arrAt 5 cfg2.N) → (∀ c (b : Ref sig .tc), b ≠ main_v67 → Vp c b = V c b) → RegFor pd 2 V Vp
  r3 : ∀ (V Vp : Dev nD → Valuation τ sig (Elt F)) (pd : PD F), (∀ c, pd 3 c = D.d3 V c) →
    (∀ c, Vp c main_v75 = (D.d3 V c).arrAt 5 cfg3.N) → (∀ c (b : Ref sig .tc), b ≠ main_v75 → Vp c b = V c b) → RegFor pd 3 V Vp
  r4 : ∀ (V Vp : Dev nD → Valuation τ sig (Elt F)) (pd : PD F), (∀ c, pd 4 c = D.d4 V c) →
    (∀ c, Vp c main_v84 = (D.d4 V c).arrAt 5 cfg4.N) → (∀ c (b : Ref sig .tc), b ≠ main_v84 → Vp c b = V c b) → RegFor pd 4 V Vp
  r5 : ∀ (V Vp : Dev nD → Valuation τ sig (Elt F)) (pd : PD F), (∀ c, pd 5 c = D.d5 V c) →
    (∀ c, Vp c main_v92 = (D.d5 V c).arrAt 5 cfg5.N) → (∀ c (b : Ref sig .tc), b ≠ main_v92 → Vp c b = V c b) → RegFor pd 5 V Vp
  r6 : ∀ (V Vp : Dev nD → Valuation τ sig (Elt F)) (pd : PD F), (∀ c, pd 6 c = D.d6 V c) →
    (∀ c, Vp c main_v101 = (D.d6 V c).arrAt 5 cfg6.N) → (∀ c (b : Ref sig .tc), b ≠ main_v101 → Vp c b = V c b) → RegFor pd 6 V Vp
  r7 : ∀ (V Vp : Dev nD → Valuation τ sig (Elt F)) (pd : PD F), (∀ c, pd 7 c = D.d7 V c) →
    (∀ c, Vp c main_v109 = (D.d7 V c).arrAt 5 cfg7.N) → (∀ c (b : Ref sig .tc), b ≠ main_v109 → Vp c b = V c b) → RegFor pd 7 V Vp
  r8 : ∀ (V Vp : Dev nD → Valuation τ sig (Elt F)) (pd : PD F), (∀ c, pd 8 c = D.d8 V c) →
    (∀ c, Vp c main_v115 = (D.d8 V c).arrAt 5 cfg8.N) → (∀ c (b : Ref sig .tc), b ≠ main_v115 → Vp c b = V c b) → RegFor pd 8 V Vp
  r9 : ∀ (V Vp : Dev nD → Valuation τ sig (Elt F)) (pd : PD F), (∀ c, pd 9 c = D.d9 V c) →
    (∀ c, Vp c main_v123 = (D.d9 V c).arrAt 5 cfg9.N) → (∀ c (b : Ref sig .tc), b ≠ main_v123 → Vp c b = V c b) → RegFor pd 9 V Vp
  r10 : ∀ (V Vp : Dev nD → Valuation τ sig (Elt F)) (pd : PD F), (∀ c, pd 10 c = D.d10 V c) →
    (∀ c, Vp c main_v131 = (D.d10 V c).arrAt 5 cfg10.N) → (∀ c (b : Ref sig .tc), b ≠ main_v131 → Vp c b = V c b) → RegFor pd 10 V Vp
  r11 : ∀ (V Vp : Dev nD → Valuation τ sig (Elt F)) (pd : PD F), (∀ c, pd 11 c = D.d11 V c) →
    (∀ c, Vp c main_v137 = (D.d11 V c).arrAt 5 cfg11.N) → (∀ c (b : Ref sig .tc), b ≠ main_v137 → Vp c b = V c b) → RegFor pd 11 V Vp
  r12 : ∀ (V Vp : Dev nD → Valuation τ sig (Elt F)) (pd : PD F), (∀ c, pd 12 c = D.d12 V c) →
    (∀ c, Vp c main_v155 = (D.d12 V c).arrAt 5 cfg12.N) → (∀ c (b : Ref sig .tc), b ≠ main_v155 → Vp c b = V c b) → RegFor pd 12 V Vp
  r13 : ∀ (V Vp : Dev nD → Valuation τ sig (Elt F)) (pd : PD F), (∀ c, pd 13 c = D.d13 V c) →
    (∀ c, Vp c main_v159_0 = (D.d13 V c).arrAt 6 cfg13.N) → (∀ c, Vp c main_v159_1 = (D.d13 V c).arrAt 7 cfg13.N) →
    (∀ c (b : Ref sig .tc), b ≠ main_v159_0 → b ≠ main_v159_1 → Vp c b = V c b) → RegFor pd 13 V Vp
  r14 : ∀ (V Vp : Dev nD → Valuation τ sig (Elt F)) (pd : PD F), (∀ c, pd 14 c = D.d14 V c) →
    (∀ c, Vp c main_v162_0 = (D.d14 V c).arrAt 6 cfg14.N) → (∀ c, Vp c main_v162_1 = (D.d14 V c).arrAt 7 cfg14.N) →
    (∀ c (b : Ref sig .tc), b ≠ main_v162_0 → b ≠ main_v162_1 → Vp c b = V c b) → RegFor pd 14 V Vp
  r15 : ∀ (V Vp : Dev nD → Valuation τ sig (Elt F)) (pd : PD F), (∀ c, pd 15 c = D.d15 V c) →
    (∀ c, Vp c main_v165_0 = (D.d15 V c).arrAt 6 cfg15.N) → (∀ c, Vp c main_v165_1 = (D.d15 V c).arrAt 7 cfg15.N) →
    (∀ c (b : Ref sig .tc), b ≠ main_v165_0 → b ≠ main_v165_1 → Vp c b = V c b) → RegFor pd 15 V Vp
  r16 : ∀ (V Vp : Dev nD → Valuation τ sig (Elt F)) (pd : PD F), (∀ c, pd 16 c = D.d16 V c) →
    (∀ c, Vp c main_v184 = (D.d16 V c).arrAt 9 cfg16.N) → (∀ c (b : Ref sig .tc), b ≠ main_v184 → Vp c b = V c b) → RegFor pd 16 V Vp

/-! ## The family of proof data, and the records at the final contents -/

/-- Every pipeline's proof data, each over the valuation its region is entered at, the regions leaving `outs`. -/
def pdats : PD F
  | ⟨0, _⟩ => fun c => D.d0 (V13 m) c
  | ⟨1, _⟩ => fun c => D.d1 (V21 m (outs D m)) c
  | ⟨2, _⟩ => fun c => D.d2 (V28 m (outs D m)) c
  | ⟨3, _⟩ => fun c => D.d3 (V32 m (outs D m)) c
  | ⟨4, _⟩ => fun c => D.d4 (V40 m (outs D m)) c
  | ⟨5, _⟩ => fun c => D.d5 (V47 m (outs D m)) c
  | ⟨6, _⟩ => fun c => D.d6 (V53 m (outs D m)) c
  | ⟨7, _⟩ => fun c => D.d7 (V59 m (outs D m)) c
  | ⟨8, _⟩ => fun c => D.d8 (V64 m (outs D m)) c
  | ⟨9, _⟩ => fun c => D.d9 (V68 m (outs D m)) c
  | ⟨10, _⟩ => fun c => D.d10 (V74 m (outs D m)) c
  | ⟨11, _⟩ => fun c => D.d11 (V79 m (outs D m)) c
  | ⟨12, _⟩ => fun c => D.d12 (V89 m (outs D m)) c
  | ⟨13, _⟩ => fun c => D.d13 (V93 m (outs D m)) c
  | ⟨14, _⟩ => fun c => D.d14 (V95 m (outs D m)) c
  | ⟨15, _⟩ => fun c => D.d15 (V97 m (outs D m)) c
  | ⟨16, _⟩ => fun c => D.d16 (V103 m (outs D m)) c
  | ⟨_ + 17, h⟩ => absurd h (Nat.not_lt.2 (Nat.le_add_left _ _))

variable (Rg : Regs D)

def reg0 : RegFor (pdats D m) 0 (V13 m) (V14 m (outs D m)) :=
  Rg.r0 _ _ _ (fun _ => rfl) (fun c => (Function.update_self _ _ _).trans (outs_R0 D m c))
    (fun c b hb => Function.update_of_ne (StableHlo.devRef_ne_of_ne hb) _ _)
def reg1 : RegFor (pdats D m) 1 (V21 m (outs D m)) (V22 m (outs D m)) :=
  Rg.r1 _ _ _ (fun _ => rfl) (fun c => (Function.update_self _ _ _).trans (outs_R1 D m c))
    (fun c b hb => Function.update_of_ne (StableHlo.devRef_ne_of_ne hb) _ _)
def reg2 : RegFor (pdats D m) 2 (V28 m (outs D m)) (V29 m (outs D m)) :=
  Rg.r2 _ _ _ (fun _ => rfl) (fun c => (Function.update_self _ _ _).trans (outs_R2 D m c))
    (fun c b hb => Function.update_of_ne (StableHlo.devRef_ne_of_ne hb) _ _)
def reg3 : RegFor (pdats D m) 3 (V32 m (outs D m)) (V33 m (outs D m)) :=
  Rg.r3 _ _ _ (fun _ => rfl) (fun c => (Function.update_self _ _ _).trans (outs_R3 D m c))
    (fun c b hb => Function.update_of_ne (StableHlo.devRef_ne_of_ne hb) _ _)
def reg4 : RegFor (pdats D m) 4 (V40 m (outs D m)) (V41 m (outs D m)) :=
  Rg.r4 _ _ _ (fun _ => rfl) (fun c => (Function.update_self _ _ _).trans (outs_R4 D m c))
    (fun c b hb => Function.update_of_ne (StableHlo.devRef_ne_of_ne hb) _ _)
def reg5 : RegFor (pdats D m) 5 (V47 m (outs D m)) (V48 m (outs D m)) :=
  Rg.r5 _ _ _ (fun _ => rfl) (fun c => (Function.update_self _ _ _).trans (outs_R5 D m c))
    (fun c b hb => Function.update_of_ne (StableHlo.devRef_ne_of_ne hb) _ _)
def reg6 : RegFor (pdats D m) 6 (V53 m (outs D m)) (V54 m (outs D m)) :=
  Rg.r6 _ _ _ (fun _ => rfl) (fun c => (Function.update_self _ _ _).trans (outs_R6 D m c))
    (fun c b hb => Function.update_of_ne (StableHlo.devRef_ne_of_ne hb) _ _)
def reg7 : RegFor (pdats D m) 7 (V59 m (outs D m)) (V60 m (outs D m)) :=
  Rg.r7 _ _ _ (fun _ => rfl) (fun c => (Function.update_self _ _ _).trans (outs_R7 D m c))
    (fun c b hb => Function.update_of_ne (StableHlo.devRef_ne_of_ne hb) _ _)
def reg8 : RegFor (pdats D m) 8 (V64 m (outs D m)) (V65 m (outs D m)) :=
  Rg.r8 _ _ _ (fun _ => rfl) (fun c => (Function.update_self _ _ _).trans (outs_R8 D m c))
    (fun c b hb => Function.update_of_ne (StableHlo.devRef_ne_of_ne hb) _ _)
def reg9 : RegFor (pdats D m) 9 (V68 m (outs D m)) (V69 m (outs D m)) :=
  Rg.r9 _ _ _ (fun _ => rfl) (fun c => (Function.update_self _ _ _).trans (outs_R9 D m c))
    (fun c b hb => Function.update_of_ne (StableHlo.devRef_ne_of_ne hb) _ _)
def reg10 : RegFor (pdats D m) 10 (V74 m (outs D m)) (V75 m (outs D m)) :=
  Rg.r10 _ _ _ (fun _ => rfl) (fun c => (Function.update_self _ _ _).trans (outs_R10 D m c))
    (fun c b hb => Function.update_of_ne (StableHlo.devRef_ne_of_ne hb) _ _)
def reg11 : RegFor (pdats D m) 11 (V79 m (outs D m)) (V80 m (outs D m)) :=
  Rg.r11 _ _ _ (fun _ => rfl) (fun c => (Function.update_self _ _ _).trans (outs_R11 D m c))
    (fun c b hb => Function.update_of_ne (StableHlo.devRef_ne_of_ne hb) _ _)
def reg12 : RegFor (pdats D m) 12 (V89 m (outs D m)) (V90 m (outs D m)) :=
  Rg.r12 _ _ _ (fun _ => rfl) (fun c => (Function.update_self _ _ _).trans (outs_R12 D m c))
    (fun c b hb => Function.update_of_ne (StableHlo.devRef_ne_of_ne hb) _ _)
def reg13 : RegFor (pdats D m) 13 (V93 m (outs D m)) (V94 m (outs D m)) :=
  Rg.r13 _ _ _ (fun _ => rfl)
    (fun c => (Function.update_of_ne (StableHlo.devRef_ne_of_ne (by decide : main_v159_0 ≠ main_v159_1)) _ _).trans
      ((Function.update_self _ _ _).trans (outs_R13_0 D m c)))
    (fun c => (Function.update_self _ _ _).trans (outs_R13_1 D m c))
    (fun c b h0 h1 => (Function.update_of_ne (StableHlo.devRef_ne_of_ne h1) _ _).trans
      (Function.update_of_ne (StableHlo.devRef_ne_of_ne h0) _ _))
def reg14 : RegFor (pdats D m) 14 (V95 m (outs D m)) (V96 m (outs D m)) :=
  Rg.r14 _ _ _ (fun _ => rfl)
    (fun c => (Function.update_of_ne (StableHlo.devRef_ne_of_ne (by decide : main_v162_0 ≠ main_v162_1)) _ _).trans
      ((Function.update_self _ _ _).trans (outs_R14_0 D m c)))
    (fun c => (Function.update_self _ _ _).trans (outs_R14_1 D m c))
    (fun c b h0 h1 => (Function.update_of_ne (StableHlo.devRef_ne_of_ne h1) _ _).trans
      (Function.update_of_ne (StableHlo.devRef_ne_of_ne h0) _ _))
def reg15 : RegFor (pdats D m) 15 (V97 m (outs D m)) (V98 m (outs D m)) :=
  Rg.r15 _ _ _ (fun _ => rfl)
    (fun c => (Function.update_of_ne (StableHlo.devRef_ne_of_ne (by decide : main_v165_0 ≠ main_v165_1)) _ _).trans
      ((Function.update_self _ _ _).trans (outs_R15_0 D m c)))
    (fun c => (Function.update_self _ _ _).trans (outs_R15_1 D m c))
    (fun c b h0 h1 => (Function.update_of_ne (StableHlo.devRef_ne_of_ne h1) _ _).trans
      (Function.update_of_ne (StableHlo.devRef_ne_of_ne h0) _ _))
def reg16 : RegFor (pdats D m) 16 (V103 m (outs D m)) (V104 m (outs D m)) :=
  Rg.r16 _ _ _ (fun _ => rfl) (fun c => (Function.update_self _ _ _).trans (outs_R16 D m c))
    (fun c b hb => Function.update_of_ne (StableHlo.devRef_ne_of_ne hb) _ _)

/-! ## The frame, and the run with its result named -/

/-- Each argument array as launched, on core `c`, in the memory `s`. -/
abbrev argsKept (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)
  ∧ s.mem ((c.tc : Thread nD τ).loc main_arg15) = m ((c.tc : Thread nD τ).loc main_arg15)
  ∧ s.mem ((c.tc : Thread nD τ).loc main_arg16) = m ((c.tc : Thread nD τ).loc main_arg16)
  ∧ s.mem ((c.tc : Thread nD τ).loc main_arg17) = m ((c.tc : Thread nD τ).loc main_arg17)
  ∧ s.mem ((c.tc : Thread nD τ).loc main_arg18) = m ((c.tc : Thread nD τ).loc main_arg18)
  ∧ s.mem ((c.tc : Thread nD τ).loc main_arg19) = m ((c.tc : Thread nD τ).loc main_arg19)
  ∧ s.mem ((c.tc : Thread nD τ).loc main_arg20) = m ((c.tc : Thread nD τ).loc main_arg20)
  ∧ s.mem ((c.tc : Thread nD τ).loc main_arg21) = m ((c.tc : Thread nD τ).loc main_arg21)
  ∧ s.mem ((c.tc : Thread nD τ).loc main_arg22) = m ((c.tc : Thread nD τ).loc main_arg22)
  ∧ s.mem ((c.tc : Thread nD τ).loc main_arg23) = m ((c.tc : Thread nD τ).loc main_arg23)
  ∧ s.mem ((c.tc : Thread nD τ).loc main_arg24) = m ((c.tc : Thread nD τ).loc main_arg24)

/-- What the conditional frame and the run with its result named are both applied to: the launch in the pipelines'
    algebra alone, no core owing anything and no ghost resource, the dues riding beside the buffers between any two
    items (made at launch from the core's empty dues, and all that is left at the end), and the seventeen records. -/
local macro "regionArgs% " f:term:max D:term:max Rg:term:max m:term:max ρ:term:max : term => `(
  $f $m emb₁ () 𝒱₀ L₀ lv₀ (fun _ _ => rfl) $ρ (outs $D $m) (pdats $D $m) 0 (fun _ => (BI.emp : sProp 𝕄)) u₀
    (by
      rw [BI.bigSep_emp_const]
      iintro Hu; imodintro
      isplitl [Hu]
      · iapply (show (ownU u₀ : sProp 𝕄) ⊢ BI.own (emb₁ u₀) from .rfl); iexact Hu
      · iempintro)
    (fun _ c => Ē c)
    (by
      refine Pipeline.initEach L₀ lv₀ fun c => ?_
      iintro ⟨⟨-, HO, -, -, -⟩, -⟩
      imodintro
      iexists ∅; iexact HO)
    (fun _ => .rfl)
    (reg0 $D $m $Rg).1 (reg0 $D $m $Rg).2.1 (reg0 $D $m $Rg).2.2
    (reg1 $D $m $Rg).1 (reg1 $D $m $Rg).2.1 (reg1 $D $m $Rg).2.2
    (reg2 $D $m $Rg).1 (reg2 $D $m $Rg).2.1 (reg2 $D $m $Rg).2.2
    (reg3 $D $m $Rg).1 (reg3 $D $m $Rg).2.1 (reg3 $D $m $Rg).2.2
    (reg4 $D $m $Rg).1 (reg4 $D $m $Rg).2.1 (reg4 $D $m $Rg).2.2
    (reg5 $D $m $Rg).1 (reg5 $D $m $Rg).2.1 (reg5 $D $m $Rg).2.2
    (reg6 $D $m $Rg).1 (reg6 $D $m $Rg).2.1 (reg6 $D $m $Rg).2.2
    (reg7 $D $m $Rg).1 (reg7 $D $m $Rg).2.1 (reg7 $D $m $Rg).2.2
    (reg8 $D $m $Rg).1 (reg8 $D $m $Rg).2.1 (reg8 $D $m $Rg).2.2
    (reg9 $D $m $Rg).1 (reg9 $D $m $Rg).2.1 (reg9 $D $m $Rg).2.2
    (reg10 $D $m $Rg).1 (reg10 $D $m $Rg).2.1 (reg10 $D $m $Rg).2.2
    (reg11 $D $m $Rg).1 (reg11 $D $m $Rg).2.1 (reg11 $D $m $Rg).2.2
    (reg12 $D $m $Rg).1 (reg12 $D $m $Rg).2.1 (reg12 $D $m $Rg).2.2
    (reg13 $D $m $Rg).1 (reg13 $D $m $Rg).2.1 (reg13 $D $m $Rg).2.2
    (reg14 $D $m $Rg).1 (reg14 $D $m $Rg).2.1 (reg14 $D $m $Rg).2.2
    (reg15 $D $m $Rg).1 (reg15 $D $m $Rg).2.1 (reg15 $D $m $Rg).2.2
    (reg16 $D $m $Rg).1 (reg16 $D $m $Rg).2.1 (reg16 $D $m $Rg).2.2)

-- the library's region theorems find their implicit arguments by unifying their conclusions with these, which takes unfolding
-- plain definitions in a metavariable's type
include D Rg in
set_option maxHeartbeats 1000000 in
set_option backward.isDefEq.respectTransparency.types false in
/-- THE FRAME, from the regions' records: at the compiled mesh, from any memory with zero counters, every weakly fair
    execution of @main terminates and every final memory holds each argument array as launched. -/
theorem frame_of (ρ : Dev nD → PrngReg) :
    θ_run defs (onTc (τ := τ) (main (F := F))) ⟨m, fun _ => 0, ρ⟩ (fun r => ∀ c : Dev nD, argsKept m c r.2) :=
  regionArgs% GenP.frame_cond D Rg m ρ

include Rg in
set_option maxHeartbeats 1000000 in
set_option backward.isDefEq.respectTransparency.types false in
/-- THE RUN WITH ITS RESULT NAMED, from the regions' records: moreover the result array holds what the last region
    leaves in it, `outs D m 104 main_v184 c` — by `outs_R16`, what that region's data compute over the valuation it is
    entered at. -/
theorem run_of (ρ : Dev nD → PrngReg) :
    θ_run defs (onTc (τ := τ) (main (F := F))) ⟨m, fun _ => 0, ρ⟩ (fun r => ∀ c : Dev nD,
      r.2.mem ((c.tc : Thread nD τ).loc main_v184) = outs D m 104 main_v184 c ∧ argsKept m c r.2) :=
  regionArgs% RunValue.run_cond D Rg m ρ

end Cert.Kernel.AssemblyKit

end
-- ==== Proof.K.Region0.lean ====
/-
  REGION 0 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.Kernel.Region0

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 4
abbrev kl : ℕ := 3
/-- The output array, and the region's place among the program's pipelines. -/
abbrev vOUT : Ref sig .tc := main_v50
abbrev RK : Fin 17 := 0

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid0.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid0.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k0_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k0_pay2 X0 X1 (k0_pay1 (F := F)))) -∗ Q ⟨⟩))
    ⊢ wp frame (wpE (defs₀ (F := F)) 𝒱₀ c none) E (cc0__mm_kernel i M0 h0 M1 h1 M2 h2 M3 h3 M4 h4 M5 h5 Ms hs) Q := by
  iintro ⟨H0, H1, H2, H3, H4, H5, Hs, Hk⟩
  simp only [cc0__mm_kernel_eq_skeleton]; unfold cc0__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid0.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k0_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k0_pay2 X0 X1 Xs)) -∗ Q ⟨⟩))
    ⊢ wp frame (wpE (defs₀ (F := F)) 𝒱₀ c none) E (cc0__mm_kernel i M0 h0 M1 h1 M2 h2 M3 h3 M4 h4 M5 h5 Ms hs) Q := by
  iintro ⟨H0, H1, H2, H3, H4, H5, Hs, Hk⟩
  simp only [cc0__mm_kernel_eq_skeleton]; unfold cc0__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid0.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k0_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k0_pay3 (k0_pay2 X0 X1 Xs) X3 X4) ∗ pt c Ms (k0_pay2 X0 X1 Xs)) -∗ Q ⟨⟩))
    ⊢ wp frame (wpE (defs₀ (F := F)) 𝒱₀ c none) E (cc0__mm_kernel i M0 h0 M1 h1 M2 h2 M3 h3 M4 h4 M5 h5 Ms hs) Q := by
  iintro ⟨H0, H1, H2, H3, H4, H5, Hs, Hk⟩
  simp only [cc0__mm_kernel_eq_skeleton]; unfold cc0__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid0.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k0_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k0_pay3 (k0_pay2 X0 X1 (k0_pay1 (F := F))) X3 X4) ∗ pt c Ms (k0_pay2 X0 X1 (k0_pay1 (F := F)))) -∗ Q ⟨⟩))
    ⊢ wp frame (wpE (defs₀ (F := F)) 𝒱₀ c none) E (cc0__mm_kernel i M0 h0 M1 h1 M2 h2 M3 h3 M4 h4 M5 h5 Ms hs) Q := by
  iintro ⟨H0, H1, H2, H3, H4, H5, Hs, Hk⟩
  simp only [cc0__mm_kernel_eq_skeleton]; unfold cc0__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid0.Coords) (X0 : SA.Idx → Elt F .bf16) (X1 : SB.Idx → Elt F .bf16) (Xs : SO.Idx → Elt F .f32) :
    SO.Idx → Elt F .f32 :=
  k0_pay2 X0 X1 (if cond1 i = 1#1 then k0_pay1 (F := F) else Xs)

/-- What the output's staging buffer holds after the body at coordinates `i`. -/
abbrev outOut (i : grid0.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k0_cond2 i = 1#1 then k0_pay3 (accOut i X0 X1 Xs) X3 X4 else X5

/-- The kernel body at any coordinates: the four runs, by cases on its two conditions; the contents it leaves named by
    the caller (`A'`, `O'`). -/
theorem kernelRun (𝒱₀ : Variants) (c : Dev nD) (i : grid0.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc0__mm_kernel i M0 h0 M1 h1 M2 h2 M3 h3 M4 h4 M5 h5 Ms hs) Q := by
  subst hA hO
  unfold outOut accOut
  by_cases hc1 : cond1 i = 1#1 <;> by_cases hc2 : k0_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid0.N, cond1 (grid0.coords t) = 1#1 ↔ t.val % nk = 0 := by decide +kernel
theorem cond2_iff : ∀ t : Fin grid0.N, k0_cond2 (grid0.coords t) = 1#1 ↔ t.val % nk = kl := by decide +kernel

variable (V Vp : Dev nD → Valuation τ sig (Elt F))

/-- The windowed arrays at the region's entry. -/
abbrev A0 (c : Dev nD) (w : Fin cfg0.W) : Buf (Elt F) ((cfg0.win w).arr.view.loc (c : Thread nD τ)) := V c (Pipeline.arrRef spec0 w)

/-- What an input window's staging buffer holds when the body runs at point `t`: the window's block of its array there. -/
def inBlk (c : Dev nD) (w : Fin cfg0.W) (t : Fin cfg0.N) : (cfg0.win w).block.Idx → Elt F (cfg0.win w).elt :=
  (cfg0.win w).fill (cfg0.grid.coords t) (fun _ => Classical.arbitrary _) (((cfg0.win w).blk t).view.read (Elt F) (A0 V c w))

/-- The accumulator AFTER point `n`: the product of the point's two blocks added to zero at the first point of a reduction
    run (`n % nk = 0`), to what the point before left elsewhere. -/
def acc (c : Dev nD) : (n : ℕ) → n < cfg0.N → SO.Idx → Elt F .f32
  | 0, h => k0_pay2 (inBlk V c 0 ⟨0, h⟩) (inBlk V c 1 ⟨0, h⟩) (k0_pay1 (F := F))
  | n + 1, h => k0_pay2 (inBlk V c 0 ⟨n + 1, h⟩) (inBlk V c 1 ⟨n + 1, h⟩)
      (if (n + 1) % nk = 0 then k0_pay1 (F := F) else acc c n (Nat.lt_of_succ_lt h))

/-- The invariant before point `n`: the scratch accumulator at what the point before left (nothing is said where the
    body resets it), and every other scoped buffer the pipeline does not stage at something. -/
def Φ0 (c : Dev nD) (n : Fin (cfg0.N + 1)) : sProp 𝕄 :=
  iprop((∃ X : SO.Idx → Elt F .f32, ⌜∀ h : n.val - 1 < cfg0.N, n.val % nk ≠ 0 → X = acc V c (n.val - 1) h⌝ ∗ pt c (Memref.whole cc0_scratch0) X)
    ∗ Pipeline.scopedRestBut (Ix := Ix) (Name := ℕ) (U := U) (Lvl := Lvl) (Val := Elt F) spec0 c [cc0_scratch0])

/-- The proof data on core `c`, from the entry valuation `V`. -/
def dat (c : Dev nD) : Pipeline.Dat τ (Elt F) Ix ℕ U Lvl cfg0 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k0_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg0.W) (hw : (cfg0.win w).isOut = false) (hlive : ∀ i, cfg0.idle w i = false)
    (hclip : ∀ (i : cfg0.grid.Coords) a, (cfg0.win w).clip i a = none)
    (hafter : ∀ t, (dat' V c).after w t = inBlk V c w t)
    (t : Fin cfg0.N) (d : (cfg0.win w).block.Idx → Elt F (cfg0.win w).elt) :
    (dat' V c).before w t d = inBlk V c w t := by
  rw [(dat V c).before_in_eq_fetched w hw hlive (fun t t' _ => funext fun a => (hclip _ a).trans (hclip _ a).symm)
    (fun t => by rw [hafter]; exact (cfg0.win w).cut_fill _ _ _) t d,
    (dat V c).fetched_of_clip_none w t (hclip _) d (fun _ => Classical.arbitrary _)]
  rfl

theorem before0 (c : Dev nD) (t : Fin cfg0.N) (d) : (dat' V c).before 0 t d = inBlk V c 0 t :=
  before_in V c 0 rfl (fun _ => rfl) (fun _ _ => rfl) (fun _ => rfl) t d
theorem before1 (c : Dev nD) (t : Fin cfg0.N) (d) : (dat' V c).before 1 t d = inBlk V c 1 t :=
  before_in V c 1 rfl (fun _ => rfl) (fun _ _ => rfl) (fun _ => rfl) t d
theorem before2 (c : Dev nD) (t : Fin cfg0.N) (d) : (dat' V c).before 2 t d = inBlk V c 2 t :=
  before_in V c 2 rfl (fun _ => rfl) (fun _ _ => rfl) (fun _ => rfl) t d
theorem before3 (c : Dev nD) (t : Fin cfg0.N) (d) : (dat' V c).before 3 t d = inBlk V c 3 t :=
  before_in V c 3 rfl (fun _ => rfl) (fun _ _ => rfl) (fun _ => rfl) t d
theorem before4 (c : Dev nD) (t : Fin cfg0.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg0.N) (Xs : SO.Idx → Elt F .f32)
    (hXs : ∀ h : t.val - 1 < cfg0.N, t.val % nk ≠ 0 → Xs = acc V c (t.val - 1) h) :
    accOut (grid0.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k0_pay2 _ _ (if (n + 1) % nk = 0 then _ else _)
      rw [if_pos hm]
    · rw [if_neg (fun h => hm ((cond1_iff ⟨n + 1, hn⟩).mp h)), hXs (Nat.lt_of_succ_lt hn) hm]
      show _ = k0_pay2 _ _ (if (n + 1) % nk = 0 then _ else _)
      rw [if_neg hm]
      rfl

/-- The output window is idle exactly where the second condition fails, and written back exactly where it holds. -/
theorem idle5_of (t : Fin cfg0.N) (h : k0_cond2 (grid0.coords t) = 1#1) : cfg0.idle 5 (cfg0.grid.coords t) = false := by
  show (!(k0_cond2 (grid0.coords t) == 1#1)) = false
  rw [h]; rfl
theorem idle5_of_not (t : Fin cfg0.N) (h : ¬ k0_cond2 (grid0.coords t) = 1#1) : cfg0.idle 5 (cfg0.grid.coords t) = true := by
  show (!(k0_cond2 (grid0.coords t) == 1#1)) = true
  rw [Bool.not_eq_true', beq_eq_false_iff_ne]; exact h
theorem flush5_of_not (t : Fin cfg0.N) (h : ¬ k0_cond2 (grid0.coords t) = 1#1) : (cfg0.win 5).flush t = false :=
  Bool.eq_false_iff.mpr fun hf => h ((cond2_iff t).mpr ((flush0_5 t).mp hf))

theorem idleIn0 (i : cfg0.grid.Coords) : cfg0.idle 0 i = false := rfl
theorem idleIn1 (i : cfg0.grid.Coords) : cfg0.idle 1 i = false := rfl
theorem idleIn2 (i : cfg0.grid.Coords) : cfg0.idle 2 i = false := rfl
theorem idleIn3 (i : cfg0.grid.Coords) : cfg0.idle 3 i = false := rfl
theorem idleIn4 (i : cfg0.grid.Coords) : cfg0.idle 4 i = false := rfl
theorem after0 (c : Dev nD) (t : Fin cfg0.N) : (dat' V c).after 0 t = inBlk V c 0 t := rfl
theorem after1 (c : Dev nD) (t : Fin cfg0.N) : (dat' V c).after 1 t = inBlk V c 1 t := rfl
theorem after2 (c : Dev nD) (t : Fin cfg0.N) : (dat' V c).after 2 t = inBlk V c 2 t := rfl
theorem after3 (c : Dev nD) (t : Fin cfg0.N) : (dat' V c).after 3 t = inBlk V c 3 t := rfl
theorem after4 (c : Dev nD) (t : Fin cfg0.N) : (dat' V c).after 4 t = inBlk V c 4 t := rfl
theorem after5 (c : Dev nD) (t : Fin cfg0.N) :
    (dat' V c).after 5 t = k0_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W0, bigSep_W0]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k0_cond2 (grid0.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid0.coords t) (inBlk V c 0 t) (inBlk V c 1 t) (inBlk V c 3 t) (inBlk V c 4 t) ((dat' V c).before 5 t d5) Xs
        = k0_pay3 (acc V c t.val t.isLt) (inBlk V c 3 t) (inBlk V c 4 t) := by
      unfold outOut; rw [if_pos hc2, acc_step V c t Xs hXs]
    iapply (kernelRun 𝒱₀ c (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (Memref.whole cc0_scratch0) (Memref.isWhole_whole _)
      (inBlk V c 0 t) (inBlk V c 1 t) (inBlk V c 2 t) (inBlk V c 3 t)
      (inBlk V c 4 t) ((dat' V c).before 5 t d5) Xs (acc V c t.val t.isLt) (k0_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid0.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (Memref.whole cc0_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc0_scratch0) X : sProp 𝕄)
      = iprop(∃ f : Buf (Elt F) ((c : Thread nD τ).loc cc0_scratch0), ⌜f = X⌝ ∗ (((c : Thread nD τ).loc cc0_scratch0) ↦{fullShare} f)) :=
  (owns_eq_rep (c : Thread nD τ) (Memref.whole cc0_scratch0) fullShare X).symm.trans (owns_whole_eq (c : Thread nD τ) cc0_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec0 c) ⊢ Φ0 V c 0 := by
  rw [scopedRest0_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg0.N) ⊢ iprop(BI.emp ∗ BI.emp ∗ Pipeline.scopedRest (Ix := Ix) (Name := ℕ) (U := U) (Lvl := Lvl) (Val := Elt F) spec0 c) := by
  rw [scopedRest0_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg0.W) (hw : w ≠ 5) : (cfg0.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg0.N) (hne : ∀ c (b : Ref sig .tc), b ≠ vOUT → Vp c b = V c b) :
    Pipeline.RegionSeg (pcfgs (F := F)) adm pd ι defs₀ 𝒱₀ L lv RK where
  win := launch0.win.to₀
  block_pos := launch0.block_pos
  stage_whole := launch0.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec0 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch0.win launch0.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch0.win
      launch0.arr_whole c pd ((pd RK c).share_full fun _ => by rw [hpd c]; rfl) (fun b => V c b) (fun b => Vp c b)
      ((pd RK c).arrAt · cfg0.N)
      (fun w => by
        rw [hpd c]
        by_cases hw : w = 5
        · subst hw; exact (hout c).symm
        · exact ((dat' V c).arrAt_in w (isOut_of_ne w hw) _).trans
            (hne c _ fun h => hw (launch0.win.arr_inj (h.trans (rfl : vOUT = Pipeline.arrRef spec0 5)))).symm)
      (fun b hb => hne c b fun h => hb (Finset.mem_image.mpr ⟨5, Finset.mem_univ _, (rfl : Pipeline.arrRef spec0 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Region0
end
-- ==== Proof.K.Region1.lean ====
/-
  REGION 1 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.Kernel.Region1

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 4
abbrev kl : ℕ := 3
/-- The output array, and the region's place among the program's pipelines. -/
abbrev vOUT : Ref sig .tc := main_v59
abbrev RK : Fin 17 := 1

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid1.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid1.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k1_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k1_pay2 X0 X1 (k1_pay1 (F := F)))) -∗ Q ⟨⟩))
    ⊢ wp frame (wpE (defs₀ (F := F)) 𝒱₀ c none) E (cc1__mm_kernel i M0 h0 M1 h1 M2 h2 M3 h3 M4 h4 M5 h5 Ms hs) Q := by
  iintro ⟨H0, H1, H2, H3, H4, H5, Hs, Hk⟩
  simp only [cc1__mm_kernel_eq_skeleton]; unfold cc1__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid1.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k1_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k1_pay2 X0 X1 Xs)) -∗ Q ⟨⟩))
    ⊢ wp frame (wpE (defs₀ (F := F)) 𝒱₀ c none) E (cc1__mm_kernel i M0 h0 M1 h1 M2 h2 M3 h3 M4 h4 M5 h5 Ms hs) Q := by
  iintro ⟨H0, H1, H2, H3, H4, H5, Hs, Hk⟩
  simp only [cc1__mm_kernel_eq_skeleton]; unfold cc1__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid1.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k1_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k1_pay3 (k1_pay2 X0 X1 Xs) X3 X4) ∗ pt c Ms (k1_pay2 X0 X1 Xs)) -∗ Q ⟨⟩))
    ⊢ wp frame (wpE (defs₀ (F := F)) 𝒱₀ c none) E (cc1__mm_kernel i M0 h0 M1 h1 M2 h2 M3 h3 M4 h4 M5 h5 Ms hs) Q := by
  iintro ⟨H0, H1, H2, H3, H4, H5, Hs, Hk⟩
  simp only [cc1__mm_kernel_eq_skeleton]; unfold cc1__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid1.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k1_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k1_pay3 (k1_pay2 X0 X1 (k1_pay1 (F := F))) X3 X4) ∗ pt c Ms (k1_pay2 X0 X1 (k1_pay1 (F := F)))) -∗ Q ⟨⟩))
    ⊢ wp frame (wpE (defs₀ (F := F)) 𝒱₀ c none) E (cc1__mm_kernel i M0 h0 M1 h1 M2 h2 M3 h3 M4 h4 M5 h5 Ms hs) Q := by
  iintro ⟨H0, H1, H2, H3, H4, H5, Hs, Hk⟩
  simp only [cc1__mm_kernel_eq_skeleton]; unfold cc1__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid1.Coords) (X0 : SA.Idx → Elt F .bf16) (X1 : SB.Idx → Elt F .bf16) (Xs : SO.Idx → Elt F .f32) :
    SO.Idx → Elt F .f32 :=
  k1_pay2 X0 X1 (if cond1 i = 1#1 then k1_pay1 (F := F) else Xs)

/-- What the output's staging buffer holds after the body at coordinates `i`. -/
abbrev outOut (i : grid1.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k1_cond2 i = 1#1 then k1_pay3 (accOut i X0 X1 Xs) X3 X4 else X5

/-- The kernel body at any coordinates: the four runs, by cases on its two conditions; the contents it leaves named by
    the caller (`A'`, `O'`). -/
theorem kernelRun (𝒱₀ : Variants) (c : Dev nD) (i : grid1.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc1__mm_kernel i M0 h0 M1 h1 M2 h2 M3 h3 M4 h4 M5 h5 Ms hs) Q := by
  subst hA hO
  unfold outOut accOut
  by_cases hc1 : cond1 i = 1#1 <;> by_cases hc2 : k1_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid1.N, cond1 (grid1.coords t) = 1#1 ↔ t.val % nk = 0 := by decide +kernel
theorem cond2_iff : ∀ t : Fin grid1.N, k1_cond2 (grid1.coords t) = 1#1 ↔ t.val % nk = kl := by decide +kernel

variable (V Vp : Dev nD → Valuation τ sig (Elt F))

/-- The windowed arrays at the region's entry. -/
abbrev A0 (c : Dev nD) (w : Fin cfg1.W) : Buf (Elt F) ((cfg1.win w).arr.view.loc (c : Thread nD τ)) := V c (Pipeline.arrRef spec1 w)

/-- What an input window's staging buffer holds when the body runs at point `t`: the window's block of its array there. -/
def inBlk (c : Dev nD) (w : Fin cfg1.W) (t : Fin cfg1.N) : (cfg1.win w).block.Idx → Elt F (cfg1.win w).elt :=
  (cfg1.win w).fill (cfg1.grid.coords t) (fun _ => Classical.arbitrary _) (((cfg1.win w).blk t).view.read (Elt F) (A0 V c w))

/-- The accumulator AFTER point `n`: the product of the point's two blocks added to zero at the first point of a reduction
    run (`n % nk = 0`), to what the point before left elsewhere. -/
def acc (c : Dev nD) : (n : ℕ) → n < cfg1.N → SO.Idx → Elt F .f32
  | 0, h => k1_pay2 (inBlk V c 0 ⟨0, h⟩) (inBlk V c 1 ⟨0, h⟩) (k1_pay1 (F := F))
  | n + 1, h => k1_pay2 (inBlk V c 0 ⟨n + 1, h⟩) (inBlk V c 1 ⟨n + 1, h⟩)
      (if (n + 1) % nk = 0 then k1_pay1 (F := F) else acc c n (Nat.lt_of_succ_lt h))

/-- The invariant before point `n`: the scratch accumulator at what the point before left (nothing is said where the
    body resets it), and every other scoped buffer the pipeline does not stage at something. -/
def Φ0 (c : Dev nD) (n : Fin (cfg1.N + 1)) : sProp 𝕄 :=
  iprop((∃ X : SO.Idx → Elt F .f32, ⌜∀ h : n.val - 1 < cfg1.N, n.val % nk ≠ 0 → X = acc V c (n.val - 1) h⌝ ∗ pt c (Memref.whole cc1_scratch0) X)
    ∗ Pipeline.scopedRestBut (Ix := Ix) (Name := ℕ) (U := U) (Lvl := Lvl) (Val := Elt F) spec1 c [cc1_scratch0])

/-- The proof data on core `c`, from the entry valuation `V`. -/
def dat (c : Dev nD) : Pipeline.Dat τ (Elt F) Ix ℕ U Lvl cfg1 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k1_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg1.W) (hw : (cfg1.win w).isOut = false) (hlive : ∀ i, cfg1.idle w i = false)
    (hclip : ∀ (i : cfg1.grid.Coords) a, (cfg1.win w).clip i a = none)
    (hafter : ∀ t, (dat' V c).after w t = inBlk V c w t)
    (t : Fin cfg1.N) (d : (cfg1.win w).block.Idx → Elt F (cfg1.win w).elt) :
    (dat' V c).before w t d = inBlk V c w t := by
  rw [(dat V c).before_in_eq_fetched w hw hlive (fun t t' _ => funext fun a => (hclip _ a).trans (hclip _ a).symm)
    (fun t => by rw [hafter]; exact (cfg1.win w).cut_fill _ _ _) t d,
    (dat V c).fetched_of_clip_none w t (hclip _) d (fun _ => Classical.arbitrary _)]
  rfl

theorem before0 (c : Dev nD) (t : Fin cfg1.N) (d) : (dat' V c).before 0 t d = inBlk V c 0 t :=
  before_in V c 0 rfl (fun _ => rfl) (fun _ _ => rfl) (fun _ => rfl) t d
theorem before1 (c : Dev nD) (t : Fin cfg1.N) (d) : (dat' V c).before 1 t d = inBlk V c 1 t :=
  before_in V c 1 rfl (fun _ => rfl) (fun _ _ => rfl) (fun _ => rfl) t d
theorem before2 (c : Dev nD) (t : Fin cfg1.N) (d) : (dat' V c).before 2 t d = inBlk V c 2 t :=
  before_in V c 2 rfl (fun _ => rfl) (fun _ _ => rfl) (fun _ => rfl) t d
theorem before3 (c : Dev nD) (t : Fin cfg1.N) (d) : (dat' V c).before 3 t d = inBlk V c 3 t :=
  before_in V c 3 rfl (fun _ => rfl) (fun _ _ => rfl) (fun _ => rfl) t d
theorem before4 (c : Dev nD) (t : Fin cfg1.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg1.N) (Xs : SO.Idx → Elt F .f32)
    (hXs : ∀ h : t.val - 1 < cfg1.N, t.val % nk ≠ 0 → Xs = acc V c (t.val - 1) h) :
    accOut (grid1.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k1_pay2 _ _ (if (n + 1) % nk = 0 then _ else _)
      rw [if_pos hm]
    · rw [if_neg (fun h => hm ((cond1_iff ⟨n + 1, hn⟩).mp h)), hXs (Nat.lt_of_succ_lt hn) hm]
      show _ = k1_pay2 _ _ (if (n + 1) % nk = 0 then _ else _)
      rw [if_neg hm]
      rfl

/-- The output window is idle exactly where the second condition fails, and written back exactly where it holds. -/
theorem idle5_of (t : Fin cfg1.N) (h : k1_cond2 (grid1.coords t) = 1#1) : cfg1.idle 5 (cfg1.grid.coords t) = false := by
  show (!(k1_cond2 (grid1.coords t) == 1#1)) = false
  rw [h]; rfl
theorem idle5_of_not (t : Fin cfg1.N) (h : ¬ k1_cond2 (grid1.coords t) = 1#1) : cfg1.idle 5 (cfg1.grid.coords t) = true := by
  show (!(k1_cond2 (grid1.coords t) == 1#1)) = true
  rw [Bool.not_eq_true', beq_eq_false_iff_ne]; exact h
theorem flush5_of_not (t : Fin cfg1.N) (h : ¬ k1_cond2 (grid1.coords t) = 1#1) : (cfg1.win 5).flush t = false :=
  Bool.eq_false_iff.mpr fun hf => h ((cond2_iff t).mpr ((flush1_5 t).mp hf))

theorem idleIn0 (i : cfg1.grid.Coords) : cfg1.idle 0 i = false := rfl
theorem idleIn1 (i : cfg1.grid.Coords) : cfg1.idle 1 i = false := rfl
theorem idleIn2 (i : cfg1.grid.Coords) : cfg1.idle 2 i = false := rfl
theorem idleIn3 (i : cfg1.grid.Coords) : cfg1.idle 3 i = false := rfl
theorem idleIn4 (i : cfg1.grid.Coords) : cfg1.idle 4 i = false := rfl
theorem after0 (c : Dev nD) (t : Fin cfg1.N) : (dat' V c).after 0 t = inBlk V c 0 t := rfl
theorem after1 (c : Dev nD) (t : Fin cfg1.N) : (dat' V c).after 1 t = inBlk V c 1 t := rfl
theorem after2 (c : Dev nD) (t : Fin cfg1.N) : (dat' V c).after 2 t = inBlk V c 2 t := rfl
theorem after3 (c : Dev nD) (t : Fin cfg1.N) : (dat' V c).after 3 t = inBlk V c 3 t := rfl
theorem after4 (c : Dev nD) (t : Fin cfg1.N) : (dat' V c).after 4 t = inBlk V c 4 t := rfl
theorem after5 (c : Dev nD) (t : Fin cfg1.N) :
    (dat' V c).after 5 t = k1_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W1, bigSep_W1]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k1_cond2 (grid1.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid1.coords t) (inBlk V c 0 t) (inBlk V c 1 t) (inBlk V c 3 t) (inBlk V c 4 t) ((dat' V c).before 5 t d5) Xs
        = k1_pay3 (acc V c t.val t.isLt) (inBlk V c 3 t) (inBlk V c 4 t) := by
      unfold outOut; rw [if_pos hc2, acc_step V c t Xs hXs]
    iapply (kernelRun 𝒱₀ c (grid1.coords t)
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _)
      (inBlk V c 0 t) (inBlk V c 1 t) (inBlk V c 2 t) (inBlk V c 3 t)
      (inBlk V c 4 t) ((dat' V c).before 5 t d5) Xs (acc V c t.val t.isLt) (k1_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid1.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid1.coords t)
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc1_scratch0) X : sProp 𝕄)
      = iprop(∃ f : Buf (Elt F) ((c : Thread nD τ).loc cc1_scratch0), ⌜f = X⌝ ∗ (((c : Thread nD τ).loc cc1_scratch0) ↦{fullShare} f)) :=
  (owns_eq_rep (c : Thread nD τ) (Memref.whole cc1_scratch0) fullShare X).symm.trans (owns_whole_eq (c : Thread nD τ) cc1_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec1 c) ⊢ Φ0 V c 0 := by
  rw [scopedRest1_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg1.N) ⊢ iprop(BI.emp ∗ BI.emp ∗ Pipeline.scopedRest (Ix := Ix) (Name := ℕ) (U := U) (Lvl := Lvl) (Val := Elt F) spec1 c) := by
  rw [scopedRest1_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg1.W) (hw : w ≠ 5) : (cfg1.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg1.N) (hne : ∀ c (b : Ref sig .tc), b ≠ vOUT → Vp c b = V c b) :
    Pipeline.RegionSeg (pcfgs (F := F)) adm pd ι defs₀ 𝒱₀ L lv RK where
  win := launch1.win.to₀
  block_pos := launch1.block_pos
  stage_whole := launch1.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec1 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch1.win launch1.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch1.win
      launch1.arr_whole c pd ((pd RK c).share_full fun _ => by rw [hpd c]; rfl) (fun b => V c b) (fun b => Vp c b)
      ((pd RK c).arrAt · cfg1.N)
      (fun w => by
        rw [hpd c]
        by_cases hw : w = 5
        · subst hw; exact (hout c).symm
        · exact ((dat' V c).arrAt_in w (isOut_of_ne w hw) _).trans
            (hne c _ fun h => hw (launch1.win.arr_inj (h.trans (rfl : vOUT = Pipeline.arrRef spec1 5)))).symm)
      (fun b hb => hne c b fun h => hb (Finset.mem_image.mpr ⟨5, Finset.mem_univ _, (rfl : Pipeline.arrRef spec1 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Region1
end
-- ==== Proof.K.Region2.lean ====
/-
  REGION 2 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.Kernel.Region2

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 2
abbrev kl : ℕ := 1
/-- The output array, and the region's place among the program's pipelines. -/
abbrev vOUT : Ref sig .tc := main_v67
abbrev RK : Fin 17 := 2

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid2.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid2.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k2_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k2_pay2 X0 X1 (k2_pay1 (F := F)))) -∗ Q ⟨⟩))
    ⊢ wp frame (wpE (defs₀ (F := F)) 𝒱₀ c none) E (cc2__mm_kernel i M0 h0 M1 h1 M2 h2 M3 h3 M4 h4 M5 h5 Ms hs) Q := by
  iintro ⟨H0, H1, H2, H3, H4, H5, Hs, Hk⟩
  simp only [cc2__mm_kernel_eq_skeleton]; unfold cc2__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid2.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k2_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k2_pay2 X0 X1 Xs)) -∗ Q ⟨⟩))
    ⊢ wp frame (wpE (defs₀ (F := F)) 𝒱₀ c none) E (cc2__mm_kernel i M0 h0 M1 h1 M2 h2 M3 h3 M4 h4 M5 h5 Ms hs) Q := by
  iintro ⟨H0, H1, H2, H3, H4, H5, Hs, Hk⟩
  simp only [cc2__mm_kernel_eq_skeleton]; unfold cc2__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid2.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k2_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k2_pay3 (k2_pay2 X0 X1 Xs) X3 X4) ∗ pt c Ms (k2_pay2 X0 X1 Xs)) -∗ Q ⟨⟩))
    ⊢ wp frame (wpE (defs₀ (F := F)) 𝒱₀ c none) E (cc2__mm_kernel i M0 h0 M1 h1 M2 h2 M3 h3 M4 h4 M5 h5 Ms hs) Q := by
  iintro ⟨H0, H1, H2, H3, H4, H5, Hs, Hk⟩
  simp only [cc2__mm_kernel_eq_skeleton]; unfold cc2__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid2.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k2_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k2_pay3 (k2_pay2 X0 X1 (k2_pay1 (F := F))) X3 X4) ∗ pt c Ms (k2_pay2 X0 X1 (k2_pay1 (F := F)))) -∗ Q ⟨⟩))
    ⊢ wp frame (wpE (defs₀ (F := F)) 𝒱₀ c none) E (cc2__mm_kernel i M0 h0 M1 h1 M2 h2 M3 h3 M4 h4 M5 h5 Ms hs) Q := by
  iintro ⟨H0, H1, H2, H3, H4, H5, Hs, Hk⟩
  simp only [cc2__mm_kernel_eq_skeleton]; unfold cc2__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid2.Coords) (X0 : SA.Idx → Elt F .bf16) (X1 : SB.Idx → Elt F .bf16) (Xs : SO.Idx → Elt F .f32) :
    SO.Idx → Elt F .f32 :=
  k2_pay2 X0 X1 (if cond1 i = 1#1 then k2_pay1 (F := F) else Xs)

/-- What the output's staging buffer holds after the body at coordinates `i`. -/
abbrev outOut (i : grid2.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k2_cond2 i = 1#1 then k2_pay3 (accOut i X0 X1 Xs) X3 X4 else X5

/-- The kernel body at any coordinates: the four runs, by cases on its two conditions; the contents it leaves named by
    the caller (`A'`, `O'`). -/
theorem kernelRun (𝒱₀ : Variants) (c : Dev nD) (i : grid2.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc2__mm_kernel i M0 h0 M1 h1 M2 h2 M3 h3 M4 h4 M5 h5 Ms hs) Q := by
  subst hA hO
  unfold outOut accOut
  by_cases hc1 : cond1 i = 1#1 <;> by_cases hc2 : k2_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid2.N, cond1 (grid2.coords t) = 1#1 ↔ t.val % nk = 0 := by decide +kernel
theorem cond2_iff : ∀ t : Fin grid2.N, k2_cond2 (grid2.coords t) = 1#1 ↔ t.val % nk = kl := by decide +kernel

variable (V Vp : Dev nD → Valuation τ sig (Elt F))

/-- The windowed arrays at the region's entry. -/
abbrev A0 (c : Dev nD) (w : Fin cfg2.W) : Buf (Elt F) ((cfg2.win w).arr.view.loc (c : Thread nD τ)) := V c (Pipeline.arrRef spec2 w)

/-- What an input window's staging buffer holds when the body runs at point `t`: the window's block of its array there. -/
def inBlk (c : Dev nD) (w : Fin cfg2.W) (t : Fin cfg2.N) : (cfg2.win w).block.Idx → Elt F (cfg2.win w).elt :=
  (cfg2.win w).fill (cfg2.grid.coords t) (fun _ => Classical.arbitrary _) (((cfg2.win w).blk t).view.read (Elt F) (A0 V c w))

/-- The accumulator AFTER point `n`: the product of the point's two blocks added to zero at the first point of a reduction
    run (`n % nk = 0`), to what the point before left elsewhere. -/
def acc (c : Dev nD) : (n : ℕ) → n < cfg2.N → SO.Idx → Elt F .f32
  | 0, h => k2_pay2 (inBlk V c 0 ⟨0, h⟩) (inBlk V c 1 ⟨0, h⟩) (k2_pay1 (F := F))
  | n + 1, h => k2_pay2 (inBlk V c 0 ⟨n + 1, h⟩) (inBlk V c 1 ⟨n + 1, h⟩)
      (if (n + 1) % nk = 0 then k2_pay1 (F := F) else acc c n (Nat.lt_of_succ_lt h))

/-- The invariant before point `n`: the scratch accumulator at what the point before left (nothing is said where the
    body resets it), and every other scoped buffer the pipeline does not stage at something. -/
def Φ0 (c : Dev nD) (n : Fin (cfg2.N + 1)) : sProp 𝕄 :=
  iprop((∃ X : SO.Idx → Elt F .f32, ⌜∀ h : n.val - 1 < cfg2.N, n.val % nk ≠ 0 → X = acc V c (n.val - 1) h⌝ ∗ pt c (Memref.whole cc2_scratch0) X)
    ∗ Pipeline.scopedRestBut (Ix := Ix) (Name := ℕ) (U := U) (Lvl := Lvl) (Val := Elt F) spec2 c [cc2_scratch0])

/-- The proof data on core `c`, from the entry valuation `V`. -/
def dat (c : Dev nD) : Pipeline.Dat τ (Elt F) Ix ℕ U Lvl cfg2 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k2_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg2.W) (hw : (cfg2.win w).isOut = false) (hlive : ∀ i, cfg2.idle w i = false)
    (hclip : ∀ (i : cfg2.grid.Coords) a, (cfg2.win w).clip i a = none)
    (hafter : ∀ t, (dat' V c).after w t = inBlk V c w t)
    (t : Fin cfg2.N) (d : (cfg2.win w).block.Idx → Elt F (cfg2.win w).elt) :
    (dat' V c).before w t d = inBlk V c w t := by
  rw [(dat V c).before_in_eq_fetched w hw hlive (fun t t' _ => funext fun a => (hclip _ a).trans (hclip _ a).symm)
    (fun t => by rw [hafter]; exact (cfg2.win w).cut_fill _ _ _) t d,
    (dat V c).fetched_of_clip_none w t (hclip _) d (fun _ => Classical.arbitrary _)]
  rfl

theorem before0 (c : Dev nD) (t : Fin cfg2.N) (d) : (dat' V c).before 0 t d = inBlk V c 0 t :=
  before_in V c 0 rfl (fun _ => rfl) (fun _ _ => rfl) (fun _ => rfl) t d
theorem before1 (c : Dev nD) (t : Fin cfg2.N) (d) : (dat' V c).before 1 t d = inBlk V c 1 t :=
  before_in V c 1 rfl (fun _ => rfl) (fun _ _ => rfl) (fun _ => rfl) t d
theorem before2 (c : Dev nD) (t : Fin cfg2.N) (d) : (dat' V c).before 2 t d = inBlk V c 2 t :=
  before_in V c 2 rfl (fun _ => rfl) (fun _ _ => rfl) (fun _ => rfl) t d
theorem before3 (c : Dev nD) (t : Fin cfg2.N) (d) : (dat' V c).before 3 t d = inBlk V c 3 t :=
  before_in V c 3 rfl (fun _ => rfl) (fun _ _ => rfl) (fun _ => rfl) t d
theorem before4 (c : Dev nD) (t : Fin cfg2.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg2.N) (Xs : SO.Idx → Elt F .f32)
    (hXs : ∀ h : t.val - 1 < cfg2.N, t.val % nk ≠ 0 → Xs = acc V c (t.val - 1) h) :
    accOut (grid2.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k2_pay2 _ _ (if (n + 1) % nk = 0 then _ else _)
      rw [if_pos hm]
    · rw [if_neg (fun h => hm ((cond1_iff ⟨n + 1, hn⟩).mp h)), hXs (Nat.lt_of_succ_lt hn) hm]
      show _ = k2_pay2 _ _ (if (n + 1) % nk = 0 then _ else _)
      rw [if_neg hm]
      rfl

/-- The output window is idle exactly where the second condition fails, and written back exactly where it holds. -/
theorem idle5_of (t : Fin cfg2.N) (h : k2_cond2 (grid2.coords t) = 1#1) : cfg2.idle 5 (cfg2.grid.coords t) = false := by
  show (!(k2_cond2 (grid2.coords t) == 1#1)) = false
  rw [h]; rfl
theorem idle5_of_not (t : Fin cfg2.N) (h : ¬ k2_cond2 (grid2.coords t) = 1#1) : cfg2.idle 5 (cfg2.grid.coords t) = true := by
  show (!(k2_cond2 (grid2.coords t) == 1#1)) = true
  rw [Bool.not_eq_true', beq_eq_false_iff_ne]; exact h
theorem flush5_of_not (t : Fin cfg2.N) (h : ¬ k2_cond2 (grid2.coords t) = 1#1) : (cfg2.win 5).flush t = false :=
  Bool.eq_false_iff.mpr fun hf => h ((cond2_iff t).mpr ((flush2_5 t).mp hf))

theorem idleIn0 (i : cfg2.grid.Coords) : cfg2.idle 0 i = false := rfl
theorem idleIn1 (i : cfg2.grid.Coords) : cfg2.idle 1 i = false := rfl
theorem idleIn2 (i : cfg2.grid.Coords) : cfg2.idle 2 i = false := rfl
theorem idleIn3 (i : cfg2.grid.Coords) : cfg2.idle 3 i = false := rfl
theorem idleIn4 (i : cfg2.grid.Coords) : cfg2.idle 4 i = false := rfl
theorem after0 (c : Dev nD) (t : Fin cfg2.N) : (dat' V c).after 0 t = inBlk V c 0 t := rfl
theorem after1 (c : Dev nD) (t : Fin cfg2.N) : (dat' V c).after 1 t = inBlk V c 1 t := rfl
theorem after2 (c : Dev nD) (t : Fin cfg2.N) : (dat' V c).after 2 t = inBlk V c 2 t := rfl
theorem after3 (c : Dev nD) (t : Fin cfg2.N) : (dat' V c).after 3 t = inBlk V c 3 t := rfl
theorem after4 (c : Dev nD) (t : Fin cfg2.N) : (dat' V c).after 4 t = inBlk V c 4 t := rfl
theorem after5 (c : Dev nD) (t : Fin cfg2.N) :
    (dat' V c).after 5 t = k2_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W2, bigSep_W2]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k2_cond2 (grid2.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid2.coords t) (inBlk V c 0 t) (inBlk V c 1 t) (inBlk V c 3 t) (inBlk V c 4 t) ((dat' V c).before 5 t d5) Xs
        = k2_pay3 (acc V c t.val t.isLt) (inBlk V c 3 t) (inBlk V c 4 t) := by
      unfold outOut; rw [if_pos hc2, acc_step V c t Xs hXs]
    iapply (kernelRun 𝒱₀ c (grid2.coords t)
      (win2_0.stage (cfg2.slots t 0)) (hstage2_0 ((cfg2.slots t 0).cast nbuf2_0))
      (win2_1.stage (cfg2.slots t 1)) (hstage2_1 ((cfg2.slots t 1).cast nbuf2_1))
      (win2_2.stage (cfg2.slots t 2)) (hstage2_2 ((cfg2.slots t 2).cast nbuf2_2))
      (win2_3.stage (cfg2.slots t 3)) (hstage2_3 ((cfg2.slots t 3).cast nbuf2_3))
      (win2_4.stage (cfg2.slots t 4)) (hstage2_4 ((cfg2.slots t 4).cast nbuf2_4))
      (win2_5.stage (cfg2.slots t 5)) (hstage2_5 ((cfg2.slots t 5).cast nbuf2_5))
      (Memref.whole cc2_scratch0) (Memref.isWhole_whole _)
      (inBlk V c 0 t) (inBlk V c 1 t) (inBlk V c 2 t) (inBlk V c 3 t)
      (inBlk V c 4 t) ((dat' V c).before 5 t d5) Xs (acc V c t.val t.isLt) (k2_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid2.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid2.coords t)
      (win2_0.stage (cfg2.slots t 0)) (hstage2_0 ((cfg2.slots t 0).cast nbuf2_0))
      (win2_1.stage (cfg2.slots t 1)) (hstage2_1 ((cfg2.slots t 1).cast nbuf2_1))
      (win2_2.stage (cfg2.slots t 2)) (hstage2_2 ((cfg2.slots t 2).cast nbuf2_2))
      (win2_3.stage (cfg2.slots t 3)) (hstage2_3 ((cfg2.slots t 3).cast nbuf2_3))
      (win2_4.stage (cfg2.slots t 4)) (hstage2_4 ((cfg2.slots t 4).cast nbuf2_4))
      (win2_5.stage (cfg2.slots t 5)) (hstage2_5 ((cfg2.slots t 5).cast nbuf2_5))
      (Memref.whole cc2_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc2_scratch0) X : sProp 𝕄)
      = iprop(∃ f : Buf (Elt F) ((c : Thread nD τ).loc cc2_scratch0), ⌜f = X⌝ ∗ (((c : Thread nD τ).loc cc2_scratch0) ↦{fullShare} f)) :=
  (owns_eq_rep (c : Thread nD τ) (Memref.whole cc2_scratch0) fullShare X).symm.trans (owns_whole_eq (c : Thread nD τ) cc2_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec2 c) ⊢ Φ0 V c 0 := by
  rw [scopedRest2_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg2.N) ⊢ iprop(BI.emp ∗ BI.emp ∗ Pipeline.scopedRest (Ix := Ix) (Name := ℕ) (U := U) (Lvl := Lvl) (Val := Elt F) spec2 c) := by
  rw [scopedRest2_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg2.W) (hw : w ≠ 5) : (cfg2.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg2.N) (hne : ∀ c (b : Ref sig .tc), b ≠ vOUT → Vp c b = V c b) :
    Pipeline.RegionSeg (pcfgs (F := F)) adm pd ι defs₀ 𝒱₀ L lv RK where
  win := launch2.win.to₀
  block_pos := launch2.block_pos
  stage_whole := launch2.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec2 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch2.win launch2.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch2.win
      launch2.arr_whole c pd ((pd RK c).share_full fun _ => by rw [hpd c]; rfl) (fun b => V c b) (fun b => Vp c b)
      ((pd RK c).arrAt · cfg2.N)
      (fun w => by
        rw [hpd c]
        by_cases hw : w = 5
        · subst hw; exact (hout c).symm
        · exact ((dat' V c).arrAt_in w (isOut_of_ne w hw) _).trans
            (hne c _ fun h => hw (launch2.win.arr_inj (h.trans (rfl : vOUT = Pipeline.arrRef spec2 5)))).symm)
      (fun b hb => hne c b fun h => hb (Finset.mem_image.mpr ⟨5, Finset.mem_univ _, (rfl : Pipeline.arrRef spec2 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Region2
end
-- ==== Proof.K.Region3.lean ====
/-
  Region 3 of @main: a matrix product on the grid (4, 1). The reduction axis has ONE tile, so at every grid point the
  body resets its accumulator, adds the point's product to it and writes the scaled, biased result to the output block:
  nothing is carried from point to point. Stated once, for any float family.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

set_option maxRecDepth 16384

noncomputable section

namespace Cert.Kernel.Region3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions: both hold at every point (the second grid coordinate is always 0) -/

/-- The condition of the first `scf.if` (reset the accumulator), from the grid coordinates. -/
abbrev cond1 (i : grid3.Coords) : Prop :=
  (Scalar.cmpi .ne (Scalar.extui (Scalar.cmpi .eq (BitVec.ofNat 32 (i 1).val) 0#32)) 0#32) = 1#1

theorem hcond1 : ∀ t : Fin cfg3.N, cond1 (grid3.coords t) :=
  (by decide +kernel : ∀ t : Fin grid3.N, cond1 (grid3.coords t))
theorem hcond2 : ∀ t : Fin cfg3.N, k3_cond2 (grid3.coords t) = 1#1 :=
  (by decide +kernel : ∀ t : Fin grid3.N, k3_cond2 (grid3.coords t) = 1#1)

/-! ## The body on any whole staging memrefs -/

theorem off0 : (![0, 0] : Fin 2 → ℕ) = fun _ => 0 := by funext a; fin_cases a <;> rfl

/-- A load of a whole buffer through the whole-shape rectangle reads its contents. -/
theorem readAt_whole {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [View.readAt_eq_ld, h.read_unread]; exact View.ld_unit_zero hz inb X

set_option maxHeartbeats 1000000 in
/-- From the two operand blocks, the row scale and the bias row in their buffers, the output buffer and the accumulator
    at anything: the body leaves the inputs as they were, the accumulator at something, and in the output buffer
    `(0 + A · B) * scale + bias`. -/
theorem kernelRun (𝒱₀ : Variants) (c : Dev nD) (i : grid3.Coords)
    (arg2 : Memref sig .tc .vmem S1024x256 .bf16) (harg2 : arg2.IsWhole) (arg3 : Memref sig .tc .vmem S256x256 .bf16) (harg3 : arg3.IsWhole)
    (arg4 : Memref sig .tc .vmem S256x1 .f32) (harg4 : arg4.IsWhole) (arg5 : Memref sig .tc .vmem S1024x1 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole) (hc1 : cond1 i) (hc2 : k3_cond2 i = 1#1)
    (xA : Vec F S1024x256 .bf16) (xB : Vec F S256x256 .bf16) (xs : Vec F S1024x1 .f32) (xb : Vec F S1x256 .f32)
    (E : Set ℕ) (K : PUnit → sProp 𝕄) :
    iprop(owns (c : Thread nD τ) arg2 fullShare xA ∗ owns (c : Thread nD τ) arg3 fullShare xB
        ∗ owns (c : Thread nD τ) arg5 fullShare xs ∗ owns (c : Thread nD τ) arg6 fullShare xb
        ∗ (∃ d, owns (c : Thread nD τ) arg7 fullShare d) ∗ (∃ d, owns (c : Thread nD τ) arg8 fullShare d)
        ∗ (iprop(owns (c : Thread nD τ) arg2 fullShare xA ∗ owns (c : Thread nD τ) arg3 fullShare xB
            ∗ owns (c : Thread nD τ) arg5 fullShare xs ∗ owns (c : Thread nD τ) arg6 fullShare xb
            ∗ owns (c : Thread nD τ) arg7 fullShare (k3_pay3 (k3_pay2 xA xB (k3_pay1 (F := F))) xs xb)
            ∗ (∃ d, owns (c : Thread nD τ) arg8 fullShare d)) -∗ K ⟨⟩))
      ⊢ wp frame (wpE (defs₀ (F := F)) 𝒱₀ c none) E (cc3__mm_kernel i arg2 harg2 arg3 harg3 arg4 harg4 arg5 harg5 arg6 harg6 arg7 harg7 arg8 harg8) K := by
  simp only [cc3__mm_kernel_eq_skeleton]; unfold cc3__mm_kernel_skel
  unfold owns
  iintro ⟨⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg2.eq_unread hf2
  obtain rfl := harg3.eq_unread hf3
  obtain rfl := harg5.eq_unread hf5
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    rw [View.read_writes_eq_canon _ _ _ (fun y => ⟨_, List.mem_singleton_self _, View.mem_set_unit_zero off0 inb_S1024x256_S1024x256_0_0 y⟩),
      View.canon_unit_zero off0, readAt_whole _ harg5 xs off0, readAt_whole _ harg6 xb off0]
    unfold kernelRun.sl.v16 kernelRun.sl.H8_2
    rw [View.readCov_cons_toLoadRect, readAt_whole _ harg2 xA off0, readAt_whole _ harg3 xB off0]
    unfold kernelRun.sl.v7 kernelRun.sl.H8_1
    rw [View.readCov_cons_toLoadRect]
  iexists _, _; isplitr; swap; · iexact H8
  ipureintro; rfl

/-! ## The proof data -/

variable (V Vp : Dev nD → Valuation τ sig (Elt F))

/-- Window `w`'s block at point `t`, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator between points: at some contents (every point resets it before reading it), beside the other scoped
    buffers, unopened. -/
def Φc (c : Dev nD) : sProp 𝕄 :=
  iprop((∃ f : Buf (Elt F) ((c : Thread nD τ).loc cc3_scratch0), ((c : Thread nD τ).loc cc3_scratch0) ↦{fullShare} f)
    ∗ Pipeline.scopedRestBut (Ix := Ix) (Name := ℕ) (U := U) (Lvl := Lvl) (Val := Elt F) spec3 c [cc3_scratch0])

/-- The proof data on core `c`: the arrays as the region finds them; after the body at point `t` each input's buffer at
    its block, the output's at `(0 + A_t · B) * scale_t + bias`; nothing owed; full shares. -/
def dat (c : Dev nD) : Dat τ (Elt F) Ix ℕ U Lvl cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k3_pay3 (k3_pay2 (blk V c 0 t) (blk V c 1 t) (k3_pay1 (F := F))) (blk V c 3 t) (blk V c 4 t)
  Φ _ := Φc c
  q _ := fullShare
  owed _ := 0

theorem A_eq (c : Dev nD) (w : Fin cfg3.W) : (dat (Ix := Ix) (U := U) (Lvl := Lvl) V c).A w = V c (Pipeline.arrRef spec3 w) := by
  dsimp only [dat]

theorem after_0 (c : Dev nD) (t : Fin cfg3.N) : (dat (Ix := Ix) (U := U) (Lvl := Lvl) V c).after 0 t = blk V c 0 t := by dsimp only [dat]
theorem after_1 (c : Dev nD) (t : Fin cfg3.N) : (dat (Ix := Ix) (U := U) (Lvl := Lvl) V c).after 1 t = blk V c 1 t := by dsimp only [dat]
theorem after_2 (c : Dev nD) (t : Fin cfg3.N) : (dat (Ix := Ix) (U := U) (Lvl := Lvl) V c).after 2 t = blk V c 2 t := by dsimp only [dat]
theorem after_3 (c : Dev nD) (t : Fin cfg3.N) : (dat (Ix := Ix) (U := U) (Lvl := Lvl) V c).after 3 t = blk V c 3 t := by dsimp only [dat]
theorem after_4 (c : Dev nD) (t : Fin cfg3.N) : (dat (Ix := Ix) (U := U) (Lvl := Lvl) V c).after 4 t = blk V c 4 t := by dsimp only [dat]
theorem after_5 (c : Dev nD) (t : Fin cfg3.N) : (dat (Ix := Ix) (U := U) (Lvl := Lvl) V c).after 5 t
    = k3_pay3 (k3_pay2 (blk V c 0 t) (blk V c 1 t) (k3_pay1 (F := F))) (blk V c 3 t) (blk V c 4 t) := by dsimp only [dat]

/-- An input window's current staging buffer holds its block at every point, fetched there or not: unfetched, the block
    index has not moved, and the body left the block in place. -/
theorem before_0 (c : Dev nD) (t : Fin cfg3.N) (d) : (dat (Ix := Ix) (U := U) (Lvl := Lvl) V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg3.N) (d) : (dat (Ix := Ix) (U := U) (Lvl := Lvl) V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg3.N) (d) : (dat (Ix := Ix) (U := U) (Lvl := Lvl) V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg3.N) (d) : (dat (Ix := Ix) (U := U) (Lvl := Lvl) V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg3.N) (d) : (dat (Ix := Ix) (U := U) (Lvl := Lvl) V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body obligation -/

/-- Each window's current staging memref at point `t`, spelled as the pipeline passes it to the body. -/
abbrev ms_0 (t : Fin cfg3.N) : Memref sig .tc .vmem S1024x256 .bf16 := win3_0.stage (cfg3.slots t 0)
abbrev ms_1 (t : Fin cfg3.N) : Memref sig .tc .vmem S256x256 .bf16 := win3_1.stage (cfg3.slots t 1)
abbrev ms_2 (t : Fin cfg3.N) : Memref sig .tc .vmem S256x1 .f32 := win3_2.stage (cfg3.slots t 2)
abbrev ms_3 (t : Fin cfg3.N) : Memref sig .tc .vmem S1024x1 .f32 := win3_3.stage (cfg3.slots t 3)
abbrev ms_4 (t : Fin cfg3.N) : Memref sig .tc .vmem S1x256 .f32 := win3_4.stage (cfg3.slots t 4)
abbrev ms_5 (t : Fin cfg3.N) : Memref sig .tc .vmem S1024x256 .f32 := win3_5.stage (cfg3.slots t 5)

/-- What the body is called with at point `t`, the windows one by one, -/
def bodyPre (ι : Ix) (c : Dev nD) (t : Fin cfg3.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms_0 t) fullShare ((dat (Ix := Ix) (U := U) (Lvl := Lvl) V c).before 0 t d))
    ∗ (∃ d, owns (c : Thread nD τ) (ms_1 t) fullShare ((dat (Ix := Ix) (U := U) (Lvl := Lvl) V c).before 1 t d))
    ∗ (∃ d, owns (c : Thread nD τ) (ms_2 t) fullShare ((dat (Ix := Ix) (U := U) (Lvl := Lvl) V c).before 2 t d))
    ∗ (∃ d, owns (c : Thread nD τ) (ms_3 t) fullShare ((dat (Ix := Ix) (U := U) (Lvl := Lvl) V c).before 3 t d))
    ∗ (∃ d, owns (c : Thread nD τ) (ms_4 t) fullShare ((dat (Ix := Ix) (U := U) (Lvl := Lvl) V c).before 4 t d))
    ∗ (∃ d, owns (c : Thread nD τ) (ms_5 t) fullShare ((dat (Ix := Ix) (U := U) (Lvl := Lvl) V c).before 5 t d)))

/-- and what it returns. -/
def bodyPost (ι : Ix) (c : Dev nD) (t : Fin cfg3.N) : sProp 𝕄 :=
  iprop((dat (Ix := Ix) (U := U) (Lvl := Lvl) V c).Φ t.succ ∗ (dat (Ix := Ix) (U := U) (Lvl := Lvl) V c).owesAt ι t.succ
    ∗ owns (c : Thread nD τ) (ms_0 t) fullShare ((dat (Ix := Ix) (U := U) (Lvl := Lvl) V c).after 0 t)
    ∗ owns (c : Thread nD τ) (ms_1 t) fullShare ((dat (Ix := Ix) (U := U) (Lvl := Lvl) V c).after 1 t)
    ∗ owns (c : Thread nD τ) (ms_2 t) fullShare ((dat (Ix := Ix) (U := U) (Lvl := Lvl) V c).after 2 t)
    ∗ owns (c : Thread nD τ) (ms_3 t) fullShare ((dat (Ix := Ix) (U := U) (Lvl := Lvl) V c).after 3 t)
    ∗ owns (c : Thread nD τ) (ms_4 t) fullShare ((dat (Ix := Ix) (U := U) (Lvl := Lvl) V c).after 4 t)
    ∗ owns (c : Thread nD τ) (ms_5 t) fullShare ((dat (Ix := Ix) (U := U) (Lvl := Lvl) V c).after 5 t))

set_option maxHeartbeats 800000 in
/-- The body at any point: the inputs' buffers hold their blocks, both conditions hold, so the run applies; the
    accumulator is handed over at anything and taken back at anything; the core owes nothing throughout. -/
theorem sound_body (ι : Ix) (𝒱₀ : Variants) (c : Dev nD) (t : Fin cfg3.N) :
    bodyPre (U := U) (Lvl := Lvl) V ι c t ⊢ wp frame (wpE (defs₀ (F := F)) 𝒱₀ c none) Set.univ (bodyAt3 t) (fun _ => bodyPost (U := U) (Lvl := Lvl) V ι c t) := by
  unfold bodyPre bodyPost bodyAt3
  simp only [before_0, before_1, before_2, before_3, before_4]
  rw [show (dat V c).Φ t.succ = Φc c from rfl, show (dat V c).Φ t.castSucc = Φc c from rfl,
    show (dat V c).owesAt ι t.succ = (dat V c).owesAt ι t.castSucc from rfl,
    after_0, after_1, after_2, after_3, after_4, after_5]
  unfold Φc
  iintro ⟨⟨⟨%fs, Hs⟩, Hr⟩, Ho, ⟨%d0, H0⟩, ⟨%d1, H1⟩, ⟨%d2, H2⟩, ⟨%d3, H3⟩, ⟨%d4, H4⟩, ⟨%d5, H5⟩⟩
  iapply (kernelRun 𝒱₀ c (grid3.coords t) _ _ _ _ _ _ _ _ _ _ _ _ _ _ (hcond1 t) (hcond2 t)
    (blk V c 0 t) (blk V c 1 t) (blk V c 3 t) (blk V c 4 t) Set.univ _)
  isplitl [H0]; · iexact H0
  isplitl [H1]; · iexact H1
  isplitl [H3]; · iexact H3
  isplitl [H4]; · iexact H4
  isplitl [H5]; · iexists _; iexact H5
  isplitl [Hs]; · iexists fs; iapply (Entails.of_eq (owns_whole (c : Thread nD τ) cc3_scratch0 fullShare fs).symm); iexact Hs
  iintro ⟨H0, H1, H3, H4, H5, ⟨%ds, Hs⟩⟩
  isplitl [Hs Hr]
  · isplitl [Hs]; · iexists ds; iapply (Entails.of_eq (owns_whole (c : Thread nD τ) cc3_scratch0 fullShare ds)); iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-- The output window is live at every point: its condition holds there. -/
theorem idle_5 (t : Fin cfg3.N) : cfg3.idle 5 (cfg3.grid.coords t) = false := by
  show (!(k3_cond2 (grid3.coords t) == 1#1)) = false
  rw [hcond2 t]; rfl

set_option maxRecDepth 65536 in
/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W3, bigSep_W3]
  refine (sound_body V ι 𝒱₀ c t).trans (wp_mono _ _ _ fun _ => ?_)
  unfold bodyPost
  refine sep_mono .rfl (sep_mono .rfl (sep_mono .rfl (sep_mono .rfl (sep_mono .rfl (sep_mono .rfl (sep_mono .rfl ?_))))))
  rw [idle_5 t]

/-! ## The region, between the valuations of the core's unscoped buffers before and after it -/

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final (c : Dev nD) (hout : ∀ c, Vp c main_v75 = (dat (Ix := Ix) (U := U) (Lvl := Lvl) V c).arrAt 5 cfg3.N)
    (hne : ∀ c (b : Ref sig .tc), b ≠ main_v75 → Vp c b = V c b) :
    ∀ w : Fin cfg3.W, (dat (Ix := Ix) (U := U) (Lvl := Lvl) V c).arrAt w cfg3.N = Vp c (Pipeline.arrRef spec3 w)
  | ⟨0, _⟩ => ((dat V c).arrAt_in 0 rfl _).trans (hne c _ (ref_ne (by decide))).symm
  | ⟨1, _⟩ => ((dat V c).arrAt_in 1 rfl _).trans (hne c _ (ref_ne (by decide))).symm
  | ⟨2, _⟩ => ((dat V c).arrAt_in 2 rfl _).trans (hne c _ (ref_ne (by decide))).symm
  | ⟨3, _⟩ => ((dat V c).arrAt_in 3 rfl _).trans (hne c _ (ref_ne (by decide))).symm
  | ⟨4, _⟩ => ((dat V c).arrAt_in 4 rfl _).trans (hne c _ (ref_ne (by decide))).symm
  | ⟨5, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION: entered holding every unscoped buffer at `V c`, left holding them at `Vp c`, which has the output array at
    what the write-backs left and every other buffer as it was. The windows' arrays go into the pipeline, the other
    unscoped buffers pass by, the accumulator and the other scoped buffers make the invariant; the kernel has no
    semaphore of its own. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 3 c = dat V c)
    (hout : ∀ c, Vp c main_v75 = (dat (Ix := Ix) (U := U) (Lvl := Lvl) V c).arrAt 5 cfg3.N)
    (hne : ∀ c (b : Ref sig .tc), b ≠ main_v75 → Vp c b = V c b) :
    Pipeline.RegionSeg (pcfgs (F := F)) adm pd ι defs₀ 𝒱₀ L lv 3 where
  win := launch3.win.to₀
  block_pos := launch3.block_pos
  stage_whole := launch3.stage_whole
  K := PEmpty
  osem := fun k => k.elim
  ho := Pipeline.OwnSemFacts.none _
  hbody c := by rw [hpd]; exact (body_obligation V ι 𝒱₀ c).loose
  hwaits := Pipeline.hwaits_of_owed_zero _ _ _ _ L lv 3 fun c _ => by rw [hpd]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec3 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 3) launch3.win launch3.arr_whole c
      (by rw [hpd]; exact (dat V c).share_full fun _ => rfl) (fun b => V c b) (by rw [hpd]; exact fun _ => rfl)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [hpd, show (dat V c).Φ 0 = Φc c from rfl]; unfold Φc
    rw [show Pipeline.scopedRest (Pipeline.pin (pcfgs (F := F)) adm 3).spec c = _ from scopedRest3_split c]
    iintro ⟨-, -, Hr⟩
    iexact Hr
  hout c := by
    rw [hpd, Pipeline.ownSems0_none, show (dat V c).Φ (Fin.last (Pipeline.pin (pcfgs (F := F)) adm 3).N) = Φc c from rfl]; unfold Φc
    rw [show Pipeline.scopedRest (Pipeline.pin (pcfgs (F := F)) adm 3).spec c = _ from scopedRest3_split c]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 3) launch3.win launch3.arr_whole c pd
      (by rw [hpd]; exact (dat V c).share_full fun _ => rfl) (fun b => V c b) (fun b => Vp c b)
      (fun w => (pd 3 c).arrAt w (Pipeline.pin (pcfgs (F := F)) adm 3).N)
      (fun w => by rw [hpd]; exact arrAt_final V Vp c hout hne w)
      (fun b hb => hne c b fun e => hb (e ▸ Finset.mem_image_of_mem _ (Finset.mem_univ (5 : Fin 6))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      icases HO with ⟨%W, -, HO⟩; iexists W; iexact HO

end Cert.Kernel.Region3

end
-- ==== Proof.K.Region4.lean ====
/-
  REGION 4 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.Kernel.Region4

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 4
abbrev kl : ℕ := 3
/-- The output array, and the region's place among the program's pipelines. -/
abbrev vOUT : Ref sig .tc := main_v84
abbrev RK : Fin 17 := 4

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid4.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid4.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k4_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k4_pay2 X0 X1 (k4_pay1 (F := F)))) -∗ Q ⟨⟩))
    ⊢ wp frame (wpE (defs₀ (F := F)) 𝒱₀ c none) E (cc4__mm_kernel i M0 h0 M1 h1 M2 h2 M3 h3 M4 h4 M5 h5 Ms hs) Q := by
  iintro ⟨H0, H1, H2, H3, H4, H5, Hs, Hk⟩
  simp only [cc4__mm_kernel_eq_skeleton]; unfold cc4__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid4.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k4_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k4_pay2 X0 X1 Xs)) -∗ Q ⟨⟩))
    ⊢ wp frame (wpE (defs₀ (F := F)) 𝒱₀ c none) E (cc4__mm_kernel i M0 h0 M1 h1 M2 h2 M3 h3 M4 h4 M5 h5 Ms hs) Q := by
  iintro ⟨H0, H1, H2, H3, H4, H5, Hs, Hk⟩
  simp only [cc4__mm_kernel_eq_skeleton]; unfold cc4__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid4.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k4_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k4_pay3 (k4_pay2 X0 X1 Xs) X3 X4) ∗ pt c Ms (k4_pay2 X0 X1 Xs)) -∗ Q ⟨⟩))
    ⊢ wp frame (wpE (defs₀ (F := F)) 𝒱₀ c none) E (cc4__mm_kernel i M0 h0 M1 h1 M2 h2 M3 h3 M4 h4 M5 h5 Ms hs) Q := by
  iintro ⟨H0, H1, H2, H3, H4, H5, Hs, Hk⟩
  simp only [cc4__mm_kernel_eq_skeleton]; unfold cc4__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid4.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k4_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k4_pay3 (k4_pay2 X0 X1 (k4_pay1 (F := F))) X3 X4) ∗ pt c Ms (k4_pay2 X0 X1 (k4_pay1 (F := F)))) -∗ Q ⟨⟩))
    ⊢ wp frame (wpE (defs₀ (F := F)) 𝒱₀ c none) E (cc4__mm_kernel i M0 h0 M1 h1 M2 h2 M3 h3 M4 h4 M5 h5 Ms hs) Q := by
  iintro ⟨H0, H1, H2, H3, H4, H5, Hs, Hk⟩
  simp only [cc4__mm_kernel_eq_skeleton]; unfold cc4__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid4.Coords) (X0 : SA.Idx → Elt F .bf16) (X1 : SB.Idx → Elt F .bf16) (Xs : SO.Idx → Elt F .f32) :
    SO.Idx → Elt F .f32 :=
  k4_pay2 X0 X1 (if cond1 i = 1#1 then k4_pay1 (F := F) else Xs)

/-- What the output's staging buffer holds after the body at coordinates `i`. -/
abbrev outOut (i : grid4.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k4_cond2 i = 1#1 then k4_pay3 (accOut i X0 X1 Xs) X3 X4 else X5

/-- The kernel body at any coordinates: the four runs, by cases on its two conditions; the contents it leaves named by
    the caller (`A'`, `O'`). -/
theorem kernelRun (𝒱₀ : Variants) (c : Dev nD) (i : grid4.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc4__mm_kernel i M0 h0 M1 h1 M2 h2 M3 h3 M4 h4 M5 h5 Ms hs) Q := by
  subst hA hO
  unfold outOut accOut
  by_cases hc1 : cond1 i = 1#1 <;> by_cases hc2 : k4_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid4.N, cond1 (grid4.coords t) = 1#1 ↔ t.val % nk = 0 := by decide +kernel
theorem cond2_iff : ∀ t : Fin grid4.N, k4_cond2 (grid4.coords t) = 1#1 ↔ t.val % nk = kl := by decide +kernel

variable (V Vp : Dev nD → Valuation τ sig (Elt F))

/-- The windowed arrays at the region's entry. -/
abbrev A0 (c : Dev nD) (w : Fin cfg4.W) : Buf (Elt F) ((cfg4.win w).arr.view.loc (c : Thread nD τ)) := V c (Pipeline.arrRef spec4 w)

/-- What an input window's staging buffer holds when the body runs at point `t`: the window's block of its array there. -/
def inBlk (c : Dev nD) (w : Fin cfg4.W) (t : Fin cfg4.N) : (cfg4.win w).block.Idx → Elt F (cfg4.win w).elt :=
  (cfg4.win w).fill (cfg4.grid.coords t) (fun _ => Classical.arbitrary _) (((cfg4.win w).blk t).view.read (Elt F) (A0 V c w))

/-- The accumulator AFTER point `n`: the product of the point's two blocks added to zero at the first point of a reduction
    run (`n % nk = 0`), to what the point before left elsewhere. -/
def acc (c : Dev nD) : (n : ℕ) → n < cfg4.N → SO.Idx → Elt F .f32
  | 0, h => k4_pay2 (inBlk V c 0 ⟨0, h⟩) (inBlk V c 1 ⟨0, h⟩) (k4_pay1 (F := F))
  | n + 1, h => k4_pay2 (inBlk V c 0 ⟨n + 1, h⟩) (inBlk V c 1 ⟨n + 1, h⟩)
      (if (n + 1) % nk = 0 then k4_pay1 (F := F) else acc c n (Nat.lt_of_succ_lt h))

/-- The invariant before point `n`: the scratch accumulator at what the point before left (nothing is said where the
    body resets it), and every other scoped buffer the pipeline does not stage at something. -/
def Φ0 (c : Dev nD) (n : Fin (cfg4.N + 1)) : sProp 𝕄 :=
  iprop((∃ X : SO.Idx → Elt F .f32, ⌜∀ h : n.val - 1 < cfg4.N, n.val % nk ≠ 0 → X = acc V c (n.val - 1) h⌝ ∗ pt c (Memref.whole cc4_scratch0) X)
    ∗ Pipeline.scopedRestBut (Ix := Ix) (Name := ℕ) (U := U) (Lvl := Lvl) (Val := Elt F) spec4 c [cc4_scratch0])

/-- The proof data on core `c`, from the entry valuation `V`. -/
def dat (c : Dev nD) : Pipeline.Dat τ (Elt F) Ix ℕ U Lvl cfg4 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k4_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg4.W) (hw : (cfg4.win w).isOut = false) (hlive : ∀ i, cfg4.idle w i = false)
    (hclip : ∀ (i : cfg4.grid.Coords) a, (cfg4.win w).clip i a = none)
    (hafter : ∀ t, (dat' V c).after w t = inBlk V c w t)
    (t : Fin cfg4.N) (d : (cfg4.win w).block.Idx → Elt F (cfg4.win w).elt) :
    (dat' V c).before w t d = inBlk V c w t := by
  rw [(dat V c).before_in_eq_fetched w hw hlive (fun t t' _ => funext fun a => (hclip _ a).trans (hclip _ a).symm)
    (fun t => by rw [hafter]; exact (cfg4.win w).cut_fill _ _ _) t d,
    (dat V c).fetched_of_clip_none w t (hclip _) d (fun _ => Classical.arbitrary _)]
  rfl

theorem before0 (c : Dev nD) (t : Fin cfg4.N) (d) : (dat' V c).before 0 t d = inBlk V c 0 t :=
  before_in V c 0 rfl (fun _ => rfl) (fun _ _ => rfl) (fun _ => rfl) t d
theorem before1 (c : Dev nD) (t : Fin cfg4.N) (d) : (dat' V c).before 1 t d = inBlk V c 1 t :=
  before_in V c 1 rfl (fun _ => rfl) (fun _ _ => rfl) (fun _ => rfl) t d
theorem before2 (c : Dev nD) (t : Fin cfg4.N) (d) : (dat' V c).before 2 t d = inBlk V c 2 t :=
  before_in V c 2 rfl (fun _ => rfl) (fun _ _ => rfl) (fun _ => rfl) t d
theorem before3 (c : Dev nD) (t : Fin cfg4.N) (d) : (dat' V c).before 3 t d = inBlk V c 3 t :=
  before_in V c 3 rfl (fun _ => rfl) (fun _ _ => rfl) (fun _ => rfl) t d
theorem before4 (c : Dev nD) (t : Fin cfg4.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg4.N) (Xs : SO.Idx → Elt F .f32)
    (hXs : ∀ h : t.val - 1 < cfg4.N, t.val % nk ≠ 0 → Xs = acc V c (t.val - 1) h) :
    accOut (grid4.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k4_pay2 _ _ (if (n + 1) % nk = 0 then _ else _)
      rw [if_pos hm]
    · rw [if_neg (fun h => hm ((cond1_iff ⟨n + 1, hn⟩).mp h)), hXs (Nat.lt_of_succ_lt hn) hm]
      show _ = k4_pay2 _ _ (if (n + 1) % nk = 0 then _ else _)
      rw [if_neg hm]
      rfl

/-- The output window is idle exactly where the second condition fails, and written back exactly where it holds. -/
theorem idle5_of (t : Fin cfg4.N) (h : k4_cond2 (grid4.coords t) = 1#1) : cfg4.idle 5 (cfg4.grid.coords t) = false := by
  show (!(k4_cond2 (grid4.coords t) == 1#1)) = false
  rw [h]; rfl
theorem idle5_of_not (t : Fin cfg4.N) (h : ¬ k4_cond2 (grid4.coords t) = 1#1) : cfg4.idle 5 (cfg4.grid.coords t) = true := by
  show (!(k4_cond2 (grid4.coords t) == 1#1)) = true
  rw [Bool.not_eq_true', beq_eq_false_iff_ne]; exact h
theorem flush5_of_not (t : Fin cfg4.N) (h : ¬ k4_cond2 (grid4.coords t) = 1#1) : (cfg4.win 5).flush t = false :=
  Bool.eq_false_iff.mpr fun hf => h ((cond2_iff t).mpr ((flush4_5 t).mp hf))

theorem idleIn0 (i : cfg4.grid.Coords) : cfg4.idle 0 i = false := rfl
theorem idleIn1 (i : cfg4.grid.Coords) : cfg4.idle 1 i = false := rfl
theorem idleIn2 (i : cfg4.grid.Coords) : cfg4.idle 2 i = false := rfl
theorem idleIn3 (i : cfg4.grid.Coords) : cfg4.idle 3 i = false := rfl
theorem idleIn4 (i : cfg4.grid.Coords) : cfg4.idle 4 i = false := rfl
theorem after0 (c : Dev nD) (t : Fin cfg4.N) : (dat' V c).after 0 t = inBlk V c 0 t := rfl
theorem after1 (c : Dev nD) (t : Fin cfg4.N) : (dat' V c).after 1 t = inBlk V c 1 t := rfl
theorem after2 (c : Dev nD) (t : Fin cfg4.N) : (dat' V c).after 2 t = inBlk V c 2 t := rfl
theorem after3 (c : Dev nD) (t : Fin cfg4.N) : (dat' V c).after 3 t = inBlk V c 3 t := rfl
theorem after4 (c : Dev nD) (t : Fin cfg4.N) : (dat' V c).after 4 t = inBlk V c 4 t := rfl
theorem after5 (c : Dev nD) (t : Fin cfg4.N) :
    (dat' V c).after 5 t = k4_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W4, bigSep_W4]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k4_cond2 (grid4.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid4.coords t) (inBlk V c 0 t) (inBlk V c 1 t) (inBlk V c 3 t) (inBlk V c 4 t) ((dat' V c).before 5 t d5) Xs
        = k4_pay3 (acc V c t.val t.isLt) (inBlk V c 3 t) (inBlk V c 4 t) := by
      unfold outOut; rw [if_pos hc2, acc_step V c t Xs hXs]
    iapply (kernelRun 𝒱₀ c (grid4.coords t)
      (win4_0.stage (cfg4.slots t 0)) (hstage4_0 ((cfg4.slots t 0).cast nbuf4_0))
      (win4_1.stage (cfg4.slots t 1)) (hstage4_1 ((cfg4.slots t 1).cast nbuf4_1))
      (win4_2.stage (cfg4.slots t 2)) (hstage4_2 ((cfg4.slots t 2).cast nbuf4_2))
      (win4_3.stage (cfg4.slots t 3)) (hstage4_3 ((cfg4.slots t 3).cast nbuf4_3))
      (win4_4.stage (cfg4.slots t 4)) (hstage4_4 ((cfg4.slots t 4).cast nbuf4_4))
      (win4_5.stage (cfg4.slots t 5)) (hstage4_5 ((cfg4.slots t 5).cast nbuf4_5))
      (Memref.whole cc4_scratch0) (Memref.isWhole_whole _)
      (inBlk V c 0 t) (inBlk V c 1 t) (inBlk V c 2 t) (inBlk V c 3 t)
      (inBlk V c 4 t) ((dat' V c).before 5 t d5) Xs (acc V c t.val t.isLt) (k4_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid4.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid4.coords t)
      (win4_0.stage (cfg4.slots t 0)) (hstage4_0 ((cfg4.slots t 0).cast nbuf4_0))
      (win4_1.stage (cfg4.slots t 1)) (hstage4_1 ((cfg4.slots t 1).cast nbuf4_1))
      (win4_2.stage (cfg4.slots t 2)) (hstage4_2 ((cfg4.slots t 2).cast nbuf4_2))
      (win4_3.stage (cfg4.slots t 3)) (hstage4_3 ((cfg4.slots t 3).cast nbuf4_3))
      (win4_4.stage (cfg4.slots t 4)) (hstage4_4 ((cfg4.slots t 4).cast nbuf4_4))
      (win4_5.stage (cfg4.slots t 5)) (hstage4_5 ((cfg4.slots t 5).cast nbuf4_5))
      (Memref.whole cc4_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc4_scratch0) X : sProp 𝕄)
      = iprop(∃ f : Buf (Elt F) ((c : Thread nD τ).loc cc4_scratch0), ⌜f = X⌝ ∗ (((c : Thread nD τ).loc cc4_scratch0) ↦{fullShare} f)) :=
  (owns_eq_rep (c : Thread nD τ) (Memref.whole cc4_scratch0) fullShare X).symm.trans (owns_whole_eq (c : Thread nD τ) cc4_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec4 c) ⊢ Φ0 V c 0 := by
  rw [scopedRest4_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg4.N) ⊢ iprop(BI.emp ∗ BI.emp ∗ Pipeline.scopedRest (Ix := Ix) (Name := ℕ) (U := U) (Lvl := Lvl) (Val := Elt F) spec4 c) := by
  rw [scopedRest4_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg4.W) (hw : w ≠ 5) : (cfg4.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg4.N) (hne : ∀ c (b : Ref sig .tc), b ≠ vOUT → Vp c b = V c b) :
    Pipeline.RegionSeg (pcfgs (F := F)) adm pd ι defs₀ 𝒱₀ L lv RK where
  win := launch4.win.to₀
  block_pos := launch4.block_pos
  stage_whole := launch4.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec4 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch4.win launch4.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch4.win
      launch4.arr_whole c pd ((pd RK c).share_full fun _ => by rw [hpd c]; rfl) (fun b => V c b) (fun b => Vp c b)
      ((pd RK c).arrAt · cfg4.N)
      (fun w => by
        rw [hpd c]
        by_cases hw : w = 5
        · subst hw; exact (hout c).symm
        · exact ((dat' V c).arrAt_in w (isOut_of_ne w hw) _).trans
            (hne c _ fun h => hw (launch4.win.arr_inj (h.trans (rfl : vOUT = Pipeline.arrRef spec4 5)))).symm)
      (fun b hb => hne c b fun h => hb (Finset.mem_image.mpr ⟨5, Finset.mem_univ _, (rfl : Pipeline.arrRef spec4 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Region4
end
-- ==== Proof.K.Region5.lean ====
/-
  REGION 5 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.Kernel.Region5

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 2
abbrev kl : ℕ := 1
/-- The output array, and the region's place among the program's pipelines. -/
abbrev vOUT : Ref sig .tc := main_v92
abbrev RK : Fin 17 := 5

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid5.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid5.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k5_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k5_pay2 X0 X1 (k5_pay1 (F := F)))) -∗ Q ⟨⟩))
    ⊢ wp frame (wpE (defs₀ (F := F)) 𝒱₀ c none) E (cc5__mm_kernel i M0 h0 M1 h1 M2 h2 M3 h3 M4 h4 M5 h5 Ms hs) Q := by
  iintro ⟨H0, H1, H2, H3, H4, H5, Hs, Hk⟩
  simp only [cc5__mm_kernel_eq_skeleton]; unfold cc5__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid5.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k5_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k5_pay2 X0 X1 Xs)) -∗ Q ⟨⟩))
    ⊢ wp frame (wpE (defs₀ (F := F)) 𝒱₀ c none) E (cc5__mm_kernel i M0 h0 M1 h1 M2 h2 M3 h3 M4 h4 M5 h5 Ms hs) Q := by
  iintro ⟨H0, H1, H2, H3, H4, H5, Hs, Hk⟩
  simp only [cc5__mm_kernel_eq_skeleton]; unfold cc5__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid5.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k5_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k5_pay3 (k5_pay2 X0 X1 Xs) X3 X4) ∗ pt c Ms (k5_pay2 X0 X1 Xs)) -∗ Q ⟨⟩))
    ⊢ wp frame (wpE (defs₀ (F := F)) 𝒱₀ c none) E (cc5__mm_kernel i M0 h0 M1 h1 M2 h2 M3 h3 M4 h4 M5 h5 Ms hs) Q := by
  iintro ⟨H0, H1, H2, H3, H4, H5, Hs, Hk⟩
  simp only [cc5__mm_kernel_eq_skeleton]; unfold cc5__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid5.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k5_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k5_pay3 (k5_pay2 X0 X1 (k5_pay1 (F := F))) X3 X4) ∗ pt c Ms (k5_pay2 X0 X1 (k5_pay1 (F := F)))) -∗ Q ⟨⟩))
    ⊢ wp frame (wpE (defs₀ (F := F)) 𝒱₀ c none) E (cc5__mm_kernel i M0 h0 M1 h1 M2 h2 M3 h3 M4 h4 M5 h5 Ms hs) Q := by
  iintro ⟨H0, H1, H2, H3, H4, H5, Hs, Hk⟩
  simp only [cc5__mm_kernel_eq_skeleton]; unfold cc5__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid5.Coords) (X0 : SA.Idx → Elt F .bf16) (X1 : SB.Idx → Elt F .bf16) (Xs : SO.Idx → Elt F .f32) :
    SO.Idx → Elt F .f32 :=
  k5_pay2 X0 X1 (if cond1 i = 1#1 then k5_pay1 (F := F) else Xs)

/-- What the output's staging buffer holds after the body at coordinates `i`. -/
abbrev outOut (i : grid5.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k5_cond2 i = 1#1 then k5_pay3 (accOut i X0 X1 Xs) X3 X4 else X5

/-- The kernel body at any coordinates: the four runs, by cases on its two conditions; the contents it leaves named by
    the caller (`A'`, `O'`). -/
theorem kernelRun (𝒱₀ : Variants) (c : Dev nD) (i : grid5.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc5__mm_kernel i M0 h0 M1 h1 M2 h2 M3 h3 M4 h4 M5 h5 Ms hs) Q := by
  subst hA hO
  unfold outOut accOut
  by_cases hc1 : cond1 i = 1#1 <;> by_cases hc2 : k5_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid5.N, cond1 (grid5.coords t) = 1#1 ↔ t.val % nk = 0 := by decide +kernel
theorem cond2_iff : ∀ t : Fin grid5.N, k5_cond2 (grid5.coords t) = 1#1 ↔ t.val % nk = kl := by decide +kernel

variable (V Vp : Dev nD → Valuation τ sig (Elt F))

/-- The windowed arrays at the region's entry. -/
abbrev A0 (c : Dev nD) (w : Fin cfg5.W) : Buf (Elt F) ((cfg5.win w).arr.view.loc (c : Thread nD τ)) := V c (Pipeline.arrRef spec5 w)

/-- What an input window's staging buffer holds when the body runs at point `t`: the window's block of its array there. -/
def inBlk (c : Dev nD) (w : Fin cfg5.W) (t : Fin cfg5.N) : (cfg5.win w).block.Idx → Elt F (cfg5.win w).elt :=
  (cfg5.win w).fill (cfg5.grid.coords t) (fun _ => Classical.arbitrary _) (((cfg5.win w).blk t).view.read (Elt F) (A0 V c w))

/-- The accumulator AFTER point `n`: the product of the point's two blocks added to zero at the first point of a reduction
    run (`n % nk = 0`), to what the point before left elsewhere. -/
def acc (c : Dev nD) : (n : ℕ) → n < cfg5.N → SO.Idx → Elt F .f32
  | 0, h => k5_pay2 (inBlk V c 0 ⟨0, h⟩) (inBlk V c 1 ⟨0, h⟩) (k5_pay1 (F := F))
  | n + 1, h => k5_pay2 (inBlk V c 0 ⟨n + 1, h⟩) (inBlk V c 1 ⟨n + 1, h⟩)
      (if (n + 1) % nk = 0 then k5_pay1 (F := F) else acc c n (Nat.lt_of_succ_lt h))

/-- The invariant before point `n`: the scratch accumulator at what the point before left (nothing is said where the
    body resets it), and every other scoped buffer the pipeline does not stage at something. -/
def Φ0 (c : Dev nD) (n : Fin (cfg5.N + 1)) : sProp 𝕄 :=
  iprop((∃ X : SO.Idx → Elt F .f32, ⌜∀ h : n.val - 1 < cfg5.N, n.val % nk ≠ 0 → X = acc V c (n.val - 1) h⌝ ∗ pt c (Memref.whole cc5_scratch0) X)
    ∗ Pipeline.scopedRestBut (Ix := Ix) (Name := ℕ) (U := U) (Lvl := Lvl) (Val := Elt F) spec5 c [cc5_scratch0])

/-- The proof data on core `c`, from the entry valuation `V`. -/
def dat (c : Dev nD) : Pipeline.Dat τ (Elt F) Ix ℕ U Lvl cfg5 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k5_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg5.W) (hw : (cfg5.win w).isOut = false) (hlive : ∀ i, cfg5.idle w i = false)
    (hclip : ∀ (i : cfg5.grid.Coords) a, (cfg5.win w).clip i a = none)
    (hafter : ∀ t, (dat' V c).after w t = inBlk V c w t)
    (t : Fin cfg5.N) (d : (cfg5.win w).block.Idx → Elt F (cfg5.win w).elt) :
    (dat' V c).before w t d = inBlk V c w t := by
  rw [(dat V c).before_in_eq_fetched w hw hlive (fun t t' _ => funext fun a => (hclip _ a).trans (hclip _ a).symm)
    (fun t => by rw [hafter]; exact (cfg5.win w).cut_fill _ _ _) t d,
    (dat V c).fetched_of_clip_none w t (hclip _) d (fun _ => Classical.arbitrary _)]
  rfl

theorem before0 (c : Dev nD) (t : Fin cfg5.N) (d) : (dat' V c).before 0 t d = inBlk V c 0 t :=
  before_in V c 0 rfl (fun _ => rfl) (fun _ _ => rfl) (fun _ => rfl) t d
theorem before1 (c : Dev nD) (t : Fin cfg5.N) (d) : (dat' V c).before 1 t d = inBlk V c 1 t :=
  before_in V c 1 rfl (fun _ => rfl) (fun _ _ => rfl) (fun _ => rfl) t d
theorem before2 (c : Dev nD) (t : Fin cfg5.N) (d) : (dat' V c).before 2 t d = inBlk V c 2 t :=
  before_in V c 2 rfl (fun _ => rfl) (fun _ _ => rfl) (fun _ => rfl) t d
theorem before3 (c : Dev nD) (t : Fin cfg5.N) (d) : (dat' V c).before 3 t d = inBlk V c 3 t :=
  before_in V c 3 rfl (fun _ => rfl) (fun _ _ => rfl) (fun _ => rfl) t d
theorem before4 (c : Dev nD) (t : Fin cfg5.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg5.N) (Xs : SO.Idx → Elt F .f32)
    (hXs : ∀ h : t.val - 1 < cfg5.N, t.val % nk ≠ 0 → Xs = acc V c (t.val - 1) h) :
    accOut (grid5.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k5_pay2 _ _ (if (n + 1) % nk = 0 then _ else _)
      rw [if_pos hm]
    · rw [if_neg (fun h => hm ((cond1_iff ⟨n + 1, hn⟩).mp h)), hXs (Nat.lt_of_succ_lt hn) hm]
      show _ = k5_pay2 _ _ (if (n + 1) % nk = 0 then _ else _)
      rw [if_neg hm]
      rfl

/-- The output window is idle exactly where the second condition fails, and written back exactly where it holds. -/
theorem idle5_of (t : Fin cfg5.N) (h : k5_cond2 (grid5.coords t) = 1#1) : cfg5.idle 5 (cfg5.grid.coords t) = false := by
  show (!(k5_cond2 (grid5.coords t) == 1#1)) = false
  rw [h]; rfl
theorem idle5_of_not (t : Fin cfg5.N) (h : ¬ k5_cond2 (grid5.coords t) = 1#1) : cfg5.idle 5 (cfg5.grid.coords t) = true := by
  show (!(k5_cond2 (grid5.coords t) == 1#1)) = true
  rw [Bool.not_eq_true', beq_eq_false_iff_ne]; exact h
theorem flush5_of_not (t : Fin cfg5.N) (h : ¬ k5_cond2 (grid5.coords t) = 1#1) : (cfg5.win 5).flush t = false :=
  Bool.eq_false_iff.mpr fun hf => h ((cond2_iff t).mpr ((flush5_5 t).mp hf))

theorem idleIn0 (i : cfg5.grid.Coords) : cfg5.idle 0 i = false := rfl
theorem idleIn1 (i : cfg5.grid.Coords) : cfg5.idle 1 i = false := rfl
theorem idleIn2 (i : cfg5.grid.Coords) : cfg5.idle 2 i = false := rfl
theorem idleIn3 (i : cfg5.grid.Coords) : cfg5.idle 3 i = false := rfl
theorem idleIn4 (i : cfg5.grid.Coords) : cfg5.idle 4 i = false := rfl
theorem after0 (c : Dev nD) (t : Fin cfg5.N) : (dat' V c).after 0 t = inBlk V c 0 t := rfl
theorem after1 (c : Dev nD) (t : Fin cfg5.N) : (dat' V c).after 1 t = inBlk V c 1 t := rfl
theorem after2 (c : Dev nD) (t : Fin cfg5.N) : (dat' V c).after 2 t = inBlk V c 2 t := rfl
theorem after3 (c : Dev nD) (t : Fin cfg5.N) : (dat' V c).after 3 t = inBlk V c 3 t := rfl
theorem after4 (c : Dev nD) (t : Fin cfg5.N) : (dat' V c).after 4 t = inBlk V c 4 t := rfl
theorem after5 (c : Dev nD) (t : Fin cfg5.N) :
    (dat' V c).after 5 t = k5_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W5, bigSep_W5]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k5_cond2 (grid5.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid5.coords t) (inBlk V c 0 t) (inBlk V c 1 t) (inBlk V c 3 t) (inBlk V c 4 t) ((dat' V c).before 5 t d5) Xs
        = k5_pay3 (acc V c t.val t.isLt) (inBlk V c 3 t) (inBlk V c 4 t) := by
      unfold outOut; rw [if_pos hc2, acc_step V c t Xs hXs]
    iapply (kernelRun 𝒱₀ c (grid5.coords t)
      (win5_0.stage (cfg5.slots t 0)) (hstage5_0 ((cfg5.slots t 0).cast nbuf5_0))
      (win5_1.stage (cfg5.slots t 1)) (hstage5_1 ((cfg5.slots t 1).cast nbuf5_1))
      (win5_2.stage (cfg5.slots t 2)) (hstage5_2 ((cfg5.slots t 2).cast nbuf5_2))
      (win5_3.stage (cfg5.slots t 3)) (hstage5_3 ((cfg5.slots t 3).cast nbuf5_3))
      (win5_4.stage (cfg5.slots t 4)) (hstage5_4 ((cfg5.slots t 4).cast nbuf5_4))
      (win5_5.stage (cfg5.slots t 5)) (hstage5_5 ((cfg5.slots t 5).cast nbuf5_5))
      (Memref.whole cc5_scratch0) (Memref.isWhole_whole _)
      (inBlk V c 0 t) (inBlk V c 1 t) (inBlk V c 2 t) (inBlk V c 3 t)
      (inBlk V c 4 t) ((dat' V c).before 5 t d5) Xs (acc V c t.val t.isLt) (k5_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid5.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid5.coords t)
      (win5_0.stage (cfg5.slots t 0)) (hstage5_0 ((cfg5.slots t 0).cast nbuf5_0))
      (win5_1.stage (cfg5.slots t 1)) (hstage5_1 ((cfg5.slots t 1).cast nbuf5_1))
      (win5_2.stage (cfg5.slots t 2)) (hstage5_2 ((cfg5.slots t 2).cast nbuf5_2))
      (win5_3.stage (cfg5.slots t 3)) (hstage5_3 ((cfg5.slots t 3).cast nbuf5_3))
      (win5_4.stage (cfg5.slots t 4)) (hstage5_4 ((cfg5.slots t 4).cast nbuf5_4))
      (win5_5.stage (cfg5.slots t 5)) (hstage5_5 ((cfg5.slots t 5).cast nbuf5_5))
      (Memref.whole cc5_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc5_scratch0) X : sProp 𝕄)
      = iprop(∃ f : Buf (Elt F) ((c : Thread nD τ).loc cc5_scratch0), ⌜f = X⌝ ∗ (((c : Thread nD τ).loc cc5_scratch0) ↦{fullShare} f)) :=
  (owns_eq_rep (c : Thread nD τ) (Memref.whole cc5_scratch0) fullShare X).symm.trans (owns_whole_eq (c : Thread nD τ) cc5_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec5 c) ⊢ Φ0 V c 0 := by
  rw [scopedRest5_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg5.N) ⊢ iprop(BI.emp ∗ BI.emp ∗ Pipeline.scopedRest (Ix := Ix) (Name := ℕ) (U := U) (Lvl := Lvl) (Val := Elt F) spec5 c) := by
  rw [scopedRest5_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg5.W) (hw : w ≠ 5) : (cfg5.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg5.N) (hne : ∀ c (b : Ref sig .tc), b ≠ vOUT → Vp c b = V c b) :
    Pipeline.RegionSeg (pcfgs (F := F)) adm pd ι defs₀ 𝒱₀ L lv RK where
  win := launch5.win.to₀
  block_pos := launch5.block_pos
  stage_whole := launch5.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec5 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch5.win launch5.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch5.win
      launch5.arr_whole c pd ((pd RK c).share_full fun _ => by rw [hpd c]; rfl) (fun b => V c b) (fun b => Vp c b)
      ((pd RK c).arrAt · cfg5.N)
      (fun w => by
        rw [hpd c]
        by_cases hw : w = 5
        · subst hw; exact (hout c).symm
        · exact ((dat' V c).arrAt_in w (isOut_of_ne w hw) _).trans
            (hne c _ fun h => hw (launch5.win.arr_inj (h.trans (rfl : vOUT = Pipeline.arrRef spec5 5)))).symm)
      (fun b hb => hne c b fun h => hb (Finset.mem_image.mpr ⟨5, Finset.mem_univ _, (rfl : Pipeline.arrRef spec5 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Region5
end
-- ==== Proof.K.Region6.lean ====
/-
  REGION 6 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.Kernel.Region6

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 2
abbrev kl : ℕ := 1
/-- The output array, and the region's place among the program's pipelines. -/
abbrev vOUT : Ref sig .tc := main_v101
abbrev RK : Fin 17 := 6

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid6.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid6.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k6_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k6_pay2 X0 X1 (k6_pay1 (F := F)))) -∗ Q ⟨⟩))
    ⊢ wp frame (wpE (defs₀ (F := F)) 𝒱₀ c none) E (cc6__mm_kernel i M0 h0 M1 h1 M2 h2 M3 h3 M4 h4 M5 h5 Ms hs) Q := by
  iintro ⟨H0, H1, H2, H3, H4, H5, Hs, Hk⟩
  simp only [cc6__mm_kernel_eq_skeleton]; unfold cc6__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid6.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k6_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k6_pay2 X0 X1 Xs)) -∗ Q ⟨⟩))
    ⊢ wp frame (wpE (defs₀ (F := F)) 𝒱₀ c none) E (cc6__mm_kernel i M0 h0 M1 h1 M2 h2 M3 h3 M4 h4 M5 h5 Ms hs) Q := by
  iintro ⟨H0, H1, H2, H3, H4, H5, Hs, Hk⟩
  simp only [cc6__mm_kernel_eq_skeleton]; unfold cc6__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid6.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k6_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k6_pay3 (k6_pay2 X0 X1 Xs) X3 X4) ∗ pt c Ms (k6_pay2 X0 X1 Xs)) -∗ Q ⟨⟩))
    ⊢ wp frame (wpE (defs₀ (F := F)) 𝒱₀ c none) E (cc6__mm_kernel i M0 h0 M1 h1 M2 h2 M3 h3 M4 h4 M5 h5 Ms hs) Q := by
  iintro ⟨H0, H1, H2, H3, H4, H5, Hs, Hk⟩
  simp only [cc6__mm_kernel_eq_skeleton]; unfold cc6__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid6.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k6_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k6_pay3 (k6_pay2 X0 X1 (k6_pay1 (F := F))) X3 X4) ∗ pt c Ms (k6_pay2 X0 X1 (k6_pay1 (F := F)))) -∗ Q ⟨⟩))
    ⊢ wp frame (wpE (defs₀ (F := F)) 𝒱₀ c none) E (cc6__mm_kernel i M0 h0 M1 h1 M2 h2 M3 h3 M4 h4 M5 h5 Ms hs) Q := by
  iintro ⟨H0, H1, H2, H3, H4, H5, Hs, Hk⟩
  simp only [cc6__mm_kernel_eq_skeleton]; unfold cc6__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid6.Coords) (X0 : SA.Idx → Elt F .bf16) (X1 : SB.Idx → Elt F .bf16) (Xs : SO.Idx → Elt F .f32) :
    SO.Idx → Elt F .f32 :=
  k6_pay2 X0 X1 (if cond1 i = 1#1 then k6_pay1 (F := F) else Xs)

/-- What the output's staging buffer holds after the body at coordinates `i`. -/
abbrev outOut (i : grid6.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k6_cond2 i = 1#1 then k6_pay3 (accOut i X0 X1 Xs) X3 X4 else X5

/-- The kernel body at any coordinates: the four runs, by cases on its two conditions; the contents it leaves named by
    the caller (`A'`, `O'`). -/
theorem kernelRun (𝒱₀ : Variants) (c : Dev nD) (i : grid6.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc6__mm_kernel i M0 h0 M1 h1 M2 h2 M3 h3 M4 h4 M5 h5 Ms hs) Q := by
  subst hA hO
  unfold outOut accOut
  by_cases hc1 : cond1 i = 1#1 <;> by_cases hc2 : k6_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid6.N, cond1 (grid6.coords t) = 1#1 ↔ t.val % nk = 0 := by decide +kernel
theorem cond2_iff : ∀ t : Fin grid6.N, k6_cond2 (grid6.coords t) = 1#1 ↔ t.val % nk = kl := by decide +kernel

variable (V Vp : Dev nD → Valuation τ sig (Elt F))

/-- The windowed arrays at the region's entry. -/
abbrev A0 (c : Dev nD) (w : Fin cfg6.W) : Buf (Elt F) ((cfg6.win w).arr.view.loc (c : Thread nD τ)) := V c (Pipeline.arrRef spec6 w)

/-- What an input window's staging buffer holds when the body runs at point `t`: the window's block of its array there. -/
def inBlk (c : Dev nD) (w : Fin cfg6.W) (t : Fin cfg6.N) : (cfg6.win w).block.Idx → Elt F (cfg6.win w).elt :=
  (cfg6.win w).fill (cfg6.grid.coords t) (fun _ => Classical.arbitrary _) (((cfg6.win w).blk t).view.read (Elt F) (A0 V c w))

/-- The accumulator AFTER point `n`: the product of the point's two blocks added to zero at the first point of a reduction
    run (`n % nk = 0`), to what the point before left elsewhere. -/
def acc (c : Dev nD) : (n : ℕ) → n < cfg6.N → SO.Idx → Elt F .f32
  | 0, h => k6_pay2 (inBlk V c 0 ⟨0, h⟩) (inBlk V c 1 ⟨0, h⟩) (k6_pay1 (F := F))
  | n + 1, h => k6_pay2 (inBlk V c 0 ⟨n + 1, h⟩) (inBlk V c 1 ⟨n + 1, h⟩)
      (if (n + 1) % nk = 0 then k6_pay1 (F := F) else acc c n (Nat.lt_of_succ_lt h))

/-- The invariant before point `n`: the scratch accumulator at what the point before left (nothing is said where the
    body resets it), and every other scoped buffer the pipeline does not stage at something. -/
def Φ0 (c : Dev nD) (n : Fin (cfg6.N + 1)) : sProp 𝕄 :=
  iprop((∃ X : SO.Idx → Elt F .f32, ⌜∀ h : n.val - 1 < cfg6.N, n.val % nk ≠ 0 → X = acc V c (n.val - 1) h⌝ ∗ pt c (Memref.whole cc6_scratch0) X)
    ∗ Pipeline.scopedRestBut (Ix := Ix) (Name := ℕ) (U := U) (Lvl := Lvl) (Val := Elt F) spec6 c [cc6_scratch0])

/-- The proof data on core `c`, from the entry valuation `V`. -/
def dat (c : Dev nD) : Pipeline.Dat τ (Elt F) Ix ℕ U Lvl cfg6 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k6_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg6.W) (hw : (cfg6.win w).isOut = false) (hlive : ∀ i, cfg6.idle w i = false)
    (hclip : ∀ (i : cfg6.grid.Coords) a, (cfg6.win w).clip i a = none)
    (hafter : ∀ t, (dat' V c).after w t = inBlk V c w t)
    (t : Fin cfg6.N) (d : (cfg6.win w).block.Idx → Elt F (cfg6.win w).elt) :
    (dat' V c).before w t d = inBlk V c w t := by
  rw [(dat V c).before_in_eq_fetched w hw hlive (fun t t' _ => funext fun a => (hclip _ a).trans (hclip _ a).symm)
    (fun t => by rw [hafter]; exact (cfg6.win w).cut_fill _ _ _) t d,
    (dat V c).fetched_of_clip_none w t (hclip _) d (fun _ => Classical.arbitrary _)]
  rfl

theorem before0 (c : Dev nD) (t : Fin cfg6.N) (d) : (dat' V c).before 0 t d = inBlk V c 0 t :=
  before_in V c 0 rfl (fun _ => rfl) (fun _ _ => rfl) (fun _ => rfl) t d
theorem before1 (c : Dev nD) (t : Fin cfg6.N) (d) : (dat' V c).before 1 t d = inBlk V c 1 t :=
  before_in V c 1 rfl (fun _ => rfl) (fun _ _ => rfl) (fun _ => rfl) t d
theorem before2 (c : Dev nD) (t : Fin cfg6.N) (d) : (dat' V c).before 2 t d = inBlk V c 2 t :=
  before_in V c 2 rfl (fun _ => rfl) (fun _ _ => rfl) (fun _ => rfl) t d
theorem before3 (c : Dev nD) (t : Fin cfg6.N) (d) : (dat' V c).before 3 t d = inBlk V c 3 t :=
  before_in V c 3 rfl (fun _ => rfl) (fun _ _ => rfl) (fun _ => rfl) t d
theorem before4 (c : Dev nD) (t : Fin cfg6.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg6.N) (Xs : SO.Idx → Elt F .f32)
    (hXs : ∀ h : t.val - 1 < cfg6.N, t.val % nk ≠ 0 → Xs = acc V c (t.val - 1) h) :
    accOut (grid6.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k6_pay2 _ _ (if (n + 1) % nk = 0 then _ else _)
      rw [if_pos hm]
    · rw [if_neg (fun h => hm ((cond1_iff ⟨n + 1, hn⟩).mp h)), hXs (Nat.lt_of_succ_lt hn) hm]
      show _ = k6_pay2 _ _ (if (n + 1) % nk = 0 then _ else _)
      rw [if_neg hm]
      rfl

/-- The output window is idle exactly where the second condition fails, and written back exactly where it holds. -/
theorem idle5_of (t : Fin cfg6.N) (h : k6_cond2 (grid6.coords t) = 1#1) : cfg6.idle 5 (cfg6.grid.coords t) = false := by
  show (!(k6_cond2 (grid6.coords t) == 1#1)) = false
  rw [h]; rfl
theorem idle5_of_not (t : Fin cfg6.N) (h : ¬ k6_cond2 (grid6.coords t) = 1#1) : cfg6.idle 5 (cfg6.grid.coords t) = true := by
  show (!(k6_cond2 (grid6.coords t) == 1#1)) = true
  rw [Bool.not_eq_true', beq_eq_false_iff_ne]; exact h
theorem flush5_of_not (t : Fin cfg6.N) (h : ¬ k6_cond2 (grid6.coords t) = 1#1) : (cfg6.win 5).flush t = false :=
  Bool.eq_false_iff.mpr fun hf => h ((cond2_iff t).mpr ((flush6_5 t).mp hf))

theorem idleIn0 (i : cfg6.grid.Coords) : cfg6.idle 0 i = false := rfl
theorem idleIn1 (i : cfg6.grid.Coords) : cfg6.idle 1 i = false := rfl
theorem idleIn2 (i : cfg6.grid.Coords) : cfg6.idle 2 i = false := rfl
theorem idleIn3 (i : cfg6.grid.Coords) : cfg6.idle 3 i = false := rfl
theorem idleIn4 (i : cfg6.grid.Coords) : cfg6.idle 4 i = false := rfl
theorem after0 (c : Dev nD) (t : Fin cfg6.N) : (dat' V c).after 0 t = inBlk V c 0 t := rfl
theorem after1 (c : Dev nD) (t : Fin cfg6.N) : (dat' V c).after 1 t = inBlk V c 1 t := rfl
theorem after2 (c : Dev nD) (t : Fin cfg6.N) : (dat' V c).after 2 t = inBlk V c 2 t := rfl
theorem after3 (c : Dev nD) (t : Fin cfg6.N) : (dat' V c).after 3 t = inBlk V c 3 t := rfl
theorem after4 (c : Dev nD) (t : Fin cfg6.N) : (dat' V c).after 4 t = inBlk V c 4 t := rfl
theorem after5 (c : Dev nD) (t : Fin cfg6.N) :
    (dat' V c).after 5 t = k6_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W6, bigSep_W6]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k6_cond2 (grid6.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid6.coords t) (inBlk V c 0 t) (inBlk V c 1 t) (inBlk V c 3 t) (inBlk V c 4 t) ((dat' V c).before 5 t d5) Xs
        = k6_pay3 (acc V c t.val t.isLt) (inBlk V c 3 t) (inBlk V c 4 t) := by
      unfold outOut; rw [if_pos hc2, acc_step V c t Xs hXs]
    iapply (kernelRun 𝒱₀ c (grid6.coords t)
      (win6_0.stage (cfg6.slots t 0)) (hstage6_0 ((cfg6.slots t 0).cast nbuf6_0))
      (win6_1.stage (cfg6.slots t 1)) (hstage6_1 ((cfg6.slots t 1).cast nbuf6_1))
      (win6_2.stage (cfg6.slots t 2)) (hstage6_2 ((cfg6.slots t 2).cast nbuf6_2))
      (win6_3.stage (cfg6.slots t 3)) (hstage6_3 ((cfg6.slots t 3).cast nbuf6_3))
      (win6_4.stage (cfg6.slots t 4)) (hstage6_4 ((cfg6.slots t 4).cast nbuf6_4))
      (win6_5.stage (cfg6.slots t 5)) (hstage6_5 ((cfg6.slots t 5).cast nbuf6_5))
      (Memref.whole cc6_scratch0) (Memref.isWhole_whole _)
      (inBlk V c 0 t) (inBlk V c 1 t) (inBlk V c 2 t) (inBlk V c 3 t)
      (inBlk V c 4 t) ((dat' V c).before 5 t d5) Xs (acc V c t.val t.isLt) (k6_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid6.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid6.coords t)
      (win6_0.stage (cfg6.slots t 0)) (hstage6_0 ((cfg6.slots t 0).cast nbuf6_0))
      (win6_1.stage (cfg6.slots t 1)) (hstage6_1 ((cfg6.slots t 1).cast nbuf6_1))
      (win6_2.stage (cfg6.slots t 2)) (hstage6_2 ((cfg6.slots t 2).cast nbuf6_2))
      (win6_3.stage (cfg6.slots t 3)) (hstage6_3 ((cfg6.slots t 3).cast nbuf6_3))
      (win6_4.stage (cfg6.slots t 4)) (hstage6_4 ((cfg6.slots t 4).cast nbuf6_4))
      (win6_5.stage (cfg6.slots t 5)) (hstage6_5 ((cfg6.slots t 5).cast nbuf6_5))
      (Memref.whole cc6_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc6_scratch0) X : sProp 𝕄)
      = iprop(∃ f : Buf (Elt F) ((c : Thread nD τ).loc cc6_scratch0), ⌜f = X⌝ ∗ (((c : Thread nD τ).loc cc6_scratch0) ↦{fullShare} f)) :=
  (owns_eq_rep (c : Thread nD τ) (Memref.whole cc6_scratch0) fullShare X).symm.trans (owns_whole_eq (c : Thread nD τ) cc6_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec6 c) ⊢ Φ0 V c 0 := by
  rw [scopedRest6_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg6.N) ⊢ iprop(BI.emp ∗ BI.emp ∗ Pipeline.scopedRest (Ix := Ix) (Name := ℕ) (U := U) (Lvl := Lvl) (Val := Elt F) spec6 c) := by
  rw [scopedRest6_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg6.W) (hw : w ≠ 5) : (cfg6.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg6.N) (hne : ∀ c (b : Ref sig .tc), b ≠ vOUT → Vp c b = V c b) :
    Pipeline.RegionSeg (pcfgs (F := F)) adm pd ι defs₀ 𝒱₀ L lv RK where
  win := launch6.win.to₀
  block_pos := launch6.block_pos
  stage_whole := launch6.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec6 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch6.win launch6.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch6.win
      launch6.arr_whole c pd ((pd RK c).share_full fun _ => by rw [hpd c]; rfl) (fun b => V c b) (fun b => Vp c b)
      ((pd RK c).arrAt · cfg6.N)
      (fun w => by
        rw [hpd c]
        by_cases hw : w = 5
        · subst hw; exact (hout c).symm
        · exact ((dat' V c).arrAt_in w (isOut_of_ne w hw) _).trans
            (hne c _ fun h => hw (launch6.win.arr_inj (h.trans (rfl : vOUT = Pipeline.arrRef spec6 5)))).symm)
      (fun b hb => hne c b fun h => hb (Finset.mem_image.mpr ⟨5, Finset.mem_univ _, (rfl : Pipeline.arrRef spec6 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Region6
end
-- ==== Proof.K.Region7.lean ====
/-
  REGION 7 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.Kernel.Region7

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1000x1024
abbrev SB : Shape := S1024x256
abbrev SC : Shape := S1024x1
abbrev SD : Shape := S1000x1
abbrev SE : Shape := S1x256
abbrev SO : Shape := S1000x256
/-- The number of points in one reduction run, and the last of them. -/
abbrev nk : ℕ := 2
abbrev kl : ℕ := 1
/-- The output array, and the region's place among the program's pipelines. -/
abbrev vOUT : Ref sig .tc := main_v109
abbrev RK : Fin 17 := 7

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid7.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid7.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k7_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k7_pay2 X0 X1 (k7_pay1 (F := F)))) -∗ Q ⟨⟩))
    ⊢ wp frame (wpE (defs₀ (F := F)) 𝒱₀ c none) E (cc7__mm_kernel i M0 h0 M1 h1 M2 h2 M3 h3 M4 h4 M5 h5 Ms hs) Q := by
  iintro ⟨H0, H1, H2, H3, H4, H5, Hs, Hk⟩
  simp only [cc7__mm_kernel_eq_skeleton]; unfold cc7__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid7.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k7_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k7_pay2 X0 X1 Xs)) -∗ Q ⟨⟩))
    ⊢ wp frame (wpE (defs₀ (F := F)) 𝒱₀ c none) E (cc7__mm_kernel i M0 h0 M1 h1 M2 h2 M3 h3 M4 h4 M5 h5 Ms hs) Q := by
  iintro ⟨H0, H1, H2, H3, H4, H5, Hs, Hk⟩
  simp only [cc7__mm_kernel_eq_skeleton]; unfold cc7__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid7.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k7_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k7_pay3 (k7_pay2 X0 X1 Xs) X3 X4) ∗ pt c Ms (k7_pay2 X0 X1 Xs)) -∗ Q ⟨⟩))
    ⊢ wp frame (wpE (defs₀ (F := F)) 𝒱₀ c none) E (cc7__mm_kernel i M0 h0 M1 h1 M2 h2 M3 h3 M4 h4 M5 h5 Ms hs) Q := by
  iintro ⟨H0, H1, H2, H3, H4, H5, Hs, Hk⟩
  simp only [cc7__mm_kernel_eq_skeleton]; unfold cc7__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid7.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k7_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k7_pay3 (k7_pay2 X0 X1 (k7_pay1 (F := F))) X3 X4) ∗ pt c Ms (k7_pay2 X0 X1 (k7_pay1 (F := F)))) -∗ Q ⟨⟩))
    ⊢ wp frame (wpE (defs₀ (F := F)) 𝒱₀ c none) E (cc7__mm_kernel i M0 h0 M1 h1 M2 h2 M3 h3 M4 h4 M5 h5 Ms hs) Q := by
  iintro ⟨H0, H1, H2, H3, H4, H5, Hs, Hk⟩
  simp only [cc7__mm_kernel_eq_skeleton]; unfold cc7__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid7.Coords) (X0 : SA.Idx → Elt F .bf16) (X1 : SB.Idx → Elt F .bf16) (Xs : SO.Idx → Elt F .f32) :
    SO.Idx → Elt F .f32 :=
  k7_pay2 X0 X1 (if cond1 i = 1#1 then k7_pay1 (F := F) else Xs)

/-- What the output's staging buffer holds after the body at coordinates `i`. -/
abbrev outOut (i : grid7.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k7_cond2 i = 1#1 then k7_pay3 (accOut i X0 X1 Xs) X3 X4 else X5

/-- The kernel body at any coordinates: the four runs, by cases on its two conditions; the contents it leaves named by
    the caller (`A'`, `O'`). -/
theorem kernelRun (𝒱₀ : Variants) (c : Dev nD) (i : grid7.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc7__mm_kernel i M0 h0 M1 h1 M2 h2 M3 h3 M4 h4 M5 h5 Ms hs) Q := by
  subst hA hO
  unfold outOut accOut
  by_cases hc1 : cond1 i = 1#1 <;> by_cases hc2 : k7_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid7.N, cond1 (grid7.coords t) = 1#1 ↔ t.val % nk = 0 := by decide +kernel
theorem cond2_iff : ∀ t : Fin grid7.N, k7_cond2 (grid7.coords t) = 1#1 ↔ t.val % nk = kl := by decide +kernel

variable (V Vp : Dev nD → Valuation τ sig (Elt F))

/-- The windowed arrays at the region's entry. -/
abbrev A0 (c : Dev nD) (w : Fin cfg7.W) : Buf (Elt F) ((cfg7.win w).arr.view.loc (c : Thread nD τ)) := V c (Pipeline.arrRef spec7 w)

/-- What an input window's staging buffer holds when the body runs at point `t`: the window's block of its array there. -/
def inBlk (c : Dev nD) (w : Fin cfg7.W) (t : Fin cfg7.N) : (cfg7.win w).block.Idx → Elt F (cfg7.win w).elt :=
  (cfg7.win w).fill (cfg7.grid.coords t) (fun _ => Classical.arbitrary _) (((cfg7.win w).blk t).view.read (Elt F) (A0 V c w))

/-- The accumulator AFTER point `n`: the product of the point's two blocks added to zero at the first point of a reduction
    run (`n % nk = 0`), to what the point before left elsewhere. -/
def acc (c : Dev nD) : (n : ℕ) → n < cfg7.N → SO.Idx → Elt F .f32
  | 0, h => k7_pay2 (inBlk V c 0 ⟨0, h⟩) (inBlk V c 1 ⟨0, h⟩) (k7_pay1 (F := F))
  | n + 1, h => k7_pay2 (inBlk V c 0 ⟨n + 1, h⟩) (inBlk V c 1 ⟨n + 1, h⟩)
      (if (n + 1) % nk = 0 then k7_pay1 (F := F) else acc c n (Nat.lt_of_succ_lt h))

/-- The invariant before point `n`: the scratch accumulator at what the point before left (nothing is said where the
    body resets it), and every other scoped buffer the pipeline does not stage at something. -/
def Φ0 (c : Dev nD) (n : Fin (cfg7.N + 1)) : sProp 𝕄 :=
  iprop((∃ X : SO.Idx → Elt F .f32, ⌜∀ h : n.val - 1 < cfg7.N, n.val % nk ≠ 0 → X = acc V c (n.val - 1) h⌝ ∗ pt c (Memref.whole cc7_scratch0) X)
    ∗ Pipeline.scopedRestBut (Ix := Ix) (Name := ℕ) (U := U) (Lvl := Lvl) (Val := Elt F) spec7 c [cc7_scratch0])

/-- The proof data on core `c`, from the entry valuation `V`. -/
def dat (c : Dev nD) : Pipeline.Dat τ (Elt F) Ix ℕ U Lvl cfg7 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k7_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg7.W) (hw : (cfg7.win w).isOut = false) (hlive : ∀ i, cfg7.idle w i = false)
    (hclip : ∀ (i : cfg7.grid.Coords) a, (cfg7.win w).clip i a = none)
    (hafter : ∀ t, (dat' V c).after w t = inBlk V c w t)
    (t : Fin cfg7.N) (d : (cfg7.win w).block.Idx → Elt F (cfg7.win w).elt) :
    (dat' V c).before w t d = inBlk V c w t := by
  rw [(dat V c).before_in_eq_fetched w hw hlive (fun t t' _ => funext fun a => (hclip _ a).trans (hclip _ a).symm)
    (fun t => by rw [hafter]; exact (cfg7.win w).cut_fill _ _ _) t d,
    (dat V c).fetched_of_clip_none w t (hclip _) d (fun _ => Classical.arbitrary _)]
  rfl

theorem before0 (c : Dev nD) (t : Fin cfg7.N) (d) : (dat' V c).before 0 t d = inBlk V c 0 t :=
  before_in V c 0 rfl (fun _ => rfl) (fun _ _ => rfl) (fun _ => rfl) t d
theorem before1 (c : Dev nD) (t : Fin cfg7.N) (d) : (dat' V c).before 1 t d = inBlk V c 1 t :=
  before_in V c 1 rfl (fun _ => rfl) (fun _ _ => rfl) (fun _ => rfl) t d
theorem before2 (c : Dev nD) (t : Fin cfg7.N) (d) : (dat' V c).before 2 t d = inBlk V c 2 t :=
  before_in V c 2 rfl (fun _ => rfl) (fun _ _ => rfl) (fun _ => rfl) t d
theorem before3 (c : Dev nD) (t : Fin cfg7.N) (d) : (dat' V c).before 3 t d = inBlk V c 3 t :=
  before_in V c 3 rfl (fun _ => rfl) (fun _ _ => rfl) (fun _ => rfl) t d
theorem before4 (c : Dev nD) (t : Fin cfg7.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg7.N) (Xs : SO.Idx → Elt F .f32)
    (hXs : ∀ h : t.val - 1 < cfg7.N, t.val % nk ≠ 0 → Xs = acc V c (t.val - 1) h) :
    accOut (grid7.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k7_pay2 _ _ (if (n + 1) % nk = 0 then _ else _)
      rw [if_pos hm]
    · rw [if_neg (fun h => hm ((cond1_iff ⟨n + 1, hn⟩).mp h)), hXs (Nat.lt_of_succ_lt hn) hm]
      show _ = k7_pay2 _ _ (if (n + 1) % nk = 0 then _ else _)
      rw [if_neg hm]
      rfl

/-- The output window is idle exactly where the second condition fails, and written back exactly where it holds. -/
theorem idle5_of (t : Fin cfg7.N) (h : k7_cond2 (grid7.coords t) = 1#1) : cfg7.idle 5 (cfg7.grid.coords t) = false := by
  show (!(k7_cond2 (grid7.coords t) == 1#1)) = false
  rw [h]; rfl
theorem idle5_of_not (t : Fin cfg7.N) (h : ¬ k7_cond2 (grid7.coords t) = 1#1) : cfg7.idle 5 (cfg7.grid.coords t) = true := by
  show (!(k7_cond2 (grid7.coords t) == 1#1)) = true
  rw [Bool.not_eq_true', beq_eq_false_iff_ne]; exact h
theorem flush5_of_not (t : Fin cfg7.N) (h : ¬ k7_cond2 (grid7.coords t) = 1#1) : (cfg7.win 5).flush t = false :=
  Bool.eq_false_iff.mpr fun hf => h ((cond2_iff t).mpr ((flush7_5 t).mp hf))

theorem idleIn0 (i : cfg7.grid.Coords) : cfg7.idle 0 i = false := rfl
theorem idleIn1 (i : cfg7.grid.Coords) : cfg7.idle 1 i = false := rfl
theorem idleIn2 (i : cfg7.grid.Coords) : cfg7.idle 2 i = false := rfl
theorem idleIn3 (i : cfg7.grid.Coords) : cfg7.idle 3 i = false := rfl
theorem idleIn4 (i : cfg7.grid.Coords) : cfg7.idle 4 i = false := rfl
theorem after0 (c : Dev nD) (t : Fin cfg7.N) : (dat' V c).after 0 t = inBlk V c 0 t := rfl
theorem after1 (c : Dev nD) (t : Fin cfg7.N) : (dat' V c).after 1 t = inBlk V c 1 t := rfl
theorem after2 (c : Dev nD) (t : Fin cfg7.N) : (dat' V c).after 2 t = inBlk V c 2 t := rfl
theorem after3 (c : Dev nD) (t : Fin cfg7.N) : (dat' V c).after 3 t = inBlk V c 3 t := rfl
theorem after4 (c : Dev nD) (t : Fin cfg7.N) : (dat' V c).after 4 t = inBlk V c 4 t := rfl
theorem after5 (c : Dev nD) (t : Fin cfg7.N) :
    (dat' V c).after 5 t = k7_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W7, bigSep_W7]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k7_cond2 (grid7.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid7.coords t) (inBlk V c 0 t) (inBlk V c 1 t) (inBlk V c 3 t) (inBlk V c 4 t) ((dat' V c).before 5 t d5) Xs
        = k7_pay3 (acc V c t.val t.isLt) (inBlk V c 3 t) (inBlk V c 4 t) := by
      unfold outOut; rw [if_pos hc2, acc_step V c t Xs hXs]
    iapply (kernelRun 𝒱₀ c (grid7.coords t)
      (win7_0.stage (cfg7.slots t 0)) (hstage7_0 ((cfg7.slots t 0).cast nbuf7_0))
      (win7_1.stage (cfg7.slots t 1)) (hstage7_1 ((cfg7.slots t 1).cast nbuf7_1))
      (win7_2.stage (cfg7.slots t 2)) (hstage7_2 ((cfg7.slots t 2).cast nbuf7_2))
      (win7_3.stage (cfg7.slots t 3)) (hstage7_3 ((cfg7.slots t 3).cast nbuf7_3))
      (win7_4.stage (cfg7.slots t 4)) (hstage7_4 ((cfg7.slots t 4).cast nbuf7_4))
      (win7_5.stage (cfg7.slots t 5)) (hstage7_5 ((cfg7.slots t 5).cast nbuf7_5))
      (Memref.whole cc7_scratch0) (Memref.isWhole_whole _)
      (inBlk V c 0 t) (inBlk V c 1 t) (inBlk V c 2 t) (inBlk V c 3 t)
      (inBlk V c 4 t) ((dat' V c).before 5 t d5) Xs (acc V c t.val t.isLt) (k7_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid7.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid7.coords t)
      (win7_0.stage (cfg7.slots t 0)) (hstage7_0 ((cfg7.slots t 0).cast nbuf7_0))
      (win7_1.stage (cfg7.slots t 1)) (hstage7_1 ((cfg7.slots t 1).cast nbuf7_1))
      (win7_2.stage (cfg7.slots t 2)) (hstage7_2 ((cfg7.slots t 2).cast nbuf7_2))
      (win7_3.stage (cfg7.slots t 3)) (hstage7_3 ((cfg7.slots t 3).cast nbuf7_3))
      (win7_4.stage (cfg7.slots t 4)) (hstage7_4 ((cfg7.slots t 4).cast nbuf7_4))
      (win7_5.stage (cfg7.slots t 5)) (hstage7_5 ((cfg7.slots t 5).cast nbuf7_5))
      (Memref.whole cc7_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc7_scratch0) X : sProp 𝕄)
      = iprop(∃ f : Buf (Elt F) ((c : Thread nD τ).loc cc7_scratch0), ⌜f = X⌝ ∗ (((c : Thread nD τ).loc cc7_scratch0) ↦{fullShare} f)) :=
  (owns_eq_rep (c : Thread nD τ) (Memref.whole cc7_scratch0) fullShare X).symm.trans (owns_whole_eq (c : Thread nD τ) cc7_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec7 c) ⊢ Φ0 V c 0 := by
  rw [scopedRest7_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg7.N) ⊢ iprop(BI.emp ∗ BI.emp ∗ Pipeline.scopedRest (Ix := Ix) (Name := ℕ) (U := U) (Lvl := Lvl) (Val := Elt F) spec7 c) := by
  rw [scopedRest7_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg7.W) (hw : w ≠ 5) : (cfg7.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg7.N) (hne : ∀ c (b : Ref sig .tc), b ≠ vOUT → Vp c b = V c b) :
    Pipeline.RegionSeg (pcfgs (F := F)) adm pd ι defs₀ 𝒱₀ L lv RK where
  win := launch7.win.to₀
  block_pos := launch7.block_pos
  stage_whole := launch7.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec7 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch7.win launch7.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch7.win
      launch7.arr_whole c pd ((pd RK c).share_full fun _ => by rw [hpd c]; rfl) (fun b => V c b) (fun b => Vp c b)
      ((pd RK c).arrAt · cfg7.N)
      (fun w => by
        rw [hpd c]
        by_cases hw : w = 5
        · subst hw; exact (hout c).symm
        · exact ((dat' V c).arrAt_in w (isOut_of_ne w hw) _).trans
            (hne c _ fun h => hw (launch7.win.arr_inj (h.trans (rfl : vOUT = Pipeline.arrRef spec7 5)))).symm)
      (fun b hb => hne c b fun h => hb (Finset.mem_image.mpr ⟨5, Finset.mem_univ _, (rfl : Pipeline.arrRef spec7 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Region7
end
-- ==== Proof.K.Region8.lean ====
/-
  Region 8 of @main: a matrix product on the grid (2, 1). The reduction axis has ONE tile, so at every grid point the
  body resets its accumulator, adds the point's product to it and writes the scaled, biased result to the output block:
  nothing is carried from point to point. Stated once, for any float family.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

set_option maxRecDepth 16384

noncomputable section

namespace Cert.Kernel.Region8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions: both hold at every point (the second grid coordinate is always 0) -/

/-- The condition of the first `scf.if` (reset the accumulator), from the grid coordinates. -/
abbrev cond1 (i : grid8.Coords) : Prop :=
  (Scalar.cmpi .ne (Scalar.extui (Scalar.cmpi .eq (BitVec.ofNat 32 (i 1).val) 0#32)) 0#32) = 1#1

theorem hcond1 : ∀ t : Fin cfg8.N, cond1 (grid8.coords t) :=
  (by decide +kernel : ∀ t : Fin grid8.N, cond1 (grid8.coords t))
theorem hcond2 : ∀ t : Fin cfg8.N, k8_cond2 (grid8.coords t) = 1#1 :=
  (by decide +kernel : ∀ t : Fin grid8.N, k8_cond2 (grid8.coords t) = 1#1)

/-! ## The body on any whole staging memrefs -/

theorem off0 : (![0, 0] : Fin 2 → ℕ) = fun _ => 0 := by funext a; fin_cases a <;> rfl

/-- A load of a whole buffer through the whole-shape rectangle reads its contents. -/
theorem readAt_whole {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [View.readAt_eq_ld, h.read_unread]; exact View.ld_unit_zero hz inb X

set_option maxHeartbeats 1000000 in
/-- From the two operand blocks, the row scale and the bias row in their buffers, the output buffer and the accumulator
    at anything: the body leaves the inputs as they were, the accumulator at something, and in the output buffer
    `(0 + A · B) * scale + bias`. -/
theorem kernelRun (𝒱₀ : Variants) (c : Dev nD) (i : grid8.Coords)
    (arg2 : Memref sig .tc .vmem S1024x1000 .bf16) (harg2 : arg2.IsWhole) (arg3 : Memref sig .tc .vmem S1000x256 .bf16) (harg3 : arg3.IsWhole)
    (arg4 : Memref sig .tc .vmem S1000x1 .f32) (harg4 : arg4.IsWhole) (arg5 : Memref sig .tc .vmem S1024x1 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole) (hc1 : cond1 i) (hc2 : k8_cond2 i = 1#1)
    (xA : Vec F S1024x1000 .bf16) (xB : Vec F S1000x256 .bf16) (xs : Vec F S1024x1 .f32) (xb : Vec F S1x256 .f32)
    (E : Set ℕ) (K : PUnit → sProp 𝕄) :
    iprop(owns (c : Thread nD τ) arg2 fullShare xA ∗ owns (c : Thread nD τ) arg3 fullShare xB
        ∗ owns (c : Thread nD τ) arg5 fullShare xs ∗ owns (c : Thread nD τ) arg6 fullShare xb
        ∗ (∃ d, owns (c : Thread nD τ) arg7 fullShare d) ∗ (∃ d, owns (c : Thread nD τ) arg8 fullShare d)
        ∗ (iprop(owns (c : Thread nD τ) arg2 fullShare xA ∗ owns (c : Thread nD τ) arg3 fullShare xB
            ∗ owns (c : Thread nD τ) arg5 fullShare xs ∗ owns (c : Thread nD τ) arg6 fullShare xb
            ∗ owns (c : Thread nD τ) arg7 fullShare (k8_pay3 (k8_pay2 xA xB (k8_pay1 (F := F))) xs xb)
            ∗ (∃ d, owns (c : Thread nD τ) arg8 fullShare d)) -∗ K ⟨⟩))
      ⊢ wp frame (wpE (defs₀ (F := F)) 𝒱₀ c none) E (cc8__mm_kernel i arg2 harg2 arg3 harg3 arg4 harg4 arg5 harg5 arg6 harg6 arg7 harg7 arg8 harg8) K := by
  simp only [cc8__mm_kernel_eq_skeleton]; unfold cc8__mm_kernel_skel
  unfold owns
  iintro ⟨⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg2.eq_unread hf2
  obtain rfl := harg3.eq_unread hf3
  obtain rfl := harg5.eq_unread hf5
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    rw [View.read_writes_eq_canon _ _ _ (fun y => ⟨_, List.mem_singleton_self _, View.mem_set_unit_zero off0 inb_S1024x256_S1024x256_0_0 y⟩),
      View.canon_unit_zero off0, readAt_whole _ harg5 xs off0, readAt_whole _ harg6 xb off0]
    unfold kernelRun.sl.v16 kernelRun.sl.H8_2
    rw [View.readCov_cons_toLoadRect, readAt_whole _ harg2 xA off0, readAt_whole _ harg3 xB off0]
    unfold kernelRun.sl.v7 kernelRun.sl.H8_1
    rw [View.readCov_cons_toLoadRect]
  iexists _, _; isplitr; swap; · iexact H8
  ipureintro; rfl

/-! ## The proof data -/

variable (V Vp : Dev nD → Valuation τ sig (Elt F))

/-- Window `w`'s block at point `t`, read off its array as the region finds it. -/
def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The accumulator between points: at some contents (every point resets it before reading it), beside the other scoped
    buffers, unopened. -/
def Φc (c : Dev nD) : sProp 𝕄 :=
  iprop((∃ f : Buf (Elt F) ((c : Thread nD τ).loc cc8_scratch0), ((c : Thread nD τ).loc cc8_scratch0) ↦{fullShare} f)
    ∗ Pipeline.scopedRestBut (Ix := Ix) (Name := ℕ) (U := U) (Lvl := Lvl) (Val := Elt F) spec8 c [cc8_scratch0])

/-- The proof data on core `c`: the arrays as the region finds them; after the body at point `t` each input's buffer at
    its block, the output's at `(0 + A_t · B) * scale_t + bias`; nothing owed; full shares. -/
def dat (c : Dev nD) : Dat τ (Elt F) Ix ℕ U Lvl cfg8 c where
  A w := V c (Pipeline.arrRef spec8 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k8_pay3 (k8_pay2 (blk V c 0 t) (blk V c 1 t) (k8_pay1 (F := F))) (blk V c 3 t) (blk V c 4 t)
  Φ _ := Φc c
  q _ := fullShare
  owed _ := 0

theorem A_eq (c : Dev nD) (w : Fin cfg8.W) : (dat (Ix := Ix) (U := U) (Lvl := Lvl) V c).A w = V c (Pipeline.arrRef spec8 w) := by
  dsimp only [dat]

theorem after_0 (c : Dev nD) (t : Fin cfg8.N) : (dat (Ix := Ix) (U := U) (Lvl := Lvl) V c).after 0 t = blk V c 0 t := by dsimp only [dat]
theorem after_1 (c : Dev nD) (t : Fin cfg8.N) : (dat (Ix := Ix) (U := U) (Lvl := Lvl) V c).after 1 t = blk V c 1 t := by dsimp only [dat]
theorem after_2 (c : Dev nD) (t : Fin cfg8.N) : (dat (Ix := Ix) (U := U) (Lvl := Lvl) V c).after 2 t = blk V c 2 t := by dsimp only [dat]
theorem after_3 (c : Dev nD) (t : Fin cfg8.N) : (dat (Ix := Ix) (U := U) (Lvl := Lvl) V c).after 3 t = blk V c 3 t := by dsimp only [dat]
theorem after_4 (c : Dev nD) (t : Fin cfg8.N) : (dat (Ix := Ix) (U := U) (Lvl := Lvl) V c).after 4 t = blk V c 4 t := by dsimp only [dat]
theorem after_5 (c : Dev nD) (t : Fin cfg8.N) : (dat (Ix := Ix) (U := U) (Lvl := Lvl) V c).after 5 t
    = k8_pay3 (k8_pay2 (blk V c 0 t) (blk V c 1 t) (k8_pay1 (F := F))) (blk V c 3 t) (blk V c 4 t) := by dsimp only [dat]

/-- An input window's current staging buffer holds its block at every point, fetched there or not: unfetched, the block
    index has not moved, and the body left the block in place. -/
theorem before_0 (c : Dev nD) (t : Fin cfg8.N) (d) : (dat (Ix := Ix) (U := U) (Lvl := Lvl) V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg8.N) (d) : (dat (Ix := Ix) (U := U) (Lvl := Lvl) V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg8.N) (d) : (dat (Ix := Ix) (U := U) (Lvl := Lvl) V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg8.N) (d) : (dat (Ix := Ix) (U := U) (Lvl := Lvl) V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg8.N) (d) : (dat (Ix := Ix) (U := U) (Lvl := Lvl) V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body obligation -/

/-- Each window's current staging memref at point `t`, spelled as the pipeline passes it to the body. -/
abbrev ms_0 (t : Fin cfg8.N) : Memref sig .tc .vmem S1024x1000 .bf16 := win8_0.stage (cfg8.slots t 0)
abbrev ms_1 (t : Fin cfg8.N) : Memref sig .tc .vmem S1000x256 .bf16 := win8_1.stage (cfg8.slots t 1)
abbrev ms_2 (t : Fin cfg8.N) : Memref sig .tc .vmem S1000x1 .f32 := win8_2.stage (cfg8.slots t 2)
abbrev ms_3 (t : Fin cfg8.N) : Memref sig .tc .vmem S1024x1 .f32 := win8_3.stage (cfg8.slots t 3)
abbrev ms_4 (t : Fin cfg8.N) : Memref sig .tc .vmem S1x256 .f32 := win8_4.stage (cfg8.slots t 4)
abbrev ms_5 (t : Fin cfg8.N) : Memref sig .tc .vmem S1024x256 .f32 := win8_5.stage (cfg8.slots t 5)

/-- What the body is called with at point `t`, the windows one by one, -/
def bodyPre (ι : Ix) (c : Dev nD) (t : Fin cfg8.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms_0 t) fullShare ((dat (Ix := Ix) (U := U) (Lvl := Lvl) V c).before 0 t d))
    ∗ (∃ d, owns (c : Thread nD τ) (ms_1 t) fullShare ((dat (Ix := Ix) (U := U) (Lvl := Lvl) V c).before 1 t d))
    ∗ (∃ d, owns (c : Thread nD τ) (ms_2 t) fullShare ((dat (Ix := Ix) (U := U) (Lvl := Lvl) V c).before 2 t d))
    ∗ (∃ d, owns (c : Thread nD τ) (ms_3 t) fullShare ((dat (Ix := Ix) (U := U) (Lvl := Lvl) V c).before 3 t d))
    ∗ (∃ d, owns (c : Thread nD τ) (ms_4 t) fullShare ((dat (Ix := Ix) (U := U) (Lvl := Lvl) V c).before 4 t d))
    ∗ (∃ d, owns (c : Thread nD τ) (ms_5 t) fullShare ((dat (Ix := Ix) (U := U) (Lvl := Lvl) V c).before 5 t d)))

/-- and what it returns. -/
def bodyPost (ι : Ix) (c : Dev nD) (t : Fin cfg8.N) : sProp 𝕄 :=
  iprop((dat (Ix := Ix) (U := U) (Lvl := Lvl) V c).Φ t.succ ∗ (dat (Ix := Ix) (U := U) (Lvl := Lvl) V c).owesAt ι t.succ
    ∗ owns (c : Thread nD τ) (ms_0 t) fullShare ((dat (Ix := Ix) (U := U) (Lvl := Lvl) V c).after 0 t)
    ∗ owns (c : Thread nD τ) (ms_1 t) fullShare ((dat (Ix := Ix) (U := U) (Lvl := Lvl) V c).after 1 t)
    ∗ owns (c : Thread nD τ) (ms_2 t) fullShare ((dat (Ix := Ix) (U := U) (Lvl := Lvl) V c).after 2 t)
    ∗ owns (c : Thread nD τ) (ms_3 t) fullShare ((dat (Ix := Ix) (U := U) (Lvl := Lvl) V c).after 3 t)
    ∗ owns (c : Thread nD τ) (ms_4 t) fullShare ((dat (Ix := Ix) (U := U) (Lvl := Lvl) V c).after 4 t)
    ∗ owns (c : Thread nD τ) (ms_5 t) fullShare ((dat (Ix := Ix) (U := U) (Lvl := Lvl) V c).after 5 t))

set_option maxHeartbeats 800000 in
/-- The body at any point: the inputs' buffers hold their blocks, both conditions hold, so the run applies; the
    accumulator is handed over at anything and taken back at anything; the core owes nothing throughout. -/
theorem sound_body (ι : Ix) (𝒱₀ : Variants) (c : Dev nD) (t : Fin cfg8.N) :
    bodyPre (U := U) (Lvl := Lvl) V ι c t ⊢ wp frame (wpE (defs₀ (F := F)) 𝒱₀ c none) Set.univ (bodyAt8 t) (fun _ => bodyPost (U := U) (Lvl := Lvl) V ι c t) := by
  unfold bodyPre bodyPost bodyAt8
  simp only [before_0, before_1, before_2, before_3, before_4]
  rw [show (dat V c).Φ t.succ = Φc c from rfl, show (dat V c).Φ t.castSucc = Φc c from rfl,
    show (dat V c).owesAt ι t.succ = (dat V c).owesAt ι t.castSucc from rfl,
    after_0, after_1, after_2, after_3, after_4, after_5]
  unfold Φc
  iintro ⟨⟨⟨%fs, Hs⟩, Hr⟩, Ho, ⟨%d0, H0⟩, ⟨%d1, H1⟩, ⟨%d2, H2⟩, ⟨%d3, H3⟩, ⟨%d4, H4⟩, ⟨%d5, H5⟩⟩
  iapply (kernelRun 𝒱₀ c (grid8.coords t) _ _ _ _ _ _ _ _ _ _ _ _ _ _ (hcond1 t) (hcond2 t)
    (blk V c 0 t) (blk V c 1 t) (blk V c 3 t) (blk V c 4 t) Set.univ _)
  isplitl [H0]; · iexact H0
  isplitl [H1]; · iexact H1
  isplitl [H3]; · iexact H3
  isplitl [H4]; · iexact H4
  isplitl [H5]; · iexists _; iexact H5
  isplitl [Hs]; · iexists fs; iapply (Entails.of_eq (owns_whole (c : Thread nD τ) cc8_scratch0 fullShare fs).symm); iexact Hs
  iintro ⟨H0, H1, H3, H4, H5, ⟨%ds, Hs⟩⟩
  isplitl [Hs Hr]
  · isplitl [Hs]; · iexists ds; iapply (Entails.of_eq (owns_whole (c : Thread nD τ) cc8_scratch0 fullShare ds)); iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-- The output window is live at every point: its condition holds there. -/
theorem idle_5 (t : Fin cfg8.N) : cfg8.idle 5 (cfg8.grid.coords t) = false := by
  show (!(k8_cond2 (grid8.coords t) == 1#1)) = false
  rw [hcond2 t]; rfl

set_option maxRecDepth 65536 in
/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W8, bigSep_W8]
  refine (sound_body V ι 𝒱₀ c t).trans (wp_mono _ _ _ fun _ => ?_)
  unfold bodyPost
  refine sep_mono .rfl (sep_mono .rfl (sep_mono .rfl (sep_mono .rfl (sep_mono .rfl (sep_mono .rfl (sep_mono .rfl ?_))))))
  rw [idle_5 t]

/-! ## The region, between the valuations of the core's unscoped buffers before and after it -/

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final (c : Dev nD) (hout : ∀ c, Vp c main_v115 = (dat (Ix := Ix) (U := U) (Lvl := Lvl) V c).arrAt 5 cfg8.N)
    (hne : ∀ c (b : Ref sig .tc), b ≠ main_v115 → Vp c b = V c b) :
    ∀ w : Fin cfg8.W, (dat (Ix := Ix) (U := U) (Lvl := Lvl) V c).arrAt w cfg8.N = Vp c (Pipeline.arrRef spec8 w)
  | ⟨0, _⟩ => ((dat V c).arrAt_in 0 rfl _).trans (hne c _ (ref_ne (by decide))).symm
  | ⟨1, _⟩ => ((dat V c).arrAt_in 1 rfl _).trans (hne c _ (ref_ne (by decide))).symm
  | ⟨2, _⟩ => ((dat V c).arrAt_in 2 rfl _).trans (hne c _ (ref_ne (by decide))).symm
  | ⟨3, _⟩ => ((dat V c).arrAt_in 3 rfl _).trans (hne c _ (ref_ne (by decide))).symm
  | ⟨4, _⟩ => ((dat V c).arrAt_in 4 rfl _).trans (hne c _ (ref_ne (by decide))).symm
  | ⟨5, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION: entered holding every unscoped buffer at `V c`, left holding them at `Vp c`, which has the output array at
    what the write-backs left and every other buffer as it was. The windows' arrays go into the pipeline, the other
    unscoped buffers pass by, the accumulator and the other scoped buffers make the invariant; the kernel has no
    semaphore of its own. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 8 c = dat V c)
    (hout : ∀ c, Vp c main_v115 = (dat (Ix := Ix) (U := U) (Lvl := Lvl) V c).arrAt 5 cfg8.N)
    (hne : ∀ c (b : Ref sig .tc), b ≠ main_v115 → Vp c b = V c b) :
    Pipeline.RegionSeg (pcfgs (F := F)) adm pd ι defs₀ 𝒱₀ L lv 8 where
  win := launch8.win.to₀
  block_pos := launch8.block_pos
  stage_whole := launch8.stage_whole
  K := PEmpty
  osem := fun k => k.elim
  ho := Pipeline.OwnSemFacts.none _
  hbody c := by rw [hpd]; exact (body_obligation V ι 𝒱₀ c).loose
  hwaits := Pipeline.hwaits_of_owed_zero _ _ _ _ L lv 8 fun c _ => by rw [hpd]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec8 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 8) launch8.win launch8.arr_whole c
      (by rw [hpd]; exact (dat V c).share_full fun _ => rfl) (fun b => V c b) (by rw [hpd]; exact fun _ => rfl)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [hpd, show (dat V c).Φ 0 = Φc c from rfl]; unfold Φc
    rw [show Pipeline.scopedRest (Pipeline.pin (pcfgs (F := F)) adm 8).spec c = _ from scopedRest8_split c]
    iintro ⟨-, -, Hr⟩
    iexact Hr
  hout c := by
    rw [hpd, Pipeline.ownSems0_none, show (dat V c).Φ (Fin.last (Pipeline.pin (pcfgs (F := F)) adm 8).N) = Φc c from rfl]; unfold Φc
    rw [show Pipeline.scopedRest (Pipeline.pin (pcfgs (F := F)) adm 8).spec c = _ from scopedRest8_split c]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 8) launch8.win launch8.arr_whole c pd
      (by rw [hpd]; exact (dat V c).share_full fun _ => rfl) (fun b => V c b) (fun b => Vp c b)
      (fun w => (pd 8 c).arrAt w (Pipeline.pin (pcfgs (F := F)) adm 8).N)
      (fun w => by rw [hpd]; exact arrAt_final V Vp c hout hne w)
      (fun b hb => hne c b fun e => hb (e ▸ Finset.mem_image_of_mem _ (Finset.mem_univ (5 : Fin 6))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      icases HO with ⟨%W, -, HO⟩; iexists W; iexact HO

end Cert.Kernel.Region8

end
-- ==== Proof.K.Region9.lean ====
/-
  Region 9 of @main: a matrix product on the grid (2, 1). The reduction axis has ONE tile, so at every grid point the
  body resets its accumulator, adds the point's product to it and writes the scaled, biased result to the output block:
  nothing is carried from point to point. Stated once, for any float family.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

set_option maxRecDepth 16384

noncomputable section

namespace Cert.Kernel.Region9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions: both hold at every point (the second grid coordinate is always 0) -/

/-- The condition of the first `scf.if` (reset the accumulator), from the grid coordinates. -/
abbrev cond1 (i : grid9.Coords) : Prop :=
  (Scalar.cmpi .ne (Scalar.extui (Scalar.cmpi .eq (BitVec.ofNat 32 (i 1).val) 0#32)) 0#32) = 1#1

theorem hcond1 : ∀ t : Fin cfg9.N, cond1 (grid9.coords t) :=
  (by decide +kernel : ∀ t : Fin grid9.N, cond1 (grid9.coords t))
theorem hcond2 : ∀ t : Fin cfg9.N, k9_cond2 (grid9.coords t) = 1#1 :=
  (by decide +kernel : ∀ t : Fin grid9.N, k9_cond2 (grid9.coords t) = 1#1)

/-! ## The body on any whole staging memrefs -/

theorem off0 : (![0, 0] : Fin 2 → ℕ) = fun _ => 0 := by funext a; fin_cases a <;> rfl

/-- A load of a whole buffer through the whole-shape rectangle reads its contents. -/
theorem readAt_whole {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [View.readAt_eq_ld, h.read_unread]; exact View.ld_unit_zero hz inb X

set_option maxHeartbeats 1000000 in
/-- From the two operand blocks, the row scale and the bias row in their buffers, the output buffer and the accumulator
    at anything: the body leaves the inputs as they were, the accumulator at something, and in the output buffer
    `(0 + A · B) * scale + bias`. -/
theorem kernelRun (𝒱₀ : Variants) (c : Dev nD) (i : grid9.Coords)
    (arg2 : Memref sig .tc .vmem S1024x256 .bf16) (harg2 : arg2.IsWhole) (arg3 : Memref sig .tc .vmem S256x256 .bf16) (harg3 : arg3.IsWhole)
    (arg4 : Memref sig .tc .vmem S256x1 .f32) (harg4 : arg4.IsWhole) (arg5 : Memref sig .tc .vmem S1024x1 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole) (hc1 : cond1 i) (hc2 : k9_cond2 i = 1#1)
    (xA : Vec F S1024x256 .bf16) (xB : Vec F S256x256 .bf16) (xs : Vec F S1024x1 .f32) (xb : Vec F S1x256 .f32)
    (E : Set ℕ) (K : PUnit → sProp 𝕄) :
    iprop(owns (c : Thread nD τ) arg2 fullShare xA ∗ owns (c : Thread nD τ) arg3 fullShare xB
        ∗ owns (c : Thread nD τ) arg5 fullShare xs ∗ owns (c : Thread nD τ) arg6 fullShare xb
        ∗ (∃ d, owns (c : Thread nD τ) arg7 fullShare d) ∗ (∃ d, owns (c : Thread nD τ) arg8 fullShare d)
        ∗ (iprop(owns (c : Thread nD τ) arg2 fullShare xA ∗ owns (c : Thread nD τ) arg3 fullShare xB
            ∗ owns (c : Thread nD τ) arg5 fullShare xs ∗ owns (c : Thread nD τ) arg6 fullShare xb
            ∗ owns (c : Thread nD τ) arg7 fullShare (k9_pay3 (k9_pay2 xA xB (k9_pay1 (F := F))) xs xb)
            ∗ (∃ d, owns (c : Thread nD τ) arg8 fullShare d)) -∗ K ⟨⟩))
      ⊢ wp frame (wpE (defs₀ (F := F)) 𝒱₀ c none) E (cc9__mm_kernel i arg2 harg2 arg3 harg3 arg4 harg4 arg5 harg5 arg6 harg6 arg7 harg7 arg8 harg8) K := by
  simp only [cc9__mm_kernel_eq_skeleton]; unfold cc9__mm_kernel_skel
  unfold owns
  iintro ⟨⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg2.eq_unread hf2
  obtain rfl := harg3.eq_unread hf3
  obtain rfl := harg5.eq_unread hf5
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    rw [View.read_writes_eq_canon _ _ _ (fun y => ⟨_, List.mem_singleton_self _, View.mem_set_unit_zero off0 inb_S1024x256_S1024x256_0_0 y⟩),
      View.canon_unit_zero off0, readAt_whole _ harg5 xs off0, readAt_whole _ harg6 xb off0]
    unfold kernelRun.sl.v16 kernelRun.sl.H8_2
    rw [View.readCov_cons_toLoadRect, readAt_whole _ harg2 xA off0, readAt_whole _ harg3 xB off0]
    unfold kernelRun.sl.v7 kernelRun.sl.H8_1
    rw [View.readCov_cons_toLoadRect]
  iexists _, _; isplitr; swap; · iexact H8
  ipureintro; rfl

/-! ## The proof data -/

variable (V Vp : Dev nD → Valuation τ sig (Elt F))

/-- Window `w`'s block at point `t`, read off its array as the region finds it. -/
def blk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The accumulator between points: at some contents (every point resets it before reading it), beside the other scoped
    buffers, unopened. -/
def Φc (c : Dev nD) : sProp 𝕄 :=
  iprop((∃ f : Buf (Elt F) ((c : Thread nD τ).loc cc9_scratch0), ((c : Thread nD τ).loc cc9_scratch0) ↦{fullShare} f)
    ∗ Pipeline.scopedRestBut (Ix := Ix) (Name := ℕ) (U := U) (Lvl := Lvl) (Val := Elt F) spec9 c [cc9_scratch0])

/-- The proof data on core `c`: the arrays as the region finds them; after the body at point `t` each input's buffer at
    its block, the output's at `(0 + A_t · B) * scale_t + bias`; nothing owed; full shares. -/
def dat (c : Dev nD) : Dat τ (Elt F) Ix ℕ U Lvl cfg9 c where
  A w := V c (Pipeline.arrRef spec9 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k9_pay3 (k9_pay2 (blk V c 0 t) (blk V c 1 t) (k9_pay1 (F := F))) (blk V c 3 t) (blk V c 4 t)
  Φ _ := Φc c
  q _ := fullShare
  owed _ := 0

theorem A_eq (c : Dev nD) (w : Fin cfg9.W) : (dat (Ix := Ix) (U := U) (Lvl := Lvl) V c).A w = V c (Pipeline.arrRef spec9 w) := by
  dsimp only [dat]

theorem after_0 (c : Dev nD) (t : Fin cfg9.N) : (dat (Ix := Ix) (U := U) (Lvl := Lvl) V c).after 0 t = blk V c 0 t := by dsimp only [dat]
theorem after_1 (c : Dev nD) (t : Fin cfg9.N) : (dat (Ix := Ix) (U := U) (Lvl := Lvl) V c).after 1 t = blk V c 1 t := by dsimp only [dat]
theorem after_2 (c : Dev nD) (t : Fin cfg9.N) : (dat (Ix := Ix) (U := U) (Lvl := Lvl) V c).after 2 t = blk V c 2 t := by dsimp only [dat]
theorem after_3 (c : Dev nD) (t : Fin cfg9.N) : (dat (Ix := Ix) (U := U) (Lvl := Lvl) V c).after 3 t = blk V c 3 t := by dsimp only [dat]
theorem after_4 (c : Dev nD) (t : Fin cfg9.N) : (dat (Ix := Ix) (U := U) (Lvl := Lvl) V c).after 4 t = blk V c 4 t := by dsimp only [dat]
theorem after_5 (c : Dev nD) (t : Fin cfg9.N) : (dat (Ix := Ix) (U := U) (Lvl := Lvl) V c).after 5 t
    = k9_pay3 (k9_pay2 (blk V c 0 t) (blk V c 1 t) (k9_pay1 (F := F))) (blk V c 3 t) (blk V c 4 t) := by dsimp only [dat]

/-- An input window's current staging buffer holds its block at every point, fetched there or not: unfetched, the block
    index has not moved, and the body left the block in place. -/
theorem before_0 (c : Dev nD) (t : Fin cfg9.N) (d) : (dat (Ix := Ix) (U := U) (Lvl := Lvl) V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg9.N) (d) : (dat (Ix := Ix) (U := U) (Lvl := Lvl) V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg9.N) (d) : (dat (Ix := Ix) (U := U) (Lvl := Lvl) V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg9.N) (d) : (dat (Ix := Ix) (U := U) (Lvl := Lvl) V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg9.N) (d) : (dat (Ix := Ix) (U := U) (Lvl := Lvl) V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body obligation -/

/-- Each window's current staging memref at point `t`, spelled as the pipeline passes it to the body. -/
abbrev ms_0 (t : Fin cfg9.N) : Memref sig .tc .vmem S1024x256 .bf16 := win9_0.stage (cfg9.slots t 0)
abbrev ms_1 (t : Fin cfg9.N) : Memref sig .tc .vmem S256x256 .bf16 := win9_1.stage (cfg9.slots t 1)
abbrev ms_2 (t : Fin cfg9.N) : Memref sig .tc .vmem S256x1 .f32 := win9_2.stage (cfg9.slots t 2)
abbrev ms_3 (t : Fin cfg9.N) : Memref sig .tc .vmem S1024x1 .f32 := win9_3.stage (cfg9.slots t 3)
abbrev ms_4 (t : Fin cfg9.N) : Memref sig .tc .vmem S1x256 .f32 := win9_4.stage (cfg9.slots t 4)
abbrev ms_5 (t : Fin cfg9.N) : Memref sig .tc .vmem S1024x256 .f32 := win9_5.stage (cfg9.slots t 5)

/-- What the body is called with at point `t`, the windows one by one, -/
def bodyPre (ι : Ix) (c : Dev nD) (t : Fin cfg9.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms_0 t) fullShare ((dat (Ix := Ix) (U := U) (Lvl := Lvl) V c).before 0 t d))
    ∗ (∃ d, owns (c : Thread nD τ) (ms_1 t) fullShare ((dat (Ix := Ix) (U := U) (Lvl := Lvl) V c).before 1 t d))
    ∗ (∃ d, owns (c : Thread nD τ) (ms_2 t) fullShare ((dat (Ix := Ix) (U := U) (Lvl := Lvl) V c).before 2 t d))
    ∗ (∃ d, owns (c : Thread nD τ) (ms_3 t) fullShare ((dat (Ix := Ix) (U := U) (Lvl := Lvl) V c).before 3 t d))
    ∗ (∃ d, owns (c : Thread nD τ) (ms_4 t) fullShare ((dat (Ix := Ix) (U := U) (Lvl := Lvl) V c).before 4 t d))
    ∗ (∃ d, owns (c : Thread nD τ) (ms_5 t) fullShare ((dat (Ix := Ix) (U := U) (Lvl := Lvl) V c).before 5 t d)))

/-- and what it returns. -/
def bodyPost (ι : Ix) (c : Dev nD) (t : Fin cfg9.N) : sProp 𝕄 :=
  iprop((dat (Ix := Ix) (U := U) (Lvl := Lvl) V c).Φ t.succ ∗ (dat (Ix := Ix) (U := U) (Lvl := Lvl) V c).owesAt ι t.succ
    ∗ owns (c : Thread nD τ) (ms_0 t) fullShare ((dat (Ix := Ix) (U := U) (Lvl := Lvl) V c).after 0 t)
    ∗ owns (c : Thread nD τ) (ms_1 t) fullShare ((dat (Ix := Ix) (U := U) (Lvl := Lvl) V c).after 1 t)
    ∗ owns (c : Thread nD τ) (ms_2 t) fullShare ((dat (Ix := Ix) (U := U) (Lvl := Lvl) V c).after 2 t)
    ∗ owns (c : Thread nD τ) (ms_3 t) fullShare ((dat (Ix := Ix) (U := U) (Lvl := Lvl) V c).after 3 t)
    ∗ owns (c : Thread nD τ) (ms_4 t) fullShare ((dat (Ix := Ix) (U := U) (Lvl := Lvl) V c).after 4 t)
    ∗ owns (c : Thread nD τ) (ms_5 t) fullShare ((dat (Ix := Ix) (U := U) (Lvl := Lvl) V c).after 5 t))

set_option maxHeartbeats 800000 in
/-- The body at any point: the inputs' buffers hold their blocks, both conditions hold, so the run applies; the
    accumulator is handed over at anything and taken back at anything; the core owes nothing throughout. -/
theorem sound_body (ι : Ix) (𝒱₀ : Variants) (c : Dev nD) (t : Fin cfg9.N) :
    bodyPre (U := U) (Lvl := Lvl) V ι c t ⊢ wp frame (wpE (defs₀ (F := F)) 𝒱₀ c none) Set.univ (bodyAt9 t) (fun _ => bodyPost (U := U) (Lvl := Lvl) V ι c t) := by
  unfold bodyPre bodyPost bodyAt9
  simp only [before_0, before_1, before_2, before_3, before_4]
  rw [show (dat V c).Φ t.succ = Φc c from rfl, show (dat V c).Φ t.castSucc = Φc c from rfl,
    show (dat V c).owesAt ι t.succ = (dat V c).owesAt ι t.castSucc from rfl,
    after_0, after_1, after_2, after_3, after_4, after_5]
  unfold Φc
  iintro ⟨⟨⟨%fs, Hs⟩, Hr⟩, Ho, ⟨%d0, H0⟩, ⟨%d1, H1⟩, ⟨%d2, H2⟩, ⟨%d3, H3⟩, ⟨%d4, H4⟩, ⟨%d5, H5⟩⟩
  iapply (kernelRun 𝒱₀ c (grid9.coords t) _ _ _ _ _ _ _ _ _ _ _ _ _ _ (hcond1 t) (hcond2 t)
    (blk V c 0 t) (blk V c 1 t) (blk V c 3 t) (blk V c 4 t) Set.univ _)
  isplitl [H0]; · iexact H0
  isplitl [H1]; · iexact H1
  isplitl [H3]; · iexact H3
  isplitl [H4]; · iexact H4
  isplitl [H5]; · iexists _; iexact H5
  isplitl [Hs]; · iexists fs; iapply (Entails.of_eq (owns_whole (c : Thread nD τ) cc9_scratch0 fullShare fs).symm); iexact Hs
  iintro ⟨H0, H1, H3, H4, H5, ⟨%ds, Hs⟩⟩
  isplitl [Hs Hr]
  · isplitl [Hs]; · iexists ds; iapply (Entails.of_eq (owns_whole (c : Thread nD τ) cc9_scratch0 fullShare ds)); iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-- The output window is live at every point: its condition holds there. -/
theorem idle_5 (t : Fin cfg9.N) : cfg9.idle 5 (cfg9.grid.coords t) = false := by
  show (!(k9_cond2 (grid9.coords t) == 1#1)) = false
  rw [hcond2 t]; rfl

set_option maxRecDepth 65536 in
/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W9, bigSep_W9]
  refine (sound_body V ι 𝒱₀ c t).trans (wp_mono _ _ _ fun _ => ?_)
  unfold bodyPost
  refine sep_mono .rfl (sep_mono .rfl (sep_mono .rfl (sep_mono .rfl (sep_mono .rfl (sep_mono .rfl (sep_mono .rfl ?_))))))
  rw [idle_5 t]

/-! ## The region, between the valuations of the core's unscoped buffers before and after it -/

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final (c : Dev nD) (hout : ∀ c, Vp c main_v123 = (dat (Ix := Ix) (U := U) (Lvl := Lvl) V c).arrAt 5 cfg9.N)
    (hne : ∀ c (b : Ref sig .tc), b ≠ main_v123 → Vp c b = V c b) :
    ∀ w : Fin cfg9.W, (dat (Ix := Ix) (U := U) (Lvl := Lvl) V c).arrAt w cfg9.N = Vp c (Pipeline.arrRef spec9 w)
  | ⟨0, _⟩ => ((dat V c).arrAt_in 0 rfl _).trans (hne c _ (ref_ne (by decide))).symm
  | ⟨1, _⟩ => ((dat V c).arrAt_in 1 rfl _).trans (hne c _ (ref_ne (by decide))).symm
  | ⟨2, _⟩ => ((dat V c).arrAt_in 2 rfl _).trans (hne c _ (ref_ne (by decide))).symm
  | ⟨3, _⟩ => ((dat V c).arrAt_in 3 rfl _).trans (hne c _ (ref_ne (by decide))).symm
  | ⟨4, _⟩ => ((dat V c).arrAt_in 4 rfl _).trans (hne c _ (ref_ne (by decide))).symm
  | ⟨5, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION: entered holding every unscoped buffer at `V c`, left holding them at `Vp c`, which has the output array at
    what the write-backs left and every other buffer as it was. The windows' arrays go into the pipeline, the other
    unscoped buffers pass by, the accumulator and the other scoped buffers make the invariant; the kernel has no
    semaphore of its own. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 9 c = dat V c)
    (hout : ∀ c, Vp c main_v123 = (dat (Ix := Ix) (U := U) (Lvl := Lvl) V c).arrAt 5 cfg9.N)
    (hne : ∀ c (b : Ref sig .tc), b ≠ main_v123 → Vp c b = V c b) :
    Pipeline.RegionSeg (pcfgs (F := F)) adm pd ι defs₀ 𝒱₀ L lv 9 where
  win := launch9.win.to₀
  block_pos := launch9.block_pos
  stage_whole := launch9.stage_whole
  K := PEmpty
  osem := fun k => k.elim
  ho := Pipeline.OwnSemFacts.none _
  hbody c := by rw [hpd]; exact (body_obligation V ι 𝒱₀ c).loose
  hwaits := Pipeline.hwaits_of_owed_zero _ _ _ _ L lv 9 fun c _ => by rw [hpd]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec9 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 9) launch9.win launch9.arr_whole c
      (by rw [hpd]; exact (dat V c).share_full fun _ => rfl) (fun b => V c b) (by rw [hpd]; exact fun _ => rfl)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [hpd, show (dat V c).Φ 0 = Φc c from rfl]; unfold Φc
    rw [show Pipeline.scopedRest (Pipeline.pin (pcfgs (F := F)) adm 9).spec c = _ from scopedRest9_split c]
    iintro ⟨-, -, Hr⟩
    iexact Hr
  hout c := by
    rw [hpd, Pipeline.ownSems0_none, show (dat V c).Φ (Fin.last (Pipeline.pin (pcfgs (F := F)) adm 9).N) = Φc c from rfl]; unfold Φc
    rw [show Pipeline.scopedRest (Pipeline.pin (pcfgs (F := F)) adm 9).spec c = _ from scopedRest9_split c]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 9) launch9.win launch9.arr_whole c pd
      (by rw [hpd]; exact (dat V c).share_full fun _ => rfl) (fun b => V c b) (fun b => Vp c b)
      (fun w => (pd 9 c).arrAt w (Pipeline.pin (pcfgs (F := F)) adm 9).N)
      (fun w => by rw [hpd]; exact arrAt_final V Vp c hout hne w)
      (fun b hb => hne c b fun e => hb (e ▸ Finset.mem_image_of_mem _ (Finset.mem_univ (5 : Fin 6))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      icases HO with ⟨%W, -, HO⟩; iexists W; iexact HO

end Cert.Kernel.Region9

end
-- ==== Proof.K.Region10.lean ====
/-
  REGION 10 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.Kernel.Region10

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1000x1024
abbrev SB : Shape := S1024x256
abbrev SC : Shape := S1024x1
abbrev SD : Shape := S1000x1
abbrev SE : Shape := S1x256
abbrev SO : Shape := S1000x256
/-- The number of points in one reduction run, and the last of them. -/
abbrev nk : ℕ := 2
abbrev kl : ℕ := 1
/-- The output array, and the region's place among the program's pipelines. -/
abbrev vOUT : Ref sig .tc := main_v131
abbrev RK : Fin 17 := 10

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid10.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid10.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k10_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k10_pay2 X0 X1 (k10_pay1 (F := F)))) -∗ Q ⟨⟩))
    ⊢ wp frame (wpE (defs₀ (F := F)) 𝒱₀ c none) E (cc10__mm_kernel i M0 h0 M1 h1 M2 h2 M3 h3 M4 h4 M5 h5 Ms hs) Q := by
  iintro ⟨H0, H1, H2, H3, H4, H5, Hs, Hk⟩
  simp only [cc10__mm_kernel_eq_skeleton]; unfold cc10__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid10.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k10_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k10_pay2 X0 X1 Xs)) -∗ Q ⟨⟩))
    ⊢ wp frame (wpE (defs₀ (F := F)) 𝒱₀ c none) E (cc10__mm_kernel i M0 h0 M1 h1 M2 h2 M3 h3 M4 h4 M5 h5 Ms hs) Q := by
  iintro ⟨H0, H1, H2, H3, H4, H5, Hs, Hk⟩
  simp only [cc10__mm_kernel_eq_skeleton]; unfold cc10__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid10.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k10_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k10_pay3 (k10_pay2 X0 X1 Xs) X3 X4) ∗ pt c Ms (k10_pay2 X0 X1 Xs)) -∗ Q ⟨⟩))
    ⊢ wp frame (wpE (defs₀ (F := F)) 𝒱₀ c none) E (cc10__mm_kernel i M0 h0 M1 h1 M2 h2 M3 h3 M4 h4 M5 h5 Ms hs) Q := by
  iintro ⟨H0, H1, H2, H3, H4, H5, Hs, Hk⟩
  simp only [cc10__mm_kernel_eq_skeleton]; unfold cc10__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid10.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k10_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k10_pay3 (k10_pay2 X0 X1 (k10_pay1 (F := F))) X3 X4) ∗ pt c Ms (k10_pay2 X0 X1 (k10_pay1 (F := F)))) -∗ Q ⟨⟩))
    ⊢ wp frame (wpE (defs₀ (F := F)) 𝒱₀ c none) E (cc10__mm_kernel i M0 h0 M1 h1 M2 h2 M3 h3 M4 h4 M5 h5 Ms hs) Q := by
  iintro ⟨H0, H1, H2, H3, H4, H5, Hs, Hk⟩
  simp only [cc10__mm_kernel_eq_skeleton]; unfold cc10__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid10.Coords) (X0 : SA.Idx → Elt F .bf16) (X1 : SB.Idx → Elt F .bf16) (Xs : SO.Idx → Elt F .f32) :
    SO.Idx → Elt F .f32 :=
  k10_pay2 X0 X1 (if cond1 i = 1#1 then k10_pay1 (F := F) else Xs)

/-- What the output's staging buffer holds after the body at coordinates `i`. -/
abbrev outOut (i : grid10.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k10_cond2 i = 1#1 then k10_pay3 (accOut i X0 X1 Xs) X3 X4 else X5

/-- The kernel body at any coordinates: the four runs, by cases on its two conditions; the contents it leaves named by
    the caller (`A'`, `O'`). -/
theorem kernelRun (𝒱₀ : Variants) (c : Dev nD) (i : grid10.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc10__mm_kernel i M0 h0 M1 h1 M2 h2 M3 h3 M4 h4 M5 h5 Ms hs) Q := by
  subst hA hO
  unfold outOut accOut
  by_cases hc1 : cond1 i = 1#1 <;> by_cases hc2 : k10_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid10.N, cond1 (grid10.coords t) = 1#1 ↔ t.val % nk = 0 := by decide +kernel
theorem cond2_iff : ∀ t : Fin grid10.N, k10_cond2 (grid10.coords t) = 1#1 ↔ t.val % nk = kl := by decide +kernel

variable (V Vp : Dev nD → Valuation τ sig (Elt F))

/-- The windowed arrays at the region's entry. -/
abbrev A0 (c : Dev nD) (w : Fin cfg10.W) : Buf (Elt F) ((cfg10.win w).arr.view.loc (c : Thread nD τ)) := V c (Pipeline.arrRef spec10 w)

/-- What an input window's staging buffer holds when the body runs at point `t`: the window's block of its array there. -/
def inBlk (c : Dev nD) (w : Fin cfg10.W) (t : Fin cfg10.N) : (cfg10.win w).block.Idx → Elt F (cfg10.win w).elt :=
  (cfg10.win w).fill (cfg10.grid.coords t) (fun _ => Classical.arbitrary _) (((cfg10.win w).blk t).view.read (Elt F) (A0 V c w))

/-- The accumulator AFTER point `n`: the product of the point's two blocks added to zero at the first point of a reduction
    run (`n % nk = 0`), to what the point before left elsewhere. -/
def acc (c : Dev nD) : (n : ℕ) → n < cfg10.N → SO.Idx → Elt F .f32
  | 0, h => k10_pay2 (inBlk V c 0 ⟨0, h⟩) (inBlk V c 1 ⟨0, h⟩) (k10_pay1 (F := F))
  | n + 1, h => k10_pay2 (inBlk V c 0 ⟨n + 1, h⟩) (inBlk V c 1 ⟨n + 1, h⟩)
      (if (n + 1) % nk = 0 then k10_pay1 (F := F) else acc c n (Nat.lt_of_succ_lt h))

/-- The invariant before point `n`: the scratch accumulator at what the point before left (nothing is said where the
    body resets it), and every other scoped buffer the pipeline does not stage at something. -/
def Φ0 (c : Dev nD) (n : Fin (cfg10.N + 1)) : sProp 𝕄 :=
  iprop((∃ X : SO.Idx → Elt F .f32, ⌜∀ h : n.val - 1 < cfg10.N, n.val % nk ≠ 0 → X = acc V c (n.val - 1) h⌝ ∗ pt c (Memref.whole cc10_scratch0) X)
    ∗ Pipeline.scopedRestBut (Ix := Ix) (Name := ℕ) (U := U) (Lvl := Lvl) (Val := Elt F) spec10 c [cc10_scratch0])

/-- The proof data on core `c`, from the entry valuation `V`. -/
def dat (c : Dev nD) : Pipeline.Dat τ (Elt F) Ix ℕ U Lvl cfg10 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k10_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg10.W) (hw : (cfg10.win w).isOut = false) (hlive : ∀ i, cfg10.idle w i = false)
    (hclip : ∀ (i : cfg10.grid.Coords) a, (cfg10.win w).clip i a = none)
    (hafter : ∀ t, (dat' V c).after w t = inBlk V c w t)
    (t : Fin cfg10.N) (d : (cfg10.win w).block.Idx → Elt F (cfg10.win w).elt) :
    (dat' V c).before w t d = inBlk V c w t := by
  rw [(dat V c).before_in_eq_fetched w hw hlive (fun t t' _ => funext fun a => (hclip _ a).trans (hclip _ a).symm)
    (fun t => by rw [hafter]; exact (cfg10.win w).cut_fill _ _ _) t d,
    (dat V c).fetched_of_clip_none w t (hclip _) d (fun _ => Classical.arbitrary _)]
  rfl

theorem before0 (c : Dev nD) (t : Fin cfg10.N) (d) : (dat' V c).before 0 t d = inBlk V c 0 t :=
  before_in V c 0 rfl (fun _ => rfl) (fun _ _ => rfl) (fun _ => rfl) t d
theorem before1 (c : Dev nD) (t : Fin cfg10.N) (d) : (dat' V c).before 1 t d = inBlk V c 1 t :=
  before_in V c 1 rfl (fun _ => rfl) (fun _ _ => rfl) (fun _ => rfl) t d
theorem before2 (c : Dev nD) (t : Fin cfg10.N) (d) : (dat' V c).before 2 t d = inBlk V c 2 t :=
  before_in V c 2 rfl (fun _ => rfl) (fun _ _ => rfl) (fun _ => rfl) t d
theorem before3 (c : Dev nD) (t : Fin cfg10.N) (d) : (dat' V c).before 3 t d = inBlk V c 3 t :=
  before_in V c 3 rfl (fun _ => rfl) (fun _ _ => rfl) (fun _ => rfl) t d
theorem before4 (c : Dev nD) (t : Fin cfg10.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg10.N) (Xs : SO.Idx → Elt F .f32)
    (hXs : ∀ h : t.val - 1 < cfg10.N, t.val % nk ≠ 0 → Xs = acc V c (t.val - 1) h) :
    accOut (grid10.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k10_pay2 _ _ (if (n + 1) % nk = 0 then _ else _)
      rw [if_pos hm]
    · rw [if_neg (fun h => hm ((cond1_iff ⟨n + 1, hn⟩).mp h)), hXs (Nat.lt_of_succ_lt hn) hm]
      show _ = k10_pay2 _ _ (if (n + 1) % nk = 0 then _ else _)
      rw [if_neg hm]
      rfl

/-- The output window is idle exactly where the second condition fails, and written back exactly where it holds. -/
theorem idle5_of (t : Fin cfg10.N) (h : k10_cond2 (grid10.coords t) = 1#1) : cfg10.idle 5 (cfg10.grid.coords t) = false := by
  show (!(k10_cond2 (grid10.coords t) == 1#1)) = false
  rw [h]; rfl
theorem idle5_of_not (t : Fin cfg10.N) (h : ¬ k10_cond2 (grid10.coords t) = 1#1) : cfg10.idle 5 (cfg10.grid.coords t) = true := by
  show (!(k10_cond2 (grid10.coords t) == 1#1)) = true
  rw [Bool.not_eq_true', beq_eq_false_iff_ne]; exact h
theorem flush5_of_not (t : Fin cfg10.N) (h : ¬ k10_cond2 (grid10.coords t) = 1#1) : (cfg10.win 5).flush t = false :=
  Bool.eq_false_iff.mpr fun hf => h ((cond2_iff t).mpr ((flush10_5 t).mp hf))

theorem idleIn0 (i : cfg10.grid.Coords) : cfg10.idle 0 i = false := rfl
theorem idleIn1 (i : cfg10.grid.Coords) : cfg10.idle 1 i = false := rfl
theorem idleIn2 (i : cfg10.grid.Coords) : cfg10.idle 2 i = false := rfl
theorem idleIn3 (i : cfg10.grid.Coords) : cfg10.idle 3 i = false := rfl
theorem idleIn4 (i : cfg10.grid.Coords) : cfg10.idle 4 i = false := rfl
theorem after0 (c : Dev nD) (t : Fin cfg10.N) : (dat' V c).after 0 t = inBlk V c 0 t := rfl
theorem after1 (c : Dev nD) (t : Fin cfg10.N) : (dat' V c).after 1 t = inBlk V c 1 t := rfl
theorem after2 (c : Dev nD) (t : Fin cfg10.N) : (dat' V c).after 2 t = inBlk V c 2 t := rfl
theorem after3 (c : Dev nD) (t : Fin cfg10.N) : (dat' V c).after 3 t = inBlk V c 3 t := rfl
theorem after4 (c : Dev nD) (t : Fin cfg10.N) : (dat' V c).after 4 t = inBlk V c 4 t := rfl
theorem after5 (c : Dev nD) (t : Fin cfg10.N) :
    (dat' V c).after 5 t = k10_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W10, bigSep_W10]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k10_cond2 (grid10.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid10.coords t) (inBlk V c 0 t) (inBlk V c 1 t) (inBlk V c 3 t) (inBlk V c 4 t) ((dat' V c).before 5 t d5) Xs
        = k10_pay3 (acc V c t.val t.isLt) (inBlk V c 3 t) (inBlk V c 4 t) := by
      unfold outOut; rw [if_pos hc2, acc_step V c t Xs hXs]
    iapply (kernelRun 𝒱₀ c (grid10.coords t)
      (win10_0.stage (cfg10.slots t 0)) (hstage10_0 ((cfg10.slots t 0).cast nbuf10_0))
      (win10_1.stage (cfg10.slots t 1)) (hstage10_1 ((cfg10.slots t 1).cast nbuf10_1))
      (win10_2.stage (cfg10.slots t 2)) (hstage10_2 ((cfg10.slots t 2).cast nbuf10_2))
      (win10_3.stage (cfg10.slots t 3)) (hstage10_3 ((cfg10.slots t 3).cast nbuf10_3))
      (win10_4.stage (cfg10.slots t 4)) (hstage10_4 ((cfg10.slots t 4).cast nbuf10_4))
      (win10_5.stage (cfg10.slots t 5)) (hstage10_5 ((cfg10.slots t 5).cast nbuf10_5))
      (Memref.whole cc10_scratch0) (Memref.isWhole_whole _)
      (inBlk V c 0 t) (inBlk V c 1 t) (inBlk V c 2 t) (inBlk V c 3 t)
      (inBlk V c 4 t) ((dat' V c).before 5 t d5) Xs (acc V c t.val t.isLt) (k10_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid10.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid10.coords t)
      (win10_0.stage (cfg10.slots t 0)) (hstage10_0 ((cfg10.slots t 0).cast nbuf10_0))
      (win10_1.stage (cfg10.slots t 1)) (hstage10_1 ((cfg10.slots t 1).cast nbuf10_1))
      (win10_2.stage (cfg10.slots t 2)) (hstage10_2 ((cfg10.slots t 2).cast nbuf10_2))
      (win10_3.stage (cfg10.slots t 3)) (hstage10_3 ((cfg10.slots t 3).cast nbuf10_3))
      (win10_4.stage (cfg10.slots t 4)) (hstage10_4 ((cfg10.slots t 4).cast nbuf10_4))
      (win10_5.stage (cfg10.slots t 5)) (hstage10_5 ((cfg10.slots t 5).cast nbuf10_5))
      (Memref.whole cc10_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc10_scratch0) X : sProp 𝕄)
      = iprop(∃ f : Buf (Elt F) ((c : Thread nD τ).loc cc10_scratch0), ⌜f = X⌝ ∗ (((c : Thread nD τ).loc cc10_scratch0) ↦{fullShare} f)) :=
  (owns_eq_rep (c : Thread nD τ) (Memref.whole cc10_scratch0) fullShare X).symm.trans (owns_whole_eq (c : Thread nD τ) cc10_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec10 c) ⊢ Φ0 V c 0 := by
  rw [scopedRest10_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg10.N) ⊢ iprop(BI.emp ∗ BI.emp ∗ Pipeline.scopedRest (Ix := Ix) (Name := ℕ) (U := U) (Lvl := Lvl) (Val := Elt F) spec10 c) := by
  rw [scopedRest10_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg10.W) (hw : w ≠ 5) : (cfg10.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg10.N) (hne : ∀ c (b : Ref sig .tc), b ≠ vOUT → Vp c b = V c b) :
    Pipeline.RegionSeg (pcfgs (F := F)) adm pd ι defs₀ 𝒱₀ L lv RK where
  win := launch10.win.to₀
  block_pos := launch10.block_pos
  stage_whole := launch10.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec10 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch10.win launch10.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch10.win
      launch10.arr_whole c pd ((pd RK c).share_full fun _ => by rw [hpd c]; rfl) (fun b => V c b) (fun b => Vp c b)
      ((pd RK c).arrAt · cfg10.N)
      (fun w => by
        rw [hpd c]
        by_cases hw : w = 5
        · subst hw; exact (hout c).symm
        · exact ((dat' V c).arrAt_in w (isOut_of_ne w hw) _).trans
            (hne c _ fun h => hw (launch10.win.arr_inj (h.trans (rfl : vOUT = Pipeline.arrRef spec10 5)))).symm)
      (fun b hb => hne c b fun h => hb (Finset.mem_image.mpr ⟨5, Finset.mem_univ _, (rfl : Pipeline.arrRef spec10 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Kernel.Region10
end
-- ==== Proof.K.Region11.lean ====
/-
  Region 11 of @main: a matrix product on the grid (2, 1). The reduction axis has ONE tile, so at every grid point the
  body resets its accumulator, adds the point's product to it and writes the scaled, biased result to the output block:
  nothing is carried from point to point. Stated once, for any float family.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

set_option maxRecDepth 16384

noncomputable section

namespace Cert.Kernel.Region11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions: both hold at every point (the second grid coordinate is always 0) -/

/-- The condition of the first `scf.if` (reset the accumulator), from the grid coordinates. -/
abbrev cond1 (i : grid11.Coords) : Prop :=
  (Scalar.cmpi .ne (Scalar.extui (Scalar.cmpi .eq (BitVec.ofNat 32 (i 1).val) 0#32)) 0#32) = 1#1

theorem hcond1 : ∀ t : Fin cfg11.N, cond1 (grid11.coords t) :=
  (by decide +kernel : ∀ t : Fin grid11.N, cond1 (grid11.coords t))
theorem hcond2 : ∀ t : Fin cfg11.N, k11_cond2 (grid11.coords t) = 1#1 :=
  (by decide +kernel : ∀ t : Fin grid11.N, k11_cond2 (grid11.coords t) = 1#1)

/-! ## The body on any whole staging memrefs -/

theorem off0 : (![0, 0] : Fin 2 → ℕ) = fun _ => 0 := by funext a; fin_cases a <;> rfl

/-- A load of a whole buffer through the whole-shape rectangle reads its contents. -/
theorem readAt_whole {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [View.readAt_eq_ld, h.read_unread]; exact View.ld_unit_zero hz inb X

set_option maxHeartbeats 1000000 in
/-- From the two operand blocks, the row scale and the bias row in their buffers, the output buffer and the accumulator
    at anything: the body leaves the inputs as they were, the accumulator at something, and in the output buffer
    `(0 + A · B) * scale + bias`. -/
theorem kernelRun (𝒱₀ : Variants) (c : Dev nD) (i : grid11.Coords)
    (arg2 : Memref sig .tc .vmem S1024x1000 .bf16) (harg2 : arg2.IsWhole) (arg3 : Memref sig .tc .vmem S1000x256 .bf16) (harg3 : arg3.IsWhole)
    (arg4 : Memref sig .tc .vmem S1000x1 .f32) (harg4 : arg4.IsWhole) (arg5 : Memref sig .tc .vmem S1024x1 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole) (hc1 : cond1 i) (hc2 : k11_cond2 i = 1#1)
    (xA : Vec F S1024x1000 .bf16) (xB : Vec F S1000x256 .bf16) (xs : Vec F S1024x1 .f32) (xb : Vec F S1x256 .f32)
    (E : Set ℕ) (K : PUnit → sProp 𝕄) :
    iprop(owns (c : Thread nD τ) arg2 fullShare xA ∗ owns (c : Thread nD τ) arg3 fullShare xB
        ∗ owns (c : Thread nD τ) arg5 fullShare xs ∗ owns (c : Thread nD τ) arg6 fullShare xb
        ∗ (∃ d, owns (c : Thread nD τ) arg7 fullShare d) ∗ (∃ d, owns (c : Thread nD τ) arg8 fullShare d)
        ∗ (iprop(owns (c : Thread nD τ) arg2 fullShare xA ∗ owns (c : Thread nD τ) arg3 fullShare xB
            ∗ owns (c : Thread nD τ) arg5 fullShare xs ∗ owns (c : Thread nD τ) arg6 fullShare xb
            ∗ owns (c : Thread nD τ) arg7 fullShare (k11_pay3 (k11_pay2 xA xB (k11_pay1 (F := F))) xs xb)
            ∗ (∃ d, owns (c : Thread nD τ) arg8 fullShare d)) -∗ K ⟨⟩))
      ⊢ wp frame (wpE (defs₀ (F := F)) 𝒱₀ c none) E (cc11__mm_kernel i arg2 harg2 arg3 harg3 arg4 harg4 arg5 harg5 arg6 harg6 arg7 harg7 arg8 harg8) K := by
  simp only [cc11__mm_kernel_eq_skeleton]; unfold cc11__mm_kernel_skel
  unfold owns
  iintro ⟨⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg2.eq_unread hf2
  obtain rfl := harg3.eq_unread hf3
  obtain rfl := harg5.eq_unread hf5
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    rw [View.read_writes_eq_canon _ _ _ (fun y => ⟨_, List.mem_singleton_self _, View.mem_set_unit_zero off0 inb_S1024x256_S1024x256_0_0 y⟩),
      View.canon_unit_zero off0, readAt_whole _ harg5 xs off0, readAt_whole _ harg6 xb off0]
    unfold kernelRun.sl.v16 kernelRun.sl.H8_2
    rw [View.readCov_cons_toLoadRect, readAt_whole _ harg2 xA off0, readAt_whole _ harg3 xB off0]
    unfold kernelRun.sl.v7 kernelRun.sl.H8_1
    rw [View.readCov_cons_toLoadRect]
  iexists _, _; isplitr; swap; · iexact H8
  ipureintro; rfl

/-! ## The proof data -/

variable (V Vp : Dev nD → Valuation τ sig (Elt F))

/-- Window `w`'s block at point `t`, read off its array as the region finds it. -/
def blk (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The accumulator between points: at some contents (every point resets it before reading it), beside the other scoped
    buffers, unopened. -/
def Φc (c : Dev nD) : sProp 𝕄 :=
  iprop((∃ f : Buf (Elt F) ((c : Thread nD τ).loc cc11_scratch0), ((c : Thread nD τ).loc cc11_scratch0) ↦{fullShare} f)
    ∗ Pipeline.scopedRestBut (Ix := Ix) (Name := ℕ) (U := U) (Lvl := Lvl) (Val := Elt F) spec11 c [cc11_scratch0])

/-- The proof data on core `c`: the arrays as the region finds them; after the body at point `t` each input's buffer at
    its block, the output's at `(0 + A_t · B) * scale_t + bias`; nothing owed; full shares. -/
def dat (c : Dev nD) : Dat τ (Elt F) Ix ℕ U Lvl cfg11 c where
  A w := V c (Pipeline.arrRef spec11 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k11_pay3 (k11_pay2 (blk V c 0 t) (blk V c 1 t) (k11_pay1 (F := F))) (blk V c 3 t) (blk V c 4 t)
  Φ _ := Φc c
  q _ := fullShare
  owed _ := 0

theorem A_eq (c : Dev nD) (w : Fin cfg11.W) : (dat (Ix := Ix) (U := U) (Lvl := Lvl) V c).A w = V c (Pipeline.arrRef spec11 w) := by
  dsimp only [dat]

theorem after_0 (c : Dev nD) (t : Fin cfg11.N) : (dat (Ix := Ix) (U := U) (Lvl := Lvl) V c).after 0 t = blk V c 0 t := by dsimp only [dat]
theorem after_1 (c : Dev nD) (t : Fin cfg11.N) : (dat (Ix := Ix) (U := U) (Lvl := Lvl) V c).after 1 t = blk V c 1 t := by dsimp only [dat]
theorem after_2 (c : Dev nD) (t : Fin cfg11.N) : (dat (Ix := Ix) (U := U) (Lvl := Lvl) V c).after 2 t = blk V c 2 t := by dsimp only [dat]
theorem after_3 (c : Dev nD) (t : Fin cfg11.N) : (dat (Ix := Ix) (U := U) (Lvl := Lvl) V c).after 3 t = blk V c 3 t := by dsimp only [dat]
theorem after_4 (c : Dev nD) (t : Fin cfg11.N) : (dat (Ix := Ix) (U := U) (Lvl := Lvl) V c).after 4 t = blk V c 4 t := by dsimp only [dat]
theorem after_5 (c : Dev nD) (t : Fin cfg11.N) : (dat (Ix := Ix) (U := U) (Lvl := Lvl) V c).after 5 t
    = k11_pay3 (k11_pay2 (blk V c 0 t) (blk V c 1 t) (k11_pay1 (F := F))) (blk V c 3 t) (blk V c 4 t) := by dsimp only [dat]

/-- An input window's current staging buffer holds its block at every point, fetched there or not: unfetched, the block
    index has not moved, and the body left the block in place. -/
theorem before_0 (c : Dev nD) (t : Fin cfg11.N) (d) : (dat (Ix := Ix) (U := U) (Lvl := Lvl) V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg11.N) (d) : (dat (Ix := Ix) (U := U) (Lvl := Lvl) V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg11.N) (d) : (dat (Ix := Ix) (U := U) (Lvl := Lvl) V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg11.N) (d) : (dat (Ix := Ix) (U := U) (Lvl := Lvl) V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg11.N) (d) : (dat (Ix := Ix) (U := U) (Lvl := Lvl) V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body obligation -/

/-- Each window's current staging memref at point `t`, spelled as the pipeline passes it to the body. -/
abbrev ms_0 (t : Fin cfg11.N) : Memref sig .tc .vmem S1024x1000 .bf16 := win11_0.stage (cfg11.slots t 0)
abbrev ms_1 (t : Fin cfg11.N) : Memref sig .tc .vmem S1000x256 .bf16 := win11_1.stage (cfg11.slots t 1)
abbrev ms_2 (t : Fin cfg11.N) : Memref sig .tc .vmem S1000x1 .f32 := win11_2.stage (cfg11.slots t 2)
abbrev ms_3 (t : Fin cfg11.N) : Memref sig .tc .vmem S1024x1 .f32 := win11_3.stage (cfg11.slots t 3)
abbrev ms_4 (t : Fin cfg11.N) : Memref sig .tc .vmem S1x256 .f32 := win11_4.stage (cfg11.slots t 4)
abbrev ms_5 (t : Fin cfg11.N) : Memref sig .tc .vmem S1024x256 .f32 := win11_5.stage (cfg11.slots t 5)

/-- What the body is called with at point `t`, the windows one by one, -/
def bodyPre (ι : Ix) (c : Dev nD) (t : Fin cfg11.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms_0 t) fullShare ((dat (Ix := Ix) (U := U) (Lvl := Lvl) V c).before 0 t d))
    ∗ (∃ d, owns (c : Thread nD τ) (ms_1 t) fullShare ((dat (Ix := Ix) (U := U) (Lvl := Lvl) V c).before 1 t d))
    ∗ (∃ d, owns (c : Thread nD τ) (ms_2 t) fullShare ((dat (Ix := Ix) (U := U) (Lvl := Lvl) V c).before 2 t d))
    ∗ (∃ d, owns (c : Thread nD τ) (ms_3 t) fullShare ((dat (Ix := Ix) (U := U) (Lvl := Lvl) V c).before 3 t d))
    ∗ (∃ d, owns (c : Thread nD τ) (ms_4 t) fullShare ((dat (Ix := Ix) (U := U) (Lvl := Lvl) V c).before 4 t d))
    ∗ (∃ d, owns (c : Thread nD τ) (ms_5 t) fullShare ((dat (Ix := Ix) (U := U) (Lvl := Lvl) V c).before 5 t d)))

/-- and what it returns. -/
def bodyPost (ι : Ix) (c : Dev nD) (t : Fin cfg11.N) : sProp 𝕄 :=
  iprop((dat (Ix := Ix) (U := U) (Lvl := Lvl) V c).Φ t.succ ∗ (dat (Ix := Ix) (U := U) (Lvl := Lvl) V c).owesAt ι t.succ
    ∗ owns (c : Thread nD τ) (ms_0 t) fullShare ((dat (Ix := Ix) (U := U) (Lvl := Lvl) V c).after 0 t)
    ∗ owns (c : Thread nD τ) (ms_1 t) fullShare ((dat (Ix := Ix) (U := U) (Lvl := Lvl) V c).after 1 t)
    ∗ owns (c : Thread nD τ) (ms_2 t) fullShare ((dat (Ix := Ix) (U := U) (Lvl := Lvl) V c).after 2 t)
    ∗ owns (c : Thread nD τ) (ms_3 t) fullShare ((dat (Ix := Ix) (U := U) (Lvl := Lvl) V c).after 3 t)
    ∗ owns (c : Thread nD τ) (ms_4 t) fullShare ((dat (Ix := Ix) (U := U) (Lvl := Lvl) V c).after 4 t)
    ∗ owns (c : Thread nD τ) (ms_5 t) fullShare ((dat (Ix := Ix) (U := U) (Lvl := Lvl) V c).after 5 t))

set_option maxHeartbeats 800000 in
/-- The body at any point: the inputs' buffers hold their blocks, both conditions hold, so the run applies; the
    accumulator is handed over at anything and taken back at anything; the core owes nothing throughout. -/
theorem sound_body (ι : Ix) (𝒱₀ : Variants) (c : Dev nD) (t : Fin cfg11.N) :
    bodyPre (U := U) (Lvl := Lvl) V ι c t ⊢ wp frame (wpE (defs₀ (F := F)) 𝒱₀ c none) Set.univ (bodyAt11 t) (fun _ => bodyPost (U := U) (Lvl := Lvl) V ι c t) := by
  unfold bodyPre bodyPost bodyAt11
  simp only [before_0, before_1, before_2, before_3, before_4]
  rw [show (dat V c).Φ t.succ = Φc c from rfl, show (dat V c).Φ t.castSucc = Φc c from rfl,
    show (dat V c).owesAt ι t.succ = (dat V c).owesAt ι t.castSucc from rfl,
    after_0, after_1, after_2, after_3, after_4, after_5]
  unfold Φc
  iintro ⟨⟨⟨%fs, Hs⟩, Hr⟩, Ho, ⟨%d0, H0⟩, ⟨%d1, H1⟩, ⟨%d2, H2⟩, ⟨%d3, H3⟩, ⟨%d4, H4⟩, ⟨%d5, H5⟩⟩
  iapply (kernelRun 𝒱₀ c (grid11.coords t) _ _ _ _ _ _ _ _ _ _ _ _ _ _ (hcond1 t) (hcond2 t)
    (blk V c 0 t) (blk V c 1 t) (blk V c 3 t) (blk V c 4 t) Set.univ _)
  isplitl [H0]; · iexact H0
  isplitl [H1]; · iexact H1
  isplitl [H3]; · iexact H3
  isplitl [H4]; · iexact H4
  isplitl [H5]; · iexists _; iexact H5
  isplitl [Hs]; · iexists fs; iapply (Entails.of_eq (owns_whole (c : Thread nD τ) cc11_scratch0 fullShare fs).symm); iexact Hs
  iintro ⟨H0, H1, H3, H4, H5, ⟨%ds, Hs⟩⟩
  isplitl [Hs Hr]
  · isplitl [Hs]; · iexists ds; iapply (Entails.of_eq (owns_whole (c : Thread nD τ) cc11_scratch0 fullShare ds)); iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-- The output window is live at every point: its condition holds there. -/
theorem idle_5 (t : Fin cfg11.N) : cfg11.idle 5 (cfg11.grid.coords t) = false := by
  show (!(k11_cond2 (grid11.coords t) == 1#1)) = false
  rw [hcond2 t]; rfl

set_option maxRecDepth 65536 in
/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W11, bigSep_W11]
  refine (sound_body V ι 𝒱₀ c t).trans (wp_mono _ _ _ fun _ => ?_)
  unfold bodyPost
  refine sep_mono .rfl (sep_mono .rfl (sep_mono .rfl (sep_mono .rfl (sep_mono .rfl (sep_mono .rfl (sep_mono .rfl ?_))))))
  rw [idle_5 t]

/-! ## The region, between the valuations of the core's unscoped buffers before and after it -/

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final (c : Dev nD) (hout : ∀ c, Vp c main_v137 = (dat (Ix := Ix) (U := U) (Lvl := Lvl) V c).arrAt 5 cfg11.N)
    (hne : ∀ c (b : Ref sig .tc), b ≠ main_v137 → Vp c b = V c b) :
    ∀ w : Fin cfg11.W, (dat (Ix := Ix) (U := U) (Lvl := Lvl) V c).arrAt w cfg11.N = Vp c (Pipeline.arrRef spec11 w)
  | ⟨0, _⟩ => ((dat V c).arrAt_in 0 rfl _).trans (hne c _ (ref_ne (by decide))).symm
  | ⟨1, _⟩ => ((dat V c).arrAt_in 1 rfl _).trans (hne c _ (ref_ne (by decide))).symm
  | ⟨2, _⟩ => ((dat V c).arrAt_in 2 rfl _).trans (hne c _ (ref_ne (by decide))).symm
  | ⟨3, _⟩ => ((dat V c).arrAt_in 3 rfl _).trans (hne c _ (ref_ne (by decide))).symm
  | ⟨4, _⟩ => ((dat V c).arrAt_in 4 rfl _).trans (hne c _ (ref_ne (by decide))).symm
  | ⟨5, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION: entered holding every unscoped buffer at `V c`, left holding them at `Vp c`, which has the output array at
    what the write-backs left and every other buffer as it was. The windows' arrays go into the pipeline, the other
    unscoped buffers pass by, the accumulator and the other scoped buffers make the invariant; the kernel has no
    semaphore of its own. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 11 c = dat V c)
    (hout : ∀ c, Vp c main_v137 = (dat (Ix := Ix) (U := U) (Lvl := Lvl) V c).arrAt 5 cfg11.N)
    (hne : ∀ c (b : Ref sig .tc), b ≠ main_v137 → Vp c b = V c b) :
    Pipeline.RegionSeg (pcfgs (F := F)) adm pd ι defs₀ 𝒱₀ L lv 11 where
  win := launch11.win.to₀
  block_pos := launch11.block_pos
  stage_whole := launch11.stage_whole
  K := PEmpty
  osem := fun k => k.elim
  ho := Pipeline.OwnSemFacts.none _
  hbody c := by rw [hpd]; exact (body_obligation V ι 𝒱₀ c).loose
  hwaits := Pipeline.hwaits_of_owed_zero _ _ _ _ L lv 11 fun c _ => by rw [hpd]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec11 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 11) launch11.win launch11.arr_whole c
      (by rw [hpd]; exact (dat V c).share_full fun _ => rfl) (fun b => V c b) (by rw [hpd]; exact fun _ => rfl)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [hpd, show (dat V c).Φ 0 = Φc c from rfl]; unfold Φc
    rw [show Pipeline.scopedRest (Pipeline.pin (pcfgs (F := F)) adm 11).spec c = _ from scopedRest11_split c]
    iintro ⟨-, -, Hr⟩
    iexact Hr
  hout c := by
    rw [hpd, Pipeline.ownSems0_none, show (dat V c).Φ (Fin.last (Pipeline.pin (pcfgs (F := F)) adm 11).N) = Φc c from rfl]; unfold Φc
    rw [show Pipeline.scopedRest (Pipeline.pin (pcfgs (F := F)) adm 11).spec c = _ from scopedRest11_split c]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 11) launch11.win launch11.arr_whole c pd
      (by rw [hpd]; exact (dat V c).share_full fun _ => rfl) (fun b => V c b) (fun b => Vp c b)
      (fun w => (pd 11 c).arrAt w (Pipeline.pin (pcfgs (F := F)) adm 11).N)
      (fun w => by rw [hpd]; exact arrAt_final V Vp c hout hne w)
      (fun b hb => hne c b fun e => hb (e ▸ Finset.mem_image_of_mem _ (Finset.mem_univ (5 : Fin 6))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      icases HO with ⟨%W, -, HO⟩; iexists W; iexact HO

end Cert.Kernel.Region11

end
-- ==== Proof.K.Region12.lean ====
/-
  Region 12 of @main: a matrix product on the grid (6, 1). The reduction axis has ONE tile, so at every grid point the
  body resets its accumulator, adds the point's product to it and writes the scaled, biased result to the output block:
  nothing is carried from point to point. Stated once, for any float family.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

set_option maxRecDepth 16384

noncomputable section

namespace Cert.Kernel.Region12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions: both hold at every point (the second grid coordinate is always 0) -/

/-- The condition of the first `scf.if` (reset the accumulator), from the grid coordinates. -/
abbrev cond1 (i : grid12.Coords) : Prop :=
  (Scalar.cmpi .ne (Scalar.extui (Scalar.cmpi .eq (BitVec.ofNat 32 (i 1).val) 0#32)) 0#32) = 1#1

theorem hcond1 : ∀ t : Fin cfg12.N, cond1 (grid12.coords t) :=
  (by decide +kernel : ∀ t : Fin grid12.N, cond1 (grid12.coords t))
theorem hcond2 : ∀ t : Fin cfg12.N, k12_cond2 (grid12.coords t) = 1#1 :=
  (by decide +kernel : ∀ t : Fin grid12.N, k12_cond2 (grid12.coords t) = 1#1)

/-! ## The body on any whole staging memrefs -/

theorem off0 : (![0, 0] : Fin 2 → ℕ) = fun _ => 0 := by funext a; fin_cases a <;> rfl

/-- A load of a whole buffer through the whole-shape rectangle reads its contents. -/
theorem readAt_whole {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [View.readAt_eq_ld, h.read_unread]; exact View.ld_unit_zero hz inb X

set_option maxHeartbeats 1000000 in
/-- From the two operand blocks, the row scale and the bias row in their buffers, the output buffer and the accumulator
    at anything: the body leaves the inputs as they were, the accumulator at something, and in the output buffer
    `(0 + A · B) * scale + bias`. -/
theorem kernelRun (𝒱₀ : Variants) (c : Dev nD) (i : grid12.Coords)
    (arg2 : Memref sig .tc .vmem S1024x256 .bf16) (harg2 : arg2.IsWhole) (arg3 : Memref sig .tc .vmem S256x256 .bf16) (harg3 : arg3.IsWhole)
    (arg4 : Memref sig .tc .vmem S256x1 .f32) (harg4 : arg4.IsWhole) (arg5 : Memref sig .tc .vmem S1024x1 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole) (hc1 : cond1 i) (hc2 : k12_cond2 i = 1#1)
    (xA : Vec F S1024x256 .bf16) (xB : Vec F S256x256 .bf16) (xs : Vec F S1024x1 .f32) (xb : Vec F S1x256 .f32)
    (E : Set ℕ) (K : PUnit → sProp 𝕄) :
    iprop(owns (c : Thread nD τ) arg2 fullShare xA ∗ owns (c : Thread nD τ) arg3 fullShare xB
        ∗ owns (c : Thread nD τ) arg5 fullShare xs ∗ owns (c : Thread nD τ) arg6 fullShare xb
        ∗ (∃ d, owns (c : Thread nD τ) arg7 fullShare d) ∗ (∃ d, owns (c : Thread nD τ) arg8 fullShare d)
        ∗ (iprop(owns (c : Thread nD τ) arg2 fullShare xA ∗ owns (c : Thread nD τ) arg3 fullShare xB
            ∗ owns (c : Thread nD τ) arg5 fullShare xs ∗ owns (c : Thread nD τ) arg6 fullShare xb
            ∗ owns (c : Thread nD τ) arg7 fullShare (k12_pay3 (k12_pay2 xA xB (k12_pay1 (F := F))) xs xb)
            ∗ (∃ d, owns (c : Thread nD τ) arg8 fullShare d)) -∗ K ⟨⟩))
      ⊢ wp frame (wpE (defs₀ (F := F)) 𝒱₀ c none) E (cc12__mm_kernel i arg2 harg2 arg3 harg3 arg4 harg4 arg5 harg5 arg6 harg6 arg7 harg7 arg8 harg8) K := by
  simp only [cc12__mm_kernel_eq_skeleton]; unfold cc12__mm_kernel_skel
  unfold owns
  iintro ⟨⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg2.eq_unread hf2
  obtain rfl := harg3.eq_unread hf3
  obtain rfl := harg5.eq_unread hf5
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    rw [View.read_writes_eq_canon _ _ _ (fun y => ⟨_, List.mem_singleton_self _, View.mem_set_unit_zero off0 inb_S1024x256_S1024x256_0_0 y⟩),
      View.canon_unit_zero off0, readAt_whole _ harg5 xs off0, readAt_whole _ harg6 xb off0]
    unfold kernelRun.sl.v16 kernelRun.sl.H8_2
    rw [View.readCov_cons_toLoadRect, readAt_whole _ harg2 xA off0, readAt_whole _ harg3 xB off0]
    unfold kernelRun.sl.v7 kernelRun.sl.H8_1
    rw [View.readCov_cons_toLoadRect]
  iexists _, _; isplitr; swap; · iexact H8
  ipureintro; rfl

/-! ## The proof data -/

variable (V Vp : Dev nD → Valuation τ sig (Elt F))

/-- Window `w`'s block at point `t`, read off its array as the region finds it. -/
def blk (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The accumulator between points: at some contents (every point resets it before reading it), beside the other scoped
    buffers, unopened. -/
def Φc (c : Dev nD) : sProp 𝕄 :=
  iprop((∃ f : Buf (Elt F) ((c : Thread nD τ).loc cc12_scratch0), ((c : Thread nD τ).loc cc12_scratch0) ↦{fullShare} f)
    ∗ Pipeline.scopedRestBut (Ix := Ix) (Name := ℕ) (U := U) (Lvl := Lvl) (Val := Elt F) spec12 c [cc12_scratch0])

/-- The proof data on core `c`: the arrays as the region finds them; after the body at point `t` each input's buffer at
    its block, the output's at `(0 + A_t · B) * scale_t + bias`; nothing owed; full shares. -/
def dat (c : Dev nD) : Dat τ (Elt F) Ix ℕ U Lvl cfg12 c where
  A w := V c (Pipeline.arrRef spec12 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k12_pay3 (k12_pay2 (blk V c 0 t) (blk V c 1 t) (k12_pay1 (F := F))) (blk V c 3 t) (blk V c 4 t)
  Φ _ := Φc c
  q _ := fullShare
  owed _ := 0

theorem A_eq (c : Dev nD) (w : Fin cfg12.W) : (dat (Ix := Ix) (U := U) (Lvl := Lvl) V c).A w = V c (Pipeline.arrRef spec12 w) := by
  dsimp only [dat]

theorem after_0 (c : Dev nD) (t : Fin cfg12.N) : (dat (Ix := Ix) (U := U) (Lvl := Lvl) V c).after 0 t = blk V c 0 t := by dsimp only [dat]
theorem after_1 (c : Dev nD) (t : Fin cfg12.N) : (dat (Ix := Ix) (U := U) (Lvl := Lvl) V c).after 1 t = blk V c 1 t := by dsimp only [dat]
theorem after_2 (c : Dev nD) (t : Fin cfg12.N) : (dat (Ix := Ix) (U := U) (Lvl := Lvl) V c).after 2 t = blk V c 2 t := by dsimp only [dat]
theorem after_3 (c : Dev nD) (t : Fin cfg12.N) : (dat (Ix := Ix) (U := U) (Lvl := Lvl) V c).after 3 t = blk V c 3 t := by dsimp only [dat]
theorem after_4 (c : Dev nD) (t : Fin cfg12.N) : (dat (Ix := Ix) (U := U) (Lvl := Lvl) V c).after 4 t = blk V c 4 t := by dsimp only [dat]
theorem after_5 (c : Dev nD) (t : Fin cfg12.N) : (dat (Ix := Ix) (U := U) (Lvl := Lvl) V c).after 5 t
    = k12_pay3 (k12_pay2 (blk V c 0 t) (blk V c 1 t) (k12_pay1 (F := F))) (blk V c 3 t) (blk V c 4 t) := by dsimp only [dat]

/-- An input window's current staging buffer holds its block at every point, fetched there or not: unfetched, the block
    index has not moved, and the body left the block in place. -/
theorem before_0 (c : Dev nD) (t : Fin cfg12.N) (d) : (dat (Ix := Ix) (U := U) (Lvl := Lvl) V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg12.N) (d) : (dat (Ix := Ix) (U := U) (Lvl := Lvl) V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg12.N) (d) : (dat (Ix := Ix) (U := U) (Lvl := Lvl) V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg12.N) (d) : (dat (Ix := Ix) (U := U) (Lvl := Lvl) V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg12.N) (d) : (dat (Ix := Ix) (U := U) (Lvl := Lvl) V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body obligation -/

/-- Each window's current staging memref at point `t`, spelled as the pipeline passes it to the body. -/
abbrev ms_0 (t : Fin cfg12.N) : Memref sig .tc .vmem S1024x256 .bf16 := win12_0.stage (cfg12.slots t 0)
abbrev ms_1 (t : Fin cfg12.N) : Memref sig .tc .vmem S256x256 .bf16 := win12_1.stage (cfg12.slots t 1)
abbrev ms_2 (t : Fin cfg12.N) : Memref sig .tc .vmem S256x1 .f32 := win12_2.stage (cfg12.slots t 2)
abbrev ms_3 (t : Fin cfg12.N) : Memref sig .tc .vmem S1024x1 .f32 := win12_3.stage (cfg12.slots t 3)
abbrev ms_4 (t : Fin cfg12.N) : Memref sig .tc .vmem S1x256 .f32 := win12_4.stage (cfg12.slots t 4)
abbrev ms_5 (t : Fin cfg12.N) : Memref sig .tc .vmem S1024x256 .f32 := win12_5.stage (cfg12.slots t 5)

/-- What the body is called with at point `t`, the windows one by one, -/
def bodyPre (ι : Ix) (c : Dev nD) (t : Fin cfg12.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms_0 t) fullShare ((dat (Ix := Ix) (U := U) (Lvl := Lvl) V c).before 0 t d))
    ∗ (∃ d, owns (c : Thread nD τ) (ms_1 t) fullShare ((dat (Ix := Ix) (U := U) (Lvl := Lvl) V c).before 1 t d))
    ∗ (∃ d, owns (c : Thread nD τ) (ms_2 t) fullShare ((dat (Ix := Ix) (U := U) (Lvl := Lvl) V c).before 2 t d))
    ∗ (∃ d, owns (c : Thread nD τ) (ms_3 t) fullShare ((dat (Ix := Ix) (U := U) (Lvl := Lvl) V c).before 3 t d))
    ∗ (∃ d, owns (c : Thread nD τ) (ms_4 t) fullShare ((dat (Ix := Ix) (U := U) (Lvl := Lvl) V c).before 4 t d))
    ∗ (∃ d, owns (c : Thread nD τ) (ms_5 t) fullShare ((dat (Ix := Ix) (U := U) (Lvl := Lvl) V c).before 5 t d)))

/-- and what it returns. -/
def bodyPost (ι : Ix) (c : Dev nD) (t : Fin cfg12.N) : sProp 𝕄 :=
  iprop((dat (Ix := Ix) (U := U) (Lvl := Lvl) V c).Φ t.succ ∗ (dat (Ix := Ix) (U := U) (Lvl := Lvl) V c).owesAt ι t.succ
    ∗ owns (c : Thread nD τ) (ms_0 t) fullShare ((dat (Ix := Ix) (U := U) (Lvl := Lvl) V c).after 0 t)
    ∗ owns (c : Thread nD τ) (ms_1 t) fullShare ((dat (Ix := Ix) (U := U) (Lvl := Lvl) V c).after 1 t)
    ∗ owns (c : Thread nD τ) (ms_2 t) fullShare ((dat (Ix := Ix) (U := U) (Lvl := Lvl) V c).after 2 t)
    ∗ owns (c : Thread nD τ) (ms_3 t) fullShare ((dat (Ix := Ix) (U := U) (Lvl := Lvl) V c).after 3 t)
    ∗ owns (c : Thread nD τ) (ms_4 t) fullShare ((dat (Ix := Ix) (U := U) (Lvl := Lvl) V c).after 4 t)
    ∗ owns (c : Thread nD τ) (ms_5 t) fullShare ((dat (Ix := Ix) (U := U) (Lvl := Lvl) V c).after 5 t))

set_option maxHeartbeats 800000 in
/-- The body at any point: the inputs' buffers hold their blocks, both conditions hold, so the run applies; the
    accumulator is handed over at anything and taken back at anything; the core owes nothing throughout. -/
theorem sound_body (ι : Ix) (𝒱₀ : Variants) (c : Dev nD) (t : Fin cfg12.N) :
    bodyPre (U := U) (Lvl := Lvl) V ι c t ⊢ wp frame (wpE (defs₀ (F := F)) 𝒱₀ c none) Set.univ (bodyAt12 t) (fun _ => bodyPost (U := U) (Lvl := Lvl) V ι c t) := by
  unfold bodyPre bodyPost bodyAt12
  simp only [before_0, before_1, before_2, before_3, before_4]
  rw [show (dat V c).Φ t.succ = Φc c from rfl, show (dat V c).Φ t.castSucc = Φc c from rfl,
    show (dat V c).owesAt ι t.succ = (dat V c).owesAt ι t.castSucc from rfl,
    after_0, after_1, after_2, after_3, after_4, after_5]
  unfold Φc
  iintro ⟨⟨⟨%fs, Hs⟩, Hr⟩, Ho, ⟨%d0, H0⟩, ⟨%d1, H1⟩, ⟨%d2, H2⟩, ⟨%d3, H3⟩, ⟨%d4, H4⟩, ⟨%d5, H5⟩⟩
  iapply (kernelRun 𝒱₀ c (grid12.coords t) _ _ _ _ _ _ _ _ _ _ _ _ _ _ (hcond1 t) (hcond2 t)
    (blk V c 0 t) (blk V c 1 t) (blk V c 3 t) (blk V c 4 t) Set.univ _)
  isplitl [H0]; · iexact H0
  isplitl [H1]; · iexact H1
  isplitl [H3]; · iexact H3
  isplitl [H4]; · iexact H4
  isplitl [H5]; · iexists _; iexact H5
  isplitl [Hs]; · iexists fs; iapply (Entails.of_eq (owns_whole (c : Thread nD τ) cc12_scratch0 fullShare fs).symm); iexact Hs
  iintro ⟨H0, H1, H3, H4, H5, ⟨%ds, Hs⟩⟩
  isplitl [Hs Hr]
  · isplitl [Hs]; · iexists ds; iapply (Entails.of_eq (owns_whole (c : Thread nD τ) cc12_scratch0 fullShare ds)); iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-- The output window is live at every point: its condition holds there. -/
theorem idle_5 (t : Fin cfg12.N) : cfg12.idle 5 (cfg12.grid.coords t) = false := by
  show (!(k12_cond2 (grid12.coords t) == 1#1)) = false
  rw [hcond2 t]; rfl

set_option maxRecDepth 65536 in
/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W12, bigSep_W12]
  refine (sound_body V ι 𝒱₀ c t).trans (wp_mono _ _ _ fun _ => ?_)
  unfold bodyPost
  refine sep_mono .rfl (sep_mono .rfl (sep_mono .rfl (sep_mono .rfl (sep_mono .rfl (sep_mono .rfl (sep_mono .rfl ?_))))))
  rw [idle_5 t]

/-! ## The region, between the valuations of the core's unscoped buffers before and after it -/

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final (c : Dev nD) (hout : ∀ c, Vp c main_v155 = (dat (Ix := Ix) (U := U) (Lvl := Lvl) V c).arrAt 5 cfg12.N)
    (hne : ∀ c (b : Ref sig .tc), b ≠ main_v155 → Vp c b = V c b) :
    ∀ w : Fin cfg12.W, (dat (Ix := Ix) (U := U) (Lvl := Lvl) V c).arrAt w cfg12.N = Vp c (Pipeline.arrRef spec12 w)
  | ⟨0, _⟩ => ((dat V c).arrAt_in 0 rfl _).trans (hne c _ (ref_ne (by decide))).symm
  | ⟨1, _⟩ => ((dat V c).arrAt_in 1 rfl _).trans (hne c _ (ref_ne (by decide))).symm
  | ⟨2, _⟩ => ((dat V c).arrAt_in 2 rfl _).trans (hne c _ (ref_ne (by decide))).symm
  | ⟨3, _⟩ => ((dat V c).arrAt_in 3 rfl _).trans (hne c _ (ref_ne (by decide))).symm
  | ⟨4, _⟩ => ((dat V c).arrAt_in 4 rfl _).trans (hne c _ (ref_ne (by decide))).symm
  | ⟨5, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION: entered holding every unscoped buffer at `V c`, left holding them at `Vp c`, which has the output array at
    what the write-backs left and every other buffer as it was. The windows' arrays go into the pipeline, the other
    unscoped buffers pass by, the accumulator and the other scoped buffers make the invariant; the kernel has no
    semaphore of its own. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 12 c = dat V c)
    (hout : ∀ c, Vp c main_v155 = (dat (Ix := Ix) (U := U) (Lvl := Lvl) V c).arrAt 5 cfg12.N)
    (hne : ∀ c (b : Ref sig .tc), b ≠ main_v155 → Vp c b = V c b) :
    Pipeline.RegionSeg (pcfgs (F := F)) adm pd ι defs₀ 𝒱₀ L lv 12 where
  win := launch12.win.to₀
  block_pos := launch12.block_pos
  stage_whole := launch12.stage_whole
  K := PEmpty
  osem := fun k => k.elim
  ho := Pipeline.OwnSemFacts.none _
  hbody c := by rw [hpd]; exact (body_obligation V ι 𝒱₀ c).loose
  hwaits := Pipeline.hwaits_of_owed_zero _ _ _ _ L lv 12 fun c _ => by rw [hpd]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec12 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 12) launch12.win launch12.arr_whole c
      (by rw [hpd]; exact (dat V c).share_full fun _ => rfl) (fun b => V c b) (by rw [hpd]; exact fun _ => rfl)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [hpd, show (dat V c).Φ 0 = Φc c from rfl]; unfold Φc
    rw [show Pipeline.scopedRest (Pipeline.pin (pcfgs (F := F)) adm 12).spec c = _ from scopedRest12_split c]
    iintro ⟨-, -, Hr⟩
    iexact Hr
  hout c := by
    rw [hpd, Pipeline.ownSems0_none, show (dat V c).Φ (Fin.last (Pipeline.pin (pcfgs (F := F)) adm 12).N) = Φc c from rfl]; unfold Φc
    rw [show Pipeline.scopedRest (Pipeline.pin (pcfgs (F := F)) adm 12).spec c = _ from scopedRest12_split c]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 12) launch12.win launch12.arr_whole c pd
      (by rw [hpd]; exact (dat V c).share_full fun _ => rfl) (fun b => V c b) (fun b => Vp c b)
      (fun w => (pd 12 c).arrAt w (Pipeline.pin (pcfgs (F := F)) adm 12).N)
      (fun w => by rw [hpd]; exact arrAt_final V Vp c hout hne w)
      (fun b hb => hne c b fun e => hb (e ▸ Finset.mem_image_of_mem _ (Finset.mem_univ (5 : Fin 6))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      icases HO with ⟨%W, -, HO⟩; iexists W; iexact HO

end Cert.Kernel.Region12

end
-- ==== Proof.K.Region13Base.lean ====
/-
  Region 13 of @main, first part: a hop of the message passing on the grid (6, 6). At the point (i, k) the body adds to
  an accumulator the product of the (i, k) tile of the adjacency operand with rows [1024 k, 1024 k + 1024) of the
  feature operand, each row scaled by the k-th block of the scale column; the accumulator is reset at k = 0, and at
  k = 5 the body writes the two output blocks of row tile i: the accumulator scaled by the i-th block of the same
  scale column, and that block's product with the gate matrix plus the bias row. Two windows stage the one scale
  column, one at block k, the other at block i. Here: the body on any whole staging memrefs, one statement per case
  of the reduction coordinate, and the proof data with each input's buffer at its block. Stated once, for any float family.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Pipeline.FrameBody
import Idealize.ShloMosaic.Lib.Pipeline.Regions
import Idealize.ShloMosaic.Lib.Pipeline.RegionsLoop
import Idealize.ShloMosaic.Lib.Pipeline.Value
import Idealize.ShloMosaic.Lib.Tactic

set_option maxRecDepth 16384

noncomputable section

namespace Cert.Kernel.Region13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions, from the grid coordinates -/

/-- The condition of the first `scf.if` (reset the accumulator): the reduction coordinate is 0. -/
abbrev cond1 (i : grid13.Coords) : Prop :=
  (Scalar.cmpi .ne (Scalar.extui (Scalar.cmpi .eq (BitVec.ofNat 32 (i 1).val) 0#32)) 0#32) = 1#1

/-- The rows of the resident operand the point reads: 1024 rows from row `1024 * k`. -/
abbrev rows (i : grid13.Coords) (x1 : Vec F S6144x256 .bf16) : Vec F S1024x256 .bf16 :=
  View.ld x1 (Rect.unit (s := S6144x256) (k13_off1 i) S1024x256.size (k13_off1_inb i))

theorem z2 : (![0, 0] : Fin 2 → Nat) = fun _ => 0 := by funext a; fin_cases a <;> rfl

/-- A store through the whole-shape rectangle at zero offsets, LAST, leaves its payload. -/
theorem read_store_zero {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

set_option maxHeartbeats 1000000 in
/-- A point in the middle of a reduction (the reduction coordinate neither 0 nor 5): the accumulator gains the point's product. -/
theorem kernelRunB (𝒱₀ : Variants) (c : Dev nD) (i : grid13.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : ¬ k13_cond2 i = 1#1)
    (x0 : Vec F S1024x1024 .bf16) (x1 : Vec F S6144x256 .bf16) (x2 : Vec F S1024x1 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg10 fullShare acc
        ∗ (iprop(owns (c : Thread nD τ) arg2 fullShare x0 ∗ owns (c : Thread nD τ) arg3 fullShare x1
            ∗ owns (c : Thread nD τ) arg4 fullShare x2
            ∗ owns (c : Thread nD τ) arg10 fullShare (k13_pay2 x0 (rows i x1) x2 acc)) -∗ K ⟨⟩))
      ⊢ wp frame (wpE (defs₀ (F := F)) 𝒱₀ c none) E (cc13__hop_kernel i arg2 harg2 arg3 harg3 arg4 harg4 arg5 harg5 arg6 harg6 arg7 harg7 arg8 harg8 arg9 harg9 arg10 harg10) K := by
  simp only [cc13__hop_kernel_eq_skeleton]; unfold cc13__hop_kernel_skel
  unfold owns
  iintro ⟨⟨%f2, %hf2, H2⟩, ⟨%f3, %hf3, H3⟩, ⟨%f4, %hf4, H4⟩, ⟨%f10, %hf10, H10⟩, Hk⟩
  obtain rfl := harg2.eq_unread hf2
  obtain rfl := harg3.eq_unread hf3
  obtain rfl := harg4.eq_unread hf4
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  rw [read_store_zero _ _ z2]
  simp only [View.readAt_eq_ld, hf2, hf3, hf4, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The first point of a reduction (the reduction coordinate 0): the accumulator is reset, then gains the point's product. -/
theorem kernelRunA (𝒱₀ : Variants) (c : Dev nD) (i : grid13.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : cond1 i) (hc2 : ¬ k13_cond2 i = 1#1)
    (x0 : Vec F S1024x1024 .bf16) (x1 : Vec F S6144x256 .bf16) (x2 : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg10 fullShare d)
        ∗ (iprop(owns (c : Thread nD τ) arg2 fullShare x0 ∗ owns (c : Thread nD τ) arg3 fullShare x1
            ∗ owns (c : Thread nD τ) arg4 fullShare x2
            ∗ owns (c : Thread nD τ) arg10 fullShare (k13_pay2 x0 (rows i x1) x2 (k13_pay1 (F := F)))) -∗ K ⟨⟩))
      ⊢ wp frame (wpE (defs₀ (F := F)) 𝒱₀ c none) E (cc13__hop_kernel i arg2 harg2 arg3 harg3 arg4 harg4 arg5 harg5 arg6 harg6 arg7 harg7 arg8 harg8 arg9 harg9 arg10 harg10) K := by
  simp only [cc13__hop_kernel_eq_skeleton]; unfold cc13__hop_kernel_skel
  unfold owns
  iintro ⟨⟨%f2, %hf2, H2⟩, ⟨%f3, %hf3, H3⟩, ⟨%f4, %hf4, H4⟩, ⟨%d10, %f10, -, H10⟩, Hk⟩
  obtain rfl := harg2.eq_unread hf2
  obtain rfl := harg3.eq_unread hf3
  obtain rfl := harg4.eq_unread hf4
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  sl_unfold_run_names
  rw [read_store_zero _ _ z2]
  simp only [View.readAt_eq_ld, hf2, hf3, hf4,  View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The last point of a reduction (the reduction coordinate 5): the accumulator gains the point's product, and the two
    output blocks are written from it. -/
theorem kernelRunC (𝒱₀ : Variants) (c : Dev nD) (i : grid13.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : k13_cond2 i = 1#1)
    (x0 : Vec F S1024x1024 .bf16) (x1 : Vec F S6144x256 .bf16) (x2 : Vec F S1024x1 .f32) (x3 : Vec F S1024x1 .f32)
    (x4 : Vec F S256x256 .bf16) (x5 : Vec F S1x256 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare acc
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k13_pay4 (k13_pay2 x0 (rows i x1) x2 acc) x3)
            ∗ owns (c : Thread nD τ) arg9 fullShare (k13_pay5 (k13_pay2 x0 (rows i x1) x2 acc) x3 x4 x5)
            ∗ owns (c : Thread nD τ) arg10 fullShare (k13_pay2 x0 (rows i x1) x2 acc)) -∗ K ⟨⟩))
      ⊢ wp frame (wpE (defs₀ (F := F)) 𝒱₀ c none) E (cc13__hop_kernel i arg2 harg2 arg3 harg3 arg4 harg4 arg5 harg5 arg6 harg6 arg7 harg7 arg8 harg8 arg9 harg9 arg10 harg10) K := by
  simp only [cc13__hop_kernel_eq_skeleton]; unfold cc13__hop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%f10, %hf10, H10⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]
  · iexists _; isplitr; swap; (· iexact H8); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  isplitl [H9]
  · iexists _; isplitr; swap; (· iexact H9); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  iexists _; isplitr; swap; (· iexact H10); ipureintro
  sl_unfold_run_names
  rw [read_store_zero _ _ z2]
  simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

/-! ## The schedule's closed forms at the reduction coordinate `k = t % 6` -/

theorem hcond1 : ∀ t : Fin cfg13.N, cond1 (grid13.coords t) ↔ t.val % 6 = 0 :=
  (by decide +kernel : ∀ t : Fin grid13.N, cond1 (grid13.coords t) ↔ t.val % 6 = 0)
theorem hcond2 : ∀ t : Fin cfg13.N, k13_cond2 (grid13.coords t) = 1#1 ↔ t.val % 6 = 5 :=
  (by decide +kernel : ∀ t : Fin grid13.N, k13_cond2 (grid13.coords t) = 1#1 ↔ t.val % 6 = 5)
/-- Where the reduction is not at its last tile the body stores nothing into the two outputs' buffers, -/
theorem idle6 : ∀ t : Fin cfg13.N, ¬ t.val % 6 = 5 → cfg13.idle 6 (grid13.coords t) = true :=
  (by decide +kernel : ∀ t : Fin grid13.N, ¬ t.val % 6 = 5 → idle13 6 (grid13.coords t) = true)
theorem idle7 : ∀ t : Fin cfg13.N, ¬ t.val % 6 = 5 → cfg13.idle 7 (grid13.coords t) = true :=
  (by decide +kernel : ∀ t : Fin grid13.N, ¬ t.val % 6 = 5 → idle13 7 (grid13.coords t) = true)
/-- and at its last tile it fills them. -/
theorem live6 : ∀ t : Fin cfg13.N, t.val % 6 = 5 → cfg13.idle 6 (grid13.coords t) = false :=
  (by decide +kernel : ∀ t : Fin grid13.N, t.val % 6 = 5 → idle13 6 (grid13.coords t) = false)
theorem live7 : ∀ t : Fin cfg13.N, t.val % 6 = 5 → cfg13.idle 7 (grid13.coords t) = false :=
  (by decide +kernel : ∀ t : Fin grid13.N, t.val % 6 = 5 → idle13 7 (grid13.coords t) = false)
theorem noflush6 (t : Fin cfg13.N) (h : ¬ t.val % 6 = 5) : (cfg13.win 6).flush t = false :=
  Bool.eq_false_iff.mpr fun hf => h ((flush13_6 t).mp hf)
theorem noflush7 (t : Fin cfg13.N) (h : ¬ t.val % 6 = 5) : (cfg13.win 7).flush t = false :=
  Bool.eq_false_iff.mpr fun hf => h ((flush13_7 t).mp hf)

/-! ## The proof data, at an entry valuation -/

variable (V Vp : Dev nD → Valuation τ sig (Elt F))

/-- Window `w`'s block at point `t`, read off the entry valuation. -/
def iblk (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- THE ACCUMULATION: what the accumulator holds after point `n` — the point's product added to zero at the first tile
    of a reduction (`n % 6 = 0`), to what the point before left elsewhere. -/
def accAt (c : Dev nD) : (n : ℕ) → n < cfg13.N → Vec F S1024x256 .f32
  | 0, hn => k13_pay2 (iblk V c 0 ⟨0, hn⟩) (rows (grid13.coords ⟨0, hn⟩) (iblk V c 1 ⟨0, hn⟩)) (iblk V c 2 ⟨0, hn⟩) (k13_pay1 (F := F))
  | n + 1, hn => k13_pay2 (iblk V c 0 ⟨n + 1, hn⟩) (rows (grid13.coords ⟨n + 1, hn⟩) (iblk V c 1 ⟨n + 1, hn⟩)) (iblk V c 2 ⟨n + 1, hn⟩)
      (if (n + 1) % 6 = 0 then k13_pay1 (F := F) else accAt c n (Nat.lt_of_succ_lt hn))

theorem accAt_first (c : Dev nD) (t : Fin cfg13.N) (h : t.val % 6 = 0) :
    accAt V c t.val t.isLt = k13_pay2 (iblk V c 0 t) (rows (grid13.coords t) (iblk V c 1 t)) (iblk V c 2 t) (k13_pay1 (F := F)) := by
  obtain ⟨n, hn⟩ := t
  cases n with
  | zero => rfl
  | succ n => show accAt V c (n + 1) hn = _; rw [accAt, if_pos h]

theorem accAt_next (c : Dev nD) (t : Fin cfg13.N) (h : ¬ t.val % 6 = 0) :
    accAt V c t.val t.isLt = k13_pay2 (iblk V c 0 t) (rows (grid13.coords t) (iblk V c 1 t)) (iblk V c 2 t)
      (accAt V c (t.val - 1) (Nat.lt_of_le_of_lt (Nat.sub_le _ _) t.isLt)) := by
  obtain ⟨n, hn⟩ := t
  cases n with
  | zero => exact absurd (Nat.zero_mod _) h
  | succ n => show accAt V c (n + 1) hn = _; rw [accAt, if_neg h]; rfl

/-- The accumulator's buffer: the call's one scratch operand. -/
abbrev scM : Memref sig .tc .vmem S1024x256 .f32 := Memref.whole cc13_scratch0

/-- The invariant before position `n`: before the first point every scoped buffer the pipeline does not stage at anything;
    afterwards the accumulator at what the point before left in it, the others at anything. -/
def PhiS (c : Dev nD) : (n : ℕ) → n ≤ cfg13.N → sProp 𝕄
  | 0, _ => Pipeline.scopedRest (Ix := Ix) (Name := ℕ) (U := U) (Lvl := Lvl) (Val := Elt F) spec13 c
  | n + 1, hn => iprop(owns (c : Thread nD τ) scM fullShare (accAt V c n hn)
      ∗ Pipeline.scopedRestBut (Ix := Ix) (Name := ℕ) (U := U) (Lvl := Lvl) (Val := Elt F) spec13 c [cc13_scratch0])

theorem PhiS_zero (c : Dev nD) (n : ℕ) (h : n ≤ cfg13.N) (hz : n = 0) :
    PhiS (Ix := Ix) (U := U) (Lvl := Lvl) V c n h = Pipeline.scopedRest (Ix := Ix) (Name := ℕ) (U := U) (Lvl := Lvl) (Val := Elt F) spec13 c := by
  subst hz; rfl

theorem PhiS_succ (c : Dev nD) (n : ℕ) (hn : n < cfg13.N) :
    PhiS (Ix := Ix) (U := U) (Lvl := Lvl) V c (n + 1) hn = iprop(owns (c : Thread nD τ) scM fullShare (accAt V c n hn)
      ∗ Pipeline.scopedRestBut (Ix := Ix) (Name := ℕ) (U := U) (Lvl := Lvl) (Val := Elt F) spec13 c [cc13_scratch0]) := rfl

theorem PhiS_pos (c : Dev nD) (n : ℕ) (h : n ≤ cfg13.N) (hz : n ≠ 0) :
    PhiS (Ix := Ix) (U := U) (Lvl := Lvl) V c n h = iprop(owns (c : Thread nD τ) scM fullShare (accAt V c (n - 1) (by omega))
      ∗ Pipeline.scopedRestBut (Ix := Ix) (Name := ℕ) (U := U) (Lvl := Lvl) (Val := Elt F) spec13 c [cc13_scratch0]) := by
  cases n with
  | zero => exact absurd rfl hz
  | succ n => rfl

/-- The proof data of one entry of the region, from valuation `V`: the arrays at `V`; after the body each input's buffer at
    its block, the two outputs' at the scaled accumulator and at its product with the gate plus the bias; the invariant
    above; nothing owed; the array two windows stage held half by each, the others whole. -/
def dat (c : Dev nD) : Pipeline.Dat τ (Elt F) Ix ℕ U Lvl cfg13 c where
  A w := V c (Pipeline.arrRef spec13 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k13_pay4 (accAt V c t.val t.isLt) (iblk V c 3 t)
    | ⟨7, _⟩ => k13_pay5 (accAt V c t.val t.isLt) (iblk V c 3 t) (iblk V c 4 t) (iblk V c 5 t)
  Φ t := PhiS V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg13.W) : (dat (Ix := Ix) (U := U) (Lvl := Lvl) V c).A w = V c (Pipeline.arrRef spec13 w) := by
  dsimp only [dat]

theorem PhiS_castSucc (c : Dev nD) (t : Fin cfg13.N) :
    (dat (Ix := Ix) (U := U) (Lvl := Lvl) V c).Φ t.castSucc = PhiS V c t.val (Nat.le_of_lt t.isLt) := by
  dsimp only [dat]; simp only [Fin.coe_castSucc]

theorem after0 (c : Dev nD) (t : Fin cfg13.N) : (dat (Ix := Ix) (U := U) (Lvl := Lvl) V c).after 0 t = iblk V c 0 t := by dsimp only [dat]
theorem after1 (c : Dev nD) (t : Fin cfg13.N) : (dat (Ix := Ix) (U := U) (Lvl := Lvl) V c).after 1 t = iblk V c 1 t := by dsimp only [dat]
theorem after2 (c : Dev nD) (t : Fin cfg13.N) : (dat (Ix := Ix) (U := U) (Lvl := Lvl) V c).after 2 t = iblk V c 2 t := by dsimp only [dat]
theorem after3 (c : Dev nD) (t : Fin cfg13.N) : (dat (Ix := Ix) (U := U) (Lvl := Lvl) V c).after 3 t = iblk V c 3 t := by dsimp only [dat]
theorem after4 (c : Dev nD) (t : Fin cfg13.N) : (dat (Ix := Ix) (U := U) (Lvl := Lvl) V c).after 4 t = iblk V c 4 t := by dsimp only [dat]
theorem after5 (c : Dev nD) (t : Fin cfg13.N) : (dat (Ix := Ix) (U := U) (Lvl := Lvl) V c).after 5 t = iblk V c 5 t := by dsimp only [dat]
theorem after6 (c : Dev nD) (t : Fin cfg13.N) : (dat (Ix := Ix) (U := U) (Lvl := Lvl) V c).after 6 t = k13_pay4 (accAt V c t.val t.isLt) (iblk V c 3 t) := by dsimp only [dat]
theorem after7 (c : Dev nD) (t : Fin cfg13.N) :
    (dat (Ix := Ix) (U := U) (Lvl := Lvl) V c).after 7 t = k13_pay5 (accAt V c t.val t.isLt) (iblk V c 3 t) (iblk V c 4 t) (iblk V c 5 t) := by dsimp only [dat]

/-! Each input's current staging buffer holds its block at every point, fetched there or not: unfetched, the block index
    has not moved. -/

theorem before0 (c : Dev nD) (t : Fin cfg13.N) (d) : (dat (Ix := Ix) (U := U) (Lvl := Lvl) V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg13.N) (d) : (dat (Ix := Ix) (U := U) (Lvl := Lvl) V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg13.N) (d) : (dat (Ix := Ix) (U := U) (Lvl := Lvl) V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg13.N) (d) : (dat (Ix := Ix) (U := U) (Lvl := Lvl) V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg13.N) (d) : (dat (Ix := Ix) (U := U) (Lvl := Lvl) V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg13.N) (d) : (dat (Ix := Ix) (U := U) (Lvl := Lvl) V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.Kernel.Region13

end
-- ==== Proof.K.Region13.lean ====
/-
  Region 13 of @main, second part: the body obligation at a generic grid point, by the reduction coordinate (first tile,
  a middle tile, last tile), and the region's segment over the thread state: entered from every unscoped buffer at an
  entry valuation, left at the exit valuation, which differs from it at the two results only. The scale column two
  windows stage is held half by each of them inside the region. Stated once, for any float family.
-/
import proofs.«414035_j83562883711810_2_alg».proof.Proof.K.Region13Base

set_option maxRecDepth 16384

noncomputable section

namespace Cert.Kernel.Region13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

variable (V Vp : Dev nD → Valuation τ sig (Elt F))

/-! ## The body obligation, at a generic point -/

/-- The staging memrefs the body is called with at point `t`. -/
abbrev ms0 (t : Fin cfg13.N) : Memref sig .tc .vmem S1024x1024 .bf16 := win13_0.stage (cfg13.slots t 0)
abbrev hs0 (t : Fin cfg13.N) : (ms0 t).IsWhole := hstage13_0 ((cfg13.slots t 0).cast nbuf13_0)
abbrev ms1 (t : Fin cfg13.N) : Memref sig .tc .vmem S6144x256 .bf16 := win13_1.stage (cfg13.slots t 1)
abbrev hs1 (t : Fin cfg13.N) : (ms1 t).IsWhole := hstage13_1 ((cfg13.slots t 1).cast nbuf13_1)
abbrev ms2 (t : Fin cfg13.N) : Memref sig .tc .vmem S1024x1 .f32 := win13_2.stage (cfg13.slots t 2)
abbrev hs2 (t : Fin cfg13.N) : (ms2 t).IsWhole := hstage13_2 ((cfg13.slots t 2).cast nbuf13_2)
abbrev ms3 (t : Fin cfg13.N) : Memref sig .tc .vmem S1024x1 .f32 := win13_3.stage (cfg13.slots t 3)
abbrev hs3 (t : Fin cfg13.N) : (ms3 t).IsWhole := hstage13_3 ((cfg13.slots t 3).cast nbuf13_3)
abbrev ms4 (t : Fin cfg13.N) : Memref sig .tc .vmem S256x256 .bf16 := win13_4.stage (cfg13.slots t 4)
abbrev hs4 (t : Fin cfg13.N) : (ms4 t).IsWhole := hstage13_4 ((cfg13.slots t 4).cast nbuf13_4)
abbrev ms5 (t : Fin cfg13.N) : Memref sig .tc .vmem S1x256 .f32 := win13_5.stage (cfg13.slots t 5)
abbrev hs5 (t : Fin cfg13.N) : (ms5 t).IsWhole := hstage13_5 ((cfg13.slots t 5).cast nbuf13_5)
abbrev ms6 (t : Fin cfg13.N) : Memref sig .tc .vmem S1024x256 .bf16 := win13_6.stage (cfg13.slots t 6)
abbrev hs6 (t : Fin cfg13.N) : (ms6 t).IsWhole := hstage13_6 ((cfg13.slots t 6).cast nbuf13_6)
abbrev ms7 (t : Fin cfg13.N) : Memref sig .tc .vmem S1024x256 .f32 := win13_7.stage (cfg13.slots t 7)
abbrev hs7 (t : Fin cfg13.N) : (ms7 t).IsWhole := hstage13_7 ((cfg13.slots t 7).cast nbuf13_7)

/-- What the body is called with at point `t`, the windows one by one, -/
def bodyPre (ι : Ix) (c : Dev nD) (t : Fin cfg13.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms0 t) fullShare ((dat (Ix := Ix) (U := U) (Lvl := Lvl) V c).before 0 t d))
    ∗ (∃ d, owns (c : Thread nD τ) (ms1 t) fullShare ((dat (Ix := Ix) (U := U) (Lvl := Lvl) V c).before 1 t d))
    ∗ (∃ d, owns (c : Thread nD τ) (ms2 t) fullShare ((dat (Ix := Ix) (U := U) (Lvl := Lvl) V c).before 2 t d))
    ∗ (∃ d, owns (c : Thread nD τ) (ms3 t) fullShare ((dat (Ix := Ix) (U := U) (Lvl := Lvl) V c).before 3 t d))
    ∗ (∃ d, owns (c : Thread nD τ) (ms4 t) fullShare ((dat (Ix := Ix) (U := U) (Lvl := Lvl) V c).before 4 t d))
    ∗ (∃ d, owns (c : Thread nD τ) (ms5 t) fullShare ((dat (Ix := Ix) (U := U) (Lvl := Lvl) V c).before 5 t d))
    ∗ (∃ d, owns (c : Thread nD τ) (ms6 t) fullShare ((dat (Ix := Ix) (U := U) (Lvl := Lvl) V c).before 6 t d))
    ∗ (∃ d, owns (c : Thread nD τ) (ms7 t) fullShare ((dat (Ix := Ix) (U := U) (Lvl := Lvl) V c).before 7 t d)))

/-- and what it returns. -/
def bodyPost (ι : Ix) (c : Dev nD) (t : Fin cfg13.N) : sProp 𝕄 :=
  iprop((dat (Ix := Ix) (U := U) (Lvl := Lvl) V c).Φ t.succ ∗ (dat (Ix := Ix) (U := U) (Lvl := Lvl) V c).owesAt ι t.succ
    ∗ (dat (Ix := Ix) (U := U) (Lvl := Lvl) V c).leavesExact 0 t
    ∗ (dat (Ix := Ix) (U := U) (Lvl := Lvl) V c).leavesExact 1 t
    ∗ (dat (Ix := Ix) (U := U) (Lvl := Lvl) V c).leavesExact 2 t
    ∗ (dat (Ix := Ix) (U := U) (Lvl := Lvl) V c).leavesExact 3 t
    ∗ (dat (Ix := Ix) (U := U) (Lvl := Lvl) V c).leavesExact 4 t
    ∗ (dat (Ix := Ix) (U := U) (Lvl := Lvl) V c).leavesExact 5 t
    ∗ (dat (Ix := Ix) (U := U) (Lvl := Lvl) V c).leavesExact 6 t
    ∗ (dat (Ix := Ix) (U := U) (Lvl := Lvl) V c).leavesExact 7 t)

theorem leaves0 (c : Dev nD) (t : Fin cfg13.N) :
    (dat (Ix := Ix) (U := U) (Lvl := Lvl) V c).leavesExact 0 t = owns (c : Thread nD τ) (ms0 t) fullShare (iblk V c 0 t) := by
  unfold Dat.leavesExact; rw [show cfg13.idle 0 (cfg13.grid.coords t) = false from rfl, after0]
theorem leaves1 (c : Dev nD) (t : Fin cfg13.N) :
    (dat (Ix := Ix) (U := U) (Lvl := Lvl) V c).leavesExact 1 t = owns (c : Thread nD τ) (ms1 t) fullShare (iblk V c 1 t) := by
  unfold Dat.leavesExact; rw [show cfg13.idle 1 (cfg13.grid.coords t) = false from rfl, after1]
theorem leaves2 (c : Dev nD) (t : Fin cfg13.N) :
    (dat (Ix := Ix) (U := U) (Lvl := Lvl) V c).leavesExact 2 t = owns (c : Thread nD τ) (ms2 t) fullShare (iblk V c 2 t) := by
  unfold Dat.leavesExact; rw [show cfg13.idle 2 (cfg13.grid.coords t) = false from rfl, after2]
theorem leaves3 (c : Dev nD) (t : Fin cfg13.N) :
    (dat (Ix := Ix) (U := U) (Lvl := Lvl) V c).leavesExact 3 t = owns (c : Thread nD τ) (ms3 t) fullShare (iblk V c 3 t) := by
  unfold Dat.leavesExact; rw [show cfg13.idle 3 (cfg13.grid.coords t) = false from rfl, after3]
theorem leaves4 (c : Dev nD) (t : Fin cfg13.N) :
    (dat (Ix := Ix) (U := U) (Lvl := Lvl) V c).leavesExact 4 t = owns (c : Thread nD τ) (ms4 t) fullShare (iblk V c 4 t) := by
  unfold Dat.leavesExact; rw [show cfg13.idle 4 (cfg13.grid.coords t) = false from rfl, after4]
theorem leaves5 (c : Dev nD) (t : Fin cfg13.N) :
    (dat (Ix := Ix) (U := U) (Lvl := Lvl) V c).leavesExact 5 t = owns (c : Thread nD τ) (ms5 t) fullShare (iblk V c 5 t) := by
  unfold Dat.leavesExact; rw [show cfg13.idle 5 (cfg13.grid.coords t) = false from rfl, after5]

/-- Whatever the position, the invariant holds the accumulator's buffer at something beside the other scoped buffers. -/
theorem PhiS_any (c : Dev nD) (n : ℕ) (h : n ≤ cfg13.N) :
    PhiS (Ix := Ix) (U := U) (Lvl := Lvl) V c n h ⊢ iprop((∃ d, owns (c : Thread nD τ) scM fullShare d)
      ∗ Pipeline.scopedRestBut (Ix := Ix) (Name := ℕ) (U := U) (Lvl := Lvl) (Val := Elt F) spec13 c [cc13_scratch0]) := by
  cases n with
  | zero =>
    rw [PhiS_zero V c 0 h rfl, scopedRest13_split]
    iintro ⟨⟨%fs, HS⟩, HR⟩
    isplitl [HS]
    · iexists fs; rw [owns_whole]; iexact HS
    iexact HR
  | succ n =>
    rw [PhiS_succ]
    iintro ⟨HS, HR⟩
    isplitl [HS]
    · iexists _; iexact HS
    iexact HR

set_option maxHeartbeats 4000000 in
/-- The body at any point, by the reduction coordinate: first tile, a middle tile, last tile. -/
theorem sound_body (ι : Ix) (𝒱₀ : Variants) (c : Dev nD) (t : Fin cfg13.N) :
    bodyPre (U := U) (Lvl := Lvl) V ι c t ⊢ wp frame (wpE (defs₀ (F := F)) 𝒱₀ c none) Set.univ (bodyAt13 t) (fun _ => bodyPost (U := U) (Lvl := Lvl) V ι c t) := by
  unfold bodyPre bodyPost bodyAt13
  simp only [before0, before1, before2, before3, before4, before5]
  rw [show (dat (Ix := Ix) (U := U) (Lvl := Lvl) V c).owesAt ι t.succ = (dat (Ix := Ix) (U := U) (Lvl := Lvl) V c).owesAt ι t.castSucc from rfl]
  rw [show (dat (Ix := Ix) (U := U) (Lvl := Lvl) V c).Φ t.succ = PhiS V c (t.val + 1) t.isLt from rfl, PhiS_succ, PhiS_castSucc]
  rw [leaves0, leaves1, leaves2, leaves3, leaves4, leaves5]
  have hN : t.val < 36 := lt_of_lt_of_eq t.isLt (show cfg13.N = 36 from N_13)
  by_cases h0 : t.val % 6 = 0
  · have h5 : ¬ t.val % 6 = 5 := by omega
    rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
    rw [accAt_first V c t h0]
    iintro ⟨HΦ, Ho, ⟨%d0, H0⟩, ⟨%d1, H1⟩, ⟨%d2, H2⟩, ⟨%d3, H3⟩, ⟨%d4, H4⟩, ⟨%d5, H5⟩, H6, H7⟩
    ihave HΦ' := (PhiS_any V c _ _) $$ HΦ
    icases HΦ' with ⟨HS, HR⟩
    iapply (kernelRunA (Ix := Ix) (U := U) (Lvl := Lvl) 𝒱₀ c (grid13.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
      ((hcond1 t).mpr h0) (fun h => h5 ((hcond2 t).mp h)) (iblk V c 0 t) (iblk V c 1 t) (iblk V c 2 t) Set.univ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h0 (by rw [e])
    rw [PhiS_pos V c _ _ hz, accAt_next V c t h0]
    by_cases h5 : t.val % 6 = 5
    · rw [show (dat (Ix := Ix) (U := U) (Lvl := Lvl) V c).leavesExact 6 t = owns (c : Thread nD τ) (ms6 t) fullShare ((dat (Ix := Ix) (U := U) (Lvl := Lvl) V c).after 6 t) from by
        unfold Dat.leavesExact; rw [live6 t h5], after6]
      rw [show (dat (Ix := Ix) (U := U) (Lvl := Lvl) V c).leavesExact 7 t = owns (c : Thread nD τ) (ms7 t) fullShare ((dat (Ix := Ix) (U := U) (Lvl := Lvl) V c).after 7 t) from by
        unfold Dat.leavesExact; rw [live7 t h5], after7]
      rw [accAt_next V c t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRunC (Ix := Ix) (U := U) (Lvl := Lvl) 𝒱₀ c (grid13.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) ((hcond2 t).mpr h5) (iblk V c 0 t) (iblk V c 1 t) (iblk V c 2 t) (iblk V c 3 t) (iblk V c 4 t) (iblk V c 5 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
      iintro ⟨⟨HS, HR⟩, Ho, ⟨%d0, H0⟩, ⟨%d1, H1⟩, ⟨%d2, H2⟩, ⟨%d3, H3⟩, ⟨%d4, H4⟩, ⟨%d5, H5⟩, H6, H7⟩
      iapply (kernelRunB (Ix := Ix) (U := U) (Lvl := Lvl) 𝒱₀ c (grid13.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) (fun h => h5 ((hcond2 t).mp h)) (iblk V c 0 t) (iblk V c 1 t) (iblk V c 2 t)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (ι : Ix) (𝒱₀ : Variants) (c : Dev nD) :
    Pipeline.BodyObligation (dat (Ix := Ix) (U := U) (Lvl := Lvl) V c) (defs₀ (F := F)) 𝒱₀ ι Set.univ := fun t => by
  rw [bigSep_W13, bigSep_W13]
  exact sound_body V ι 𝒱₀ c t

/-! ## The region over the thread state -/

/-- The prefetched tables' admissible contents: no call has a table. -/
abbrev adm : (p : Fin 17) → (pcfgs (F := F) p).Adm := fun p => (cfgs p).toPCfg_adm

/-- The seven distinct buffers behind the eight windows' arrays. -/
theorem arrRefs : Finset.univ.image (Pipeline.arrRef spec13)
    = [main_v147, main_v158, main_v148, main_v149, main_v42, main_v159_0, main_v159_1].toFinset := by decide

/-- A core's unscoped buffers at a valuation: those seven, each whole at the full share, and the rest. -/
theorem held_split (c : Dev nD) (W : Valuation τ sig (Elt F)) :
    (StableHlo.held (c : Thread nD τ) (Pipeline.ucRefs τ sig) W : sProp 𝕄)
      = iprop(iprop((((c : Thread nD τ).loc main_v147) ↦{fullShare} W main_v147) ∗ (((c : Thread nD τ).loc main_v158) ↦{fullShare} W main_v158)
          ∗ (((c : Thread nD τ).loc main_v148) ↦{fullShare} W main_v148) ∗ (((c : Thread nD τ).loc main_v149) ↦{fullShare} W main_v149)
          ∗ (((c : Thread nD τ).loc main_v42) ↦{fullShare} W main_v42) ∗ (((c : Thread nD τ).loc main_v159_0) ↦{fullShare} W main_v159_0)
          ∗ (((c : Thread nD τ).loc main_v159_1) ↦{fullShare} W main_v159_1))
        ∗ Pipeline.unscopedRest (Ix := Ix) (Name := ℕ) (U := U) (Lvl := Lvl) spec13 c (fun b => W b)) := by
  rw [← Pipeline.unscopedBufs_held c W, Pipeline.unscopedBufs_split₀ cfgs 13 winFacts₀13.arr_unscoped c (fun b => W b)] -- pipeline index
  show iprop(Pipeline.arrBufs spec13 c (fun b => W b) ∗ Pipeline.unscopedRest spec13 c (fun b => W b)) = _
  unfold Pipeline.arrBufs
  rw [bigSep_eq_bigSepL_of_eq _ arrRefs (by decide)]
  rfl

/-- The windows' arrays as the proof data holds them: the array two windows stage half by each, the others whole. -/
theorem arrays_eq (c : Dev nD) (Fw : (w : Fin cfg13.W) → Buf (Elt F) ((cfg13.win w).arr.view.loc (c : Thread nD τ))) :
    ((dat (Ix := Ix) (U := U) (Lvl := Lvl) V c).arrays Fw : sProp 𝕄)
      = iprop((((c : Thread nD τ).loc main_v147) ↦{fullShare} Fw 0) ∗ (((c : Thread nD τ).loc main_v158) ↦{fullShare} Fw 1)
          ∗ (((c : Thread nD τ).loc main_v148) ↦{fullShare.left} Fw 2) ∗ (((c : Thread nD τ).loc main_v148) ↦{fullShare.right} Fw 3)
          ∗ (((c : Thread nD τ).loc main_v149) ↦{fullShare} Fw 4) ∗ (((c : Thread nD τ).loc main_v42) ↦{fullShare} Fw 5)
          ∗ (((c : Thread nD τ).loc main_v159_0) ↦{fullShare} Fw 6) ∗ (((c : Thread nD τ).loc main_v159_1) ↦{fullShare} Fw 7)) := by
  unfold Dat.arrays
  rw [bigSep_congr fun w _ => show (((cfg13.win w).arr.view.loc (c : Thread nD τ) ↦[(cfg13.win w).arr.view.set]{(dat (Ix := Ix) (U := U) (Lvl := Lvl) V c).share w} Fw w : sProp 𝕄))
      = (((c : Thread nD τ).loc (Pipeline.arrRef spec13 w)) ↦{(dat (Ix := Ix) (U := U) (Lvl := Lvl) V c).share w} Fw w) from by rw [(arr_whole13 w).set_eq_univ],
    bigSep_W13]
  rfl

/-- The unscoped buffers no window stages are the same at two valuations that differ only at the two results. -/
theorem rest_congr (c : Dev nD) (hne : ∀ (b : Ref sig .tc), b ≠ main_v159_0 → b ≠ main_v159_1 → Vp c b = V c b) :
    (Pipeline.unscopedRest (Ix := Ix) (Name := ℕ) (U := U) (Lvl := Lvl) spec13 c (fun b => Vp c b) : sProp 𝕄)
      = Pipeline.unscopedRest spec13 c (fun b => V c b) := by
  unfold Pipeline.unscopedRest
  refine bigSep_congr fun b hb => ?_
  have hb' := (Finset.mem_sdiff.mp hb).2
  rw [arrRefs] at hb'
  dsimp only
  rw [hne b (fun e => by subst e; exact hb' (by decide)) (fun e => by subst e; exact hb' (by decide))]

/-- ENTRY: the windows' arrays out of the unscoped buffers, the array two windows stage split half and half. -/
theorem hentry13 (ι : Ix) (L : GSem nD τ sig → Finset Ix) (lv : GSem nD τ sig → Ix → Lvl) (c : Dev nD) :
    iprop(iprop(StableHlo.held (c : Thread nD τ) (Pipeline.ucRefs τ sig) (V c) ∗ iprop(∃ W, owes (c : Thread nD τ) (0 : CellTallies nD τ sig Ix) W))
        ∗ Pipeline.ownSems0 (Ix := Ix) (Name := ℕ) (U := U) (Lvl := Lvl) (Val := Elt F) (τ := τ) (fun k : PEmpty => k.elim) c ∗ levAts L lv)
      ⊢ (|={Set.univ}=> iprop((dat (Ix := Ix) (U := U) (Lvl := Lvl) V c).arrays ((dat (Ix := Ix) (U := U) (Lvl := Lvl) V c).arrAt · 0)
          ∗ Pipeline.prefHeld (pcfgs (F := F) 13).pre c (fun _ => fullShare) (adm 13).1 -- pipeline index
          ∗ (dat (Ix := Ix) (U := U) (Lvl := Lvl) V c).owesAt ι 0 ∗ BI.emp ∗ Pipeline.unscopedRest (Ix := Ix) (Name := ℕ) (U := U) (Lvl := Lvl) spec13 c (fun b => V c b)) : sProp 𝕄) := by
  rw [held_split, arrays_eq]
  iintro ⟨⟨⟨⟨H147, H158, H148, H149, H42, H0, H1⟩, HZ⟩, HO⟩, -, -⟩
  ihave H148' := (pointsTo_share (PosShare.mem_left_op_right fullShare)).1 $$ H148
  icases H148' with ⟨H148l, H148r⟩
  imodintro
  isplitl [H147 H158 H148l H148r H149 H42 H0 H1]
  · isplitl [H147]; · iexact H147
    isplitl [H158]; · iexact H158
    isplitl [H148l]; · iexact H148l
    isplitl [H148r]; · iexact H148r
    isplitl [H149]; · iexact H149
    isplitl [H42]; · iexact H42
    isplitl [H0]; · iexact H0
    iexact H1
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact HZ

/-- The invariant at the first point is the scoped buffers the pipeline does not stage. -/
theorem hin13 (c : Dev nD) :
    iprop(BI.emp ∗ Pipeline.prefHeld (pcfgs (F := F) 13).pre c (fun _ => fullShare) (adm 13).1 -- pipeline index
        ∗ Pipeline.scopedRest (Ix := Ix) (Name := ℕ) (U := U) (Lvl := Lvl) (Val := Elt F) spec13 c) ⊢ ((dat (Ix := Ix) (U := U) (Lvl := Lvl) V c).Φ 0 : sProp 𝕄) := by
  rw [show (dat (Ix := Ix) (U := U) (Lvl := Lvl) V c).Φ 0 = PhiS V c 0 (Nat.zero_le _) from rfl, PhiS_zero V c 0 _ rfl]
  iintro ⟨-, -, HR⟩; iexact HR

/-- The invariant at the last point gives them back, the accumulator's contents forgotten. -/
theorem hout13 (c : Dev nD) :
    ((dat (Ix := Ix) (U := U) (Lvl := Lvl) V c).Φ (Fin.last cfg13.N) : sProp 𝕄)
      ⊢ iprop(BI.emp ∗ Pipeline.ownSems0 (Ix := Ix) (Name := ℕ) (U := U) (Lvl := Lvl) (Val := Elt F) (τ := τ) (fun k : PEmpty => k.elim) c
          ∗ Pipeline.scopedRest (Ix := Ix) (Name := ℕ) (U := U) (Lvl := Lvl) (Val := Elt F) spec13 c) := by
  rw [Pipeline.ownSems0_none nD τ sig (Elt F) Ix ℕ U Lvl c,
    show (dat (Ix := Ix) (U := U) (Lvl := Lvl) V c).Φ (Fin.last cfg13.N) = PhiS V c cfg13.N (Nat.le_refl _) from rfl]
  iintro HΦ
  ihave HΦ' := (PhiS_any V c _ _) $$ HΦ
  icases HΦ' with ⟨⟨%d, HS⟩, HR⟩
  isplitr; · iempintro
  isplitr; · iempintro
  rw [scopedRest13_split]
  isplitl [HS]
  · iexists d
    iapply (Entails.of_eq (owns_whole (c : Thread nD τ) cc13_scratch0 fullShare d))
    iexact HS
  iexact HR

/-- EXIT: the halves of the shared array rejoined, the two results at what the proof data computes, every other
    buffer as it was: the unscoped buffers at the exit valuation. -/
theorem hexit13 (ι : Ix) (c : Dev nD)
    (hout6 : Vp c main_v159_0 = (dat (Ix := Ix) (U := U) (Lvl := Lvl) V c).arrAt 6 cfg13.N)
    (hout7 : Vp c main_v159_1 = (dat (Ix := Ix) (U := U) (Lvl := Lvl) V c).arrAt 7 cfg13.N)
    (hne : ∀ (b : Ref sig .tc), b ≠ main_v159_0 → b ≠ main_v159_1 → Vp c b = V c b) :
    iprop((dat (Ix := Ix) (U := U) (Lvl := Lvl) V c).arrays ((dat (Ix := Ix) (U := U) (Lvl := Lvl) V c).arrAt · cfg13.N) ∗ (dat (Ix := Ix) (U := U) (Lvl := Lvl) V c).owesAt ι (Fin.last cfg13.N)
        ∗ BI.emp ∗ Pipeline.unscopedRest (Ix := Ix) (Name := ℕ) (U := U) (Lvl := Lvl) spec13 c (fun b => V c b))
      ⊢ (|={Set.univ}=> iprop(StableHlo.held (c : Thread nD τ) (Pipeline.ucRefs τ sig) (Vp c) ∗ iprop(∃ W, owes (c : Thread nD τ) (0 : CellTallies nD τ sig Ix) W)) : sProp 𝕄) := by
  rw [held_split, arrays_eq, rest_congr V Vp c hne]
  have e0 := (dat (Ix := Ix) (U := U) (Lvl := Lvl) V c).arrAt_in 0 rfl cfg13.N
  have e1 := (dat (Ix := Ix) (U := U) (Lvl := Lvl) V c).arrAt_in 1 rfl cfg13.N
  have e2 := (dat (Ix := Ix) (U := U) (Lvl := Lvl) V c).arrAt_in 2 rfl cfg13.N
  have e3 := (dat (Ix := Ix) (U := U) (Lvl := Lvl) V c).arrAt_in 3 rfl cfg13.N
  have e4 := (dat (Ix := Ix) (U := U) (Lvl := Lvl) V c).arrAt_in 4 rfl cfg13.N
  have e5 := (dat (Ix := Ix) (U := U) (Lvl := Lvl) V c).arrAt_in 5 rfl cfg13.N
  rw [A_eq] at e0 e1 e2 e3 e4 e5
  rw [e0, e1, e2, e3, e4, e5, ← hout6, ← hout7,
    hne main_v147 (by decide) (by decide), hne main_v158 (by decide) (by decide), hne main_v148 (by decide) (by decide),
    hne main_v149 (by decide) (by decide), hne main_v42 (by decide) (by decide)]
  iintro ⟨⟨H147, H158, H148l, H148r, H149, H42, H0, H1⟩, HO, -, HZ⟩
  ihave H148 := (pointsTo_share (PosShare.mem_left_op_right fullShare)).2 $$ [H148l H148r]
  · isplitl [H148l]; · iexact H148l
    iexact H148r
  imodintro
  isplitr [HO]
  · isplitr [HZ]
    · isplitl [H147]; · iexact H147
      isplitl [H158]; · iexact H158
      isplitl [H148]; · iexact H148
      isplitl [H149]; · iexact H149
      isplitl [H42]; · iexact H42
      isplitl [H0]; · iexact H0
      iexact H1
    iexact HZ
  · unfold Pipeline.Dat.owesAt Pipeline.owesWithin
    icases HO with ⟨%W, -, HO⟩; iexists W; iexact HO

set_option backward.isDefEq.respectTransparency.types false in
/-- THE REGION: entered from every unscoped buffer at `V c` — the eight windows' arrays into the pipeline, the array two
    windows stage split half and half between them, every other unscoped buffer bypassing —, left with the two results
    at what the proof data computes and every other buffer as it was. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd 13 c = dat V c) -- pipeline index
    (hout6 : ∀ c, Vp c main_v159_0 = (dat (Ix := Ix) (U := U) (Lvl := Lvl) V c).arrAt 6 cfg13.N)
    (hout7 : ∀ c, Vp c main_v159_1 = (dat (Ix := Ix) (U := U) (Lvl := Lvl) V c).arrAt 7 cfg13.N)
    (hne : ∀ c (b : Ref sig .tc), b ≠ main_v159_0 → b ≠ main_v159_1 → Vp c b = V c b) :
    Pipeline.RegionSeg (pcfgs (F := F)) adm pd ι defs₀ 𝒱₀ L lv 13 where -- pipeline index
  win := winFacts₀13
  block_pos := block_pos13
  stage_whole := stage_whole13
  K := PEmpty
  osem := fun k => k.elim
  ho := Pipeline.OwnSemFacts.none _
  hbody c := by rw [hpd c]; exact (body_obligation V ι 𝒱₀ c).loose
  hwaits := Pipeline.hwaits_of_owed_zero _ _ _ _ L lv 13 fun c _ => by rw [hpd c]; rfl -- pipeline index
  pre c := iprop(StableHlo.held (c : Thread nD τ) (Pipeline.ucRefs τ sig) (V c) ∗ iprop(∃ W, owes (c : Thread nD τ) (0 : CellTallies nD τ sig Ix) W))
  post c := iprop(StableHlo.held (c : Thread nD τ) (Pipeline.ucRefs τ sig) (Vp c) ∗ iprop(∃ W, owes (c : Thread nD τ) (0 : CellTallies nD τ sig Ix) W))
  X _ := (BI.emp : sProp 𝕄)
  Y _ := (BI.emp : sProp 𝕄)
  Z c := Pipeline.unscopedRest (Ix := Ix) (Name := ℕ) (U := U) (Lvl := Lvl) spec13 c (fun b => V c b)
  hentry c := by rw [hpd c]; exact hentry13 V ι L lv c
  hin c := by rw [hpd c]; exact hin13 V c
  hout c := by rw [hpd c]; exact hout13 V c
  hexit c := by rw [hpd c]; exact hexit13 V Vp ι c (hout6 c) (hout7 c) (hne c)

end Cert.Kernel.Region13

end
-- ==== Proof.K.Region14Base.lean ====
/-
  Region 14 of @main, first part: a hop of the message passing on the grid (6, 6). At the point (i, k) the body adds to
  an accumulator the product of the (i, k) tile of the adjacency operand with rows [1024 k, 1024 k + 1024) of the
  feature operand, each row scaled by the k-th block of the scale column; the accumulator is reset at k = 0, and at
  k = 5 the body writes the two output blocks of row tile i: the accumulator scaled by the i-th block of the same
  scale column, and that block's product with the gate matrix plus the bias row. Two windows stage the one scale
  column, one at block k, the other at block i. Here: the body on any whole staging memrefs, one statement per case
  of the reduction coordinate, and the proof data with each input's buffer at its block. Stated once, for any float family.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Pipeline.FrameBody
import Idealize.ShloMosaic.Lib.Pipeline.Regions
import Idealize.ShloMosaic.Lib.Pipeline.RegionsLoop
import Idealize.ShloMosaic.Lib.Pipeline.Value
import Idealize.ShloMosaic.Lib.Tactic

set_option maxRecDepth 16384

noncomputable section

namespace Cert.Kernel.Region14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions, from the grid coordinates -/

/-- The condition of the first `scf.if` (reset the accumulator): the reduction coordinate is 0. -/
abbrev cond1 (i : grid14.Coords) : Prop :=
  (Scalar.cmpi .ne (Scalar.extui (Scalar.cmpi .eq (BitVec.ofNat 32 (i 1).val) 0#32)) 0#32) = 1#1

/-- The rows of the resident operand the point reads: 1024 rows from row `1024 * k`. -/
abbrev rows (i : grid14.Coords) (x1 : Vec F S6144x256 .bf16) : Vec F S1024x256 .bf16 :=
  View.ld x1 (Rect.unit (s := S6144x256) (k14_off1 i) S1024x256.size (k14_off1_inb i))

theorem z2 : (![0, 0] : Fin 2 → Nat) = fun _ => 0 := by funext a; fin_cases a <;> rfl

/-- A store through the whole-shape rectangle at zero offsets, LAST, leaves its payload. -/
theorem read_store_zero {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

set_option maxHeartbeats 1000000 in
/-- A point in the middle of a reduction (the reduction coordinate neither 0 nor 5): the accumulator gains the point's product. -/
theorem kernelRunB (𝒱₀ : Variants) (c : Dev nD) (i : grid14.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : ¬ k14_cond2 i = 1#1)
    (x0 : Vec F S1024x1024 .bf16) (x1 : Vec F S6144x256 .bf16) (x2 : Vec F S1024x1 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg10 fullShare acc
        ∗ (iprop(owns (c : Thread nD τ) arg2 fullShare x0 ∗ owns (c : Thread nD τ) arg3 fullShare x1
            ∗ owns (c : Thread nD τ) arg4 fullShare x2
            ∗ owns (c : Thread nD τ) arg10 fullShare (k14_pay2 x0 (rows i x1) x2 acc)) -∗ K ⟨⟩))
      ⊢ wp frame (wpE (defs₀ (F := F)) 𝒱₀ c none) E (cc14__hop_kernel i arg2 harg2 arg3 harg3 arg4 harg4 arg5 harg5 arg6 harg6 arg7 harg7 arg8 harg8 arg9 harg9 arg10 harg10) K := by
  simp only [cc14__hop_kernel_eq_skeleton]; unfold cc14__hop_kernel_skel
  unfold owns
  iintro ⟨⟨%f2, %hf2, H2⟩, ⟨%f3, %hf3, H3⟩, ⟨%f4, %hf4, H4⟩, ⟨%f10, %hf10, H10⟩, Hk⟩
  obtain rfl := harg2.eq_unread hf2
  obtain rfl := harg3.eq_unread hf3
  obtain rfl := harg4.eq_unread hf4
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  rw [read_store_zero _ _ z2]
  simp only [View.readAt_eq_ld, hf2, hf3, hf4, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The first point of a reduction (the reduction coordinate 0): the accumulator is reset, then gains the point's product. -/
theorem kernelRunA (𝒱₀ : Variants) (c : Dev nD) (i : grid14.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : cond1 i) (hc2 : ¬ k14_cond2 i = 1#1)
    (x0 : Vec F S1024x1024 .bf16) (x1 : Vec F S6144x256 .bf16) (x2 : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg10 fullShare d)
        ∗ (iprop(owns (c : Thread nD τ) arg2 fullShare x0 ∗ owns (c : Thread nD τ) arg3 fullShare x1
            ∗ owns (c : Thread nD τ) arg4 fullShare x2
            ∗ owns (c : Thread nD τ) arg10 fullShare (k14_pay2 x0 (rows i x1) x2 (k14_pay1 (F := F)))) -∗ K ⟨⟩))
      ⊢ wp frame (wpE (defs₀ (F := F)) 𝒱₀ c none) E (cc14__hop_kernel i arg2 harg2 arg3 harg3 arg4 harg4 arg5 harg5 arg6 harg6 arg7 harg7 arg8 harg8 arg9 harg9 arg10 harg10) K := by
  simp only [cc14__hop_kernel_eq_skeleton]; unfold cc14__hop_kernel_skel
  unfold owns
  iintro ⟨⟨%f2, %hf2, H2⟩, ⟨%f3, %hf3, H3⟩, ⟨%f4, %hf4, H4⟩, ⟨%d10, %f10, -, H10⟩, Hk⟩
  obtain rfl := harg2.eq_unread hf2
  obtain rfl := harg3.eq_unread hf3
  obtain rfl := harg4.eq_unread hf4
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  sl_unfold_run_names
  rw [read_store_zero _ _ z2]
  simp only [View.readAt_eq_ld, hf2, hf3, hf4,  View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The last point of a reduction (the reduction coordinate 5): the accumulator gains the point's product, and the two
    output blocks are written from it. -/
theorem kernelRunC (𝒱₀ : Variants) (c : Dev nD) (i : grid14.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : k14_cond2 i = 1#1)
    (x0 : Vec F S1024x1024 .bf16) (x1 : Vec F S6144x256 .bf16) (x2 : Vec F S1024x1 .f32) (x3 : Vec F S1024x1 .f32)
    (x4 : Vec F S256x256 .bf16) (x5 : Vec F S1x256 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare acc
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k14_pay4 (k14_pay2 x0 (rows i x1) x2 acc) x3)
            ∗ owns (c : Thread nD τ) arg9 fullShare (k14_pay5 (k14_pay2 x0 (rows i x1) x2 acc) x3 x4 x5)
            ∗ owns (c : Thread nD τ) arg10 fullShare (k14_pay2 x0 (rows i x1) x2 acc)) -∗ K ⟨⟩))
      ⊢ wp frame (wpE (defs₀ (F := F)) 𝒱₀ c none) E (cc14__hop_kernel i arg2 harg2 arg3 harg3 arg4 harg4 arg5 harg5 arg6 harg6 arg7 harg7 arg8 harg8 arg9 harg9 arg10 harg10) K := by
  simp only [cc14__hop_kernel_eq_skeleton]; unfold cc14__hop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%f10, %hf10, H10⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]
  · iexists _; isplitr; swap; (· iexact H8); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  isplitl [H9]
  · iexists _; isplitr; swap; (· iexact H9); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  iexists _; isplitr; swap; (· iexact H10); ipureintro
  sl_unfold_run_names
  rw [read_store_zero _ _ z2]
  simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

/-! ## The schedule's closed forms at the reduction coordinate `k = t % 6` -/

theorem hcond1 : ∀ t : Fin cfg14.N, cond1 (grid14.coords t) ↔ t.val % 6 = 0 :=
  (by decide +kernel : ∀ t : Fin grid14.N, cond1 (grid14.coords t) ↔ t.val % 6 = 0)
theorem hcond2 : ∀ t : Fin cfg14.N, k14_cond2 (grid14.coords t) = 1#1 ↔ t.val % 6 = 5 :=
  (by decide +kernel : ∀ t : Fin grid14.N, k14_cond2 (grid14.coords t) = 1#1 ↔ t.val % 6 = 5)
/-- Where the reduction is not at its last tile the body stores nothing into the two outputs' buffers, -/
theorem idle6 : ∀ t : Fin cfg14.N, ¬ t.val % 6 = 5 → cfg14.idle 6 (grid14.coords t) = true :=
  (by decide +kernel : ∀ t : Fin grid14.N, ¬ t.val % 6 = 5 → idle14 6 (grid14.coords t) = true)
theorem idle7 : ∀ t : Fin cfg14.N, ¬ t.val % 6 = 5 → cfg14.idle 7 (grid14.coords t) = true :=
  (by decide +kernel : ∀ t : Fin grid14.N, ¬ t.val % 6 = 5 → idle14 7 (grid14.coords t) = true)
/-- and at its last tile it fills them. -/
theorem live6 : ∀ t : Fin cfg14.N, t.val % 6 = 5 → cfg14.idle 6 (grid14.coords t) = false :=
  (by decide +kernel : ∀ t : Fin grid14.N, t.val % 6 = 5 → idle14 6 (grid14.coords t) = false)
theorem live7 : ∀ t : Fin cfg14.N, t.val % 6 = 5 → cfg14.idle 7 (grid14.coords t) = false :=
  (by decide +kernel : ∀ t : Fin grid14.N, t.val % 6 = 5 → idle14 7 (grid14.coords t) = false)
theorem noflush6 (t : Fin cfg14.N) (h : ¬ t.val % 6 = 5) : (cfg14.win 6).flush t = false :=
  Bool.eq_false_iff.mpr fun hf => h ((flush14_6 t).mp hf)
theorem noflush7 (t : Fin cfg14.N) (h : ¬ t.val % 6 = 5) : (cfg14.win 7).flush t = false :=
  Bool.eq_false_iff.mpr fun hf => h ((flush14_7 t).mp hf)

/-! ## The proof data, at an entry valuation -/

variable (V Vp : Dev nD → Valuation τ sig (Elt F))

/-- Window `w`'s block at point `t`, read off the entry valuation. -/
def iblk (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- THE ACCUMULATION: what the accumulator holds after point `n` — the point's product added to zero at the first tile
    of a reduction (`n % 6 = 0`), to what the point before left elsewhere. -/
def accAt (c : Dev nD) : (n : ℕ) → n < cfg14.N → Vec F S1024x256 .f32
  | 0, hn => k14_pay2 (iblk V c 0 ⟨0, hn⟩) (rows (grid14.coords ⟨0, hn⟩) (iblk V c 1 ⟨0, hn⟩)) (iblk V c 2 ⟨0, hn⟩) (k14_pay1 (F := F))
  | n + 1, hn => k14_pay2 (iblk V c 0 ⟨n + 1, hn⟩) (rows (grid14.coords ⟨n + 1, hn⟩) (iblk V c 1 ⟨n + 1, hn⟩)) (iblk V c 2 ⟨n + 1, hn⟩)
      (if (n + 1) % 6 = 0 then k14_pay1 (F := F) else accAt c n (Nat.lt_of_succ_lt hn))

theorem accAt_first (c : Dev nD) (t : Fin cfg14.N) (h : t.val % 6 = 0) :
    accAt V c t.val t.isLt = k14_pay2 (iblk V c 0 t) (rows (grid14.coords t) (iblk V c 1 t)) (iblk V c 2 t) (k14_pay1 (F := F)) := by
  obtain ⟨n, hn⟩ := t
  cases n with
  | zero => rfl
  | succ n => show accAt V c (n + 1) hn = _; rw [accAt, if_pos h]

theorem accAt_next (c : Dev nD) (t : Fin cfg14.N) (h : ¬ t.val % 6 = 0) :
    accAt V c t.val t.isLt = k14_pay2 (iblk V c 0 t) (rows (grid14.coords t) (iblk V c 1 t)) (iblk V c 2 t)
      (accAt V c (t.val - 1) (Nat.lt_of_le_of_lt (Nat.sub_le _ _) t.isLt)) := by
  obtain ⟨n, hn⟩ := t
  cases n with
  | zero => exact absurd (Nat.zero_mod _) h
  | succ n => show accAt V c (n + 1) hn = _; rw [accAt, if_neg h]; rfl

/-- The accumulator's buffer: the call's one scratch operand. -/
abbrev scM : Memref sig .tc .vmem S1024x256 .f32 := Memref.whole cc14_scratch0

/-- The invariant before position `n`: before the first point every scoped buffer the pipeline does not stage at anything;
    afterwards the accumulator at what the point before left in it, the others at anything. -/
def PhiS (c : Dev nD) : (n : ℕ) → n ≤ cfg14.N → sProp 𝕄
  | 0, _ => Pipeline.scopedRest (Ix := Ix) (Name := ℕ) (U := U) (Lvl := Lvl) (Val := Elt F) spec14 c
  | n + 1, hn => iprop(owns (c : Thread nD τ) scM fullShare (accAt V c n hn)
      ∗ Pipeline.scopedRestBut (Ix := Ix) (Name := ℕ) (U := U) (Lvl := Lvl) (Val := Elt F) spec14 c [cc14_scratch0])

theorem PhiS_zero (c : Dev nD) (n : ℕ) (h : n ≤ cfg14.N) (hz : n = 0) :
    PhiS (Ix := Ix) (U := U) (Lvl := Lvl) V c n h = Pipeline.scopedRest (Ix := Ix) (Name := ℕ) (U := U) (Lvl := Lvl) (Val := Elt F) spec14 c := by
  subst hz; rfl

theorem PhiS_succ (c : Dev nD) (n : ℕ) (hn : n < cfg14.N) :
    PhiS (Ix := Ix) (U := U) (Lvl := Lvl) V c (n + 1) hn = iprop(owns (c : Thread nD τ) scM fullShare (accAt V c n hn)
      ∗ Pipeline.scopedRestBut (Ix := Ix) (Name := ℕ) (U := U) (Lvl := Lvl) (Val := Elt F) spec14 c [cc14_scratch0]) := rfl

theorem PhiS_pos (c : Dev nD) (n : ℕ) (h : n ≤ cfg14.N) (hz : n ≠ 0) :
    PhiS (Ix := Ix) (U := U) (Lvl := Lvl) V c n h = iprop(owns (c : Thread nD τ) scM fullShare (accAt V c (n - 1) (by omega))
      ∗ Pipeline.scopedRestBut (Ix := Ix) (Name := ℕ) (U := U) (Lvl := Lvl) (Val := Elt F) spec14 c [cc14_scratch0]) := by
  cases n with
  | zero => exact absurd rfl hz
  | succ n => rfl

/-- The proof data of one entry of the region, from valuation `V`: the arrays at `V`; after the body each input's buffer at
    its block, the two outputs' at the scaled accumulator and at its product with the gate plus the bias; the invariant
    above; nothing owed; the array two windows stage held half by each, the others whole. -/
def dat (c : Dev nD) : Pipeline.Dat τ (Elt F) Ix ℕ U Lvl cfg14 c where
  A w := V c (Pipeline.arrRef spec14 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k14_pay4 (accAt V c t.val t.isLt) (iblk V c 3 t)
    | ⟨7, _⟩ => k14_pay5 (accAt V c t.val t.isLt) (iblk V c 3 t) (iblk V c 4 t) (iblk V c 5 t)
  Φ t := PhiS V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg14.W) : (dat (Ix := Ix) (U := U) (Lvl := Lvl) V c).A w = V c (Pipeline.arrRef spec14 w) := by
  dsimp only [dat]

theorem PhiS_castSucc (c : Dev nD) (t : Fin cfg14.N) :
    (dat (Ix := Ix) (U := U) (Lvl := Lvl) V c).Φ t.castSucc = PhiS V c t.val (Nat.le_of_lt t.isLt) := by
  dsimp only [dat]; simp only [Fin.coe_castSucc]

theorem after0 (c : Dev nD) (t : Fin cfg14.N) : (dat (Ix := Ix) (U := U) (Lvl := Lvl) V c).after 0 t = iblk V c 0 t := by dsimp only [dat]
theorem after1 (c : Dev nD) (t : Fin cfg14.N) : (dat (Ix := Ix) (U := U) (Lvl := Lvl) V c).after 1 t = iblk V c 1 t := by dsimp only [dat]
theorem after2 (c : Dev nD) (t : Fin cfg14.N) : (dat (Ix := Ix) (U := U) (Lvl := Lvl) V c).after 2 t = iblk V c 2 t := by dsimp only [dat]
theorem after3 (c : Dev nD) (t : Fin cfg14.N) : (dat (Ix := Ix) (U := U) (Lvl := Lvl) V c).after 3 t = iblk V c 3 t := by dsimp only [dat]
theorem after4 (c : Dev nD) (t : Fin cfg14.N) : (dat (Ix := Ix) (U := U) (Lvl := Lvl) V c).after 4 t = iblk V c 4 t := by dsimp only [dat]
theorem after5 (c : Dev nD) (t : Fin cfg14.N) : (dat (Ix := Ix) (U := U) (Lvl := Lvl) V c).after 5 t = iblk V c 5 t := by dsimp only [dat]
theorem after6 (c : Dev nD) (t : Fin cfg14.N) : (dat (Ix := Ix) (U := U) (Lvl := Lvl) V c).after 6 t = k14_pay4 (accAt V c t.val t.isLt) (iblk V c 3 t) := by dsimp only [dat]
theorem after7 (c : Dev nD) (t : Fin cfg14.N) :
    (dat (Ix := Ix) (U := U) (Lvl := Lvl) V c).after 7 t = k14_pay5 (accAt V c t.val t.isLt) (iblk V c 3 t) (iblk V c 4 t) (iblk V c 5 t) := by dsimp only [dat]

/-! Each input's current staging buffer holds its block at every point, fetched there or not: unfetched, the block index
    has not moved. -/

theorem before0 (c : Dev nD) (t : Fin cfg14.N) (d) : (dat (Ix := Ix) (U := U) (Lvl := Lvl) V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg14.N) (d) : (dat (Ix := Ix) (U := U) (Lvl := Lvl) V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg14.N) (d) : (dat (Ix := Ix) (U := U) (Lvl := Lvl) V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg14.N) (d) : (dat (Ix := Ix) (U := U) (Lvl := Lvl) V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg14.N) (d) : (dat (Ix := Ix) (U := U) (Lvl := Lvl) V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg14.N) (d) : (dat (Ix := Ix) (U := U) (Lvl := Lvl) V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.Kernel.Region14

end
-- ==== Proof.K.Region14.lean ====
/-
  Region 14 of @main, second part: the body obligation at a generic grid point, by the reduction coordinate (first tile,
  a middle tile, last tile), and the region's segment over the thread state: entered from every unscoped buffer at an
  entry valuation, left at the exit valuation, which differs from it at the two results only. The scale column two
  windows stage is held half by each of them inside the region. Stated once, for any float family.
-/
import proofs.«414035_j83562883711810_2_alg».proof.Proof.K.Region14Base

set_option maxRecDepth 16384

noncomputable section

namespace Cert.Kernel.Region14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

variable (V Vp : Dev nD → Valuation τ sig (Elt F))

/-! ## The body obligation, at a generic point -/

/-- The staging memrefs the body is called with at point `t`. -/
abbrev ms0 (t : Fin cfg14.N) : Memref sig .tc .vmem S1024x1024 .bf16 := win14_0.stage (cfg14.slots t 0)
abbrev hs0 (t : Fin cfg14.N) : (ms0 t).IsWhole := hstage14_0 ((cfg14.slots t 0).cast nbuf14_0)
abbrev ms1 (t : Fin cfg14.N) : Memref sig .tc .vmem S6144x256 .bf16 := win14_1.stage (cfg14.slots t 1)
abbrev hs1 (t : Fin cfg14.N) : (ms1 t).IsWhole := hstage14_1 ((cfg14.slots t 1).cast nbuf14_1)
abbrev ms2 (t : Fin cfg14.N) : Memref sig .tc .vmem S1024x1 .f32 := win14_2.stage (cfg14.slots t 2)
abbrev hs2 (t : Fin cfg14.N) : (ms2 t).IsWhole := hstage14_2 ((cfg14.slots t 2).cast nbuf14_2)
abbrev ms3 (t : Fin cfg14.N) : Memref sig .tc .vmem S1024x1 .f32 := win14_3.stage (cfg14.slots t 3)
abbrev hs3 (t : Fin cfg14.N) : (ms3 t).IsWhole := hstage14_3 ((cfg14.slots t 3).cast nbuf14_3)
abbrev ms4 (t : Fin cfg14.N) : Memref sig .tc .vmem S256x256 .bf16 := win14_4.stage (cfg14.slots t 4)
abbrev hs4 (t : Fin cfg14.N) : (ms4 t).IsWhole := hstage14_4 ((cfg14.slots t 4).cast nbuf14_4)
abbrev ms5 (t : Fin cfg14.N) : Memref sig .tc .vmem S1x256 .f32 := win14_5.stage (cfg14.slots t 5)
abbrev hs5 (t : Fin cfg14.N) : (ms5 t).IsWhole := hstage14_5 ((cfg14.slots t 5).cast nbuf14_5)
abbrev ms6 (t : Fin cfg14.N) : Memref sig .tc .vmem S1024x256 .bf16 := win14_6.stage (cfg14.slots t 6)
abbrev hs6 (t : Fin cfg14.N) : (ms6 t).IsWhole := hstage14_6 ((cfg14.slots t 6).cast nbuf14_6)
abbrev ms7 (t : Fin cfg14.N) : Memref sig .tc .vmem S1024x256 .f32 := win14_7.stage (cfg14.slots t 7)
abbrev hs7 (t : Fin cfg14.N) : (ms7 t).IsWhole := hstage14_7 ((cfg14.slots t 7).cast nbuf14_7)

/-- What the body is called with at point `t`, the windows one by one, -/
def bodyPre (ι : Ix) (c : Dev nD) (t : Fin cfg14.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms0 t) fullShare ((dat (Ix := Ix) (U := U) (Lvl := Lvl) V c).before 0 t d))
    ∗ (∃ d, owns (c : Thread nD τ) (ms1 t) fullShare ((dat (Ix := Ix) (U := U) (Lvl := Lvl) V c).before 1 t d))
    ∗ (∃ d, owns (c : Thread nD τ) (ms2 t) fullShare ((dat (Ix := Ix) (U := U) (Lvl := Lvl) V c).before 2 t d))
    ∗ (∃ d, owns (c : Thread nD τ) (ms3 t) fullShare ((dat (Ix := Ix) (U := U) (Lvl := Lvl) V c).before 3 t d))
    ∗ (∃ d, owns (c : Thread nD τ) (ms4 t) fullShare ((dat (Ix := Ix) (U := U) (Lvl := Lvl) V c).before 4 t d))
    ∗ (∃ d, owns (c : Thread nD τ) (ms5 t) fullShare ((dat (Ix := Ix) (U := U) (Lvl := Lvl) V c).before 5 t d))
    ∗ (∃ d, owns (c : Thread nD τ) (ms6 t) fullShare ((dat (Ix := Ix) (U := U) (Lvl := Lvl) V c).before 6 t d))
    ∗ (∃ d, owns (c : Thread nD τ) (ms7 t) fullShare ((dat (Ix := Ix) (U := U) (Lvl := Lvl) V c).before 7 t d)))

/-- and what it returns. -/
def bodyPost (ι : Ix) (c : Dev nD) (t : Fin cfg14.N) : sProp 𝕄 :=
  iprop((dat (Ix := Ix) (U := U) (Lvl := Lvl) V c).Φ t.succ ∗ (dat (Ix := Ix) (U := U) (Lvl := Lvl) V c).owesAt ι t.succ
    ∗ (dat (Ix := Ix) (U := U) (Lvl := Lvl) V c).leavesExact 0 t
    ∗ (dat (Ix := Ix) (U := U) (Lvl := Lvl) V c).leavesExact 1 t
    ∗ (dat (Ix := Ix) (U := U) (Lvl := Lvl) V c).leavesExact 2 t
    ∗ (dat (Ix := Ix) (U := U) (Lvl := Lvl) V c).leavesExact 3 t
    ∗ (dat (Ix := Ix) (U := U) (Lvl := Lvl) V c).leavesExact 4 t
    ∗ (dat (Ix := Ix) (U := U) (Lvl := Lvl) V c).leavesExact 5 t
    ∗ (dat (Ix := Ix) (U := U) (Lvl := Lvl) V c).leavesExact 6 t
    ∗ (dat (Ix := Ix) (U := U) (Lvl := Lvl) V c).leavesExact 7 t)

theorem leaves0 (c : Dev nD) (t : Fin cfg14.N) :
    (dat (Ix := Ix) (U := U) (Lvl := Lvl) V c).leavesExact 0 t = owns (c : Thread nD τ) (ms0 t) fullShare (iblk V c 0 t) := by
  unfold Dat.leavesExact; rw [show cfg14.idle 0 (cfg14.grid.coords t) = false from rfl, after0]
theorem leaves1 (c : Dev nD) (t : Fin cfg14.N) :
    (dat (Ix := Ix) (U := U) (Lvl := Lvl) V c).leavesExact 1 t = owns (c : Thread nD τ) (ms1 t) fullShare (iblk V c 1 t) := by
  unfold Dat.leavesExact; rw [show cfg14.idle 1 (cfg14.grid.coords t) = false from rfl, after1]
theorem leaves2 (c : Dev nD) (t : Fin cfg14.N) :
    (dat (Ix := Ix) (U := U) (Lvl := Lvl) V c).leavesExact 2 t = owns (c : Thread nD τ) (ms2 t) fullShare (iblk V c 2 t) := by
  unfold Dat.leavesExact; rw [show cfg14.idle 2 (cfg14.grid.coords t) = false from rfl, after2]
theorem leaves3 (c : Dev nD) (t : Fin cfg14.N) :
    (dat (Ix := Ix) (U := U) (Lvl := Lvl) V c).leavesExact 3 t = owns (c : Thread nD τ) (ms3 t) fullShare (iblk V c 3 t) := by
  unfold Dat.leavesExact; rw [show cfg14.idle 3 (cfg14.grid.coords t) = false from rfl, after3]
theorem leaves4 (c : Dev nD) (t : Fin cfg14.N) :
    (dat (Ix := Ix) (U := U) (Lvl := Lvl) V c).leavesExact 4 t = owns (c : Thread nD τ) (ms4 t) fullShare (iblk V c 4 t) := by
  unfold Dat.leavesExact; rw [show cfg14.idle 4 (cfg14.grid.coords t) = false from rfl, after4]
theorem leaves5 (c : Dev nD) (t : Fin cfg14.N) :
    (dat (Ix := Ix) (U := U) (Lvl := Lvl) V c).leavesExact 5 t = owns (c : Thread nD τ) (ms5 t) fullShare (iblk V c 5 t) := by
  unfold Dat.leavesExact; rw [show cfg14.idle 5 (cfg14.grid.coords t) = false from rfl, after5]

/-- Whatever the position, the invariant holds the accumulator's buffer at something beside the other scoped buffers. -/
theorem PhiS_any (c : Dev nD) (n : ℕ) (h : n ≤ cfg14.N) :
    PhiS (Ix := Ix) (U := U) (Lvl := Lvl) V c n h ⊢ iprop((∃ d, owns (c : Thread nD τ) scM fullShare d)
      ∗ Pipeline.scopedRestBut (Ix := Ix) (Name := ℕ) (U := U) (Lvl := Lvl) (Val := Elt F) spec14 c [cc14_scratch0]) := by
  cases n with
  | zero =>
    rw [PhiS_zero V c 0 h rfl, scopedRest14_split]
    iintro ⟨⟨%fs, HS⟩, HR⟩
    isplitl [HS]
    · iexists fs; rw [owns_whole]; iexact HS
    iexact HR
  | succ n =>
    rw [PhiS_succ]
    iintro ⟨HS, HR⟩
    isplitl [HS]
    · iexists _; iexact HS
    iexact HR

set_option maxHeartbeats 4000000 in
/-- The body at any point, by the reduction coordinate: first tile, a middle tile, last tile. -/
theorem sound_body (ι : Ix) (𝒱₀ : Variants) (c : Dev nD) (t : Fin cfg14.N) :
    bodyPre (U := U) (Lvl := Lvl) V ι c t ⊢ wp frame (wpE (defs₀ (F := F)) 𝒱₀ c none) Set.univ (bodyAt14 t) (fun _ => bodyPost (U := U) (Lvl := Lvl) V ι c t) := by
  unfold bodyPre bodyPost bodyAt14
  simp only [before0, before1, before2, before3, before4, before5]
  rw [show (dat (Ix := Ix) (U := U) (Lvl := Lvl) V c).owesAt ι t.succ = (dat (Ix := Ix) (U := U) (Lvl := Lvl) V c).owesAt ι t.castSucc from rfl]
  rw [show (dat (Ix := Ix) (U := U) (Lvl := Lvl) V c).Φ t.succ = PhiS V c (t.val + 1) t.isLt from rfl, PhiS_succ, PhiS_castSucc]
  rw [leaves0, leaves1, leaves2, leaves3, leaves4, leaves5]
  have hN : t.val < 36 := lt_of_lt_of_eq t.isLt (show cfg14.N = 36 from N_14)
  by_cases h0 : t.val % 6 = 0
  · have h5 : ¬ t.val % 6 = 5 := by omega
    rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
    rw [accAt_first V c t h0]
    iintro ⟨HΦ, Ho, ⟨%d0, H0⟩, ⟨%d1, H1⟩, ⟨%d2, H2⟩, ⟨%d3, H3⟩, ⟨%d4, H4⟩, ⟨%d5, H5⟩, H6, H7⟩
    ihave HΦ' := (PhiS_any V c _ _) $$ HΦ
    icases HΦ' with ⟨HS, HR⟩
    iapply (kernelRunA (Ix := Ix) (U := U) (Lvl := Lvl) 𝒱₀ c (grid14.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
      ((hcond1 t).mpr h0) (fun h => h5 ((hcond2 t).mp h)) (iblk V c 0 t) (iblk V c 1 t) (iblk V c 2 t) Set.univ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h0 (by rw [e])
    rw [PhiS_pos V c _ _ hz, accAt_next V c t h0]
    by_cases h5 : t.val % 6 = 5
    · rw [show (dat (Ix := Ix) (U := U) (Lvl := Lvl) V c).leavesExact 6 t = owns (c : Thread nD τ) (ms6 t) fullShare ((dat (Ix := Ix) (U := U) (Lvl := Lvl) V c).after 6 t) from by
        unfold Dat.leavesExact; rw [live6 t h5], after6]
      rw [show (dat (Ix := Ix) (U := U) (Lvl := Lvl) V c).leavesExact 7 t = owns (c : Thread nD τ) (ms7 t) fullShare ((dat (Ix := Ix) (U := U) (Lvl := Lvl) V c).after 7 t) from by
        unfold Dat.leavesExact; rw [live7 t h5], after7]
      rw [accAt_next V c t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRunC (Ix := Ix) (U := U) (Lvl := Lvl) 𝒱₀ c (grid14.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) ((hcond2 t).mpr h5) (iblk V c 0 t) (iblk V c 1 t) (iblk V c 2 t) (iblk V c 3 t) (iblk V c 4 t) (iblk V c 5 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
      iintro ⟨⟨HS, HR⟩, Ho, ⟨%d0, H0⟩, ⟨%d1, H1⟩, ⟨%d2, H2⟩, ⟨%d3, H3⟩, ⟨%d4, H4⟩, ⟨%d5, H5⟩, H6, H7⟩
      iapply (kernelRunB (Ix := Ix) (U := U) (Lvl := Lvl) 𝒱₀ c (grid14.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) (fun h => h5 ((hcond2 t).mp h)) (iblk V c 0 t) (iblk V c 1 t) (iblk V c 2 t)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (ι : Ix) (𝒱₀ : Variants) (c : Dev nD) :
    Pipeline.BodyObligation (dat (Ix := Ix) (U := U) (Lvl := Lvl) V c) (defs₀ (F := F)) 𝒱₀ ι Set.univ := fun t => by
  rw [bigSep_W14, bigSep_W14]
  exact sound_body V ι 𝒱₀ c t

/-! ## The region over the thread state -/

/-- The prefetched tables' admissible contents: no call has a table. -/
abbrev adm : (p : Fin 17) → (pcfgs (F := F) p).Adm := fun p => (cfgs p).toPCfg_adm

/-- The seven distinct buffers behind the eight windows' arrays. -/
theorem arrRefs : Finset.univ.image (Pipeline.arrRef spec14)
    = [main_v147, main_v159_0, main_v148, main_v149, main_v42, main_v162_0, main_v162_1].toFinset := by decide

/-- A core's unscoped buffers at a valuation: those seven, each whole at the full share, and the rest. -/
theorem held_split (c : Dev nD) (W : Valuation τ sig (Elt F)) :
    (StableHlo.held (c : Thread nD τ) (Pipeline.ucRefs τ sig) W : sProp 𝕄)
      = iprop(iprop((((c : Thread nD τ).loc main_v147) ↦{fullShare} W main_v147) ∗ (((c : Thread nD τ).loc main_v159_0) ↦{fullShare} W main_v159_0)
          ∗ (((c : Thread nD τ).loc main_v148) ↦{fullShare} W main_v148) ∗ (((c : Thread nD τ).loc main_v149) ↦{fullShare} W main_v149)
          ∗ (((c : Thread nD τ).loc main_v42) ↦{fullShare} W main_v42) ∗ (((c : Thread nD τ).loc main_v162_0) ↦{fullShare} W main_v162_0)
          ∗ (((c : Thread nD τ).loc main_v162_1) ↦{fullShare} W main_v162_1))
        ∗ Pipeline.unscopedRest (Ix := Ix) (Name := ℕ) (U := U) (Lvl := Lvl) spec14 c (fun b => W b)) := by
  rw [← Pipeline.unscopedBufs_held c W, Pipeline.unscopedBufs_split₀ cfgs 14 winFacts₀14.arr_unscoped c (fun b => W b)] -- pipeline index
  show iprop(Pipeline.arrBufs spec14 c (fun b => W b) ∗ Pipeline.unscopedRest spec14 c (fun b => W b)) = _
  unfold Pipeline.arrBufs
  rw [bigSep_eq_bigSepL_of_eq _ arrRefs (by decide)]
  rfl

/-- The windows' arrays as the proof data holds them: the array two windows stage half by each, the others whole. -/
theorem arrays_eq (c : Dev nD) (Fw : (w : Fin cfg14.W) → Buf (Elt F) ((cfg14.win w).arr.view.loc (c : Thread nD τ))) :
    ((dat (Ix := Ix) (U := U) (Lvl := Lvl) V c).arrays Fw : sProp 𝕄)
      = iprop((((c : Thread nD τ).loc main_v147) ↦{fullShare} Fw 0) ∗ (((c : Thread nD τ).loc main_v159_0) ↦{fullShare} Fw 1)
          ∗ (((c : Thread nD τ).loc main_v148) ↦{fullShare.left} Fw 2) ∗ (((c : Thread nD τ).loc main_v148) ↦{fullShare.right} Fw 3)
          ∗ (((c : Thread nD τ).loc main_v149) ↦{fullShare} Fw 4) ∗ (((c : Thread nD τ).loc main_v42) ↦{fullShare} Fw 5)
          ∗ (((c : Thread nD τ).loc main_v162_0) ↦{fullShare} Fw 6) ∗ (((c : Thread nD τ).loc main_v162_1) ↦{fullShare} Fw 7)) := by
  unfold Dat.arrays
  rw [bigSep_congr fun w _ => show (((cfg14.win w).arr.view.loc (c : Thread nD τ) ↦[(cfg14.win w).arr.view.set]{(dat (Ix := Ix) (U := U) (Lvl := Lvl) V c).share w} Fw w : sProp 𝕄))
      = (((c : Thread nD τ).loc (Pipeline.arrRef spec14 w)) ↦{(dat (Ix := Ix) (U := U) (Lvl := Lvl) V c).share w} Fw w) from by rw [(arr_whole14 w).set_eq_univ],
    bigSep_W14]
  rfl

/-- The unscoped buffers no window stages are the same at two valuations that differ only at the two results. -/
theorem rest_congr (c : Dev nD) (hne : ∀ (b : Ref sig .tc), b ≠ main_v162_0 → b ≠ main_v162_1 → Vp c b = V c b) :
    (Pipeline.unscopedRest (Ix := Ix) (Name := ℕ) (U := U) (Lvl := Lvl) spec14 c (fun b => Vp c b) : sProp 𝕄)
      = Pipeline.unscopedRest spec14 c (fun b => V c b) := by
  unfold Pipeline.unscopedRest
  refine bigSep_congr fun b hb => ?_
  have hb' := (Finset.mem_sdiff.mp hb).2
  rw [arrRefs] at hb'
  dsimp only
  rw [hne b (fun e => by subst e; exact hb' (by decide)) (fun e => by subst e; exact hb' (by decide))]

/-- ENTRY: the windows' arrays out of the unscoped buffers, the array two windows stage split half and half. -/
theorem hentry13 (ι : Ix) (L : GSem nD τ sig → Finset Ix) (lv : GSem nD τ sig → Ix → Lvl) (c : Dev nD) :
    iprop(iprop(StableHlo.held (c : Thread nD τ) (Pipeline.ucRefs τ sig) (V c) ∗ iprop(∃ W, owes (c : Thread nD τ) (0 : CellTallies nD τ sig Ix) W))
        ∗ Pipeline.ownSems0 (Ix := Ix) (Name := ℕ) (U := U) (Lvl := Lvl) (Val := Elt F) (τ := τ) (fun k : PEmpty => k.elim) c ∗ levAts L lv)
      ⊢ (|={Set.univ}=> iprop((dat (Ix := Ix) (U := U) (Lvl := Lvl) V c).arrays ((dat (Ix := Ix) (U := U) (Lvl := Lvl) V c).arrAt · 0)
          ∗ Pipeline.prefHeld (pcfgs (F := F) 14).pre c (fun _ => fullShare) (adm 14).1 -- pipeline index
          ∗ (dat (Ix := Ix) (U := U) (Lvl := Lvl) V c).owesAt ι 0 ∗ BI.emp ∗ Pipeline.unscopedRest (Ix := Ix) (Name := ℕ) (U := U) (Lvl := Lvl) spec14 c (fun b => V c b)) : sProp 𝕄) := by
  rw [held_split, arrays_eq]
  iintro ⟨⟨⟨⟨H147, H158, H148, H149, H42, H0, H1⟩, HZ⟩, HO⟩, -, -⟩
  ihave H148' := (pointsTo_share (PosShare.mem_left_op_right fullShare)).1 $$ H148
  icases H148' with ⟨H148l, H148r⟩
  imodintro
  isplitl [H147 H158 H148l H148r H149 H42 H0 H1]
  · isplitl [H147]; · iexact H147
    isplitl [H158]; · iexact H158
    isplitl [H148l]; · iexact H148l
    isplitl [H148r]; · iexact H148r
    isplitl [H149]; · iexact H149
    isplitl [H42]; · iexact H42
    isplitl [H0]; · iexact H0
    iexact H1
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact HZ

/-- The invariant at the first point is the scoped buffers the pipeline does not stage. -/
theorem hin13 (c : Dev nD) :
    iprop(BI.emp ∗ Pipeline.prefHeld (pcfgs (F := F) 14).pre c (fun _ => fullShare) (adm 14).1 -- pipeline index
        ∗ Pipeline.scopedRest (Ix := Ix) (Name := ℕ) (U := U) (Lvl := Lvl) (Val := Elt F) spec14 c) ⊢ ((dat (Ix := Ix) (U := U) (Lvl := Lvl) V c).Φ 0 : sProp 𝕄) := by
  rw [show (dat (Ix := Ix) (U := U) (Lvl := Lvl) V c).Φ 0 = PhiS V c 0 (Nat.zero_le _) from rfl, PhiS_zero V c 0 _ rfl]
  iintro ⟨-, -, HR⟩; iexact HR

/-- The invariant at the last point gives them back, the accumulator's contents forgotten. -/
theorem hout13 (c : Dev nD) :
    ((dat (Ix := Ix) (U := U) (Lvl := Lvl) V c).Φ (Fin.last cfg14.N) : sProp 𝕄)
      ⊢ iprop(BI.emp ∗ Pipeline.ownSems0 (Ix := Ix) (Name := ℕ) (U := U) (Lvl := Lvl) (Val := Elt F) (τ := τ) (fun k : PEmpty => k.elim) c
          ∗ Pipeline.scopedRest (Ix := Ix) (Name := ℕ) (U := U) (Lvl := Lvl) (Val := Elt F) spec14 c) := by
  rw [Pipeline.ownSems0_none nD τ sig (Elt F) Ix ℕ U Lvl c,
    show (dat (Ix := Ix) (U := U) (Lvl := Lvl) V c).Φ (Fin.last cfg14.N) = PhiS V c cfg14.N (Nat.le_refl _) from rfl]
  iintro HΦ
  ihave HΦ' := (PhiS_any V c _ _) $$ HΦ
  icases HΦ' with ⟨⟨%d, HS⟩, HR⟩
  isplitr; · iempintro
  isplitr; · iempintro
  rw [scopedRest14_split]
  isplitl [HS]
  · iexists d
    iapply (Entails.of_eq (owns_whole (c : Thread nD τ) cc14_scratch0 fullShare d))
    iexact HS
  iexact HR

/-- EXIT: the halves of the shared array rejoined, the two results at what the proof data computes, every other
    buffer as it was: the unscoped buffers at the exit valuation. -/
theorem hexit13 (ι : Ix) (c : Dev nD)
    (hout6 : Vp c main_v162_0 = (dat (Ix := Ix) (U := U) (Lvl := Lvl) V c).arrAt 6 cfg14.N)
    (hout7 : Vp c main_v162_1 = (dat (Ix := Ix) (U := U) (Lvl := Lvl) V c).arrAt 7 cfg14.N)
    (hne : ∀ (b : Ref sig .tc), b ≠ main_v162_0 → b ≠ main_v162_1 → Vp c b = V c b) :
    iprop((dat (Ix := Ix) (U := U) (Lvl := Lvl) V c).arrays ((dat (Ix := Ix) (U := U) (Lvl := Lvl) V c).arrAt · cfg14.N) ∗ (dat (Ix := Ix) (U := U) (Lvl := Lvl) V c).owesAt ι (Fin.last cfg14.N)
        ∗ BI.emp ∗ Pipeline.unscopedRest (Ix := Ix) (Name := ℕ) (U := U) (Lvl := Lvl) spec14 c (fun b => V c b))
      ⊢ (|={Set.univ}=> iprop(StableHlo.held (c : Thread nD τ) (Pipeline.ucRefs τ sig) (Vp c) ∗ iprop(∃ W, owes (c : Thread nD τ) (0 : CellTallies nD τ sig Ix) W)) : sProp 𝕄) := by
  rw [held_split, arrays_eq, rest_congr V Vp c hne]
  have e0 := (dat (Ix := Ix) (U := U) (Lvl := Lvl) V c).arrAt_in 0 rfl cfg14.N
  have e1 := (dat (Ix := Ix) (U := U) (Lvl := Lvl) V c).arrAt_in 1 rfl cfg14.N
  have e2 := (dat (Ix := Ix) (U := U) (Lvl := Lvl) V c).arrAt_in 2 rfl cfg14.N
  have e3 := (dat (Ix := Ix) (U := U) (Lvl := Lvl) V c).arrAt_in 3 rfl cfg14.N
  have e4 := (dat (Ix := Ix) (U := U) (Lvl := Lvl) V c).arrAt_in 4 rfl cfg14.N
  have e5 := (dat (Ix := Ix) (U := U) (Lvl := Lvl) V c).arrAt_in 5 rfl cfg14.N
  rw [A_eq] at e0 e1 e2 e3 e4 e5
  rw [e0, e1, e2, e3, e4, e5, ← hout6, ← hout7,
    hne main_v147 (by decide) (by decide), hne main_v159_0 (by decide) (by decide), hne main_v148 (by decide) (by decide),
    hne main_v149 (by decide) (by decide), hne main_v42 (by decide) (by decide)]
  iintro ⟨⟨H147, H158, H148l, H148r, H149, H42, H0, H1⟩, HO, -, HZ⟩
  ihave H148 := (pointsTo_share (PosShare.mem_left_op_right fullShare)).2 $$ [H148l H148r]
  · isplitl [H148l]; · iexact H148l
    iexact H148r
  imodintro
  isplitr [HO]
  · isplitr [HZ]
    · isplitl [H147]; · iexact H147
      isplitl [H158]; · iexact H158
      isplitl [H148]; · iexact H148
      isplitl [H149]; · iexact H149
      isplitl [H42]; · iexact H42
      isplitl [H0]; · iexact H0
      iexact H1
    iexact HZ
  · unfold Pipeline.Dat.owesAt Pipeline.owesWithin
    icases HO with ⟨%W, -, HO⟩; iexists W; iexact HO

set_option backward.isDefEq.respectTransparency.types false in
/-- THE REGION: entered from every unscoped buffer at `V c` — the eight windows' arrays into the pipeline, the array two
    windows stage split half and half between them, every other unscoped buffer bypassing —, left with the two results
    at what the proof data computes and every other buffer as it was. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd 14 c = dat V c) -- pipeline index
    (hout6 : ∀ c, Vp c main_v162_0 = (dat (Ix := Ix) (U := U) (Lvl := Lvl) V c).arrAt 6 cfg14.N)
    (hout7 : ∀ c, Vp c main_v162_1 = (dat (Ix := Ix) (U := U) (Lvl := Lvl) V c).arrAt 7 cfg14.N)
    (hne : ∀ c (b : Ref sig .tc), b ≠ main_v162_0 → b ≠ main_v162_1 → Vp c b = V c b) :
    Pipeline.RegionSeg (pcfgs (F := F)) adm pd ι defs₀ 𝒱₀ L lv 14 where -- pipeline index
  win := winFacts₀14
  block_pos := block_pos14
  stage_whole := stage_whole14
  K := PEmpty
  osem := fun k => k.elim
  ho := Pipeline.OwnSemFacts.none _
  hbody c := by rw [hpd c]; exact (body_obligation V ι 𝒱₀ c).loose
  hwaits := Pipeline.hwaits_of_owed_zero _ _ _ _ L lv 14 fun c _ => by rw [hpd c]; rfl -- pipeline index
  pre c := iprop(StableHlo.held (c : Thread nD τ) (Pipeline.ucRefs τ sig) (V c) ∗ iprop(∃ W, owes (c : Thread nD τ) (0 : CellTallies nD τ sig Ix) W))
  post c := iprop(StableHlo.held (c : Thread nD τ) (Pipeline.ucRefs τ sig) (Vp c) ∗ iprop(∃ W, owes (c : Thread nD τ) (0 : CellTallies nD τ sig Ix) W))
  X _ := (BI.emp : sProp 𝕄)
  Y _ := (BI.emp : sProp 𝕄)
  Z c := Pipeline.unscopedRest (Ix := Ix) (Name := ℕ) (U := U) (Lvl := Lvl) spec14 c (fun b => V c b)
  hentry c := by rw [hpd c]; exact hentry13 V ι L lv c
  hin c := by rw [hpd c]; exact hin13 V c
  hout c := by rw [hpd c]; exact hout13 V c
  hexit c := by rw [hpd c]; exact hexit13 V Vp ι c (hout6 c) (hout7 c) (hne c)

end Cert.Kernel.Region14

end
-- ==== Proof.K.Region15Base.lean ====
/-
  Region 15 of @main, first part: a hop of the message passing on the grid (6, 6). At the point (i, k) the body adds to
  an accumulator the product of the (i, k) tile of the adjacency operand with rows [1024 k, 1024 k + 1024) of the
  feature operand, each row scaled by the k-th block of the scale column; the accumulator is reset at k = 0, and at
  k = 5 the body writes the two output blocks of row tile i: the accumulator scaled by the i-th block of the same
  scale column, and that block's product with the gate matrix plus the bias row. Two windows stage the one scale
  column, one at block k, the other at block i. Here: the body on any whole staging memrefs, one statement per case
  of the reduction coordinate, and the proof data with each input's buffer at its block. Stated once, for any float family.
-/
import proofs.«414035_j83562883711810_2_alg».proof.Proof.Gen.Kernel.Skeleton
import proofs.«414035_j83562883711810_2_alg».proof.Proof.Gen.Kernel.Launch
import proofs.«414035_j83562883711810_2_alg».proof.Proof.Gen.Kernel.Points
import Idealize.ShloMosaic.Lib.Pipeline.FrameBody
import Idealize.ShloMosaic.Lib.Pipeline.Regions
import Idealize.ShloMosaic.Lib.Pipeline.RegionsLoop
import Idealize.ShloMosaic.Lib.Pipeline.Value
import Idealize.ShloMosaic.Lib.Tactic

set_option maxRecDepth 16384

noncomputable section

namespace Cert.Kernel.Region15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions, from the grid coordinates -/

/-- The condition of the first `scf.if` (reset the accumulator): the reduction coordinate is 0. -/
abbrev cond1 (i : grid15.Coords) : Prop :=
  (Scalar.cmpi .ne (Scalar.extui (Scalar.cmpi .eq (BitVec.ofNat 32 (i 1).val) 0#32)) 0#32) = 1#1

/-- The rows of the resident operand the point reads: 1024 rows from row `1024 * k`. -/
abbrev rows (i : grid15.Coords) (x1 : Vec F S6144x256 .bf16) : Vec F S1024x256 .bf16 :=
  View.ld x1 (Rect.unit (s := S6144x256) (k15_off1 i) S1024x256.size (k15_off1_inb i))

theorem z2 : (![0, 0] : Fin 2 → Nat) = fun _ => 0 := by funext a; fin_cases a <;> rfl

/-- A store through the whole-shape rectangle at zero offsets, LAST, leaves its payload. -/
theorem read_store_zero {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

set_option maxHeartbeats 1000000 in
/-- A point in the middle of a reduction (the reduction coordinate neither 0 nor 5): the accumulator gains the point's product. -/
theorem kernelRunB (𝒱₀ : Variants) (c : Dev nD) (i : grid15.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : ¬ k15_cond2 i = 1#1)
    (x0 : Vec F S1024x1024 .bf16) (x1 : Vec F S6144x256 .bf16) (x2 : Vec F S1024x1 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg10 fullShare acc
        ∗ (iprop(owns (c : Thread nD τ) arg2 fullShare x0 ∗ owns (c : Thread nD τ) arg3 fullShare x1
            ∗ owns (c : Thread nD τ) arg4 fullShare x2
            ∗ owns (c : Thread nD τ) arg10 fullShare (k15_pay2 x0 (rows i x1) x2 acc)) -∗ K ⟨⟩))
      ⊢ wp frame (wpE (defs₀ (F := F)) 𝒱₀ c none) E (cc15__hop_kernel i arg2 harg2 arg3 harg3 arg4 harg4 arg5 harg5 arg6 harg6 arg7 harg7 arg8 harg8 arg9 harg9 arg10 harg10) K := by
  simp only [cc15__hop_kernel_eq_skeleton]; unfold cc15__hop_kernel_skel
  unfold owns
  iintro ⟨⟨%f2, %hf2, H2⟩, ⟨%f3, %hf3, H3⟩, ⟨%f4, %hf4, H4⟩, ⟨%f10, %hf10, H10⟩, Hk⟩
  obtain rfl := harg2.eq_unread hf2
  obtain rfl := harg3.eq_unread hf3
  obtain rfl := harg4.eq_unread hf4
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  rw [read_store_zero _ _ z2]
  simp only [View.readAt_eq_ld, hf2, hf3, hf4, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The first point of a reduction (the reduction coordinate 0): the accumulator is reset, then gains the point's product. -/
theorem kernelRunA (𝒱₀ : Variants) (c : Dev nD) (i : grid15.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : cond1 i) (hc2 : ¬ k15_cond2 i = 1#1)
    (x0 : Vec F S1024x1024 .bf16) (x1 : Vec F S6144x256 .bf16) (x2 : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg10 fullShare d)
        ∗ (iprop(owns (c : Thread nD τ) arg2 fullShare x0 ∗ owns (c : Thread nD τ) arg3 fullShare x1
            ∗ owns (c : Thread nD τ) arg4 fullShare x2
            ∗ owns (c : Thread nD τ) arg10 fullShare (k15_pay2 x0 (rows i x1) x2 (k15_pay1 (F := F)))) -∗ K ⟨⟩))
      ⊢ wp frame (wpE (defs₀ (F := F)) 𝒱₀ c none) E (cc15__hop_kernel i arg2 harg2 arg3 harg3 arg4 harg4 arg5 harg5 arg6 harg6 arg7 harg7 arg8 harg8 arg9 harg9 arg10 harg10) K := by
  simp only [cc15__hop_kernel_eq_skeleton]; unfold cc15__hop_kernel_skel
  unfold owns
  iintro ⟨⟨%f2, %hf2, H2⟩, ⟨%f3, %hf3, H3⟩, ⟨%f4, %hf4, H4⟩, ⟨%d10, %f10, -, H10⟩, Hk⟩
  obtain rfl := harg2.eq_unread hf2
  obtain rfl := harg3.eq_unread hf3
  obtain rfl := harg4.eq_unread hf4
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  sl_unfold_run_names
  rw [read_store_zero _ _ z2]
  simp only [View.readAt_eq_ld, hf2, hf3, hf4,  View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The last point of a reduction (the reduction coordinate 5): the accumulator gains the point's product, and the two
    output blocks are written from it. -/
theorem kernelRunC (𝒱₀ : Variants) (c : Dev nD) (i : grid15.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : k15_cond2 i = 1#1)
    (x0 : Vec F S1024x1024 .bf16) (x1 : Vec F S6144x256 .bf16) (x2 : Vec F S1024x1 .f32) (x3 : Vec F S1024x1 .f32)
    (x4 : Vec F S256x256 .bf16) (x5 : Vec F S1x256 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare acc
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k15_pay4 (k15_pay2 x0 (rows i x1) x2 acc) x3)
            ∗ owns (c : Thread nD τ) arg9 fullShare (k15_pay5 (k15_pay2 x0 (rows i x1) x2 acc) x3 x4 x5)
            ∗ owns (c : Thread nD τ) arg10 fullShare (k15_pay2 x0 (rows i x1) x2 acc)) -∗ K ⟨⟩))
      ⊢ wp frame (wpE (defs₀ (F := F)) 𝒱₀ c none) E (cc15__hop_kernel i arg2 harg2 arg3 harg3 arg4 harg4 arg5 harg5 arg6 harg6 arg7 harg7 arg8 harg8 arg9 harg9 arg10 harg10) K := by
  simp only [cc15__hop_kernel_eq_skeleton]; unfold cc15__hop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%f10, %hf10, H10⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]
  · iexists _; isplitr; swap; (· iexact H8); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  isplitl [H9]
  · iexists _; isplitr; swap; (· iexact H9); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  iexists _; isplitr; swap; (· iexact H10); ipureintro
  sl_unfold_run_names
  rw [read_store_zero _ _ z2]
  simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

/-! ## The schedule's closed forms at the reduction coordinate `k = t % 6` -/

theorem hcond1 : ∀ t : Fin cfg15.N, cond1 (grid15.coords t) ↔ t.val % 6 = 0 :=
  (by decide +kernel : ∀ t : Fin grid15.N, cond1 (grid15.coords t) ↔ t.val % 6 = 0)
theorem hcond2 : ∀ t : Fin cfg15.N, k15_cond2 (grid15.coords t) = 1#1 ↔ t.val % 6 = 5 :=
  (by decide +kernel : ∀ t : Fin grid15.N, k15_cond2 (grid15.coords t) = 1#1 ↔ t.val % 6 = 5)
/-- Where the reduction is not at its last tile the body stores nothing into the two outputs' buffers, -/
theorem idle6 : ∀ t : Fin cfg15.N, ¬ t.val % 6 = 5 → cfg15.idle 6 (grid15.coords t) = true :=
  (by decide +kernel : ∀ t : Fin grid15.N, ¬ t.val % 6 = 5 → idle15 6 (grid15.coords t) = true)
theorem idle7 : ∀ t : Fin cfg15.N, ¬ t.val % 6 = 5 → cfg15.idle 7 (grid15.coords t) = true :=
  (by decide +kernel : ∀ t : Fin grid15.N, ¬ t.val % 6 = 5 → idle15 7 (grid15.coords t) = true)
/-- and at its last tile it fills them. -/
theorem live6 : ∀ t : Fin cfg15.N, t.val % 6 = 5 → cfg15.idle 6 (grid15.coords t) = false :=
  (by decide +kernel : ∀ t : Fin grid15.N, t.val % 6 = 5 → idle15 6 (grid15.coords t) = false)
theorem live7 : ∀ t : Fin cfg15.N, t.val % 6 = 5 → cfg15.idle 7 (grid15.coords t) = false :=
  (by decide +kernel : ∀ t : Fin grid15.N, t.val % 6 = 5 → idle15 7 (grid15.coords t) = false)
theorem noflush6 (t : Fin cfg15.N) (h : ¬ t.val % 6 = 5) : (cfg15.win 6).flush t = false :=
  Bool.eq_false_iff.mpr fun hf => h ((flush15_6 t).mp hf)
theorem noflush7 (t : Fin cfg15.N) (h : ¬ t.val % 6 = 5) : (cfg15.win 7).flush t = false :=
  Bool.eq_false_iff.mpr fun hf => h ((flush15_7 t).mp hf)

/-! ## The proof data, at an entry valuation -/

variable (V Vp : Dev nD → Valuation τ sig (Elt F))

/-- Window `w`'s block at point `t`, read off the entry valuation. -/
def iblk (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- THE ACCUMULATION: what the accumulator holds after point `n` — the point's product added to zero at the first tile
    of a reduction (`n % 6 = 0`), to what the point before left elsewhere. -/
def accAt (c : Dev nD) : (n : ℕ) → n < cfg15.N → Vec F S1024x256 .f32
  | 0, hn => k15_pay2 (iblk V c 0 ⟨0, hn⟩) (rows (grid15.coords ⟨0, hn⟩) (iblk V c 1 ⟨0, hn⟩)) (iblk V c 2 ⟨0, hn⟩) (k15_pay1 (F := F))
  | n + 1, hn => k15_pay2 (iblk V c 0 ⟨n + 1, hn⟩) (rows (grid15.coords ⟨n + 1, hn⟩) (iblk V c 1 ⟨n + 1, hn⟩)) (iblk V c 2 ⟨n + 1, hn⟩)
      (if (n + 1) % 6 = 0 then k15_pay1 (F := F) else accAt c n (Nat.lt_of_succ_lt hn))

theorem accAt_first (c : Dev nD) (t : Fin cfg15.N) (h : t.val % 6 = 0) :
    accAt V c t.val t.isLt = k15_pay2 (iblk V c 0 t) (rows (grid15.coords t) (iblk V c 1 t)) (iblk V c 2 t) (k15_pay1 (F := F)) := by
  obtain ⟨n, hn⟩ := t
  cases n with
  | zero => rfl
  | succ n => show accAt V c (n + 1) hn = _; rw [accAt, if_pos h]

theorem accAt_next (c : Dev nD) (t : Fin cfg15.N) (h : ¬ t.val % 6 = 0) :
    accAt V c t.val t.isLt = k15_pay2 (iblk V c 0 t) (rows (grid15.coords t) (iblk V c 1 t)) (iblk V c 2 t)
      (accAt V c (t.val - 1) (Nat.lt_of_le_of_lt (Nat.sub_le _ _) t.isLt)) := by
  obtain ⟨n, hn⟩ := t
  cases n with
  | zero => exact absurd (Nat.zero_mod _) h
  | succ n => show accAt V c (n + 1) hn = _; rw [accAt, if_neg h]; rfl

/-- The accumulator's buffer: the call's one scratch operand. -/
abbrev scM : Memref sig .tc .vmem S1024x256 .f32 := Memref.whole cc15_scratch0

/-- The invariant before position `n`: before the first point every scoped buffer the pipeline does not stage at anything;
    afterwards the accumulator at what the point before left in it, the others at anything. -/
def PhiS (c : Dev nD) : (n : ℕ) → n ≤ cfg15.N → sProp 𝕄
  | 0, _ => Pipeline.scopedRest (Ix := Ix) (Name := ℕ) (U := U) (Lvl := Lvl) (Val := Elt F) spec15 c
  | n + 1, hn => iprop(owns (c : Thread nD τ) scM fullShare (accAt V c n hn)
      ∗ Pipeline.scopedRestBut (Ix := Ix) (Name := ℕ) (U := U) (Lvl := Lvl) (Val := Elt F) spec15 c [cc15_scratch0])

theorem PhiS_zero (c : Dev nD) (n : ℕ) (h : n ≤ cfg15.N) (hz : n = 0) :
    PhiS (Ix := Ix) (U := U) (Lvl := Lvl) V c n h = Pipeline.scopedRest (Ix := Ix) (Name := ℕ) (U := U) (Lvl := Lvl) (Val := Elt F) spec15 c := by
  subst hz; rfl

theorem PhiS_succ (c : Dev nD) (n : ℕ) (hn : n < cfg15.N) :
    PhiS (Ix := Ix) (U := U) (Lvl := Lvl) V c (n + 1) hn = iprop(owns (c : Thread nD τ) scM fullShare (accAt V c n hn)
      ∗ Pipeline.scopedRestBut (Ix := Ix) (Name := ℕ) (U := U) (Lvl := Lvl) (Val := Elt F) spec15 c [cc15_scratch0]) := rfl

theorem PhiS_pos (c : Dev nD) (n : ℕ) (h : n ≤ cfg15.N) (hz : n ≠ 0) :
    PhiS (Ix := Ix) (U := U) (Lvl := Lvl) V c n h = iprop(owns (c : Thread nD τ) scM fullShare (accAt V c (n - 1) (by omega))
      ∗ Pipeline.scopedRestBut (Ix := Ix) (Name := ℕ) (U := U) (Lvl := Lvl) (Val := Elt F) spec15 c [cc15_scratch0]) := by
  cases n with
  | zero => exact absurd rfl hz
  | succ n => rfl

/-- The proof data of one entry of the region, from valuation `V`: the arrays at `V`; after the body each input's buffer at
    its block, the two outputs' at the scaled accumulator and at its product with the gate plus the bias; the invariant
    above; nothing owed; the array two windows stage held half by each, the others whole. -/
def dat (c : Dev nD) : Pipeline.Dat τ (Elt F) Ix ℕ U Lvl cfg15 c where
  A w := V c (Pipeline.arrRef spec15 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k15_pay4 (accAt V c t.val t.isLt) (iblk V c 3 t)
    | ⟨7, _⟩ => k15_pay5 (accAt V c t.val t.isLt) (iblk V c 3 t) (iblk V c 4 t) (iblk V c 5 t)
  Φ t := PhiS V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg15.W) : (dat (Ix := Ix) (U := U) (Lvl := Lvl) V c).A w = V c (Pipeline.arrRef spec15 w) := by
  dsimp only [dat]

theorem PhiS_castSucc (c : Dev nD) (t : Fin cfg15.N) :
    (dat (Ix := Ix) (U := U) (Lvl := Lvl) V c).Φ t.castSucc = PhiS V c t.val (Nat.le_of_lt t.isLt) := by
  dsimp only [dat]; simp only [Fin.coe_castSucc]

theorem after0 (c : Dev nD) (t : Fin cfg15.N) : (dat (Ix := Ix) (U := U) (Lvl := Lvl) V c).after 0 t = iblk V c 0 t := by dsimp only [dat]
theorem after1 (c : Dev nD) (t : Fin cfg15.N) : (dat (Ix := Ix) (U := U) (Lvl := Lvl) V c).after 1 t = iblk V c 1 t := by dsimp only [dat]
theorem after2 (c : Dev nD) (t : Fin cfg15.N) : (dat (Ix := Ix) (U := U) (Lvl := Lvl) V c).after 2 t = iblk V c 2 t := by dsimp only [dat]
theorem after3 (c : Dev nD) (t : Fin cfg15.N) : (dat (Ix := Ix) (U := U) (Lvl := Lvl) V c).after 3 t = iblk V c 3 t := by dsimp only [dat]
theorem after4 (c : Dev nD) (t : Fin cfg15.N) : (dat (Ix := Ix) (U := U) (Lvl := Lvl) V c).after 4 t = iblk V c 4 t := by dsimp only [dat]
theorem after5 (c : Dev nD) (t : Fin cfg15.N) : (dat (Ix := Ix) (U := U) (Lvl := Lvl) V c).after 5 t = iblk V c 5 t := by dsimp only [dat]
theorem after6 (c : Dev nD) (t : Fin cfg15.N) : (dat (Ix := Ix) (U := U) (Lvl := Lvl) V c).after 6 t = k15_pay4 (accAt V c t.val t.isLt) (iblk V c 3 t) := by dsimp only [dat]
theorem after7 (c : Dev nD) (t : Fin cfg15.N) :
    (dat (Ix := Ix) (U := U) (Lvl := Lvl) V c).after 7 t = k15_pay5 (accAt V c t.val t.isLt) (iblk V c 3 t) (iblk V c 4 t) (iblk V c 5 t) := by dsimp only [dat]

/-! Each input's current staging buffer holds its block at every point, fetched there or not: unfetched, the block index
    has not moved. -/

theorem before0 (c : Dev nD) (t : Fin cfg15.N) (d) : (dat (Ix := Ix) (U := U) (Lvl := Lvl) V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg15.N) (d) : (dat (Ix := Ix) (U := U) (Lvl := Lvl) V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg15.N) (d) : (dat (Ix := Ix) (U := U) (Lvl := Lvl) V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg15.N) (d) : (dat (Ix := Ix) (U := U) (Lvl := Lvl) V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg15.N) (d) : (dat (Ix := Ix) (U := U) (Lvl := Lvl) V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg15.N) (d) : (dat (Ix := Ix) (U := U) (Lvl := Lvl) V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.Kernel.Region15

end
-- ==== Proof.K.Region15.lean ====
/-
  Region 15 of @main, second part: the body obligation at a generic grid point, by the reduction coordinate (first tile,
  a middle tile, last tile), and the region's segment over the thread state: entered from every unscoped buffer at an
  entry valuation, left at the exit valuation, which differs from it at the two results only. The scale column two
  windows stage is held half by each of them inside the region. Stated once, for any float family.
-/
import proofs.«414035_j83562883711810_2_alg».proof.Proof.K.Region15Base

set_option maxRecDepth 16384

noncomputable section

namespace Cert.Kernel.Region15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

variable (V Vp : Dev nD → Valuation τ sig (Elt F))

/-! ## The body obligation, at a generic point -/

/-- The staging memrefs the body is called with at point `t`. -/
abbrev ms0 (t : Fin cfg15.N) : Memref sig .tc .vmem S1024x1024 .bf16 := win15_0.stage (cfg15.slots t 0)
abbrev hs0 (t : Fin cfg15.N) : (ms0 t).IsWhole := hstage15_0 ((cfg15.slots t 0).cast nbuf15_0)
abbrev ms1 (t : Fin cfg15.N) : Memref sig .tc .vmem S6144x256 .bf16 := win15_1.stage (cfg15.slots t 1)
abbrev hs1 (t : Fin cfg15.N) : (ms1 t).IsWhole := hstage15_1 ((cfg15.slots t 1).cast nbuf15_1)
abbrev ms2 (t : Fin cfg15.N) : Memref sig .tc .vmem S1024x1 .f32 := win15_2.stage (cfg15.slots t 2)
abbrev hs2 (t : Fin cfg15.N) : (ms2 t).IsWhole := hstage15_2 ((cfg15.slots t 2).cast nbuf15_2)
abbrev ms3 (t : Fin cfg15.N) : Memref sig .tc .vmem S1024x1 .f32 := win15_3.stage (cfg15.slots t 3)
abbrev hs3 (t : Fin cfg15.N) : (ms3 t).IsWhole := hstage15_3 ((cfg15.slots t 3).cast nbuf15_3)
abbrev ms4 (t : Fin cfg15.N) : Memref sig .tc .vmem S256x256 .bf16 := win15_4.stage (cfg15.slots t 4)
abbrev hs4 (t : Fin cfg15.N) : (ms4 t).IsWhole := hstage15_4 ((cfg15.slots t 4).cast nbuf15_4)
abbrev ms5 (t : Fin cfg15.N) : Memref sig .tc .vmem S1x256 .f32 := win15_5.stage (cfg15.slots t 5)
abbrev hs5 (t : Fin cfg15.N) : (ms5 t).IsWhole := hstage15_5 ((cfg15.slots t 5).cast nbuf15_5)
abbrev ms6 (t : Fin cfg15.N) : Memref sig .tc .vmem S1024x256 .bf16 := win15_6.stage (cfg15.slots t 6)
abbrev hs6 (t : Fin cfg15.N) : (ms6 t).IsWhole := hstage15_6 ((cfg15.slots t 6).cast nbuf15_6)
abbrev ms7 (t : Fin cfg15.N) : Memref sig .tc .vmem S1024x256 .f32 := win15_7.stage (cfg15.slots t 7)
abbrev hs7 (t : Fin cfg15.N) : (ms7 t).IsWhole := hstage15_7 ((cfg15.slots t 7).cast nbuf15_7)

/-- What the body is called with at point `t`, the windows one by one, -/
def bodyPre (ι : Ix) (c : Dev nD) (t : Fin cfg15.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms0 t) fullShare ((dat (Ix := Ix) (U := U) (Lvl := Lvl) V c).before 0 t d))
    ∗ (∃ d, owns (c : Thread nD τ) (ms1 t) fullShare ((dat (Ix := Ix) (U := U) (Lvl := Lvl) V c).before 1 t d))
    ∗ (∃ d, owns (c : Thread nD τ) (ms2 t) fullShare ((dat (Ix := Ix) (U := U) (Lvl := Lvl) V c).before 2 t d))
    ∗ (∃ d, owns (c : Thread nD τ) (ms3 t) fullShare ((dat (Ix := Ix) (U := U) (Lvl := Lvl) V c).before 3 t d))
    ∗ (∃ d, owns (c : Thread nD τ) (ms4 t) fullShare ((dat (Ix := Ix) (U := U) (Lvl := Lvl) V c).before 4 t d))
    ∗ (∃ d, owns (c : Thread nD τ) (ms5 t) fullShare ((dat (Ix := Ix) (U := U) (Lvl := Lvl) V c).before 5 t d))
    ∗ (∃ d, owns (c : Thread nD τ) (ms6 t) fullShare ((dat (Ix := Ix) (U := U) (Lvl := Lvl) V c).before 6 t d))
    ∗ (∃ d, owns (c : Thread nD τ) (ms7 t) fullShare ((dat (Ix := Ix) (U := U) (Lvl := Lvl) V c).before 7 t d)))

/-- and what it returns. -/
def bodyPost (ι : Ix) (c : Dev nD) (t : Fin cfg15.N) : sProp 𝕄 :=
  iprop((dat (Ix := Ix) (U := U) (Lvl := Lvl) V c).Φ t.succ ∗ (dat (Ix := Ix) (U := U) (Lvl := Lvl) V c).owesAt ι t.succ
    ∗ (dat (Ix := Ix) (U := U) (Lvl := Lvl) V c).leavesExact 0 t
    ∗ (dat (Ix := Ix) (U := U) (Lvl := Lvl) V c).leavesExact 1 t
    ∗ (dat (Ix := Ix) (U := U) (Lvl := Lvl) V c).leavesExact 2 t
    ∗ (dat (Ix := Ix) (U := U) (Lvl := Lvl) V c).leavesExact 3 t
    ∗ (dat (Ix := Ix) (U := U) (Lvl := Lvl) V c).leavesExact 4 t
    ∗ (dat (Ix := Ix) (U := U) (Lvl := Lvl) V c).leavesExact 5 t
    ∗ (dat (Ix := Ix) (U := U) (Lvl := Lvl) V c).leavesExact 6 t
    ∗ (dat (Ix := Ix) (U := U) (Lvl := Lvl) V c).leavesExact 7 t)

theorem leaves0 (c : Dev nD) (t : Fin cfg15.N) :
    (dat (Ix := Ix) (U := U) (Lvl := Lvl) V c).leavesExact 0 t = owns (c : Thread nD τ) (ms0 t) fullShare (iblk V c 0 t) := by
  unfold Dat.leavesExact; rw [show cfg15.idle 0 (cfg15.grid.coords t) = false from rfl, after0]
theorem leaves1 (c : Dev nD) (t : Fin cfg15.N) :
    (dat (Ix := Ix) (U := U) (Lvl := Lvl) V c).leavesExact 1 t = owns (c : Thread nD τ) (ms1 t) fullShare (iblk V c 1 t) := by
  unfold Dat.leavesExact; rw [show cfg15.idle 1 (cfg15.grid.coords t) = false from rfl, after1]
theorem leaves2 (c : Dev nD) (t : Fin cfg15.N) :
    (dat (Ix := Ix) (U := U) (Lvl := Lvl) V c).leavesExact 2 t = owns (c : Thread nD τ) (ms2 t) fullShare (iblk V c 2 t) := by
  unfold Dat.leavesExact; rw [show cfg15.idle 2 (cfg15.grid.coords t) = false from rfl, after2]
theorem leaves3 (c : Dev nD) (t : Fin cfg15.N) :
    (dat (Ix := Ix) (U := U) (Lvl := Lvl) V c).leavesExact 3 t = owns (c : Thread nD τ) (ms3 t) fullShare (iblk V c 3 t) := by
  unfold Dat.leavesExact; rw [show cfg15.idle 3 (cfg15.grid.coords t) = false from rfl, after3]
theorem leaves4 (c : Dev nD) (t : Fin cfg15.N) :
    (dat (Ix := Ix) (U := U) (Lvl := Lvl) V c).leavesExact 4 t = owns (c : Thread nD τ) (ms4 t) fullShare (iblk V c 4 t) := by
  unfold Dat.leavesExact; rw [show cfg15.idle 4 (cfg15.grid.coords t) = false from rfl, after4]
theorem leaves5 (c : Dev nD) (t : Fin cfg15.N) :
    (dat (Ix := Ix) (U := U) (Lvl := Lvl) V c).leavesExact 5 t = owns (c : Thread nD τ) (ms5 t) fullShare (iblk V c 5 t) := by
  unfold Dat.leavesExact; rw [show cfg15.idle 5 (cfg15.grid.coords t) = false from rfl, after5]

/-- Whatever the position, the invariant holds the accumulator's buffer at something beside the other scoped buffers. -/
theorem PhiS_any (c : Dev nD) (n : ℕ) (h : n ≤ cfg15.N) :
    PhiS (Ix := Ix) (U := U) (Lvl := Lvl) V c n h ⊢ iprop((∃ d, owns (c : Thread nD τ) scM fullShare d)
      ∗ Pipeline.scopedRestBut (Ix := Ix) (Name := ℕ) (U := U) (Lvl := Lvl) (Val := Elt F) spec15 c [cc15_scratch0]) := by
  cases n with
  | zero =>
    rw [PhiS_zero V c 0 h rfl, scopedRest15_split]
    iintro ⟨⟨%fs, HS⟩, HR⟩
    isplitl [HS]
    · iexists fs; rw [owns_whole]; iexact HS
    iexact HR
  | succ n =>
    rw [PhiS_succ]
    iintro ⟨HS, HR⟩
    isplitl [HS]
    · iexists _; iexact HS
    iexact HR

set_option maxHeartbeats 4000000 in
/-- The body at any point, by the reduction coordinate: first tile, a middle tile, last tile. -/
theorem sound_body (ι : Ix) (𝒱₀ : Variants) (c : Dev nD) (t : Fin cfg15.N) :
    bodyPre (U := U) (Lvl := Lvl) V ι c t ⊢ wp frame (wpE (defs₀ (F := F)) 𝒱₀ c none) Set.univ (bodyAt15 t) (fun _ => bodyPost (U := U) (Lvl := Lvl) V ι c t) := by
  unfold bodyPre bodyPost bodyAt15
  simp only [before0, before1, before2, before3, before4, before5]
  rw [show (dat (Ix := Ix) (U := U) (Lvl := Lvl) V c).owesAt ι t.succ = (dat (Ix := Ix) (U := U) (Lvl := Lvl) V c).owesAt ι t.castSucc from rfl]
  rw [show (dat (Ix := Ix) (U := U) (Lvl := Lvl) V c).Φ t.succ = PhiS V c (t.val + 1) t.isLt from rfl, PhiS_succ, PhiS_castSucc]
  rw [leaves0, leaves1, leaves2, leaves3, leaves4, leaves5]
  have hN : t.val < 36 := lt_of_lt_of_eq t.isLt (show cfg15.N = 36 from N_15)
  by_cases h0 : t.val % 6 = 0
  · have h5 : ¬ t.val % 6 = 5 := by omega
    rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
    rw [accAt_first V c t h0]
    iintro ⟨HΦ, Ho, ⟨%d0, H0⟩, ⟨%d1, H1⟩, ⟨%d2, H2⟩, ⟨%d3, H3⟩, ⟨%d4, H4⟩, ⟨%d5, H5⟩, H6, H7⟩
    ihave HΦ' := (PhiS_any V c _ _) $$ HΦ
    icases HΦ' with ⟨HS, HR⟩
    iapply (kernelRunA (Ix := Ix) (U := U) (Lvl := Lvl) 𝒱₀ c (grid15.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
      ((hcond1 t).mpr h0) (fun h => h5 ((hcond2 t).mp h)) (iblk V c 0 t) (iblk V c 1 t) (iblk V c 2 t) Set.univ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h0 (by rw [e])
    rw [PhiS_pos V c _ _ hz, accAt_next V c t h0]
    by_cases h5 : t.val % 6 = 5
    · rw [show (dat (Ix := Ix) (U := U) (Lvl := Lvl) V c).leavesExact 6 t = owns (c : Thread nD τ) (ms6 t) fullShare ((dat (Ix := Ix) (U := U) (Lvl := Lvl) V c).after 6 t) from by
        unfold Dat.leavesExact; rw [live6 t h5], after6]
      rw [show (dat (Ix := Ix) (U := U) (Lvl := Lvl) V c).leavesExact 7 t = owns (c : Thread nD τ) (ms7 t) fullShare ((dat (Ix := Ix) (U := U) (Lvl := Lvl) V c).after 7 t) from by
        unfold Dat.leavesExact; rw [live7 t h5], after7]
      rw [accAt_next V c t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRunC (Ix := Ix) (U := U) (Lvl := Lvl) 𝒱₀ c (grid15.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) ((hcond2 t).mpr h5) (iblk V c 0 t) (iblk V c 1 t) (iblk V c 2 t) (iblk V c 3 t) (iblk V c 4 t) (iblk V c 5 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
      iintro ⟨⟨HS, HR⟩, Ho, ⟨%d0, H0⟩, ⟨%d1, H1⟩, ⟨%d2, H2⟩, ⟨%d3, H3⟩, ⟨%d4, H4⟩, ⟨%d5, H5⟩, H6, H7⟩
      iapply (kernelRunB (Ix := Ix) (U := U) (Lvl := Lvl) 𝒱₀ c (grid15.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) (fun h => h5 ((hcond2 t).mp h)) (iblk V c 0 t) (iblk V c 1 t) (iblk V c 2 t)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (ι : Ix) (𝒱₀ : Variants) (c : Dev nD) :
    Pipeline.BodyObligation (dat (Ix := Ix) (U := U) (Lvl := Lvl) V c) (defs₀ (F := F)) 𝒱₀ ι Set.univ := fun t => by
  rw [bigSep_W15, bigSep_W15]
  exact sound_body V ι 𝒱₀ c t

/-! ## The region over the thread state -/

/-- The prefetched tables' admissible contents: no call has a table. -/
abbrev adm : (p : Fin 17) → (pcfgs (F := F) p).Adm := fun p => (cfgs p).toPCfg_adm

/-- The seven distinct buffers behind the eight windows' arrays. -/
theorem arrRefs : Finset.univ.image (Pipeline.arrRef spec15)
    = [main_v147, main_v162_0, main_v148, main_v149, main_v42, main_v165_0, main_v165_1].toFinset := by decide

/-- A core's unscoped buffers at a valuation: those seven, each whole at the full share, and the rest. -/
theorem held_split (c : Dev nD) (W : Valuation τ sig (Elt F)) :
    (StableHlo.held (c : Thread nD τ) (Pipeline.ucRefs τ sig) W : sProp 𝕄)
      = iprop(iprop((((c : Thread nD τ).loc main_v147) ↦{fullShare} W main_v147) ∗ (((c : Thread nD τ).loc main_v162_0) ↦{fullShare} W main_v162_0)
          ∗ (((c : Thread nD τ).loc main_v148) ↦{fullShare} W main_v148) ∗ (((c : Thread nD τ).loc main_v149) ↦{fullShare} W main_v149)
          ∗ (((c : Thread nD τ).loc main_v42) ↦{fullShare} W main_v42) ∗ (((c : Thread nD τ).loc main_v165_0) ↦{fullShare} W main_v165_0)
          ∗ (((c : Thread nD τ).loc main_v165_1) ↦{fullShare} W main_v165_1))
        ∗ Pipeline.unscopedRest (Ix := Ix) (Name := ℕ) (U := U) (Lvl := Lvl) spec15 c (fun b => W b)) := by
  rw [← Pipeline.unscopedBufs_held c W, Pipeline.unscopedBufs_split₀ cfgs 15 winFacts₀15.arr_unscoped c (fun b => W b)] -- pipeline index
  show iprop(Pipeline.arrBufs spec15 c (fun b => W b) ∗ Pipeline.unscopedRest spec15 c (fun b => W b)) = _
  unfold Pipeline.arrBufs
  rw [bigSep_eq_bigSepL_of_eq _ arrRefs (by decide)]
  rfl

/-- The windows' arrays as the proof data holds them: the array two windows stage half by each, the others whole. -/
theorem arrays_eq (c : Dev nD) (Fw : (w : Fin cfg15.W) → Buf (Elt F) ((cfg15.win w).arr.view.loc (c : Thread nD τ))) :
    ((dat (Ix := Ix) (U := U) (Lvl := Lvl) V c).arrays Fw : sProp 𝕄)
      = iprop((((c : Thread nD τ).loc main_v147) ↦{fullShare} Fw 0) ∗ (((c : Thread nD τ).loc main_v162_0) ↦{fullShare} Fw 1)
          ∗ (((c : Thread nD τ).loc main_v148) ↦{fullShare.left} Fw 2) ∗ (((c : Thread nD τ).loc main_v148) ↦{fullShare.right} Fw 3)
          ∗ (((c : Thread nD τ).loc main_v149) ↦{fullShare} Fw 4) ∗ (((c : Thread nD τ).loc main_v42) ↦{fullShare} Fw 5)
          ∗ (((c : Thread nD τ).loc main_v165_0) ↦{fullShare} Fw 6) ∗ (((c : Thread nD τ).loc main_v165_1) ↦{fullShare} Fw 7)) := by
  unfold Dat.arrays
  rw [bigSep_congr fun w _ => show (((cfg15.win w).arr.view.loc (c : Thread nD τ) ↦[(cfg15.win w).arr.view.set]{(dat (Ix := Ix) (U := U) (Lvl := Lvl) V c).share w} Fw w : sProp 𝕄))
      = (((c : Thread nD τ).loc (Pipeline.arrRef spec15 w)) ↦{(dat (Ix := Ix) (U := U) (Lvl := Lvl) V c).share w} Fw w) from by rw [(arr_whole15 w).set_eq_univ],
    bigSep_W15]
  rfl

/-- The unscoped buffers no window stages are the same at two valuations that differ only at the two results. -/
theorem rest_congr (c : Dev nD) (hne : ∀ (b : Ref sig .tc), b ≠ main_v165_0 → b ≠ main_v165_1 → Vp c b = V c b) :
    (Pipeline.unscopedRest (Ix := Ix) (Name := ℕ) (U := U) (Lvl := Lvl) spec15 c (fun b => Vp c b) : sProp 𝕄)
      = Pipeline.unscopedRest spec15 c (fun b => V c b) := by
  unfold Pipeline.unscopedRest
  refine bigSep_congr fun b hb => ?_
  have hb' := (Finset.mem_sdiff.mp hb).2
  rw [arrRefs] at hb'
  dsimp only
  rw [hne b (fun e => by subst e; exact hb' (by decide)) (fun e => by subst e; exact hb' (by decide))]

/-- ENTRY: the windows' arrays out of the unscoped buffers, the array two windows stage split half and half. -/
theorem hentry13 (ι : Ix) (L : GSem nD τ sig → Finset Ix) (lv : GSem nD τ sig → Ix → Lvl) (c : Dev nD) :
    iprop(iprop(StableHlo.held (c : Thread nD τ) (Pipeline.ucRefs τ sig) (V c) ∗ iprop(∃ W, owes (c : Thread nD τ) (0 : CellTallies nD τ sig Ix) W))
        ∗ Pipeline.ownSems0 (Ix := Ix) (Name := ℕ) (U := U) (Lvl := Lvl) (Val := Elt F) (τ := τ) (fun k : PEmpty => k.elim) c ∗ levAts L lv)
      ⊢ (|={Set.univ}=> iprop((dat (Ix := Ix) (U := U) (Lvl := Lvl) V c).arrays ((dat (Ix := Ix) (U := U) (Lvl := Lvl) V c).arrAt · 0)
          ∗ Pipeline.prefHeld (pcfgs (F := F) 15).pre c (fun _ => fullShare) (adm 15).1 -- pipeline index
          ∗ (dat (Ix := Ix) (U := U) (Lvl := Lvl) V c).owesAt ι 0 ∗ BI.emp ∗ Pipeline.unscopedRest (Ix := Ix) (Name := ℕ) (U := U) (Lvl := Lvl) spec15 c (fun b => V c b)) : sProp 𝕄) := by
  rw [held_split, arrays_eq]
  iintro ⟨⟨⟨⟨H147, H158, H148, H149, H42, H0, H1⟩, HZ⟩, HO⟩, -, -⟩
  ihave H148' := (pointsTo_share (PosShare.mem_left_op_right fullShare)).1 $$ H148
  icases H148' with ⟨H148l, H148r⟩
  imodintro
  isplitl [H147 H158 H148l H148r H149 H42 H0 H1]
  · isplitl [H147]; · iexact H147
    isplitl [H158]; · iexact H158
    isplitl [H148l]; · iexact H148l
    isplitl [H148r]; · iexact H148r
    isplitl [H149]; · iexact H149
    isplitl [H42]; · iexact H42
    isplitl [H0]; · iexact H0
    iexact H1
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact HZ

/-- The invariant at the first point is the scoped buffers the pipeline does not stage. -/
theorem hin13 (c : Dev nD) :
    iprop(BI.emp ∗ Pipeline.prefHeld (pcfgs (F := F) 15).pre c (fun _ => fullShare) (adm 15).1 -- pipeline index
        ∗ Pipeline.scopedRest (Ix := Ix) (Name := ℕ) (U := U) (Lvl := Lvl) (Val := Elt F) spec15 c) ⊢ ((dat (Ix := Ix) (U := U) (Lvl := Lvl) V c).Φ 0 : sProp 𝕄) := by
  rw [show (dat (Ix := Ix) (U := U) (Lvl := Lvl) V c).Φ 0 = PhiS V c 0 (Nat.zero_le _) from rfl, PhiS_zero V c 0 _ rfl]
  iintro ⟨-, -, HR⟩; iexact HR

/-- The invariant at the last point gives them back, the accumulator's contents forgotten. -/
theorem hout13 (c : Dev nD) :
    ((dat (Ix := Ix) (U := U) (Lvl := Lvl) V c).Φ (Fin.last cfg15.N) : sProp 𝕄)
      ⊢ iprop(BI.emp ∗ Pipeline.ownSems0 (Ix := Ix) (Name := ℕ) (U := U) (Lvl := Lvl) (Val := Elt F) (τ := τ) (fun k : PEmpty => k.elim) c
          ∗ Pipeline.scopedRest (Ix := Ix) (Name := ℕ) (U := U) (Lvl := Lvl) (Val := Elt F) spec15 c) := by
  rw [Pipeline.ownSems0_none nD τ sig (Elt F) Ix ℕ U Lvl c,
    show (dat (Ix := Ix) (U := U) (Lvl := Lvl) V c).Φ (Fin.last cfg15.N) = PhiS V c cfg15.N (Nat.le_refl _) from rfl]
  iintro HΦ
  ihave HΦ' := (PhiS_any V c _ _) $$ HΦ
  icases HΦ' with ⟨⟨%d, HS⟩, HR⟩
  isplitr; · iempintro
  isplitr; · iempintro
  rw [scopedRest15_split]
  isplitl [HS]
  · iexists d
    iapply (Entails.of_eq (owns_whole (c : Thread nD τ) cc15_scratch0 fullShare d))
    iexact HS
  iexact HR

/-- EXIT: the halves of the shared array rejoined, the two results at what the proof data computes, every other
    buffer as it was: the unscoped buffers at the exit valuation. -/
theorem hexit13 (ι : Ix) (c : Dev nD)
    (hout6 : Vp c main_v165_0 = (dat (Ix := Ix) (U := U) (Lvl := Lvl) V c).arrAt 6 cfg15.N)
    (hout7 : Vp c main_v165_1 = (dat (Ix := Ix) (U := U) (Lvl := Lvl) V c).arrAt 7 cfg15.N)
    (hne : ∀ (b : Ref sig .tc), b ≠ main_v165_0 → b ≠ main_v165_1 → Vp c b = V c b) :
    iprop((dat (Ix := Ix) (U := U) (Lvl := Lvl) V c).arrays ((dat (Ix := Ix) (U := U) (Lvl := Lvl) V c).arrAt · cfg15.N) ∗ (dat (Ix := Ix) (U := U) (Lvl := Lvl) V c).owesAt ι (Fin.last cfg15.N)
        ∗ BI.emp ∗ Pipeline.unscopedRest (Ix := Ix) (Name := ℕ) (U := U) (Lvl := Lvl) spec15 c (fun b => V c b))
      ⊢ (|={Set.univ}=> iprop(StableHlo.held (c : Thread nD τ) (Pipeline.ucRefs τ sig) (Vp c) ∗ iprop(∃ W, owes (c : Thread nD τ) (0 : CellTallies nD τ sig Ix) W)) : sProp 𝕄) := by
  rw [held_split, arrays_eq, rest_congr V Vp c hne]
  have e0 := (dat (Ix := Ix) (U := U) (Lvl := Lvl) V c).arrAt_in 0 rfl cfg15.N
  have e1 := (dat (Ix := Ix) (U := U) (Lvl := Lvl) V c).arrAt_in 1 rfl cfg15.N
  have e2 := (dat (Ix := Ix) (U := U) (Lvl := Lvl) V c).arrAt_in 2 rfl cfg15.N
  have e3 := (dat (Ix := Ix) (U := U) (Lvl := Lvl) V c).arrAt_in 3 rfl cfg15.N
  have e4 := (dat (Ix := Ix) (U := U) (Lvl := Lvl) V c).arrAt_in 4 rfl cfg15.N
  have e5 := (dat (Ix := Ix) (U := U) (Lvl := Lvl) V c).arrAt_in 5 rfl cfg15.N
  rw [A_eq] at e0 e1 e2 e3 e4 e5
  rw [e0, e1, e2, e3, e4, e5, ← hout6, ← hout7,
    hne main_v147 (by decide) (by decide), hne main_v162_0 (by decide) (by decide), hne main_v148 (by decide) (by decide),
    hne main_v149 (by decide) (by decide), hne main_v42 (by decide) (by decide)]
  iintro ⟨⟨H147, H158, H148l, H148r, H149, H42, H0, H1⟩, HO, -, HZ⟩
  ihave H148 := (pointsTo_share (PosShare.mem_left_op_right fullShare)).2 $$ [H148l H148r]
  · isplitl [H148l]; · iexact H148l
    iexact H148r
  imodintro
  isplitr [HO]
  · isplitr [HZ]
    · isplitl [H147]; · iexact H147
      isplitl [H158]; · iexact H158
      isplitl [H148]; · iexact H148
      isplitl [H149]; · iexact H149
      isplitl [H42]; · iexact H42
      isplitl [H0]; · iexact H0
      iexact H1
    iexact HZ
  · unfold Pipeline.Dat.owesAt Pipeline.owesWithin
    icases HO with ⟨%W, -, HO⟩; iexists W; iexact HO

set_option backward.isDefEq.respectTransparency.types false in
/-- THE REGION: entered from every unscoped buffer at `V c` — the eight windows' arrays into the pipeline, the array two
    windows stage split half and half between them, every other unscoped buffer bypassing —, left with the two results
    at what the proof data computes and every other buffer as it was. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd 15 c = dat V c) -- pipeline index
    (hout6 : ∀ c, Vp c main_v165_0 = (dat (Ix := Ix) (U := U) (Lvl := Lvl) V c).arrAt 6 cfg15.N)
    (hout7 : ∀ c, Vp c main_v165_1 = (dat (Ix := Ix) (U := U) (Lvl := Lvl) V c).arrAt 7 cfg15.N)
    (hne : ∀ c (b : Ref sig .tc), b ≠ main_v165_0 → b ≠ main_v165_1 → Vp c b = V c b) :
    Pipeline.RegionSeg (pcfgs (F := F)) adm pd ι defs₀ 𝒱₀ L lv 15 where -- pipeline index
  win := winFacts₀15
  block_pos := block_pos15
  stage_whole := stage_whole15
  K := PEmpty
  osem := fun k => k.elim
  ho := Pipeline.OwnSemFacts.none _
  hbody c := by rw [hpd c]; exact (body_obligation V ι 𝒱₀ c).loose
  hwaits := Pipeline.hwaits_of_owed_zero _ _ _ _ L lv 15 fun c _ => by rw [hpd c]; rfl -- pipeline index
  pre c := iprop(StableHlo.held (c : Thread nD τ) (Pipeline.ucRefs τ sig) (V c) ∗ iprop(∃ W, owes (c : Thread nD τ) (0 : CellTallies nD τ sig Ix) W))
  post c := iprop(StableHlo.held (c : Thread nD τ) (Pipeline.ucRefs τ sig) (Vp c) ∗ iprop(∃ W, owes (c : Thread nD τ) (0 : CellTallies nD τ sig Ix) W))
  X _ := (BI.emp : sProp 𝕄)
  Y _ := (BI.emp : sProp 𝕄)
  Z c := Pipeline.unscopedRest (Ix := Ix) (Name := ℕ) (U := U) (Lvl := Lvl) spec15 c (fun b => V c b)
  hentry c := by rw [hpd c]; exact hentry13 V ι L lv c
  hin c := by rw [hpd c]; exact hin13 V c
  hout c := by rw [hpd c]; exact hout13 V c
  hexit c := by rw [hpd c]; exact hexit13 V Vp ι c (hout6 c) (hout7 c) (hne c)

end Cert.Kernel.Region15

end
-- ==== Proof.K.Region16.lean ====
/-
  Region 16 of @main: the decoder kernel on a grid of 8 points. Each point loads a block of 2048 rows of the
  features (window 0) and the whole of four weight matrices and four bias rows (windows 1 to 8, resident: fetched
  at the first point only), applies three affine layers each followed by tanh and a last affine layer, and stores
  the 2048 results into its block of the output column (window 9, written back at every point). The kernel has no
  scratch buffer, no semaphore of its own and no branch.

  This file gives, for any float interpretation: what every window's staging buffer holds after the body at a
  point (an input's: its block of the array as the region finds it; the output's: the payload applied to the nine
  input blocks), the body's triple, the body obligation at a generic point, and the region as a segment between two
  valuations of the unscoped buffers.
-/
import proofs.«414035_j83562883711810_2_alg».proof.Proof.Gen.Kernel.Launch
import proofs.«414035_j83562883711810_2_alg».proof.Proof.Gen.Kernel.Skeleton
import proofs.«414035_j83562883711810_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Tactic

set_option maxRecDepth 16384

noncomputable section

namespace Cert.Kernel.Region16

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

variable (V Vp : Dev nD → Valuation τ sig (Elt F))

/-! ## The windows' blocks and what the body leaves -/

/-- Window `w`'s block at point `t`, read off its array as the region finds it. -/
def iblk (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- What the body stores into the output's staging buffer at point `t`: the four layers applied to the feature
    block, the weights and the biases. -/
def out16 (c : Dev nD) (t : Fin cfg16.N) : Vec F S2048x1 .f32 :=
  k16_pay1 (iblk V c 0 t) (iblk V c 1 t) (iblk V c 2 t) (iblk V c 3 t) (iblk V c 4 t) (iblk V c 5 t) (iblk V c 6 t)
    (iblk V c 7 t) (iblk V c 8 t)

/-- The proof data on core `c`: the arrays as the region finds them; after the body each input's buffer at its
    block and the output's at `out16`; the invariant the scoped buffers no window stages; nothing owed; full shares. -/
def dat (c : Dev nD) : Dat τ (Elt F) Ix ℕ U Lvl cfg16 c where
  A w := V c (Pipeline.arrRef spec16 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out16 V c t
  Φ _ := Pipeline.scopedRest (Ix := Ix) (Name := ℕ) (U := U) (Lvl := Lvl) (Val := Elt F) spec16 c
  q _ := fullShare
  owed _ := 0

theorem A_eq (c : Dev nD) (w : Fin cfg16.W) : (dat (Ix := Ix) (U := U) (Lvl := Lvl) V c).A w = V c (Pipeline.arrRef spec16 w) := by
  dsimp only [dat]

theorem after_0 (c : Dev nD) (t : Fin cfg16.N) : (dat (Ix := Ix) (U := U) (Lvl := Lvl) V c).after 0 t = iblk V c 0 t := by dsimp only [dat]
theorem after_1 (c : Dev nD) (t : Fin cfg16.N) : (dat (Ix := Ix) (U := U) (Lvl := Lvl) V c).after 1 t = iblk V c 1 t := by dsimp only [dat]
theorem after_2 (c : Dev nD) (t : Fin cfg16.N) : (dat (Ix := Ix) (U := U) (Lvl := Lvl) V c).after 2 t = iblk V c 2 t := by dsimp only [dat]
theorem after_3 (c : Dev nD) (t : Fin cfg16.N) : (dat (Ix := Ix) (U := U) (Lvl := Lvl) V c).after 3 t = iblk V c 3 t := by dsimp only [dat]
theorem after_4 (c : Dev nD) (t : Fin cfg16.N) : (dat (Ix := Ix) (U := U) (Lvl := Lvl) V c).after 4 t = iblk V c 4 t := by dsimp only [dat]
theorem after_5 (c : Dev nD) (t : Fin cfg16.N) : (dat (Ix := Ix) (U := U) (Lvl := Lvl) V c).after 5 t = iblk V c 5 t := by dsimp only [dat]
theorem after_6 (c : Dev nD) (t : Fin cfg16.N) : (dat (Ix := Ix) (U := U) (Lvl := Lvl) V c).after 6 t = iblk V c 6 t := by dsimp only [dat]
theorem after_7 (c : Dev nD) (t : Fin cfg16.N) : (dat (Ix := Ix) (U := U) (Lvl := Lvl) V c).after 7 t = iblk V c 7 t := by dsimp only [dat]
theorem after_8 (c : Dev nD) (t : Fin cfg16.N) : (dat (Ix := Ix) (U := U) (Lvl := Lvl) V c).after 8 t = iblk V c 8 t := by dsimp only [dat]
theorem after_9 (c : Dev nD) (t : Fin cfg16.N) : (dat (Ix := Ix) (U := U) (Lvl := Lvl) V c).after 9 t = out16 V c t := by dsimp only [dat]

/-- An input window's staging buffer holds its block when the body runs, fetched at that point or not: a window
    not fetched has not moved, and the body left its block in place (one statement per window: the block's type
    is computed from the literal window). -/
theorem before_0 (c : Dev nD) (t : Fin cfg16.N) (d) : (dat (Ix := Ix) (U := U) (Lvl := Lvl) V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg16.N) (d) : (dat (Ix := Ix) (U := U) (Lvl := Lvl) V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg16.N) (d) : (dat (Ix := Ix) (U := U) (Lvl := Lvl) V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg16.N) (d) : (dat (Ix := Ix) (U := U) (Lvl := Lvl) V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg16.N) (d) : (dat (Ix := Ix) (U := U) (Lvl := Lvl) V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg16.N) (d) : (dat (Ix := Ix) (U := U) (Lvl := Lvl) V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg16.N) (d) : (dat (Ix := Ix) (U := U) (Lvl := Lvl) V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg16.N) (d) : (dat (Ix := Ix) (U := U) (Lvl := Lvl) V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg16.N) (d) : (dat (Ix := Ix) (U := U) (Lvl := Lvl) V c).before 8 t d = iblk V c 8 t :=
  ((dat V c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! ## The body's triple -/

/-- The zero offsets of a whole-buffer rectangle, spelt as a function. -/
theorem off00 : (![0, 0] : Fin 2 → Nat) = fun _ => 0 := by funext a; fin_cases a <;> rfl

/-- What the body's one store leaves in the output's staging buffer, as the run states it: the payload of the nine
    loads, each through its buffer's whole rectangle, laid over the buffer through its whole rectangle. -/
def outRaw (x0 : Vec F S2048x256 .bf16) (x1 : Vec F S256x128 .bf16) (x2 : Vec F S1x128 .f32) (x3 : Vec F S128x64 .bf16) (x4 : Vec F S1x64 .f32) (x5 : Vec F S64x32 .bf16) (x6 : Vec F S1x32 .f32) (x7 : Vec F S32x1 .bf16) (x8 : Vec F S1x1 .f32) : Vec F S2048x1 .f32 :=
  View.canon [⟨Rect.unit (s := S2048x1) ![0, 0] S2048x1.size inb_S2048x1_S2048x1_0_0, k16_pay1
      (View.ld x0 (Rect.unit (s := S2048x256) ![0, 0] S2048x256.size inb_S2048x256_S2048x256_0_0))
      (View.ld x1 (Rect.unit (s := S256x128) ![0, 0] S256x128.size inb_S256x128_S256x128_0_0))
      (View.ld x2 (Rect.unit (s := S1x128) ![0, 0] S1x128.size inb_S1x128_S1x128_0_0))
      (View.ld x3 (Rect.unit (s := S128x64) ![0, 0] S128x64.size inb_S128x64_S128x64_0_0))
      (View.ld x4 (Rect.unit (s := S1x64) ![0, 0] S1x64.size inb_S1x64_S1x64_0_0))
      (View.ld x5 (Rect.unit (s := S64x32) ![0, 0] S64x32.size inb_S64x32_S64x32_0_0))
      (View.ld x6 (Rect.unit (s := S1x32) ![0, 0] S1x32.size inb_S1x32_S1x32_0_0))
      (View.ld x7 (Rect.unit (s := S32x1) ![0, 0] S32x1.size inb_S32x1_S32x1_0_0))
      (View.ld x8 (Rect.unit (s := S1x1) ![0, 0] S1x1.size inb_S1x1_S1x1_0_0))⟩]

/-- The store covers the buffer. -/
theorem cover_out (p : Vec F S2048x1 .f32) (y : S2048x1.Idx) :
    ∃ pc ∈ ([⟨Rect.unit (s := S2048x1) ![0, 0] S2048x1.size inb_S2048x1_S2048x1_0_0, p⟩] : List (View.Piece (Elt F) S2048x1 .f32)), y ∈ pc.1.set :=
  ⟨_, List.mem_singleton_self _, View.mem_set_unit_zero (S := S2048x1) off00 inb_S2048x1_S2048x1_0_0 y⟩

/-- Whole-rectangle loads read the contents and the one whole-rectangle store leaves its payload. -/
theorem outRaw_eq (x0 : Vec F S2048x256 .bf16) (x1 : Vec F S256x128 .bf16) (x2 : Vec F S1x128 .f32) (x3 : Vec F S128x64 .bf16) (x4 : Vec F S1x64 .f32) (x5 : Vec F S64x32 .bf16) (x6 : Vec F S1x32 .f32) (x7 : Vec F S32x1 .bf16) (x8 : Vec F S1x1 .f32) :
    outRaw x0 x1 x2 x3 x4 x5 x6 x7 x8 = k16_pay1 x0 x1 x2 x3 x4 x5 x6 x7 x8 := by
  unfold outRaw
  rw [View.canon_unit_zero (S := S2048x1) off00]
  simp only [View.ld_unit_zero (S := S2048x256) off00, View.ld_unit_zero (S := S256x128) off00, View.ld_unit_zero (S := S1x128) off00, View.ld_unit_zero (S := S128x64) off00, View.ld_unit_zero (S := S1x64) off00, View.ld_unit_zero (S := S64x32) off00, View.ld_unit_zero (S := S1x32) off00, View.ld_unit_zero (S := S32x1) off00, View.ld_unit_zero (S := S1x1) off00]

set_option maxHeartbeats 1000000 in
/-- The kernel body on whole staging memrefs, the inputs' at read contents `x0 … x8` and the output's at anything,
    runs to the continuation holding the inputs' as they were and the output's at `outRaw` of the inputs: nine
    loads, one load of the output buffer whose value is dropped, one store covering the output buffer. -/
theorem kernel_run (c : Dev nD) (𝒱₀ : Variants) (E : Set ℕ) (i : grid16.Coords) (arg1 : Memref sig .tc .vmem S2048x256 .bf16) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x64 .bf16) (harg4 : arg4.IsWhole) (arg5 : Memref sig .tc .vmem S1x64 .f32) (harg5 : arg5.IsWhole) (arg6 : Memref sig .tc .vmem S64x32 .bf16) (harg6 : arg6.IsWhole) (arg7 : Memref sig .tc .vmem S1x32 .f32) (harg7 : arg7.IsWhole) (arg8 : Memref sig .tc .vmem S32x1 .bf16) (harg8 : arg8.IsWhole) (arg9 : Memref sig .tc .vmem S1x1 .f32) (harg9 : arg9.IsWhole) (arg10 : Memref sig .tc .vmem S2048x1 .f32) (harg10 : arg10.IsWhole)
    (x0 : Vec F S2048x256 .bf16) (x1 : Vec F S256x128 .bf16) (x2 : Vec F S1x128 .f32) (x3 : Vec F S128x64 .bf16) (x4 : Vec F S1x64 .f32) (x5 : Vec F S64x32 .bf16) (x6 : Vec F S1x32 .f32) (x7 : Vec F S32x1 .bf16) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outRaw x0 x1 x2 x3 x4 x5 x6 x7 x8)) -∗ K ⟨⟩))
      ⊢ wp frame (wpE (defs₀ (F := F)) 𝒱₀ c none) E (cc16__decode_kernel i arg1 harg1 arg2 harg2 arg3 harg3 arg4 harg4 arg5 harg5 arg6 harg6 arg7 harg7 arg8 harg8 arg9 harg9 arg10 harg10) K := by
  simp only [cc16__decode_kernel_eq_skeleton]; unfold cc16__decode_kernel_skel
  simp only [k16_part1_eq_skeleton]; unfold k16_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _)

/-- The output's contents after the body, in the form the run states them. -/
theorem out16_raw (c : Dev nD) (t : Fin cfg16.N) :
    out16 V c t = outRaw (iblk V c 0 t) (iblk V c 1 t) (iblk V c 2 t) (iblk V c 3 t) (iblk V c 4 t) (iblk V c 5 t) (iblk V c 6 t)
      (iblk V c 7 t) (iblk V c 8 t) :=
  (outRaw_eq _ _ _ _ _ _ _ _ _).symm

/-! ## The body obligation, at a generic point -/

/-- What the body is handed at point `t`: the invariant, the core's dues, and every window's current staging buffer
    at what it then holds. -/
def bodyPre (ι : Ix) (c : Dev nD) (t : Fin cfg16.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (st16_0 t) fullShare ((dat (Ix := Ix) (U := U) (Lvl := Lvl) V c).before 0 t d))
    ∗ (∃ d, owns (c : Thread nD τ) (st16_1 t) fullShare ((dat (Ix := Ix) (U := U) (Lvl := Lvl) V c).before 1 t d))
    ∗ (∃ d, owns (c : Thread nD τ) (st16_2 t) fullShare ((dat (Ix := Ix) (U := U) (Lvl := Lvl) V c).before 2 t d))
    ∗ (∃ d, owns (c : Thread nD τ) (st16_3 t) fullShare ((dat (Ix := Ix) (U := U) (Lvl := Lvl) V c).before 3 t d))
    ∗ (∃ d, owns (c : Thread nD τ) (st16_4 t) fullShare ((dat (Ix := Ix) (U := U) (Lvl := Lvl) V c).before 4 t d))
    ∗ (∃ d, owns (c : Thread nD τ) (st16_5 t) fullShare ((dat (Ix := Ix) (U := U) (Lvl := Lvl) V c).before 5 t d))
    ∗ (∃ d, owns (c : Thread nD τ) (st16_6 t) fullShare ((dat (Ix := Ix) (U := U) (Lvl := Lvl) V c).before 6 t d))
    ∗ (∃ d, owns (c : Thread nD τ) (st16_7 t) fullShare ((dat (Ix := Ix) (U := U) (Lvl := Lvl) V c).before 7 t d))
    ∗ (∃ d, owns (c : Thread nD τ) (st16_8 t) fullShare ((dat (Ix := Ix) (U := U) (Lvl := Lvl) V c).before 8 t d))
    ∗ (∃ d, owns (c : Thread nD τ) (st16_9 t) fullShare ((dat (Ix := Ix) (U := U) (Lvl := Lvl) V c).before 9 t d)))

/-- What it hands back: the same, every buffer at what the proof data says the body leaves. -/
def bodyPost (ι : Ix) (c : Dev nD) (t : Fin cfg16.N) : sProp 𝕄 :=
  iprop((dat (Ix := Ix) (U := U) (Lvl := Lvl) V c).Φ t.succ ∗ (dat (Ix := Ix) (U := U) (Lvl := Lvl) V c).owesAt ι t.succ
    ∗ owns (c : Thread nD τ) (st16_0 t) fullShare ((dat (Ix := Ix) (U := U) (Lvl := Lvl) V c).after 0 t)
    ∗ owns (c : Thread nD τ) (st16_1 t) fullShare ((dat (Ix := Ix) (U := U) (Lvl := Lvl) V c).after 1 t)
    ∗ owns (c : Thread nD τ) (st16_2 t) fullShare ((dat (Ix := Ix) (U := U) (Lvl := Lvl) V c).after 2 t)
    ∗ owns (c : Thread nD τ) (st16_3 t) fullShare ((dat (Ix := Ix) (U := U) (Lvl := Lvl) V c).after 3 t)
    ∗ owns (c : Thread nD τ) (st16_4 t) fullShare ((dat (Ix := Ix) (U := U) (Lvl := Lvl) V c).after 4 t)
    ∗ owns (c : Thread nD τ) (st16_5 t) fullShare ((dat (Ix := Ix) (U := U) (Lvl := Lvl) V c).after 5 t)
    ∗ owns (c : Thread nD τ) (st16_6 t) fullShare ((dat (Ix := Ix) (U := U) (Lvl := Lvl) V c).after 6 t)
    ∗ owns (c : Thread nD τ) (st16_7 t) fullShare ((dat (Ix := Ix) (U := U) (Lvl := Lvl) V c).after 7 t)
    ∗ owns (c : Thread nD τ) (st16_8 t) fullShare ((dat (Ix := Ix) (U := U) (Lvl := Lvl) V c).after 8 t)
    ∗ owns (c : Thread nD τ) (st16_9 t) fullShare ((dat (Ix := Ix) (U := U) (Lvl := Lvl) V c).after 9 t))

/-- The body at any point: the nine inputs' buffers hold their blocks, so the body's triple applies at them; the
    invariant and the dues pass through untouched. -/
theorem body_at (ι : Ix) (𝒱₀ : Variants) (c : Dev nD) (t : Fin cfg16.N) :
    (bodyPre (U := U) (Lvl := Lvl) V ι c t : sProp 𝕄)
      ⊢ wp frame (wpE (defs₀ (F := F)) 𝒱₀ c none) Set.univ (bodyAt16 t) (fun _ => bodyPost (U := U) (Lvl := Lvl) V ι c t) := by
  unfold bodyPre bodyPost bodyAt16
  simp only [before_0, before_1, before_2, before_3, before_4, before_5, before_6, before_7, before_8]
  rw [show (dat (Ix := Ix) (U := U) (Lvl := Lvl) V c).Φ t.succ = (dat (Ix := Ix) (U := U) (Lvl := Lvl) V c).Φ t.castSucc from rfl,
    show (dat (Ix := Ix) (U := U) (Lvl := Lvl) V c).owesAt ι t.succ = (dat (Ix := Ix) (U := U) (Lvl := Lvl) V c).owesAt ι t.castSucc from rfl,
    after_0, after_1, after_2, after_3, after_4, after_5, after_6, after_7, after_8, after_9, out16_raw]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernel_run c 𝒱₀ Set.univ (grid16.coords t) _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W16, bigSep_W16]
  exact body_at (U := U) (Lvl := Lvl) V ι 𝒱₀ c t

end Cert.Kernel.Region16

end
-- ==== Proof.K.Region16RegOf.lean ====
/-
  Region 16 of @main as a segment between two valuations of the core's unscoped buffers: entered holding every
  unscoped buffer at `V c`, left holding them at `Vp c`, which has the output column at what the write-backs left and
  every other buffer as it was. Stated for ANY proof data of the pipeline whose arrays are read off `V`, that holds
  its inputs at the full share, owes nothing, keeps as its invariant the scoped buffers no window stages, and satisfies
  the body obligation: the ten windows' arrays go into the pipeline, every other unscoped buffer passes by, the kernel
  has no semaphore of its own.
-/
import proofs.«414035_j83562883711810_2_alg».proof.Proof.Gen.Kernel.Launch
import Idealize.ShloMosaic.Lib.Pipeline.Frame
import Idealize.ShloMosaic.Lib.Pipeline.Regions
import Idealize.ShloMosaic.Lib.Pipeline.RegionsLoop

set_option maxRecDepth 16384

noncomputable section

namespace Cert.Kernel.Region16

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

variable (V Vp : Dev nD → Valuation τ sig (Elt F))

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final_of (D : (c : Dev nD) → Dat τ (Elt F) Ix ℕ U Lvl cfg16 c)
    (hA : ∀ c w, (D c).A w = V c (Pipeline.arrRef spec16 w)) (c : Dev nD)
    (hout : ∀ c, Vp c main_v184 = (D c).arrAt 9 cfg16.N)
    (hne : ∀ c (b : Ref sig .tc), b ≠ main_v184 → Vp c b = V c b) :
    ∀ w : Fin cfg16.W, (D c).arrAt w cfg16.N = Vp c (Pipeline.arrRef spec16 w)
  | ⟨0, _⟩ => ((D c).arrAt_in 0 rfl _).trans ((hA c 0).trans (hne c _ (ref_ne (by decide))).symm)
  | ⟨1, _⟩ => ((D c).arrAt_in 1 rfl _).trans ((hA c 1).trans (hne c _ (ref_ne (by decide))).symm)
  | ⟨2, _⟩ => ((D c).arrAt_in 2 rfl _).trans ((hA c 2).trans (hne c _ (ref_ne (by decide))).symm)
  | ⟨3, _⟩ => ((D c).arrAt_in 3 rfl _).trans ((hA c 3).trans (hne c _ (ref_ne (by decide))).symm)
  | ⟨4, _⟩ => ((D c).arrAt_in 4 rfl _).trans ((hA c 4).trans (hne c _ (ref_ne (by decide))).symm)
  | ⟨5, _⟩ => ((D c).arrAt_in 5 rfl _).trans ((hA c 5).trans (hne c _ (ref_ne (by decide))).symm)
  | ⟨6, _⟩ => ((D c).arrAt_in 6 rfl _).trans ((hA c 6).trans (hne c _ (ref_ne (by decide))).symm)
  | ⟨7, _⟩ => ((D c).arrAt_in 7 rfl _).trans ((hA c 7).trans (hne c _ (ref_ne (by decide))).symm)
  | ⟨8, _⟩ => ((D c).arrAt_in 8 rfl _).trans ((hA c 8).trans (hne c _ (ref_ne (by decide))).symm)
  | ⟨9, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION, for any such proof data `D`. -/
def regOf (D : (c : Dev nD) → Dat τ (Elt F) Ix ℕ U Lvl cfg16 c)
    (hA : ∀ c w, (D c).A w = V c (Pipeline.arrRef spec16 w)) (hq : ∀ c w, (D c).q w = fullShare)
    (howed : ∀ c t, (D c).owed t = 0) (hrec : ∀ c t, (D c).recorded t = Set.univ)
    (hΦ : ∀ c t, (D c).Φ t = Pipeline.scopedRest (Ix := Ix) (Name := ℕ) (U := U) (Lvl := Lvl) (Val := Elt F) spec16 c)
    (ι : Ix) (𝒱₀ : Variants) (hbody : ∀ c, BodyObligation (D c) (defs₀ (F := F)) 𝒱₀ ι Set.univ)
    (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 16 c = D c)
    (hout : ∀ c, Vp c main_v184 = (D c).arrAt 9 cfg16.N)
    (hne : ∀ c (b : Ref sig .tc), b ≠ main_v184 → Vp c b = V c b) :
    Pipeline.RegionSeg (pcfgs (F := F)) adm pd ι defs₀ 𝒱₀ L lv 16 where
  win := launch16.win.to₀
  block_pos := launch16.block_pos
  stage_whole := launch16.stage_whole
  K := PEmpty
  osem := fun k => k.elim
  ho := Pipeline.OwnSemFacts.none _
  hbody c := by rw [hpd]; exact (hbody c).loose
  hwaits := Pipeline.hwaits_of_owed_zero _ _ _ _ L lv 16 fun c t => by rw [hpd]; exact howed c t
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec16 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 16) launch16.win launch16.arr_whole c
      (by rw [hpd]; exact (D c).share_full (hq c)) (fun b => V c b) (by rw [hpd]; exact hA c)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed, hrec]
      icases HO with ⟨%W, HO⟩; iexists W; isplitr; · ipureintro; exact fun _ _ => Or.inl trivial
      iexact HO
    isplitr; · iempintro
    iexact Hr
  hin c := by
    rw [hpd, hΦ]
    iintro ⟨-, -, Hr⟩
    iexact Hr
  hout c := by
    rw [hpd, Pipeline.ownSems0_none, hΦ]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 16) launch16.win launch16.arr_whole c pd
      (by rw [hpd]; exact (D c).share_full (hq c)) (fun b => V c b) (fun b => Vp c b)
      (fun w => (pd 16 c).arrAt w (Pipeline.pin (pcfgs (F := F)) adm 16).N)
      (fun w => by rw [hpd]; exact arrAt_final_of V Vp D hA c hout hne w)
      (fun b hb => hne c b fun e => hb (e ▸ Finset.mem_image_of_mem _ (Finset.mem_univ (9 : Fin 10))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      rw [howed]
      icases HO with ⟨%W, -, HO⟩; iexists W; iexact HO

end Cert.Kernel.Region16

end
-- ==== Proof.K.Region16Reg.lean ====
/-
  Region 16 of @main as a segment between two valuations of the core's unscoped buffers, at the proof data of the decoder
  kernel: the arrays are read off the entry valuation, the inputs are held at the full share, nothing is owed, the
  invariant is the scoped buffers no window stages, and the body obligation holds.
-/
import proofs.«414035_j83562883711810_2_alg».proof.Proof.K.Region16
import proofs.«414035_j83562883711810_2_alg».proof.Proof.K.Region16RegOf

noncomputable section

namespace Cert.Kernel.Region16

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] {Ix : Type} [DecidableEq Ix] {U : Type} [URA U] {Lvl : Type} [Preorder Lvl]

variable (V Vp : Dev nD → Valuation τ sig (Elt F))

/-- THE REGION: entered holding every unscoped buffer at `V c`, left holding them at `Vp c`, which has the output column at
    what the write-backs left and every other buffer as it was. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 16 c = dat V c)
    (hout : ∀ c, Vp c main_v184 = (dat (Ix := Ix) (U := U) (Lvl := Lvl) V c).arrAt 9 cfg16.N)
    (hne : ∀ c (b : Ref sig .tc), b ≠ main_v184 → Vp c b = V c b) :
    Pipeline.RegionSeg (pcfgs (F := F)) adm pd ι defs₀ 𝒱₀ L lv 16 :=
  regOf V Vp (fun c => dat (Ix := Ix) (U := U) (Lvl := Lvl) V c) (A_eq V) (fun _ _ => rfl) (fun _ _ => rfl) (fun _ _ => rfl)
    (fun _ _ => rfl) ι 𝒱₀ (body_obligation V ι 𝒱₀) L lv pd hpd hout hne

end Cert.Kernel.Region16

end
-- ==== Proof.K.Assembly.lean ====
import proofs.«414035_j83562883711810_2_alg».proof.Proof.K.AssemblyKit
import proofs.«414035_j83562883711810_2_alg».proof.Proof.K.Region0
import proofs.«414035_j83562883711810_2_alg».proof.Proof.K.Region1
import proofs.«414035_j83562883711810_2_alg».proof.Proof.K.Region2
import proofs.«414035_j83562883711810_2_alg».proof.Proof.K.Region3
import proofs.«414035_j83562883711810_2_alg».proof.Proof.K.Region4
import proofs.«414035_j83562883711810_2_alg».proof.Proof.K.Region5
import proofs.«414035_j83562883711810_2_alg».proof.Proof.K.Region6
import proofs.«414035_j83562883711810_2_alg».proof.Proof.K.Region7
import proofs.«414035_j83562883711810_2_alg».proof.Proof.K.Region8
import proofs.«414035_j83562883711810_2_alg».proof.Proof.K.Region9
import proofs.«414035_j83562883711810_2_alg».proof.Proof.K.Region10
import proofs.«414035_j83562883711810_2_alg».proof.Proof.K.Region11
import proofs.«414035_j83562883711810_2_alg».proof.Proof.K.Region12
import proofs.«414035_j83562883711810_2_alg».proof.Proof.K.Region13
import proofs.«414035_j83562883711810_2_alg».proof.Proof.K.Region14
import proofs.«414035_j83562883711810_2_alg».proof.Proof.K.Region15
import proofs.«414035_j83562883711810_2_alg».proof.Proof.K.Region16Reg

/-! # The kernel program's frame, and its run with the result named

The seventeen regions' proof data and segment records, handed to the assembly (`AssemblyKit`): the contents the regions
leave (`outs`), determined region by region from the launch memory; the equations saying that each result array holds
what its region's data compute over the valuation the region is entered at (`outs_R0` … `outs_R16`); the frame
(`frame_main`) and the run with the result array named (`run_main`). -/

set_option maxRecDepth 2808

noncomputable section

namespace Cert.Kernel.Assembly

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel.AssemblyKit (Dats Regs PD 𝒱₀ L₀ lv₀ argsKept)

variable {F : FTy → Type} [FloatOps F]

/-- The seventeen regions' proof data, in the pipelines' algebra alone. -/
def theDats : Dats F where
  d0 := Region0.dat
  d1 := Region1.dat
  d2 := Region2.dat
  d3 := Region3.dat
  d4 := Region4.dat
  d5 := Region5.dat
  d6 := Region6.dat
  d7 := Region7.dat
  d8 := Region8.dat
  d9 := Region9.dat
  d10 := Region10.dat
  d11 := Region11.dat
  d12 := Region12.dat
  d13 := Region13.dat
  d14 := Region14.dat
  d15 := Region15.dat
  d16 := Region16.dat

-- a record stated over `Pipeline.pin pcfgs adm p` is read at the printed configuration `cfgs p`, which takes unfolding
-- plain definitions in a type
set_option backward.isDefEq.respectTransparency.types false in
/-- The seventeen regions' records; each is entered and left at the unscoped buffers held beside the core's dues, by
    definition. -/
def theRegs : Regs (theDats (F := F)) where
  r0 V Vp pd hpd hout hne := ⟨Region0.reg V Vp () 𝒱₀ L₀ lv₀ pd hpd hout hne, fun _ => .rfl, fun _ => .rfl⟩
  r1 V Vp pd hpd hout hne := ⟨Region1.reg V Vp () 𝒱₀ L₀ lv₀ pd hpd hout hne, fun _ => .rfl, fun _ => .rfl⟩
  r2 V Vp pd hpd hout hne := ⟨Region2.reg V Vp () 𝒱₀ L₀ lv₀ pd hpd hout hne, fun _ => .rfl, fun _ => .rfl⟩
  r3 V Vp pd hpd hout hne := ⟨Region3.reg V Vp () 𝒱₀ L₀ lv₀ pd hpd hout hne, fun _ => .rfl, fun _ => .rfl⟩
  r4 V Vp pd hpd hout hne := ⟨Region4.reg V Vp () 𝒱₀ L₀ lv₀ pd hpd hout hne, fun _ => .rfl, fun _ => .rfl⟩
  r5 V Vp pd hpd hout hne := ⟨Region5.reg V Vp () 𝒱₀ L₀ lv₀ pd hpd hout hne, fun _ => .rfl, fun _ => .rfl⟩
  r6 V Vp pd hpd hout hne := ⟨Region6.reg V Vp () 𝒱₀ L₀ lv₀ pd hpd hout hne, fun _ => .rfl, fun _ => .rfl⟩
  r7 V Vp pd hpd hout hne := ⟨Region7.reg V Vp () 𝒱₀ L₀ lv₀ pd hpd hout hne, fun _ => .rfl, fun _ => .rfl⟩
  r8 V Vp pd hpd hout hne := ⟨Region8.reg V Vp () 𝒱₀ L₀ lv₀ pd hpd hout hne, fun _ => .rfl, fun _ => .rfl⟩
  r9 V Vp pd hpd hout hne := ⟨Region9.reg V Vp () 𝒱₀ L₀ lv₀ pd hpd hout hne, fun _ => .rfl, fun _ => .rfl⟩
  r10 V Vp pd hpd hout hne := ⟨Region10.reg V Vp () 𝒱₀ L₀ lv₀ pd hpd hout hne, fun _ => .rfl, fun _ => .rfl⟩
  r11 V Vp pd hpd hout hne := ⟨Region11.reg V Vp () 𝒱₀ L₀ lv₀ pd hpd hout hne, fun _ => .rfl, fun _ => .rfl⟩
  r12 V Vp pd hpd hout hne := ⟨Region12.reg V Vp () 𝒱₀ L₀ lv₀ pd hpd hout hne, fun _ => .rfl, fun _ => .rfl⟩
  r13 V Vp pd hpd hout0 hout1 hne := ⟨Region13.reg V Vp () 𝒱₀ L₀ lv₀ pd hpd hout0 hout1 hne, fun _ => .rfl, fun _ => .rfl⟩
  r14 V Vp pd hpd hout0 hout1 hne := ⟨Region14.reg V Vp () 𝒱₀ L₀ lv₀ pd hpd hout0 hout1 hne, fun _ => .rfl, fun _ => .rfl⟩
  r15 V Vp pd hpd hout0 hout1 hne := ⟨Region15.reg V Vp () 𝒱₀ L₀ lv₀ pd hpd hout0 hout1 hne, fun _ => .rfl, fun _ => .rfl⟩
  r16 V Vp pd hpd hout hne := ⟨Region16.reg V Vp () 𝒱₀ L₀ lv₀ pd hpd hout hne, fun _ => .rfl, fun _ => .rfl⟩

variable (m : (ℓ : Loc nD τ sig) → Buf (Elt F) ℓ)

/-- What every region leaves in the arrays it may change, from the launch memory `m`. -/
def outs : Outs (F := F) := AssemblyKit.outs theDats m

/-- Every pipeline's proof data, each over the valuation its region is entered at. -/
def pdats : PD F := AssemblyKit.pdats theDats m

/-! ## Each result array holds what its region's data compute over the valuation the region is entered at -/

theorem outs_R0 (c : Dev nD) : outs m 14 main_v50 c
    = (Region0.dat (Ix := Unit) (U := UR sig nD τ) (Lvl := ℕ) (V13 m) c).arrAt 5 cfg0.N := AssemblyKit.outs_R0 theDats m c
theorem outs_R1 (c : Dev nD) : outs m 22 main_v59 c
    = (Region1.dat (Ix := Unit) (U := UR sig nD τ) (Lvl := ℕ) (V21 m (outs m)) c).arrAt 5 cfg1.N := AssemblyKit.outs_R1 theDats m c
theorem outs_R2 (c : Dev nD) : outs m 29 main_v67 c
    = (Region2.dat (Ix := Unit) (U := UR sig nD τ) (Lvl := ℕ) (V28 m (outs m)) c).arrAt 5 cfg2.N := AssemblyKit.outs_R2 theDats m c
theorem outs_R3 (c : Dev nD) : outs m 33 main_v75 c
    = (Region3.dat (Ix := Unit) (U := UR sig nD τ) (Lvl := ℕ) (V32 m (outs m)) c).arrAt 5 cfg3.N := AssemblyKit.outs_R3 theDats m c
theorem outs_R4 (c : Dev nD) : outs m 41 main_v84 c
    = (Region4.dat (Ix := Unit) (U := UR sig nD τ) (Lvl := ℕ) (V40 m (outs m)) c).arrAt 5 cfg4.N := AssemblyKit.outs_R4 theDats m c
theorem outs_R5 (c : Dev nD) : outs m 48 main_v92 c
    = (Region5.dat (Ix := Unit) (U := UR sig nD τ) (Lvl := ℕ) (V47 m (outs m)) c).arrAt 5 cfg5.N := AssemblyKit.outs_R5 theDats m c
theorem outs_R6 (c : Dev nD) : outs m 54 main_v101 c
    = (Region6.dat (Ix := Unit) (U := UR sig nD τ) (Lvl := ℕ) (V53 m (outs m)) c).arrAt 5 cfg6.N := AssemblyKit.outs_R6 theDats m c
theorem outs_R7 (c : Dev nD) : outs m 60 main_v109 c
    = (Region7.dat (Ix := Unit) (U := UR sig nD τ) (Lvl := ℕ) (V59 m (outs m)) c).arrAt 5 cfg7.N := AssemblyKit.outs_R7 theDats m c
theorem outs_R8 (c : Dev nD) : outs m 65 main_v115 c
    = (Region8.dat (Ix := Unit) (U := UR sig nD τ) (Lvl := ℕ) (V64 m (outs m)) c).arrAt 5 cfg8.N := AssemblyKit.outs_R8 theDats m c
theorem outs_R9 (c : Dev nD) : outs m 69 main_v123 c
    = (Region9.dat (Ix := Unit) (U := UR sig nD τ) (Lvl := ℕ) (V68 m (outs m)) c).arrAt 5 cfg9.N := AssemblyKit.outs_R9 theDats m c
theorem outs_R10 (c : Dev nD) : outs m 75 main_v131 c
    = (Region10.dat (Ix := Unit) (U := UR sig nD τ) (Lvl := ℕ) (V74 m (outs m)) c).arrAt 5 cfg10.N := AssemblyKit.outs_R10 theDats m c
theorem outs_R11 (c : Dev nD) : outs m 80 main_v137 c
    = (Region11.dat (Ix := Unit) (U := UR sig nD τ) (Lvl := ℕ) (V79 m (outs m)) c).arrAt 5 cfg11.N := AssemblyKit.outs_R11 theDats m c
theorem outs_R12 (c : Dev nD) : outs m 90 main_v155 c
    = (Region12.dat (Ix := Unit) (U := UR sig nD τ) (Lvl := ℕ) (V89 m (outs m)) c).arrAt 5 cfg12.N := AssemblyKit.outs_R12 theDats m c
theorem outs_R13_0 (c : Dev nD) : outs m 94 main_v159_0 c
    = (Region13.dat (Ix := Unit) (U := UR sig nD τ) (Lvl := ℕ) (V93 m (outs m)) c).arrAt 6 cfg13.N := AssemblyKit.outs_R13_0 theDats m c
theorem outs_R13_1 (c : Dev nD) : outs m 94 main_v159_1 c
    = (Region13.dat (Ix := Unit) (U := UR sig nD τ) (Lvl := ℕ) (V93 m (outs m)) c).arrAt 7 cfg13.N := AssemblyKit.outs_R13_1 theDats m c
theorem outs_R14_0 (c : Dev nD) : outs m 96 main_v162_0 c
    = (Region14.dat (Ix := Unit) (U := UR sig nD τ) (Lvl := ℕ) (V95 m (outs m)) c).arrAt 6 cfg14.N := AssemblyKit.outs_R14_0 theDats m c
theorem outs_R14_1 (c : Dev nD) : outs m 96 main_v162_1 c
    = (Region14.dat (Ix := Unit) (U := UR sig nD τ) (Lvl := ℕ) (V95 m (outs m)) c).arrAt 7 cfg14.N := AssemblyKit.outs_R14_1 theDats m c
theorem outs_R15_0 (c : Dev nD) : outs m 98 main_v165_0 c
    = (Region15.dat (Ix := Unit) (U := UR sig nD τ) (Lvl := ℕ) (V97 m (outs m)) c).arrAt 6 cfg15.N := AssemblyKit.outs_R15_0 theDats m c
theorem outs_R15_1 (c : Dev nD) : outs m 98 main_v165_1 c
    = (Region15.dat (Ix := Unit) (U := UR sig nD τ) (Lvl := ℕ) (V97 m (outs m)) c).arrAt 7 cfg15.N := AssemblyKit.outs_R15_1 theDats m c
theorem outs_R16 (c : Dev nD) : outs m 104 main_v184 c
    = (Region16.dat (Ix := Unit) (U := UR sig nD τ) (Lvl := ℕ) (V103 m (outs m)) c).arrAt 9 cfg16.N := AssemblyKit.outs_R16 theDats m c

/-! ## The frame and the run -/

/-- THE FRAME of the kernel program, at any float values: at the compiled mesh, from any memory with zero counters, every
    weakly fair execution of @main terminates and every final memory holds each argument array as launched. -/
theorem frame_main (ρ : Dev nD → PrngReg) :
    θ_run defs (onTc (τ := τ) (main (F := F))) ⟨m, fun _ => 0, ρ⟩ (fun r => ∀ c : Dev nD, argsKept m c r.2) :=
  AssemblyKit.frame_of theDats m theRegs ρ

/-- THE RUN WITH ITS RESULT NAMED: moreover the result array `main_v184` ends holding `outs m 104 main_v184 c`, which by
    `outs_R16` is what the last region's data compute over the valuation that region is entered at. -/
theorem run_main (ρ : Dev nD → PrngReg) :
    θ_run defs (onTc (τ := τ) (main (F := F))) ⟨m, fun _ => 0, ρ⟩ (fun r => ∀ c : Dev nD,
      r.2.mem ((c.tc : Thread nD τ).loc main_v184) = outs m 104 main_v184 c ∧ argsKept m c r.2) :=
  AssemblyKit.run_of theDats m theRegs ρ

end Cert.Kernel.Assembly

end
-- ==== Proof.KI.RunValue.lean ====
import proofs.«414035_j83562883711810_2_alg».proof.Proof.RegionsKI

/-! # The run of @main with its result named

The kernel program's run, from one segment record per kernel region, read at its end: the result array `main_v184`
holds what the last region leaves in it, and every argument array holds its launch contents. One run serves any reading
of the last valuation (`run_cond_post`); the result and the arguments are one such reading (`run_cond`). -/

set_option maxRecDepth 2808

noncomputable section

namespace Cert.KernelIdeal.RunValue

open Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

/-- @main on core `c` is the run of its segment list: the chain of the segments' fragments is @main's chain of
    items, item by item (a host segment's fragment is its stretch, a region's the call of its pipeline). -/
theorem main_run {Ix : Type} [DecidableEq Ix] {U : Type} [URA U] {Lvl : Type} [Preorder Lvl]
    (outs : Outs (F := F)) (𝒱₀ : Variants) (L : GSem nD τ sig → Finset Ix) (lv : GSem nD τ sig → Ix → Lvl)
    (E : Fin 18 → Dev nD → sProp (MT nD τ sig Ix (Elt F) ℕ U Lvl)) (ι : Ix)
    (pdats : (p : Fin 17) → (c : Dev nD) → Dat τ (Elt F) Ix ℕ U Lvl (cfgs p) c)
    (R0 : RegionSeg (pcfgs (F := F)) adm pdats ι defs₀ 𝒱₀ L lv 0)
    (R1 : RegionSeg (pcfgs (F := F)) adm pdats ι defs₀ 𝒱₀ L lv 1)
    (R2 : RegionSeg (pcfgs (F := F)) adm pdats ι defs₀ 𝒱₀ L lv 2)
    (R3 : RegionSeg (pcfgs (F := F)) adm pdats ι defs₀ 𝒱₀ L lv 3)
    (R4 : RegionSeg (pcfgs (F := F)) adm pdats ι defs₀ 𝒱₀ L lv 4)
    (R5 : RegionSeg (pcfgs (F := F)) adm pdats ι defs₀ 𝒱₀ L lv 5)
    (R6 : RegionSeg (pcfgs (F := F)) adm pdats ι defs₀ 𝒱₀ L lv 6)
    (R7 : RegionSeg (pcfgs (F := F)) adm pdats ι defs₀ 𝒱₀ L lv 7)
    (R8 : RegionSeg (pcfgs (F := F)) adm pdats ι defs₀ 𝒱₀ L lv 8)
    (R9 : RegionSeg (pcfgs (F := F)) adm pdats ι defs₀ 𝒱₀ L lv 9)
    (R10 : RegionSeg (pcfgs (F := F)) adm pdats ι defs₀ 𝒱₀ L lv 10)
    (R11 : RegionSeg (pcfgs (F := F)) adm pdats ι defs₀ 𝒱₀ L lv 11)
    (R12 : RegionSeg (pcfgs (F := F)) adm pdats ι defs₀ 𝒱₀ L lv 12)
    (R13 : RegionSeg (pcfgs (F := F)) adm pdats ι defs₀ 𝒱₀ L lv 13)
    (R14 : RegionSeg (pcfgs (F := F)) adm pdats ι defs₀ 𝒱₀ L lv 14)
    (R15 : RegionSeg (pcfgs (F := F)) adm pdats ι defs₀ 𝒱₀ L lv 15)
    (R16 : RegionSeg (pcfgs (F := F)) adm pdats ι defs₀ 𝒱₀ L lv 16)
    (c : Dev nD) :
    main (F := F) c = Seg.run (segs m outs 𝒱₀ L lv E ι pdats R0 R1 R2 R3 R4 R5 R6 R7 R8 R9 R10 R11 R12 R13 R14 R15 R16 c) :=
  calc main (F := F) c
      = Pipeline.chain ((segs m outs 𝒱₀ L lv E ι pdats R0 R1 R2 R3 R4 R5 R6 R7 R8 R9 R10 R11 R12 R13 R14 R15 R16 c).map Seg.prog) := (main_chain c).trans (congrArg Pipeline.chain rfl)
    _ = Seg.run (segs m outs 𝒱₀ L lv E ι pdats R0 R1 R2 R3 R4 R5 R6 R7 R8 R9 R10 R11 R12 R13 R14 R15 R16 c) := (Seg.run_eq_chain _).symm

set_option maxHeartbeats 4000000 in
set_option backward.isDefEq.respectTransparency.types false in
/-- THE RUN, READ AT THE END. Under the conditional frame's hypotheses — any rest states `E` the launch makes on every
    core at once and that end owing nothing, any contents `outs` the regions leave, and per region a segment record
    entered from the thread state before it and left at the one after it — every weakly fair execution of @main from
    memory `m` with zero counters terminates, and every final memory satisfies any predicate `QY` that holds of each
    memory agreeing, on core `c`'s unscoped buffers, with the last valuation `V104 m outs c`: at the end core `c`
    holds exactly those buffers at that valuation, and a buffer held is a buffer read. -/
theorem run_cond_post {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V21 m outs c) ∗ E 1 c) ⊢ R1.pre c)
    (hpost1 : ∀ c : Dev nD, R1.post c ⊢ iprop(StableHlo.held (c : Thread nD τ) (Pipeline.ucRefs τ sig) (V22 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V28 m outs c) ∗ E 2 c) ⊢ R2.pre c)
    (hpost2 : ∀ c : Dev nD, R2.post c ⊢ iprop(StableHlo.held (c : Thread nD τ) (Pipeline.ucRefs τ sig) (V29 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V32 m outs c) ∗ E 3 c) ⊢ R3.pre c)
    (hpost3 : ∀ c : Dev nD, R3.post c ⊢ iprop(StableHlo.held (c : Thread nD τ) (Pipeline.ucRefs τ sig) (V33 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V40 m outs c) ∗ E 4 c) ⊢ R4.pre c)
    (hpost4 : ∀ c : Dev nD, R4.post c ⊢ iprop(StableHlo.held (c : Thread nD τ) (Pipeline.ucRefs τ sig) (V41 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V47 m outs c) ∗ E 5 c) ⊢ R5.pre c)
    (hpost5 : ∀ c : Dev nD, R5.post c ⊢ iprop(StableHlo.held (c : Thread nD τ) (Pipeline.ucRefs τ sig) (V48 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V53 m outs c) ∗ E 6 c) ⊢ R6.pre c)
    (hpost6 : ∀ c : Dev nD, R6.post c ⊢ iprop(StableHlo.held (c : Thread nD τ) (Pipeline.ucRefs τ sig) (V54 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V59 m outs c) ∗ E 7 c) ⊢ R7.pre c)
    (hpost7 : ∀ c : Dev nD, R7.post c ⊢ iprop(StableHlo.held (c : Thread nD τ) (Pipeline.ucRefs τ sig) (V60 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V64 m outs c) ∗ E 8 c) ⊢ R8.pre c)
    (hpost8 : ∀ c : Dev nD, R8.post c ⊢ iprop(StableHlo.held (c : Thread nD τ) (Pipeline.ucRefs τ sig) (V65 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V68 m outs c) ∗ E 9 c) ⊢ R9.pre c)
    (hpost9 : ∀ c : Dev nD, R9.post c ⊢ iprop(StableHlo.held (c : Thread nD τ) (Pipeline.ucRefs τ sig) (V69 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V74 m outs c) ∗ E 10 c) ⊢ R10.pre c)
    (hpost10 : ∀ c : Dev nD, R10.post c ⊢ iprop(StableHlo.held (c : Thread nD τ) (Pipeline.ucRefs τ sig) (V75 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V79 m outs c) ∗ E 11 c) ⊢ R11.pre c)
    (hpost11 : ∀ c : Dev nD, R11.post c ⊢ iprop(StableHlo.held (c : Thread nD τ) (Pipeline.ucRefs τ sig) (V80 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V89 m outs c) ∗ E 12 c) ⊢ R12.pre c)
    (hpost12 : ∀ c : Dev nD, R12.post c ⊢ iprop(StableHlo.held (c : Thread nD τ) (Pipeline.ucRefs τ sig) (V90 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V93 m outs c) ∗ E 13 c) ⊢ R13.pre c)
    (hpost13 : ∀ c : Dev nD, R13.post c ⊢ iprop(StableHlo.held (c : Thread nD τ) (Pipeline.ucRefs τ sig) (V94 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V95 m outs c) ∗ E 14 c) ⊢ R14.pre c)
    (hpost14 : ∀ c : Dev nD, R14.post c ⊢ iprop(StableHlo.held (c : Thread nD τ) (Pipeline.ucRefs τ sig) (V96 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V97 m outs c) ∗ E 15 c) ⊢ R15.pre c)
    (hpost15 : ∀ c : Dev nD, R15.post c ⊢ iprop(StableHlo.held (c : Thread nD τ) (Pipeline.ucRefs τ sig) (V98 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V103 m outs c) ∗ E 16 c) ⊢ R16.pre c)
    (hpost16 : ∀ c : Dev nD, R16.post c ⊢ iprop(StableHlo.held (c : Thread nD τ) (Pipeline.ucRefs τ sig) (V104 m outs c) ∗ E 17 c))
    (QY : Dev nD → MemSt nD τ sig (Elt F) → Prop)
    (hQY : ∀ (c : Dev nD) (s : MemSt nD τ sig (Elt F)),
      (∀ b ∈ Pipeline.ucRefs τ sig, s.mem ((c : Thread nD τ).1, b) = V104 m outs c b) → QY c s) :
    θ_run defs (onTc (τ := τ) (main (F := F))) ⟨m, fun _ => 0, ρ⟩ (fun r => ∀ c : Dev nD, QY c r.2) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16)
    (fun c Q => by
      rewrite [main_run m outs 𝒱₀ L lv E ι pdats R0 R1 R2 R3 R4 R5 R6 R7 R8 R9 R10 R11 R12 R13 R14 R15 R16 c]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V104 m outs c))
    (hch := fun c => ⟨.rfl, .rfl, .rfl, .rfl, .rfl, .rfl, .rfl, .rfl, .rfl, .rfl, .rfl, .rfl, .rfl, hpre0 c, hpost0 c, .rfl, .rfl, .rfl, .rfl, .rfl, .rfl, hpre1 c, hpost1 c, .rfl, .rfl, .rfl, .rfl, .rfl, hpre2 c, hpost2 c, .rfl, .rfl, hpre3 c, hpost3 c, .rfl, .rfl, .rfl, .rfl, .rfl, .rfl, hpre4 c, hpost4 c, .rfl, .rfl, .rfl, .rfl, .rfl, hpre5 c, hpost5 c, .rfl, .rfl, .rfl, .rfl, hpre6 c, hpost6 c, .rfl, .rfl, .rfl, .rfl, hpre7 c, hpost7 c, .rfl, .rfl, .rfl, hpre8 c, hpost8 c, .rfl, .rfl, hpre9 c, hpost9 c, .rfl, .rfl, .rfl, .rfl, hpre10 c, hpost10 c, .rfl, .rfl, .rfl, hpre11 c, hpost11 c, .rfl, .rfl, .rfl, .rfl, .rfl, .rfl, .rfl, .rfl, hpre12 c, hpost12 c, .rfl, .rfl, hpre13 c, hpost13 c, hpre14 c, hpost14 c, hpre15 c, hpost15 c, .rfl, .rfl, .rfl, .rfl, hpre16 c, (hpost16 c).trans (sep_mono .rfl (hE17 c))⟩)
    (hinit := ?_) (QY := QY) (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer of core `c` read off the last valuation
    unfold StableHlo.held
    iintro ⟨Hh, HSI⟩
    ihave Hr := (pointsTo_read_all (Pipeline.ucRefs τ sig) (fun b => ((c : Thread nD τ).1, b)) (V104 m outs c) s') $$ [Hh HSI]
    · isplitl [Hh] <;> iassumption
    icases Hr with ⟨%h, HSI⟩
    imodintro
    isplitr
    · ipureintro
      exact hQY c s'.mem h
    · iexact HSI

/-- THE RUN WITH THE RESULT NAMED. Under the conditional frame's hypotheses every weakly fair execution of @main from
    memory `m` with zero counters terminates, and every final memory holds in `main_v184` what the last region leaves
    there, `outs 104 main_v184 c` (the last valuation is the one before it updated at `main_v184`, and no item follows
    that region), and holds each argument as launched (no host stretch writes an argument, no region may change one). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 17) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 18 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE17 : ∀ c : Dev nD, E 17 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V21 m outs c) ∗ E 1 c) ⊢ R1.pre c)
    (hpost1 : ∀ c : Dev nD, R1.post c ⊢ iprop(StableHlo.held (c : Thread nD τ) (Pipeline.ucRefs τ sig) (V22 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V28 m outs c) ∗ E 2 c) ⊢ R2.pre c)
    (hpost2 : ∀ c : Dev nD, R2.post c ⊢ iprop(StableHlo.held (c : Thread nD τ) (Pipeline.ucRefs τ sig) (V29 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V32 m outs c) ∗ E 3 c) ⊢ R3.pre c)
    (hpost3 : ∀ c : Dev nD, R3.post c ⊢ iprop(StableHlo.held (c : Thread nD τ) (Pipeline.ucRefs τ sig) (V33 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V40 m outs c) ∗ E 4 c) ⊢ R4.pre c)
    (hpost4 : ∀ c : Dev nD, R4.post c ⊢ iprop(StableHlo.held (c : Thread nD τ) (Pipeline.ucRefs τ sig) (V41 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V47 m outs c) ∗ E 5 c) ⊢ R5.pre c)
    (hpost5 : ∀ c : Dev nD, R5.post c ⊢ iprop(StableHlo.held (c : Thread nD τ) (Pipeline.ucRefs τ sig) (V48 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V53 m outs c) ∗ E 6 c) ⊢ R6.pre c)
    (hpost6 : ∀ c : Dev nD, R6.post c ⊢ iprop(StableHlo.held (c : Thread nD τ) (Pipeline.ucRefs τ sig) (V54 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V59 m outs c) ∗ E 7 c) ⊢ R7.pre c)
    (hpost7 : ∀ c : Dev nD, R7.post c ⊢ iprop(StableHlo.held (c : Thread nD τ) (Pipeline.ucRefs τ sig) (V60 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V64 m outs c) ∗ E 8 c) ⊢ R8.pre c)
    (hpost8 : ∀ c : Dev nD, R8.post c ⊢ iprop(StableHlo.held (c : Thread nD τ) (Pipeline.ucRefs τ sig) (V65 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V68 m outs c) ∗ E 9 c) ⊢ R9.pre c)
    (hpost9 : ∀ c : Dev nD, R9.post c ⊢ iprop(StableHlo.held (c : Thread nD τ) (Pipeline.ucRefs τ sig) (V69 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V74 m outs c) ∗ E 10 c) ⊢ R10.pre c)
    (hpost10 : ∀ c : Dev nD, R10.post c ⊢ iprop(StableHlo.held (c : Thread nD τ) (Pipeline.ucRefs τ sig) (V75 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V79 m outs c) ∗ E 11 c) ⊢ R11.pre c)
    (hpost11 : ∀ c : Dev nD, R11.post c ⊢ iprop(StableHlo.held (c : Thread nD τ) (Pipeline.ucRefs τ sig) (V80 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V89 m outs c) ∗ E 12 c) ⊢ R12.pre c)
    (hpost12 : ∀ c : Dev nD, R12.post c ⊢ iprop(StableHlo.held (c : Thread nD τ) (Pipeline.ucRefs τ sig) (V90 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V93 m outs c) ∗ E 13 c) ⊢ R13.pre c)
    (hpost13 : ∀ c : Dev nD, R13.post c ⊢ iprop(StableHlo.held (c : Thread nD τ) (Pipeline.ucRefs τ sig) (V94 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V95 m outs c) ∗ E 14 c) ⊢ R14.pre c)
    (hpost14 : ∀ c : Dev nD, R14.post c ⊢ iprop(StableHlo.held (c : Thread nD τ) (Pipeline.ucRefs τ sig) (V96 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V97 m outs c) ∗ E 15 c) ⊢ R15.pre c)
    (hpost15 : ∀ c : Dev nD, R15.post c ⊢ iprop(StableHlo.held (c : Thread nD τ) (Pipeline.ucRefs τ sig) (V98 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V103 m outs c) ∗ E 16 c) ⊢ R16.pre c)
    (hpost16 : ∀ c : Dev nD, R16.post c ⊢ iprop(StableHlo.held (c : Thread nD τ) (Pipeline.ucRefs τ sig) (V104 m outs c) ∗ E 17 c)) :
    θ_run defs (onTc (τ := τ) (main (F := F))) ⟨m, fun _ => 0, ρ⟩ (fun r => ∀ c : Dev nD,
      r.2.mem ((c.tc : Thread nD τ).loc main_v184) = outs 104 main_v184 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  run_cond_post m EP ι 𝒱₀ L lv hL ρ outs pdats O₀ G u₀ hu₀ E hE0 hE17 R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13 R14 hpre14 hpost14 R15 hpre15 hpost15 R16 hpre16 hpost16
    (fun c s =>
      s.mem ((c.tc : Thread nD τ).loc main_v184) = outs 104 main_v184 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23)
      ∧ s.mem ((c.tc : Thread nD τ).loc main_arg24) = m ((c.tc : Thread nD τ).loc main_arg24))
    (fun c s h =>
      ⟨(h (Proc.devRef .tc main_v184) (Finset.mem_filter.mpr ⟨StableHlo.devRef_mem_tcRefs main_v184, by decide⟩)).trans (Function.update_self _ _ _),
        (h (Proc.devRef .tc main_arg0) (Finset.mem_filter.mpr ⟨StableHlo.devRef_mem_tcRefs main_arg0, by decide⟩)).trans (V104_main_arg0 m outs c),
        (h (Proc.devRef .tc main_arg1) (Finset.mem_filter.mpr ⟨StableHlo.devRef_mem_tcRefs main_arg1, by decide⟩)).trans (V104_main_arg1 m outs c),
        (h (Proc.devRef .tc main_arg2) (Finset.mem_filter.mpr ⟨StableHlo.devRef_mem_tcRefs main_arg2, by decide⟩)).trans (V104_main_arg2 m outs c),
        (h (Proc.devRef .tc main_arg3) (Finset.mem_filter.mpr ⟨StableHlo.devRef_mem_tcRefs main_arg3, by decide⟩)).trans (V104_main_arg3 m outs c),
        (h (Proc.devRef .tc main_arg4) (Finset.mem_filter.mpr ⟨StableHlo.devRef_mem_tcRefs main_arg4, by decide⟩)).trans (V104_main_arg4 m outs c),
        (h (Proc.devRef .tc main_arg5) (Finset.mem_filter.mpr ⟨StableHlo.devRef_mem_tcRefs main_arg5, by decide⟩)).trans (V104_main_arg5 m outs c),
        (h (Proc.devRef .tc main_arg6) (Finset.mem_filter.mpr ⟨StableHlo.devRef_mem_tcRefs main_arg6, by decide⟩)).trans (V104_main_arg6 m outs c),
        (h (Proc.devRef .tc main_arg7) (Finset.mem_filter.mpr ⟨StableHlo.devRef_mem_tcRefs main_arg7, by decide⟩)).trans (V104_main_arg7 m outs c),
        (h (Proc.devRef .tc main_arg8) (Finset.mem_filter.mpr ⟨StableHlo.devRef_mem_tcRefs main_arg8, by decide⟩)).trans (V104_main_arg8 m outs c),
        (h (Proc.devRef .tc main_arg9) (Finset.mem_filter.mpr ⟨StableHlo.devRef_mem_tcRefs main_arg9, by decide⟩)).trans (V104_main_arg9 m outs c),
        (h (Proc.devRef .tc main_arg10) (Finset.mem_filter.mpr ⟨StableHlo.devRef_mem_tcRefs main_arg10, by decide⟩)).trans (V104_main_arg10 m outs c),
        (h (Proc.devRef .tc main_arg11) (Finset.mem_filter.mpr ⟨StableHlo.devRef_mem_tcRefs main_arg11, by decide⟩)).trans (V104_main_arg11 m outs c),
        (h (Proc.devRef .tc main_arg12) (Finset.mem_filter.mpr ⟨StableHlo.devRef_mem_tcRefs main_arg12, by decide⟩)).trans (V104_main_arg12 m outs c),
        (h (Proc.devRef .tc main_arg13) (Finset.mem_filter.mpr ⟨StableHlo.devRef_mem_tcRefs main_arg13, by decide⟩)).trans (V104_main_arg13 m outs c),
        (h (Proc.devRef .tc main_arg14) (Finset.mem_filter.mpr ⟨StableHlo.devRef_mem_tcRefs main_arg14, by decide⟩)).trans (V104_main_arg14 m outs c),
        (h (Proc.devRef .tc main_arg15) (Finset.mem_filter.mpr ⟨StableHlo.devRef_mem_tcRefs main_arg15, by decide⟩)).trans (V104_main_arg15 m outs c),
        (h (Proc.devRef .tc main_arg16) (Finset.mem_filter.mpr ⟨StableHlo.devRef_mem_tcRefs main_arg16, by decide⟩)).trans (V104_main_arg16 m outs c),
        (h (Proc.devRef .tc main_arg17) (Finset.mem_filter.mpr ⟨StableHlo.devRef_mem_tcRefs main_arg17, by decide⟩)).trans (V104_main_arg17 m outs c),
        (h (Proc.devRef .tc main_arg18) (Finset.mem_filter.mpr ⟨StableHlo.devRef_mem_tcRefs main_arg18, by decide⟩)).trans (V104_main_arg18 m outs c),
        (h (Proc.devRef .tc main_arg19) (Finset.mem_filter.mpr ⟨StableHlo.devRef_mem_tcRefs main_arg19, by decide⟩)).trans (V104_main_arg19 m outs c),
        (h (Proc.devRef .tc main_arg20) (Finset.mem_filter.mpr ⟨StableHlo.devRef_mem_tcRefs main_arg20, by decide⟩)).trans (V104_main_arg20 m outs c),
        (h (Proc.devRef .tc main_arg21) (Finset.mem_filter.mpr ⟨StableHlo.devRef_mem_tcRefs main_arg21, by decide⟩)).trans (V104_main_arg21 m outs c),
        (h (Proc.devRef .tc main_arg22) (Finset.mem_filter.mpr ⟨StableHlo.devRef_mem_tcRefs main_arg22, by decide⟩)).trans (V104_main_arg22 m outs c),
        (h (Proc.devRef .tc main_arg23) (Finset.mem_filter.mpr ⟨StableHlo.devRef_mem_tcRefs main_arg23, by decide⟩)).trans (V104_main_arg23 m outs c),
        (h (Proc.devRef .tc main_arg24) (Finset.mem_filter.mpr ⟨StableHlo.devRef_mem_tcRefs main_arg24, by decide⟩)).trans (V104_main_arg24 m outs c)⟩)

end Cert.KernelIdeal.RunValue

end
-- ==== Proof.KI.AssemblyKit.lean ====
import proofs.«414035_j83562883711810_2_alg».proof.Proof.RegionsKI
import proofs.«414035_j83562883711810_2_alg».proof.Proof.KI.RunValue

/-! # The frame over seventeen kernel regions, from the regions' records

@main is a chain of host stretches and seventeen kernel regions. Between two items core `c` holds every unscoped buffer
whole at a valuation: the launch contents, then `StableHlo.after` each host stretch, then, after a region, the valuation
before it updated at the region's result arrays. What a region leaves in a result array is what its proof data compute
for that window after the last grid point, and those data are stated over the valuation the region is entered at. So the
contents the regions leave are determined region by region: the first region's from the launch contents alone, each
later one's from the contents the earlier regions leave. This module makes that recursion explicit (`outs`, in
seventeen stages), proves that the staged contents satisfy the equations the regions' records ask for, and hands the
records to the conditional frame and to the run with its result named. Everything is stated over ANY seventeen proof
data and records of the stated shapes (`Dats`, `Regs`); the regions' own modules supply them. -/

set_option maxRecDepth 2808

noncomputable section

namespace Cert.KernelIdeal.AssemblyKit

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-! ## Stages -/

/-- One stage: the contents read at item `J` are those of the valuation `W`; at every other item, as before. -/
def stage (o : Outs (F := F)) (J : ℕ) (W : Dev nD → Valuation τ sig (Elt F)) : Outs (F := F) :=
  fun J' r c => if J' = J then W c r else o J' r c

theorem stage_self (o : Outs (F := F)) (J : ℕ) (W : Dev nD → Valuation τ sig (Elt F)) (r : Ref sig .tc) (c : Dev nD) :
    stage o J W J r c = W c r := by
  unfold stage; exact if_pos rfl

theorem stage_ne (o : Outs (F := F)) (W : Dev nD → Valuation τ sig (Elt F)) (r : Ref sig .tc) (c : Dev nD) {J J' : ℕ}
    (h : J' ≠ J) : stage o J W J' r c = o J' r c := by
  unfold stage; exact if_neg h

/-! ## The regions' proof data, and the contents the regions leave -/

/-- The seventeen regions' proof data, each over the valuation its region is entered at. -/
structure Dats (F : FTy → Type) [FloatOps F] where
  d0 : (V : Dev nD → Valuation τ sig (Elt F)) → (c : Dev nD) → Dat τ (Elt F) Unit ℕ (UR sig nD τ) ℕ cfg0 c
  d1 : (V : Dev nD → Valuation τ sig (Elt F)) → (c : Dev nD) → Dat τ (Elt F) Unit ℕ (UR sig nD τ) ℕ cfg1 c
  d2 : (V : Dev nD → Valuation τ sig (Elt F)) → (c : Dev nD) → Dat τ (Elt F) Unit ℕ (UR sig nD τ) ℕ cfg2 c
  d3 : (V : Dev nD → Valuation τ sig (Elt F)) → (c : Dev nD) → Dat τ (Elt F) Unit ℕ (UR sig nD τ) ℕ cfg3 c
  d4 : (V : Dev nD → Valuation τ sig (Elt F)) → (c : Dev nD) → Dat τ (Elt F) Unit ℕ (UR sig nD τ) ℕ cfg4 c
  d5 : (V : Dev nD → Valuation τ sig (Elt F)) → (c : Dev nD) → Dat τ (Elt F) Unit ℕ (UR sig nD τ) ℕ cfg5 c
  d6 : (V : Dev nD → Valuation τ sig (Elt F)) → (c : Dev nD) → Dat τ (Elt F) Unit ℕ (UR sig nD τ) ℕ cfg6 c
  d7 : (V : Dev nD → Valuation τ sig (Elt F)) → (c : Dev nD) → Dat τ (Elt F) Unit ℕ (UR sig nD τ) ℕ cfg7 c
  d8 : (V : Dev nD → Valuation τ sig (Elt F)) → (c : Dev nD) → Dat τ (Elt F) Unit ℕ (UR sig nD τ) ℕ cfg8 c
  d9 : (V : Dev nD → Valuation τ sig (Elt F)) → (c : Dev nD) → Dat τ (Elt F) Unit ℕ (UR sig nD τ) ℕ cfg9 c
  d10 : (V : Dev nD → Valuation τ sig (Elt F)) → (c : Dev nD) → Dat τ (Elt F) Unit ℕ (UR sig nD τ) ℕ cfg10 c
  d11 : (V : Dev nD → Valuation τ sig (Elt F)) → (c : Dev nD) → Dat τ (Elt F) Unit ℕ (UR sig nD τ) ℕ cfg11 c
  d12 : (V : Dev nD → Valuation τ sig (Elt F)) → (c : Dev nD) → Dat τ (Elt F) Unit ℕ (UR sig nD τ) ℕ cfg12 c
  d13 : (V : Dev nD → Valuation τ sig (Elt F)) → (c : Dev nD) → Dat τ (Elt F) Unit ℕ (UR sig nD τ) ℕ cfg13 c
  d14 : (V : Dev nD → Valuation τ sig (Elt F)) → (c : Dev nD) → Dat τ (Elt F) Unit ℕ (UR sig nD τ) ℕ cfg14 c
  d15 : (V : Dev nD → Valuation τ sig (Elt F)) → (c : Dev nD) → Dat τ (Elt F) Unit ℕ (UR sig nD τ) ℕ cfg15 c
  d16 : (V : Dev nD → Valuation τ sig (Elt F)) → (c : Dev nD) → Dat τ (Elt F) Unit ℕ (UR sig nD τ) ℕ cfg16 c

variable (D : Dats F) (m : (ℓ : Loc nD τ sig) → Buf (Elt F) ℓ)

/-! ## The contents the regions leave, stage by stage

`XK c` is core `c`'s valuation at region K's exit, computed from the stage before; `o(K+1)` reads it at region K's item. -/

def o0 : Outs (F := F) := fun _ r c => m ((c : Thread nD τ).loc r)
def X0 (c : Dev nD) : Valuation τ sig (Elt F) :=
  Function.update (V13 m c) main_v50 ((D.d0 (V13 m) c).arrAt 5 cfg0.N)
def o1 : Outs (F := F) := stage (o0 m) 14 (X0 D m)
def X1 (c : Dev nD) : Valuation τ sig (Elt F) :=
  Function.update (V21 m (o1 D m) c) main_v59 ((D.d1 (V21 m (o1 D m)) c).arrAt 5 cfg1.N)
def o2 : Outs (F := F) := stage (o1 D m) 22 (X1 D m)
def X2 (c : Dev nD) : Valuation τ sig (Elt F) :=
  Function.update (V28 m (o2 D m) c) main_v67 ((D.d2 (V28 m (o2 D m)) c).arrAt 5 cfg2.N)
def o3 : Outs (F := F) := stage (o2 D m) 29 (X2 D m)
def X3 (c : Dev nD) : Valuation τ sig (Elt F) :=
  Function.update (V32 m (o3 D m) c) main_v75 ((D.d3 (V32 m (o3 D m)) c).arrAt 5 cfg3.N)
def o4 : Outs (F := F) := stage (o3 D m) 33 (X3 D m)
def X4 (c : Dev nD) : Valuation τ sig (Elt F) :=
  Function.update (V40 m (o4 D m) c) main_v84 ((D.d4 (V40 m (o4 D m)) c).arrAt 5 cfg4.N)
def o5 : Outs (F := F) := stage (o4 D m) 41 (X4 D m)
def X5 (c : Dev nD) : Valuation τ sig (Elt F) :=
  Function.update (V47 m (o5 D m) c) main_v92 ((D.d5 (V47 m (o5 D m)) c).arrAt 5 cfg5.N)
def o6 : Outs (F := F) := stage (o5 D m) 48 (X5 D m)
def X6 (c : Dev nD) : Valuation τ sig (Elt F) :=
  Function.update (V53 m (o6 D m) c) main_v101 ((D.d6 (V53 m (o6 D m)) c).arrAt 5 cfg6.N)
def o7 : Outs (F := F) := stage (o6 D m) 54 (X6 D m)
def X7 (c : Dev nD) : Valuation τ sig (Elt F) :=
  Function.update (V59 m (o7 D m) c) main_v109 ((D.d7 (V59 m (o7 D m)) c).arrAt 5 cfg7.N)
def o8 : Outs (F := F) := stage (o7 D m) 60 (X7 D m)
def X8 (c : Dev nD) : Valuation τ sig (Elt F) :=
  Function.update (V64 m (o8 D m) c) main_v115 ((D.d8 (V64 m (o8 D m)) c).arrAt 5 cfg8.N)
def o9 : Outs (F := F) := stage (o8 D m) 65 (X8 D m)
def X9 (c : Dev nD) : Valuation τ sig (Elt F) :=
  Function.update (V68 m (o9 D m) c) main_v123 ((D.d9 (V68 m (o9 D m)) c).arrAt 5 cfg9.N)
def o10 : Outs (F := F) := stage (o9 D m) 69 (X9 D m)
def X10 (c : Dev nD) : Valuation τ sig (Elt F) :=
  Function.update (V74 m (o10 D m) c) main_v131 ((D.d10 (V74 m (o10 D m)) c).arrAt 5 cfg10.N)
def o11 : Outs (F := F) := stage (o10 D m) 75 (X10 D m)
def X11 (c : Dev nD) : Valuation τ sig (Elt F) :=
  Function.update (V79 m (o11 D m) c) main_v137 ((D.d11 (V79 m (o11 D m)) c).arrAt 5 cfg11.N)
def o12 : Outs (F := F) := stage (o11 D m) 80 (X11 D m)
def X12 (c : Dev nD) : Valuation τ sig (Elt F) :=
  Function.update (V89 m (o12 D m) c) main_v155 ((D.d12 (V89 m (o12 D m)) c).arrAt 5 cfg12.N)
def o13 : Outs (F := F) := stage (o12 D m) 90 (X12 D m)
def X13 (c : Dev nD) : Valuation τ sig (Elt F) :=
  Function.update (Function.update (V93 m (o13 D m) c) main_v159_0 ((D.d13 (V93 m (o13 D m)) c).arrAt 6 cfg13.N))
    main_v159_1 ((D.d13 (V93 m (o13 D m)) c).arrAt 7 cfg13.N)
def o14 : Outs (F := F) := stage (o13 D m) 94 (X13 D m)
def X14 (c : Dev nD) : Valuation τ sig (Elt F) :=
  Function.update (Function.update (V95 m (o14 D m) c) main_v162_0 ((D.d14 (V95 m (o14 D m)) c).arrAt 6 cfg14.N))
    main_v162_1 ((D.d14 (V95 m (o14 D m)) c).arrAt 7 cfg14.N)
def o15 : Outs (F := F) := stage (o14 D m) 96 (X14 D m)
def X15 (c : Dev nD) : Valuation τ sig (Elt F) :=
  Function.update (Function.update (V97 m (o15 D m) c) main_v165_0 ((D.d15 (V97 m (o15 D m)) c).arrAt 6 cfg15.N))
    main_v165_1 ((D.d15 (V97 m (o15 D m)) c).arrAt 7 cfg15.N)
def o16 : Outs (F := F) := stage (o15 D m) 98 (X15 D m)
def X16 (c : Dev nD) : Valuation τ sig (Elt F) :=
  Function.update (V103 m (o16 D m) c) main_v184 ((D.d16 (V103 m (o16 D m)) c).arrAt 9 cfg16.N)
/-- What every region leaves: the last stage. -/
def outs : Outs (F := F) := stage (o16 D m) 104 (X16 D m)

/-! ## Below a region's item the later stages change nothing -/

theorem outs_lt16 {J' : ℕ} (h : J' < 104) (r : Ref sig .tc) (c : Dev nD) : outs D m J' r c = o16 D m J' r c := by
  unfold outs; exact stage_ne _ _ _ _ (Nat.ne_of_lt h)
theorem outs_lt15 {J' : ℕ} (h : J' < 98) (r : Ref sig .tc) (c : Dev nD) : outs D m J' r c = o15 D m J' r c := by
  rw [outs_lt16 D m (by omega)]; unfold o16; exact stage_ne _ _ _ _ (Nat.ne_of_lt h)
theorem outs_lt14 {J' : ℕ} (h : J' < 96) (r : Ref sig .tc) (c : Dev nD) : outs D m J' r c = o14 D m J' r c := by
  rw [outs_lt15 D m (by omega)]; unfold o15; exact stage_ne _ _ _ _ (Nat.ne_of_lt h)
theorem outs_lt13 {J' : ℕ} (h : J' < 94) (r : Ref sig .tc) (c : Dev nD) : outs D m J' r c = o13 D m J' r c := by
  rw [outs_lt14 D m (by omega)]; unfold o14; exact stage_ne _ _ _ _ (Nat.ne_of_lt h)
theorem outs_lt12 {J' : ℕ} (h : J' < 90) (r : Ref sig .tc) (c : Dev nD) : outs D m J' r c = o12 D m J' r c := by
  rw [outs_lt13 D m (by omega)]; unfold o13; exact stage_ne _ _ _ _ (Nat.ne_of_lt h)
theorem outs_lt11 {J' : ℕ} (h : J' < 80) (r : Ref sig .tc) (c : Dev nD) : outs D m J' r c = o11 D m J' r c := by
  rw [outs_lt12 D m (by omega)]; unfold o12; exact stage_ne _ _ _ _ (Nat.ne_of_lt h)
theorem outs_lt10 {J' : ℕ} (h : J' < 75) (r : Ref sig .tc) (c : Dev nD) : outs D m J' r c = o10 D m J' r c := by
  rw [outs_lt11 D m (by omega)]; unfold o11; exact stage_ne _ _ _ _ (Nat.ne_of_lt h)
theorem outs_lt9 {J' : ℕ} (h : J' < 69) (r : Ref sig .tc) (c : Dev nD) : outs D m J' r c = o9 D m J' r c := by
  rw [outs_lt10 D m (by omega)]; unfold o10; exact stage_ne _ _ _ _ (Nat.ne_of_lt h)
theorem outs_lt8 {J' : ℕ} (h : J' < 65) (r : Ref sig .tc) (c : Dev nD) : outs D m J' r c = o8 D m J' r c := by
  rw [outs_lt9 D m (by omega)]; unfold o9; exact stage_ne _ _ _ _ (Nat.ne_of_lt h)
theorem outs_lt7 {J' : ℕ} (h : J' < 60) (r : Ref sig .tc) (c : Dev nD) : outs D m J' r c = o7 D m J' r c := by
  rw [outs_lt8 D m (by omega)]; unfold o8; exact stage_ne _ _ _ _ (Nat.ne_of_lt h)
theorem outs_lt6 {J' : ℕ} (h : J' < 54) (r : Ref sig .tc) (c : Dev nD) : outs D m J' r c = o6 D m J' r c := by
  rw [outs_lt7 D m (by omega)]; unfold o7; exact stage_ne _ _ _ _ (Nat.ne_of_lt h)
theorem outs_lt5 {J' : ℕ} (h : J' < 48) (r : Ref sig .tc) (c : Dev nD) : outs D m J' r c = o5 D m J' r c := by
  rw [outs_lt6 D m (by omega)]; unfold o6; exact stage_ne _ _ _ _ (Nat.ne_of_lt h)
theorem outs_lt4 {J' : ℕ} (h : J' < 41) (r : Ref sig .tc) (c : Dev nD) : outs D m J' r c = o4 D m J' r c := by
  rw [outs_lt5 D m (by omega)]; unfold o5; exact stage_ne _ _ _ _ (Nat.ne_of_lt h)
theorem outs_lt3 {J' : ℕ} (h : J' < 33) (r : Ref sig .tc) (c : Dev nD) : outs D m J' r c = o3 D m J' r c := by
  rw [outs_lt4 D m (by omega)]; unfold o4; exact stage_ne _ _ _ _ (Nat.ne_of_lt h)
theorem outs_lt2 {J' : ℕ} (h : J' < 29) (r : Ref sig .tc) (c : Dev nD) : outs D m J' r c = o2 D m J' r c := by
  rw [outs_lt3 D m (by omega)]; unfold o3; exact stage_ne _ _ _ _ (Nat.ne_of_lt h)
theorem outs_lt1 {J' : ℕ} (h : J' < 22) (r : Ref sig .tc) (c : Dev nD) : outs D m J' r c = o1 D m J' r c := by
  rw [outs_lt2 D m (by omega)]; unfold o2; exact stage_ne _ _ _ _ (Nat.ne_of_lt h)

/-! ## At a region's item the contents are its stage's valuation -/

theorem outs_at0 (r : Ref sig .tc) (c : Dev nD) : outs D m 14 r c = X0 D m c r := by
  rw [outs_lt1 D m (by decide)]; unfold o1; exact stage_self _ _ _ _ _
theorem outs_at1 (r : Ref sig .tc) (c : Dev nD) : outs D m 22 r c = X1 D m c r := by
  rw [outs_lt2 D m (by decide)]; unfold o2; exact stage_self _ _ _ _ _
theorem outs_at2 (r : Ref sig .tc) (c : Dev nD) : outs D m 29 r c = X2 D m c r := by
  rw [outs_lt3 D m (by decide)]; unfold o3; exact stage_self _ _ _ _ _
theorem outs_at3 (r : Ref sig .tc) (c : Dev nD) : outs D m 33 r c = X3 D m c r := by
  rw [outs_lt4 D m (by decide)]; unfold o4; exact stage_self _ _ _ _ _
theorem outs_at4 (r : Ref sig .tc) (c : Dev nD) : outs D m 41 r c = X4 D m c r := by
  rw [outs_lt5 D m (by decide)]; unfold o5; exact stage_self _ _ _ _ _
theorem outs_at5 (r : Ref sig .tc) (c : Dev nD) : outs D m 48 r c = X5 D m c r := by
  rw [outs_lt6 D m (by decide)]; unfold o6; exact stage_self _ _ _ _ _
theorem outs_at6 (r : Ref sig .tc) (c : Dev nD) : outs D m 54 r c = X6 D m c r := by
  rw [outs_lt7 D m (by decide)]; unfold o7; exact stage_self _ _ _ _ _
theorem outs_at7 (r : Ref sig .tc) (c : Dev nD) : outs D m 60 r c = X7 D m c r := by
  rw [outs_lt8 D m (by decide)]; unfold o8; exact stage_self _ _ _ _ _
theorem outs_at8 (r : Ref sig .tc) (c : Dev nD) : outs D m 65 r c = X8 D m c r := by
  rw [outs_lt9 D m (by decide)]; unfold o9; exact stage_self _ _ _ _ _
theorem outs_at9 (r : Ref sig .tc) (c : Dev nD) : outs D m 69 r c = X9 D m c r := by
  rw [outs_lt10 D m (by decide)]; unfold o10; exact stage_self _ _ _ _ _
theorem outs_at10 (r : Ref sig .tc) (c : Dev nD) : outs D m 75 r c = X10 D m c r := by
  rw [outs_lt11 D m (by decide)]; unfold o11; exact stage_self _ _ _ _ _
theorem outs_at11 (r : Ref sig .tc) (c : Dev nD) : outs D m 80 r c = X11 D m c r := by
  rw [outs_lt12 D m (by decide)]; unfold o12; exact stage_self _ _ _ _ _
theorem outs_at12 (r : Ref sig .tc) (c : Dev nD) : outs D m 90 r c = X12 D m c r := by
  rw [outs_lt13 D m (by decide)]; unfold o13; exact stage_self _ _ _ _ _
theorem outs_at13 (r : Ref sig .tc) (c : Dev nD) : outs D m 94 r c = X13 D m c r := by
  rw [outs_lt14 D m (by decide)]; unfold o14; exact stage_self _ _ _ _ _
theorem outs_at14 (r : Ref sig .tc) (c : Dev nD) : outs D m 96 r c = X14 D m c r := by
  rw [outs_lt15 D m (by decide)]; unfold o15; exact stage_self _ _ _ _ _
theorem outs_at15 (r : Ref sig .tc) (c : Dev nD) : outs D m 98 r c = X15 D m c r := by
  rw [outs_lt16 D m (by decide)]; unfold o16; exact stage_self _ _ _ _ _
theorem outs_at16 (r : Ref sig .tc) (c : Dev nD) : outs D m 104 r c = X16 D m c r := by
  unfold outs; exact stage_self _ _ _ _ _

/-! ## A region's entry valuation reads the contents only at earlier items

Two families of contents that agree at every item before region K's give the same valuation at region K's entry: the
valuation is the one at the region before, updated at that region's result arrays and carried through the host stretches
between. -/

omit D in
theorem agr1 (o o' : Outs (F := F)) (c : Dev nD) (h : ∀ J', J' < 22 → ∀ r, o J' r c = o' J' r c) :
    V21 m o c = V21 m o' c := by
  simp only [V21, V20, V19, V18, V17, V16, V15, V14, h 14 (by decide) main_v50]
omit D in
theorem agr2 (o o' : Outs (F := F)) (c : Dev nD) (h : ∀ J', J' < 29 → ∀ r, o J' r c = o' J' r c) :
    V28 m o c = V28 m o' c := by
  simp only [V28, V27, V26, V25, V24, V23, V22, h 22 (by decide) main_v59, agr1 m o o' c fun J' hJ => h J' (by omega)]
omit D in
theorem agr3 (o o' : Outs (F := F)) (c : Dev nD) (h : ∀ J', J' < 33 → ∀ r, o J' r c = o' J' r c) :
    V32 m o c = V32 m o' c := by
  simp only [V32, V31, V30, V29, h 29 (by decide) main_v67, agr2 m o o' c fun J' hJ => h J' (by omega)]
omit D in
theorem agr4 (o o' : Outs (F := F)) (c : Dev nD) (h : ∀ J', J' < 41 → ∀ r, o J' r c = o' J' r c) :
    V40 m o c = V40 m o' c := by
  simp only [V40, V39, V38, V37, V36, V35, V34, V33, h 33 (by decide) main_v75, agr3 m o o' c fun J' hJ => h J' (by omega)]
omit D in
theorem agr5 (o o' : Outs (F := F)) (c : Dev nD) (h : ∀ J', J' < 48 → ∀ r, o J' r c = o' J' r c) :
    V47 m o c = V47 m o' c := by
  simp only [V47, V46, V45, V44, V43, V42, V41, h 41 (by decide) main_v84, agr4 m o o' c fun J' hJ => h J' (by omega)]
omit D in
theorem agr6 (o o' : Outs (F := F)) (c : Dev nD) (h : ∀ J', J' < 54 → ∀ r, o J' r c = o' J' r c) :
    V53 m o c = V53 m o' c := by
  simp only [V53, V52, V51, V50, V49, V48, h 48 (by decide) main_v92, agr5 m o o' c fun J' hJ => h J' (by omega)]
omit D in
theorem agr7 (o o' : Outs (F := F)) (c : Dev nD) (h : ∀ J', J' < 60 → ∀ r, o J' r c = o' J' r c) :
    V59 m o c = V59 m o' c := by
  simp only [V59, V58, V57, V56, V55, V54, h 54 (by decide) main_v101, agr6 m o o' c fun J' hJ => h J' (by omega)]
omit D in
theorem agr8 (o o' : Outs (F := F)) (c : Dev nD) (h : ∀ J', J' < 65 → ∀ r, o J' r c = o' J' r c) :
    V64 m o c = V64 m o' c := by
  simp only [V64, V63, V62, V61, V60, h 60 (by decide) main_v109, agr7 m o o' c fun J' hJ => h J' (by omega)]
omit D in
theorem agr9 (o o' : Outs (F := F)) (c : Dev nD) (h : ∀ J', J' < 69 → ∀ r, o J' r c = o' J' r c) :
    V68 m o c = V68 m o' c := by
  simp only [V68, V67, V66, V65, h 65 (by decide) main_v115, agr8 m o o' c fun J' hJ => h J' (by omega)]
omit D in
theorem agr10 (o o' : Outs (F := F)) (c : Dev nD) (h : ∀ J', J' < 75 → ∀ r, o J' r c = o' J' r c) :
    V74 m o c = V74 m o' c := by
  simp only [V74, V73, V72, V71, V70, V69, h 69 (by decide) main_v123, agr9 m o o' c fun J' hJ => h J' (by omega)]
omit D in
theorem agr11 (o o' : Outs (F := F)) (c : Dev nD) (h : ∀ J', J' < 80 → ∀ r, o J' r c = o' J' r c) :
    V79 m o c = V79 m o' c := by
  simp only [V79, V78, V77, V76, V75, h 75 (by decide) main_v131, agr10 m o o' c fun J' hJ => h J' (by omega)]
omit D in
theorem agr12 (o o' : Outs (F := F)) (c : Dev nD) (h : ∀ J', J' < 90 → ∀ r, o J' r c = o' J' r c) :
    V89 m o c = V89 m o' c := by
  simp only [V89, V88, V87, V86, V85, V84, V83, V82, V81, V80, h 80 (by decide) main_v137,
    agr11 m o o' c fun J' hJ => h J' (by omega)]
omit D in
theorem agr13 (o o' : Outs (F := F)) (c : Dev nD) (h : ∀ J', J' < 94 → ∀ r, o J' r c = o' J' r c) :
    V93 m o c = V93 m o' c := by
  simp only [V93, V92, V91, V90, h 90 (by decide) main_v155, agr12 m o o' c fun J' hJ => h J' (by omega)]
omit D in
theorem agr14 (o o' : Outs (F := F)) (c : Dev nD) (h : ∀ J', J' < 96 → ∀ r, o J' r c = o' J' r c) :
    V95 m o c = V95 m o' c := by
  simp only [V95, V94, h 94 (by decide) main_v159_0, h 94 (by decide) main_v159_1,
    agr13 m o o' c fun J' hJ => h J' (by omega)]
omit D in
theorem agr15 (o o' : Outs (F := F)) (c : Dev nD) (h : ∀ J', J' < 98 → ∀ r, o J' r c = o' J' r c) :
    V97 m o c = V97 m o' c := by
  simp only [V97, V96, h 96 (by decide) main_v162_0, h 96 (by decide) main_v162_1,
    agr14 m o o' c fun J' hJ => h J' (by omega)]
omit D in
theorem agr16 (o o' : Outs (F := F)) (c : Dev nD) (h : ∀ J', J' < 104 → ∀ r, o J' r c = o' J' r c) :
    V103 m o c = V103 m o' c := by
  simp only [V103, V102, V101, V100, V99, V98, h 98 (by decide) main_v165_0, h 98 (by decide) main_v165_1,
    agr15 m o o' c fun J' hJ => h J' (by omega)]

/-- Region K is entered at the same valuation over the final contents as over its own stage's. -/
theorem VA1 : V21 m (outs D m) = V21 m (o1 D m) := funext fun c => agr1 m _ _ c fun _ h r => outs_lt1 D m h r c
theorem VA2 : V28 m (outs D m) = V28 m (o2 D m) := funext fun c => agr2 m _ _ c fun _ h r => outs_lt2 D m h r c
theorem VA3 : V32 m (outs D m) = V32 m (o3 D m) := funext fun c => agr3 m _ _ c fun _ h r => outs_lt3 D m h r c
theorem VA4 : V40 m (outs D m) = V40 m (o4 D m) := funext fun c => agr4 m _ _ c fun _ h r => outs_lt4 D m h r c
theorem VA5 : V47 m (outs D m) = V47 m (o5 D m) := funext fun c => agr5 m _ _ c fun _ h r => outs_lt5 D m h r c
theorem VA6 : V53 m (outs D m) = V53 m (o6 D m) := funext fun c => agr6 m _ _ c fun _ h r => outs_lt6 D m h r c
theorem VA7 : V59 m (outs D m) = V59 m (o7 D m) := funext fun c => agr7 m _ _ c fun _ h r => outs_lt7 D m h r c
theorem VA8 : V64 m (outs D m) = V64 m (o8 D m) := funext fun c => agr8 m _ _ c fun _ h r => outs_lt8 D m h r c
theorem VA9 : V68 m (outs D m) = V68 m (o9 D m) := funext fun c => agr9 m _ _ c fun _ h r => outs_lt9 D m h r c
theorem VA10 : V74 m (outs D m) = V74 m (o10 D m) := funext fun c => agr10 m _ _ c fun _ h r => outs_lt10 D m h r c
theorem VA11 : V79 m (outs D m) = V79 m (o11 D m) := funext fun c => agr11 m _ _ c fun _ h r => outs_lt11 D m h r c
theorem VA12 : V89 m (outs D m) = V89 m (o12 D m) := funext fun c => agr12 m _ _ c fun _ h r => outs_lt12 D m h r c
theorem VA13 : V93 m (outs D m) = V93 m (o13 D m) := funext fun c => agr13 m _ _ c fun _ h r => outs_lt13 D m h r c
theorem VA14 : V95 m (outs D m) = V95 m (o14 D m) := funext fun c => agr14 m _ _ c fun _ h r => outs_lt14 D m h r c
theorem VA15 : V97 m (outs D m) = V97 m (o15 D m) := funext fun c => agr15 m _ _ c fun _ h r => outs_lt15 D m h r c
theorem VA16 : V103 m (outs D m) = V103 m (o16 D m) := funext fun c => agr16 m _ _ c fun _ h r => outs_lt16 D m h r c

/-! ## The equations: what a region leaves is what its data compute, over the valuation it is entered at -/

theorem outs_R0 (c : Dev nD) : outs D m 14 main_v50 c = (D.d0 (V13 m) c).arrAt 5 cfg0.N := by
  rw [outs_at0, X0, Function.update_self]
theorem outs_R1 (c : Dev nD) : outs D m 22 main_v59 c = (D.d1 (V21 m (outs D m)) c).arrAt 5 cfg1.N := by
  rw [VA1 D m, outs_at1, X1, Function.update_self]
theorem outs_R2 (c : Dev nD) : outs D m 29 main_v67 c = (D.d2 (V28 m (outs D m)) c).arrAt 5 cfg2.N := by
  rw [VA2 D m, outs_at2, X2, Function.update_self]
theorem outs_R3 (c : Dev nD) : outs D m 33 main_v75 c = (D.d3 (V32 m (outs D m)) c).arrAt 5 cfg3.N := by
  rw [VA3 D m, outs_at3, X3, Function.update_self]
theorem outs_R4 (c : Dev nD) : outs D m 41 main_v84 c = (D.d4 (V40 m (outs D m)) c).arrAt 5 cfg4.N := by
  rw [VA4 D m, outs_at4, X4, Function.update_self]
theorem outs_R5 (c : Dev nD) : outs D m 48 main_v92 c = (D.d5 (V47 m (outs D m)) c).arrAt 5 cfg5.N := by
  rw [VA5 D m, outs_at5, X5, Function.update_self]
theorem outs_R6 (c : Dev nD) : outs D m 54 main_v101 c = (D.d6 (V53 m (outs D m)) c).arrAt 5 cfg6.N := by
  rw [VA6 D m, outs_at6, X6, Function.update_self]
theorem outs_R7 (c : Dev nD) : outs D m 60 main_v109 c = (D.d7 (V59 m (outs D m)) c).arrAt 5 cfg7.N := by
  rw [VA7 D m, outs_at7, X7, Function.update_self]
theorem outs_R8 (c : Dev nD) : outs D m 65 main_v115 c = (D.d8 (V64 m (outs D m)) c).arrAt 5 cfg8.N := by
  rw [VA8 D m, outs_at8, X8, Function.update_self]
theorem outs_R9 (c : Dev nD) : outs D m 69 main_v123 c = (D.d9 (V68 m (outs D m)) c).arrAt 5 cfg9.N := by
  rw [VA9 D m, outs_at9, X9, Function.update_self]
theorem outs_R10 (c : Dev nD) : outs D m 75 main_v131 c = (D.d10 (V74 m (outs D m)) c).arrAt 5 cfg10.N := by
  rw [VA10 D m, outs_at10, X10, Function.update_self]
theorem outs_R11 (c : Dev nD) : outs D m 80 main_v137 c = (D.d11 (V79 m (outs D m)) c).arrAt 5 cfg11.N := by
  rw [VA11 D m, outs_at11, X11, Function.update_self]
theorem outs_R12 (c : Dev nD) : outs D m 90 main_v155 c = (D.d12 (V89 m (outs D m)) c).arrAt 5 cfg12.N := by
  rw [VA12 D m, outs_at12, X12, Function.update_self]
theorem outs_R13_0 (c : Dev nD) : outs D m 94 main_v159_0 c = (D.d13 (V93 m (outs D m)) c).arrAt 6 cfg13.N := by
  rw [VA13 D m, outs_at13, X13,
    Function.update_of_ne (StableHlo.devRef_ne_of_ne (by decide : main_v159_0 ≠ main_v159_1)), Function.update_self]
theorem outs_R13_1 (c : Dev nD) : outs D m 94 main_v159_1 c = (D.d13 (V93 m (outs D m)) c).arrAt 7 cfg13.N := by
  rw [VA13 D m, outs_at13, X13, Function.update_self]
theorem outs_R14_0 (c : Dev nD) : outs D m 96 main_v162_0 c = (D.d14 (V95 m (outs D m)) c).arrAt 6 cfg14.N := by
  rw [VA14 D m, outs_at14, X14,
    Function.update_of_ne (StableHlo.devRef_ne_of_ne (by decide : main_v162_0 ≠ main_v162_1)), Function.update_self]
theorem outs_R14_1 (c : Dev nD) : outs D m 96 main_v162_1 c = (D.d14 (V95 m (outs D m)) c).arrAt 7 cfg14.N := by
  rw [VA14 D m, outs_at14, X14, Function.update_self]
theorem outs_R15_0 (c : Dev nD) : outs D m 98 main_v165_0 c = (D.d15 (V97 m (outs D m)) c).arrAt 6 cfg15.N := by
  rw [VA15 D m, outs_at15, X15,
    Function.update_of_ne (StableHlo.devRef_ne_of_ne (by decide : main_v165_0 ≠ main_v165_1)), Function.update_self]
theorem outs_R15_1 (c : Dev nD) : outs D m 98 main_v165_1 c = (D.d15 (V97 m (outs D m)) c).arrAt 7 cfg15.N := by
  rw [VA15 D m, outs_at15, X15, Function.update_self]
theorem outs_R16 (c : Dev nD) : outs D m 104 main_v184 c = (D.d16 (V103 m (outs D m)) c).arrAt 9 cfg16.N := by
  rw [VA16 D m, outs_at16, X16, Function.update_self]

/-! ## The launch side, and the shape of a region's record -/

abbrev 𝒱₀ : Variants := Variants.none
/-- No core owes another anything: no level is assigned. -/
abbrev L₀ : GSem nD τ sig → Finset Unit := fun _ => ∅
abbrev lv₀ : GSem nD τ sig → Unit → ℕ := fun _ _ => 0

/-- The launch element: the pipelines' staging cells and transfers, nothing else. -/
def u₀ : UR sig nD τ := initOf (Pipeline.cells cfgs cellOf_inj) (Pipeline.launchToks cfgs cellOf_inj)

/-- What rides beside the buffers between any two items: the core's dues, at nothing. -/
abbrev Ē (c : Dev nD) : sProp 𝕄 := iprop(∃ W, owes (c : Thread nD τ) (0 : CellTallies nD τ sig Unit) W)

/-- A family of proof data, one per pipeline. -/
abbrev PD (F : FTy → Type) [FloatOps F] : Type _ :=
  (p : Fin 17) → (c : Dev nD) → Dat τ (Elt F) Unit ℕ (UR sig nD τ) ℕ (cfgs p) c

/-- Region `K`'s segment record over the family `pd`, entered with the unscoped buffers held at `V` and left with them
    held at `Vp`, the dues beside. -/
abbrev RegFor (pd : PD F) (K : Fin 17) (V Vp : Dev nD → Valuation τ sig (Elt F)) : Type _ :=
  {R : RegionSeg (pcfgs (F := F)) adm pd () defs₀ 𝒱₀ L₀ lv₀ K //
    (∀ c : Dev nD, iprop(StableHlo.held (c : Thread nD τ) (Pipeline.ucRefs τ sig) (V c) ∗ Ē c) ⊢ R.pre c) ∧
    (∀ c : Dev nD, R.post c ⊢ iprop(StableHlo.held (c : Thread nD τ) (Pipeline.ucRefs τ sig) (Vp c) ∗ Ē c))}

/-- The seventeen regions' records, each for ANY entry valuation `V`, ANY exit valuation `Vp` that is `V` off the
    region's result arrays and holds there what the region's data compute, and ANY family holding the region's data at
    its place. -/
structure Regs (D : Dats F) where
  r0 : ∀ (V Vp : Dev nD → Valuation τ sig (Elt F)) (pd : PD F), (∀ c, pd 0 c = D.d0 V c) →
    (∀ c, Vp c main_v50 = (D.d0 V c).arrAt 5 cfg0.N) → (∀ c (b : Ref sig .tc), b ≠ main_v50 → Vp c b = V c b) → RegFor pd 0 V Vp
  r1 : ∀ (V Vp : Dev nD → Valuation τ sig (Elt F)) (pd : PD F), (∀ c, pd 1 c = D.d1 V c) →
    (∀ c, Vp c main_v59 = (D.d1 V c).arrAt 5 cfg1.N) → (∀ c (b : Ref sig .tc), b ≠ main_v59 → Vp c b = V c b) → RegFor pd 1 V Vp
  r2 : ∀ (V Vp : Dev nD → Valuation τ sig (Elt F)) (pd : PD F), (∀ c, pd 2 c = D.d2 V c) →
    (∀ c, Vp c main_v67 = (D.d2 V c).arrAt 5 cfg2.N) → (∀ c (b : Ref sig .tc), b ≠ main_v67 → Vp c b = V c b) → RegFor pd 2 V Vp
  r3 : ∀ (V Vp : Dev nD → Valuation τ sig (Elt F)) (pd : PD F), (∀ c, pd 3 c = D.d3 V c) →
    (∀ c, Vp c main_v75 = (D.d3 V c).arrAt 5 cfg3.N) → (∀ c (b : Ref sig .tc), b ≠ main_v75 → Vp c b = V c b) → RegFor pd 3 V Vp
  r4 : ∀ (V Vp : Dev nD → Valuation τ sig (Elt F)) (pd : PD F), (∀ c, pd 4 c = D.d4 V c) →
    (∀ c, Vp c main_v84 = (D.d4 V c).arrAt 5 cfg4.N) → (∀ c (b : Ref sig .tc), b ≠ main_v84 → Vp c b = V c b) → RegFor pd 4 V Vp
  r5 : ∀ (V Vp : Dev nD → Valuation τ sig (Elt F)) (pd : PD F), (∀ c, pd 5 c = D.d5 V c) →
    (∀ c, Vp c main_v92 = (D.d5 V c).arrAt 5 cfg5.N) → (∀ c (b : Ref sig .tc), b ≠ main_v92 → Vp c b = V c b) → RegFor pd 5 V Vp
  r6 : ∀ (V Vp : Dev nD → Valuation τ sig (Elt F)) (pd : PD F), (∀ c, pd 6 c = D.d6 V c) →
    (∀ c, Vp c main_v101 = (D.d6 V c).arrAt 5 cfg6.N) → (∀ c (b : Ref sig .tc), b ≠ main_v101 → Vp c b = V c b) → RegFor pd 6 V Vp
  r7 : ∀ (V Vp : Dev nD → Valuation τ sig (Elt F)) (pd : PD F), (∀ c, pd 7 c = D.d7 V c) →
    (∀ c, Vp c main_v109 = (D.d7 V c).arrAt 5 cfg7.N) → (∀ c (b : Ref sig .tc), b ≠ main_v109 → Vp c b = V c b) → RegFor pd 7 V Vp
  r8 : ∀ (V Vp : Dev nD → Valuation τ sig (Elt F)) (pd : PD F), (∀ c, pd 8 c = D.d8 V c) →
    (∀ c, Vp c main_v115 = (D.d8 V c).arrAt 5 cfg8.N) → (∀ c (b : Ref sig .tc), b ≠ main_v115 → Vp c b = V c b) → RegFor pd 8 V Vp
  r9 : ∀ (V Vp : Dev nD → Valuation τ sig (Elt F)) (pd : PD F), (∀ c, pd 9 c = D.d9 V c) →
    (∀ c, Vp c main_v123 = (D.d9 V c).arrAt 5 cfg9.N) → (∀ c (b : Ref sig .tc), b ≠ main_v123 → Vp c b = V c b) → RegFor pd 9 V Vp
  r10 : ∀ (V Vp : Dev nD → Valuation τ sig (Elt F)) (pd : PD F), (∀ c, pd 10 c = D.d10 V c) →
    (∀ c, Vp c main_v131 = (D.d10 V c).arrAt 5 cfg10.N) → (∀ c (b : Ref sig .tc), b ≠ main_v131 → Vp c b = V c b) → RegFor pd 10 V Vp
  r11 : ∀ (V Vp : Dev nD → Valuation τ sig (Elt F)) (pd : PD F), (∀ c, pd 11 c = D.d11 V c) →
    (∀ c, Vp c main_v137 = (D.d11 V c).arrAt 5 cfg11.N) → (∀ c (b : Ref sig .tc), b ≠ main_v137 → Vp c b = V c b) → RegFor pd 11 V Vp
  r12 : ∀ (V Vp : Dev nD → Valuation τ sig (Elt F)) (pd : PD F), (∀ c, pd 12 c = D.d12 V c) →
    (∀ c, Vp c main_v155 = (D.d12 V c).arrAt 5 cfg12.N) → (∀ c (b : Ref sig .tc), b ≠ main_v155 → Vp c b = V c b) → RegFor pd 12 V Vp
  r13 : ∀ (V Vp : Dev nD → Valuation τ sig (Elt F)) (pd : PD F), (∀ c, pd 13 c = D.d13 V c) →
    (∀ c, Vp c main_v159_0 = (D.d13 V c).arrAt 6 cfg13.N) → (∀ c, Vp c main_v159_1 = (D.d13 V c).arrAt 7 cfg13.N) →
    (∀ c (b : Ref sig .tc), b ≠ main_v159_0 → b ≠ main_v159_1 → Vp c b = V c b) → RegFor pd 13 V Vp
  r14 : ∀ (V Vp : Dev nD → Valuation τ sig (Elt F)) (pd : PD F), (∀ c, pd 14 c = D.d14 V c) →
    (∀ c, Vp c main_v162_0 = (D.d14 V c).arrAt 6 cfg14.N) → (∀ c, Vp c main_v162_1 = (D.d14 V c).arrAt 7 cfg14.N) →
    (∀ c (b : Ref sig .tc), b ≠ main_v162_0 → b ≠ main_v162_1 → Vp c b = V c b) → RegFor pd 14 V Vp
  r15 : ∀ (V Vp : Dev nD → Valuation τ sig (Elt F)) (pd : PD F), (∀ c, pd 15 c = D.d15 V c) →
    (∀ c, Vp c main_v165_0 = (D.d15 V c).arrAt 6 cfg15.N) → (∀ c, Vp c main_v165_1 = (D.d15 V c).arrAt 7 cfg15.N) →
    (∀ c (b : Ref sig .tc), b ≠ main_v165_0 → b ≠ main_v165_1 → Vp c b = V c b) → RegFor pd 15 V Vp
  r16 : ∀ (V Vp : Dev nD → Valuation τ sig (Elt F)) (pd : PD F), (∀ c, pd 16 c = D.d16 V c) →
    (∀ c, Vp c main_v184 = (D.d16 V c).arrAt 9 cfg16.N) → (∀ c (b : Ref sig .tc), b ≠ main_v184 → Vp c b = V c b) → RegFor pd 16 V Vp

/-! ## The family of proof data, and the records at the final contents -/

/-- Every pipeline's proof data, each over the valuation its region is entered at, the regions leaving `outs`. -/
def pdats : PD F
  | ⟨0, _⟩ => fun c => D.d0 (V13 m) c
  | ⟨1, _⟩ => fun c => D.d1 (V21 m (outs D m)) c
  | ⟨2, _⟩ => fun c => D.d2 (V28 m (outs D m)) c
  | ⟨3, _⟩ => fun c => D.d3 (V32 m (outs D m)) c
  | ⟨4, _⟩ => fun c => D.d4 (V40 m (outs D m)) c
  | ⟨5, _⟩ => fun c => D.d5 (V47 m (outs D m)) c
  | ⟨6, _⟩ => fun c => D.d6 (V53 m (outs D m)) c
  | ⟨7, _⟩ => fun c => D.d7 (V59 m (outs D m)) c
  | ⟨8, _⟩ => fun c => D.d8 (V64 m (outs D m)) c
  | ⟨9, _⟩ => fun c => D.d9 (V68 m (outs D m)) c
  | ⟨10, _⟩ => fun c => D.d10 (V74 m (outs D m)) c
  | ⟨11, _⟩ => fun c => D.d11 (V79 m (outs D m)) c
  | ⟨12, _⟩ => fun c => D.d12 (V89 m (outs D m)) c
  | ⟨13, _⟩ => fun c => D.d13 (V93 m (outs D m)) c
  | ⟨14, _⟩ => fun c => D.d14 (V95 m (outs D m)) c
  | ⟨15, _⟩ => fun c => D.d15 (V97 m (outs D m)) c
  | ⟨16, _⟩ => fun c => D.d16 (V103 m (outs D m)) c
  | ⟨_ + 17, h⟩ => absurd h (Nat.not_lt.2 (Nat.le_add_left _ _))

variable (Rg : Regs D)

def reg0 : RegFor (pdats D m) 0 (V13 m) (V14 m (outs D m)) :=
  Rg.r0 _ _ _ (fun _ => rfl) (fun c => (Function.update_self _ _ _).trans (outs_R0 D m c))
    (fun c b hb => Function.update_of_ne (StableHlo.devRef_ne_of_ne hb) _ _)
def reg1 : RegFor (pdats D m) 1 (V21 m (outs D m)) (V22 m (outs D m)) :=
  Rg.r1 _ _ _ (fun _ => rfl) (fun c => (Function.update_self _ _ _).trans (outs_R1 D m c))
    (fun c b hb => Function.update_of_ne (StableHlo.devRef_ne_of_ne hb) _ _)
def reg2 : RegFor (pdats D m) 2 (V28 m (outs D m)) (V29 m (outs D m)) :=
  Rg.r2 _ _ _ (fun _ => rfl) (fun c => (Function.update_self _ _ _).trans (outs_R2 D m c))
    (fun c b hb => Function.update_of_ne (StableHlo.devRef_ne_of_ne hb) _ _)
def reg3 : RegFor (pdats D m) 3 (V32 m (outs D m)) (V33 m (outs D m)) :=
  Rg.r3 _ _ _ (fun _ => rfl) (fun c => (Function.update_self _ _ _).trans (outs_R3 D m c))
    (fun c b hb => Function.update_of_ne (StableHlo.devRef_ne_of_ne hb) _ _)
def reg4 : RegFor (pdats D m) 4 (V40 m (outs D m)) (V41 m (outs D m)) :=
  Rg.r4 _ _ _ (fun _ => rfl) (fun c => (Function.update_self _ _ _).trans (outs_R4 D m c))
    (fun c b hb => Function.update_of_ne (StableHlo.devRef_ne_of_ne hb) _ _)
def reg5 : RegFor (pdats D m) 5 (V47 m (outs D m)) (V48 m (outs D m)) :=
  Rg.r5 _ _ _ (fun _ => rfl) (fun c => (Function.update_self _ _ _).trans (outs_R5 D m c))
    (fun c b hb => Function.update_of_ne (StableHlo.devRef_ne_of_ne hb) _ _)
def reg6 : RegFor (pdats D m) 6 (V53 m (outs D m)) (V54 m (outs D m)) :=
  Rg.r6 _ _ _ (fun _ => rfl) (fun c => (Function.update_self _ _ _).trans (outs_R6 D m c))
    (fun c b hb => Function.update_of_ne (StableHlo.devRef_ne_of_ne hb) _ _)
def reg7 : RegFor (pdats D m) 7 (V59 m (outs D m)) (V60 m (outs D m)) :=
  Rg.r7 _ _ _ (fun _ => rfl) (fun c => (Function.update_self _ _ _).trans (outs_R7 D m c))
    (fun c b hb => Function.update_of_ne (StableHlo.devRef_ne_of_ne hb) _ _)
def reg8 : RegFor (pdats D m) 8 (V64 m (outs D m)) (V65 m (outs D m)) :=
  Rg.r8 _ _ _ (fun _ => rfl) (fun c => (Function.update_self _ _ _).trans (outs_R8 D m c))
    (fun c b hb => Function.update_of_ne (StableHlo.devRef_ne_of_ne hb) _ _)
def reg9 : RegFor (pdats D m) 9 (V68 m (outs D m)) (V69 m (outs D m)) :=
  Rg.r9 _ _ _ (fun _ => rfl) (fun c => (Function.update_self _ _ _).trans (outs_R9 D m c))
    (fun c b hb => Function.update_of_ne (StableHlo.devRef_ne_of_ne hb) _ _)
def reg10 : RegFor (pdats D m) 10 (V74 m (outs D m)) (V75 m (outs D m)) :=
  Rg.r10 _ _ _ (fun _ => rfl) (fun c => (Function.update_self _ _ _).trans (outs_R10 D m c))
    (fun c b hb => Function.update_of_ne (StableHlo.devRef_ne_of_ne hb) _ _)
def reg11 : RegFor (pdats D m) 11 (V79 m (outs D m)) (V80 m (outs D m)) :=
  Rg.r11 _ _ _ (fun _ => rfl) (fun c => (Function.update_self _ _ _).trans (outs_R11 D m c))
    (fun c b hb => Function.update_of_ne (StableHlo.devRef_ne_of_ne hb) _ _)
def reg12 : RegFor (pdats D m) 12 (V89 m (outs D m)) (V90 m (outs D m)) :=
  Rg.r12 _ _ _ (fun _ => rfl) (fun c => (Function.update_self _ _ _).trans (outs_R12 D m c))
    (fun c b hb => Function.update_of_ne (StableHlo.devRef_ne_of_ne hb) _ _)
def reg13 : RegFor (pdats D m) 13 (V93 m (outs D m)) (V94 m (outs D m)) :=
  Rg.r13 _ _ _ (fun _ => rfl)
    (fun c => (Function.update_of_ne (StableHlo.devRef_ne_of_ne (by decide : main_v159_0 ≠ main_v159_1)) _ _).trans
      ((Function.update_self _ _ _).trans (outs_R13_0 D m c)))
    (fun c => (Function.update_self _ _ _).trans (outs_R13_1 D m c))
    (fun c b h0 h1 => (Function.update_of_ne (StableHlo.devRef_ne_of_ne h1) _ _).trans
      (Function.update_of_ne (StableHlo.devRef_ne_of_ne h0) _ _))
def reg14 : RegFor (pdats D m) 14 (V95 m (outs D m)) (V96 m (outs D m)) :=
  Rg.r14 _ _ _ (fun _ => rfl)
    (fun c => (Function.update_of_ne (StableHlo.devRef_ne_of_ne (by decide : main_v162_0 ≠ main_v162_1)) _ _).trans
      ((Function.update_self _ _ _).trans (outs_R14_0 D m c)))
    (fun c => (Function.update_self _ _ _).trans (outs_R14_1 D m c))
    (fun c b h0 h1 => (Function.update_of_ne (StableHlo.devRef_ne_of_ne h1) _ _).trans
      (Function.update_of_ne (StableHlo.devRef_ne_of_ne h0) _ _))
def reg15 : RegFor (pdats D m) 15 (V97 m (outs D m)) (V98 m (outs D m)) :=
  Rg.r15 _ _ _ (fun _ => rfl)
    (fun c => (Function.update_of_ne (StableHlo.devRef_ne_of_ne (by decide : main_v165_0 ≠ main_v165_1)) _ _).trans
      ((Function.update_self _ _ _).trans (outs_R15_0 D m c)))
    (fun c => (Function.update_self _ _ _).trans (outs_R15_1 D m c))
    (fun c b h0 h1 => (Function.update_of_ne (StableHlo.devRef_ne_of_ne h1) _ _).trans
      (Function.update_of_ne (StableHlo.devRef_ne_of_ne h0) _ _))
def reg16 : RegFor (pdats D m) 16 (V103 m (outs D m)) (V104 m (outs D m)) :=
  Rg.r16 _ _ _ (fun _ => rfl) (fun c => (Function.update_self _ _ _).trans (outs_R16 D m c))
    (fun c b hb => Function.update_of_ne (StableHlo.devRef_ne_of_ne hb) _ _)

/-! ## The frame, and the run with its result named -/

/-- Each argument array as launched, on core `c`, in the memory `s`. -/
abbrev argsKept (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)
  ∧ s.mem ((c.tc : Thread nD τ).loc main_arg15) = m ((c.tc : Thread nD τ).loc main_arg15)
  ∧ s.mem ((c.tc : Thread nD τ).loc main_arg16) = m ((c.tc : Thread nD τ).loc main_arg16)
  ∧ s.mem ((c.tc : Thread nD τ).loc main_arg17) = m ((c.tc : Thread nD τ).loc main_arg17)
  ∧ s.mem ((c.tc : Thread nD τ).loc main_arg18) = m ((c.tc : Thread nD τ).loc main_arg18)
  ∧ s.mem ((c.tc : Thread nD τ).loc main_arg19) = m ((c.tc : Thread nD τ).loc main_arg19)
  ∧ s.mem ((c.tc : Thread nD τ).loc main_arg20) = m ((c.tc : Thread nD τ).loc main_arg20)
  ∧ s.mem ((c.tc : Thread nD τ).loc main_arg21) = m ((c.tc : Thread nD τ).loc main_arg21)
  ∧ s.mem ((c.tc : Thread nD τ).loc main_arg22) = m ((c.tc : Thread nD τ).loc main_arg22)
  ∧ s.mem ((c.tc : Thread nD τ).loc main_arg23) = m ((c.tc : Thread nD τ).loc main_arg23)
  ∧ s.mem ((c.tc : Thread nD τ).loc main_arg24) = m ((c.tc : Thread nD τ).loc main_arg24)

/-- What the conditional frame and the run with its result named are both applied to: the launch in the pipelines'
    algebra alone, no core owing anything and no ghost resource, the dues riding beside the buffers between any two
    items (made at launch from the core's empty dues, and all that is left at the end), and the seventeen records. -/
local macro "regionArgs% " f:term:max D:term:max Rg:term:max m:term:max ρ:term:max : term => `(
  $f $m emb₁ () 𝒱₀ L₀ lv₀ (fun _ _ => rfl) $ρ (outs $D $m) (pdats $D $m) 0 (fun _ => (BI.emp : sProp 𝕄)) u₀
    (by
      rw [BI.bigSep_emp_const]
      iintro Hu; imodintro
      isplitl [Hu]
      · iapply (show (ownU u₀ : sProp 𝕄) ⊢ BI.own (emb₁ u₀) from .rfl); iexact Hu
      · iempintro)
    (fun _ c => Ē c)
    (by
      refine Pipeline.initEach L₀ lv₀ fun c => ?_
      iintro ⟨⟨-, HO, -, -, -⟩, -⟩
      imodintro
      iexists ∅; iexact HO)
    (fun _ => .rfl)
    (reg0 $D $m $Rg).1 (reg0 $D $m $Rg).2.1 (reg0 $D $m $Rg).2.2
    (reg1 $D $m $Rg).1 (reg1 $D $m $Rg).2.1 (reg1 $D $m $Rg).2.2
    (reg2 $D $m $Rg).1 (reg2 $D $m $Rg).2.1 (reg2 $D $m $Rg).2.2
    (reg3 $D $m $Rg).1 (reg3 $D $m $Rg).2.1 (reg3 $D $m $Rg).2.2
    (reg4 $D $m $Rg).1 (reg4 $D $m $Rg).2.1 (reg4 $D $m $Rg).2.2
    (reg5 $D $m $Rg).1 (reg5 $D $m $Rg).2.1 (reg5 $D $m $Rg).2.2
    (reg6 $D $m $Rg).1 (reg6 $D $m $Rg).2.1 (reg6 $D $m $Rg).2.2
    (reg7 $D $m $Rg).1 (reg7 $D $m $Rg).2.1 (reg7 $D $m $Rg).2.2
    (reg8 $D $m $Rg).1 (reg8 $D $m $Rg).2.1 (reg8 $D $m $Rg).2.2
    (reg9 $D $m $Rg).1 (reg9 $D $m $Rg).2.1 (reg9 $D $m $Rg).2.2
    (reg10 $D $m $Rg).1 (reg10 $D $m $Rg).2.1 (reg10 $D $m $Rg).2.2
    (reg11 $D $m $Rg).1 (reg11 $D $m $Rg).2.1 (reg11 $D $m $Rg).2.2
    (reg12 $D $m $Rg).1 (reg12 $D $m $Rg).2.1 (reg12 $D $m $Rg).2.2
    (reg13 $D $m $Rg).1 (reg13 $D $m $Rg).2.1 (reg13 $D $m $Rg).2.2
    (reg14 $D $m $Rg).1 (reg14 $D $m $Rg).2.1 (reg14 $D $m $Rg).2.2
    (reg15 $D $m $Rg).1 (reg15 $D $m $Rg).2.1 (reg15 $D $m $Rg).2.2
    (reg16 $D $m $Rg).1 (reg16 $D $m $Rg).2.1 (reg16 $D $m $Rg).2.2)

-- the library's region theorems find their implicit arguments by unifying their conclusions with these, which takes unfolding
-- plain definitions in a metavariable's type
include D Rg in
set_option maxHeartbeats 1000000 in
set_option backward.isDefEq.respectTransparency.types false in
/-- THE FRAME, from the regions' records: at the compiled mesh, from any memory with zero counters, every weakly fair
    execution of @main terminates and every final memory holds each argument array as launched. -/
theorem frame_of (ρ : Dev nD → PrngReg) :
    θ_run defs (onTc (τ := τ) (main (F := F))) ⟨m, fun _ => 0, ρ⟩ (fun r => ∀ c : Dev nD, argsKept m c r.2) :=
  regionArgs% GenP.frame_cond D Rg m ρ

include Rg in
set_option maxHeartbeats 1000000 in
set_option backward.isDefEq.respectTransparency.types false in
/-- THE RUN WITH ITS RESULT NAMED, from the regions' records: moreover the result array holds what the last region
    leaves in it, `outs D m 104 main_v184 c` — by `outs_R16`, what that region's data compute over the valuation it is
    entered at. -/
theorem run_of (ρ : Dev nD → PrngReg) :
    θ_run defs (onTc (τ := τ) (main (F := F))) ⟨m, fun _ => 0, ρ⟩ (fun r => ∀ c : Dev nD,
      r.2.mem ((c.tc : Thread nD τ).loc main_v184) = outs D m 104 main_v184 c ∧ argsKept m c r.2) :=
  regionArgs% RunValue.run_cond D Rg m ρ

end Cert.KernelIdeal.AssemblyKit

end
-- ==== Proof.KI.Region0.lean ====
/-
  REGION 0 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.KernelIdeal.Region0

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 4
abbrev kl : ℕ := 3
/-- The output array, and the region's place among the program's pipelines. -/
abbrev vOUT : Ref sig .tc := main_v50
abbrev RK : Fin 17 := 0

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid0.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid0.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k0_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k0_pay2 X0 X1 (k0_pay1 (F := F)))) -∗ Q ⟨⟩))
    ⊢ wp frame (wpE (defs₀ (F := F)) 𝒱₀ c none) E (cc0__mm_kernel i M0 h0 M1 h1 M2 h2 M3 h3 M4 h4 M5 h5 Ms hs) Q := by
  iintro ⟨H0, H1, H2, H3, H4, H5, Hs, Hk⟩
  simp only [cc0__mm_kernel_eq_skeleton]; unfold cc0__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid0.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k0_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k0_pay2 X0 X1 Xs)) -∗ Q ⟨⟩))
    ⊢ wp frame (wpE (defs₀ (F := F)) 𝒱₀ c none) E (cc0__mm_kernel i M0 h0 M1 h1 M2 h2 M3 h3 M4 h4 M5 h5 Ms hs) Q := by
  iintro ⟨H0, H1, H2, H3, H4, H5, Hs, Hk⟩
  simp only [cc0__mm_kernel_eq_skeleton]; unfold cc0__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid0.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k0_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k0_pay3 (k0_pay2 X0 X1 Xs) X3 X4) ∗ pt c Ms (k0_pay2 X0 X1 Xs)) -∗ Q ⟨⟩))
    ⊢ wp frame (wpE (defs₀ (F := F)) 𝒱₀ c none) E (cc0__mm_kernel i M0 h0 M1 h1 M2 h2 M3 h3 M4 h4 M5 h5 Ms hs) Q := by
  iintro ⟨H0, H1, H2, H3, H4, H5, Hs, Hk⟩
  simp only [cc0__mm_kernel_eq_skeleton]; unfold cc0__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid0.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k0_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k0_pay3 (k0_pay2 X0 X1 (k0_pay1 (F := F))) X3 X4) ∗ pt c Ms (k0_pay2 X0 X1 (k0_pay1 (F := F)))) -∗ Q ⟨⟩))
    ⊢ wp frame (wpE (defs₀ (F := F)) 𝒱₀ c none) E (cc0__mm_kernel i M0 h0 M1 h1 M2 h2 M3 h3 M4 h4 M5 h5 Ms hs) Q := by
  iintro ⟨H0, H1, H2, H3, H4, H5, Hs, Hk⟩
  simp only [cc0__mm_kernel_eq_skeleton]; unfold cc0__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid0.Coords) (X0 : SA.Idx → Elt F .bf16) (X1 : SB.Idx → Elt F .bf16) (Xs : SO.Idx → Elt F .f32) :
    SO.Idx → Elt F .f32 :=
  k0_pay2 X0 X1 (if cond1 i = 1#1 then k0_pay1 (F := F) else Xs)

/-- What the output's staging buffer holds after the body at coordinates `i`. -/
abbrev outOut (i : grid0.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k0_cond2 i = 1#1 then k0_pay3 (accOut i X0 X1 Xs) X3 X4 else X5

/-- The kernel body at any coordinates: the four runs, by cases on its two conditions; the contents it leaves named by
    the caller (`A'`, `O'`). -/
theorem kernelRun (𝒱₀ : Variants) (c : Dev nD) (i : grid0.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc0__mm_kernel i M0 h0 M1 h1 M2 h2 M3 h3 M4 h4 M5 h5 Ms hs) Q := by
  subst hA hO
  unfold outOut accOut
  by_cases hc1 : cond1 i = 1#1 <;> by_cases hc2 : k0_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid0.N, cond1 (grid0.coords t) = 1#1 ↔ t.val % nk = 0 := by decide +kernel
theorem cond2_iff : ∀ t : Fin grid0.N, k0_cond2 (grid0.coords t) = 1#1 ↔ t.val % nk = kl := by decide +kernel

variable (V Vp : Dev nD → Valuation τ sig (Elt F))

/-- The windowed arrays at the region's entry. -/
abbrev A0 (c : Dev nD) (w : Fin cfg0.W) : Buf (Elt F) ((cfg0.win w).arr.view.loc (c : Thread nD τ)) := V c (Pipeline.arrRef spec0 w)

/-- What an input window's staging buffer holds when the body runs at point `t`: the window's block of its array there. -/
def inBlk (c : Dev nD) (w : Fin cfg0.W) (t : Fin cfg0.N) : (cfg0.win w).block.Idx → Elt F (cfg0.win w).elt :=
  (cfg0.win w).fill (cfg0.grid.coords t) (fun _ => Classical.arbitrary _) (((cfg0.win w).blk t).view.read (Elt F) (A0 V c w))

/-- The accumulator AFTER point `n`: the product of the point's two blocks added to zero at the first point of a reduction
    run (`n % nk = 0`), to what the point before left elsewhere. -/
def acc (c : Dev nD) : (n : ℕ) → n < cfg0.N → SO.Idx → Elt F .f32
  | 0, h => k0_pay2 (inBlk V c 0 ⟨0, h⟩) (inBlk V c 1 ⟨0, h⟩) (k0_pay1 (F := F))
  | n + 1, h => k0_pay2 (inBlk V c 0 ⟨n + 1, h⟩) (inBlk V c 1 ⟨n + 1, h⟩)
      (if (n + 1) % nk = 0 then k0_pay1 (F := F) else acc c n (Nat.lt_of_succ_lt h))

/-- The invariant before point `n`: the scratch accumulator at what the point before left (nothing is said where the
    body resets it), and every other scoped buffer the pipeline does not stage at something. -/
def Φ0 (c : Dev nD) (n : Fin (cfg0.N + 1)) : sProp 𝕄 :=
  iprop((∃ X : SO.Idx → Elt F .f32, ⌜∀ h : n.val - 1 < cfg0.N, n.val % nk ≠ 0 → X = acc V c (n.val - 1) h⌝ ∗ pt c (Memref.whole cc0_scratch0) X)
    ∗ Pipeline.scopedRestBut (Ix := Ix) (Name := ℕ) (U := U) (Lvl := Lvl) (Val := Elt F) spec0 c [cc0_scratch0])

/-- The proof data on core `c`, from the entry valuation `V`. -/
def dat (c : Dev nD) : Pipeline.Dat τ (Elt F) Ix ℕ U Lvl cfg0 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k0_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg0.W) (hw : (cfg0.win w).isOut = false) (hlive : ∀ i, cfg0.idle w i = false)
    (hclip : ∀ (i : cfg0.grid.Coords) a, (cfg0.win w).clip i a = none)
    (hafter : ∀ t, (dat' V c).after w t = inBlk V c w t)
    (t : Fin cfg0.N) (d : (cfg0.win w).block.Idx → Elt F (cfg0.win w).elt) :
    (dat' V c).before w t d = inBlk V c w t := by
  rw [(dat V c).before_in_eq_fetched w hw hlive (fun t t' _ => funext fun a => (hclip _ a).trans (hclip _ a).symm)
    (fun t => by rw [hafter]; exact (cfg0.win w).cut_fill _ _ _) t d,
    (dat V c).fetched_of_clip_none w t (hclip _) d (fun _ => Classical.arbitrary _)]
  rfl

theorem before0 (c : Dev nD) (t : Fin cfg0.N) (d) : (dat' V c).before 0 t d = inBlk V c 0 t :=
  before_in V c 0 rfl (fun _ => rfl) (fun _ _ => rfl) (fun _ => rfl) t d
theorem before1 (c : Dev nD) (t : Fin cfg0.N) (d) : (dat' V c).before 1 t d = inBlk V c 1 t :=
  before_in V c 1 rfl (fun _ => rfl) (fun _ _ => rfl) (fun _ => rfl) t d
theorem before2 (c : Dev nD) (t : Fin cfg0.N) (d) : (dat' V c).before 2 t d = inBlk V c 2 t :=
  before_in V c 2 rfl (fun _ => rfl) (fun _ _ => rfl) (fun _ => rfl) t d
theorem before3 (c : Dev nD) (t : Fin cfg0.N) (d) : (dat' V c).before 3 t d = inBlk V c 3 t :=
  before_in V c 3 rfl (fun _ => rfl) (fun _ _ => rfl) (fun _ => rfl) t d
theorem before4 (c : Dev nD) (t : Fin cfg0.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg0.N) (Xs : SO.Idx → Elt F .f32)
    (hXs : ∀ h : t.val - 1 < cfg0.N, t.val % nk ≠ 0 → Xs = acc V c (t.val - 1) h) :
    accOut (grid0.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k0_pay2 _ _ (if (n + 1) % nk = 0 then _ else _)
      rw [if_pos hm]
    · rw [if_neg (fun h => hm ((cond1_iff ⟨n + 1, hn⟩).mp h)), hXs (Nat.lt_of_succ_lt hn) hm]
      show _ = k0_pay2 _ _ (if (n + 1) % nk = 0 then _ else _)
      rw [if_neg hm]
      rfl

/-- The output window is idle exactly where the second condition fails, and written back exactly where it holds. -/
theorem idle5_of (t : Fin cfg0.N) (h : k0_cond2 (grid0.coords t) = 1#1) : cfg0.idle 5 (cfg0.grid.coords t) = false := by
  show (!(k0_cond2 (grid0.coords t) == 1#1)) = false
  rw [h]; rfl
theorem idle5_of_not (t : Fin cfg0.N) (h : ¬ k0_cond2 (grid0.coords t) = 1#1) : cfg0.idle 5 (cfg0.grid.coords t) = true := by
  show (!(k0_cond2 (grid0.coords t) == 1#1)) = true
  rw [Bool.not_eq_true', beq_eq_false_iff_ne]; exact h
theorem flush5_of_not (t : Fin cfg0.N) (h : ¬ k0_cond2 (grid0.coords t) = 1#1) : (cfg0.win 5).flush t = false :=
  Bool.eq_false_iff.mpr fun hf => h ((cond2_iff t).mpr ((flush0_5 t).mp hf))

theorem idleIn0 (i : cfg0.grid.Coords) : cfg0.idle 0 i = false := rfl
theorem idleIn1 (i : cfg0.grid.Coords) : cfg0.idle 1 i = false := rfl
theorem idleIn2 (i : cfg0.grid.Coords) : cfg0.idle 2 i = false := rfl
theorem idleIn3 (i : cfg0.grid.Coords) : cfg0.idle 3 i = false := rfl
theorem idleIn4 (i : cfg0.grid.Coords) : cfg0.idle 4 i = false := rfl
theorem after0 (c : Dev nD) (t : Fin cfg0.N) : (dat' V c).after 0 t = inBlk V c 0 t := rfl
theorem after1 (c : Dev nD) (t : Fin cfg0.N) : (dat' V c).after 1 t = inBlk V c 1 t := rfl
theorem after2 (c : Dev nD) (t : Fin cfg0.N) : (dat' V c).after 2 t = inBlk V c 2 t := rfl
theorem after3 (c : Dev nD) (t : Fin cfg0.N) : (dat' V c).after 3 t = inBlk V c 3 t := rfl
theorem after4 (c : Dev nD) (t : Fin cfg0.N) : (dat' V c).after 4 t = inBlk V c 4 t := rfl
theorem after5 (c : Dev nD) (t : Fin cfg0.N) :
    (dat' V c).after 5 t = k0_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W0, bigSep_W0]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k0_cond2 (grid0.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid0.coords t) (inBlk V c 0 t) (inBlk V c 1 t) (inBlk V c 3 t) (inBlk V c 4 t) ((dat' V c).before 5 t d5) Xs
        = k0_pay3 (acc V c t.val t.isLt) (inBlk V c 3 t) (inBlk V c 4 t) := by
      unfold outOut; rw [if_pos hc2, acc_step V c t Xs hXs]
    iapply (kernelRun 𝒱₀ c (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (Memref.whole cc0_scratch0) (Memref.isWhole_whole _)
      (inBlk V c 0 t) (inBlk V c 1 t) (inBlk V c 2 t) (inBlk V c 3 t)
      (inBlk V c 4 t) ((dat' V c).before 5 t d5) Xs (acc V c t.val t.isLt) (k0_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid0.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid0.coords t)
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (Memref.whole cc0_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc0_scratch0) X : sProp 𝕄)
      = iprop(∃ f : Buf (Elt F) ((c : Thread nD τ).loc cc0_scratch0), ⌜f = X⌝ ∗ (((c : Thread nD τ).loc cc0_scratch0) ↦{fullShare} f)) :=
  (owns_eq_rep (c : Thread nD τ) (Memref.whole cc0_scratch0) fullShare X).symm.trans (owns_whole_eq (c : Thread nD τ) cc0_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec0 c) ⊢ Φ0 V c 0 := by
  rw [scopedRest0_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg0.N) ⊢ iprop(BI.emp ∗ BI.emp ∗ Pipeline.scopedRest (Ix := Ix) (Name := ℕ) (U := U) (Lvl := Lvl) (Val := Elt F) spec0 c) := by
  rw [scopedRest0_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg0.W) (hw : w ≠ 5) : (cfg0.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg0.N) (hne : ∀ c (b : Ref sig .tc), b ≠ vOUT → Vp c b = V c b) :
    Pipeline.RegionSeg (pcfgs (F := F)) adm pd ι defs₀ 𝒱₀ L lv RK where
  win := launch0.win.to₀
  block_pos := launch0.block_pos
  stage_whole := launch0.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec0 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch0.win launch0.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch0.win
      launch0.arr_whole c pd ((pd RK c).share_full fun _ => by rw [hpd c]; rfl) (fun b => V c b) (fun b => Vp c b)
      ((pd RK c).arrAt · cfg0.N)
      (fun w => by
        rw [hpd c]
        by_cases hw : w = 5
        · subst hw; exact (hout c).symm
        · exact ((dat' V c).arrAt_in w (isOut_of_ne w hw) _).trans
            (hne c _ fun h => hw (launch0.win.arr_inj (h.trans (rfl : vOUT = Pipeline.arrRef spec0 5)))).symm)
      (fun b hb => hne c b fun h => hb (Finset.mem_image.mpr ⟨5, Finset.mem_univ _, (rfl : Pipeline.arrRef spec0 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Region0
end
-- ==== Proof.KI.Region1.lean ====
/-
  REGION 1 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.KernelIdeal.Region1

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 4
abbrev kl : ℕ := 3
/-- The output array, and the region's place among the program's pipelines. -/
abbrev vOUT : Ref sig .tc := main_v59
abbrev RK : Fin 17 := 1

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid1.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid1.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k1_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k1_pay2 X0 X1 (k1_pay1 (F := F)))) -∗ Q ⟨⟩))
    ⊢ wp frame (wpE (defs₀ (F := F)) 𝒱₀ c none) E (cc1__mm_kernel i M0 h0 M1 h1 M2 h2 M3 h3 M4 h4 M5 h5 Ms hs) Q := by
  iintro ⟨H0, H1, H2, H3, H4, H5, Hs, Hk⟩
  simp only [cc1__mm_kernel_eq_skeleton]; unfold cc1__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid1.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k1_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k1_pay2 X0 X1 Xs)) -∗ Q ⟨⟩))
    ⊢ wp frame (wpE (defs₀ (F := F)) 𝒱₀ c none) E (cc1__mm_kernel i M0 h0 M1 h1 M2 h2 M3 h3 M4 h4 M5 h5 Ms hs) Q := by
  iintro ⟨H0, H1, H2, H3, H4, H5, Hs, Hk⟩
  simp only [cc1__mm_kernel_eq_skeleton]; unfold cc1__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid1.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k1_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k1_pay3 (k1_pay2 X0 X1 Xs) X3 X4) ∗ pt c Ms (k1_pay2 X0 X1 Xs)) -∗ Q ⟨⟩))
    ⊢ wp frame (wpE (defs₀ (F := F)) 𝒱₀ c none) E (cc1__mm_kernel i M0 h0 M1 h1 M2 h2 M3 h3 M4 h4 M5 h5 Ms hs) Q := by
  iintro ⟨H0, H1, H2, H3, H4, H5, Hs, Hk⟩
  simp only [cc1__mm_kernel_eq_skeleton]; unfold cc1__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid1.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k1_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k1_pay3 (k1_pay2 X0 X1 (k1_pay1 (F := F))) X3 X4) ∗ pt c Ms (k1_pay2 X0 X1 (k1_pay1 (F := F)))) -∗ Q ⟨⟩))
    ⊢ wp frame (wpE (defs₀ (F := F)) 𝒱₀ c none) E (cc1__mm_kernel i M0 h0 M1 h1 M2 h2 M3 h3 M4 h4 M5 h5 Ms hs) Q := by
  iintro ⟨H0, H1, H2, H3, H4, H5, Hs, Hk⟩
  simp only [cc1__mm_kernel_eq_skeleton]; unfold cc1__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid1.Coords) (X0 : SA.Idx → Elt F .bf16) (X1 : SB.Idx → Elt F .bf16) (Xs : SO.Idx → Elt F .f32) :
    SO.Idx → Elt F .f32 :=
  k1_pay2 X0 X1 (if cond1 i = 1#1 then k1_pay1 (F := F) else Xs)

/-- What the output's staging buffer holds after the body at coordinates `i`. -/
abbrev outOut (i : grid1.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k1_cond2 i = 1#1 then k1_pay3 (accOut i X0 X1 Xs) X3 X4 else X5

/-- The kernel body at any coordinates: the four runs, by cases on its two conditions; the contents it leaves named by
    the caller (`A'`, `O'`). -/
theorem kernelRun (𝒱₀ : Variants) (c : Dev nD) (i : grid1.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc1__mm_kernel i M0 h0 M1 h1 M2 h2 M3 h3 M4 h4 M5 h5 Ms hs) Q := by
  subst hA hO
  unfold outOut accOut
  by_cases hc1 : cond1 i = 1#1 <;> by_cases hc2 : k1_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid1.N, cond1 (grid1.coords t) = 1#1 ↔ t.val % nk = 0 := by decide +kernel
theorem cond2_iff : ∀ t : Fin grid1.N, k1_cond2 (grid1.coords t) = 1#1 ↔ t.val % nk = kl := by decide +kernel

variable (V Vp : Dev nD → Valuation τ sig (Elt F))

/-- The windowed arrays at the region's entry. -/
abbrev A0 (c : Dev nD) (w : Fin cfg1.W) : Buf (Elt F) ((cfg1.win w).arr.view.loc (c : Thread nD τ)) := V c (Pipeline.arrRef spec1 w)

/-- What an input window's staging buffer holds when the body runs at point `t`: the window's block of its array there. -/
def inBlk (c : Dev nD) (w : Fin cfg1.W) (t : Fin cfg1.N) : (cfg1.win w).block.Idx → Elt F (cfg1.win w).elt :=
  (cfg1.win w).fill (cfg1.grid.coords t) (fun _ => Classical.arbitrary _) (((cfg1.win w).blk t).view.read (Elt F) (A0 V c w))

/-- The accumulator AFTER point `n`: the product of the point's two blocks added to zero at the first point of a reduction
    run (`n % nk = 0`), to what the point before left elsewhere. -/
def acc (c : Dev nD) : (n : ℕ) → n < cfg1.N → SO.Idx → Elt F .f32
  | 0, h => k1_pay2 (inBlk V c 0 ⟨0, h⟩) (inBlk V c 1 ⟨0, h⟩) (k1_pay1 (F := F))
  | n + 1, h => k1_pay2 (inBlk V c 0 ⟨n + 1, h⟩) (inBlk V c 1 ⟨n + 1, h⟩)
      (if (n + 1) % nk = 0 then k1_pay1 (F := F) else acc c n (Nat.lt_of_succ_lt h))

/-- The invariant before point `n`: the scratch accumulator at what the point before left (nothing is said where the
    body resets it), and every other scoped buffer the pipeline does not stage at something. -/
def Φ0 (c : Dev nD) (n : Fin (cfg1.N + 1)) : sProp 𝕄 :=
  iprop((∃ X : SO.Idx → Elt F .f32, ⌜∀ h : n.val - 1 < cfg1.N, n.val % nk ≠ 0 → X = acc V c (n.val - 1) h⌝ ∗ pt c (Memref.whole cc1_scratch0) X)
    ∗ Pipeline.scopedRestBut (Ix := Ix) (Name := ℕ) (U := U) (Lvl := Lvl) (Val := Elt F) spec1 c [cc1_scratch0])

/-- The proof data on core `c`, from the entry valuation `V`. -/
def dat (c : Dev nD) : Pipeline.Dat τ (Elt F) Ix ℕ U Lvl cfg1 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k1_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg1.W) (hw : (cfg1.win w).isOut = false) (hlive : ∀ i, cfg1.idle w i = false)
    (hclip : ∀ (i : cfg1.grid.Coords) a, (cfg1.win w).clip i a = none)
    (hafter : ∀ t, (dat' V c).after w t = inBlk V c w t)
    (t : Fin cfg1.N) (d : (cfg1.win w).block.Idx → Elt F (cfg1.win w).elt) :
    (dat' V c).before w t d = inBlk V c w t := by
  rw [(dat V c).before_in_eq_fetched w hw hlive (fun t t' _ => funext fun a => (hclip _ a).trans (hclip _ a).symm)
    (fun t => by rw [hafter]; exact (cfg1.win w).cut_fill _ _ _) t d,
    (dat V c).fetched_of_clip_none w t (hclip _) d (fun _ => Classical.arbitrary _)]
  rfl

theorem before0 (c : Dev nD) (t : Fin cfg1.N) (d) : (dat' V c).before 0 t d = inBlk V c 0 t :=
  before_in V c 0 rfl (fun _ => rfl) (fun _ _ => rfl) (fun _ => rfl) t d
theorem before1 (c : Dev nD) (t : Fin cfg1.N) (d) : (dat' V c).before 1 t d = inBlk V c 1 t :=
  before_in V c 1 rfl (fun _ => rfl) (fun _ _ => rfl) (fun _ => rfl) t d
theorem before2 (c : Dev nD) (t : Fin cfg1.N) (d) : (dat' V c).before 2 t d = inBlk V c 2 t :=
  before_in V c 2 rfl (fun _ => rfl) (fun _ _ => rfl) (fun _ => rfl) t d
theorem before3 (c : Dev nD) (t : Fin cfg1.N) (d) : (dat' V c).before 3 t d = inBlk V c 3 t :=
  before_in V c 3 rfl (fun _ => rfl) (fun _ _ => rfl) (fun _ => rfl) t d
theorem before4 (c : Dev nD) (t : Fin cfg1.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg1.N) (Xs : SO.Idx → Elt F .f32)
    (hXs : ∀ h : t.val - 1 < cfg1.N, t.val % nk ≠ 0 → Xs = acc V c (t.val - 1) h) :
    accOut (grid1.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k1_pay2 _ _ (if (n + 1) % nk = 0 then _ else _)
      rw [if_pos hm]
    · rw [if_neg (fun h => hm ((cond1_iff ⟨n + 1, hn⟩).mp h)), hXs (Nat.lt_of_succ_lt hn) hm]
      show _ = k1_pay2 _ _ (if (n + 1) % nk = 0 then _ else _)
      rw [if_neg hm]
      rfl

/-- The output window is idle exactly where the second condition fails, and written back exactly where it holds. -/
theorem idle5_of (t : Fin cfg1.N) (h : k1_cond2 (grid1.coords t) = 1#1) : cfg1.idle 5 (cfg1.grid.coords t) = false := by
  show (!(k1_cond2 (grid1.coords t) == 1#1)) = false
  rw [h]; rfl
theorem idle5_of_not (t : Fin cfg1.N) (h : ¬ k1_cond2 (grid1.coords t) = 1#1) : cfg1.idle 5 (cfg1.grid.coords t) = true := by
  show (!(k1_cond2 (grid1.coords t) == 1#1)) = true
  rw [Bool.not_eq_true', beq_eq_false_iff_ne]; exact h
theorem flush5_of_not (t : Fin cfg1.N) (h : ¬ k1_cond2 (grid1.coords t) = 1#1) : (cfg1.win 5).flush t = false :=
  Bool.eq_false_iff.mpr fun hf => h ((cond2_iff t).mpr ((flush1_5 t).mp hf))

theorem idleIn0 (i : cfg1.grid.Coords) : cfg1.idle 0 i = false := rfl
theorem idleIn1 (i : cfg1.grid.Coords) : cfg1.idle 1 i = false := rfl
theorem idleIn2 (i : cfg1.grid.Coords) : cfg1.idle 2 i = false := rfl
theorem idleIn3 (i : cfg1.grid.Coords) : cfg1.idle 3 i = false := rfl
theorem idleIn4 (i : cfg1.grid.Coords) : cfg1.idle 4 i = false := rfl
theorem after0 (c : Dev nD) (t : Fin cfg1.N) : (dat' V c).after 0 t = inBlk V c 0 t := rfl
theorem after1 (c : Dev nD) (t : Fin cfg1.N) : (dat' V c).after 1 t = inBlk V c 1 t := rfl
theorem after2 (c : Dev nD) (t : Fin cfg1.N) : (dat' V c).after 2 t = inBlk V c 2 t := rfl
theorem after3 (c : Dev nD) (t : Fin cfg1.N) : (dat' V c).after 3 t = inBlk V c 3 t := rfl
theorem after4 (c : Dev nD) (t : Fin cfg1.N) : (dat' V c).after 4 t = inBlk V c 4 t := rfl
theorem after5 (c : Dev nD) (t : Fin cfg1.N) :
    (dat' V c).after 5 t = k1_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W1, bigSep_W1]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k1_cond2 (grid1.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid1.coords t) (inBlk V c 0 t) (inBlk V c 1 t) (inBlk V c 3 t) (inBlk V c 4 t) ((dat' V c).before 5 t d5) Xs
        = k1_pay3 (acc V c t.val t.isLt) (inBlk V c 3 t) (inBlk V c 4 t) := by
      unfold outOut; rw [if_pos hc2, acc_step V c t Xs hXs]
    iapply (kernelRun 𝒱₀ c (grid1.coords t)
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _)
      (inBlk V c 0 t) (inBlk V c 1 t) (inBlk V c 2 t) (inBlk V c 3 t)
      (inBlk V c 4 t) ((dat' V c).before 5 t d5) Xs (acc V c t.val t.isLt) (k1_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid1.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid1.coords t)
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc1_scratch0) X : sProp 𝕄)
      = iprop(∃ f : Buf (Elt F) ((c : Thread nD τ).loc cc1_scratch0), ⌜f = X⌝ ∗ (((c : Thread nD τ).loc cc1_scratch0) ↦{fullShare} f)) :=
  (owns_eq_rep (c : Thread nD τ) (Memref.whole cc1_scratch0) fullShare X).symm.trans (owns_whole_eq (c : Thread nD τ) cc1_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec1 c) ⊢ Φ0 V c 0 := by
  rw [scopedRest1_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg1.N) ⊢ iprop(BI.emp ∗ BI.emp ∗ Pipeline.scopedRest (Ix := Ix) (Name := ℕ) (U := U) (Lvl := Lvl) (Val := Elt F) spec1 c) := by
  rw [scopedRest1_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg1.W) (hw : w ≠ 5) : (cfg1.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg1.N) (hne : ∀ c (b : Ref sig .tc), b ≠ vOUT → Vp c b = V c b) :
    Pipeline.RegionSeg (pcfgs (F := F)) adm pd ι defs₀ 𝒱₀ L lv RK where
  win := launch1.win.to₀
  block_pos := launch1.block_pos
  stage_whole := launch1.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec1 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch1.win launch1.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch1.win
      launch1.arr_whole c pd ((pd RK c).share_full fun _ => by rw [hpd c]; rfl) (fun b => V c b) (fun b => Vp c b)
      ((pd RK c).arrAt · cfg1.N)
      (fun w => by
        rw [hpd c]
        by_cases hw : w = 5
        · subst hw; exact (hout c).symm
        · exact ((dat' V c).arrAt_in w (isOut_of_ne w hw) _).trans
            (hne c _ fun h => hw (launch1.win.arr_inj (h.trans (rfl : vOUT = Pipeline.arrRef spec1 5)))).symm)
      (fun b hb => hne c b fun h => hb (Finset.mem_image.mpr ⟨5, Finset.mem_univ _, (rfl : Pipeline.arrRef spec1 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Region1
end
-- ==== Proof.KI.Region2.lean ====
/-
  REGION 2 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.KernelIdeal.Region2

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 2
abbrev kl : ℕ := 1
/-- The output array, and the region's place among the program's pipelines. -/
abbrev vOUT : Ref sig .tc := main_v67
abbrev RK : Fin 17 := 2

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid2.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid2.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k2_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k2_pay2 X0 X1 (k2_pay1 (F := F)))) -∗ Q ⟨⟩))
    ⊢ wp frame (wpE (defs₀ (F := F)) 𝒱₀ c none) E (cc2__mm_kernel i M0 h0 M1 h1 M2 h2 M3 h3 M4 h4 M5 h5 Ms hs) Q := by
  iintro ⟨H0, H1, H2, H3, H4, H5, Hs, Hk⟩
  simp only [cc2__mm_kernel_eq_skeleton]; unfold cc2__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid2.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k2_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k2_pay2 X0 X1 Xs)) -∗ Q ⟨⟩))
    ⊢ wp frame (wpE (defs₀ (F := F)) 𝒱₀ c none) E (cc2__mm_kernel i M0 h0 M1 h1 M2 h2 M3 h3 M4 h4 M5 h5 Ms hs) Q := by
  iintro ⟨H0, H1, H2, H3, H4, H5, Hs, Hk⟩
  simp only [cc2__mm_kernel_eq_skeleton]; unfold cc2__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid2.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k2_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k2_pay3 (k2_pay2 X0 X1 Xs) X3 X4) ∗ pt c Ms (k2_pay2 X0 X1 Xs)) -∗ Q ⟨⟩))
    ⊢ wp frame (wpE (defs₀ (F := F)) 𝒱₀ c none) E (cc2__mm_kernel i M0 h0 M1 h1 M2 h2 M3 h3 M4 h4 M5 h5 Ms hs) Q := by
  iintro ⟨H0, H1, H2, H3, H4, H5, Hs, Hk⟩
  simp only [cc2__mm_kernel_eq_skeleton]; unfold cc2__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid2.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k2_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k2_pay3 (k2_pay2 X0 X1 (k2_pay1 (F := F))) X3 X4) ∗ pt c Ms (k2_pay2 X0 X1 (k2_pay1 (F := F)))) -∗ Q ⟨⟩))
    ⊢ wp frame (wpE (defs₀ (F := F)) 𝒱₀ c none) E (cc2__mm_kernel i M0 h0 M1 h1 M2 h2 M3 h3 M4 h4 M5 h5 Ms hs) Q := by
  iintro ⟨H0, H1, H2, H3, H4, H5, Hs, Hk⟩
  simp only [cc2__mm_kernel_eq_skeleton]; unfold cc2__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid2.Coords) (X0 : SA.Idx → Elt F .bf16) (X1 : SB.Idx → Elt F .bf16) (Xs : SO.Idx → Elt F .f32) :
    SO.Idx → Elt F .f32 :=
  k2_pay2 X0 X1 (if cond1 i = 1#1 then k2_pay1 (F := F) else Xs)

/-- What the output's staging buffer holds after the body at coordinates `i`. -/
abbrev outOut (i : grid2.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k2_cond2 i = 1#1 then k2_pay3 (accOut i X0 X1 Xs) X3 X4 else X5

/-- The kernel body at any coordinates: the four runs, by cases on its two conditions; the contents it leaves named by
    the caller (`A'`, `O'`). -/
theorem kernelRun (𝒱₀ : Variants) (c : Dev nD) (i : grid2.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc2__mm_kernel i M0 h0 M1 h1 M2 h2 M3 h3 M4 h4 M5 h5 Ms hs) Q := by
  subst hA hO
  unfold outOut accOut
  by_cases hc1 : cond1 i = 1#1 <;> by_cases hc2 : k2_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid2.N, cond1 (grid2.coords t) = 1#1 ↔ t.val % nk = 0 := by decide +kernel
theorem cond2_iff : ∀ t : Fin grid2.N, k2_cond2 (grid2.coords t) = 1#1 ↔ t.val % nk = kl := by decide +kernel

variable (V Vp : Dev nD → Valuation τ sig (Elt F))

/-- The windowed arrays at the region's entry. -/
abbrev A0 (c : Dev nD) (w : Fin cfg2.W) : Buf (Elt F) ((cfg2.win w).arr.view.loc (c : Thread nD τ)) := V c (Pipeline.arrRef spec2 w)

/-- What an input window's staging buffer holds when the body runs at point `t`: the window's block of its array there. -/
def inBlk (c : Dev nD) (w : Fin cfg2.W) (t : Fin cfg2.N) : (cfg2.win w).block.Idx → Elt F (cfg2.win w).elt :=
  (cfg2.win w).fill (cfg2.grid.coords t) (fun _ => Classical.arbitrary _) (((cfg2.win w).blk t).view.read (Elt F) (A0 V c w))

/-- The accumulator AFTER point `n`: the product of the point's two blocks added to zero at the first point of a reduction
    run (`n % nk = 0`), to what the point before left elsewhere. -/
def acc (c : Dev nD) : (n : ℕ) → n < cfg2.N → SO.Idx → Elt F .f32
  | 0, h => k2_pay2 (inBlk V c 0 ⟨0, h⟩) (inBlk V c 1 ⟨0, h⟩) (k2_pay1 (F := F))
  | n + 1, h => k2_pay2 (inBlk V c 0 ⟨n + 1, h⟩) (inBlk V c 1 ⟨n + 1, h⟩)
      (if (n + 1) % nk = 0 then k2_pay1 (F := F) else acc c n (Nat.lt_of_succ_lt h))

/-- The invariant before point `n`: the scratch accumulator at what the point before left (nothing is said where the
    body resets it), and every other scoped buffer the pipeline does not stage at something. -/
def Φ0 (c : Dev nD) (n : Fin (cfg2.N + 1)) : sProp 𝕄 :=
  iprop((∃ X : SO.Idx → Elt F .f32, ⌜∀ h : n.val - 1 < cfg2.N, n.val % nk ≠ 0 → X = acc V c (n.val - 1) h⌝ ∗ pt c (Memref.whole cc2_scratch0) X)
    ∗ Pipeline.scopedRestBut (Ix := Ix) (Name := ℕ) (U := U) (Lvl := Lvl) (Val := Elt F) spec2 c [cc2_scratch0])

/-- The proof data on core `c`, from the entry valuation `V`. -/
def dat (c : Dev nD) : Pipeline.Dat τ (Elt F) Ix ℕ U Lvl cfg2 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k2_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg2.W) (hw : (cfg2.win w).isOut = false) (hlive : ∀ i, cfg2.idle w i = false)
    (hclip : ∀ (i : cfg2.grid.Coords) a, (cfg2.win w).clip i a = none)
    (hafter : ∀ t, (dat' V c).after w t = inBlk V c w t)
    (t : Fin cfg2.N) (d : (cfg2.win w).block.Idx → Elt F (cfg2.win w).elt) :
    (dat' V c).before w t d = inBlk V c w t := by
  rw [(dat V c).before_in_eq_fetched w hw hlive (fun t t' _ => funext fun a => (hclip _ a).trans (hclip _ a).symm)
    (fun t => by rw [hafter]; exact (cfg2.win w).cut_fill _ _ _) t d,
    (dat V c).fetched_of_clip_none w t (hclip _) d (fun _ => Classical.arbitrary _)]
  rfl

theorem before0 (c : Dev nD) (t : Fin cfg2.N) (d) : (dat' V c).before 0 t d = inBlk V c 0 t :=
  before_in V c 0 rfl (fun _ => rfl) (fun _ _ => rfl) (fun _ => rfl) t d
theorem before1 (c : Dev nD) (t : Fin cfg2.N) (d) : (dat' V c).before 1 t d = inBlk V c 1 t :=
  before_in V c 1 rfl (fun _ => rfl) (fun _ _ => rfl) (fun _ => rfl) t d
theorem before2 (c : Dev nD) (t : Fin cfg2.N) (d) : (dat' V c).before 2 t d = inBlk V c 2 t :=
  before_in V c 2 rfl (fun _ => rfl) (fun _ _ => rfl) (fun _ => rfl) t d
theorem before3 (c : Dev nD) (t : Fin cfg2.N) (d) : (dat' V c).before 3 t d = inBlk V c 3 t :=
  before_in V c 3 rfl (fun _ => rfl) (fun _ _ => rfl) (fun _ => rfl) t d
theorem before4 (c : Dev nD) (t : Fin cfg2.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg2.N) (Xs : SO.Idx → Elt F .f32)
    (hXs : ∀ h : t.val - 1 < cfg2.N, t.val % nk ≠ 0 → Xs = acc V c (t.val - 1) h) :
    accOut (grid2.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k2_pay2 _ _ (if (n + 1) % nk = 0 then _ else _)
      rw [if_pos hm]
    · rw [if_neg (fun h => hm ((cond1_iff ⟨n + 1, hn⟩).mp h)), hXs (Nat.lt_of_succ_lt hn) hm]
      show _ = k2_pay2 _ _ (if (n + 1) % nk = 0 then _ else _)
      rw [if_neg hm]
      rfl

/-- The output window is idle exactly where the second condition fails, and written back exactly where it holds. -/
theorem idle5_of (t : Fin cfg2.N) (h : k2_cond2 (grid2.coords t) = 1#1) : cfg2.idle 5 (cfg2.grid.coords t) = false := by
  show (!(k2_cond2 (grid2.coords t) == 1#1)) = false
  rw [h]; rfl
theorem idle5_of_not (t : Fin cfg2.N) (h : ¬ k2_cond2 (grid2.coords t) = 1#1) : cfg2.idle 5 (cfg2.grid.coords t) = true := by
  show (!(k2_cond2 (grid2.coords t) == 1#1)) = true
  rw [Bool.not_eq_true', beq_eq_false_iff_ne]; exact h
theorem flush5_of_not (t : Fin cfg2.N) (h : ¬ k2_cond2 (grid2.coords t) = 1#1) : (cfg2.win 5).flush t = false :=
  Bool.eq_false_iff.mpr fun hf => h ((cond2_iff t).mpr ((flush2_5 t).mp hf))

theorem idleIn0 (i : cfg2.grid.Coords) : cfg2.idle 0 i = false := rfl
theorem idleIn1 (i : cfg2.grid.Coords) : cfg2.idle 1 i = false := rfl
theorem idleIn2 (i : cfg2.grid.Coords) : cfg2.idle 2 i = false := rfl
theorem idleIn3 (i : cfg2.grid.Coords) : cfg2.idle 3 i = false := rfl
theorem idleIn4 (i : cfg2.grid.Coords) : cfg2.idle 4 i = false := rfl
theorem after0 (c : Dev nD) (t : Fin cfg2.N) : (dat' V c).after 0 t = inBlk V c 0 t := rfl
theorem after1 (c : Dev nD) (t : Fin cfg2.N) : (dat' V c).after 1 t = inBlk V c 1 t := rfl
theorem after2 (c : Dev nD) (t : Fin cfg2.N) : (dat' V c).after 2 t = inBlk V c 2 t := rfl
theorem after3 (c : Dev nD) (t : Fin cfg2.N) : (dat' V c).after 3 t = inBlk V c 3 t := rfl
theorem after4 (c : Dev nD) (t : Fin cfg2.N) : (dat' V c).after 4 t = inBlk V c 4 t := rfl
theorem after5 (c : Dev nD) (t : Fin cfg2.N) :
    (dat' V c).after 5 t = k2_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W2, bigSep_W2]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k2_cond2 (grid2.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid2.coords t) (inBlk V c 0 t) (inBlk V c 1 t) (inBlk V c 3 t) (inBlk V c 4 t) ((dat' V c).before 5 t d5) Xs
        = k2_pay3 (acc V c t.val t.isLt) (inBlk V c 3 t) (inBlk V c 4 t) := by
      unfold outOut; rw [if_pos hc2, acc_step V c t Xs hXs]
    iapply (kernelRun 𝒱₀ c (grid2.coords t)
      (win2_0.stage (cfg2.slots t 0)) (hstage2_0 ((cfg2.slots t 0).cast nbuf2_0))
      (win2_1.stage (cfg2.slots t 1)) (hstage2_1 ((cfg2.slots t 1).cast nbuf2_1))
      (win2_2.stage (cfg2.slots t 2)) (hstage2_2 ((cfg2.slots t 2).cast nbuf2_2))
      (win2_3.stage (cfg2.slots t 3)) (hstage2_3 ((cfg2.slots t 3).cast nbuf2_3))
      (win2_4.stage (cfg2.slots t 4)) (hstage2_4 ((cfg2.slots t 4).cast nbuf2_4))
      (win2_5.stage (cfg2.slots t 5)) (hstage2_5 ((cfg2.slots t 5).cast nbuf2_5))
      (Memref.whole cc2_scratch0) (Memref.isWhole_whole _)
      (inBlk V c 0 t) (inBlk V c 1 t) (inBlk V c 2 t) (inBlk V c 3 t)
      (inBlk V c 4 t) ((dat' V c).before 5 t d5) Xs (acc V c t.val t.isLt) (k2_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid2.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid2.coords t)
      (win2_0.stage (cfg2.slots t 0)) (hstage2_0 ((cfg2.slots t 0).cast nbuf2_0))
      (win2_1.stage (cfg2.slots t 1)) (hstage2_1 ((cfg2.slots t 1).cast nbuf2_1))
      (win2_2.stage (cfg2.slots t 2)) (hstage2_2 ((cfg2.slots t 2).cast nbuf2_2))
      (win2_3.stage (cfg2.slots t 3)) (hstage2_3 ((cfg2.slots t 3).cast nbuf2_3))
      (win2_4.stage (cfg2.slots t 4)) (hstage2_4 ((cfg2.slots t 4).cast nbuf2_4))
      (win2_5.stage (cfg2.slots t 5)) (hstage2_5 ((cfg2.slots t 5).cast nbuf2_5))
      (Memref.whole cc2_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc2_scratch0) X : sProp 𝕄)
      = iprop(∃ f : Buf (Elt F) ((c : Thread nD τ).loc cc2_scratch0), ⌜f = X⌝ ∗ (((c : Thread nD τ).loc cc2_scratch0) ↦{fullShare} f)) :=
  (owns_eq_rep (c : Thread nD τ) (Memref.whole cc2_scratch0) fullShare X).symm.trans (owns_whole_eq (c : Thread nD τ) cc2_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec2 c) ⊢ Φ0 V c 0 := by
  rw [scopedRest2_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg2.N) ⊢ iprop(BI.emp ∗ BI.emp ∗ Pipeline.scopedRest (Ix := Ix) (Name := ℕ) (U := U) (Lvl := Lvl) (Val := Elt F) spec2 c) := by
  rw [scopedRest2_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg2.W) (hw : w ≠ 5) : (cfg2.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg2.N) (hne : ∀ c (b : Ref sig .tc), b ≠ vOUT → Vp c b = V c b) :
    Pipeline.RegionSeg (pcfgs (F := F)) adm pd ι defs₀ 𝒱₀ L lv RK where
  win := launch2.win.to₀
  block_pos := launch2.block_pos
  stage_whole := launch2.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec2 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch2.win launch2.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch2.win
      launch2.arr_whole c pd ((pd RK c).share_full fun _ => by rw [hpd c]; rfl) (fun b => V c b) (fun b => Vp c b)
      ((pd RK c).arrAt · cfg2.N)
      (fun w => by
        rw [hpd c]
        by_cases hw : w = 5
        · subst hw; exact (hout c).symm
        · exact ((dat' V c).arrAt_in w (isOut_of_ne w hw) _).trans
            (hne c _ fun h => hw (launch2.win.arr_inj (h.trans (rfl : vOUT = Pipeline.arrRef spec2 5)))).symm)
      (fun b hb => hne c b fun h => hb (Finset.mem_image.mpr ⟨5, Finset.mem_univ _, (rfl : Pipeline.arrRef spec2 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Region2
end
-- ==== Proof.KI.Region3.lean ====
/-
  Region 3 of @main: a matrix product on the grid (4, 1). The reduction axis has ONE tile, so at every grid point the
  body resets its accumulator, adds the point's product to it and writes the scaled, biased result to the output block:
  nothing is carried from point to point. Stated once, for any float family.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

set_option maxRecDepth 16384

noncomputable section

namespace Cert.KernelIdeal.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions: both hold at every point (the second grid coordinate is always 0) -/

/-- The condition of the first `scf.if` (reset the accumulator), from the grid coordinates. -/
abbrev cond1 (i : grid3.Coords) : Prop :=
  (Scalar.cmpi .ne (Scalar.extui (Scalar.cmpi .eq (BitVec.ofNat 32 (i 1).val) 0#32)) 0#32) = 1#1

theorem hcond1 : ∀ t : Fin cfg3.N, cond1 (grid3.coords t) :=
  (by decide +kernel : ∀ t : Fin grid3.N, cond1 (grid3.coords t))
theorem hcond2 : ∀ t : Fin cfg3.N, k3_cond2 (grid3.coords t) = 1#1 :=
  (by decide +kernel : ∀ t : Fin grid3.N, k3_cond2 (grid3.coords t) = 1#1)

/-! ## The body on any whole staging memrefs -/

theorem off0 : (![0, 0] : Fin 2 → ℕ) = fun _ => 0 := by funext a; fin_cases a <;> rfl

/-- A load of a whole buffer through the whole-shape rectangle reads its contents. -/
theorem readAt_whole {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [View.readAt_eq_ld, h.read_unread]; exact View.ld_unit_zero hz inb X

set_option maxHeartbeats 1000000 in
/-- From the two operand blocks, the row scale and the bias row in their buffers, the output buffer and the accumulator
    at anything: the body leaves the inputs as they were, the accumulator at something, and in the output buffer
    `(0 + A · B) * scale + bias`. -/
theorem kernelRun (𝒱₀ : Variants) (c : Dev nD) (i : grid3.Coords)
    (arg2 : Memref sig .tc .vmem S1024x256 .bf16) (harg2 : arg2.IsWhole) (arg3 : Memref sig .tc .vmem S256x256 .bf16) (harg3 : arg3.IsWhole)
    (arg4 : Memref sig .tc .vmem S256x1 .f32) (harg4 : arg4.IsWhole) (arg5 : Memref sig .tc .vmem S1024x1 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole) (hc1 : cond1 i) (hc2 : k3_cond2 i = 1#1)
    (xA : Vec F S1024x256 .bf16) (xB : Vec F S256x256 .bf16) (xs : Vec F S1024x1 .f32) (xb : Vec F S1x256 .f32)
    (E : Set ℕ) (K : PUnit → sProp 𝕄) :
    iprop(owns (c : Thread nD τ) arg2 fullShare xA ∗ owns (c : Thread nD τ) arg3 fullShare xB
        ∗ owns (c : Thread nD τ) arg5 fullShare xs ∗ owns (c : Thread nD τ) arg6 fullShare xb
        ∗ (∃ d, owns (c : Thread nD τ) arg7 fullShare d) ∗ (∃ d, owns (c : Thread nD τ) arg8 fullShare d)
        ∗ (iprop(owns (c : Thread nD τ) arg2 fullShare xA ∗ owns (c : Thread nD τ) arg3 fullShare xB
            ∗ owns (c : Thread nD τ) arg5 fullShare xs ∗ owns (c : Thread nD τ) arg6 fullShare xb
            ∗ owns (c : Thread nD τ) arg7 fullShare (k3_pay3 (k3_pay2 xA xB (k3_pay1 (F := F))) xs xb)
            ∗ (∃ d, owns (c : Thread nD τ) arg8 fullShare d)) -∗ K ⟨⟩))
      ⊢ wp frame (wpE (defs₀ (F := F)) 𝒱₀ c none) E (cc3__mm_kernel i arg2 harg2 arg3 harg3 arg4 harg4 arg5 harg5 arg6 harg6 arg7 harg7 arg8 harg8) K := by
  simp only [cc3__mm_kernel_eq_skeleton]; unfold cc3__mm_kernel_skel
  unfold owns
  iintro ⟨⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg2.eq_unread hf2
  obtain rfl := harg3.eq_unread hf3
  obtain rfl := harg5.eq_unread hf5
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    rw [View.read_writes_eq_canon _ _ _ (fun y => ⟨_, List.mem_singleton_self _, View.mem_set_unit_zero off0 inb_S1024x256_S1024x256_0_0 y⟩),
      View.canon_unit_zero off0, readAt_whole _ harg5 xs off0, readAt_whole _ harg6 xb off0]
    unfold kernelRun.sl.v16 kernelRun.sl.H8_2
    rw [View.readCov_cons_toLoadRect, readAt_whole _ harg2 xA off0, readAt_whole _ harg3 xB off0]
    unfold kernelRun.sl.v7 kernelRun.sl.H8_1
    rw [View.readCov_cons_toLoadRect]
  iexists _, _; isplitr; swap; · iexact H8
  ipureintro; rfl

/-! ## The proof data -/

variable (V Vp : Dev nD → Valuation τ sig (Elt F))

/-- Window `w`'s block at point `t`, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator between points: at some contents (every point resets it before reading it), beside the other scoped
    buffers, unopened. -/
def Φc (c : Dev nD) : sProp 𝕄 :=
  iprop((∃ f : Buf (Elt F) ((c : Thread nD τ).loc cc3_scratch0), ((c : Thread nD τ).loc cc3_scratch0) ↦{fullShare} f)
    ∗ Pipeline.scopedRestBut (Ix := Ix) (Name := ℕ) (U := U) (Lvl := Lvl) (Val := Elt F) spec3 c [cc3_scratch0])

/-- The proof data on core `c`: the arrays as the region finds them; after the body at point `t` each input's buffer at
    its block, the output's at `(0 + A_t · B) * scale_t + bias`; nothing owed; full shares. -/
def dat (c : Dev nD) : Dat τ (Elt F) Ix ℕ U Lvl cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k3_pay3 (k3_pay2 (blk V c 0 t) (blk V c 1 t) (k3_pay1 (F := F))) (blk V c 3 t) (blk V c 4 t)
  Φ _ := Φc c
  q _ := fullShare
  owed _ := 0

theorem A_eq (c : Dev nD) (w : Fin cfg3.W) : (dat (Ix := Ix) (U := U) (Lvl := Lvl) V c).A w = V c (Pipeline.arrRef spec3 w) := by
  dsimp only [dat]

theorem after_0 (c : Dev nD) (t : Fin cfg3.N) : (dat (Ix := Ix) (U := U) (Lvl := Lvl) V c).after 0 t = blk V c 0 t := by dsimp only [dat]
theorem after_1 (c : Dev nD) (t : Fin cfg3.N) : (dat (Ix := Ix) (U := U) (Lvl := Lvl) V c).after 1 t = blk V c 1 t := by dsimp only [dat]
theorem after_2 (c : Dev nD) (t : Fin cfg3.N) : (dat (Ix := Ix) (U := U) (Lvl := Lvl) V c).after 2 t = blk V c 2 t := by dsimp only [dat]
theorem after_3 (c : Dev nD) (t : Fin cfg3.N) : (dat (Ix := Ix) (U := U) (Lvl := Lvl) V c).after 3 t = blk V c 3 t := by dsimp only [dat]
theorem after_4 (c : Dev nD) (t : Fin cfg3.N) : (dat (Ix := Ix) (U := U) (Lvl := Lvl) V c).after 4 t = blk V c 4 t := by dsimp only [dat]
theorem after_5 (c : Dev nD) (t : Fin cfg3.N) : (dat (Ix := Ix) (U := U) (Lvl := Lvl) V c).after 5 t
    = k3_pay3 (k3_pay2 (blk V c 0 t) (blk V c 1 t) (k3_pay1 (F := F))) (blk V c 3 t) (blk V c 4 t) := by dsimp only [dat]

/-- An input window's current staging buffer holds its block at every point, fetched there or not: unfetched, the block
    index has not moved, and the body left the block in place. -/
theorem before_0 (c : Dev nD) (t : Fin cfg3.N) (d) : (dat (Ix := Ix) (U := U) (Lvl := Lvl) V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg3.N) (d) : (dat (Ix := Ix) (U := U) (Lvl := Lvl) V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg3.N) (d) : (dat (Ix := Ix) (U := U) (Lvl := Lvl) V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg3.N) (d) : (dat (Ix := Ix) (U := U) (Lvl := Lvl) V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg3.N) (d) : (dat (Ix := Ix) (U := U) (Lvl := Lvl) V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body obligation -/

/-- Each window's current staging memref at point `t`, spelled as the pipeline passes it to the body. -/
abbrev ms_0 (t : Fin cfg3.N) : Memref sig .tc .vmem S1024x256 .bf16 := win3_0.stage (cfg3.slots t 0)
abbrev ms_1 (t : Fin cfg3.N) : Memref sig .tc .vmem S256x256 .bf16 := win3_1.stage (cfg3.slots t 1)
abbrev ms_2 (t : Fin cfg3.N) : Memref sig .tc .vmem S256x1 .f32 := win3_2.stage (cfg3.slots t 2)
abbrev ms_3 (t : Fin cfg3.N) : Memref sig .tc .vmem S1024x1 .f32 := win3_3.stage (cfg3.slots t 3)
abbrev ms_4 (t : Fin cfg3.N) : Memref sig .tc .vmem S1x256 .f32 := win3_4.stage (cfg3.slots t 4)
abbrev ms_5 (t : Fin cfg3.N) : Memref sig .tc .vmem S1024x256 .f32 := win3_5.stage (cfg3.slots t 5)

/-- What the body is called with at point `t`, the windows one by one, -/
def bodyPre (ι : Ix) (c : Dev nD) (t : Fin cfg3.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms_0 t) fullShare ((dat (Ix := Ix) (U := U) (Lvl := Lvl) V c).before 0 t d))
    ∗ (∃ d, owns (c : Thread nD τ) (ms_1 t) fullShare ((dat (Ix := Ix) (U := U) (Lvl := Lvl) V c).before 1 t d))
    ∗ (∃ d, owns (c : Thread nD τ) (ms_2 t) fullShare ((dat (Ix := Ix) (U := U) (Lvl := Lvl) V c).before 2 t d))
    ∗ (∃ d, owns (c : Thread nD τ) (ms_3 t) fullShare ((dat (Ix := Ix) (U := U) (Lvl := Lvl) V c).before 3 t d))
    ∗ (∃ d, owns (c : Thread nD τ) (ms_4 t) fullShare ((dat (Ix := Ix) (U := U) (Lvl := Lvl) V c).before 4 t d))
    ∗ (∃ d, owns (c : Thread nD τ) (ms_5 t) fullShare ((dat (Ix := Ix) (U := U) (Lvl := Lvl) V c).before 5 t d)))

/-- and what it returns. -/
def bodyPost (ι : Ix) (c : Dev nD) (t : Fin cfg3.N) : sProp 𝕄 :=
  iprop((dat (Ix := Ix) (U := U) (Lvl := Lvl) V c).Φ t.succ ∗ (dat (Ix := Ix) (U := U) (Lvl := Lvl) V c).owesAt ι t.succ
    ∗ owns (c : Thread nD τ) (ms_0 t) fullShare ((dat (Ix := Ix) (U := U) (Lvl := Lvl) V c).after 0 t)
    ∗ owns (c : Thread nD τ) (ms_1 t) fullShare ((dat (Ix := Ix) (U := U) (Lvl := Lvl) V c).after 1 t)
    ∗ owns (c : Thread nD τ) (ms_2 t) fullShare ((dat (Ix := Ix) (U := U) (Lvl := Lvl) V c).after 2 t)
    ∗ owns (c : Thread nD τ) (ms_3 t) fullShare ((dat (Ix := Ix) (U := U) (Lvl := Lvl) V c).after 3 t)
    ∗ owns (c : Thread nD τ) (ms_4 t) fullShare ((dat (Ix := Ix) (U := U) (Lvl := Lvl) V c).after 4 t)
    ∗ owns (c : Thread nD τ) (ms_5 t) fullShare ((dat (Ix := Ix) (U := U) (Lvl := Lvl) V c).after 5 t))

set_option maxHeartbeats 800000 in
/-- The body at any point: the inputs' buffers hold their blocks, both conditions hold, so the run applies; the
    accumulator is handed over at anything and taken back at anything; the core owes nothing throughout. -/
theorem sound_body (ι : Ix) (𝒱₀ : Variants) (c : Dev nD) (t : Fin cfg3.N) :
    bodyPre (U := U) (Lvl := Lvl) V ι c t ⊢ wp frame (wpE (defs₀ (F := F)) 𝒱₀ c none) Set.univ (bodyAt3 t) (fun _ => bodyPost (U := U) (Lvl := Lvl) V ι c t) := by
  unfold bodyPre bodyPost bodyAt3
  simp only [before_0, before_1, before_2, before_3, before_4]
  rw [show (dat V c).Φ t.succ = Φc c from rfl, show (dat V c).Φ t.castSucc = Φc c from rfl,
    show (dat V c).owesAt ι t.succ = (dat V c).owesAt ι t.castSucc from rfl,
    after_0, after_1, after_2, after_3, after_4, after_5]
  unfold Φc
  iintro ⟨⟨⟨%fs, Hs⟩, Hr⟩, Ho, ⟨%d0, H0⟩, ⟨%d1, H1⟩, ⟨%d2, H2⟩, ⟨%d3, H3⟩, ⟨%d4, H4⟩, ⟨%d5, H5⟩⟩
  iapply (kernelRun 𝒱₀ c (grid3.coords t) _ _ _ _ _ _ _ _ _ _ _ _ _ _ (hcond1 t) (hcond2 t)
    (blk V c 0 t) (blk V c 1 t) (blk V c 3 t) (blk V c 4 t) Set.univ _)
  isplitl [H0]; · iexact H0
  isplitl [H1]; · iexact H1
  isplitl [H3]; · iexact H3
  isplitl [H4]; · iexact H4
  isplitl [H5]; · iexists _; iexact H5
  isplitl [Hs]; · iexists fs; iapply (Entails.of_eq (owns_whole (c : Thread nD τ) cc3_scratch0 fullShare fs).symm); iexact Hs
  iintro ⟨H0, H1, H3, H4, H5, ⟨%ds, Hs⟩⟩
  isplitl [Hs Hr]
  · isplitl [Hs]; · iexists ds; iapply (Entails.of_eq (owns_whole (c : Thread nD τ) cc3_scratch0 fullShare ds)); iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-- The output window is live at every point: its condition holds there. -/
theorem idle_5 (t : Fin cfg3.N) : cfg3.idle 5 (cfg3.grid.coords t) = false := by
  show (!(k3_cond2 (grid3.coords t) == 1#1)) = false
  rw [hcond2 t]; rfl

set_option maxRecDepth 65536 in
/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W3, bigSep_W3]
  refine (sound_body V ι 𝒱₀ c t).trans (wp_mono _ _ _ fun _ => ?_)
  unfold bodyPost
  refine sep_mono .rfl (sep_mono .rfl (sep_mono .rfl (sep_mono .rfl (sep_mono .rfl (sep_mono .rfl (sep_mono .rfl ?_))))))
  rw [idle_5 t]

/-! ## The region, between the valuations of the core's unscoped buffers before and after it -/

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final (c : Dev nD) (hout : ∀ c, Vp c main_v75 = (dat (Ix := Ix) (U := U) (Lvl := Lvl) V c).arrAt 5 cfg3.N)
    (hne : ∀ c (b : Ref sig .tc), b ≠ main_v75 → Vp c b = V c b) :
    ∀ w : Fin cfg3.W, (dat (Ix := Ix) (U := U) (Lvl := Lvl) V c).arrAt w cfg3.N = Vp c (Pipeline.arrRef spec3 w)
  | ⟨0, _⟩ => ((dat V c).arrAt_in 0 rfl _).trans (hne c _ (ref_ne (by decide))).symm
  | ⟨1, _⟩ => ((dat V c).arrAt_in 1 rfl _).trans (hne c _ (ref_ne (by decide))).symm
  | ⟨2, _⟩ => ((dat V c).arrAt_in 2 rfl _).trans (hne c _ (ref_ne (by decide))).symm
  | ⟨3, _⟩ => ((dat V c).arrAt_in 3 rfl _).trans (hne c _ (ref_ne (by decide))).symm
  | ⟨4, _⟩ => ((dat V c).arrAt_in 4 rfl _).trans (hne c _ (ref_ne (by decide))).symm
  | ⟨5, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION: entered holding every unscoped buffer at `V c`, left holding them at `Vp c`, which has the output array at
    what the write-backs left and every other buffer as it was. The windows' arrays go into the pipeline, the other
    unscoped buffers pass by, the accumulator and the other scoped buffers make the invariant; the kernel has no
    semaphore of its own. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 3 c = dat V c)
    (hout : ∀ c, Vp c main_v75 = (dat (Ix := Ix) (U := U) (Lvl := Lvl) V c).arrAt 5 cfg3.N)
    (hne : ∀ c (b : Ref sig .tc), b ≠ main_v75 → Vp c b = V c b) :
    Pipeline.RegionSeg (pcfgs (F := F)) adm pd ι defs₀ 𝒱₀ L lv 3 where
  win := launch3.win.to₀
  block_pos := launch3.block_pos
  stage_whole := launch3.stage_whole
  K := PEmpty
  osem := fun k => k.elim
  ho := Pipeline.OwnSemFacts.none _
  hbody c := by rw [hpd]; exact (body_obligation V ι 𝒱₀ c).loose
  hwaits := Pipeline.hwaits_of_owed_zero _ _ _ _ L lv 3 fun c _ => by rw [hpd]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec3 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 3) launch3.win launch3.arr_whole c
      (by rw [hpd]; exact (dat V c).share_full fun _ => rfl) (fun b => V c b) (by rw [hpd]; exact fun _ => rfl)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [hpd, show (dat V c).Φ 0 = Φc c from rfl]; unfold Φc
    rw [show Pipeline.scopedRest (Pipeline.pin (pcfgs (F := F)) adm 3).spec c = _ from scopedRest3_split c]
    iintro ⟨-, -, Hr⟩
    iexact Hr
  hout c := by
    rw [hpd, Pipeline.ownSems0_none, show (dat V c).Φ (Fin.last (Pipeline.pin (pcfgs (F := F)) adm 3).N) = Φc c from rfl]; unfold Φc
    rw [show Pipeline.scopedRest (Pipeline.pin (pcfgs (F := F)) adm 3).spec c = _ from scopedRest3_split c]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 3) launch3.win launch3.arr_whole c pd
      (by rw [hpd]; exact (dat V c).share_full fun _ => rfl) (fun b => V c b) (fun b => Vp c b)
      (fun w => (pd 3 c).arrAt w (Pipeline.pin (pcfgs (F := F)) adm 3).N)
      (fun w => by rw [hpd]; exact arrAt_final V Vp c hout hne w)
      (fun b hb => hne c b fun e => hb (e ▸ Finset.mem_image_of_mem _ (Finset.mem_univ (5 : Fin 6))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      icases HO with ⟨%W, -, HO⟩; iexists W; iexact HO

end Cert.KernelIdeal.Region3

end
-- ==== Proof.KI.Region4.lean ====
/-
  REGION 4 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.KernelIdeal.Region4

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 4
abbrev kl : ℕ := 3
/-- The output array, and the region's place among the program's pipelines. -/
abbrev vOUT : Ref sig .tc := main_v84
abbrev RK : Fin 17 := 4

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid4.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid4.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k4_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k4_pay2 X0 X1 (k4_pay1 (F := F)))) -∗ Q ⟨⟩))
    ⊢ wp frame (wpE (defs₀ (F := F)) 𝒱₀ c none) E (cc4__mm_kernel i M0 h0 M1 h1 M2 h2 M3 h3 M4 h4 M5 h5 Ms hs) Q := by
  iintro ⟨H0, H1, H2, H3, H4, H5, Hs, Hk⟩
  simp only [cc4__mm_kernel_eq_skeleton]; unfold cc4__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid4.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k4_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k4_pay2 X0 X1 Xs)) -∗ Q ⟨⟩))
    ⊢ wp frame (wpE (defs₀ (F := F)) 𝒱₀ c none) E (cc4__mm_kernel i M0 h0 M1 h1 M2 h2 M3 h3 M4 h4 M5 h5 Ms hs) Q := by
  iintro ⟨H0, H1, H2, H3, H4, H5, Hs, Hk⟩
  simp only [cc4__mm_kernel_eq_skeleton]; unfold cc4__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid4.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k4_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k4_pay3 (k4_pay2 X0 X1 Xs) X3 X4) ∗ pt c Ms (k4_pay2 X0 X1 Xs)) -∗ Q ⟨⟩))
    ⊢ wp frame (wpE (defs₀ (F := F)) 𝒱₀ c none) E (cc4__mm_kernel i M0 h0 M1 h1 M2 h2 M3 h3 M4 h4 M5 h5 Ms hs) Q := by
  iintro ⟨H0, H1, H2, H3, H4, H5, Hs, Hk⟩
  simp only [cc4__mm_kernel_eq_skeleton]; unfold cc4__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid4.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k4_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k4_pay3 (k4_pay2 X0 X1 (k4_pay1 (F := F))) X3 X4) ∗ pt c Ms (k4_pay2 X0 X1 (k4_pay1 (F := F)))) -∗ Q ⟨⟩))
    ⊢ wp frame (wpE (defs₀ (F := F)) 𝒱₀ c none) E (cc4__mm_kernel i M0 h0 M1 h1 M2 h2 M3 h3 M4 h4 M5 h5 Ms hs) Q := by
  iintro ⟨H0, H1, H2, H3, H4, H5, Hs, Hk⟩
  simp only [cc4__mm_kernel_eq_skeleton]; unfold cc4__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid4.Coords) (X0 : SA.Idx → Elt F .bf16) (X1 : SB.Idx → Elt F .bf16) (Xs : SO.Idx → Elt F .f32) :
    SO.Idx → Elt F .f32 :=
  k4_pay2 X0 X1 (if cond1 i = 1#1 then k4_pay1 (F := F) else Xs)

/-- What the output's staging buffer holds after the body at coordinates `i`. -/
abbrev outOut (i : grid4.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k4_cond2 i = 1#1 then k4_pay3 (accOut i X0 X1 Xs) X3 X4 else X5

/-- The kernel body at any coordinates: the four runs, by cases on its two conditions; the contents it leaves named by
    the caller (`A'`, `O'`). -/
theorem kernelRun (𝒱₀ : Variants) (c : Dev nD) (i : grid4.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc4__mm_kernel i M0 h0 M1 h1 M2 h2 M3 h3 M4 h4 M5 h5 Ms hs) Q := by
  subst hA hO
  unfold outOut accOut
  by_cases hc1 : cond1 i = 1#1 <;> by_cases hc2 : k4_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid4.N, cond1 (grid4.coords t) = 1#1 ↔ t.val % nk = 0 := by decide +kernel
theorem cond2_iff : ∀ t : Fin grid4.N, k4_cond2 (grid4.coords t) = 1#1 ↔ t.val % nk = kl := by decide +kernel

variable (V Vp : Dev nD → Valuation τ sig (Elt F))

/-- The windowed arrays at the region's entry. -/
abbrev A0 (c : Dev nD) (w : Fin cfg4.W) : Buf (Elt F) ((cfg4.win w).arr.view.loc (c : Thread nD τ)) := V c (Pipeline.arrRef spec4 w)

/-- What an input window's staging buffer holds when the body runs at point `t`: the window's block of its array there. -/
def inBlk (c : Dev nD) (w : Fin cfg4.W) (t : Fin cfg4.N) : (cfg4.win w).block.Idx → Elt F (cfg4.win w).elt :=
  (cfg4.win w).fill (cfg4.grid.coords t) (fun _ => Classical.arbitrary _) (((cfg4.win w).blk t).view.read (Elt F) (A0 V c w))

/-- The accumulator AFTER point `n`: the product of the point's two blocks added to zero at the first point of a reduction
    run (`n % nk = 0`), to what the point before left elsewhere. -/
def acc (c : Dev nD) : (n : ℕ) → n < cfg4.N → SO.Idx → Elt F .f32
  | 0, h => k4_pay2 (inBlk V c 0 ⟨0, h⟩) (inBlk V c 1 ⟨0, h⟩) (k4_pay1 (F := F))
  | n + 1, h => k4_pay2 (inBlk V c 0 ⟨n + 1, h⟩) (inBlk V c 1 ⟨n + 1, h⟩)
      (if (n + 1) % nk = 0 then k4_pay1 (F := F) else acc c n (Nat.lt_of_succ_lt h))

/-- The invariant before point `n`: the scratch accumulator at what the point before left (nothing is said where the
    body resets it), and every other scoped buffer the pipeline does not stage at something. -/
def Φ0 (c : Dev nD) (n : Fin (cfg4.N + 1)) : sProp 𝕄 :=
  iprop((∃ X : SO.Idx → Elt F .f32, ⌜∀ h : n.val - 1 < cfg4.N, n.val % nk ≠ 0 → X = acc V c (n.val - 1) h⌝ ∗ pt c (Memref.whole cc4_scratch0) X)
    ∗ Pipeline.scopedRestBut (Ix := Ix) (Name := ℕ) (U := U) (Lvl := Lvl) (Val := Elt F) spec4 c [cc4_scratch0])

/-- The proof data on core `c`, from the entry valuation `V`. -/
def dat (c : Dev nD) : Pipeline.Dat τ (Elt F) Ix ℕ U Lvl cfg4 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k4_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg4.W) (hw : (cfg4.win w).isOut = false) (hlive : ∀ i, cfg4.idle w i = false)
    (hclip : ∀ (i : cfg4.grid.Coords) a, (cfg4.win w).clip i a = none)
    (hafter : ∀ t, (dat' V c).after w t = inBlk V c w t)
    (t : Fin cfg4.N) (d : (cfg4.win w).block.Idx → Elt F (cfg4.win w).elt) :
    (dat' V c).before w t d = inBlk V c w t := by
  rw [(dat V c).before_in_eq_fetched w hw hlive (fun t t' _ => funext fun a => (hclip _ a).trans (hclip _ a).symm)
    (fun t => by rw [hafter]; exact (cfg4.win w).cut_fill _ _ _) t d,
    (dat V c).fetched_of_clip_none w t (hclip _) d (fun _ => Classical.arbitrary _)]
  rfl

theorem before0 (c : Dev nD) (t : Fin cfg4.N) (d) : (dat' V c).before 0 t d = inBlk V c 0 t :=
  before_in V c 0 rfl (fun _ => rfl) (fun _ _ => rfl) (fun _ => rfl) t d
theorem before1 (c : Dev nD) (t : Fin cfg4.N) (d) : (dat' V c).before 1 t d = inBlk V c 1 t :=
  before_in V c 1 rfl (fun _ => rfl) (fun _ _ => rfl) (fun _ => rfl) t d
theorem before2 (c : Dev nD) (t : Fin cfg4.N) (d) : (dat' V c).before 2 t d = inBlk V c 2 t :=
  before_in V c 2 rfl (fun _ => rfl) (fun _ _ => rfl) (fun _ => rfl) t d
theorem before3 (c : Dev nD) (t : Fin cfg4.N) (d) : (dat' V c).before 3 t d = inBlk V c 3 t :=
  before_in V c 3 rfl (fun _ => rfl) (fun _ _ => rfl) (fun _ => rfl) t d
theorem before4 (c : Dev nD) (t : Fin cfg4.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg4.N) (Xs : SO.Idx → Elt F .f32)
    (hXs : ∀ h : t.val - 1 < cfg4.N, t.val % nk ≠ 0 → Xs = acc V c (t.val - 1) h) :
    accOut (grid4.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k4_pay2 _ _ (if (n + 1) % nk = 0 then _ else _)
      rw [if_pos hm]
    · rw [if_neg (fun h => hm ((cond1_iff ⟨n + 1, hn⟩).mp h)), hXs (Nat.lt_of_succ_lt hn) hm]
      show _ = k4_pay2 _ _ (if (n + 1) % nk = 0 then _ else _)
      rw [if_neg hm]
      rfl

/-- The output window is idle exactly where the second condition fails, and written back exactly where it holds. -/
theorem idle5_of (t : Fin cfg4.N) (h : k4_cond2 (grid4.coords t) = 1#1) : cfg4.idle 5 (cfg4.grid.coords t) = false := by
  show (!(k4_cond2 (grid4.coords t) == 1#1)) = false
  rw [h]; rfl
theorem idle5_of_not (t : Fin cfg4.N) (h : ¬ k4_cond2 (grid4.coords t) = 1#1) : cfg4.idle 5 (cfg4.grid.coords t) = true := by
  show (!(k4_cond2 (grid4.coords t) == 1#1)) = true
  rw [Bool.not_eq_true', beq_eq_false_iff_ne]; exact h
theorem flush5_of_not (t : Fin cfg4.N) (h : ¬ k4_cond2 (grid4.coords t) = 1#1) : (cfg4.win 5).flush t = false :=
  Bool.eq_false_iff.mpr fun hf => h ((cond2_iff t).mpr ((flush4_5 t).mp hf))

theorem idleIn0 (i : cfg4.grid.Coords) : cfg4.idle 0 i = false := rfl
theorem idleIn1 (i : cfg4.grid.Coords) : cfg4.idle 1 i = false := rfl
theorem idleIn2 (i : cfg4.grid.Coords) : cfg4.idle 2 i = false := rfl
theorem idleIn3 (i : cfg4.grid.Coords) : cfg4.idle 3 i = false := rfl
theorem idleIn4 (i : cfg4.grid.Coords) : cfg4.idle 4 i = false := rfl
theorem after0 (c : Dev nD) (t : Fin cfg4.N) : (dat' V c).after 0 t = inBlk V c 0 t := rfl
theorem after1 (c : Dev nD) (t : Fin cfg4.N) : (dat' V c).after 1 t = inBlk V c 1 t := rfl
theorem after2 (c : Dev nD) (t : Fin cfg4.N) : (dat' V c).after 2 t = inBlk V c 2 t := rfl
theorem after3 (c : Dev nD) (t : Fin cfg4.N) : (dat' V c).after 3 t = inBlk V c 3 t := rfl
theorem after4 (c : Dev nD) (t : Fin cfg4.N) : (dat' V c).after 4 t = inBlk V c 4 t := rfl
theorem after5 (c : Dev nD) (t : Fin cfg4.N) :
    (dat' V c).after 5 t = k4_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W4, bigSep_W4]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k4_cond2 (grid4.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid4.coords t) (inBlk V c 0 t) (inBlk V c 1 t) (inBlk V c 3 t) (inBlk V c 4 t) ((dat' V c).before 5 t d5) Xs
        = k4_pay3 (acc V c t.val t.isLt) (inBlk V c 3 t) (inBlk V c 4 t) := by
      unfold outOut; rw [if_pos hc2, acc_step V c t Xs hXs]
    iapply (kernelRun 𝒱₀ c (grid4.coords t)
      (win4_0.stage (cfg4.slots t 0)) (hstage4_0 ((cfg4.slots t 0).cast nbuf4_0))
      (win4_1.stage (cfg4.slots t 1)) (hstage4_1 ((cfg4.slots t 1).cast nbuf4_1))
      (win4_2.stage (cfg4.slots t 2)) (hstage4_2 ((cfg4.slots t 2).cast nbuf4_2))
      (win4_3.stage (cfg4.slots t 3)) (hstage4_3 ((cfg4.slots t 3).cast nbuf4_3))
      (win4_4.stage (cfg4.slots t 4)) (hstage4_4 ((cfg4.slots t 4).cast nbuf4_4))
      (win4_5.stage (cfg4.slots t 5)) (hstage4_5 ((cfg4.slots t 5).cast nbuf4_5))
      (Memref.whole cc4_scratch0) (Memref.isWhole_whole _)
      (inBlk V c 0 t) (inBlk V c 1 t) (inBlk V c 2 t) (inBlk V c 3 t)
      (inBlk V c 4 t) ((dat' V c).before 5 t d5) Xs (acc V c t.val t.isLt) (k4_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid4.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid4.coords t)
      (win4_0.stage (cfg4.slots t 0)) (hstage4_0 ((cfg4.slots t 0).cast nbuf4_0))
      (win4_1.stage (cfg4.slots t 1)) (hstage4_1 ((cfg4.slots t 1).cast nbuf4_1))
      (win4_2.stage (cfg4.slots t 2)) (hstage4_2 ((cfg4.slots t 2).cast nbuf4_2))
      (win4_3.stage (cfg4.slots t 3)) (hstage4_3 ((cfg4.slots t 3).cast nbuf4_3))
      (win4_4.stage (cfg4.slots t 4)) (hstage4_4 ((cfg4.slots t 4).cast nbuf4_4))
      (win4_5.stage (cfg4.slots t 5)) (hstage4_5 ((cfg4.slots t 5).cast nbuf4_5))
      (Memref.whole cc4_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc4_scratch0) X : sProp 𝕄)
      = iprop(∃ f : Buf (Elt F) ((c : Thread nD τ).loc cc4_scratch0), ⌜f = X⌝ ∗ (((c : Thread nD τ).loc cc4_scratch0) ↦{fullShare} f)) :=
  (owns_eq_rep (c : Thread nD τ) (Memref.whole cc4_scratch0) fullShare X).symm.trans (owns_whole_eq (c : Thread nD τ) cc4_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec4 c) ⊢ Φ0 V c 0 := by
  rw [scopedRest4_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg4.N) ⊢ iprop(BI.emp ∗ BI.emp ∗ Pipeline.scopedRest (Ix := Ix) (Name := ℕ) (U := U) (Lvl := Lvl) (Val := Elt F) spec4 c) := by
  rw [scopedRest4_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg4.W) (hw : w ≠ 5) : (cfg4.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg4.N) (hne : ∀ c (b : Ref sig .tc), b ≠ vOUT → Vp c b = V c b) :
    Pipeline.RegionSeg (pcfgs (F := F)) adm pd ι defs₀ 𝒱₀ L lv RK where
  win := launch4.win.to₀
  block_pos := launch4.block_pos
  stage_whole := launch4.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec4 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch4.win launch4.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch4.win
      launch4.arr_whole c pd ((pd RK c).share_full fun _ => by rw [hpd c]; rfl) (fun b => V c b) (fun b => Vp c b)
      ((pd RK c).arrAt · cfg4.N)
      (fun w => by
        rw [hpd c]
        by_cases hw : w = 5
        · subst hw; exact (hout c).symm
        · exact ((dat' V c).arrAt_in w (isOut_of_ne w hw) _).trans
            (hne c _ fun h => hw (launch4.win.arr_inj (h.trans (rfl : vOUT = Pipeline.arrRef spec4 5)))).symm)
      (fun b hb => hne c b fun h => hb (Finset.mem_image.mpr ⟨5, Finset.mem_univ _, (rfl : Pipeline.arrRef spec4 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Region4
end
-- ==== Proof.KI.Region5.lean ====
/-
  REGION 5 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.KernelIdeal.Region5

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 2
abbrev kl : ℕ := 1
/-- The output array, and the region's place among the program's pipelines. -/
abbrev vOUT : Ref sig .tc := main_v92
abbrev RK : Fin 17 := 5

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid5.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid5.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k5_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k5_pay2 X0 X1 (k5_pay1 (F := F)))) -∗ Q ⟨⟩))
    ⊢ wp frame (wpE (defs₀ (F := F)) 𝒱₀ c none) E (cc5__mm_kernel i M0 h0 M1 h1 M2 h2 M3 h3 M4 h4 M5 h5 Ms hs) Q := by
  iintro ⟨H0, H1, H2, H3, H4, H5, Hs, Hk⟩
  simp only [cc5__mm_kernel_eq_skeleton]; unfold cc5__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid5.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k5_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k5_pay2 X0 X1 Xs)) -∗ Q ⟨⟩))
    ⊢ wp frame (wpE (defs₀ (F := F)) 𝒱₀ c none) E (cc5__mm_kernel i M0 h0 M1 h1 M2 h2 M3 h3 M4 h4 M5 h5 Ms hs) Q := by
  iintro ⟨H0, H1, H2, H3, H4, H5, Hs, Hk⟩
  simp only [cc5__mm_kernel_eq_skeleton]; unfold cc5__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid5.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k5_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k5_pay3 (k5_pay2 X0 X1 Xs) X3 X4) ∗ pt c Ms (k5_pay2 X0 X1 Xs)) -∗ Q ⟨⟩))
    ⊢ wp frame (wpE (defs₀ (F := F)) 𝒱₀ c none) E (cc5__mm_kernel i M0 h0 M1 h1 M2 h2 M3 h3 M4 h4 M5 h5 Ms hs) Q := by
  iintro ⟨H0, H1, H2, H3, H4, H5, Hs, Hk⟩
  simp only [cc5__mm_kernel_eq_skeleton]; unfold cc5__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid5.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k5_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k5_pay3 (k5_pay2 X0 X1 (k5_pay1 (F := F))) X3 X4) ∗ pt c Ms (k5_pay2 X0 X1 (k5_pay1 (F := F)))) -∗ Q ⟨⟩))
    ⊢ wp frame (wpE (defs₀ (F := F)) 𝒱₀ c none) E (cc5__mm_kernel i M0 h0 M1 h1 M2 h2 M3 h3 M4 h4 M5 h5 Ms hs) Q := by
  iintro ⟨H0, H1, H2, H3, H4, H5, Hs, Hk⟩
  simp only [cc5__mm_kernel_eq_skeleton]; unfold cc5__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid5.Coords) (X0 : SA.Idx → Elt F .bf16) (X1 : SB.Idx → Elt F .bf16) (Xs : SO.Idx → Elt F .f32) :
    SO.Idx → Elt F .f32 :=
  k5_pay2 X0 X1 (if cond1 i = 1#1 then k5_pay1 (F := F) else Xs)

/-- What the output's staging buffer holds after the body at coordinates `i`. -/
abbrev outOut (i : grid5.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k5_cond2 i = 1#1 then k5_pay3 (accOut i X0 X1 Xs) X3 X4 else X5

/-- The kernel body at any coordinates: the four runs, by cases on its two conditions; the contents it leaves named by
    the caller (`A'`, `O'`). -/
theorem kernelRun (𝒱₀ : Variants) (c : Dev nD) (i : grid5.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc5__mm_kernel i M0 h0 M1 h1 M2 h2 M3 h3 M4 h4 M5 h5 Ms hs) Q := by
  subst hA hO
  unfold outOut accOut
  by_cases hc1 : cond1 i = 1#1 <;> by_cases hc2 : k5_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid5.N, cond1 (grid5.coords t) = 1#1 ↔ t.val % nk = 0 := by decide +kernel
theorem cond2_iff : ∀ t : Fin grid5.N, k5_cond2 (grid5.coords t) = 1#1 ↔ t.val % nk = kl := by decide +kernel

variable (V Vp : Dev nD → Valuation τ sig (Elt F))

/-- The windowed arrays at the region's entry. -/
abbrev A0 (c : Dev nD) (w : Fin cfg5.W) : Buf (Elt F) ((cfg5.win w).arr.view.loc (c : Thread nD τ)) := V c (Pipeline.arrRef spec5 w)

/-- What an input window's staging buffer holds when the body runs at point `t`: the window's block of its array there. -/
def inBlk (c : Dev nD) (w : Fin cfg5.W) (t : Fin cfg5.N) : (cfg5.win w).block.Idx → Elt F (cfg5.win w).elt :=
  (cfg5.win w).fill (cfg5.grid.coords t) (fun _ => Classical.arbitrary _) (((cfg5.win w).blk t).view.read (Elt F) (A0 V c w))

/-- The accumulator AFTER point `n`: the product of the point's two blocks added to zero at the first point of a reduction
    run (`n % nk = 0`), to what the point before left elsewhere. -/
def acc (c : Dev nD) : (n : ℕ) → n < cfg5.N → SO.Idx → Elt F .f32
  | 0, h => k5_pay2 (inBlk V c 0 ⟨0, h⟩) (inBlk V c 1 ⟨0, h⟩) (k5_pay1 (F := F))
  | n + 1, h => k5_pay2 (inBlk V c 0 ⟨n + 1, h⟩) (inBlk V c 1 ⟨n + 1, h⟩)
      (if (n + 1) % nk = 0 then k5_pay1 (F := F) else acc c n (Nat.lt_of_succ_lt h))

/-- The invariant before point `n`: the scratch accumulator at what the point before left (nothing is said where the
    body resets it), and every other scoped buffer the pipeline does not stage at something. -/
def Φ0 (c : Dev nD) (n : Fin (cfg5.N + 1)) : sProp 𝕄 :=
  iprop((∃ X : SO.Idx → Elt F .f32, ⌜∀ h : n.val - 1 < cfg5.N, n.val % nk ≠ 0 → X = acc V c (n.val - 1) h⌝ ∗ pt c (Memref.whole cc5_scratch0) X)
    ∗ Pipeline.scopedRestBut (Ix := Ix) (Name := ℕ) (U := U) (Lvl := Lvl) (Val := Elt F) spec5 c [cc5_scratch0])

/-- The proof data on core `c`, from the entry valuation `V`. -/
def dat (c : Dev nD) : Pipeline.Dat τ (Elt F) Ix ℕ U Lvl cfg5 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k5_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg5.W) (hw : (cfg5.win w).isOut = false) (hlive : ∀ i, cfg5.idle w i = false)
    (hclip : ∀ (i : cfg5.grid.Coords) a, (cfg5.win w).clip i a = none)
    (hafter : ∀ t, (dat' V c).after w t = inBlk V c w t)
    (t : Fin cfg5.N) (d : (cfg5.win w).block.Idx → Elt F (cfg5.win w).elt) :
    (dat' V c).before w t d = inBlk V c w t := by
  rw [(dat V c).before_in_eq_fetched w hw hlive (fun t t' _ => funext fun a => (hclip _ a).trans (hclip _ a).symm)
    (fun t => by rw [hafter]; exact (cfg5.win w).cut_fill _ _ _) t d,
    (dat V c).fetched_of_clip_none w t (hclip _) d (fun _ => Classical.arbitrary _)]
  rfl

theorem before0 (c : Dev nD) (t : Fin cfg5.N) (d) : (dat' V c).before 0 t d = inBlk V c 0 t :=
  before_in V c 0 rfl (fun _ => rfl) (fun _ _ => rfl) (fun _ => rfl) t d
theorem before1 (c : Dev nD) (t : Fin cfg5.N) (d) : (dat' V c).before 1 t d = inBlk V c 1 t :=
  before_in V c 1 rfl (fun _ => rfl) (fun _ _ => rfl) (fun _ => rfl) t d
theorem before2 (c : Dev nD) (t : Fin cfg5.N) (d) : (dat' V c).before 2 t d = inBlk V c 2 t :=
  before_in V c 2 rfl (fun _ => rfl) (fun _ _ => rfl) (fun _ => rfl) t d
theorem before3 (c : Dev nD) (t : Fin cfg5.N) (d) : (dat' V c).before 3 t d = inBlk V c 3 t :=
  before_in V c 3 rfl (fun _ => rfl) (fun _ _ => rfl) (fun _ => rfl) t d
theorem before4 (c : Dev nD) (t : Fin cfg5.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg5.N) (Xs : SO.Idx → Elt F .f32)
    (hXs : ∀ h : t.val - 1 < cfg5.N, t.val % nk ≠ 0 → Xs = acc V c (t.val - 1) h) :
    accOut (grid5.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k5_pay2 _ _ (if (n + 1) % nk = 0 then _ else _)
      rw [if_pos hm]
    · rw [if_neg (fun h => hm ((cond1_iff ⟨n + 1, hn⟩).mp h)), hXs (Nat.lt_of_succ_lt hn) hm]
      show _ = k5_pay2 _ _ (if (n + 1) % nk = 0 then _ else _)
      rw [if_neg hm]
      rfl

/-- The output window is idle exactly where the second condition fails, and written back exactly where it holds. -/
theorem idle5_of (t : Fin cfg5.N) (h : k5_cond2 (grid5.coords t) = 1#1) : cfg5.idle 5 (cfg5.grid.coords t) = false := by
  show (!(k5_cond2 (grid5.coords t) == 1#1)) = false
  rw [h]; rfl
theorem idle5_of_not (t : Fin cfg5.N) (h : ¬ k5_cond2 (grid5.coords t) = 1#1) : cfg5.idle 5 (cfg5.grid.coords t) = true := by
  show (!(k5_cond2 (grid5.coords t) == 1#1)) = true
  rw [Bool.not_eq_true', beq_eq_false_iff_ne]; exact h
theorem flush5_of_not (t : Fin cfg5.N) (h : ¬ k5_cond2 (grid5.coords t) = 1#1) : (cfg5.win 5).flush t = false :=
  Bool.eq_false_iff.mpr fun hf => h ((cond2_iff t).mpr ((flush5_5 t).mp hf))

theorem idleIn0 (i : cfg5.grid.Coords) : cfg5.idle 0 i = false := rfl
theorem idleIn1 (i : cfg5.grid.Coords) : cfg5.idle 1 i = false := rfl
theorem idleIn2 (i : cfg5.grid.Coords) : cfg5.idle 2 i = false := rfl
theorem idleIn3 (i : cfg5.grid.Coords) : cfg5.idle 3 i = false := rfl
theorem idleIn4 (i : cfg5.grid.Coords) : cfg5.idle 4 i = false := rfl
theorem after0 (c : Dev nD) (t : Fin cfg5.N) : (dat' V c).after 0 t = inBlk V c 0 t := rfl
theorem after1 (c : Dev nD) (t : Fin cfg5.N) : (dat' V c).after 1 t = inBlk V c 1 t := rfl
theorem after2 (c : Dev nD) (t : Fin cfg5.N) : (dat' V c).after 2 t = inBlk V c 2 t := rfl
theorem after3 (c : Dev nD) (t : Fin cfg5.N) : (dat' V c).after 3 t = inBlk V c 3 t := rfl
theorem after4 (c : Dev nD) (t : Fin cfg5.N) : (dat' V c).after 4 t = inBlk V c 4 t := rfl
theorem after5 (c : Dev nD) (t : Fin cfg5.N) :
    (dat' V c).after 5 t = k5_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W5, bigSep_W5]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k5_cond2 (grid5.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid5.coords t) (inBlk V c 0 t) (inBlk V c 1 t) (inBlk V c 3 t) (inBlk V c 4 t) ((dat' V c).before 5 t d5) Xs
        = k5_pay3 (acc V c t.val t.isLt) (inBlk V c 3 t) (inBlk V c 4 t) := by
      unfold outOut; rw [if_pos hc2, acc_step V c t Xs hXs]
    iapply (kernelRun 𝒱₀ c (grid5.coords t)
      (win5_0.stage (cfg5.slots t 0)) (hstage5_0 ((cfg5.slots t 0).cast nbuf5_0))
      (win5_1.stage (cfg5.slots t 1)) (hstage5_1 ((cfg5.slots t 1).cast nbuf5_1))
      (win5_2.stage (cfg5.slots t 2)) (hstage5_2 ((cfg5.slots t 2).cast nbuf5_2))
      (win5_3.stage (cfg5.slots t 3)) (hstage5_3 ((cfg5.slots t 3).cast nbuf5_3))
      (win5_4.stage (cfg5.slots t 4)) (hstage5_4 ((cfg5.slots t 4).cast nbuf5_4))
      (win5_5.stage (cfg5.slots t 5)) (hstage5_5 ((cfg5.slots t 5).cast nbuf5_5))
      (Memref.whole cc5_scratch0) (Memref.isWhole_whole _)
      (inBlk V c 0 t) (inBlk V c 1 t) (inBlk V c 2 t) (inBlk V c 3 t)
      (inBlk V c 4 t) ((dat' V c).before 5 t d5) Xs (acc V c t.val t.isLt) (k5_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid5.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid5.coords t)
      (win5_0.stage (cfg5.slots t 0)) (hstage5_0 ((cfg5.slots t 0).cast nbuf5_0))
      (win5_1.stage (cfg5.slots t 1)) (hstage5_1 ((cfg5.slots t 1).cast nbuf5_1))
      (win5_2.stage (cfg5.slots t 2)) (hstage5_2 ((cfg5.slots t 2).cast nbuf5_2))
      (win5_3.stage (cfg5.slots t 3)) (hstage5_3 ((cfg5.slots t 3).cast nbuf5_3))
      (win5_4.stage (cfg5.slots t 4)) (hstage5_4 ((cfg5.slots t 4).cast nbuf5_4))
      (win5_5.stage (cfg5.slots t 5)) (hstage5_5 ((cfg5.slots t 5).cast nbuf5_5))
      (Memref.whole cc5_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc5_scratch0) X : sProp 𝕄)
      = iprop(∃ f : Buf (Elt F) ((c : Thread nD τ).loc cc5_scratch0), ⌜f = X⌝ ∗ (((c : Thread nD τ).loc cc5_scratch0) ↦{fullShare} f)) :=
  (owns_eq_rep (c : Thread nD τ) (Memref.whole cc5_scratch0) fullShare X).symm.trans (owns_whole_eq (c : Thread nD τ) cc5_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec5 c) ⊢ Φ0 V c 0 := by
  rw [scopedRest5_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg5.N) ⊢ iprop(BI.emp ∗ BI.emp ∗ Pipeline.scopedRest (Ix := Ix) (Name := ℕ) (U := U) (Lvl := Lvl) (Val := Elt F) spec5 c) := by
  rw [scopedRest5_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg5.W) (hw : w ≠ 5) : (cfg5.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg5.N) (hne : ∀ c (b : Ref sig .tc), b ≠ vOUT → Vp c b = V c b) :
    Pipeline.RegionSeg (pcfgs (F := F)) adm pd ι defs₀ 𝒱₀ L lv RK where
  win := launch5.win.to₀
  block_pos := launch5.block_pos
  stage_whole := launch5.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec5 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch5.win launch5.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch5.win
      launch5.arr_whole c pd ((pd RK c).share_full fun _ => by rw [hpd c]; rfl) (fun b => V c b) (fun b => Vp c b)
      ((pd RK c).arrAt · cfg5.N)
      (fun w => by
        rw [hpd c]
        by_cases hw : w = 5
        · subst hw; exact (hout c).symm
        · exact ((dat' V c).arrAt_in w (isOut_of_ne w hw) _).trans
            (hne c _ fun h => hw (launch5.win.arr_inj (h.trans (rfl : vOUT = Pipeline.arrRef spec5 5)))).symm)
      (fun b hb => hne c b fun h => hb (Finset.mem_image.mpr ⟨5, Finset.mem_univ _, (rfl : Pipeline.arrRef spec5 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Region5
end
-- ==== Proof.KI.Region6.lean ====
/-
  REGION 6 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.KernelIdeal.Region6

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1024x1024
abbrev SB : Shape := S1024x256
abbrev SC : Shape := S1024x1
abbrev SD : Shape := S1024x1
abbrev SE : Shape := S1x256
abbrev SO : Shape := S1024x256
/-- The number of points in one reduction run, and the last of them. -/
abbrev nk : ℕ := 2
abbrev kl : ℕ := 1
/-- The output array, and the region's place among the program's pipelines. -/
abbrev vOUT : Ref sig .tc := main_v101
abbrev RK : Fin 17 := 6

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid6.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid6.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k6_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k6_pay2 X0 X1 (k6_pay1 (F := F)))) -∗ Q ⟨⟩))
    ⊢ wp frame (wpE (defs₀ (F := F)) 𝒱₀ c none) E (cc6__mm_kernel i M0 h0 M1 h1 M2 h2 M3 h3 M4 h4 M5 h5 Ms hs) Q := by
  iintro ⟨H0, H1, H2, H3, H4, H5, Hs, Hk⟩
  simp only [cc6__mm_kernel_eq_skeleton]; unfold cc6__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid6.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k6_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k6_pay2 X0 X1 Xs)) -∗ Q ⟨⟩))
    ⊢ wp frame (wpE (defs₀ (F := F)) 𝒱₀ c none) E (cc6__mm_kernel i M0 h0 M1 h1 M2 h2 M3 h3 M4 h4 M5 h5 Ms hs) Q := by
  iintro ⟨H0, H1, H2, H3, H4, H5, Hs, Hk⟩
  simp only [cc6__mm_kernel_eq_skeleton]; unfold cc6__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid6.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k6_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k6_pay3 (k6_pay2 X0 X1 Xs) X3 X4) ∗ pt c Ms (k6_pay2 X0 X1 Xs)) -∗ Q ⟨⟩))
    ⊢ wp frame (wpE (defs₀ (F := F)) 𝒱₀ c none) E (cc6__mm_kernel i M0 h0 M1 h1 M2 h2 M3 h3 M4 h4 M5 h5 Ms hs) Q := by
  iintro ⟨H0, H1, H2, H3, H4, H5, Hs, Hk⟩
  simp only [cc6__mm_kernel_eq_skeleton]; unfold cc6__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid6.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k6_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k6_pay3 (k6_pay2 X0 X1 (k6_pay1 (F := F))) X3 X4) ∗ pt c Ms (k6_pay2 X0 X1 (k6_pay1 (F := F)))) -∗ Q ⟨⟩))
    ⊢ wp frame (wpE (defs₀ (F := F)) 𝒱₀ c none) E (cc6__mm_kernel i M0 h0 M1 h1 M2 h2 M3 h3 M4 h4 M5 h5 Ms hs) Q := by
  iintro ⟨H0, H1, H2, H3, H4, H5, Hs, Hk⟩
  simp only [cc6__mm_kernel_eq_skeleton]; unfold cc6__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid6.Coords) (X0 : SA.Idx → Elt F .bf16) (X1 : SB.Idx → Elt F .bf16) (Xs : SO.Idx → Elt F .f32) :
    SO.Idx → Elt F .f32 :=
  k6_pay2 X0 X1 (if cond1 i = 1#1 then k6_pay1 (F := F) else Xs)

/-- What the output's staging buffer holds after the body at coordinates `i`. -/
abbrev outOut (i : grid6.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k6_cond2 i = 1#1 then k6_pay3 (accOut i X0 X1 Xs) X3 X4 else X5

/-- The kernel body at any coordinates: the four runs, by cases on its two conditions; the contents it leaves named by
    the caller (`A'`, `O'`). -/
theorem kernelRun (𝒱₀ : Variants) (c : Dev nD) (i : grid6.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc6__mm_kernel i M0 h0 M1 h1 M2 h2 M3 h3 M4 h4 M5 h5 Ms hs) Q := by
  subst hA hO
  unfold outOut accOut
  by_cases hc1 : cond1 i = 1#1 <;> by_cases hc2 : k6_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid6.N, cond1 (grid6.coords t) = 1#1 ↔ t.val % nk = 0 := by decide +kernel
theorem cond2_iff : ∀ t : Fin grid6.N, k6_cond2 (grid6.coords t) = 1#1 ↔ t.val % nk = kl := by decide +kernel

variable (V Vp : Dev nD → Valuation τ sig (Elt F))

/-- The windowed arrays at the region's entry. -/
abbrev A0 (c : Dev nD) (w : Fin cfg6.W) : Buf (Elt F) ((cfg6.win w).arr.view.loc (c : Thread nD τ)) := V c (Pipeline.arrRef spec6 w)

/-- What an input window's staging buffer holds when the body runs at point `t`: the window's block of its array there. -/
def inBlk (c : Dev nD) (w : Fin cfg6.W) (t : Fin cfg6.N) : (cfg6.win w).block.Idx → Elt F (cfg6.win w).elt :=
  (cfg6.win w).fill (cfg6.grid.coords t) (fun _ => Classical.arbitrary _) (((cfg6.win w).blk t).view.read (Elt F) (A0 V c w))

/-- The accumulator AFTER point `n`: the product of the point's two blocks added to zero at the first point of a reduction
    run (`n % nk = 0`), to what the point before left elsewhere. -/
def acc (c : Dev nD) : (n : ℕ) → n < cfg6.N → SO.Idx → Elt F .f32
  | 0, h => k6_pay2 (inBlk V c 0 ⟨0, h⟩) (inBlk V c 1 ⟨0, h⟩) (k6_pay1 (F := F))
  | n + 1, h => k6_pay2 (inBlk V c 0 ⟨n + 1, h⟩) (inBlk V c 1 ⟨n + 1, h⟩)
      (if (n + 1) % nk = 0 then k6_pay1 (F := F) else acc c n (Nat.lt_of_succ_lt h))

/-- The invariant before point `n`: the scratch accumulator at what the point before left (nothing is said where the
    body resets it), and every other scoped buffer the pipeline does not stage at something. -/
def Φ0 (c : Dev nD) (n : Fin (cfg6.N + 1)) : sProp 𝕄 :=
  iprop((∃ X : SO.Idx → Elt F .f32, ⌜∀ h : n.val - 1 < cfg6.N, n.val % nk ≠ 0 → X = acc V c (n.val - 1) h⌝ ∗ pt c (Memref.whole cc6_scratch0) X)
    ∗ Pipeline.scopedRestBut (Ix := Ix) (Name := ℕ) (U := U) (Lvl := Lvl) (Val := Elt F) spec6 c [cc6_scratch0])

/-- The proof data on core `c`, from the entry valuation `V`. -/
def dat (c : Dev nD) : Pipeline.Dat τ (Elt F) Ix ℕ U Lvl cfg6 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k6_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg6.W) (hw : (cfg6.win w).isOut = false) (hlive : ∀ i, cfg6.idle w i = false)
    (hclip : ∀ (i : cfg6.grid.Coords) a, (cfg6.win w).clip i a = none)
    (hafter : ∀ t, (dat' V c).after w t = inBlk V c w t)
    (t : Fin cfg6.N) (d : (cfg6.win w).block.Idx → Elt F (cfg6.win w).elt) :
    (dat' V c).before w t d = inBlk V c w t := by
  rw [(dat V c).before_in_eq_fetched w hw hlive (fun t t' _ => funext fun a => (hclip _ a).trans (hclip _ a).symm)
    (fun t => by rw [hafter]; exact (cfg6.win w).cut_fill _ _ _) t d,
    (dat V c).fetched_of_clip_none w t (hclip _) d (fun _ => Classical.arbitrary _)]
  rfl

theorem before0 (c : Dev nD) (t : Fin cfg6.N) (d) : (dat' V c).before 0 t d = inBlk V c 0 t :=
  before_in V c 0 rfl (fun _ => rfl) (fun _ _ => rfl) (fun _ => rfl) t d
theorem before1 (c : Dev nD) (t : Fin cfg6.N) (d) : (dat' V c).before 1 t d = inBlk V c 1 t :=
  before_in V c 1 rfl (fun _ => rfl) (fun _ _ => rfl) (fun _ => rfl) t d
theorem before2 (c : Dev nD) (t : Fin cfg6.N) (d) : (dat' V c).before 2 t d = inBlk V c 2 t :=
  before_in V c 2 rfl (fun _ => rfl) (fun _ _ => rfl) (fun _ => rfl) t d
theorem before3 (c : Dev nD) (t : Fin cfg6.N) (d) : (dat' V c).before 3 t d = inBlk V c 3 t :=
  before_in V c 3 rfl (fun _ => rfl) (fun _ _ => rfl) (fun _ => rfl) t d
theorem before4 (c : Dev nD) (t : Fin cfg6.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg6.N) (Xs : SO.Idx → Elt F .f32)
    (hXs : ∀ h : t.val - 1 < cfg6.N, t.val % nk ≠ 0 → Xs = acc V c (t.val - 1) h) :
    accOut (grid6.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k6_pay2 _ _ (if (n + 1) % nk = 0 then _ else _)
      rw [if_pos hm]
    · rw [if_neg (fun h => hm ((cond1_iff ⟨n + 1, hn⟩).mp h)), hXs (Nat.lt_of_succ_lt hn) hm]
      show _ = k6_pay2 _ _ (if (n + 1) % nk = 0 then _ else _)
      rw [if_neg hm]
      rfl

/-- The output window is idle exactly where the second condition fails, and written back exactly where it holds. -/
theorem idle5_of (t : Fin cfg6.N) (h : k6_cond2 (grid6.coords t) = 1#1) : cfg6.idle 5 (cfg6.grid.coords t) = false := by
  show (!(k6_cond2 (grid6.coords t) == 1#1)) = false
  rw [h]; rfl
theorem idle5_of_not (t : Fin cfg6.N) (h : ¬ k6_cond2 (grid6.coords t) = 1#1) : cfg6.idle 5 (cfg6.grid.coords t) = true := by
  show (!(k6_cond2 (grid6.coords t) == 1#1)) = true
  rw [Bool.not_eq_true', beq_eq_false_iff_ne]; exact h
theorem flush5_of_not (t : Fin cfg6.N) (h : ¬ k6_cond2 (grid6.coords t) = 1#1) : (cfg6.win 5).flush t = false :=
  Bool.eq_false_iff.mpr fun hf => h ((cond2_iff t).mpr ((flush6_5 t).mp hf))

theorem idleIn0 (i : cfg6.grid.Coords) : cfg6.idle 0 i = false := rfl
theorem idleIn1 (i : cfg6.grid.Coords) : cfg6.idle 1 i = false := rfl
theorem idleIn2 (i : cfg6.grid.Coords) : cfg6.idle 2 i = false := rfl
theorem idleIn3 (i : cfg6.grid.Coords) : cfg6.idle 3 i = false := rfl
theorem idleIn4 (i : cfg6.grid.Coords) : cfg6.idle 4 i = false := rfl
theorem after0 (c : Dev nD) (t : Fin cfg6.N) : (dat' V c).after 0 t = inBlk V c 0 t := rfl
theorem after1 (c : Dev nD) (t : Fin cfg6.N) : (dat' V c).after 1 t = inBlk V c 1 t := rfl
theorem after2 (c : Dev nD) (t : Fin cfg6.N) : (dat' V c).after 2 t = inBlk V c 2 t := rfl
theorem after3 (c : Dev nD) (t : Fin cfg6.N) : (dat' V c).after 3 t = inBlk V c 3 t := rfl
theorem after4 (c : Dev nD) (t : Fin cfg6.N) : (dat' V c).after 4 t = inBlk V c 4 t := rfl
theorem after5 (c : Dev nD) (t : Fin cfg6.N) :
    (dat' V c).after 5 t = k6_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W6, bigSep_W6]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k6_cond2 (grid6.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid6.coords t) (inBlk V c 0 t) (inBlk V c 1 t) (inBlk V c 3 t) (inBlk V c 4 t) ((dat' V c).before 5 t d5) Xs
        = k6_pay3 (acc V c t.val t.isLt) (inBlk V c 3 t) (inBlk V c 4 t) := by
      unfold outOut; rw [if_pos hc2, acc_step V c t Xs hXs]
    iapply (kernelRun 𝒱₀ c (grid6.coords t)
      (win6_0.stage (cfg6.slots t 0)) (hstage6_0 ((cfg6.slots t 0).cast nbuf6_0))
      (win6_1.stage (cfg6.slots t 1)) (hstage6_1 ((cfg6.slots t 1).cast nbuf6_1))
      (win6_2.stage (cfg6.slots t 2)) (hstage6_2 ((cfg6.slots t 2).cast nbuf6_2))
      (win6_3.stage (cfg6.slots t 3)) (hstage6_3 ((cfg6.slots t 3).cast nbuf6_3))
      (win6_4.stage (cfg6.slots t 4)) (hstage6_4 ((cfg6.slots t 4).cast nbuf6_4))
      (win6_5.stage (cfg6.slots t 5)) (hstage6_5 ((cfg6.slots t 5).cast nbuf6_5))
      (Memref.whole cc6_scratch0) (Memref.isWhole_whole _)
      (inBlk V c 0 t) (inBlk V c 1 t) (inBlk V c 2 t) (inBlk V c 3 t)
      (inBlk V c 4 t) ((dat' V c).before 5 t d5) Xs (acc V c t.val t.isLt) (k6_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid6.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid6.coords t)
      (win6_0.stage (cfg6.slots t 0)) (hstage6_0 ((cfg6.slots t 0).cast nbuf6_0))
      (win6_1.stage (cfg6.slots t 1)) (hstage6_1 ((cfg6.slots t 1).cast nbuf6_1))
      (win6_2.stage (cfg6.slots t 2)) (hstage6_2 ((cfg6.slots t 2).cast nbuf6_2))
      (win6_3.stage (cfg6.slots t 3)) (hstage6_3 ((cfg6.slots t 3).cast nbuf6_3))
      (win6_4.stage (cfg6.slots t 4)) (hstage6_4 ((cfg6.slots t 4).cast nbuf6_4))
      (win6_5.stage (cfg6.slots t 5)) (hstage6_5 ((cfg6.slots t 5).cast nbuf6_5))
      (Memref.whole cc6_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc6_scratch0) X : sProp 𝕄)
      = iprop(∃ f : Buf (Elt F) ((c : Thread nD τ).loc cc6_scratch0), ⌜f = X⌝ ∗ (((c : Thread nD τ).loc cc6_scratch0) ↦{fullShare} f)) :=
  (owns_eq_rep (c : Thread nD τ) (Memref.whole cc6_scratch0) fullShare X).symm.trans (owns_whole_eq (c : Thread nD τ) cc6_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec6 c) ⊢ Φ0 V c 0 := by
  rw [scopedRest6_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg6.N) ⊢ iprop(BI.emp ∗ BI.emp ∗ Pipeline.scopedRest (Ix := Ix) (Name := ℕ) (U := U) (Lvl := Lvl) (Val := Elt F) spec6 c) := by
  rw [scopedRest6_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg6.W) (hw : w ≠ 5) : (cfg6.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg6.N) (hne : ∀ c (b : Ref sig .tc), b ≠ vOUT → Vp c b = V c b) :
    Pipeline.RegionSeg (pcfgs (F := F)) adm pd ι defs₀ 𝒱₀ L lv RK where
  win := launch6.win.to₀
  block_pos := launch6.block_pos
  stage_whole := launch6.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec6 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch6.win launch6.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch6.win
      launch6.arr_whole c pd ((pd RK c).share_full fun _ => by rw [hpd c]; rfl) (fun b => V c b) (fun b => Vp c b)
      ((pd RK c).arrAt · cfg6.N)
      (fun w => by
        rw [hpd c]
        by_cases hw : w = 5
        · subst hw; exact (hout c).symm
        · exact ((dat' V c).arrAt_in w (isOut_of_ne w hw) _).trans
            (hne c _ fun h => hw (launch6.win.arr_inj (h.trans (rfl : vOUT = Pipeline.arrRef spec6 5)))).symm)
      (fun b hb => hne c b fun h => hb (Finset.mem_image.mpr ⟨5, Finset.mem_univ _, (rfl : Pipeline.arrRef spec6 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Region6
end
-- ==== Proof.KI.Region7.lean ====
/-
  REGION 7 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.KernelIdeal.Region7

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1000x1024
abbrev SB : Shape := S1024x256
abbrev SC : Shape := S1024x1
abbrev SD : Shape := S1000x1
abbrev SE : Shape := S1x256
abbrev SO : Shape := S1000x256
/-- The number of points in one reduction run, and the last of them. -/
abbrev nk : ℕ := 2
abbrev kl : ℕ := 1
/-- The output array, and the region's place among the program's pipelines. -/
abbrev vOUT : Ref sig .tc := main_v109
abbrev RK : Fin 17 := 7

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid7.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid7.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k7_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k7_pay2 X0 X1 (k7_pay1 (F := F)))) -∗ Q ⟨⟩))
    ⊢ wp frame (wpE (defs₀ (F := F)) 𝒱₀ c none) E (cc7__mm_kernel i M0 h0 M1 h1 M2 h2 M3 h3 M4 h4 M5 h5 Ms hs) Q := by
  iintro ⟨H0, H1, H2, H3, H4, H5, Hs, Hk⟩
  simp only [cc7__mm_kernel_eq_skeleton]; unfold cc7__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid7.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k7_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k7_pay2 X0 X1 Xs)) -∗ Q ⟨⟩))
    ⊢ wp frame (wpE (defs₀ (F := F)) 𝒱₀ c none) E (cc7__mm_kernel i M0 h0 M1 h1 M2 h2 M3 h3 M4 h4 M5 h5 Ms hs) Q := by
  iintro ⟨H0, H1, H2, H3, H4, H5, Hs, Hk⟩
  simp only [cc7__mm_kernel_eq_skeleton]; unfold cc7__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid7.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k7_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k7_pay3 (k7_pay2 X0 X1 Xs) X3 X4) ∗ pt c Ms (k7_pay2 X0 X1 Xs)) -∗ Q ⟨⟩))
    ⊢ wp frame (wpE (defs₀ (F := F)) 𝒱₀ c none) E (cc7__mm_kernel i M0 h0 M1 h1 M2 h2 M3 h3 M4 h4 M5 h5 Ms hs) Q := by
  iintro ⟨H0, H1, H2, H3, H4, H5, Hs, Hk⟩
  simp only [cc7__mm_kernel_eq_skeleton]; unfold cc7__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid7.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k7_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k7_pay3 (k7_pay2 X0 X1 (k7_pay1 (F := F))) X3 X4) ∗ pt c Ms (k7_pay2 X0 X1 (k7_pay1 (F := F)))) -∗ Q ⟨⟩))
    ⊢ wp frame (wpE (defs₀ (F := F)) 𝒱₀ c none) E (cc7__mm_kernel i M0 h0 M1 h1 M2 h2 M3 h3 M4 h4 M5 h5 Ms hs) Q := by
  iintro ⟨H0, H1, H2, H3, H4, H5, Hs, Hk⟩
  simp only [cc7__mm_kernel_eq_skeleton]; unfold cc7__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid7.Coords) (X0 : SA.Idx → Elt F .bf16) (X1 : SB.Idx → Elt F .bf16) (Xs : SO.Idx → Elt F .f32) :
    SO.Idx → Elt F .f32 :=
  k7_pay2 X0 X1 (if cond1 i = 1#1 then k7_pay1 (F := F) else Xs)

/-- What the output's staging buffer holds after the body at coordinates `i`. -/
abbrev outOut (i : grid7.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k7_cond2 i = 1#1 then k7_pay3 (accOut i X0 X1 Xs) X3 X4 else X5

/-- The kernel body at any coordinates: the four runs, by cases on its two conditions; the contents it leaves named by
    the caller (`A'`, `O'`). -/
theorem kernelRun (𝒱₀ : Variants) (c : Dev nD) (i : grid7.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc7__mm_kernel i M0 h0 M1 h1 M2 h2 M3 h3 M4 h4 M5 h5 Ms hs) Q := by
  subst hA hO
  unfold outOut accOut
  by_cases hc1 : cond1 i = 1#1 <;> by_cases hc2 : k7_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid7.N, cond1 (grid7.coords t) = 1#1 ↔ t.val % nk = 0 := by decide +kernel
theorem cond2_iff : ∀ t : Fin grid7.N, k7_cond2 (grid7.coords t) = 1#1 ↔ t.val % nk = kl := by decide +kernel

variable (V Vp : Dev nD → Valuation τ sig (Elt F))

/-- The windowed arrays at the region's entry. -/
abbrev A0 (c : Dev nD) (w : Fin cfg7.W) : Buf (Elt F) ((cfg7.win w).arr.view.loc (c : Thread nD τ)) := V c (Pipeline.arrRef spec7 w)

/-- What an input window's staging buffer holds when the body runs at point `t`: the window's block of its array there. -/
def inBlk (c : Dev nD) (w : Fin cfg7.W) (t : Fin cfg7.N) : (cfg7.win w).block.Idx → Elt F (cfg7.win w).elt :=
  (cfg7.win w).fill (cfg7.grid.coords t) (fun _ => Classical.arbitrary _) (((cfg7.win w).blk t).view.read (Elt F) (A0 V c w))

/-- The accumulator AFTER point `n`: the product of the point's two blocks added to zero at the first point of a reduction
    run (`n % nk = 0`), to what the point before left elsewhere. -/
def acc (c : Dev nD) : (n : ℕ) → n < cfg7.N → SO.Idx → Elt F .f32
  | 0, h => k7_pay2 (inBlk V c 0 ⟨0, h⟩) (inBlk V c 1 ⟨0, h⟩) (k7_pay1 (F := F))
  | n + 1, h => k7_pay2 (inBlk V c 0 ⟨n + 1, h⟩) (inBlk V c 1 ⟨n + 1, h⟩)
      (if (n + 1) % nk = 0 then k7_pay1 (F := F) else acc c n (Nat.lt_of_succ_lt h))

/-- The invariant before point `n`: the scratch accumulator at what the point before left (nothing is said where the
    body resets it), and every other scoped buffer the pipeline does not stage at something. -/
def Φ0 (c : Dev nD) (n : Fin (cfg7.N + 1)) : sProp 𝕄 :=
  iprop((∃ X : SO.Idx → Elt F .f32, ⌜∀ h : n.val - 1 < cfg7.N, n.val % nk ≠ 0 → X = acc V c (n.val - 1) h⌝ ∗ pt c (Memref.whole cc7_scratch0) X)
    ∗ Pipeline.scopedRestBut (Ix := Ix) (Name := ℕ) (U := U) (Lvl := Lvl) (Val := Elt F) spec7 c [cc7_scratch0])

/-- The proof data on core `c`, from the entry valuation `V`. -/
def dat (c : Dev nD) : Pipeline.Dat τ (Elt F) Ix ℕ U Lvl cfg7 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k7_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg7.W) (hw : (cfg7.win w).isOut = false) (hlive : ∀ i, cfg7.idle w i = false)
    (hclip : ∀ (i : cfg7.grid.Coords) a, (cfg7.win w).clip i a = none)
    (hafter : ∀ t, (dat' V c).after w t = inBlk V c w t)
    (t : Fin cfg7.N) (d : (cfg7.win w).block.Idx → Elt F (cfg7.win w).elt) :
    (dat' V c).before w t d = inBlk V c w t := by
  rw [(dat V c).before_in_eq_fetched w hw hlive (fun t t' _ => funext fun a => (hclip _ a).trans (hclip _ a).symm)
    (fun t => by rw [hafter]; exact (cfg7.win w).cut_fill _ _ _) t d,
    (dat V c).fetched_of_clip_none w t (hclip _) d (fun _ => Classical.arbitrary _)]
  rfl

theorem before0 (c : Dev nD) (t : Fin cfg7.N) (d) : (dat' V c).before 0 t d = inBlk V c 0 t :=
  before_in V c 0 rfl (fun _ => rfl) (fun _ _ => rfl) (fun _ => rfl) t d
theorem before1 (c : Dev nD) (t : Fin cfg7.N) (d) : (dat' V c).before 1 t d = inBlk V c 1 t :=
  before_in V c 1 rfl (fun _ => rfl) (fun _ _ => rfl) (fun _ => rfl) t d
theorem before2 (c : Dev nD) (t : Fin cfg7.N) (d) : (dat' V c).before 2 t d = inBlk V c 2 t :=
  before_in V c 2 rfl (fun _ => rfl) (fun _ _ => rfl) (fun _ => rfl) t d
theorem before3 (c : Dev nD) (t : Fin cfg7.N) (d) : (dat' V c).before 3 t d = inBlk V c 3 t :=
  before_in V c 3 rfl (fun _ => rfl) (fun _ _ => rfl) (fun _ => rfl) t d
theorem before4 (c : Dev nD) (t : Fin cfg7.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg7.N) (Xs : SO.Idx → Elt F .f32)
    (hXs : ∀ h : t.val - 1 < cfg7.N, t.val % nk ≠ 0 → Xs = acc V c (t.val - 1) h) :
    accOut (grid7.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k7_pay2 _ _ (if (n + 1) % nk = 0 then _ else _)
      rw [if_pos hm]
    · rw [if_neg (fun h => hm ((cond1_iff ⟨n + 1, hn⟩).mp h)), hXs (Nat.lt_of_succ_lt hn) hm]
      show _ = k7_pay2 _ _ (if (n + 1) % nk = 0 then _ else _)
      rw [if_neg hm]
      rfl

/-- The output window is idle exactly where the second condition fails, and written back exactly where it holds. -/
theorem idle5_of (t : Fin cfg7.N) (h : k7_cond2 (grid7.coords t) = 1#1) : cfg7.idle 5 (cfg7.grid.coords t) = false := by
  show (!(k7_cond2 (grid7.coords t) == 1#1)) = false
  rw [h]; rfl
theorem idle5_of_not (t : Fin cfg7.N) (h : ¬ k7_cond2 (grid7.coords t) = 1#1) : cfg7.idle 5 (cfg7.grid.coords t) = true := by
  show (!(k7_cond2 (grid7.coords t) == 1#1)) = true
  rw [Bool.not_eq_true', beq_eq_false_iff_ne]; exact h
theorem flush5_of_not (t : Fin cfg7.N) (h : ¬ k7_cond2 (grid7.coords t) = 1#1) : (cfg7.win 5).flush t = false :=
  Bool.eq_false_iff.mpr fun hf => h ((cond2_iff t).mpr ((flush7_5 t).mp hf))

theorem idleIn0 (i : cfg7.grid.Coords) : cfg7.idle 0 i = false := rfl
theorem idleIn1 (i : cfg7.grid.Coords) : cfg7.idle 1 i = false := rfl
theorem idleIn2 (i : cfg7.grid.Coords) : cfg7.idle 2 i = false := rfl
theorem idleIn3 (i : cfg7.grid.Coords) : cfg7.idle 3 i = false := rfl
theorem idleIn4 (i : cfg7.grid.Coords) : cfg7.idle 4 i = false := rfl
theorem after0 (c : Dev nD) (t : Fin cfg7.N) : (dat' V c).after 0 t = inBlk V c 0 t := rfl
theorem after1 (c : Dev nD) (t : Fin cfg7.N) : (dat' V c).after 1 t = inBlk V c 1 t := rfl
theorem after2 (c : Dev nD) (t : Fin cfg7.N) : (dat' V c).after 2 t = inBlk V c 2 t := rfl
theorem after3 (c : Dev nD) (t : Fin cfg7.N) : (dat' V c).after 3 t = inBlk V c 3 t := rfl
theorem after4 (c : Dev nD) (t : Fin cfg7.N) : (dat' V c).after 4 t = inBlk V c 4 t := rfl
theorem after5 (c : Dev nD) (t : Fin cfg7.N) :
    (dat' V c).after 5 t = k7_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W7, bigSep_W7]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k7_cond2 (grid7.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid7.coords t) (inBlk V c 0 t) (inBlk V c 1 t) (inBlk V c 3 t) (inBlk V c 4 t) ((dat' V c).before 5 t d5) Xs
        = k7_pay3 (acc V c t.val t.isLt) (inBlk V c 3 t) (inBlk V c 4 t) := by
      unfold outOut; rw [if_pos hc2, acc_step V c t Xs hXs]
    iapply (kernelRun 𝒱₀ c (grid7.coords t)
      (win7_0.stage (cfg7.slots t 0)) (hstage7_0 ((cfg7.slots t 0).cast nbuf7_0))
      (win7_1.stage (cfg7.slots t 1)) (hstage7_1 ((cfg7.slots t 1).cast nbuf7_1))
      (win7_2.stage (cfg7.slots t 2)) (hstage7_2 ((cfg7.slots t 2).cast nbuf7_2))
      (win7_3.stage (cfg7.slots t 3)) (hstage7_3 ((cfg7.slots t 3).cast nbuf7_3))
      (win7_4.stage (cfg7.slots t 4)) (hstage7_4 ((cfg7.slots t 4).cast nbuf7_4))
      (win7_5.stage (cfg7.slots t 5)) (hstage7_5 ((cfg7.slots t 5).cast nbuf7_5))
      (Memref.whole cc7_scratch0) (Memref.isWhole_whole _)
      (inBlk V c 0 t) (inBlk V c 1 t) (inBlk V c 2 t) (inBlk V c 3 t)
      (inBlk V c 4 t) ((dat' V c).before 5 t d5) Xs (acc V c t.val t.isLt) (k7_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid7.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid7.coords t)
      (win7_0.stage (cfg7.slots t 0)) (hstage7_0 ((cfg7.slots t 0).cast nbuf7_0))
      (win7_1.stage (cfg7.slots t 1)) (hstage7_1 ((cfg7.slots t 1).cast nbuf7_1))
      (win7_2.stage (cfg7.slots t 2)) (hstage7_2 ((cfg7.slots t 2).cast nbuf7_2))
      (win7_3.stage (cfg7.slots t 3)) (hstage7_3 ((cfg7.slots t 3).cast nbuf7_3))
      (win7_4.stage (cfg7.slots t 4)) (hstage7_4 ((cfg7.slots t 4).cast nbuf7_4))
      (win7_5.stage (cfg7.slots t 5)) (hstage7_5 ((cfg7.slots t 5).cast nbuf7_5))
      (Memref.whole cc7_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc7_scratch0) X : sProp 𝕄)
      = iprop(∃ f : Buf (Elt F) ((c : Thread nD τ).loc cc7_scratch0), ⌜f = X⌝ ∗ (((c : Thread nD τ).loc cc7_scratch0) ↦{fullShare} f)) :=
  (owns_eq_rep (c : Thread nD τ) (Memref.whole cc7_scratch0) fullShare X).symm.trans (owns_whole_eq (c : Thread nD τ) cc7_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec7 c) ⊢ Φ0 V c 0 := by
  rw [scopedRest7_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg7.N) ⊢ iprop(BI.emp ∗ BI.emp ∗ Pipeline.scopedRest (Ix := Ix) (Name := ℕ) (U := U) (Lvl := Lvl) (Val := Elt F) spec7 c) := by
  rw [scopedRest7_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg7.W) (hw : w ≠ 5) : (cfg7.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg7.N) (hne : ∀ c (b : Ref sig .tc), b ≠ vOUT → Vp c b = V c b) :
    Pipeline.RegionSeg (pcfgs (F := F)) adm pd ι defs₀ 𝒱₀ L lv RK where
  win := launch7.win.to₀
  block_pos := launch7.block_pos
  stage_whole := launch7.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec7 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch7.win launch7.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch7.win
      launch7.arr_whole c pd ((pd RK c).share_full fun _ => by rw [hpd c]; rfl) (fun b => V c b) (fun b => Vp c b)
      ((pd RK c).arrAt · cfg7.N)
      (fun w => by
        rw [hpd c]
        by_cases hw : w = 5
        · subst hw; exact (hout c).symm
        · exact ((dat' V c).arrAt_in w (isOut_of_ne w hw) _).trans
            (hne c _ fun h => hw (launch7.win.arr_inj (h.trans (rfl : vOUT = Pipeline.arrRef spec7 5)))).symm)
      (fun b hb => hne c b fun h => hb (Finset.mem_image.mpr ⟨5, Finset.mem_univ _, (rfl : Pipeline.arrRef spec7 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Region7
end
-- ==== Proof.KI.Region8.lean ====
/-
  Region 8 of @main: a matrix product on the grid (2, 1). The reduction axis has ONE tile, so at every grid point the
  body resets its accumulator, adds the point's product to it and writes the scaled, biased result to the output block:
  nothing is carried from point to point. Stated once, for any float family.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

set_option maxRecDepth 16384

noncomputable section

namespace Cert.KernelIdeal.Region8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions: both hold at every point (the second grid coordinate is always 0) -/

/-- The condition of the first `scf.if` (reset the accumulator), from the grid coordinates. -/
abbrev cond1 (i : grid8.Coords) : Prop :=
  (Scalar.cmpi .ne (Scalar.extui (Scalar.cmpi .eq (BitVec.ofNat 32 (i 1).val) 0#32)) 0#32) = 1#1

theorem hcond1 : ∀ t : Fin cfg8.N, cond1 (grid8.coords t) :=
  (by decide +kernel : ∀ t : Fin grid8.N, cond1 (grid8.coords t))
theorem hcond2 : ∀ t : Fin cfg8.N, k8_cond2 (grid8.coords t) = 1#1 :=
  (by decide +kernel : ∀ t : Fin grid8.N, k8_cond2 (grid8.coords t) = 1#1)

/-! ## The body on any whole staging memrefs -/

theorem off0 : (![0, 0] : Fin 2 → ℕ) = fun _ => 0 := by funext a; fin_cases a <;> rfl

/-- A load of a whole buffer through the whole-shape rectangle reads its contents. -/
theorem readAt_whole {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [View.readAt_eq_ld, h.read_unread]; exact View.ld_unit_zero hz inb X

set_option maxHeartbeats 1000000 in
/-- From the two operand blocks, the row scale and the bias row in their buffers, the output buffer and the accumulator
    at anything: the body leaves the inputs as they were, the accumulator at something, and in the output buffer
    `(0 + A · B) * scale + bias`. -/
theorem kernelRun (𝒱₀ : Variants) (c : Dev nD) (i : grid8.Coords)
    (arg2 : Memref sig .tc .vmem S1024x1000 .bf16) (harg2 : arg2.IsWhole) (arg3 : Memref sig .tc .vmem S1000x256 .bf16) (harg3 : arg3.IsWhole)
    (arg4 : Memref sig .tc .vmem S1000x1 .f32) (harg4 : arg4.IsWhole) (arg5 : Memref sig .tc .vmem S1024x1 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole) (hc1 : cond1 i) (hc2 : k8_cond2 i = 1#1)
    (xA : Vec F S1024x1000 .bf16) (xB : Vec F S1000x256 .bf16) (xs : Vec F S1024x1 .f32) (xb : Vec F S1x256 .f32)
    (E : Set ℕ) (K : PUnit → sProp 𝕄) :
    iprop(owns (c : Thread nD τ) arg2 fullShare xA ∗ owns (c : Thread nD τ) arg3 fullShare xB
        ∗ owns (c : Thread nD τ) arg5 fullShare xs ∗ owns (c : Thread nD τ) arg6 fullShare xb
        ∗ (∃ d, owns (c : Thread nD τ) arg7 fullShare d) ∗ (∃ d, owns (c : Thread nD τ) arg8 fullShare d)
        ∗ (iprop(owns (c : Thread nD τ) arg2 fullShare xA ∗ owns (c : Thread nD τ) arg3 fullShare xB
            ∗ owns (c : Thread nD τ) arg5 fullShare xs ∗ owns (c : Thread nD τ) arg6 fullShare xb
            ∗ owns (c : Thread nD τ) arg7 fullShare (k8_pay3 (k8_pay2 xA xB (k8_pay1 (F := F))) xs xb)
            ∗ (∃ d, owns (c : Thread nD τ) arg8 fullShare d)) -∗ K ⟨⟩))
      ⊢ wp frame (wpE (defs₀ (F := F)) 𝒱₀ c none) E (cc8__mm_kernel i arg2 harg2 arg3 harg3 arg4 harg4 arg5 harg5 arg6 harg6 arg7 harg7 arg8 harg8) K := by
  simp only [cc8__mm_kernel_eq_skeleton]; unfold cc8__mm_kernel_skel
  unfold owns
  iintro ⟨⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg2.eq_unread hf2
  obtain rfl := harg3.eq_unread hf3
  obtain rfl := harg5.eq_unread hf5
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    rw [View.read_writes_eq_canon _ _ _ (fun y => ⟨_, List.mem_singleton_self _, View.mem_set_unit_zero off0 inb_S1024x256_S1024x256_0_0 y⟩),
      View.canon_unit_zero off0, readAt_whole _ harg5 xs off0, readAt_whole _ harg6 xb off0]
    unfold kernelRun.sl.v16 kernelRun.sl.H8_2
    rw [View.readCov_cons_toLoadRect, readAt_whole _ harg2 xA off0, readAt_whole _ harg3 xB off0]
    unfold kernelRun.sl.v7 kernelRun.sl.H8_1
    rw [View.readCov_cons_toLoadRect]
  iexists _, _; isplitr; swap; · iexact H8
  ipureintro; rfl

/-! ## The proof data -/

variable (V Vp : Dev nD → Valuation τ sig (Elt F))

/-- Window `w`'s block at point `t`, read off its array as the region finds it. -/
def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The accumulator between points: at some contents (every point resets it before reading it), beside the other scoped
    buffers, unopened. -/
def Φc (c : Dev nD) : sProp 𝕄 :=
  iprop((∃ f : Buf (Elt F) ((c : Thread nD τ).loc cc8_scratch0), ((c : Thread nD τ).loc cc8_scratch0) ↦{fullShare} f)
    ∗ Pipeline.scopedRestBut (Ix := Ix) (Name := ℕ) (U := U) (Lvl := Lvl) (Val := Elt F) spec8 c [cc8_scratch0])

/-- The proof data on core `c`: the arrays as the region finds them; after the body at point `t` each input's buffer at
    its block, the output's at `(0 + A_t · B) * scale_t + bias`; nothing owed; full shares. -/
def dat (c : Dev nD) : Dat τ (Elt F) Ix ℕ U Lvl cfg8 c where
  A w := V c (Pipeline.arrRef spec8 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k8_pay3 (k8_pay2 (blk V c 0 t) (blk V c 1 t) (k8_pay1 (F := F))) (blk V c 3 t) (blk V c 4 t)
  Φ _ := Φc c
  q _ := fullShare
  owed _ := 0

theorem A_eq (c : Dev nD) (w : Fin cfg8.W) : (dat (Ix := Ix) (U := U) (Lvl := Lvl) V c).A w = V c (Pipeline.arrRef spec8 w) := by
  dsimp only [dat]

theorem after_0 (c : Dev nD) (t : Fin cfg8.N) : (dat (Ix := Ix) (U := U) (Lvl := Lvl) V c).after 0 t = blk V c 0 t := by dsimp only [dat]
theorem after_1 (c : Dev nD) (t : Fin cfg8.N) : (dat (Ix := Ix) (U := U) (Lvl := Lvl) V c).after 1 t = blk V c 1 t := by dsimp only [dat]
theorem after_2 (c : Dev nD) (t : Fin cfg8.N) : (dat (Ix := Ix) (U := U) (Lvl := Lvl) V c).after 2 t = blk V c 2 t := by dsimp only [dat]
theorem after_3 (c : Dev nD) (t : Fin cfg8.N) : (dat (Ix := Ix) (U := U) (Lvl := Lvl) V c).after 3 t = blk V c 3 t := by dsimp only [dat]
theorem after_4 (c : Dev nD) (t : Fin cfg8.N) : (dat (Ix := Ix) (U := U) (Lvl := Lvl) V c).after 4 t = blk V c 4 t := by dsimp only [dat]
theorem after_5 (c : Dev nD) (t : Fin cfg8.N) : (dat (Ix := Ix) (U := U) (Lvl := Lvl) V c).after 5 t
    = k8_pay3 (k8_pay2 (blk V c 0 t) (blk V c 1 t) (k8_pay1 (F := F))) (blk V c 3 t) (blk V c 4 t) := by dsimp only [dat]

/-- An input window's current staging buffer holds its block at every point, fetched there or not: unfetched, the block
    index has not moved, and the body left the block in place. -/
theorem before_0 (c : Dev nD) (t : Fin cfg8.N) (d) : (dat (Ix := Ix) (U := U) (Lvl := Lvl) V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg8.N) (d) : (dat (Ix := Ix) (U := U) (Lvl := Lvl) V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg8.N) (d) : (dat (Ix := Ix) (U := U) (Lvl := Lvl) V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg8.N) (d) : (dat (Ix := Ix) (U := U) (Lvl := Lvl) V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg8.N) (d) : (dat (Ix := Ix) (U := U) (Lvl := Lvl) V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body obligation -/

/-- Each window's current staging memref at point `t`, spelled as the pipeline passes it to the body. -/
abbrev ms_0 (t : Fin cfg8.N) : Memref sig .tc .vmem S1024x1000 .bf16 := win8_0.stage (cfg8.slots t 0)
abbrev ms_1 (t : Fin cfg8.N) : Memref sig .tc .vmem S1000x256 .bf16 := win8_1.stage (cfg8.slots t 1)
abbrev ms_2 (t : Fin cfg8.N) : Memref sig .tc .vmem S1000x1 .f32 := win8_2.stage (cfg8.slots t 2)
abbrev ms_3 (t : Fin cfg8.N) : Memref sig .tc .vmem S1024x1 .f32 := win8_3.stage (cfg8.slots t 3)
abbrev ms_4 (t : Fin cfg8.N) : Memref sig .tc .vmem S1x256 .f32 := win8_4.stage (cfg8.slots t 4)
abbrev ms_5 (t : Fin cfg8.N) : Memref sig .tc .vmem S1024x256 .f32 := win8_5.stage (cfg8.slots t 5)

/-- What the body is called with at point `t`, the windows one by one, -/
def bodyPre (ι : Ix) (c : Dev nD) (t : Fin cfg8.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms_0 t) fullShare ((dat (Ix := Ix) (U := U) (Lvl := Lvl) V c).before 0 t d))
    ∗ (∃ d, owns (c : Thread nD τ) (ms_1 t) fullShare ((dat (Ix := Ix) (U := U) (Lvl := Lvl) V c).before 1 t d))
    ∗ (∃ d, owns (c : Thread nD τ) (ms_2 t) fullShare ((dat (Ix := Ix) (U := U) (Lvl := Lvl) V c).before 2 t d))
    ∗ (∃ d, owns (c : Thread nD τ) (ms_3 t) fullShare ((dat (Ix := Ix) (U := U) (Lvl := Lvl) V c).before 3 t d))
    ∗ (∃ d, owns (c : Thread nD τ) (ms_4 t) fullShare ((dat (Ix := Ix) (U := U) (Lvl := Lvl) V c).before 4 t d))
    ∗ (∃ d, owns (c : Thread nD τ) (ms_5 t) fullShare ((dat (Ix := Ix) (U := U) (Lvl := Lvl) V c).before 5 t d)))

/-- and what it returns. -/
def bodyPost (ι : Ix) (c : Dev nD) (t : Fin cfg8.N) : sProp 𝕄 :=
  iprop((dat (Ix := Ix) (U := U) (Lvl := Lvl) V c).Φ t.succ ∗ (dat (Ix := Ix) (U := U) (Lvl := Lvl) V c).owesAt ι t.succ
    ∗ owns (c : Thread nD τ) (ms_0 t) fullShare ((dat (Ix := Ix) (U := U) (Lvl := Lvl) V c).after 0 t)
    ∗ owns (c : Thread nD τ) (ms_1 t) fullShare ((dat (Ix := Ix) (U := U) (Lvl := Lvl) V c).after 1 t)
    ∗ owns (c : Thread nD τ) (ms_2 t) fullShare ((dat (Ix := Ix) (U := U) (Lvl := Lvl) V c).after 2 t)
    ∗ owns (c : Thread nD τ) (ms_3 t) fullShare ((dat (Ix := Ix) (U := U) (Lvl := Lvl) V c).after 3 t)
    ∗ owns (c : Thread nD τ) (ms_4 t) fullShare ((dat (Ix := Ix) (U := U) (Lvl := Lvl) V c).after 4 t)
    ∗ owns (c : Thread nD τ) (ms_5 t) fullShare ((dat (Ix := Ix) (U := U) (Lvl := Lvl) V c).after 5 t))

set_option maxHeartbeats 800000 in
/-- The body at any point: the inputs' buffers hold their blocks, both conditions hold, so the run applies; the
    accumulator is handed over at anything and taken back at anything; the core owes nothing throughout. -/
theorem sound_body (ι : Ix) (𝒱₀ : Variants) (c : Dev nD) (t : Fin cfg8.N) :
    bodyPre (U := U) (Lvl := Lvl) V ι c t ⊢ wp frame (wpE (defs₀ (F := F)) 𝒱₀ c none) Set.univ (bodyAt8 t) (fun _ => bodyPost (U := U) (Lvl := Lvl) V ι c t) := by
  unfold bodyPre bodyPost bodyAt8
  simp only [before_0, before_1, before_2, before_3, before_4]
  rw [show (dat V c).Φ t.succ = Φc c from rfl, show (dat V c).Φ t.castSucc = Φc c from rfl,
    show (dat V c).owesAt ι t.succ = (dat V c).owesAt ι t.castSucc from rfl,
    after_0, after_1, after_2, after_3, after_4, after_5]
  unfold Φc
  iintro ⟨⟨⟨%fs, Hs⟩, Hr⟩, Ho, ⟨%d0, H0⟩, ⟨%d1, H1⟩, ⟨%d2, H2⟩, ⟨%d3, H3⟩, ⟨%d4, H4⟩, ⟨%d5, H5⟩⟩
  iapply (kernelRun 𝒱₀ c (grid8.coords t) _ _ _ _ _ _ _ _ _ _ _ _ _ _ (hcond1 t) (hcond2 t)
    (blk V c 0 t) (blk V c 1 t) (blk V c 3 t) (blk V c 4 t) Set.univ _)
  isplitl [H0]; · iexact H0
  isplitl [H1]; · iexact H1
  isplitl [H3]; · iexact H3
  isplitl [H4]; · iexact H4
  isplitl [H5]; · iexists _; iexact H5
  isplitl [Hs]; · iexists fs; iapply (Entails.of_eq (owns_whole (c : Thread nD τ) cc8_scratch0 fullShare fs).symm); iexact Hs
  iintro ⟨H0, H1, H3, H4, H5, ⟨%ds, Hs⟩⟩
  isplitl [Hs Hr]
  · isplitl [Hs]; · iexists ds; iapply (Entails.of_eq (owns_whole (c : Thread nD τ) cc8_scratch0 fullShare ds)); iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-- The output window is live at every point: its condition holds there. -/
theorem idle_5 (t : Fin cfg8.N) : cfg8.idle 5 (cfg8.grid.coords t) = false := by
  show (!(k8_cond2 (grid8.coords t) == 1#1)) = false
  rw [hcond2 t]; rfl

set_option maxRecDepth 65536 in
/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W8, bigSep_W8]
  refine (sound_body V ι 𝒱₀ c t).trans (wp_mono _ _ _ fun _ => ?_)
  unfold bodyPost
  refine sep_mono .rfl (sep_mono .rfl (sep_mono .rfl (sep_mono .rfl (sep_mono .rfl (sep_mono .rfl (sep_mono .rfl ?_))))))
  rw [idle_5 t]

/-! ## The region, between the valuations of the core's unscoped buffers before and after it -/

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final (c : Dev nD) (hout : ∀ c, Vp c main_v115 = (dat (Ix := Ix) (U := U) (Lvl := Lvl) V c).arrAt 5 cfg8.N)
    (hne : ∀ c (b : Ref sig .tc), b ≠ main_v115 → Vp c b = V c b) :
    ∀ w : Fin cfg8.W, (dat (Ix := Ix) (U := U) (Lvl := Lvl) V c).arrAt w cfg8.N = Vp c (Pipeline.arrRef spec8 w)
  | ⟨0, _⟩ => ((dat V c).arrAt_in 0 rfl _).trans (hne c _ (ref_ne (by decide))).symm
  | ⟨1, _⟩ => ((dat V c).arrAt_in 1 rfl _).trans (hne c _ (ref_ne (by decide))).symm
  | ⟨2, _⟩ => ((dat V c).arrAt_in 2 rfl _).trans (hne c _ (ref_ne (by decide))).symm
  | ⟨3, _⟩ => ((dat V c).arrAt_in 3 rfl _).trans (hne c _ (ref_ne (by decide))).symm
  | ⟨4, _⟩ => ((dat V c).arrAt_in 4 rfl _).trans (hne c _ (ref_ne (by decide))).symm
  | ⟨5, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION: entered holding every unscoped buffer at `V c`, left holding them at `Vp c`, which has the output array at
    what the write-backs left and every other buffer as it was. The windows' arrays go into the pipeline, the other
    unscoped buffers pass by, the accumulator and the other scoped buffers make the invariant; the kernel has no
    semaphore of its own. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 8 c = dat V c)
    (hout : ∀ c, Vp c main_v115 = (dat (Ix := Ix) (U := U) (Lvl := Lvl) V c).arrAt 5 cfg8.N)
    (hne : ∀ c (b : Ref sig .tc), b ≠ main_v115 → Vp c b = V c b) :
    Pipeline.RegionSeg (pcfgs (F := F)) adm pd ι defs₀ 𝒱₀ L lv 8 where
  win := launch8.win.to₀
  block_pos := launch8.block_pos
  stage_whole := launch8.stage_whole
  K := PEmpty
  osem := fun k => k.elim
  ho := Pipeline.OwnSemFacts.none _
  hbody c := by rw [hpd]; exact (body_obligation V ι 𝒱₀ c).loose
  hwaits := Pipeline.hwaits_of_owed_zero _ _ _ _ L lv 8 fun c _ => by rw [hpd]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec8 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 8) launch8.win launch8.arr_whole c
      (by rw [hpd]; exact (dat V c).share_full fun _ => rfl) (fun b => V c b) (by rw [hpd]; exact fun _ => rfl)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [hpd, show (dat V c).Φ 0 = Φc c from rfl]; unfold Φc
    rw [show Pipeline.scopedRest (Pipeline.pin (pcfgs (F := F)) adm 8).spec c = _ from scopedRest8_split c]
    iintro ⟨-, -, Hr⟩
    iexact Hr
  hout c := by
    rw [hpd, Pipeline.ownSems0_none, show (dat V c).Φ (Fin.last (Pipeline.pin (pcfgs (F := F)) adm 8).N) = Φc c from rfl]; unfold Φc
    rw [show Pipeline.scopedRest (Pipeline.pin (pcfgs (F := F)) adm 8).spec c = _ from scopedRest8_split c]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 8) launch8.win launch8.arr_whole c pd
      (by rw [hpd]; exact (dat V c).share_full fun _ => rfl) (fun b => V c b) (fun b => Vp c b)
      (fun w => (pd 8 c).arrAt w (Pipeline.pin (pcfgs (F := F)) adm 8).N)
      (fun w => by rw [hpd]; exact arrAt_final V Vp c hout hne w)
      (fun b hb => hne c b fun e => hb (e ▸ Finset.mem_image_of_mem _ (Finset.mem_univ (5 : Fin 6))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      icases HO with ⟨%W, -, HO⟩; iexists W; iexact HO

end Cert.KernelIdeal.Region8

end
-- ==== Proof.KI.Region9.lean ====
/-
  Region 9 of @main: a matrix product on the grid (2, 1). The reduction axis has ONE tile, so at every grid point the
  body resets its accumulator, adds the point's product to it and writes the scaled, biased result to the output block:
  nothing is carried from point to point. Stated once, for any float family.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

set_option maxRecDepth 16384

noncomputable section

namespace Cert.KernelIdeal.Region9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions: both hold at every point (the second grid coordinate is always 0) -/

/-- The condition of the first `scf.if` (reset the accumulator), from the grid coordinates. -/
abbrev cond1 (i : grid9.Coords) : Prop :=
  (Scalar.cmpi .ne (Scalar.extui (Scalar.cmpi .eq (BitVec.ofNat 32 (i 1).val) 0#32)) 0#32) = 1#1

theorem hcond1 : ∀ t : Fin cfg9.N, cond1 (grid9.coords t) :=
  (by decide +kernel : ∀ t : Fin grid9.N, cond1 (grid9.coords t))
theorem hcond2 : ∀ t : Fin cfg9.N, k9_cond2 (grid9.coords t) = 1#1 :=
  (by decide +kernel : ∀ t : Fin grid9.N, k9_cond2 (grid9.coords t) = 1#1)

/-! ## The body on any whole staging memrefs -/

theorem off0 : (![0, 0] : Fin 2 → ℕ) = fun _ => 0 := by funext a; fin_cases a <;> rfl

/-- A load of a whole buffer through the whole-shape rectangle reads its contents. -/
theorem readAt_whole {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [View.readAt_eq_ld, h.read_unread]; exact View.ld_unit_zero hz inb X

set_option maxHeartbeats 1000000 in
/-- From the two operand blocks, the row scale and the bias row in their buffers, the output buffer and the accumulator
    at anything: the body leaves the inputs as they were, the accumulator at something, and in the output buffer
    `(0 + A · B) * scale + bias`. -/
theorem kernelRun (𝒱₀ : Variants) (c : Dev nD) (i : grid9.Coords)
    (arg2 : Memref sig .tc .vmem S1024x256 .bf16) (harg2 : arg2.IsWhole) (arg3 : Memref sig .tc .vmem S256x256 .bf16) (harg3 : arg3.IsWhole)
    (arg4 : Memref sig .tc .vmem S256x1 .f32) (harg4 : arg4.IsWhole) (arg5 : Memref sig .tc .vmem S1024x1 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole) (hc1 : cond1 i) (hc2 : k9_cond2 i = 1#1)
    (xA : Vec F S1024x256 .bf16) (xB : Vec F S256x256 .bf16) (xs : Vec F S1024x1 .f32) (xb : Vec F S1x256 .f32)
    (E : Set ℕ) (K : PUnit → sProp 𝕄) :
    iprop(owns (c : Thread nD τ) arg2 fullShare xA ∗ owns (c : Thread nD τ) arg3 fullShare xB
        ∗ owns (c : Thread nD τ) arg5 fullShare xs ∗ owns (c : Thread nD τ) arg6 fullShare xb
        ∗ (∃ d, owns (c : Thread nD τ) arg7 fullShare d) ∗ (∃ d, owns (c : Thread nD τ) arg8 fullShare d)
        ∗ (iprop(owns (c : Thread nD τ) arg2 fullShare xA ∗ owns (c : Thread nD τ) arg3 fullShare xB
            ∗ owns (c : Thread nD τ) arg5 fullShare xs ∗ owns (c : Thread nD τ) arg6 fullShare xb
            ∗ owns (c : Thread nD τ) arg7 fullShare (k9_pay3 (k9_pay2 xA xB (k9_pay1 (F := F))) xs xb)
            ∗ (∃ d, owns (c : Thread nD τ) arg8 fullShare d)) -∗ K ⟨⟩))
      ⊢ wp frame (wpE (defs₀ (F := F)) 𝒱₀ c none) E (cc9__mm_kernel i arg2 harg2 arg3 harg3 arg4 harg4 arg5 harg5 arg6 harg6 arg7 harg7 arg8 harg8) K := by
  simp only [cc9__mm_kernel_eq_skeleton]; unfold cc9__mm_kernel_skel
  unfold owns
  iintro ⟨⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg2.eq_unread hf2
  obtain rfl := harg3.eq_unread hf3
  obtain rfl := harg5.eq_unread hf5
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    rw [View.read_writes_eq_canon _ _ _ (fun y => ⟨_, List.mem_singleton_self _, View.mem_set_unit_zero off0 inb_S1024x256_S1024x256_0_0 y⟩),
      View.canon_unit_zero off0, readAt_whole _ harg5 xs off0, readAt_whole _ harg6 xb off0]
    unfold kernelRun.sl.v16 kernelRun.sl.H8_2
    rw [View.readCov_cons_toLoadRect, readAt_whole _ harg2 xA off0, readAt_whole _ harg3 xB off0]
    unfold kernelRun.sl.v7 kernelRun.sl.H8_1
    rw [View.readCov_cons_toLoadRect]
  iexists _, _; isplitr; swap; · iexact H8
  ipureintro; rfl

/-! ## The proof data -/

variable (V Vp : Dev nD → Valuation τ sig (Elt F))

/-- Window `w`'s block at point `t`, read off its array as the region finds it. -/
def blk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The accumulator between points: at some contents (every point resets it before reading it), beside the other scoped
    buffers, unopened. -/
def Φc (c : Dev nD) : sProp 𝕄 :=
  iprop((∃ f : Buf (Elt F) ((c : Thread nD τ).loc cc9_scratch0), ((c : Thread nD τ).loc cc9_scratch0) ↦{fullShare} f)
    ∗ Pipeline.scopedRestBut (Ix := Ix) (Name := ℕ) (U := U) (Lvl := Lvl) (Val := Elt F) spec9 c [cc9_scratch0])

/-- The proof data on core `c`: the arrays as the region finds them; after the body at point `t` each input's buffer at
    its block, the output's at `(0 + A_t · B) * scale_t + bias`; nothing owed; full shares. -/
def dat (c : Dev nD) : Dat τ (Elt F) Ix ℕ U Lvl cfg9 c where
  A w := V c (Pipeline.arrRef spec9 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k9_pay3 (k9_pay2 (blk V c 0 t) (blk V c 1 t) (k9_pay1 (F := F))) (blk V c 3 t) (blk V c 4 t)
  Φ _ := Φc c
  q _ := fullShare
  owed _ := 0

theorem A_eq (c : Dev nD) (w : Fin cfg9.W) : (dat (Ix := Ix) (U := U) (Lvl := Lvl) V c).A w = V c (Pipeline.arrRef spec9 w) := by
  dsimp only [dat]

theorem after_0 (c : Dev nD) (t : Fin cfg9.N) : (dat (Ix := Ix) (U := U) (Lvl := Lvl) V c).after 0 t = blk V c 0 t := by dsimp only [dat]
theorem after_1 (c : Dev nD) (t : Fin cfg9.N) : (dat (Ix := Ix) (U := U) (Lvl := Lvl) V c).after 1 t = blk V c 1 t := by dsimp only [dat]
theorem after_2 (c : Dev nD) (t : Fin cfg9.N) : (dat (Ix := Ix) (U := U) (Lvl := Lvl) V c).after 2 t = blk V c 2 t := by dsimp only [dat]
theorem after_3 (c : Dev nD) (t : Fin cfg9.N) : (dat (Ix := Ix) (U := U) (Lvl := Lvl) V c).after 3 t = blk V c 3 t := by dsimp only [dat]
theorem after_4 (c : Dev nD) (t : Fin cfg9.N) : (dat (Ix := Ix) (U := U) (Lvl := Lvl) V c).after 4 t = blk V c 4 t := by dsimp only [dat]
theorem after_5 (c : Dev nD) (t : Fin cfg9.N) : (dat (Ix := Ix) (U := U) (Lvl := Lvl) V c).after 5 t
    = k9_pay3 (k9_pay2 (blk V c 0 t) (blk V c 1 t) (k9_pay1 (F := F))) (blk V c 3 t) (blk V c 4 t) := by dsimp only [dat]

/-- An input window's current staging buffer holds its block at every point, fetched there or not: unfetched, the block
    index has not moved, and the body left the block in place. -/
theorem before_0 (c : Dev nD) (t : Fin cfg9.N) (d) : (dat (Ix := Ix) (U := U) (Lvl := Lvl) V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg9.N) (d) : (dat (Ix := Ix) (U := U) (Lvl := Lvl) V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg9.N) (d) : (dat (Ix := Ix) (U := U) (Lvl := Lvl) V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg9.N) (d) : (dat (Ix := Ix) (U := U) (Lvl := Lvl) V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg9.N) (d) : (dat (Ix := Ix) (U := U) (Lvl := Lvl) V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body obligation -/

/-- Each window's current staging memref at point `t`, spelled as the pipeline passes it to the body. -/
abbrev ms_0 (t : Fin cfg9.N) : Memref sig .tc .vmem S1024x256 .bf16 := win9_0.stage (cfg9.slots t 0)
abbrev ms_1 (t : Fin cfg9.N) : Memref sig .tc .vmem S256x256 .bf16 := win9_1.stage (cfg9.slots t 1)
abbrev ms_2 (t : Fin cfg9.N) : Memref sig .tc .vmem S256x1 .f32 := win9_2.stage (cfg9.slots t 2)
abbrev ms_3 (t : Fin cfg9.N) : Memref sig .tc .vmem S1024x1 .f32 := win9_3.stage (cfg9.slots t 3)
abbrev ms_4 (t : Fin cfg9.N) : Memref sig .tc .vmem S1x256 .f32 := win9_4.stage (cfg9.slots t 4)
abbrev ms_5 (t : Fin cfg9.N) : Memref sig .tc .vmem S1024x256 .f32 := win9_5.stage (cfg9.slots t 5)

/-- What the body is called with at point `t`, the windows one by one, -/
def bodyPre (ι : Ix) (c : Dev nD) (t : Fin cfg9.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms_0 t) fullShare ((dat (Ix := Ix) (U := U) (Lvl := Lvl) V c).before 0 t d))
    ∗ (∃ d, owns (c : Thread nD τ) (ms_1 t) fullShare ((dat (Ix := Ix) (U := U) (Lvl := Lvl) V c).before 1 t d))
    ∗ (∃ d, owns (c : Thread nD τ) (ms_2 t) fullShare ((dat (Ix := Ix) (U := U) (Lvl := Lvl) V c).before 2 t d))
    ∗ (∃ d, owns (c : Thread nD τ) (ms_3 t) fullShare ((dat (Ix := Ix) (U := U) (Lvl := Lvl) V c).before 3 t d))
    ∗ (∃ d, owns (c : Thread nD τ) (ms_4 t) fullShare ((dat (Ix := Ix) (U := U) (Lvl := Lvl) V c).before 4 t d))
    ∗ (∃ d, owns (c : Thread nD τ) (ms_5 t) fullShare ((dat (Ix := Ix) (U := U) (Lvl := Lvl) V c).before 5 t d)))

/-- and what it returns. -/
def bodyPost (ι : Ix) (c : Dev nD) (t : Fin cfg9.N) : sProp 𝕄 :=
  iprop((dat (Ix := Ix) (U := U) (Lvl := Lvl) V c).Φ t.succ ∗ (dat (Ix := Ix) (U := U) (Lvl := Lvl) V c).owesAt ι t.succ
    ∗ owns (c : Thread nD τ) (ms_0 t) fullShare ((dat (Ix := Ix) (U := U) (Lvl := Lvl) V c).after 0 t)
    ∗ owns (c : Thread nD τ) (ms_1 t) fullShare ((dat (Ix := Ix) (U := U) (Lvl := Lvl) V c).after 1 t)
    ∗ owns (c : Thread nD τ) (ms_2 t) fullShare ((dat (Ix := Ix) (U := U) (Lvl := Lvl) V c).after 2 t)
    ∗ owns (c : Thread nD τ) (ms_3 t) fullShare ((dat (Ix := Ix) (U := U) (Lvl := Lvl) V c).after 3 t)
    ∗ owns (c : Thread nD τ) (ms_4 t) fullShare ((dat (Ix := Ix) (U := U) (Lvl := Lvl) V c).after 4 t)
    ∗ owns (c : Thread nD τ) (ms_5 t) fullShare ((dat (Ix := Ix) (U := U) (Lvl := Lvl) V c).after 5 t))

set_option maxHeartbeats 800000 in
/-- The body at any point: the inputs' buffers hold their blocks, both conditions hold, so the run applies; the
    accumulator is handed over at anything and taken back at anything; the core owes nothing throughout. -/
theorem sound_body (ι : Ix) (𝒱₀ : Variants) (c : Dev nD) (t : Fin cfg9.N) :
    bodyPre (U := U) (Lvl := Lvl) V ι c t ⊢ wp frame (wpE (defs₀ (F := F)) 𝒱₀ c none) Set.univ (bodyAt9 t) (fun _ => bodyPost (U := U) (Lvl := Lvl) V ι c t) := by
  unfold bodyPre bodyPost bodyAt9
  simp only [before_0, before_1, before_2, before_3, before_4]
  rw [show (dat V c).Φ t.succ = Φc c from rfl, show (dat V c).Φ t.castSucc = Φc c from rfl,
    show (dat V c).owesAt ι t.succ = (dat V c).owesAt ι t.castSucc from rfl,
    after_0, after_1, after_2, after_3, after_4, after_5]
  unfold Φc
  iintro ⟨⟨⟨%fs, Hs⟩, Hr⟩, Ho, ⟨%d0, H0⟩, ⟨%d1, H1⟩, ⟨%d2, H2⟩, ⟨%d3, H3⟩, ⟨%d4, H4⟩, ⟨%d5, H5⟩⟩
  iapply (kernelRun 𝒱₀ c (grid9.coords t) _ _ _ _ _ _ _ _ _ _ _ _ _ _ (hcond1 t) (hcond2 t)
    (blk V c 0 t) (blk V c 1 t) (blk V c 3 t) (blk V c 4 t) Set.univ _)
  isplitl [H0]; · iexact H0
  isplitl [H1]; · iexact H1
  isplitl [H3]; · iexact H3
  isplitl [H4]; · iexact H4
  isplitl [H5]; · iexists _; iexact H5
  isplitl [Hs]; · iexists fs; iapply (Entails.of_eq (owns_whole (c : Thread nD τ) cc9_scratch0 fullShare fs).symm); iexact Hs
  iintro ⟨H0, H1, H3, H4, H5, ⟨%ds, Hs⟩⟩
  isplitl [Hs Hr]
  · isplitl [Hs]; · iexists ds; iapply (Entails.of_eq (owns_whole (c : Thread nD τ) cc9_scratch0 fullShare ds)); iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-- The output window is live at every point: its condition holds there. -/
theorem idle_5 (t : Fin cfg9.N) : cfg9.idle 5 (cfg9.grid.coords t) = false := by
  show (!(k9_cond2 (grid9.coords t) == 1#1)) = false
  rw [hcond2 t]; rfl

set_option maxRecDepth 65536 in
/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W9, bigSep_W9]
  refine (sound_body V ι 𝒱₀ c t).trans (wp_mono _ _ _ fun _ => ?_)
  unfold bodyPost
  refine sep_mono .rfl (sep_mono .rfl (sep_mono .rfl (sep_mono .rfl (sep_mono .rfl (sep_mono .rfl (sep_mono .rfl ?_))))))
  rw [idle_5 t]

/-! ## The region, between the valuations of the core's unscoped buffers before and after it -/

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final (c : Dev nD) (hout : ∀ c, Vp c main_v123 = (dat (Ix := Ix) (U := U) (Lvl := Lvl) V c).arrAt 5 cfg9.N)
    (hne : ∀ c (b : Ref sig .tc), b ≠ main_v123 → Vp c b = V c b) :
    ∀ w : Fin cfg9.W, (dat (Ix := Ix) (U := U) (Lvl := Lvl) V c).arrAt w cfg9.N = Vp c (Pipeline.arrRef spec9 w)
  | ⟨0, _⟩ => ((dat V c).arrAt_in 0 rfl _).trans (hne c _ (ref_ne (by decide))).symm
  | ⟨1, _⟩ => ((dat V c).arrAt_in 1 rfl _).trans (hne c _ (ref_ne (by decide))).symm
  | ⟨2, _⟩ => ((dat V c).arrAt_in 2 rfl _).trans (hne c _ (ref_ne (by decide))).symm
  | ⟨3, _⟩ => ((dat V c).arrAt_in 3 rfl _).trans (hne c _ (ref_ne (by decide))).symm
  | ⟨4, _⟩ => ((dat V c).arrAt_in 4 rfl _).trans (hne c _ (ref_ne (by decide))).symm
  | ⟨5, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION: entered holding every unscoped buffer at `V c`, left holding them at `Vp c`, which has the output array at
    what the write-backs left and every other buffer as it was. The windows' arrays go into the pipeline, the other
    unscoped buffers pass by, the accumulator and the other scoped buffers make the invariant; the kernel has no
    semaphore of its own. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 9 c = dat V c)
    (hout : ∀ c, Vp c main_v123 = (dat (Ix := Ix) (U := U) (Lvl := Lvl) V c).arrAt 5 cfg9.N)
    (hne : ∀ c (b : Ref sig .tc), b ≠ main_v123 → Vp c b = V c b) :
    Pipeline.RegionSeg (pcfgs (F := F)) adm pd ι defs₀ 𝒱₀ L lv 9 where
  win := launch9.win.to₀
  block_pos := launch9.block_pos
  stage_whole := launch9.stage_whole
  K := PEmpty
  osem := fun k => k.elim
  ho := Pipeline.OwnSemFacts.none _
  hbody c := by rw [hpd]; exact (body_obligation V ι 𝒱₀ c).loose
  hwaits := Pipeline.hwaits_of_owed_zero _ _ _ _ L lv 9 fun c _ => by rw [hpd]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec9 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 9) launch9.win launch9.arr_whole c
      (by rw [hpd]; exact (dat V c).share_full fun _ => rfl) (fun b => V c b) (by rw [hpd]; exact fun _ => rfl)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [hpd, show (dat V c).Φ 0 = Φc c from rfl]; unfold Φc
    rw [show Pipeline.scopedRest (Pipeline.pin (pcfgs (F := F)) adm 9).spec c = _ from scopedRest9_split c]
    iintro ⟨-, -, Hr⟩
    iexact Hr
  hout c := by
    rw [hpd, Pipeline.ownSems0_none, show (dat V c).Φ (Fin.last (Pipeline.pin (pcfgs (F := F)) adm 9).N) = Φc c from rfl]; unfold Φc
    rw [show Pipeline.scopedRest (Pipeline.pin (pcfgs (F := F)) adm 9).spec c = _ from scopedRest9_split c]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 9) launch9.win launch9.arr_whole c pd
      (by rw [hpd]; exact (dat V c).share_full fun _ => rfl) (fun b => V c b) (fun b => Vp c b)
      (fun w => (pd 9 c).arrAt w (Pipeline.pin (pcfgs (F := F)) adm 9).N)
      (fun w => by rw [hpd]; exact arrAt_final V Vp c hout hne w)
      (fun b hb => hne c b fun e => hb (e ▸ Finset.mem_image_of_mem _ (Finset.mem_univ (5 : Fin 6))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      icases HO with ⟨%W, -, HO⟩; iexists W; iexact HO

end Cert.KernelIdeal.Region9

end
-- ==== Proof.KI.Region10.lean ====
/-
  REGION 10 of the kernel program: a blocked matrix product with a scratch accumulator carried along the reduction axis.
  On the grid (row tile i, reduction tile k), point t = i * nk + k, the body zeroes the accumulator where k = 0, adds the
  product of the left block (i, k) and the right block (k) to it at every point, and where k = nk - 1 stores
  accumulator * row scales + bias row into the output block i, which is then written back. Stated once for any float
  values: the body's triple at arbitrary coordinates and contents, the accumulator's contents point by point by recursion,
  the pipeline's proof data and body obligation, and the region's segment record between two valuations of the unscoped
  buffers that differ at the output array only.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Tactic
import Idealize.ShloMosaic.Lib.Pipeline.Frame
import Idealize.ShloMosaic.Lib.Pipeline.FrameBody
import Idealize.ShloMosaic.Lib.Pipeline.TableIdle
import Idealize.ShloMosaic.Lib.Pipeline.Regions
import Idealize.ShloMosaic.Lib.Pipeline.RegionsLoop
import Idealize.ShloMosaic.Lib.Pipeline.Value

noncomputable section

namespace Cert.KernelIdeal.Region10

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The region's literals -/

/-- The blocks of windows 0 to 4 (left operand, right operand, input scales, row scales, bias row), and the block of
    window 5, which is also the scratch accumulator's shape. -/
abbrev SA : Shape := S1000x1024
abbrev SB : Shape := S1024x256
abbrev SC : Shape := S1024x1
abbrev SD : Shape := S1000x1
abbrev SE : Shape := S1x256
abbrev SO : Shape := S1000x256
/-- The number of points in one reduction run, and the last of them. -/
abbrev nk : ℕ := 2
abbrev kl : ℕ := 1
/-- The output array, and the region's place among the program's pipelines. -/
abbrev vOUT : Ref sig .tc := main_v131
abbrev RK : Fin 17 := 10

/-! ## Loads and stores through the whole-block rectangle -/

/-- The zero offsets of a rank-2 rectangle. -/
theorem off2 : (![0, 0] : Fin 2 → ℕ) = fun _ => 0 := by funext a; fin_cases a <;> rfl

/-- A load of the whole block of a memref held at the representative of `X` reads `X`. -/
theorem load_full {κ : Kind} {sp : Space} {S : Shape} {e : EltTy} (v : View sig κ sp S e) {off : Fin S.rank → ℕ} (h : off = fun _ => 0)
    (inb : ∀ a, off a + S.size a ≤ S.size a) (X : S.Idx → Elt F e) :
    View.readAt (Elt F) v (Rect.unit off S.size inb).toLoadRect (v.rep X) = X := by
  show View.ld (v.read (Elt F) (v.rep X)) (Rect.unit off S.size inb) = X
  rw [View.read_rep, View.ld_unit_zero h]

/-- A store of the whole block, last, leaves its payload. -/
theorem store_full {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body, once, at any grid coordinates and any contents -/

/-- The condition of the first `scf.if` (the accumulator's reset), as the kernel computes it. -/
abbrev cond1 (i : grid10.Coords) : BitVec 1 :=
  Scalar.cmpi .ne (Scalar.extui (Scalar.cmpi .eq (BitVec.ofNat 32 (i 1).val) 0#32)) 0#32

/-- A staging memref's own elements at the representative of block contents `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The first point of a reduction run: the accumulator is reset, then the product of the two blocks is added; nothing is stored into the output block. -/
theorem run_reset (𝒱₀ : Variants) (c : Dev nD) (i : grid10.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : ¬ k10_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k10_pay2 X0 X1 (k10_pay1 (F := F)))) -∗ Q ⟨⟩))
    ⊢ wp frame (wpE (defs₀ (F := F)) 𝒱₀ c none) E (cc10__mm_kernel i M0 h0 M1 h1 M2 h2 M3 h3 M4 h4 M5 h5 Ms hs) Q := by
  iintro ⟨H0, H1, H2, H3, H4, H5, Hs, Hk⟩
  simp only [cc10__mm_kernel_eq_skeleton]; unfold cc10__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2]; unfold run_reset.sl.v7 run_reset.sl.Hs_1
    rw [View.readCov_cons_toLoadRect, load_full (S := SA) _ off2, load_full (S := SB) _ off2]

/-- A middle point: the product of the two blocks is added to what the accumulator held. -/
theorem run_acc (𝒱₀ : Variants) (c : Dev nD) (i : grid10.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : ¬ k10_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 X5 ∗ pt c Ms (k10_pay2 X0 X1 Xs)) -∗ Q ⟨⟩))
    ⊢ wp frame (wpE (defs₀ (F := F)) 𝒱₀ c none) E (cc10__mm_kernel i M0 h0 M1 h1 M2 h2 M3 h3 M4 h4 M5 h5 Ms hs) Q := by
  iintro ⟨H0, H1, H2, H3, H4, H5, Hs, Hk⟩
  simp only [cc10__mm_kernel_eq_skeleton]; unfold cc10__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iexact H5
  · iapply (rep_of_owns (c : Thread nD τ) Ms fullShare _); unfold owns
    iexists _; isplitr; swap; (· iexact Hs); ipureintro
    rw [store_full (S := SO) _ _ off2, load_full (S := SA) _ off2, load_full (S := SB) _ off2, load_full (S := SO) _ off2]

/-- The last point of a run: after the accumulation the output block is stored, the accumulator scaled by the row scales plus the bias row. -/
theorem run_flush (𝒱₀ : Variants) (c : Dev nD) (i : grid10.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : ¬ cond1 i = 1#1) (hc2 : k10_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k10_pay3 (k10_pay2 X0 X1 Xs) X3 X4) ∗ pt c Ms (k10_pay2 X0 X1 Xs)) -∗ Q ⟨⟩))
    ⊢ wp frame (wpE (defs₀ (F := F)) 𝒱₀ c none) E (cc10__mm_kernel i M0 h0 M1 h1 M2 h2 M3 h3 M4 h4 M5 h5 Ms hs) Q := by
  iintro ⟨H0, H1, H2, H3, H4, H5, Hs, Hk⟩
  simp only [cc10__mm_kernel_eq_skeleton]; unfold cc10__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_flush.sl.v16 run_flush.sl.Hs_1
    rw [View.readCov_cons_toLoadRect, load_full (S := SA) _ off2, load_full (S := SB) _ off2, load_full (S := SO) _ off2, load_full (S := SD) _ off2, load_full (S := SE) _ off2]
  · iapply (rep_of_owns (c : Thread nD τ) Ms fullShare _); unfold owns
    iexists _; isplitr; swap; (· iexact Hs); ipureintro
    unfold run_flush.sl.Hs_1
    rw [store_full (S := SO) _ _ off2, load_full (S := SA) _ off2, load_full (S := SB) _ off2, load_full (S := SO) _ off2]

/-- A run of one point: reset, accumulation and the output store. -/
theorem run_both (𝒱₀ : Variants) (c : Dev nD) (i : grid10.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32)
    (hc1 : cond1 i = 1#1) (hc2 : k10_cond2 i = 1#1) (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 (k10_pay3 (k10_pay2 X0 X1 (k10_pay1 (F := F))) X3 X4) ∗ pt c Ms (k10_pay2 X0 X1 (k10_pay1 (F := F)))) -∗ Q ⟨⟩))
    ⊢ wp frame (wpE (defs₀ (F := F)) 𝒱₀ c none) E (cc10__mm_kernel i M0 h0 M1 h1 M2 h2 M3 h3 M4 h4 M5 h5 Ms hs) Q := by
  iintro ⟨H0, H1, H2, H3, H4, H5, Hs, Hk⟩
  simp only [cc10__mm_kernel_eq_skeleton]; unfold cc10__mm_kernel_skel
  sl_exec (disch := first | exact hc1 | exact hc2)
  sl_step
  iapply Hk
  isplitl [H0]; · iexact H0
  isplitl [H1]; · iexact H1
  isplitl [H2]; · iexact H2
  isplitl [H3]; · iexact H3
  isplitl [H4]; · iexact H4
  isplitl [H5]
  · iapply (rep_of_owns (c : Thread nD τ) M5 fullShare _); unfold owns
    iexists _; isplitr; swap; (· iexact H5); ipureintro
    rw [store_full (S := SO) _ _ off2]; unfold run_both.sl.v16 run_both.sl.Hs_2
    rw [View.readCov_cons_toLoadRect]; unfold run_both.sl.v7 run_both.sl.Hs_1
    rw [View.readCov_cons_toLoadRect, load_full (S := SA) _ off2, load_full (S := SB) _ off2, load_full (S := SD) _ off2, load_full (S := SE) _ off2]
  · iapply (rep_of_owns (c : Thread nD τ) Ms fullShare _); unfold owns
    iexists _; isplitr; swap; (· iexact Hs); ipureintro
    unfold run_both.sl.Hs_2
    rw [store_full (S := SO) _ _ off2]; unfold run_both.sl.v7 run_both.sl.Hs_1
    rw [View.readCov_cons_toLoadRect, load_full (S := SA) _ off2, load_full (S := SB) _ off2]

/-- What the accumulator holds after the body at coordinates `i`, from the two blocks and what it held before. -/
abbrev accOut (i : grid10.Coords) (X0 : SA.Idx → Elt F .bf16) (X1 : SB.Idx → Elt F .bf16) (Xs : SO.Idx → Elt F .f32) :
    SO.Idx → Elt F .f32 :=
  k10_pay2 X0 X1 (if cond1 i = 1#1 then k10_pay1 (F := F) else Xs)

/-- What the output's staging buffer holds after the body at coordinates `i`. -/
abbrev outOut (i : grid10.Coords) (X0 : SA.Idx → Elt F .bf16) (X1 : SB.Idx → Elt F .bf16) (X3 : SD.Idx → Elt F .f32)
    (X4 : SE.Idx → Elt F .f32) (X5 Xs : SO.Idx → Elt F .f32) : SO.Idx → Elt F .f32 :=
  if k10_cond2 i = 1#1 then k10_pay3 (accOut i X0 X1 Xs) X3 X4 else X5

/-- The kernel body at any coordinates: the four runs, by cases on its two conditions; the contents it leaves named by
    the caller (`A'`, `O'`). -/
theorem kernelRun (𝒱₀ : Variants) (c : Dev nD) (i : grid10.Coords)
    (M0 : Memref sig .tc .vmem SA .bf16) (h0 : M0.IsWhole) (M1 : Memref sig .tc .vmem SB .bf16) (h1 : M1.IsWhole)
    (M2 : Memref sig .tc .vmem SC .f32) (h2 : M2.IsWhole) (M3 : Memref sig .tc .vmem SD .f32) (h3 : M3.IsWhole)
    (M4 : Memref sig .tc .vmem SE .f32) (h4 : M4.IsWhole) (M5 : Memref sig .tc .vmem SO .f32) (h5 : M5.IsWhole)
    (Ms : Memref sig .tc .vmem SO .f32) (hs : Ms.IsWhole)
    (X0 : SA.Idx → Elt F .bf16) (X1 : SB.Idx → Elt F .bf16) (X2 : SC.Idx → Elt F .f32) (X3 : SD.Idx → Elt F .f32)
    (X4 : SE.Idx → Elt F .f32) (X5 : SO.Idx → Elt F .f32) (Xs : SO.Idx → Elt F .f32) (A' O' : SO.Idx → Elt F .f32)
    (hA : accOut i X0 X1 Xs = A') (hO : outOut i X0 X1 X3 X4 X5 Xs = O') (E : Set ℕ) (Q : PUnit → sProp 𝕄) :
    iprop(pt c M0 X0 ∗ pt c M1 X1 ∗ pt c M2 X2 ∗ pt c M3 X3 ∗ pt c M4 X4 ∗ pt c M5 X5 ∗ pt c Ms Xs
      ∗ (iprop(pt c M0 X0 ∗ pt c M1 X1 ∗ pt c M2 X2 ∗ pt c M3 X3 ∗ pt c M4 X4 ∗ pt c M5 O' ∗ pt c Ms A') -∗ Q ⟨⟩))
    ⊢ wp frame (wpE (defs₀ (F := F)) 𝒱₀ c none) E (cc10__mm_kernel i M0 h0 M1 h1 M2 h2 M3 h3 M4 h4 M5 h5 Ms hs) Q := by
  subst hA hO
  unfold outOut accOut
  by_cases hc1 : cond1 i = 1#1 <;> by_cases hc2 : k10_cond2 i = 1#1
  · rw [if_pos hc1, if_pos hc2]; exact run_both 𝒱₀ c i M0 h0 M1 h1 M2 h2 M3 h3 M4 h4 M5 h5 Ms hs X0 X1 X2 X3 X4 X5 Xs hc1 hc2 E Q
  · rw [if_pos hc1, if_neg hc2]; exact run_reset 𝒱₀ c i M0 h0 M1 h1 M2 h2 M3 h3 M4 h4 M5 h5 Ms hs X0 X1 X2 X3 X4 X5 Xs hc1 hc2 E Q
  · rw [if_neg hc1, if_pos hc2]; exact run_flush 𝒱₀ c i M0 h0 M1 h1 M2 h2 M3 h3 M4 h4 M5 h5 Ms hs X0 X1 X2 X3 X4 X5 Xs hc1 hc2 E Q
  · rw [if_neg hc1, if_neg hc2]; exact run_acc 𝒱₀ c i M0 h0 M1 h1 M2 h2 M3 h3 M4 h4 M5 h5 Ms hs X0 X1 X2 X3 X4 X5 Xs hc1 hc2 E Q

/-! ## The proof data -/

/-- The two conditions over the grid, in closed form. -/
theorem cond1_iff : ∀ t : Fin grid10.N, cond1 (grid10.coords t) = 1#1 ↔ t.val % nk = 0 := by decide +kernel
theorem cond2_iff : ∀ t : Fin grid10.N, k10_cond2 (grid10.coords t) = 1#1 ↔ t.val % nk = kl := by decide +kernel

variable (V Vp : Dev nD → Valuation τ sig (Elt F))

/-- The windowed arrays at the region's entry. -/
abbrev A0 (c : Dev nD) (w : Fin cfg10.W) : Buf (Elt F) ((cfg10.win w).arr.view.loc (c : Thread nD τ)) := V c (Pipeline.arrRef spec10 w)

/-- What an input window's staging buffer holds when the body runs at point `t`: the window's block of its array there. -/
def inBlk (c : Dev nD) (w : Fin cfg10.W) (t : Fin cfg10.N) : (cfg10.win w).block.Idx → Elt F (cfg10.win w).elt :=
  (cfg10.win w).fill (cfg10.grid.coords t) (fun _ => Classical.arbitrary _) (((cfg10.win w).blk t).view.read (Elt F) (A0 V c w))

/-- The accumulator AFTER point `n`: the product of the point's two blocks added to zero at the first point of a reduction
    run (`n % nk = 0`), to what the point before left elsewhere. -/
def acc (c : Dev nD) : (n : ℕ) → n < cfg10.N → SO.Idx → Elt F .f32
  | 0, h => k10_pay2 (inBlk V c 0 ⟨0, h⟩) (inBlk V c 1 ⟨0, h⟩) (k10_pay1 (F := F))
  | n + 1, h => k10_pay2 (inBlk V c 0 ⟨n + 1, h⟩) (inBlk V c 1 ⟨n + 1, h⟩)
      (if (n + 1) % nk = 0 then k10_pay1 (F := F) else acc c n (Nat.lt_of_succ_lt h))

/-- The invariant before point `n`: the scratch accumulator at what the point before left (nothing is said where the
    body resets it), and every other scoped buffer the pipeline does not stage at something. -/
def Φ0 (c : Dev nD) (n : Fin (cfg10.N + 1)) : sProp 𝕄 :=
  iprop((∃ X : SO.Idx → Elt F .f32, ⌜∀ h : n.val - 1 < cfg10.N, n.val % nk ≠ 0 → X = acc V c (n.val - 1) h⌝ ∗ pt c (Memref.whole cc10_scratch0) X)
    ∗ Pipeline.scopedRestBut (Ix := Ix) (Name := ℕ) (U := U) (Lvl := Lvl) (Val := Elt F) spec10 c [cc10_scratch0])

/-- The proof data on core `c`, from the entry valuation `V`. -/
def dat (c : Dev nD) : Pipeline.Dat τ (Elt F) Ix ℕ U Lvl cfg10 c where
  A w := A0 V c w
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => k10_pay3 (acc V c t.val t.isLt) (inBlk V c 3 t) (inBlk V c 4 t)
    | ⟨_ + 6, h⟩ => absurd h (Nat.not_lt.2 (Nat.le_add_left _ _))
  Φ n := Φ0 V c n
  q _ := fullShare
  owed _ := 0

/-! ## What the body finds in the staging buffers -/

local notation "dat'" => dat (Ix := Ix) (U := U) (Lvl := Lvl)

/-- An input window the body only reads, uncut and live at every point, holds its block of the array when the body runs,
    fetched there or not. -/
theorem before_in (c : Dev nD) (w : Fin cfg10.W) (hw : (cfg10.win w).isOut = false) (hlive : ∀ i, cfg10.idle w i = false)
    (hclip : ∀ (i : cfg10.grid.Coords) a, (cfg10.win w).clip i a = none)
    (hafter : ∀ t, (dat' V c).after w t = inBlk V c w t)
    (t : Fin cfg10.N) (d : (cfg10.win w).block.Idx → Elt F (cfg10.win w).elt) :
    (dat' V c).before w t d = inBlk V c w t := by
  rw [(dat V c).before_in_eq_fetched w hw hlive (fun t t' _ => funext fun a => (hclip _ a).trans (hclip _ a).symm)
    (fun t => by rw [hafter]; exact (cfg10.win w).cut_fill _ _ _) t d,
    (dat V c).fetched_of_clip_none w t (hclip _) d (fun _ => Classical.arbitrary _)]
  rfl

theorem before0 (c : Dev nD) (t : Fin cfg10.N) (d) : (dat' V c).before 0 t d = inBlk V c 0 t :=
  before_in V c 0 rfl (fun _ => rfl) (fun _ _ => rfl) (fun _ => rfl) t d
theorem before1 (c : Dev nD) (t : Fin cfg10.N) (d) : (dat' V c).before 1 t d = inBlk V c 1 t :=
  before_in V c 1 rfl (fun _ => rfl) (fun _ _ => rfl) (fun _ => rfl) t d
theorem before2 (c : Dev nD) (t : Fin cfg10.N) (d) : (dat' V c).before 2 t d = inBlk V c 2 t :=
  before_in V c 2 rfl (fun _ => rfl) (fun _ _ => rfl) (fun _ => rfl) t d
theorem before3 (c : Dev nD) (t : Fin cfg10.N) (d) : (dat' V c).before 3 t d = inBlk V c 3 t :=
  before_in V c 3 rfl (fun _ => rfl) (fun _ _ => rfl) (fun _ => rfl) t d
theorem before4 (c : Dev nD) (t : Fin cfg10.N) (d) : (dat' V c).before 4 t d = inBlk V c 4 t :=
  before_in V c 4 rfl (fun _ => rfl) (fun _ _ => rfl) (fun _ => rfl) t d

/-- One step of the accumulator: what the body leaves in it at point `t`, from what the invariant says it held. -/
theorem acc_step (c : Dev nD) (t : Fin cfg10.N) (Xs : SO.Idx → Elt F .f32)
    (hXs : ∀ h : t.val - 1 < cfg10.N, t.val % nk ≠ 0 → Xs = acc V c (t.val - 1) h) :
    accOut (grid10.coords t) (inBlk V c 0 t) (inBlk V c 1 t) Xs = acc V c t.val t.isLt := by
  obtain ⟨n, hn⟩ := t
  unfold accOut
  cases n with
  | zero => rw [if_pos ((cond1_iff ⟨0, hn⟩).mpr rfl)]; rfl
  | succ n =>
    by_cases hm : (n + 1) % nk = 0
    · rw [if_pos ((cond1_iff ⟨n + 1, hn⟩).mpr hm)]
      show _ = k10_pay2 _ _ (if (n + 1) % nk = 0 then _ else _)
      rw [if_pos hm]
    · rw [if_neg (fun h => hm ((cond1_iff ⟨n + 1, hn⟩).mp h)), hXs (Nat.lt_of_succ_lt hn) hm]
      show _ = k10_pay2 _ _ (if (n + 1) % nk = 0 then _ else _)
      rw [if_neg hm]
      rfl

/-- The output window is idle exactly where the second condition fails, and written back exactly where it holds. -/
theorem idle5_of (t : Fin cfg10.N) (h : k10_cond2 (grid10.coords t) = 1#1) : cfg10.idle 5 (cfg10.grid.coords t) = false := by
  show (!(k10_cond2 (grid10.coords t) == 1#1)) = false
  rw [h]; rfl
theorem idle5_of_not (t : Fin cfg10.N) (h : ¬ k10_cond2 (grid10.coords t) = 1#1) : cfg10.idle 5 (cfg10.grid.coords t) = true := by
  show (!(k10_cond2 (grid10.coords t) == 1#1)) = true
  rw [Bool.not_eq_true', beq_eq_false_iff_ne]; exact h
theorem flush5_of_not (t : Fin cfg10.N) (h : ¬ k10_cond2 (grid10.coords t) = 1#1) : (cfg10.win 5).flush t = false :=
  Bool.eq_false_iff.mpr fun hf => h ((cond2_iff t).mpr ((flush10_5 t).mp hf))

theorem idleIn0 (i : cfg10.grid.Coords) : cfg10.idle 0 i = false := rfl
theorem idleIn1 (i : cfg10.grid.Coords) : cfg10.idle 1 i = false := rfl
theorem idleIn2 (i : cfg10.grid.Coords) : cfg10.idle 2 i = false := rfl
theorem idleIn3 (i : cfg10.grid.Coords) : cfg10.idle 3 i = false := rfl
theorem idleIn4 (i : cfg10.grid.Coords) : cfg10.idle 4 i = false := rfl
theorem after0 (c : Dev nD) (t : Fin cfg10.N) : (dat' V c).after 0 t = inBlk V c 0 t := rfl
theorem after1 (c : Dev nD) (t : Fin cfg10.N) : (dat' V c).after 1 t = inBlk V c 1 t := rfl
theorem after2 (c : Dev nD) (t : Fin cfg10.N) : (dat' V c).after 2 t = inBlk V c 2 t := rfl
theorem after3 (c : Dev nD) (t : Fin cfg10.N) : (dat' V c).after 3 t = inBlk V c 3 t := rfl
theorem after4 (c : Dev nD) (t : Fin cfg10.N) : (dat' V c).after 4 t = inBlk V c 4 t := rfl
theorem after5 (c : Dev nD) (t : Fin cfg10.N) :
    (dat' V c).after 5 t = k10_pay3 (acc V c t.val t.isLt) (inBlk V c 3 t) (inBlk V c 4 t) := rfl

/-! ## The body obligation -/

theorem body_obligation (ι : Ix) (𝒱₀ : Variants) (c : Dev nD) :
    Pipeline.BodyObligation (dat' V c) (defs₀ (F := F)) 𝒱₀ ι Set.univ := fun t => by
  rw [bigSep_W10, bigSep_W10]
  rw [show (dat' V c).owesAt ι t.succ = (dat' V c).owesAt ι t.castSucc from rfl,
    show (dat' V c).Φ t.castSucc = Φ0 V c t.castSucc from rfl,
    show (dat' V c).Φ t.succ = Φ0 V c t.succ from rfl]
  unfold Φ0
  by_cases hc2 : k10_cond2 (grid10.coords t) = 1#1
  · rw [idle5_of t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid10.coords t) (inBlk V c 0 t) (inBlk V c 1 t) (inBlk V c 3 t) (inBlk V c 4 t) ((dat' V c).before 5 t d5) Xs
        = k10_pay3 (acc V c t.val t.isLt) (inBlk V c 3 t) (inBlk V c 4 t) := by
      unfold outOut; rw [if_pos hc2, acc_step V c t Xs hXs]
    iapply (kernelRun 𝒱₀ c (grid10.coords t)
      (win10_0.stage (cfg10.slots t 0)) (hstage10_0 ((cfg10.slots t 0).cast nbuf10_0))
      (win10_1.stage (cfg10.slots t 1)) (hstage10_1 ((cfg10.slots t 1).cast nbuf10_1))
      (win10_2.stage (cfg10.slots t 2)) (hstage10_2 ((cfg10.slots t 2).cast nbuf10_2))
      (win10_3.stage (cfg10.slots t 3)) (hstage10_3 ((cfg10.slots t 3).cast nbuf10_3))
      (win10_4.stage (cfg10.slots t 4)) (hstage10_4 ((cfg10.slots t 4).cast nbuf10_4))
      (win10_5.stage (cfg10.slots t 5)) (hstage10_5 ((cfg10.slots t 5).cast nbuf10_5))
      (Memref.whole cc10_scratch0) (Memref.isWhole_whole _)
      (inBlk V c 0 t) (inBlk V c 1 t) (inBlk V c 2 t) (inBlk V c 3 t)
      (inBlk V c 4 t) ((dat' V c).before 5 t d5) Xs (acc V c t.val t.isLt) (k10_pay3 (acc V c t.val t.isLt) (inBlk V c 3 t) (inBlk V c 4 t)) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexact H5
  · rw [idle5_of_not t hc2, flush5_of_not t hc2]
    simp only [idleIn0, idleIn1, idleIn2, idleIn3, idleIn4, owns_eq_rep, before0 V c, before1 V c, before2 V c, before3 V c, before4 V c,
      after0 V c, after1 V c, after2 V c, after3 V c, after4 V c, after5 V c]
    iintro ⟨⟨⟨%Xs, %hXs, Hs⟩, Hrest⟩, Howes, ⟨%d0, H0⟩, ⟨%d1, H1⟩, ⟨%d2, H2⟩, ⟨%d3, H3⟩, ⟨%d4, H4⟩, ⟨%d5, H5⟩⟩
    have hO : outOut (grid10.coords t) (inBlk V c 0 t) (inBlk V c 1 t) (inBlk V c 3 t) (inBlk V c 4 t) ((dat' V c).before 5 t d5) Xs
        = (dat' V c).before 5 t d5 := by
      unfold outOut; rw [if_neg hc2]
    iapply (kernelRun 𝒱₀ c (grid10.coords t)
      (win10_0.stage (cfg10.slots t 0)) (hstage10_0 ((cfg10.slots t 0).cast nbuf10_0))
      (win10_1.stage (cfg10.slots t 1)) (hstage10_1 ((cfg10.slots t 1).cast nbuf10_1))
      (win10_2.stage (cfg10.slots t 2)) (hstage10_2 ((cfg10.slots t 2).cast nbuf10_2))
      (win10_3.stage (cfg10.slots t 3)) (hstage10_3 ((cfg10.slots t 3).cast nbuf10_3))
      (win10_4.stage (cfg10.slots t 4)) (hstage10_4 ((cfg10.slots t 4).cast nbuf10_4))
      (win10_5.stage (cfg10.slots t 5)) (hstage10_5 ((cfg10.slots t 5).cast nbuf10_5))
      (Memref.whole cc10_scratch0) (Memref.isWhole_whole _)
      (inBlk V c 0 t) (inBlk V c 1 t) (inBlk V c 2 t) (inBlk V c 3 t)
      (inBlk V c 4 t) ((dat' V c).before 5 t d5) Xs (acc V c t.val t.isLt) ((dat' V c).before 5 t d5) (acc_step V c t Xs hXs) hO Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hrest]
    · isplitl [Hs]
      · iexists _; isplitr; swap; (· iexact Hs); ipureintro
        intro _ _; rfl
      · iexact Hrest
    isplitl [Howes]; · iexact Howes
    isplitl [H0]; · iexact H0
    isplitl [H1]; · iexact H1
    isplitl [H2]; · iexact H2
    isplitl [H3]; · iexact H3
    isplitl [H4]; · iexact H4
    iexists d5; iexact H5

/-! ## The region over the thread state -/

/-- The prefetched tables' admissible contents: no pallas_call has a table. -/
abbrev adm : (p : Fin 17) → (pcfgs (F := F) p).Adm := fun p => (cfgs p).toPCfg_adm

/-- The scratch accumulator at the representative of `X` is its buffer held whole at `X`. -/
theorem scratch_eq (c : Dev nD) (X : SO.Idx → Elt F .f32) :
    (pt c (Memref.whole cc10_scratch0) X : sProp 𝕄)
      = iprop(∃ f : Buf (Elt F) ((c : Thread nD τ).loc cc10_scratch0), ⌜f = X⌝ ∗ (((c : Thread nD τ).loc cc10_scratch0) ↦{fullShare} f)) :=
  (owns_eq_rep (c : Thread nD τ) (Memref.whole cc10_scratch0) fullShare X).symm.trans (owns_whole_eq (c : Thread nD τ) cc10_scratch0 fullShare X)

/-- The invariant at the first point, from the scoped buffers the pipeline does not stage. -/
theorem Φ0_intro (c : Dev nD) (P : sProp 𝕄) :
    iprop(BI.emp ∗ P ∗ Pipeline.scopedRest (Ix := Ix) (Name := ℕ) (U := U) (Lvl := Lvl) (Val := Elt F) spec10 c) ⊢ Φ0 V c 0 := by
  rw [scopedRest10_split]; unfold Φ0; simp only [scratch_eq]
  iintro ⟨-, -, ⟨%f, Hs⟩, Hr⟩
  isplitl [Hs]
  · iexists f; isplitr; · ipureintro; intro _ hm; exact absurd (Nat.zero_mod _) hm
    iexists f; isplitr; · ipureintro; rfl
    iexact Hs
  iexact Hr

/-- The invariant at the last point gives those scoped buffers back. -/
theorem Φ0_elim (c : Dev nD) :
    Φ0 V c (Fin.last cfg10.N) ⊢ iprop(BI.emp ∗ BI.emp ∗ Pipeline.scopedRest (Ix := Ix) (Name := ℕ) (U := U) (Lvl := Lvl) (Val := Elt F) spec10 c) := by
  rw [scopedRest10_split]; unfold Φ0; simp only [scratch_eq]
  iintro ⟨⟨%X, -, %f, -, Hs⟩, Hr⟩
  isplitr; · iempintro
  isplitr; · iempintro
  isplitl [Hs]
  · iexists f; iexact Hs
  iexact Hr

/-- Every window but the last is an input. -/
theorem isOut_of_ne (w : Fin cfg10.W) (hw : w ≠ 5) : (cfg10.win w).isOut = false := by
  fin_cases w <;> first | rfl | exact absurd rfl hw

set_option maxHeartbeats 1000000 in
set_option backward.isDefEq.respectTransparency.types false in
/-- THE REGION, entered from "every unscoped buffer at `V c`, the core owing nothing" and left at the same with `V c`
    updated at the output array: the windows' arrays split out of the unscoped buffers at entry and put back at exit,
    the rest bypassing; the scratch accumulator and the other scoped buffers enter the invariant. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd RK c = dat' V c)
    (hout : ∀ c, Vp c vOUT = (dat' V c).arrAt 5 cfg10.N) (hne : ∀ c (b : Ref sig .tc), b ≠ vOUT → Vp c b = V c b) :
    Pipeline.RegionSeg (pcfgs (F := F)) adm pd ι defs₀ 𝒱₀ L lv RK where
  win := launch10.win.to₀
  block_pos := launch10.block_pos
  stage_whole := launch10.stage_whole
  K := PEmpty
  osem k := k.elim
  ho := Pipeline.OwnSemFacts.none _
  hbody c := by rw [hpd c]; exact (body_obligation V ι 𝒱₀ c).loose
  hwaits := Pipeline.hwaits_of_owed_zero _ _ _ _ L lv RK fun c t => by rw [hpd c]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := BI.emp
  Y _ := BI.emp
  Z c := Pipeline.unscopedRest (Ix := Ix) (Name := ℕ) (U := U) (Lvl := Lvl) spec10 c (fun b => V c b)
  hentry c := by
    rw [Pipeline.ownSems0_none, ← Pipeline.unscopedBufs_held (Ix := Ix) (Name := ℕ) (U := U) (Lvl := Lvl) c (V c)]
    have hsplit := Pipeline.arrays_of_unscopedBufs (p := RK) (pcfgs (F := F)) adm pd launch10.win launch10.arr_whole c
      ((pd RK c).share_full fun _ => by rw [hpd c]; rfl) (fun b => V c b) (fun _ => by rw [hpd c]; rfl)
    rw [hpd c] at hsplit ⊢
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by rw [hpd c]; exact Φ0_intro V c _
  hout c := by rw [Pipeline.ownSems0_none, hpd c]; exact Φ0_elim V c
  hexit c := by
    have hjoin := Pipeline.unscopedBufs_of_arrays (p := RK) (pcfgs (F := F)) adm (Ix := Ix) (Name := ℕ) (U := U) (Lvl := Lvl) launch10.win
      launch10.arr_whole c pd ((pd RK c).share_full fun _ => by rw [hpd c]; rfl) (fun b => V c b) (fun b => Vp c b)
      ((pd RK c).arrAt · cfg10.N)
      (fun w => by
        rw [hpd c]
        by_cases hw : w = 5
        · subst hw; exact (hout c).symm
        · exact ((dat' V c).arrAt_in w (isOut_of_ne w hw) _).trans
            (hne c _ fun h => hw (launch10.win.arr_inj (h.trans (rfl : vOUT = Pipeline.arrRef spec10 5)))).symm)
      (fun b hb => hne c b fun h => hb (Finset.mem_image.mpr ⟨5, Finset.mem_univ _, (rfl : Pipeline.arrRef spec10 5 = vOUT).trans h.symm⟩))
    rw [hpd c] at hjoin ⊢
    rw [← Pipeline.unscopedBufs_held (Ix := Ix) (Name := ℕ) (U := U) (Lvl := Lvl) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Region10
end
-- ==== Proof.KI.Region11.lean ====
/-
  Region 11 of @main: a matrix product on the grid (2, 1). The reduction axis has ONE tile, so at every grid point the
  body resets its accumulator, adds the point's product to it and writes the scaled, biased result to the output block:
  nothing is carried from point to point. Stated once, for any float family.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

set_option maxRecDepth 16384

noncomputable section

namespace Cert.KernelIdeal.Region11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions: both hold at every point (the second grid coordinate is always 0) -/

/-- The condition of the first `scf.if` (reset the accumulator), from the grid coordinates. -/
abbrev cond1 (i : grid11.Coords) : Prop :=
  (Scalar.cmpi .ne (Scalar.extui (Scalar.cmpi .eq (BitVec.ofNat 32 (i 1).val) 0#32)) 0#32) = 1#1

theorem hcond1 : ∀ t : Fin cfg11.N, cond1 (grid11.coords t) :=
  (by decide +kernel : ∀ t : Fin grid11.N, cond1 (grid11.coords t))
theorem hcond2 : ∀ t : Fin cfg11.N, k11_cond2 (grid11.coords t) = 1#1 :=
  (by decide +kernel : ∀ t : Fin grid11.N, k11_cond2 (grid11.coords t) = 1#1)

/-! ## The body on any whole staging memrefs -/

theorem off0 : (![0, 0] : Fin 2 → ℕ) = fun _ => 0 := by funext a; fin_cases a <;> rfl

/-- A load of a whole buffer through the whole-shape rectangle reads its contents. -/
theorem readAt_whole {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [View.readAt_eq_ld, h.read_unread]; exact View.ld_unit_zero hz inb X

set_option maxHeartbeats 1000000 in
/-- From the two operand blocks, the row scale and the bias row in their buffers, the output buffer and the accumulator
    at anything: the body leaves the inputs as they were, the accumulator at something, and in the output buffer
    `(0 + A · B) * scale + bias`. -/
theorem kernelRun (𝒱₀ : Variants) (c : Dev nD) (i : grid11.Coords)
    (arg2 : Memref sig .tc .vmem S1024x1000 .bf16) (harg2 : arg2.IsWhole) (arg3 : Memref sig .tc .vmem S1000x256 .bf16) (harg3 : arg3.IsWhole)
    (arg4 : Memref sig .tc .vmem S1000x1 .f32) (harg4 : arg4.IsWhole) (arg5 : Memref sig .tc .vmem S1024x1 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole) (hc1 : cond1 i) (hc2 : k11_cond2 i = 1#1)
    (xA : Vec F S1024x1000 .bf16) (xB : Vec F S1000x256 .bf16) (xs : Vec F S1024x1 .f32) (xb : Vec F S1x256 .f32)
    (E : Set ℕ) (K : PUnit → sProp 𝕄) :
    iprop(owns (c : Thread nD τ) arg2 fullShare xA ∗ owns (c : Thread nD τ) arg3 fullShare xB
        ∗ owns (c : Thread nD τ) arg5 fullShare xs ∗ owns (c : Thread nD τ) arg6 fullShare xb
        ∗ (∃ d, owns (c : Thread nD τ) arg7 fullShare d) ∗ (∃ d, owns (c : Thread nD τ) arg8 fullShare d)
        ∗ (iprop(owns (c : Thread nD τ) arg2 fullShare xA ∗ owns (c : Thread nD τ) arg3 fullShare xB
            ∗ owns (c : Thread nD τ) arg5 fullShare xs ∗ owns (c : Thread nD τ) arg6 fullShare xb
            ∗ owns (c : Thread nD τ) arg7 fullShare (k11_pay3 (k11_pay2 xA xB (k11_pay1 (F := F))) xs xb)
            ∗ (∃ d, owns (c : Thread nD τ) arg8 fullShare d)) -∗ K ⟨⟩))
      ⊢ wp frame (wpE (defs₀ (F := F)) 𝒱₀ c none) E (cc11__mm_kernel i arg2 harg2 arg3 harg3 arg4 harg4 arg5 harg5 arg6 harg6 arg7 harg7 arg8 harg8) K := by
  simp only [cc11__mm_kernel_eq_skeleton]; unfold cc11__mm_kernel_skel
  unfold owns
  iintro ⟨⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg2.eq_unread hf2
  obtain rfl := harg3.eq_unread hf3
  obtain rfl := harg5.eq_unread hf5
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    rw [View.read_writes_eq_canon _ _ _ (fun y => ⟨_, List.mem_singleton_self _, View.mem_set_unit_zero off0 inb_S1024x256_S1024x256_0_0 y⟩),
      View.canon_unit_zero off0, readAt_whole _ harg5 xs off0, readAt_whole _ harg6 xb off0]
    unfold kernelRun.sl.v16 kernelRun.sl.H8_2
    rw [View.readCov_cons_toLoadRect, readAt_whole _ harg2 xA off0, readAt_whole _ harg3 xB off0]
    unfold kernelRun.sl.v7 kernelRun.sl.H8_1
    rw [View.readCov_cons_toLoadRect]
  iexists _, _; isplitr; swap; · iexact H8
  ipureintro; rfl

/-! ## The proof data -/

variable (V Vp : Dev nD → Valuation τ sig (Elt F))

/-- Window `w`'s block at point `t`, read off its array as the region finds it. -/
def blk (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The accumulator between points: at some contents (every point resets it before reading it), beside the other scoped
    buffers, unopened. -/
def Φc (c : Dev nD) : sProp 𝕄 :=
  iprop((∃ f : Buf (Elt F) ((c : Thread nD τ).loc cc11_scratch0), ((c : Thread nD τ).loc cc11_scratch0) ↦{fullShare} f)
    ∗ Pipeline.scopedRestBut (Ix := Ix) (Name := ℕ) (U := U) (Lvl := Lvl) (Val := Elt F) spec11 c [cc11_scratch0])

/-- The proof data on core `c`: the arrays as the region finds them; after the body at point `t` each input's buffer at
    its block, the output's at `(0 + A_t · B) * scale_t + bias`; nothing owed; full shares. -/
def dat (c : Dev nD) : Dat τ (Elt F) Ix ℕ U Lvl cfg11 c where
  A w := V c (Pipeline.arrRef spec11 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k11_pay3 (k11_pay2 (blk V c 0 t) (blk V c 1 t) (k11_pay1 (F := F))) (blk V c 3 t) (blk V c 4 t)
  Φ _ := Φc c
  q _ := fullShare
  owed _ := 0

theorem A_eq (c : Dev nD) (w : Fin cfg11.W) : (dat (Ix := Ix) (U := U) (Lvl := Lvl) V c).A w = V c (Pipeline.arrRef spec11 w) := by
  dsimp only [dat]

theorem after_0 (c : Dev nD) (t : Fin cfg11.N) : (dat (Ix := Ix) (U := U) (Lvl := Lvl) V c).after 0 t = blk V c 0 t := by dsimp only [dat]
theorem after_1 (c : Dev nD) (t : Fin cfg11.N) : (dat (Ix := Ix) (U := U) (Lvl := Lvl) V c).after 1 t = blk V c 1 t := by dsimp only [dat]
theorem after_2 (c : Dev nD) (t : Fin cfg11.N) : (dat (Ix := Ix) (U := U) (Lvl := Lvl) V c).after 2 t = blk V c 2 t := by dsimp only [dat]
theorem after_3 (c : Dev nD) (t : Fin cfg11.N) : (dat (Ix := Ix) (U := U) (Lvl := Lvl) V c).after 3 t = blk V c 3 t := by dsimp only [dat]
theorem after_4 (c : Dev nD) (t : Fin cfg11.N) : (dat (Ix := Ix) (U := U) (Lvl := Lvl) V c).after 4 t = blk V c 4 t := by dsimp only [dat]
theorem after_5 (c : Dev nD) (t : Fin cfg11.N) : (dat (Ix := Ix) (U := U) (Lvl := Lvl) V c).after 5 t
    = k11_pay3 (k11_pay2 (blk V c 0 t) (blk V c 1 t) (k11_pay1 (F := F))) (blk V c 3 t) (blk V c 4 t) := by dsimp only [dat]

/-- An input window's current staging buffer holds its block at every point, fetched there or not: unfetched, the block
    index has not moved, and the body left the block in place. -/
theorem before_0 (c : Dev nD) (t : Fin cfg11.N) (d) : (dat (Ix := Ix) (U := U) (Lvl := Lvl) V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg11.N) (d) : (dat (Ix := Ix) (U := U) (Lvl := Lvl) V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg11.N) (d) : (dat (Ix := Ix) (U := U) (Lvl := Lvl) V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg11.N) (d) : (dat (Ix := Ix) (U := U) (Lvl := Lvl) V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg11.N) (d) : (dat (Ix := Ix) (U := U) (Lvl := Lvl) V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body obligation -/

/-- Each window's current staging memref at point `t`, spelled as the pipeline passes it to the body. -/
abbrev ms_0 (t : Fin cfg11.N) : Memref sig .tc .vmem S1024x1000 .bf16 := win11_0.stage (cfg11.slots t 0)
abbrev ms_1 (t : Fin cfg11.N) : Memref sig .tc .vmem S1000x256 .bf16 := win11_1.stage (cfg11.slots t 1)
abbrev ms_2 (t : Fin cfg11.N) : Memref sig .tc .vmem S1000x1 .f32 := win11_2.stage (cfg11.slots t 2)
abbrev ms_3 (t : Fin cfg11.N) : Memref sig .tc .vmem S1024x1 .f32 := win11_3.stage (cfg11.slots t 3)
abbrev ms_4 (t : Fin cfg11.N) : Memref sig .tc .vmem S1x256 .f32 := win11_4.stage (cfg11.slots t 4)
abbrev ms_5 (t : Fin cfg11.N) : Memref sig .tc .vmem S1024x256 .f32 := win11_5.stage (cfg11.slots t 5)

/-- What the body is called with at point `t`, the windows one by one, -/
def bodyPre (ι : Ix) (c : Dev nD) (t : Fin cfg11.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms_0 t) fullShare ((dat (Ix := Ix) (U := U) (Lvl := Lvl) V c).before 0 t d))
    ∗ (∃ d, owns (c : Thread nD τ) (ms_1 t) fullShare ((dat (Ix := Ix) (U := U) (Lvl := Lvl) V c).before 1 t d))
    ∗ (∃ d, owns (c : Thread nD τ) (ms_2 t) fullShare ((dat (Ix := Ix) (U := U) (Lvl := Lvl) V c).before 2 t d))
    ∗ (∃ d, owns (c : Thread nD τ) (ms_3 t) fullShare ((dat (Ix := Ix) (U := U) (Lvl := Lvl) V c).before 3 t d))
    ∗ (∃ d, owns (c : Thread nD τ) (ms_4 t) fullShare ((dat (Ix := Ix) (U := U) (Lvl := Lvl) V c).before 4 t d))
    ∗ (∃ d, owns (c : Thread nD τ) (ms_5 t) fullShare ((dat (Ix := Ix) (U := U) (Lvl := Lvl) V c).before 5 t d)))

/-- and what it returns. -/
def bodyPost (ι : Ix) (c : Dev nD) (t : Fin cfg11.N) : sProp 𝕄 :=
  iprop((dat (Ix := Ix) (U := U) (Lvl := Lvl) V c).Φ t.succ ∗ (dat (Ix := Ix) (U := U) (Lvl := Lvl) V c).owesAt ι t.succ
    ∗ owns (c : Thread nD τ) (ms_0 t) fullShare ((dat (Ix := Ix) (U := U) (Lvl := Lvl) V c).after 0 t)
    ∗ owns (c : Thread nD τ) (ms_1 t) fullShare ((dat (Ix := Ix) (U := U) (Lvl := Lvl) V c).after 1 t)
    ∗ owns (c : Thread nD τ) (ms_2 t) fullShare ((dat (Ix := Ix) (U := U) (Lvl := Lvl) V c).after 2 t)
    ∗ owns (c : Thread nD τ) (ms_3 t) fullShare ((dat (Ix := Ix) (U := U) (Lvl := Lvl) V c).after 3 t)
    ∗ owns (c : Thread nD τ) (ms_4 t) fullShare ((dat (Ix := Ix) (U := U) (Lvl := Lvl) V c).after 4 t)
    ∗ owns (c : Thread nD τ) (ms_5 t) fullShare ((dat (Ix := Ix) (U := U) (Lvl := Lvl) V c).after 5 t))

set_option maxHeartbeats 800000 in
/-- The body at any point: the inputs' buffers hold their blocks, both conditions hold, so the run applies; the
    accumulator is handed over at anything and taken back at anything; the core owes nothing throughout. -/
theorem sound_body (ι : Ix) (𝒱₀ : Variants) (c : Dev nD) (t : Fin cfg11.N) :
    bodyPre (U := U) (Lvl := Lvl) V ι c t ⊢ wp frame (wpE (defs₀ (F := F)) 𝒱₀ c none) Set.univ (bodyAt11 t) (fun _ => bodyPost (U := U) (Lvl := Lvl) V ι c t) := by
  unfold bodyPre bodyPost bodyAt11
  simp only [before_0, before_1, before_2, before_3, before_4]
  rw [show (dat V c).Φ t.succ = Φc c from rfl, show (dat V c).Φ t.castSucc = Φc c from rfl,
    show (dat V c).owesAt ι t.succ = (dat V c).owesAt ι t.castSucc from rfl,
    after_0, after_1, after_2, after_3, after_4, after_5]
  unfold Φc
  iintro ⟨⟨⟨%fs, Hs⟩, Hr⟩, Ho, ⟨%d0, H0⟩, ⟨%d1, H1⟩, ⟨%d2, H2⟩, ⟨%d3, H3⟩, ⟨%d4, H4⟩, ⟨%d5, H5⟩⟩
  iapply (kernelRun 𝒱₀ c (grid11.coords t) _ _ _ _ _ _ _ _ _ _ _ _ _ _ (hcond1 t) (hcond2 t)
    (blk V c 0 t) (blk V c 1 t) (blk V c 3 t) (blk V c 4 t) Set.univ _)
  isplitl [H0]; · iexact H0
  isplitl [H1]; · iexact H1
  isplitl [H3]; · iexact H3
  isplitl [H4]; · iexact H4
  isplitl [H5]; · iexists _; iexact H5
  isplitl [Hs]; · iexists fs; iapply (Entails.of_eq (owns_whole (c : Thread nD τ) cc11_scratch0 fullShare fs).symm); iexact Hs
  iintro ⟨H0, H1, H3, H4, H5, ⟨%ds, Hs⟩⟩
  isplitl [Hs Hr]
  · isplitl [Hs]; · iexists ds; iapply (Entails.of_eq (owns_whole (c : Thread nD τ) cc11_scratch0 fullShare ds)); iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-- The output window is live at every point: its condition holds there. -/
theorem idle_5 (t : Fin cfg11.N) : cfg11.idle 5 (cfg11.grid.coords t) = false := by
  show (!(k11_cond2 (grid11.coords t) == 1#1)) = false
  rw [hcond2 t]; rfl

set_option maxRecDepth 65536 in
/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W11, bigSep_W11]
  refine (sound_body V ι 𝒱₀ c t).trans (wp_mono _ _ _ fun _ => ?_)
  unfold bodyPost
  refine sep_mono .rfl (sep_mono .rfl (sep_mono .rfl (sep_mono .rfl (sep_mono .rfl (sep_mono .rfl (sep_mono .rfl ?_))))))
  rw [idle_5 t]

/-! ## The region, between the valuations of the core's unscoped buffers before and after it -/

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final (c : Dev nD) (hout : ∀ c, Vp c main_v137 = (dat (Ix := Ix) (U := U) (Lvl := Lvl) V c).arrAt 5 cfg11.N)
    (hne : ∀ c (b : Ref sig .tc), b ≠ main_v137 → Vp c b = V c b) :
    ∀ w : Fin cfg11.W, (dat (Ix := Ix) (U := U) (Lvl := Lvl) V c).arrAt w cfg11.N = Vp c (Pipeline.arrRef spec11 w)
  | ⟨0, _⟩ => ((dat V c).arrAt_in 0 rfl _).trans (hne c _ (ref_ne (by decide))).symm
  | ⟨1, _⟩ => ((dat V c).arrAt_in 1 rfl _).trans (hne c _ (ref_ne (by decide))).symm
  | ⟨2, _⟩ => ((dat V c).arrAt_in 2 rfl _).trans (hne c _ (ref_ne (by decide))).symm
  | ⟨3, _⟩ => ((dat V c).arrAt_in 3 rfl _).trans (hne c _ (ref_ne (by decide))).symm
  | ⟨4, _⟩ => ((dat V c).arrAt_in 4 rfl _).trans (hne c _ (ref_ne (by decide))).symm
  | ⟨5, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION: entered holding every unscoped buffer at `V c`, left holding them at `Vp c`, which has the output array at
    what the write-backs left and every other buffer as it was. The windows' arrays go into the pipeline, the other
    unscoped buffers pass by, the accumulator and the other scoped buffers make the invariant; the kernel has no
    semaphore of its own. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 11 c = dat V c)
    (hout : ∀ c, Vp c main_v137 = (dat (Ix := Ix) (U := U) (Lvl := Lvl) V c).arrAt 5 cfg11.N)
    (hne : ∀ c (b : Ref sig .tc), b ≠ main_v137 → Vp c b = V c b) :
    Pipeline.RegionSeg (pcfgs (F := F)) adm pd ι defs₀ 𝒱₀ L lv 11 where
  win := launch11.win.to₀
  block_pos := launch11.block_pos
  stage_whole := launch11.stage_whole
  K := PEmpty
  osem := fun k => k.elim
  ho := Pipeline.OwnSemFacts.none _
  hbody c := by rw [hpd]; exact (body_obligation V ι 𝒱₀ c).loose
  hwaits := Pipeline.hwaits_of_owed_zero _ _ _ _ L lv 11 fun c _ => by rw [hpd]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec11 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 11) launch11.win launch11.arr_whole c
      (by rw [hpd]; exact (dat V c).share_full fun _ => rfl) (fun b => V c b) (by rw [hpd]; exact fun _ => rfl)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [hpd, show (dat V c).Φ 0 = Φc c from rfl]; unfold Φc
    rw [show Pipeline.scopedRest (Pipeline.pin (pcfgs (F := F)) adm 11).spec c = _ from scopedRest11_split c]
    iintro ⟨-, -, Hr⟩
    iexact Hr
  hout c := by
    rw [hpd, Pipeline.ownSems0_none, show (dat V c).Φ (Fin.last (Pipeline.pin (pcfgs (F := F)) adm 11).N) = Φc c from rfl]; unfold Φc
    rw [show Pipeline.scopedRest (Pipeline.pin (pcfgs (F := F)) adm 11).spec c = _ from scopedRest11_split c]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 11) launch11.win launch11.arr_whole c pd
      (by rw [hpd]; exact (dat V c).share_full fun _ => rfl) (fun b => V c b) (fun b => Vp c b)
      (fun w => (pd 11 c).arrAt w (Pipeline.pin (pcfgs (F := F)) adm 11).N)
      (fun w => by rw [hpd]; exact arrAt_final V Vp c hout hne w)
      (fun b hb => hne c b fun e => hb (e ▸ Finset.mem_image_of_mem _ (Finset.mem_univ (5 : Fin 6))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      icases HO with ⟨%W, -, HO⟩; iexists W; iexact HO

end Cert.KernelIdeal.Region11

end
-- ==== Proof.KI.Region12.lean ====
/-
  Region 12 of @main: a matrix product on the grid (6, 1). The reduction axis has ONE tile, so at every grid point the
  body resets its accumulator, adds the point's product to it and writes the scaled, biased result to the output block:
  nothing is carried from point to point. Stated once, for any float family.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic

set_option maxRecDepth 16384

noncomputable section

namespace Cert.KernelIdeal.Region12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions: both hold at every point (the second grid coordinate is always 0) -/

/-- The condition of the first `scf.if` (reset the accumulator), from the grid coordinates. -/
abbrev cond1 (i : grid12.Coords) : Prop :=
  (Scalar.cmpi .ne (Scalar.extui (Scalar.cmpi .eq (BitVec.ofNat 32 (i 1).val) 0#32)) 0#32) = 1#1

theorem hcond1 : ∀ t : Fin cfg12.N, cond1 (grid12.coords t) :=
  (by decide +kernel : ∀ t : Fin grid12.N, cond1 (grid12.coords t))
theorem hcond2 : ∀ t : Fin cfg12.N, k12_cond2 (grid12.coords t) = 1#1 :=
  (by decide +kernel : ∀ t : Fin grid12.N, k12_cond2 (grid12.coords t) = 1#1)

/-! ## The body on any whole staging memrefs -/

theorem off0 : (![0, 0] : Fin 2 → ℕ) = fun _ => 0 := by funext a; fin_cases a <;> rfl

/-- A load of a whole buffer through the whole-shape rectangle reads its contents. -/
theorem readAt_whole {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [View.readAt_eq_ld, h.read_unread]; exact View.ld_unit_zero hz inb X

set_option maxHeartbeats 1000000 in
/-- From the two operand blocks, the row scale and the bias row in their buffers, the output buffer and the accumulator
    at anything: the body leaves the inputs as they were, the accumulator at something, and in the output buffer
    `(0 + A · B) * scale + bias`. -/
theorem kernelRun (𝒱₀ : Variants) (c : Dev nD) (i : grid12.Coords)
    (arg2 : Memref sig .tc .vmem S1024x256 .bf16) (harg2 : arg2.IsWhole) (arg3 : Memref sig .tc .vmem S256x256 .bf16) (harg3 : arg3.IsWhole)
    (arg4 : Memref sig .tc .vmem S256x1 .f32) (harg4 : arg4.IsWhole) (arg5 : Memref sig .tc .vmem S1024x1 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole) (hc1 : cond1 i) (hc2 : k12_cond2 i = 1#1)
    (xA : Vec F S1024x256 .bf16) (xB : Vec F S256x256 .bf16) (xs : Vec F S1024x1 .f32) (xb : Vec F S1x256 .f32)
    (E : Set ℕ) (K : PUnit → sProp 𝕄) :
    iprop(owns (c : Thread nD τ) arg2 fullShare xA ∗ owns (c : Thread nD τ) arg3 fullShare xB
        ∗ owns (c : Thread nD τ) arg5 fullShare xs ∗ owns (c : Thread nD τ) arg6 fullShare xb
        ∗ (∃ d, owns (c : Thread nD τ) arg7 fullShare d) ∗ (∃ d, owns (c : Thread nD τ) arg8 fullShare d)
        ∗ (iprop(owns (c : Thread nD τ) arg2 fullShare xA ∗ owns (c : Thread nD τ) arg3 fullShare xB
            ∗ owns (c : Thread nD τ) arg5 fullShare xs ∗ owns (c : Thread nD τ) arg6 fullShare xb
            ∗ owns (c : Thread nD τ) arg7 fullShare (k12_pay3 (k12_pay2 xA xB (k12_pay1 (F := F))) xs xb)
            ∗ (∃ d, owns (c : Thread nD τ) arg8 fullShare d)) -∗ K ⟨⟩))
      ⊢ wp frame (wpE (defs₀ (F := F)) 𝒱₀ c none) E (cc12__mm_kernel i arg2 harg2 arg3 harg3 arg4 harg4 arg5 harg5 arg6 harg6 arg7 harg7 arg8 harg8) K := by
  simp only [cc12__mm_kernel_eq_skeleton]; unfold cc12__mm_kernel_skel
  unfold owns
  iintro ⟨⟨%f2, %hf2, H2⟩, ⟨%f3, %hf3, H3⟩, ⟨%f5, %hf5, H5⟩, ⟨%f6, %hf6, H6⟩, ⟨%d7, %f7, -, H7⟩, ⟨%d8, %f8, -, H8⟩, Hk⟩
  obtain rfl := harg2.eq_unread hf2
  obtain rfl := harg3.eq_unread hf3
  obtain rfl := harg5.eq_unread hf5
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    rw [View.read_writes_eq_canon _ _ _ (fun y => ⟨_, List.mem_singleton_self _, View.mem_set_unit_zero off0 inb_S1024x256_S1024x256_0_0 y⟩),
      View.canon_unit_zero off0, readAt_whole _ harg5 xs off0, readAt_whole _ harg6 xb off0]
    unfold kernelRun.sl.v16 kernelRun.sl.H8_2
    rw [View.readCov_cons_toLoadRect, readAt_whole _ harg2 xA off0, readAt_whole _ harg3 xB off0]
    unfold kernelRun.sl.v7 kernelRun.sl.H8_1
    rw [View.readCov_cons_toLoadRect]
  iexists _, _; isplitr; swap; · iexact H8
  ipureintro; rfl

/-! ## The proof data -/

variable (V Vp : Dev nD → Valuation τ sig (Elt F))

/-- Window `w`'s block at point `t`, read off its array as the region finds it. -/
def blk (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The accumulator between points: at some contents (every point resets it before reading it), beside the other scoped
    buffers, unopened. -/
def Φc (c : Dev nD) : sProp 𝕄 :=
  iprop((∃ f : Buf (Elt F) ((c : Thread nD τ).loc cc12_scratch0), ((c : Thread nD τ).loc cc12_scratch0) ↦{fullShare} f)
    ∗ Pipeline.scopedRestBut (Ix := Ix) (Name := ℕ) (U := U) (Lvl := Lvl) (Val := Elt F) spec12 c [cc12_scratch0])

/-- The proof data on core `c`: the arrays as the region finds them; after the body at point `t` each input's buffer at
    its block, the output's at `(0 + A_t · B) * scale_t + bias`; nothing owed; full shares. -/
def dat (c : Dev nD) : Dat τ (Elt F) Ix ℕ U Lvl cfg12 c where
  A w := V c (Pipeline.arrRef spec12 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => k12_pay3 (k12_pay2 (blk V c 0 t) (blk V c 1 t) (k12_pay1 (F := F))) (blk V c 3 t) (blk V c 4 t)
  Φ _ := Φc c
  q _ := fullShare
  owed _ := 0

theorem A_eq (c : Dev nD) (w : Fin cfg12.W) : (dat (Ix := Ix) (U := U) (Lvl := Lvl) V c).A w = V c (Pipeline.arrRef spec12 w) := by
  dsimp only [dat]

theorem after_0 (c : Dev nD) (t : Fin cfg12.N) : (dat (Ix := Ix) (U := U) (Lvl := Lvl) V c).after 0 t = blk V c 0 t := by dsimp only [dat]
theorem after_1 (c : Dev nD) (t : Fin cfg12.N) : (dat (Ix := Ix) (U := U) (Lvl := Lvl) V c).after 1 t = blk V c 1 t := by dsimp only [dat]
theorem after_2 (c : Dev nD) (t : Fin cfg12.N) : (dat (Ix := Ix) (U := U) (Lvl := Lvl) V c).after 2 t = blk V c 2 t := by dsimp only [dat]
theorem after_3 (c : Dev nD) (t : Fin cfg12.N) : (dat (Ix := Ix) (U := U) (Lvl := Lvl) V c).after 3 t = blk V c 3 t := by dsimp only [dat]
theorem after_4 (c : Dev nD) (t : Fin cfg12.N) : (dat (Ix := Ix) (U := U) (Lvl := Lvl) V c).after 4 t = blk V c 4 t := by dsimp only [dat]
theorem after_5 (c : Dev nD) (t : Fin cfg12.N) : (dat (Ix := Ix) (U := U) (Lvl := Lvl) V c).after 5 t
    = k12_pay3 (k12_pay2 (blk V c 0 t) (blk V c 1 t) (k12_pay1 (F := F))) (blk V c 3 t) (blk V c 4 t) := by dsimp only [dat]

/-- An input window's current staging buffer holds its block at every point, fetched there or not: unfetched, the block
    index has not moved, and the body left the block in place. -/
theorem before_0 (c : Dev nD) (t : Fin cfg12.N) (d) : (dat (Ix := Ix) (U := U) (Lvl := Lvl) V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg12.N) (d) : (dat (Ix := Ix) (U := U) (Lvl := Lvl) V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg12.N) (d) : (dat (Ix := Ix) (U := U) (Lvl := Lvl) V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg12.N) (d) : (dat (Ix := Ix) (U := U) (Lvl := Lvl) V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg12.N) (d) : (dat (Ix := Ix) (U := U) (Lvl := Lvl) V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)

/-! ## The body obligation -/

/-- Each window's current staging memref at point `t`, spelled as the pipeline passes it to the body. -/
abbrev ms_0 (t : Fin cfg12.N) : Memref sig .tc .vmem S1024x256 .bf16 := win12_0.stage (cfg12.slots t 0)
abbrev ms_1 (t : Fin cfg12.N) : Memref sig .tc .vmem S256x256 .bf16 := win12_1.stage (cfg12.slots t 1)
abbrev ms_2 (t : Fin cfg12.N) : Memref sig .tc .vmem S256x1 .f32 := win12_2.stage (cfg12.slots t 2)
abbrev ms_3 (t : Fin cfg12.N) : Memref sig .tc .vmem S1024x1 .f32 := win12_3.stage (cfg12.slots t 3)
abbrev ms_4 (t : Fin cfg12.N) : Memref sig .tc .vmem S1x256 .f32 := win12_4.stage (cfg12.slots t 4)
abbrev ms_5 (t : Fin cfg12.N) : Memref sig .tc .vmem S1024x256 .f32 := win12_5.stage (cfg12.slots t 5)

/-- What the body is called with at point `t`, the windows one by one, -/
def bodyPre (ι : Ix) (c : Dev nD) (t : Fin cfg12.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms_0 t) fullShare ((dat (Ix := Ix) (U := U) (Lvl := Lvl) V c).before 0 t d))
    ∗ (∃ d, owns (c : Thread nD τ) (ms_1 t) fullShare ((dat (Ix := Ix) (U := U) (Lvl := Lvl) V c).before 1 t d))
    ∗ (∃ d, owns (c : Thread nD τ) (ms_2 t) fullShare ((dat (Ix := Ix) (U := U) (Lvl := Lvl) V c).before 2 t d))
    ∗ (∃ d, owns (c : Thread nD τ) (ms_3 t) fullShare ((dat (Ix := Ix) (U := U) (Lvl := Lvl) V c).before 3 t d))
    ∗ (∃ d, owns (c : Thread nD τ) (ms_4 t) fullShare ((dat (Ix := Ix) (U := U) (Lvl := Lvl) V c).before 4 t d))
    ∗ (∃ d, owns (c : Thread nD τ) (ms_5 t) fullShare ((dat (Ix := Ix) (U := U) (Lvl := Lvl) V c).before 5 t d)))

/-- and what it returns. -/
def bodyPost (ι : Ix) (c : Dev nD) (t : Fin cfg12.N) : sProp 𝕄 :=
  iprop((dat (Ix := Ix) (U := U) (Lvl := Lvl) V c).Φ t.succ ∗ (dat (Ix := Ix) (U := U) (Lvl := Lvl) V c).owesAt ι t.succ
    ∗ owns (c : Thread nD τ) (ms_0 t) fullShare ((dat (Ix := Ix) (U := U) (Lvl := Lvl) V c).after 0 t)
    ∗ owns (c : Thread nD τ) (ms_1 t) fullShare ((dat (Ix := Ix) (U := U) (Lvl := Lvl) V c).after 1 t)
    ∗ owns (c : Thread nD τ) (ms_2 t) fullShare ((dat (Ix := Ix) (U := U) (Lvl := Lvl) V c).after 2 t)
    ∗ owns (c : Thread nD τ) (ms_3 t) fullShare ((dat (Ix := Ix) (U := U) (Lvl := Lvl) V c).after 3 t)
    ∗ owns (c : Thread nD τ) (ms_4 t) fullShare ((dat (Ix := Ix) (U := U) (Lvl := Lvl) V c).after 4 t)
    ∗ owns (c : Thread nD τ) (ms_5 t) fullShare ((dat (Ix := Ix) (U := U) (Lvl := Lvl) V c).after 5 t))

set_option maxHeartbeats 800000 in
/-- The body at any point: the inputs' buffers hold their blocks, both conditions hold, so the run applies; the
    accumulator is handed over at anything and taken back at anything; the core owes nothing throughout. -/
theorem sound_body (ι : Ix) (𝒱₀ : Variants) (c : Dev nD) (t : Fin cfg12.N) :
    bodyPre (U := U) (Lvl := Lvl) V ι c t ⊢ wp frame (wpE (defs₀ (F := F)) 𝒱₀ c none) Set.univ (bodyAt12 t) (fun _ => bodyPost (U := U) (Lvl := Lvl) V ι c t) := by
  unfold bodyPre bodyPost bodyAt12
  simp only [before_0, before_1, before_2, before_3, before_4]
  rw [show (dat V c).Φ t.succ = Φc c from rfl, show (dat V c).Φ t.castSucc = Φc c from rfl,
    show (dat V c).owesAt ι t.succ = (dat V c).owesAt ι t.castSucc from rfl,
    after_0, after_1, after_2, after_3, after_4, after_5]
  unfold Φc
  iintro ⟨⟨⟨%fs, Hs⟩, Hr⟩, Ho, ⟨%d0, H0⟩, ⟨%d1, H1⟩, ⟨%d2, H2⟩, ⟨%d3, H3⟩, ⟨%d4, H4⟩, ⟨%d5, H5⟩⟩
  iapply (kernelRun 𝒱₀ c (grid12.coords t) _ _ _ _ _ _ _ _ _ _ _ _ _ _ (hcond1 t) (hcond2 t)
    (blk V c 0 t) (blk V c 1 t) (blk V c 3 t) (blk V c 4 t) Set.univ _)
  isplitl [H0]; · iexact H0
  isplitl [H1]; · iexact H1
  isplitl [H3]; · iexact H3
  isplitl [H4]; · iexact H4
  isplitl [H5]; · iexists _; iexact H5
  isplitl [Hs]; · iexists fs; iapply (Entails.of_eq (owns_whole (c : Thread nD τ) cc12_scratch0 fullShare fs).symm); iexact Hs
  iintro ⟨H0, H1, H3, H4, H5, ⟨%ds, Hs⟩⟩
  isplitl [Hs Hr]
  · isplitl [Hs]; · iexists ds; iapply (Entails.of_eq (owns_whole (c : Thread nD τ) cc12_scratch0 fullShare ds)); iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-- The output window is live at every point: its condition holds there. -/
theorem idle_5 (t : Fin cfg12.N) : cfg12.idle 5 (cfg12.grid.coords t) = false := by
  show (!(k12_cond2 (grid12.coords t) == 1#1)) = false
  rw [hcond2 t]; rfl

set_option maxRecDepth 65536 in
/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W12, bigSep_W12]
  refine (sound_body V ι 𝒱₀ c t).trans (wp_mono _ _ _ fun _ => ?_)
  unfold bodyPost
  refine sep_mono .rfl (sep_mono .rfl (sep_mono .rfl (sep_mono .rfl (sep_mono .rfl (sep_mono .rfl (sep_mono .rfl ?_))))))
  rw [idle_5 t]

/-! ## The region, between the valuations of the core's unscoped buffers before and after it -/

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final (c : Dev nD) (hout : ∀ c, Vp c main_v155 = (dat (Ix := Ix) (U := U) (Lvl := Lvl) V c).arrAt 5 cfg12.N)
    (hne : ∀ c (b : Ref sig .tc), b ≠ main_v155 → Vp c b = V c b) :
    ∀ w : Fin cfg12.W, (dat (Ix := Ix) (U := U) (Lvl := Lvl) V c).arrAt w cfg12.N = Vp c (Pipeline.arrRef spec12 w)
  | ⟨0, _⟩ => ((dat V c).arrAt_in 0 rfl _).trans (hne c _ (ref_ne (by decide))).symm
  | ⟨1, _⟩ => ((dat V c).arrAt_in 1 rfl _).trans (hne c _ (ref_ne (by decide))).symm
  | ⟨2, _⟩ => ((dat V c).arrAt_in 2 rfl _).trans (hne c _ (ref_ne (by decide))).symm
  | ⟨3, _⟩ => ((dat V c).arrAt_in 3 rfl _).trans (hne c _ (ref_ne (by decide))).symm
  | ⟨4, _⟩ => ((dat V c).arrAt_in 4 rfl _).trans (hne c _ (ref_ne (by decide))).symm
  | ⟨5, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION: entered holding every unscoped buffer at `V c`, left holding them at `Vp c`, which has the output array at
    what the write-backs left and every other buffer as it was. The windows' arrays go into the pipeline, the other
    unscoped buffers pass by, the accumulator and the other scoped buffers make the invariant; the kernel has no
    semaphore of its own. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 12 c = dat V c)
    (hout : ∀ c, Vp c main_v155 = (dat (Ix := Ix) (U := U) (Lvl := Lvl) V c).arrAt 5 cfg12.N)
    (hne : ∀ c (b : Ref sig .tc), b ≠ main_v155 → Vp c b = V c b) :
    Pipeline.RegionSeg (pcfgs (F := F)) adm pd ι defs₀ 𝒱₀ L lv 12 where
  win := launch12.win.to₀
  block_pos := launch12.block_pos
  stage_whole := launch12.stage_whole
  K := PEmpty
  osem := fun k => k.elim
  ho := Pipeline.OwnSemFacts.none _
  hbody c := by rw [hpd]; exact (body_obligation V ι 𝒱₀ c).loose
  hwaits := Pipeline.hwaits_of_owed_zero _ _ _ _ L lv 12 fun c _ => by rw [hpd]; rfl
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec12 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 12) launch12.win launch12.arr_whole c
      (by rw [hpd]; exact (dat V c).share_full fun _ => rfl) (fun b => V c b) (by rw [hpd]; exact fun _ => rfl)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [hpd, show (dat V c).Φ 0 = Φc c from rfl]; unfold Φc
    rw [show Pipeline.scopedRest (Pipeline.pin (pcfgs (F := F)) adm 12).spec c = _ from scopedRest12_split c]
    iintro ⟨-, -, Hr⟩
    iexact Hr
  hout c := by
    rw [hpd, Pipeline.ownSems0_none, show (dat V c).Φ (Fin.last (Pipeline.pin (pcfgs (F := F)) adm 12).N) = Φc c from rfl]; unfold Φc
    rw [show Pipeline.scopedRest (Pipeline.pin (pcfgs (F := F)) adm 12).spec c = _ from scopedRest12_split c]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 12) launch12.win launch12.arr_whole c pd
      (by rw [hpd]; exact (dat V c).share_full fun _ => rfl) (fun b => V c b) (fun b => Vp c b)
      (fun w => (pd 12 c).arrAt w (Pipeline.pin (pcfgs (F := F)) adm 12).N)
      (fun w => by rw [hpd]; exact arrAt_final V Vp c hout hne w)
      (fun b hb => hne c b fun e => hb (e ▸ Finset.mem_image_of_mem _ (Finset.mem_univ (5 : Fin 6))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      icases HO with ⟨%W, -, HO⟩; iexists W; iexact HO

end Cert.KernelIdeal.Region12

end
-- ==== Proof.KI.Region13Base.lean ====
/-
  Region 13 of @main, first part: a hop of the message passing on the grid (6, 6). At the point (i, k) the body adds to
  an accumulator the product of the (i, k) tile of the adjacency operand with rows [1024 k, 1024 k + 1024) of the
  feature operand, each row scaled by the k-th block of the scale column; the accumulator is reset at k = 0, and at
  k = 5 the body writes the two output blocks of row tile i: the accumulator scaled by the i-th block of the same
  scale column, and that block's product with the gate matrix plus the bias row. Two windows stage the one scale
  column, one at block k, the other at block i. Here: the body on any whole staging memrefs, one statement per case
  of the reduction coordinate, and the proof data with each input's buffer at its block. Stated once, for any float family.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Regions
import Idealize.ShloMosaic.Lib.Pipeline.RegionsLoop
import Idealize.ShloMosaic.Lib.Pipeline.Value
import Idealize.ShloMosaic.Lib.Tactic

set_option maxRecDepth 16384

noncomputable section

namespace Cert.KernelIdeal.Region13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions, from the grid coordinates -/

/-- The condition of the first `scf.if` (reset the accumulator): the reduction coordinate is 0. -/
abbrev cond1 (i : grid13.Coords) : Prop :=
  (Scalar.cmpi .ne (Scalar.extui (Scalar.cmpi .eq (BitVec.ofNat 32 (i 1).val) 0#32)) 0#32) = 1#1

/-- The rows of the resident operand the point reads: 1024 rows from row `1024 * k`. -/
abbrev rows (i : grid13.Coords) (x1 : Vec F S6144x256 .bf16) : Vec F S1024x256 .bf16 :=
  View.ld x1 (Rect.unit (s := S6144x256) (k13_off1 i) S1024x256.size (k13_off1_inb i))

theorem z2 : (![0, 0] : Fin 2 → Nat) = fun _ => 0 := by funext a; fin_cases a <;> rfl

/-- A store through the whole-shape rectangle at zero offsets, LAST, leaves its payload. -/
theorem read_store_zero {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

set_option maxHeartbeats 1000000 in
/-- A point in the middle of a reduction (the reduction coordinate neither 0 nor 5): the accumulator gains the point's product. -/
theorem kernelRunB (𝒱₀ : Variants) (c : Dev nD) (i : grid13.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : ¬ k13_cond2 i = 1#1)
    (x0 : Vec F S1024x1024 .bf16) (x1 : Vec F S6144x256 .bf16) (x2 : Vec F S1024x1 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg10 fullShare acc
        ∗ (iprop(owns (c : Thread nD τ) arg2 fullShare x0 ∗ owns (c : Thread nD τ) arg3 fullShare x1
            ∗ owns (c : Thread nD τ) arg4 fullShare x2
            ∗ owns (c : Thread nD τ) arg10 fullShare (k13_pay2 x0 (rows i x1) x2 acc)) -∗ K ⟨⟩))
      ⊢ wp frame (wpE (defs₀ (F := F)) 𝒱₀ c none) E (cc13__hop_kernel i arg2 harg2 arg3 harg3 arg4 harg4 arg5 harg5 arg6 harg6 arg7 harg7 arg8 harg8 arg9 harg9 arg10 harg10) K := by
  simp only [cc13__hop_kernel_eq_skeleton]; unfold cc13__hop_kernel_skel
  unfold owns
  iintro ⟨⟨%f2, %hf2, H2⟩, ⟨%f3, %hf3, H3⟩, ⟨%f4, %hf4, H4⟩, ⟨%f10, %hf10, H10⟩, Hk⟩
  obtain rfl := harg2.eq_unread hf2
  obtain rfl := harg3.eq_unread hf3
  obtain rfl := harg4.eq_unread hf4
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  rw [read_store_zero _ _ z2]
  simp only [View.readAt_eq_ld, hf2, hf3, hf4, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The first point of a reduction (the reduction coordinate 0): the accumulator is reset, then gains the point's product. -/
theorem kernelRunA (𝒱₀ : Variants) (c : Dev nD) (i : grid13.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : cond1 i) (hc2 : ¬ k13_cond2 i = 1#1)
    (x0 : Vec F S1024x1024 .bf16) (x1 : Vec F S6144x256 .bf16) (x2 : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg10 fullShare d)
        ∗ (iprop(owns (c : Thread nD τ) arg2 fullShare x0 ∗ owns (c : Thread nD τ) arg3 fullShare x1
            ∗ owns (c : Thread nD τ) arg4 fullShare x2
            ∗ owns (c : Thread nD τ) arg10 fullShare (k13_pay2 x0 (rows i x1) x2 (k13_pay1 (F := F)))) -∗ K ⟨⟩))
      ⊢ wp frame (wpE (defs₀ (F := F)) 𝒱₀ c none) E (cc13__hop_kernel i arg2 harg2 arg3 harg3 arg4 harg4 arg5 harg5 arg6 harg6 arg7 harg7 arg8 harg8 arg9 harg9 arg10 harg10) K := by
  simp only [cc13__hop_kernel_eq_skeleton]; unfold cc13__hop_kernel_skel
  unfold owns
  iintro ⟨⟨%f2, %hf2, H2⟩, ⟨%f3, %hf3, H3⟩, ⟨%f4, %hf4, H4⟩, ⟨%d10, %f10, -, H10⟩, Hk⟩
  obtain rfl := harg2.eq_unread hf2
  obtain rfl := harg3.eq_unread hf3
  obtain rfl := harg4.eq_unread hf4
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  sl_unfold_run_names
  rw [read_store_zero _ _ z2]
  simp only [View.readAt_eq_ld, hf2, hf3, hf4,  View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The last point of a reduction (the reduction coordinate 5): the accumulator gains the point's product, and the two
    output blocks are written from it. -/
theorem kernelRunC (𝒱₀ : Variants) (c : Dev nD) (i : grid13.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : k13_cond2 i = 1#1)
    (x0 : Vec F S1024x1024 .bf16) (x1 : Vec F S6144x256 .bf16) (x2 : Vec F S1024x1 .f32) (x3 : Vec F S1024x1 .f32)
    (x4 : Vec F S256x256 .bf16) (x5 : Vec F S1x256 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare acc
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k13_pay4 (k13_pay2 x0 (rows i x1) x2 acc) x3)
            ∗ owns (c : Thread nD τ) arg9 fullShare (k13_pay5 (k13_pay2 x0 (rows i x1) x2 acc) x3 x4 x5)
            ∗ owns (c : Thread nD τ) arg10 fullShare (k13_pay2 x0 (rows i x1) x2 acc)) -∗ K ⟨⟩))
      ⊢ wp frame (wpE (defs₀ (F := F)) 𝒱₀ c none) E (cc13__hop_kernel i arg2 harg2 arg3 harg3 arg4 harg4 arg5 harg5 arg6 harg6 arg7 harg7 arg8 harg8 arg9 harg9 arg10 harg10) K := by
  simp only [cc13__hop_kernel_eq_skeleton]; unfold cc13__hop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%f10, %hf10, H10⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]
  · iexists _; isplitr; swap; (· iexact H8); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  isplitl [H9]
  · iexists _; isplitr; swap; (· iexact H9); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  iexists _; isplitr; swap; (· iexact H10); ipureintro
  sl_unfold_run_names
  rw [read_store_zero _ _ z2]
  simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

/-! ## The schedule's closed forms at the reduction coordinate `k = t % 6` -/

theorem hcond1 : ∀ t : Fin cfg13.N, cond1 (grid13.coords t) ↔ t.val % 6 = 0 :=
  (by decide +kernel : ∀ t : Fin grid13.N, cond1 (grid13.coords t) ↔ t.val % 6 = 0)
theorem hcond2 : ∀ t : Fin cfg13.N, k13_cond2 (grid13.coords t) = 1#1 ↔ t.val % 6 = 5 :=
  (by decide +kernel : ∀ t : Fin grid13.N, k13_cond2 (grid13.coords t) = 1#1 ↔ t.val % 6 = 5)
/-- Where the reduction is not at its last tile the body stores nothing into the two outputs' buffers, -/
theorem idle6 : ∀ t : Fin cfg13.N, ¬ t.val % 6 = 5 → cfg13.idle 6 (grid13.coords t) = true :=
  (by decide +kernel : ∀ t : Fin grid13.N, ¬ t.val % 6 = 5 → idle13 6 (grid13.coords t) = true)
theorem idle7 : ∀ t : Fin cfg13.N, ¬ t.val % 6 = 5 → cfg13.idle 7 (grid13.coords t) = true :=
  (by decide +kernel : ∀ t : Fin grid13.N, ¬ t.val % 6 = 5 → idle13 7 (grid13.coords t) = true)
/-- and at its last tile it fills them. -/
theorem live6 : ∀ t : Fin cfg13.N, t.val % 6 = 5 → cfg13.idle 6 (grid13.coords t) = false :=
  (by decide +kernel : ∀ t : Fin grid13.N, t.val % 6 = 5 → idle13 6 (grid13.coords t) = false)
theorem live7 : ∀ t : Fin cfg13.N, t.val % 6 = 5 → cfg13.idle 7 (grid13.coords t) = false :=
  (by decide +kernel : ∀ t : Fin grid13.N, t.val % 6 = 5 → idle13 7 (grid13.coords t) = false)
theorem noflush6 (t : Fin cfg13.N) (h : ¬ t.val % 6 = 5) : (cfg13.win 6).flush t = false :=
  Bool.eq_false_iff.mpr fun hf => h ((flush13_6 t).mp hf)
theorem noflush7 (t : Fin cfg13.N) (h : ¬ t.val % 6 = 5) : (cfg13.win 7).flush t = false :=
  Bool.eq_false_iff.mpr fun hf => h ((flush13_7 t).mp hf)

/-! ## The proof data, at an entry valuation -/

variable (V Vp : Dev nD → Valuation τ sig (Elt F))

/-- Window `w`'s block at point `t`, read off the entry valuation. -/
def iblk (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- THE ACCUMULATION: what the accumulator holds after point `n` — the point's product added to zero at the first tile
    of a reduction (`n % 6 = 0`), to what the point before left elsewhere. -/
def accAt (c : Dev nD) : (n : ℕ) → n < cfg13.N → Vec F S1024x256 .f32
  | 0, hn => k13_pay2 (iblk V c 0 ⟨0, hn⟩) (rows (grid13.coords ⟨0, hn⟩) (iblk V c 1 ⟨0, hn⟩)) (iblk V c 2 ⟨0, hn⟩) (k13_pay1 (F := F))
  | n + 1, hn => k13_pay2 (iblk V c 0 ⟨n + 1, hn⟩) (rows (grid13.coords ⟨n + 1, hn⟩) (iblk V c 1 ⟨n + 1, hn⟩)) (iblk V c 2 ⟨n + 1, hn⟩)
      (if (n + 1) % 6 = 0 then k13_pay1 (F := F) else accAt c n (Nat.lt_of_succ_lt hn))

theorem accAt_first (c : Dev nD) (t : Fin cfg13.N) (h : t.val % 6 = 0) :
    accAt V c t.val t.isLt = k13_pay2 (iblk V c 0 t) (rows (grid13.coords t) (iblk V c 1 t)) (iblk V c 2 t) (k13_pay1 (F := F)) := by
  obtain ⟨n, hn⟩ := t
  cases n with
  | zero => rfl
  | succ n => show accAt V c (n + 1) hn = _; rw [accAt, if_pos h]

theorem accAt_next (c : Dev nD) (t : Fin cfg13.N) (h : ¬ t.val % 6 = 0) :
    accAt V c t.val t.isLt = k13_pay2 (iblk V c 0 t) (rows (grid13.coords t) (iblk V c 1 t)) (iblk V c 2 t)
      (accAt V c (t.val - 1) (Nat.lt_of_le_of_lt (Nat.sub_le _ _) t.isLt)) := by
  obtain ⟨n, hn⟩ := t
  cases n with
  | zero => exact absurd (Nat.zero_mod _) h
  | succ n => show accAt V c (n + 1) hn = _; rw [accAt, if_neg h]; rfl

/-- The accumulator's buffer: the call's one scratch operand. -/
abbrev scM : Memref sig .tc .vmem S1024x256 .f32 := Memref.whole cc13_scratch0

/-- The invariant before position `n`: before the first point every scoped buffer the pipeline does not stage at anything;
    afterwards the accumulator at what the point before left in it, the others at anything. -/
def PhiS (c : Dev nD) : (n : ℕ) → n ≤ cfg13.N → sProp 𝕄
  | 0, _ => Pipeline.scopedRest (Ix := Ix) (Name := ℕ) (U := U) (Lvl := Lvl) (Val := Elt F) spec13 c
  | n + 1, hn => iprop(owns (c : Thread nD τ) scM fullShare (accAt V c n hn)
      ∗ Pipeline.scopedRestBut (Ix := Ix) (Name := ℕ) (U := U) (Lvl := Lvl) (Val := Elt F) spec13 c [cc13_scratch0])

theorem PhiS_zero (c : Dev nD) (n : ℕ) (h : n ≤ cfg13.N) (hz : n = 0) :
    PhiS (Ix := Ix) (U := U) (Lvl := Lvl) V c n h = Pipeline.scopedRest (Ix := Ix) (Name := ℕ) (U := U) (Lvl := Lvl) (Val := Elt F) spec13 c := by
  subst hz; rfl

theorem PhiS_succ (c : Dev nD) (n : ℕ) (hn : n < cfg13.N) :
    PhiS (Ix := Ix) (U := U) (Lvl := Lvl) V c (n + 1) hn = iprop(owns (c : Thread nD τ) scM fullShare (accAt V c n hn)
      ∗ Pipeline.scopedRestBut (Ix := Ix) (Name := ℕ) (U := U) (Lvl := Lvl) (Val := Elt F) spec13 c [cc13_scratch0]) := rfl

theorem PhiS_pos (c : Dev nD) (n : ℕ) (h : n ≤ cfg13.N) (hz : n ≠ 0) :
    PhiS (Ix := Ix) (U := U) (Lvl := Lvl) V c n h = iprop(owns (c : Thread nD τ) scM fullShare (accAt V c (n - 1) (by omega))
      ∗ Pipeline.scopedRestBut (Ix := Ix) (Name := ℕ) (U := U) (Lvl := Lvl) (Val := Elt F) spec13 c [cc13_scratch0]) := by
  cases n with
  | zero => exact absurd rfl hz
  | succ n => rfl

/-- The proof data of one entry of the region, from valuation `V`: the arrays at `V`; after the body each input's buffer at
    its block, the two outputs' at the scaled accumulator and at its product with the gate plus the bias; the invariant
    above; nothing owed; the array two windows stage held half by each, the others whole. -/
def dat (c : Dev nD) : Pipeline.Dat τ (Elt F) Ix ℕ U Lvl cfg13 c where
  A w := V c (Pipeline.arrRef spec13 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k13_pay4 (accAt V c t.val t.isLt) (iblk V c 3 t)
    | ⟨7, _⟩ => k13_pay5 (accAt V c t.val t.isLt) (iblk V c 3 t) (iblk V c 4 t) (iblk V c 5 t)
  Φ t := PhiS V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg13.W) : (dat (Ix := Ix) (U := U) (Lvl := Lvl) V c).A w = V c (Pipeline.arrRef spec13 w) := by
  dsimp only [dat]

theorem PhiS_castSucc (c : Dev nD) (t : Fin cfg13.N) :
    (dat (Ix := Ix) (U := U) (Lvl := Lvl) V c).Φ t.castSucc = PhiS V c t.val (Nat.le_of_lt t.isLt) := by
  dsimp only [dat]; simp only [Fin.coe_castSucc]

theorem after0 (c : Dev nD) (t : Fin cfg13.N) : (dat (Ix := Ix) (U := U) (Lvl := Lvl) V c).after 0 t = iblk V c 0 t := by dsimp only [dat]
theorem after1 (c : Dev nD) (t : Fin cfg13.N) : (dat (Ix := Ix) (U := U) (Lvl := Lvl) V c).after 1 t = iblk V c 1 t := by dsimp only [dat]
theorem after2 (c : Dev nD) (t : Fin cfg13.N) : (dat (Ix := Ix) (U := U) (Lvl := Lvl) V c).after 2 t = iblk V c 2 t := by dsimp only [dat]
theorem after3 (c : Dev nD) (t : Fin cfg13.N) : (dat (Ix := Ix) (U := U) (Lvl := Lvl) V c).after 3 t = iblk V c 3 t := by dsimp only [dat]
theorem after4 (c : Dev nD) (t : Fin cfg13.N) : (dat (Ix := Ix) (U := U) (Lvl := Lvl) V c).after 4 t = iblk V c 4 t := by dsimp only [dat]
theorem after5 (c : Dev nD) (t : Fin cfg13.N) : (dat (Ix := Ix) (U := U) (Lvl := Lvl) V c).after 5 t = iblk V c 5 t := by dsimp only [dat]
theorem after6 (c : Dev nD) (t : Fin cfg13.N) : (dat (Ix := Ix) (U := U) (Lvl := Lvl) V c).after 6 t = k13_pay4 (accAt V c t.val t.isLt) (iblk V c 3 t) := by dsimp only [dat]
theorem after7 (c : Dev nD) (t : Fin cfg13.N) :
    (dat (Ix := Ix) (U := U) (Lvl := Lvl) V c).after 7 t = k13_pay5 (accAt V c t.val t.isLt) (iblk V c 3 t) (iblk V c 4 t) (iblk V c 5 t) := by dsimp only [dat]

/-! Each input's current staging buffer holds its block at every point, fetched there or not: unfetched, the block index
    has not moved. -/

theorem before0 (c : Dev nD) (t : Fin cfg13.N) (d) : (dat (Ix := Ix) (U := U) (Lvl := Lvl) V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg13.N) (d) : (dat (Ix := Ix) (U := U) (Lvl := Lvl) V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg13.N) (d) : (dat (Ix := Ix) (U := U) (Lvl := Lvl) V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg13.N) (d) : (dat (Ix := Ix) (U := U) (Lvl := Lvl) V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg13.N) (d) : (dat (Ix := Ix) (U := U) (Lvl := Lvl) V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg13.N) (d) : (dat (Ix := Ix) (U := U) (Lvl := Lvl) V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.KernelIdeal.Region13

end
-- ==== Proof.KI.Region13.lean ====
/-
  Region 13 of @main, second part: the body obligation at a generic grid point, by the reduction coordinate (first tile,
  a middle tile, last tile), and the region's segment over the thread state: entered from every unscoped buffer at an
  entry valuation, left at the exit valuation, which differs from it at the two results only. The scale column two
  windows stage is held half by each of them inside the region. Stated once, for any float family.
-/
import proofs.«414035_j83562883711810_2_alg».proof.Proof.KI.Region13Base

set_option maxRecDepth 16384

noncomputable section

namespace Cert.KernelIdeal.Region13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

variable (V Vp : Dev nD → Valuation τ sig (Elt F))

/-! ## The body obligation, at a generic point -/

/-- The staging memrefs the body is called with at point `t`. -/
abbrev ms0 (t : Fin cfg13.N) : Memref sig .tc .vmem S1024x1024 .bf16 := win13_0.stage (cfg13.slots t 0)
abbrev hs0 (t : Fin cfg13.N) : (ms0 t).IsWhole := hstage13_0 ((cfg13.slots t 0).cast nbuf13_0)
abbrev ms1 (t : Fin cfg13.N) : Memref sig .tc .vmem S6144x256 .bf16 := win13_1.stage (cfg13.slots t 1)
abbrev hs1 (t : Fin cfg13.N) : (ms1 t).IsWhole := hstage13_1 ((cfg13.slots t 1).cast nbuf13_1)
abbrev ms2 (t : Fin cfg13.N) : Memref sig .tc .vmem S1024x1 .f32 := win13_2.stage (cfg13.slots t 2)
abbrev hs2 (t : Fin cfg13.N) : (ms2 t).IsWhole := hstage13_2 ((cfg13.slots t 2).cast nbuf13_2)
abbrev ms3 (t : Fin cfg13.N) : Memref sig .tc .vmem S1024x1 .f32 := win13_3.stage (cfg13.slots t 3)
abbrev hs3 (t : Fin cfg13.N) : (ms3 t).IsWhole := hstage13_3 ((cfg13.slots t 3).cast nbuf13_3)
abbrev ms4 (t : Fin cfg13.N) : Memref sig .tc .vmem S256x256 .bf16 := win13_4.stage (cfg13.slots t 4)
abbrev hs4 (t : Fin cfg13.N) : (ms4 t).IsWhole := hstage13_4 ((cfg13.slots t 4).cast nbuf13_4)
abbrev ms5 (t : Fin cfg13.N) : Memref sig .tc .vmem S1x256 .f32 := win13_5.stage (cfg13.slots t 5)
abbrev hs5 (t : Fin cfg13.N) : (ms5 t).IsWhole := hstage13_5 ((cfg13.slots t 5).cast nbuf13_5)
abbrev ms6 (t : Fin cfg13.N) : Memref sig .tc .vmem S1024x256 .bf16 := win13_6.stage (cfg13.slots t 6)
abbrev hs6 (t : Fin cfg13.N) : (ms6 t).IsWhole := hstage13_6 ((cfg13.slots t 6).cast nbuf13_6)
abbrev ms7 (t : Fin cfg13.N) : Memref sig .tc .vmem S1024x256 .f32 := win13_7.stage (cfg13.slots t 7)
abbrev hs7 (t : Fin cfg13.N) : (ms7 t).IsWhole := hstage13_7 ((cfg13.slots t 7).cast nbuf13_7)

/-- What the body is called with at point `t`, the windows one by one, -/
def bodyPre (ι : Ix) (c : Dev nD) (t : Fin cfg13.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms0 t) fullShare ((dat (Ix := Ix) (U := U) (Lvl := Lvl) V c).before 0 t d))
    ∗ (∃ d, owns (c : Thread nD τ) (ms1 t) fullShare ((dat (Ix := Ix) (U := U) (Lvl := Lvl) V c).before 1 t d))
    ∗ (∃ d, owns (c : Thread nD τ) (ms2 t) fullShare ((dat (Ix := Ix) (U := U) (Lvl := Lvl) V c).before 2 t d))
    ∗ (∃ d, owns (c : Thread nD τ) (ms3 t) fullShare ((dat (Ix := Ix) (U := U) (Lvl := Lvl) V c).before 3 t d))
    ∗ (∃ d, owns (c : Thread nD τ) (ms4 t) fullShare ((dat (Ix := Ix) (U := U) (Lvl := Lvl) V c).before 4 t d))
    ∗ (∃ d, owns (c : Thread nD τ) (ms5 t) fullShare ((dat (Ix := Ix) (U := U) (Lvl := Lvl) V c).before 5 t d))
    ∗ (∃ d, owns (c : Thread nD τ) (ms6 t) fullShare ((dat (Ix := Ix) (U := U) (Lvl := Lvl) V c).before 6 t d))
    ∗ (∃ d, owns (c : Thread nD τ) (ms7 t) fullShare ((dat (Ix := Ix) (U := U) (Lvl := Lvl) V c).before 7 t d)))

/-- and what it returns. -/
def bodyPost (ι : Ix) (c : Dev nD) (t : Fin cfg13.N) : sProp 𝕄 :=
  iprop((dat (Ix := Ix) (U := U) (Lvl := Lvl) V c).Φ t.succ ∗ (dat (Ix := Ix) (U := U) (Lvl := Lvl) V c).owesAt ι t.succ
    ∗ (dat (Ix := Ix) (U := U) (Lvl := Lvl) V c).leavesExact 0 t
    ∗ (dat (Ix := Ix) (U := U) (Lvl := Lvl) V c).leavesExact 1 t
    ∗ (dat (Ix := Ix) (U := U) (Lvl := Lvl) V c).leavesExact 2 t
    ∗ (dat (Ix := Ix) (U := U) (Lvl := Lvl) V c).leavesExact 3 t
    ∗ (dat (Ix := Ix) (U := U) (Lvl := Lvl) V c).leavesExact 4 t
    ∗ (dat (Ix := Ix) (U := U) (Lvl := Lvl) V c).leavesExact 5 t
    ∗ (dat (Ix := Ix) (U := U) (Lvl := Lvl) V c).leavesExact 6 t
    ∗ (dat (Ix := Ix) (U := U) (Lvl := Lvl) V c).leavesExact 7 t)

theorem leaves0 (c : Dev nD) (t : Fin cfg13.N) :
    (dat (Ix := Ix) (U := U) (Lvl := Lvl) V c).leavesExact 0 t = owns (c : Thread nD τ) (ms0 t) fullShare (iblk V c 0 t) := by
  unfold Dat.leavesExact; rw [show cfg13.idle 0 (cfg13.grid.coords t) = false from rfl, after0]
theorem leaves1 (c : Dev nD) (t : Fin cfg13.N) :
    (dat (Ix := Ix) (U := U) (Lvl := Lvl) V c).leavesExact 1 t = owns (c : Thread nD τ) (ms1 t) fullShare (iblk V c 1 t) := by
  unfold Dat.leavesExact; rw [show cfg13.idle 1 (cfg13.grid.coords t) = false from rfl, after1]
theorem leaves2 (c : Dev nD) (t : Fin cfg13.N) :
    (dat (Ix := Ix) (U := U) (Lvl := Lvl) V c).leavesExact 2 t = owns (c : Thread nD τ) (ms2 t) fullShare (iblk V c 2 t) := by
  unfold Dat.leavesExact; rw [show cfg13.idle 2 (cfg13.grid.coords t) = false from rfl, after2]
theorem leaves3 (c : Dev nD) (t : Fin cfg13.N) :
    (dat (Ix := Ix) (U := U) (Lvl := Lvl) V c).leavesExact 3 t = owns (c : Thread nD τ) (ms3 t) fullShare (iblk V c 3 t) := by
  unfold Dat.leavesExact; rw [show cfg13.idle 3 (cfg13.grid.coords t) = false from rfl, after3]
theorem leaves4 (c : Dev nD) (t : Fin cfg13.N) :
    (dat (Ix := Ix) (U := U) (Lvl := Lvl) V c).leavesExact 4 t = owns (c : Thread nD τ) (ms4 t) fullShare (iblk V c 4 t) := by
  unfold Dat.leavesExact; rw [show cfg13.idle 4 (cfg13.grid.coords t) = false from rfl, after4]
theorem leaves5 (c : Dev nD) (t : Fin cfg13.N) :
    (dat (Ix := Ix) (U := U) (Lvl := Lvl) V c).leavesExact 5 t = owns (c : Thread nD τ) (ms5 t) fullShare (iblk V c 5 t) := by
  unfold Dat.leavesExact; rw [show cfg13.idle 5 (cfg13.grid.coords t) = false from rfl, after5]

/-- Whatever the position, the invariant holds the accumulator's buffer at something beside the other scoped buffers. -/
theorem PhiS_any (c : Dev nD) (n : ℕ) (h : n ≤ cfg13.N) :
    PhiS (Ix := Ix) (U := U) (Lvl := Lvl) V c n h ⊢ iprop((∃ d, owns (c : Thread nD τ) scM fullShare d)
      ∗ Pipeline.scopedRestBut (Ix := Ix) (Name := ℕ) (U := U) (Lvl := Lvl) (Val := Elt F) spec13 c [cc13_scratch0]) := by
  cases n with
  | zero =>
    rw [PhiS_zero V c 0 h rfl, scopedRest13_split]
    iintro ⟨⟨%fs, HS⟩, HR⟩
    isplitl [HS]
    · iexists fs; rw [owns_whole]; iexact HS
    iexact HR
  | succ n =>
    rw [PhiS_succ]
    iintro ⟨HS, HR⟩
    isplitl [HS]
    · iexists _; iexact HS
    iexact HR

set_option maxHeartbeats 4000000 in
/-- The body at any point, by the reduction coordinate: first tile, a middle tile, last tile. -/
theorem sound_body (ι : Ix) (𝒱₀ : Variants) (c : Dev nD) (t : Fin cfg13.N) :
    bodyPre (U := U) (Lvl := Lvl) V ι c t ⊢ wp frame (wpE (defs₀ (F := F)) 𝒱₀ c none) Set.univ (bodyAt13 t) (fun _ => bodyPost (U := U) (Lvl := Lvl) V ι c t) := by
  unfold bodyPre bodyPost bodyAt13
  simp only [before0, before1, before2, before3, before4, before5]
  rw [show (dat (Ix := Ix) (U := U) (Lvl := Lvl) V c).owesAt ι t.succ = (dat (Ix := Ix) (U := U) (Lvl := Lvl) V c).owesAt ι t.castSucc from rfl]
  rw [show (dat (Ix := Ix) (U := U) (Lvl := Lvl) V c).Φ t.succ = PhiS V c (t.val + 1) t.isLt from rfl, PhiS_succ, PhiS_castSucc]
  rw [leaves0, leaves1, leaves2, leaves3, leaves4, leaves5]
  have hN : t.val < 36 := lt_of_lt_of_eq t.isLt (show cfg13.N = 36 from N_13)
  by_cases h0 : t.val % 6 = 0
  · have h5 : ¬ t.val % 6 = 5 := by omega
    rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
    rw [accAt_first V c t h0]
    iintro ⟨HΦ, Ho, ⟨%d0, H0⟩, ⟨%d1, H1⟩, ⟨%d2, H2⟩, ⟨%d3, H3⟩, ⟨%d4, H4⟩, ⟨%d5, H5⟩, H6, H7⟩
    ihave HΦ' := (PhiS_any V c _ _) $$ HΦ
    icases HΦ' with ⟨HS, HR⟩
    iapply (kernelRunA (Ix := Ix) (U := U) (Lvl := Lvl) 𝒱₀ c (grid13.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
      ((hcond1 t).mpr h0) (fun h => h5 ((hcond2 t).mp h)) (iblk V c 0 t) (iblk V c 1 t) (iblk V c 2 t) Set.univ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h0 (by rw [e])
    rw [PhiS_pos V c _ _ hz, accAt_next V c t h0]
    by_cases h5 : t.val % 6 = 5
    · rw [show (dat (Ix := Ix) (U := U) (Lvl := Lvl) V c).leavesExact 6 t = owns (c : Thread nD τ) (ms6 t) fullShare ((dat (Ix := Ix) (U := U) (Lvl := Lvl) V c).after 6 t) from by
        unfold Dat.leavesExact; rw [live6 t h5], after6]
      rw [show (dat (Ix := Ix) (U := U) (Lvl := Lvl) V c).leavesExact 7 t = owns (c : Thread nD τ) (ms7 t) fullShare ((dat (Ix := Ix) (U := U) (Lvl := Lvl) V c).after 7 t) from by
        unfold Dat.leavesExact; rw [live7 t h5], after7]
      rw [accAt_next V c t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRunC (Ix := Ix) (U := U) (Lvl := Lvl) 𝒱₀ c (grid13.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) ((hcond2 t).mpr h5) (iblk V c 0 t) (iblk V c 1 t) (iblk V c 2 t) (iblk V c 3 t) (iblk V c 4 t) (iblk V c 5 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
      iintro ⟨⟨HS, HR⟩, Ho, ⟨%d0, H0⟩, ⟨%d1, H1⟩, ⟨%d2, H2⟩, ⟨%d3, H3⟩, ⟨%d4, H4⟩, ⟨%d5, H5⟩, H6, H7⟩
      iapply (kernelRunB (Ix := Ix) (U := U) (Lvl := Lvl) 𝒱₀ c (grid13.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) (fun h => h5 ((hcond2 t).mp h)) (iblk V c 0 t) (iblk V c 1 t) (iblk V c 2 t)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (ι : Ix) (𝒱₀ : Variants) (c : Dev nD) :
    Pipeline.BodyObligation (dat (Ix := Ix) (U := U) (Lvl := Lvl) V c) (defs₀ (F := F)) 𝒱₀ ι Set.univ := fun t => by
  rw [bigSep_W13, bigSep_W13]
  exact sound_body V ι 𝒱₀ c t

/-! ## The region over the thread state -/

/-- The prefetched tables' admissible contents: no call has a table. -/
abbrev adm : (p : Fin 17) → (pcfgs (F := F) p).Adm := fun p => (cfgs p).toPCfg_adm

/-- The seven distinct buffers behind the eight windows' arrays. -/
theorem arrRefs : Finset.univ.image (Pipeline.arrRef spec13)
    = [main_v147, main_v158, main_v148, main_v149, main_v42, main_v159_0, main_v159_1].toFinset := by decide

/-- A core's unscoped buffers at a valuation: those seven, each whole at the full share, and the rest. -/
theorem held_split (c : Dev nD) (W : Valuation τ sig (Elt F)) :
    (StableHlo.held (c : Thread nD τ) (Pipeline.ucRefs τ sig) W : sProp 𝕄)
      = iprop(iprop((((c : Thread nD τ).loc main_v147) ↦{fullShare} W main_v147) ∗ (((c : Thread nD τ).loc main_v158) ↦{fullShare} W main_v158)
          ∗ (((c : Thread nD τ).loc main_v148) ↦{fullShare} W main_v148) ∗ (((c : Thread nD τ).loc main_v149) ↦{fullShare} W main_v149)
          ∗ (((c : Thread nD τ).loc main_v42) ↦{fullShare} W main_v42) ∗ (((c : Thread nD τ).loc main_v159_0) ↦{fullShare} W main_v159_0)
          ∗ (((c : Thread nD τ).loc main_v159_1) ↦{fullShare} W main_v159_1))
        ∗ Pipeline.unscopedRest (Ix := Ix) (Name := ℕ) (U := U) (Lvl := Lvl) spec13 c (fun b => W b)) := by
  rw [← Pipeline.unscopedBufs_held c W, Pipeline.unscopedBufs_split₀ cfgs 13 winFacts₀13.arr_unscoped c (fun b => W b)] -- pipeline index
  show iprop(Pipeline.arrBufs spec13 c (fun b => W b) ∗ Pipeline.unscopedRest spec13 c (fun b => W b)) = _
  unfold Pipeline.arrBufs
  rw [bigSep_eq_bigSepL_of_eq _ arrRefs (by decide)]
  rfl

/-- The windows' arrays as the proof data holds them: the array two windows stage half by each, the others whole. -/
theorem arrays_eq (c : Dev nD) (Fw : (w : Fin cfg13.W) → Buf (Elt F) ((cfg13.win w).arr.view.loc (c : Thread nD τ))) :
    ((dat (Ix := Ix) (U := U) (Lvl := Lvl) V c).arrays Fw : sProp 𝕄)
      = iprop((((c : Thread nD τ).loc main_v147) ↦{fullShare} Fw 0) ∗ (((c : Thread nD τ).loc main_v158) ↦{fullShare} Fw 1)
          ∗ (((c : Thread nD τ).loc main_v148) ↦{fullShare.left} Fw 2) ∗ (((c : Thread nD τ).loc main_v148) ↦{fullShare.right} Fw 3)
          ∗ (((c : Thread nD τ).loc main_v149) ↦{fullShare} Fw 4) ∗ (((c : Thread nD τ).loc main_v42) ↦{fullShare} Fw 5)
          ∗ (((c : Thread nD τ).loc main_v159_0) ↦{fullShare} Fw 6) ∗ (((c : Thread nD τ).loc main_v159_1) ↦{fullShare} Fw 7)) := by
  unfold Dat.arrays
  rw [bigSep_congr fun w _ => show (((cfg13.win w).arr.view.loc (c : Thread nD τ) ↦[(cfg13.win w).arr.view.set]{(dat (Ix := Ix) (U := U) (Lvl := Lvl) V c).share w} Fw w : sProp 𝕄))
      = (((c : Thread nD τ).loc (Pipeline.arrRef spec13 w)) ↦{(dat (Ix := Ix) (U := U) (Lvl := Lvl) V c).share w} Fw w) from by rw [(arr_whole13 w).set_eq_univ],
    bigSep_W13]
  rfl

/-- The unscoped buffers no window stages are the same at two valuations that differ only at the two results. -/
theorem rest_congr (c : Dev nD) (hne : ∀ (b : Ref sig .tc), b ≠ main_v159_0 → b ≠ main_v159_1 → Vp c b = V c b) :
    (Pipeline.unscopedRest (Ix := Ix) (Name := ℕ) (U := U) (Lvl := Lvl) spec13 c (fun b => Vp c b) : sProp 𝕄)
      = Pipeline.unscopedRest spec13 c (fun b => V c b) := by
  unfold Pipeline.unscopedRest
  refine bigSep_congr fun b hb => ?_
  have hb' := (Finset.mem_sdiff.mp hb).2
  rw [arrRefs] at hb'
  dsimp only
  rw [hne b (fun e => by subst e; exact hb' (by decide)) (fun e => by subst e; exact hb' (by decide))]

/-- ENTRY: the windows' arrays out of the unscoped buffers, the array two windows stage split half and half. -/
theorem hentry13 (ι : Ix) (L : GSem nD τ sig → Finset Ix) (lv : GSem nD τ sig → Ix → Lvl) (c : Dev nD) :
    iprop(iprop(StableHlo.held (c : Thread nD τ) (Pipeline.ucRefs τ sig) (V c) ∗ iprop(∃ W, owes (c : Thread nD τ) (0 : CellTallies nD τ sig Ix) W))
        ∗ Pipeline.ownSems0 (Ix := Ix) (Name := ℕ) (U := U) (Lvl := Lvl) (Val := Elt F) (τ := τ) (fun k : PEmpty => k.elim) c ∗ levAts L lv)
      ⊢ (|={Set.univ}=> iprop((dat (Ix := Ix) (U := U) (Lvl := Lvl) V c).arrays ((dat (Ix := Ix) (U := U) (Lvl := Lvl) V c).arrAt · 0)
          ∗ Pipeline.prefHeld (pcfgs (F := F) 13).pre c (fun _ => fullShare) (adm 13).1 -- pipeline index
          ∗ (dat (Ix := Ix) (U := U) (Lvl := Lvl) V c).owesAt ι 0 ∗ BI.emp ∗ Pipeline.unscopedRest (Ix := Ix) (Name := ℕ) (U := U) (Lvl := Lvl) spec13 c (fun b => V c b)) : sProp 𝕄) := by
  rw [held_split, arrays_eq]
  iintro ⟨⟨⟨⟨H147, H158, H148, H149, H42, H0, H1⟩, HZ⟩, HO⟩, -, -⟩
  ihave H148' := (pointsTo_share (PosShare.mem_left_op_right fullShare)).1 $$ H148
  icases H148' with ⟨H148l, H148r⟩
  imodintro
  isplitl [H147 H158 H148l H148r H149 H42 H0 H1]
  · isplitl [H147]; · iexact H147
    isplitl [H158]; · iexact H158
    isplitl [H148l]; · iexact H148l
    isplitl [H148r]; · iexact H148r
    isplitl [H149]; · iexact H149
    isplitl [H42]; · iexact H42
    isplitl [H0]; · iexact H0
    iexact H1
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact HZ

/-- The invariant at the first point is the scoped buffers the pipeline does not stage. -/
theorem hin13 (c : Dev nD) :
    iprop(BI.emp ∗ Pipeline.prefHeld (pcfgs (F := F) 13).pre c (fun _ => fullShare) (adm 13).1 -- pipeline index
        ∗ Pipeline.scopedRest (Ix := Ix) (Name := ℕ) (U := U) (Lvl := Lvl) (Val := Elt F) spec13 c) ⊢ ((dat (Ix := Ix) (U := U) (Lvl := Lvl) V c).Φ 0 : sProp 𝕄) := by
  rw [show (dat (Ix := Ix) (U := U) (Lvl := Lvl) V c).Φ 0 = PhiS V c 0 (Nat.zero_le _) from rfl, PhiS_zero V c 0 _ rfl]
  iintro ⟨-, -, HR⟩; iexact HR

/-- The invariant at the last point gives them back, the accumulator's contents forgotten. -/
theorem hout13 (c : Dev nD) :
    ((dat (Ix := Ix) (U := U) (Lvl := Lvl) V c).Φ (Fin.last cfg13.N) : sProp 𝕄)
      ⊢ iprop(BI.emp ∗ Pipeline.ownSems0 (Ix := Ix) (Name := ℕ) (U := U) (Lvl := Lvl) (Val := Elt F) (τ := τ) (fun k : PEmpty => k.elim) c
          ∗ Pipeline.scopedRest (Ix := Ix) (Name := ℕ) (U := U) (Lvl := Lvl) (Val := Elt F) spec13 c) := by
  rw [Pipeline.ownSems0_none nD τ sig (Elt F) Ix ℕ U Lvl c,
    show (dat (Ix := Ix) (U := U) (Lvl := Lvl) V c).Φ (Fin.last cfg13.N) = PhiS V c cfg13.N (Nat.le_refl _) from rfl]
  iintro HΦ
  ihave HΦ' := (PhiS_any V c _ _) $$ HΦ
  icases HΦ' with ⟨⟨%d, HS⟩, HR⟩
  isplitr; · iempintro
  isplitr; · iempintro
  rw [scopedRest13_split]
  isplitl [HS]
  · iexists d
    iapply (Entails.of_eq (owns_whole (c : Thread nD τ) cc13_scratch0 fullShare d))
    iexact HS
  iexact HR

/-- EXIT: the halves of the shared array rejoined, the two results at what the proof data computes, every other
    buffer as it was: the unscoped buffers at the exit valuation. -/
theorem hexit13 (ι : Ix) (c : Dev nD)
    (hout6 : Vp c main_v159_0 = (dat (Ix := Ix) (U := U) (Lvl := Lvl) V c).arrAt 6 cfg13.N)
    (hout7 : Vp c main_v159_1 = (dat (Ix := Ix) (U := U) (Lvl := Lvl) V c).arrAt 7 cfg13.N)
    (hne : ∀ (b : Ref sig .tc), b ≠ main_v159_0 → b ≠ main_v159_1 → Vp c b = V c b) :
    iprop((dat (Ix := Ix) (U := U) (Lvl := Lvl) V c).arrays ((dat (Ix := Ix) (U := U) (Lvl := Lvl) V c).arrAt · cfg13.N) ∗ (dat (Ix := Ix) (U := U) (Lvl := Lvl) V c).owesAt ι (Fin.last cfg13.N)
        ∗ BI.emp ∗ Pipeline.unscopedRest (Ix := Ix) (Name := ℕ) (U := U) (Lvl := Lvl) spec13 c (fun b => V c b))
      ⊢ (|={Set.univ}=> iprop(StableHlo.held (c : Thread nD τ) (Pipeline.ucRefs τ sig) (Vp c) ∗ iprop(∃ W, owes (c : Thread nD τ) (0 : CellTallies nD τ sig Ix) W)) : sProp 𝕄) := by
  rw [held_split, arrays_eq, rest_congr V Vp c hne]
  have e0 := (dat (Ix := Ix) (U := U) (Lvl := Lvl) V c).arrAt_in 0 rfl cfg13.N
  have e1 := (dat (Ix := Ix) (U := U) (Lvl := Lvl) V c).arrAt_in 1 rfl cfg13.N
  have e2 := (dat (Ix := Ix) (U := U) (Lvl := Lvl) V c).arrAt_in 2 rfl cfg13.N
  have e3 := (dat (Ix := Ix) (U := U) (Lvl := Lvl) V c).arrAt_in 3 rfl cfg13.N
  have e4 := (dat (Ix := Ix) (U := U) (Lvl := Lvl) V c).arrAt_in 4 rfl cfg13.N
  have e5 := (dat (Ix := Ix) (U := U) (Lvl := Lvl) V c).arrAt_in 5 rfl cfg13.N
  rw [A_eq] at e0 e1 e2 e3 e4 e5
  rw [e0, e1, e2, e3, e4, e5, ← hout6, ← hout7,
    hne main_v147 (by decide) (by decide), hne main_v158 (by decide) (by decide), hne main_v148 (by decide) (by decide),
    hne main_v149 (by decide) (by decide), hne main_v42 (by decide) (by decide)]
  iintro ⟨⟨H147, H158, H148l, H148r, H149, H42, H0, H1⟩, HO, -, HZ⟩
  ihave H148 := (pointsTo_share (PosShare.mem_left_op_right fullShare)).2 $$ [H148l H148r]
  · isplitl [H148l]; · iexact H148l
    iexact H148r
  imodintro
  isplitr [HO]
  · isplitr [HZ]
    · isplitl [H147]; · iexact H147
      isplitl [H158]; · iexact H158
      isplitl [H148]; · iexact H148
      isplitl [H149]; · iexact H149
      isplitl [H42]; · iexact H42
      isplitl [H0]; · iexact H0
      iexact H1
    iexact HZ
  · unfold Pipeline.Dat.owesAt Pipeline.owesWithin
    icases HO with ⟨%W, -, HO⟩; iexists W; iexact HO

set_option backward.isDefEq.respectTransparency.types false in
/-- THE REGION: entered from every unscoped buffer at `V c` — the eight windows' arrays into the pipeline, the array two
    windows stage split half and half between them, every other unscoped buffer bypassing —, left with the two results
    at what the proof data computes and every other buffer as it was. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd 13 c = dat V c) -- pipeline index
    (hout6 : ∀ c, Vp c main_v159_0 = (dat (Ix := Ix) (U := U) (Lvl := Lvl) V c).arrAt 6 cfg13.N)
    (hout7 : ∀ c, Vp c main_v159_1 = (dat (Ix := Ix) (U := U) (Lvl := Lvl) V c).arrAt 7 cfg13.N)
    (hne : ∀ c (b : Ref sig .tc), b ≠ main_v159_0 → b ≠ main_v159_1 → Vp c b = V c b) :
    Pipeline.RegionSeg (pcfgs (F := F)) adm pd ι defs₀ 𝒱₀ L lv 13 where -- pipeline index
  win := winFacts₀13
  block_pos := block_pos13
  stage_whole := stage_whole13
  K := PEmpty
  osem := fun k => k.elim
  ho := Pipeline.OwnSemFacts.none _
  hbody c := by rw [hpd c]; exact (body_obligation V ι 𝒱₀ c).loose
  hwaits := Pipeline.hwaits_of_owed_zero _ _ _ _ L lv 13 fun c _ => by rw [hpd c]; rfl -- pipeline index
  pre c := iprop(StableHlo.held (c : Thread nD τ) (Pipeline.ucRefs τ sig) (V c) ∗ iprop(∃ W, owes (c : Thread nD τ) (0 : CellTallies nD τ sig Ix) W))
  post c := iprop(StableHlo.held (c : Thread nD τ) (Pipeline.ucRefs τ sig) (Vp c) ∗ iprop(∃ W, owes (c : Thread nD τ) (0 : CellTallies nD τ sig Ix) W))
  X _ := (BI.emp : sProp 𝕄)
  Y _ := (BI.emp : sProp 𝕄)
  Z c := Pipeline.unscopedRest (Ix := Ix) (Name := ℕ) (U := U) (Lvl := Lvl) spec13 c (fun b => V c b)
  hentry c := by rw [hpd c]; exact hentry13 V ι L lv c
  hin c := by rw [hpd c]; exact hin13 V c
  hout c := by rw [hpd c]; exact hout13 V c
  hexit c := by rw [hpd c]; exact hexit13 V Vp ι c (hout6 c) (hout7 c) (hne c)

end Cert.KernelIdeal.Region13

end
-- ==== Proof.KI.Region14Base.lean ====
/-
  Region 14 of @main, first part: a hop of the message passing on the grid (6, 6). At the point (i, k) the body adds to
  an accumulator the product of the (i, k) tile of the adjacency operand with rows [1024 k, 1024 k + 1024) of the
  feature operand, each row scaled by the k-th block of the scale column; the accumulator is reset at k = 0, and at
  k = 5 the body writes the two output blocks of row tile i: the accumulator scaled by the i-th block of the same
  scale column, and that block's product with the gate matrix plus the bias row. Two windows stage the one scale
  column, one at block k, the other at block i. Here: the body on any whole staging memrefs, one statement per case
  of the reduction coordinate, and the proof data with each input's buffer at its block. Stated once, for any float family.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Regions
import Idealize.ShloMosaic.Lib.Pipeline.RegionsLoop
import Idealize.ShloMosaic.Lib.Pipeline.Value
import Idealize.ShloMosaic.Lib.Tactic

set_option maxRecDepth 16384

noncomputable section

namespace Cert.KernelIdeal.Region14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions, from the grid coordinates -/

/-- The condition of the first `scf.if` (reset the accumulator): the reduction coordinate is 0. -/
abbrev cond1 (i : grid14.Coords) : Prop :=
  (Scalar.cmpi .ne (Scalar.extui (Scalar.cmpi .eq (BitVec.ofNat 32 (i 1).val) 0#32)) 0#32) = 1#1

/-- The rows of the resident operand the point reads: 1024 rows from row `1024 * k`. -/
abbrev rows (i : grid14.Coords) (x1 : Vec F S6144x256 .bf16) : Vec F S1024x256 .bf16 :=
  View.ld x1 (Rect.unit (s := S6144x256) (k14_off1 i) S1024x256.size (k14_off1_inb i))

theorem z2 : (![0, 0] : Fin 2 → Nat) = fun _ => 0 := by funext a; fin_cases a <;> rfl

/-- A store through the whole-shape rectangle at zero offsets, LAST, leaves its payload. -/
theorem read_store_zero {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

set_option maxHeartbeats 1000000 in
/-- A point in the middle of a reduction (the reduction coordinate neither 0 nor 5): the accumulator gains the point's product. -/
theorem kernelRunB (𝒱₀ : Variants) (c : Dev nD) (i : grid14.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : ¬ k14_cond2 i = 1#1)
    (x0 : Vec F S1024x1024 .bf16) (x1 : Vec F S6144x256 .bf16) (x2 : Vec F S1024x1 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg10 fullShare acc
        ∗ (iprop(owns (c : Thread nD τ) arg2 fullShare x0 ∗ owns (c : Thread nD τ) arg3 fullShare x1
            ∗ owns (c : Thread nD τ) arg4 fullShare x2
            ∗ owns (c : Thread nD τ) arg10 fullShare (k14_pay2 x0 (rows i x1) x2 acc)) -∗ K ⟨⟩))
      ⊢ wp frame (wpE (defs₀ (F := F)) 𝒱₀ c none) E (cc14__hop_kernel i arg2 harg2 arg3 harg3 arg4 harg4 arg5 harg5 arg6 harg6 arg7 harg7 arg8 harg8 arg9 harg9 arg10 harg10) K := by
  simp only [cc14__hop_kernel_eq_skeleton]; unfold cc14__hop_kernel_skel
  unfold owns
  iintro ⟨⟨%f2, %hf2, H2⟩, ⟨%f3, %hf3, H3⟩, ⟨%f4, %hf4, H4⟩, ⟨%f10, %hf10, H10⟩, Hk⟩
  obtain rfl := harg2.eq_unread hf2
  obtain rfl := harg3.eq_unread hf3
  obtain rfl := harg4.eq_unread hf4
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  rw [read_store_zero _ _ z2]
  simp only [View.readAt_eq_ld, hf2, hf3, hf4, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The first point of a reduction (the reduction coordinate 0): the accumulator is reset, then gains the point's product. -/
theorem kernelRunA (𝒱₀ : Variants) (c : Dev nD) (i : grid14.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : cond1 i) (hc2 : ¬ k14_cond2 i = 1#1)
    (x0 : Vec F S1024x1024 .bf16) (x1 : Vec F S6144x256 .bf16) (x2 : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg10 fullShare d)
        ∗ (iprop(owns (c : Thread nD τ) arg2 fullShare x0 ∗ owns (c : Thread nD τ) arg3 fullShare x1
            ∗ owns (c : Thread nD τ) arg4 fullShare x2
            ∗ owns (c : Thread nD τ) arg10 fullShare (k14_pay2 x0 (rows i x1) x2 (k14_pay1 (F := F)))) -∗ K ⟨⟩))
      ⊢ wp frame (wpE (defs₀ (F := F)) 𝒱₀ c none) E (cc14__hop_kernel i arg2 harg2 arg3 harg3 arg4 harg4 arg5 harg5 arg6 harg6 arg7 harg7 arg8 harg8 arg9 harg9 arg10 harg10) K := by
  simp only [cc14__hop_kernel_eq_skeleton]; unfold cc14__hop_kernel_skel
  unfold owns
  iintro ⟨⟨%f2, %hf2, H2⟩, ⟨%f3, %hf3, H3⟩, ⟨%f4, %hf4, H4⟩, ⟨%d10, %f10, -, H10⟩, Hk⟩
  obtain rfl := harg2.eq_unread hf2
  obtain rfl := harg3.eq_unread hf3
  obtain rfl := harg4.eq_unread hf4
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  sl_unfold_run_names
  rw [read_store_zero _ _ z2]
  simp only [View.readAt_eq_ld, hf2, hf3, hf4,  View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The last point of a reduction (the reduction coordinate 5): the accumulator gains the point's product, and the two
    output blocks are written from it. -/
theorem kernelRunC (𝒱₀ : Variants) (c : Dev nD) (i : grid14.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : k14_cond2 i = 1#1)
    (x0 : Vec F S1024x1024 .bf16) (x1 : Vec F S6144x256 .bf16) (x2 : Vec F S1024x1 .f32) (x3 : Vec F S1024x1 .f32)
    (x4 : Vec F S256x256 .bf16) (x5 : Vec F S1x256 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare acc
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k14_pay4 (k14_pay2 x0 (rows i x1) x2 acc) x3)
            ∗ owns (c : Thread nD τ) arg9 fullShare (k14_pay5 (k14_pay2 x0 (rows i x1) x2 acc) x3 x4 x5)
            ∗ owns (c : Thread nD τ) arg10 fullShare (k14_pay2 x0 (rows i x1) x2 acc)) -∗ K ⟨⟩))
      ⊢ wp frame (wpE (defs₀ (F := F)) 𝒱₀ c none) E (cc14__hop_kernel i arg2 harg2 arg3 harg3 arg4 harg4 arg5 harg5 arg6 harg6 arg7 harg7 arg8 harg8 arg9 harg9 arg10 harg10) K := by
  simp only [cc14__hop_kernel_eq_skeleton]; unfold cc14__hop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%f10, %hf10, H10⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]
  · iexists _; isplitr; swap; (· iexact H8); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  isplitl [H9]
  · iexists _; isplitr; swap; (· iexact H9); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  iexists _; isplitr; swap; (· iexact H10); ipureintro
  sl_unfold_run_names
  rw [read_store_zero _ _ z2]
  simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

/-! ## The schedule's closed forms at the reduction coordinate `k = t % 6` -/

theorem hcond1 : ∀ t : Fin cfg14.N, cond1 (grid14.coords t) ↔ t.val % 6 = 0 :=
  (by decide +kernel : ∀ t : Fin grid14.N, cond1 (grid14.coords t) ↔ t.val % 6 = 0)
theorem hcond2 : ∀ t : Fin cfg14.N, k14_cond2 (grid14.coords t) = 1#1 ↔ t.val % 6 = 5 :=
  (by decide +kernel : ∀ t : Fin grid14.N, k14_cond2 (grid14.coords t) = 1#1 ↔ t.val % 6 = 5)
/-- Where the reduction is not at its last tile the body stores nothing into the two outputs' buffers, -/
theorem idle6 : ∀ t : Fin cfg14.N, ¬ t.val % 6 = 5 → cfg14.idle 6 (grid14.coords t) = true :=
  (by decide +kernel : ∀ t : Fin grid14.N, ¬ t.val % 6 = 5 → idle14 6 (grid14.coords t) = true)
theorem idle7 : ∀ t : Fin cfg14.N, ¬ t.val % 6 = 5 → cfg14.idle 7 (grid14.coords t) = true :=
  (by decide +kernel : ∀ t : Fin grid14.N, ¬ t.val % 6 = 5 → idle14 7 (grid14.coords t) = true)
/-- and at its last tile it fills them. -/
theorem live6 : ∀ t : Fin cfg14.N, t.val % 6 = 5 → cfg14.idle 6 (grid14.coords t) = false :=
  (by decide +kernel : ∀ t : Fin grid14.N, t.val % 6 = 5 → idle14 6 (grid14.coords t) = false)
theorem live7 : ∀ t : Fin cfg14.N, t.val % 6 = 5 → cfg14.idle 7 (grid14.coords t) = false :=
  (by decide +kernel : ∀ t : Fin grid14.N, t.val % 6 = 5 → idle14 7 (grid14.coords t) = false)
theorem noflush6 (t : Fin cfg14.N) (h : ¬ t.val % 6 = 5) : (cfg14.win 6).flush t = false :=
  Bool.eq_false_iff.mpr fun hf => h ((flush14_6 t).mp hf)
theorem noflush7 (t : Fin cfg14.N) (h : ¬ t.val % 6 = 5) : (cfg14.win 7).flush t = false :=
  Bool.eq_false_iff.mpr fun hf => h ((flush14_7 t).mp hf)

/-! ## The proof data, at an entry valuation -/

variable (V Vp : Dev nD → Valuation τ sig (Elt F))

/-- Window `w`'s block at point `t`, read off the entry valuation. -/
def iblk (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- THE ACCUMULATION: what the accumulator holds after point `n` — the point's product added to zero at the first tile
    of a reduction (`n % 6 = 0`), to what the point before left elsewhere. -/
def accAt (c : Dev nD) : (n : ℕ) → n < cfg14.N → Vec F S1024x256 .f32
  | 0, hn => k14_pay2 (iblk V c 0 ⟨0, hn⟩) (rows (grid14.coords ⟨0, hn⟩) (iblk V c 1 ⟨0, hn⟩)) (iblk V c 2 ⟨0, hn⟩) (k14_pay1 (F := F))
  | n + 1, hn => k14_pay2 (iblk V c 0 ⟨n + 1, hn⟩) (rows (grid14.coords ⟨n + 1, hn⟩) (iblk V c 1 ⟨n + 1, hn⟩)) (iblk V c 2 ⟨n + 1, hn⟩)
      (if (n + 1) % 6 = 0 then k14_pay1 (F := F) else accAt c n (Nat.lt_of_succ_lt hn))

theorem accAt_first (c : Dev nD) (t : Fin cfg14.N) (h : t.val % 6 = 0) :
    accAt V c t.val t.isLt = k14_pay2 (iblk V c 0 t) (rows (grid14.coords t) (iblk V c 1 t)) (iblk V c 2 t) (k14_pay1 (F := F)) := by
  obtain ⟨n, hn⟩ := t
  cases n with
  | zero => rfl
  | succ n => show accAt V c (n + 1) hn = _; rw [accAt, if_pos h]

theorem accAt_next (c : Dev nD) (t : Fin cfg14.N) (h : ¬ t.val % 6 = 0) :
    accAt V c t.val t.isLt = k14_pay2 (iblk V c 0 t) (rows (grid14.coords t) (iblk V c 1 t)) (iblk V c 2 t)
      (accAt V c (t.val - 1) (Nat.lt_of_le_of_lt (Nat.sub_le _ _) t.isLt)) := by
  obtain ⟨n, hn⟩ := t
  cases n with
  | zero => exact absurd (Nat.zero_mod _) h
  | succ n => show accAt V c (n + 1) hn = _; rw [accAt, if_neg h]; rfl

/-- The accumulator's buffer: the call's one scratch operand. -/
abbrev scM : Memref sig .tc .vmem S1024x256 .f32 := Memref.whole cc14_scratch0

/-- The invariant before position `n`: before the first point every scoped buffer the pipeline does not stage at anything;
    afterwards the accumulator at what the point before left in it, the others at anything. -/
def PhiS (c : Dev nD) : (n : ℕ) → n ≤ cfg14.N → sProp 𝕄
  | 0, _ => Pipeline.scopedRest (Ix := Ix) (Name := ℕ) (U := U) (Lvl := Lvl) (Val := Elt F) spec14 c
  | n + 1, hn => iprop(owns (c : Thread nD τ) scM fullShare (accAt V c n hn)
      ∗ Pipeline.scopedRestBut (Ix := Ix) (Name := ℕ) (U := U) (Lvl := Lvl) (Val := Elt F) spec14 c [cc14_scratch0])

theorem PhiS_zero (c : Dev nD) (n : ℕ) (h : n ≤ cfg14.N) (hz : n = 0) :
    PhiS (Ix := Ix) (U := U) (Lvl := Lvl) V c n h = Pipeline.scopedRest (Ix := Ix) (Name := ℕ) (U := U) (Lvl := Lvl) (Val := Elt F) spec14 c := by
  subst hz; rfl

theorem PhiS_succ (c : Dev nD) (n : ℕ) (hn : n < cfg14.N) :
    PhiS (Ix := Ix) (U := U) (Lvl := Lvl) V c (n + 1) hn = iprop(owns (c : Thread nD τ) scM fullShare (accAt V c n hn)
      ∗ Pipeline.scopedRestBut (Ix := Ix) (Name := ℕ) (U := U) (Lvl := Lvl) (Val := Elt F) spec14 c [cc14_scratch0]) := rfl

theorem PhiS_pos (c : Dev nD) (n : ℕ) (h : n ≤ cfg14.N) (hz : n ≠ 0) :
    PhiS (Ix := Ix) (U := U) (Lvl := Lvl) V c n h = iprop(owns (c : Thread nD τ) scM fullShare (accAt V c (n - 1) (by omega))
      ∗ Pipeline.scopedRestBut (Ix := Ix) (Name := ℕ) (U := U) (Lvl := Lvl) (Val := Elt F) spec14 c [cc14_scratch0]) := by
  cases n with
  | zero => exact absurd rfl hz
  | succ n => rfl

/-- The proof data of one entry of the region, from valuation `V`: the arrays at `V`; after the body each input's buffer at
    its block, the two outputs' at the scaled accumulator and at its product with the gate plus the bias; the invariant
    above; nothing owed; the array two windows stage held half by each, the others whole. -/
def dat (c : Dev nD) : Pipeline.Dat τ (Elt F) Ix ℕ U Lvl cfg14 c where
  A w := V c (Pipeline.arrRef spec14 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k14_pay4 (accAt V c t.val t.isLt) (iblk V c 3 t)
    | ⟨7, _⟩ => k14_pay5 (accAt V c t.val t.isLt) (iblk V c 3 t) (iblk V c 4 t) (iblk V c 5 t)
  Φ t := PhiS V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg14.W) : (dat (Ix := Ix) (U := U) (Lvl := Lvl) V c).A w = V c (Pipeline.arrRef spec14 w) := by
  dsimp only [dat]

theorem PhiS_castSucc (c : Dev nD) (t : Fin cfg14.N) :
    (dat (Ix := Ix) (U := U) (Lvl := Lvl) V c).Φ t.castSucc = PhiS V c t.val (Nat.le_of_lt t.isLt) := by
  dsimp only [dat]; simp only [Fin.coe_castSucc]

theorem after0 (c : Dev nD) (t : Fin cfg14.N) : (dat (Ix := Ix) (U := U) (Lvl := Lvl) V c).after 0 t = iblk V c 0 t := by dsimp only [dat]
theorem after1 (c : Dev nD) (t : Fin cfg14.N) : (dat (Ix := Ix) (U := U) (Lvl := Lvl) V c).after 1 t = iblk V c 1 t := by dsimp only [dat]
theorem after2 (c : Dev nD) (t : Fin cfg14.N) : (dat (Ix := Ix) (U := U) (Lvl := Lvl) V c).after 2 t = iblk V c 2 t := by dsimp only [dat]
theorem after3 (c : Dev nD) (t : Fin cfg14.N) : (dat (Ix := Ix) (U := U) (Lvl := Lvl) V c).after 3 t = iblk V c 3 t := by dsimp only [dat]
theorem after4 (c : Dev nD) (t : Fin cfg14.N) : (dat (Ix := Ix) (U := U) (Lvl := Lvl) V c).after 4 t = iblk V c 4 t := by dsimp only [dat]
theorem after5 (c : Dev nD) (t : Fin cfg14.N) : (dat (Ix := Ix) (U := U) (Lvl := Lvl) V c).after 5 t = iblk V c 5 t := by dsimp only [dat]
theorem after6 (c : Dev nD) (t : Fin cfg14.N) : (dat (Ix := Ix) (U := U) (Lvl := Lvl) V c).after 6 t = k14_pay4 (accAt V c t.val t.isLt) (iblk V c 3 t) := by dsimp only [dat]
theorem after7 (c : Dev nD) (t : Fin cfg14.N) :
    (dat (Ix := Ix) (U := U) (Lvl := Lvl) V c).after 7 t = k14_pay5 (accAt V c t.val t.isLt) (iblk V c 3 t) (iblk V c 4 t) (iblk V c 5 t) := by dsimp only [dat]

/-! Each input's current staging buffer holds its block at every point, fetched there or not: unfetched, the block index
    has not moved. -/

theorem before0 (c : Dev nD) (t : Fin cfg14.N) (d) : (dat (Ix := Ix) (U := U) (Lvl := Lvl) V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg14.N) (d) : (dat (Ix := Ix) (U := U) (Lvl := Lvl) V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg14.N) (d) : (dat (Ix := Ix) (U := U) (Lvl := Lvl) V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg14.N) (d) : (dat (Ix := Ix) (U := U) (Lvl := Lvl) V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg14.N) (d) : (dat (Ix := Ix) (U := U) (Lvl := Lvl) V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg14.N) (d) : (dat (Ix := Ix) (U := U) (Lvl := Lvl) V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.KernelIdeal.Region14

end
-- ==== Proof.KI.Region14.lean ====
/-
  Region 14 of @main, second part: the body obligation at a generic grid point, by the reduction coordinate (first tile,
  a middle tile, last tile), and the region's segment over the thread state: entered from every unscoped buffer at an
  entry valuation, left at the exit valuation, which differs from it at the two results only. The scale column two
  windows stage is held half by each of them inside the region. Stated once, for any float family.
-/
import proofs.«414035_j83562883711810_2_alg».proof.Proof.KI.Region14Base

set_option maxRecDepth 16384

noncomputable section

namespace Cert.KernelIdeal.Region14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

variable (V Vp : Dev nD → Valuation τ sig (Elt F))

/-! ## The body obligation, at a generic point -/

/-- The staging memrefs the body is called with at point `t`. -/
abbrev ms0 (t : Fin cfg14.N) : Memref sig .tc .vmem S1024x1024 .bf16 := win14_0.stage (cfg14.slots t 0)
abbrev hs0 (t : Fin cfg14.N) : (ms0 t).IsWhole := hstage14_0 ((cfg14.slots t 0).cast nbuf14_0)
abbrev ms1 (t : Fin cfg14.N) : Memref sig .tc .vmem S6144x256 .bf16 := win14_1.stage (cfg14.slots t 1)
abbrev hs1 (t : Fin cfg14.N) : (ms1 t).IsWhole := hstage14_1 ((cfg14.slots t 1).cast nbuf14_1)
abbrev ms2 (t : Fin cfg14.N) : Memref sig .tc .vmem S1024x1 .f32 := win14_2.stage (cfg14.slots t 2)
abbrev hs2 (t : Fin cfg14.N) : (ms2 t).IsWhole := hstage14_2 ((cfg14.slots t 2).cast nbuf14_2)
abbrev ms3 (t : Fin cfg14.N) : Memref sig .tc .vmem S1024x1 .f32 := win14_3.stage (cfg14.slots t 3)
abbrev hs3 (t : Fin cfg14.N) : (ms3 t).IsWhole := hstage14_3 ((cfg14.slots t 3).cast nbuf14_3)
abbrev ms4 (t : Fin cfg14.N) : Memref sig .tc .vmem S256x256 .bf16 := win14_4.stage (cfg14.slots t 4)
abbrev hs4 (t : Fin cfg14.N) : (ms4 t).IsWhole := hstage14_4 ((cfg14.slots t 4).cast nbuf14_4)
abbrev ms5 (t : Fin cfg14.N) : Memref sig .tc .vmem S1x256 .f32 := win14_5.stage (cfg14.slots t 5)
abbrev hs5 (t : Fin cfg14.N) : (ms5 t).IsWhole := hstage14_5 ((cfg14.slots t 5).cast nbuf14_5)
abbrev ms6 (t : Fin cfg14.N) : Memref sig .tc .vmem S1024x256 .bf16 := win14_6.stage (cfg14.slots t 6)
abbrev hs6 (t : Fin cfg14.N) : (ms6 t).IsWhole := hstage14_6 ((cfg14.slots t 6).cast nbuf14_6)
abbrev ms7 (t : Fin cfg14.N) : Memref sig .tc .vmem S1024x256 .f32 := win14_7.stage (cfg14.slots t 7)
abbrev hs7 (t : Fin cfg14.N) : (ms7 t).IsWhole := hstage14_7 ((cfg14.slots t 7).cast nbuf14_7)

/-- What the body is called with at point `t`, the windows one by one, -/
def bodyPre (ι : Ix) (c : Dev nD) (t : Fin cfg14.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms0 t) fullShare ((dat (Ix := Ix) (U := U) (Lvl := Lvl) V c).before 0 t d))
    ∗ (∃ d, owns (c : Thread nD τ) (ms1 t) fullShare ((dat (Ix := Ix) (U := U) (Lvl := Lvl) V c).before 1 t d))
    ∗ (∃ d, owns (c : Thread nD τ) (ms2 t) fullShare ((dat (Ix := Ix) (U := U) (Lvl := Lvl) V c).before 2 t d))
    ∗ (∃ d, owns (c : Thread nD τ) (ms3 t) fullShare ((dat (Ix := Ix) (U := U) (Lvl := Lvl) V c).before 3 t d))
    ∗ (∃ d, owns (c : Thread nD τ) (ms4 t) fullShare ((dat (Ix := Ix) (U := U) (Lvl := Lvl) V c).before 4 t d))
    ∗ (∃ d, owns (c : Thread nD τ) (ms5 t) fullShare ((dat (Ix := Ix) (U := U) (Lvl := Lvl) V c).before 5 t d))
    ∗ (∃ d, owns (c : Thread nD τ) (ms6 t) fullShare ((dat (Ix := Ix) (U := U) (Lvl := Lvl) V c).before 6 t d))
    ∗ (∃ d, owns (c : Thread nD τ) (ms7 t) fullShare ((dat (Ix := Ix) (U := U) (Lvl := Lvl) V c).before 7 t d)))

/-- and what it returns. -/
def bodyPost (ι : Ix) (c : Dev nD) (t : Fin cfg14.N) : sProp 𝕄 :=
  iprop((dat (Ix := Ix) (U := U) (Lvl := Lvl) V c).Φ t.succ ∗ (dat (Ix := Ix) (U := U) (Lvl := Lvl) V c).owesAt ι t.succ
    ∗ (dat (Ix := Ix) (U := U) (Lvl := Lvl) V c).leavesExact 0 t
    ∗ (dat (Ix := Ix) (U := U) (Lvl := Lvl) V c).leavesExact 1 t
    ∗ (dat (Ix := Ix) (U := U) (Lvl := Lvl) V c).leavesExact 2 t
    ∗ (dat (Ix := Ix) (U := U) (Lvl := Lvl) V c).leavesExact 3 t
    ∗ (dat (Ix := Ix) (U := U) (Lvl := Lvl) V c).leavesExact 4 t
    ∗ (dat (Ix := Ix) (U := U) (Lvl := Lvl) V c).leavesExact 5 t
    ∗ (dat (Ix := Ix) (U := U) (Lvl := Lvl) V c).leavesExact 6 t
    ∗ (dat (Ix := Ix) (U := U) (Lvl := Lvl) V c).leavesExact 7 t)

theorem leaves0 (c : Dev nD) (t : Fin cfg14.N) :
    (dat (Ix := Ix) (U := U) (Lvl := Lvl) V c).leavesExact 0 t = owns (c : Thread nD τ) (ms0 t) fullShare (iblk V c 0 t) := by
  unfold Dat.leavesExact; rw [show cfg14.idle 0 (cfg14.grid.coords t) = false from rfl, after0]
theorem leaves1 (c : Dev nD) (t : Fin cfg14.N) :
    (dat (Ix := Ix) (U := U) (Lvl := Lvl) V c).leavesExact 1 t = owns (c : Thread nD τ) (ms1 t) fullShare (iblk V c 1 t) := by
  unfold Dat.leavesExact; rw [show cfg14.idle 1 (cfg14.grid.coords t) = false from rfl, after1]
theorem leaves2 (c : Dev nD) (t : Fin cfg14.N) :
    (dat (Ix := Ix) (U := U) (Lvl := Lvl) V c).leavesExact 2 t = owns (c : Thread nD τ) (ms2 t) fullShare (iblk V c 2 t) := by
  unfold Dat.leavesExact; rw [show cfg14.idle 2 (cfg14.grid.coords t) = false from rfl, after2]
theorem leaves3 (c : Dev nD) (t : Fin cfg14.N) :
    (dat (Ix := Ix) (U := U) (Lvl := Lvl) V c).leavesExact 3 t = owns (c : Thread nD τ) (ms3 t) fullShare (iblk V c 3 t) := by
  unfold Dat.leavesExact; rw [show cfg14.idle 3 (cfg14.grid.coords t) = false from rfl, after3]
theorem leaves4 (c : Dev nD) (t : Fin cfg14.N) :
    (dat (Ix := Ix) (U := U) (Lvl := Lvl) V c).leavesExact 4 t = owns (c : Thread nD τ) (ms4 t) fullShare (iblk V c 4 t) := by
  unfold Dat.leavesExact; rw [show cfg14.idle 4 (cfg14.grid.coords t) = false from rfl, after4]
theorem leaves5 (c : Dev nD) (t : Fin cfg14.N) :
    (dat (Ix := Ix) (U := U) (Lvl := Lvl) V c).leavesExact 5 t = owns (c : Thread nD τ) (ms5 t) fullShare (iblk V c 5 t) := by
  unfold Dat.leavesExact; rw [show cfg14.idle 5 (cfg14.grid.coords t) = false from rfl, after5]

/-- Whatever the position, the invariant holds the accumulator's buffer at something beside the other scoped buffers. -/
theorem PhiS_any (c : Dev nD) (n : ℕ) (h : n ≤ cfg14.N) :
    PhiS (Ix := Ix) (U := U) (Lvl := Lvl) V c n h ⊢ iprop((∃ d, owns (c : Thread nD τ) scM fullShare d)
      ∗ Pipeline.scopedRestBut (Ix := Ix) (Name := ℕ) (U := U) (Lvl := Lvl) (Val := Elt F) spec14 c [cc14_scratch0]) := by
  cases n with
  | zero =>
    rw [PhiS_zero V c 0 h rfl, scopedRest14_split]
    iintro ⟨⟨%fs, HS⟩, HR⟩
    isplitl [HS]
    · iexists fs; rw [owns_whole]; iexact HS
    iexact HR
  | succ n =>
    rw [PhiS_succ]
    iintro ⟨HS, HR⟩
    isplitl [HS]
    · iexists _; iexact HS
    iexact HR

set_option maxHeartbeats 4000000 in
/-- The body at any point, by the reduction coordinate: first tile, a middle tile, last tile. -/
theorem sound_body (ι : Ix) (𝒱₀ : Variants) (c : Dev nD) (t : Fin cfg14.N) :
    bodyPre (U := U) (Lvl := Lvl) V ι c t ⊢ wp frame (wpE (defs₀ (F := F)) 𝒱₀ c none) Set.univ (bodyAt14 t) (fun _ => bodyPost (U := U) (Lvl := Lvl) V ι c t) := by
  unfold bodyPre bodyPost bodyAt14
  simp only [before0, before1, before2, before3, before4, before5]
  rw [show (dat (Ix := Ix) (U := U) (Lvl := Lvl) V c).owesAt ι t.succ = (dat (Ix := Ix) (U := U) (Lvl := Lvl) V c).owesAt ι t.castSucc from rfl]
  rw [show (dat (Ix := Ix) (U := U) (Lvl := Lvl) V c).Φ t.succ = PhiS V c (t.val + 1) t.isLt from rfl, PhiS_succ, PhiS_castSucc]
  rw [leaves0, leaves1, leaves2, leaves3, leaves4, leaves5]
  have hN : t.val < 36 := lt_of_lt_of_eq t.isLt (show cfg14.N = 36 from N_14)
  by_cases h0 : t.val % 6 = 0
  · have h5 : ¬ t.val % 6 = 5 := by omega
    rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
    rw [accAt_first V c t h0]
    iintro ⟨HΦ, Ho, ⟨%d0, H0⟩, ⟨%d1, H1⟩, ⟨%d2, H2⟩, ⟨%d3, H3⟩, ⟨%d4, H4⟩, ⟨%d5, H5⟩, H6, H7⟩
    ihave HΦ' := (PhiS_any V c _ _) $$ HΦ
    icases HΦ' with ⟨HS, HR⟩
    iapply (kernelRunA (Ix := Ix) (U := U) (Lvl := Lvl) 𝒱₀ c (grid14.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
      ((hcond1 t).mpr h0) (fun h => h5 ((hcond2 t).mp h)) (iblk V c 0 t) (iblk V c 1 t) (iblk V c 2 t) Set.univ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h0 (by rw [e])
    rw [PhiS_pos V c _ _ hz, accAt_next V c t h0]
    by_cases h5 : t.val % 6 = 5
    · rw [show (dat (Ix := Ix) (U := U) (Lvl := Lvl) V c).leavesExact 6 t = owns (c : Thread nD τ) (ms6 t) fullShare ((dat (Ix := Ix) (U := U) (Lvl := Lvl) V c).after 6 t) from by
        unfold Dat.leavesExact; rw [live6 t h5], after6]
      rw [show (dat (Ix := Ix) (U := U) (Lvl := Lvl) V c).leavesExact 7 t = owns (c : Thread nD τ) (ms7 t) fullShare ((dat (Ix := Ix) (U := U) (Lvl := Lvl) V c).after 7 t) from by
        unfold Dat.leavesExact; rw [live7 t h5], after7]
      rw [accAt_next V c t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRunC (Ix := Ix) (U := U) (Lvl := Lvl) 𝒱₀ c (grid14.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) ((hcond2 t).mpr h5) (iblk V c 0 t) (iblk V c 1 t) (iblk V c 2 t) (iblk V c 3 t) (iblk V c 4 t) (iblk V c 5 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
      iintro ⟨⟨HS, HR⟩, Ho, ⟨%d0, H0⟩, ⟨%d1, H1⟩, ⟨%d2, H2⟩, ⟨%d3, H3⟩, ⟨%d4, H4⟩, ⟨%d5, H5⟩, H6, H7⟩
      iapply (kernelRunB (Ix := Ix) (U := U) (Lvl := Lvl) 𝒱₀ c (grid14.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) (fun h => h5 ((hcond2 t).mp h)) (iblk V c 0 t) (iblk V c 1 t) (iblk V c 2 t)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (ι : Ix) (𝒱₀ : Variants) (c : Dev nD) :
    Pipeline.BodyObligation (dat (Ix := Ix) (U := U) (Lvl := Lvl) V c) (defs₀ (F := F)) 𝒱₀ ι Set.univ := fun t => by
  rw [bigSep_W14, bigSep_W14]
  exact sound_body V ι 𝒱₀ c t

/-! ## The region over the thread state -/

/-- The prefetched tables' admissible contents: no call has a table. -/
abbrev adm : (p : Fin 17) → (pcfgs (F := F) p).Adm := fun p => (cfgs p).toPCfg_adm

/-- The seven distinct buffers behind the eight windows' arrays. -/
theorem arrRefs : Finset.univ.image (Pipeline.arrRef spec14)
    = [main_v147, main_v159_0, main_v148, main_v149, main_v42, main_v162_0, main_v162_1].toFinset := by decide

/-- A core's unscoped buffers at a valuation: those seven, each whole at the full share, and the rest. -/
theorem held_split (c : Dev nD) (W : Valuation τ sig (Elt F)) :
    (StableHlo.held (c : Thread nD τ) (Pipeline.ucRefs τ sig) W : sProp 𝕄)
      = iprop(iprop((((c : Thread nD τ).loc main_v147) ↦{fullShare} W main_v147) ∗ (((c : Thread nD τ).loc main_v159_0) ↦{fullShare} W main_v159_0)
          ∗ (((c : Thread nD τ).loc main_v148) ↦{fullShare} W main_v148) ∗ (((c : Thread nD τ).loc main_v149) ↦{fullShare} W main_v149)
          ∗ (((c : Thread nD τ).loc main_v42) ↦{fullShare} W main_v42) ∗ (((c : Thread nD τ).loc main_v162_0) ↦{fullShare} W main_v162_0)
          ∗ (((c : Thread nD τ).loc main_v162_1) ↦{fullShare} W main_v162_1))
        ∗ Pipeline.unscopedRest (Ix := Ix) (Name := ℕ) (U := U) (Lvl := Lvl) spec14 c (fun b => W b)) := by
  rw [← Pipeline.unscopedBufs_held c W, Pipeline.unscopedBufs_split₀ cfgs 14 winFacts₀14.arr_unscoped c (fun b => W b)] -- pipeline index
  show iprop(Pipeline.arrBufs spec14 c (fun b => W b) ∗ Pipeline.unscopedRest spec14 c (fun b => W b)) = _
  unfold Pipeline.arrBufs
  rw [bigSep_eq_bigSepL_of_eq _ arrRefs (by decide)]
  rfl

/-- The windows' arrays as the proof data holds them: the array two windows stage half by each, the others whole. -/
theorem arrays_eq (c : Dev nD) (Fw : (w : Fin cfg14.W) → Buf (Elt F) ((cfg14.win w).arr.view.loc (c : Thread nD τ))) :
    ((dat (Ix := Ix) (U := U) (Lvl := Lvl) V c).arrays Fw : sProp 𝕄)
      = iprop((((c : Thread nD τ).loc main_v147) ↦{fullShare} Fw 0) ∗ (((c : Thread nD τ).loc main_v159_0) ↦{fullShare} Fw 1)
          ∗ (((c : Thread nD τ).loc main_v148) ↦{fullShare.left} Fw 2) ∗ (((c : Thread nD τ).loc main_v148) ↦{fullShare.right} Fw 3)
          ∗ (((c : Thread nD τ).loc main_v149) ↦{fullShare} Fw 4) ∗ (((c : Thread nD τ).loc main_v42) ↦{fullShare} Fw 5)
          ∗ (((c : Thread nD τ).loc main_v162_0) ↦{fullShare} Fw 6) ∗ (((c : Thread nD τ).loc main_v162_1) ↦{fullShare} Fw 7)) := by
  unfold Dat.arrays
  rw [bigSep_congr fun w _ => show (((cfg14.win w).arr.view.loc (c : Thread nD τ) ↦[(cfg14.win w).arr.view.set]{(dat (Ix := Ix) (U := U) (Lvl := Lvl) V c).share w} Fw w : sProp 𝕄))
      = (((c : Thread nD τ).loc (Pipeline.arrRef spec14 w)) ↦{(dat (Ix := Ix) (U := U) (Lvl := Lvl) V c).share w} Fw w) from by rw [(arr_whole14 w).set_eq_univ],
    bigSep_W14]
  rfl

/-- The unscoped buffers no window stages are the same at two valuations that differ only at the two results. -/
theorem rest_congr (c : Dev nD) (hne : ∀ (b : Ref sig .tc), b ≠ main_v162_0 → b ≠ main_v162_1 → Vp c b = V c b) :
    (Pipeline.unscopedRest (Ix := Ix) (Name := ℕ) (U := U) (Lvl := Lvl) spec14 c (fun b => Vp c b) : sProp 𝕄)
      = Pipeline.unscopedRest spec14 c (fun b => V c b) := by
  unfold Pipeline.unscopedRest
  refine bigSep_congr fun b hb => ?_
  have hb' := (Finset.mem_sdiff.mp hb).2
  rw [arrRefs] at hb'
  dsimp only
  rw [hne b (fun e => by subst e; exact hb' (by decide)) (fun e => by subst e; exact hb' (by decide))]

/-- ENTRY: the windows' arrays out of the unscoped buffers, the array two windows stage split half and half. -/
theorem hentry13 (ι : Ix) (L : GSem nD τ sig → Finset Ix) (lv : GSem nD τ sig → Ix → Lvl) (c : Dev nD) :
    iprop(iprop(StableHlo.held (c : Thread nD τ) (Pipeline.ucRefs τ sig) (V c) ∗ iprop(∃ W, owes (c : Thread nD τ) (0 : CellTallies nD τ sig Ix) W))
        ∗ Pipeline.ownSems0 (Ix := Ix) (Name := ℕ) (U := U) (Lvl := Lvl) (Val := Elt F) (τ := τ) (fun k : PEmpty => k.elim) c ∗ levAts L lv)
      ⊢ (|={Set.univ}=> iprop((dat (Ix := Ix) (U := U) (Lvl := Lvl) V c).arrays ((dat (Ix := Ix) (U := U) (Lvl := Lvl) V c).arrAt · 0)
          ∗ Pipeline.prefHeld (pcfgs (F := F) 14).pre c (fun _ => fullShare) (adm 14).1 -- pipeline index
          ∗ (dat (Ix := Ix) (U := U) (Lvl := Lvl) V c).owesAt ι 0 ∗ BI.emp ∗ Pipeline.unscopedRest (Ix := Ix) (Name := ℕ) (U := U) (Lvl := Lvl) spec14 c (fun b => V c b)) : sProp 𝕄) := by
  rw [held_split, arrays_eq]
  iintro ⟨⟨⟨⟨H147, H158, H148, H149, H42, H0, H1⟩, HZ⟩, HO⟩, -, -⟩
  ihave H148' := (pointsTo_share (PosShare.mem_left_op_right fullShare)).1 $$ H148
  icases H148' with ⟨H148l, H148r⟩
  imodintro
  isplitl [H147 H158 H148l H148r H149 H42 H0 H1]
  · isplitl [H147]; · iexact H147
    isplitl [H158]; · iexact H158
    isplitl [H148l]; · iexact H148l
    isplitl [H148r]; · iexact H148r
    isplitl [H149]; · iexact H149
    isplitl [H42]; · iexact H42
    isplitl [H0]; · iexact H0
    iexact H1
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact HZ

/-- The invariant at the first point is the scoped buffers the pipeline does not stage. -/
theorem hin13 (c : Dev nD) :
    iprop(BI.emp ∗ Pipeline.prefHeld (pcfgs (F := F) 14).pre c (fun _ => fullShare) (adm 14).1 -- pipeline index
        ∗ Pipeline.scopedRest (Ix := Ix) (Name := ℕ) (U := U) (Lvl := Lvl) (Val := Elt F) spec14 c) ⊢ ((dat (Ix := Ix) (U := U) (Lvl := Lvl) V c).Φ 0 : sProp 𝕄) := by
  rw [show (dat (Ix := Ix) (U := U) (Lvl := Lvl) V c).Φ 0 = PhiS V c 0 (Nat.zero_le _) from rfl, PhiS_zero V c 0 _ rfl]
  iintro ⟨-, -, HR⟩; iexact HR

/-- The invariant at the last point gives them back, the accumulator's contents forgotten. -/
theorem hout13 (c : Dev nD) :
    ((dat (Ix := Ix) (U := U) (Lvl := Lvl) V c).Φ (Fin.last cfg14.N) : sProp 𝕄)
      ⊢ iprop(BI.emp ∗ Pipeline.ownSems0 (Ix := Ix) (Name := ℕ) (U := U) (Lvl := Lvl) (Val := Elt F) (τ := τ) (fun k : PEmpty => k.elim) c
          ∗ Pipeline.scopedRest (Ix := Ix) (Name := ℕ) (U := U) (Lvl := Lvl) (Val := Elt F) spec14 c) := by
  rw [Pipeline.ownSems0_none nD τ sig (Elt F) Ix ℕ U Lvl c,
    show (dat (Ix := Ix) (U := U) (Lvl := Lvl) V c).Φ (Fin.last cfg14.N) = PhiS V c cfg14.N (Nat.le_refl _) from rfl]
  iintro HΦ
  ihave HΦ' := (PhiS_any V c _ _) $$ HΦ
  icases HΦ' with ⟨⟨%d, HS⟩, HR⟩
  isplitr; · iempintro
  isplitr; · iempintro
  rw [scopedRest14_split]
  isplitl [HS]
  · iexists d
    iapply (Entails.of_eq (owns_whole (c : Thread nD τ) cc14_scratch0 fullShare d))
    iexact HS
  iexact HR

/-- EXIT: the halves of the shared array rejoined, the two results at what the proof data computes, every other
    buffer as it was: the unscoped buffers at the exit valuation. -/
theorem hexit13 (ι : Ix) (c : Dev nD)
    (hout6 : Vp c main_v162_0 = (dat (Ix := Ix) (U := U) (Lvl := Lvl) V c).arrAt 6 cfg14.N)
    (hout7 : Vp c main_v162_1 = (dat (Ix := Ix) (U := U) (Lvl := Lvl) V c).arrAt 7 cfg14.N)
    (hne : ∀ (b : Ref sig .tc), b ≠ main_v162_0 → b ≠ main_v162_1 → Vp c b = V c b) :
    iprop((dat (Ix := Ix) (U := U) (Lvl := Lvl) V c).arrays ((dat (Ix := Ix) (U := U) (Lvl := Lvl) V c).arrAt · cfg14.N) ∗ (dat (Ix := Ix) (U := U) (Lvl := Lvl) V c).owesAt ι (Fin.last cfg14.N)
        ∗ BI.emp ∗ Pipeline.unscopedRest (Ix := Ix) (Name := ℕ) (U := U) (Lvl := Lvl) spec14 c (fun b => V c b))
      ⊢ (|={Set.univ}=> iprop(StableHlo.held (c : Thread nD τ) (Pipeline.ucRefs τ sig) (Vp c) ∗ iprop(∃ W, owes (c : Thread nD τ) (0 : CellTallies nD τ sig Ix) W)) : sProp 𝕄) := by
  rw [held_split, arrays_eq, rest_congr V Vp c hne]
  have e0 := (dat (Ix := Ix) (U := U) (Lvl := Lvl) V c).arrAt_in 0 rfl cfg14.N
  have e1 := (dat (Ix := Ix) (U := U) (Lvl := Lvl) V c).arrAt_in 1 rfl cfg14.N
  have e2 := (dat (Ix := Ix) (U := U) (Lvl := Lvl) V c).arrAt_in 2 rfl cfg14.N
  have e3 := (dat (Ix := Ix) (U := U) (Lvl := Lvl) V c).arrAt_in 3 rfl cfg14.N
  have e4 := (dat (Ix := Ix) (U := U) (Lvl := Lvl) V c).arrAt_in 4 rfl cfg14.N
  have e5 := (dat (Ix := Ix) (U := U) (Lvl := Lvl) V c).arrAt_in 5 rfl cfg14.N
  rw [A_eq] at e0 e1 e2 e3 e4 e5
  rw [e0, e1, e2, e3, e4, e5, ← hout6, ← hout7,
    hne main_v147 (by decide) (by decide), hne main_v159_0 (by decide) (by decide), hne main_v148 (by decide) (by decide),
    hne main_v149 (by decide) (by decide), hne main_v42 (by decide) (by decide)]
  iintro ⟨⟨H147, H158, H148l, H148r, H149, H42, H0, H1⟩, HO, -, HZ⟩
  ihave H148 := (pointsTo_share (PosShare.mem_left_op_right fullShare)).2 $$ [H148l H148r]
  · isplitl [H148l]; · iexact H148l
    iexact H148r
  imodintro
  isplitr [HO]
  · isplitr [HZ]
    · isplitl [H147]; · iexact H147
      isplitl [H158]; · iexact H158
      isplitl [H148]; · iexact H148
      isplitl [H149]; · iexact H149
      isplitl [H42]; · iexact H42
      isplitl [H0]; · iexact H0
      iexact H1
    iexact HZ
  · unfold Pipeline.Dat.owesAt Pipeline.owesWithin
    icases HO with ⟨%W, -, HO⟩; iexists W; iexact HO

set_option backward.isDefEq.respectTransparency.types false in
/-- THE REGION: entered from every unscoped buffer at `V c` — the eight windows' arrays into the pipeline, the array two
    windows stage split half and half between them, every other unscoped buffer bypassing —, left with the two results
    at what the proof data computes and every other buffer as it was. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd 14 c = dat V c) -- pipeline index
    (hout6 : ∀ c, Vp c main_v162_0 = (dat (Ix := Ix) (U := U) (Lvl := Lvl) V c).arrAt 6 cfg14.N)
    (hout7 : ∀ c, Vp c main_v162_1 = (dat (Ix := Ix) (U := U) (Lvl := Lvl) V c).arrAt 7 cfg14.N)
    (hne : ∀ c (b : Ref sig .tc), b ≠ main_v162_0 → b ≠ main_v162_1 → Vp c b = V c b) :
    Pipeline.RegionSeg (pcfgs (F := F)) adm pd ι defs₀ 𝒱₀ L lv 14 where -- pipeline index
  win := winFacts₀14
  block_pos := block_pos14
  stage_whole := stage_whole14
  K := PEmpty
  osem := fun k => k.elim
  ho := Pipeline.OwnSemFacts.none _
  hbody c := by rw [hpd c]; exact (body_obligation V ι 𝒱₀ c).loose
  hwaits := Pipeline.hwaits_of_owed_zero _ _ _ _ L lv 14 fun c _ => by rw [hpd c]; rfl -- pipeline index
  pre c := iprop(StableHlo.held (c : Thread nD τ) (Pipeline.ucRefs τ sig) (V c) ∗ iprop(∃ W, owes (c : Thread nD τ) (0 : CellTallies nD τ sig Ix) W))
  post c := iprop(StableHlo.held (c : Thread nD τ) (Pipeline.ucRefs τ sig) (Vp c) ∗ iprop(∃ W, owes (c : Thread nD τ) (0 : CellTallies nD τ sig Ix) W))
  X _ := (BI.emp : sProp 𝕄)
  Y _ := (BI.emp : sProp 𝕄)
  Z c := Pipeline.unscopedRest (Ix := Ix) (Name := ℕ) (U := U) (Lvl := Lvl) spec14 c (fun b => V c b)
  hentry c := by rw [hpd c]; exact hentry13 V ι L lv c
  hin c := by rw [hpd c]; exact hin13 V c
  hout c := by rw [hpd c]; exact hout13 V c
  hexit c := by rw [hpd c]; exact hexit13 V Vp ι c (hout6 c) (hout7 c) (hne c)

end Cert.KernelIdeal.Region14

end
-- ==== Proof.KI.Region15Base.lean ====
/-
  Region 15 of @main, first part: a hop of the message passing on the grid (6, 6). At the point (i, k) the body adds to
  an accumulator the product of the (i, k) tile of the adjacency operand with rows [1024 k, 1024 k + 1024) of the
  feature operand, each row scaled by the k-th block of the scale column; the accumulator is reset at k = 0, and at
  k = 5 the body writes the two output blocks of row tile i: the accumulator scaled by the i-th block of the same
  scale column, and that block's product with the gate matrix plus the bias row. Two windows stage the one scale
  column, one at block k, the other at block i. Here: the body on any whole staging memrefs, one statement per case
  of the reduction coordinate, and the proof data with each input's buffer at its block. Stated once, for any float family.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Regions
import Idealize.ShloMosaic.Lib.Pipeline.RegionsLoop
import Idealize.ShloMosaic.Lib.Pipeline.Value
import Idealize.ShloMosaic.Lib.Tactic

set_option maxRecDepth 16384

noncomputable section

namespace Cert.KernelIdeal.Region15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

/-! ## The body's two conditions, from the grid coordinates -/

/-- The condition of the first `scf.if` (reset the accumulator): the reduction coordinate is 0. -/
abbrev cond1 (i : grid15.Coords) : Prop :=
  (Scalar.cmpi .ne (Scalar.extui (Scalar.cmpi .eq (BitVec.ofNat 32 (i 1).val) 0#32)) 0#32) = 1#1

/-- The rows of the resident operand the point reads: 1024 rows from row `1024 * k`. -/
abbrev rows (i : grid15.Coords) (x1 : Vec F S6144x256 .bf16) : Vec F S1024x256 .bf16 :=
  View.ld x1 (Rect.unit (s := S6144x256) (k15_off1 i) S1024x256.size (k15_off1_inb i))

theorem z2 : (![0, 0] : Fin 2 → Nat) = fun _ => 0 := by funext a; fin_cases a <;> rfl

/-- A store through the whole-shape rectangle at zero offsets, LAST, leaves its payload. -/
theorem read_store_zero {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

set_option maxHeartbeats 1000000 in
/-- A point in the middle of a reduction (the reduction coordinate neither 0 nor 5): the accumulator gains the point's product. -/
theorem kernelRunB (𝒱₀ : Variants) (c : Dev nD) (i : grid15.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : ¬ k15_cond2 i = 1#1)
    (x0 : Vec F S1024x1024 .bf16) (x1 : Vec F S6144x256 .bf16) (x2 : Vec F S1024x1 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg10 fullShare acc
        ∗ (iprop(owns (c : Thread nD τ) arg2 fullShare x0 ∗ owns (c : Thread nD τ) arg3 fullShare x1
            ∗ owns (c : Thread nD τ) arg4 fullShare x2
            ∗ owns (c : Thread nD τ) arg10 fullShare (k15_pay2 x0 (rows i x1) x2 acc)) -∗ K ⟨⟩))
      ⊢ wp frame (wpE (defs₀ (F := F)) 𝒱₀ c none) E (cc15__hop_kernel i arg2 harg2 arg3 harg3 arg4 harg4 arg5 harg5 arg6 harg6 arg7 harg7 arg8 harg8 arg9 harg9 arg10 harg10) K := by
  simp only [cc15__hop_kernel_eq_skeleton]; unfold cc15__hop_kernel_skel
  unfold owns
  iintro ⟨⟨%f2, %hf2, H2⟩, ⟨%f3, %hf3, H3⟩, ⟨%f4, %hf4, H4⟩, ⟨%f10, %hf10, H10⟩, Hk⟩
  obtain rfl := harg2.eq_unread hf2
  obtain rfl := harg3.eq_unread hf3
  obtain rfl := harg4.eq_unread hf4
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  rw [read_store_zero _ _ z2]
  simp only [View.readAt_eq_ld, hf2, hf3, hf4, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The first point of a reduction (the reduction coordinate 0): the accumulator is reset, then gains the point's product. -/
theorem kernelRunA (𝒱₀ : Variants) (c : Dev nD) (i : grid15.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : cond1 i) (hc2 : ¬ k15_cond2 i = 1#1)
    (x0 : Vec F S1024x1024 .bf16) (x1 : Vec F S6144x256 .bf16) (x2 : Vec F S1024x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg10 fullShare d)
        ∗ (iprop(owns (c : Thread nD τ) arg2 fullShare x0 ∗ owns (c : Thread nD τ) arg3 fullShare x1
            ∗ owns (c : Thread nD τ) arg4 fullShare x2
            ∗ owns (c : Thread nD τ) arg10 fullShare (k15_pay2 x0 (rows i x1) x2 (k15_pay1 (F := F)))) -∗ K ⟨⟩))
      ⊢ wp frame (wpE (defs₀ (F := F)) 𝒱₀ c none) E (cc15__hop_kernel i arg2 harg2 arg3 harg3 arg4 harg4 arg5 harg5 arg6 harg6 arg7 harg7 arg8 harg8 arg9 harg9 arg10 harg10) K := by
  simp only [cc15__hop_kernel_eq_skeleton]; unfold cc15__hop_kernel_skel
  unfold owns
  iintro ⟨⟨%f2, %hf2, H2⟩, ⟨%f3, %hf3, H3⟩, ⟨%f4, %hf4, H4⟩, ⟨%d10, %f10, -, H10⟩, Hk⟩
  obtain rfl := harg2.eq_unread hf2
  obtain rfl := harg3.eq_unread hf3
  obtain rfl := harg4.eq_unread hf4
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  iexists _; isplitr; swap; (· iexact H10); ipureintro
  sl_unfold_run_names
  rw [read_store_zero _ _ z2]
  simp only [View.readAt_eq_ld, hf2, hf3, hf4,  View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

set_option maxHeartbeats 1000000 in
/-- The last point of a reduction (the reduction coordinate 5): the accumulator gains the point's product, and the two
    output blocks are written from it. -/
theorem kernelRunC (𝒱₀ : Variants) (c : Dev nD) (i : grid15.Coords)
    (arg2 : Memref sig .tc .vmem S1024x1024 .bf16) (harg2 : arg2.IsWhole) (arg3 : Memref sig .tc .vmem S6144x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S256x256 .bf16) (harg6 : arg6.IsWhole) (arg7 : Memref sig .tc .vmem S1x256 .f32) (harg7 : arg7.IsWhole)
    (arg8 : Memref sig .tc .vmem S1024x256 .bf16) (harg8 : arg8.IsWhole) (arg9 : Memref sig .tc .vmem S1024x256 .f32) (harg9 : arg9.IsWhole)
    (arg10 : Memref sig .tc .vmem S1024x256 .f32) (harg10 : arg10.IsWhole)
    (hc1 : ¬ cond1 i) (hc2 : k15_cond2 i = 1#1)
    (x0 : Vec F S1024x1024 .bf16) (x1 : Vec F S6144x256 .bf16) (x2 : Vec F S1024x1 .f32) (x3 : Vec F S1024x1 .f32)
    (x4 : Vec F S256x256 .bf16) (x5 : Vec F S1x256 .f32) (acc : Vec F S1024x256 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare acc
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (k15_pay4 (k15_pay2 x0 (rows i x1) x2 acc) x3)
            ∗ owns (c : Thread nD τ) arg9 fullShare (k15_pay5 (k15_pay2 x0 (rows i x1) x2 acc) x3 x4 x5)
            ∗ owns (c : Thread nD τ) arg10 fullShare (k15_pay2 x0 (rows i x1) x2 acc)) -∗ K ⟨⟩))
      ⊢ wp frame (wpE (defs₀ (F := F)) 𝒱₀ c none) E (cc15__hop_kernel i arg2 harg2 arg3 harg3 arg4 harg4 arg5 harg5 arg6 harg6 arg7 harg7 arg8 harg8 arg9 harg9 arg10 harg10) K := by
  simp only [cc15__hop_kernel_eq_skeleton]; unfold cc15__hop_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%f10, %hf10, H10⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg10.eq_unread hf10
  sl_exec (disch := first | exact hc1 | exact hc2)
  sl_step
  iapply Hk
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]
  · iexists _; isplitr; swap; (· iexact H8); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  isplitl [H9]
  · iexists _; isplitr; swap; (· iexact H9); ipureintro
    sl_unfold_run_names
    rw [read_store_zero _ _ z2]
    simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]
  iexists _; isplitr; swap; (· iexact H10); ipureintro
  sl_unfold_run_names
  rw [read_store_zero _ _ z2]
  simp only [View.readAt_eq_ld, hf2, hf3, hf4, hf5, hf6, hf7, hf10, View.ld_unit_zero (S := S1024x1024) z2, View.ld_unit_zero (S := S1024x256) z2, View.ld_unit_zero (S := S1024x1) z2, View.ld_unit_zero (S := S256x256) z2, View.ld_unit_zero (S := S1x256) z2, View.readCov_unit_zero (S := S1024x256) _ z2, read_store_zero (S := S1024x256) _ _ z2]

/-! ## The schedule's closed forms at the reduction coordinate `k = t % 6` -/

theorem hcond1 : ∀ t : Fin cfg15.N, cond1 (grid15.coords t) ↔ t.val % 6 = 0 :=
  (by decide +kernel : ∀ t : Fin grid15.N, cond1 (grid15.coords t) ↔ t.val % 6 = 0)
theorem hcond2 : ∀ t : Fin cfg15.N, k15_cond2 (grid15.coords t) = 1#1 ↔ t.val % 6 = 5 :=
  (by decide +kernel : ∀ t : Fin grid15.N, k15_cond2 (grid15.coords t) = 1#1 ↔ t.val % 6 = 5)
/-- Where the reduction is not at its last tile the body stores nothing into the two outputs' buffers, -/
theorem idle6 : ∀ t : Fin cfg15.N, ¬ t.val % 6 = 5 → cfg15.idle 6 (grid15.coords t) = true :=
  (by decide +kernel : ∀ t : Fin grid15.N, ¬ t.val % 6 = 5 → idle15 6 (grid15.coords t) = true)
theorem idle7 : ∀ t : Fin cfg15.N, ¬ t.val % 6 = 5 → cfg15.idle 7 (grid15.coords t) = true :=
  (by decide +kernel : ∀ t : Fin grid15.N, ¬ t.val % 6 = 5 → idle15 7 (grid15.coords t) = true)
/-- and at its last tile it fills them. -/
theorem live6 : ∀ t : Fin cfg15.N, t.val % 6 = 5 → cfg15.idle 6 (grid15.coords t) = false :=
  (by decide +kernel : ∀ t : Fin grid15.N, t.val % 6 = 5 → idle15 6 (grid15.coords t) = false)
theorem live7 : ∀ t : Fin cfg15.N, t.val % 6 = 5 → cfg15.idle 7 (grid15.coords t) = false :=
  (by decide +kernel : ∀ t : Fin grid15.N, t.val % 6 = 5 → idle15 7 (grid15.coords t) = false)
theorem noflush6 (t : Fin cfg15.N) (h : ¬ t.val % 6 = 5) : (cfg15.win 6).flush t = false :=
  Bool.eq_false_iff.mpr fun hf => h ((flush15_6 t).mp hf)
theorem noflush7 (t : Fin cfg15.N) (h : ¬ t.val % 6 = 5) : (cfg15.win 7).flush t = false :=
  Bool.eq_false_iff.mpr fun hf => h ((flush15_7 t).mp hf)

/-! ## The proof data, at an entry valuation -/

variable (V Vp : Dev nD → Valuation τ sig (Elt F))

/-- Window `w`'s block at point `t`, read off the entry valuation. -/
def iblk (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- THE ACCUMULATION: what the accumulator holds after point `n` — the point's product added to zero at the first tile
    of a reduction (`n % 6 = 0`), to what the point before left elsewhere. -/
def accAt (c : Dev nD) : (n : ℕ) → n < cfg15.N → Vec F S1024x256 .f32
  | 0, hn => k15_pay2 (iblk V c 0 ⟨0, hn⟩) (rows (grid15.coords ⟨0, hn⟩) (iblk V c 1 ⟨0, hn⟩)) (iblk V c 2 ⟨0, hn⟩) (k15_pay1 (F := F))
  | n + 1, hn => k15_pay2 (iblk V c 0 ⟨n + 1, hn⟩) (rows (grid15.coords ⟨n + 1, hn⟩) (iblk V c 1 ⟨n + 1, hn⟩)) (iblk V c 2 ⟨n + 1, hn⟩)
      (if (n + 1) % 6 = 0 then k15_pay1 (F := F) else accAt c n (Nat.lt_of_succ_lt hn))

theorem accAt_first (c : Dev nD) (t : Fin cfg15.N) (h : t.val % 6 = 0) :
    accAt V c t.val t.isLt = k15_pay2 (iblk V c 0 t) (rows (grid15.coords t) (iblk V c 1 t)) (iblk V c 2 t) (k15_pay1 (F := F)) := by
  obtain ⟨n, hn⟩ := t
  cases n with
  | zero => rfl
  | succ n => show accAt V c (n + 1) hn = _; rw [accAt, if_pos h]

theorem accAt_next (c : Dev nD) (t : Fin cfg15.N) (h : ¬ t.val % 6 = 0) :
    accAt V c t.val t.isLt = k15_pay2 (iblk V c 0 t) (rows (grid15.coords t) (iblk V c 1 t)) (iblk V c 2 t)
      (accAt V c (t.val - 1) (Nat.lt_of_le_of_lt (Nat.sub_le _ _) t.isLt)) := by
  obtain ⟨n, hn⟩ := t
  cases n with
  | zero => exact absurd (Nat.zero_mod _) h
  | succ n => show accAt V c (n + 1) hn = _; rw [accAt, if_neg h]; rfl

/-- The accumulator's buffer: the call's one scratch operand. -/
abbrev scM : Memref sig .tc .vmem S1024x256 .f32 := Memref.whole cc15_scratch0

/-- The invariant before position `n`: before the first point every scoped buffer the pipeline does not stage at anything;
    afterwards the accumulator at what the point before left in it, the others at anything. -/
def PhiS (c : Dev nD) : (n : ℕ) → n ≤ cfg15.N → sProp 𝕄
  | 0, _ => Pipeline.scopedRest (Ix := Ix) (Name := ℕ) (U := U) (Lvl := Lvl) (Val := Elt F) spec15 c
  | n + 1, hn => iprop(owns (c : Thread nD τ) scM fullShare (accAt V c n hn)
      ∗ Pipeline.scopedRestBut (Ix := Ix) (Name := ℕ) (U := U) (Lvl := Lvl) (Val := Elt F) spec15 c [cc15_scratch0])

theorem PhiS_zero (c : Dev nD) (n : ℕ) (h : n ≤ cfg15.N) (hz : n = 0) :
    PhiS (Ix := Ix) (U := U) (Lvl := Lvl) V c n h = Pipeline.scopedRest (Ix := Ix) (Name := ℕ) (U := U) (Lvl := Lvl) (Val := Elt F) spec15 c := by
  subst hz; rfl

theorem PhiS_succ (c : Dev nD) (n : ℕ) (hn : n < cfg15.N) :
    PhiS (Ix := Ix) (U := U) (Lvl := Lvl) V c (n + 1) hn = iprop(owns (c : Thread nD τ) scM fullShare (accAt V c n hn)
      ∗ Pipeline.scopedRestBut (Ix := Ix) (Name := ℕ) (U := U) (Lvl := Lvl) (Val := Elt F) spec15 c [cc15_scratch0]) := rfl

theorem PhiS_pos (c : Dev nD) (n : ℕ) (h : n ≤ cfg15.N) (hz : n ≠ 0) :
    PhiS (Ix := Ix) (U := U) (Lvl := Lvl) V c n h = iprop(owns (c : Thread nD τ) scM fullShare (accAt V c (n - 1) (by omega))
      ∗ Pipeline.scopedRestBut (Ix := Ix) (Name := ℕ) (U := U) (Lvl := Lvl) (Val := Elt F) spec15 c [cc15_scratch0]) := by
  cases n with
  | zero => exact absurd rfl hz
  | succ n => rfl

/-- The proof data of one entry of the region, from valuation `V`: the arrays at `V`; after the body each input's buffer at
    its block, the two outputs' at the scaled accumulator and at its product with the gate plus the bias; the invariant
    above; nothing owed; the array two windows stage held half by each, the others whole. -/
def dat (c : Dev nD) : Pipeline.Dat τ (Elt F) Ix ℕ U Lvl cfg15 c where
  A w := V c (Pipeline.arrRef spec15 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k15_pay4 (accAt V c t.val t.isLt) (iblk V c 3 t)
    | ⟨7, _⟩ => k15_pay5 (accAt V c t.val t.isLt) (iblk V c 3 t) (iblk V c 4 t) (iblk V c 5 t)
  Φ t := PhiS V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg15.W) : (dat (Ix := Ix) (U := U) (Lvl := Lvl) V c).A w = V c (Pipeline.arrRef spec15 w) := by
  dsimp only [dat]

theorem PhiS_castSucc (c : Dev nD) (t : Fin cfg15.N) :
    (dat (Ix := Ix) (U := U) (Lvl := Lvl) V c).Φ t.castSucc = PhiS V c t.val (Nat.le_of_lt t.isLt) := by
  dsimp only [dat]; simp only [Fin.coe_castSucc]

theorem after0 (c : Dev nD) (t : Fin cfg15.N) : (dat (Ix := Ix) (U := U) (Lvl := Lvl) V c).after 0 t = iblk V c 0 t := by dsimp only [dat]
theorem after1 (c : Dev nD) (t : Fin cfg15.N) : (dat (Ix := Ix) (U := U) (Lvl := Lvl) V c).after 1 t = iblk V c 1 t := by dsimp only [dat]
theorem after2 (c : Dev nD) (t : Fin cfg15.N) : (dat (Ix := Ix) (U := U) (Lvl := Lvl) V c).after 2 t = iblk V c 2 t := by dsimp only [dat]
theorem after3 (c : Dev nD) (t : Fin cfg15.N) : (dat (Ix := Ix) (U := U) (Lvl := Lvl) V c).after 3 t = iblk V c 3 t := by dsimp only [dat]
theorem after4 (c : Dev nD) (t : Fin cfg15.N) : (dat (Ix := Ix) (U := U) (Lvl := Lvl) V c).after 4 t = iblk V c 4 t := by dsimp only [dat]
theorem after5 (c : Dev nD) (t : Fin cfg15.N) : (dat (Ix := Ix) (U := U) (Lvl := Lvl) V c).after 5 t = iblk V c 5 t := by dsimp only [dat]
theorem after6 (c : Dev nD) (t : Fin cfg15.N) : (dat (Ix := Ix) (U := U) (Lvl := Lvl) V c).after 6 t = k15_pay4 (accAt V c t.val t.isLt) (iblk V c 3 t) := by dsimp only [dat]
theorem after7 (c : Dev nD) (t : Fin cfg15.N) :
    (dat (Ix := Ix) (U := U) (Lvl := Lvl) V c).after 7 t = k15_pay5 (accAt V c t.val t.isLt) (iblk V c 3 t) (iblk V c 4 t) (iblk V c 5 t) := by dsimp only [dat]

/-! Each input's current staging buffer holds its block at every point, fetched there or not: unfetched, the block index
    has not moved. -/

theorem before0 (c : Dev nD) (t : Fin cfg15.N) (d) : (dat (Ix := Ix) (U := U) (Lvl := Lvl) V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg15.N) (d) : (dat (Ix := Ix) (U := U) (Lvl := Lvl) V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg15.N) (d) : (dat (Ix := Ix) (U := U) (Lvl := Lvl) V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg15.N) (d) : (dat (Ix := Ix) (U := U) (Lvl := Lvl) V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg15.N) (d) : (dat (Ix := Ix) (U := U) (Lvl := Lvl) V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg15.N) (d) : (dat (Ix := Ix) (U := U) (Lvl := Lvl) V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

end Cert.KernelIdeal.Region15

end
-- ==== Proof.KI.Region15.lean ====
/-
  Region 15 of @main, second part: the body obligation at a generic grid point, by the reduction coordinate (first tile,
  a middle tile, last tile), and the region's segment over the thread state: entered from every unscoped buffer at an
  entry valuation, left at the exit valuation, which differs from it at the two results only. The scale column two
  windows stage is held half by each of them inside the region. Stated once, for any float family.
-/
import proofs.«414035_j83562883711810_2_alg».proof.Proof.KI.Region15Base

set_option maxRecDepth 16384

noncomputable section

namespace Cert.KernelIdeal.Region15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

variable (V Vp : Dev nD → Valuation τ sig (Elt F))

/-! ## The body obligation, at a generic point -/

/-- The staging memrefs the body is called with at point `t`. -/
abbrev ms0 (t : Fin cfg15.N) : Memref sig .tc .vmem S1024x1024 .bf16 := win15_0.stage (cfg15.slots t 0)
abbrev hs0 (t : Fin cfg15.N) : (ms0 t).IsWhole := hstage15_0 ((cfg15.slots t 0).cast nbuf15_0)
abbrev ms1 (t : Fin cfg15.N) : Memref sig .tc .vmem S6144x256 .bf16 := win15_1.stage (cfg15.slots t 1)
abbrev hs1 (t : Fin cfg15.N) : (ms1 t).IsWhole := hstage15_1 ((cfg15.slots t 1).cast nbuf15_1)
abbrev ms2 (t : Fin cfg15.N) : Memref sig .tc .vmem S1024x1 .f32 := win15_2.stage (cfg15.slots t 2)
abbrev hs2 (t : Fin cfg15.N) : (ms2 t).IsWhole := hstage15_2 ((cfg15.slots t 2).cast nbuf15_2)
abbrev ms3 (t : Fin cfg15.N) : Memref sig .tc .vmem S1024x1 .f32 := win15_3.stage (cfg15.slots t 3)
abbrev hs3 (t : Fin cfg15.N) : (ms3 t).IsWhole := hstage15_3 ((cfg15.slots t 3).cast nbuf15_3)
abbrev ms4 (t : Fin cfg15.N) : Memref sig .tc .vmem S256x256 .bf16 := win15_4.stage (cfg15.slots t 4)
abbrev hs4 (t : Fin cfg15.N) : (ms4 t).IsWhole := hstage15_4 ((cfg15.slots t 4).cast nbuf15_4)
abbrev ms5 (t : Fin cfg15.N) : Memref sig .tc .vmem S1x256 .f32 := win15_5.stage (cfg15.slots t 5)
abbrev hs5 (t : Fin cfg15.N) : (ms5 t).IsWhole := hstage15_5 ((cfg15.slots t 5).cast nbuf15_5)
abbrev ms6 (t : Fin cfg15.N) : Memref sig .tc .vmem S1024x256 .bf16 := win15_6.stage (cfg15.slots t 6)
abbrev hs6 (t : Fin cfg15.N) : (ms6 t).IsWhole := hstage15_6 ((cfg15.slots t 6).cast nbuf15_6)
abbrev ms7 (t : Fin cfg15.N) : Memref sig .tc .vmem S1024x256 .f32 := win15_7.stage (cfg15.slots t 7)
abbrev hs7 (t : Fin cfg15.N) : (ms7 t).IsWhole := hstage15_7 ((cfg15.slots t 7).cast nbuf15_7)

/-- What the body is called with at point `t`, the windows one by one, -/
def bodyPre (ι : Ix) (c : Dev nD) (t : Fin cfg15.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (ms0 t) fullShare ((dat (Ix := Ix) (U := U) (Lvl := Lvl) V c).before 0 t d))
    ∗ (∃ d, owns (c : Thread nD τ) (ms1 t) fullShare ((dat (Ix := Ix) (U := U) (Lvl := Lvl) V c).before 1 t d))
    ∗ (∃ d, owns (c : Thread nD τ) (ms2 t) fullShare ((dat (Ix := Ix) (U := U) (Lvl := Lvl) V c).before 2 t d))
    ∗ (∃ d, owns (c : Thread nD τ) (ms3 t) fullShare ((dat (Ix := Ix) (U := U) (Lvl := Lvl) V c).before 3 t d))
    ∗ (∃ d, owns (c : Thread nD τ) (ms4 t) fullShare ((dat (Ix := Ix) (U := U) (Lvl := Lvl) V c).before 4 t d))
    ∗ (∃ d, owns (c : Thread nD τ) (ms5 t) fullShare ((dat (Ix := Ix) (U := U) (Lvl := Lvl) V c).before 5 t d))
    ∗ (∃ d, owns (c : Thread nD τ) (ms6 t) fullShare ((dat (Ix := Ix) (U := U) (Lvl := Lvl) V c).before 6 t d))
    ∗ (∃ d, owns (c : Thread nD τ) (ms7 t) fullShare ((dat (Ix := Ix) (U := U) (Lvl := Lvl) V c).before 7 t d)))

/-- and what it returns. -/
def bodyPost (ι : Ix) (c : Dev nD) (t : Fin cfg15.N) : sProp 𝕄 :=
  iprop((dat (Ix := Ix) (U := U) (Lvl := Lvl) V c).Φ t.succ ∗ (dat (Ix := Ix) (U := U) (Lvl := Lvl) V c).owesAt ι t.succ
    ∗ (dat (Ix := Ix) (U := U) (Lvl := Lvl) V c).leavesExact 0 t
    ∗ (dat (Ix := Ix) (U := U) (Lvl := Lvl) V c).leavesExact 1 t
    ∗ (dat (Ix := Ix) (U := U) (Lvl := Lvl) V c).leavesExact 2 t
    ∗ (dat (Ix := Ix) (U := U) (Lvl := Lvl) V c).leavesExact 3 t
    ∗ (dat (Ix := Ix) (U := U) (Lvl := Lvl) V c).leavesExact 4 t
    ∗ (dat (Ix := Ix) (U := U) (Lvl := Lvl) V c).leavesExact 5 t
    ∗ (dat (Ix := Ix) (U := U) (Lvl := Lvl) V c).leavesExact 6 t
    ∗ (dat (Ix := Ix) (U := U) (Lvl := Lvl) V c).leavesExact 7 t)

theorem leaves0 (c : Dev nD) (t : Fin cfg15.N) :
    (dat (Ix := Ix) (U := U) (Lvl := Lvl) V c).leavesExact 0 t = owns (c : Thread nD τ) (ms0 t) fullShare (iblk V c 0 t) := by
  unfold Dat.leavesExact; rw [show cfg15.idle 0 (cfg15.grid.coords t) = false from rfl, after0]
theorem leaves1 (c : Dev nD) (t : Fin cfg15.N) :
    (dat (Ix := Ix) (U := U) (Lvl := Lvl) V c).leavesExact 1 t = owns (c : Thread nD τ) (ms1 t) fullShare (iblk V c 1 t) := by
  unfold Dat.leavesExact; rw [show cfg15.idle 1 (cfg15.grid.coords t) = false from rfl, after1]
theorem leaves2 (c : Dev nD) (t : Fin cfg15.N) :
    (dat (Ix := Ix) (U := U) (Lvl := Lvl) V c).leavesExact 2 t = owns (c : Thread nD τ) (ms2 t) fullShare (iblk V c 2 t) := by
  unfold Dat.leavesExact; rw [show cfg15.idle 2 (cfg15.grid.coords t) = false from rfl, after2]
theorem leaves3 (c : Dev nD) (t : Fin cfg15.N) :
    (dat (Ix := Ix) (U := U) (Lvl := Lvl) V c).leavesExact 3 t = owns (c : Thread nD τ) (ms3 t) fullShare (iblk V c 3 t) := by
  unfold Dat.leavesExact; rw [show cfg15.idle 3 (cfg15.grid.coords t) = false from rfl, after3]
theorem leaves4 (c : Dev nD) (t : Fin cfg15.N) :
    (dat (Ix := Ix) (U := U) (Lvl := Lvl) V c).leavesExact 4 t = owns (c : Thread nD τ) (ms4 t) fullShare (iblk V c 4 t) := by
  unfold Dat.leavesExact; rw [show cfg15.idle 4 (cfg15.grid.coords t) = false from rfl, after4]
theorem leaves5 (c : Dev nD) (t : Fin cfg15.N) :
    (dat (Ix := Ix) (U := U) (Lvl := Lvl) V c).leavesExact 5 t = owns (c : Thread nD τ) (ms5 t) fullShare (iblk V c 5 t) := by
  unfold Dat.leavesExact; rw [show cfg15.idle 5 (cfg15.grid.coords t) = false from rfl, after5]

/-- Whatever the position, the invariant holds the accumulator's buffer at something beside the other scoped buffers. -/
theorem PhiS_any (c : Dev nD) (n : ℕ) (h : n ≤ cfg15.N) :
    PhiS (Ix := Ix) (U := U) (Lvl := Lvl) V c n h ⊢ iprop((∃ d, owns (c : Thread nD τ) scM fullShare d)
      ∗ Pipeline.scopedRestBut (Ix := Ix) (Name := ℕ) (U := U) (Lvl := Lvl) (Val := Elt F) spec15 c [cc15_scratch0]) := by
  cases n with
  | zero =>
    rw [PhiS_zero V c 0 h rfl, scopedRest15_split]
    iintro ⟨⟨%fs, HS⟩, HR⟩
    isplitl [HS]
    · iexists fs; rw [owns_whole]; iexact HS
    iexact HR
  | succ n =>
    rw [PhiS_succ]
    iintro ⟨HS, HR⟩
    isplitl [HS]
    · iexists _; iexact HS
    iexact HR

set_option maxHeartbeats 4000000 in
/-- The body at any point, by the reduction coordinate: first tile, a middle tile, last tile. -/
theorem sound_body (ι : Ix) (𝒱₀ : Variants) (c : Dev nD) (t : Fin cfg15.N) :
    bodyPre (U := U) (Lvl := Lvl) V ι c t ⊢ wp frame (wpE (defs₀ (F := F)) 𝒱₀ c none) Set.univ (bodyAt15 t) (fun _ => bodyPost (U := U) (Lvl := Lvl) V ι c t) := by
  unfold bodyPre bodyPost bodyAt15
  simp only [before0, before1, before2, before3, before4, before5]
  rw [show (dat (Ix := Ix) (U := U) (Lvl := Lvl) V c).owesAt ι t.succ = (dat (Ix := Ix) (U := U) (Lvl := Lvl) V c).owesAt ι t.castSucc from rfl]
  rw [show (dat (Ix := Ix) (U := U) (Lvl := Lvl) V c).Φ t.succ = PhiS V c (t.val + 1) t.isLt from rfl, PhiS_succ, PhiS_castSucc]
  rw [leaves0, leaves1, leaves2, leaves3, leaves4, leaves5]
  have hN : t.val < 36 := lt_of_lt_of_eq t.isLt (show cfg15.N = 36 from N_15)
  by_cases h0 : t.val % 6 = 0
  · have h5 : ¬ t.val % 6 = 5 := by omega
    rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
    rw [accAt_first V c t h0]
    iintro ⟨HΦ, Ho, ⟨%d0, H0⟩, ⟨%d1, H1⟩, ⟨%d2, H2⟩, ⟨%d3, H3⟩, ⟨%d4, H4⟩, ⟨%d5, H5⟩, H6, H7⟩
    ihave HΦ' := (PhiS_any V c _ _) $$ HΦ
    icases HΦ' with ⟨HS, HR⟩
    iapply (kernelRunA (Ix := Ix) (U := U) (Lvl := Lvl) 𝒱₀ c (grid15.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
      ((hcond1 t).mpr h0) (fun h => h5 ((hcond2 t).mp h)) (iblk V c 0 t) (iblk V c 1 t) (iblk V c 2 t) Set.univ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h0 (by rw [e])
    rw [PhiS_pos V c _ _ hz, accAt_next V c t h0]
    by_cases h5 : t.val % 6 = 5
    · rw [show (dat (Ix := Ix) (U := U) (Lvl := Lvl) V c).leavesExact 6 t = owns (c : Thread nD τ) (ms6 t) fullShare ((dat (Ix := Ix) (U := U) (Lvl := Lvl) V c).after 6 t) from by
        unfold Dat.leavesExact; rw [live6 t h5], after6]
      rw [show (dat (Ix := Ix) (U := U) (Lvl := Lvl) V c).leavesExact 7 t = owns (c : Thread nD τ) (ms7 t) fullShare ((dat (Ix := Ix) (U := U) (Lvl := Lvl) V c).after 7 t) from by
        unfold Dat.leavesExact; rw [live7 t h5], after7]
      rw [accAt_next V c t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRunC (Ix := Ix) (U := U) (Lvl := Lvl) 𝒱₀ c (grid15.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) ((hcond2 t).mpr h5) (iblk V c 0 t) (iblk V c 1 t) (iblk V c 2 t) (iblk V c 3 t) (iblk V c 4 t) (iblk V c 5 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat (Ix := Ix) (U := U) (Lvl := Lvl) V c) 6 t (idle6 t h5) (noflush6 t h5), Dat.leavesExact_idle (dat (Ix := Ix) (U := U) (Lvl := Lvl) V c) 7 t (idle7 t h5) (noflush7 t h5)]
      iintro ⟨⟨HS, HR⟩, Ho, ⟨%d0, H0⟩, ⟨%d1, H1⟩, ⟨%d2, H2⟩, ⟨%d3, H3⟩, ⟨%d4, H4⟩, ⟨%d5, H5⟩, H6, H7⟩
      iapply (kernelRunB (Ix := Ix) (U := U) (Lvl := Lvl) 𝒱₀ c (grid15.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _)
        (fun h => h0 ((hcond1 t).mp h)) (fun h => h5 ((hcond2 t).mp h)) (iblk V c 0 t) (iblk V c 1 t) (iblk V c 2 t)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (ι : Ix) (𝒱₀ : Variants) (c : Dev nD) :
    Pipeline.BodyObligation (dat (Ix := Ix) (U := U) (Lvl := Lvl) V c) (defs₀ (F := F)) 𝒱₀ ι Set.univ := fun t => by
  rw [bigSep_W15, bigSep_W15]
  exact sound_body V ι 𝒱₀ c t

/-! ## The region over the thread state -/

/-- The prefetched tables' admissible contents: no call has a table. -/
abbrev adm : (p : Fin 17) → (pcfgs (F := F) p).Adm := fun p => (cfgs p).toPCfg_adm

/-- The seven distinct buffers behind the eight windows' arrays. -/
theorem arrRefs : Finset.univ.image (Pipeline.arrRef spec15)
    = [main_v147, main_v162_0, main_v148, main_v149, main_v42, main_v165_0, main_v165_1].toFinset := by decide

/-- A core's unscoped buffers at a valuation: those seven, each whole at the full share, and the rest. -/
theorem held_split (c : Dev nD) (W : Valuation τ sig (Elt F)) :
    (StableHlo.held (c : Thread nD τ) (Pipeline.ucRefs τ sig) W : sProp 𝕄)
      = iprop(iprop((((c : Thread nD τ).loc main_v147) ↦{fullShare} W main_v147) ∗ (((c : Thread nD τ).loc main_v162_0) ↦{fullShare} W main_v162_0)
          ∗ (((c : Thread nD τ).loc main_v148) ↦{fullShare} W main_v148) ∗ (((c : Thread nD τ).loc main_v149) ↦{fullShare} W main_v149)
          ∗ (((c : Thread nD τ).loc main_v42) ↦{fullShare} W main_v42) ∗ (((c : Thread nD τ).loc main_v165_0) ↦{fullShare} W main_v165_0)
          ∗ (((c : Thread nD τ).loc main_v165_1) ↦{fullShare} W main_v165_1))
        ∗ Pipeline.unscopedRest (Ix := Ix) (Name := ℕ) (U := U) (Lvl := Lvl) spec15 c (fun b => W b)) := by
  rw [← Pipeline.unscopedBufs_held c W, Pipeline.unscopedBufs_split₀ cfgs 15 winFacts₀15.arr_unscoped c (fun b => W b)] -- pipeline index
  show iprop(Pipeline.arrBufs spec15 c (fun b => W b) ∗ Pipeline.unscopedRest spec15 c (fun b => W b)) = _
  unfold Pipeline.arrBufs
  rw [bigSep_eq_bigSepL_of_eq _ arrRefs (by decide)]
  rfl

/-- The windows' arrays as the proof data holds them: the array two windows stage half by each, the others whole. -/
theorem arrays_eq (c : Dev nD) (Fw : (w : Fin cfg15.W) → Buf (Elt F) ((cfg15.win w).arr.view.loc (c : Thread nD τ))) :
    ((dat (Ix := Ix) (U := U) (Lvl := Lvl) V c).arrays Fw : sProp 𝕄)
      = iprop((((c : Thread nD τ).loc main_v147) ↦{fullShare} Fw 0) ∗ (((c : Thread nD τ).loc main_v162_0) ↦{fullShare} Fw 1)
          ∗ (((c : Thread nD τ).loc main_v148) ↦{fullShare.left} Fw 2) ∗ (((c : Thread nD τ).loc main_v148) ↦{fullShare.right} Fw 3)
          ∗ (((c : Thread nD τ).loc main_v149) ↦{fullShare} Fw 4) ∗ (((c : Thread nD τ).loc main_v42) ↦{fullShare} Fw 5)
          ∗ (((c : Thread nD τ).loc main_v165_0) ↦{fullShare} Fw 6) ∗ (((c : Thread nD τ).loc main_v165_1) ↦{fullShare} Fw 7)) := by
  unfold Dat.arrays
  rw [bigSep_congr fun w _ => show (((cfg15.win w).arr.view.loc (c : Thread nD τ) ↦[(cfg15.win w).arr.view.set]{(dat (Ix := Ix) (U := U) (Lvl := Lvl) V c).share w} Fw w : sProp 𝕄))
      = (((c : Thread nD τ).loc (Pipeline.arrRef spec15 w)) ↦{(dat (Ix := Ix) (U := U) (Lvl := Lvl) V c).share w} Fw w) from by rw [(arr_whole15 w).set_eq_univ],
    bigSep_W15]
  rfl

/-- The unscoped buffers no window stages are the same at two valuations that differ only at the two results. -/
theorem rest_congr (c : Dev nD) (hne : ∀ (b : Ref sig .tc), b ≠ main_v165_0 → b ≠ main_v165_1 → Vp c b = V c b) :
    (Pipeline.unscopedRest (Ix := Ix) (Name := ℕ) (U := U) (Lvl := Lvl) spec15 c (fun b => Vp c b) : sProp 𝕄)
      = Pipeline.unscopedRest spec15 c (fun b => V c b) := by
  unfold Pipeline.unscopedRest
  refine bigSep_congr fun b hb => ?_
  have hb' := (Finset.mem_sdiff.mp hb).2
  rw [arrRefs] at hb'
  dsimp only
  rw [hne b (fun e => by subst e; exact hb' (by decide)) (fun e => by subst e; exact hb' (by decide))]

/-- ENTRY: the windows' arrays out of the unscoped buffers, the array two windows stage split half and half. -/
theorem hentry13 (ι : Ix) (L : GSem nD τ sig → Finset Ix) (lv : GSem nD τ sig → Ix → Lvl) (c : Dev nD) :
    iprop(iprop(StableHlo.held (c : Thread nD τ) (Pipeline.ucRefs τ sig) (V c) ∗ iprop(∃ W, owes (c : Thread nD τ) (0 : CellTallies nD τ sig Ix) W))
        ∗ Pipeline.ownSems0 (Ix := Ix) (Name := ℕ) (U := U) (Lvl := Lvl) (Val := Elt F) (τ := τ) (fun k : PEmpty => k.elim) c ∗ levAts L lv)
      ⊢ (|={Set.univ}=> iprop((dat (Ix := Ix) (U := U) (Lvl := Lvl) V c).arrays ((dat (Ix := Ix) (U := U) (Lvl := Lvl) V c).arrAt · 0)
          ∗ Pipeline.prefHeld (pcfgs (F := F) 15).pre c (fun _ => fullShare) (adm 15).1 -- pipeline index
          ∗ (dat (Ix := Ix) (U := U) (Lvl := Lvl) V c).owesAt ι 0 ∗ BI.emp ∗ Pipeline.unscopedRest (Ix := Ix) (Name := ℕ) (U := U) (Lvl := Lvl) spec15 c (fun b => V c b)) : sProp 𝕄) := by
  rw [held_split, arrays_eq]
  iintro ⟨⟨⟨⟨H147, H158, H148, H149, H42, H0, H1⟩, HZ⟩, HO⟩, -, -⟩
  ihave H148' := (pointsTo_share (PosShare.mem_left_op_right fullShare)).1 $$ H148
  icases H148' with ⟨H148l, H148r⟩
  imodintro
  isplitl [H147 H158 H148l H148r H149 H42 H0 H1]
  · isplitl [H147]; · iexact H147
    isplitl [H158]; · iexact H158
    isplitl [H148l]; · iexact H148l
    isplitl [H148r]; · iexact H148r
    isplitl [H149]; · iexact H149
    isplitl [H42]; · iexact H42
    isplitl [H0]; · iexact H0
    iexact H1
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact HZ

/-- The invariant at the first point is the scoped buffers the pipeline does not stage. -/
theorem hin13 (c : Dev nD) :
    iprop(BI.emp ∗ Pipeline.prefHeld (pcfgs (F := F) 15).pre c (fun _ => fullShare) (adm 15).1 -- pipeline index
        ∗ Pipeline.scopedRest (Ix := Ix) (Name := ℕ) (U := U) (Lvl := Lvl) (Val := Elt F) spec15 c) ⊢ ((dat (Ix := Ix) (U := U) (Lvl := Lvl) V c).Φ 0 : sProp 𝕄) := by
  rw [show (dat (Ix := Ix) (U := U) (Lvl := Lvl) V c).Φ 0 = PhiS V c 0 (Nat.zero_le _) from rfl, PhiS_zero V c 0 _ rfl]
  iintro ⟨-, -, HR⟩; iexact HR

/-- The invariant at the last point gives them back, the accumulator's contents forgotten. -/
theorem hout13 (c : Dev nD) :
    ((dat (Ix := Ix) (U := U) (Lvl := Lvl) V c).Φ (Fin.last cfg15.N) : sProp 𝕄)
      ⊢ iprop(BI.emp ∗ Pipeline.ownSems0 (Ix := Ix) (Name := ℕ) (U := U) (Lvl := Lvl) (Val := Elt F) (τ := τ) (fun k : PEmpty => k.elim) c
          ∗ Pipeline.scopedRest (Ix := Ix) (Name := ℕ) (U := U) (Lvl := Lvl) (Val := Elt F) spec15 c) := by
  rw [Pipeline.ownSems0_none nD τ sig (Elt F) Ix ℕ U Lvl c,
    show (dat (Ix := Ix) (U := U) (Lvl := Lvl) V c).Φ (Fin.last cfg15.N) = PhiS V c cfg15.N (Nat.le_refl _) from rfl]
  iintro HΦ
  ihave HΦ' := (PhiS_any V c _ _) $$ HΦ
  icases HΦ' with ⟨⟨%d, HS⟩, HR⟩
  isplitr; · iempintro
  isplitr; · iempintro
  rw [scopedRest15_split]
  isplitl [HS]
  · iexists d
    iapply (Entails.of_eq (owns_whole (c : Thread nD τ) cc15_scratch0 fullShare d))
    iexact HS
  iexact HR

/-- EXIT: the halves of the shared array rejoined, the two results at what the proof data computes, every other
    buffer as it was: the unscoped buffers at the exit valuation. -/
theorem hexit13 (ι : Ix) (c : Dev nD)
    (hout6 : Vp c main_v165_0 = (dat (Ix := Ix) (U := U) (Lvl := Lvl) V c).arrAt 6 cfg15.N)
    (hout7 : Vp c main_v165_1 = (dat (Ix := Ix) (U := U) (Lvl := Lvl) V c).arrAt 7 cfg15.N)
    (hne : ∀ (b : Ref sig .tc), b ≠ main_v165_0 → b ≠ main_v165_1 → Vp c b = V c b) :
    iprop((dat (Ix := Ix) (U := U) (Lvl := Lvl) V c).arrays ((dat (Ix := Ix) (U := U) (Lvl := Lvl) V c).arrAt · cfg15.N) ∗ (dat (Ix := Ix) (U := U) (Lvl := Lvl) V c).owesAt ι (Fin.last cfg15.N)
        ∗ BI.emp ∗ Pipeline.unscopedRest (Ix := Ix) (Name := ℕ) (U := U) (Lvl := Lvl) spec15 c (fun b => V c b))
      ⊢ (|={Set.univ}=> iprop(StableHlo.held (c : Thread nD τ) (Pipeline.ucRefs τ sig) (Vp c) ∗ iprop(∃ W, owes (c : Thread nD τ) (0 : CellTallies nD τ sig Ix) W)) : sProp 𝕄) := by
  rw [held_split, arrays_eq, rest_congr V Vp c hne]
  have e0 := (dat (Ix := Ix) (U := U) (Lvl := Lvl) V c).arrAt_in 0 rfl cfg15.N
  have e1 := (dat (Ix := Ix) (U := U) (Lvl := Lvl) V c).arrAt_in 1 rfl cfg15.N
  have e2 := (dat (Ix := Ix) (U := U) (Lvl := Lvl) V c).arrAt_in 2 rfl cfg15.N
  have e3 := (dat (Ix := Ix) (U := U) (Lvl := Lvl) V c).arrAt_in 3 rfl cfg15.N
  have e4 := (dat (Ix := Ix) (U := U) (Lvl := Lvl) V c).arrAt_in 4 rfl cfg15.N
  have e5 := (dat (Ix := Ix) (U := U) (Lvl := Lvl) V c).arrAt_in 5 rfl cfg15.N
  rw [A_eq] at e0 e1 e2 e3 e4 e5
  rw [e0, e1, e2, e3, e4, e5, ← hout6, ← hout7,
    hne main_v147 (by decide) (by decide), hne main_v162_0 (by decide) (by decide), hne main_v148 (by decide) (by decide),
    hne main_v149 (by decide) (by decide), hne main_v42 (by decide) (by decide)]
  iintro ⟨⟨H147, H158, H148l, H148r, H149, H42, H0, H1⟩, HO, -, HZ⟩
  ihave H148 := (pointsTo_share (PosShare.mem_left_op_right fullShare)).2 $$ [H148l H148r]
  · isplitl [H148l]; · iexact H148l
    iexact H148r
  imodintro
  isplitr [HO]
  · isplitr [HZ]
    · isplitl [H147]; · iexact H147
      isplitl [H158]; · iexact H158
      isplitl [H148]; · iexact H148
      isplitl [H149]; · iexact H149
      isplitl [H42]; · iexact H42
      isplitl [H0]; · iexact H0
      iexact H1
    iexact HZ
  · unfold Pipeline.Dat.owesAt Pipeline.owesWithin
    icases HO with ⟨%W, -, HO⟩; iexists W; iexact HO

set_option backward.isDefEq.respectTransparency.types false in
/-- THE REGION: entered from every unscoped buffer at `V c` — the eight windows' arrays into the pipeline, the array two
    windows stage split half and half between them, every other unscoped buffer bypassing —, left with the two results
    at what the proof data computes and every other buffer as it was. -/
def reg (ι : Ix) (𝒱₀ : Variants) (L : GSem nD τ sig → Finset Ix) (lv : GSem nD τ sig → Ix → Lvl)
    (pd : (p : Fin 17) → (c : Dev nD) → Pipeline.Dat τ (Elt F) Ix ℕ U Lvl (Pipeline.pin (pcfgs (F := F)) adm p) c)
    (hpd : ∀ c, pd 15 c = dat V c) -- pipeline index
    (hout6 : ∀ c, Vp c main_v165_0 = (dat (Ix := Ix) (U := U) (Lvl := Lvl) V c).arrAt 6 cfg15.N)
    (hout7 : ∀ c, Vp c main_v165_1 = (dat (Ix := Ix) (U := U) (Lvl := Lvl) V c).arrAt 7 cfg15.N)
    (hne : ∀ c (b : Ref sig .tc), b ≠ main_v165_0 → b ≠ main_v165_1 → Vp c b = V c b) :
    Pipeline.RegionSeg (pcfgs (F := F)) adm pd ι defs₀ 𝒱₀ L lv 15 where -- pipeline index
  win := winFacts₀15
  block_pos := block_pos15
  stage_whole := stage_whole15
  K := PEmpty
  osem := fun k => k.elim
  ho := Pipeline.OwnSemFacts.none _
  hbody c := by rw [hpd c]; exact (body_obligation V ι 𝒱₀ c).loose
  hwaits := Pipeline.hwaits_of_owed_zero _ _ _ _ L lv 15 fun c _ => by rw [hpd c]; rfl -- pipeline index
  pre c := iprop(StableHlo.held (c : Thread nD τ) (Pipeline.ucRefs τ sig) (V c) ∗ iprop(∃ W, owes (c : Thread nD τ) (0 : CellTallies nD τ sig Ix) W))
  post c := iprop(StableHlo.held (c : Thread nD τ) (Pipeline.ucRefs τ sig) (Vp c) ∗ iprop(∃ W, owes (c : Thread nD τ) (0 : CellTallies nD τ sig Ix) W))
  X _ := (BI.emp : sProp 𝕄)
  Y _ := (BI.emp : sProp 𝕄)
  Z c := Pipeline.unscopedRest (Ix := Ix) (Name := ℕ) (U := U) (Lvl := Lvl) spec15 c (fun b => V c b)
  hentry c := by rw [hpd c]; exact hentry13 V ι L lv c
  hin c := by rw [hpd c]; exact hin13 V c
  hout c := by rw [hpd c]; exact hout13 V c
  hexit c := by rw [hpd c]; exact hexit13 V Vp ι c (hout6 c) (hout7 c) (hne c)

end Cert.KernelIdeal.Region15

end
-- ==== Proof.KI.Region16.lean ====
/-
  Region 16 of @main: the decoder kernel on a grid of 8 points. Each point loads a block of 2048 rows of the
  features (window 0) and the whole of four weight matrices and four bias rows (windows 1 to 8, resident: fetched
  at the first point only), applies three affine layers each followed by tanh and a last affine layer, and stores
  the 2048 results into its block of the output column (window 9, written back at every point). The kernel has no
  scratch buffer, no semaphore of its own and no branch.

  This file gives, for any float interpretation: what every window's staging buffer holds after the body at a
  point (an input's: its block of the array as the region finds it; the output's: the payload applied to the nine
  input blocks), the body's triple, the body obligation at a generic point, and the region as a segment between two
  valuations of the unscoped buffers.
-/
import proofs.«414035_j83562883711810_2_alg».proof.Proof.Gen.KernelIdeal.Launch
import proofs.«414035_j83562883711810_2_alg».proof.Proof.Gen.KernelIdeal.Skeleton
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Tactic

set_option maxRecDepth 16384

noncomputable section

namespace Cert.KernelIdeal.Region16

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

variable (V Vp : Dev nD → Valuation τ sig (Elt F))

/-! ## The windows' blocks and what the body leaves -/

/-- Window `w`'s block at point `t`, read off its array as the region finds it. -/
def iblk (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- What the body stores into the output's staging buffer at point `t`: the four layers applied to the feature
    block, the weights and the biases. -/
def out16 (c : Dev nD) (t : Fin cfg16.N) : Vec F S2048x1 .f32 :=
  k16_pay1 (iblk V c 0 t) (iblk V c 1 t) (iblk V c 2 t) (iblk V c 3 t) (iblk V c 4 t) (iblk V c 5 t) (iblk V c 6 t)
    (iblk V c 7 t) (iblk V c 8 t)

/-- The proof data on core `c`: the arrays as the region finds them; after the body each input's buffer at its
    block and the output's at `out16`; the invariant the scoped buffers no window stages; nothing owed; full shares. -/
def dat (c : Dev nD) : Dat τ (Elt F) Ix ℕ U Lvl cfg16 c where
  A w := V c (Pipeline.arrRef spec16 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out16 V c t
  Φ _ := Pipeline.scopedRest (Ix := Ix) (Name := ℕ) (U := U) (Lvl := Lvl) (Val := Elt F) spec16 c
  q _ := fullShare
  owed _ := 0

theorem A_eq (c : Dev nD) (w : Fin cfg16.W) : (dat (Ix := Ix) (U := U) (Lvl := Lvl) V c).A w = V c (Pipeline.arrRef spec16 w) := by
  dsimp only [dat]

theorem after_0 (c : Dev nD) (t : Fin cfg16.N) : (dat (Ix := Ix) (U := U) (Lvl := Lvl) V c).after 0 t = iblk V c 0 t := by dsimp only [dat]
theorem after_1 (c : Dev nD) (t : Fin cfg16.N) : (dat (Ix := Ix) (U := U) (Lvl := Lvl) V c).after 1 t = iblk V c 1 t := by dsimp only [dat]
theorem after_2 (c : Dev nD) (t : Fin cfg16.N) : (dat (Ix := Ix) (U := U) (Lvl := Lvl) V c).after 2 t = iblk V c 2 t := by dsimp only [dat]
theorem after_3 (c : Dev nD) (t : Fin cfg16.N) : (dat (Ix := Ix) (U := U) (Lvl := Lvl) V c).after 3 t = iblk V c 3 t := by dsimp only [dat]
theorem after_4 (c : Dev nD) (t : Fin cfg16.N) : (dat (Ix := Ix) (U := U) (Lvl := Lvl) V c).after 4 t = iblk V c 4 t := by dsimp only [dat]
theorem after_5 (c : Dev nD) (t : Fin cfg16.N) : (dat (Ix := Ix) (U := U) (Lvl := Lvl) V c).after 5 t = iblk V c 5 t := by dsimp only [dat]
theorem after_6 (c : Dev nD) (t : Fin cfg16.N) : (dat (Ix := Ix) (U := U) (Lvl := Lvl) V c).after 6 t = iblk V c 6 t := by dsimp only [dat]
theorem after_7 (c : Dev nD) (t : Fin cfg16.N) : (dat (Ix := Ix) (U := U) (Lvl := Lvl) V c).after 7 t = iblk V c 7 t := by dsimp only [dat]
theorem after_8 (c : Dev nD) (t : Fin cfg16.N) : (dat (Ix := Ix) (U := U) (Lvl := Lvl) V c).after 8 t = iblk V c 8 t := by dsimp only [dat]
theorem after_9 (c : Dev nD) (t : Fin cfg16.N) : (dat (Ix := Ix) (U := U) (Lvl := Lvl) V c).after 9 t = out16 V c t := by dsimp only [dat]

/-- An input window's staging buffer holds its block when the body runs, fetched at that point or not: a window
    not fetched has not moved, and the body left its block in place (one statement per window: the block's type
    is computed from the literal window). -/
theorem before_0 (c : Dev nD) (t : Fin cfg16.N) (d) : (dat (Ix := Ix) (U := U) (Lvl := Lvl) V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg16.N) (d) : (dat (Ix := Ix) (U := U) (Lvl := Lvl) V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg16.N) (d) : (dat (Ix := Ix) (U := U) (Lvl := Lvl) V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg16.N) (d) : (dat (Ix := Ix) (U := U) (Lvl := Lvl) V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg16.N) (d) : (dat (Ix := Ix) (U := U) (Lvl := Lvl) V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg16.N) (d) : (dat (Ix := Ix) (U := U) (Lvl := Lvl) V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg16.N) (d) : (dat (Ix := Ix) (U := U) (Lvl := Lvl) V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg16.N) (d) : (dat (Ix := Ix) (U := U) (Lvl := Lvl) V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg16.N) (d) : (dat (Ix := Ix) (U := U) (Lvl := Lvl) V c).before 8 t d = iblk V c 8 t :=
  ((dat V c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! ## The body's triple -/

/-- The zero offsets of a whole-buffer rectangle, spelt as a function. -/
theorem off00 : (![0, 0] : Fin 2 → Nat) = fun _ => 0 := by funext a; fin_cases a <;> rfl

/-- What the body's one store leaves in the output's staging buffer, as the run states it: the payload of the nine
    loads, each through its buffer's whole rectangle, laid over the buffer through its whole rectangle. -/
def outRaw (x0 : Vec F S2048x256 .bf16) (x1 : Vec F S256x128 .bf16) (x2 : Vec F S1x128 .f32) (x3 : Vec F S128x64 .bf16) (x4 : Vec F S1x64 .f32) (x5 : Vec F S64x32 .bf16) (x6 : Vec F S1x32 .f32) (x7 : Vec F S32x1 .bf16) (x8 : Vec F S1x1 .f32) : Vec F S2048x1 .f32 :=
  View.canon [⟨Rect.unit (s := S2048x1) ![0, 0] S2048x1.size inb_S2048x1_S2048x1_0_0, k16_pay1
      (View.ld x0 (Rect.unit (s := S2048x256) ![0, 0] S2048x256.size inb_S2048x256_S2048x256_0_0))
      (View.ld x1 (Rect.unit (s := S256x128) ![0, 0] S256x128.size inb_S256x128_S256x128_0_0))
      (View.ld x2 (Rect.unit (s := S1x128) ![0, 0] S1x128.size inb_S1x128_S1x128_0_0))
      (View.ld x3 (Rect.unit (s := S128x64) ![0, 0] S128x64.size inb_S128x64_S128x64_0_0))
      (View.ld x4 (Rect.unit (s := S1x64) ![0, 0] S1x64.size inb_S1x64_S1x64_0_0))
      (View.ld x5 (Rect.unit (s := S64x32) ![0, 0] S64x32.size inb_S64x32_S64x32_0_0))
      (View.ld x6 (Rect.unit (s := S1x32) ![0, 0] S1x32.size inb_S1x32_S1x32_0_0))
      (View.ld x7 (Rect.unit (s := S32x1) ![0, 0] S32x1.size inb_S32x1_S32x1_0_0))
      (View.ld x8 (Rect.unit (s := S1x1) ![0, 0] S1x1.size inb_S1x1_S1x1_0_0))⟩]

/-- The store covers the buffer. -/
theorem cover_out (p : Vec F S2048x1 .f32) (y : S2048x1.Idx) :
    ∃ pc ∈ ([⟨Rect.unit (s := S2048x1) ![0, 0] S2048x1.size inb_S2048x1_S2048x1_0_0, p⟩] : List (View.Piece (Elt F) S2048x1 .f32)), y ∈ pc.1.set :=
  ⟨_, List.mem_singleton_self _, View.mem_set_unit_zero (S := S2048x1) off00 inb_S2048x1_S2048x1_0_0 y⟩

/-- Whole-rectangle loads read the contents and the one whole-rectangle store leaves its payload. -/
theorem outRaw_eq (x0 : Vec F S2048x256 .bf16) (x1 : Vec F S256x128 .bf16) (x2 : Vec F S1x128 .f32) (x3 : Vec F S128x64 .bf16) (x4 : Vec F S1x64 .f32) (x5 : Vec F S64x32 .bf16) (x6 : Vec F S1x32 .f32) (x7 : Vec F S32x1 .bf16) (x8 : Vec F S1x1 .f32) :
    outRaw x0 x1 x2 x3 x4 x5 x6 x7 x8 = k16_pay1 x0 x1 x2 x3 x4 x5 x6 x7 x8 := by
  unfold outRaw
  rw [View.canon_unit_zero (S := S2048x1) off00]
  simp only [View.ld_unit_zero (S := S2048x256) off00, View.ld_unit_zero (S := S256x128) off00, View.ld_unit_zero (S := S1x128) off00, View.ld_unit_zero (S := S128x64) off00, View.ld_unit_zero (S := S1x64) off00, View.ld_unit_zero (S := S64x32) off00, View.ld_unit_zero (S := S1x32) off00, View.ld_unit_zero (S := S32x1) off00, View.ld_unit_zero (S := S1x1) off00]

set_option maxHeartbeats 1000000 in
/-- The kernel body on whole staging memrefs, the inputs' at read contents `x0 … x8` and the output's at anything,
    runs to the continuation holding the inputs' as they were and the output's at `outRaw` of the inputs: nine
    loads, one load of the output buffer whose value is dropped, one store covering the output buffer. -/
theorem kernel_run (c : Dev nD) (𝒱₀ : Variants) (E : Set ℕ) (i : grid16.Coords) (arg1 : Memref sig .tc .vmem S2048x256 .bf16) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x64 .bf16) (harg4 : arg4.IsWhole) (arg5 : Memref sig .tc .vmem S1x64 .f32) (harg5 : arg5.IsWhole) (arg6 : Memref sig .tc .vmem S64x32 .bf16) (harg6 : arg6.IsWhole) (arg7 : Memref sig .tc .vmem S1x32 .f32) (harg7 : arg7.IsWhole) (arg8 : Memref sig .tc .vmem S32x1 .bf16) (harg8 : arg8.IsWhole) (arg9 : Memref sig .tc .vmem S1x1 .f32) (harg9 : arg9.IsWhole) (arg10 : Memref sig .tc .vmem S2048x1 .f32) (harg10 : arg10.IsWhole)
    (x0 : Vec F S2048x256 .bf16) (x1 : Vec F S256x128 .bf16) (x2 : Vec F S1x128 .f32) (x3 : Vec F S128x64 .bf16) (x4 : Vec F S1x64 .f32) (x5 : Vec F S64x32 .bf16) (x6 : Vec F S1x32 .f32) (x7 : Vec F S32x1 .bf16) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outRaw x0 x1 x2 x3 x4 x5 x6 x7 x8)) -∗ K ⟨⟩))
      ⊢ wp frame (wpE (defs₀ (F := F)) 𝒱₀ c none) E (cc16__decode_kernel i arg1 harg1 arg2 harg2 arg3 harg3 arg4 harg4 arg5 harg5 arg6 harg6 arg7 harg7 arg8 harg8 arg9 harg9 arg10 harg10) K := by
  simp only [cc16__decode_kernel_eq_skeleton]; unfold cc16__decode_kernel_skel
  simp only [k16_part1_eq_skeleton]; unfold k16_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _)

/-- The output's contents after the body, in the form the run states them. -/
theorem out16_raw (c : Dev nD) (t : Fin cfg16.N) :
    out16 V c t = outRaw (iblk V c 0 t) (iblk V c 1 t) (iblk V c 2 t) (iblk V c 3 t) (iblk V c 4 t) (iblk V c 5 t) (iblk V c 6 t)
      (iblk V c 7 t) (iblk V c 8 t) :=
  (outRaw_eq _ _ _ _ _ _ _ _ _).symm

/-! ## The body obligation, at a generic point -/

/-- What the body is handed at point `t`: the invariant, the core's dues, and every window's current staging buffer
    at what it then holds. -/
def bodyPre (ι : Ix) (c : Dev nD) (t : Fin cfg16.N) : sProp 𝕄 :=
  iprop((dat (Ix := Ix) (U := U) (Lvl := Lvl) V c).Φ t.castSucc ∗ (dat (Ix := Ix) (U := U) (Lvl := Lvl) V c).owesAt ι t.castSucc
    ∗ (∃ d, owns (c : Thread nD τ) (st16_0 t) fullShare ((dat (Ix := Ix) (U := U) (Lvl := Lvl) V c).before 0 t d))
    ∗ (∃ d, owns (c : Thread nD τ) (st16_1 t) fullShare ((dat (Ix := Ix) (U := U) (Lvl := Lvl) V c).before 1 t d))
    ∗ (∃ d, owns (c : Thread nD τ) (st16_2 t) fullShare ((dat (Ix := Ix) (U := U) (Lvl := Lvl) V c).before 2 t d))
    ∗ (∃ d, owns (c : Thread nD τ) (st16_3 t) fullShare ((dat (Ix := Ix) (U := U) (Lvl := Lvl) V c).before 3 t d))
    ∗ (∃ d, owns (c : Thread nD τ) (st16_4 t) fullShare ((dat (Ix := Ix) (U := U) (Lvl := Lvl) V c).before 4 t d))
    ∗ (∃ d, owns (c : Thread nD τ) (st16_5 t) fullShare ((dat (Ix := Ix) (U := U) (Lvl := Lvl) V c).before 5 t d))
    ∗ (∃ d, owns (c : Thread nD τ) (st16_6 t) fullShare ((dat (Ix := Ix) (U := U) (Lvl := Lvl) V c).before 6 t d))
    ∗ (∃ d, owns (c : Thread nD τ) (st16_7 t) fullShare ((dat (Ix := Ix) (U := U) (Lvl := Lvl) V c).before 7 t d))
    ∗ (∃ d, owns (c : Thread nD τ) (st16_8 t) fullShare ((dat (Ix := Ix) (U := U) (Lvl := Lvl) V c).before 8 t d))
    ∗ (∃ d, owns (c : Thread nD τ) (st16_9 t) fullShare ((dat (Ix := Ix) (U := U) (Lvl := Lvl) V c).before 9 t d)))

/-- What it hands back: the same, every buffer at what the proof data says the body leaves. -/
def bodyPost (ι : Ix) (c : Dev nD) (t : Fin cfg16.N) : sProp 𝕄 :=
  iprop((dat (Ix := Ix) (U := U) (Lvl := Lvl) V c).Φ t.succ ∗ (dat (Ix := Ix) (U := U) (Lvl := Lvl) V c).owesAt ι t.succ
    ∗ owns (c : Thread nD τ) (st16_0 t) fullShare ((dat (Ix := Ix) (U := U) (Lvl := Lvl) V c).after 0 t)
    ∗ owns (c : Thread nD τ) (st16_1 t) fullShare ((dat (Ix := Ix) (U := U) (Lvl := Lvl) V c).after 1 t)
    ∗ owns (c : Thread nD τ) (st16_2 t) fullShare ((dat (Ix := Ix) (U := U) (Lvl := Lvl) V c).after 2 t)
    ∗ owns (c : Thread nD τ) (st16_3 t) fullShare ((dat (Ix := Ix) (U := U) (Lvl := Lvl) V c).after 3 t)
    ∗ owns (c : Thread nD τ) (st16_4 t) fullShare ((dat (Ix := Ix) (U := U) (Lvl := Lvl) V c).after 4 t)
    ∗ owns (c : Thread nD τ) (st16_5 t) fullShare ((dat (Ix := Ix) (U := U) (Lvl := Lvl) V c).after 5 t)
    ∗ owns (c : Thread nD τ) (st16_6 t) fullShare ((dat (Ix := Ix) (U := U) (Lvl := Lvl) V c).after 6 t)
    ∗ owns (c : Thread nD τ) (st16_7 t) fullShare ((dat (Ix := Ix) (U := U) (Lvl := Lvl) V c).after 7 t)
    ∗ owns (c : Thread nD τ) (st16_8 t) fullShare ((dat (Ix := Ix) (U := U) (Lvl := Lvl) V c).after 8 t)
    ∗ owns (c : Thread nD τ) (st16_9 t) fullShare ((dat (Ix := Ix) (U := U) (Lvl := Lvl) V c).after 9 t))

/-- The body at any point: the nine inputs' buffers hold their blocks, so the body's triple applies at them; the
    invariant and the dues pass through untouched. -/
theorem body_at (ι : Ix) (𝒱₀ : Variants) (c : Dev nD) (t : Fin cfg16.N) :
    (bodyPre (U := U) (Lvl := Lvl) V ι c t : sProp 𝕄)
      ⊢ wp frame (wpE (defs₀ (F := F)) 𝒱₀ c none) Set.univ (bodyAt16 t) (fun _ => bodyPost (U := U) (Lvl := Lvl) V ι c t) := by
  unfold bodyPre bodyPost bodyAt16
  simp only [before_0, before_1, before_2, before_3, before_4, before_5, before_6, before_7, before_8]
  rw [show (dat (Ix := Ix) (U := U) (Lvl := Lvl) V c).Φ t.succ = (dat (Ix := Ix) (U := U) (Lvl := Lvl) V c).Φ t.castSucc from rfl,
    show (dat (Ix := Ix) (U := U) (Lvl := Lvl) V c).owesAt ι t.succ = (dat (Ix := Ix) (U := U) (Lvl := Lvl) V c).owesAt ι t.castSucc from rfl,
    after_0, after_1, after_2, after_3, after_4, after_5, after_6, after_7, after_8, after_9, out16_raw]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernel_run c 𝒱₀ Set.univ (grid16.coords t) _ _ _ _ _ _ _ _ _ _ _ _ _ _ _ _ _ _ _ _
    (iblk V c 0 t) (iblk V c 1 t) (iblk V c 2 t) (iblk V c 3 t) (iblk V c 4 t) (iblk V c 5 t) (iblk V c 6 t) (iblk V c 7 t) (iblk V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (ι : Ix) (𝒱₀ : Variants) (c : Dev nD) :
    BodyObligation (dat (Ix := Ix) (U := U) (Lvl := Lvl) V c) (defs₀ (F := F)) 𝒱₀ ι Set.univ := fun t => by
  rw [bigSep_W16, bigSep_W16]
  exact body_at (U := U) (Lvl := Lvl) V ι 𝒱₀ c t

end Cert.KernelIdeal.Region16

end
-- ==== Proof.KI.Region16RegOf.lean ====
/-
  Region 16 of @main as a segment between two valuations of the core's unscoped buffers: entered holding every
  unscoped buffer at `V c`, left holding them at `Vp c`, which has the output column at what the write-backs left and
  every other buffer as it was. Stated for ANY proof data of the pipeline whose arrays are read off `V`, that holds
  its inputs at the full share, owes nothing, keeps as its invariant the scoped buffers no window stages, and satisfies
  the body obligation: the ten windows' arrays go into the pipeline, every other unscoped buffer passes by, the kernel
  has no semaphore of its own.
-/
import proofs.«414035_j83562883711810_2_alg».proof.Proof.Gen.KernelIdeal.Launch
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Region16

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {Ix : Type} [DecidableEq Ix] {U : Type} [URA U] {Lvl : Type} [Preorder Lvl]

local notation "𝕄" => MT nD τ sig Ix (Elt F) ℕ U Lvl

variable (V Vp : Dev nD → Valuation τ sig (Elt F))

/-- Two references with different indices are different. -/
theorem ref_ne {a b : Ref sig .tc} (h : a.idx.val ≠ b.idx.val) : a ≠ b := fun e => h (congrArg (fun r => r.idx.val) e)

set_option maxHeartbeats 1600000 in
/-- Every window's array after the region, read off the valuation at its exit: an input's is never written and is no
    other buffer than it was; the output's is what the write-backs left. -/
theorem arrAt_final_of (D : (c : Dev nD) → Dat τ (Elt F) Ix ℕ U Lvl cfg16 c)
    (hA : ∀ c w, (D c).A w = V c (Pipeline.arrRef spec16 w)) (c : Dev nD)
    (hout : ∀ c, Vp c main_v184 = (D c).arrAt 9 cfg16.N)
    (hne : ∀ c (b : Ref sig .tc), b ≠ main_v184 → Vp c b = V c b) :
    ∀ w : Fin cfg16.W, (D c).arrAt w cfg16.N = Vp c (Pipeline.arrRef spec16 w)
  | ⟨0, _⟩ => ((D c).arrAt_in 0 rfl _).trans ((hA c 0).trans (hne c _ (ref_ne (by decide))).symm)
  | ⟨1, _⟩ => ((D c).arrAt_in 1 rfl _).trans ((hA c 1).trans (hne c _ (ref_ne (by decide))).symm)
  | ⟨2, _⟩ => ((D c).arrAt_in 2 rfl _).trans ((hA c 2).trans (hne c _ (ref_ne (by decide))).symm)
  | ⟨3, _⟩ => ((D c).arrAt_in 3 rfl _).trans ((hA c 3).trans (hne c _ (ref_ne (by decide))).symm)
  | ⟨4, _⟩ => ((D c).arrAt_in 4 rfl _).trans ((hA c 4).trans (hne c _ (ref_ne (by decide))).symm)
  | ⟨5, _⟩ => ((D c).arrAt_in 5 rfl _).trans ((hA c 5).trans (hne c _ (ref_ne (by decide))).symm)
  | ⟨6, _⟩ => ((D c).arrAt_in 6 rfl _).trans ((hA c 6).trans (hne c _ (ref_ne (by decide))).symm)
  | ⟨7, _⟩ => ((D c).arrAt_in 7 rfl _).trans ((hA c 7).trans (hne c _ (ref_ne (by decide))).symm)
  | ⟨8, _⟩ => ((D c).arrAt_in 8 rfl _).trans ((hA c 8).trans (hne c _ (ref_ne (by decide))).symm)
  | ⟨9, _⟩ => (hout c).symm

/-- The prefetched tables' admissible contents: no pallas_call has a table. -/
abbrev adm : (p : Fin 17) → (pcfgs (F := F) p).Adm := fun p => (cfgs p).toPCfg_adm

-- the layout facts are stated over `cfgs p` and used at the pinned configuration, which is the same term only after
-- unfolding plain definitions in a metavariable's type
set_option maxHeartbeats 1600000 in
set_option backward.isDefEq.respectTransparency.types false in
set_option maxRecDepth 65536 in
/-- THE REGION, for any such proof data `D`. -/
def regOf (D : (c : Dev nD) → Dat τ (Elt F) Ix ℕ U Lvl cfg16 c)
    (hA : ∀ c w, (D c).A w = V c (Pipeline.arrRef spec16 w)) (hq : ∀ c w, (D c).q w = fullShare)
    (howed : ∀ c t, (D c).owed t = 0) (hrec : ∀ c t, (D c).recorded t = Set.univ)
    (hΦ : ∀ c t, (D c).Φ t = Pipeline.scopedRest (Ix := Ix) (Name := ℕ) (U := U) (Lvl := Lvl) (Val := Elt F) spec16 c)
    (ι : Ix) (𝒱₀ : Variants) (hbody : ∀ c, BodyObligation (D c) (defs₀ (F := F)) 𝒱₀ ι Set.univ)
    (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 16 c = D c)
    (hout : ∀ c, Vp c main_v184 = (D c).arrAt 9 cfg16.N)
    (hne : ∀ c (b : Ref sig .tc), b ≠ main_v184 → Vp c b = V c b) :
    Pipeline.RegionSeg (pcfgs (F := F)) adm pd ι defs₀ 𝒱₀ L lv 16 where
  win := launch16.win.to₀
  block_pos := launch16.block_pos
  stage_whole := launch16.stage_whole
  K := PEmpty
  osem := fun k => k.elim
  ho := Pipeline.OwnSemFacts.none _
  hbody c := by rw [hpd]; exact (hbody c).loose
  hwaits := Pipeline.hwaits_of_owed_zero _ _ _ _ L lv 16 fun c t => by rw [hpd]; exact howed c t
  pre c := iprop(StableHlo.held (c : Thread nD τ) (Pipeline.ucRefs τ sig) (V c) ∗ ∃ W, owes (c : Thread nD τ) (0 : CellTallies nD τ sig Ix) W)
  post c := iprop(StableHlo.held (c : Thread nD τ) (Pipeline.ucRefs τ sig) (Vp c) ∗ ∃ W, owes (c : Thread nD τ) (0 : CellTallies nD τ sig Ix) W)
  X _ := iprop(emp)
  Y _ := iprop(emp)
  Z c := Pipeline.unscopedRest (Ix := Ix) (Name := ℕ) (U := U) (Lvl := Lvl) spec16 c (fun b => V c b)
  hentry c := by
    rw [show StableHlo.held (c : Thread nD τ) (Pipeline.ucRefs τ sig) (V c) = unscopedBufs c (fun b => V c b) from (Pipeline.unscopedBufs_held c (V c)).symm,
      Pipeline.ownSems0_none]
    have hsplit := Pipeline.arrays_of_unscopedBufs (pcfgs (F := F)) adm pd (p := 16) launch16.win launch16.arr_whole c
      (by rw [hpd]; exact (D c).share_full (hq c)) (fun b => V c b) (by rw [hpd]; exact hA c)
    rw [hpd] at hsplit ⊢
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed, hrec]
      icases HO with ⟨%W, HO⟩; iexists W; isplitr; · ipureintro; exact fun _ _ => Or.inl trivial
      iexact HO
    isplitr; · iempintro
    iexact Hr
  hin c := by
    rw [hpd, hΦ]
    iintro ⟨-, -, Hr⟩
    iexact Hr
  hout c := by
    rw [hpd, Pipeline.ownSems0_none, hΦ]
    iintro Hr
    isplitr; · iempintro
    isplitr; · iempintro
    iexact Hr
  hexit c := by
    rw [show StableHlo.held (c : Thread nD τ) (Pipeline.ucRefs τ sig) (Vp c) = unscopedBufs c (fun b => Vp c b) from (Pipeline.unscopedBufs_held c (Vp c)).symm]
    have hjoin := Pipeline.unscopedBufs_of_arrays (pcfgs (F := F)) adm (p := 16) launch16.win launch16.arr_whole c pd
      (by rw [hpd]; exact (D c).share_full (hq c)) (fun b => V c b) (fun b => Vp c b)
      (fun w => (pd 16 c).arrAt w (Pipeline.pin (pcfgs (F := F)) adm 16).N)
      (fun w => by rw [hpd]; exact arrAt_final_of V Vp D hA c hout hne w)
      (fun b hb => hne c b fun e => hb (e ▸ Finset.mem_image_of_mem _ (Finset.mem_univ (9 : Fin 10))))
    rw [hpd] at hjoin ⊢
    iintro ⟨Ha, HO, -, HZ⟩
    imodintro
    isplitl [Ha HZ]
    · iapply hjoin
      isplitl [Ha] <;> iassumption
    · unfold Pipeline.Dat.owesAt Pipeline.owesWithin
      rw [howed]
      icases HO with ⟨%W, -, HO⟩; iexists W; iexact HO

end Cert.KernelIdeal.Region16

end
-- ==== Proof.KI.Region16Reg.lean ====
/-
  Region 16 of @main as a segment between two valuations of the core's unscoped buffers, at the proof data of the decoder
  kernel: the arrays are read off the entry valuation, the inputs are held at the full share, nothing is owed, the
  invariant is the scoped buffers no window stages, and the body obligation holds.
-/
import proofs.«414035_j83562883711810_2_alg».proof.Proof.KI.Region16
import proofs.«414035_j83562883711810_2_alg».proof.Proof.KI.Region16RegOf

noncomputable section

namespace Cert.KernelIdeal.Region16

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] {Ix : Type} [DecidableEq Ix] {U : Type} [URA U] {Lvl : Type} [Preorder Lvl]

variable (V Vp : Dev nD → Valuation τ sig (Elt F))

/-- THE REGION: entered holding every unscoped buffer at `V c`, left holding them at `Vp c`, which has the output column at
    what the write-backs left and every other buffer as it was. -/
def reg (ι : Ix) (𝒱₀ : Variants) (L : GSem nD τ sig → Finset Ix) (lv : GSem nD τ sig → Ix → Lvl)
    (pd : (p : Fin 17) → (c : Dev nD) → Dat τ (Elt F) Ix ℕ U Lvl (Pipeline.pin (pcfgs (F := F)) adm p) c)
    (hpd : ∀ c, pd 16 c = dat V c)
    (hout : ∀ c, Vp c main_v184 = (dat (Ix := Ix) (U := U) (Lvl := Lvl) V c).arrAt 9 cfg16.N)
    (hne : ∀ c (b : Ref sig .tc), b ≠ main_v184 → Vp c b = V c b) :
    Pipeline.RegionSeg (pcfgs (F := F)) adm pd ι defs₀ 𝒱₀ L lv 16 :=
  regOf V Vp (fun c => dat (Ix := Ix) (U := U) (Lvl := Lvl) V c) (A_eq V) (fun _ _ => rfl) (fun _ _ => rfl) (fun _ _ => rfl)
    (fun _ _ => rfl) ι 𝒱₀ (body_obligation V ι 𝒱₀) L lv pd hpd hout hne

end Cert.KernelIdeal.Region16

end
-- ==== Proof.KI.Assembly.lean ====
import proofs.«414035_j83562883711810_2_alg».proof.Proof.KI.AssemblyKit
import proofs.«414035_j83562883711810_2_alg».proof.Proof.KI.Region0
import proofs.«414035_j83562883711810_2_alg».proof.Proof.KI.Region1
import proofs.«414035_j83562883711810_2_alg».proof.Proof.KI.Region2
import proofs.«414035_j83562883711810_2_alg».proof.Proof.KI.Region3
import proofs.«414035_j83562883711810_2_alg».proof.Proof.KI.Region4
import proofs.«414035_j83562883711810_2_alg».proof.Proof.KI.Region5
import proofs.«414035_j83562883711810_2_alg».proof.Proof.KI.Region6
import proofs.«414035_j83562883711810_2_alg».proof.Proof.KI.Region7
import proofs.«414035_j83562883711810_2_alg».proof.Proof.KI.Region8
import proofs.«414035_j83562883711810_2_alg».proof.Proof.KI.Region9
import proofs.«414035_j83562883711810_2_alg».proof.Proof.KI.Region10
import proofs.«414035_j83562883711810_2_alg».proof.Proof.KI.Region11
import proofs.«414035_j83562883711810_2_alg».proof.Proof.KI.Region12
import proofs.«414035_j83562883711810_2_alg».proof.Proof.KI.Region13
import proofs.«414035_j83562883711810_2_alg».proof.Proof.KI.Region14
import proofs.«414035_j83562883711810_2_alg».proof.Proof.KI.Region15
import proofs.«414035_j83562883711810_2_alg».proof.Proof.KI.Region16Reg

/-! # The kernel program's frame, and its run with the result named

The seventeen regions' proof data and segment records, handed to the assembly (`AssemblyKit`): the contents the regions
leave (`outs`), determined region by region from the launch memory; the equations saying that each result array holds
what its region's data compute over the valuation the region is entered at (`outs_R0` … `outs_R16`); the frame
(`frame_main`) and the run with the result array named (`run_main`). -/

set_option maxRecDepth 2808

noncomputable section

namespace Cert.KernelIdeal.Assembly

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.AssemblyKit (Dats Regs PD 𝒱₀ L₀ lv₀ argsKept)

variable {F : FTy → Type} [FloatOps F]

/-- The seventeen regions' proof data, in the pipelines' algebra alone. -/
def theDats : Dats F where
  d0 := Region0.dat
  d1 := Region1.dat
  d2 := Region2.dat
  d3 := Region3.dat
  d4 := Region4.dat
  d5 := Region5.dat
  d6 := Region6.dat
  d7 := Region7.dat
  d8 := Region8.dat
  d9 := Region9.dat
  d10 := Region10.dat
  d11 := Region11.dat
  d12 := Region12.dat
  d13 := Region13.dat
  d14 := Region14.dat
  d15 := Region15.dat
  d16 := Region16.dat

-- a record stated over `Pipeline.pin pcfgs adm p` is read at the printed configuration `cfgs p`, which takes unfolding
-- plain definitions in a type
set_option backward.isDefEq.respectTransparency.types false in
/-- The seventeen regions' records; each is entered and left at the unscoped buffers held beside the core's dues, by
    definition. -/
def theRegs : Regs (theDats (F := F)) where
  r0 V Vp pd hpd hout hne := ⟨Region0.reg V Vp () 𝒱₀ L₀ lv₀ pd hpd hout hne, fun _ => .rfl, fun _ => .rfl⟩
  r1 V Vp pd hpd hout hne := ⟨Region1.reg V Vp () 𝒱₀ L₀ lv₀ pd hpd hout hne, fun _ => .rfl, fun _ => .rfl⟩
  r2 V Vp pd hpd hout hne := ⟨Region2.reg V Vp () 𝒱₀ L₀ lv₀ pd hpd hout hne, fun _ => .rfl, fun _ => .rfl⟩
  r3 V Vp pd hpd hout hne := ⟨Region3.reg V Vp () 𝒱₀ L₀ lv₀ pd hpd hout hne, fun _ => .rfl, fun _ => .rfl⟩
  r4 V Vp pd hpd hout hne := ⟨Region4.reg V Vp () 𝒱₀ L₀ lv₀ pd hpd hout hne, fun _ => .rfl, fun _ => .rfl⟩
  r5 V Vp pd hpd hout hne := ⟨Region5.reg V Vp () 𝒱₀ L₀ lv₀ pd hpd hout hne, fun _ => .rfl, fun _ => .rfl⟩
  r6 V Vp pd hpd hout hne := ⟨Region6.reg V Vp () 𝒱₀ L₀ lv₀ pd hpd hout hne, fun _ => .rfl, fun _ => .rfl⟩
  r7 V Vp pd hpd hout hne := ⟨Region7.reg V Vp () 𝒱₀ L₀ lv₀ pd hpd hout hne, fun _ => .rfl, fun _ => .rfl⟩
  r8 V Vp pd hpd hout hne := ⟨Region8.reg V Vp () 𝒱₀ L₀ lv₀ pd hpd hout hne, fun _ => .rfl, fun _ => .rfl⟩
  r9 V Vp pd hpd hout hne := ⟨Region9.reg V Vp () 𝒱₀ L₀ lv₀ pd hpd hout hne, fun _ => .rfl, fun _ => .rfl⟩
  r10 V Vp pd hpd hout hne := ⟨Region10.reg V Vp () 𝒱₀ L₀ lv₀ pd hpd hout hne, fun _ => .rfl, fun _ => .rfl⟩
  r11 V Vp pd hpd hout hne := ⟨Region11.reg V Vp () 𝒱₀ L₀ lv₀ pd hpd hout hne, fun _ => .rfl, fun _ => .rfl⟩
  r12 V Vp pd hpd hout hne := ⟨Region12.reg V Vp () 𝒱₀ L₀ lv₀ pd hpd hout hne, fun _ => .rfl, fun _ => .rfl⟩
  r13 V Vp pd hpd hout0 hout1 hne := ⟨Region13.reg V Vp () 𝒱₀ L₀ lv₀ pd hpd hout0 hout1 hne, fun _ => .rfl, fun _ => .rfl⟩
  r14 V Vp pd hpd hout0 hout1 hne := ⟨Region14.reg V Vp () 𝒱₀ L₀ lv₀ pd hpd hout0 hout1 hne, fun _ => .rfl, fun _ => .rfl⟩
  r15 V Vp pd hpd hout0 hout1 hne := ⟨Region15.reg V Vp () 𝒱₀ L₀ lv₀ pd hpd hout0 hout1 hne, fun _ => .rfl, fun _ => .rfl⟩
  r16 V Vp pd hpd hout hne := ⟨Region16.reg V Vp () 𝒱₀ L₀ lv₀ pd hpd hout hne, fun _ => .rfl, fun _ => .rfl⟩

variable (m : (ℓ : Loc nD τ sig) → Buf (Elt F) ℓ)

/-- What every region leaves in the arrays it may change, from the launch memory `m`. -/
def outs : Outs (F := F) := AssemblyKit.outs theDats m

/-- Every pipeline's proof data, each over the valuation its region is entered at. -/
def pdats : PD F := AssemblyKit.pdats theDats m

/-! ## Each result array holds what its region's data compute over the valuation the region is entered at -/

theorem outs_R0 (c : Dev nD) : outs m 14 main_v50 c
    = (Region0.dat (Ix := Unit) (U := UR sig nD τ) (Lvl := ℕ) (V13 m) c).arrAt 5 cfg0.N := AssemblyKit.outs_R0 theDats m c
theorem outs_R1 (c : Dev nD) : outs m 22 main_v59 c
    = (Region1.dat (Ix := Unit) (U := UR sig nD τ) (Lvl := ℕ) (V21 m (outs m)) c).arrAt 5 cfg1.N := AssemblyKit.outs_R1 theDats m c
theorem outs_R2 (c : Dev nD) : outs m 29 main_v67 c
    = (Region2.dat (Ix := Unit) (U := UR sig nD τ) (Lvl := ℕ) (V28 m (outs m)) c).arrAt 5 cfg2.N := AssemblyKit.outs_R2 theDats m c
theorem outs_R3 (c : Dev nD) : outs m 33 main_v75 c
    = (Region3.dat (Ix := Unit) (U := UR sig nD τ) (Lvl := ℕ) (V32 m (outs m)) c).arrAt 5 cfg3.N := AssemblyKit.outs_R3 theDats m c
theorem outs_R4 (c : Dev nD) : outs m 41 main_v84 c
    = (Region4.dat (Ix := Unit) (U := UR sig nD τ) (Lvl := ℕ) (V40 m (outs m)) c).arrAt 5 cfg4.N := AssemblyKit.outs_R4 theDats m c
theorem outs_R5 (c : Dev nD) : outs m 48 main_v92 c
    = (Region5.dat (Ix := Unit) (U := UR sig nD τ) (Lvl := ℕ) (V47 m (outs m)) c).arrAt 5 cfg5.N := AssemblyKit.outs_R5 theDats m c
theorem outs_R6 (c : Dev nD) : outs m 54 main_v101 c
    = (Region6.dat (Ix := Unit) (U := UR sig nD τ) (Lvl := ℕ) (V53 m (outs m)) c).arrAt 5 cfg6.N := AssemblyKit.outs_R6 theDats m c
theorem outs_R7 (c : Dev nD) : outs m 60 main_v109 c
    = (Region7.dat (Ix := Unit) (U := UR sig nD τ) (Lvl := ℕ) (V59 m (outs m)) c).arrAt 5 cfg7.N := AssemblyKit.outs_R7 theDats m c
theorem outs_R8 (c : Dev nD) : outs m 65 main_v115 c
    = (Region8.dat (Ix := Unit) (U := UR sig nD τ) (Lvl := ℕ) (V64 m (outs m)) c).arrAt 5 cfg8.N := AssemblyKit.outs_R8 theDats m c
theorem outs_R9 (c : Dev nD) : outs m 69 main_v123 c
    = (Region9.dat (Ix := Unit) (U := UR sig nD τ) (Lvl := ℕ) (V68 m (outs m)) c).arrAt 5 cfg9.N := AssemblyKit.outs_R9 theDats m c
theorem outs_R10 (c : Dev nD) : outs m 75 main_v131 c
    = (Region10.dat (Ix := Unit) (U := UR sig nD τ) (Lvl := ℕ) (V74 m (outs m)) c).arrAt 5 cfg10.N := AssemblyKit.outs_R10 theDats m c
theorem outs_R11 (c : Dev nD) : outs m 80 main_v137 c
    = (Region11.dat (Ix := Unit) (U := UR sig nD τ) (Lvl := ℕ) (V79 m (outs m)) c).arrAt 5 cfg11.N := AssemblyKit.outs_R11 theDats m c
theorem outs_R12 (c : Dev nD) : outs m 90 main_v155 c
    = (Region12.dat (Ix := Unit) (U := UR sig nD τ) (Lvl := ℕ) (V89 m (outs m)) c).arrAt 5 cfg12.N := AssemblyKit.outs_R12 theDats m c
theorem outs_R13_0 (c : Dev nD) : outs m 94 main_v159_0 c
    = (Region13.dat (Ix := Unit) (U := UR sig nD τ) (Lvl := ℕ) (V93 m (outs m)) c).arrAt 6 cfg13.N := AssemblyKit.outs_R13_0 theDats m c
theorem outs_R13_1 (c : Dev nD) : outs m 94 main_v159_1 c
    = (Region13.dat (Ix := Unit) (U := UR sig nD τ) (Lvl := ℕ) (V93 m (outs m)) c).arrAt 7 cfg13.N := AssemblyKit.outs_R13_1 theDats m c
theorem outs_R14_0 (c : Dev nD) : outs m 96 main_v162_0 c
    = (Region14.dat (Ix := Unit) (U := UR sig nD τ) (Lvl := ℕ) (V95 m (outs m)) c).arrAt 6 cfg14.N := AssemblyKit.outs_R14_0 theDats m c
theorem outs_R14_1 (c : Dev nD) : outs m 96 main_v162_1 c
    = (Region14.dat (Ix := Unit) (U := UR sig nD τ) (Lvl := ℕ) (V95 m (outs m)) c).arrAt 7 cfg14.N := AssemblyKit.outs_R14_1 theDats m c
theorem outs_R15_0 (c : Dev nD) : outs m 98 main_v165_0 c
    = (Region15.dat (Ix := Unit) (U := UR sig nD τ) (Lvl := ℕ) (V97 m (outs m)) c).arrAt 6 cfg15.N := AssemblyKit.outs_R15_0 theDats m c
theorem outs_R15_1 (c : Dev nD) : outs m 98 main_v165_1 c
    = (Region15.dat (Ix := Unit) (U := UR sig nD τ) (Lvl := ℕ) (V97 m (outs m)) c).arrAt 7 cfg15.N := AssemblyKit.outs_R15_1 theDats m c
theorem outs_R16 (c : Dev nD) : outs m 104 main_v184 c
    = (Region16.dat (Ix := Unit) (U := UR sig nD τ) (Lvl := ℕ) (V103 m (outs m)) c).arrAt 9 cfg16.N := AssemblyKit.outs_R16 theDats m c

/-! ## The frame and the run -/

/-- THE FRAME of the kernel program, at any float values: at the compiled mesh, from any memory with zero counters, every
    weakly fair execution of @main terminates and every final memory holds each argument array as launched. -/
theorem frame_main (ρ : Dev nD → PrngReg) :
    θ_run defs (onTc (τ := τ) (main (F := F))) ⟨m, fun _ => 0, ρ⟩ (fun r => ∀ c : Dev nD, argsKept m c r.2) :=
  AssemblyKit.frame_of theDats m theRegs ρ

/-- THE RUN WITH ITS RESULT NAMED: moreover the result array `main_v184` ends holding `outs m 104 main_v184 c`, which by
    `outs_R16` is what the last region's data compute over the valuation that region is entered at. -/
theorem run_main (ρ : Dev nD → PrngReg) :
    θ_run defs (onTc (τ := τ) (main (F := F))) ⟨m, fun _ => 0, ρ⟩ (fun r => ∀ c : Dev nD,
      r.2.mem ((c.tc : Thread nD τ).loc main_v184) = outs m 104 main_v184 c ∧ argsKept m c r.2) :=
  AssemblyKit.run_of theDats m theRegs ρ

end Cert.KernelIdeal.Assembly

end
-- ==== Proof.KI.Stage0.lean ====
/-
  The first product of the m branch, X θ, at the ideal values.

  The product kernel is run on X and θ padded with zeros to multiples of the block sizes, with the output scale
  the constant one and the bias the constant zero. Given the kernel's output formula over its padded inputs, row
  r < 4000 of its output is the sum over the TRUE contracted extent of X(r, k) θ(k, j): the padded columns of X are
  zero, so their terms drop out of the sum, and that sum is the reference's product read at (r, j).
-/
import proofs.«414035_j83562883711810_2_alg».proof.Proof.RegionsKI
import proofs.«414035_j83562883711810_2_alg».proof.Proof.ReadP
import Idealize.ShloMosaic.Lib.KernelVsHost
import Idealize.ShloMosaic.Lib.IdealHost
import Idealize.ShloMosaic.Lib.ValueIdxCoords

set_option maxRecDepth 2808

noncomputable section

open scoped BigOperators

namespace Cert.KernelIdeal.Stage0

open Cert.KernelIdeal Cert.KernelIdeal.Gen Idealize.ShloMosaic Idealize.ShloMosaic.TcCoe Idealize.SL.Sem
open Idealize.ShloMosaic.StableHlo Idealize.ShloMosaic.ValueIdx

/-- A sum over a padded range whose terms vanish beyond the true extent is the sum over the true extent. -/
theorem sum_drop_tail {M : Type*} [AddCommMonoid M] {K0 Kp : ℕ} (h : K0 ≤ Kp) (f : Fin Kp → M) (g : Fin K0 → M)
    (hin : ∀ k : Fin K0, f ⟨k.val, lt_of_lt_of_le k.isLt h⟩ = g k) (hout : ∀ q : Fin Kp, K0 ≤ q.val → f q = 0) :
    ∑ q : Fin Kp, f q = ∑ k : Fin K0, g k := by
  obtain ⟨d, rfl⟩ := Nat.exists_eq_add_of_le h
  rw [Fin.sum_univ_add, Finset.sum_eq_zero (fun i _ => hout (Fin.natAdd K0 i) (by rw [Fin.coe_natAdd]; exact Nat.le_add_right _ _)),
    add_zero]
  exact Finset.sum_congr rfl fun k _ => hin k

variable (m : (ℓ : Loc nD τ sig) → Buf (Elt Ideal) ℓ) (outs : GenP.Outs (F := Ideal)) (c : Dev nD)

/-! ## The arrays, at their literal types -/

/-- The first factor X (4000 x 4000), as launched. -/
abbrev a0 : S4000x4000.Idx → EReal := m ((c : Thread nD τ).loc main_arg0)
/-- The second factor θ (4000 x 256), as launched. -/
abbrev a7 : S4000x256.Idx → EReal := m ((c : Thread nD τ).loc main_arg7)
/-- The padded left operand at the product's entry. -/
abbrev wA : S4096x4096.Idx → EReal := GenP.V13 m c main_v44
/-- The padded right operand at the product's entry. -/
abbrev wB : S4096x256.Idx → EReal := GenP.V13 m c main_v46
/-- The output scale column at the product's entry. -/
abbrev wSO : S4096x1.Idx → EReal := GenP.V13 m c main_v48
/-- The bias row at the product's entry. -/
abbrev wBIAS : S1x256.Idx → EReal := GenP.V13 m c main_v49
/-- What the product leaves in its output array. -/
abbrev o50 : S4096x256.Idx → EReal := outs 14 main_v50 c

/-! ## The four input arrays read at an index -/

/-- The scale column is the constant one. -/
theorem wSO_at (i : S4096x1.Idx) : wSO m c i = 1 := by
  have e : wSO m c = broadcastInDim S4096x1 ![] bcast_S_S4096x1 (constant (F := Ideal) S_ .f32 0x3F800000#32) := by
    show (GenP.V13 m c main_v48 : S4096x1.Idx → EReal) = _
    dsimp only [GenP.V13]
    simp only [hostOps0_12]
    after_results
  rw [e, broadcastInDim_scalar_apply, constant_apply, Ideal.ofBits_one_f32]

/-- The bias row is the constant zero. -/
theorem wBIAS_at (i : S1x256.Idx) : wBIAS m c i = 0 := by
  have e : wBIAS m c = broadcastInDim S1x256 ![] bcast_S_S1x256 (constant (F := Ideal) S_ .f32 0x00000000#32) := by
    show (GenP.V13 m c main_v49 : S1x256.Idx → EReal) = _
    dsimp only [GenP.V13]
    simp only [hostOps0_12]
    after_results
  rw [e, broadcastInDim_scalar_apply, constant_apply, Ideal.ofBits_zero_f32]

/-- The left operand is X, its format changed, padded with the converted integer zero to 4096 x 4096. -/
theorem wA_eq : wA m c = pad S4096x4096 ![0, 0] ![96, 96] ![0, 0] (truncf .bf16 (a0 m c : FVec Ideal S4000x4000 .f32) bitsLt_bf16_f32)
      (sitofp .bf16 (constantI S_ 32 0#32) : FVec Ideal S_ .bf16) pads_S4000x4000_S4096x4096_0960_0960 h_S_ := by
  show (GenP.V13 m c main_v44 : S4096x4096.Idx → EReal) = _
  rw [GenP.V13_of m c main_v44 (by decide), GenP.V12_of m c main_v44 (by decide), GenP.V11_of m c main_v44 (by decide)]
  dsimp only [GenP.V10, GenP.V9]
  simp only [hostOps0_9, hostOps0_8]
  after_results
  rfl

/-- The right operand is θ, its format changed, padded with the converted integer zero to 4096 rows. -/
theorem wB_eq : wB m c = pad S4096x256 ![0, 0] ![96, 0] ![0, 0] (truncf .bf16 (a7 m c : FVec Ideal S4000x256 .f32) bitsLt_bf16_f32)
      (sitofp .bf16 (constantI S_ 32 0#32) : FVec Ideal S_ .bf16) pads_S4000x256_S4096x256_0960_000 h_S_ := by
  show (GenP.V13 m c main_v46 : S4096x256.Idx → EReal) = _
  rw [GenP.V13_of m c main_v46 (by decide)]
  dsimp only [GenP.V12, GenP.V11]
  simp only [hostOps0_11, hostOps0_10]
  after_results
  rfl

/-- Inside the true extent the left operand is X. -/
theorem wA_in (r q : Fin 4000) :
    wA m c (ix2 ⟨r.val, lt_of_lt_of_le r.isLt (by decide)⟩ ⟨q.val, lt_of_lt_of_le q.isLt (by decide)⟩) = a0 m c (ix2 r q) := by
  rw [wA_eq]
  refine (pad_apply_of_inside _ _ _ _ _ pads_S4000x4000_S4096x4096_0960_0960 h_S_ _ (ix2 r q) fun a => ?_).trans rfl
  match a with
  | ⟨0, _⟩ => show r.val = 0 + r.val * (0 + 1); omega
  | ⟨1, _⟩ => show q.val = 0 + q.val * (0 + 1); omega

/-- Beyond the true number of columns the left operand is zero. -/
theorem wA_out (r q : Fin 4096) (hq : 4000 ≤ q.val) : wA m c (ix2 r q) = 0 := by
  rw [wA_eq]
  refine (pad_apply_of_not_inside _ _ _ _ _ pads_S4000x4000_S4096x4096_0960_0960 h_S_ (ix2 r q) ⟨1, by decide⟩ ?_).trans (sitofp_zero (φ := .bf16))
  show ¬(0 ≤ q.val ∧ (q.val - 0) % (0 + 1) = 0 ∧ (q.val - 0) / (0 + 1) < 4000)
  omega

/-- Inside the true extent the right operand is θ. -/
theorem wB_in (q : Fin 4000) (j : Fin 256) :
    wB m c (ix2 ⟨q.val, lt_of_lt_of_le q.isLt (by decide)⟩ j) = a7 m c (ix2 q j) := by
  rw [wB_eq]
  refine (pad_apply_of_inside _ _ _ _ _ pads_S4000x256_S4096x256_0960_000 h_S_ _ (ix2 q j) fun a => ?_).trans rfl
  match a with
  | ⟨0, _⟩ => show q.val = 0 + q.val * (0 + 1); omega
  | ⟨1, _⟩ => show j.val = 0 + j.val * (0 + 1); omega

/-! ## The product's output as one sum over the true extent -/

/-- Row r < 4000 of the output is row r of X times θ. -/
theorem out0_sum
    (h0 : ∀ (r : Fin 4096) (j : Fin 256), o50 outs c (ix2 r j)
      = (∑ q : Fin 4096, wA m c (ix2 r q) * wB m c (ix2 q j)) * wSO m c (ix2 r 0) + wBIAS m c (ix2 0 j))
    (r : Fin 4000) (j : Fin 256) :
    o50 outs c (ix2 ⟨r.val, lt_of_lt_of_le r.isLt (by decide)⟩ j) = ∑ k : Fin 4000, a0 m c (ix2 r k) * a7 m c (ix2 k j) := by
  rw [h0, wSO_at, wBIAS_at, mul_one, add_zero]
  refine sum_drop_tail (by decide) _ _ (fun k => ?_) (fun q hq => ?_)
  · rw [wA_in, wB_in]
  · rw [wA_out m c _ q hq, zero_mul]

/-! ## Against the reference -/

/-- Row r < 4000 of the output is row r of the reference's product X θ. -/
theorem OUT0
    (h0 : ∀ (r : Fin 4096) (j : Fin 256), o50 outs c (ix2 r j)
      = (∑ q : Fin 4096, wA m c (ix2 r q) * wB m c (ix2 q j)) * wSO m c (ix2 r 0) + wBIAS m c (ix2 0 j))
    (r : Fin 4000) (j : Fin 256) :
    o50 outs c (ix2 ⟨r.val, lt_of_lt_of_le r.isLt (by decide)⟩ j)
      = Cert.ReferenceIdeal.Read.val_main_v18 (F := Ideal) (a0 m c) (a7 m c) (ix2 r j) := by
  rw [out0_sum m outs c h0 r j, Cert.ReferenceIdeal.Read.val_main_v18_apply]
  refine Finset.sum_congr rfl fun k _ => ?_
  have el : Cert.ReferenceIdeal.Read.lidx_main_v18 (ix2 r j) k = ix2 r k :=
    funext fun a => match a with | ⟨0, _⟩ => rfl | ⟨1, _⟩ => rfl
  have er : Cert.ReferenceIdeal.Read.ridx_main_v18 (ix2 r j) k = ix2 k j :=
    funext fun a => match a with | ⟨0, _⟩ => rfl | ⟨1, _⟩ => rfl
  rw [el, er]

end Cert.KernelIdeal.Stage0

end
-- ==== Proof.KI.Stage12Reads.lean ====
/-
  The arrays the thirteenth matrix product (X · W + b over the joined feature matrix X) reads, as functions of the
  earlier products' outputs and of the launch arguments: each is read off the valuation at the product's entry by
  running the host operations before it backwards, one array at a time.
-/
import proofs.«414035_j83562883711810_2_alg».proof.Proof.RegionsKI
import Idealize.ShloMosaic.Lib.ValueIdx
import Idealize.ShloMosaic.Lib.Pipeline.Value
import Idealize.ShloMosaic.Lib.KernelVsHost
import Idealize.ShloMosaic.Lib.IdealHost
import Idealize.ShloMosaic.Lib.StableHlo.Run
import Idealize.ShloMosaic.PureOps.Ideal
import Idealize.ShloMosaic.PureOps.Ideal.Laws

set_option maxRecDepth 2808

noncomputable section

namespace Cert.KernelIdeal.Stage12

open Cert.KernelIdeal Cert.KernelIdeal.Gen
open Idealize.ShloMosaic Idealize.ShloMosaic.TcCoe Idealize.ShloMosaic.ValueIdx Idealize.SL.Sem Idealize.ShloMosaic.StableHlo

open Lean Elab Tactic in
/-- One step back along the program: a read `V_J … r` in the goal, where item `J` does not write `r`, becomes the
    read `V_(J-1) … r` (the lemma `V_J_of`, its side condition decided). -/
elab "peel1" : tactic => withMainContext do
  let tgt ← instantiateMVars (← getMainTarget)
  let cs := tgt.getUsedConstants.filter fun n =>
    match n with
    | .str p s => p == `Cert.KernelIdeal.GenP && s.length > 1 && s.front == 'V' && (s.drop 1).all Char.isDigit
    | _ => false
  for n in cs do
    let id := mkIdent (n.appendAfter "_of")
    let s ← saveState
    try
      evalTactic (← `(tactic| (rw [$id:ident]; rotate_left; decide)))
      return
    catch _ => s.restore
  throwError "no item to step over"

/-- Back along the program as far as the array read is not written. -/
macro "peel" : tactic => `(tactic| repeat peel1)

variable (m : (ℓ : Loc nD τ sig) → Buf (Elt Ideal) ℓ) (outs : GenP.Outs (F := Ideal)) (c : Dev nD)

/-! ## The arguments, where a host operation reads them -/

theorem arg16_at8 : GenP.V8 m c main_arg16 = m ((c : Thread nD τ).loc main_arg16) := by peel
theorem arg15_at88 : GenP.V88 m outs c main_arg15 = m ((c : Thread nD τ).loc main_arg15) := by peel

/-! ## The bias row -/

/-- The bias row where it is made: the bias vector along the columns. -/
theorem v42_at9 : (GenP.V9 m c main_v42 : S1x256.Idx → EReal)
    = broadcastInDim S1x256 ![1] bcast_S256_S1x256_1 (m ((c : Thread nD τ).loc main_arg16)) := by
  have h := arg16_at8 m c
  dsimp only [GenP.V9, hostOps0_8]
  generalize GenP.V8 m c = W at h ⊢
  after_results
  rw [h]

/-- A broadcast along the columns read at column `j`. -/
theorem rowBroadcast_read (x : S256.Idx → EReal) (j : Fin 256) :
    broadcastInDim S1x256 ![1] bcast_S256_S1x256_1 x (ix2 0 j) = x (ix1 j) :=
  broadcastInDim_apply _ bcast_S256_S1x256_1 x (ix2 0 j) (ix1 j) (fun a => match a with
    | ⟨0, _⟩ => by show j.val = if (256 : Nat) = 1 then 0 else j.val; rw [if_neg (by decide)])

/-- The bias row at the product's entry. -/
theorem v42_at89 (j : Fin 256) : (GenP.V89 m outs c main_v42 : S1x256.Idx → EReal) (ix2 0 j)
    = (m ((c : Thread nD τ).loc main_arg16) : S256.Idx → EReal) (ix1 j) := by
  have e : GenP.V89 m outs c main_v42 = GenP.V9 m c main_v42 := by peel
  rw [e, v42_at9]
  exact rowBroadcast_read _ j

/-! ## The weights and the row scale -/

theorem v152_at89 : (GenP.V89 m outs c main_v152 : S256x256.Idx → EReal) = m ((c : Thread nD τ).loc main_arg15) := by
  have h := arg15_at88 m outs c
  dsimp only [GenP.V89, hostOps12_8]
  generalize GenP.V88 m outs c = W at h ⊢
  after_results
  rw [h]; rfl

theorem v154_at89 (r : Fin 6144) : (GenP.V89 m outs c main_v154 : S6144x1.Idx → EReal) (ix2 r 0) = (1 : EReal) := by
  dsimp only [GenP.V89, hostOps12_8]
  generalize GenP.V88 m outs c = W
  after_results
  rw [broadcastInDim_scalar_apply]
  exact Ideal.ofBits_one_f32

/-! ## The joined matrix X -/

/-- X where it is made: the first 4000 rows of the sixth product's output over the first 2000 of the twelfth's. -/
theorem v139_at81 : (GenP.V81 m outs c main_v139 : S6000x256.Idx → EReal)
    = concatenate S6000x256 0
        [⟨S4000x256, extractStridedSlice S4000x256 ![0, 0] (outs 48 main_v92 c : S4096x256.Idx → EReal) slices_S4096x256_S4000x256_0_0⟩,
         ⟨S2000x256, extractStridedSlice S2000x256 ![0, 0] (outs 80 main_v137 c : S2048x256.Idx → EReal) slices_S2048x256_S2000x256_0_0⟩]
        concatenates_S4000x256_S2000x256_S6000x256_d0 := by
  have e93 : (GenP.V80 m outs c main_v93 : S4000x256.Idx → EReal)
      = extractStridedSlice S4000x256 ![0, 0] (outs 48 main_v92 c : S4096x256.Idx → EReal) slices_S4096x256_S4000x256_0_0 := by
    peel
    dsimp only [GenP.V49, hostOps6]
    generalize hW : GenP.V48 m outs c = W
    after_results
    rw [← hW]
    simp only [GenP.V48, Function.update_self]
  have e137 : GenP.V80 m outs c main_v137 = outs 80 main_v137 c := by
    simp only [GenP.V80, Function.update_self]
  dsimp only [GenP.V81, hostOps12]
  generalize GenP.V80 m outs c = W at e93 e137 ⊢
  after_results
  rw [e93, e137]

/-- A row of X among the first 4000 is that row of the sixth product's output. -/
theorem X_lo (r : Fin 4000) (j : Fin 256) :
    (GenP.V81 m outs c main_v139 : S6000x256.Idx → EReal) (ix2 ⟨r.val, by omega⟩ j)
      = (outs 48 main_v92 c : S4096x256.Idx → EReal) (ix2 ⟨r.val, by omega⟩ j) := by
  rw [v139_at81]
  refine (concatenate_pair_apply_left (t := S6000x256) (s₁ := S4000x256) (s₂ := S2000x256) 0 _ _ _
    (ix2 ⟨r.val, by omega⟩ j) rfl (ix2 r j) (fun b => match b with
    | ⟨0, _⟩ => rfl
    | ⟨1, _⟩ => rfl)).trans ?_
  exact extractStridedSlice_apply _ _ _ _ _ (fun a => match a with
    | ⟨0, _⟩ => (Nat.zero_add _).symm
    | ⟨1, _⟩ => (Nat.zero_add _).symm)

/-- A row of X past the first 4000 is a row of the twelfth product's output. -/
theorem X_hi (r : Fin 2000) (j : Fin 256) :
    (GenP.V81 m outs c main_v139 : S6000x256.Idx → EReal) (ix2 ⟨4000 + r.val, by omega⟩ j)
      = (outs 80 main_v137 c : S2048x256.Idx → EReal) (ix2 ⟨r.val, by omega⟩ j) := by
  rw [v139_at81]
  refine (concatenate_pair_apply_right (t := S6000x256) (s₁ := S4000x256) (s₂ := S2000x256) 0 _ _ _
    (ix2 ⟨4000 + r.val, by omega⟩ j) rfl rfl (ix2 r j) (fun b => match b with
    | ⟨0, _⟩ => fun h => absurd rfl h
    | ⟨1, _⟩ => fun _ => rfl) (by show r.val + 4000 = 4000 + r.val; omega)).trans ?_
  exact extractStridedSlice_apply _ _ _ _ _ (fun a => match a with
    | ⟨0, _⟩ => (Nat.zero_add _).symm
    | ⟨1, _⟩ => (Nat.zero_add _).symm)

/-- X is not written again before the product's entry. -/
theorem v139_at89 : GenP.V89 m outs c main_v139 = GenP.V81 m outs c main_v139 := by peel

/-! ## X padded with 144 zero rows -/

theorem v151_at89 : (GenP.V89 m outs c main_v151 : S6144x256.Idx → EReal)
    = pad S6144x256 ![0, 0] ![144, 0] ![0, 0] (GenP.V81 m outs c main_v139 : S6000x256.Idx → EReal)
        (sitofp (F := Ideal) .bf16 (constantI S_ 32 0#32)) pads_S6000x256_S6144x256_01440_000 h_S_ := by
  have e : GenP.V86 m outs c main_v139 = GenP.V81 m outs c main_v139 := by peel
  peel
  dsimp only [GenP.V88, GenP.V87, hostOps12_7, hostOps12_6]
  generalize GenP.V86 m outs c = W at e ⊢
  after_results
  rw [e]; rfl

/-- Inside the true extent the padded copy is X. -/
theorem v151_in (r : Fin 6000) (q : Fin 256) :
    (GenP.V89 m outs c main_v151 : S6144x256.Idx → EReal) (ix2 ⟨r.val, by omega⟩ q)
      = (GenP.V81 m outs c main_v139 : S6000x256.Idx → EReal) (ix2 r q) := by
  rw [v151_at89]
  exact pad_apply_of_inside _ _ _ _ _ _ _ _ (ix2 r q) (fun a => match a with
    | ⟨0, _⟩ => by show r.val = 0 + r.val * (0 + 1); omega
    | ⟨1, _⟩ => by show q.val = 0 + q.val * (0 + 1); omega)

end Cert.KernelIdeal.Stage12

end
-- ==== Proof.KI.Stage1.lean ====
/-
  The second product of the m branch, Binv (T (X θ)), at the ideal values.

  The product kernel is run on T and on the true rows of the first product's output, both padded with zeros to
  multiples of the block sizes; the output scale is the column of safe inverses of T's row sums, padded with zeros,
  and the bias is the constant zero. Given the kernel's output formula over its padded inputs, row r < 2000 of its
  output is the sum over the TRUE contracted extent of T(r, k) times the first product's output at (k, j), times
  the safe inverse at r. The reference computes the same row sums as sums over the first axis of the transposed
  T, the same safe-inverse chain, and the same product, so the two agree entry by entry.
-/
import proofs.«414035_j83562883711810_2_alg».proof.Proof.RegionsKI
import proofs.«414035_j83562883711810_2_alg».proof.Proof.ReadP
import proofs.«414035_j83562883711810_2_alg».proof.Proof.KI.Stage12Reads
import Idealize.ShloMosaic.Lib.KernelVsHost
import Idealize.ShloMosaic.Lib.IdealHost
import Idealize.ShloMosaic.Lib.ValueIdxCoords

set_option maxRecDepth 2808

noncomputable section

open scoped BigOperators

namespace Cert.KernelIdeal.Stage1

open Cert.KernelIdeal Cert.KernelIdeal.Gen Idealize.ShloMosaic Idealize.ShloMosaic.TcCoe Idealize.SL.Sem
open Idealize.ShloMosaic.StableHlo Idealize.ShloMosaic.ValueIdx

/-- A sum over a padded range whose terms vanish beyond the true extent is the sum over the true extent. -/
theorem sum_drop_tail {M : Type*} [AddCommMonoid M] {K0 Kp : ℕ} (h : K0 ≤ Kp) (f : Fin Kp → M) (g : Fin K0 → M)
    (hin : ∀ k : Fin K0, f ⟨k.val, lt_of_lt_of_le k.isLt h⟩ = g k) (hout : ∀ q : Fin Kp, K0 ≤ q.val → f q = 0) :
    ∑ q : Fin Kp, f q = ∑ k : Fin K0, g k := by
  obtain ⟨d, rfl⟩ := Nat.exists_eq_add_of_le h
  rw [Fin.sum_univ_add, Finset.sum_eq_zero (fun i _ => hout (Fin.natAdd K0 i) (by rw [Fin.coe_natAdd]; exact Nat.le_add_right _ _)),
    add_zero]
  exact Finset.sum_congr rfl fun k _ => hin k

/-- The reciprocal of x where x is positive and zero elsewhere, the divisor kept away from zero: the host's chain
    of a comparison with zero, a maximum with a small constant, a division of one, and a selection. -/
def safeInv2000 (x : FVec Ideal S2000 .f32) : FVec Ideal S2000 .f32 :=
  select (cmpf .ogt x (broadcastInDim S2000 ![] bcast_S_S2000 (constant S_ .f32 0x00000000#32)))
    (Host.divf (broadcastInDim S2000 ![] bcast_S_S2000 (constant S_ .f32 0x3F800000#32))
      (maximumf x (broadcastInDim S2000 ![] bcast_S_S2000 (constant S_ .f32 0x2B8CBCCC#32))))
    (broadcastInDim S2000 ![] bcast_S_S2000 (id (constant S_ .f32 0x00000000#32)))

variable (m : (ℓ : Loc nD τ sig) → Buf (Elt Ideal) ℓ) (outs : GenP.Outs (F := Ideal)) (c : Dev nD)

/-! ## The arrays, at their literal types -/

/-- X (4000 x 4000), as launched. -/
abbrev a0 : S4000x4000.Idx → EReal := m ((c : Thread nD τ).loc main_arg0)
/-- T (2000 x 4000), as launched. -/
abbrev a2 : S2000x4000.Idx → EReal := m ((c : Thread nD τ).loc main_arg2)
/-- θ (4000 x 256), as launched. -/
abbrev a7 : S4000x256.Idx → EReal := m ((c : Thread nD τ).loc main_arg7)
/-- The padded left operand at the product's entry. -/
abbrev wA : S2048x4096.Idx → EReal := GenP.V21 m outs c main_v53
/-- The padded right operand at the product's entry. -/
abbrev wB : S4096x256.Idx → EReal := GenP.V21 m outs c main_v55
/-- The output scale column at the product's entry. -/
abbrev wSO : S2048x1.Idx → EReal := GenP.V21 m outs c main_v57
/-- The bias row at the product's entry. -/
abbrev wBIAS : S1x256.Idx → EReal := GenP.V21 m outs c main_v58
/-- What the first product left in its output array. -/
abbrev o50 : S4096x256.Idx → EReal := outs 14 main_v50 c
/-- What this product leaves in its output array. -/
abbrev o59 : S2048x256.Idx → EReal := outs 22 main_v59 c
/-- The safe inverse of T's row sums, as a column, where the host program computes it. -/
abbrev binv : S2000x1.Idx → EReal := GenP.V5 m c main_v19

/-! ## What earlier items left, read where this product's host operations read it -/

/-- T is as launched after the first product. -/
theorem V14_arg2 : GenP.V14 m outs c main_arg2 = m ((c : Thread nD τ).loc main_arg2) := by peel

/-- The first product's output array holds what that product left. -/
theorem V14_v50 : GenP.V14 m outs c main_v50 = outs 14 main_v50 c := by
  dsimp only [GenP.V14]
  exact Function.update_self ..

/-- The safe-inverse column is not touched between its computation and the first product's exit. -/
theorem V14_v19 : GenP.V14 m outs c main_v19 = GenP.V5 m c main_v19 := by peel

/-! ## The four input arrays -/

/-- The bias row is the constant zero. -/
theorem wBIAS_at (i : S1x256.Idx) : wBIAS m outs c i = 0 := by
  have e : wBIAS m outs c = broadcastInDim S1x256 ![] bcast_S_S1x256 (constant (F := Ideal) S_ .f32 0x00000000#32) := by
    show (GenP.V21 m outs c main_v58 : S1x256.Idx → EReal) = _
    dsimp only [GenP.V21]
    simp only [hostOps1_6]
    after_results
  rw [e, broadcastInDim_scalar_apply, constant_apply, Ideal.ofBits_zero_f32]

/-- The left operand is T, its format changed, padded with the converted integer zero to 2048 x 4096. -/
theorem wA_eq : wA m outs c = pad S2048x4096 ![0, 0] ![48, 96] ![0, 0] (truncf .bf16 (a2 m c : FVec Ideal S2000x4000 .f32) bitsLt_bf16_f32)
      (sitofp .bf16 (constantI S_ 32 0#32) : FVec Ideal S_ .bf16) pads_S2000x4000_S2048x4096_0480_0960 h_S_ := by
  show (GenP.V21 m outs c main_v53 : S2048x4096.Idx → EReal) = _
  rw [GenP.V21_of m outs c main_v53 (by decide), GenP.V20_of m outs c main_v53 (by decide), GenP.V19_of m outs c main_v53 (by decide),
    GenP.V18_of m outs c main_v53 (by decide), GenP.V17_of m outs c main_v53 (by decide)]
  dsimp only [GenP.V16, GenP.V15]
  simp only [hostOps1_1, hostOps1]
  after_results
  rw [V14_arg2]
  rfl

/-- The right operand is the true rows of the first product's output, their format changed, padded with the
    converted integer zero back to 4096 rows. -/
theorem wB_eq : wB m outs c = pad S4096x256 ![0, 0] ![96, 0] ![0, 0]
      (truncf .bf16 (extractStridedSlice S4000x256 ![0, 0] (o50 outs c) slices_S4096x256_S4000x256_0_0 : FVec Ideal S4000x256 .f32) bitsLt_bf16_f32)
      (sitofp .bf16 (constantI S_ 32 0#32) : FVec Ideal S_ .bf16) pads_S4000x256_S4096x256_0960_000 h_S_ := by
  show (GenP.V21 m outs c main_v55 : S4096x256.Idx → EReal) = _
  rw [GenP.V21_of m outs c main_v55 (by decide), GenP.V20_of m outs c main_v55 (by decide), GenP.V19_of m outs c main_v55 (by decide)]
  dsimp only [GenP.V18, GenP.V17, GenP.V16, GenP.V15]
  simp only [hostOps1_3, hostOps1_2, hostOps1_1, hostOps1]
  after_results
  rw [V14_v50]
  rfl

/-- The scale column is the safe-inverse column padded with the converted integer zero to 2048 rows. -/
theorem wSO_eq : wSO m outs c = pad S2048x1 ![0, 0] ![48, 0] ![0, 0] (binv m c)
      (sitofp .f32 (constantI S_ 32 0#32) : FVec Ideal S_ .f32) pads_S2000x1_S2048x1_0480_000 h_S_ := by
  show (GenP.V21 m outs c main_v57 : S2048x1.Idx → EReal) = _
  rw [GenP.V21_of m outs c main_v57 (by decide)]
  dsimp only [GenP.V20, GenP.V19, GenP.V18, GenP.V17, GenP.V16, GenP.V15]
  simp only [hostOps1_5, hostOps1_4, hostOps1_3, hostOps1_2, hostOps1_1, hostOps1]
  after_results
  rw [V14_v19]
  rfl

/-- The safe-inverse column is the safe inverse of T's row sums, broadcast to a column. -/
theorem binv_eq : binv m c = broadcastInDim S2000x1 ![0] bcast_S2000_S2000x1_0
      (safeInv2000 (Host.reduceAdd (a2 m c : FVec Ideal S2000x4000 .f32) (constant (F := Ideal) S_ .f32 0x00000000#32) reducesTo_S2000x4000_S2000_d1 h_S_)) := by
  show (GenP.V5 m c main_v19 : S2000x1.Idx → EReal) = _
  dsimp only [GenP.V5, GenP.V4, GenP.V3, GenP.V2, GenP.V1, GenP.V0]
  simp only [hostOps0_4, hostOps0_3, hostOps0_2, hostOps0_1, hostOps0]
  after_results_simp
  unfold safeInv2000
  simp only [TRef.toBuf, TRef.ofBuf, cast_eq]

/-- Inside the true extent the left operand is T. -/
theorem wA_in (r : Fin 2000) (q : Fin 4000) :
    wA m outs c (ix2 ⟨r.val, lt_of_lt_of_le r.isLt (by decide)⟩ ⟨q.val, lt_of_lt_of_le q.isLt (by decide)⟩) = a2 m c (ix2 r q) := by
  rw [wA_eq]
  refine (pad_apply_of_inside _ _ _ _ _ pads_S2000x4000_S2048x4096_0480_0960 h_S_ _ (ix2 r q) fun a => ?_).trans rfl
  match a with
  | ⟨0, _⟩ => show r.val = 0 + r.val * (0 + 1); omega
  | ⟨1, _⟩ => show q.val = 0 + q.val * (0 + 1); omega

/-- Beyond the true number of columns the left operand is zero. -/
theorem wA_out (r : Fin 2048) (q : Fin 4096) (hq : 4000 ≤ q.val) : wA m outs c (ix2 r q) = 0 := by
  rw [wA_eq]
  refine (pad_apply_of_not_inside _ _ _ _ _ pads_S2000x4000_S2048x4096_0480_0960 h_S_ (ix2 r q) ⟨1, by decide⟩ ?_).trans
    (sitofp_zero (φ := .bf16))
  show ¬(0 ≤ q.val ∧ (q.val - 0) % (0 + 1) = 0 ∧ (q.val - 0) / (0 + 1) < 4000)
  omega

/-- Inside the true extent the right operand is the first product's output. -/
theorem wB_in (q : Fin 4000) (j : Fin 256) :
    wB m outs c (ix2 ⟨q.val, lt_of_lt_of_le q.isLt (by decide)⟩ j) = o50 outs c (ix2 ⟨q.val, lt_of_lt_of_le q.isLt (by decide)⟩ j) := by
  rw [wB_eq]
  refine (pad_apply_of_inside _ _ _ _ _ pads_S4000x256_S4096x256_0960_000 h_S_ _ (ix2 q j) fun a => ?_).trans ?_
  · match a with
    | ⟨0, _⟩ => show q.val = 0 + q.val * (0 + 1); omega
    | ⟨1, _⟩ => show j.val = 0 + j.val * (0 + 1); omega
  · show extractStridedSlice S4000x256 ![0, 0] (o50 outs c) slices_S4096x256_S4000x256_0_0 (ix2 q j) = _
    refine extractStridedSlice_apply _ _ slices_S4096x256_S4000x256_0_0 (ix2 q j) _ fun a => ?_
    match a with
    | ⟨0, _⟩ => show q.val = 0 + q.val; omega
    | ⟨1, _⟩ => show j.val = 0 + j.val; omega

/-- Inside the true extent the scale column is the safe-inverse column. -/
theorem wSO_in (r : Fin 2000) :
    wSO m outs c (ix2 ⟨r.val, lt_of_lt_of_le r.isLt (by decide)⟩ 0) = binv m c (ix2 r 0) := by
  rw [wSO_eq]
  refine pad_apply_of_inside _ _ _ _ _ pads_S2000x1_S2048x1_0480_000 h_S_ _ (ix2 r 0) fun a => ?_
  match a with
  | ⟨0, _⟩ => show r.val = 0 + r.val * (0 + 1); omega
  | ⟨1, _⟩ => show (0 : ℕ) = 0 + 0 * (0 + 1); omega

/-! ## The product's output as one sum over the true extent -/

/-- Row r < 2000 of the output is row r of T times the first product's output, scaled by the safe inverse. -/
theorem out1_sum
    (h1 : ∀ (r : Fin 2048) (j : Fin 256), o59 outs c (ix2 r j)
      = (∑ q : Fin 4096, wA m outs c (ix2 r q) * wB m outs c (ix2 q j)) * wSO m outs c (ix2 r 0) + wBIAS m outs c (ix2 0 j))
    (r : Fin 2000) (j : Fin 256) :
    o59 outs c (ix2 ⟨r.val, lt_of_lt_of_le r.isLt (by decide)⟩ j)
      = (∑ k : Fin 4000, a2 m c (ix2 r k) * o50 outs c (ix2 ⟨k.val, lt_of_lt_of_le k.isLt (by decide)⟩ j)) * binv m c (ix2 r 0) := by
  rw [h1, wBIAS_at, add_zero, wSO_in]
  refine congrArg (· * binv m c (ix2 r 0)) ?_
  refine sum_drop_tail (by decide) _ _ (fun k => ?_) (fun q hq => ?_)
  · rw [wA_in, wB_in]
  · rw [wA_out m outs c _ q hq, zero_mul]

/-! ## Against the reference -/

/-- T's row sums: the sum over T's second axis is the reference's sum over the first axis of T transposed. -/
theorem rowsum_eq (x2 : S2000x4000.Idx → EReal) :
    Host.reduceAdd (x2 : FVec Ideal S2000x4000 .f32) (constant (F := Ideal) S_ .f32 0x00000000#32) reducesTo_S2000x4000_S2000_d1 h_S_
      = Cert.ReferenceIdeal.Read.val_main_v10 (F := Ideal) x2 := by
  funext i
  rw [Cert.ReferenceIdeal.Read.val_main_v10_apply]
  simp only [Host.reduceAdd, Ideal.hostReduceAdd_def]
  rw [Ideal.hostReduceAdd_single reducesTo_S2000x4000_S2000_d1 (by decide)]
  refine congrArg₂ (· + ·) rfl (Finset.sum_congr rfl fun k _ => ?_)
  rw [Cert.ReferenceIdeal.Read.val_main_v0_apply]
  exact congrArg x2 (funext fun a => Fin.ext (by match a with | ⟨0, _⟩ => rfl | ⟨1, _⟩ => rfl))

/-- The safe-inverse column at row r is the reference's safe inverse at r. -/
theorem binv_at (r : Fin 2000) :
    binv m c (ix2 r 0) = Cert.ReferenceIdeal.Read.val_main_v17 (F := Ideal) (a2 m c) (ix1 r) := by
  rw [binv_eq, rowsum_eq]
  refine (broadcastInDim_apply _ bcast_S2000_S2000x1_0 _ (ix2 r 0) (ix1 r) fun a => ?_).trans rfl
  match a with
  | ⟨0, _⟩ => show r.val = if (2000 : ℕ) = 1 then 0 else r.val; rw [if_neg (by decide)]

/-- Row r < 2000 of the output is row r of the reference's scaled product. -/
theorem OUT1
    (h1 : ∀ (r : Fin 2048) (j : Fin 256), o59 outs c (ix2 r j)
      = (∑ q : Fin 4096, wA m outs c (ix2 r q) * wB m outs c (ix2 q j)) * wSO m outs c (ix2 r 0) + wBIAS m outs c (ix2 0 j))
    (o0 : ∀ (r : Fin 4000) (j : Fin 256), o50 outs c (ix2 ⟨r.val, lt_of_lt_of_le r.isLt (by decide)⟩ j)
      = Cert.ReferenceIdeal.Read.val_main_v18 (F := Ideal) (a0 m c) (a7 m c) (ix2 r j))
    (r : Fin 2000) (j : Fin 256) :
    o59 outs c (ix2 ⟨r.val, lt_of_lt_of_le r.isLt (by decide)⟩ j)
      = Cert.ReferenceIdeal.Read.val_main_v23 (F := Ideal) (a0 m c) (a2 m c) (a7 m c) (ix2 r j) := by
  rw [out1_sum m outs c h1 r j, binv_at, Cert.ReferenceIdeal.Read.val_main_v23_apply, Ideal.mulf_def,
    Cert.ReferenceIdeal.Read.val_main_v20_apply, Cert.ReferenceIdeal.Read.val_main_v22_apply,
    Cert.ReferenceIdeal.Read.val_main_v21_apply]
  refine congrArg₂ (· * ·) (Finset.sum_congr rfl fun k _ => ?_) (congrArg _ (funext fun a => match a with | ⟨0, _⟩ => rfl))
  rw [o0, Cert.ReferenceIdeal.Read.val_main_v19_apply, Cert.ReferenceIdeal.Read.val_main_v0_apply]
  refine congrArg₂ (· * ·) (congrArg _ (funext fun a => match a with | ⟨0, _⟩ => rfl | ⟨1, _⟩ => rfl))
    (congrArg _ (funext fun a => match a with | ⟨0, _⟩ => rfl | ⟨1, _⟩ => rfl))

end Cert.KernelIdeal.Stage1

end
-- ==== Proof.KI.Stage2.lean ====
/-
  The third product of the m branch, relu(Dinv (Tᵀ (Binv (T (X θ)))) + b), at the ideal values.

  The product kernel is run on the transposed T and on the true rows of the second product's output, both padded
  with zeros to multiples of the block sizes; the output scale is the column of safe inverses of T's column sums,
  padded with zeros, and the bias is the bias vector as one row; the kernel ends with a maximum with zero. Given the
  kernel's output formula over its padded inputs, row r < 4000 of its output is the positive part of the sum over
  the TRUE contracted extent of T(k, r) times the second product's output at (k, j), times the safe inverse at r,
  plus the bias at j. The reference computes the same column sums as sums over the second axis of the transposed
  T, the same safe-inverse chain, the same product, bias and maximum, so the two agree entry by entry.
-/
import proofs.«414035_j83562883711810_2_alg».proof.Proof.RegionsKI
import proofs.«414035_j83562883711810_2_alg».proof.Proof.ReadP
import proofs.«414035_j83562883711810_2_alg».proof.Proof.KI.Stage12Reads
import Idealize.ShloMosaic.Lib.KernelVsHost
import Idealize.ShloMosaic.Lib.IdealHost
import Idealize.ShloMosaic.Lib.ValueIdxCoords

set_option maxRecDepth 2808

noncomputable section

open scoped BigOperators

namespace Cert.KernelIdeal.Stage2

open Cert.KernelIdeal Cert.KernelIdeal.Gen Idealize.ShloMosaic Idealize.ShloMosaic.TcCoe Idealize.SL.Sem
open Idealize.ShloMosaic.StableHlo Idealize.ShloMosaic.ValueIdx

/-- A sum over a padded range whose terms vanish beyond the true extent is the sum over the true extent. -/
theorem sum_drop_tail {M : Type*} [AddCommMonoid M] {K0 Kp : ℕ} (h : K0 ≤ Kp) (f : Fin Kp → M) (g : Fin K0 → M)
    (hin : ∀ k : Fin K0, f ⟨k.val, lt_of_lt_of_le k.isLt h⟩ = g k) (hout : ∀ q : Fin Kp, K0 ≤ q.val → f q = 0) :
    ∑ q : Fin Kp, f q = ∑ k : Fin K0, g k := by
  obtain ⟨d, rfl⟩ := Nat.exists_eq_add_of_le h
  rw [Fin.sum_univ_add, Finset.sum_eq_zero (fun i _ => hout (Fin.natAdd K0 i) (by rw [Fin.coe_natAdd]; exact Nat.le_add_right _ _)),
    add_zero]
  exact Finset.sum_congr rfl fun k _ => hin k

/-- The reciprocal of x where x is positive and zero elsewhere, the divisor kept away from zero: the host's chain
    of a comparison with zero, a maximum with a small constant, a division of one, and a selection. -/
def safeInv4000 (x : FVec Ideal S4000 .f32) : FVec Ideal S4000 .f32 :=
  select (cmpf .ogt x (broadcastInDim S4000 ![] bcast_S_S4000 (constant S_ .f32 0x00000000#32)))
    (Host.divf (broadcastInDim S4000 ![] bcast_S_S4000 (constant S_ .f32 0x3F800000#32))
      (maximumf x (broadcastInDim S4000 ![] bcast_S_S4000 (constant S_ .f32 0x2B8CBCCC#32))))
    (broadcastInDim S4000 ![] bcast_S_S4000 (id (constant S_ .f32 0x00000000#32)))

variable (m : (ℓ : Loc nD τ sig) → Buf (Elt Ideal) ℓ) (outs : GenP.Outs (F := Ideal)) (c : Dev nD)

/-! ## The arrays, at their literal types -/

/-- X (4000 x 4000), as launched. -/
abbrev a0 : S4000x4000.Idx → EReal := m ((c : Thread nD τ).loc main_arg0)
/-- T (2000 x 4000), as launched. -/
abbrev a2 : S2000x4000.Idx → EReal := m ((c : Thread nD τ).loc main_arg2)
/-- θ (4000 x 256), as launched. -/
abbrev a7 : S4000x256.Idx → EReal := m ((c : Thread nD τ).loc main_arg7)
/-- The bias vector (256), as launched. -/
abbrev a8 : S256.Idx → EReal := m ((c : Thread nD τ).loc main_arg8)
/-- The padded left operand at the product's entry. -/
abbrev wA : S4096x2048.Idx → EReal := GenP.V28 m outs c main_v62
/-- The padded right operand at the product's entry. -/
abbrev wB : S2048x256.Idx → EReal := GenP.V28 m outs c main_v64
/-- The output scale column at the product's entry. -/
abbrev wSO : S4096x1.Idx → EReal := GenP.V28 m outs c main_v66
/-- The bias row at the product's entry. -/
abbrev wBIAS : S1x256.Idx → EReal := GenP.V28 m outs c main_v38
/-- What the second product left in its output array. -/
abbrev o59 : S2048x256.Idx → EReal := outs 22 main_v59 c
/-- What this product leaves in its output array. -/
abbrev o67 : S4096x256.Idx → EReal := outs 29 main_v67 c
/-- T transposed, where the host program computes it. -/
abbrev tT : S4000x2000.Idx → EReal := GenP.V1 m c main_v0
/-- The safe inverse of T's column sums, as a column, where the host program computes it. -/
abbrev dinv : S4000x1.Idx → EReal := GenP.V3 m c main_v10
/-- The bias as a row, where the host program computes it. -/
abbrev brow : S1x256.Idx → EReal := GenP.V9 m c main_v38

/-! ## What earlier items left, read where this product's host operations read it -/

/-- The transposed T is not touched between its computation and the second product's exit. -/
theorem V22_v0 : GenP.V22 m outs c main_v0 = GenP.V1 m c main_v0 := by peel

/-- The second product's output array holds what that product left. -/
theorem V22_v59 : GenP.V22 m outs c main_v59 = outs 22 main_v59 c := by
  dsimp only [GenP.V22]
  exact Function.update_self ..

/-- The safe-inverse column is not touched between its computation and the second product's exit. -/
theorem V22_v10 : GenP.V22 m outs c main_v10 = GenP.V3 m c main_v10 := by peel

/-- The bias row is not touched between its computation and this product's entry. -/
theorem V28_v38 : GenP.V28 m outs c main_v38 = GenP.V9 m c main_v38 := by peel

/-! ## The four input arrays -/

/-- The transposed T is T transposed. -/
theorem tT_eq : tT m c = transpose S4000x2000 [1, 0] (a2 m c : FVec Ideal S2000x4000 .f32) transposes_S2000x4000_S4000x2000_1_0 := by
  show (GenP.V1 m c main_v0 : S4000x2000.Idx → EReal) = _
  dsimp only [GenP.V1, GenP.V0]
  simp only [hostOps0]
  after_results

/-- The left operand is the transposed T, its format changed, padded with the converted integer zero to 4096 x 2048. -/
theorem wA_eq : wA m outs c = pad S4096x2048 ![0, 0] ![96, 48] ![0, 0] (truncf .bf16 (tT m c : FVec Ideal S4000x2000 .f32) bitsLt_bf16_f32)
      (sitofp .bf16 (constantI S_ 32 0#32) : FVec Ideal S_ .bf16) pads_S4000x2000_S4096x2048_0960_0480 h_S_ := by
  show (GenP.V28 m outs c main_v62 : S4096x2048.Idx → EReal) = _
  rw [GenP.V28_of m outs c main_v62 (by decide), GenP.V27_of m outs c main_v62 (by decide), GenP.V26_of m outs c main_v62 (by decide),
    GenP.V25_of m outs c main_v62 (by decide)]
  dsimp only [GenP.V24, GenP.V23]
  simp only [hostOps2_1, hostOps2]
  after_results
  rw [V22_v0]
  rfl

/-- The right operand is the true rows of the second product's output, their format changed, padded with the
    converted integer zero back to 2048 rows. -/
theorem wB_eq : wB m outs c = pad S2048x256 ![0, 0] ![48, 0] ![0, 0]
      (truncf .bf16 (extractStridedSlice S2000x256 ![0, 0] (o59 outs c) slices_S2048x256_S2000x256_0_0 : FVec Ideal S2000x256 .f32) bitsLt_bf16_f32)
      (sitofp .bf16 (constantI S_ 32 0#32) : FVec Ideal S_ .bf16) pads_S2000x256_S2048x256_0480_000 h_S_ := by
  show (GenP.V28 m outs c main_v64 : S2048x256.Idx → EReal) = _
  rw [GenP.V28_of m outs c main_v64 (by decide), GenP.V27_of m outs c main_v64 (by decide)]
  dsimp only [GenP.V26, GenP.V25, GenP.V24, GenP.V23]
  simp only [hostOps2_3, hostOps2_2, hostOps2_1, hostOps2]
  after_results
  rw [V22_v59]
  rfl

/-- The scale column is the safe-inverse column padded with the converted integer zero to 4096 rows. -/
theorem wSO_eq : wSO m outs c = pad S4096x1 ![0, 0] ![96, 0] ![0, 0] (dinv m c)
      (sitofp .f32 (constantI S_ 32 0#32) : FVec Ideal S_ .f32) pads_S4000x1_S4096x1_0960_000 h_S_ := by
  show (GenP.V28 m outs c main_v66 : S4096x1.Idx → EReal) = _
  dsimp only [GenP.V28, GenP.V27, GenP.V26, GenP.V25, GenP.V24, GenP.V23]
  simp only [hostOps2_5, hostOps2_4, hostOps2_3, hostOps2_2, hostOps2_1, hostOps2]
  after_results
  rw [V22_v10]
  rfl

/-- The safe-inverse column is the safe inverse of T's column sums, broadcast to a column. -/
theorem dinv_eq : dinv m c = broadcastInDim S4000x1 ![0] bcast_S4000_S4000x1_0
      (safeInv4000 (Host.reduceAdd (a2 m c : FVec Ideal S2000x4000 .f32) (constant (F := Ideal) S_ .f32 0x00000000#32) reducesTo_S2000x4000_S4000_d0 h_S_)) := by
  show (GenP.V3 m c main_v10 : S4000x1.Idx → EReal) = _
  dsimp only [GenP.V3, GenP.V2, GenP.V1, GenP.V0]
  simp only [hostOps0_2, hostOps0_1, hostOps0]
  after_results_simp
  unfold safeInv4000
  simp only [TRef.toBuf, TRef.ofBuf, cast_eq]

/-- The bias row is the bias vector broadcast to one row. -/
theorem brow_eq : brow m c = broadcastInDim S1x256 ![1] bcast_S256_S1x256_1 (a8 m c : FVec Ideal S256 .f32) := by
  show (GenP.V9 m c main_v38 : S1x256.Idx → EReal) = _
  dsimp only [GenP.V9, GenP.V8, GenP.V7, GenP.V6, GenP.V5, GenP.V4, GenP.V3, GenP.V2, GenP.V1, GenP.V0]
  simp only [hostOps0_8, hostOps0_7, hostOps0_6, hostOps0_5, hostOps0_4, hostOps0_3, hostOps0_2, hostOps0_1, hostOps0]
  after_results_simp

/-- Inside the true extent the left operand is T with its coordinates exchanged. -/
theorem wA_in (r : Fin 4000) (k : Fin 2000) :
    wA m outs c (ix2 ⟨r.val, lt_of_lt_of_le r.isLt (by decide)⟩ ⟨k.val, lt_of_lt_of_le k.isLt (by decide)⟩) = a2 m c (ix2 k r) := by
  rw [wA_eq]
  refine (pad_apply_of_inside _ _ _ _ _ pads_S4000x2000_S4096x2048_0960_0480 h_S_ _ (ix2 r k) fun a => ?_).trans ?_
  · match a with
    | ⟨0, _⟩ => show r.val = 0 + r.val * (0 + 1); omega
    | ⟨1, _⟩ => show k.val = 0 + k.val * (0 + 1); omega
  · show tT m c (ix2 r k) = _
    rw [tT_eq]
    exact transpose_apply [1, 0] _ transposes_S2000x4000_S4000x2000_1_0 (ix2 r k) (ix2 k r) (fun b => match b with
      | ⟨0, _⟩ => rfl
      | ⟨1, _⟩ => rfl)

/-- Beyond the true number of columns the left operand is zero. -/
theorem wA_out (r : Fin 4096) (q : Fin 2048) (hq : 2000 ≤ q.val) : wA m outs c (ix2 r q) = 0 := by
  rw [wA_eq]
  refine (pad_apply_of_not_inside _ _ _ _ _ pads_S4000x2000_S4096x2048_0960_0480 h_S_ (ix2 r q) ⟨1, by decide⟩ ?_).trans
    (sitofp_zero (φ := .bf16))
  show ¬(0 ≤ q.val ∧ (q.val - 0) % (0 + 1) = 0 ∧ (q.val - 0) / (0 + 1) < 2000)
  omega

/-- Inside the true extent the right operand is the second product's output. -/
theorem wB_in (q : Fin 2000) (j : Fin 256) :
    wB m outs c (ix2 ⟨q.val, lt_of_lt_of_le q.isLt (by decide)⟩ j) = o59 outs c (ix2 ⟨q.val, lt_of_lt_of_le q.isLt (by decide)⟩ j) := by
  rw [wB_eq]
  refine (pad_apply_of_inside _ _ _ _ _ pads_S2000x256_S2048x256_0480_000 h_S_ _ (ix2 q j) fun a => ?_).trans ?_
  · match a with
    | ⟨0, _⟩ => show q.val = 0 + q.val * (0 + 1); omega
    | ⟨1, _⟩ => show j.val = 0 + j.val * (0 + 1); omega
  · show extractStridedSlice S2000x256 ![0, 0] (o59 outs c) slices_S2048x256_S2000x256_0_0 (ix2 q j) = _
    refine extractStridedSlice_apply _ _ slices_S2048x256_S2000x256_0_0 (ix2 q j) _ fun a => ?_
    match a with
    | ⟨0, _⟩ => show q.val = 0 + q.val; omega
    | ⟨1, _⟩ => show j.val = 0 + j.val; omega

/-- Inside the true extent the scale column is the safe-inverse column. -/
theorem wSO_in (r : Fin 4000) :
    wSO m outs c (ix2 ⟨r.val, lt_of_lt_of_le r.isLt (by decide)⟩ 0) = dinv m c (ix2 r 0) := by
  rw [wSO_eq]
  refine pad_apply_of_inside _ _ _ _ _ pads_S4000x1_S4096x1_0960_000 h_S_ _ (ix2 r 0) fun a => ?_
  match a with
  | ⟨0, _⟩ => show r.val = 0 + r.val * (0 + 1); omega
  | ⟨1, _⟩ => show (0 : ℕ) = 0 + 0 * (0 + 1); omega

/-- The bias row at column j is the bias vector at j. -/
theorem wBIAS_at (j : Fin 256) : wBIAS m outs c (ix2 0 j) = a8 m c (ix1 j) := by
  show (GenP.V28 m outs c main_v38 : S1x256.Idx → EReal) (ix2 0 j) = _
  rw [V28_v38]
  show brow m c (ix2 0 j) = _
  rw [brow_eq]
  refine broadcastInDim_apply _ bcast_S256_S1x256_1 _ (ix2 0 j) (ix1 j) fun a => ?_
  match a with
  | ⟨0, _⟩ => show j.val = if (256 : ℕ) = 1 then 0 else j.val; rw [if_neg (by decide)]

/-! ## The product's output as one sum over the true extent -/

/-- Row r < 4000 of the output is the positive part of row r of the transposed T times the second product's
    output, scaled by the safe inverse, plus the bias. -/
theorem out2_sum
    (h2 : ∀ (r : Fin 4096) (j : Fin 256), o67 outs c (ix2 r j)
      = max ((∑ q : Fin 2048, wA m outs c (ix2 r q) * wB m outs c (ix2 q j)) * wSO m outs c (ix2 r 0) + wBIAS m outs c (ix2 0 j)) 0)
    (r : Fin 4000) (j : Fin 256) :
    o67 outs c (ix2 ⟨r.val, lt_of_lt_of_le r.isLt (by decide)⟩ j)
      = max ((∑ k : Fin 2000, a2 m c (ix2 k r) * o59 outs c (ix2 ⟨k.val, lt_of_lt_of_le k.isLt (by decide)⟩ j)) * dinv m c (ix2 r 0)
          + a8 m c (ix1 j)) 0 := by
  rw [h2, wSO_in, wBIAS_at]
  refine congrArg (fun s => max (s * dinv m c (ix2 r 0) + a8 m c (ix1 j)) 0) ?_
  refine sum_drop_tail (by decide) _ _ (fun k => ?_) (fun q hq => ?_)
  · rw [wA_in, wB_in]
  · rw [wA_out m outs c _ q hq, zero_mul]

/-! ## Against the reference -/

/-- T's column sums: the sum over T's first axis is the reference's sum over the second axis of T transposed. -/
theorem colsum_eq (x2 : S2000x4000.Idx → EReal) :
    Host.reduceAdd (x2 : FVec Ideal S2000x4000 .f32) (constant (F := Ideal) S_ .f32 0x00000000#32) reducesTo_S2000x4000_S4000_d0 h_S_
      = Cert.ReferenceIdeal.Read.val_main_v2 (F := Ideal) x2 := by
  funext i
  rw [Cert.ReferenceIdeal.Read.val_main_v2_apply]
  simp only [Host.reduceAdd, Ideal.hostReduceAdd_def]
  rw [Ideal.hostReduceAdd_single reducesTo_S2000x4000_S4000_d0 (by decide)]
  refine congrArg₂ (· + ·) rfl (Finset.sum_congr rfl fun k _ => ?_)
  rw [Cert.ReferenceIdeal.Read.val_main_v0_apply]
  exact congrArg x2 (funext fun a => Fin.ext (by match a with | ⟨0, _⟩ => rfl | ⟨1, _⟩ => rfl))

/-- The safe-inverse column at row r is the reference's safe inverse at r. -/
theorem dinv_at (r : Fin 4000) :
    dinv m c (ix2 r 0) = Cert.ReferenceIdeal.Read.val_main_v9 (F := Ideal) (a2 m c) (ix1 r) := by
  rw [dinv_eq, colsum_eq]
  refine (broadcastInDim_apply _ bcast_S4000_S4000x1_0 _ (ix2 r 0) (ix1 r) fun a => ?_).trans rfl
  match a with
  | ⟨0, _⟩ => show r.val = if (4000 : ℕ) = 1 then 0 else r.val; rw [if_neg (by decide)]

/-- Row r < 4000 of the output is row r of the reference's first layer of the m branch. -/
theorem OUT2
    (h2 : ∀ (r : Fin 4096) (j : Fin 256), o67 outs c (ix2 r j)
      = max ((∑ q : Fin 2048, wA m outs c (ix2 r q) * wB m outs c (ix2 q j)) * wSO m outs c (ix2 r 0) + wBIAS m outs c (ix2 0 j)) 0)
    (o1 : ∀ (r : Fin 2000) (j : Fin 256), o59 outs c (ix2 ⟨r.val, lt_of_lt_of_le r.isLt (by decide)⟩ j)
      = Cert.ReferenceIdeal.Read.val_main_v23 (F := Ideal) (a0 m c) (a2 m c) (a7 m c) (ix2 r j))
    (r : Fin 4000) (j : Fin 256) :
    o67 outs c (ix2 ⟨r.val, lt_of_lt_of_le r.isLt (by decide)⟩ j)
      = Cert.ReferenceIdeal.Read.val_main_v31 (F := Ideal) (a0 m c) (a2 m c) (a7 m c) (a8 m c) (ix2 r j) := by
  rw [out2_sum m outs c h2 r j, dinv_at, Cert.ReferenceIdeal.Read.val_main_v31_apply, Ideal.maximumf_def,
    Cert.ReferenceIdeal.Read.val_main_call2_v0_apply, Cert.ReferenceIdeal.Read.val_main_call2_cst_apply, Ideal.ofBits_def,
    Ideal.ofBits_zero_f32, Cert.ReferenceIdeal.Read.val_main_v30_apply, Ideal.addf_def,
    Cert.ReferenceIdeal.Read.val_main_v27_apply, Ideal.mulf_def, Cert.ReferenceIdeal.Read.val_main_v24_apply,
    Cert.ReferenceIdeal.Read.val_main_v26_apply, Cert.ReferenceIdeal.Read.val_main_v25_apply,
    Cert.ReferenceIdeal.Read.val_main_v29_apply, Cert.ReferenceIdeal.Read.val_main_v28_apply]
  refine congrArg (max · 0) (congrArg₂ (· + ·) (congrArg₂ (· * ·) (Finset.sum_congr rfl fun k _ => ?_)
    (congrArg _ (funext fun a => match a with | ⟨0, _⟩ => rfl)))
    (congrArg _ (funext fun a => match a with | ⟨0, _⟩ => rfl)))
  rw [o1, Cert.ReferenceIdeal.Read.val_main_v0_apply]
  refine congrArg₂ (· * ·) (congrArg _ (funext fun a => match a with | ⟨0, _⟩ => rfl | ⟨1, _⟩ => rfl))
    (congrArg _ (funext fun a => match a with | ⟨0, _⟩ => rfl | ⟨1, _⟩ => rfl))

end Cert.KernelIdeal.Stage2

end
-- ==== Proof.KI.Stage3.lean ====
/-
  Region 3 against the reference: the second layer's node transform.

  The region multiplies its left operand by its right operand, scales each row by a column of ones and adds a row
  of zeros. Its left operand is the first 4000 rows of the previous region's result (the first layer's output after
  its rectifier), converted and padded with 96 zero rows; its right operand is the second layer's weight matrix,
  converted. A conversion keeps every ideal value, so on the 4000 true rows the result is the plain product of the
  first layer's output with the weights, which is how the reference computes it.
-/
import proofs.«414035_j83562883711810_2_alg».proof.Proof.RegionsKI
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«414035_j83562883711810_2_alg».proof.Proof.ReadP
set_option maxRecDepth 16384

noncomputable section

open scoped BigOperators

namespace Cert.KernelIdeal.Stage3

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (outs : GenP.Outs (F := Ideal)) (c : Dev nD)

/-- The region's operands and result, and the previous layer's result, as arrays of their literal types. -/
abbrev arrA : S4096x256.Idx → EReal := GenP.V32 m outs c main_v70
abbrev arrB : S256x256.Idx → EReal := GenP.V32 m outs c main_v71
abbrev arrS : S4096x1.Idx → EReal := GenP.V32 m outs c main_v73
abbrev arrZ : S1x256.Idx → EReal := GenP.V32 m outs c main_v74
abbrev out3 : S4096x256.Idx → EReal := outs 33 main_v75 c
abbrev out2 : S4096x256.Idx → EReal := outs 29 main_v67 c
abbrev a9 : S256x256.Idx → EReal := m ((c : Thread nD τ).loc main_arg9)

/-- The single-precision pattern of sign 0, exponent 127 and fraction 0 denotes 2 ^ 23 * 2 ^ (-23) = 1. -/
theorem ofBits_one_f32 : Ideal.ofBits .f32 0x3F800000#32 = 1 := by
  have h : ((8388608 : ℝ) * (1 / 8388608) : ℝ) = 1 := by norm_num
  simp [Ideal.ofBits, Ideal.ieee]
  norm_num
  rw [← EReal.coe_mul, h, EReal.coe_one]

theorem arrS_eq : arrS m outs c
    = broadcastInDim S4096x1 ![] bcast_S_S4096x1 (constant (F := Ideal) S_ .f32 0x3F800000#32) := by
  dsimp only [arrS, GenP.V32]
  simp only [hostOps3_2]
  after_results

theorem arrZ_eq : arrZ m outs c
    = broadcastInDim S1x256 ![] bcast_S_S1x256 (constant (F := Ideal) S_ .f32 0x00000000#32) := by
  dsimp only [arrZ, GenP.V32]
  simp only [hostOps3_2]
  after_results

/-- The scale column is 1 at every row. -/
theorem arrS_at (r : Fin 4096) : arrS m outs c (ix2 r 0) = 1 := by
  rw [arrS_eq]
  exact (broadcastInDim_apply _ bcast_S_S4096x1 _ (ix2 r 0) ix0 (fun a => a.elim0)).trans ofBits_one_f32

/-- The bias row is 0 at every column. -/
theorem arrZ_at (j : Fin 256) : arrZ m outs c (ix2 0 j) = 0 := by
  rw [arrZ_eq]
  exact (broadcastInDim_apply _ bcast_S_S1x256 _ (ix2 0 j) ix0 (fun a => a.elim0)).trans Ideal.ofBits_zero_f32

theorem arg9_thru : GenP.V29 m outs c main_arg9 = m ((c : Thread nD τ).loc main_arg9) :=
  (GenP.V29_of m outs c main_arg9 (by decide)).trans <|
    (GenP.V28_of m outs c main_arg9 (by decide)).trans <|
    (GenP.V27_of m outs c main_arg9 (by decide)).trans <|
    (GenP.V26_of m outs c main_arg9 (by decide)).trans <|
    (GenP.V25_of m outs c main_arg9 (by decide)).trans <|
    (GenP.V24_of m outs c main_arg9 (by decide)).trans <|
    (GenP.V23_of m outs c main_arg9 (by decide)).trans <|
    (GenP.V22_of m outs c main_arg9 (by decide)).trans <|
    (GenP.V21_of m outs c main_arg9 (by decide)).trans <|
    (GenP.V20_of m outs c main_arg9 (by decide)).trans <|
    (GenP.V19_of m outs c main_arg9 (by decide)).trans <|
    (GenP.V18_of m outs c main_arg9 (by decide)).trans <|
    (GenP.V17_of m outs c main_arg9 (by decide)).trans <|
    (GenP.V16_of m outs c main_arg9 (by decide)).trans <|
    (GenP.V15_of m outs c main_arg9 (by decide)).trans <|
    (GenP.V14_of m outs c main_arg9 (by decide)).trans <|
    (GenP.V13_of m c main_arg9 (by decide)).trans <|
    (GenP.V12_of m c main_arg9 (by decide)).trans <|
    (GenP.V11_of m c main_arg9 (by decide)).trans <|
    (GenP.V10_of m c main_arg9 (by decide)).trans <|
    (GenP.V9_of m c main_arg9 (by decide)).trans <|
    (GenP.V8_of m c main_arg9 (by decide)).trans <|
    (GenP.V7_of m c main_arg9 (by decide)).trans <|
    (GenP.V6_of m c main_arg9 (by decide)).trans <|
    (GenP.V5_of m c main_arg9 (by decide)).trans <|
    (GenP.V4_of m c main_arg9 (by decide)).trans <|
    (GenP.V3_of m c main_arg9 (by decide)).trans <|
    (GenP.V2_of m c main_arg9 (by decide)).trans <|
    (GenP.V1_of m c main_arg9 (by decide)).trans rfl

/-- The right operand is the weight matrix: a conversion keeps every ideal value. -/
theorem arrB_eq : arrB m outs c = a9 m c := by
  dsimp only [arrB, a9, GenP.V32]
  simp only [hostOps3_2]
  after_results
  exact (arg9_thru m outs c)

/-- The left operand: the first 4000 rows of the previous layer's result, converted, then 96 rows of padding. -/
theorem arrA_eq : arrA m outs c
    = pad S4096x256 ![0, 0] ![96, 0] ![0, 0] (extractStridedSlice S4000x256 ![0, 0] (out2 outs c) slices_S4096x256_S4000x256_0_0)
        (sitofp (F := Ideal) .bf16 (constantI S_ 32 0#32)) pads_S4000x256_S4096x256_0960_000 h_S_ := by
  dsimp only [arrA, out2]
  rw [GenP.V32_of m outs c main_v70 (by decide)]
  dsimp only [GenP.V31, GenP.V30]
  simp only [hostOps3_1, hostOps3]
  after_results
  simp only [TRef.ofBuf, TRef.toBuf, cast_eq]
  rw [show GenP.V29 m outs c (Proc.tc.devRef main_v67) = outs 29 main_v67 c from Function.update_self _ _ _]
  rfl

/-- Inside the true extent the left operand is the previous layer's result. -/
theorem arrA_in (r : Fin 4000) (q : Fin 256) :
    arrA m outs c (ix2 ⟨r.val, by omega⟩ q) = out2 outs c (ix2 ⟨r.val, by omega⟩ q) := by
  rw [arrA_eq]
  refine (pad_apply_of_inside ![0, 0] ![96, 0] ![0, 0] _ _ pads_S4000x256_S4096x256_0960_000 h_S_
    (ix2 ⟨r.val, by omega⟩ q) (ix2 r q) fun a => ?_).trans ?_
  · match a with
    | ⟨0, _⟩ => show r.val = 0 + r.val * (0 + 1); omega
    | ⟨1, _⟩ => show q.val = 0 + q.val * (0 + 1); omega
  · exact extractStridedSlice_apply ![0, 0] _ slices_S4096x256_S4000x256_0_0 (ix2 r q) (ix2 ⟨r.val, by omega⟩ q) fun a => by
      match a with
      | ⟨0, _⟩ => show r.val = 0 + r.val; omega
      | ⟨1, _⟩ => show q.val = 0 + q.val; omega

/-- The region's result on the true rows: the previous layer's rows times the weight matrix. -/
theorem core3
    (h3 : ∀ (r : Fin 4096) (j : Fin 256), out3 outs c (ix2 r j)
      = (∑ q : Fin 256, arrA m outs c (ix2 r q) * arrB m outs c (ix2 q j)) * arrS m outs c (ix2 r 0) + arrZ m outs c (ix2 0 j))
    (r : Fin 4000) (j : Fin 256) :
    out3 outs c (ix2 ⟨r.val, by omega⟩ j) = ∑ q : Fin 256, out2 outs c (ix2 ⟨r.val, by omega⟩ q) * a9 m c (ix2 q j) := by
  rw [h3, arrS_at, arrZ_at, mul_one, add_zero]
  refine Finset.sum_congr rfl fun q _ => ?_
  rw [arrA_in, arrB_eq]

abbrev a2 : S2000x4000.Idx → EReal := m ((c : Thread nD τ).loc main_arg2)

/-- The launch contents of the arguments the reference's stage reads. -/
abbrev a0 : S4000x4000.Idx → EReal := m ((c : Thread nD τ).loc main_arg0)
abbrev a7 : S4000x256.Idx → EReal := m ((c : Thread nD τ).loc main_arg7)
abbrev a8 : S256.Idx → EReal := m ((c : Thread nD τ).loc main_arg8)

open Cert.ReferenceIdeal.Read in
/-- On its true rows the region's result is the reference's product of the first layer's output with the second
    layer's weights. -/
theorem OUT_3
    (h3 : ∀ (r : Fin 4096) (j : Fin 256), out3 outs c (ix2 r j)
      = (∑ q : Fin 256, arrA m outs c (ix2 r q) * arrB m outs c (ix2 q j)) * arrS m outs c (ix2 r 0) + arrZ m outs c (ix2 0 j))
    (OUT_2 : ∀ (r : Fin 4000) (j : Fin 256), out2 outs c (ix2 ⟨r.val, by omega⟩ j)
      = val_main_v31 (F := Ideal) (a0 m c) (a2 m c) (a7 m c) (a8 m c) (ix2 r j))
    (r : Fin 4000) (j : Fin 256) :
    out3 outs c (ix2 ⟨r.val, by omega⟩ j)
      = val_main_v48 (F := Ideal) (a0 m c) (a2 m c) (a7 m c) (a8 m c) (a9 m c) (ix2 r j) := by
  rw [core3 m outs c h3 r j, val_main_v48_apply]
  refine Finset.sum_congr rfl fun q _ => ?_
  rw [OUT_2 r q]
  congr 2 <;> (funext a; match a with | ⟨0, _⟩ => rfl | ⟨1, _⟩ => rfl)

end Cert.KernelIdeal.Stage3
end
-- ==== Proof.KI.Stage4.lean ====
/-
  Region 4 against the reference: the second layer's hyperedge aggregate.

  The region multiplies the incidence matrix (converted, padded to 2048 by 4096) by the first 4000 rows of the
  previous region's result (converted, padded with 96 zero rows), scales each row by the safe inverse of the
  incidence matrix's row sums (padded with 48 zero rows) and adds a row of zeros. The padding columns of the left
  operand are zero, so the sum over 4096 terms is the sum over the first 4000. The reference multiplies by the
  transpose of the transposed incidence matrix and scales by the safe inverse of the transposed matrix's sums along
  its first axis: entry by entry the same matrix and the same sums.
-/
import proofs.«414035_j83562883711810_2_alg».proof.Proof.RegionsKI
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«414035_j83562883711810_2_alg».proof.Proof.ReadP
set_option maxRecDepth 16384

noncomputable section

open scoped BigOperators

namespace Cert.KernelIdeal.Stage4

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (outs : GenP.Outs (F := Ideal)) (c : Dev nD)

/-- The region's operands and result, and the previous region's result, as arrays of their literal types. -/
abbrev arrA : S2048x4096.Idx → EReal := GenP.V40 m outs c main_v78
abbrev arrB : S4096x256.Idx → EReal := GenP.V40 m outs c main_v80
abbrev arrS : S2048x1.Idx → EReal := GenP.V40 m outs c main_v82
abbrev arrZ : S1x256.Idx → EReal := GenP.V40 m outs c main_v83
abbrev out4 : S2048x256.Idx → EReal := outs 41 main_v84 c
abbrev out3 : S4096x256.Idx → EReal := outs 33 main_v75 c
abbrev a2 : S2000x4000.Idx → EReal := m ((c : Thread nD τ).loc main_arg2)
/-- The safe inverse of the incidence matrix's row sums, as a column. -/
abbrev binvK : S2000x1.Idx → EReal := GenP.V5 m c main_v19

/-- The padding value: the integer 0 converted. -/
theorem padval_bf16 : sitofp (F := Ideal) .bf16 (constantI S_ 32 0#32) (Shape.Idx.first h_S_) = 0 := by
  show Scalar.sitofp (F := Ideal) .bf16 (0#32 : BitVec 32) = 0
  simp
theorem padval_f32 : sitofp (F := Ideal) .f32 (constantI S_ 32 0#32) (Shape.Idx.first h_S_) = 0 := by
  show Scalar.sitofp (F := Ideal) .f32 (0#32 : BitVec 32) = 0
  simp

/-- Terms that vanish from K0 on may be dropped from a sum over the first Kp naturals. -/
theorem sum_drop {K0 Kp : ℕ} (h : K0 ≤ Kp) (g : Fin Kp → EReal) (hz : ∀ q : Fin Kp, K0 ≤ q.val → g q = 0) :
    ∑ q : Fin Kp, g q = ∑ q : Fin K0, g ⟨q.val, lt_of_lt_of_le q.isLt h⟩ := by
  obtain ⟨d, rfl⟩ := Nat.exists_eq_add_of_le h
  rw [Fin.sum_univ_add]
  have h2 : ∑ i : Fin d, g (Fin.natAdd K0 i) = 0 := Finset.sum_eq_zero fun i _ => hz _ (Nat.le_add_right _ _)
  rw [h2, add_zero]
  rfl

theorem arrZ_eq : arrZ m outs c
    = broadcastInDim S1x256 ![] bcast_S_S1x256 (constant (F := Ideal) S_ .f32 0x00000000#32) := by
  dsimp only [arrZ, GenP.V40]
  simp only [hostOps4_6]
  after_results

/-- The bias row is 0 at every column. -/
theorem arrZ_at (j : Fin 256) : arrZ m outs c (ix2 0 j) = 0 := by
  rw [arrZ_eq]
  exact (broadcastInDim_apply _ bcast_S_S1x256 _ (ix2 0 j) ix0 (fun a => a.elim0)).trans Ideal.ofBits_zero_f32

theorem arg2_thru : GenP.V33 m outs c main_arg2 = m ((c : Thread nD τ).loc main_arg2) :=
  (GenP.V33_of m outs c main_arg2 (by decide)).trans <|
    (GenP.V32_of m outs c main_arg2 (by decide)).trans <|
    (GenP.V31_of m outs c main_arg2 (by decide)).trans <|
    (GenP.V30_of m outs c main_arg2 (by decide)).trans <|
    (GenP.V29_of m outs c main_arg2 (by decide)).trans <|
    (GenP.V28_of m outs c main_arg2 (by decide)).trans <|
    (GenP.V27_of m outs c main_arg2 (by decide)).trans <|
    (GenP.V26_of m outs c main_arg2 (by decide)).trans <|
    (GenP.V25_of m outs c main_arg2 (by decide)).trans <|
    (GenP.V24_of m outs c main_arg2 (by decide)).trans <|
    (GenP.V23_of m outs c main_arg2 (by decide)).trans <|
    (GenP.V22_of m outs c main_arg2 (by decide)).trans <|
    (GenP.V21_of m outs c main_arg2 (by decide)).trans <|
    (GenP.V20_of m outs c main_arg2 (by decide)).trans <|
    (GenP.V19_of m outs c main_arg2 (by decide)).trans <|
    (GenP.V18_of m outs c main_arg2 (by decide)).trans <|
    (GenP.V17_of m outs c main_arg2 (by decide)).trans <|
    (GenP.V16_of m outs c main_arg2 (by decide)).trans <|
    (GenP.V15_of m outs c main_arg2 (by decide)).trans <|
    (GenP.V14_of m outs c main_arg2 (by decide)).trans <|
    (GenP.V13_of m c main_arg2 (by decide)).trans <|
    (GenP.V12_of m c main_arg2 (by decide)).trans <|
    (GenP.V11_of m c main_arg2 (by decide)).trans <|
    (GenP.V10_of m c main_arg2 (by decide)).trans <|
    (GenP.V9_of m c main_arg2 (by decide)).trans <|
    (GenP.V8_of m c main_arg2 (by decide)).trans <|
    (GenP.V7_of m c main_arg2 (by decide)).trans <|
    (GenP.V6_of m c main_arg2 (by decide)).trans <|
    (GenP.V5_of m c main_arg2 (by decide)).trans <|
    (GenP.V4_of m c main_arg2 (by decide)).trans <|
    (GenP.V3_of m c main_arg2 (by decide)).trans <|
    (GenP.V2_of m c main_arg2 (by decide)).trans <|
    (GenP.V1_of m c main_arg2 (by decide)).trans rfl

/-- The left operand: the incidence matrix converted, then 48 rows and 96 columns of padding. -/
theorem arrA_eq : arrA m outs c
    = pad S2048x4096 ![0, 0] ![48, 96] ![0, 0] (a2 m c)
        (sitofp (F := Ideal) .bf16 (constantI S_ 32 0#32)) pads_S2000x4000_S2048x4096_0480_0960 h_S_ := by
  dsimp only [arrA, a2]
  rw [(GenP.V40_of m outs c main_v78 (by decide)).trans <|
    (GenP.V39_of m outs c main_v78 (by decide)).trans <|
    (GenP.V38_of m outs c main_v78 (by decide)).trans <|
    (GenP.V37_of m outs c main_v78 (by decide)).trans <|
    (GenP.V36_of m outs c main_v78 (by decide))]
  dsimp only [GenP.V35, GenP.V34]
  simp only [hostOps4_1, hostOps4]
  after_results
  simp only [TRef.ofBuf, TRef.toBuf, cast_eq]
  rw [show GenP.V33 m outs c (Proc.tc.devRef main_arg2) = m ((c : Thread nD τ).loc main_arg2) from arg2_thru m outs c]
  rfl

theorem arrA_in (r : Fin 2000) (q : Fin 4000) :
    arrA m outs c (ix2 ⟨r.val, by omega⟩ ⟨q.val, by omega⟩) = a2 m c (ix2 r q) := by
  rw [arrA_eq]
  refine pad_apply_of_inside ![0, 0] ![48, 96] ![0, 0] _ _ pads_S2000x4000_S2048x4096_0480_0960 h_S_
    (ix2 ⟨r.val, by omega⟩ ⟨q.val, by omega⟩) (ix2 r q) fun a => ?_
  match a with
  | ⟨0, _⟩ => show r.val = 0 + r.val * (0 + 1); omega
  | ⟨1, _⟩ => show q.val = 0 + q.val * (0 + 1); omega

/-- The padding columns of the left operand are 0. -/
theorem arrA_out (r : Fin 2048) (q : Fin 4096) (hq : 4000 ≤ q.val) : arrA m outs c (ix2 r q) = 0 := by
  rw [arrA_eq]
  refine (pad_apply_of_not_inside (s := S2000x4000) (t := S2048x4096) ![0, 0] ![48, 96] ![0, 0] _ _ pads_S2000x4000_S2048x4096_0480_0960 h_S_
    (ix2 r q) 1 fun h => ?_).trans padval_bf16
  have h3 := h.2.2
  change (q.val - 0) / (0 + 1) < 4000 at h3
  omega

/-- The right operand: the first 4000 rows of the previous region's result, converted, then 96 rows of padding. -/
theorem arrB_eq : arrB m outs c
    = pad S4096x256 ![0, 0] ![96, 0] ![0, 0] (extractStridedSlice S4000x256 ![0, 0] (out3 outs c) slices_S4096x256_S4000x256_0_0)
        (sitofp (F := Ideal) .bf16 (constantI S_ 32 0#32)) pads_S4000x256_S4096x256_0960_000 h_S_ := by
  dsimp only [arrB, out3]
  rw [(GenP.V40_of m outs c main_v80 (by decide)).trans <|
    (GenP.V39_of m outs c main_v80 (by decide)).trans <|
    (GenP.V38_of m outs c main_v80 (by decide))]
  dsimp only [GenP.V37, GenP.V36, GenP.V35, GenP.V34]
  simp only [hostOps4_3, hostOps4_2, hostOps4_1, hostOps4]
  after_results
  simp only [TRef.ofBuf, TRef.toBuf, cast_eq]
  rw [show GenP.V33 m outs c (Proc.tc.devRef main_v75) = outs 33 main_v75 c from Function.update_self _ _ _]
  rfl

theorem arrB_in (q : Fin 4000) (j : Fin 256) :
    arrB m outs c (ix2 ⟨q.val, by omega⟩ j) = out3 outs c (ix2 ⟨q.val, by omega⟩ j) := by
  rw [arrB_eq]
  refine (pad_apply_of_inside ![0, 0] ![96, 0] ![0, 0] _ _ pads_S4000x256_S4096x256_0960_000 h_S_
    (ix2 ⟨q.val, by omega⟩ j) (ix2 q j) fun a => ?_).trans ?_
  · match a with
    | ⟨0, _⟩ => show q.val = 0 + q.val * (0 + 1); omega
    | ⟨1, _⟩ => show j.val = 0 + j.val * (0 + 1); omega
  · exact extractStridedSlice_apply ![0, 0] _ slices_S4096x256_S4000x256_0_0 (ix2 q j) (ix2 ⟨q.val, by omega⟩ j) fun a => by
      match a with
      | ⟨0, _⟩ => show q.val = 0 + q.val; omega
      | ⟨1, _⟩ => show j.val = 0 + j.val; omega

theorem v19_thru : GenP.V33 m outs c main_v19 = GenP.V5 m c main_v19 :=
  (GenP.V33_of m outs c main_v19 (by decide)).trans <|
    (GenP.V32_of m outs c main_v19 (by decide)).trans <|
    (GenP.V31_of m outs c main_v19 (by decide)).trans <|
    (GenP.V30_of m outs c main_v19 (by decide)).trans <|
    (GenP.V29_of m outs c main_v19 (by decide)).trans <|
    (GenP.V28_of m outs c main_v19 (by decide)).trans <|
    (GenP.V27_of m outs c main_v19 (by decide)).trans <|
    (GenP.V26_of m outs c main_v19 (by decide)).trans <|
    (GenP.V25_of m outs c main_v19 (by decide)).trans <|
    (GenP.V24_of m outs c main_v19 (by decide)).trans <|
    (GenP.V23_of m outs c main_v19 (by decide)).trans <|
    (GenP.V22_of m outs c main_v19 (by decide)).trans <|
    (GenP.V21_of m outs c main_v19 (by decide)).trans <|
    (GenP.V20_of m outs c main_v19 (by decide)).trans <|
    (GenP.V19_of m outs c main_v19 (by decide)).trans <|
    (GenP.V18_of m outs c main_v19 (by decide)).trans <|
    (GenP.V17_of m outs c main_v19 (by decide)).trans <|
    (GenP.V16_of m outs c main_v19 (by decide)).trans <|
    (GenP.V15_of m outs c main_v19 (by decide)).trans <|
    (GenP.V14_of m outs c main_v19 (by decide)).trans <|
    (GenP.V13_of m c main_v19 (by decide)).trans <|
    (GenP.V12_of m c main_v19 (by decide)).trans <|
    (GenP.V11_of m c main_v19 (by decide)).trans <|
    (GenP.V10_of m c main_v19 (by decide)).trans <|
    (GenP.V9_of m c main_v19 (by decide)).trans <|
    (GenP.V8_of m c main_v19 (by decide)).trans <|
    (GenP.V7_of m c main_v19 (by decide)).trans <|
    (GenP.V6_of m c main_v19 (by decide))

/-- The scale column: the safe inverse of the row sums, then 48 rows of padding. -/
theorem arrS_eq' : (GenP.V40 m outs c main_v82 : S2048x1.Idx → EReal)
    = pad S2048x1 ![0, 0] ![48, 0] ![0, 0] (GenP.V33 m outs c main_v19)
        (sitofp (F := Ideal) .f32 (constantI S_ 32 0#32)) pads_S2000x1_S2048x1_0480_000 h_S_ := by
  rw [(GenP.V40_of m outs c main_v82 (by decide))]
  dsimp only [GenP.V39]
  simp only [hostOps4_5]
  after_results
  simp only [TRef.ofBuf, TRef.toBuf, cast_eq]

theorem arrS_eq : arrS m outs c
    = pad S2048x1 ![0, 0] ![48, 0] ![0, 0] (binvK m c)
        (sitofp (F := Ideal) .f32 (constantI S_ 32 0#32)) pads_S2000x1_S2048x1_0480_000 h_S_ :=
  (arrS_eq' m outs c).trans (congrArg (fun X : S2000x1.Idx → EReal => pad S2048x1 ![0, 0] ![48, 0] ![0, 0] X
    (sitofp (F := Ideal) .f32 (constantI S_ 32 0#32)) pads_S2000x1_S2048x1_0480_000 h_S_) (v19_thru m outs c))

theorem arrS_in (r : Fin 2000) : arrS m outs c (ix2 ⟨r.val, by omega⟩ 0) = binvK m c (ix2 r 0) := by
  rw [arrS_eq]
  refine pad_apply_of_inside ![0, 0] ![48, 0] ![0, 0] _ _ pads_S2000x1_S2048x1_0480_000 h_S_
    (ix2 ⟨r.val, by omega⟩ 0) (ix2 r 0) fun a => ?_
  match a with
  | ⟨0, _⟩ => show r.val = 0 + r.val * (0 + 1); omega
  | ⟨1, _⟩ => show 0 = 0 + 0 * (0 + 1); omega

/-- The region's result on the true rows: the incidence matrix times the previous region's true rows, each row scaled. -/
theorem core4
    (h4 : ∀ (r : Fin 2048) (j : Fin 256), out4 outs c (ix2 r j)
      = (∑ q : Fin 4096, arrA m outs c (ix2 r q) * arrB m outs c (ix2 q j)) * arrS m outs c (ix2 r 0) + arrZ m outs c (ix2 0 j))
    (r : Fin 2000) (j : Fin 256) :
    out4 outs c (ix2 ⟨r.val, by omega⟩ j)
      = (∑ q : Fin 4000, a2 m c (ix2 r q) * out3 outs c (ix2 ⟨q.val, by omega⟩ j)) * binvK m c (ix2 r 0) := by
  rw [h4, arrZ_at, add_zero, arrS_in]
  congr 1
  rw [sum_drop (by omega : 4000 ≤ 4096) _ (fun q hq => by rw [arrA_out m outs c _ q hq, zero_mul])]
  refine Finset.sum_congr rfl fun q _ => ?_
  rw [arrA_in m outs c r q, arrB_in m outs c q j]

abbrev a9 : S256x256.Idx → EReal := m ((c : Thread nD τ).loc main_arg9)

/-- The launch contents of the arguments the reference's stage reads. -/
abbrev a0 : S4000x4000.Idx → EReal := m ((c : Thread nD τ).loc main_arg0)
abbrev a7 : S4000x256.Idx → EReal := m ((c : Thread nD τ).loc main_arg7)
abbrev a8 : S256.Idx → EReal := m ((c : Thread nD τ).loc main_arg8)

/-- The safe inverse of a vector of 2000 sums: 1 / max(x, 1e-12) where x > 0, and 0 elsewhere. -/
def sinv (R : S2000.Idx → EReal) : S2000.Idx → EReal :=
  select (cmpf .ogt R (broadcastInDim S2000 ![] bcast_S_S2000 (constant (F := Ideal) S_ .f32 0x00000000#32)))
    (Host.divf (broadcastInDim S2000 ![] bcast_S_S2000 (constant (F := Ideal) S_ .f32 0x3F800000#32))
      (maximumf R (broadcastInDim S2000 ![] bcast_S_S2000 (constant (F := Ideal) S_ .f32 0x2B8CBCCC#32))))
    (broadcastInDim S2000 ![] bcast_S_S2000 (id (constant (F := Ideal) S_ .f32 0x00000000#32)))

/-- The scale column is the safe inverse of the incidence matrix's sums along its second axis. -/
theorem binvK_eq : binvK m c = broadcastInDim S2000x1 ![0] bcast_S2000_S2000x1_0
    (sinv (Host.reduceAdd (a2 m c) (constant (F := Ideal) S_ .f32 0x00000000#32) reducesTo_S2000x4000_S2000_d1 h_S_)) := by
  dsimp only [binvK, GenP.V5, GenP.V4, GenP.V3]
  simp only [hostOps0_4, hostOps0_3, hostOps0_2]
  after_results_simp
  simp only [TRef.ofBuf, TRef.toBuf, cast_eq]
  rfl

open Cert.ReferenceIdeal.Read in
/-- Summing the matrix along its second axis is summing its transpose along its first: term by term the same sum. -/
theorem rsum_eq : Host.reduceAdd (a2 m c) (constant (F := Ideal) S_ .f32 0x00000000#32) reducesTo_S2000x4000_S2000_d1 h_S_
    = val_main_v40 (F := Ideal) (a2 m c) := by
  funext i
  rw [val_main_v40_apply]
  simp only [Host.reduceAdd, Ideal.hostReduceAdd_def]
  rw [Ideal.hostReduceAdd_single reducesTo_S2000x4000_S2000_d1 (by decide)]
  refine congrArg₂ (· + ·) rfl (Finset.sum_congr rfl fun k _ => ?_)
  rw [val_main_v0_apply]
  exact congrArg (a2 m c) (funext fun a => Fin.ext (by match a with | ⟨0, _⟩ => rfl | ⟨1, _⟩ => rfl))

open Cert.ReferenceIdeal.Read in
theorem binvK_at (r : Fin 2000) : binvK m c (ix2 r 0) = val_main_v47 (F := Ideal) (a2 m c) (ix1 r) := by
  rw [binvK_eq, rsum_eq]
  exact broadcastInDim_apply _ bcast_S2000_S2000x1_0 _ (ix2 r 0) (ix1 r) (fun a => match a with
    | ⟨0, _⟩ => by show r.val = if (2000 : Nat) = 1 then 0 else r.val; rw [if_neg (by decide)])

open Cert.ReferenceIdeal.Read in
/-- On its true rows the region's result is the reference's hyperedge aggregate of the second layer. -/
theorem OUT_4
    (h4 : ∀ (r : Fin 2048) (j : Fin 256), out4 outs c (ix2 r j)
      = (∑ q : Fin 4096, arrA m outs c (ix2 r q) * arrB m outs c (ix2 q j)) * arrS m outs c (ix2 r 0) + arrZ m outs c (ix2 0 j))
    (OUT_3 : ∀ (r : Fin 4000) (j : Fin 256), out3 outs c (ix2 ⟨r.val, by omega⟩ j)
      = val_main_v48 (F := Ideal) (a0 m c) (a2 m c) (a7 m c) (a8 m c) (a9 m c) (ix2 r j))
    (r : Fin 2000) (j : Fin 256) :
    out4 outs c (ix2 ⟨r.val, by omega⟩ j)
      = val_main_v53 (F := Ideal) (a0 m c) (a2 m c) (a7 m c) (a8 m c) (a9 m c) (ix2 r j) := by
  rw [core4 m outs c h4 r j, val_main_v53_apply, val_main_v50_apply, val_main_v52_apply, val_main_v51_apply, Ideal.mulf_def,
    binvK_at m c r]
  refine congrArg₂ (· * ·) (Finset.sum_congr rfl fun q _ => ?_) ?_
  · rw [val_main_v49_apply, val_main_v0_apply, OUT_3 q j]
    congr 2 <;> (funext a; match a with | ⟨0, _⟩ => rfl | ⟨1, _⟩ => rfl)
  · exact congrArg _ (funext fun a => match a with | ⟨0, _⟩ => rfl)

end Cert.KernelIdeal.Stage4
end
-- ==== Proof.KI.Stage5.lean ====
/-
  Region 5 against the reference: the second layer's node aggregate.

  The region multiplies the transposed incidence matrix (converted, padded to 4096 by 2048) by the first 2000 rows
  of the previous region's result (converted, padded with 48 zero rows), scales each row by the safe inverse of the
  incidence matrix's column sums (padded with 96 zero rows) and adds the bias row. The padding columns of the left
  operand are zero, so the sum over 2048 terms is the sum over the first 2000. The reference multiplies by the same
  transposed matrix, scales by the safe inverse of its sums along its second axis (entry by entry the column sums of
  the incidence matrix) and adds the same bias.
-/
import proofs.«414035_j83562883711810_2_alg».proof.Proof.RegionsKI
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«414035_j83562883711810_2_alg».proof.Proof.ReadP
set_option maxRecDepth 16384

noncomputable section

open scoped BigOperators

namespace Cert.KernelIdeal.Stage5

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (outs : GenP.Outs (F := Ideal)) (c : Dev nD)

/-- The region's operands and result, and the previous region's result, as arrays of their literal types. -/
abbrev arrA : S4096x2048.Idx → EReal := GenP.V47 m outs c main_v87
abbrev arrB : S2048x256.Idx → EReal := GenP.V47 m outs c main_v89
abbrev arrS : S4096x1.Idx → EReal := GenP.V47 m outs c main_v91
abbrev arrZ : S1x256.Idx → EReal := GenP.V47 m outs c main_v39
abbrev out5 : S4096x256.Idx → EReal := outs 48 main_v92 c
abbrev out4 : S2048x256.Idx → EReal := outs 41 main_v84 c
abbrev a2 : S2000x4000.Idx → EReal := m ((c : Thread nD τ).loc main_arg2)
abbrev a10 : S256.Idx → EReal := m ((c : Thread nD τ).loc main_arg10)
/-- The transposed incidence matrix. -/
abbrev tr2 : S4000x2000.Idx → EReal := GenP.V1 m c main_v0
/-- The safe inverse of the incidence matrix's column sums, as a column. -/
abbrev dinvK : S4000x1.Idx → EReal := GenP.V3 m c main_v10

/-- The padding value: the integer 0 converted. -/
theorem padval_bf16 : sitofp (F := Ideal) .bf16 (constantI S_ 32 0#32) (Shape.Idx.first h_S_) = 0 := by
  show Scalar.sitofp (F := Ideal) .bf16 (0#32 : BitVec 32) = 0
  simp
theorem padval_f32 : sitofp (F := Ideal) .f32 (constantI S_ 32 0#32) (Shape.Idx.first h_S_) = 0 := by
  show Scalar.sitofp (F := Ideal) .f32 (0#32 : BitVec 32) = 0
  simp

/-- Terms that vanish from K0 on may be dropped from a sum over the first Kp naturals. -/
theorem sum_drop {K0 Kp : ℕ} (h : K0 ≤ Kp) (g : Fin Kp → EReal) (hz : ∀ q : Fin Kp, K0 ≤ q.val → g q = 0) :
    ∑ q : Fin Kp, g q = ∑ q : Fin K0, g ⟨q.val, lt_of_lt_of_le q.isLt h⟩ := by
  obtain ⟨d, rfl⟩ := Nat.exists_eq_add_of_le h
  rw [Fin.sum_univ_add]
  have h2 : ∑ i : Fin d, g (Fin.natAdd K0 i) = 0 := Finset.sum_eq_zero fun i _ => hz _ (Nat.le_add_right _ _)
  rw [h2, add_zero]
  rfl

theorem tr2_eq : tr2 m c = transpose S4000x2000 [1, 0] (a2 m c) transposes_S2000x4000_S4000x2000_1_0 := by
  dsimp only [tr2, a2, GenP.V1]
  simp only [hostOps0]
  after_results
  all_goals rfl

theorem tr2_at (r : Fin 4000) (q : Fin 2000) : tr2 m c (ix2 r q) = a2 m c (ix2 q r) := by
  rw [tr2_eq]
  exact transpose_apply [1, 0] _ transposes_S2000x4000_S4000x2000_1_0 (ix2 r q) (ix2 q r) (fun b => match b with
    | ⟨0, _⟩ => rfl
    | ⟨1, _⟩ => rfl)

theorem v0_thru : GenP.V41 m outs c main_v0 = GenP.V1 m c main_v0 :=
  (GenP.V41_of m outs c main_v0 (by decide)).trans <|
    (GenP.V40_of m outs c main_v0 (by decide)).trans <|
    (GenP.V39_of m outs c main_v0 (by decide)).trans <|
    (GenP.V38_of m outs c main_v0 (by decide)).trans <|
    (GenP.V37_of m outs c main_v0 (by decide)).trans <|
    (GenP.V36_of m outs c main_v0 (by decide)).trans <|
    (GenP.V35_of m outs c main_v0 (by decide)).trans <|
    (GenP.V34_of m outs c main_v0 (by decide)).trans <|
    (GenP.V33_of m outs c main_v0 (by decide)).trans <|
    (GenP.V32_of m outs c main_v0 (by decide)).trans <|
    (GenP.V31_of m outs c main_v0 (by decide)).trans <|
    (GenP.V30_of m outs c main_v0 (by decide)).trans <|
    (GenP.V29_of m outs c main_v0 (by decide)).trans <|
    (GenP.V28_of m outs c main_v0 (by decide)).trans <|
    (GenP.V27_of m outs c main_v0 (by decide)).trans <|
    (GenP.V26_of m outs c main_v0 (by decide)).trans <|
    (GenP.V25_of m outs c main_v0 (by decide)).trans <|
    (GenP.V24_of m outs c main_v0 (by decide)).trans <|
    (GenP.V23_of m outs c main_v0 (by decide)).trans <|
    (GenP.V22_of m outs c main_v0 (by decide)).trans <|
    (GenP.V21_of m outs c main_v0 (by decide)).trans <|
    (GenP.V20_of m outs c main_v0 (by decide)).trans <|
    (GenP.V19_of m outs c main_v0 (by decide)).trans <|
    (GenP.V18_of m outs c main_v0 (by decide)).trans <|
    (GenP.V17_of m outs c main_v0 (by decide)).trans <|
    (GenP.V16_of m outs c main_v0 (by decide)).trans <|
    (GenP.V15_of m outs c main_v0 (by decide)).trans <|
    (GenP.V14_of m outs c main_v0 (by decide)).trans <|
    (GenP.V13_of m c main_v0 (by decide)).trans <|
    (GenP.V12_of m c main_v0 (by decide)).trans <|
    (GenP.V11_of m c main_v0 (by decide)).trans <|
    (GenP.V10_of m c main_v0 (by decide)).trans <|
    (GenP.V9_of m c main_v0 (by decide)).trans <|
    (GenP.V8_of m c main_v0 (by decide)).trans <|
    (GenP.V7_of m c main_v0 (by decide)).trans <|
    (GenP.V6_of m c main_v0 (by decide)).trans <|
    (GenP.V5_of m c main_v0 (by decide)).trans <|
    (GenP.V4_of m c main_v0 (by decide)).trans <|
    (GenP.V3_of m c main_v0 (by decide)).trans <|
    (GenP.V2_of m c main_v0 (by decide))

theorem arrA_eq' : (GenP.V47 m outs c main_v87 : S4096x2048.Idx → EReal)
    = pad S4096x2048 ![0, 0] ![96, 48] ![0, 0] (GenP.V41 m outs c main_v0)
        (sitofp (F := Ideal) .bf16 (constantI S_ 32 0#32)) pads_S4000x2000_S4096x2048_0960_0480 h_S_ := by
  rw [(GenP.V47_of m outs c main_v87 (by decide)).trans <|
    (GenP.V46_of m outs c main_v87 (by decide)).trans <|
    (GenP.V45_of m outs c main_v87 (by decide)).trans <|
    (GenP.V44_of m outs c main_v87 (by decide))]
  dsimp only [GenP.V43, GenP.V42]
  simp only [hostOps5_1, hostOps5]
  after_results
  simp only [TRef.ofBuf, TRef.toBuf, cast_eq]
  all_goals rfl

/-- The left operand: the transposed incidence matrix converted, then 96 rows and 48 columns of padding. -/
theorem arrA_eq : arrA m outs c
    = pad S4096x2048 ![0, 0] ![96, 48] ![0, 0] (tr2 m c)
        (sitofp (F := Ideal) .bf16 (constantI S_ 32 0#32)) pads_S4000x2000_S4096x2048_0960_0480 h_S_ :=
  (arrA_eq' m outs c).trans (congrArg (fun X : S4000x2000.Idx → EReal => pad S4096x2048 ![0, 0] ![96, 48] ![0, 0] X
    (sitofp (F := Ideal) .bf16 (constantI S_ 32 0#32)) pads_S4000x2000_S4096x2048_0960_0480 h_S_) (v0_thru m outs c))

theorem arrA_in (r : Fin 4000) (q : Fin 2000) :
    arrA m outs c (ix2 ⟨r.val, by omega⟩ ⟨q.val, by omega⟩) = a2 m c (ix2 q r) := by
  rw [arrA_eq]
  refine (pad_apply_of_inside ![0, 0] ![96, 48] ![0, 0] _ _ pads_S4000x2000_S4096x2048_0960_0480 h_S_
    (ix2 ⟨r.val, by omega⟩ ⟨q.val, by omega⟩) (ix2 r q) fun a => ?_).trans (tr2_at m c r q)
  match a with
  | ⟨0, _⟩ => show r.val = 0 + r.val * (0 + 1); omega
  | ⟨1, _⟩ => show q.val = 0 + q.val * (0 + 1); omega

/-- The padding columns of the left operand are 0. -/
theorem arrA_out (r : Fin 4096) (q : Fin 2048) (hq : 2000 ≤ q.val) : arrA m outs c (ix2 r q) = 0 := by
  rw [arrA_eq]
  refine (pad_apply_of_not_inside (s := S4000x2000) (t := S4096x2048) ![0, 0] ![96, 48] ![0, 0] _ _
    pads_S4000x2000_S4096x2048_0960_0480 h_S_ (ix2 r q) 1 fun h => ?_).trans padval_bf16
  have h3 := h.2.2
  change (q.val - 0) / (0 + 1) < 2000 at h3
  omega

/-- The right operand: the first 2000 rows of the previous region's result, converted, then 48 rows of padding. -/
theorem arrB_eq : arrB m outs c
    = pad S2048x256 ![0, 0] ![48, 0] ![0, 0] (extractStridedSlice S2000x256 ![0, 0] (out4 outs c) slices_S2048x256_S2000x256_0_0)
        (sitofp (F := Ideal) .bf16 (constantI S_ 32 0#32)) pads_S2000x256_S2048x256_0480_000 h_S_ := by
  dsimp only [arrB, out4]
  rw [(GenP.V47_of m outs c main_v89 (by decide)).trans <|
    (GenP.V46_of m outs c main_v89 (by decide))]
  dsimp only [GenP.V45, GenP.V44, GenP.V43, GenP.V42]
  simp only [hostOps5_3, hostOps5_2, hostOps5_1, hostOps5]
  after_results
  simp only [TRef.ofBuf, TRef.toBuf, cast_eq]
  rw [show GenP.V41 m outs c (Proc.tc.devRef main_v84) = outs 41 main_v84 c from Function.update_self _ _ _]
  rfl

theorem arrB_in (q : Fin 2000) (j : Fin 256) :
    arrB m outs c (ix2 ⟨q.val, by omega⟩ j) = out4 outs c (ix2 ⟨q.val, by omega⟩ j) := by
  rw [arrB_eq]
  refine (pad_apply_of_inside ![0, 0] ![48, 0] ![0, 0] _ _ pads_S2000x256_S2048x256_0480_000 h_S_
    (ix2 ⟨q.val, by omega⟩ j) (ix2 q j) fun a => ?_).trans ?_
  · match a with
    | ⟨0, _⟩ => show q.val = 0 + q.val * (0 + 1); omega
    | ⟨1, _⟩ => show j.val = 0 + j.val * (0 + 1); omega
  · exact extractStridedSlice_apply ![0, 0] _ slices_S2048x256_S2000x256_0_0 (ix2 q j) (ix2 ⟨q.val, by omega⟩ j) fun a => by
      match a with
      | ⟨0, _⟩ => show q.val = 0 + q.val; omega
      | ⟨1, _⟩ => show j.val = 0 + j.val; omega

theorem v10_thru : GenP.V41 m outs c main_v10 = GenP.V3 m c main_v10 :=
  (GenP.V41_of m outs c main_v10 (by decide)).trans <|
    (GenP.V40_of m outs c main_v10 (by decide)).trans <|
    (GenP.V39_of m outs c main_v10 (by decide)).trans <|
    (GenP.V38_of m outs c main_v10 (by decide)).trans <|
    (GenP.V37_of m outs c main_v10 (by decide)).trans <|
    (GenP.V36_of m outs c main_v10 (by decide)).trans <|
    (GenP.V35_of m outs c main_v10 (by decide)).trans <|
    (GenP.V34_of m outs c main_v10 (by decide)).trans <|
    (GenP.V33_of m outs c main_v10 (by decide)).trans <|
    (GenP.V32_of m outs c main_v10 (by decide)).trans <|
    (GenP.V31_of m outs c main_v10 (by decide)).trans <|
    (GenP.V30_of m outs c main_v10 (by decide)).trans <|
    (GenP.V29_of m outs c main_v10 (by decide)).trans <|
    (GenP.V28_of m outs c main_v10 (by decide)).trans <|
    (GenP.V27_of m outs c main_v10 (by decide)).trans <|
    (GenP.V26_of m outs c main_v10 (by decide)).trans <|
    (GenP.V25_of m outs c main_v10 (by decide)).trans <|
    (GenP.V24_of m outs c main_v10 (by decide)).trans <|
    (GenP.V23_of m outs c main_v10 (by decide)).trans <|
    (GenP.V22_of m outs c main_v10 (by decide)).trans <|
    (GenP.V21_of m outs c main_v10 (by decide)).trans <|
    (GenP.V20_of m outs c main_v10 (by decide)).trans <|
    (GenP.V19_of m outs c main_v10 (by decide)).trans <|
    (GenP.V18_of m outs c main_v10 (by decide)).trans <|
    (GenP.V17_of m outs c main_v10 (by decide)).trans <|
    (GenP.V16_of m outs c main_v10 (by decide)).trans <|
    (GenP.V15_of m outs c main_v10 (by decide)).trans <|
    (GenP.V14_of m outs c main_v10 (by decide)).trans <|
    (GenP.V13_of m c main_v10 (by decide)).trans <|
    (GenP.V12_of m c main_v10 (by decide)).trans <|
    (GenP.V11_of m c main_v10 (by decide)).trans <|
    (GenP.V10_of m c main_v10 (by decide)).trans <|
    (GenP.V9_of m c main_v10 (by decide)).trans <|
    (GenP.V8_of m c main_v10 (by decide)).trans <|
    (GenP.V7_of m c main_v10 (by decide)).trans <|
    (GenP.V6_of m c main_v10 (by decide)).trans <|
    (GenP.V5_of m c main_v10 (by decide)).trans <|
    (GenP.V4_of m c main_v10 (by decide))

theorem arrS_eq' : (GenP.V47 m outs c main_v91 : S4096x1.Idx → EReal)
    = pad S4096x1 ![0, 0] ![96, 0] ![0, 0] (GenP.V41 m outs c main_v10)
        (sitofp (F := Ideal) .f32 (constantI S_ 32 0#32)) pads_S4000x1_S4096x1_0960_000 h_S_ := by
  dsimp only [GenP.V47]
  simp only [hostOps5_5]
  after_results
  simp only [TRef.ofBuf, TRef.toBuf, cast_eq]

/-- The scale column: the safe inverse of the column sums, then 96 rows of padding. -/
theorem arrS_eq : arrS m outs c
    = pad S4096x1 ![0, 0] ![96, 0] ![0, 0] (dinvK m c)
        (sitofp (F := Ideal) .f32 (constantI S_ 32 0#32)) pads_S4000x1_S4096x1_0960_000 h_S_ :=
  (arrS_eq' m outs c).trans (congrArg (fun X : S4000x1.Idx → EReal => pad S4096x1 ![0, 0] ![96, 0] ![0, 0] X
    (sitofp (F := Ideal) .f32 (constantI S_ 32 0#32)) pads_S4000x1_S4096x1_0960_000 h_S_) (v10_thru m outs c))

theorem arrS_in (r : Fin 4000) : arrS m outs c (ix2 ⟨r.val, by omega⟩ 0) = dinvK m c (ix2 r 0) := by
  rw [arrS_eq]
  refine pad_apply_of_inside ![0, 0] ![96, 0] ![0, 0] _ _ pads_S4000x1_S4096x1_0960_000 h_S_
    (ix2 ⟨r.val, by omega⟩ 0) (ix2 r 0) fun a => ?_
  match a with
  | ⟨0, _⟩ => show r.val = 0 + r.val * (0 + 1); omega
  | ⟨1, _⟩ => show 0 = 0 + 0 * (0 + 1); omega

/-- The bias row is the bias vector laid along the columns. -/
theorem arrZ_eq : arrZ m outs c = broadcastInDim S1x256 ![1] bcast_S256_S1x256_1 (a10 m c) := by
  dsimp only [arrZ, a10]
  rw [(GenP.V47_of m outs c main_v39 (by decide)).trans <|
    (GenP.V46_of m outs c main_v39 (by decide)).trans <|
    (GenP.V45_of m outs c main_v39 (by decide)).trans <|
    (GenP.V44_of m outs c main_v39 (by decide)).trans <|
    (GenP.V43_of m outs c main_v39 (by decide)).trans <|
    (GenP.V42_of m outs c main_v39 (by decide)).trans <|
    (GenP.V41_of m outs c main_v39 (by decide)).trans <|
    (GenP.V40_of m outs c main_v39 (by decide)).trans <|
    (GenP.V39_of m outs c main_v39 (by decide)).trans <|
    (GenP.V38_of m outs c main_v39 (by decide)).trans <|
    (GenP.V37_of m outs c main_v39 (by decide)).trans <|
    (GenP.V36_of m outs c main_v39 (by decide)).trans <|
    (GenP.V35_of m outs c main_v39 (by decide)).trans <|
    (GenP.V34_of m outs c main_v39 (by decide)).trans <|
    (GenP.V33_of m outs c main_v39 (by decide)).trans <|
    (GenP.V32_of m outs c main_v39 (by decide)).trans <|
    (GenP.V31_of m outs c main_v39 (by decide)).trans <|
    (GenP.V30_of m outs c main_v39 (by decide)).trans <|
    (GenP.V29_of m outs c main_v39 (by decide)).trans <|
    (GenP.V28_of m outs c main_v39 (by decide)).trans <|
    (GenP.V27_of m outs c main_v39 (by decide)).trans <|
    (GenP.V26_of m outs c main_v39 (by decide)).trans <|
    (GenP.V25_of m outs c main_v39 (by decide)).trans <|
    (GenP.V24_of m outs c main_v39 (by decide)).trans <|
    (GenP.V23_of m outs c main_v39 (by decide)).trans <|
    (GenP.V22_of m outs c main_v39 (by decide)).trans <|
    (GenP.V21_of m outs c main_v39 (by decide)).trans <|
    (GenP.V20_of m outs c main_v39 (by decide)).trans <|
    (GenP.V19_of m outs c main_v39 (by decide)).trans <|
    (GenP.V18_of m outs c main_v39 (by decide)).trans <|
    (GenP.V17_of m outs c main_v39 (by decide)).trans <|
    (GenP.V16_of m outs c main_v39 (by decide)).trans <|
    (GenP.V15_of m outs c main_v39 (by decide)).trans <|
    (GenP.V14_of m outs c main_v39 (by decide)).trans <|
    (GenP.V13_of m c main_v39 (by decide)).trans <|
    (GenP.V12_of m c main_v39 (by decide)).trans <|
    (GenP.V11_of m c main_v39 (by decide)).trans <|
    (GenP.V10_of m c main_v39 (by decide))]
  dsimp only [GenP.V9]
  simp only [hostOps0_8]
  after_results
  all_goals rfl

theorem arrZ_at (j : Fin 256) : arrZ m outs c (ix2 0 j) = a10 m c (ix1 j) := by
  rw [arrZ_eq]
  exact broadcastInDim_apply _ bcast_S256_S1x256_1 _ (ix2 0 j) (ix1 j) (fun a => match a with
    | ⟨0, _⟩ => by show j.val = if (256 : Nat) = 1 then 0 else j.val; rw [if_neg (by decide)])

/-- The region's result on the true rows: the transposed incidence matrix times the previous region's true rows,
    each row scaled, plus the bias. -/
theorem core5
    (h5 : ∀ (r : Fin 4096) (j : Fin 256), out5 outs c (ix2 r j)
      = (∑ q : Fin 2048, arrA m outs c (ix2 r q) * arrB m outs c (ix2 q j)) * arrS m outs c (ix2 r 0) + arrZ m outs c (ix2 0 j))
    (r : Fin 4000) (j : Fin 256) :
    out5 outs c (ix2 ⟨r.val, by omega⟩ j)
      = (∑ q : Fin 2000, a2 m c (ix2 q r) * out4 outs c (ix2 ⟨q.val, by omega⟩ j)) * dinvK m c (ix2 r 0) + a10 m c (ix1 j) := by
  rw [h5, arrZ_at, arrS_in]
  congr 2
  rw [sum_drop (by omega : 2000 ≤ 2048) _ (fun q hq => by rw [arrA_out m outs c _ q hq, zero_mul])]
  refine Finset.sum_congr rfl fun q _ => ?_
  rw [arrA_in m outs c r q, arrB_in m outs c q j]

abbrev a9 : S256x256.Idx → EReal := m ((c : Thread nD τ).loc main_arg9)

/-- The launch contents of the arguments the reference's stage reads. -/
abbrev a0 : S4000x4000.Idx → EReal := m ((c : Thread nD τ).loc main_arg0)
abbrev a7 : S4000x256.Idx → EReal := m ((c : Thread nD τ).loc main_arg7)
abbrev a8 : S256.Idx → EReal := m ((c : Thread nD τ).loc main_arg8)

/-- The safe inverse of a vector of 4000 sums: 1 / max(x, 1e-12) where x > 0, and 0 elsewhere. -/
def sinv (R : S4000.Idx → EReal) : S4000.Idx → EReal :=
  select (cmpf .ogt R (broadcastInDim S4000 ![] bcast_S_S4000 (constant (F := Ideal) S_ .f32 0x00000000#32)))
    (Host.divf (broadcastInDim S4000 ![] bcast_S_S4000 (constant (F := Ideal) S_ .f32 0x3F800000#32))
      (maximumf R (broadcastInDim S4000 ![] bcast_S_S4000 (constant (F := Ideal) S_ .f32 0x2B8CBCCC#32))))
    (broadcastInDim S4000 ![] bcast_S_S4000 (id (constant (F := Ideal) S_ .f32 0x00000000#32)))

set_option maxHeartbeats 1000000 in
/-- The scale column is the safe inverse of the incidence matrix's sums along its first axis. -/
theorem dinvK_eq : dinvK m c = broadcastInDim S4000x1 ![0] bcast_S4000_S4000x1_0
    (sinv (Host.reduceAdd (a2 m c) (constant (F := Ideal) S_ .f32 0x00000000#32) reducesTo_S2000x4000_S4000_d0 h_S_)) := by
  dsimp only [dinvK, GenP.V3, GenP.V2, GenP.V1]
  simp only [hostOps0_2, hostOps0_1, hostOps0]
  after_results_simp
  simp only [TRef.ofBuf, TRef.toBuf, cast_eq]
  rfl

open Cert.ReferenceIdeal.Read in
/-- Summing the matrix along its first axis is summing its transpose along its second: term by term the same sum. -/
theorem csum_eq : Host.reduceAdd (a2 m c) (constant (F := Ideal) S_ .f32 0x00000000#32) reducesTo_S2000x4000_S4000_d0 h_S_
    = val_main_v32 (F := Ideal) (a2 m c) := by
  funext i
  rw [val_main_v32_apply]
  simp only [Host.reduceAdd, Ideal.hostReduceAdd_def]
  rw [Ideal.hostReduceAdd_single reducesTo_S2000x4000_S4000_d0 (by decide)]
  refine congrArg₂ (· + ·) rfl (Finset.sum_congr rfl fun k _ => ?_)
  rw [val_main_v0_apply]
  exact congrArg (a2 m c) (funext fun a => Fin.ext (by match a with | ⟨0, _⟩ => rfl | ⟨1, _⟩ => rfl))

open Cert.ReferenceIdeal.Read in
theorem dinvK_at (r : Fin 4000) : dinvK m c (ix2 r 0) = val_main_v39 (F := Ideal) (a2 m c) (ix1 r) := by
  rw [dinvK_eq, csum_eq]
  exact broadcastInDim_apply _ bcast_S4000_S4000x1_0 _ (ix2 r 0) (ix1 r) (fun a => match a with
    | ⟨0, _⟩ => by show r.val = if (4000 : Nat) = 1 then 0 else r.val; rw [if_neg (by decide)])

open Cert.ReferenceIdeal.Read in
/-- On its true rows the region's result is the reference's second hypergraph layer. -/
theorem OUT_5
    (h5 : ∀ (r : Fin 4096) (j : Fin 256), out5 outs c (ix2 r j)
      = (∑ q : Fin 2048, arrA m outs c (ix2 r q) * arrB m outs c (ix2 q j)) * arrS m outs c (ix2 r 0) + arrZ m outs c (ix2 0 j))
    (OUT_4 : ∀ (r : Fin 2000) (j : Fin 256), out4 outs c (ix2 ⟨r.val, by omega⟩ j)
      = val_main_v53 (F := Ideal) (a0 m c) (a2 m c) (a7 m c) (a8 m c) (a9 m c) (ix2 r j))
    (r : Fin 4000) (j : Fin 256) :
    out5 outs c (ix2 ⟨r.val, by omega⟩ j)
      = val_main_v60 (F := Ideal) (a0 m c) (a2 m c) (a7 m c) (a8 m c) (a9 m c) (a10 m c) (ix2 r j) := by
  rw [core5 m outs c h5 r j, val_main_v60_apply, val_main_v57_apply, val_main_v54_apply, val_main_v56_apply, val_main_v55_apply,
    val_main_v59_apply, val_main_v58_apply, Ideal.addf_def, Ideal.mulf_def, dinvK_at m c r]
  refine congrArg₂ (· + ·) (congrArg₂ (· * ·) (Finset.sum_congr rfl fun q _ => ?_) ?_) ?_
  · rw [val_main_v0_apply, OUT_4 q j]
    congr 2 <;> (funext a; match a with | ⟨0, _⟩ => rfl | ⟨1, _⟩ => rfl)
  · exact congrArg _ (funext fun a => match a with | ⟨0, _⟩ => rfl)
  · exact congrArg _ (funext fun a => match a with | ⟨0, _⟩ => rfl)

end Cert.KernelIdeal.Stage5
end
-- ==== Proof.KI.Stage6.lean ====
import proofs.«414035_j83562883711810_2_alg».proof.Proof.RegionsKI
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws
import Idealize.ShloMosaic.Lib.StableHlo.Run

set_option maxRecDepth 2808

noncomputable section

open scoped BigOperators

/-!
  The first product of the d branch, read against the arguments.

  The kernel multiplies the two operands after padding them with zeros up to whole blocks, scales by a column of
  ones and adds a row of zeros. Inside the true extent a padded operand is the argument itself (the narrowing of the
  element type changes no ideal value); beyond it, it is zero, so the padded part of the contracted axis adds
  nothing to the sum. What is left at a true row is the plain product of the two arguments.
-/
namespace Cert.KernelIdeal.Stage6

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (outs : GenP.Outs (F := Ideal)) (c : Dev nD)

/-- The arguments on core `c`. -/
abbrev a1 : S2000x2000.Idx → EReal := m ((c : Thread nD τ).loc main_arg1)
abbrev a11 : S2000x256.Idx → EReal := m ((c : Thread nD τ).loc main_arg11)
/-- What the region leaves in its output, and the four arrays it reads, at its entry. -/
abbrev O : S2048x256.Idx → EReal := outs 54 main_v101 c
abbrev A : S2048x2048.Idx → EReal := GenP.V53 m outs c main_v95
abbrev B : S2048x256.Idx → EReal := GenP.V53 m outs c main_v97
abbrev SO : S2048x1.Idx → EReal := GenP.V53 m outs c main_v99
abbrev BI : S1x256.Idx → EReal := GenP.V53 m outs c main_v100

/-- Terms that vanish from K0 on may be dropped from a sum over Kp ≥ K0 terms. -/
theorem sum_drop {K0 Kp : ℕ} (h : K0 ≤ Kp) (f : Fin Kp → EReal) (hz : ∀ q : Fin Kp, K0 ≤ q.val → f q = 0) :
    ∑ q : Fin Kp, f q = ∑ k : Fin K0, f (Fin.castLE h k) := by
  obtain ⟨d, rfl⟩ := Nat.exists_eq_add_of_le h
  rw [Fin.sum_univ_add,
    show ∑ i : Fin d, f (Fin.natAdd K0 i) = 0 from Finset.sum_eq_zero (fun i _ => hz _ (Nat.le_add_right _ _)), add_zero]
  rfl

/-- No item before the region writes the arguments. -/
theorem arg1_at : GenP.V48 m outs c main_arg1 = m ((c : Thread nD τ).loc main_arg1) :=
  (GenP.V48_of m outs c main_arg1 (by decide)).trans <| (GenP.V47_of m outs c main_arg1 (by decide)).trans <| (GenP.V46_of m outs c main_arg1 (by decide)).trans <| (GenP.V45_of m outs c main_arg1 (by decide)).trans <| (GenP.V44_of m outs c main_arg1 (by decide)).trans <| (GenP.V43_of m outs c main_arg1 (by decide)).trans <| (GenP.V42_of m outs c main_arg1 (by decide)).trans <| (GenP.V41_of m outs c main_arg1 (by decide)).trans <| (GenP.V40_of m outs c main_arg1 (by decide)).trans <| (GenP.V39_of m outs c main_arg1 (by decide)).trans <| (GenP.V38_of m outs c main_arg1 (by decide)).trans <| (GenP.V37_of m outs c main_arg1 (by decide)).trans <| (GenP.V36_of m outs c main_arg1 (by decide)).trans <| (GenP.V35_of m outs c main_arg1 (by decide)).trans <| (GenP.V34_of m outs c main_arg1 (by decide)).trans <| (GenP.V33_of m outs c main_arg1 (by decide)).trans <| (GenP.V32_of m outs c main_arg1 (by decide)).trans <| (GenP.V31_of m outs c main_arg1 (by decide)).trans <| (GenP.V30_of m outs c main_arg1 (by decide)).trans <| (GenP.V29_of m outs c main_arg1 (by decide)).trans <| (GenP.V28_of m outs c main_arg1 (by decide)).trans <| (GenP.V27_of m outs c main_arg1 (by decide)).trans <| (GenP.V26_of m outs c main_arg1 (by decide)).trans <| (GenP.V25_of m outs c main_arg1 (by decide)).trans <| (GenP.V24_of m outs c main_arg1 (by decide)).trans <| (GenP.V23_of m outs c main_arg1 (by decide)).trans <| (GenP.V22_of m outs c main_arg1 (by decide)).trans <| (GenP.V21_of m outs c main_arg1 (by decide)).trans <| (GenP.V20_of m outs c main_arg1 (by decide)).trans <| (GenP.V19_of m outs c main_arg1 (by decide)).trans <| (GenP.V18_of m outs c main_arg1 (by decide)).trans <| (GenP.V17_of m outs c main_arg1 (by decide)).trans <| (GenP.V16_of m outs c main_arg1 (by decide)).trans <| (GenP.V15_of m outs c main_arg1 (by decide)).trans <| (GenP.V14_of m outs c main_arg1 (by decide)).trans <| (GenP.V13_of m c main_arg1 (by decide)).trans <| (GenP.V12_of m c main_arg1 (by decide)).trans <| (GenP.V11_of m c main_arg1 (by decide)).trans <| (GenP.V10_of m c main_arg1 (by decide)).trans <| (GenP.V9_of m c main_arg1 (by decide)).trans <| (GenP.V8_of m c main_arg1 (by decide)).trans <| (GenP.V7_of m c main_arg1 (by decide)).trans <| (GenP.V6_of m c main_arg1 (by decide)).trans <| (GenP.V5_of m c main_arg1 (by decide)).trans <| (GenP.V4_of m c main_arg1 (by decide)).trans <| (GenP.V3_of m c main_arg1 (by decide)).trans <| (GenP.V2_of m c main_arg1 (by decide)).trans <| (GenP.V1_of m c main_arg1 (by decide))
theorem arg11_at : GenP.V50 m outs c main_arg11 = m ((c : Thread nD τ).loc main_arg11) :=
  (GenP.V50_of m outs c main_arg11 (by decide)).trans <| (GenP.V49_of m outs c main_arg11 (by decide)).trans <| (GenP.V48_of m outs c main_arg11 (by decide)).trans <| (GenP.V47_of m outs c main_arg11 (by decide)).trans <| (GenP.V46_of m outs c main_arg11 (by decide)).trans <| (GenP.V45_of m outs c main_arg11 (by decide)).trans <| (GenP.V44_of m outs c main_arg11 (by decide)).trans <| (GenP.V43_of m outs c main_arg11 (by decide)).trans <| (GenP.V42_of m outs c main_arg11 (by decide)).trans <| (GenP.V41_of m outs c main_arg11 (by decide)).trans <| (GenP.V40_of m outs c main_arg11 (by decide)).trans <| (GenP.V39_of m outs c main_arg11 (by decide)).trans <| (GenP.V38_of m outs c main_arg11 (by decide)).trans <| (GenP.V37_of m outs c main_arg11 (by decide)).trans <| (GenP.V36_of m outs c main_arg11 (by decide)).trans <| (GenP.V35_of m outs c main_arg11 (by decide)).trans <| (GenP.V34_of m outs c main_arg11 (by decide)).trans <| (GenP.V33_of m outs c main_arg11 (by decide)).trans <| (GenP.V32_of m outs c main_arg11 (by decide)).trans <| (GenP.V31_of m outs c main_arg11 (by decide)).trans <| (GenP.V30_of m outs c main_arg11 (by decide)).trans <| (GenP.V29_of m outs c main_arg11 (by decide)).trans <| (GenP.V28_of m outs c main_arg11 (by decide)).trans <| (GenP.V27_of m outs c main_arg11 (by decide)).trans <| (GenP.V26_of m outs c main_arg11 (by decide)).trans <| (GenP.V25_of m outs c main_arg11 (by decide)).trans <| (GenP.V24_of m outs c main_arg11 (by decide)).trans <| (GenP.V23_of m outs c main_arg11 (by decide)).trans <| (GenP.V22_of m outs c main_arg11 (by decide)).trans <| (GenP.V21_of m outs c main_arg11 (by decide)).trans <| (GenP.V20_of m outs c main_arg11 (by decide)).trans <| (GenP.V19_of m outs c main_arg11 (by decide)).trans <| (GenP.V18_of m outs c main_arg11 (by decide)).trans <| (GenP.V17_of m outs c main_arg11 (by decide)).trans <| (GenP.V16_of m outs c main_arg11 (by decide)).trans <| (GenP.V15_of m outs c main_arg11 (by decide)).trans <| (GenP.V14_of m outs c main_arg11 (by decide)).trans <| (GenP.V13_of m c main_arg11 (by decide)).trans <| (GenP.V12_of m c main_arg11 (by decide)).trans <| (GenP.V11_of m c main_arg11 (by decide)).trans <| (GenP.V10_of m c main_arg11 (by decide)).trans <| (GenP.V9_of m c main_arg11 (by decide)).trans <| (GenP.V8_of m c main_arg11 (by decide)).trans <| (GenP.V7_of m c main_arg11 (by decide)).trans <| (GenP.V6_of m c main_arg11 (by decide)).trans <| (GenP.V5_of m c main_arg11 (by decide)).trans <| (GenP.V4_of m c main_arg11 (by decide)).trans <| (GenP.V3_of m c main_arg11 (by decide)).trans <| (GenP.V2_of m c main_arg11 (by decide)).trans <| (GenP.V1_of m c main_arg11 (by decide))

/-- The scale column is ones. -/
theorem SO_at (r : Fin 2048) : SO m outs c (ix2 r 0) = 1 := by
  dsimp only [SO, GenP.V53]
  simp only [hostOps6_4]
  after_results
  rw [broadcastInDim_scalar_apply, constant_apply, Ideal.ofBits_one_f32]

/-- The bias row is zeros. -/
theorem BI_at (j : Fin 256) : BI m outs c (ix2 0 j) = 0 := by
  dsimp only [BI, GenP.V53]
  simp only [hostOps6_4]
  after_results
  rw [broadcastInDim_scalar_apply, constant_apply, Ideal.ofBits_zero_f32]

/-- The padding value: the integer 0 converted. -/
theorem padv (hu : 0 < S_.numel) : (sitofp (F := Ideal) .bf16 (constantI S_ 32 0#32)) (Shape.Idx.first hu) = 0 := by
  show (((0#32 : BitVec 32).toInt : ℝ) : EReal) = 0
  simp

/-- The left operand inside the true extent is the first argument. -/
theorem A_in (r q : Fin 2000) :
    A m outs c (ix2 (Fin.castLE (by norm_num) r) (Fin.castLE (by norm_num) q)) = a1 m c (ix2 r q) := by
  dsimp only [A]
  rw [(GenP.V53_of m outs c main_v95 (by decide)).trans <| (GenP.V52_of m outs c main_v95 (by decide)).trans <| (GenP.V51_of m outs c main_v95 (by decide))]
  dsimp only [GenP.V50, GenP.V49]
  simp only [hostOps6_1, hostOps6]
  after_results
  simp only [TRef.ofBuf, TRef.toBuf, cast_eq]
  rw [pad_apply_of_inside _ _ _ _ _ _ _ _ (ix2 r q) (fun a => match a with
    | ⟨0, _⟩ => by show r.val = 0 + r.val * (0 + 1); omega
    | ⟨1, _⟩ => by show q.val = 0 + q.val * (0 + 1); omega), truncf_apply]
  exact congrFun (arg1_at m outs c) _

/-- The left operand beyond the true columns is zero. -/
theorem A_out (r q : Fin 2048) (hq : 2000 ≤ q.val) : A m outs c (ix2 r q) = 0 := by
  dsimp only [A]
  rw [(GenP.V53_of m outs c main_v95 (by decide)).trans <| (GenP.V52_of m outs c main_v95 (by decide)).trans <| (GenP.V51_of m outs c main_v95 (by decide))]
  dsimp only [GenP.V50, GenP.V49]
  simp only [hostOps6_1, hostOps6]
  after_results
  simp only [TRef.ofBuf, TRef.toBuf, cast_eq]
  rw [pad_apply_of_not_inside _ _ _ _ _ _ _ _ 1 (by
    show ¬(0 ≤ q.val ∧ (q.val - 0) % (0 + 1) = 0 ∧ (q.val - 0) / (0 + 1) < 2000)
    omega)]
  exact padv _

/-- The right operand inside the true rows is the second argument. -/
theorem B_in (q : Fin 2000) (j : Fin 256) :
    B m outs c (ix2 (Fin.castLE (by norm_num) q) j) = a11 m c (ix2 q j) := by
  dsimp only [B]
  rw [(GenP.V53_of m outs c main_v97 (by decide))]
  dsimp only [GenP.V52, GenP.V51]
  simp only [hostOps6_3, hostOps6_2]
  after_results
  simp only [TRef.ofBuf, TRef.toBuf, cast_eq]
  rw [pad_apply_of_inside _ _ _ _ _ _ _ _ (ix2 q j) (fun a => match a with
    | ⟨0, _⟩ => by show q.val = 0 + q.val * (0 + 1); omega
    | ⟨1, _⟩ => by show j.val = 0 + j.val * (0 + 1); omega), truncf_apply]
  exact congrFun (arg11_at m outs c) _

/-- At a true row the region's output is the product of the two arguments. -/
theorem out
    (h : ∀ (r : Fin 2048) (j : Fin 256), O outs c (ix2 r j)
      = (∑ q : Fin 2048, A m outs c (ix2 r q) * B m outs c (ix2 q j)) * SO m outs c (ix2 r 0) + BI m outs c (ix2 0 j))
    (r : Fin 2000) (j : Fin 256) :
    O outs c (ix2 (Fin.castLE (by norm_num) r) j) = ∑ k : Fin 2000, a1 m c (ix2 r k) * a11 m c (ix2 k j) := by
  rw [h, SO_at, BI_at, mul_one, add_zero,
    sum_drop (by norm_num : 2000 ≤ 2048) _ (fun q hq => by rw [A_out m outs c _ q hq, zero_mul])]
  exact Finset.sum_congr rfl fun k _ => by rw [A_in, B_in]

end Cert.KernelIdeal.Stage6
end
-- ==== Proof.KI.Stage7.lean ====
import proofs.«414035_j83562883711810_2_alg».proof.Proof.RegionsKI
import proofs.«414035_j83562883711810_2_alg».proof.Proof.ReadP
import proofs.«414035_j83562883711810_2_alg».proof.Proof.KI.Stage6
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws
import Idealize.ShloMosaic.Lib.StableHlo.Run

set_option maxRecDepth 2808

noncomputable section

open scoped BigOperators

/-!
  The second product of the d branch, read against the reference.

  The kernel multiplies the incidence matrix, padded with zero columns, by the first product cut back to its true
  rows, narrowed and padded again with zero rows; it scales row r by the guarded reciprocal of the r-th row sum of
  the incidence matrix and adds a row of zeros. The reference takes the same row sums as column sums of the
  transposed matrix, contracts the twice transposed matrix with the first product and multiplies by the same
  reciprocal stretched along the columns. Index by index both are (Σ_k H(r,k) · P(k,j)) · g(Σ_k H(r,k)).
-/
namespace Cert.KernelIdeal.Stage7

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (outs : GenP.Outs (F := Ideal)) (c : Dev nD)

/-- The arguments on core `c`. -/
abbrev a1 : S2000x2000.Idx → EReal := m ((c : Thread nD τ).loc main_arg1)
abbrev a3 : S1000x2000.Idx → EReal := m ((c : Thread nD τ).loc main_arg3)
abbrev a11 : S2000x256.Idx → EReal := m ((c : Thread nD τ).loc main_arg11)
/-- What the region leaves in its output, the earlier region's output, and the four arrays it reads at its entry. -/
abbrev O : S1000x256.Idx → EReal := outs 60 main_v109 c
abbrev O6 : S2048x256.Idx → EReal := outs 54 main_v101 c
abbrev A : S1000x2048.Idx → EReal := GenP.V59 m outs c main_v104
abbrev B : S2048x256.Idx → EReal := GenP.V59 m outs c main_v106
abbrev SO : S1000x1.Idx → EReal := GenP.V59 m outs c main_v37
abbrev BI : S1x256.Idx → EReal := GenP.V59 m outs c main_v108
/-- The first product cut back to its true rows, before the second product's operands are made. -/
abbrev P6 : S2000x256.Idx → EReal := GenP.V56 m outs c main_v102

/-- The guarded reciprocal the programs take of a row or column sum: 1 / max(s, ε) where s > 0, else 0. -/
def safeInv (s : EReal) : EReal :=
  Scalar.select (FloatOps.cmpf (F := Ideal) (φ := .f32) .ogt s (Ideal.ofBits .f32 0x00000000#32))
    (Ideal.div (Ideal.ofBits .f32 0x3F800000#32) (max s (Ideal.ofBits .f32 0x2B8CBCCC#32)))
    (Ideal.ofBits .f32 0x00000000#32)

/-! ## The kernel's side -/

theorem arg3_at : GenP.V54 m outs c main_arg3 = m ((c : Thread nD τ).loc main_arg3) :=
  (GenP.V54_of m outs c main_arg3 (by decide)).trans <| (GenP.V53_of m outs c main_arg3 (by decide)).trans <| (GenP.V52_of m outs c main_arg3 (by decide)).trans <| (GenP.V51_of m outs c main_arg3 (by decide)).trans <| (GenP.V50_of m outs c main_arg3 (by decide)).trans <| (GenP.V49_of m outs c main_arg3 (by decide)).trans <| (GenP.V48_of m outs c main_arg3 (by decide)).trans <| (GenP.V47_of m outs c main_arg3 (by decide)).trans <| (GenP.V46_of m outs c main_arg3 (by decide)).trans <| (GenP.V45_of m outs c main_arg3 (by decide)).trans <| (GenP.V44_of m outs c main_arg3 (by decide)).trans <| (GenP.V43_of m outs c main_arg3 (by decide)).trans <| (GenP.V42_of m outs c main_arg3 (by decide)).trans <| (GenP.V41_of m outs c main_arg3 (by decide)).trans <| (GenP.V40_of m outs c main_arg3 (by decide)).trans <| (GenP.V39_of m outs c main_arg3 (by decide)).trans <| (GenP.V38_of m outs c main_arg3 (by decide)).trans <| (GenP.V37_of m outs c main_arg3 (by decide)).trans <| (GenP.V36_of m outs c main_arg3 (by decide)).trans <| (GenP.V35_of m outs c main_arg3 (by decide)).trans <| (GenP.V34_of m outs c main_arg3 (by decide)).trans <| (GenP.V33_of m outs c main_arg3 (by decide)).trans <| (GenP.V32_of m outs c main_arg3 (by decide)).trans <| (GenP.V31_of m outs c main_arg3 (by decide)).trans <| (GenP.V30_of m outs c main_arg3 (by decide)).trans <| (GenP.V29_of m outs c main_arg3 (by decide)).trans <| (GenP.V28_of m outs c main_arg3 (by decide)).trans <| (GenP.V27_of m outs c main_arg3 (by decide)).trans <| (GenP.V26_of m outs c main_arg3 (by decide)).trans <| (GenP.V25_of m outs c main_arg3 (by decide)).trans <| (GenP.V24_of m outs c main_arg3 (by decide)).trans <| (GenP.V23_of m outs c main_arg3 (by decide)).trans <| (GenP.V22_of m outs c main_arg3 (by decide)).trans <| (GenP.V21_of m outs c main_arg3 (by decide)).trans <| (GenP.V20_of m outs c main_arg3 (by decide)).trans <| (GenP.V19_of m outs c main_arg3 (by decide)).trans <| (GenP.V18_of m outs c main_arg3 (by decide)).trans <| (GenP.V17_of m outs c main_arg3 (by decide)).trans <| (GenP.V16_of m outs c main_arg3 (by decide)).trans <| (GenP.V15_of m outs c main_arg3 (by decide)).trans <| (GenP.V14_of m outs c main_arg3 (by decide)).trans <| (GenP.V13_of m c main_arg3 (by decide)).trans <| (GenP.V12_of m c main_arg3 (by decide)).trans <| (GenP.V11_of m c main_arg3 (by decide)).trans <| (GenP.V10_of m c main_arg3 (by decide)).trans <| (GenP.V9_of m c main_arg3 (by decide)).trans <| (GenP.V8_of m c main_arg3 (by decide)).trans <| (GenP.V7_of m c main_arg3 (by decide)).trans <| (GenP.V6_of m c main_arg3 (by decide)).trans <| (GenP.V5_of m c main_arg3 (by decide)).trans <| (GenP.V4_of m c main_arg3 (by decide)).trans <| (GenP.V3_of m c main_arg3 (by decide)).trans <| (GenP.V2_of m c main_arg3 (by decide)).trans <| (GenP.V1_of m c main_arg3 (by decide))

/-- The padding value: the integer 0 converted. -/
theorem padv (hu : 0 < S_.numel) : (sitofp (F := Ideal) .bf16 (constantI S_ 32 0#32)) (Shape.Idx.first hu) = 0 := by
  show (((0#32 : BitVec 32).toInt : ℝ) : EReal) = 0
  simp

/-- The left operand inside the true columns is the incidence matrix. -/
theorem A_in (r : Fin 1000) (q : Fin 2000) : A m outs c (ix2 r (Fin.castLE (by norm_num) q)) = a3 m c (ix2 r q) := by
  dsimp only [A]
  rw [(GenP.V59_of m outs c main_v104 (by decide)).trans <| (GenP.V58_of m outs c main_v104 (by decide)).trans <| (GenP.V57_of m outs c main_v104 (by decide))]
  dsimp only [GenP.V56, GenP.V55]
  simp only [hostOps7_1, hostOps7]
  after_results
  simp only [TRef.ofBuf, TRef.toBuf, cast_eq]
  rw [pad_apply_of_inside _ _ _ _ _ _ _ _ (ix2 r q) (fun a => match a with
    | ⟨0, _⟩ => by show r.val = 0 + r.val * (0 + 1); omega
    | ⟨1, _⟩ => by show q.val = 0 + q.val * (0 + 1); omega), truncf_apply]
  exact congrFun (arg3_at m outs c) _

/-- The left operand beyond the true columns is zero. -/
theorem A_out (r : Fin 1000) (q : Fin 2048) (hq : 2000 ≤ q.val) : A m outs c (ix2 r q) = 0 := by
  dsimp only [A]
  rw [(GenP.V59_of m outs c main_v104 (by decide)).trans <| (GenP.V58_of m outs c main_v104 (by decide)).trans <| (GenP.V57_of m outs c main_v104 (by decide))]
  dsimp only [GenP.V56, GenP.V55]
  simp only [hostOps7_1, hostOps7]
  after_results
  simp only [TRef.ofBuf, TRef.toBuf, cast_eq]
  rw [pad_apply_of_not_inside _ _ _ _ _ _ _ _ 1 (by
    show ¬(0 ≤ q.val ∧ (q.val - 0) % (0 + 1) = 0 ∧ (q.val - 0) / (0 + 1) < 2000)
    omega)]
  exact padv _

/-- The cut of the first product at a true row is the earlier region's output there. -/
theorem P6_at (q : Fin 2000) (j : Fin 256) : P6 m outs c (ix2 q j) = O6 outs c (ix2 (Fin.castLE (by norm_num) q) j) := by
  dsimp only [P6]
  rw [(GenP.V56_of m outs c main_v102 (by decide))]
  dsimp only [GenP.V55]
  simp only [hostOps7]
  after_results
  rw [extractStridedSlice_apply _ _ _ _ (ix2 (Fin.castLE (by norm_num) q) j) (fun a => match a with
    | ⟨0, _⟩ => by show q.val = 0 + q.val; omega
    | ⟨1, _⟩ => by show j.val = 0 + j.val; omega)]
  dsimp only [GenP.V54]
  rw [Function.update_self]

/-- The right operand inside the true rows is the first product. -/
theorem B_in (q : Fin 2000) (j : Fin 256) :
    B m outs c (ix2 (Fin.castLE (by norm_num) q) j) = O6 outs c (ix2 (Fin.castLE (by norm_num) q) j) := by
  dsimp only [B]
  rw [(GenP.V59_of m outs c main_v106 (by decide))]
  dsimp only [GenP.V58, GenP.V57]
  simp only [hostOps7_3, hostOps7_2]
  after_results
  simp only [TRef.ofBuf, TRef.toBuf, cast_eq]
  rw [pad_apply_of_inside _ _ _ _ _ _ _ _ (ix2 q j) (fun a => match a with
    | ⟨0, _⟩ => by show q.val = 0 + q.val * (0 + 1); omega
    | ⟨1, _⟩ => by show j.val = 0 + j.val * (0 + 1); omega), truncf_apply]
  exact P6_at m outs c q j

/-- The bias row is zeros. -/
theorem BI_at (j : Fin 256) : BI m outs c (ix2 0 j) = 0 := by
  dsimp only [BI, GenP.V59]
  simp only [hostOps7_4]
  after_results
  rw [broadcastInDim_scalar_apply, constant_apply, Ideal.ofBits_zero_f32]

/-- A row sum of the incidence matrix as the host takes it. -/
theorem rowsum_at (r : Fin 1000) :
    Host.reduceAdd (F := Ideal) (GenP.V0 m c (Proc.devRef .tc main_arg3)) (constant S_ .f32 0#32)
        reducesTo_S1000x2000_S1000_d1 h_S_ (ix1 r)
      = ∑ k : Fin 2000, a3 m c (ix2 r k) := by
  simp only [Host.reduceAdd, Ideal.hostReduceAdd_def]
  rw [Ideal.hostReduceAdd_single reducesTo_S1000x2000_S1000_d1 (by decide)]
  show Ideal.ofBits .f32 0#32 + _ = _
  rw [Ideal.ofBits_zero_f32, zero_add]
  exact Finset.sum_congr rfl fun k _ => congrArg (a3 m c) (funext fun a => Fin.ext (by match a with | ⟨0, _⟩ => rfl | ⟨1, _⟩ => rfl))

/-- The scale column at row r is the guarded reciprocal of the r-th row sum of the incidence matrix. -/
theorem SO_at (r : Fin 1000) : SO m outs c (ix2 r 0) = safeInv (∑ k : Fin 2000, a3 m c (ix2 r k)) := by
  dsimp only [SO]
  rw [(GenP.V59_of m outs c main_v37 (by decide)).trans <| (GenP.V58_of m outs c main_v37 (by decide)).trans <| (GenP.V57_of m outs c main_v37 (by decide)).trans <| (GenP.V56_of m outs c main_v37 (by decide)).trans <| (GenP.V55_of m outs c main_v37 (by decide)).trans <| (GenP.V54_of m outs c main_v37 (by decide)).trans <| (GenP.V53_of m outs c main_v37 (by decide)).trans <| (GenP.V52_of m outs c main_v37 (by decide)).trans <| (GenP.V51_of m outs c main_v37 (by decide)).trans <| (GenP.V50_of m outs c main_v37 (by decide)).trans <| (GenP.V49_of m outs c main_v37 (by decide)).trans <| (GenP.V48_of m outs c main_v37 (by decide)).trans <| (GenP.V47_of m outs c main_v37 (by decide)).trans <| (GenP.V46_of m outs c main_v37 (by decide)).trans <| (GenP.V45_of m outs c main_v37 (by decide)).trans <| (GenP.V44_of m outs c main_v37 (by decide)).trans <| (GenP.V43_of m outs c main_v37 (by decide)).trans <| (GenP.V42_of m outs c main_v37 (by decide)).trans <| (GenP.V41_of m outs c main_v37 (by decide)).trans <| (GenP.V40_of m outs c main_v37 (by decide)).trans <| (GenP.V39_of m outs c main_v37 (by decide)).trans <| (GenP.V38_of m outs c main_v37 (by decide)).trans <| (GenP.V37_of m outs c main_v37 (by decide)).trans <| (GenP.V36_of m outs c main_v37 (by decide)).trans <| (GenP.V35_of m outs c main_v37 (by decide)).trans <| (GenP.V34_of m outs c main_v37 (by decide)).trans <| (GenP.V33_of m outs c main_v37 (by decide)).trans <| (GenP.V32_of m outs c main_v37 (by decide)).trans <| (GenP.V31_of m outs c main_v37 (by decide)).trans <| (GenP.V30_of m outs c main_v37 (by decide)).trans <| (GenP.V29_of m outs c main_v37 (by decide)).trans <| (GenP.V28_of m outs c main_v37 (by decide)).trans <| (GenP.V27_of m outs c main_v37 (by decide)).trans <| (GenP.V26_of m outs c main_v37 (by decide)).trans <| (GenP.V25_of m outs c main_v37 (by decide)).trans <| (GenP.V24_of m outs c main_v37 (by decide)).trans <| (GenP.V23_of m outs c main_v37 (by decide)).trans <| (GenP.V22_of m outs c main_v37 (by decide)).trans <| (GenP.V21_of m outs c main_v37 (by decide)).trans <| (GenP.V20_of m outs c main_v37 (by decide)).trans <| (GenP.V19_of m outs c main_v37 (by decide)).trans <| (GenP.V18_of m outs c main_v37 (by decide)).trans <| (GenP.V17_of m outs c main_v37 (by decide)).trans <| (GenP.V16_of m outs c main_v37 (by decide)).trans <| (GenP.V15_of m outs c main_v37 (by decide)).trans <| (GenP.V14_of m outs c main_v37 (by decide)).trans <| (GenP.V13_of m c main_v37 (by decide)).trans <| (GenP.V12_of m c main_v37 (by decide)).trans <| (GenP.V11_of m c main_v37 (by decide)).trans <| (GenP.V10_of m c main_v37 (by decide))]
  dsimp only [GenP.V9, GenP.V8, GenP.V7]
  simp only [hostOps0_8, hostOps0_7, hostOps0_6]
  after_results_simp
  simp only [TRef.ofBuf, TRef.toBuf, cast_eq]
  rw [broadcastInDim_apply _ _ _ _ (ix1 r) (fun a => match a with
    | ⟨0, _⟩ => by show r.val = if (1000 : ℕ) = 1 then 0 else r.val; rw [if_neg (by norm_num)])]
  simp only [select_apply, cmpf_apply, hostDivf_apply, maximumf_apply]
  rw [rowsum_at]
  rfl

/-- At every row the region's output, over any reading X6 of the earlier region's true rows. -/
theorem out (X6 : S2000x256.Idx → EReal)
    (H6 : ∀ (r : Fin 2000) (j : Fin 256), O6 outs c (ix2 (Fin.castLE (by norm_num) r) j) = X6 (ix2 r j))
    (h : ∀ (r : Fin 1000) (j : Fin 256), O outs c (ix2 r j)
      = (∑ q : Fin 2048, A m outs c (ix2 r q) * B m outs c (ix2 q j)) * SO m outs c (ix2 r 0) + BI m outs c (ix2 0 j))
    (r : Fin 1000) (j : Fin 256) :
    O outs c (ix2 r j) = (∑ k : Fin 2000, a3 m c (ix2 r k) * X6 (ix2 k j)) * safeInv (∑ k : Fin 2000, a3 m c (ix2 r k)) := by
  rw [h, SO_at, BI_at, add_zero,
    Stage6.sum_drop (by norm_num : 2000 ≤ 2048) _ (fun q hq => by rw [A_out m outs c _ q hq, zero_mul])]
  congr 1
  exact Finset.sum_congr rfl fun k _ => by rw [A_in, B_in, H6]

/-! ## The reference's side -/

section Ref
variable (x1 : S2000x2000.Idx → EReal) (x3 : S1000x2000.Idx → EReal) (x11 : S2000x256.Idx → EReal)

theorem ref77 (r : Fin 2000) (j : Fin 256) :
    Cert.ReferenceIdeal.Read.val_main_v77 (F := Ideal) x1 x11 (ix2 r j) = ∑ k : Fin 2000, x1 (ix2 r k) * x11 (ix2 k j) := by
  rw [Cert.ReferenceIdeal.Read.val_main_v77_apply]
  exact Finset.sum_congr rfl fun k _ => congr (congrArg _ (congrArg x1 (funext fun a => Fin.ext (by match a with | ⟨0, _⟩ => rfl | ⟨1, _⟩ => rfl)))) (congrArg x11 (funext fun a => Fin.ext (by match a with | ⟨0, _⟩ => rfl | ⟨1, _⟩ => rfl)))

/-- The reference's column sum of the transposed incidence matrix is the row sum. -/
theorem ref69 (r : Fin 1000) :
    Cert.ReferenceIdeal.Read.val_main_v69 (F := Ideal) x3 (ix1 r) = ∑ k : Fin 2000, x3 (ix2 r k) := by
  rw [Cert.ReferenceIdeal.Read.val_main_v69_apply]
  show Ideal.ofBits .f32 0#32 + _ = _
  rw [Ideal.ofBits_zero_f32, zero_add]
  exact Finset.sum_congr rfl fun k _ => by
    rw [Cert.ReferenceIdeal.Read.val_main_v1_apply]
    exact congrArg x3 (funext fun a => Fin.ext (by match a with | ⟨0, _⟩ => rfl | ⟨1, _⟩ => rfl))

theorem ref76 (r : Fin 1000) :
    Cert.ReferenceIdeal.Read.val_main_v76 (F := Ideal) x3 (ix1 r) = safeInv (∑ k : Fin 2000, x3 (ix2 r k)) := by
  rw [Cert.ReferenceIdeal.Read.val_main_v76_apply, Cert.ReferenceIdeal.Read.val_main_v71_apply,
    Cert.ReferenceIdeal.Read.val_main_v75_apply, Cert.ReferenceIdeal.Read.val_main_v73_apply, ref69]
  rfl

theorem ref82 (r : Fin 1000) (j : Fin 256) :
    Cert.ReferenceIdeal.Read.val_main_v82 (F := Ideal) x1 x3 x11 (ix2 r j)
      = (∑ k : Fin 2000, x3 (ix2 r k) * Cert.ReferenceIdeal.Read.val_main_v77 (F := Ideal) x1 x11 (ix2 k j))
          * safeInv (∑ k : Fin 2000, x3 (ix2 r k)) := by
  rw [Cert.ReferenceIdeal.Read.val_main_v82_apply, Cert.ReferenceIdeal.Read.val_main_v79_apply,
    Cert.ReferenceIdeal.Read.val_main_v81_apply, Cert.ReferenceIdeal.Read.val_main_v80_apply]
  show (∑ k, _) * Cert.ReferenceIdeal.Read.val_main_v76 (F := Ideal) x3 _ = _
  rw [show Cert.ReferenceIdeal.Read.idx_main_v80 (Cert.ReferenceIdeal.Read.idx_main_v81 (ix2 r j)) = ix1 r from (funext fun a => Fin.ext (by match a with | ⟨0, _⟩ => rfl)),
    ref76]
  congr 1
  exact Finset.sum_congr rfl fun k _ => by
    rw [Cert.ReferenceIdeal.Read.val_main_v78_apply, Cert.ReferenceIdeal.Read.val_main_v1_apply]
    exact congr (congrArg _ (congrArg x3 (funext fun a => Fin.ext (by match a with | ⟨0, _⟩ => rfl | ⟨1, _⟩ => rfl)))) (congrArg _ (funext fun a => Fin.ext (by match a with | ⟨0, _⟩ => rfl | ⟨1, _⟩ => rfl)))

end Ref

/-! ## The two sides joined -/

/-- Region 6's output at its true rows is the reference's first product. -/
theorem OUT6
    (h6 : ∀ (r : Fin 2048) (j : Fin 256), Stage6.O outs c (ix2 r j)
      = (∑ q : Fin 2048, Stage6.A m outs c (ix2 r q) * Stage6.B m outs c (ix2 q j)) * Stage6.SO m outs c (ix2 r 0)
          + Stage6.BI m outs c (ix2 0 j))
    (r : Fin 2000) (j : Fin 256) :
    Stage6.O outs c (ix2 (Fin.castLE (by norm_num) r) j)
      = Cert.ReferenceIdeal.Read.val_main_v77 (F := Ideal) (a1 m c) (a11 m c) (ix2 r j) :=
  (Stage6.out m outs c h6 r j).trans (ref77 (a1 m c) (a11 m c) r j).symm

/-- Region 7's output is the reference's scaled second product. -/
theorem OUT7
    (H6 : ∀ (r : Fin 2000) (j : Fin 256), Stage6.O outs c (ix2 (Fin.castLE (by norm_num) r) j)
      = Cert.ReferenceIdeal.Read.val_main_v77 (F := Ideal) (a1 m c) (a11 m c) (ix2 r j))
    (h7 : ∀ (r : Fin 1000) (j : Fin 256), O outs c (ix2 r j)
      = (∑ q : Fin 2048, A m outs c (ix2 r q) * B m outs c (ix2 q j)) * SO m outs c (ix2 r 0) + BI m outs c (ix2 0 j))
    (r : Fin 1000) (j : Fin 256) :
    O outs c (ix2 r j) = Cert.ReferenceIdeal.Read.val_main_v82 (F := Ideal) (a1 m c) (a3 m c) (a11 m c) (ix2 r j) :=
  (out m outs c _ H6 h7 r j).trans (ref82 (a1 m c) (a3 m c) (a11 m c) r j).symm

end Cert.KernelIdeal.Stage7
end
-- ==== Proof.KI.Stage8.lean ====
import proofs.«414035_j83562883711810_2_alg».proof.Proof.RegionsKI
import proofs.«414035_j83562883711810_2_alg».proof.Proof.ReadP
import proofs.«414035_j83562883711810_2_alg».proof.Proof.KI.Stage6
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws
import Idealize.ShloMosaic.Lib.StableHlo.Run

set_option maxRecDepth 2808

noncomputable section

open scoped BigOperators

/-!
  The third product of the d branch, with its scale, bias and rectifier, read against the reference.

  The kernel multiplies the transposed incidence matrix, padded with zero rows, by the scaled second product
  narrowed; it scales row r by the guarded reciprocal of the r-th column sum of the incidence matrix (padded with
  zero rows), adds the bias row and takes the maximum with 0. The reference takes that column sum as a row sum of
  the transposed matrix, contracts the transposed matrix with the scaled second product, multiplies by the
  reciprocal stretched along the columns, adds the bias stretched along the rows and takes the maximum with 0. Index
  by index both are max((Σ_k H(k,r) · Q(k,j)) · g(Σ_k H(k,r)) + b(j), 0).
-/
namespace Cert.KernelIdeal.Stage8

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (outs : GenP.Outs (F := Ideal)) (c : Dev nD)

/-- The arguments on core `c`. -/
abbrev a1 : S2000x2000.Idx → EReal := m ((c : Thread nD τ).loc main_arg1)
abbrev a3 : S1000x2000.Idx → EReal := m ((c : Thread nD τ).loc main_arg3)
abbrev a11 : S2000x256.Idx → EReal := m ((c : Thread nD τ).loc main_arg11)
abbrev a12 : S256.Idx → EReal := m ((c : Thread nD τ).loc main_arg12)
/-- What the region leaves in its output, the earlier region's output, and the four arrays it reads at its entry. -/
abbrev O : S2048x256.Idx → EReal := outs 65 main_v115 c
abbrev O7 : S1000x256.Idx → EReal := outs 60 main_v109 c
abbrev A : S2048x1000.Idx → EReal := GenP.V64 m outs c main_v111
abbrev B : S1000x256.Idx → EReal := GenP.V64 m outs c main_v112
abbrev SO : S2048x1.Idx → EReal := GenP.V64 m outs c main_v114
abbrev BI : S1x256.Idx → EReal := GenP.V64 m outs c main_v40
/-- The transposed incidence matrix, the second product and the reciprocal column before the operands are made. -/
abbrev T : S2000x1000.Idx → EReal := GenP.V60 m outs c main_v1
abbrev Q7 : S1000x256.Idx → EReal := GenP.V62 m outs c main_v109
abbrev D : S2000x1.Idx → EReal := GenP.V63 m outs c main_v28

/-- The guarded reciprocal the programs take of a row or column sum: 1 / max(s, ε) where s > 0, else 0. -/
def safeInv (s : EReal) : EReal :=
  Scalar.select (FloatOps.cmpf (F := Ideal) (φ := .f32) .ogt s (Ideal.ofBits .f32 0x00000000#32))
    (Ideal.div (Ideal.ofBits .f32 0x3F800000#32) (max s (Ideal.ofBits .f32 0x2B8CBCCC#32)))
    (Ideal.ofBits .f32 0x00000000#32)

/-! ## The kernel's side -/

/-- The transposed incidence matrix at (r, q) is the incidence matrix at (q, r). -/
theorem T_at (r : Fin 2000) (q : Fin 1000) : T m outs c (ix2 r q) = a3 m c (ix2 q r) := by
  dsimp only [T]
  rw [(GenP.V60_of m outs c main_v1 (by decide)).trans <| (GenP.V59_of m outs c main_v1 (by decide)).trans <| (GenP.V58_of m outs c main_v1 (by decide)).trans <| (GenP.V57_of m outs c main_v1 (by decide)).trans <| (GenP.V56_of m outs c main_v1 (by decide)).trans <| (GenP.V55_of m outs c main_v1 (by decide)).trans <| (GenP.V54_of m outs c main_v1 (by decide)).trans <| (GenP.V53_of m outs c main_v1 (by decide)).trans <| (GenP.V52_of m outs c main_v1 (by decide)).trans <| (GenP.V51_of m outs c main_v1 (by decide)).trans <| (GenP.V50_of m outs c main_v1 (by decide)).trans <| (GenP.V49_of m outs c main_v1 (by decide)).trans <| (GenP.V48_of m outs c main_v1 (by decide)).trans <| (GenP.V47_of m outs c main_v1 (by decide)).trans <| (GenP.V46_of m outs c main_v1 (by decide)).trans <| (GenP.V45_of m outs c main_v1 (by decide)).trans <| (GenP.V44_of m outs c main_v1 (by decide)).trans <| (GenP.V43_of m outs c main_v1 (by decide)).trans <| (GenP.V42_of m outs c main_v1 (by decide)).trans <| (GenP.V41_of m outs c main_v1 (by decide)).trans <| (GenP.V40_of m outs c main_v1 (by decide)).trans <| (GenP.V39_of m outs c main_v1 (by decide)).trans <| (GenP.V38_of m outs c main_v1 (by decide)).trans <| (GenP.V37_of m outs c main_v1 (by decide)).trans <| (GenP.V36_of m outs c main_v1 (by decide)).trans <| (GenP.V35_of m outs c main_v1 (by decide)).trans <| (GenP.V34_of m outs c main_v1 (by decide)).trans <| (GenP.V33_of m outs c main_v1 (by decide)).trans <| (GenP.V32_of m outs c main_v1 (by decide)).trans <| (GenP.V31_of m outs c main_v1 (by decide)).trans <| (GenP.V30_of m outs c main_v1 (by decide)).trans <| (GenP.V29_of m outs c main_v1 (by decide)).trans <| (GenP.V28_of m outs c main_v1 (by decide)).trans <| (GenP.V27_of m outs c main_v1 (by decide)).trans <| (GenP.V26_of m outs c main_v1 (by decide)).trans <| (GenP.V25_of m outs c main_v1 (by decide)).trans <| (GenP.V24_of m outs c main_v1 (by decide)).trans <| (GenP.V23_of m outs c main_v1 (by decide)).trans <| (GenP.V22_of m outs c main_v1 (by decide)).trans <| (GenP.V21_of m outs c main_v1 (by decide)).trans <| (GenP.V20_of m outs c main_v1 (by decide)).trans <| (GenP.V19_of m outs c main_v1 (by decide)).trans <| (GenP.V18_of m outs c main_v1 (by decide)).trans <| (GenP.V17_of m outs c main_v1 (by decide)).trans <| (GenP.V16_of m outs c main_v1 (by decide)).trans <| (GenP.V15_of m outs c main_v1 (by decide)).trans <| (GenP.V14_of m outs c main_v1 (by decide)).trans <| (GenP.V13_of m c main_v1 (by decide)).trans <| (GenP.V12_of m c main_v1 (by decide)).trans <| (GenP.V11_of m c main_v1 (by decide)).trans <| (GenP.V10_of m c main_v1 (by decide)).trans <| (GenP.V9_of m c main_v1 (by decide)).trans <| (GenP.V8_of m c main_v1 (by decide)).trans <| (GenP.V7_of m c main_v1 (by decide)).trans <| (GenP.V6_of m c main_v1 (by decide)).trans <| (GenP.V5_of m c main_v1 (by decide)).trans <| (GenP.V4_of m c main_v1 (by decide)).trans <| (GenP.V3_of m c main_v1 (by decide)).trans <| (GenP.V2_of m c main_v1 (by decide))]
  dsimp only [GenP.V1]
  simp only [hostOps0]
  after_results_simp
  rw [transpose_apply _ _ _ _ (ix2 q r) (fun b => match b with
    | ⟨0, _⟩ => rfl
    | ⟨1, _⟩ => rfl)]

/-- The left operand inside the true rows is the transposed incidence matrix. -/
theorem A_in (r : Fin 2000) (q : Fin 1000) : A m outs c (ix2 (Fin.castLE (by norm_num) r) q) = a3 m c (ix2 q r) := by
  dsimp only [A]
  rw [(GenP.V64_of m outs c main_v111 (by decide)).trans <| (GenP.V63_of m outs c main_v111 (by decide))]
  dsimp only [GenP.V62, GenP.V61]
  simp only [hostOps8_1, hostOps8]
  after_results
  simp only [TRef.ofBuf, TRef.toBuf, cast_eq]
  rw [pad_apply_of_inside _ _ _ _ _ _ _ _ (ix2 r q) (fun a => match a with
    | ⟨0, _⟩ => by show r.val = 0 + r.val * (0 + 1); omega
    | ⟨1, _⟩ => by show q.val = 0 + q.val * (0 + 1); omega), truncf_apply]
  exact T_at m outs c r q

/-- The second product, before the operands are made, is the earlier region's output. -/
theorem Q7_at (q : Fin 1000) (j : Fin 256) : Q7 m outs c (ix2 q j) = O7 outs c (ix2 q j) := by
  dsimp only [Q7]
  rw [(GenP.V62_of m outs c main_v109 (by decide)).trans <| (GenP.V61_of m outs c main_v109 (by decide))]
  dsimp only [GenP.V60]
  rw [Function.update_self]

/-- The right operand is the second product. -/
theorem B_at (q : Fin 1000) (j : Fin 256) : B m outs c (ix2 q j) = O7 outs c (ix2 q j) := by
  dsimp only [B]
  rw [(GenP.V64_of m outs c main_v112 (by decide))]
  dsimp only [GenP.V63]
  simp only [hostOps8_2]
  after_results
  rw [truncf_apply]
  exact Q7_at m outs c q j

/-- The bias row is the bias argument. -/
theorem BI_at (j : Fin 256) : BI m outs c (ix2 0 j) = a12 m c (ix1 j) := by
  dsimp only [BI]
  rw [(GenP.V64_of m outs c main_v40 (by decide)).trans <| (GenP.V63_of m outs c main_v40 (by decide)).trans <| (GenP.V62_of m outs c main_v40 (by decide)).trans <| (GenP.V61_of m outs c main_v40 (by decide)).trans <| (GenP.V60_of m outs c main_v40 (by decide)).trans <| (GenP.V59_of m outs c main_v40 (by decide)).trans <| (GenP.V58_of m outs c main_v40 (by decide)).trans <| (GenP.V57_of m outs c main_v40 (by decide)).trans <| (GenP.V56_of m outs c main_v40 (by decide)).trans <| (GenP.V55_of m outs c main_v40 (by decide)).trans <| (GenP.V54_of m outs c main_v40 (by decide)).trans <| (GenP.V53_of m outs c main_v40 (by decide)).trans <| (GenP.V52_of m outs c main_v40 (by decide)).trans <| (GenP.V51_of m outs c main_v40 (by decide)).trans <| (GenP.V50_of m outs c main_v40 (by decide)).trans <| (GenP.V49_of m outs c main_v40 (by decide)).trans <| (GenP.V48_of m outs c main_v40 (by decide)).trans <| (GenP.V47_of m outs c main_v40 (by decide)).trans <| (GenP.V46_of m outs c main_v40 (by decide)).trans <| (GenP.V45_of m outs c main_v40 (by decide)).trans <| (GenP.V44_of m outs c main_v40 (by decide)).trans <| (GenP.V43_of m outs c main_v40 (by decide)).trans <| (GenP.V42_of m outs c main_v40 (by decide)).trans <| (GenP.V41_of m outs c main_v40 (by decide)).trans <| (GenP.V40_of m outs c main_v40 (by decide)).trans <| (GenP.V39_of m outs c main_v40 (by decide)).trans <| (GenP.V38_of m outs c main_v40 (by decide)).trans <| (GenP.V37_of m outs c main_v40 (by decide)).trans <| (GenP.V36_of m outs c main_v40 (by decide)).trans <| (GenP.V35_of m outs c main_v40 (by decide)).trans <| (GenP.V34_of m outs c main_v40 (by decide)).trans <| (GenP.V33_of m outs c main_v40 (by decide)).trans <| (GenP.V32_of m outs c main_v40 (by decide)).trans <| (GenP.V31_of m outs c main_v40 (by decide)).trans <| (GenP.V30_of m outs c main_v40 (by decide)).trans <| (GenP.V29_of m outs c main_v40 (by decide)).trans <| (GenP.V28_of m outs c main_v40 (by decide)).trans <| (GenP.V27_of m outs c main_v40 (by decide)).trans <| (GenP.V26_of m outs c main_v40 (by decide)).trans <| (GenP.V25_of m outs c main_v40 (by decide)).trans <| (GenP.V24_of m outs c main_v40 (by decide)).trans <| (GenP.V23_of m outs c main_v40 (by decide)).trans <| (GenP.V22_of m outs c main_v40 (by decide)).trans <| (GenP.V21_of m outs c main_v40 (by decide)).trans <| (GenP.V20_of m outs c main_v40 (by decide)).trans <| (GenP.V19_of m outs c main_v40 (by decide)).trans <| (GenP.V18_of m outs c main_v40 (by decide)).trans <| (GenP.V17_of m outs c main_v40 (by decide)).trans <| (GenP.V16_of m outs c main_v40 (by decide)).trans <| (GenP.V15_of m outs c main_v40 (by decide)).trans <| (GenP.V14_of m outs c main_v40 (by decide)).trans <| (GenP.V13_of m c main_v40 (by decide)).trans <| (GenP.V12_of m c main_v40 (by decide)).trans <| (GenP.V11_of m c main_v40 (by decide)).trans <| (GenP.V10_of m c main_v40 (by decide))]
  dsimp only [GenP.V9]
  simp only [hostOps0_8]
  after_results_simp
  rw [broadcastInDim_apply _ _ _ _ (ix1 j) (fun a => match a with
    | ⟨0, _⟩ => by show j.val = if (256 : ℕ) = 1 then 0 else j.val; rw [if_neg (by norm_num)])]

/-- A column sum of the incidence matrix as the host takes it. -/
theorem colsum_at (r : Fin 2000) :
    Host.reduceAdd (F := Ideal) (GenP.V0 m c (Proc.devRef .tc main_arg3)) (constant S_ .f32 0#32)
        reducesTo_S1000x2000_S2000_d0 h_S_ (ix1 r)
      = ∑ k : Fin 1000, a3 m c (ix2 k r) := by
  simp only [Host.reduceAdd, Ideal.hostReduceAdd_def]
  rw [Ideal.hostReduceAdd_single reducesTo_S1000x2000_S2000_d0 (by decide)]
  show Ideal.ofBits .f32 0#32 + _ = _
  rw [Ideal.ofBits_zero_f32, zero_add]
  exact Finset.sum_congr rfl fun k _ => congrArg (a3 m c) (funext fun a => Fin.ext (by match a with | ⟨0, _⟩ => rfl | ⟨1, _⟩ => rfl))

/-- The reciprocal column at row r is the guarded reciprocal of the r-th column sum of the incidence matrix. -/
theorem D_at (r : Fin 2000) : D m outs c (ix2 r 0) = safeInv (∑ k : Fin 1000, a3 m c (ix2 k r)) := by
  dsimp only [D]
  rw [(GenP.V63_of m outs c main_v28 (by decide)).trans <| (GenP.V62_of m outs c main_v28 (by decide)).trans <| (GenP.V61_of m outs c main_v28 (by decide)).trans <| (GenP.V60_of m outs c main_v28 (by decide)).trans <| (GenP.V59_of m outs c main_v28 (by decide)).trans <| (GenP.V58_of m outs c main_v28 (by decide)).trans <| (GenP.V57_of m outs c main_v28 (by decide)).trans <| (GenP.V56_of m outs c main_v28 (by decide)).trans <| (GenP.V55_of m outs c main_v28 (by decide)).trans <| (GenP.V54_of m outs c main_v28 (by decide)).trans <| (GenP.V53_of m outs c main_v28 (by decide)).trans <| (GenP.V52_of m outs c main_v28 (by decide)).trans <| (GenP.V51_of m outs c main_v28 (by decide)).trans <| (GenP.V50_of m outs c main_v28 (by decide)).trans <| (GenP.V49_of m outs c main_v28 (by decide)).trans <| (GenP.V48_of m outs c main_v28 (by decide)).trans <| (GenP.V47_of m outs c main_v28 (by decide)).trans <| (GenP.V46_of m outs c main_v28 (by decide)).trans <| (GenP.V45_of m outs c main_v28 (by decide)).trans <| (GenP.V44_of m outs c main_v28 (by decide)).trans <| (GenP.V43_of m outs c main_v28 (by decide)).trans <| (GenP.V42_of m outs c main_v28 (by decide)).trans <| (GenP.V41_of m outs c main_v28 (by decide)).trans <| (GenP.V40_of m outs c main_v28 (by decide)).trans <| (GenP.V39_of m outs c main_v28 (by decide)).trans <| (GenP.V38_of m outs c main_v28 (by decide)).trans <| (GenP.V37_of m outs c main_v28 (by decide)).trans <| (GenP.V36_of m outs c main_v28 (by decide)).trans <| (GenP.V35_of m outs c main_v28 (by decide)).trans <| (GenP.V34_of m outs c main_v28 (by decide)).trans <| (GenP.V33_of m outs c main_v28 (by decide)).trans <| (GenP.V32_of m outs c main_v28 (by decide)).trans <| (GenP.V31_of m outs c main_v28 (by decide)).trans <| (GenP.V30_of m outs c main_v28 (by decide)).trans <| (GenP.V29_of m outs c main_v28 (by decide)).trans <| (GenP.V28_of m outs c main_v28 (by decide)).trans <| (GenP.V27_of m outs c main_v28 (by decide)).trans <| (GenP.V26_of m outs c main_v28 (by decide)).trans <| (GenP.V25_of m outs c main_v28 (by decide)).trans <| (GenP.V24_of m outs c main_v28 (by decide)).trans <| (GenP.V23_of m outs c main_v28 (by decide)).trans <| (GenP.V22_of m outs c main_v28 (by decide)).trans <| (GenP.V21_of m outs c main_v28 (by decide)).trans <| (GenP.V20_of m outs c main_v28 (by decide)).trans <| (GenP.V19_of m outs c main_v28 (by decide)).trans <| (GenP.V18_of m outs c main_v28 (by decide)).trans <| (GenP.V17_of m outs c main_v28 (by decide)).trans <| (GenP.V16_of m outs c main_v28 (by decide)).trans <| (GenP.V15_of m outs c main_v28 (by decide)).trans <| (GenP.V14_of m outs c main_v28 (by decide)).trans <| (GenP.V13_of m c main_v28 (by decide)).trans <| (GenP.V12_of m c main_v28 (by decide)).trans <| (GenP.V11_of m c main_v28 (by decide)).trans <| (GenP.V10_of m c main_v28 (by decide)).trans <| (GenP.V9_of m c main_v28 (by decide)).trans <| (GenP.V8_of m c main_v28 (by decide))]
  dsimp only [GenP.V7, GenP.V6, GenP.V5]
  simp only [hostOps0_6, hostOps0_5, hostOps0_4]
  after_results_simp
  simp only [TRef.ofBuf, TRef.toBuf, cast_eq]
  rw [broadcastInDim_apply _ _ _ _ (ix1 r) (fun a => match a with
    | ⟨0, _⟩ => by show r.val = if (2000 : ℕ) = 1 then 0 else r.val; rw [if_neg (by norm_num)])]
  simp only [select_apply, cmpf_apply, hostDivf_apply, maximumf_apply]
  rw [colsum_at]
  rfl

/-- The padding value of the scale column: the integer 0 converted. -/
theorem padv (hu : 0 < S_.numel) : (sitofp (F := Ideal) .f32 (constantI S_ 32 0#32)) (Shape.Idx.first hu) = 0 := by
  show (((0#32 : BitVec 32).toInt : ℝ) : EReal) = 0
  simp

/-- The scale column inside the true rows. -/
theorem SO_at (r : Fin 2000) :
    SO m outs c (ix2 (Fin.castLE (by norm_num) r) 0) = safeInv (∑ k : Fin 1000, a3 m c (ix2 k r)) := by
  dsimp only [SO, GenP.V64]
  simp only [hostOps8_3]
  after_results
  simp only [TRef.ofBuf, TRef.toBuf, cast_eq]
  rw [pad_apply_of_inside _ _ _ _ _ _ _ _ (ix2 r 0) (fun a => match a with
    | ⟨0, _⟩ => by show r.val = 0 + r.val * (0 + 1); omega
    | ⟨1, _⟩ => by show (0 : ℕ) = 0 + 0 * (0 + 1); omega)]
  exact D_at m outs c r

/-- At a true row the region's output, over any reading X7 of the earlier region's output. -/
theorem out (X7 : S1000x256.Idx → EReal)
    (H7 : ∀ (r : Fin 1000) (j : Fin 256), O7 outs c (ix2 r j) = X7 (ix2 r j))
    (h : ∀ (r : Fin 2048) (j : Fin 256), O outs c (ix2 r j)
      = max ((∑ q : Fin 1000, A m outs c (ix2 r q) * B m outs c (ix2 q j)) * SO m outs c (ix2 r 0) + BI m outs c (ix2 0 j)) 0)
    (r : Fin 2000) (j : Fin 256) :
    O outs c (ix2 (Fin.castLE (by norm_num) r) j)
      = max ((∑ k : Fin 1000, a3 m c (ix2 k r) * X7 (ix2 k j)) * safeInv (∑ k : Fin 1000, a3 m c (ix2 k r)) + a12 m c (ix1 j)) 0 := by
  rw [h, SO_at, BI_at]
  congr 3
  exact Finset.sum_congr rfl fun k _ => by rw [A_in, B_at, H7]

/-! ## The reference's side -/

section Ref
variable (x1 : S2000x2000.Idx → EReal) (x3 : S1000x2000.Idx → EReal) (x11 : S2000x256.Idx → EReal) (x12 : S256.Idx → EReal)

/-- The reference's row sum of the transposed incidence matrix is the column sum. -/
theorem ref61 (r : Fin 2000) : Cert.ReferenceIdeal.Read.val_main_v61 (F := Ideal) x3 (ix1 r) = ∑ k : Fin 1000, x3 (ix2 k r) := by
  rw [Cert.ReferenceIdeal.Read.val_main_v61_apply]
  show Ideal.ofBits .f32 0#32 + _ = _
  rw [Ideal.ofBits_zero_f32, zero_add]
  exact Finset.sum_congr rfl fun k _ => by
    rw [Cert.ReferenceIdeal.Read.val_main_v1_apply]
    exact congrArg x3 (funext fun a => Fin.ext (by match a with | ⟨0, _⟩ => rfl | ⟨1, _⟩ => rfl))

theorem ref68 (r : Fin 2000) : Cert.ReferenceIdeal.Read.val_main_v68 (F := Ideal) x3 (ix1 r) = safeInv (∑ k : Fin 1000, x3 (ix2 k r)) := by
  rw [Cert.ReferenceIdeal.Read.val_main_v68_apply, Cert.ReferenceIdeal.Read.val_main_v63_apply, Cert.ReferenceIdeal.Read.val_main_v67_apply, Cert.ReferenceIdeal.Read.val_main_v65_apply, ref61]
  rfl

theorem ref90 (r : Fin 2000) (j : Fin 256) :
    Cert.ReferenceIdeal.Read.val_main_v90 (F := Ideal) x1 x3 x11 x12 (ix2 r j)
      = max ((∑ k : Fin 1000, x3 (ix2 k r) * Cert.ReferenceIdeal.Read.val_main_v82 (F := Ideal) x1 x3 x11 (ix2 k j))
          * safeInv (∑ k : Fin 1000, x3 (ix2 k r)) + x12 (ix1 j)) 0 := by
  rw [Cert.ReferenceIdeal.Read.val_main_v90_apply, Cert.ReferenceIdeal.Read.val_main_v89_apply, Cert.ReferenceIdeal.Read.val_main_v86_apply, Cert.ReferenceIdeal.Read.val_main_v83_apply,
    Cert.ReferenceIdeal.Read.val_main_v85_apply, Cert.ReferenceIdeal.Read.val_main_v84_apply, Cert.ReferenceIdeal.Read.val_main_v88_apply, Cert.ReferenceIdeal.Read.val_main_v87_apply]
  show max ((∑ k, _) * Cert.ReferenceIdeal.Read.val_main_v68 (F := Ideal) x3 _ + x12 _) (Ideal.ofBits .f32 0#32) = _
  rw [show Cert.ReferenceIdeal.Read.idx_main_v84 (Cert.ReferenceIdeal.Read.idx_main_v85 (ix2 r j)) = ix1 r from (funext fun a => Fin.ext (by match a with | ⟨0, _⟩ => rfl)), ref68,
    show Cert.ReferenceIdeal.Read.idx_main_v87 (Cert.ReferenceIdeal.Read.idx_main_v88 (ix2 r j)) = ix1 j from (funext fun a => Fin.ext (by match a with | ⟨0, _⟩ => rfl)), Ideal.ofBits_zero_f32]
  congr 3
  exact Finset.sum_congr rfl fun k _ => by
    rw [Cert.ReferenceIdeal.Read.val_main_v1_apply]
    exact congr (congrArg _ (congrArg x3 (funext fun a => Fin.ext (by match a with | ⟨0, _⟩ => rfl | ⟨1, _⟩ => rfl)))) (congrArg _ (funext fun a => Fin.ext (by match a with | ⟨0, _⟩ => rfl | ⟨1, _⟩ => rfl)))

end Ref

/-! ## The two sides joined -/

/-- Region 8's output at its true rows is the reference's rectified layer. -/
theorem OUT8
    (H7 : ∀ (r : Fin 1000) (j : Fin 256), O7 outs c (ix2 r j)
      = Cert.ReferenceIdeal.Read.val_main_v82 (F := Ideal) (a1 m c) (a3 m c) (a11 m c) (ix2 r j))
    (h8 : ∀ (r : Fin 2048) (j : Fin 256), O outs c (ix2 r j)
      = max ((∑ q : Fin 1000, A m outs c (ix2 r q) * B m outs c (ix2 q j)) * SO m outs c (ix2 r 0) + BI m outs c (ix2 0 j)) 0)
    (r : Fin 2000) (j : Fin 256) :
    O outs c (ix2 (Fin.castLE (by norm_num) r) j)
      = Cert.ReferenceIdeal.Read.val_main_v90 (F := Ideal) (a1 m c) (a3 m c) (a11 m c) (a12 m c) (ix2 r j) :=
  (out m outs c _ H7 h8 r j).trans (ref90 (a1 m c) (a3 m c) (a11 m c) (a12 m c) r j).symm

end Cert.KernelIdeal.Stage8
end
-- ==== Proof.KI.Stage9.lean ====
/-
  Region 9 of the kernel (the second layer's dense product on the d side) against the reference's stage: the region's
  entry arrays read through the host operations before it, then the output formula matched with the reference's
  dot product index by index.
-/
import proofs.«414035_j83562883711810_2_alg».proof.Proof.RegionsKI
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«414035_j83562883711810_2_alg».proof.Proof.ReadP

set_option maxRecDepth 2808

noncomputable section

open scoped BigOperators

namespace Cert.KernelIdeal.Stage9

open Cert.KernelIdeal Cert.KernelIdeal.Gen Cert.KernelIdeal.GenP
open Idealize.ShloMosaic Idealize.ShloMosaic.TcCoe Idealize.ShloMosaic.ValueIdx Idealize.ShloMosaic.StableHlo

variable (m : (ℓ : Loc nD τ sig) → Buf (Elt Ideal) ℓ) (outs : Outs (F := Ideal)) (c : Dev nD)

section Layout
variable {α : Type}

/-- A matrix padded high with a constant, read at an index whose two coordinates are those of an index of the operand. -/
theorem pad2_in {a b A B : Nat} (hi : Fin 2 → Nat) (x : (⟨2, ![a, b]⟩ : Shape).Idx → α) {u : Shape} (v : u.Idx → α)
    (h : (⟨2, ![a, b]⟩ : Shape).Pads ![0, 0] hi ![0, 0] ⟨2, ![A, B]⟩) (hu : 0 < u.numel)
    (j : (⟨2, ![A, B]⟩ : Shape).Idx) (k : (⟨2, ![a, b]⟩ : Shape).Idx)
    (h0 : (j 0).val = (k 0).val) (h1 : (j 1).val = (k 1).val) :
    pad ⟨2, ![A, B]⟩ ![0, 0] hi ![0, 0] x v h hu j = x k :=
  pad_apply_of_inside _ _ _ x v h hu j k fun d => match d with
    | ⟨0, _⟩ => by show (j 0).val = 0 + (k 0).val * (0 + 1); omega
    | ⟨1, _⟩ => by show (j 1).val = 0 + (k 1).val * (0 + 1); omega

/-- The same matrix read at a column past the operand's last: the padding constant. -/
theorem pad2_out_col {a b A B : Nat} (hi : Fin 2 → Nat) (x : (⟨2, ![a, b]⟩ : Shape).Idx → α) {u : Shape} (v : u.Idx → α)
    (h : (⟨2, ![a, b]⟩ : Shape).Pads ![0, 0] hi ![0, 0] ⟨2, ![A, B]⟩) (hu : 0 < u.numel)
    (j : (⟨2, ![A, B]⟩ : Shape).Idx) (h1 : b ≤ (j 1).val) :
    pad ⟨2, ![A, B]⟩ ![0, 0] hi ![0, 0] x v h hu j = v (Shape.Idx.first hu) :=
  pad_apply_of_not_inside _ _ _ x v h hu j (1 : Fin 2) (by
    show ¬(0 ≤ (j 1).val ∧ ((j 1).val - 0) % (0 + 1) = 0 ∧ ((j 1).val - 0) / (0 + 1) < b)
    rw [Nat.sub_zero, Nat.div_one]
    omega)

/-- The leading block of a matrix, read at an index: the matrix at the same coordinates. -/
theorem slice2_at {a b A B : Nat} (x : (⟨2, ![A, B]⟩ : Shape).Idx → α)
    (h : (⟨2, ![A, B]⟩ : Shape).Slices ![0, 0] ⟨2, ![a, b]⟩)
    (j : (⟨2, ![a, b]⟩ : Shape).Idx) (k : (⟨2, ![A, B]⟩ : Shape).Idx)
    (h0 : (k 0).val = (j 0).val) (h1 : (k 1).val = (j 1).val) :
    extractStridedSlice ⟨2, ![a, b]⟩ ![0, 0] x h j = x k :=
  extractStridedSlice_apply _ x h j k fun d => match d with
    | ⟨0, _⟩ => by show (k 0).val = 0 + (j 0).val; omega
    | ⟨1, _⟩ => by show (k 1).val = 0 + (j 1).val; omega

end Layout

/-- The region's entry arrays, its output, the previous layer's output, and the arguments, as plain arrays of extended reals. -/
abbrev A : (⟨2, ![2048, 256]⟩ : Shape).Idx → EReal := V68 m outs c main_v118
abbrev B : (⟨2, ![256, 256]⟩ : Shape).Idx → EReal := V68 m outs c main_v119
abbrev SO : (⟨2, ![2048, 1]⟩ : Shape).Idx → EReal := V68 m outs c main_v121
abbrev BI : (⟨2, ![1, 256]⟩ : Shape).Idx → EReal := V68 m outs c main_v122
abbrev O8 : (⟨2, ![2048, 256]⟩ : Shape).Idx → EReal := outs 65 main_v115 c
abbrev O9 : (⟨2, ![2048, 256]⟩ : Shape).Idx → EReal := outs 69 main_v123 c
abbrev a1 : (⟨2, ![2000, 2000]⟩ : Shape).Idx → EReal := m ((c.tc : Thread nD τ).loc main_arg1)
abbrev a3 : (⟨2, ![1000, 2000]⟩ : Shape).Idx → EReal := m ((c.tc : Thread nD τ).loc main_arg3)
abbrev a11 : (⟨2, ![2000, 256]⟩ : Shape).Idx → EReal := m ((c.tc : Thread nD τ).loc main_arg11)
abbrev a12 : (⟨1, ![256]⟩ : Shape).Idx → EReal := m ((c.tc : Thread nD τ).loc main_arg12)
abbrev a13 : (⟨2, ![256, 256]⟩ : Shape).Idx → EReal := m ((c.tc : Thread nD τ).loc main_arg13)

/-- Rows below 2000 of the left operand are the rows of the previous layer's output. -/
theorem A_read (r : Fin 2000) (q : Fin 256) :
    A m outs c (ix2 ⟨r.val, by omega⟩ q) = O8 outs c (ix2 ⟨r.val, by omega⟩ q) := by
  refine (congrFun (V68_of m outs c main_v118 (by decide)) _).trans ?_
  dsimp only [V67, V66, V65]
  simp only [hostOps9, hostOps9_1]
  after_results
  simp only [Function.update_self, TRef.ofBuf, TRef.toBuf, cast_eq]
  refine (pad2_in _ _ _ _ _ _ (ix2 r q) (by rfl) (by rfl)).trans ?_
  exact slice2_at (outs 65 main_v115 c) slices_S2048x256_S2000x256_0_0 (ix2 r q) _ (by rfl) (by rfl)

/-- The right operand is the layer's weight matrix. -/
theorem B_read (q j : Fin 256) : B m outs c (ix2 q j) = a13 m c (ix2 q j) := by
  have e : V65 m outs c main_arg13 = m ((c.tc : Thread nD τ).loc main_arg13) :=
    (V65_of m outs c main_arg13 (by decide)).trans <| (V64_of m outs c main_arg13 (by decide)).trans <| (V63_of m outs c main_arg13 (by decide)).trans <| (V62_of m outs c main_arg13 (by decide)).trans <| (V61_of m outs c main_arg13 (by decide)).trans <| (V60_of m outs c main_arg13 (by decide)).trans <| (V59_of m outs c main_arg13 (by decide)).trans <| (V58_of m outs c main_arg13 (by decide)).trans <| (V57_of m outs c main_arg13 (by decide)).trans <| (V56_of m outs c main_arg13 (by decide)).trans <| (V55_of m outs c main_arg13 (by decide)).trans <| (V54_of m outs c main_arg13 (by decide)).trans <| (V53_of m outs c main_arg13 (by decide)).trans <| (V52_of m outs c main_arg13 (by decide)).trans <| (V51_of m outs c main_arg13 (by decide)).trans <| (V50_of m outs c main_arg13 (by decide)).trans <| (V49_of m outs c main_arg13 (by decide)).trans <| (V48_of m outs c main_arg13 (by decide)).trans <| (V47_of m outs c main_arg13 (by decide)).trans <| (V46_of m outs c main_arg13 (by decide)).trans <| (V45_of m outs c main_arg13 (by decide)).trans <| (V44_of m outs c main_arg13 (by decide)).trans <| (V43_of m outs c main_arg13 (by decide)).trans <| (V42_of m outs c main_arg13 (by decide)).trans <| (V41_of m outs c main_arg13 (by decide)).trans <| (V40_of m outs c main_arg13 (by decide)).trans <| (V39_of m outs c main_arg13 (by decide)).trans <| (V38_of m outs c main_arg13 (by decide)).trans <| (V37_of m outs c main_arg13 (by decide)).trans <| (V36_of m outs c main_arg13 (by decide)).trans <| (V35_of m outs c main_arg13 (by decide)).trans <| (V34_of m outs c main_arg13 (by decide)).trans <| (V33_of m outs c main_arg13 (by decide)).trans <| (V32_of m outs c main_arg13 (by decide)).trans <| (V31_of m outs c main_arg13 (by decide)).trans <| (V30_of m outs c main_arg13 (by decide)).trans <| (V29_of m outs c main_arg13 (by decide)).trans <| (V28_of m outs c main_arg13 (by decide)).trans <| (V27_of m outs c main_arg13 (by decide)).trans <| (V26_of m outs c main_arg13 (by decide)).trans <| (V25_of m outs c main_arg13 (by decide)).trans <| (V24_of m outs c main_arg13 (by decide)).trans <| (V23_of m outs c main_arg13 (by decide)).trans <| (V22_of m outs c main_arg13 (by decide)).trans <| (V21_of m outs c main_arg13 (by decide)).trans <| (V20_of m outs c main_arg13 (by decide)).trans <| (V19_of m outs c main_arg13 (by decide)).trans <| (V18_of m outs c main_arg13 (by decide)).trans <| (V17_of m outs c main_arg13 (by decide)).trans <| (V16_of m outs c main_arg13 (by decide)).trans <| (V15_of m outs c main_arg13 (by decide)).trans <| (V14_of m outs c main_arg13 (by decide)).trans <| (V13_of m c main_arg13 (by decide)).trans <| (V12_of m c main_arg13 (by decide)).trans <| (V11_of m c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide))
  dsimp only [B, V68]
  simp only [hostOps9_2]
  after_results
  exact congrFun e _

/-- The row scale is one. -/
theorem SO_read (r : Fin 2048) : SO m outs c (ix2 r 0) = 1 := by
  dsimp only [SO, V68]
  simp only [hostOps9_2]
  after_results
  exact Ideal.ofBits_one_f32

/-- The bias is zero. -/
theorem BIAS_read (j : Fin 256) : BI m outs c (ix2 0 j) = 0 := by
  dsimp only [BI, V68]
  simp only [hostOps9_2]
  after_results
  exact Ideal.ofBits_zero_f32

/-- Region 9's output rows below 2000 are the reference's product of the previous layer's output with the weight matrix. -/
theorem OUT_9
    (h9 : ∀ (r : Fin 2048) (j : Fin 256), O9 outs c (ix2 r j)
      = (∑ q : Fin 256, A m outs c (ix2 r q) * B m outs c (ix2 q j)) * SO m outs c (ix2 r 0) + BI m outs c (ix2 0 j))
    (OUT_8 : ∀ (r : Fin 2000) (j : Fin 256), O8 outs c (ix2 ⟨r.val, by omega⟩ j)
      = Cert.ReferenceIdeal.Read.val_main_v90 (F := Ideal) (a1 m c) (a3 m c) (a11 m c) (a12 m c) (ix2 r j))
    (r : Fin 2000) (j : Fin 256) :
    O9 outs c (ix2 ⟨r.val, by omega⟩ j)
      = Cert.ReferenceIdeal.Read.val_main_v107 (F := Ideal) (a1 m c) (a3 m c) (a11 m c) (a12 m c) (a13 m c) (ix2 r j) := by
  rw [Cert.ReferenceIdeal.Read.val_main_v107_apply, h9, SO_read, BIAS_read, mul_one, add_zero]
  refine Finset.sum_congr rfl fun q _ => ?_
  rw [A_read, B_read, OUT_8]
  exact congrArg₂ (· * ·)
    (congrArg _ (funext fun a => match a with | ⟨0, _⟩ => rfl | ⟨1, _⟩ => rfl))
    (congrArg _ (funext fun a => match a with | ⟨0, _⟩ => rfl | ⟨1, _⟩ => rfl))

end Cert.KernelIdeal.Stage9
end
-- ==== Proof.KI.Stage10.lean ====
/-
  Region 10 of the kernel (the incidence matrix times the second layer's dense product, each row scaled by the safe
  inverse of its degree) against the reference's stage: the region's entry arrays read through the host operations
  before it, the zero padding of the contraction dropped, and the two safe inverses matched through the row sums.
-/
import proofs.«414035_j83562883711810_2_alg».proof.Proof.RegionsKI
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«414035_j83562883711810_2_alg».proof.Proof.ReadP

set_option maxRecDepth 2808

noncomputable section

open scoped BigOperators

namespace Cert.KernelIdeal.Stage10

open Cert.KernelIdeal Cert.KernelIdeal.Gen Cert.KernelIdeal.GenP
open Idealize.ShloMosaic Idealize.ShloMosaic.TcCoe Idealize.ShloMosaic.ValueIdx Idealize.ShloMosaic.StableHlo

variable (m : (ℓ : Loc nD τ sig) → Buf (Elt Ideal) ℓ) (outs : Outs (F := Ideal)) (c : Dev nD)

section Layout
variable {α : Type}

/-- A matrix padded high with a constant, read at an index whose two coordinates are those of an index of the operand. -/
theorem pad2_in {a b A B : Nat} (hi : Fin 2 → Nat) (x : (⟨2, ![a, b]⟩ : Shape).Idx → α) {u : Shape} (v : u.Idx → α)
    (h : (⟨2, ![a, b]⟩ : Shape).Pads ![0, 0] hi ![0, 0] ⟨2, ![A, B]⟩) (hu : 0 < u.numel)
    (j : (⟨2, ![A, B]⟩ : Shape).Idx) (k : (⟨2, ![a, b]⟩ : Shape).Idx)
    (h0 : (j 0).val = (k 0).val) (h1 : (j 1).val = (k 1).val) :
    pad ⟨2, ![A, B]⟩ ![0, 0] hi ![0, 0] x v h hu j = x k :=
  pad_apply_of_inside _ _ _ x v h hu j k fun d => match d with
    | ⟨0, _⟩ => by show (j 0).val = 0 + (k 0).val * (0 + 1); omega
    | ⟨1, _⟩ => by show (j 1).val = 0 + (k 1).val * (0 + 1); omega

/-- The same matrix read at a column past the operand's last: the padding constant. -/
theorem pad2_out_col {a b A B : Nat} (hi : Fin 2 → Nat) (x : (⟨2, ![a, b]⟩ : Shape).Idx → α) {u : Shape} (v : u.Idx → α)
    (h : (⟨2, ![a, b]⟩ : Shape).Pads ![0, 0] hi ![0, 0] ⟨2, ![A, B]⟩) (hu : 0 < u.numel)
    (j : (⟨2, ![A, B]⟩ : Shape).Idx) (h1 : b ≤ (j 1).val) :
    pad ⟨2, ![A, B]⟩ ![0, 0] hi ![0, 0] x v h hu j = v (Shape.Idx.first hu) :=
  pad_apply_of_not_inside _ _ _ x v h hu j (1 : Fin 2) (by
    show ¬(0 ≤ (j 1).val ∧ ((j 1).val - 0) % (0 + 1) = 0 ∧ ((j 1).val - 0) / (0 + 1) < b)
    rw [Nat.sub_zero, Nat.div_one]
    omega)

/-- The leading block of a matrix, read at an index: the matrix at the same coordinates. -/
theorem slice2_at {a b A B : Nat} (x : (⟨2, ![A, B]⟩ : Shape).Idx → α)
    (h : (⟨2, ![A, B]⟩ : Shape).Slices ![0, 0] ⟨2, ![a, b]⟩)
    (j : (⟨2, ![a, b]⟩ : Shape).Idx) (k : (⟨2, ![A, B]⟩ : Shape).Idx)
    (h0 : (k 0).val = (j 0).val) (h1 : (k 1).val = (j 1).val) :
    extractStridedSlice ⟨2, ![a, b]⟩ ![0, 0] x h j = x k :=
  extractStridedSlice_apply _ x h j k fun d => match d with
    | ⟨0, _⟩ => by show (k 0).val = 0 + (j 0).val; omega
    | ⟨1, _⟩ => by show (k 1).val = 0 + (j 1).val; omega

end Layout

abbrev A : (⟨2, ![1000, 2048]⟩ : Shape).Idx → EReal := V74 m outs c main_v126
abbrev B : (⟨2, ![2048, 256]⟩ : Shape).Idx → EReal := V74 m outs c main_v128
abbrev SO : (⟨2, ![1000, 1]⟩ : Shape).Idx → EReal := V74 m outs c main_v37
abbrev BI : (⟨2, ![1, 256]⟩ : Shape).Idx → EReal := V74 m outs c main_v130
abbrev O9 : (⟨2, ![2048, 256]⟩ : Shape).Idx → EReal := outs 69 main_v123 c
abbrev O10 : (⟨2, ![1000, 256]⟩ : Shape).Idx → EReal := outs 75 main_v131 c
abbrev a1 : (⟨2, ![2000, 2000]⟩ : Shape).Idx → EReal := m ((c.tc : Thread nD τ).loc main_arg1)
abbrev a3 : (⟨2, ![1000, 2000]⟩ : Shape).Idx → EReal := m ((c.tc : Thread nD τ).loc main_arg3)
abbrev a11 : (⟨2, ![2000, 256]⟩ : Shape).Idx → EReal := m ((c.tc : Thread nD τ).loc main_arg11)
abbrev a12 : (⟨1, ![256]⟩ : Shape).Idx → EReal := m ((c.tc : Thread nD τ).loc main_arg12)
abbrev a13 : (⟨2, ![256, 256]⟩ : Shape).Idx → EReal := m ((c.tc : Thread nD τ).loc main_arg13)

/-- The safe inverse of a degree: its reciprocal (floored away from zero) where it is positive, zero elsewhere. -/
def safeInv (s : EReal) : EReal :=
  Scalar.select (FloatOps.cmpf (F := Ideal) (φ := .f32) .ogt s (Ideal.ofBits .f32 0x00000000#32))
    (FloatOps.hostDivf (F := Ideal) (φ := .f32) (Ideal.ofBits .f32 0x3F800000#32) (FloatOps.maximumf (F := Ideal) (φ := .f32) s (Ideal.ofBits .f32 0x2B8CBCCC#32)))
    (Ideal.ofBits .f32 0x00000000#32)

theorem arg3_entry : V69 m outs c main_arg3 = m ((c.tc : Thread nD τ).loc main_arg3) :=
  (V69_of m outs c main_arg3 (by decide)).trans <| (V68_of m outs c main_arg3 (by decide)).trans <| (V67_of m outs c main_arg3 (by decide)).trans <| (V66_of m outs c main_arg3 (by decide)).trans <| (V65_of m outs c main_arg3 (by decide)).trans <| (V64_of m outs c main_arg3 (by decide)).trans <| (V63_of m outs c main_arg3 (by decide)).trans <| (V62_of m outs c main_arg3 (by decide)).trans <| (V61_of m outs c main_arg3 (by decide)).trans <| (V60_of m outs c main_arg3 (by decide)).trans <| (V59_of m outs c main_arg3 (by decide)).trans <| (V58_of m outs c main_arg3 (by decide)).trans <| (V57_of m outs c main_arg3 (by decide)).trans <| (V56_of m outs c main_arg3 (by decide)).trans <| (V55_of m outs c main_arg3 (by decide)).trans <| (V54_of m outs c main_arg3 (by decide)).trans <| (V53_of m outs c main_arg3 (by decide)).trans <| (V52_of m outs c main_arg3 (by decide)).trans <| (V51_of m outs c main_arg3 (by decide)).trans <| (V50_of m outs c main_arg3 (by decide)).trans <| (V49_of m outs c main_arg3 (by decide)).trans <| (V48_of m outs c main_arg3 (by decide)).trans <| (V47_of m outs c main_arg3 (by decide)).trans <| (V46_of m outs c main_arg3 (by decide)).trans <| (V45_of m outs c main_arg3 (by decide)).trans <| (V44_of m outs c main_arg3 (by decide)).trans <| (V43_of m outs c main_arg3 (by decide)).trans <| (V42_of m outs c main_arg3 (by decide)).trans <| (V41_of m outs c main_arg3 (by decide)).trans <| (V40_of m outs c main_arg3 (by decide)).trans <| (V39_of m outs c main_arg3 (by decide)).trans <| (V38_of m outs c main_arg3 (by decide)).trans <| (V37_of m outs c main_arg3 (by decide)).trans <| (V36_of m outs c main_arg3 (by decide)).trans <| (V35_of m outs c main_arg3 (by decide)).trans <| (V34_of m outs c main_arg3 (by decide)).trans <| (V33_of m outs c main_arg3 (by decide)).trans <| (V32_of m outs c main_arg3 (by decide)).trans <| (V31_of m outs c main_arg3 (by decide)).trans <| (V30_of m outs c main_arg3 (by decide)).trans <| (V29_of m outs c main_arg3 (by decide)).trans <| (V28_of m outs c main_arg3 (by decide)).trans <| (V27_of m outs c main_arg3 (by decide)).trans <| (V26_of m outs c main_arg3 (by decide)).trans <| (V25_of m outs c main_arg3 (by decide)).trans <| (V24_of m outs c main_arg3 (by decide)).trans <| (V23_of m outs c main_arg3 (by decide)).trans <| (V22_of m outs c main_arg3 (by decide)).trans <| (V21_of m outs c main_arg3 (by decide)).trans <| (V20_of m outs c main_arg3 (by decide)).trans <| (V19_of m outs c main_arg3 (by decide)).trans <| (V18_of m outs c main_arg3 (by decide)).trans <| (V17_of m outs c main_arg3 (by decide)).trans <| (V16_of m outs c main_arg3 (by decide)).trans <| (V15_of m outs c main_arg3 (by decide)).trans <| (V14_of m outs c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))

/-- Columns below 2000 of the left operand are the incidence matrix's columns. -/
theorem A_read_in (i : Fin 1000) (q : Fin 2000) : A m outs c (ix2 i ⟨q.val, by omega⟩) = a3 m c (ix2 i q) := by
  refine (congrFun ((V74_of m outs c main_v126 (by decide)).trans <| (V73_of m outs c main_v126 (by decide)).trans <| (V72_of m outs c main_v126 (by decide))) _).trans ?_
  dsimp only [V71, V70]
  simp only [hostOps10, hostOps10_1]
  after_results
  simp only [TRef.ofBuf, TRef.toBuf, cast_eq]
  refine (pad2_in _ _ _ _ _ _ (ix2 i q) (by rfl) (by rfl)).trans ?_
  exact congrFun (arg3_entry m outs c) _

/-- Columns from 2000 on of the left operand are zero. -/
theorem A_read_out (i : Fin 1000) (q : Fin 2048) (hq : 2000 ≤ q.val) : A m outs c (ix2 i q) = 0 := by
  refine (congrFun ((V74_of m outs c main_v126 (by decide)).trans <| (V73_of m outs c main_v126 (by decide)).trans <| (V72_of m outs c main_v126 (by decide))) _).trans ?_
  dsimp only [V71, V70]
  simp only [hostOps10, hostOps10_1]
  after_results
  simp only [TRef.ofBuf, TRef.toBuf, cast_eq]
  refine (pad2_out_col _ _ _ _ _ _ hq).trans ?_
  exact sitofp_zero (φ := .bf16)

/-- Rows below 2000 of the right operand are the rows of the previous product. -/
theorem B_read (q : Fin 2000) (j : Fin 256) : B m outs c (ix2 ⟨q.val, by omega⟩ j) = O9 outs c (ix2 ⟨q.val, by omega⟩ j) := by
  refine (congrFun (V74_of m outs c main_v128 (by decide)) _).trans ?_
  dsimp only [V73, V72, V71, V70, V69]
  simp only [hostOps10, hostOps10_1, hostOps10_2, hostOps10_3]
  after_results
  simp only [Function.update_self, TRef.ofBuf, TRef.toBuf, cast_eq]
  refine (pad2_in _ _ _ _ _ _ (ix2 q j) (by rfl) (by rfl)).trans ?_
  exact slice2_at (outs 69 main_v123 c) slices_S2048x256_S2000x256_0_0 (ix2 q j) _ (by rfl) (by rfl)

/-- The bias is zero. -/
theorem BIAS_read (j : Fin 256) : BI m outs c (ix2 0 j) = 0 := by
  dsimp only [BI, V74]
  simp only [hostOps10_4]
  after_results
  exact Ideal.ofBits_zero_f32

abbrev arr3 (W : Valuation τ sig (Elt Ideal)) : (⟨2, ![1000, 2000]⟩ : Shape).Idx → EReal := W main_arg3
abbrev so_of (W : Valuation τ sig (Elt Ideal)) : (⟨2, ![1000, 1]⟩ : Shape).Idx → EReal :=
  StableHlo.after hostOps0_8 (StableHlo.after hostOps0_7 (StableHlo.after hostOps0_6 W)) main_v37

/-- The host's sum of a matrix along its rows, at a row. -/
theorem rowsum (x : (⟨2, ![1000, 2000]⟩ : Shape).Idx → EReal) (z : S_.Idx → EReal) (i : Fin 1000) (v : EReal)
    (hz : z (Shape.Idx.first h_S_) = v) :
    Host.reduceAdd (F := Ideal) (φ := .f32) x z reducesTo_S1000x2000_S1000_d1 h_S_ (ix1 i) = v + ∑ k : Fin 2000, x (ix2 i k) := by
  simp only [Host.reduceAdd, Ideal.hostReduceAdd_def]
  rw [Ideal.hostReduceAdd_single reducesTo_S1000x2000_S1000_d1 (by decide), hz]
  refine congrArg (_ + ·) (Finset.sum_congr rfl fun k _ => ?_)
  exact congrArg x (funext fun a => Fin.ext (by match a with | ⟨0, _⟩ => rfl | ⟨1, _⟩ => rfl))

/-- The row scale computed from any contents of the incidence matrix: the safe inverse of its row sums. -/
theorem so_after (W : Valuation τ sig (Elt Ideal)) (i : Fin 1000) :
    so_of W (ix2 i 0) = safeInv (Ideal.ofBits .f32 0x00000000#32 + ∑ k : Fin 2000, arr3 W (ix2 i k)) := by
  dsimp only [so_of]
  simp only [hostOps0_6, hostOps0_7, hostOps0_8]
  after_results
  simp only [TRef.ofBuf, TRef.toBuf, cast_eq]
  refine (broadcastInDim_apply _ _ _ _ (ix1 i) (fun a => match a with
    | ⟨0, _⟩ => by show i.val = if (1000 : Nat) = 1 then 0 else i.val; rw [if_neg (by decide)])).trans ?_
  unfold safeInv
  rw [← rowsum (arr3 W) (constant (F := Ideal) S_ .f32 0x00000000#32) i (Ideal.ofBits .f32 0x00000000#32) rfl]
  rfl

/-- The row scale is the safe inverse of the incidence matrix's row sums. -/
theorem SO_read (i : Fin 1000) :
    SO m outs c (ix2 i 0) = safeInv (Ideal.ofBits .f32 0x00000000#32 + ∑ k : Fin 2000, a3 m c (ix2 i k)) := by
  have e : arr3 (V6 m c) = a3 m c := (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
  refine (congrFun ((V74_of m outs c main_v37 (by decide)).trans <| (V73_of m outs c main_v37 (by decide)).trans <| (V72_of m outs c main_v37 (by decide)).trans <| (V71_of m outs c main_v37 (by decide)).trans <| (V70_of m outs c main_v37 (by decide)).trans <| (V69_of m outs c main_v37 (by decide)).trans <| (V68_of m outs c main_v37 (by decide)).trans <| (V67_of m outs c main_v37 (by decide)).trans <| (V66_of m outs c main_v37 (by decide)).trans <| (V65_of m outs c main_v37 (by decide)).trans <| (V64_of m outs c main_v37 (by decide)).trans <| (V63_of m outs c main_v37 (by decide)).trans <| (V62_of m outs c main_v37 (by decide)).trans <| (V61_of m outs c main_v37 (by decide)).trans <| (V60_of m outs c main_v37 (by decide)).trans <| (V59_of m outs c main_v37 (by decide)).trans <| (V58_of m outs c main_v37 (by decide)).trans <| (V57_of m outs c main_v37 (by decide)).trans <| (V56_of m outs c main_v37 (by decide)).trans <| (V55_of m outs c main_v37 (by decide)).trans <| (V54_of m outs c main_v37 (by decide)).trans <| (V53_of m outs c main_v37 (by decide)).trans <| (V52_of m outs c main_v37 (by decide)).trans <| (V51_of m outs c main_v37 (by decide)).trans <| (V50_of m outs c main_v37 (by decide)).trans <| (V49_of m outs c main_v37 (by decide)).trans <| (V48_of m outs c main_v37 (by decide)).trans <| (V47_of m outs c main_v37 (by decide)).trans <| (V46_of m outs c main_v37 (by decide)).trans <| (V45_of m outs c main_v37 (by decide)).trans <| (V44_of m outs c main_v37 (by decide)).trans <| (V43_of m outs c main_v37 (by decide)).trans <| (V42_of m outs c main_v37 (by decide)).trans <| (V41_of m outs c main_v37 (by decide)).trans <| (V40_of m outs c main_v37 (by decide)).trans <| (V39_of m outs c main_v37 (by decide)).trans <| (V38_of m outs c main_v37 (by decide)).trans <| (V37_of m outs c main_v37 (by decide)).trans <| (V36_of m outs c main_v37 (by decide)).trans <| (V35_of m outs c main_v37 (by decide)).trans <| (V34_of m outs c main_v37 (by decide)).trans <| (V33_of m outs c main_v37 (by decide)).trans <| (V32_of m outs c main_v37 (by decide)).trans <| (V31_of m outs c main_v37 (by decide)).trans <| (V30_of m outs c main_v37 (by decide)).trans <| (V29_of m outs c main_v37 (by decide)).trans <| (V28_of m outs c main_v37 (by decide)).trans <| (V27_of m outs c main_v37 (by decide)).trans <| (V26_of m outs c main_v37 (by decide)).trans <| (V25_of m outs c main_v37 (by decide)).trans <| (V24_of m outs c main_v37 (by decide)).trans <| (V23_of m outs c main_v37 (by decide)).trans <| (V22_of m outs c main_v37 (by decide)).trans <| (V21_of m outs c main_v37 (by decide)).trans <| (V20_of m outs c main_v37 (by decide)).trans <| (V19_of m outs c main_v37 (by decide)).trans <| (V18_of m outs c main_v37 (by decide)).trans <| (V17_of m outs c main_v37 (by decide)).trans <| (V16_of m outs c main_v37 (by decide)).trans <| (V15_of m outs c main_v37 (by decide)).trans <| (V14_of m outs c main_v37 (by decide)).trans <| (V13_of m c main_v37 (by decide)).trans <| (V12_of m c main_v37 (by decide)).trans <| (V11_of m c main_v37 (by decide)).trans <| (V10_of m c main_v37 (by decide))) _).trans ?_
  refine (so_after (V6 m c) i).trans ?_
  rw [e]

/-- A sum whose terms vanish from K0 on is the sum of its first K0 terms. -/
theorem sum_drop_pad {K0 d : ℕ} (f : Fin (K0 + d) → EReal) (hz : ∀ q : Fin (K0 + d), K0 ≤ q.val → f q = 0) :
    ∑ q : Fin (K0 + d), f q = ∑ q : Fin K0, f (Fin.castAdd d q) := by
  have h2 : ∑ i : Fin d, f (Fin.natAdd K0 i) = 0 :=
    Finset.sum_eq_zero fun q _ => hz _ (by show K0 ≤ K0 + q.val; omega)
  rw [Fin.sum_univ_add, h2, add_zero]

open Cert.ReferenceIdeal.Read in
/-- The reference's row scale is the safe inverse of the incidence matrix's row sums. -/
theorem ref_so (x3 : (⟨2, ![1000, 2000]⟩ : Shape).Idx → EReal) (i : Fin 1000) (j : Fin 256) :
    val_main_v111 (F := Ideal) x3 (ix2 i j) = safeInv (Ideal.ofBits .f32 0x00000000#32 + ∑ k : Fin 2000, x3 (ix2 i k)) := by
  rw [val_main_v111_apply, val_main_v110_apply, val_main_v106_apply, val_main_v101_apply, val_main_v105_apply,
    val_main_v103_apply, val_main_v99_apply]
  have hs : ∑ k : Fin 2000, val_main_v1 (F := Ideal) x3 (idx_main_v99 (idx_main_v110 (idx_main_v111 (ix2 i j))) k)
      = ∑ k : Fin 2000, x3 (ix2 i k) := Finset.sum_congr rfl fun k _ => by
    rw [val_main_v1_apply]
    exact congrArg x3 (funext fun a => match a with | ⟨0, _⟩ => rfl | ⟨1, _⟩ => rfl)
  rw [hs]
  rfl

open Cert.ReferenceIdeal.Read in
/-- Region 10's output is the reference's scaled product of the incidence matrix with the previous product. -/
theorem OUT_10
    (h10 : ∀ (r : Fin 1000) (j : Fin 256), O10 outs c (ix2 r j)
      = (∑ q : Fin 2048, A m outs c (ix2 r q) * B m outs c (ix2 q j)) * SO m outs c (ix2 r 0) + BI m outs c (ix2 0 j))
    (OUT_9 : ∀ (r : Fin 2000) (j : Fin 256), O9 outs c (ix2 ⟨r.val, by omega⟩ j)
      = val_main_v107 (F := Ideal) (a1 m c) (a3 m c) (a11 m c) (a12 m c) (a13 m c) (ix2 r j))
    (r : Fin 1000) (j : Fin 256) :
    O10 outs c (ix2 r j)
      = val_main_v112 (F := Ideal) (a1 m c) (a3 m c) (a11 m c) (a12 m c) (a13 m c) (ix2 r j) := by
  rw [val_main_v112_apply, val_main_v109_apply, h10, BIAS_read, add_zero, ref_so, SO_read]
  refine congrArg (· * _) ?_
  refine (sum_drop_pad (K0 := 2000) (d := 48) _ (fun q hq => by rw [A_read_out m outs c r q hq, zero_mul])).trans ?_
  refine Finset.sum_congr rfl fun k _ => ?_
  refine congrArg₂ (· * ·) ((A_read_in m outs c r k).trans ?_) ((B_read m outs c k j).trans ((OUT_9 k j).trans ?_))
  · rw [val_main_v108_apply, val_main_v1_apply]
    exact congrArg _ (funext fun a => match a with | ⟨0, _⟩ => rfl | ⟨1, _⟩ => rfl)
  · exact congrArg _ (funext fun a => match a with | ⟨0, _⟩ => rfl | ⟨1, _⟩ => rfl)

end Cert.KernelIdeal.Stage10
end
-- ==== Proof.KI.Stage11.lean ====
/-
  Region 11 of the kernel (the transposed incidence matrix times region 10's output, each row scaled by the safe
  inverse of its degree, plus the bias) against the reference's stage: the region's entry arrays read through the
  host operations before it, and the two safe inverses matched through the column sums.
-/
import proofs.«414035_j83562883711810_2_alg».proof.Proof.RegionsKI
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«414035_j83562883711810_2_alg».proof.Proof.ReadP

set_option maxRecDepth 2808

noncomputable section

open scoped BigOperators

namespace Cert.KernelIdeal.Stage11

open Cert.KernelIdeal Cert.KernelIdeal.Gen Cert.KernelIdeal.GenP
open Idealize.ShloMosaic Idealize.ShloMosaic.TcCoe Idealize.ShloMosaic.ValueIdx Idealize.ShloMosaic.StableHlo

variable (m : (ℓ : Loc nD τ sig) → Buf (Elt Ideal) ℓ) (outs : Outs (F := Ideal)) (c : Dev nD)

section Layout
variable {α : Type}

/-- A matrix padded high with a constant, read at an index whose two coordinates are those of an index of the operand. -/
theorem pad2_in {a b A B : Nat} (hi : Fin 2 → Nat) (x : (⟨2, ![a, b]⟩ : Shape).Idx → α) {u : Shape} (v : u.Idx → α)
    (h : (⟨2, ![a, b]⟩ : Shape).Pads ![0, 0] hi ![0, 0] ⟨2, ![A, B]⟩) (hu : 0 < u.numel)
    (j : (⟨2, ![A, B]⟩ : Shape).Idx) (k : (⟨2, ![a, b]⟩ : Shape).Idx)
    (h0 : (j 0).val = (k 0).val) (h1 : (j 1).val = (k 1).val) :
    pad ⟨2, ![A, B]⟩ ![0, 0] hi ![0, 0] x v h hu j = x k :=
  pad_apply_of_inside _ _ _ x v h hu j k fun d => match d with
    | ⟨0, _⟩ => by show (j 0).val = 0 + (k 0).val * (0 + 1); omega
    | ⟨1, _⟩ => by show (j 1).val = 0 + (k 1).val * (0 + 1); omega

/-- The same matrix read at a column past the operand's last: the padding constant. -/
theorem pad2_out_col {a b A B : Nat} (hi : Fin 2 → Nat) (x : (⟨2, ![a, b]⟩ : Shape).Idx → α) {u : Shape} (v : u.Idx → α)
    (h : (⟨2, ![a, b]⟩ : Shape).Pads ![0, 0] hi ![0, 0] ⟨2, ![A, B]⟩) (hu : 0 < u.numel)
    (j : (⟨2, ![A, B]⟩ : Shape).Idx) (h1 : b ≤ (j 1).val) :
    pad ⟨2, ![A, B]⟩ ![0, 0] hi ![0, 0] x v h hu j = v (Shape.Idx.first hu) :=
  pad_apply_of_not_inside _ _ _ x v h hu j (1 : Fin 2) (by
    show ¬(0 ≤ (j 1).val ∧ ((j 1).val - 0) % (0 + 1) = 0 ∧ ((j 1).val - 0) / (0 + 1) < b)
    rw [Nat.sub_zero, Nat.div_one]
    omega)

/-- The leading block of a matrix, read at an index: the matrix at the same coordinates. -/
theorem slice2_at {a b A B : Nat} (x : (⟨2, ![A, B]⟩ : Shape).Idx → α)
    (h : (⟨2, ![A, B]⟩ : Shape).Slices ![0, 0] ⟨2, ![a, b]⟩)
    (j : (⟨2, ![a, b]⟩ : Shape).Idx) (k : (⟨2, ![A, B]⟩ : Shape).Idx)
    (h0 : (k 0).val = (j 0).val) (h1 : (k 1).val = (j 1).val) :
    extractStridedSlice ⟨2, ![a, b]⟩ ![0, 0] x h j = x k :=
  extractStridedSlice_apply _ x h j k fun d => match d with
    | ⟨0, _⟩ => by show (k 0).val = 0 + (j 0).val; omega
    | ⟨1, _⟩ => by show (k 1).val = 0 + (j 1).val; omega

end Layout

abbrev A : (⟨2, ![2048, 1000]⟩ : Shape).Idx → EReal := V79 m outs c main_v133
abbrev B : (⟨2, ![1000, 256]⟩ : Shape).Idx → EReal := V79 m outs c main_v134
abbrev SO : (⟨2, ![2048, 1]⟩ : Shape).Idx → EReal := V79 m outs c main_v136
abbrev BI : (⟨2, ![1, 256]⟩ : Shape).Idx → EReal := V79 m outs c main_v41
abbrev O10 : (⟨2, ![1000, 256]⟩ : Shape).Idx → EReal := outs 75 main_v131 c
abbrev O11 : (⟨2, ![2048, 256]⟩ : Shape).Idx → EReal := outs 80 main_v137 c
abbrev a1 : (⟨2, ![2000, 2000]⟩ : Shape).Idx → EReal := m ((c.tc : Thread nD τ).loc main_arg1)
abbrev a3 : (⟨2, ![1000, 2000]⟩ : Shape).Idx → EReal := m ((c.tc : Thread nD τ).loc main_arg3)
abbrev a11 : (⟨2, ![2000, 256]⟩ : Shape).Idx → EReal := m ((c.tc : Thread nD τ).loc main_arg11)
abbrev a12 : (⟨1, ![256]⟩ : Shape).Idx → EReal := m ((c.tc : Thread nD τ).loc main_arg12)
abbrev a13 : (⟨2, ![256, 256]⟩ : Shape).Idx → EReal := m ((c.tc : Thread nD τ).loc main_arg13)
abbrev a14 : (⟨1, ![256]⟩ : Shape).Idx → EReal := m ((c.tc : Thread nD τ).loc main_arg14)

/-- The safe inverse of a degree: its reciprocal (floored away from zero) where it is positive, zero elsewhere. -/
def safeInv (s : EReal) : EReal :=
  Scalar.select (FloatOps.cmpf (F := Ideal) (φ := .f32) .ogt s (Ideal.ofBits .f32 0x00000000#32))
    (FloatOps.hostDivf (F := Ideal) (φ := .f32) (Ideal.ofBits .f32 0x3F800000#32) (FloatOps.maximumf (F := Ideal) (φ := .f32) s (Ideal.ofBits .f32 0x2B8CBCCC#32)))
    (Ideal.ofBits .f32 0x00000000#32)

abbrev arr3 (W : Valuation τ sig (Elt Ideal)) : (⟨2, ![1000, 2000]⟩ : Shape).Idx → EReal := W main_arg3
abbrev arr14 (W : Valuation τ sig (Elt Ideal)) : (⟨1, ![256]⟩ : Shape).Idx → EReal := W main_arg14
abbrev tr_of (W : Valuation τ sig (Elt Ideal)) : (⟨2, ![2000, 1000]⟩ : Shape).Idx → EReal :=
  StableHlo.after hostOps0 W main_v1
abbrev so_of (W : Valuation τ sig (Elt Ideal)) : (⟨2, ![2000, 1]⟩ : Shape).Idx → EReal :=
  StableHlo.after hostOps0_6 (StableHlo.after hostOps0_5 (StableHlo.after hostOps0_4 W)) main_v28
abbrev bias_of (W : Valuation τ sig (Elt Ideal)) : (⟨2, ![1, 256]⟩ : Shape).Idx → EReal :=
  StableHlo.after hostOps0_8 W main_v41

/-- The transposed incidence matrix computed from any contents of the incidence matrix. -/
theorem tr_after (W : Valuation τ sig (Elt Ideal)) (r : Fin 2000) (q : Fin 1000) :
    tr_of W (ix2 r q) = arr3 W (ix2 q r) := by
  dsimp only [tr_of]
  simp only [hostOps0]
  after_results
  exact transpose_apply [1, 0] _ _ (ix2 r q) (ix2 q r) (fun b => match b with
    | ⟨0, _⟩ => rfl
    | ⟨1, _⟩ => rfl)

/-- Rows below 2000 of the left operand are the incidence matrix's columns. -/
theorem A_read (r : Fin 2000) (q : Fin 1000) : A m outs c (ix2 ⟨r.val, by omega⟩ q) = a3 m c (ix2 q r) := by
  have e : V75 m outs c main_v1 = V1 m c main_v1 := (V75_of m outs c main_v1 (by decide)).trans <| (V74_of m outs c main_v1 (by decide)).trans <| (V73_of m outs c main_v1 (by decide)).trans <| (V72_of m outs c main_v1 (by decide)).trans <| (V71_of m outs c main_v1 (by decide)).trans <| (V70_of m outs c main_v1 (by decide)).trans <| (V69_of m outs c main_v1 (by decide)).trans <| (V68_of m outs c main_v1 (by decide)).trans <| (V67_of m outs c main_v1 (by decide)).trans <| (V66_of m outs c main_v1 (by decide)).trans <| (V65_of m outs c main_v1 (by decide)).trans <| (V64_of m outs c main_v1 (by decide)).trans <| (V63_of m outs c main_v1 (by decide)).trans <| (V62_of m outs c main_v1 (by decide)).trans <| (V61_of m outs c main_v1 (by decide)).trans <| (V60_of m outs c main_v1 (by decide)).trans <| (V59_of m outs c main_v1 (by decide)).trans <| (V58_of m outs c main_v1 (by decide)).trans <| (V57_of m outs c main_v1 (by decide)).trans <| (V56_of m outs c main_v1 (by decide)).trans <| (V55_of m outs c main_v1 (by decide)).trans <| (V54_of m outs c main_v1 (by decide)).trans <| (V53_of m outs c main_v1 (by decide)).trans <| (V52_of m outs c main_v1 (by decide)).trans <| (V51_of m outs c main_v1 (by decide)).trans <| (V50_of m outs c main_v1 (by decide)).trans <| (V49_of m outs c main_v1 (by decide)).trans <| (V48_of m outs c main_v1 (by decide)).trans <| (V47_of m outs c main_v1 (by decide)).trans <| (V46_of m outs c main_v1 (by decide)).trans <| (V45_of m outs c main_v1 (by decide)).trans <| (V44_of m outs c main_v1 (by decide)).trans <| (V43_of m outs c main_v1 (by decide)).trans <| (V42_of m outs c main_v1 (by decide)).trans <| (V41_of m outs c main_v1 (by decide)).trans <| (V40_of m outs c main_v1 (by decide)).trans <| (V39_of m outs c main_v1 (by decide)).trans <| (V38_of m outs c main_v1 (by decide)).trans <| (V37_of m outs c main_v1 (by decide)).trans <| (V36_of m outs c main_v1 (by decide)).trans <| (V35_of m outs c main_v1 (by decide)).trans <| (V34_of m outs c main_v1 (by decide)).trans <| (V33_of m outs c main_v1 (by decide)).trans <| (V32_of m outs c main_v1 (by decide)).trans <| (V31_of m outs c main_v1 (by decide)).trans <| (V30_of m outs c main_v1 (by decide)).trans <| (V29_of m outs c main_v1 (by decide)).trans <| (V28_of m outs c main_v1 (by decide)).trans <| (V27_of m outs c main_v1 (by decide)).trans <| (V26_of m outs c main_v1 (by decide)).trans <| (V25_of m outs c main_v1 (by decide)).trans <| (V24_of m outs c main_v1 (by decide)).trans <| (V23_of m outs c main_v1 (by decide)).trans <| (V22_of m outs c main_v1 (by decide)).trans <| (V21_of m outs c main_v1 (by decide)).trans <| (V20_of m outs c main_v1 (by decide)).trans <| (V19_of m outs c main_v1 (by decide)).trans <| (V18_of m outs c main_v1 (by decide)).trans <| (V17_of m outs c main_v1 (by decide)).trans <| (V16_of m outs c main_v1 (by decide)).trans <| (V15_of m outs c main_v1 (by decide)).trans <| (V14_of m outs c main_v1 (by decide)).trans <| (V13_of m c main_v1 (by decide)).trans <| (V12_of m c main_v1 (by decide)).trans <| (V11_of m c main_v1 (by decide)).trans <| (V10_of m c main_v1 (by decide)).trans <| (V9_of m c main_v1 (by decide)).trans <| (V8_of m c main_v1 (by decide)).trans <| (V7_of m c main_v1 (by decide)).trans <| (V6_of m c main_v1 (by decide)).trans <| (V5_of m c main_v1 (by decide)).trans <| (V4_of m c main_v1 (by decide)).trans <| (V3_of m c main_v1 (by decide)).trans <| (V2_of m c main_v1 (by decide))
  refine (congrFun ((V79_of m outs c main_v133 (by decide)).trans <| (V78_of m outs c main_v133 (by decide))) _).trans ?_
  dsimp only [V77, V76]
  simp only [hostOps11, hostOps11_1]
  after_results
  simp only [TRef.ofBuf, TRef.toBuf, cast_eq]
  refine (pad2_in _ _ _ _ _ _ (ix2 r q) (by rfl) (by rfl)).trans ?_
  refine (congrFun e _).trans ?_
  exact tr_after (V0 m c) r q

/-- The right operand is the previous region's output. -/
theorem B_read (q : Fin 1000) (j : Fin 256) : B m outs c (ix2 q j) = O10 outs c (ix2 q j) := by
  refine (congrFun (V79_of m outs c main_v134 (by decide)) _).trans ?_
  dsimp only [V78, V77, V76, V75]
  simp only [hostOps11, hostOps11_1, hostOps11_2]
  after_results
  simp only [Function.update_self]
  rfl

/-- The host's sum of a matrix along its columns, at a column. -/
theorem colsum (x : (⟨2, ![1000, 2000]⟩ : Shape).Idx → EReal) (z : S_.Idx → EReal) (r : Fin 2000) (v : EReal)
    (hz : z (Shape.Idx.first h_S_) = v) :
    Host.reduceAdd (F := Ideal) (φ := .f32) x z reducesTo_S1000x2000_S2000_d0 h_S_ (ix1 r) = v + ∑ k : Fin 1000, x (ix2 k r) := by
  simp only [Host.reduceAdd, Ideal.hostReduceAdd_def]
  rw [Ideal.hostReduceAdd_single reducesTo_S1000x2000_S2000_d0 (by decide), hz]
  refine congrArg (_ + ·) (Finset.sum_congr rfl fun k _ => ?_)
  exact congrArg x (funext fun a => Fin.ext (by match a with | ⟨0, _⟩ => rfl | ⟨1, _⟩ => rfl))

/-- The row scale computed from any contents of the incidence matrix: the safe inverse of its column sums. -/
theorem so_after (W : Valuation τ sig (Elt Ideal)) (r : Fin 2000) :
    so_of W (ix2 r 0) = safeInv (Ideal.ofBits .f32 0x00000000#32 + ∑ k : Fin 1000, arr3 W (ix2 k r)) := by
  dsimp only [so_of]
  simp only [hostOps0_4, hostOps0_5, hostOps0_6]
  after_results
  simp only [TRef.ofBuf, TRef.toBuf, cast_eq]
  refine (broadcastInDim_apply _ _ _ _ (ix1 r) (fun a => match a with
    | ⟨0, _⟩ => by show r.val = if (2000 : Nat) = 1 then 0 else r.val; rw [if_neg (by decide)])).trans ?_
  unfold safeInv
  rw [← colsum (arr3 W) (constant (F := Ideal) S_ .f32 0x00000000#32) r (Ideal.ofBits .f32 0x00000000#32) rfl]
  rfl

/-- Rows below 2000 of the row scale are the safe inverses of the incidence matrix's column sums. -/
theorem SO_read (r : Fin 2000) :
    SO m outs c (ix2 ⟨r.val, by omega⟩ 0) = safeInv (Ideal.ofBits .f32 0x00000000#32 + ∑ k : Fin 1000, a3 m c (ix2 k r)) := by
  have e : V75 m outs c main_v28 = V7 m c main_v28 := (V75_of m outs c main_v28 (by decide)).trans <| (V74_of m outs c main_v28 (by decide)).trans <| (V73_of m outs c main_v28 (by decide)).trans <| (V72_of m outs c main_v28 (by decide)).trans <| (V71_of m outs c main_v28 (by decide)).trans <| (V70_of m outs c main_v28 (by decide)).trans <| (V69_of m outs c main_v28 (by decide)).trans <| (V68_of m outs c main_v28 (by decide)).trans <| (V67_of m outs c main_v28 (by decide)).trans <| (V66_of m outs c main_v28 (by decide)).trans <| (V65_of m outs c main_v28 (by decide)).trans <| (V64_of m outs c main_v28 (by decide)).trans <| (V63_of m outs c main_v28 (by decide)).trans <| (V62_of m outs c main_v28 (by decide)).trans <| (V61_of m outs c main_v28 (by decide)).trans <| (V60_of m outs c main_v28 (by decide)).trans <| (V59_of m outs c main_v28 (by decide)).trans <| (V58_of m outs c main_v28 (by decide)).trans <| (V57_of m outs c main_v28 (by decide)).trans <| (V56_of m outs c main_v28 (by decide)).trans <| (V55_of m outs c main_v28 (by decide)).trans <| (V54_of m outs c main_v28 (by decide)).trans <| (V53_of m outs c main_v28 (by decide)).trans <| (V52_of m outs c main_v28 (by decide)).trans <| (V51_of m outs c main_v28 (by decide)).trans <| (V50_of m outs c main_v28 (by decide)).trans <| (V49_of m outs c main_v28 (by decide)).trans <| (V48_of m outs c main_v28 (by decide)).trans <| (V47_of m outs c main_v28 (by decide)).trans <| (V46_of m outs c main_v28 (by decide)).trans <| (V45_of m outs c main_v28 (by decide)).trans <| (V44_of m outs c main_v28 (by decide)).trans <| (V43_of m outs c main_v28 (by decide)).trans <| (V42_of m outs c main_v28 (by decide)).trans <| (V41_of m outs c main_v28 (by decide)).trans <| (V40_of m outs c main_v28 (by decide)).trans <| (V39_of m outs c main_v28 (by decide)).trans <| (V38_of m outs c main_v28 (by decide)).trans <| (V37_of m outs c main_v28 (by decide)).trans <| (V36_of m outs c main_v28 (by decide)).trans <| (V35_of m outs c main_v28 (by decide)).trans <| (V34_of m outs c main_v28 (by decide)).trans <| (V33_of m outs c main_v28 (by decide)).trans <| (V32_of m outs c main_v28 (by decide)).trans <| (V31_of m outs c main_v28 (by decide)).trans <| (V30_of m outs c main_v28 (by decide)).trans <| (V29_of m outs c main_v28 (by decide)).trans <| (V28_of m outs c main_v28 (by decide)).trans <| (V27_of m outs c main_v28 (by decide)).trans <| (V26_of m outs c main_v28 (by decide)).trans <| (V25_of m outs c main_v28 (by decide)).trans <| (V24_of m outs c main_v28 (by decide)).trans <| (V23_of m outs c main_v28 (by decide)).trans <| (V22_of m outs c main_v28 (by decide)).trans <| (V21_of m outs c main_v28 (by decide)).trans <| (V20_of m outs c main_v28 (by decide)).trans <| (V19_of m outs c main_v28 (by decide)).trans <| (V18_of m outs c main_v28 (by decide)).trans <| (V17_of m outs c main_v28 (by decide)).trans <| (V16_of m outs c main_v28 (by decide)).trans <| (V15_of m outs c main_v28 (by decide)).trans <| (V14_of m outs c main_v28 (by decide)).trans <| (V13_of m c main_v28 (by decide)).trans <| (V12_of m c main_v28 (by decide)).trans <| (V11_of m c main_v28 (by decide)).trans <| (V10_of m c main_v28 (by decide)).trans <| (V9_of m c main_v28 (by decide)).trans <| (V8_of m c main_v28 (by decide))
  have e3 : arr3 (V4 m c) = a3 m c := (V4_of m c main_arg3 (by decide)).trans <| (V3_of m c main_arg3 (by decide)).trans <| (V2_of m c main_arg3 (by decide)).trans <| (V1_of m c main_arg3 (by decide))
  dsimp only [SO, V79]
  simp only [hostOps11_3]
  after_results
  simp only [TRef.ofBuf, TRef.toBuf, cast_eq]
  refine (pad2_in _ _ _ _ _ _ (ix2 r 0) (by rfl) (by rfl)).trans ?_
  refine (congrFun e _).trans ?_
  refine (so_after (V4 m c) r).trans ?_
  rw [e3]

/-- The bias row computed from any contents of the bias vector. -/
theorem bias_after (W : Valuation τ sig (Elt Ideal)) (j : Fin 256) : bias_of W (ix2 0 j) = arr14 W (ix1 j) := by
  dsimp only [bias_of]
  simp only [hostOps0_8]
  after_results
  exact broadcastInDim_apply _ _ _ _ (ix1 j) (fun a => match a with
    | ⟨0, _⟩ => by show j.val = if (256 : Nat) = 1 then 0 else j.val; rw [if_neg (by decide)])

/-- The bias row is the layer's bias vector. -/
theorem BIAS_read (j : Fin 256) : BI m outs c (ix2 0 j) = a14 m c (ix1 j) := by
  have e : arr14 (V8 m c) = a14 m c := (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide))
  refine (congrFun ((V79_of m outs c main_v41 (by decide)).trans <| (V78_of m outs c main_v41 (by decide)).trans <| (V77_of m outs c main_v41 (by decide)).trans <| (V76_of m outs c main_v41 (by decide)).trans <| (V75_of m outs c main_v41 (by decide)).trans <| (V74_of m outs c main_v41 (by decide)).trans <| (V73_of m outs c main_v41 (by decide)).trans <| (V72_of m outs c main_v41 (by decide)).trans <| (V71_of m outs c main_v41 (by decide)).trans <| (V70_of m outs c main_v41 (by decide)).trans <| (V69_of m outs c main_v41 (by decide)).trans <| (V68_of m outs c main_v41 (by decide)).trans <| (V67_of m outs c main_v41 (by decide)).trans <| (V66_of m outs c main_v41 (by decide)).trans <| (V65_of m outs c main_v41 (by decide)).trans <| (V64_of m outs c main_v41 (by decide)).trans <| (V63_of m outs c main_v41 (by decide)).trans <| (V62_of m outs c main_v41 (by decide)).trans <| (V61_of m outs c main_v41 (by decide)).trans <| (V60_of m outs c main_v41 (by decide)).trans <| (V59_of m outs c main_v41 (by decide)).trans <| (V58_of m outs c main_v41 (by decide)).trans <| (V57_of m outs c main_v41 (by decide)).trans <| (V56_of m outs c main_v41 (by decide)).trans <| (V55_of m outs c main_v41 (by decide)).trans <| (V54_of m outs c main_v41 (by decide)).trans <| (V53_of m outs c main_v41 (by decide)).trans <| (V52_of m outs c main_v41 (by decide)).trans <| (V51_of m outs c main_v41 (by decide)).trans <| (V50_of m outs c main_v41 (by decide)).trans <| (V49_of m outs c main_v41 (by decide)).trans <| (V48_of m outs c main_v41 (by decide)).trans <| (V47_of m outs c main_v41 (by decide)).trans <| (V46_of m outs c main_v41 (by decide)).trans <| (V45_of m outs c main_v41 (by decide)).trans <| (V44_of m outs c main_v41 (by decide)).trans <| (V43_of m outs c main_v41 (by decide)).trans <| (V42_of m outs c main_v41 (by decide)).trans <| (V41_of m outs c main_v41 (by decide)).trans <| (V40_of m outs c main_v41 (by decide)).trans <| (V39_of m outs c main_v41 (by decide)).trans <| (V38_of m outs c main_v41 (by decide)).trans <| (V37_of m outs c main_v41 (by decide)).trans <| (V36_of m outs c main_v41 (by decide)).trans <| (V35_of m outs c main_v41 (by decide)).trans <| (V34_of m outs c main_v41 (by decide)).trans <| (V33_of m outs c main_v41 (by decide)).trans <| (V32_of m outs c main_v41 (by decide)).trans <| (V31_of m outs c main_v41 (by decide)).trans <| (V30_of m outs c main_v41 (by decide)).trans <| (V29_of m outs c main_v41 (by decide)).trans <| (V28_of m outs c main_v41 (by decide)).trans <| (V27_of m outs c main_v41 (by decide)).trans <| (V26_of m outs c main_v41 (by decide)).trans <| (V25_of m outs c main_v41 (by decide)).trans <| (V24_of m outs c main_v41 (by decide)).trans <| (V23_of m outs c main_v41 (by decide)).trans <| (V22_of m outs c main_v41 (by decide)).trans <| (V21_of m outs c main_v41 (by decide)).trans <| (V20_of m outs c main_v41 (by decide)).trans <| (V19_of m outs c main_v41 (by decide)).trans <| (V18_of m outs c main_v41 (by decide)).trans <| (V17_of m outs c main_v41 (by decide)).trans <| (V16_of m outs c main_v41 (by decide)).trans <| (V15_of m outs c main_v41 (by decide)).trans <| (V14_of m outs c main_v41 (by decide)).trans <| (V13_of m c main_v41 (by decide)).trans <| (V12_of m c main_v41 (by decide)).trans <| (V11_of m c main_v41 (by decide)).trans <| (V10_of m c main_v41 (by decide))) _).trans ?_
  refine (bias_after (V8 m c) j).trans ?_
  rw [e]

open Cert.ReferenceIdeal.Read in
/-- The reference's row scale is the safe inverse of the incidence matrix's column sums. -/
theorem ref_so (x3 : (⟨2, ![1000, 2000]⟩ : Shape).Idx → EReal) (r : Fin 2000) (j : Fin 256) :
    val_main_v115 (F := Ideal) x3 (ix2 r j) = safeInv (Ideal.ofBits .f32 0x00000000#32 + ∑ k : Fin 1000, x3 (ix2 k r)) := by
  rw [val_main_v115_apply, val_main_v114_apply, val_main_v98_apply, val_main_v93_apply, val_main_v97_apply,
    val_main_v95_apply, val_main_v91_apply]
  have hs : ∑ k : Fin 1000, val_main_v1 (F := Ideal) x3 (idx_main_v91 (idx_main_v114 (idx_main_v115 (ix2 r j))) k)
      = ∑ k : Fin 1000, x3 (ix2 k r) := Finset.sum_congr rfl fun k _ => by
    rw [val_main_v1_apply]
    exact congrArg x3 (funext fun a => match a with | ⟨0, _⟩ => rfl | ⟨1, _⟩ => rfl)
  rw [hs]
  rfl

open Cert.ReferenceIdeal.Read in
/-- Region 11's output rows below 2000 are the reference's second layer on the d side. -/
theorem OUT_11
    (h11 : ∀ (r : Fin 2048) (j : Fin 256), O11 outs c (ix2 r j)
      = (∑ q : Fin 1000, A m outs c (ix2 r q) * B m outs c (ix2 q j)) * SO m outs c (ix2 r 0) + BI m outs c (ix2 0 j))
    (OUT_10 : ∀ (r : Fin 1000) (j : Fin 256), O10 outs c (ix2 r j)
      = val_main_v112 (F := Ideal) (a1 m c) (a3 m c) (a11 m c) (a12 m c) (a13 m c) (ix2 r j))
    (r : Fin 2000) (j : Fin 256) :
    O11 outs c (ix2 ⟨r.val, by omega⟩ j)
      = val_main_v119 (F := Ideal) (a1 m c) (a3 m c) (a11 m c) (a12 m c) (a13 m c) (a14 m c) (ix2 r j) := by
  rw [val_main_v119_apply, val_main_v116_apply, val_main_v113_apply, h11, ref_so, SO_read, BIAS_read,
    val_main_v118_apply, val_main_v117_apply]
  refine congrArg₂ (· + ·) (congrArg (· * _) ?_) ?_
  · refine Finset.sum_congr rfl fun k _ => ?_
    refine congrArg₂ (· * ·) ((A_read m outs c r k).trans ?_) ((B_read m outs c k j).trans ((OUT_10 k j).trans ?_))
    · rw [val_main_v1_apply]
      exact congrArg _ (funext fun a => match a with | ⟨0, _⟩ => rfl | ⟨1, _⟩ => rfl)
    · exact congrArg _ (funext fun a => match a with | ⟨0, _⟩ => rfl | ⟨1, _⟩ => rfl)
  · exact congrArg _ (funext fun a => match a with | ⟨0, _⟩ => rfl)

end Cert.KernelIdeal.Stage11
end
-- ==== Proof.KI.Stage12.lean ====
/-
  The thirteenth matrix product against the reference: with the two earlier outputs it consumes equal, on their true
  rows, to the reference's two branch results, the joined matrix X is the reference's, and the product's output
  (X · W) · 1 + b is, on its 6000 true rows, the reference's X · W + b.
-/
import proofs.«414035_j83562883711810_2_alg».proof.Proof.KI.Stage12Reads
import proofs.«414035_j83562883711810_2_alg».proof.Proof.ReadP

set_option maxRecDepth 2808

noncomputable section

namespace Cert.KernelIdeal.Stage12

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (outs : GenP.Outs (F := Ideal)) (c : Dev nD)

-- the launch's contents of an argument
set_option quotPrecheck false in
local notation "𝔞" r => m ((c : Thread nD τ).loc r)

/-- A matrix's entry, as an extended real. -/
abbrev at2 {n0 n1 : ℕ} (x : (⟨2, ![n0, n1]⟩ : Shape).Idx → EReal) (a : Fin n0) (b : Fin n1) : EReal := x (ix2 a b)

/-- The reference's joined matrix over the launch's arguments. -/
abbrev X120 : S6000x256.Idx → EReal :=
  val_main_v120 (F := Ideal) (𝔞 main_arg0) (𝔞 main_arg1) (𝔞 main_arg2) (𝔞 main_arg3) (𝔞 main_arg7) (𝔞 main_arg8) (𝔞 main_arg9)
    (𝔞 main_arg10) (𝔞 main_arg11) (𝔞 main_arg12) (𝔞 main_arg13) (𝔞 main_arg14)

/-- What is taken of the sixth product: its true rows are the reference's first branch. -/
abbrev Out5 : Prop := ∀ (r : Fin 4000) (j : Fin 256),
  (outs 48 main_v92 c : S4096x256.Idx → EReal) (ix2 ⟨r.val, by omega⟩ j)
    = val_main_v60 (F := Ideal) (𝔞 main_arg0) (𝔞 main_arg2) (𝔞 main_arg7) (𝔞 main_arg8) (𝔞 main_arg9) (𝔞 main_arg10) (ix2 r j)

/-- What is taken of the twelfth product: its true rows are the reference's second branch. -/
abbrev Out11 : Prop := ∀ (r : Fin 2000) (j : Fin 256),
  (outs 80 main_v137 c : S2048x256.Idx → EReal) (ix2 ⟨r.val, by omega⟩ j)
    = val_main_v119 (F := Ideal) (𝔞 main_arg1) (𝔞 main_arg3) (𝔞 main_arg11) (𝔞 main_arg12) (𝔞 main_arg13) (𝔞 main_arg14) (ix2 r j)

/-- X, entry by entry, is the reference's joined matrix. -/
theorem X_read (h5 : Out5 m outs c) (h11 : Out11 m outs c) (r : Fin 6000) (j : Fin 256) :
    (GenP.V81 m outs c main_v139 : S6000x256.Idx → EReal) (ix2 r j) = X120 m c (ix2 r j) := by
  unfold X120 val_main_v120
  by_cases hr : r.val < 4000
  · refine (X_lo m outs c ⟨r.val, hr⟩ j).trans ((h5 ⟨r.val, hr⟩ j).trans ?_)
    exact (concatenate_pair_apply_left (t := S6000x256) (s₁ := S4000x256) (s₂ := S2000x256) 0 _ _ _
      (ix2 r j) rfl (ix2 ⟨r.val, hr⟩ j) (fun b => match b with
      | ⟨0, _⟩ => rfl
      | ⟨1, _⟩ => rfl)).symm
  · obtain ⟨d, hd⟩ : ∃ d : Fin 2000, r = ⟨4000 + d.val, by omega⟩ :=
      ⟨⟨r.val - 4000, by omega⟩, Fin.ext (by show r.val = 4000 + (r.val - 4000); omega)⟩
    rw [hd]
    refine (X_hi m outs c d j).trans ((h11 d j).trans ?_)
    exact (concatenate_pair_apply_right (t := S6000x256) (s₁ := S4000x256) (s₂ := S2000x256) 0 _ _ _
      (ix2 ⟨4000 + d.val, by omega⟩ j) rfl rfl (ix2 d j) (fun b => match b with
      | ⟨0, _⟩ => fun h => absurd rfl h
      | ⟨1, _⟩ => fun _ => rfl) (by show d.val + 4000 = 4000 + d.val; omega)).symm

/-- The product's output formula over its entry valuation: what the region's run gives. -/
abbrev Formula12 : Prop := ∀ (r : Fin 6144) (j : Fin 256),
  at2 (n0 := 6144) (n1 := 256) (outs 90 main_v155 c) r j
    = (∑ q : Fin 256, at2 (n0 := 6144) (n1 := 256) (GenP.V89 m outs c main_v151) r q
          * at2 (n0 := 256) (n1 := 256) (GenP.V89 m outs c main_v152) q j)
        * at2 (n0 := 6144) (n1 := 1) (GenP.V89 m outs c main_v154) r 0
      + at2 (n0 := 1) (n1 := 256) (GenP.V89 m outs c main_v42) 0 j

/-- On its true rows the product's output is the reference's X · W + b. -/
theorem OUT_12 (h12 : Formula12 m outs c) (h5 : Out5 m outs c) (h11 : Out11 m outs c) (r : Fin 6000) (j : Fin 256) :
    (outs 90 main_v155 c : S6144x256.Idx → EReal) (ix2 ⟨r.val, by omega⟩ j)
      = val_main_v129 (F := Ideal) (𝔞 main_arg0) (𝔞 main_arg1) (𝔞 main_arg2) (𝔞 main_arg3) (𝔞 main_arg7) (𝔞 main_arg8)
          (𝔞 main_arg9) (𝔞 main_arg10) (𝔞 main_arg11) (𝔞 main_arg12) (𝔞 main_arg13) (𝔞 main_arg14) (𝔞 main_arg15) (𝔞 main_arg16)
          (ix2 r j) := by
  refine (h12 ⟨r.val, by omega⟩ j).trans ?_
  dsimp only [at2]
  rw [v154_at89, v42_at89, mul_one, val_main_v129_apply, val_main_v126_apply, val_main_v128_apply, val_main_v127_apply,
    Ideal.addf_def]
  refine congrArg₂ (· + ·) (Finset.sum_congr rfl fun q _ => ?_) ?_
  · rw [v151_in m outs c r q, X_read m outs c h5 h11 r q, v152_at89]
    refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · exact congrArg _ (funext fun a => match a with
      | ⟨0, _⟩ => rfl)

end Cert.KernelIdeal.Stage12

end
-- ==== Proof.KI.Stage13Reads.lean ====
/-
  The arrays the first propagation step over the association graph reads, as functions of the launch arguments and of
  the joined feature matrix X: the transposed adjacency matrix padded with zeros to 6144 × 6144, the column of
  normalisers (clipped row sums to the power −1/2) padded with zeros, X padded with zero rows, the readout weights
  and the bias row — each read off the valuation at the step's entry through the host operations before it.
-/
import proofs.«414035_j83562883711810_2_alg».proof.Proof.RegionsKI
import Idealize.ShloMosaic.Lib.ValueIdx
import Idealize.ShloMosaic.Lib.Pipeline.Value
import Idealize.ShloMosaic.Lib.KernelVsHost
import Idealize.ShloMosaic.Lib.IdealHost
import Idealize.ShloMosaic.Lib.StableHlo.Run
import Idealize.ShloMosaic.PureOps.Ideal
import Idealize.ShloMosaic.PureOps.Ideal.Laws
import proofs.«414035_j83562883711810_2_alg».proof.Proof.KI.Stage12Reads
set_option maxRecDepth 2808

noncomputable section

namespace Cert.KernelIdeal.Stage13

open Cert.KernelIdeal Cert.KernelIdeal.Gen Cert.KernelIdeal.Stage12
open Idealize.ShloMosaic Idealize.ShloMosaic.TcCoe Idealize.ShloMosaic.ValueIdx Idealize.SL.Sem Idealize.ShloMosaic.StableHlo

variable (m : (ℓ : Loc nD τ sig) → Buf (Elt Ideal) ℓ) (outs : GenP.Outs (F := Ideal)) (c : Dev nD)

/-- The value a host `pad` fills with here: the integer zero converted. -/
theorem padValue (φ : FTy) : (sitofp (F := Ideal) φ (constantI S_ 32 0#32)) (Shape.Idx.first h_S_) = (0 : EReal) :=
  sitofp_zero

/-! ## The arguments, where a host operation reads them -/

theorem arg4_at80 : GenP.V80 m outs c main_arg4 = m ((c : Thread nD τ).loc main_arg4) := by peel
theorem arg15_at86 : GenP.V86 m outs c main_arg15 = m ((c : Thread nD τ).loc main_arg15) := by peel

/-! ## The column of normalisers -/

/-- The normalisers of an adjacency matrix: its row sums, clipped below at one, to the power −1/2, as a column. -/
def normCol (x4 : S6000x6000.Idx → EReal) : S6000x1.Idx → EReal :=
  broadcastInDim S6000x1 ![0] bcast_S6000_S6000x1_0
    (Host.powf (F := Ideal) (φ := .f32)
      (maximumf (F := Ideal) (φ := .f32) (broadcastInDim S6000 ![] bcast_S_S6000 (id (constant (F := Ideal) S_ .f32 0x3F800000#32)))
        (Host.reduceAdd x4 (constant (F := Ideal) S_ .f32 0x00000000#32) reducesTo_S6000x6000_S6000_d1 h_S_))
      (broadcastInDim S6000 ![] bcast_S_S6000 (constant (F := Ideal) S_ .f32 0xBF000000#32)))

/-- The transposed adjacency matrix, as the step reads it before padding. -/
def adjT (x4 : S6000x6000.Idx → EReal) : S6000x6000.Idx → EReal :=
  transpose S6000x6000 [1, 0] (truncf (F := Ideal) .bf16 x4 bitsLt_bf16_f32) transposes_S6000x6000_S6000x6000_1_0

/-- The normalisers and the transposed matrix where they are made (items 80 to 85), over the launch's adjacency matrix. -/
theorem v148_v147_at86 :
    (GenP.V86 m outs c main_v148 : S6144x1.Idx → EReal)
        = pad S6144x1 ![0, 0] ![144, 0] ![0, 0] (normCol (m ((c : Thread nD τ).loc main_arg4)))
            (sitofp (F := Ideal) .f32 (constantI S_ 32 0#32)) pads_S6000x1_S6144x1_01440_000 h_S_
    ∧ (GenP.V86 m outs c main_v147 : S6144x6144.Idx → EReal)
        = pad S6144x6144 ![0, 0] ![144, 144] ![0, 0] (adjT (m ((c : Thread nD τ).loc main_arg4)))
            (sitofp (F := Ideal) .bf16 (constantI S_ 32 0#32)) pads_S6000x6000_S6144x6144_01440_01440 h_S_ := by
  have h := arg4_at80 m outs c
  dsimp only [GenP.V86, GenP.V85, GenP.V84, GenP.V83, GenP.V82, GenP.V81,
    hostOps12_5, hostOps12_4, hostOps12_3, hostOps12_2, hostOps12_1, hostOps12]
  generalize GenP.V80 m outs c = W at h ⊢
  constructor
  · after_results
    rw [h]; rfl
  · after_results
    rw [h]; rfl

theorem v148_at93 : GenP.V93 m outs c main_v148 = GenP.V86 m outs c main_v148 := by peel
theorem v147_at93 : GenP.V93 m outs c main_v147 = GenP.V86 m outs c main_v147 := by peel

/-- Inside the true extent the padded column is the normaliser. -/
theorem v148_in (r : Fin 6000) :
    (GenP.V93 m outs c main_v148 : S6144x1.Idx → EReal) (ix2 ⟨r.val, by omega⟩ 0)
      = normCol (m ((c : Thread nD τ).loc main_arg4)) (ix2 r 0) := by
  rw [v148_at93, (v148_v147_at86 m outs c).1]
  exact pad_apply_of_inside _ _ _ _ _ _ _ _ (ix2 r 0) (fun a => match a with
    | ⟨0, _⟩ => by show r.val = 0 + r.val * (0 + 1); omega
    | ⟨1, _⟩ => by show (0 : ℕ) = 0 + 0 * (0 + 1); rfl)

/-- In the padding the column is zero. -/
theorem v148_out (r : Fin 6144) (h : 6000 ≤ r.val) :
    (GenP.V93 m outs c main_v148 : S6144x1.Idx → EReal) (ix2 r 0) = (0 : EReal) := by
  rw [v148_at93, (v148_v147_at86 m outs c).1]
  refine (pad_apply_of_not_inside _ _ _ _ _ _ _ _ 0 (fun hin => ?_)).trans (padValue .f32)
  have h3 : (r.val - 0) / (0 + 1) < 6000 := hin.2.2
  omega

/-- Inside the true extent the padded matrix is the adjacency matrix transposed. -/
theorem v147_in (r q : Fin 6000) :
    (GenP.V93 m outs c main_v147 : S6144x6144.Idx → EReal) (ix2 ⟨r.val, by omega⟩ ⟨q.val, by omega⟩)
      = (m ((c : Thread nD τ).loc main_arg4) : S6000x6000.Idx → EReal) (ix2 q r) := by
  rw [v147_at93, (v148_v147_at86 m outs c).2]
  refine (pad_apply_of_inside _ _ _ _ _ _ _ _ (ix2 r q) (fun a => match a with
    | ⟨0, _⟩ => by show r.val = 0 + r.val * (0 + 1); omega
    | ⟨1, _⟩ => by show q.val = 0 + q.val * (0 + 1); omega)).trans ?_
  unfold adjT
  exact transpose_apply [1, 0] _ transposes_S6000x6000_S6000x6000_1_0 (ix2 r q) (ix2 q r) (fun b => match b with
    | ⟨0, _⟩ => rfl
    | ⟨1, _⟩ => rfl)

/-! ## X padded with 144 zero rows, the readout weights, the bias row -/

theorem v158_at93 : (GenP.V93 m outs c main_v158 : S6144x256.Idx → EReal)
    = pad S6144x256 ![0, 0] ![144, 0] ![0, 0] (GenP.V81 m outs c main_v139 : S6000x256.Idx → EReal)
        (sitofp (F := Ideal) .f32 (constantI S_ 32 0#32)) pads_S6000x256_S6144x256_01440_000 h_S_ := by
  have e : GenP.V90 m outs c main_v139 = GenP.V81 m outs c main_v139 := by peel
  dsimp only [GenP.V93, GenP.V92, GenP.V91, hostOps13_2, hostOps13_1, hostOps13]
  generalize GenP.V90 m outs c = W at e ⊢
  after_results
  rw [e]; rfl

/-- Inside the true extent the padded copy is X. -/
theorem v158_in (q : Fin 6000) (j : Fin 256) :
    (GenP.V93 m outs c main_v158 : S6144x256.Idx → EReal) (ix2 ⟨q.val, by omega⟩ j)
      = (GenP.V81 m outs c main_v139 : S6000x256.Idx → EReal) (ix2 q j) := by
  rw [v158_at93]
  exact pad_apply_of_inside _ _ _ _ _ _ _ _ (ix2 q j) (fun a => match a with
    | ⟨0, _⟩ => by show q.val = 0 + q.val * (0 + 1); omega
    | ⟨1, _⟩ => by show j.val = 0 + j.val * (0 + 1); omega)

theorem v149_at93 : (GenP.V93 m outs c main_v149 : S256x256.Idx → EReal) = m ((c : Thread nD τ).loc main_arg15) := by
  have h := arg15_at86 m outs c
  peel
  dsimp only [GenP.V87, hostOps12_6]
  generalize GenP.V86 m outs c = W at h ⊢
  after_results
  rw [h]; rfl

theorem v42_at93 (j : Fin 256) : (GenP.V93 m outs c main_v42 : S1x256.Idx → EReal) (ix2 0 j)
    = (m ((c : Thread nD τ).loc main_arg16) : S256.Idx → EReal) (ix1 j) := by
  have e : GenP.V93 m outs c main_v42 = GenP.V9 m c main_v42 := by peel
  rw [e, v42_at9]
  exact rowBroadcast_read _ j

end Cert.KernelIdeal.Stage13

end
-- ==== Proof.KI.Stage13.lean ====
/-
  The first propagation step over the association graph against the reference: its feature output
  ((Aᵀ padded) · (X padded ∘ n)) ∘ n, with n the zero-padded normaliser column, is on its 6000 true rows the
  reference's (Aᵀ · (X ∘ n)) ∘ n and zero on the padded rows; its readout f · W + b is on the true rows the reference's.
  The 144 padded terms of each inner sum carry the factor n = 0, and x · 0 = 0 for every extended real x.
-/
import proofs.«414035_j83562883711810_2_alg».proof.Proof.KI.Stage13Reads
import proofs.«414035_j83562883711810_2_alg».proof.Proof.KI.Stage12

set_option maxRecDepth 2808

noncomputable section

namespace Cert.KernelIdeal.Stage13

open Cert.KernelIdeal Cert.KernelIdeal.Gen Cert.KernelIdeal.Stage12 Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (outs : GenP.Outs (F := Ideal)) (c : Dev nD)

-- the launch's contents of an argument
set_option quotPrecheck false in
local notation "𝔞" r => m ((c : Thread nD τ).loc r)

/-- The kernel's normaliser column is the reference's: the same operations on the same argument. -/
theorem normCol_eq (x4 : S6000x6000.Idx → EReal) : normCol x4 = val_main_v125 (F := Ideal) x4 := rfl

/-- A sum over 6144 whose last 144 terms vanish is the sum of the first 6000. -/
theorem sum_drop144 (g : Fin 6144 → EReal) (hz : ∀ q : Fin 6144, 6000 ≤ q.val → g q = 0) :
    ∑ q : Fin 6144, g q = ∑ q : Fin 6000, g ⟨q.val, by omega⟩ := by
  have h := Fin.sum_univ_add (a := 6000) (b := 144) (f := (g : Fin (6000 + 144) → EReal))
  have h2 : ∑ i : Fin 144, g (Fin.natAdd 6000 i) = 0 :=
    Finset.sum_eq_zero (fun i _ => hz _ (by show 6000 ≤ 6000 + i.val; omega))
  rw [show (∑ q : Fin 6144, g q) = ∑ q : Fin (6000 + 144), g q from rfl, h, h2, add_zero]
  rfl

/-- The step's feature output over its entry valuation: what the region's run gives. -/
abbrev FormulaF : Prop := ∀ (r : Fin 6144) (j : Fin 256),
  at2 (n0 := 6144) (n1 := 256) (outs 94 main_v159_0 c) r j
    = (∑ q : Fin 6144, at2 (n0 := 6144) (n1 := 6144) (GenP.V93 m outs c main_v147) r q
          * (at2 (n0 := 6144) (n1 := 256) (GenP.V93 m outs c main_v158) q j
              * at2 (n0 := 6144) (n1 := 1) (GenP.V93 m outs c main_v148) q 0))
        * at2 (n0 := 6144) (n1 := 1) (GenP.V93 m outs c main_v148) r 0

/-- The step's readout over its feature output and its entry valuation. -/
abbrev FormulaR : Prop := ∀ (r : Fin 6144) (j : Fin 256),
  at2 (n0 := 6144) (n1 := 256) (outs 94 main_v159_1 c) r j
    = (∑ l : Fin 256, at2 (n0 := 6144) (n1 := 256) (outs 94 main_v159_0 c) r l
          * at2 (n0 := 256) (n1 := 256) (GenP.V93 m outs c main_v149) l j)
      + at2 (n0 := 1) (n1 := 256) (GenP.V93 m outs c main_v42) 0 j

/-- The padded rows of the feature output are zero: their normaliser is. -/
theorem F1_pad (hf : FormulaF m outs c) (r : Fin 6144) (j : Fin 256) (h : 6000 ≤ r.val) :
    (outs 94 main_v159_0 c : S6144x256.Idx → EReal) (ix2 r j) = (0 : EReal) := by
  refine (hf r j).trans ?_
  dsimp only [at2]
  rw [v148_out m outs c r h, mul_zero]

/-- On its true rows the feature output is the reference's features after one step. -/
theorem F1 (hf : FormulaF m outs c) (h5 : Out5 m outs c) (h11 : Out11 m outs c) (r : Fin 6000) (j : Fin 256) :
    (outs 94 main_v159_0 c : S6144x256.Idx → EReal) (ix2 ⟨r.val, by omega⟩ j)
      = val_main_v135 (F := Ideal) (𝔞 main_arg0) (𝔞 main_arg1) (𝔞 main_arg2) (𝔞 main_arg3) (𝔞 main_arg4) (𝔞 main_arg7)
          (𝔞 main_arg8) (𝔞 main_arg9) (𝔞 main_arg10) (𝔞 main_arg11) (𝔞 main_arg12) (𝔞 main_arg13) (𝔞 main_arg14) (ix2 r j) := by
  have hz : ∀ q : Fin 6144, 6000 ≤ q.val →
      at2 (n0 := 6144) (n1 := 6144) (GenP.V93 m outs c main_v147) ⟨r.val, by omega⟩ q
        * (at2 (n0 := 6144) (n1 := 256) (GenP.V93 m outs c main_v158) q j
            * at2 (n0 := 6144) (n1 := 1) (GenP.V93 m outs c main_v148) q 0) = (0 : EReal) := by
    intro q hq
    dsimp only [at2]
    rw [v148_out m outs c q hq, mul_zero, mul_zero]
  refine (hf ⟨r.val, by omega⟩ j).trans ?_
  rw [sum_drop144 _ hz]
  dsimp only [at2]
  rw [v148_in m outs c r, val_main_v135_apply, val_main_v133_apply, val_main_v134_apply, Ideal.mulf_def, normCol_eq]
  refine congrArg₂ (· * ·) (Finset.sum_congr rfl fun q _ => ?_) (congrArg _ (funext fun a => ?_))
  · rw [v147_in m outs c r q, v158_in m outs c q j, v148_in m outs c q, X_read m outs c h5 h11 q j,
      val_main_v130_apply, val_main_v132_apply, val_main_v131_apply, Ideal.mulf_def, normCol_eq]
    refine congrArg₂ (· * ·) (congrArg _ (funext fun a => ?_))
      (congrArg₂ (· * ·) (congrArg _ (funext fun a => ?_)) (congrArg _ (funext fun a => ?_)))
    · match a with
      | ⟨0, _⟩ => rfl
      | ⟨1, _⟩ => rfl
    · match a with
      | ⟨0, _⟩ => rfl
      | ⟨1, _⟩ => rfl
    · match a with
      | ⟨0, _⟩ => rfl
      | ⟨1, _⟩ => rfl
  · match a with
    | ⟨0, _⟩ => rfl
    | ⟨1, _⟩ => rfl

/-- On its true rows the readout is the reference's readout of the features after one step. -/
theorem RC1 (hf : FormulaF m outs c) (hr : FormulaR m outs c) (h5 : Out5 m outs c) (h11 : Out11 m outs c)
    (r : Fin 6000) (j : Fin 256) :
    (outs 94 main_v159_1 c : S6144x256.Idx → EReal) (ix2 ⟨r.val, by omega⟩ j)
      = val_main_v139 (F := Ideal) (𝔞 main_arg0) (𝔞 main_arg1) (𝔞 main_arg2) (𝔞 main_arg3) (𝔞 main_arg4) (𝔞 main_arg7)
          (𝔞 main_arg8) (𝔞 main_arg9) (𝔞 main_arg10) (𝔞 main_arg11) (𝔞 main_arg12) (𝔞 main_arg13) (𝔞 main_arg14)
          (𝔞 main_arg15) (𝔞 main_arg16) (ix2 r j) := by
  refine (hr ⟨r.val, by omega⟩ j).trans ?_
  dsimp only [at2]
  rw [v42_at93, val_main_v139_apply, val_main_v136_apply, val_main_v138_apply, val_main_v137_apply, Ideal.addf_def]
  refine congrArg₂ (· + ·) (Finset.sum_congr rfl fun l _ => ?_) ?_
  · rw [F1 m outs c hf h5 h11 r l, v149_at93]
    refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · exact congrArg _ (funext fun a => match a with
      | ⟨0, _⟩ => rfl)

end Cert.KernelIdeal.Stage13

end
-- ==== Proof.KI.StageHop.lean ====
/-
  One propagation hop of the graph convolution, as arithmetic on extended reals.

  The kernel works on arrays padded from N to N + d rows: the normalisation column is zero on the d padding rows.
  A hop is  f' r j = (∑ q, A r q * (f q j * n q)) * n r  and its readout  f' r · W + b.  Since a product with zero
  is zero in the extended reals, the padding columns drop out of the contraction whatever the other factors hold
  there, and the padding rows of f' are zero.
-/
import Idealize.ShloMosaic.Lib.ValueIdx
import Mathlib.Algebra.BigOperators.Fin

noncomputable section

open scoped BigOperators

namespace Cert.KernelIdeal.StageHop

/-- A sum of K0 + d terms whose last d terms vanish is the sum of the first K0. -/
theorem sum_pad_zero {K0 d : Nat} (f : Fin (K0 + d) → EReal) (hz : ∀ q : Fin (K0 + d), K0 ≤ q.val → f q = 0) :
    ∑ q, f q = ∑ k : Fin K0, f (Fin.castAdd d k) := by
  rw [Fin.sum_univ_add, Finset.sum_eq_zero (fun i _ => hz (Fin.natAdd K0 i) (Nat.le_add_right _ _)), add_zero]

/-- The hop on the true rows: the contraction runs over the first N columns only, and reads the true entries of
    the transposed adjacency, of the previous features and of the normalisation; the padding rows of the result
    are zero. -/
theorem hop_f {N d C : Nat}
    (A : Fin (N + d) → Fin (N + d) → EReal) (n : Fin (N + d) → EReal) (fin fout : Fin (N + d) → Fin C → EReal)
    (adjT : Fin N → Fin N → EReal) (nrm : Fin N → EReal) (g : Fin N → Fin C → EReal)
    (hF : ∀ r j, fout r j = (∑ q, A r q * (fin q j * n q)) * n r)
    (hA : ∀ r k : Fin N, A (Fin.castAdd d r) (Fin.castAdd d k) = adjT r k)
    (hn : ∀ k : Fin N, n (Fin.castAdd d k) = nrm k)
    (hnz : ∀ q : Fin (N + d), N ≤ q.val → n q = 0)
    (hg : ∀ (k : Fin N) (j : Fin C), fin (Fin.castAdd d k) j = g k j) :
    (∀ (r : Fin N) (j : Fin C), fout (Fin.castAdd d r) j = (∑ k : Fin N, adjT r k * (g k j * nrm k)) * nrm r)
      ∧ (∀ (q : Fin (N + d)) (j : Fin C), N ≤ q.val → fout q j = 0) := by
  refine ⟨fun r j => ?_, fun q j hq => ?_⟩
  · rw [hF, hn, sum_pad_zero _ (fun q hq => by rw [hnz q hq, mul_zero, mul_zero])]
    refine congrArg (· * nrm r) (Finset.sum_congr rfl fun k _ => ?_)
    rw [hA, hg, hn]
  · rw [hF, hnz q hq, mul_zero]

/-- The readout on the true rows reads the true rows of the hop's result. -/
theorem hop_r {N d C : Nat} (fout rout : Fin (N + d) → Fin C → EReal) (W : Fin C → Fin C → EReal) (b : Fin C → EReal)
    (fref : Fin N → Fin C → EReal)
    (hR : ∀ r j, rout r j = (∑ l, fout r l * W l j) + b j)
    (hf : ∀ (r : Fin N) (l : Fin C), fout (Fin.castAdd d r) l = fref r l) :
    ∀ (r : Fin N) (j : Fin C), rout (Fin.castAdd d r) j = (∑ l, fref r l * W l j) + b j := by
  intro r j
  rw [hR]
  refine congrArg (· + b j) (Finset.sum_congr rfl fun l _ => ?_)
  rw [hf]

end Cert.KernelIdeal.StageHop

end
-- ==== Proof.KI.StageHopIn.lean ====
/-
  The arrays a propagation hop reads, at an index, in terms of the launch arguments.

  The transposed adjacency padded with zeros to 6144 x 6144 (inside the true extent it is the adjacency read
  transposed), the normalisation column padded with zeros to 6144 rows (inside: the host's (max 1 (row sum))^(-1/2),
  outside: zero), the readout weights and the readout bias row. No item between the host stretch that writes one of
  these arrays and the hops writes it again, so the hops' entry valuations hold them unchanged.
-/
import proofs.«414035_j83562883711810_2_alg».proof.Proof.RegionsKI
import Idealize.ShloMosaic.Lib.KernelVsHost
import Idealize.ShloMosaic.Lib.ValueLayout
import Idealize.ShloMosaic.Lib.Pipeline.Value
import Idealize.ShloMosaic.Lib.ValueIdx

set_option maxRecDepth 2808

noncomputable section

open Cert.KernelIdeal Cert.KernelIdeal.Gen
open Idealize.ShloMosaic Idealize.ShloMosaic.TcCoe Idealize.SL.Sem Idealize.ShloMosaic.StableHlo Idealize.ShloMosaic.ValueIdx

open Lean Elab Tactic in
/-- Rewrites the contents of reference r after item hi to its contents after item lo - 1, through the items
    hi, hi - 1, …, lo, none of which writes r. -/
elab "peel_items " hi:num " to " lo:num " at " r:ident : tactic => do
  let h := hi.getNat
  let l := lo.getNat
  for k in [0:h + 1 - l] do
    let lem := mkIdent (Name.mkStr `Cert.KernelIdeal.GenP s!"V{h - k}_of")
    evalTactic (← `(tactic| rw [$lem:ident (r := $r) (h := by decide)]))

namespace Cert.KernelIdeal.StageHopIn

/-- A true row of an array padded from 6000 to 6144 rows. -/
abbrev up (r : Fin 6000) : Fin 6144 := ⟨r.val, by omega⟩

/-- The normalisation column of the adjacency x4 as the host computes it: entry k is (max 1 (∑ l, x4 k l))^(-1/2). -/
def nrmArr (x4 : FVec Ideal S6000x6000 .f32) : FVec Ideal S6000x1 .f32 :=
  broadcastInDim S6000x1 ![0] bcast_S6000_S6000x1_0
    (Host.powf
      (maximumf (broadcastInDim S6000 ![] bcast_S_S6000 (id (constant (F := Ideal) S_ .f32 0x3F800000#32)))
        (Host.reduceAdd x4 (constant (F := Ideal) S_ .f32 0x00000000#32) reducesTo_S6000x6000_S6000_d1 h_S_))
      (broadcastInDim S6000 ![] bcast_S_S6000 (constant (F := Ideal) S_ .f32 0xBF000000#32)) : FVec Ideal S6000 .f32)

variable (m : (ℓ : Loc nD τ sig) → Buf (Elt Ideal) ℓ) (outs : GenP.Outs (F := Ideal)) (c : Dev nD)

/-! ## The arguments, unchanged up to the stretches that read them -/

theorem V80_arg4 : GenP.V80 m outs c main_arg4 = m ((c : Thread nD τ).loc main_arg4) := by
  rw [← GenP.V104_main_arg4 m outs c]
  peel_items 104 to 81 at main_arg4

theorem V80_arg15 : GenP.V80 m outs c main_arg15 = m ((c : Thread nD τ).loc main_arg15) := by
  rw [← GenP.V104_main_arg15 m outs c]
  peel_items 104 to 81 at main_arg15

/-! ## The four arrays where the host writes them -/

theorem V84_v147_whole :
    (GenP.V84 m outs c main_v147 : S6144x6144.Idx → EReal)
      = pad S6144x6144 ![0, 0] ![144, 144] ![0, 0]
          (transpose S6000x6000 [1, 0]
            (truncf .bf16 (m ((c : Thread nD τ).loc main_arg4) : S6000x6000.Idx → EReal) bitsLt_bf16_f32)
            transposes_S6000x6000_S6000x6000_1_0)
          (sitofp (F := Ideal) .bf16 (constantI S_ 32 0#32)) pads_S6000x6000_S6144x6144_01440_01440 h_S_ := by
  dsimp only [GenP.V84, GenP.V83]
  simp only [hostOps12_3, hostOps12_2]
  after_results
  rw [V80_arg4]
  simp only [TRef.ofBuf, TRef.toBuf, cast_eq]

/-- Inside the true extent the padded transposed adjacency is the adjacency read transposed. -/
theorem V84_v147 (r q : Fin 6000) :
    GenP.V84 m outs c main_v147 (ix2 (up r) (up q)) = m ((c : Thread nD τ).loc main_arg4) (ix2 q r) := by
  refine (congrFun (V84_v147_whole m outs c) _).trans ?_
  refine (pad_apply_of_inside _ _ _ _ _ pads_S6000x6000_S6144x6144_01440_01440 h_S_ (ix2 (up r) (up q)) (ix2 r q)
    (fun a => ?_)).trans ?_
  · match a with
    | ⟨0, _⟩ => show r.val = 0 + r.val * (0 + 1); omega
    | ⟨1, _⟩ => show q.val = 0 + q.val * (0 + 1); omega
  · exact transpose_ix2_apply _ _ r q

theorem V86_v148_whole :
    (GenP.V86 m outs c main_v148 : S6144x1.Idx → EReal)
      = pad S6144x1 ![0, 0] ![144, 0] ![0, 0] (nrmArr (m ((c : Thread nD τ).loc main_arg4)))
          (sitofp (F := Ideal) .f32 (constantI S_ 32 0#32)) pads_S6000x1_S6144x1_01440_000 h_S_ := by
  unfold nrmArr
  dsimp only [GenP.V86, GenP.V85, GenP.V84, GenP.V83, GenP.V82, GenP.V81]
  simp only [hostOps12_5, hostOps12_4, hostOps12_3, hostOps12_2, hostOps12_1, hostOps12]
  after_results
  rw [V80_arg4]
  simp only [TRef.ofBuf, TRef.toBuf, cast_eq]

/-- On a true row the padded normalisation column is the normalisation. -/
theorem V86_v148_in (q : Fin 6000) :
    GenP.V86 m outs c main_v148 (ix2 (up q) 0) = nrmArr (m ((c : Thread nD τ).loc main_arg4)) (ix2 q 0) := by
  refine (congrFun (V86_v148_whole m outs c) _).trans ?_
  exact pad_apply_of_inside _ _ _ _ _ pads_S6000x1_S6144x1_01440_000 h_S_ (ix2 (up q) 0) (ix2 q 0) (fun a =>
    match a with
    | ⟨0, _⟩ => by show q.val = 0 + q.val * (0 + 1); omega
    | ⟨1, _⟩ => by show (0 : Nat) = 0 + 0 * (0 + 1); rfl)

/-- On a padding row the padded normalisation column is zero. -/
theorem V86_v148_out (q : Fin 6144) (hq : 6000 ≤ q.val) : GenP.V86 m outs c main_v148 (ix2 q 0) = (0 : EReal) := by
  refine (congrFun (V86_v148_whole m outs c) _).trans ?_
  refine (pad_apply_of_not_inside _ _ _ _ _ pads_S6000x1_S6144x1_01440_000 h_S_ (ix2 q 0) 0 (fun h => ?_)).trans ?_
  · have h2 := h.2.2
    change (q.val - 0) / (0 + 1) < 6000 at h2
    omega
  · exact sitofp_zero (φ := .f32)

theorem V87_v149_whole :
    @Eq (FVec Ideal S256x256 .bf16) (GenP.V87 m outs c main_v149)
      (truncf (F := Ideal) .bf16 (m ((c : Thread nD τ).loc main_arg15) : FVec Ideal S256x256 .f32) bitsLt_bf16_f32) := by
  dsimp only [GenP.V87]
  simp only [hostOps12_6]
  after_results
  rw [V80_arg15]

theorem V87_v149 (l j : Fin 256) :
    (GenP.V87 m outs c main_v149 (ix2 l j) : EReal) = m ((c : Thread nD τ).loc main_arg15) (ix2 l j) :=
  congrFun (V87_v149_whole m outs c) (ix2 l j)

theorem V9_v42_whole :
    (GenP.V9 m c main_v42 : S1x256.Idx → EReal)
      = broadcastInDim S1x256 ![1] bcast_S256_S1x256_1 (m ((c : Thread nD τ).loc main_arg16) : S256.Idx → EReal) := by
  dsimp only [GenP.V9]
  simp only [hostOps0_8]
  after_results

theorem V9_v42 (j : Fin 256) :
    GenP.V9 m c main_v42 (ix2 0 j) = m ((c : Thread nD τ).loc main_arg16) (ix1 j) := by
  refine (congrFun (V9_v42_whole m c) _).trans ?_
  exact broadcastInDim_apply _ bcast_S256_S1x256_1 _ (ix2 0 j) (ix1 j) (fun a =>
    match a with
    | ⟨0, _⟩ => by show j.val = if (256 : Nat) = 1 then 0 else j.val; rw [if_neg (by decide)])

/-! ## The same arrays in any later valuation that still holds them -/

section Later
variable (V : Valuation τ sig (Elt Ideal))

theorem v147_at (h : V main_v147 = GenP.V84 m outs c main_v147) (r q : Fin 6000) :
    V main_v147 (ix2 (up r) (up q)) = m ((c : Thread nD τ).loc main_arg4) (ix2 q r) := by
  rw [h]
  exact V84_v147 m outs c r q

theorem v148_in (h : V main_v148 = GenP.V86 m outs c main_v148) (q : Fin 6000) :
    V main_v148 (ix2 (up q) 0) = nrmArr (m ((c : Thread nD τ).loc main_arg4)) (ix2 q 0) := by
  rw [h]
  exact V86_v148_in m outs c q

theorem v148_out (h : V main_v148 = GenP.V86 m outs c main_v148) (q : Fin 6144) (hq : 6000 ≤ q.val) :
    V main_v148 (ix2 q 0) = (0 : EReal) := by
  rw [h]
  exact V86_v148_out m outs c q hq

theorem v149_at (h : V main_v149 = GenP.V87 m outs c main_v149) (l j : Fin 256) :
    (V main_v149 (ix2 l j) : EReal) = m ((c : Thread nD τ).loc main_arg15) (ix2 l j) := by
  rw [h]
  exact V87_v149 m outs c l j

theorem v42_at (h : V main_v42 = GenP.V9 m c main_v42) (j : Fin 256) :
    V main_v42 (ix2 0 j) = m ((c : Thread nD τ).loc main_arg16) (ix1 j) := by
  rw [h]
  exact V9_v42 m c j

end Later

/-! ## No item between the stretch that writes one of them and a hop's entry writes it again -/

theorem V93_v147 : GenP.V93 m outs c main_v147 = GenP.V84 m outs c main_v147 := by peel_items 93 to 85 at main_v147
theorem V95_v147 : GenP.V95 m outs c main_v147 = GenP.V84 m outs c main_v147 := by peel_items 95 to 85 at main_v147
theorem V97_v147 : GenP.V97 m outs c main_v147 = GenP.V84 m outs c main_v147 := by peel_items 97 to 85 at main_v147

theorem V93_v148 : GenP.V93 m outs c main_v148 = GenP.V86 m outs c main_v148 := by peel_items 93 to 87 at main_v148
theorem V95_v148 : GenP.V95 m outs c main_v148 = GenP.V86 m outs c main_v148 := by peel_items 95 to 87 at main_v148
theorem V97_v148 : GenP.V97 m outs c main_v148 = GenP.V86 m outs c main_v148 := by peel_items 97 to 87 at main_v148

theorem V93_v149 : GenP.V93 m outs c main_v149 = GenP.V87 m outs c main_v149 := by peel_items 93 to 88 at main_v149
theorem V95_v149 : GenP.V95 m outs c main_v149 = GenP.V87 m outs c main_v149 := by peel_items 95 to 88 at main_v149
theorem V97_v149 : GenP.V97 m outs c main_v149 = GenP.V87 m outs c main_v149 := by peel_items 97 to 88 at main_v149

theorem V93_v42 : GenP.V93 m outs c main_v42 = GenP.V9 m c main_v42 := by peel_items 93 to 10 at main_v42
theorem V95_v42 : GenP.V95 m outs c main_v42 = GenP.V9 m c main_v42 := by peel_items 95 to 10 at main_v42
theorem V97_v42 : GenP.V97 m outs c main_v42 = GenP.V9 m c main_v42 := by peel_items 97 to 10 at main_v42

/-! ## The previous hop's features, as the next hop finds them -/

/-- The host stretch between the first and the second hop leaves the first hop's features as the hop wrote them. -/
theorem V95_v159_0 : GenP.V95 m outs c main_v159_0 = outs 94 main_v159_0 c := by
  rw [GenP.V95_of (r := main_v159_0) (h := by decide)]
  dsimp only [GenP.V94]
  rw [Function.update_of_ne (StableHlo.devRef_ne_of_ne (by decide) :
    (Proc.devRef .tc main_v159_0 : DevRef τ sig) ≠ Proc.devRef .tc main_v159_1), Function.update_self]

/-- The host stretch between the second and the third hop leaves the second hop's features as the hop wrote them. -/
theorem V97_v162_0 : GenP.V97 m outs c main_v162_0 = outs 96 main_v162_0 c := by
  rw [GenP.V97_of (r := main_v162_0) (h := by decide)]
  dsimp only [GenP.V96]
  rw [Function.update_of_ne (StableHlo.devRef_ne_of_ne (by decide) :
    (Proc.devRef .tc main_v162_0 : DevRef τ sig) ≠ Proc.devRef .tc main_v162_1), Function.update_self]

end Cert.KernelIdeal.StageHopIn

end
-- ==== Proof.KI.StageHopGen.lean ====
/-
  One propagation hop of the kernel, for any entry valuation that still holds the hop's four constant arrays.

  A hop region reads the padded transposed adjacency, the padded normalisation column, the readout weights and the
  readout bias row from its entry valuation, together with the previous hop's features; it writes new features and
  their readout. Given the region's two output formulas, the new features on the 6000 true rows are
  (∑ k, adj k r * (g k j * nrm k)) * nrm r  with g the previous features on the true rows, they are zero on the 144
  padding rows, and the readout on the true rows is  (∑ l, f r l * gw l j) + gb j.
-/
import proofs.«414035_j83562883711810_2_alg».proof.Proof.KI.StageHop
import proofs.«414035_j83562883711810_2_alg».proof.Proof.KI.StageHopIn

set_option maxRecDepth 2808

noncomputable section

open Cert.KernelIdeal Cert.KernelIdeal.Gen
open Idealize.ShloMosaic Idealize.ShloMosaic.TcCoe Idealize.SL.Sem Idealize.ShloMosaic.StableHlo Idealize.ShloMosaic.ValueIdx
open Cert.KernelIdeal.StageHopIn (up nrmArr)

namespace Cert.KernelIdeal.StageHopGen

/-- A matrix of extended reals at row a, column b. -/
abbrev rd2 {n0 n1 : ℕ} (x : (⟨2, ![n0, n1]⟩ : Shape).Idx → EReal) (a : Fin n0) (b : Fin n1) : EReal := x (ix2 a b)

variable (m : (ℓ : Loc nD τ sig) → Buf (Elt Ideal) ℓ) (outs : GenP.Outs (F := Ideal)) (c : Dev nD)
  (V : Valuation τ sig (Elt Ideal))
  (h147 : V main_v147 = GenP.V84 m outs c main_v147) (h148 : V main_v148 = GenP.V86 m outs c main_v148)
  (h149 : V main_v149 = GenP.V87 m outs c main_v149) (h42 : V main_v42 = GenP.V9 m c main_v42)
  (fin fout rout : S6144x256.Idx → EReal) (g : Fin 6000 → Fin 256 → EReal)
  (hF : ∀ (r : Fin 6144) (j : Fin 256), rd2 (n0 := 6144) (n1 := 256) fout r j
      = (∑ q : Fin 6144, rd2 (n0 := 6144) (n1 := 6144) (V main_v147) r q
            * (rd2 (n0 := 6144) (n1 := 256) fin q j * rd2 (n0 := 6144) (n1 := 1) (V main_v148) q 0))
          * rd2 (n0 := 6144) (n1 := 1) (V main_v148) r 0)
  (hR : ∀ (r : Fin 6144) (j : Fin 256), rd2 (n0 := 6144) (n1 := 256) rout r j
      = (∑ l : Fin 256, rd2 (n0 := 6144) (n1 := 256) fout r l * rd2 (n0 := 256) (n1 := 256) (V main_v149) l j)
          + rd2 (n0 := 1) (n1 := 256) (V main_v42) 0 j)
  (hg : ∀ (k : Fin 6000) (j : Fin 256), rd2 (n0 := 6144) (n1 := 256) fin (up k) j = g k j)

include h147 h148 hF hg in
/-- The features the hop writes: the reference's formula on the true rows, zero on the padding rows. -/
theorem features :
    (∀ (r : Fin 6000) (j : Fin 256), rd2 (n0 := 6144) (n1 := 256) fout (up r) j
        = (∑ k : Fin 6000, rd2 (n0 := 6000) (n1 := 6000) (m ((c : Thread nD τ).loc main_arg4)) k r
              * (g k j * nrmArr (m ((c : Thread nD τ).loc main_arg4)) (ix2 k 0)))
            * nrmArr (m ((c : Thread nD τ).loc main_arg4)) (ix2 r 0))
      ∧ (∀ (q : Fin 6144) (j : Fin 256), 6000 ≤ q.val → rd2 (n0 := 6144) (n1 := 256) fout q j = (0 : EReal)) :=
  StageHop.hop_f (N := 6000) (d := 144) (C := 256)
    (fun (r q : Fin 6144) => rd2 (n0 := 6144) (n1 := 6144) (V main_v147) r q)
    (fun (q : Fin 6144) => rd2 (n0 := 6144) (n1 := 1) (V main_v148) q 0)
    (fun (q : Fin 6144) (j : Fin 256) => rd2 (n0 := 6144) (n1 := 256) fin q j)
    (fun (r : Fin 6144) (j : Fin 256) => rd2 (n0 := 6144) (n1 := 256) fout r j)
    (fun (r k : Fin 6000) => rd2 (n0 := 6000) (n1 := 6000) (m ((c : Thread nD τ).loc main_arg4)) k r)
    (fun (k : Fin 6000) => nrmArr (m ((c : Thread nD τ).loc main_arg4)) (ix2 k 0))
    g hF
    (fun r k => StageHopIn.v147_at m outs c V h147 r k)
    (fun k => StageHopIn.v148_in m outs c V h148 k)
    (fun q hq => StageHopIn.v148_out m outs c V h148 q hq)
    hg

include h149 h42 hR in
/-- The readout the hop writes, on the true rows, from what its features are there. -/
theorem readout (fref : Fin 6000 → Fin 256 → EReal)
    (hf : ∀ (r : Fin 6000) (l : Fin 256), rd2 (n0 := 6144) (n1 := 256) fout (up r) l = fref r l)
    (r : Fin 6000) (j : Fin 256) :
    rd2 (n0 := 6144) (n1 := 256) rout (up r) j
      = (∑ l : Fin 256, fref r l * rd2 (n0 := 256) (n1 := 256) (m ((c : Thread nD τ).loc main_arg15)) l j)
          + m ((c : Thread nD τ).loc main_arg16) (ix1 j) := by
  refine (StageHop.hop_r (N := 6000) (d := 144) (C := 256)
    (fun (r : Fin 6144) (j : Fin 256) => rd2 (n0 := 6144) (n1 := 256) fout r j)
    (fun (r : Fin 6144) (j : Fin 256) => rd2 (n0 := 6144) (n1 := 256) rout r j)
    (fun (l j : Fin 256) => rd2 (n0 := 256) (n1 := 256) (V main_v149) l j)
    (fun (j : Fin 256) => rd2 (n0 := 1) (n1 := 256) (V main_v42) 0 j)
    fref hR hf r j).trans ?_
  show (∑ l : Fin 256, fref r l * (V main_v149 : S256x256.Idx → EReal) (ix2 l j))
      + (V main_v42 : S1x256.Idx → EReal) (ix2 0 j) = _
  rw [StageHopIn.v42_at m c V h42 j]
  congr 1
  refine Finset.sum_congr rfl fun l _ => ?_
  rw [StageHopIn.v149_at m outs c V h149 l j]

end Cert.KernelIdeal.StageHopGen

end
-- ==== Proof.KI.StageHopRef.lean ====
/-
  The reference's propagation hops, read at an index.

  Hop h of the reference is  f_h r j = (∑ k, adj k r * (f_(h-1) k j * nrm k)) * nrm r  over the 6000 true rows,
  with nrm the normalisation column, and its readout is  (∑ l, f_h r l * gw l j) + gb j.  Each is the chain of the
  generated per-operation reading lemmas, the index maps computed coordinate by coordinate.
-/
import proofs.«414035_j83562883711810_2_alg».proof.Proof.ReadP
import proofs.«414035_j83562883711810_2_alg».proof.Proof.KI.StageHopIn

noncomputable section

open Idealize.ShloMosaic Idealize.ShloMosaic.ValueIdx
open Cert.ReferenceIdeal Cert.ReferenceIdeal.Read

namespace Cert.KernelIdeal.StageHopRef

variable (x0 : (⟨S4000x4000, .f32⟩ : BufTy).Contents (Elt Ideal)) (x1 : (⟨S2000x2000, .f32⟩ : BufTy).Contents (Elt Ideal))
  (x2 : (⟨S2000x4000, .f32⟩ : BufTy).Contents (Elt Ideal)) (x3 : (⟨S1000x2000, .f32⟩ : BufTy).Contents (Elt Ideal))
  (x4 : (⟨S6000x6000, .f32⟩ : BufTy).Contents (Elt Ideal)) (x7 : (⟨S4000x256, .f32⟩ : BufTy).Contents (Elt Ideal))
  (x8 : (⟨S256, .f32⟩ : BufTy).Contents (Elt Ideal)) (x9 : (⟨S256x256, .f32⟩ : BufTy).Contents (Elt Ideal))
  (x10 : (⟨S256, .f32⟩ : BufTy).Contents (Elt Ideal)) (x11 : (⟨S2000x256, .f32⟩ : BufTy).Contents (Elt Ideal))
  (x12 : (⟨S256, .f32⟩ : BufTy).Contents (Elt Ideal)) (x13 : (⟨S256x256, .f32⟩ : BufTy).Contents (Elt Ideal))
  (x14 : (⟨S256, .f32⟩ : BufTy).Contents (Elt Ideal)) (x15 : (⟨S256x256, .f32⟩ : BufTy).Contents (Elt Ideal))
  (x16 : (⟨S256, .f32⟩ : BufTy).Contents (Elt Ideal))

/-- The reference's normalisation column is the one the kernel's host code computes: the same operations. -/
theorem nrm_eq : (val_main_v125 (F := Ideal) x4 : S6000x1.Idx → EReal) = Cert.KernelIdeal.StageHopIn.nrmArr x4 := by
  unfold val_main_v125 val_main_v124 val_main_v123 val_main_v122 val_main_v121 val_main_call10_v1 val_main_call10_v0
    val_main_cst_41 val_main_cst_40 val_main_cst_39 Cert.KernelIdeal.StageHopIn.nrmArr
  rfl

/-- One term of the second hop's contraction. -/
theorem hop2_term (r : Fin 6000) (j : Fin 256) (k : Fin 6000) :
    val_main_v141 (F := Ideal) x4 (lidx_main_v144 (ix2 r j) k)
        * val_main_v143 (F := Ideal) x0 x1 x2 x3 x4 x7 x8 x9 x10 x11 x12 x13 x14 (ridx_main_v144 (ix2 r j) k)
      = x4 (ix2 k r)
          * (val_main_v135 (F := Ideal) x0 x1 x2 x3 x4 x7 x8 x9 x10 x11 x12 x13 x14 (ix2 k j)
              * val_main_v125 (F := Ideal) x4 (ix2 k 0)) := by
  have e2 : idx_main_v141 (lidx_main_v144 (ix2 r j) k) = ix2 k r :=
    funext fun a => match a with | ⟨0, _⟩ => rfl | ⟨1, _⟩ => rfl
  have e3 : ridx_main_v144 (ix2 r j) k = ix2 k j := funext fun a => match a with | ⟨0, _⟩ => rfl | ⟨1, _⟩ => rfl
  have e4 : idx_main_v142 (ix2 k j) = ix2 k 0 := funext fun a => match a with | ⟨0, _⟩ => rfl | ⟨1, _⟩ => rfl
  rw [val_main_v141_apply, e2, e3, val_main_v143_apply, val_main_v142_apply, e4, Ideal.mulf_def]

/-- The second hop of the reference at (r, j). -/
theorem hop2 (r : Fin 6000) (j : Fin 256) :
    val_main_v146 (F := Ideal) x0 x1 x2 x3 x4 x7 x8 x9 x10 x11 x12 x13 x14 (ix2 r j)
      = (∑ k : Fin 6000, x4 (ix2 k r)
            * (val_main_v135 (F := Ideal) x0 x1 x2 x3 x4 x7 x8 x9 x10 x11 x12 x13 x14 (ix2 k j)
                * val_main_v125 (F := Ideal) x4 (ix2 k 0)))
          * val_main_v125 (F := Ideal) x4 (ix2 r 0) := by
  have e1 : idx_main_v145 (ix2 r j) = ix2 r 0 := funext fun a => match a with | ⟨0, _⟩ => rfl | ⟨1, _⟩ => rfl
  rw [val_main_v146_apply, val_main_v144_apply, val_main_v145_apply, e1, Ideal.mulf_def,
    Finset.sum_congr rfl fun k _ => hop2_term x0 x1 x2 x3 x4 x7 x8 x9 x10 x11 x12 x13 x14 r j k]

/-- One term of a readout's contraction of the second hop. -/
theorem readout2_term (r : Fin 6000) (j : Fin 256) (l : Fin 256) :
    val_main_v146 (F := Ideal) x0 x1 x2 x3 x4 x7 x8 x9 x10 x11 x12 x13 x14 (lidx_main_v147 (ix2 r j) l)
        * x15 (ridx_main_v147 (ix2 r j) l)
      = val_main_v146 (F := Ideal) x0 x1 x2 x3 x4 x7 x8 x9 x10 x11 x12 x13 x14 (ix2 r l) * x15 (ix2 l j) := by
  have e2 : lidx_main_v147 (ix2 r j) l = ix2 r l := funext fun a => match a with | ⟨0, _⟩ => rfl | ⟨1, _⟩ => rfl
  have e3 : ridx_main_v147 (ix2 r j) l = ix2 l j := funext fun a => match a with | ⟨0, _⟩ => rfl | ⟨1, _⟩ => rfl
  rw [e2, e3]

/-- The readout of the second hop of the reference at (r, j). -/
theorem readout2 (r : Fin 6000) (j : Fin 256) :
    val_main_v150 (F := Ideal) x0 x1 x2 x3 x4 x7 x8 x9 x10 x11 x12 x13 x14 x15 x16 (ix2 r j)
      = (∑ l : Fin 256, val_main_v146 (F := Ideal) x0 x1 x2 x3 x4 x7 x8 x9 x10 x11 x12 x13 x14 (ix2 r l) * x15 (ix2 l j))
          + x16 (ix1 j) := by
  have e1 : idx_main_v148 (idx_main_v149 (ix2 r j)) = ix1 j := funext fun a => match a with | ⟨0, _⟩ => rfl
  rw [val_main_v150_apply, val_main_v147_apply, val_main_v149_apply, val_main_v148_apply, e1, Ideal.addf_def,
    Finset.sum_congr rfl fun l _ => readout2_term x0 x1 x2 x3 x4 x7 x8 x9 x10 x11 x12 x13 x14 x15 r j l]

/-- One term of the third hop's contraction. -/
theorem hop3_term (r : Fin 6000) (j : Fin 256) (k : Fin 6000) :
    val_main_v152 (F := Ideal) x4 (lidx_main_v155 (ix2 r j) k)
        * val_main_v154 (F := Ideal) x0 x1 x2 x3 x4 x7 x8 x9 x10 x11 x12 x13 x14 (ridx_main_v155 (ix2 r j) k)
      = x4 (ix2 k r)
          * (val_main_v146 (F := Ideal) x0 x1 x2 x3 x4 x7 x8 x9 x10 x11 x12 x13 x14 (ix2 k j)
              * val_main_v125 (F := Ideal) x4 (ix2 k 0)) := by
  have e2 : idx_main_v152 (lidx_main_v155 (ix2 r j) k) = ix2 k r :=
    funext fun a => match a with | ⟨0, _⟩ => rfl | ⟨1, _⟩ => rfl
  have e3 : ridx_main_v155 (ix2 r j) k = ix2 k j := funext fun a => match a with | ⟨0, _⟩ => rfl | ⟨1, _⟩ => rfl
  have e4 : idx_main_v153 (ix2 k j) = ix2 k 0 := funext fun a => match a with | ⟨0, _⟩ => rfl | ⟨1, _⟩ => rfl
  rw [val_main_v152_apply, e2, e3, val_main_v154_apply, val_main_v153_apply, e4, Ideal.mulf_def]

/-- The third hop of the reference at (r, j). -/
theorem hop3 (r : Fin 6000) (j : Fin 256) :
    val_main_v157 (F := Ideal) x0 x1 x2 x3 x4 x7 x8 x9 x10 x11 x12 x13 x14 (ix2 r j)
      = (∑ k : Fin 6000, x4 (ix2 k r)
            * (val_main_v146 (F := Ideal) x0 x1 x2 x3 x4 x7 x8 x9 x10 x11 x12 x13 x14 (ix2 k j)
                * val_main_v125 (F := Ideal) x4 (ix2 k 0)))
          * val_main_v125 (F := Ideal) x4 (ix2 r 0) := by
  have e1 : idx_main_v156 (ix2 r j) = ix2 r 0 := funext fun a => match a with | ⟨0, _⟩ => rfl | ⟨1, _⟩ => rfl
  rw [val_main_v157_apply, val_main_v155_apply, val_main_v156_apply, e1, Ideal.mulf_def,
    Finset.sum_congr rfl fun k _ => hop3_term x0 x1 x2 x3 x4 x7 x8 x9 x10 x11 x12 x13 x14 r j k]

/-- One term of a readout's contraction of the third hop. -/
theorem readout3_term (r : Fin 6000) (j : Fin 256) (l : Fin 256) :
    val_main_v157 (F := Ideal) x0 x1 x2 x3 x4 x7 x8 x9 x10 x11 x12 x13 x14 (lidx_main_v158 (ix2 r j) l)
        * x15 (ridx_main_v158 (ix2 r j) l)
      = val_main_v157 (F := Ideal) x0 x1 x2 x3 x4 x7 x8 x9 x10 x11 x12 x13 x14 (ix2 r l) * x15 (ix2 l j) := by
  have e2 : lidx_main_v158 (ix2 r j) l = ix2 r l := funext fun a => match a with | ⟨0, _⟩ => rfl | ⟨1, _⟩ => rfl
  have e3 : ridx_main_v158 (ix2 r j) l = ix2 l j := funext fun a => match a with | ⟨0, _⟩ => rfl | ⟨1, _⟩ => rfl
  rw [e2, e3]

/-- The readout of the third hop of the reference at (r, j). -/
theorem readout3 (r : Fin 6000) (j : Fin 256) :
    val_main_v161 (F := Ideal) x0 x1 x2 x3 x4 x7 x8 x9 x10 x11 x12 x13 x14 x15 x16 (ix2 r j)
      = (∑ l : Fin 256, val_main_v157 (F := Ideal) x0 x1 x2 x3 x4 x7 x8 x9 x10 x11 x12 x13 x14 (ix2 r l) * x15 (ix2 l j))
          + x16 (ix1 j) := by
  have e1 : idx_main_v159 (idx_main_v160 (ix2 r j)) = ix1 j := funext fun a => match a with | ⟨0, _⟩ => rfl
  rw [val_main_v161_apply, val_main_v158_apply, val_main_v160_apply, val_main_v159_apply, e1, Ideal.addf_def,
    Finset.sum_congr rfl fun l _ => readout3_term x0 x1 x2 x3 x4 x7 x8 x9 x10 x11 x12 x13 x14 x15 r j l]

end Cert.KernelIdeal.StageHopRef

end
-- ==== Proof.KI.Stage14.lean ====
/-
  The second propagation hop (kernel region 14) against the reference.

  The region's two outputs are given by its output formulas over its entry valuation, which still holds the hop's four
  constant arrays and, as the previous features, what the first hop wrote. With the first hop's features on the true
  rows the reference's, the features this hop writes are the reference's after the second hop on the 6000 true rows
  and zero on the 144 padding rows, and its readout is the reference's readout of the second hop on the true rows.
-/
import proofs.«414035_j83562883711810_2_alg».proof.Proof.KI.StageHopGen
import proofs.«414035_j83562883711810_2_alg».proof.Proof.KI.StageHopRef

set_option maxRecDepth 2808

noncomputable section

open Cert.KernelIdeal Cert.KernelIdeal.Gen
open Idealize.ShloMosaic Idealize.ShloMosaic.TcCoe Idealize.SL.Sem Idealize.ShloMosaic.StableHlo Idealize.ShloMosaic.ValueIdx
open Cert.KernelIdeal.StageHopIn (up nrmArr)
open Cert.KernelIdeal.StageHopGen (rd2)

namespace Cert.KernelIdeal.Stage14

variable (m : (ℓ : Loc nD τ sig) → Buf (Elt Ideal) ℓ) (outs : GenP.Outs (F := Ideal)) (c : Dev nD)

-- the launch's contents of an argument
set_option quotPrecheck false in
local notation "𝔞" r => m ((c : Thread nD τ).loc r)

/-- The reference's features after the first hop, at the launch arguments. -/
abbrev f1 : Cert.ReferenceIdeal.S6000x256.Idx → EReal :=
  Cert.ReferenceIdeal.Read.val_main_v135 (F := Ideal) (𝔞 main_arg0) (𝔞 main_arg1) (𝔞 main_arg2) (𝔞 main_arg3) (𝔞 main_arg4)
    (𝔞 main_arg7) (𝔞 main_arg8) (𝔞 main_arg9) (𝔞 main_arg10) (𝔞 main_arg11) (𝔞 main_arg12) (𝔞 main_arg13) (𝔞 main_arg14)

/-- The reference's features after the second hop, at the launch arguments. -/
abbrev f2 : Cert.ReferenceIdeal.S6000x256.Idx → EReal :=
  Cert.ReferenceIdeal.Read.val_main_v146 (F := Ideal) (𝔞 main_arg0) (𝔞 main_arg1) (𝔞 main_arg2) (𝔞 main_arg3) (𝔞 main_arg4)
    (𝔞 main_arg7) (𝔞 main_arg8) (𝔞 main_arg9) (𝔞 main_arg10) (𝔞 main_arg11) (𝔞 main_arg12) (𝔞 main_arg13) (𝔞 main_arg14)

/-- The reference's readout of the second hop, at the launch arguments. -/
abbrev rc2 : Cert.ReferenceIdeal.S6000x256.Idx → EReal :=
  Cert.ReferenceIdeal.Read.val_main_v150 (F := Ideal) (𝔞 main_arg0) (𝔞 main_arg1) (𝔞 main_arg2) (𝔞 main_arg3) (𝔞 main_arg4)
    (𝔞 main_arg7) (𝔞 main_arg8) (𝔞 main_arg9) (𝔞 main_arg10) (𝔞 main_arg11) (𝔞 main_arg12) (𝔞 main_arg13) (𝔞 main_arg14)
    (𝔞 main_arg15) (𝔞 main_arg16)

/-- Region 14's features over its entry valuation: what the region's run gives. -/
abbrev FormulaF : Prop := ∀ (r : Fin 6144) (j : Fin 256),
  rd2 (n0 := 6144) (n1 := 256) (outs 96 main_v162_0 c) r j
    = (∑ q : Fin 6144, rd2 (n0 := 6144) (n1 := 6144) (GenP.V95 m outs c main_v147) r q
          * (rd2 (n0 := 6144) (n1 := 256) (GenP.V95 m outs c main_v159_0) q j
              * rd2 (n0 := 6144) (n1 := 1) (GenP.V95 m outs c main_v148) q 0))
        * rd2 (n0 := 6144) (n1 := 1) (GenP.V95 m outs c main_v148) r 0

/-- Region 14's readout over its features and its entry valuation. -/
abbrev FormulaR : Prop := ∀ (r : Fin 6144) (j : Fin 256),
  rd2 (n0 := 6144) (n1 := 256) (outs 96 main_v162_1 c) r j
    = (∑ l : Fin 256, rd2 (n0 := 6144) (n1 := 256) (outs 96 main_v162_0 c) r l
          * rd2 (n0 := 256) (n1 := 256) (GenP.V95 m outs c main_v149) l j)
      + rd2 (n0 := 1) (n1 := 256) (GenP.V95 m outs c main_v42) 0 j

/-- The first hop's features are the reference's on the true rows. -/
abbrev Prev : Prop := ∀ (r : Fin 6000) (j : Fin 256),
  rd2 (n0 := 6144) (n1 := 256) (outs 94 main_v159_0 c) (up r) j = f1 m c (ix2 r j)

/-- The second hop finds the first hop's features on the true rows as the reference's. -/
theorem prev_at (F1 : Prev m outs c) (k : Fin 6000) (j : Fin 256) :
    rd2 (n0 := 6144) (n1 := 256) (GenP.V95 m outs c main_v159_0) (up k) j = f1 m c (ix2 k j) := by
  rw [StageHopIn.V95_v159_0]
  exact F1 k j

/-- On the true rows the features region 14 writes are the reference's after the second hop. -/
theorem F2 (hF : FormulaF m outs c) (F1 : Prev m outs c) (r : Fin 6000) (j : Fin 256) :
    rd2 (n0 := 6144) (n1 := 256) (outs 96 main_v162_0 c) (up r) j = f2 m c (ix2 r j) := by
  rw [f2, StageHopRef.hop2, StageHopRef.nrm_eq]
  exact (StageHopGen.features m outs c (GenP.V95 m outs c) (StageHopIn.V95_v147 m outs c) (StageHopIn.V95_v148 m outs c)
    (GenP.V95 m outs c main_v159_0) (outs 96 main_v162_0 c) (fun k j => f1 m c (ix2 k j)) hF (prev_at m outs c F1)).1 r j

/-- On the padding rows the features region 14 writes are zero. -/
theorem F2z (hF : FormulaF m outs c) (F1 : Prev m outs c) (q : Fin 6144) (j : Fin 256) (hq : 6000 ≤ q.val) :
    rd2 (n0 := 6144) (n1 := 256) (outs 96 main_v162_0 c) q j = (0 : EReal) :=
  (StageHopGen.features m outs c (GenP.V95 m outs c) (StageHopIn.V95_v147 m outs c) (StageHopIn.V95_v148 m outs c)
    (GenP.V95 m outs c main_v159_0) (outs 96 main_v162_0 c) (fun k j => f1 m c (ix2 k j)) hF (prev_at m outs c F1)).2 q j hq

/-- On the true rows the readout region 14 writes is the reference's readout of the second hop. -/
theorem RC2 (hF : FormulaF m outs c) (hR : FormulaR m outs c) (F1 : Prev m outs c) (r : Fin 6000) (j : Fin 256) :
    rd2 (n0 := 6144) (n1 := 256) (outs 96 main_v162_1 c) (up r) j = rc2 m c (ix2 r j) := by
  rw [rc2, StageHopRef.readout2]
  exact StageHopGen.readout m outs c (GenP.V95 m outs c) (StageHopIn.V95_v149 m outs c) (StageHopIn.V95_v42 m outs c)
    (outs 96 main_v162_0 c) (outs 96 main_v162_1 c) hR (fun r l => f2 m c (ix2 r l)) (F2 m outs c hF F1) r j

end Cert.KernelIdeal.Stage14

end
-- ==== Proof.KI.Stage15.lean ====
/-
  The third propagation hop (kernel region 15) against the reference.

  The region's entry valuation still holds the hop's four constant arrays and, as the previous features, what the
  second hop wrote. With the second hop's features on the true rows the reference's, the features this hop writes are
  the reference's after the third hop on the 6000 true rows and zero on the 144 padding rows, and its readout is the
  reference's readout of the third hop on the true rows.
-/
import proofs.«414035_j83562883711810_2_alg».proof.Proof.KI.Stage14

set_option maxRecDepth 2808

noncomputable section

open Cert.KernelIdeal Cert.KernelIdeal.Gen
open Idealize.ShloMosaic Idealize.ShloMosaic.TcCoe Idealize.SL.Sem Idealize.ShloMosaic.StableHlo Idealize.ShloMosaic.ValueIdx
open Cert.KernelIdeal.StageHopIn (up nrmArr)
open Cert.KernelIdeal.StageHopGen (rd2)

namespace Cert.KernelIdeal.Stage15

variable (m : (ℓ : Loc nD τ sig) → Buf (Elt Ideal) ℓ) (outs : GenP.Outs (F := Ideal)) (c : Dev nD)

-- the launch's contents of an argument
set_option quotPrecheck false in
local notation "𝔞" r => m ((c : Thread nD τ).loc r)

/-- The reference's features after the third hop, at the launch arguments. -/
abbrev f3 : Cert.ReferenceIdeal.S6000x256.Idx → EReal :=
  Cert.ReferenceIdeal.Read.val_main_v157 (F := Ideal) (𝔞 main_arg0) (𝔞 main_arg1) (𝔞 main_arg2) (𝔞 main_arg3) (𝔞 main_arg4)
    (𝔞 main_arg7) (𝔞 main_arg8) (𝔞 main_arg9) (𝔞 main_arg10) (𝔞 main_arg11) (𝔞 main_arg12) (𝔞 main_arg13) (𝔞 main_arg14)

/-- The reference's readout of the third hop, at the launch arguments. -/
abbrev rc3 : Cert.ReferenceIdeal.S6000x256.Idx → EReal :=
  Cert.ReferenceIdeal.Read.val_main_v161 (F := Ideal) (𝔞 main_arg0) (𝔞 main_arg1) (𝔞 main_arg2) (𝔞 main_arg3) (𝔞 main_arg4)
    (𝔞 main_arg7) (𝔞 main_arg8) (𝔞 main_arg9) (𝔞 main_arg10) (𝔞 main_arg11) (𝔞 main_arg12) (𝔞 main_arg13) (𝔞 main_arg14)
    (𝔞 main_arg15) (𝔞 main_arg16)

/-- Region 15's features over its entry valuation: what the region's run gives. -/
abbrev FormulaF : Prop := ∀ (r : Fin 6144) (j : Fin 256),
  rd2 (n0 := 6144) (n1 := 256) (outs 98 main_v165_0 c) r j
    = (∑ q : Fin 6144, rd2 (n0 := 6144) (n1 := 6144) (GenP.V97 m outs c main_v147) r q
          * (rd2 (n0 := 6144) (n1 := 256) (GenP.V97 m outs c main_v162_0) q j
              * rd2 (n0 := 6144) (n1 := 1) (GenP.V97 m outs c main_v148) q 0))
        * rd2 (n0 := 6144) (n1 := 1) (GenP.V97 m outs c main_v148) r 0

/-- Region 15's readout over its features and its entry valuation. -/
abbrev FormulaR : Prop := ∀ (r : Fin 6144) (j : Fin 256),
  rd2 (n0 := 6144) (n1 := 256) (outs 98 main_v165_1 c) r j
    = (∑ l : Fin 256, rd2 (n0 := 6144) (n1 := 256) (outs 98 main_v165_0 c) r l
          * rd2 (n0 := 256) (n1 := 256) (GenP.V97 m outs c main_v149) l j)
      + rd2 (n0 := 1) (n1 := 256) (GenP.V97 m outs c main_v42) 0 j

/-- The second hop's features are the reference's on the true rows. -/
abbrev Prev : Prop := ∀ (r : Fin 6000) (j : Fin 256),
  rd2 (n0 := 6144) (n1 := 256) (outs 96 main_v162_0 c) (up r) j = Stage14.f2 m c (ix2 r j)

/-- The third hop finds the second hop's features on the true rows as the reference's. -/
theorem prev_at (F2 : Prev m outs c) (k : Fin 6000) (j : Fin 256) :
    rd2 (n0 := 6144) (n1 := 256) (GenP.V97 m outs c main_v162_0) (up k) j = Stage14.f2 m c (ix2 k j) := by
  rw [StageHopIn.V97_v162_0]
  exact F2 k j

/-- On the true rows the features region 15 writes are the reference's after the third hop. -/
theorem F3 (hF : FormulaF m outs c) (F2 : Prev m outs c) (r : Fin 6000) (j : Fin 256) :
    rd2 (n0 := 6144) (n1 := 256) (outs 98 main_v165_0 c) (up r) j = f3 m c (ix2 r j) := by
  rw [f3, StageHopRef.hop3, StageHopRef.nrm_eq]
  exact (StageHopGen.features m outs c (GenP.V97 m outs c) (StageHopIn.V97_v147 m outs c) (StageHopIn.V97_v148 m outs c)
    (GenP.V97 m outs c main_v162_0) (outs 98 main_v165_0 c) (fun k j => Stage14.f2 m c (ix2 k j)) hF
    (prev_at m outs c F2)).1 r j

/-- On the padding rows the features region 15 writes are zero. -/
theorem F3z (hF : FormulaF m outs c) (F2 : Prev m outs c) (q : Fin 6144) (j : Fin 256) (hq : 6000 ≤ q.val) :
    rd2 (n0 := 6144) (n1 := 256) (outs 98 main_v165_0 c) q j = (0 : EReal) :=
  (StageHopGen.features m outs c (GenP.V97 m outs c) (StageHopIn.V97_v147 m outs c) (StageHopIn.V97_v148 m outs c)
    (GenP.V97 m outs c main_v162_0) (outs 98 main_v165_0 c) (fun k j => Stage14.f2 m c (ix2 k j)) hF
    (prev_at m outs c F2)).2 q j hq

/-- On the true rows the readout region 15 writes is the reference's readout of the third hop. -/
theorem RC3 (hF : FormulaF m outs c) (hR : FormulaR m outs c) (F2 : Prev m outs c) (r : Fin 6000) (j : Fin 256) :
    rd2 (n0 := 6144) (n1 := 256) (outs 98 main_v165_1 c) (up r) j = rc3 m c (ix2 r j) := by
  rw [rc3, StageHopRef.readout3]
  exact StageHopGen.readout m outs c (GenP.V97 m outs c) (StageHopIn.V97_v149 m outs c) (StageHopIn.V97_v42 m outs c)
    (outs 98 main_v165_0 c) (outs 98 main_v165_1 c) hR (fun r l => f3 m c (ix2 r l)) (F3 m outs c hF F2) r j

end Cert.KernelIdeal.Stage15

end
-- ==== Proof.KI.StageEmb.lean ====
/-
  The embedding table the two gathers read.

  After the last four kernel regions the host takes the first 6000 rows of each region's 6144-row output, adds the
  four arrays entry by entry and takes the maximum with 0. Read at row r < 6000 and column j, the table's entry is
  max (x₁ r j + x₂ r j + x₃ r j + x₄ r j) 0 with x₁ … x₄ the four outputs.
-/
import proofs.«414035_j83562883711810_2_alg».proof.Proof.RegionsKI
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.StageEmb

open Cert.KernelIdeal Cert.KernelIdeal.Gen Cert.KernelIdeal.GenP
open Idealize.ShloMosaic Idealize.ShloMosaic.TcCoe Idealize.ShloMosaic.ValueIdx Idealize.ShloMosaic.StableHlo Idealize.SL.Sem

/-- One step of reading a buffer after a list of host operations or after a region's update. -/
local macro "res_step" : tactic => `(tactic| first
  | rw [nullary_result] | rw [unary_result] | rw [binary_result] | rw [ternary_result]
  | (rw [nullary_result_ne]; rotate_left; decide) | (rw [unary_result_ne]; rotate_left; decide)
  | (rw [binary_result_ne]; rotate_left; decide) | (rw [ternary_result_ne]; rotate_left; decide)
  | rw [Function.update_self] | (rw [Function.update_of_ne]; rotate_left; decide))

variable (m : (ℓ : Loc nD τ sig) → Buf (Elt Ideal) ℓ) (outs : GenP.Outs (F := Ideal)) (c : Dev nD)

/-- What regions 12 to 15 leave in the arrays the host reads back, on the padded index set. -/
abbrev o155 : S6144x256.Idx → EReal := outs 90 main_v155 c
abbrev o159 : S6144x256.Idx → EReal := outs 94 main_v159_1 c
abbrev o162 : S6144x256.Idx → EReal := outs 96 main_v162_1 c
abbrev o165 : S6144x256.Idx → EReal := outs 98 main_v165_1 c
/-- The embedding table as the host leaves it before the two gathers. -/
abbrev emb : S6000x256.Idx → EReal := V99 m outs c main_v169

/-- The first 6000 rows of a padded array. -/
abbrev sl (x : S6144x256.Idx → EReal) : S6000x256.Idx → EReal :=
  extractStridedSlice S6000x256 ![0, 0] x slices_S6144x256_S6000x256_0_0

theorem sl_read (x : S6144x256.Idx → EReal) (r : Fin 6000) (j : Fin 256) :
    sl x (ix2 r j) = x (ix2 ⟨r.val, by omega⟩ j) :=
  extractStridedSlice_apply _ x _ _ _ (fun a => match a with
    | ⟨0, _⟩ => by show r.val = 0 + r.val; omega
    | ⟨1, _⟩ => by show j.val = 0 + j.val; omega)

/-- The table is the four region outputs' first 6000 rows added up, then the maximum with 0. -/
theorem emb_eq :
    emb m outs c = fun i => max (sl (o155 outs c) i + sl (o159 outs c) i + sl (o162 outs c) i + sl (o165 outs c) i) 0 := by
  dsimp only [emb, V99, V98, V97, V96, V95, V94, V93, V92, V91, V90]
  simp only [hostOps16, hostOps15, hostOps14, hostOps13_2, hostOps13_1, hostOps13, after_cons, after_nil]
  repeat res_step
  funext i
  show max (_ + _ + _ + _) (Ideal.ofBits .f32 0x00000000#32) = _
  rw [Ideal.ofBits_zero_f32]

/-- The same, entry by entry: row r < 6000, column j. -/
theorem emb_read (r : Fin 6000) (j : Fin 256) :
    emb m outs c (ix2 r j)
      = max (o155 outs c (ix2 ⟨r.val, by omega⟩ j) + o159 outs c (ix2 ⟨r.val, by omega⟩ j)
          + o162 outs c (ix2 ⟨r.val, by omega⟩ j) + o165 outs c (ix2 ⟨r.val, by omega⟩ j)) 0 := by
  rw [emb_eq]
  simp only [sl_read]

end Cert.KernelIdeal.StageEmb
end
-- ==== Proof.LibIndexRead.lean ====
/-
  An accumulating scatter and a row gather, read at an index.

  For the dimension numbers jnp's `x.at[idx].add(u)`, `segment_sum` and `x[idx]` print along axis 0 — the index
  vector an [E, 1] column of words, one word per update or per gathered row —, the update e lands on row p exactly
  when word e, read signed, is p, and the gathered row e is the operand's row named by word e when that word
  is a row of the operand.
-/
import Idealize.ShloMosaic.PureOps.Ideal
import Idealize.ShloMosaic.Lib.ValueIdx

noncomputable section

namespace Cert.Sage.IndexRead

open Idealize.ShloMosaic Idealize.ShloMosaic.ValueIdx

/-- An update lands at `i` exactly when, on every axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

/-- The start of update `j` on the operand's one axis is word `j`, read signed. -/
private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The operand's one axis is inserted: no window coordinate. -/
private theorem vec_window (j : (⟨1, ![E]⟩ : Shape).Idx) : d.window j 0 = 0 := by
  obtain ⟨uw, iw, sd, iv, wf⟩ := d
  simp only at h1 h2 h3 h4
  subst h1 h2 h3 h4
  rfl

/-- Update `j` lands on entry `p` exactly when word `j`, read signed, is `p`. -/
private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

/-- Accumulating a vector of E updates into a vector of N entries: entry p is what it was plus the updates whose
    word is p. -/
theorem scatterAdd_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : (⟨2, ![E, 1]⟩ : Shape).Idx → BitVec 32)
    (upd : (⟨1, ![E]⟩ : Shape).Idx → EReal) (p : Fin N) :
    Ideal.hostScatterAdd d x idx upd (ix1 p)
      = x (ix1 p) + ∑ e ∈ Finset.univ.filter (fun e : Fin E => (idx (ix2 e 0)).toInt = (p.val : Int)), upd (ix1 e) := by
  unfold Ideal.hostScatterAdd
  congr 1
  -- the update indices are the words' positions
  refine Finset.sum_nbij' (fun j => j 0) (fun e => ix1 e) ?_ ?_ ?_ ?_ ?_
  · intro j hj
    exact Finset.mem_filter.mpr ⟨Finset.mem_univ _, (vec_lands d h1 h2 h3 h4 idx j p).mp (Finset.mem_filter.mp hj).2⟩
  · intro e he
    exact Finset.mem_filter.mpr ⟨Finset.mem_univ _, (vec_lands d h1 h2 h3 h4 idx (ix1 e) p).mpr (Finset.mem_filter.mp he).2⟩
  · intro j _
    exact (eq_ix1 j).symm
  · intro e _
    rfl
  · intro j _
    exact congrArg upd (eq_ix1 j)

section Rows
variable {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
include h1 h2 h3 h4

/-- The start of update `j` on the operand's row axis is word `j 0`, read signed. -/
private theorem rows_start0 (idx : (⟨2, ![E, 1]⟩ : Shape).Idx → BitVec 32) (j : (⟨2, ![E, D]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The column axis is not a scattered one: its start is 0. -/
private theorem rows_start1 (idx : (⟨2, ![E, 1]⟩ : Shape).Idx → BitVec 32) (j : (⟨2, ![E, D]⟩ : Shape).Idx) :
    d.start j idx 1 = 0 := by
  obtain ⟨uw, iw, sd, iv, wf⟩ := d
  simp only at h1 h2 h3 h4
  subst h1 h2 h3 h4
  rfl

/-- The row axis is inserted: no window coordinate. -/
private theorem rows_window0 (j : (⟨2, ![E, D]⟩ : Shape).Idx) : d.window j 0 = 0 := by
  obtain ⟨uw, iw, sd, iv, wf⟩ := d
  simp only at h1 h2 h3 h4
  subst h1 h2 h3 h4
  rfl

/-- The window coordinate on the column axis is the update's column. -/
private theorem rows_window1 (j : (⟨2, ![E, D]⟩ : Shape).Idx) : d.window j 1 = (j 1).val := by
  obtain ⟨uw, iw, sd, iv, wf⟩ := d
  simp only at h1 h2 h3 h4
  subst h1 h2 h3 h4
  rfl

/-- Update `j` lands on entry `(p, q)` exactly when word `j 0`, read signed, is `p` and its column is `q`. -/
private theorem rows_lands (idx : (⟨2, ![E, 1]⟩ : Shape).Idx → BitVec 32) (j : (⟨2, ![E, D]⟩ : Shape).Idx)
    (p : Fin N) (q : Fin D) :
    d.resultIdx? j idx = some (ix2 p q) ↔ (idx (ix2 (j 0) 0)).toInt = (p.val : Int) ∧ j 1 = q := by
  rw [resultIdx?_eq_some_iff]
  constructor
  · intro h
    have h0 := h 0
    have hc := h 1
    rw [rows_start0 d h1 h2 h3 h4, rows_window0 d h1 h2 h3 h4, Nat.cast_zero, add_zero] at h0
    rw [rows_start1 d h1 h2 h3 h4, rows_window1 d h1 h2 h3 h4, zero_add] at hc
    exact ⟨h0, Fin.ext (Int.ofNat_inj.mp hc)⟩
  · rintro ⟨h0, hq⟩
    have f0 : d.start j idx 0 + (d.window j 0 : Int) = (p.val : Int) := by
      rw [rows_start0 d h1 h2 h3 h4, rows_window0 d h1 h2 h3 h4, Nat.cast_zero, add_zero]
      exact h0
    have f1 : d.start j idx 1 + (d.window j 1 : Int) = (q.val : Int) := by
      rw [rows_start1 d h1 h2 h3 h4, rows_window1 d h1 h2 h3 h4, zero_add, hq]
    intro a
    match a with
    | ⟨0, _⟩ => exact f0
    | ⟨1, _⟩ => exact f1

end Rows

/-- Accumulating E rows of D entries into an N x D matrix: entry (p, q) is what it was plus entry q of the rows
    whose word is p. -/
theorem scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : (⟨2, ![E, 1]⟩ : Shape).Idx → BitVec 32)
    (upd : (⟨2, ![E, D]⟩ : Shape).Idx → EReal) (p : Fin N) (q : Fin D) :
    Ideal.hostScatterAdd d x idx upd (ix2 p q)
      = x (ix2 p q) + ∑ e ∈ Finset.univ.filter (fun e : Fin E => (idx (ix2 e 0)).toInt = (p.val : Int)), upd (ix2 e q) := by
  unfold Ideal.hostScatterAdd
  congr 1
  -- the update indices that land in column q are the rows' positions, at column q
  refine Finset.sum_nbij' (fun j => j 0) (fun e => ix2 e q) ?_ ?_ ?_ ?_ ?_
  · intro j hj
    exact Finset.mem_filter.mpr ⟨Finset.mem_univ _, ((rows_lands d h1 h2 h3 h4 idx j p q).mp (Finset.mem_filter.mp hj).2).1⟩
  · intro e he
    exact Finset.mem_filter.mpr ⟨Finset.mem_univ _, (rows_lands d h1 h2 h3 h4 idx (ix2 e q) p q).mpr ⟨(Finset.mem_filter.mp he).2, rfl⟩⟩
  · intro j hj
    have hq := ((rows_lands d h1 h2 h3 h4 idx j p q).mp (Finset.mem_filter.mp hj).2).2
    exact (congrArg (ix2 (j 0)) hq.symm).trans (eq_ix2 j).symm
  · intro e _
    rfl
  · intro j hj
    have hq := ((rows_lands d h1 h2 h3 h4 idx j p q).mp (Finset.mem_filter.mp hj).2).2
    exact congrArg upd ((eq_ix2 j).trans (congrArg (ix2 (j 0)) hq))

section Gather
variable {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
include h1 h2 h3 h4 h5 h6 h7

/-- The slice's start on the row axis is word `j 0`, read signed and clamped into `[0, N - 1]`. -/
private theorem gather_start0 (idx : (⟨2, ![E, 1]⟩ : Shape).Idx → BitVec 32) (j : (⟨2, ![E, D]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

/-- The column axis is not in the start index map: its start is 0. -/
private theorem gather_start1 (idx : (⟨2, ![E, 1]⟩ : Shape).Idx → BitVec 32) (j : (⟨2, ![E, D]⟩ : Shape).Idx) :
    d.start j idx 1 = 0 := by
  obtain ⟨od, cd, ob, sb, sm, iv, ss, wf⟩ := d
  simp only at h1 h2 h3 h4 h5 h6 h7
  subst h1 h2 h3 h4 h5 h6 h7
  rfl

/-- No batching axes: no batching coordinate. -/
private theorem gather_batch (j : (⟨2, ![E, D]⟩ : Shape).Idx) (a : Fin 2) : d.batchCoord j a = 0 :=
  d.batchCoord_eq_zero j a (by rw [h3]; exact List.not_mem_nil)

/-- The row axis is collapsed: no offset coordinate. -/
private theorem gather_off0 (j : (⟨2, ![E, D]⟩ : Shape).Idx) : d.offCoord j 0 = 0 := by
  obtain ⟨od, cd, ob, sb, sm, iv, ss, wf⟩ := d
  simp only at h1 h2 h3 h4 h5 h6 h7
  subst h1 h2 h3 h4 h5 h6 h7
  rfl

/-- The offset coordinate on the column axis is the result's column. -/
private theorem gather_off1 (j : (⟨2, ![E, D]⟩ : Shape).Idx) : d.offCoord j 1 = (j 1).val := by
  obtain ⟨od, cd, ob, sb, sm, iv, ss, wf⟩ := d
  simp only at h1 h2 h3 h4 h5 h6 h7
  subst h1 h2 h3 h4 h5 h6 h7
  rfl

end Gather

/-- Gathering E rows out of an N x D matrix: row e is the operand's row n when word e, read signed, is n. -/
theorem gather_rows {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (n : Fin N) (hn : (idx (ix2 e 0)).toInt = (n.val : Int)) :
    Host.gather d x idx (ix2 e q) = x (ix2 n q) := by
  -- row axis: the clamped start is n (n is a row of the operand), nothing else is added
  have f0 : d.start (ix2 e q) idx 0 + d.batchCoord (ix2 e q) 0 + d.offCoord (ix2 e q) 0 = n.val := by
    rw [gather_start0 d h1 h2 h3 h4 h5 h6 h7, gather_batch d h1 h2 h3 h4 h5 h6 h7, gather_off0 d h1 h2 h3 h4 h5 h6 h7]
    show min (idx (ix2 e 0)).toInt.toNat (N - 1) + 0 + 0 = n.val
    rw [hn, Int.toNat_natCast]
    have := n.isLt
    omega
  -- column axis: the start is 0 and the offset coordinate is q
  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

/-- Gathering E rows out of an N x D matrix, for any word: row e is the operand's row named by word e read signed
    and clamped into the operand, `min (max w 0) (N - 1)`. -/
theorem gather_rows_clamp {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (hN : 0 < N) :
    Host.gather d x idx (ix2 e q) = x (ix2 ⟨min (idx (ix2 e 0)).toInt.toNat (N - 1), by omega⟩ q) := by
  -- row axis: the clamped start, nothing else is added
  have f0 : d.start (ix2 e q) idx 0 + d.batchCoord (ix2 e q) 0 + d.offCoord (ix2 e q) 0
      = min (idx (ix2 e 0)).toInt.toNat (N - 1) := by
    rw [gather_start0 d h1 h2 h3 h4 h5 h6 h7, gather_batch d h1 h2 h3 h4 h5 h6 h7, gather_off0 d h1 h2 h3 h4 h5 h6 h7]
    rfl
  -- column axis: the start is 0 and the offset coordinate is q
  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

end Cert.Sage.IndexRead

end
-- ==== Proof.KI.StageGather.lean ====
/-
  The two takes out of the embedding table, and what the decoder finds at its entry.

  Each take moves the negative words of its index vector up by 6000, gathers the table's rows at the words, and
  replaces a row whose word is not in [0, 5999] by a constant row. The first take is at the first index vector, the
  second at the second index vector plus 4000. The decoder's feature matrix is the entrywise product of the two
  takes; its four weight matrices are the launch arguments and its four bias rows are the launch bias vectors laid
  along the columns.
-/
import proofs.«414035_j83562883711810_2_alg».proof.Proof.RegionsKI
import proofs.«414035_j83562883711810_2_alg».proof.Proof.LibIndexRead
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.StageGather

open Cert.KernelIdeal Cert.KernelIdeal.Gen Cert.KernelIdeal.GenP
open Idealize.ShloMosaic Idealize.ShloMosaic.TcCoe Idealize.ShloMosaic.ValueIdx Idealize.ShloMosaic.StableHlo Idealize.SL.Sem

/-- One step of reading a buffer after a list of host operations or after a region's update. -/
local macro "res_step" : tactic => `(tactic| first
  | rw [nullary_result] | rw [unary_result] | rw [binary_result] | rw [ternary_result]
  | (rw [nullary_result_ne]; rotate_left; decide) | (rw [unary_result_ne]; rotate_left; decide)
  | (rw [binary_result_ne]; rotate_left; decide) | (rw [ternary_result_ne]; rotate_left; decide)
  | rw [Function.update_self] | (rw [Function.update_of_ne]; rotate_left; decide))

variable (m : (ℓ : Loc nD τ sig) → Buf (Elt Ideal) ℓ) (outs : GenP.Outs (F := Ideal)) (c : Dev nD)

/-- The two index vectors as launched. -/
abbrev a5 : S16384.Idx → BitVec 32 := m ((c : Thread nD τ).loc main_arg5)
abbrev a6 : S16384.Idx → BitVec 32 := m ((c : Thread nD τ).loc main_arg6)
/-- The second index vector shifted by 4000. -/
abbrev y6 : S16384.Idx → BitVec 32 :=
  addi (broadcastInDim S16384 ![] bcast_S_S16384 (constantI S_ 32 4000#32)) (a6 m c)
/-- The embedding table as the host leaves it before the two gathers. -/
abbrev emb : S6000x256.Idx → EReal := V99 m outs c main_v169

/-- An index vector with its negative words moved up by 6000, as a column. -/
abbrev wrapCol (x : S16384.Idx → BitVec 32) : S16384x1.Idx → BitVec 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 6000#32))) x)

/-- Rows of a table taken by an index vector: negative words moved up by 6000, the rows gathered, and a row whose
    word is not in [0, 5999] replaced by a constant row. -/
abbrev take (t : S6000x256.Idx → EReal) (x : S16384.Idx → BitVec 32) : S16384x256.Idx → EReal :=
  select
    (broadcastInDim S16384x256 ![0] bcast_S16384_S16384x256_0
      (Host.reduce IntOp.andi
        (andi (cmpi .sge (wrapCol x) (broadcastInDim S16384x1 ![] bcast_S_S16384x1 (constantI S_ 32 0#32)))
          (cmpi .sle (wrapCol x) (broadcastInDim S16384x1 ![0, 1] bcast_S1x1_S16384x1_0_1
            (broadcastInDim S1x1 ![1] bcast_S1_S1x1_1 (constantI S1 32 5999#32)))))
        (constantI S_ 1 1#1) reducesTo_S16384x1_S16384_d1 h_S_))
    (Host.gather gather_S6000x256_S16384x1_S16384x256_1_0_n_n_0_1_1256 t (wrapCol x))
    (broadcastInDim S16384x256 ![] bcast_S_S16384x256 (constant (F := Ideal) S_ .f32 0x7FC00000#32))

set_option maxHeartbeats 1000000 in
theorem V99_arg5 : V99 m outs c main_arg5 = m ((c : Thread nD τ).loc main_arg5) :=
  ((V104_of m outs c main_arg5 (by decide)).trans <| (V103_of m outs c main_arg5 (by decide)).trans <|
    (V102_of m outs c main_arg5 (by decide)).trans <| (V101_of m outs c main_arg5 (by decide)).trans <|
    V100_of m outs c main_arg5 (by decide)).symm.trans (V104_main_arg5 m outs c)

/-- The first take, over any contents of the unscoped buffers before it. -/
theorem take_after (W : Valuation τ sig (Elt Ideal)) :
    (after hostOps16_1 W main_v170 : S16384x256.Idx → EReal) = take (W main_v169) (W main_arg5) := by
  simp only [hostOps16_1]
  after_results_simp
  simp only [cast_cast, cast_eq]

theorem v170_eq : (V100 m outs c main_v170 : S16384x256.Idx → EReal) = take (emb m outs c) (a5 m c) := by
  have h := take_after (V99 m outs c)
  rw [V99_arg5] at h
  exact h

/-- The second take's index vector, over any contents before it. -/
theorem shift_after (W : Valuation τ sig (Elt Ideal)) :
    (after hostOps16_2 W main_v172 : S16384.Idx → BitVec 32)
      = addi (broadcastInDim S16384 ![] bcast_S_S16384 (constantI S_ 32 4000#32)) (W main_arg6) := by
  simp only [hostOps16_2]
  after_results_simp

/-- The second take, over any contents of the unscoped buffers before it. -/
theorem take_after' (W : Valuation τ sig (Elt Ideal)) :
    (after hostOps16_3 W main_v173 : S16384x256.Idx → EReal) = take (W main_v169) (W main_v172) := by
  simp only [hostOps16_3]
  after_results_simp
  simp only [cast_cast, cast_eq]

set_option maxHeartbeats 1000000 in
theorem V100_arg6 : V100 m outs c main_arg6 = m ((c : Thread nD τ).loc main_arg6) :=
  ((V104_of m outs c main_arg6 (by decide)).trans <| (V103_of m outs c main_arg6 (by decide)).trans <| (V102_of m outs c main_arg6 (by decide)).trans <| V101_of m outs c main_arg6 (by decide)).symm.trans (V104_main_arg6 m outs c)

theorem v172_eq : (V101 m outs c main_v172 : S16384.Idx → BitVec 32) = y6 m c := by
  have h := shift_after (V100 m outs c)
  rw [V100_arg6] at h
  exact h

theorem V101_v169 : V101 m outs c main_v169 = V99 m outs c main_v169 :=
  (V101_of m outs c main_v169 (by decide)).trans (V100_of m outs c main_v169 (by decide))

theorem v173_eq : (V102 m outs c main_v173 : S16384x256.Idx → EReal) = take (emb m outs c) (y6 m c) := by
  have h := take_after' (V101 m outs c)
  rw [V101_v169, v172_eq] at h
  exact h

theorem V102_v170 : V102 m outs c main_v170 = V100 m outs c main_v170 :=
  (V102_of m outs c main_v170 (by decide)).trans (V101_of m outs c main_v170 (by decide))

/-! ## The decoder's inputs -/

/-- The two takes in a valuation. -/
abbrev g170 (W : Valuation τ sig (Elt Ideal)) : S16384x256.Idx → EReal := W main_v170
abbrev g173 (W : Valuation τ sig (Elt Ideal)) : S16384x256.Idx → EReal := W main_v173

/-- The product of the two takes, over any contents before the last host stretch. -/
theorem z_after (W : Valuation τ sig (Elt Ideal)) :
    (after hostOps16_4 W main_v175 : S16384x256.Idx → EReal) = fun i => g170 W i * g173 W i := by
  simp only [hostOps16_4]
  after_results_simp
  rfl

theorem w1_after (W : Valuation τ sig (Elt Ideal)) :
    (after hostOps16_4 W main_v176 : S256x128.Idx → EReal) = (W main_arg17 : S256x128.Idx → EReal) := by
  simp only [hostOps16_4]
  after_results_simp
  rfl
theorem w2_after (W : Valuation τ sig (Elt Ideal)) :
    (after hostOps16_4 W main_v177 : S128x64.Idx → EReal) = (W main_arg19 : S128x64.Idx → EReal) := by
  simp only [hostOps16_4]
  after_results_simp
  rfl
theorem w3_after (W : Valuation τ sig (Elt Ideal)) :
    (after hostOps16_4 W main_v178 : S64x32.Idx → EReal) = (W main_arg21 : S64x32.Idx → EReal) := by
  simp only [hostOps16_4]
  after_results_simp
  rfl
theorem w4_after (W : Valuation τ sig (Elt Ideal)) :
    (after hostOps16_4 W main_v179 : S32x1.Idx → EReal) = (W main_arg23 : S32x1.Idx → EReal) := by
  simp only [hostOps16_4]
  after_results_simp
  rfl
theorem b1_after (W : Valuation τ sig (Elt Ideal)) :
    (after hostOps16_4 W main_v180 : S1x128.Idx → EReal)
      = broadcastInDim S1x128 ![1] bcast_S128_S1x128_1 (W main_arg18 : S128.Idx → EReal) := by
  simp only [hostOps16_4]
  after_results_simp
theorem b2_after (W : Valuation τ sig (Elt Ideal)) :
    (after hostOps16_4 W main_v181 : S1x64.Idx → EReal)
      = broadcastInDim S1x64 ![1] bcast_S64_S1x64_1 (W main_arg20 : S64.Idx → EReal) := by
  simp only [hostOps16_4]
  after_results_simp
theorem b3_after (W : Valuation τ sig (Elt Ideal)) :
    (after hostOps16_4 W main_v182 : S1x32.Idx → EReal)
      = broadcastInDim S1x32 ![1] bcast_S32_S1x32_1 (W main_arg22 : S32.Idx → EReal) := by
  simp only [hostOps16_4]
  after_results_simp
theorem b4_after (W : Valuation τ sig (Elt Ideal)) :
    (after hostOps16_4 W main_v183 : S1x1.Idx → EReal)
      = broadcastInDim S1x1 ![1] bcast_S1_S1x1_1 (W main_arg24 : S1.Idx → EReal) := by
  simp only [hostOps16_4]
  after_results_simp

/-- A row vector made from a vector reads the vector at the column. -/
theorem row_read {n : Nat} (h : (⟨1, ![n]⟩ : Shape).BroadcastsInDim ⟨2, ![1, n]⟩ ![1]) (x : (⟨1, ![n]⟩ : Shape).Idx → EReal)
    (j : Fin n) : broadcastInDim ⟨2, ![1, n]⟩ ![1] h x (ix2 0 j) = x (ix1 j) :=
  broadcastInDim_apply _ h x _ _ (fun a => match a with
    | ⟨0, _⟩ => by
      show j.val = if n = 1 then 0 else j.val
      split
      · have := j.isLt; omega
      · rfl)

/-- The decoder's feature block is the entrywise product of the two takes. -/
theorem x_read (e : Fin 16384) (q : Fin 256) :
    (V103 m outs c main_v175 : S16384x256.Idx → EReal) (ix2 e q)
      = take (emb m outs c) (a5 m c) (ix2 e q) * take (emb m outs c) (y6 m c) (ix2 e q) := by
  have h := congrFun (z_after (V102 m outs c)) (ix2 e q)
  dsimp only [g170, g173] at h
  rw [V102_v170, v170_eq, v173_eq] at h
  exact h

/-! ## The decoder's weights and biases at its entry -/

set_option maxHeartbeats 1000000 in
theorem V102_main_arg17 : V102 m outs c main_arg17 = m ((c : Thread nD τ).loc main_arg17) :=
  ((V104_of m outs c main_arg17 (by decide)).trans <| V103_of m outs c main_arg17 (by decide)).symm.trans (V104_main_arg17 m outs c)
theorem w1_eq : (V103 m outs c main_v176 : S256x128.Idx → EReal) = (m ((c : Thread nD τ).loc main_arg17) : S256x128.Idx → EReal) := by
  have h := w1_after (V102 m outs c)
  rw [V102_main_arg17] at h
  exact h

set_option maxHeartbeats 1000000 in
theorem V102_main_arg19 : V102 m outs c main_arg19 = m ((c : Thread nD τ).loc main_arg19) :=
  ((V104_of m outs c main_arg19 (by decide)).trans <| V103_of m outs c main_arg19 (by decide)).symm.trans (V104_main_arg19 m outs c)
theorem w2_eq : (V103 m outs c main_v177 : S128x64.Idx → EReal) = (m ((c : Thread nD τ).loc main_arg19) : S128x64.Idx → EReal) := by
  have h := w2_after (V102 m outs c)
  rw [V102_main_arg19] at h
  exact h

set_option maxHeartbeats 1000000 in
theorem V102_main_arg21 : V102 m outs c main_arg21 = m ((c : Thread nD τ).loc main_arg21) :=
  ((V104_of m outs c main_arg21 (by decide)).trans <| V103_of m outs c main_arg21 (by decide)).symm.trans (V104_main_arg21 m outs c)
theorem w3_eq : (V103 m outs c main_v178 : S64x32.Idx → EReal) = (m ((c : Thread nD τ).loc main_arg21) : S64x32.Idx → EReal) := by
  have h := w3_after (V102 m outs c)
  rw [V102_main_arg21] at h
  exact h

set_option maxHeartbeats 1000000 in
theorem V102_main_arg23 : V102 m outs c main_arg23 = m ((c : Thread nD τ).loc main_arg23) :=
  ((V104_of m outs c main_arg23 (by decide)).trans <| V103_of m outs c main_arg23 (by decide)).symm.trans (V104_main_arg23 m outs c)
theorem w4_eq : (V103 m outs c main_v179 : S32x1.Idx → EReal) = (m ((c : Thread nD τ).loc main_arg23) : S32x1.Idx → EReal) := by
  have h := w4_after (V102 m outs c)
  rw [V102_main_arg23] at h
  exact h

set_option maxHeartbeats 1000000 in
theorem V102_main_arg18 : V102 m outs c main_arg18 = m ((c : Thread nD τ).loc main_arg18) :=
  ((V104_of m outs c main_arg18 (by decide)).trans <| V103_of m outs c main_arg18 (by decide)).symm.trans (V104_main_arg18 m outs c)
theorem b1_read (j : Fin 128) : (V103 m outs c main_v180 : S1x128.Idx → EReal) (ix2 0 j)
    = (m ((c : Thread nD τ).loc main_arg18) : S128.Idx → EReal) (ix1 j) := by
  have h := b1_after (V102 m outs c)
  rw [V102_main_arg18] at h
  exact (congrFun h (ix2 0 j)).trans (row_read _ _ j)

set_option maxHeartbeats 1000000 in
theorem V102_main_arg20 : V102 m outs c main_arg20 = m ((c : Thread nD τ).loc main_arg20) :=
  ((V104_of m outs c main_arg20 (by decide)).trans <| V103_of m outs c main_arg20 (by decide)).symm.trans (V104_main_arg20 m outs c)
theorem b2_read (j : Fin 64) : (V103 m outs c main_v181 : S1x64.Idx → EReal) (ix2 0 j)
    = (m ((c : Thread nD τ).loc main_arg20) : S64.Idx → EReal) (ix1 j) := by
  have h := b2_after (V102 m outs c)
  rw [V102_main_arg20] at h
  exact (congrFun h (ix2 0 j)).trans (row_read _ _ j)

set_option maxHeartbeats 1000000 in
theorem V102_main_arg22 : V102 m outs c main_arg22 = m ((c : Thread nD τ).loc main_arg22) :=
  ((V104_of m outs c main_arg22 (by decide)).trans <| V103_of m outs c main_arg22 (by decide)).symm.trans (V104_main_arg22 m outs c)
theorem b3_read (j : Fin 32) : (V103 m outs c main_v182 : S1x32.Idx → EReal) (ix2 0 j)
    = (m ((c : Thread nD τ).loc main_arg22) : S32.Idx → EReal) (ix1 j) := by
  have h := b3_after (V102 m outs c)
  rw [V102_main_arg22] at h
  exact (congrFun h (ix2 0 j)).trans (row_read _ _ j)

set_option maxHeartbeats 1000000 in
theorem V102_main_arg24 : V102 m outs c main_arg24 = m ((c : Thread nD τ).loc main_arg24) :=
  ((V104_of m outs c main_arg24 (by decide)).trans <| V103_of m outs c main_arg24 (by decide)).symm.trans (V104_main_arg24 m outs c)
theorem b4_read (j : Fin 1) : (V103 m outs c main_v183 : S1x1.Idx → EReal) (ix2 0 j)
    = (m ((c : Thread nD τ).loc main_arg24) : S1.Idx → EReal) (ix1 j) := by
  have h := b4_after (V102 m outs c)
  rw [V102_main_arg24] at h
  exact (congrFun h (ix2 0 j)).trans (row_read _ _ j)

end Cert.KernelIdeal.StageGather
end
-- ==== Proof.KI.StageDec.lean ====
/-
  The decoder on the reference's side, read row by row.

  The reference applies to the feature matrix z (one row per pair) three dense layers, each followed by tanh, and a
  last dense layer: row r of the result is
    (Σ_l h₃ l · W₄ l 0) + b₄ 0,  h₃ j = tanh ((Σ_l h₂ l · W₃ l j) + b₃ j),  h₂ j = tanh ((Σ_l h₁ l · W₂ l j) + b₂ j),
    h₁ j = tanh ((Σ_l z r l · W₁ l j) + b₁ j).
  A feature matrix that agrees with the reference's entry by entry gives the reference's result.
-/
import proofs.«414035_j83562883711810_2_alg».proof.Proof.ReadP
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

open scoped BigOperators

namespace Cert.ReferenceIdeal.StageDec

open Cert.ReferenceIdeal Cert.ReferenceIdeal.Read
open Idealize.ShloMosaic Idealize.ShloMosaic.ValueIdx

variable (x0 : S4000x4000.Idx → EReal) (x1 : S2000x2000.Idx → EReal) (x2 : S2000x4000.Idx → EReal) (x3 : S1000x2000.Idx → EReal) (x4 : S6000x6000.Idx → EReal) (x5 : S16384.Idx → BitVec 32) (x6 : S16384.Idx → BitVec 32) (x7 : S4000x256.Idx → EReal) (x8 : S256.Idx → EReal) (x9 : S256x256.Idx → EReal) (x10 : S256.Idx → EReal) (x11 : S2000x256.Idx → EReal) (x12 : S256.Idx → EReal) (x13 : S256x256.Idx → EReal) (x14 : S256.Idx → EReal) (x15 : S256x256.Idx → EReal) (x16 : S256.Idx → EReal) (x17 : S256x128.Idx → EReal) (x18 : S128.Idx → EReal) (x19 : S128x64.Idx → EReal) (x20 : S64.Idx → EReal) (x21 : S64x32.Idx → EReal) (x22 : S32.Idx → EReal) (x23 : S32x1.Idx → EReal) (x24 : S1.Idx → EReal)

/-- The first hidden layer at row r, unit j. -/
theorem h1_read (r : Fin 16384) (j : Fin 128) :
    val_main_v185 (F := Ideal) x0 x1 x2 x3 x4 x5 x6 x7 x8 x9 x10 x11 x12 x13 x14 x15 x16 x17 x18 (ix2 r j)
      = Ideal.tanh ((∑ k : Fin 256, val_main_v180 (F := Ideal) x0 x1 x2 x3 x4 x5 x6 x7 x8 x9 x10 x11 x12 x13 x14 x15 x16 (ix2 r k) * x17 (ix2 k j)) + x18 (ix1 j)) := by
  rw [val_main_v185_apply, val_main_v184_apply, val_main_v181_apply, val_main_v183_apply, val_main_v182_apply]
  have e1 : ∀ k, lidx_main_v181 (ix2 r j) k = ix2 r k := fun k => Shape.idx_ext₂ rfl rfl
  have e2 : ∀ k, ridx_main_v181 (ix2 r j) k = ix2 k j := fun k => Shape.idx_ext₂ rfl rfl
  have e3 : idx_main_v182 (idx_main_v183 (ix2 r j)) = ix1 j := funext fun a => match a with | ⟨0, _⟩ => rfl
  simp only [e1, e2, e3, Ideal.hostUnary_tanh_def, Ideal.addf_def]

/-- The second hidden layer at row r, unit j. -/
theorem h2_read (r : Fin 16384) (j : Fin 64) :
    val_main_v190 (F := Ideal) x0 x1 x2 x3 x4 x5 x6 x7 x8 x9 x10 x11 x12 x13 x14 x15 x16 x17 x18 x19 x20 (ix2 r j)
      = Ideal.tanh ((∑ k : Fin 128, val_main_v185 (F := Ideal) x0 x1 x2 x3 x4 x5 x6 x7 x8 x9 x10 x11 x12 x13 x14 x15 x16 x17 x18 (ix2 r k) * x19 (ix2 k j)) + x20 (ix1 j)) := by
  rw [val_main_v190_apply, val_main_v189_apply, val_main_v186_apply, val_main_v188_apply, val_main_v187_apply]
  have e1 : ∀ k, lidx_main_v186 (ix2 r j) k = ix2 r k := fun k => Shape.idx_ext₂ rfl rfl
  have e2 : ∀ k, ridx_main_v186 (ix2 r j) k = ix2 k j := fun k => Shape.idx_ext₂ rfl rfl
  have e3 : idx_main_v187 (idx_main_v188 (ix2 r j)) = ix1 j := funext fun a => match a with | ⟨0, _⟩ => rfl
  simp only [e1, e2, e3, Ideal.hostUnary_tanh_def, Ideal.addf_def]

/-- The third hidden layer at row r, unit j. -/
theorem h3_read (r : Fin 16384) (j : Fin 32) :
    val_main_v195 (F := Ideal) x0 x1 x2 x3 x4 x5 x6 x7 x8 x9 x10 x11 x12 x13 x14 x15 x16 x17 x18 x19 x20 x21 x22 (ix2 r j)
      = Ideal.tanh ((∑ k : Fin 64, val_main_v190 (F := Ideal) x0 x1 x2 x3 x4 x5 x6 x7 x8 x9 x10 x11 x12 x13 x14 x15 x16 x17 x18 x19 x20 (ix2 r k) * x21 (ix2 k j)) + x22 (ix1 j)) := by
  rw [val_main_v195_apply, val_main_v194_apply, val_main_v191_apply, val_main_v193_apply, val_main_v192_apply]
  have e1 : ∀ k, lidx_main_v191 (ix2 r j) k = ix2 r k := fun k => Shape.idx_ext₂ rfl rfl
  have e2 : ∀ k, ridx_main_v191 (ix2 r j) k = ix2 k j := fun k => Shape.idx_ext₂ rfl rfl
  have e3 : idx_main_v192 (idx_main_v193 (ix2 r j)) = ix1 j := funext fun a => match a with | ⟨0, _⟩ => rfl
  simp only [e1, e2, e3, Ideal.hostUnary_tanh_def, Ideal.addf_def]

/-- The result at row r. -/
theorem out_read (r : Fin 16384) :
    val_main_v199 (F := Ideal) x0 x1 x2 x3 x4 x5 x6 x7 x8 x9 x10 x11 x12 x13 x14 x15 x16 x17 x18 x19 x20 x21 x22 x23 x24 (ix2 r 0)
      = (∑ k : Fin 32, val_main_v195 (F := Ideal) x0 x1 x2 x3 x4 x5 x6 x7 x8 x9 x10 x11 x12 x13 x14 x15 x16 x17 x18 x19 x20 x21 x22 (ix2 r k) * x23 (ix2 k 0)) + x24 (ix1 0) := by
  rw [val_main_v199_apply, val_main_v196_apply, val_main_v198_apply, val_main_v197_apply]
  have e1 : ∀ k, lidx_main_v196 (ix2 r 0) k = ix2 r k := fun k => Shape.idx_ext₂ rfl rfl
  have e2 : ∀ k, ridx_main_v196 (ix2 r 0) k = ix2 k 0 := fun k => Shape.idx_ext₂ rfl rfl
  have e3 : idx_main_v197 (idx_main_v198 (ix2 r 0)) = ix1 0 := funext fun a => match a with | ⟨0, _⟩ => rfl
  simp only [e1, e2, e3, Ideal.addf_def]

/-- A feature matrix that agrees with the reference's gives the reference's result, row by row. -/
theorem dec_eq (z : S16384x256.Idx → EReal)
    (hz : ∀ (r : Fin 16384) (l : Fin 256), z (ix2 r l) = val_main_v180 (F := Ideal) x0 x1 x2 x3 x4 x5 x6 x7 x8 x9 x10 x11 x12 x13 x14 x15 x16 (ix2 r l)) (r : Fin 16384) :
    (∑ l : Fin 32, Ideal.tanh ((∑ l2 : Fin 64, Ideal.tanh ((∑ l1 : Fin 128,
        Ideal.tanh ((∑ l0 : Fin 256, z (ix2 r l0) * x17 (ix2 l0 l1)) + x18 (ix1 l1)) * x19 (ix2 l1 l2)) + x20 (ix1 l2))
          * x21 (ix2 l2 l)) + x22 (ix1 l)) * x23 (ix2 l 0)) + x24 (ix1 0)
      = val_main_v199 (F := Ideal) x0 x1 x2 x3 x4 x5 x6 x7 x8 x9 x10 x11 x12 x13 x14 x15 x16 x17 x18 x19 x20 x21 x22 x23 x24 (ix2 r 0) := by
  simp only [out_read, h3_read, h2_read, h1_read, hz]

/-- The same with the four weight matrices and the four bias rows given as arrays that agree with the launch
    arguments: the matrices as they are, the bias rows at row 0. -/
theorem dec_eq' (z : S16384x256.Idx → EReal) (W1 : S256x128.Idx → EReal) (W2 : S128x64.Idx → EReal)
    (W3 : S64x32.Idx → EReal) (W4 : S32x1.Idx → EReal) (B1 : S1x128.Idx → EReal) (B2 : S1x64.Idx → EReal)
    (B3 : S1x32.Idx → EReal) (B4 : S1x1.Idx → EReal)
    (e1 : W1 = x17) (e2 : W2 = x19) (e3 : W3 = x21) (e4 : W4 = x23)
    (f1 : ∀ j : Fin 128, B1 (ix2 0 j) = x18 (ix1 j)) (f2 : ∀ j : Fin 64, B2 (ix2 0 j) = x20 (ix1 j))
    (f3 : ∀ j : Fin 32, B3 (ix2 0 j) = x22 (ix1 j)) (f4 : ∀ j : Fin 1, B4 (ix2 0 j) = x24 (ix1 j))
    (hz : ∀ (r : Fin 16384) (l : Fin 256), z (ix2 r l) = val_main_v180 (F := Ideal) x0 x1 x2 x3 x4 x5 x6 x7 x8 x9 x10 x11 x12 x13 x14 x15 x16 (ix2 r l)) (r : Fin 16384) :
    (∑ l : Fin 32, Ideal.tanh ((∑ l2 : Fin 64, Ideal.tanh ((∑ l1 : Fin 128,
        Ideal.tanh ((∑ l0 : Fin 256, z (ix2 r l0) * W1 (ix2 l0 l1)) + B1 (ix2 0 l1)) * W2 (ix2 l1 l2)) + B2 (ix2 0 l2))
          * W3 (ix2 l2 l)) + B3 (ix2 0 l)) * W4 (ix2 l 0)) + B4 (ix2 0 0)
      = val_main_v199 (F := Ideal) x0 x1 x2 x3 x4 x5 x6 x7 x8 x9 x10 x11 x12 x13 x14 x15 x16 x17 x18 x19 x20 x21 x22 x23 x24 (ix2 r 0) := by
  subst e1 e2 e3 e4
  rw [f4 0]
  simp only [f1, f2, f3]
  exact dec_eq x0 x1 x2 x3 x4 x5 x6 x7 x8 x9 x10 x11 x12 x13 x14 x15 x16 W1 x18 W2 x20 W3 x22 W4 x24 z hz r

end Cert.ReferenceIdeal.StageDec
end
-- ==== Proof.KI.Stage16.lean ====
/-
  The end of the program: the decoder's result is the reference's.

  The embedding table agrees with the reference's on every row (the four summands do, by the earlier stages). Under
  the index ranges each take is the plain gather at its index vector, on both sides, and a gather reads the table's
  row named by the word clamped into the table: so the two takes, their product, and then the four dense layers
  agree entry by entry.
-/
import proofs.«414035_j83562883711810_2_alg».proof.Proof.KI.StageEmb
import proofs.«414035_j83562883711810_2_alg».proof.Proof.KI.StageGather
import proofs.«414035_j83562883711810_2_alg».proof.Proof.KI.StageDec
import proofs.«414035_j83562883711810_2_alg».proof.Proof.LibIndexRead

set_option maxRecDepth 16384

noncomputable section

open scoped BigOperators

namespace Cert.KernelIdeal.Stage16

open Cert.KernelIdeal Cert.KernelIdeal.Gen Cert.KernelIdeal.GenP
open Idealize.ShloMosaic Idealize.ShloMosaic.TcCoe Idealize.ShloMosaic.ValueIdx Idealize.SL.Sem
open Cert.ReferenceIdeal.Read Cert.Sage.IndexRead
open Cert.KernelIdeal.StageEmb (o155 o159 o162 o165 emb emb_read)
open Cert.KernelIdeal.StageGather (a5 a6 y6 take)

variable (m : (ℓ : Loc nD τ sig) → Buf (Elt Ideal) ℓ) (outs : GenP.Outs (F := Ideal)) (c : Dev nD)

/-- The launch arguments on core `c`. -/
abbrev ar0 : S4000x4000.Idx → EReal := m ((c : Thread nD τ).loc main_arg0)
abbrev ar1 : S2000x2000.Idx → EReal := m ((c : Thread nD τ).loc main_arg1)
abbrev ar2 : S2000x4000.Idx → EReal := m ((c : Thread nD τ).loc main_arg2)
abbrev ar3 : S1000x2000.Idx → EReal := m ((c : Thread nD τ).loc main_arg3)
abbrev ar4 : S6000x6000.Idx → EReal := m ((c : Thread nD τ).loc main_arg4)
abbrev ar5 : S16384.Idx → BitVec 32 := m ((c : Thread nD τ).loc main_arg5)
abbrev ar6 : S16384.Idx → BitVec 32 := m ((c : Thread nD τ).loc main_arg6)
abbrev ar7 : S4000x256.Idx → EReal := m ((c : Thread nD τ).loc main_arg7)
abbrev ar8 : S256.Idx → EReal := m ((c : Thread nD τ).loc main_arg8)
abbrev ar9 : S256x256.Idx → EReal := m ((c : Thread nD τ).loc main_arg9)
abbrev ar10 : S256.Idx → EReal := m ((c : Thread nD τ).loc main_arg10)
abbrev ar11 : S2000x256.Idx → EReal := m ((c : Thread nD τ).loc main_arg11)
abbrev ar12 : S256.Idx → EReal := m ((c : Thread nD τ).loc main_arg12)
abbrev ar13 : S256x256.Idx → EReal := m ((c : Thread nD τ).loc main_arg13)
abbrev ar14 : S256.Idx → EReal := m ((c : Thread nD τ).loc main_arg14)
abbrev ar15 : S256x256.Idx → EReal := m ((c : Thread nD τ).loc main_arg15)
abbrev ar16 : S256.Idx → EReal := m ((c : Thread nD τ).loc main_arg16)
abbrev ar17 : S256x128.Idx → EReal := m ((c : Thread nD τ).loc main_arg17)
abbrev ar18 : S128.Idx → EReal := m ((c : Thread nD τ).loc main_arg18)
abbrev ar19 : S128x64.Idx → EReal := m ((c : Thread nD τ).loc main_arg19)
abbrev ar20 : S64.Idx → EReal := m ((c : Thread nD τ).loc main_arg20)
abbrev ar21 : S64x32.Idx → EReal := m ((c : Thread nD τ).loc main_arg21)
abbrev ar22 : S32.Idx → EReal := m ((c : Thread nD τ).loc main_arg22)
abbrev ar23 : S32x1.Idx → EReal := m ((c : Thread nD τ).loc main_arg23)
abbrev ar24 : S1.Idx → EReal := m ((c : Thread nD τ).loc main_arg24)

/-- The decoder's output array and its nine inputs at its entry. -/
abbrev o184 : S16384x1.Idx → EReal := outs 104 main_v184 c
abbrev dX : S16384x256.Idx → EReal := V103 m outs c main_v175
abbrev dW1 : S256x128.Idx → EReal := V103 m outs c main_v176
abbrev dW2 : S128x64.Idx → EReal := V103 m outs c main_v177
abbrev dW3 : S64x32.Idx → EReal := V103 m outs c main_v178
abbrev dW4 : S32x1.Idx → EReal := V103 m outs c main_v179
abbrev dB1 : S1x128.Idx → EReal := V103 m outs c main_v180
abbrev dB2 : S1x64.Idx → EReal := V103 m outs c main_v181
abbrev dB3 : S1x32.Idx → EReal := V103 m outs c main_v182
abbrev dB4 : S1x1.Idx → EReal := V103 m outs c main_v183

section
variable
  (OUT_12 : ∀ (r : Fin 6000) (j : Fin 256), o155 outs c (ix2 ⟨r.val, by omega⟩ j) = val_main_v129 (F := Ideal) (ar0 m c) (ar1 m c) (ar2 m c) (ar3 m c) (ar7 m c) (ar8 m c) (ar9 m c) (ar10 m c) (ar11 m c) (ar12 m c) (ar13 m c) (ar14 m c) (ar15 m c) (ar16 m c) (ix2 r j))
  (RC1 : ∀ (r : Fin 6000) (j : Fin 256), o159 outs c (ix2 ⟨r.val, by omega⟩ j) = val_main_v139 (F := Ideal) (ar0 m c) (ar1 m c) (ar2 m c) (ar3 m c) (ar4 m c) (ar7 m c) (ar8 m c) (ar9 m c) (ar10 m c) (ar11 m c) (ar12 m c) (ar13 m c) (ar14 m c) (ar15 m c) (ar16 m c) (ix2 r j))
  (RC2 : ∀ (r : Fin 6000) (j : Fin 256), o162 outs c (ix2 ⟨r.val, by omega⟩ j) = val_main_v150 (F := Ideal) (ar0 m c) (ar1 m c) (ar2 m c) (ar3 m c) (ar4 m c) (ar7 m c) (ar8 m c) (ar9 m c) (ar10 m c) (ar11 m c) (ar12 m c) (ar13 m c) (ar14 m c) (ar15 m c) (ar16 m c) (ix2 r j))
  (RC3 : ∀ (r : Fin 6000) (j : Fin 256), o165 outs c (ix2 ⟨r.val, by omega⟩ j) = val_main_v161 (F := Ideal) (ar0 m c) (ar1 m c) (ar2 m c) (ar3 m c) (ar4 m c) (ar7 m c) (ar8 m c) (ar9 m c) (ar10 m c) (ar11 m c) (ar12 m c) (ar13 m c) (ar14 m c) (ar15 m c) (ar16 m c) (ix2 r j))
include OUT_12 RC1 RC2 RC3

/-- The embedding table is the reference's, entry by entry. -/
theorem emb_agree (r : Fin 6000) (j : Fin 256) :
    emb m outs c (ix2 r j) = val_main_v163 (F := Ideal) (ar0 m c) (ar1 m c) (ar2 m c) (ar3 m c) (ar4 m c) (ar7 m c) (ar8 m c) (ar9 m c) (ar10 m c) (ar11 m c) (ar12 m c) (ar13 m c) (ar14 m c) (ar15 m c) (ar16 m c) (ix2 r j) := by
  rw [emb_read, OUT_12, RC1, RC2, RC3, val_main_v163_apply, val_main_v162_apply, val_main_v151_apply, val_main_v140_apply,
    val_main_call11_v0_apply, val_main_call11_cst_apply]
  simp only [Ideal.maximumf_def, Ideal.addf_def, Ideal.ofBits_def, Ideal.ofBits_zero_f32]

end

/-- A word column made from a vector reads the vector at the row. -/
theorem word_k (x : S16384.Idx → BitVec 32) (e : Fin 16384) :
    broadcastInDim S16384x1 ![0] bcast_S16384_S16384x1_0 x (ix2 e 0) = x (ix1 e) :=
  broadcastInDim_apply _ bcast_S16384_S16384x1_0 x _ _ (fun a => match a with
    | ⟨0, _⟩ => by show e.val = if (16384 : Nat) = 1 then 0 else e.val; rw [if_neg (by decide)])

/-- The reference's first index column, on a vector the wrap leaves alone. -/
theorem word_r5 (x5 : S16384.Idx → BitVec 32)
    (hw : ∀ i, Scalar.select (IntOp.cmpi .slt (x5 i) 0#32) (IntOp.addi (x5 i) 6000#32) (x5 i) = x5 i) (e : Fin 16384) :
    val_main_v169 (F := Ideal) x5 (ix2 e 0) = x5 (ix1 e) := by
  rw [val_main_v169_apply, val_main_v168_apply, val_main_v165_apply, val_main_v167_apply, val_main_v164_apply,
    val_main_v166_apply, val_main_c_apply, val_main_c_42_apply]
  exact (hw _).trans (congrArg x5 (funext fun a => match a with | ⟨0, _⟩ => rfl))

/-- The reference's second index column, on a vector whose shift by 4000 the wrap leaves alone. -/
theorem word_r6 (x6 : S16384.Idx → BitVec 32)
    (hw : ∀ i, Scalar.select (IntOp.cmpi .slt (IntOp.addi 4000#32 (x6 i)) 0#32)
      (IntOp.addi (IntOp.addi 4000#32 (x6 i)) 6000#32) (IntOp.addi 4000#32 (x6 i)) = IntOp.addi 4000#32 (x6 i))
    (e : Fin 16384) :
    val_main_v178 (F := Ideal) x6 (ix2 e 0) = IntOp.addi 4000#32 (x6 (ix1 e)) := by
  rw [val_main_v178_apply, val_main_v177_apply, val_main_v174_apply, val_main_v176_apply, val_main_v172_apply,
    val_main_v173_apply, val_main_v175_apply, val_main_v171_apply, val_main_c_43_apply, val_main_c_44_apply,
    val_main_c_45_apply]
  exact (hw _).trans (congrArg (fun i => IntOp.addi 4000#32 (x6 i)) (funext fun a => match a with | ⟨0, _⟩ => rfl))

section
variable
  (OUT_12 : ∀ (r : Fin 6000) (j : Fin 256), o155 outs c (ix2 ⟨r.val, by omega⟩ j) = val_main_v129 (F := Ideal) (ar0 m c) (ar1 m c) (ar2 m c) (ar3 m c) (ar7 m c) (ar8 m c) (ar9 m c) (ar10 m c) (ar11 m c) (ar12 m c) (ar13 m c) (ar14 m c) (ar15 m c) (ar16 m c) (ix2 r j))
  (RC1 : ∀ (r : Fin 6000) (j : Fin 256), o159 outs c (ix2 ⟨r.val, by omega⟩ j) = val_main_v139 (F := Ideal) (ar0 m c) (ar1 m c) (ar2 m c) (ar3 m c) (ar4 m c) (ar7 m c) (ar8 m c) (ar9 m c) (ar10 m c) (ar11 m c) (ar12 m c) (ar13 m c) (ar14 m c) (ar15 m c) (ar16 m c) (ix2 r j))
  (RC2 : ∀ (r : Fin 6000) (j : Fin 256), o162 outs c (ix2 ⟨r.val, by omega⟩ j) = val_main_v150 (F := Ideal) (ar0 m c) (ar1 m c) (ar2 m c) (ar3 m c) (ar4 m c) (ar7 m c) (ar8 m c) (ar9 m c) (ar10 m c) (ar11 m c) (ar12 m c) (ar13 m c) (ar14 m c) (ar15 m c) (ar16 m c) (ix2 r j))
  (RC3 : ∀ (r : Fin 6000) (j : Fin 256), o165 outs c (ix2 ⟨r.val, by omega⟩ j) = val_main_v161 (F := Ideal) (ar0 m c) (ar1 m c) (ar2 m c) (ar3 m c) (ar4 m c) (ar7 m c) (ar8 m c) (ar9 m c) (ar10 m c) (ar11 m c) (ar12 m c) (ar13 m c) (ar14 m c) (ar15 m c) (ar16 m c) (ix2 r j))
  (hT5 : take (emb m outs c) (a5 m c) = Host.gather gather_S6000x256_S16384x1_S16384x256_1_0_n_n_0_1_1256 (emb m outs c)
    (broadcastInDim S16384x1 ![0] bcast_S16384_S16384x1_0 (a5 m c)))
  (hT6 : take (emb m outs c) (y6 m c) = Host.gather gather_S6000x256_S16384x1_S16384x256_1_0_n_n_0_1_1256 (emb m outs c)
    (broadcastInDim S16384x1 ![0] bcast_S16384_S16384x1_0 (y6 m c)))
  (hw5 : ∀ i : S16384.Idx, Scalar.select (IntOp.cmpi .slt (a5 m c i) 0#32) (IntOp.addi (a5 m c i) 6000#32) (a5 m c i) = a5 m c i)
  (hw6 : ∀ i : S16384.Idx, Scalar.select (IntOp.cmpi .slt (IntOp.addi 4000#32 (a6 m c i)) 0#32)
    (IntOp.addi (IntOp.addi 4000#32 (a6 m c i)) 6000#32) (IntOp.addi 4000#32 (a6 m c i)) = IntOp.addi 4000#32 (a6 m c i))
include OUT_12 RC1 RC2 RC3 hT5 hT6 hw5 hw6

/-- The first take is the reference's first gather. -/
theorem take5_agree (e : Fin 16384) (q : Fin 256) :
    take (emb m outs c) (a5 m c) (ix2 e q) = val_main_v170 (F := Ideal) (ar0 m c) (ar1 m c) (ar2 m c) (ar3 m c) (ar4 m c) (ar5 m c) (ar7 m c) (ar8 m c) (ar9 m c) (ar10 m c) (ar11 m c) (ar12 m c) (ar13 m c) (ar14 m c) (ar15 m c) (ar16 m c) (ix2 e q) := by
  rw [hT5, gather_rows_clamp _ rfl rfl rfl rfl rfl rfl rfl _ _ e q (by decide)]
  unfold val_main_v170
  rw [gather_rows_clamp _ rfl rfl rfl rfl rfl rfl rfl _ _ e q (by decide)]
  refine (congrArg (fun ρ => emb m outs c (ix2 ρ q)) (Fin.ext ?_)).trans (emb_agree m outs c OUT_12 RC1 RC2 RC3 _ q)
  show min _ _ = min _ _
  rw [word_k, word_r5 _ hw5]

/-- The second take is the reference's second gather. -/
theorem take6_agree (e : Fin 16384) (q : Fin 256) :
    take (emb m outs c) (y6 m c) (ix2 e q) = val_main_v179 (F := Ideal) (ar0 m c) (ar1 m c) (ar2 m c) (ar3 m c) (ar4 m c) (ar6 m c) (ar7 m c) (ar8 m c) (ar9 m c) (ar10 m c) (ar11 m c) (ar12 m c) (ar13 m c) (ar14 m c) (ar15 m c) (ar16 m c) (ix2 e q) := by
  rw [hT6, gather_rows_clamp _ rfl rfl rfl rfl rfl rfl rfl _ _ e q (by decide)]
  unfold val_main_v179
  rw [gather_rows_clamp _ rfl rfl rfl rfl rfl rfl rfl _ _ e q (by decide)]
  refine (congrArg (fun ρ => emb m outs c (ix2 ρ q)) (Fin.ext ?_)).trans (emb_agree m outs c OUT_12 RC1 RC2 RC3 _ q)
  show min _ _ = min _ _
  rw [word_k, word_r6 _ hw6]
  rfl

/-- The decoder's feature matrix is the reference's. -/
theorem z_agree (e : Fin 16384) (q : Fin 256) :
    dX m outs c (ix2 e q) = val_main_v180 (F := Ideal) (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c) (ar16 m c) (ix2 e q) := by
  refine (StageGather.x_read m outs c e q).trans ?_
  rw [take5_agree m outs c OUT_12 RC1 RC2 RC3 hT5 hT6 hw5 hw6, take6_agree m outs c OUT_12 RC1 RC2 RC3 hT5 hT6 hw5 hw6,
    val_main_v180_apply, Ideal.mulf_def]

/-- The kernel's result is the reference's. -/
theorem FINAL
    (R16 : ∀ r : Fin 16384, o184 outs c (ix2 r 0)
      = (∑ l : Fin 32, Ideal.tanh ((∑ l2 : Fin 64, Ideal.tanh ((∑ l1 : Fin 128,
          Ideal.tanh ((∑ l0 : Fin 256, dX m outs c (ix2 r l0) * dW1 m outs c (ix2 l0 l1)) + dB1 m outs c (ix2 0 l1))
            * dW2 m outs c (ix2 l1 l2)) + dB2 m outs c (ix2 0 l2)) * dW3 m outs c (ix2 l2 l)) + dB3 m outs c (ix2 0 l))
              * dW4 m outs c (ix2 l 0)) + dB4 m outs c (ix2 0 0)) :
    o184 outs c = val_main_v199 (F := Ideal) (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c) (ar16 m c) (ar17 m c) (ar18 m c) (ar19 m c) (ar20 m c) (ar21 m c) (ar22 m c) (ar23 m c) (ar24 m c) := by
  funext i
  obtain ⟨r, z, rfl⟩ : ∃ r z, i = ix2 r z := ⟨i 0, i 1, eq_ix2 i⟩
  obtain rfl : z = 0 := Subsingleton.elim _ _
  rw [R16 r]
  exact Cert.ReferenceIdeal.StageDec.dec_eq' (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c) (ar16 m c) (ar17 m c) (ar18 m c) (ar19 m c) (ar20 m c) (ar21 m c) (ar22 m c) (ar23 m c) (ar24 m c) (dX m outs c) (dW1 m outs c) (dW2 m outs c) (dW3 m outs c)
    (dW4 m outs c) (dB1 m outs c) (dB2 m outs c) (dB3 m outs c) (dB4 m outs c)
    (StageGather.w1_eq m outs c) (StageGather.w2_eq m outs c) (StageGather.w3_eq m outs c) (StageGather.w4_eq m outs c)
    (StageGather.b1_read m outs c) (StageGather.b2_read m outs c) (StageGather.b3_read m outs c) (StageGather.b4_read m outs c)
    (z_agree m outs c OUT_12 RC1 RC2 RC3 hT5 hT6 hw5 hw6) r

end

end Cert.KernelIdeal.Stage16
end
-- ==== Proof.KI.PreFacts.lean ====
/-
  The precondition, decoded at the two integer inputs.

  The precondition is an `and` of one all-reduction per input. The last two say: every word of the first index
  vector, read signed, lies in [0, 6000), and every word of the second in [-4000, 2000). From the second, the sum
  4000 + d does not wrap and lies in [0, 6000) too. A word x with 0 ≤ x < 6000 is left alone by the wrap
  "x < 0 ? x + 6000 : x", and passes the test "0 ≤ x ∧ x ≤ 5999".
-/
import proofs.«414035_j83562883711810_2_alg».proof.Defs
import Idealize.ShloMosaic.Lib.ReduceAll
import Idealize.ShloMosaic.Lib.Affine

noncomputable section

namespace Cert.Proof.PreFacts

open Idealize.ShloMosaic Idealize.SL.Sem

/-! ## Words -/

theorem toInt_eq_toNat {x : BitVec 32} (h0 : 0 ≤ x.toInt) : x.toInt = (x.toNat : Int) :=
  BitVec.toInt_eq_toNat_of_lt (BitVec.toInt_pos_iff.mp h0)

theorem toNat_lt {x : BitVec 32} (h0 : 0 ≤ x.toInt) (h1 : x.toInt < 6000) : x.toNat < 6000 := by
  rw [toInt_eq_toNat h0] at h1; omega

/-- A word in [0, 6000) names a row of a 6000-row table. -/
theorem row_of {x : BitVec 32} (h0 : 0 ≤ x.toInt) (h1 : x.toInt < 6000) : ∃ n : Fin 6000, x.toInt = (n.val : Int) :=
  ⟨⟨x.toNat, toNat_lt h0 h1⟩, toInt_eq_toNat h0⟩

/-- The wrap of a negative index leaves a nonnegative word alone. -/
theorem wrap_eq {x : BitVec 32} (h0 : 0 ≤ x.toInt) :
    Scalar.select (IntOp.cmpi .slt x 0#32) (IntOp.addi x 6000#32) x = x := by
  have hn : ¬ IntOp.cmpi .slt x 0#32 = 1#1 := by
    rw [IntOp.cmpi_slt, show (0#32 : BitVec 32).toInt = 0 from by decide]; omega
  exact if_neg hn

/-- A word in [0, 6000) passes the range test. -/
theorem inrange_eq {x : BitVec 32} (h0 : 0 ≤ x.toInt) (h1 : x.toInt < 6000) :
    IntOp.andi (IntOp.cmpi .sge x 0#32) (IntOp.cmpi .sle x 5999#32) = 1#1 := by
  rw [IntOp.andi_eq_one, IntOp.cmpi_sge, IntOp.cmpi_sle, show (0#32 : BitVec 32).toInt = 0 from by decide,
    show (5999#32 : BitVec 32).toInt = 5999 from by decide]
  omega

/-- 4000 + d does not wrap when -4000 ≤ d < 2000. -/
theorem add4000_toInt {d : BitVec 32} (h0 : -4000 ≤ d.toInt) (h1 : d.toInt < 2000) :
    (IntOp.addi 4000#32 d).toInt = 4000 + d.toInt := by
  show (4000#32 + d).toInt = 4000 + d.toInt
  rw [BitVec.toInt_add, show (4000#32 : BitVec 32).toInt = 4000 from by decide]
  have := BitVec.toInt_lt (x := d)
  have := BitVec.le_toInt (x := d)
  simp only [Int.bmod]
  omega

/-! ## The precondition's last two conjuncts -/

instance : Subsingleton Cert.Pre_finite_inputs.S_.Idx := ⟨fun a b => funext fun d => d.elim0⟩

section Decode
variable [Cert.Pre_finite_inputs.Facts]
open Cert.Pre_finite_inputs

/-- The last part of the chain: the running conjunction, the first vector's test vector, and the second vector. -/
theorem part7_decode (arg6 : IVec S16384 32) (v113 : IVec S_ 1) (v118 : IVec S16384 1) (c46 : IVec S_ 1) (j : S_.Idx)
    (e : fn_part7 (F := Ideal) arg6 v113 v118 c46 j = 1#1) (i : S16384.Idx) :
    v118 i = 1#1 ∧ -4000 ≤ (arg6 i).toInt ∧ (arg6 i).toInt < 2000 := by
  simp only [fn_part7, andi, IntOp.andi_eq_one] at e
  obtain ⟨⟨-, h119⟩, h126⟩ := e
  have a := Host.reduce_andi_all _ _ _ _ j h119 i
  have b := Host.reduce_andi_all _ _ _ _ j h126 i
  simp only [andi, cmpi, broadcastInDim, constantI, IntOp.andi_eq_one, IntOp.cmpi_sge, IntOp.cmpi_slt,
    show (4294963296#32 : BitVec 32).toInt = -4000 from by decide,
    show (2000#32 : BitVec 32).toInt = 2000 from by decide] at b
  exact ⟨a, b⟩

/-- The part before it makes the first vector's test vector. -/
theorem part6_decode (arg5 arg6 : IVec S16384 32) (arg23 : FVec Ideal S32x1 .f32) (arg24 : FVec Ideal S1 .f32)
    (v98 : IVec S_ 1) (v101 : IVec S32 1) (c39 : IVec S_ 1) (j : S_.Idx)
    (e : fn_part6 (F := Ideal) arg5 arg6 arg23 arg24 v98 v101 c39 j = 1#1) (i : S16384.Idx) :
    (0 ≤ (arg5 i).toInt ∧ (arg5 i).toInt < 6000) ∧ -4000 ≤ (arg6 i).toInt ∧ (arg6 i).toInt < 2000 := by
  obtain ⟨a, b⟩ := part7_decode _ _ _ _ j e i
  simp only [andi, cmpi, broadcastInDim, constantI, IntOp.andi_eq_one, IntOp.cmpi_sge, IntOp.cmpi_slt,
    show (0#32 : BitVec 32).toInt = 0 from by decide,
    show (6000#32 : BitVec 32).toInt = 6000 from by decide] at a
  exact ⟨a, b⟩

end Decode

/-! ## At the launch memory -/

section Launch
variable [Cert.Pre_finite_inputs.Facts]
variable (m : (ℓ : Loc Cert.KernelIdeal.nD Cert.KernelIdeal.τ Cert.KernelIdeal.sig) → Buf (Elt Ideal) ℓ)

/-- The first index vector on core `c`. -/
abbrev rna (c : Dev Cert.KernelIdeal.nD) : IVec Cert.KernelIdeal.S16384 32 :=
  m ((c.tc : Thread Cert.KernelIdeal.nD Cert.KernelIdeal.τ).loc Cert.KernelIdeal.main_arg5)
/-- The second index vector on core `c`. -/
abbrev dis (c : Dev Cert.KernelIdeal.nD) : IVec Cert.KernelIdeal.S16384 32 :=
  m ((c.tc : Thread Cert.KernelIdeal.nD Cert.KernelIdeal.τ).loc Cert.KernelIdeal.main_arg6)
/-- The second index vector shifted by 4000, at an entry. -/
abbrev disY (c : Dev Cert.KernelIdeal.nD) (i : Cert.KernelIdeal.S16384.Idx) : BitVec 32 := IntOp.addi 4000#32 (dis m c i)

theorem ranges (h : Cert.Pre_KernelIdeal m) (c : Dev Cert.KernelIdeal.nD) (i : Cert.KernelIdeal.S16384.Idx) :
    (0 ≤ (rna m c i).toInt ∧ (rna m c i).toInt < 6000) ∧ -4000 ≤ (dis m c i).toInt ∧ (dis m c i).toInt < 2000 :=
  part6_decode _ _ _ _ _ _ _ (fun a => a.elim0) (congrFun (h c) (fun a => a.elim0)) i

theorem rna_range (h : Cert.Pre_KernelIdeal m) (c : Dev Cert.KernelIdeal.nD) (i : Cert.KernelIdeal.S16384.Idx) :
    0 ≤ (rna m c i).toInt ∧ (rna m c i).toInt < 6000 := (ranges m h c i).1

theorem dis_range (h : Cert.Pre_KernelIdeal m) (c : Dev Cert.KernelIdeal.nD) (i : Cert.KernelIdeal.S16384.Idx) :
    -4000 ≤ (dis m c i).toInt ∧ (dis m c i).toInt < 2000 := (ranges m h c i).2

theorem disY_range (h : Cert.Pre_KernelIdeal m) (c : Dev Cert.KernelIdeal.nD) (i : Cert.KernelIdeal.S16384.Idx) :
    0 ≤ (disY m c i).toInt ∧ (disY m c i).toInt < 6000 := by
  obtain ⟨h0, h1⟩ := dis_range m h c i
  rw [add4000_toInt h0 h1]; omega

theorem rna_wrap (h : Cert.Pre_KernelIdeal m) (c : Dev Cert.KernelIdeal.nD) (i : Cert.KernelIdeal.S16384.Idx) :
    Scalar.select (IntOp.cmpi .slt (rna m c i) 0#32) (IntOp.addi (rna m c i) 6000#32) (rna m c i) = rna m c i :=
  wrap_eq (rna_range m h c i).1

theorem rna_inrange (h : Cert.Pre_KernelIdeal m) (c : Dev Cert.KernelIdeal.nD) (i : Cert.KernelIdeal.S16384.Idx) :
    IntOp.andi (IntOp.cmpi .sge (rna m c i) 0#32) (IntOp.cmpi .sle (rna m c i) 5999#32) = 1#1 :=
  inrange_eq (rna_range m h c i).1 (rna_range m h c i).2

theorem rna_row (h : Cert.Pre_KernelIdeal m) (c : Dev Cert.KernelIdeal.nD) (i : Cert.KernelIdeal.S16384.Idx) :
    ∃ n : Fin 6000, (rna m c i).toInt = (n.val : Int) := row_of (rna_range m h c i).1 (rna_range m h c i).2

theorem disY_wrap (h : Cert.Pre_KernelIdeal m) (c : Dev Cert.KernelIdeal.nD) (i : Cert.KernelIdeal.S16384.Idx) :
    Scalar.select (IntOp.cmpi .slt (disY m c i) 0#32) (IntOp.addi (disY m c i) 6000#32) (disY m c i) = disY m c i :=
  wrap_eq (disY_range m h c i).1

theorem disY_inrange (h : Cert.Pre_KernelIdeal m) (c : Dev Cert.KernelIdeal.nD) (i : Cert.KernelIdeal.S16384.Idx) :
    IntOp.andi (IntOp.cmpi .sge (disY m c i) 0#32) (IntOp.cmpi .sle (disY m c i) 5999#32) = 1#1 :=
  inrange_eq (disY_range m h c i).1 (disY_range m h c i).2

theorem disY_row (h : Cert.Pre_KernelIdeal m) (c : Dev Cert.KernelIdeal.nD) (i : Cert.KernelIdeal.S16384.Idx) :
    ∃ n : Fin 6000, (disY m c i).toInt = (n.val : Int) := row_of (disY_range m h c i).1 (disY_range m h c i).2

end Launch

end Cert.Proof.PreFacts

end
-- ==== Proof.KI.TakeFacts.lean ====
/-
  The guarded take, read under the precondition.

  The take of rows of a 6000-row table wraps a negative index by 6000, tests the wrapped index against [0, 5999],
  gathers (the gather clamps), and keeps the gathered row where the test passed, a fill value elsewhere. On an index
  vector whose words all lie in [0, 6000) the wrap changes nothing and the test passes everywhere: the take is the
  plain gather at the index vector. The reduction of the test along its unit axis is an `and` of ones.
-/
import proofs.«414035_j83562883711810_2_alg».proof.Proof.KI.PreFacts
import Idealize.ShloMosaic.PureOps.Reduce

noncomputable section

namespace Cert.Proof.TakeFacts

open Idealize.ShloMosaic Idealize.SL.Sem
open Cert.KernelIdeal (S_ S1 S1x1 S16384 S16384x1 S16384x256 S6000x256)
open Cert.Proof.PreFacts

/-! ## An all-reduction of ones -/

theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (by simp), show IntOp.andi (1#1 : BitVec 1) 1#1 = 1#1 from by decide]
    exact foldl_andi_ones f l (fun n hn => h n (by simp [hn]))

/-- A reduction by `and` of a vector of ones, from one, is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ (fun n _ => hx n)

/-! ## The take, on an index vector whose words lie in [0, 6000) -/

section Take
variable (hb0 : S_.BroadcastsInDim S16384 ![]) (hb5 : S16384.BroadcastsInDim S16384x1 ![0])
  (hb6 : S_.BroadcastsInDim S16384x1 ![]) (hb8 : S1.BroadcastsInDim S1x1 ![1]) (hb9 : S1x1.BroadcastsInDim S16384x1 ![0, 1])
  (hr : S16384x1.ReducesTo [1] S16384) (h0 : 0 < S_.numel) (hb14 : S16384.BroadcastsInDim S16384x256 ![0])

/-- The wrap "x < 0 ? x + 6000 : x" is the identity on a vector of nonnegative words. -/
theorem wrap_vec (x : IVec S16384 32) (hx : ∀ i, 0 ≤ (x i).toInt) :
    select (cmpi .slt x (broadcastInDim S16384 ![] hb0 (constantI S_ 32 0#32)))
      (addi x (broadcastInDim S16384 ![] hb0 (constantI S_ 32 6000#32))) x = x := by
  funext i
  exact wrap_eq (hx i)

/-- The range test "0 ≤ x ∧ x ≤ 5999", reduced along the unit axis, is one at every entry. -/
theorem inrange_vec (x : IVec S16384 32) (hx : ∀ i, 0 ≤ (x i).toInt ∧ (x i).toInt < 6000) :
    Host.reduce IntOp.andi
      (andi (cmpi .sge (broadcastInDim S16384x1 ![0] hb5 x) (broadcastInDim S16384x1 ![] hb6 (constantI S_ 32 0#32)))
        (cmpi .sle (broadcastInDim S16384x1 ![0] hb5 x)
          (broadcastInDim S16384x1 ![0, 1] hb9 (broadcastInDim S1x1 ![1] hb8 (constantI S1 32 5999#32)))))
      (constantI S_ 1 1#1) hr h0 = fun _ => 1#1 := by
  funext j
  refine reduce_andi_ones _ _ hr h0 (fun k => ?_) (fun _ => rfl) j
  simp only [andi, cmpi, broadcastInDim, constantI]
  exact inrange_eq (hx _).1 (hx _).2

/-- The guarded take is the plain gather at the index vector itself. -/
theorem take_eq {α : Type} (G : GatherDims S6000x256 S16384x1 S16384x256) (emb : S6000x256.Idx → α) (z : S16384x256.Idx → α)
    (x : IVec S16384 32) (hx : ∀ i, 0 ≤ (x i).toInt ∧ (x i).toInt < 6000) :
    select
      (broadcastInDim S16384x256 ![0] hb14
        (Host.reduce IntOp.andi
          (andi
            (cmpi .sge
              (broadcastInDim S16384x1 ![0] hb5
                (select (cmpi .slt x (broadcastInDim S16384 ![] hb0 (constantI S_ 32 0#32)))
                  (addi x (broadcastInDim S16384 ![] hb0 (constantI S_ 32 6000#32))) x))
              (broadcastInDim S16384x1 ![] hb6 (constantI S_ 32 0#32)))
            (cmpi .sle
              (broadcastInDim S16384x1 ![0] hb5
                (select (cmpi .slt x (broadcastInDim S16384 ![] hb0 (constantI S_ 32 0#32)))
                  (addi x (broadcastInDim S16384 ![] hb0 (constantI S_ 32 6000#32))) x))
              (broadcastInDim S16384x1 ![0, 1] hb9 (broadcastInDim S1x1 ![1] hb8 (constantI S1 32 5999#32)))))
          (constantI S_ 1 1#1) hr h0))
      (Host.gather G emb
        (broadcastInDim S16384x1 ![0] hb5
          (select (cmpi .slt x (broadcastInDim S16384 ![] hb0 (constantI S_ 32 0#32)))
            (addi x (broadcastInDim S16384 ![] hb0 (constantI S_ 32 6000#32))) x)))
      z
    = Host.gather G emb (broadcastInDim S16384x1 ![0] hb5 x) := by
  rw [wrap_vec hb0 x (fun i => (hx i).1), inrange_vec hb5 hb6 hb8 hb9 hr h0 x hx]
  funext i
  show Scalar.select 1#1 (Host.gather G emb (broadcastInDim S16384x1 ![0] hb5 x) i) (z i) = _
  exact if_pos rfl

/-- The unguarded take, wrap included, is the plain gather at the index vector itself. -/
theorem ref_take_eq {α : Type} (G : GatherDims S6000x256 S16384x1 S16384x256) (emb : S6000x256.Idx → α)
    (x : IVec S16384 32) (hx : ∀ i, 0 ≤ (x i).toInt) :
    Host.gather G emb
      (broadcastInDim S16384x1 ![0] hb5
        (select (cmpi .slt x (broadcastInDim S16384 ![] hb0 (constantI S_ 32 0#32)))
          (addi x (broadcastInDim S16384 ![] hb0 (constantI S_ 32 6000#32))) x))
    = Host.gather G emb (broadcastInDim S16384x1 ![0] hb5 x) := by
  rw [wrap_vec hb0 x hx]

end Take

/-! ## At the launch memory -/

section Launch
variable [Cert.Pre_finite_inputs.Facts]
variable (m : (ℓ : Loc Cert.KernelIdeal.nD Cert.KernelIdeal.τ Cert.KernelIdeal.sig) → Buf (Elt Ideal) ℓ)

/-- The second index vector shifted by 4000, as a vector. -/
abbrev disV (hb0 : S_.BroadcastsInDim S16384 ![]) (c : Dev Cert.KernelIdeal.nD) : IVec S16384 32 :=
  addi (broadcastInDim S16384 ![] hb0 (constantI S_ 32 4000#32)) (dis m c)

theorem rna_hx (h : Cert.Pre_KernelIdeal m) (c : Dev Cert.KernelIdeal.nD) :
    ∀ i, 0 ≤ (rna m c i).toInt ∧ (rna m c i).toInt < 6000 := rna_range m h c

theorem disV_hx (hb0 : S_.BroadcastsInDim S16384 ![]) (h : Cert.Pre_KernelIdeal m) (c : Dev Cert.KernelIdeal.nD) :
    ∀ i, 0 ≤ (disV m hb0 c i).toInt ∧ (disV m hb0 c i).toInt < 6000 := fun i => disY_range m h c i

end Launch

/-! ## The program's two takes -/

section Kernel
variable [Cert.KernelIdeal.Facts] [Cert.Pre_finite_inputs.Facts]
variable (m : (ℓ : Loc Cert.KernelIdeal.nD Cert.KernelIdeal.τ Cert.KernelIdeal.sig) → Buf (Elt Ideal) ℓ)
open Cert.KernelIdeal Cert.KernelIdeal.Facts₀ Cert.KernelIdeal.Facts

/-- The take at the first index vector is the plain gather at it. -/
theorem take_rna (h : Cert.Pre_KernelIdeal m) (c : Dev Cert.KernelIdeal.nD) {α : Type} (emb : S6000x256.Idx → α)
    (z : S16384x256.Idx → α) :
    select
      (broadcastInDim S16384x256 ![0] bcast_S16384_S16384x256_0
        (Host.reduce IntOp.andi
          (andi
            (cmpi .sge
              (broadcastInDim S16384x1 ![0] bcast_S16384_S16384x1_0
                (select (cmpi .slt (rna m c) (broadcastInDim S16384 ![] bcast_S_S16384 (constantI S_ 32 0#32)))
                  (addi (rna m c) (broadcastInDim S16384 ![] bcast_S_S16384 (constantI S_ 32 6000#32))) (rna m c)))
              (broadcastInDim S16384x1 ![] bcast_S_S16384x1 (constantI S_ 32 0#32)))
            (cmpi .sle
              (broadcastInDim S16384x1 ![0] bcast_S16384_S16384x1_0
                (select (cmpi .slt (rna m c) (broadcastInDim S16384 ![] bcast_S_S16384 (constantI S_ 32 0#32)))
                  (addi (rna m c) (broadcastInDim S16384 ![] bcast_S_S16384 (constantI S_ 32 6000#32))) (rna m c)))
              (broadcastInDim S16384x1 ![0, 1] bcast_S1x1_S16384x1_0_1
                (broadcastInDim S1x1 ![1] bcast_S1_S1x1_1 (constantI S1 32 5999#32)))))
          (constantI S_ 1 1#1) reducesTo_S16384x1_S16384_d1 h_S_))
      (Host.gather gather_S6000x256_S16384x1_S16384x256_1_0_n_n_0_1_1256 emb
        (broadcastInDim S16384x1 ![0] bcast_S16384_S16384x1_0
          (select (cmpi .slt (rna m c) (broadcastInDim S16384 ![] bcast_S_S16384 (constantI S_ 32 0#32)))
            (addi (rna m c) (broadcastInDim S16384 ![] bcast_S_S16384 (constantI S_ 32 6000#32))) (rna m c))))
      z
    = Host.gather gather_S6000x256_S16384x1_S16384x256_1_0_n_n_0_1_1256 emb
        (broadcastInDim S16384x1 ![0] bcast_S16384_S16384x1_0 (rna m c)) :=
  take_eq bcast_S_S16384 bcast_S16384_S16384x1_0 bcast_S_S16384x1 bcast_S1_S1x1_1 bcast_S1x1_S16384x1_0_1
    reducesTo_S16384x1_S16384_d1 h_S_ bcast_S16384_S16384x256_0 _ emb z (rna m c) (rna_range m h c)

/-- The take at the second index vector shifted by 4000 is the plain gather at it. -/
theorem take_dis (h : Cert.Pre_KernelIdeal m) (c : Dev Cert.KernelIdeal.nD) {α : Type} (emb : S6000x256.Idx → α)
    (z : S16384x256.Idx → α) :
    select
      (broadcastInDim S16384x256 ![0] bcast_S16384_S16384x256_0
        (Host.reduce IntOp.andi
          (andi
            (cmpi .sge
              (broadcastInDim S16384x1 ![0] bcast_S16384_S16384x1_0
                (select (cmpi .slt (addi (broadcastInDim S16384 ![] bcast_S_S16384 (constantI S_ 32 4000#32)) (dis m c)) (broadcastInDim S16384 ![] bcast_S_S16384 (constantI S_ 32 0#32)))
                  (addi (addi (broadcastInDim S16384 ![] bcast_S_S16384 (constantI S_ 32 4000#32)) (dis m c)) (broadcastInDim S16384 ![] bcast_S_S16384 (constantI S_ 32 6000#32))) (addi (broadcastInDim S16384 ![] bcast_S_S16384 (constantI S_ 32 4000#32)) (dis m c))))
              (broadcastInDim S16384x1 ![] bcast_S_S16384x1 (constantI S_ 32 0#32)))
            (cmpi .sle
              (broadcastInDim S16384x1 ![0] bcast_S16384_S16384x1_0
                (select (cmpi .slt (addi (broadcastInDim S16384 ![] bcast_S_S16384 (constantI S_ 32 4000#32)) (dis m c)) (broadcastInDim S16384 ![] bcast_S_S16384 (constantI S_ 32 0#32)))
                  (addi (addi (broadcastInDim S16384 ![] bcast_S_S16384 (constantI S_ 32 4000#32)) (dis m c)) (broadcastInDim S16384 ![] bcast_S_S16384 (constantI S_ 32 6000#32))) (addi (broadcastInDim S16384 ![] bcast_S_S16384 (constantI S_ 32 4000#32)) (dis m c))))
              (broadcastInDim S16384x1 ![0, 1] bcast_S1x1_S16384x1_0_1
                (broadcastInDim S1x1 ![1] bcast_S1_S1x1_1 (constantI S1 32 5999#32)))))
          (constantI S_ 1 1#1) reducesTo_S16384x1_S16384_d1 h_S_))
      (Host.gather gather_S6000x256_S16384x1_S16384x256_1_0_n_n_0_1_1256 emb
        (broadcastInDim S16384x1 ![0] bcast_S16384_S16384x1_0
          (select (cmpi .slt (addi (broadcastInDim S16384 ![] bcast_S_S16384 (constantI S_ 32 4000#32)) (dis m c)) (broadcastInDim S16384 ![] bcast_S_S16384 (constantI S_ 32 0#32)))
            (addi (addi (broadcastInDim S16384 ![] bcast_S_S16384 (constantI S_ 32 4000#32)) (dis m c)) (broadcastInDim S16384 ![] bcast_S_S16384 (constantI S_ 32 6000#32))) (addi (broadcastInDim S16384 ![] bcast_S_S16384 (constantI S_ 32 4000#32)) (dis m c)))))
      z
    = Host.gather gather_S6000x256_S16384x1_S16384x256_1_0_n_n_0_1_1256 emb
        (broadcastInDim S16384x1 ![0] bcast_S16384_S16384x1_0
          (addi (broadcastInDim S16384 ![] bcast_S_S16384 (constantI S_ 32 4000#32)) (dis m c))) :=
  take_eq bcast_S_S16384 bcast_S16384_S16384x1_0 bcast_S_S16384x1 bcast_S1_S1x1_1 bcast_S1x1_S16384x1_0_1
    reducesTo_S16384x1_S16384_d1 h_S_ bcast_S16384_S16384x256_0 _ emb z _ (disV_hx m bcast_S_S16384 h c)

end Kernel

end Cert.Proof.TakeFacts

end
-- ==== Proof.KI.Bridge.lean ====
/-
  The kernel's result against the reference's, from the seventeen regions' output formulas.

  Each region's output formula over its entry valuation, read through the host operations before it, makes its output
  the reference's stage on the true rows. Chained in program order — the six products of the m branch, the six of
  the d branch, the joined product, the three propagation hops and the decoder — they make the kernel's result array
  the reference's.
-/
import proofs.«414035_j83562883711810_2_alg».proof.Proof.KI.Stage0
import proofs.«414035_j83562883711810_2_alg».proof.Proof.KI.Stage1
import proofs.«414035_j83562883711810_2_alg».proof.Proof.KI.Stage2
import proofs.«414035_j83562883711810_2_alg».proof.Proof.KI.Stage3
import proofs.«414035_j83562883711810_2_alg».proof.Proof.KI.Stage4
import proofs.«414035_j83562883711810_2_alg».proof.Proof.KI.Stage5
import proofs.«414035_j83562883711810_2_alg».proof.Proof.KI.Stage7
import proofs.«414035_j83562883711810_2_alg».proof.Proof.KI.Stage8
import proofs.«414035_j83562883711810_2_alg».proof.Proof.KI.Stage9
import proofs.«414035_j83562883711810_2_alg».proof.Proof.KI.Stage10
import proofs.«414035_j83562883711810_2_alg».proof.Proof.KI.Stage11
import proofs.«414035_j83562883711810_2_alg».proof.Proof.KI.Stage12
import proofs.«414035_j83562883711810_2_alg».proof.Proof.KI.Stage13
import proofs.«414035_j83562883711810_2_alg».proof.Proof.KI.Stage14
import proofs.«414035_j83562883711810_2_alg».proof.Proof.KI.Stage15
import proofs.«414035_j83562883711810_2_alg».proof.Proof.KI.Stage16
import proofs.«414035_j83562883711810_2_alg».proof.Proof.KI.PreFacts
import proofs.«414035_j83562883711810_2_alg».proof.Proof.KI.TakeFacts

set_option maxRecDepth 2808

noncomputable section

open scoped BigOperators

namespace Cert.KernelIdeal.Bridge

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (outs : GenP.Outs (F := Ideal)) (c : Dev nD)

/-- The m branch: the sixth product's true rows are the reference's first branch. -/
theorem branch_m
    (h0 : ∀ (r : Fin 4096) (j : Fin 256), Stage0.o50 outs c (ix2 r j)
      = (∑ q : Fin 4096, Stage0.wA m c (ix2 r q) * Stage0.wB m c (ix2 q j)) * Stage0.wSO m c (ix2 r 0) + Stage0.wBIAS m c (ix2 0 j))
    (h1 : ∀ (r : Fin 2048) (j : Fin 256), Stage1.o59 outs c (ix2 r j)
      = (∑ q : Fin 4096, Stage1.wA m outs c (ix2 r q) * Stage1.wB m outs c (ix2 q j)) * Stage1.wSO m outs c (ix2 r 0) + Stage1.wBIAS m outs c (ix2 0 j))
    (h2 : ∀ (r : Fin 4096) (j : Fin 256), Stage2.o67 outs c (ix2 r j)
      = max ((∑ q : Fin 2048, Stage2.wA m outs c (ix2 r q) * Stage2.wB m outs c (ix2 q j)) * Stage2.wSO m outs c (ix2 r 0) + Stage2.wBIAS m outs c (ix2 0 j)) 0)
    (h3 : ∀ (r : Fin 4096) (j : Fin 256), Stage3.out3 outs c (ix2 r j)
      = (∑ q : Fin 256, Stage3.arrA m outs c (ix2 r q) * Stage3.arrB m outs c (ix2 q j)) * Stage3.arrS m outs c (ix2 r 0) + Stage3.arrZ m outs c (ix2 0 j))
    (h4 : ∀ (r : Fin 2048) (j : Fin 256), Stage4.out4 outs c (ix2 r j)
      = (∑ q : Fin 4096, Stage4.arrA m outs c (ix2 r q) * Stage4.arrB m outs c (ix2 q j)) * Stage4.arrS m outs c (ix2 r 0) + Stage4.arrZ m outs c (ix2 0 j))
    (h5 : ∀ (r : Fin 4096) (j : Fin 256), Stage5.out5 outs c (ix2 r j)
      = (∑ q : Fin 2048, Stage5.arrA m outs c (ix2 r q) * Stage5.arrB m outs c (ix2 q j)) * Stage5.arrS m outs c (ix2 r 0) + Stage5.arrZ m outs c (ix2 0 j)) :
    Stage12.Out5 m outs c :=
  fun r j => Stage5.OUT_5 m outs c h5 (Stage4.OUT_4 m outs c h4 (Stage3.OUT_3 m outs c h3
    (Stage2.OUT2 m outs c h2 (Stage1.OUT1 m outs c h1 (Stage0.OUT0 m outs c h0))))) r j

/-- The d branch: the twelfth product's true rows are the reference's second branch. -/
theorem branch_d
    (h6 : ∀ (r : Fin 2048) (j : Fin 256), Stage6.O outs c (ix2 r j)
      = (∑ q : Fin 2048, Stage6.A m outs c (ix2 r q) * Stage6.B m outs c (ix2 q j)) * Stage6.SO m outs c (ix2 r 0)
          + Stage6.BI m outs c (ix2 0 j))
    (h7 : ∀ (r : Fin 1000) (j : Fin 256), Stage7.O outs c (ix2 r j)
      = (∑ q : Fin 2048, Stage7.A m outs c (ix2 r q) * Stage7.B m outs c (ix2 q j)) * Stage7.SO m outs c (ix2 r 0) + Stage7.BI m outs c (ix2 0 j))
    (h8 : ∀ (r : Fin 2048) (j : Fin 256), Stage8.O outs c (ix2 r j)
      = max ((∑ q : Fin 1000, Stage8.A m outs c (ix2 r q) * Stage8.B m outs c (ix2 q j)) * Stage8.SO m outs c (ix2 r 0) + Stage8.BI m outs c (ix2 0 j)) 0)
    (h9 : ∀ (r : Fin 2048) (j : Fin 256), Stage9.O9 outs c (ix2 r j)
      = (∑ q : Fin 256, Stage9.A m outs c (ix2 r q) * Stage9.B m outs c (ix2 q j)) * Stage9.SO m outs c (ix2 r 0) + Stage9.BI m outs c (ix2 0 j))
    (h10 : ∀ (r : Fin 1000) (j : Fin 256), Stage10.O10 outs c (ix2 r j)
      = (∑ q : Fin 2048, Stage10.A m outs c (ix2 r q) * Stage10.B m outs c (ix2 q j)) * Stage10.SO m outs c (ix2 r 0) + Stage10.BI m outs c (ix2 0 j))
    (h11 : ∀ (r : Fin 2048) (j : Fin 256), Stage11.O11 outs c (ix2 r j)
      = (∑ q : Fin 1000, Stage11.A m outs c (ix2 r q) * Stage11.B m outs c (ix2 q j)) * Stage11.SO m outs c (ix2 r 0) + Stage11.BI m outs c (ix2 0 j)) :
    Stage12.Out11 m outs c :=
  fun r j => Stage11.OUT_11 m outs c h11 (Stage10.OUT_10 m outs c h10 (Stage9.OUT_9 m outs c h9
    (Stage8.OUT8 m outs c (Stage7.OUT7 m outs c (Stage7.OUT6 m outs c h6) h7) h8))) r j

/-- The kernel's result array is the reference's, given every region's output formula. -/
theorem final_of_formulas [Cert.KernelIdeal.Facts] [Cert.Pre_finite_inputs.Facts] (hpre : Cert.Pre_KernelIdeal m)
    (h0 : ∀ (r : Fin 4096) (j : Fin 256), Stage0.o50 outs c (ix2 r j)
      = (∑ q : Fin 4096, Stage0.wA m c (ix2 r q) * Stage0.wB m c (ix2 q j)) * Stage0.wSO m c (ix2 r 0) + Stage0.wBIAS m c (ix2 0 j))
    (h1 : ∀ (r : Fin 2048) (j : Fin 256), Stage1.o59 outs c (ix2 r j)
      = (∑ q : Fin 4096, Stage1.wA m outs c (ix2 r q) * Stage1.wB m outs c (ix2 q j)) * Stage1.wSO m outs c (ix2 r 0) + Stage1.wBIAS m outs c (ix2 0 j))
    (h2 : ∀ (r : Fin 4096) (j : Fin 256), Stage2.o67 outs c (ix2 r j)
      = max ((∑ q : Fin 2048, Stage2.wA m outs c (ix2 r q) * Stage2.wB m outs c (ix2 q j)) * Stage2.wSO m outs c (ix2 r 0) + Stage2.wBIAS m outs c (ix2 0 j)) 0)
    (h3 : ∀ (r : Fin 4096) (j : Fin 256), Stage3.out3 outs c (ix2 r j)
      = (∑ q : Fin 256, Stage3.arrA m outs c (ix2 r q) * Stage3.arrB m outs c (ix2 q j)) * Stage3.arrS m outs c (ix2 r 0) + Stage3.arrZ m outs c (ix2 0 j))
    (h4 : ∀ (r : Fin 2048) (j : Fin 256), Stage4.out4 outs c (ix2 r j)
      = (∑ q : Fin 4096, Stage4.arrA m outs c (ix2 r q) * Stage4.arrB m outs c (ix2 q j)) * Stage4.arrS m outs c (ix2 r 0) + Stage4.arrZ m outs c (ix2 0 j))
    (h5 : ∀ (r : Fin 4096) (j : Fin 256), Stage5.out5 outs c (ix2 r j)
      = (∑ q : Fin 2048, Stage5.arrA m outs c (ix2 r q) * Stage5.arrB m outs c (ix2 q j)) * Stage5.arrS m outs c (ix2 r 0) + Stage5.arrZ m outs c (ix2 0 j))
    (h6 : ∀ (r : Fin 2048) (j : Fin 256), Stage6.O outs c (ix2 r j)
      = (∑ q : Fin 2048, Stage6.A m outs c (ix2 r q) * Stage6.B m outs c (ix2 q j)) * Stage6.SO m outs c (ix2 r 0)
          + Stage6.BI m outs c (ix2 0 j))
    (h7 : ∀ (r : Fin 1000) (j : Fin 256), Stage7.O outs c (ix2 r j)
      = (∑ q : Fin 2048, Stage7.A m outs c (ix2 r q) * Stage7.B m outs c (ix2 q j)) * Stage7.SO m outs c (ix2 r 0) + Stage7.BI m outs c (ix2 0 j))
    (h8 : ∀ (r : Fin 2048) (j : Fin 256), Stage8.O outs c (ix2 r j)
      = max ((∑ q : Fin 1000, Stage8.A m outs c (ix2 r q) * Stage8.B m outs c (ix2 q j)) * Stage8.SO m outs c (ix2 r 0) + Stage8.BI m outs c (ix2 0 j)) 0)
    (h9 : ∀ (r : Fin 2048) (j : Fin 256), Stage9.O9 outs c (ix2 r j)
      = (∑ q : Fin 256, Stage9.A m outs c (ix2 r q) * Stage9.B m outs c (ix2 q j)) * Stage9.SO m outs c (ix2 r 0) + Stage9.BI m outs c (ix2 0 j))
    (h10 : ∀ (r : Fin 1000) (j : Fin 256), Stage10.O10 outs c (ix2 r j)
      = (∑ q : Fin 2048, Stage10.A m outs c (ix2 r q) * Stage10.B m outs c (ix2 q j)) * Stage10.SO m outs c (ix2 r 0) + Stage10.BI m outs c (ix2 0 j))
    (h11 : ∀ (r : Fin 2048) (j : Fin 256), Stage11.O11 outs c (ix2 r j)
      = (∑ q : Fin 1000, Stage11.A m outs c (ix2 r q) * Stage11.B m outs c (ix2 q j)) * Stage11.SO m outs c (ix2 r 0) + Stage11.BI m outs c (ix2 0 j))
    (h12 : Stage12.Formula12 m outs c)
    (h13f : Stage13.FormulaF m outs c)
    (h13r : Stage13.FormulaR m outs c)
    (h14f : Stage14.FormulaF m outs c)
    (h14r : Stage14.FormulaR m outs c)
    (h15f : Stage15.FormulaF m outs c)
    (h15r : Stage15.FormulaR m outs c)
    (h16 : ∀ r : Fin 16384, Stage16.o184 outs c (ix2 r 0)
      = (∑ l : Fin 32, Ideal.tanh ((∑ l2 : Fin 64, Ideal.tanh ((∑ l1 : Fin 128,
          Ideal.tanh ((∑ l0 : Fin 256, Stage16.dX m outs c (ix2 r l0) * Stage16.dW1 m outs c (ix2 l0 l1)) + Stage16.dB1 m outs c (ix2 0 l1))
            * Stage16.dW2 m outs c (ix2 l1 l2)) + Stage16.dB2 m outs c (ix2 0 l2)) * Stage16.dW3 m outs c (ix2 l2 l)) + Stage16.dB3 m outs c (ix2 0 l))
              * Stage16.dW4 m outs c (ix2 l 0)) + Stage16.dB4 m outs c (ix2 0 0)) :
    Stage16.o184 outs c
      = Cert.ReferenceIdeal.Read.val_main_v199 (F := Ideal) (Stage16.ar0 m c) (Stage16.ar1 m c) (Stage16.ar2 m c) (Stage16.ar3 m c) (Stage16.ar4 m c) (Stage16.ar5 m c) (Stage16.ar6 m c) (Stage16.ar7 m c) (Stage16.ar8 m c) (Stage16.ar9 m c) (Stage16.ar10 m c) (Stage16.ar11 m c) (Stage16.ar12 m c) (Stage16.ar13 m c) (Stage16.ar14 m c) (Stage16.ar15 m c) (Stage16.ar16 m c) (Stage16.ar17 m c) (Stage16.ar18 m c) (Stage16.ar19 m c) (Stage16.ar20 m c) (Stage16.ar21 m c) (Stage16.ar22 m c) (Stage16.ar23 m c) (Stage16.ar24 m c) := by
  have H5 : Stage12.Out5 m outs c := branch_m m outs c h0 h1 h2 h3 h4 h5
  have H11 : Stage12.Out11 m outs c := branch_d m outs c h6 h7 h8 h9 h10 h11
  have O12 := Stage12.OUT_12 m outs c h12 H5 H11
  have F1 := Stage13.F1 m outs c h13f H5 H11
  have RC1 := Stage13.RC1 m outs c h13f h13r H5 H11
  have F2 := Stage14.F2 m outs c h14f F1
  have RC2 := Stage14.RC2 m outs c h14f h14r F1
  have RC3 := Stage15.RC3 m outs c h15f h15r F2
  exact Stage16.FINAL m outs c O12 RC1 RC2 RC3
    (Cert.Proof.TakeFacts.take_rna m hpre c _ _) (Cert.Proof.TakeFacts.take_dis m hpre c _ _)
    (fun i => Cert.Proof.PreFacts.rna_wrap m hpre c i) (fun i => Cert.Proof.PreFacts.disY_wrap m hpre c i) h16

end Cert.KernelIdeal.Bridge
end
-- ==== Proof.KI.MatmulMath.lean ====
/-
  The matmul kernels' payloads read at an index, at the ideal values, and the sums they accumulate.

  A block product into the zero accumulator is, at output coordinates (r, j), the sum over the one contracted
  coordinate l of a(r, l) * b(l, j); the accumulate payload adds that to the old accumulator; the epilogue
  multiplies by a column (one value per row), adds a row (one value per column) and possibly takes the maximum with 0.
  Last, the arithmetic of the K-blocked accumulation: a sum over nk blocks of tk terms is one sum over nk * tk
  terms, and terms that vanish beyond the true extent may be dropped. Only commutativity and associativity of + are
  used, so everything holds in the extended reals without any finiteness.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«414035_j83562883711810_2_alg».proof.Proof.Gen.KernelIdeal.Skeleton

noncomputable section

open scoped BigOperators

namespace Cert.KernelIdeal.MatmulMath

open Idealize.ShloMosaic Idealize.ShloMosaic.ValueIdx Cert.KernelIdeal Cert.KernelIdeal.Gen

/-! ## A plain rank-2 product read at coordinates -/

section Dot
variable {m k n : ℕ} (D : DotDims ⟨2, ![m, k]⟩ ⟨2, ![k, n]⟩ ⟨2, ![m, n]⟩)

/-- Two positions of an index agree as naturals when the positions do. -/
private theorem val_congr {s : Shape} (x : s.Idx) (p q : ℕ) (hp : p < s.rank) (hq : q < s.rank) (h : p = q) :
    (x ⟨p, hp⟩).val = (x ⟨q, hq⟩).val := by subst h; rfl

/-- The left operand's row coordinate is the output's row. -/
theorem lhsIdx_row (hln : D.lhsNonContracting = [0]) (hlb : D.lhsBatch = [])
    (jj : (⟨2, ![m, n]⟩ : Shape).Idx) (q : D.contr.Idx) : (D.lhsIdx jj q 0).val = (jj 0).val := by
  unfold DotDims.lhsIdx
  rw [dif_neg (by rw [hlb]; exact List.not_mem_nil), dif_pos (by rw [hln]; exact List.mem_singleton.mpr rfl)]
  simp only [Fin.val_cast]
  exact val_congr jj _ _ _ _ (by simp [hlb, hln])

/-- The right operand's column coordinate is the output's column. -/
theorem rhsIdx_col (hln : D.lhsNonContracting = [0]) (hrn : D.rhsNonContracting = [1]) (hlb : D.lhsBatch = [])
    (hrb : D.rhsBatch = []) (jj : (⟨2, ![m, n]⟩ : Shape).Idx) (q : D.contr.Idx) : (D.rhsIdx jj q 1).val = (jj 1).val := by
  unfold DotDims.rhsIdx
  rw [dif_neg (by rw [hrb]; exact List.not_mem_nil), dif_pos (by rw [hrn]; exact List.mem_singleton.mpr rfl)]
  simp only [Fin.val_cast]
  exact val_congr jj _ _ _ _ (by simp [hlb, hln, hrn])

/-- A product of an [m, k] by a [k, n] operand into the zero accumulator, at (r, j): the sum over the contracted
    coordinate of the products of the row's and the column's elements. -/
theorem matmul_zero_ix2 {φ₁ φ₂ : FTy} (hlc : D.lhsContracting = [1]) (hrc : D.rhsContracting = [0])
    (hln : D.lhsNonContracting = [0]) (hrn : D.rhsNonContracting = [1]) (hlb : D.lhsBatch = []) (hrb : D.rhsBatch = [])
    (prec : Option ContractPrecision) (a : FVec Ideal ⟨2, ![m, k]⟩ φ₁) (b : FVec Ideal ⟨2, ![k, n]⟩ φ₂)
    (r : Fin m) (j : Fin n) :
    matmul D prec a b (constant ⟨2, ![m, n]⟩ .f32 0x00000000#32) (ix2 r j) = ∑ l : Fin k, a (ix2 r l) * b (ix2 l j) := by
  have hr : D.contr.rank = 1 := by rw [D.rank_contr, hlc]; rfl
  have hs : D.contr.size ⟨0, by omega⟩ = k := by
    rw [D.size_contr 0 (by rw [hlc]; exact Nat.one_pos)]; simp [hlc]
  simp only [matmul]
  rw [Ideal.matmul_constant_zero_apply, ← Equiv.sum_comp (contrEquiv1 D k hr hs).symm]
  refine Finset.sum_congr rfl fun l _ => ?_
  have hl := contrEquiv1_symm_val D k hr hs l
  congr 2
  · exact Shape.idx_ext₂ (lhsIdx_row D hln hlb _ _) ((D.lhsIdx_val_of_single hlc _ _).trans hl)
  · exact Shape.idx_ext₂ ((D.rhsIdx_val_of_single hrc _ _).trans hl) (rhsIdx_col D hln hrn hlb hrb _ _)

end Dot

/-! ## The layout operations of the epilogue read at coordinates -/

section Layout
variable {α : Type} {m n : ℕ}

/-- A column (one value per row) stretched along the rows reads the row's value. -/
theorem colBroadcast_ix2 (x : (⟨2, ![m, 1]⟩ : Shape).Idx → α) (h : (⟨2, ![m, 1]⟩ : Shape).Broadcasts ⟨2, ![m, n]⟩)
    (r : Fin m) (j : Fin n) : broadcastTo ⟨2, ![m, n]⟩ x h (ix2 r j) = x (ix2 r 0) := by
  refine broadcastTo_apply x h (ix2 r j) (ix2 r 0) fun a => ?_
  match a with
  | ⟨0, _⟩ =>
    show r.val = if m = 1 then 0 else r.val
    split
    · have := r.isLt; omega
    · rfl
  | ⟨1, _⟩ => rfl

/-- A row (one value per column) stretched along the columns reads the column's value. -/
theorem rowBroadcast_ix2 (x : (⟨2, ![1, n]⟩ : Shape).Idx → α) (h : (⟨2, ![1, n]⟩ : Shape).Broadcasts ⟨2, ![m, n]⟩)
    (r : Fin m) (j : Fin n) : broadcastTo ⟨2, ![m, n]⟩ x h (ix2 r j) = x (ix2 0 j) := by
  refine broadcastTo_apply x h (ix2 r j) (ix2 0 j) fun a => ?_
  match a with
  | ⟨0, _⟩ => rfl
  | ⟨1, _⟩ =>
    show j.val = if n = 1 then 0 else j.val
    split
    · have := j.isLt; omega
    · rfl

end Layout

/-! ## The three payloads of a matmul kernel, over any sizes -/

section Payloads
variable {m k n : ℕ}

/-- The reset value of the accumulator: zero everywhere. -/
theorem zeros_ix2 (h : (⟨2, ![m, n]⟩ : Shape).ShapeCasts ⟨2, ![m, n]⟩) (i : (⟨2, ![m, n]⟩ : Shape).Idx) :
    shapeCast ⟨2, ![m, n]⟩ (broadcast ⟨2, ![m, n]⟩ (Scalar.ofBits (F := Ideal) .f32 0x00000000#32)) h i = 0 := by
  rw [shapeCast_self]; exact Ideal.ofBits_zero_f32

/-- The accumulate step: the old accumulator plus the block product, at (r, j). -/
theorem mm_acc_ix2 {φ₁ φ₂ : FTy} (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1]) (hlb : D.lhsBatch = []) (hrb : D.rhsBatch = [])
    (a : FVec Ideal ⟨2, ![m, k]⟩ φ₁) (b : FVec Ideal ⟨2, ![k, n]⟩ φ₂) (acc : FVec Ideal ⟨2, ![m, n]⟩ .f32)
    (h1 : (⟨2, ![m, k]⟩ : Shape).ShapeCasts ⟨2, ![m, k]⟩) (h2 : (⟨2, ![k, n]⟩ : Shape).ShapeCasts ⟨2, ![k, n]⟩)
    (h3 : (⟨2, ![m, n]⟩ : Shape).ShapeCasts ⟨2, ![m, n]⟩) (r : Fin m) (j : Fin n) :
    shapeCast ⟨2, ![m, n]⟩ (addf acc (matmul D none (shapeCast ⟨2, ![m, k]⟩ a h1) (shapeCast ⟨2, ![k, n]⟩ b h2)
      (constant ⟨2, ![m, n]⟩ .f32 0x00000000#32))) h3 (ix2 r j)
      = acc (ix2 r j) + ∑ l : Fin k, a (ix2 r l) * b (ix2 l j) := by
  simp only [shapeCast_self]
  rw [addf_apply, matmul_zero_ix2 D hlc hrc hln hrn hlb hrb]

/-- The epilogue: the accumulator times the row's scale plus the column's bias, at (r, j). -/
theorem scale_bias_ix2 (acc : FVec Ideal ⟨2, ![m, n]⟩ .f32) (so : FVec Ideal ⟨2, ![m, 1]⟩ .f32)
    (bias : FVec Ideal ⟨2, ![1, n]⟩ .f32)
    (h1 : (⟨2, ![m, 1]⟩ : Shape).ShapeCasts ⟨2, ![m, 1]⟩) (h2 : (⟨2, ![m, 1]⟩ : Shape).Broadcasts ⟨2, ![m, n]⟩)
    (h3 : (⟨2, ![1, n]⟩ : Shape).ShapeCasts ⟨2, ![1, n]⟩) (h4 : (⟨2, ![1, n]⟩ : Shape).Broadcasts ⟨2, ![m, n]⟩)
    (r : Fin m) (j : Fin n) :
    addf (mulf acc (broadcastTo ⟨2, ![m, n]⟩ (shapeCast ⟨2, ![m, 1]⟩ so h1) h2))
      (broadcastTo ⟨2, ![m, n]⟩ (shapeCast ⟨2, ![1, n]⟩ bias h3) h4) (ix2 r j)
      = acc (ix2 r j) * so (ix2 r 0) + bias (ix2 0 j) := by
  simp only [shapeCast_self]
  rw [addf_apply, mulf_apply, colBroadcast_ix2, rowBroadcast_ix2]

/-- The epilogue followed by the maximum with zero. -/
theorem scale_bias_relu_ix2 (acc : FVec Ideal ⟨2, ![m, n]⟩ .f32) (so : FVec Ideal ⟨2, ![m, 1]⟩ .f32)
    (bias : FVec Ideal ⟨2, ![1, n]⟩ .f32)
    (h1 : (⟨2, ![m, 1]⟩ : Shape).ShapeCasts ⟨2, ![m, 1]⟩) (h2 : (⟨2, ![m, 1]⟩ : Shape).Broadcasts ⟨2, ![m, n]⟩)
    (h3 : (⟨2, ![1, n]⟩ : Shape).ShapeCasts ⟨2, ![1, n]⟩) (h4 : (⟨2, ![1, n]⟩ : Shape).Broadcasts ⟨2, ![m, n]⟩)
    (r : Fin m) (j : Fin n) :
    maximumf (addf (mulf acc (broadcastTo ⟨2, ![m, n]⟩ (shapeCast ⟨2, ![m, 1]⟩ so h1) h2))
      (broadcastTo ⟨2, ![m, n]⟩ (shapeCast ⟨2, ![1, n]⟩ bias h3) h4))
      (broadcast ⟨2, ![m, n]⟩ (Scalar.ofBits (F := Ideal) .f32 0x00000000#32)) (ix2 r j)
      = max (acc (ix2 r j) * so (ix2 r 0) + bias (ix2 0 j)) 0 := by
  rw [maximumf_apply, scale_bias_ix2, broadcast_apply]
  exact congrArg (max _) Ideal.ofBits_zero_f32

/-- A dense layer: a product into the zero accumulator plus a row of biases, at (r, j). -/
theorem dense_ix2 {φ₁ φ₂ : FTy} (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1]) (hlb : D.lhsBatch = []) (hrb : D.rhsBatch = [])
    (a : FVec Ideal ⟨2, ![m, k]⟩ φ₁) (w : FVec Ideal ⟨2, ![k, n]⟩ φ₂) (bias : FVec Ideal ⟨2, ![1, n]⟩ .f32)
    (h : (⟨2, ![1, n]⟩ : Shape).Broadcasts ⟨2, ![m, n]⟩) (r : Fin m) (j : Fin n) :
    addf (matmul D none a w (constant ⟨2, ![m, n]⟩ .f32 0x00000000#32)) (broadcastTo ⟨2, ![m, n]⟩ bias h) (ix2 r j)
      = (∑ l : Fin k, a (ix2 r l) * w (ix2 l j)) + bias (ix2 0 j) := by
  rw [addf_apply, matmul_zero_ix2 D hlc hrc hln hrn hlb hrb, rowBroadcast_ix2]

/-- The hyperbolic tangent of a vector at an index is that of the element. -/
theorem tanh_apply {s : Shape} {φ : FTy} (v : FVec Ideal s φ) (i : s.Idx) : tanh v i = Ideal.tanh (v i) := rfl

end Payloads

/-! ## The printed payloads of the matmul regions -/

/-! ### Region 0: [1024, 1024] by [1024, 256] -/

theorem k0_pay1_apply (r : Fin 1024) (j : Fin 256) : k0_pay1 (F := Ideal) (ix2 r j) = 0 :=
  zeros_ix2 _ _
theorem k0_pay2_apply (a : Vec Ideal S1024x1024 .bf16) (b : Vec Ideal S1024x256 .bf16) (acc : Vec Ideal S1024x256 .f32)
    (r : Fin 1024) (j : Fin 256) :
    k0_pay2 a b acc (ix2 r j) = acc (ix2 r j) + ∑ l : Fin 1024, a (ix2 r l) * b (ix2 l j) :=
  mm_acc_ix2 dot_S1024x1024_S1024x256_S1024x256_1_0_0_1_n_n rfl rfl rfl rfl rfl rfl a b acc _ _ _ r j
theorem k0_pay3_apply (acc : Vec Ideal S1024x256 .f32) (so : Vec Ideal S1024x1 .f32) (bias : Vec Ideal S1x256 .f32)
    (r : Fin 1024) (j : Fin 256) :
    k0_pay3 acc so bias (ix2 r j) = acc (ix2 r j) * so (ix2 r 0) + bias (ix2 0 j) :=
  scale_bias_ix2 acc so bias _ _ _ _ r j

/-! ### Region 1: [1024, 1024] by [1024, 256] -/

theorem k1_pay1_apply (r : Fin 1024) (j : Fin 256) : k1_pay1 (F := Ideal) (ix2 r j) = 0 :=
  zeros_ix2 _ _
theorem k1_pay2_apply (a : Vec Ideal S1024x1024 .bf16) (b : Vec Ideal S1024x256 .bf16) (acc : Vec Ideal S1024x256 .f32)
    (r : Fin 1024) (j : Fin 256) :
    k1_pay2 a b acc (ix2 r j) = acc (ix2 r j) + ∑ l : Fin 1024, a (ix2 r l) * b (ix2 l j) :=
  mm_acc_ix2 dot_S1024x1024_S1024x256_S1024x256_1_0_0_1_n_n rfl rfl rfl rfl rfl rfl a b acc _ _ _ r j
theorem k1_pay3_apply (acc : Vec Ideal S1024x256 .f32) (so : Vec Ideal S1024x1 .f32) (bias : Vec Ideal S1x256 .f32)
    (r : Fin 1024) (j : Fin 256) :
    k1_pay3 acc so bias (ix2 r j) = acc (ix2 r j) * so (ix2 r 0) + bias (ix2 0 j) :=
  scale_bias_ix2 acc so bias _ _ _ _ r j

/-! ### Region 2: [1024, 1024] by [1024, 256] -/

theorem k2_pay1_apply (r : Fin 1024) (j : Fin 256) : k2_pay1 (F := Ideal) (ix2 r j) = 0 :=
  zeros_ix2 _ _
theorem k2_pay2_apply (a : Vec Ideal S1024x1024 .bf16) (b : Vec Ideal S1024x256 .bf16) (acc : Vec Ideal S1024x256 .f32)
    (r : Fin 1024) (j : Fin 256) :
    k2_pay2 a b acc (ix2 r j) = acc (ix2 r j) + ∑ l : Fin 1024, a (ix2 r l) * b (ix2 l j) :=
  mm_acc_ix2 dot_S1024x1024_S1024x256_S1024x256_1_0_0_1_n_n rfl rfl rfl rfl rfl rfl a b acc _ _ _ r j
theorem k2_pay3_apply (acc : Vec Ideal S1024x256 .f32) (so : Vec Ideal S1024x1 .f32) (bias : Vec Ideal S1x256 .f32)
    (r : Fin 1024) (j : Fin 256) :
    k2_pay3 acc so bias (ix2 r j) = max (acc (ix2 r j) * so (ix2 r 0) + bias (ix2 0 j)) 0 :=
  scale_bias_relu_ix2 acc so bias _ _ _ _ r j

/-! ### Region 3: [1024, 256] by [256, 256] -/

theorem k3_pay1_apply (r : Fin 1024) (j : Fin 256) : k3_pay1 (F := Ideal) (ix2 r j) = 0 :=
  zeros_ix2 _ _
theorem k3_pay2_apply (a : Vec Ideal S1024x256 .bf16) (b : Vec Ideal S256x256 .bf16) (acc : Vec Ideal S1024x256 .f32)
    (r : Fin 1024) (j : Fin 256) :
    k3_pay2 a b acc (ix2 r j) = acc (ix2 r j) + ∑ l : Fin 256, a (ix2 r l) * b (ix2 l j) :=
  mm_acc_ix2 dot_S1024x256_S256x256_S1024x256_1_0_0_1_n_n rfl rfl rfl rfl rfl rfl a b acc _ _ _ r j
theorem k3_pay3_apply (acc : Vec Ideal S1024x256 .f32) (so : Vec Ideal S1024x1 .f32) (bias : Vec Ideal S1x256 .f32)
    (r : Fin 1024) (j : Fin 256) :
    k3_pay3 acc so bias (ix2 r j) = acc (ix2 r j) * so (ix2 r 0) + bias (ix2 0 j) :=
  scale_bias_ix2 acc so bias _ _ _ _ r j

/-! ### Region 4: [1024, 1024] by [1024, 256] -/

theorem k4_pay1_apply (r : Fin 1024) (j : Fin 256) : k4_pay1 (F := Ideal) (ix2 r j) = 0 :=
  zeros_ix2 _ _
theorem k4_pay2_apply (a : Vec Ideal S1024x1024 .bf16) (b : Vec Ideal S1024x256 .bf16) (acc : Vec Ideal S1024x256 .f32)
    (r : Fin 1024) (j : Fin 256) :
    k4_pay2 a b acc (ix2 r j) = acc (ix2 r j) + ∑ l : Fin 1024, a (ix2 r l) * b (ix2 l j) :=
  mm_acc_ix2 dot_S1024x1024_S1024x256_S1024x256_1_0_0_1_n_n rfl rfl rfl rfl rfl rfl a b acc _ _ _ r j
theorem k4_pay3_apply (acc : Vec Ideal S1024x256 .f32) (so : Vec Ideal S1024x1 .f32) (bias : Vec Ideal S1x256 .f32)
    (r : Fin 1024) (j : Fin 256) :
    k4_pay3 acc so bias (ix2 r j) = acc (ix2 r j) * so (ix2 r 0) + bias (ix2 0 j) :=
  scale_bias_ix2 acc so bias _ _ _ _ r j

/-! ### Region 5: [1024, 1024] by [1024, 256] -/

theorem k5_pay1_apply (r : Fin 1024) (j : Fin 256) : k5_pay1 (F := Ideal) (ix2 r j) = 0 :=
  zeros_ix2 _ _
theorem k5_pay2_apply (a : Vec Ideal S1024x1024 .bf16) (b : Vec Ideal S1024x256 .bf16) (acc : Vec Ideal S1024x256 .f32)
    (r : Fin 1024) (j : Fin 256) :
    k5_pay2 a b acc (ix2 r j) = acc (ix2 r j) + ∑ l : Fin 1024, a (ix2 r l) * b (ix2 l j) :=
  mm_acc_ix2 dot_S1024x1024_S1024x256_S1024x256_1_0_0_1_n_n rfl rfl rfl rfl rfl rfl a b acc _ _ _ r j
theorem k5_pay3_apply (acc : Vec Ideal S1024x256 .f32) (so : Vec Ideal S1024x1 .f32) (bias : Vec Ideal S1x256 .f32)
    (r : Fin 1024) (j : Fin 256) :
    k5_pay3 acc so bias (ix2 r j) = acc (ix2 r j) * so (ix2 r 0) + bias (ix2 0 j) :=
  scale_bias_ix2 acc so bias _ _ _ _ r j

/-! ### Region 6: [1024, 1024] by [1024, 256] -/

theorem k6_pay1_apply (r : Fin 1024) (j : Fin 256) : k6_pay1 (F := Ideal) (ix2 r j) = 0 :=
  zeros_ix2 _ _
theorem k6_pay2_apply (a : Vec Ideal S1024x1024 .bf16) (b : Vec Ideal S1024x256 .bf16) (acc : Vec Ideal S1024x256 .f32)
    (r : Fin 1024) (j : Fin 256) :
    k6_pay2 a b acc (ix2 r j) = acc (ix2 r j) + ∑ l : Fin 1024, a (ix2 r l) * b (ix2 l j) :=
  mm_acc_ix2 dot_S1024x1024_S1024x256_S1024x256_1_0_0_1_n_n rfl rfl rfl rfl rfl rfl a b acc _ _ _ r j
theorem k6_pay3_apply (acc : Vec Ideal S1024x256 .f32) (so : Vec Ideal S1024x1 .f32) (bias : Vec Ideal S1x256 .f32)
    (r : Fin 1024) (j : Fin 256) :
    k6_pay3 acc so bias (ix2 r j) = acc (ix2 r j) * so (ix2 r 0) + bias (ix2 0 j) :=
  scale_bias_ix2 acc so bias _ _ _ _ r j

/-! ### Region 7: [1000, 1024] by [1024, 256] -/

theorem k7_pay1_apply (r : Fin 1000) (j : Fin 256) : k7_pay1 (F := Ideal) (ix2 r j) = 0 :=
  zeros_ix2 _ _
theorem k7_pay2_apply (a : Vec Ideal S1000x1024 .bf16) (b : Vec Ideal S1024x256 .bf16) (acc : Vec Ideal S1000x256 .f32)
    (r : Fin 1000) (j : Fin 256) :
    k7_pay2 a b acc (ix2 r j) = acc (ix2 r j) + ∑ l : Fin 1024, a (ix2 r l) * b (ix2 l j) :=
  mm_acc_ix2 dot_S1000x1024_S1024x256_S1000x256_1_0_0_1_n_n rfl rfl rfl rfl rfl rfl a b acc _ _ _ r j
theorem k7_pay3_apply (acc : Vec Ideal S1000x256 .f32) (so : Vec Ideal S1000x1 .f32) (bias : Vec Ideal S1x256 .f32)
    (r : Fin 1000) (j : Fin 256) :
    k7_pay3 acc so bias (ix2 r j) = acc (ix2 r j) * so (ix2 r 0) + bias (ix2 0 j) :=
  scale_bias_ix2 acc so bias _ _ _ _ r j

/-! ### Region 8: [1024, 1000] by [1000, 256] -/

theorem k8_pay1_apply (r : Fin 1024) (j : Fin 256) : k8_pay1 (F := Ideal) (ix2 r j) = 0 :=
  zeros_ix2 _ _
theorem k8_pay2_apply (a : Vec Ideal S1024x1000 .bf16) (b : Vec Ideal S1000x256 .bf16) (acc : Vec Ideal S1024x256 .f32)
    (r : Fin 1024) (j : Fin 256) :
    k8_pay2 a b acc (ix2 r j) = acc (ix2 r j) + ∑ l : Fin 1000, a (ix2 r l) * b (ix2 l j) :=
  mm_acc_ix2 dot_S1024x1000_S1000x256_S1024x256_1_0_0_1_n_n rfl rfl rfl rfl rfl rfl a b acc _ _ _ r j
theorem k8_pay3_apply (acc : Vec Ideal S1024x256 .f32) (so : Vec Ideal S1024x1 .f32) (bias : Vec Ideal S1x256 .f32)
    (r : Fin 1024) (j : Fin 256) :
    k8_pay3 acc so bias (ix2 r j) = max (acc (ix2 r j) * so (ix2 r 0) + bias (ix2 0 j)) 0 :=
  scale_bias_relu_ix2 acc so bias _ _ _ _ r j

/-! ### Region 9: [1024, 256] by [256, 256] -/

theorem k9_pay1_apply (r : Fin 1024) (j : Fin 256) : k9_pay1 (F := Ideal) (ix2 r j) = 0 :=
  zeros_ix2 _ _
theorem k9_pay2_apply (a : Vec Ideal S1024x256 .bf16) (b : Vec Ideal S256x256 .bf16) (acc : Vec Ideal S1024x256 .f32)
    (r : Fin 1024) (j : Fin 256) :
    k9_pay2 a b acc (ix2 r j) = acc (ix2 r j) + ∑ l : Fin 256, a (ix2 r l) * b (ix2 l j) :=
  mm_acc_ix2 dot_S1024x256_S256x256_S1024x256_1_0_0_1_n_n rfl rfl rfl rfl rfl rfl a b acc _ _ _ r j
theorem k9_pay3_apply (acc : Vec Ideal S1024x256 .f32) (so : Vec Ideal S1024x1 .f32) (bias : Vec Ideal S1x256 .f32)
    (r : Fin 1024) (j : Fin 256) :
    k9_pay3 acc so bias (ix2 r j) = acc (ix2 r j) * so (ix2 r 0) + bias (ix2 0 j) :=
  scale_bias_ix2 acc so bias _ _ _ _ r j

/-! ### Region 10: [1000, 1024] by [1024, 256] -/

theorem k10_pay1_apply (r : Fin 1000) (j : Fin 256) : k10_pay1 (F := Ideal) (ix2 r j) = 0 :=
  zeros_ix2 _ _
theorem k10_pay2_apply (a : Vec Ideal S1000x1024 .bf16) (b : Vec Ideal S1024x256 .bf16) (acc : Vec Ideal S1000x256 .f32)
    (r : Fin 1000) (j : Fin 256) :
    k10_pay2 a b acc (ix2 r j) = acc (ix2 r j) + ∑ l : Fin 1024, a (ix2 r l) * b (ix2 l j) :=
  mm_acc_ix2 dot_S1000x1024_S1024x256_S1000x256_1_0_0_1_n_n rfl rfl rfl rfl rfl rfl a b acc _ _ _ r j
theorem k10_pay3_apply (acc : Vec Ideal S1000x256 .f32) (so : Vec Ideal S1000x1 .f32) (bias : Vec Ideal S1x256 .f32)
    (r : Fin 1000) (j : Fin 256) :
    k10_pay3 acc so bias (ix2 r j) = acc (ix2 r j) * so (ix2 r 0) + bias (ix2 0 j) :=
  scale_bias_ix2 acc so bias _ _ _ _ r j

/-! ### Region 11: [1024, 1000] by [1000, 256] -/

theorem k11_pay1_apply (r : Fin 1024) (j : Fin 256) : k11_pay1 (F := Ideal) (ix2 r j) = 0 :=
  zeros_ix2 _ _
theorem k11_pay2_apply (a : Vec Ideal S1024x1000 .bf16) (b : Vec Ideal S1000x256 .bf16) (acc : Vec Ideal S1024x256 .f32)
    (r : Fin 1024) (j : Fin 256) :
    k11_pay2 a b acc (ix2 r j) = acc (ix2 r j) + ∑ l : Fin 1000, a (ix2 r l) * b (ix2 l j) :=
  mm_acc_ix2 dot_S1024x1000_S1000x256_S1024x256_1_0_0_1_n_n rfl rfl rfl rfl rfl rfl a b acc _ _ _ r j
theorem k11_pay3_apply (acc : Vec Ideal S1024x256 .f32) (so : Vec Ideal S1024x1 .f32) (bias : Vec Ideal S1x256 .f32)
    (r : Fin 1024) (j : Fin 256) :
    k11_pay3 acc so bias (ix2 r j) = acc (ix2 r j) * so (ix2 r 0) + bias (ix2 0 j) :=
  scale_bias_ix2 acc so bias _ _ _ _ r j

/-! ### Region 12: [1024, 256] by [256, 256] -/

theorem k12_pay1_apply (r : Fin 1024) (j : Fin 256) : k12_pay1 (F := Ideal) (ix2 r j) = 0 :=
  zeros_ix2 _ _
theorem k12_pay2_apply (a : Vec Ideal S1024x256 .bf16) (b : Vec Ideal S256x256 .bf16) (acc : Vec Ideal S1024x256 .f32)
    (r : Fin 1024) (j : Fin 256) :
    k12_pay2 a b acc (ix2 r j) = acc (ix2 r j) + ∑ l : Fin 256, a (ix2 r l) * b (ix2 l j) :=
  mm_acc_ix2 dot_S1024x256_S256x256_S1024x256_1_0_0_1_n_n rfl rfl rfl rfl rfl rfl a b acc _ _ _ r j
theorem k12_pay3_apply (acc : Vec Ideal S1024x256 .f32) (so : Vec Ideal S1024x1 .f32) (bias : Vec Ideal S1x256 .f32)
    (r : Fin 1024) (j : Fin 256) :
    k12_pay3 acc so bias (ix2 r j) = acc (ix2 r j) * so (ix2 r 0) + bias (ix2 0 j) :=
  scale_bias_ix2 acc so bias _ _ _ _ r j

/-! ## Blocked sums -/

section Sums
variable {M : Type*} [AddCommMonoid M]

/-- One more block of tk terms: the sum over the first (k + 1) * tk naturals is the sum over the first k * tk and
    the block's own tk terms. -/
theorem sum_fin_succ_block (k tk : ℕ) (g : ℕ → M) :
    ∑ K : Fin ((k + 1) * tk), g K = ∑ K : Fin (k * tk), g K + ∑ l : Fin tk, g (k * tk + l) := by
  rw [← Finset.sum_range g, ← Finset.sum_range g, ← Finset.sum_range fun l => g (k * tk + l), Nat.succ_mul,
    Finset.sum_range_add]

/-- An accumulator that starts at 0 and takes one block per step holds, after k steps, the sum of the first
    k * tk terms. -/
theorem acc_blocks (tk : ℕ) (g : ℕ → M) (acc : ℕ → M) (h0 : acc 0 = 0)
    (hs : ∀ k, acc (k + 1) = acc k + ∑ l : Fin tk, g (k * tk + l)) (k : ℕ) : acc k = ∑ K : Fin (k * tk), g K := by
  induction k with
  | zero => rw [h0, Nat.zero_mul]; exact (Fin.sum_univ_zero _).symm
  | succ k ih => rw [hs, ih, sum_fin_succ_block]

/-- nk blocks of tk terms are one sum of nk * tk terms. -/
theorem sum_blocks (nk tk : ℕ) (g : ℕ → M) :
    ∑ k : Fin nk, ∑ l : Fin tk, g (k * tk + l) = ∑ K : Fin (nk * tk), g K := by
  induction nk with
  | zero => rw [Nat.zero_mul]; rfl
  | succ nk ih => rw [Fin.sum_univ_castSucc, sum_fin_succ_block, ← ih]; rfl

/-- Terms that vanish from K0 on may be dropped. -/
theorem sum_fin_drop_zeros {K0 Kp : ℕ} (h : K0 ≤ Kp) (g : ℕ → M) (hz : ∀ K, K0 ≤ K → K < Kp → g K = 0) :
    ∑ K : Fin Kp, g K = ∑ K : Fin K0, g K := by
  obtain ⟨d, rfl⟩ := Nat.exists_eq_add_of_le h
  rw [← Finset.sum_range g, ← Finset.sum_range g, Finset.sum_range_add,
    Finset.sum_eq_zero fun x hx => hz _ (Nat.le_add_right _ _) (Nat.add_lt_add_left (Finset.mem_range.mp hx) _), add_zero]

end Sums

end Cert.KernelIdeal.MatmulMath
-- ==== Proof.KI.Region0Value.lean ====
/-
  REGION 0 at the ideal values: the output array after the region, element by element.

  The grid's point t = i * nk + k adds to the accumulator the product of the left operand's block (i, k) and the right
  operand's block k; so after point t the accumulator holds, at (r, j), the sum of the products' terms over the first
  (k + 1) * tk contracted indices, by induction on the point (a sum over blocks is one sum: associativity only). The
  point that ends a run (k = nk - 1) stores accumulator * row scale + bias into the output block i, the blocks written
  back tile the output array, and so the array ends holding at (r, j) the whole contracted sum scaled by row r's scale
  plus column j's bias.
-/
import proofs.«414035_j83562883711810_2_alg».proof.Proof.KI.Region0
import proofs.«414035_j83562883711810_2_alg».proof.Proof.KI.MatmulMath
import Idealize.ShloMosaic.Lib.ValueIdx
import Idealize.ShloMosaic.Lib.Pipeline.Value

noncomputable section
open scoped BigOperators
namespace Cert.KernelIdeal.Region0
open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Window)
variable {Ix : Type} [DecidableEq Ix] {U : Type} [URA U] {Lvl : Type} [Preorder Lvl]

/-! ## The value's literals -/

/-- The arrays of windows 0, 1, 3 and 4 (left operand, right operand, row scales, bias row). -/
abbrev vA : Ref sig .tc := main_v44
abbrev vB : Ref sig .tc := main_v46
abbrev vD : Ref sig .tc := main_v48
abbrev vE : Ref sig .tc := main_v49
/-- The arrays' extents (rows, contracted extent, columns) and the blocks' (rows, contracted extent). -/
abbrev Mp : ℕ := 4096
abbrev Kp : ℕ := 4096
abbrev Np : ℕ := 256
abbrev tm : ℕ := 1024
abbrev tk : ℕ := 1024
theorem N_eq : cfg0.N = 16 := N_0
/-- The output's activation. -/
abbrev act (x : EReal) : EReal := x

variable (V : Dev nD → Valuation τ sig (Elt Ideal))

/-- The four arrays read at a row and a column, as extended reals. -/
abbrev rA (c : Dev nD) (x : Fin Mp) (y : Fin Kp) : EReal := V c vA (ix2 x y)
abbrev rB (c : Dev nD) (x : Fin Kp) (y : Fin Np) : EReal := V c vB (ix2 x y)
abbrev rD (c : Dev nD) (x : Fin Mp) : EReal := V c vD (ix2 x 0)
abbrev rE (c : Dev nD) (y : Fin Np) : EReal := V c vE (ix2 0 y)

/-! ## The blocks in the arrays -/

/-- The index maps over the grid: window 0's block is (row tile, reduction tile), window 1's (reduction tile, 0), windows
    3's and 5's (row tile, 0), window 4's (0, 0). -/
theorem idx_facts : ∀ t : Fin cfg0.N,
    win0_0.index t (0 : Fin 2) = t.val / nk ∧ win0_0.index t (1 : Fin 2) = t.val % nk
    ∧ win0_1.index t (0 : Fin 2) = t.val % nk ∧ win0_1.index t (1 : Fin 2) = 0
    ∧ win0_3.index t (0 : Fin 2) = t.val / nk ∧ win0_3.index t (1 : Fin 2) = 0
    ∧ win0_4.index t (0 : Fin 2) = 0 ∧ win0_4.index t (1 : Fin 2) = 0
    ∧ win0_5.index t (0 : Fin 2) = t.val / nk ∧ win0_5.index t (1 : Fin 2) = 0 :=
  (by decide +kernel : ∀ t : Fin grid0.N, _)

/-- An uncut window moves the whole block. -/
theorem lt_xsize (w : Fin cfg0.W) (hclip : ∀ (i : cfg0.grid.Coords) a, (cfg0.win w).clip i a = none)
    (t : Fin cfg0.N) (y : (cfg0.win w).block.Idx) (a : Fin (cfg0.win w).shape.rank) :
    (y a).val < (cfg0.win w).xsize (cfg0.grid.coords t) a := by
  show (y a).val < ((cfg0.win w).clip (cfg0.grid.coords t) a).extent ((cfg0.win w).size a)
  rw [hclip]; exact (y a).isLt

/-- An element of an input window's block at point `t` is the array's element at the block index times the block's size
    plus its own coordinate, on each axis. -/
theorem inBlk_apply (c : Dev nD) (w : Fin cfg0.W) (hclip : ∀ (i : cfg0.grid.Coords) a, (cfg0.win w).clip i a = none)
    (t : Fin cfg0.N) (y : (cfg0.win w).block.Idx) :
    inBlk V c w t y = _root_.cast (congrArg (Elt Ideal) ((cfg0.win w).blk t).view.elt_eq)
      (A0 V c w (((cfg0.win w).blk t).view.emb fun a => ⟨(y a).val, lt_xsize w hclip t y a⟩)) := by
  unfold inBlk
  have hy : y = (cfg0.win w).xinj (cfg0.grid.coords t) (fun a => ⟨(y a).val, lt_xsize w hclip t y a⟩) := rfl
  conv_lhs => rw [hy]
  rw [Window.fill_xinj, View.read_apply]

/-- The arrays as functions of two naturals, zero outside their extents. -/
def fA (c : Dev nD) (x y : ℕ) : EReal := if h : x < Mp ∧ y < Kp then rA V c ⟨x, h.1⟩ ⟨y, h.2⟩ else 0
def fB (c : Dev nD) (x y : ℕ) : EReal := if h : x < Kp ∧ y < Np then rB V c ⟨x, h.1⟩ ⟨y, h.2⟩ else 0
def fD (c : Dev nD) (x : ℕ) : EReal := if h : x < Mp then rD V c ⟨x, h⟩ else 0
def fE (c : Dev nD) (y : ℕ) : EReal := if h : y < Np then rE V c ⟨y, h⟩ else 0

theorem blkA (c : Dev nD) (t : Fin cfg0.N) (r : Fin tm) (l : Fin tk) :
    inBlk V c 0 t (ix2 r l) = fA V c (t.val / nk * tm + r) (t.val % nk * tk + l) := by
  rw [inBlk_apply V c 0 (fun _ _ => rfl) t]
  have ht := lt_of_lt_of_eq t.isLt N_eq
  have hr := r.isLt; have hl := l.isLt
  obtain ⟨h0, h1, -⟩ := idx_facts t
  unfold fA
  rw [dif_pos ⟨by simp only [nk, tm, Mp] at *; omega, by simp only [nk, tk, Kp] at *; omega⟩]
  refine (cast_eq _ _).trans ?_
  show V c vA _ = V c vA _
  congr 1
  funext a
  apply Fin.ext
  fin_cases a
  · refine (Pipeline.Window.rect_emb_val win0_0 t _ 0).trans ?_; rw [h0]; rfl
  · refine (Pipeline.Window.rect_emb_val win0_0 t _ 1).trans ?_; rw [h1]; rfl

theorem blkB (c : Dev nD) (t : Fin cfg0.N) (l : Fin tk) (j : Fin Np) :
    inBlk V c 1 t (ix2 l j) = fB V c (t.val % nk * tk + l) j := by
  rw [inBlk_apply V c 1 (fun _ _ => rfl) t]
  have ht := lt_of_lt_of_eq t.isLt N_eq
  have hl := l.isLt; have hj := j.isLt
  obtain ⟨-, -, h0, h1, -⟩ := idx_facts t
  unfold fB
  rw [dif_pos ⟨by simp only [nk, tk, Kp] at *; omega, hj⟩]
  refine (cast_eq _ _).trans ?_
  show V c vB _ = V c vB _
  congr 1
  funext a
  apply Fin.ext
  fin_cases a
  · refine (Pipeline.Window.rect_emb_val win0_1 t _ 0).trans ?_; rw [h0]; rfl
  · refine (Pipeline.Window.rect_emb_val win0_1 t _ 1).trans ?_; rw [h1]; exact Nat.zero_add _

theorem blkD (c : Dev nD) (t : Fin cfg0.N) (r : Fin tm) :
    inBlk V c 3 t (ix2 r 0) = fD V c (t.val / nk * tm + r) := by
  rw [inBlk_apply V c 3 (fun _ _ => rfl) t]
  have ht := lt_of_lt_of_eq t.isLt N_eq
  have hr := r.isLt
  obtain ⟨-, -, -, -, h0, h1, -⟩ := idx_facts t
  unfold fD
  rw [dif_pos (by simp only [nk, tm, Mp] at *; omega)]
  refine (cast_eq _ _).trans ?_
  show V c vD _ = V c vD _
  congr 1
  funext a
  apply Fin.ext
  fin_cases a
  · refine (Pipeline.Window.rect_emb_val win0_3 t _ 0).trans ?_; rw [h0]; rfl
  · refine (Pipeline.Window.rect_emb_val win0_3 t _ 1).trans ?_; rw [h1]; rfl

theorem blkE (c : Dev nD) (t : Fin cfg0.N) (j : Fin Np) :
    inBlk V c 4 t (ix2 0 j) = fE V c j := by
  rw [inBlk_apply V c 4 (fun _ _ => rfl) t]
  have hj := j.isLt
  obtain ⟨-, -, -, -, -, -, h0, h1, -⟩ := idx_facts t
  unfold fE
  rw [dif_pos hj]
  refine (cast_eq _ _).trans ?_
  show V c vE _ = V c vE _
  congr 1
  funext a
  apply Fin.ext
  fin_cases a
  · refine (Pipeline.Window.rect_emb_val win0_4 t _ 0).trans ?_; rw [h0]; rfl
  · refine (Pipeline.Window.rect_emb_val win0_4 t _ 1).trans ?_; rw [h1]; exact Nat.zero_add _

/-! ## The accumulator is the partial sum -/

/-- One term of the product at row `x`, column `y`. -/
def gAB (c : Dev nD) (x y K : ℕ) : EReal := fA V c x K * fB V c K y

/-- The first block of a sum over blocks. -/
theorem sum_first_block (g : ℕ → EReal) : ∑ l : Fin tk, g (0 * tk + l) = ∑ K : Fin ((0 + 1) * tk), g K := by
  rw [MatmulMath.sum_fin_succ_block 0 tk g, Nat.zero_mul, Fin.sum_univ_zero, zero_add]

/-- After point `n` the accumulator holds, at (r, j), the sum of the product's terms over the reduction blocks of the
    run so far. -/
theorem acc_apply (c : Dev nD) : ∀ (n : ℕ) (h : n < cfg0.N) (r : Fin tm) (j : Fin Np),
    acc V c n h (ix2 r j) = ∑ K : Fin ((n % nk + 1) * tk), gAB V c (n / nk * tm + r) j K
  | 0, h, r, j => by
    show k0_pay2 (inBlk V c 0 ⟨0, h⟩) (inBlk V c 1 ⟨0, h⟩) (k0_pay1 (F := Ideal)) (ix2 r j) = _
    rw [MatmulMath.k0_pay2_apply, MatmulMath.k0_pay1_apply, zero_add]
    simp only [blkA, blkB]
    rw [Nat.zero_mod]
    exact sum_first_block (gAB V c (0 / nk * tm + r) j)
  | m + 1, h, r, j => by
    show k0_pay2 (inBlk V c 0 ⟨m + 1, h⟩) (inBlk V c 1 ⟨m + 1, h⟩)
      (if (m + 1) % nk = 0 then k0_pay1 (F := Ideal) else acc V c m (Nat.lt_of_succ_lt h)) (ix2 r j) = _
    rw [MatmulMath.k0_pay2_apply]
    simp only [blkA, blkB]
    by_cases hm : (m + 1) % nk = 0
    · rw [if_pos hm, MatmulMath.k0_pay1_apply, zero_add, hm]
      exact sum_first_block (gAB V c ((m + 1) / nk * tm + r) j)
    · have e1 : (m + 1) / nk = m / nk := by simp only [nk] at *; omega
      have e2 : (m + 1) % nk = m % nk + 1 := by simp only [nk] at *; omega
      rw [if_neg hm, acc_apply c m (Nat.lt_of_succ_lt h) r j, e1, e2]
      exact (MatmulMath.sum_fin_succ_block (m % nk + 1) tk (gAB V c (m / nk * tm + r) j)).symm

/-! ## The output array -/

local notation "dat'" => dat (F := Ideal) (Ix := Ix) (U := U) (Lvl := Lvl)

theorem fA_val (c : Dev nD) (x : Fin Mp) (K : Fin Kp) : fA V c x.val K.val = rA V c x K := by
  unfold fA; rw [dif_pos ⟨x.isLt, K.isLt⟩]
theorem fB_val (c : Dev nD) (K : Fin Kp) (y : Fin Np) : fB V c K.val y.val = rB V c K y := by
  unfold fB; rw [dif_pos ⟨K.isLt, y.isLt⟩]
theorem fD_val (c : Dev nD) (x : Fin Mp) : fD V c x.val = rD V c x := by
  unfold fD; rw [dif_pos x.isLt]
theorem fE_val (c : Dev nD) (y : Fin Np) : fE V c y.val = rE V c y := by
  unfold fE; rw [dif_pos y.isLt]

/-- What a point that ends a reduction run leaves in the output block, at (r, j). -/
theorem after5_apply (c : Dev nD) (t : Fin cfg0.N) (ht : t.val % nk = kl) (r : Fin tm) (j : Fin Np) :
    (dat' V c).after 5 t (ix2 r j)
      = act ((∑ K : Fin Kp, gAB V c (t.val / nk * tm + r) j K) * fD V c (t.val / nk * tm + r) + fE V c j) := by
  rw [after5, MatmulMath.k0_pay3_apply, acc_apply, blkD, blkE, ht]
  rfl

/-- The output array as the claim names it: at (r, j) the whole contracted sum, scaled by row r's scale, plus column j's
    bias. -/
def G (c : Dev nD) : Buf (Elt Ideal) ((cfg0.win 5).arr.view.loc (c : Thread nD τ)) := fun i =>
  act ((∑ q : Fin Kp, rA V c (i 0) q * rB V c q (i 1)) * rD V c (i 0) + rE V c (i 1))

/-- A point that ends a reduction run leaves, at (r, j) of the output block, `G` at that element of the array. -/
theorem flushed_apply (c : Dev nD) (t : Fin cfg0.N) (hf : (cfg0.win 5).flush t = true) (r : Fin tm) (j : Fin Np) :
    (dat' V c).flushed 5 t (ix2 r j) = ((cfg0.win 5).blk t).view.read (Elt Ideal) (G V c) (ix2 r j) := by
  have ht : t.val % nk = kl := (flush0_5 t).mp hf
  obtain ⟨-, -, -, -, -, -, -, -, h0, h1⟩ := idx_facts t
  rw [View.read_apply]
  refine Eq.trans ?_ (cast_eq _ _).symm
  show (dat' V c).after 5 t (ix2 r j) = _
  rw [after5_apply V c t ht]
  have e0 : ((((cfg0.win 5).blk t).view.emb (ix2 r j)) 0 : Fin Mp).val = t.val / nk * tm + r.val := by
    refine (Pipeline.Window.rect_emb_val win0_5 t _ 0).trans ?_; rw [h0]; rfl
  have e1 : ((((cfg0.win 5).blk t).view.emb (ix2 r j)) 1 : Fin Np).val = j.val := by
    refine (Pipeline.Window.rect_emb_val win0_5 t _ 1).trans ?_; rw [h1]; exact Nat.zero_add _
  unfold G
  rw [← e0, ← e1]
  simp only [gAB]
  exact congrArg act (congrArg₂ (· + ·) (congrArg₂ (· * ·)
    (Finset.sum_congr rfl fun K _ => congrArg₂ (· * ·) (fA_val V c _ K) (fB_val V c K _)) (fD_val V c _)) (fE_val V c _))

/-- Every point that writes the output back writes its block of `G`. -/
theorem flushed_eq (c : Dev nD) (t : Fin cfg0.N) (hf : (cfg0.win 5).flush t = true) :
    (dat' V c).flushed 5 t = ((cfg0.win 5).blk t).view.read (Elt Ideal) (G V c) := by
  funext y
  have hy : y = ix2 (n0 := tm) (n1 := Np) (y 0) (y 1) := eq_ix2 (n0 := tm) (n1 := Np) y
  exact (congrArg ((dat' V c).flushed 5 t) hy).trans ((flushed_apply V c t hf (y 0) (y 1)).trans
    (congrArg (((cfg0.win 5).blk t).view.read (Elt Ideal) (G V c)) hy.symm))

/-- The blocks written back tile the output array. -/
theorem cover (c : Dev nD) (i : ((cfg0.win 5).arr.view.loc (c : Thread nD τ)).2.ty.Idx) :
    ∃ t : Fin cfg0.N, (cfg0.win 5).flush t = true ∧ i ∈ ((cfg0.win 5).blk t).view.set := by
  have hi0 : (i 0).val < Mp := (i 0).isLt
  have hi1 : (i 1).val < Np := (i 1).isLt
  have htv : (i 0).val / tm * nk + kl < cfg0.N := by rw [N_eq]; simp only [tm, nk, kl, Mp] at *; omega
  refine ⟨⟨(i 0).val / tm * nk + kl, htv⟩, (flush0_5 _).mpr (by simp only [nk, kl]; omega), ?_⟩
  obtain ⟨-, -, -, -, -, -, -, -, h0, h1⟩ := idx_facts ⟨(i 0).val / tm * nk + kl, htv⟩
  have he : ((cfg0.win 5).blk ⟨(i 0).val / tm * nk + kl, htv⟩).view.emb
      (ix2 (⟨(i 0).val % tm, Nat.mod_lt _ (by decide)⟩ : Fin tm) (⟨(i 1).val, hi1⟩ : Fin Np)) = i := by
    funext a; apply Fin.ext; fin_cases a
    · refine (Pipeline.Window.rect_emb_val win0_5 ⟨(i 0).val / tm * nk + kl, htv⟩ _ 0).trans ?_; rw [h0]
      show ((i 0).val / tm * nk + kl) / nk * tm + (i 0).val % tm = (i 0).val
      simp only [nk, kl, tm]; omega
    · refine (Pipeline.Window.rect_emb_val win0_5 ⟨(i 0).val / tm * nk + kl, htv⟩ _ 1).trans ?_; rw [h1]
      exact Nat.zero_add _
  have hm := View.emb_mem_set ((cfg0.win 5).blk ⟨(i 0).val / tm * nk + kl, htv⟩).view
    (ix2 (⟨(i 0).val % tm, Nat.mod_lt _ (by decide)⟩ : Fin tm) (⟨(i 1).val, hi1⟩ : Fin Np))
  rwa [he] at hm

/-- THE OUTPUT ARRAY after the region, element by element, over the entry valuation's arrays. -/
theorem out_apply_at (c : Dev nD) (r : Fin Mp) (j : Fin Np) :
    (dat' V c).arrAt 5 cfg0.N (ix2 r j)
      = act ((∑ q : Fin Kp, rA V c r q * rB V c q j) * rD V c r + rE V c j) :=
  congrFun ((dat' V c).arrAt_eq_of_cover 5 (G V c) (flushed_eq V c) (cover c)) (ix2 r j)

/-- The four operand arrays and the output array as arrays of their literal types. -/
abbrev arrA (c : Dev nD) : (⟨2, ![Mp, Kp]⟩ : Shape).Idx → EReal := V c vA
abbrev arrB (c : Dev nD) : (⟨2, ![Kp, Np]⟩ : Shape).Idx → EReal := V c vB
abbrev arrS (c : Dev nD) : (⟨2, ![Mp, 1]⟩ : Shape).Idx → EReal := V c vD
abbrev arrZ (c : Dev nD) : (⟨2, ![1, Np]⟩ : Shape).Idx → EReal := V c vE
abbrev outArr (c : Dev nD) : (⟨2, ![Mp, Np]⟩ : Shape).Idx → EReal := (dat' V c).arrAt 5 cfg0.N

/-- THE OUTPUT ARRAY after the region over the operand arrays, element by element. -/
theorem out_apply (c : Dev nD) (r : Fin Mp) (j : Fin Np) :
    outArr (Ix := Ix) (U := U) (Lvl := Lvl) V c (ix2 r j)
      = act ((∑ q : Fin Kp, arrA V c (ix2 r q) * arrB V c (ix2 q j)) * arrS V c (ix2 r 0) + arrZ V c (ix2 0 j)) :=
  out_apply_at V c r j

end Cert.KernelIdeal.Region0
end
-- ==== Proof.KI.Region1Value.lean ====
/-
  REGION 1 at the ideal values: the output array after the region, element by element.

  The grid's point t = i * nk + k adds to the accumulator the product of the left operand's block (i, k) and the right
  operand's block k; so after point t the accumulator holds, at (r, j), the sum of the products' terms over the first
  (k + 1) * tk contracted indices, by induction on the point (a sum over blocks is one sum: associativity only). The
  point that ends a run (k = nk - 1) stores accumulator * row scale + bias into the output block i, the blocks written
  back tile the output array, and so the array ends holding at (r, j) the whole contracted sum scaled by row r's scale
  plus column j's bias.
-/
import proofs.«414035_j83562883711810_2_alg».proof.Proof.KI.Region1
import proofs.«414035_j83562883711810_2_alg».proof.Proof.KI.MatmulMath
import Idealize.ShloMosaic.Lib.ValueIdx
import Idealize.ShloMosaic.Lib.Pipeline.Value

noncomputable section
open scoped BigOperators
namespace Cert.KernelIdeal.Region1
open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Window)
variable {Ix : Type} [DecidableEq Ix] {U : Type} [URA U] {Lvl : Type} [Preorder Lvl]

/-! ## The value's literals -/

/-- The arrays of windows 0, 1, 3 and 4 (left operand, right operand, row scales, bias row). -/
abbrev vA : Ref sig .tc := main_v53
abbrev vB : Ref sig .tc := main_v55
abbrev vD : Ref sig .tc := main_v57
abbrev vE : Ref sig .tc := main_v58
/-- The arrays' extents (rows, contracted extent, columns) and the blocks' (rows, contracted extent). -/
abbrev Mp : ℕ := 2048
abbrev Kp : ℕ := 4096
abbrev Np : ℕ := 256
abbrev tm : ℕ := 1024
abbrev tk : ℕ := 1024
theorem N_eq : cfg1.N = 8 := N_1
/-- The output's activation. -/
abbrev act (x : EReal) : EReal := x

variable (V : Dev nD → Valuation τ sig (Elt Ideal))

/-- The four arrays read at a row and a column, as extended reals. -/
abbrev rA (c : Dev nD) (x : Fin Mp) (y : Fin Kp) : EReal := V c vA (ix2 x y)
abbrev rB (c : Dev nD) (x : Fin Kp) (y : Fin Np) : EReal := V c vB (ix2 x y)
abbrev rD (c : Dev nD) (x : Fin Mp) : EReal := V c vD (ix2 x 0)
abbrev rE (c : Dev nD) (y : Fin Np) : EReal := V c vE (ix2 0 y)

/-! ## The blocks in the arrays -/

/-- The index maps over the grid: window 0's block is (row tile, reduction tile), window 1's (reduction tile, 0), windows
    3's and 5's (row tile, 0), window 4's (0, 0). -/
theorem idx_facts : ∀ t : Fin cfg1.N,
    win1_0.index t (0 : Fin 2) = t.val / nk ∧ win1_0.index t (1 : Fin 2) = t.val % nk
    ∧ win1_1.index t (0 : Fin 2) = t.val % nk ∧ win1_1.index t (1 : Fin 2) = 0
    ∧ win1_3.index t (0 : Fin 2) = t.val / nk ∧ win1_3.index t (1 : Fin 2) = 0
    ∧ win1_4.index t (0 : Fin 2) = 0 ∧ win1_4.index t (1 : Fin 2) = 0
    ∧ win1_5.index t (0 : Fin 2) = t.val / nk ∧ win1_5.index t (1 : Fin 2) = 0 :=
  (by decide +kernel : ∀ t : Fin grid1.N, _)

/-- An uncut window moves the whole block. -/
theorem lt_xsize (w : Fin cfg1.W) (hclip : ∀ (i : cfg1.grid.Coords) a, (cfg1.win w).clip i a = none)
    (t : Fin cfg1.N) (y : (cfg1.win w).block.Idx) (a : Fin (cfg1.win w).shape.rank) :
    (y a).val < (cfg1.win w).xsize (cfg1.grid.coords t) a := by
  show (y a).val < ((cfg1.win w).clip (cfg1.grid.coords t) a).extent ((cfg1.win w).size a)
  rw [hclip]; exact (y a).isLt

/-- An element of an input window's block at point `t` is the array's element at the block index times the block's size
    plus its own coordinate, on each axis. -/
theorem inBlk_apply (c : Dev nD) (w : Fin cfg1.W) (hclip : ∀ (i : cfg1.grid.Coords) a, (cfg1.win w).clip i a = none)
    (t : Fin cfg1.N) (y : (cfg1.win w).block.Idx) :
    inBlk V c w t y = _root_.cast (congrArg (Elt Ideal) ((cfg1.win w).blk t).view.elt_eq)
      (A0 V c w (((cfg1.win w).blk t).view.emb fun a => ⟨(y a).val, lt_xsize w hclip t y a⟩)) := by
  unfold inBlk
  have hy : y = (cfg1.win w).xinj (cfg1.grid.coords t) (fun a => ⟨(y a).val, lt_xsize w hclip t y a⟩) := rfl
  conv_lhs => rw [hy]
  rw [Window.fill_xinj, View.read_apply]

/-- The arrays as functions of two naturals, zero outside their extents. -/
def fA (c : Dev nD) (x y : ℕ) : EReal := if h : x < Mp ∧ y < Kp then rA V c ⟨x, h.1⟩ ⟨y, h.2⟩ else 0
def fB (c : Dev nD) (x y : ℕ) : EReal := if h : x < Kp ∧ y < Np then rB V c ⟨x, h.1⟩ ⟨y, h.2⟩ else 0
def fD (c : Dev nD) (x : ℕ) : EReal := if h : x < Mp then rD V c ⟨x, h⟩ else 0
def fE (c : Dev nD) (y : ℕ) : EReal := if h : y < Np then rE V c ⟨y, h⟩ else 0

theorem blkA (c : Dev nD) (t : Fin cfg1.N) (r : Fin tm) (l : Fin tk) :
    inBlk V c 0 t (ix2 r l) = fA V c (t.val / nk * tm + r) (t.val % nk * tk + l) := by
  rw [inBlk_apply V c 0 (fun _ _ => rfl) t]
  have ht := lt_of_lt_of_eq t.isLt N_eq
  have hr := r.isLt; have hl := l.isLt
  obtain ⟨h0, h1, -⟩ := idx_facts t
  unfold fA
  rw [dif_pos ⟨by simp only [nk, tm, Mp] at *; omega, by simp only [nk, tk, Kp] at *; omega⟩]
  refine (cast_eq _ _).trans ?_
  show V c vA _ = V c vA _
  congr 1
  funext a
  apply Fin.ext
  fin_cases a
  · refine (Pipeline.Window.rect_emb_val win1_0 t _ 0).trans ?_; rw [h0]; rfl
  · refine (Pipeline.Window.rect_emb_val win1_0 t _ 1).trans ?_; rw [h1]; rfl

theorem blkB (c : Dev nD) (t : Fin cfg1.N) (l : Fin tk) (j : Fin Np) :
    inBlk V c 1 t (ix2 l j) = fB V c (t.val % nk * tk + l) j := by
  rw [inBlk_apply V c 1 (fun _ _ => rfl) t]
  have ht := lt_of_lt_of_eq t.isLt N_eq
  have hl := l.isLt; have hj := j.isLt
  obtain ⟨-, -, h0, h1, -⟩ := idx_facts t
  unfold fB
  rw [dif_pos ⟨by simp only [nk, tk, Kp] at *; omega, hj⟩]
  refine (cast_eq _ _).trans ?_
  show V c vB _ = V c vB _
  congr 1
  funext a
  apply Fin.ext
  fin_cases a
  · refine (Pipeline.Window.rect_emb_val win1_1 t _ 0).trans ?_; rw [h0]; rfl
  · refine (Pipeline.Window.rect_emb_val win1_1 t _ 1).trans ?_; rw [h1]; exact Nat.zero_add _

theorem blkD (c : Dev nD) (t : Fin cfg1.N) (r : Fin tm) :
    inBlk V c 3 t (ix2 r 0) = fD V c (t.val / nk * tm + r) := by
  rw [inBlk_apply V c 3 (fun _ _ => rfl) t]
  have ht := lt_of_lt_of_eq t.isLt N_eq
  have hr := r.isLt
  obtain ⟨-, -, -, -, h0, h1, -⟩ := idx_facts t
  unfold fD
  rw [dif_pos (by simp only [nk, tm, Mp] at *; omega)]
  refine (cast_eq _ _).trans ?_
  show V c vD _ = V c vD _
  congr 1
  funext a
  apply Fin.ext
  fin_cases a
  · refine (Pipeline.Window.rect_emb_val win1_3 t _ 0).trans ?_; rw [h0]; rfl
  · refine (Pipeline.Window.rect_emb_val win1_3 t _ 1).trans ?_; rw [h1]; rfl

theorem blkE (c : Dev nD) (t : Fin cfg1.N) (j : Fin Np) :
    inBlk V c 4 t (ix2 0 j) = fE V c j := by
  rw [inBlk_apply V c 4 (fun _ _ => rfl) t]
  have hj := j.isLt
  obtain ⟨-, -, -, -, -, -, h0, h1, -⟩ := idx_facts t
  unfold fE
  rw [dif_pos hj]
  refine (cast_eq _ _).trans ?_
  show V c vE _ = V c vE _
  congr 1
  funext a
  apply Fin.ext
  fin_cases a
  · refine (Pipeline.Window.rect_emb_val win1_4 t _ 0).trans ?_; rw [h0]; rfl
  · refine (Pipeline.Window.rect_emb_val win1_4 t _ 1).trans ?_; rw [h1]; exact Nat.zero_add _

/-! ## The accumulator is the partial sum -/

/-- One term of the product at row `x`, column `y`. -/
def gAB (c : Dev nD) (x y K : ℕ) : EReal := fA V c x K * fB V c K y

/-- The first block of a sum over blocks. -/
theorem sum_first_block (g : ℕ → EReal) : ∑ l : Fin tk, g (0 * tk + l) = ∑ K : Fin ((0 + 1) * tk), g K := by
  rw [MatmulMath.sum_fin_succ_block 0 tk g, Nat.zero_mul, Fin.sum_univ_zero, zero_add]

/-- After point `n` the accumulator holds, at (r, j), the sum of the product's terms over the reduction blocks of the
    run so far. -/
theorem acc_apply (c : Dev nD) : ∀ (n : ℕ) (h : n < cfg1.N) (r : Fin tm) (j : Fin Np),
    acc V c n h (ix2 r j) = ∑ K : Fin ((n % nk + 1) * tk), gAB V c (n / nk * tm + r) j K
  | 0, h, r, j => by
    show k1_pay2 (inBlk V c 0 ⟨0, h⟩) (inBlk V c 1 ⟨0, h⟩) (k1_pay1 (F := Ideal)) (ix2 r j) = _
    rw [MatmulMath.k1_pay2_apply, MatmulMath.k1_pay1_apply, zero_add]
    simp only [blkA, blkB]
    rw [Nat.zero_mod]
    exact sum_first_block (gAB V c (0 / nk * tm + r) j)
  | m + 1, h, r, j => by
    show k1_pay2 (inBlk V c 0 ⟨m + 1, h⟩) (inBlk V c 1 ⟨m + 1, h⟩)
      (if (m + 1) % nk = 0 then k1_pay1 (F := Ideal) else acc V c m (Nat.lt_of_succ_lt h)) (ix2 r j) = _
    rw [MatmulMath.k1_pay2_apply]
    simp only [blkA, blkB]
    by_cases hm : (m + 1) % nk = 0
    · rw [if_pos hm, MatmulMath.k1_pay1_apply, zero_add, hm]
      exact sum_first_block (gAB V c ((m + 1) / nk * tm + r) j)
    · have e1 : (m + 1) / nk = m / nk := by simp only [nk] at *; omega
      have e2 : (m + 1) % nk = m % nk + 1 := by simp only [nk] at *; omega
      rw [if_neg hm, acc_apply c m (Nat.lt_of_succ_lt h) r j, e1, e2]
      exact (MatmulMath.sum_fin_succ_block (m % nk + 1) tk (gAB V c (m / nk * tm + r) j)).symm

/-! ## The output array -/

local notation "dat'" => dat (F := Ideal) (Ix := Ix) (U := U) (Lvl := Lvl)

theorem fA_val (c : Dev nD) (x : Fin Mp) (K : Fin Kp) : fA V c x.val K.val = rA V c x K := by
  unfold fA; rw [dif_pos ⟨x.isLt, K.isLt⟩]
theorem fB_val (c : Dev nD) (K : Fin Kp) (y : Fin Np) : fB V c K.val y.val = rB V c K y := by
  unfold fB; rw [dif_pos ⟨K.isLt, y.isLt⟩]
theorem fD_val (c : Dev nD) (x : Fin Mp) : fD V c x.val = rD V c x := by
  unfold fD; rw [dif_pos x.isLt]
theorem fE_val (c : Dev nD) (y : Fin Np) : fE V c y.val = rE V c y := by
  unfold fE; rw [dif_pos y.isLt]

/-- What a point that ends a reduction run leaves in the output block, at (r, j). -/
theorem after5_apply (c : Dev nD) (t : Fin cfg1.N) (ht : t.val % nk = kl) (r : Fin tm) (j : Fin Np) :
    (dat' V c).after 5 t (ix2 r j)
      = act ((∑ K : Fin Kp, gAB V c (t.val / nk * tm + r) j K) * fD V c (t.val / nk * tm + r) + fE V c j) := by
  rw [after5, MatmulMath.k1_pay3_apply, acc_apply, blkD, blkE, ht]
  rfl

/-- The output array as the claim names it: at (r, j) the whole contracted sum, scaled by row r's scale, plus column j's
    bias. -/
def G (c : Dev nD) : Buf (Elt Ideal) ((cfg1.win 5).arr.view.loc (c : Thread nD τ)) := fun i =>
  act ((∑ q : Fin Kp, rA V c (i 0) q * rB V c q (i 1)) * rD V c (i 0) + rE V c (i 1))

/-- A point that ends a reduction run leaves, at (r, j) of the output block, `G` at that element of the array. -/
theorem flushed_apply (c : Dev nD) (t : Fin cfg1.N) (hf : (cfg1.win 5).flush t = true) (r : Fin tm) (j : Fin Np) :
    (dat' V c).flushed 5 t (ix2 r j) = ((cfg1.win 5).blk t).view.read (Elt Ideal) (G V c) (ix2 r j) := by
  have ht : t.val % nk = kl := (flush1_5 t).mp hf
  obtain ⟨-, -, -, -, -, -, -, -, h0, h1⟩ := idx_facts t
  rw [View.read_apply]
  refine Eq.trans ?_ (cast_eq _ _).symm
  show (dat' V c).after 5 t (ix2 r j) = _
  rw [after5_apply V c t ht]
  have e0 : ((((cfg1.win 5).blk t).view.emb (ix2 r j)) 0 : Fin Mp).val = t.val / nk * tm + r.val := by
    refine (Pipeline.Window.rect_emb_val win1_5 t _ 0).trans ?_; rw [h0]; rfl
  have e1 : ((((cfg1.win 5).blk t).view.emb (ix2 r j)) 1 : Fin Np).val = j.val := by
    refine (Pipeline.Window.rect_emb_val win1_5 t _ 1).trans ?_; rw [h1]; exact Nat.zero_add _
  unfold G
  rw [← e0, ← e1]
  simp only [gAB]
  exact congrArg act (congrArg₂ (· + ·) (congrArg₂ (· * ·)
    (Finset.sum_congr rfl fun K _ => congrArg₂ (· * ·) (fA_val V c _ K) (fB_val V c K _)) (fD_val V c _)) (fE_val V c _))

/-- Every point that writes the output back writes its block of `G`. -/
theorem flushed_eq (c : Dev nD) (t : Fin cfg1.N) (hf : (cfg1.win 5).flush t = true) :
    (dat' V c).flushed 5 t = ((cfg1.win 5).blk t).view.read (Elt Ideal) (G V c) := by
  funext y
  have hy : y = ix2 (n0 := tm) (n1 := Np) (y 0) (y 1) := eq_ix2 (n0 := tm) (n1 := Np) y
  exact (congrArg ((dat' V c).flushed 5 t) hy).trans ((flushed_apply V c t hf (y 0) (y 1)).trans
    (congrArg (((cfg1.win 5).blk t).view.read (Elt Ideal) (G V c)) hy.symm))

/-- The blocks written back tile the output array. -/
theorem cover (c : Dev nD) (i : ((cfg1.win 5).arr.view.loc (c : Thread nD τ)).2.ty.Idx) :
    ∃ t : Fin cfg1.N, (cfg1.win 5).flush t = true ∧ i ∈ ((cfg1.win 5).blk t).view.set := by
  have hi0 : (i 0).val < Mp := (i 0).isLt
  have hi1 : (i 1).val < Np := (i 1).isLt
  have htv : (i 0).val / tm * nk + kl < cfg1.N := by rw [N_eq]; simp only [tm, nk, kl, Mp] at *; omega
  refine ⟨⟨(i 0).val / tm * nk + kl, htv⟩, (flush1_5 _).mpr (by simp only [nk, kl]; omega), ?_⟩
  obtain ⟨-, -, -, -, -, -, -, -, h0, h1⟩ := idx_facts ⟨(i 0).val / tm * nk + kl, htv⟩
  have he : ((cfg1.win 5).blk ⟨(i 0).val / tm * nk + kl, htv⟩).view.emb
      (ix2 (⟨(i 0).val % tm, Nat.mod_lt _ (by decide)⟩ : Fin tm) (⟨(i 1).val, hi1⟩ : Fin Np)) = i := by
    funext a; apply Fin.ext; fin_cases a
    · refine (Pipeline.Window.rect_emb_val win1_5 ⟨(i 0).val / tm * nk + kl, htv⟩ _ 0).trans ?_; rw [h0]
      show ((i 0).val / tm * nk + kl) / nk * tm + (i 0).val % tm = (i 0).val
      simp only [nk, kl, tm]; omega
    · refine (Pipeline.Window.rect_emb_val win1_5 ⟨(i 0).val / tm * nk + kl, htv⟩ _ 1).trans ?_; rw [h1]
      exact Nat.zero_add _
  have hm := View.emb_mem_set ((cfg1.win 5).blk ⟨(i 0).val / tm * nk + kl, htv⟩).view
    (ix2 (⟨(i 0).val % tm, Nat.mod_lt _ (by decide)⟩ : Fin tm) (⟨(i 1).val, hi1⟩ : Fin Np))
  rwa [he] at hm

/-- THE OUTPUT ARRAY after the region, element by element, over the entry valuation's arrays. -/
theorem out_apply_at (c : Dev nD) (r : Fin Mp) (j : Fin Np) :
    (dat' V c).arrAt 5 cfg1.N (ix2 r j)
      = act ((∑ q : Fin Kp, rA V c r q * rB V c q j) * rD V c r + rE V c j) :=
  congrFun ((dat' V c).arrAt_eq_of_cover 5 (G V c) (flushed_eq V c) (cover c)) (ix2 r j)

/-- The four operand arrays and the output array as arrays of their literal types. -/
abbrev arrA (c : Dev nD) : (⟨2, ![Mp, Kp]⟩ : Shape).Idx → EReal := V c vA
abbrev arrB (c : Dev nD) : (⟨2, ![Kp, Np]⟩ : Shape).Idx → EReal := V c vB
abbrev arrS (c : Dev nD) : (⟨2, ![Mp, 1]⟩ : Shape).Idx → EReal := V c vD
abbrev arrZ (c : Dev nD) : (⟨2, ![1, Np]⟩ : Shape).Idx → EReal := V c vE
abbrev outArr (c : Dev nD) : (⟨2, ![Mp, Np]⟩ : Shape).Idx → EReal := (dat' V c).arrAt 5 cfg1.N

/-- THE OUTPUT ARRAY after the region over the operand arrays, element by element. -/
theorem out_apply (c : Dev nD) (r : Fin Mp) (j : Fin Np) :
    outArr (Ix := Ix) (U := U) (Lvl := Lvl) V c (ix2 r j)
      = act ((∑ q : Fin Kp, arrA V c (ix2 r q) * arrB V c (ix2 q j)) * arrS V c (ix2 r 0) + arrZ V c (ix2 0 j)) :=
  out_apply_at V c r j

end Cert.KernelIdeal.Region1
end
-- ==== Proof.KI.Region2Value.lean ====
/-
  REGION 2 at the ideal values: the output array after the region, element by element.

  The grid's point t = i * nk + k adds to the accumulator the product of the left operand's block (i, k) and the right
  operand's block k; so after point t the accumulator holds, at (r, j), the sum of the products' terms over the first
  (k + 1) * tk contracted indices, by induction on the point (a sum over blocks is one sum: associativity only). The
  point that ends a run (k = nk - 1) stores accumulator * row scale + bias into the output block i, the blocks written
  back tile the output array, and so the array ends holding at (r, j) the whole contracted sum scaled by row r's scale
  plus column j's bias.
-/
import proofs.«414035_j83562883711810_2_alg».proof.Proof.KI.Region2
import proofs.«414035_j83562883711810_2_alg».proof.Proof.KI.MatmulMath
import Idealize.ShloMosaic.Lib.ValueIdx
import Idealize.ShloMosaic.Lib.Pipeline.Value

noncomputable section
open scoped BigOperators
namespace Cert.KernelIdeal.Region2
open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Window)
variable {Ix : Type} [DecidableEq Ix] {U : Type} [URA U] {Lvl : Type} [Preorder Lvl]

/-! ## The value's literals -/

/-- The arrays of windows 0, 1, 3 and 4 (left operand, right operand, row scales, bias row). -/
abbrev vA : Ref sig .tc := main_v62
abbrev vB : Ref sig .tc := main_v64
abbrev vD : Ref sig .tc := main_v66
abbrev vE : Ref sig .tc := main_v38
/-- The arrays' extents (rows, contracted extent, columns) and the blocks' (rows, contracted extent). -/
abbrev Mp : ℕ := 4096
abbrev Kp : ℕ := 2048
abbrev Np : ℕ := 256
abbrev tm : ℕ := 1024
abbrev tk : ℕ := 1024
theorem N_eq : cfg2.N = 8 := N_2
/-- The output's activation. -/
abbrev act (x : EReal) : EReal := max x 0

variable (V : Dev nD → Valuation τ sig (Elt Ideal))

/-- The four arrays read at a row and a column, as extended reals. -/
abbrev rA (c : Dev nD) (x : Fin Mp) (y : Fin Kp) : EReal := V c vA (ix2 x y)
abbrev rB (c : Dev nD) (x : Fin Kp) (y : Fin Np) : EReal := V c vB (ix2 x y)
abbrev rD (c : Dev nD) (x : Fin Mp) : EReal := V c vD (ix2 x 0)
abbrev rE (c : Dev nD) (y : Fin Np) : EReal := V c vE (ix2 0 y)

/-! ## The blocks in the arrays -/

/-- The index maps over the grid: window 0's block is (row tile, reduction tile), window 1's (reduction tile, 0), windows
    3's and 5's (row tile, 0), window 4's (0, 0). -/
theorem idx_facts : ∀ t : Fin cfg2.N,
    win2_0.index t (0 : Fin 2) = t.val / nk ∧ win2_0.index t (1 : Fin 2) = t.val % nk
    ∧ win2_1.index t (0 : Fin 2) = t.val % nk ∧ win2_1.index t (1 : Fin 2) = 0
    ∧ win2_3.index t (0 : Fin 2) = t.val / nk ∧ win2_3.index t (1 : Fin 2) = 0
    ∧ win2_4.index t (0 : Fin 2) = 0 ∧ win2_4.index t (1 : Fin 2) = 0
    ∧ win2_5.index t (0 : Fin 2) = t.val / nk ∧ win2_5.index t (1 : Fin 2) = 0 :=
  (by decide +kernel : ∀ t : Fin grid2.N, _)

/-- An uncut window moves the whole block. -/
theorem lt_xsize (w : Fin cfg2.W) (hclip : ∀ (i : cfg2.grid.Coords) a, (cfg2.win w).clip i a = none)
    (t : Fin cfg2.N) (y : (cfg2.win w).block.Idx) (a : Fin (cfg2.win w).shape.rank) :
    (y a).val < (cfg2.win w).xsize (cfg2.grid.coords t) a := by
  show (y a).val < ((cfg2.win w).clip (cfg2.grid.coords t) a).extent ((cfg2.win w).size a)
  rw [hclip]; exact (y a).isLt

/-- An element of an input window's block at point `t` is the array's element at the block index times the block's size
    plus its own coordinate, on each axis. -/
theorem inBlk_apply (c : Dev nD) (w : Fin cfg2.W) (hclip : ∀ (i : cfg2.grid.Coords) a, (cfg2.win w).clip i a = none)
    (t : Fin cfg2.N) (y : (cfg2.win w).block.Idx) :
    inBlk V c w t y = _root_.cast (congrArg (Elt Ideal) ((cfg2.win w).blk t).view.elt_eq)
      (A0 V c w (((cfg2.win w).blk t).view.emb fun a => ⟨(y a).val, lt_xsize w hclip t y a⟩)) := by
  unfold inBlk
  have hy : y = (cfg2.win w).xinj (cfg2.grid.coords t) (fun a => ⟨(y a).val, lt_xsize w hclip t y a⟩) := rfl
  conv_lhs => rw [hy]
  rw [Window.fill_xinj, View.read_apply]

/-- The arrays as functions of two naturals, zero outside their extents. -/
def fA (c : Dev nD) (x y : ℕ) : EReal := if h : x < Mp ∧ y < Kp then rA V c ⟨x, h.1⟩ ⟨y, h.2⟩ else 0
def fB (c : Dev nD) (x y : ℕ) : EReal := if h : x < Kp ∧ y < Np then rB V c ⟨x, h.1⟩ ⟨y, h.2⟩ else 0
def fD (c : Dev nD) (x : ℕ) : EReal := if h : x < Mp then rD V c ⟨x, h⟩ else 0
def fE (c : Dev nD) (y : ℕ) : EReal := if h : y < Np then rE V c ⟨y, h⟩ else 0

theorem blkA (c : Dev nD) (t : Fin cfg2.N) (r : Fin tm) (l : Fin tk) :
    inBlk V c 0 t (ix2 r l) = fA V c (t.val / nk * tm + r) (t.val % nk * tk + l) := by
  rw [inBlk_apply V c 0 (fun _ _ => rfl) t]
  have ht := lt_of_lt_of_eq t.isLt N_eq
  have hr := r.isLt; have hl := l.isLt
  obtain ⟨h0, h1, -⟩ := idx_facts t
  unfold fA
  rw [dif_pos ⟨by simp only [nk, tm, Mp] at *; omega, by simp only [nk, tk, Kp] at *; omega⟩]
  refine (cast_eq _ _).trans ?_
  show V c vA _ = V c vA _
  congr 1
  funext a
  apply Fin.ext
  fin_cases a
  · refine (Pipeline.Window.rect_emb_val win2_0 t _ 0).trans ?_; rw [h0]; rfl
  · refine (Pipeline.Window.rect_emb_val win2_0 t _ 1).trans ?_; rw [h1]; rfl

theorem blkB (c : Dev nD) (t : Fin cfg2.N) (l : Fin tk) (j : Fin Np) :
    inBlk V c 1 t (ix2 l j) = fB V c (t.val % nk * tk + l) j := by
  rw [inBlk_apply V c 1 (fun _ _ => rfl) t]
  have ht := lt_of_lt_of_eq t.isLt N_eq
  have hl := l.isLt; have hj := j.isLt
  obtain ⟨-, -, h0, h1, -⟩ := idx_facts t
  unfold fB
  rw [dif_pos ⟨by simp only [nk, tk, Kp] at *; omega, hj⟩]
  refine (cast_eq _ _).trans ?_
  show V c vB _ = V c vB _
  congr 1
  funext a
  apply Fin.ext
  fin_cases a
  · refine (Pipeline.Window.rect_emb_val win2_1 t _ 0).trans ?_; rw [h0]; rfl
  · refine (Pipeline.Window.rect_emb_val win2_1 t _ 1).trans ?_; rw [h1]; exact Nat.zero_add _

theorem blkD (c : Dev nD) (t : Fin cfg2.N) (r : Fin tm) :
    inBlk V c 3 t (ix2 r 0) = fD V c (t.val / nk * tm + r) := by
  rw [inBlk_apply V c 3 (fun _ _ => rfl) t]
  have ht := lt_of_lt_of_eq t.isLt N_eq
  have hr := r.isLt
  obtain ⟨-, -, -, -, h0, h1, -⟩ := idx_facts t
  unfold fD
  rw [dif_pos (by simp only [nk, tm, Mp] at *; omega)]
  refine (cast_eq _ _).trans ?_
  show V c vD _ = V c vD _
  congr 1
  funext a
  apply Fin.ext
  fin_cases a
  · refine (Pipeline.Window.rect_emb_val win2_3 t _ 0).trans ?_; rw [h0]; rfl
  · refine (Pipeline.Window.rect_emb_val win2_3 t _ 1).trans ?_; rw [h1]; rfl

theorem blkE (c : Dev nD) (t : Fin cfg2.N) (j : Fin Np) :
    inBlk V c 4 t (ix2 0 j) = fE V c j := by
  rw [inBlk_apply V c 4 (fun _ _ => rfl) t]
  have hj := j.isLt
  obtain ⟨-, -, -, -, -, -, h0, h1, -⟩ := idx_facts t
  unfold fE
  rw [dif_pos hj]
  refine (cast_eq _ _).trans ?_
  show V c vE _ = V c vE _
  congr 1
  funext a
  apply Fin.ext
  fin_cases a
  · refine (Pipeline.Window.rect_emb_val win2_4 t _ 0).trans ?_; rw [h0]; rfl
  · refine (Pipeline.Window.rect_emb_val win2_4 t _ 1).trans ?_; rw [h1]; exact Nat.zero_add _

/-! ## The accumulator is the partial sum -/

/-- One term of the product at row `x`, column `y`. -/
def gAB (c : Dev nD) (x y K : ℕ) : EReal := fA V c x K * fB V c K y

/-- The first block of a sum over blocks. -/
theorem sum_first_block (g : ℕ → EReal) : ∑ l : Fin tk, g (0 * tk + l) = ∑ K : Fin ((0 + 1) * tk), g K := by
  rw [MatmulMath.sum_fin_succ_block 0 tk g, Nat.zero_mul, Fin.sum_univ_zero, zero_add]

/-- After point `n` the accumulator holds, at (r, j), the sum of the product's terms over the reduction blocks of the
    run so far. -/
theorem acc_apply (c : Dev nD) : ∀ (n : ℕ) (h : n < cfg2.N) (r : Fin tm) (j : Fin Np),
    acc V c n h (ix2 r j) = ∑ K : Fin ((n % nk + 1) * tk), gAB V c (n / nk * tm + r) j K
  | 0, h, r, j => by
    show k2_pay2 (inBlk V c 0 ⟨0, h⟩) (inBlk V c 1 ⟨0, h⟩) (k2_pay1 (F := Ideal)) (ix2 r j) = _
    rw [MatmulMath.k2_pay2_apply, MatmulMath.k2_pay1_apply, zero_add]
    simp only [blkA, blkB]
    rw [Nat.zero_mod]
    exact sum_first_block (gAB V c (0 / nk * tm + r) j)
  | m + 1, h, r, j => by
    show k2_pay2 (inBlk V c 0 ⟨m + 1, h⟩) (inBlk V c 1 ⟨m + 1, h⟩)
      (if (m + 1) % nk = 0 then k2_pay1 (F := Ideal) else acc V c m (Nat.lt_of_succ_lt h)) (ix2 r j) = _
    rw [MatmulMath.k2_pay2_apply]
    simp only [blkA, blkB]
    by_cases hm : (m + 1) % nk = 0
    · rw [if_pos hm, MatmulMath.k2_pay1_apply, zero_add, hm]
      exact sum_first_block (gAB V c ((m + 1) / nk * tm + r) j)
    · have e1 : (m + 1) / nk = m / nk := by simp only [nk] at *; omega
      have e2 : (m + 1) % nk = m % nk + 1 := by simp only [nk] at *; omega
      rw [if_neg hm, acc_apply c m (Nat.lt_of_succ_lt h) r j, e1, e2]
      exact (MatmulMath.sum_fin_succ_block (m % nk + 1) tk (gAB V c (m / nk * tm + r) j)).symm

/-! ## The output array -/

local notation "dat'" => dat (F := Ideal) (Ix := Ix) (U := U) (Lvl := Lvl)

theorem fA_val (c : Dev nD) (x : Fin Mp) (K : Fin Kp) : fA V c x.val K.val = rA V c x K := by
  unfold fA; rw [dif_pos ⟨x.isLt, K.isLt⟩]
theorem fB_val (c : Dev nD) (K : Fin Kp) (y : Fin Np) : fB V c K.val y.val = rB V c K y := by
  unfold fB; rw [dif_pos ⟨K.isLt, y.isLt⟩]
theorem fD_val (c : Dev nD) (x : Fin Mp) : fD V c x.val = rD V c x := by
  unfold fD; rw [dif_pos x.isLt]
theorem fE_val (c : Dev nD) (y : Fin Np) : fE V c y.val = rE V c y := by
  unfold fE; rw [dif_pos y.isLt]

/-- What a point that ends a reduction run leaves in the output block, at (r, j). -/
theorem after5_apply (c : Dev nD) (t : Fin cfg2.N) (ht : t.val % nk = kl) (r : Fin tm) (j : Fin Np) :
    (dat' V c).after 5 t (ix2 r j)
      = act ((∑ K : Fin Kp, gAB V c (t.val / nk * tm + r) j K) * fD V c (t.val / nk * tm + r) + fE V c j) := by
  rw [after5, MatmulMath.k2_pay3_apply, acc_apply, blkD, blkE, ht]
  rfl

/-- The output array as the claim names it: at (r, j) the whole contracted sum, scaled by row r's scale, plus column j's
    bias. -/
def G (c : Dev nD) : Buf (Elt Ideal) ((cfg2.win 5).arr.view.loc (c : Thread nD τ)) := fun i =>
  act ((∑ q : Fin Kp, rA V c (i 0) q * rB V c q (i 1)) * rD V c (i 0) + rE V c (i 1))

/-- A point that ends a reduction run leaves, at (r, j) of the output block, `G` at that element of the array. -/
theorem flushed_apply (c : Dev nD) (t : Fin cfg2.N) (hf : (cfg2.win 5).flush t = true) (r : Fin tm) (j : Fin Np) :
    (dat' V c).flushed 5 t (ix2 r j) = ((cfg2.win 5).blk t).view.read (Elt Ideal) (G V c) (ix2 r j) := by
  have ht : t.val % nk = kl := (flush2_5 t).mp hf
  obtain ⟨-, -, -, -, -, -, -, -, h0, h1⟩ := idx_facts t
  rw [View.read_apply]
  refine Eq.trans ?_ (cast_eq _ _).symm
  show (dat' V c).after 5 t (ix2 r j) = _
  rw [after5_apply V c t ht]
  have e0 : ((((cfg2.win 5).blk t).view.emb (ix2 r j)) 0 : Fin Mp).val = t.val / nk * tm + r.val := by
    refine (Pipeline.Window.rect_emb_val win2_5 t _ 0).trans ?_; rw [h0]; rfl
  have e1 : ((((cfg2.win 5).blk t).view.emb (ix2 r j)) 1 : Fin Np).val = j.val := by
    refine (Pipeline.Window.rect_emb_val win2_5 t _ 1).trans ?_; rw [h1]; exact Nat.zero_add _
  unfold G
  rw [← e0, ← e1]
  simp only [gAB]
  exact congrArg act (congrArg₂ (· + ·) (congrArg₂ (· * ·)
    (Finset.sum_congr rfl fun K _ => congrArg₂ (· * ·) (fA_val V c _ K) (fB_val V c K _)) (fD_val V c _)) (fE_val V c _))

/-- Every point that writes the output back writes its block of `G`. -/
theorem flushed_eq (c : Dev nD) (t : Fin cfg2.N) (hf : (cfg2.win 5).flush t = true) :
    (dat' V c).flushed 5 t = ((cfg2.win 5).blk t).view.read (Elt Ideal) (G V c) := by
  funext y
  have hy : y = ix2 (n0 := tm) (n1 := Np) (y 0) (y 1) := eq_ix2 (n0 := tm) (n1 := Np) y
  exact (congrArg ((dat' V c).flushed 5 t) hy).trans ((flushed_apply V c t hf (y 0) (y 1)).trans
    (congrArg (((cfg2.win 5).blk t).view.read (Elt Ideal) (G V c)) hy.symm))

/-- The blocks written back tile the output array. -/
theorem cover (c : Dev nD) (i : ((cfg2.win 5).arr.view.loc (c : Thread nD τ)).2.ty.Idx) :
    ∃ t : Fin cfg2.N, (cfg2.win 5).flush t = true ∧ i ∈ ((cfg2.win 5).blk t).view.set := by
  have hi0 : (i 0).val < Mp := (i 0).isLt
  have hi1 : (i 1).val < Np := (i 1).isLt
  have htv : (i 0).val / tm * nk + kl < cfg2.N := by rw [N_eq]; simp only [tm, nk, kl, Mp] at *; omega
  refine ⟨⟨(i 0).val / tm * nk + kl, htv⟩, (flush2_5 _).mpr (by simp only [nk, kl]; omega), ?_⟩
  obtain ⟨-, -, -, -, -, -, -, -, h0, h1⟩ := idx_facts ⟨(i 0).val / tm * nk + kl, htv⟩
  have he : ((cfg2.win 5).blk ⟨(i 0).val / tm * nk + kl, htv⟩).view.emb
      (ix2 (⟨(i 0).val % tm, Nat.mod_lt _ (by decide)⟩ : Fin tm) (⟨(i 1).val, hi1⟩ : Fin Np)) = i := by
    funext a; apply Fin.ext; fin_cases a
    · refine (Pipeline.Window.rect_emb_val win2_5 ⟨(i 0).val / tm * nk + kl, htv⟩ _ 0).trans ?_; rw [h0]
      show ((i 0).val / tm * nk + kl) / nk * tm + (i 0).val % tm = (i 0).val
      simp only [nk, kl, tm]; omega
    · refine (Pipeline.Window.rect_emb_val win2_5 ⟨(i 0).val / tm * nk + kl, htv⟩ _ 1).trans ?_; rw [h1]
      exact Nat.zero_add _
  have hm := View.emb_mem_set ((cfg2.win 5).blk ⟨(i 0).val / tm * nk + kl, htv⟩).view
    (ix2 (⟨(i 0).val % tm, Nat.mod_lt _ (by decide)⟩ : Fin tm) (⟨(i 1).val, hi1⟩ : Fin Np))
  rwa [he] at hm

/-- THE OUTPUT ARRAY after the region, element by element, over the entry valuation's arrays. -/
theorem out_apply_at (c : Dev nD) (r : Fin Mp) (j : Fin Np) :
    (dat' V c).arrAt 5 cfg2.N (ix2 r j)
      = act ((∑ q : Fin Kp, rA V c r q * rB V c q j) * rD V c r + rE V c j) :=
  congrFun ((dat' V c).arrAt_eq_of_cover 5 (G V c) (flushed_eq V c) (cover c)) (ix2 r j)

/-- The four operand arrays and the output array as arrays of their literal types. -/
abbrev arrA (c : Dev nD) : (⟨2, ![Mp, Kp]⟩ : Shape).Idx → EReal := V c vA
abbrev arrB (c : Dev nD) : (⟨2, ![Kp, Np]⟩ : Shape).Idx → EReal := V c vB
abbrev arrS (c : Dev nD) : (⟨2, ![Mp, 1]⟩ : Shape).Idx → EReal := V c vD
abbrev arrZ (c : Dev nD) : (⟨2, ![1, Np]⟩ : Shape).Idx → EReal := V c vE
abbrev outArr (c : Dev nD) : (⟨2, ![Mp, Np]⟩ : Shape).Idx → EReal := (dat' V c).arrAt 5 cfg2.N

/-- THE OUTPUT ARRAY after the region over the operand arrays, element by element. -/
theorem out_apply (c : Dev nD) (r : Fin Mp) (j : Fin Np) :
    outArr (Ix := Ix) (U := U) (Lvl := Lvl) V c (ix2 r j)
      = act ((∑ q : Fin Kp, arrA V c (ix2 r q) * arrB V c (ix2 q j)) * arrS V c (ix2 r 0) + arrZ V c (ix2 0 j)) :=
  out_apply_at V c r j

end Cert.KernelIdeal.Region2
end
-- ==== Proof.KI.Region3Value.lean ====
/-
  Region 3 of @main, the value of its output array at the ideal values.

  The grid has four points, one per block of 1024 rows; the reduction axis has one tile. At point t the body reads rows
  [1024 t, 1024 t + 1024) of the left operand, the whole right operand, the same rows of the scale column and the whole
  bias row, starts its accumulator at 0, adds the block product, multiplies each row by its scale entry, adds the bias
  row, and writes the result back to the same rows of the output array. So what every point writes back is its own block
  of ONE function of the four operand arrays,

      G (R, J) = (sum over q < 256 of A (R, q) * B (q, J)) * S (R, 0) + Z (0, J),

  the four row blocks cover the output array, and the array ends holding G.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic
import proofs.«414035_j83562883711810_2_alg».proof.Proof.KI.MatmulMath
import proofs.«414035_j83562883711810_2_alg».proof.Proof.KI.Region3

set_option maxRecDepth 16384

noncomputable section

open scoped BigOperators

namespace Cert.KernelIdeal.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The output array after the region, index by index -/

section Value
open Cert.KernelIdeal.MatmulMath Idealize.ShloMosaic.ValueIdx

variable {Ix : Type} [DecidableEq Ix] {U : Type} [URA U] {Lvl : Type} [Preorder Lvl]
variable (V : Dev nD → Valuation τ sig (Elt Ideal)) (c : Dev nD)

/-- The region's four operand arrays as it finds them, and its output array as it leaves it, as arrays of their
    literal types. -/
abbrev arrA : S4096x256.Idx → EReal := V c main_v70
abbrev arrB : S256x256.Idx → EReal := V c main_v71
abbrev arrS : S4096x1.Idx → EReal := V c main_v73
abbrev arrZ : S1x256.Idx → EReal := V c main_v74
abbrev outArr : S4096x256.Idx → EReal := (dat (F := Ideal) (Ix := Ix) (U := U) (Lvl := Lvl) V c).arrAt 5 cfg3.N

/-- The product of the two operands, each row scaled by the column's entry, plus the bias row: the whole output array. -/
abbrev G (A : S4096x256.Idx → EReal) (B : S256x256.Idx → EReal) (S : S4096x1.Idx → EReal) (Z : S1x256.Idx → EReal) :
    S4096x256.Idx → EReal :=
  fun i => (∑ q : Fin 256, A (ix2 (i 0) q) * B (ix2 q (i 1))) * S (ix2 (i 0) 0) + Z (ix2 0 (i 1))

/-- The index maps over the four grid points: the left operand and the scale column move with the output's row block,
    the right operand and the bias row stay; the output has four row blocks and one column block. -/
theorem idx_facts : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_3.index t (0 : Fin 2) = win3_5.index t (0 : Fin 2) ∧ win3_3.index t (1 : Fin 2) = 0
    ∧ win3_4.index t (0 : Fin 2) = 0 ∧ win3_4.index t (1 : Fin 2) = 0
    ∧ win3_5.index t (0 : Fin 2) ≤ 3 ∧ win3_5.index t (1 : Fin 2) = 0 :=
  (by decide +kernel : ∀ t : Fin grid3.N, _)

/-- Every row block of the output is some point's. -/
theorem idx_onto : ∀ q0 : Fin 4, ∃ t : Fin cfg3.N, win3_5.index t = ![q0.val, 0] :=
  (by decide +kernel : ∀ q0 : Fin 4, ∃ t : Fin grid3.N, win3_5.index t = ![q0.val, 0])

/-- One point's result at block coordinates (r, j), from what the four loaded blocks are at the matching array
    coordinates (R, J): the accumulator starts at 0, takes the row's product with the column, is scaled and shifted. -/
theorem point_eq (A : S4096x256.Idx → EReal) (B : S256x256.Idx → EReal) (S : S4096x1.Idx → EReal) (Z : S1x256.Idx → EReal)
    (xA : Vec Ideal S1024x256 .bf16) (xB : Vec Ideal S256x256 .bf16) (xs : Vec Ideal S1024x1 .f32) (xb : Vec Ideal S1x256 .f32)
    (R : Fin 4096) (J : Fin 256) (r : Fin 1024) (j : Fin 256)
    (hA : ∀ l : Fin 256, xA (ix2 r l) = A (ix2 R l))
    (hB : ∀ l : Fin 256, xB (ix2 l j) = B (ix2 l J))
    (hS : xs (ix2 r 0) = S (ix2 R 0))
    (hZ : xb (ix2 0 j) = Z (ix2 0 J)) :
    k3_pay3 (k3_pay2 xA xB (k3_pay1 (F := Ideal))) xs xb (ix2 r j) = G A B S Z (ix2 R J) := by
  rw [k3_pay3_apply, k3_pay2_apply, k3_pay1_apply, zero_add, hS, hZ]
  show _ = (∑ q : Fin 256, A (ix2 R q) * B (ix2 q J)) * S (ix2 R 0) + Z (ix2 0 J)
  exact congrArg (fun s => s * S (ix2 R 0) + Z (ix2 0 J)) (Finset.sum_congr rfl fun l _ => by rw [hA, hB])

/-- What point t writes back is block t of the whole output array. -/
theorem flushed_eq (t : Fin cfg3.N) :
    (dat (F := Ideal) (Ix := Ix) (U := U) (Lvl := Lvl) V c).flushed 5 t
      = ((cfg3.win 5).blk t).view.read (Elt Ideal) (G (arrA V c) (arrB V c) (arrS V c) (arrZ V c)) := by
  show (cfg3.win 5).cut (grid3.coords t) ((dat V c).after 5 t) = _
  rw [after_5]
  obtain ⟨e0, e1, e2, e3, e4, e5, e6, e7, e8, e9⟩ := idx_facts t
  funext y
  obtain ⟨p, q, rfl⟩ : ∃ (p : Fin 1024) (q : Fin 256), y = ix2 p q := ⟨y 0, y 1, eq_ix2 y⟩
  have hp := p.isLt
  have hR : win3_5.index t (0 : Fin 2) * 1024 + p.val < 4096 := by omega
  refine (point_eq (arrA V c) (arrB V c) (arrS V c) (arrZ V c) (blk V c 0 t) (blk V c 1 t) (blk V c 3 t) (blk V c 4 t)
    ⟨win3_5.index t (0 : Fin 2) * 1024 + p.val, hR⟩ q p q ?_ ?_ ?_ ?_).trans ?_
  · intro l
    show V c main_v70 (((cfg3.win 0).blk t).view.emb (ix2 p l)) = V c main_v70 (ix2 ⟨win3_5.index t (0 : Fin 2) * 1024 + p.val, hR⟩ l)
    refine congrArg _ (funext fun a => Fin.ext ?_)
    match a with
    | ⟨0, _⟩ => show win3_0.index t (0 : Fin 2) * 1024 + 1 * p.val = win3_5.index t (0 : Fin 2) * 1024 + p.val; omega
    | ⟨1, _⟩ => show win3_0.index t (1 : Fin 2) * 256 + 1 * l.val = l.val; omega
  · intro l
    show V c main_v71 (((cfg3.win 1).blk t).view.emb (ix2 l q)) = V c main_v71 (ix2 l q)
    refine congrArg _ (funext fun a => Fin.ext ?_)
    match a with
    | ⟨0, _⟩ => show win3_1.index t (0 : Fin 2) * 256 + 1 * l.val = l.val; omega
    | ⟨1, _⟩ => show win3_1.index t (1 : Fin 2) * 256 + 1 * q.val = q.val; omega
  · show V c main_v73 (((cfg3.win 3).blk t).view.emb (ix2 p 0)) = V c main_v73 (ix2 ⟨win3_5.index t (0 : Fin 2) * 1024 + p.val, hR⟩ 0)
    refine congrArg _ (funext fun a => Fin.ext ?_)
    match a with
    | ⟨0, _⟩ => show win3_3.index t (0 : Fin 2) * 1024 + 1 * p.val = win3_5.index t (0 : Fin 2) * 1024 + p.val; omega
    | ⟨1, _⟩ => show win3_3.index t (1 : Fin 2) * 1 + 1 * 0 = 0; omega
  · show V c main_v74 (((cfg3.win 4).blk t).view.emb (ix2 0 q)) = V c main_v74 (ix2 0 q)
    refine congrArg _ (funext fun a => Fin.ext ?_)
    match a with
    | ⟨0, _⟩ => show win3_4.index t (0 : Fin 2) * 1 + 1 * 0 = 0; omega
    | ⟨1, _⟩ => show win3_4.index t (1 : Fin 2) * 256 + 1 * q.val = q.val; omega
  · show G (arrA V c) (arrB V c) (arrS V c) (arrZ V c) (ix2 ⟨win3_5.index t (0 : Fin 2) * 1024 + p.val, hR⟩ q)
      = G (arrA V c) (arrB V c) (arrS V c) (arrZ V c) (((cfg3.win 5).blk t).view.emb (ix2 p q))
    refine congrArg _ (funext fun a => Fin.ext ?_)
    match a with
    | ⟨0, _⟩ => show win3_5.index t (0 : Fin 2) * 1024 + p.val = win3_5.index t (0 : Fin 2) * 1024 + 1 * p.val; omega
    | ⟨1, _⟩ => show q.val = win3_5.index t (1 : Fin 2) * 256 + 1 * q.val; omega

/-- An index of the output array is in point t's block iff each coordinate is in the block's range on its axis. -/
theorem mem_blk (t : Fin cfg3.N) (i : S4096x256.Idx) :
    i ∈ ((cfg3.win 5).blk t).view.set ↔ ∀ a : Fin 2, win3_5.index t a * S1024x256.size a ≤ (i a).val
      ∧ (i a).val < win3_5.index t a * S1024x256.size a + S1024x256.size a := by
  show i ∈ ((View.whole main_v75).slice (win3_5.rect t)).set ↔ _
  rw [View.set_slice_whole, Rect.mem_set_unit]
  exact Iff.rfl

/-- Every index of the output array is in some point's block: row R is in row block R / 1024. -/
theorem cover (i : S4096x256.Idx) :
    ∃ t : Fin cfg3.N, (cfg3.win 5).flush t = true ∧ i ∈ ((cfg3.win 5).blk t).view.set := by
  have hi0 : (i 0).val < 4096 := (i 0).isLt
  have hi1 : (i 1).val < 256 := (i 1).isLt
  obtain ⟨t, ht⟩ := idx_onto ⟨(i 0).val / 1024, by omega⟩
  have q0 : win3_5.index t (0 : Fin 2) = (i 0).val / 1024 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 1024 ≤ (i 0).val ∧ (i 0).val < win3_5.index t (0 : Fin 2) * 1024 + 1024; omega
  | ⟨1, _⟩ => show win3_5.index t (1 : Fin 2) * 256 ≤ (i 1).val ∧ (i 1).val < win3_5.index t (1 : Fin 2) * 256 + 256; omega

/-- The output array after the region is the whole-array function of the operand arrays. -/
theorem final : outArr (Ix := Ix) (U := U) (Lvl := Lvl) V c = G (arrA V c) (arrB V c) (arrS V c) (arrZ V c) :=
  (dat (F := Ideal) (Ix := Ix) (U := U) (Lvl := Lvl) V c).arrAt_eq_of_cover 5 _ (fun t _ => flushed_eq V c t) cover

/-- THE VALUE of the region: its output array at (r, j) is the row of the left operand times the column of the right,
    scaled by the row's scale entry, plus the column's bias entry, all over the arrays as the region finds them. -/
theorem out_apply (r : Fin 4096) (j : Fin 256) :
    outArr (Ix := Ix) (U := U) (Lvl := Lvl) V c (ix2 r j)
      = (∑ q : Fin 256, arrA V c (ix2 r q) * arrB V c (ix2 q j)) * arrS V c (ix2 r 0) + arrZ V c (ix2 0 j) :=
  congrFun (final (Ix := Ix) (U := U) (Lvl := Lvl) V c) (ix2 r j)

end Value

end Cert.KernelIdeal.Region3
end
-- ==== Proof.KI.Region4Value.lean ====
/-
  REGION 4 at the ideal values: the output array after the region, element by element.

  The grid's point t = i * nk + k adds to the accumulator the product of the left operand's block (i, k) and the right
  operand's block k; so after point t the accumulator holds, at (r, j), the sum of the products' terms over the first
  (k + 1) * tk contracted indices, by induction on the point (a sum over blocks is one sum: associativity only). The
  point that ends a run (k = nk - 1) stores accumulator * row scale + bias into the output block i, the blocks written
  back tile the output array, and so the array ends holding at (r, j) the whole contracted sum scaled by row r's scale
  plus column j's bias.
-/
import proofs.«414035_j83562883711810_2_alg».proof.Proof.KI.Region4
import proofs.«414035_j83562883711810_2_alg».proof.Proof.KI.MatmulMath
import Idealize.ShloMosaic.Lib.ValueIdx
import Idealize.ShloMosaic.Lib.Pipeline.Value

noncomputable section
open scoped BigOperators
namespace Cert.KernelIdeal.Region4
open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Window)
variable {Ix : Type} [DecidableEq Ix] {U : Type} [URA U] {Lvl : Type} [Preorder Lvl]

/-! ## The value's literals -/

/-- The arrays of windows 0, 1, 3 and 4 (left operand, right operand, row scales, bias row). -/
abbrev vA : Ref sig .tc := main_v78
abbrev vB : Ref sig .tc := main_v80
abbrev vD : Ref sig .tc := main_v82
abbrev vE : Ref sig .tc := main_v83
/-- The arrays' extents (rows, contracted extent, columns) and the blocks' (rows, contracted extent). -/
abbrev Mp : ℕ := 2048
abbrev Kp : ℕ := 4096
abbrev Np : ℕ := 256
abbrev tm : ℕ := 1024
abbrev tk : ℕ := 1024
theorem N_eq : cfg4.N = 8 := N_4
/-- The output's activation. -/
abbrev act (x : EReal) : EReal := x

variable (V : Dev nD → Valuation τ sig (Elt Ideal))

/-- The four arrays read at a row and a column, as extended reals. -/
abbrev rA (c : Dev nD) (x : Fin Mp) (y : Fin Kp) : EReal := V c vA (ix2 x y)
abbrev rB (c : Dev nD) (x : Fin Kp) (y : Fin Np) : EReal := V c vB (ix2 x y)
abbrev rD (c : Dev nD) (x : Fin Mp) : EReal := V c vD (ix2 x 0)
abbrev rE (c : Dev nD) (y : Fin Np) : EReal := V c vE (ix2 0 y)

/-! ## The blocks in the arrays -/

/-- The index maps over the grid: window 0's block is (row tile, reduction tile), window 1's (reduction tile, 0), windows
    3's and 5's (row tile, 0), window 4's (0, 0). -/
theorem idx_facts : ∀ t : Fin cfg4.N,
    win4_0.index t (0 : Fin 2) = t.val / nk ∧ win4_0.index t (1 : Fin 2) = t.val % nk
    ∧ win4_1.index t (0 : Fin 2) = t.val % nk ∧ win4_1.index t (1 : Fin 2) = 0
    ∧ win4_3.index t (0 : Fin 2) = t.val / nk ∧ win4_3.index t (1 : Fin 2) = 0
    ∧ win4_4.index t (0 : Fin 2) = 0 ∧ win4_4.index t (1 : Fin 2) = 0
    ∧ win4_5.index t (0 : Fin 2) = t.val / nk ∧ win4_5.index t (1 : Fin 2) = 0 :=
  (by decide +kernel : ∀ t : Fin grid4.N, _)

/-- An uncut window moves the whole block. -/
theorem lt_xsize (w : Fin cfg4.W) (hclip : ∀ (i : cfg4.grid.Coords) a, (cfg4.win w).clip i a = none)
    (t : Fin cfg4.N) (y : (cfg4.win w).block.Idx) (a : Fin (cfg4.win w).shape.rank) :
    (y a).val < (cfg4.win w).xsize (cfg4.grid.coords t) a := by
  show (y a).val < ((cfg4.win w).clip (cfg4.grid.coords t) a).extent ((cfg4.win w).size a)
  rw [hclip]; exact (y a).isLt

/-- An element of an input window's block at point `t` is the array's element at the block index times the block's size
    plus its own coordinate, on each axis. -/
theorem inBlk_apply (c : Dev nD) (w : Fin cfg4.W) (hclip : ∀ (i : cfg4.grid.Coords) a, (cfg4.win w).clip i a = none)
    (t : Fin cfg4.N) (y : (cfg4.win w).block.Idx) :
    inBlk V c w t y = _root_.cast (congrArg (Elt Ideal) ((cfg4.win w).blk t).view.elt_eq)
      (A0 V c w (((cfg4.win w).blk t).view.emb fun a => ⟨(y a).val, lt_xsize w hclip t y a⟩)) := by
  unfold inBlk
  have hy : y = (cfg4.win w).xinj (cfg4.grid.coords t) (fun a => ⟨(y a).val, lt_xsize w hclip t y a⟩) := rfl
  conv_lhs => rw [hy]
  rw [Window.fill_xinj, View.read_apply]

/-- The arrays as functions of two naturals, zero outside their extents. -/
def fA (c : Dev nD) (x y : ℕ) : EReal := if h : x < Mp ∧ y < Kp then rA V c ⟨x, h.1⟩ ⟨y, h.2⟩ else 0
def fB (c : Dev nD) (x y : ℕ) : EReal := if h : x < Kp ∧ y < Np then rB V c ⟨x, h.1⟩ ⟨y, h.2⟩ else 0
def fD (c : Dev nD) (x : ℕ) : EReal := if h : x < Mp then rD V c ⟨x, h⟩ else 0
def fE (c : Dev nD) (y : ℕ) : EReal := if h : y < Np then rE V c ⟨y, h⟩ else 0

theorem blkA (c : Dev nD) (t : Fin cfg4.N) (r : Fin tm) (l : Fin tk) :
    inBlk V c 0 t (ix2 r l) = fA V c (t.val / nk * tm + r) (t.val % nk * tk + l) := by
  rw [inBlk_apply V c 0 (fun _ _ => rfl) t]
  have ht := lt_of_lt_of_eq t.isLt N_eq
  have hr := r.isLt; have hl := l.isLt
  obtain ⟨h0, h1, -⟩ := idx_facts t
  unfold fA
  rw [dif_pos ⟨by simp only [nk, tm, Mp] at *; omega, by simp only [nk, tk, Kp] at *; omega⟩]
  refine (cast_eq _ _).trans ?_
  show V c vA _ = V c vA _
  congr 1
  funext a
  apply Fin.ext
  fin_cases a
  · refine (Pipeline.Window.rect_emb_val win4_0 t _ 0).trans ?_; rw [h0]; rfl
  · refine (Pipeline.Window.rect_emb_val win4_0 t _ 1).trans ?_; rw [h1]; rfl

theorem blkB (c : Dev nD) (t : Fin cfg4.N) (l : Fin tk) (j : Fin Np) :
    inBlk V c 1 t (ix2 l j) = fB V c (t.val % nk * tk + l) j := by
  rw [inBlk_apply V c 1 (fun _ _ => rfl) t]
  have ht := lt_of_lt_of_eq t.isLt N_eq
  have hl := l.isLt; have hj := j.isLt
  obtain ⟨-, -, h0, h1, -⟩ := idx_facts t
  unfold fB
  rw [dif_pos ⟨by simp only [nk, tk, Kp] at *; omega, hj⟩]
  refine (cast_eq _ _).trans ?_
  show V c vB _ = V c vB _
  congr 1
  funext a
  apply Fin.ext
  fin_cases a
  · refine (Pipeline.Window.rect_emb_val win4_1 t _ 0).trans ?_; rw [h0]; rfl
  · refine (Pipeline.Window.rect_emb_val win4_1 t _ 1).trans ?_; rw [h1]; exact Nat.zero_add _

theorem blkD (c : Dev nD) (t : Fin cfg4.N) (r : Fin tm) :
    inBlk V c 3 t (ix2 r 0) = fD V c (t.val / nk * tm + r) := by
  rw [inBlk_apply V c 3 (fun _ _ => rfl) t]
  have ht := lt_of_lt_of_eq t.isLt N_eq
  have hr := r.isLt
  obtain ⟨-, -, -, -, h0, h1, -⟩ := idx_facts t
  unfold fD
  rw [dif_pos (by simp only [nk, tm, Mp] at *; omega)]
  refine (cast_eq _ _).trans ?_
  show V c vD _ = V c vD _
  congr 1
  funext a
  apply Fin.ext
  fin_cases a
  · refine (Pipeline.Window.rect_emb_val win4_3 t _ 0).trans ?_; rw [h0]; rfl
  · refine (Pipeline.Window.rect_emb_val win4_3 t _ 1).trans ?_; rw [h1]; rfl

theorem blkE (c : Dev nD) (t : Fin cfg4.N) (j : Fin Np) :
    inBlk V c 4 t (ix2 0 j) = fE V c j := by
  rw [inBlk_apply V c 4 (fun _ _ => rfl) t]
  have hj := j.isLt
  obtain ⟨-, -, -, -, -, -, h0, h1, -⟩ := idx_facts t
  unfold fE
  rw [dif_pos hj]
  refine (cast_eq _ _).trans ?_
  show V c vE _ = V c vE _
  congr 1
  funext a
  apply Fin.ext
  fin_cases a
  · refine (Pipeline.Window.rect_emb_val win4_4 t _ 0).trans ?_; rw [h0]; rfl
  · refine (Pipeline.Window.rect_emb_val win4_4 t _ 1).trans ?_; rw [h1]; exact Nat.zero_add _

/-! ## The accumulator is the partial sum -/

/-- One term of the product at row `x`, column `y`. -/
def gAB (c : Dev nD) (x y K : ℕ) : EReal := fA V c x K * fB V c K y

/-- The first block of a sum over blocks. -/
theorem sum_first_block (g : ℕ → EReal) : ∑ l : Fin tk, g (0 * tk + l) = ∑ K : Fin ((0 + 1) * tk), g K := by
  rw [MatmulMath.sum_fin_succ_block 0 tk g, Nat.zero_mul, Fin.sum_univ_zero, zero_add]

/-- After point `n` the accumulator holds, at (r, j), the sum of the product's terms over the reduction blocks of the
    run so far. -/
theorem acc_apply (c : Dev nD) : ∀ (n : ℕ) (h : n < cfg4.N) (r : Fin tm) (j : Fin Np),
    acc V c n h (ix2 r j) = ∑ K : Fin ((n % nk + 1) * tk), gAB V c (n / nk * tm + r) j K
  | 0, h, r, j => by
    show k4_pay2 (inBlk V c 0 ⟨0, h⟩) (inBlk V c 1 ⟨0, h⟩) (k4_pay1 (F := Ideal)) (ix2 r j) = _
    rw [MatmulMath.k4_pay2_apply, MatmulMath.k4_pay1_apply, zero_add]
    simp only [blkA, blkB]
    rw [Nat.zero_mod]
    exact sum_first_block (gAB V c (0 / nk * tm + r) j)
  | m + 1, h, r, j => by
    show k4_pay2 (inBlk V c 0 ⟨m + 1, h⟩) (inBlk V c 1 ⟨m + 1, h⟩)
      (if (m + 1) % nk = 0 then k4_pay1 (F := Ideal) else acc V c m (Nat.lt_of_succ_lt h)) (ix2 r j) = _
    rw [MatmulMath.k4_pay2_apply]
    simp only [blkA, blkB]
    by_cases hm : (m + 1) % nk = 0
    · rw [if_pos hm, MatmulMath.k4_pay1_apply, zero_add, hm]
      exact sum_first_block (gAB V c ((m + 1) / nk * tm + r) j)
    · have e1 : (m + 1) / nk = m / nk := by simp only [nk] at *; omega
      have e2 : (m + 1) % nk = m % nk + 1 := by simp only [nk] at *; omega
      rw [if_neg hm, acc_apply c m (Nat.lt_of_succ_lt h) r j, e1, e2]
      exact (MatmulMath.sum_fin_succ_block (m % nk + 1) tk (gAB V c (m / nk * tm + r) j)).symm

/-! ## The output array -/

local notation "dat'" => dat (F := Ideal) (Ix := Ix) (U := U) (Lvl := Lvl)

theorem fA_val (c : Dev nD) (x : Fin Mp) (K : Fin Kp) : fA V c x.val K.val = rA V c x K := by
  unfold fA; rw [dif_pos ⟨x.isLt, K.isLt⟩]
theorem fB_val (c : Dev nD) (K : Fin Kp) (y : Fin Np) : fB V c K.val y.val = rB V c K y := by
  unfold fB; rw [dif_pos ⟨K.isLt, y.isLt⟩]
theorem fD_val (c : Dev nD) (x : Fin Mp) : fD V c x.val = rD V c x := by
  unfold fD; rw [dif_pos x.isLt]
theorem fE_val (c : Dev nD) (y : Fin Np) : fE V c y.val = rE V c y := by
  unfold fE; rw [dif_pos y.isLt]

/-- What a point that ends a reduction run leaves in the output block, at (r, j). -/
theorem after5_apply (c : Dev nD) (t : Fin cfg4.N) (ht : t.val % nk = kl) (r : Fin tm) (j : Fin Np) :
    (dat' V c).after 5 t (ix2 r j)
      = act ((∑ K : Fin Kp, gAB V c (t.val / nk * tm + r) j K) * fD V c (t.val / nk * tm + r) + fE V c j) := by
  rw [after5, MatmulMath.k4_pay3_apply, acc_apply, blkD, blkE, ht]
  rfl

/-- The output array as the claim names it: at (r, j) the whole contracted sum, scaled by row r's scale, plus column j's
    bias. -/
def G (c : Dev nD) : Buf (Elt Ideal) ((cfg4.win 5).arr.view.loc (c : Thread nD τ)) := fun i =>
  act ((∑ q : Fin Kp, rA V c (i 0) q * rB V c q (i 1)) * rD V c (i 0) + rE V c (i 1))

/-- A point that ends a reduction run leaves, at (r, j) of the output block, `G` at that element of the array. -/
theorem flushed_apply (c : Dev nD) (t : Fin cfg4.N) (hf : (cfg4.win 5).flush t = true) (r : Fin tm) (j : Fin Np) :
    (dat' V c).flushed 5 t (ix2 r j) = ((cfg4.win 5).blk t).view.read (Elt Ideal) (G V c) (ix2 r j) := by
  have ht : t.val % nk = kl := (flush4_5 t).mp hf
  obtain ⟨-, -, -, -, -, -, -, -, h0, h1⟩ := idx_facts t
  rw [View.read_apply]
  refine Eq.trans ?_ (cast_eq _ _).symm
  show (dat' V c).after 5 t (ix2 r j) = _
  rw [after5_apply V c t ht]
  have e0 : ((((cfg4.win 5).blk t).view.emb (ix2 r j)) 0 : Fin Mp).val = t.val / nk * tm + r.val := by
    refine (Pipeline.Window.rect_emb_val win4_5 t _ 0).trans ?_; rw [h0]; rfl
  have e1 : ((((cfg4.win 5).blk t).view.emb (ix2 r j)) 1 : Fin Np).val = j.val := by
    refine (Pipeline.Window.rect_emb_val win4_5 t _ 1).trans ?_; rw [h1]; exact Nat.zero_add _
  unfold G
  rw [← e0, ← e1]
  simp only [gAB]
  exact congrArg act (congrArg₂ (· + ·) (congrArg₂ (· * ·)
    (Finset.sum_congr rfl fun K _ => congrArg₂ (· * ·) (fA_val V c _ K) (fB_val V c K _)) (fD_val V c _)) (fE_val V c _))

/-- Every point that writes the output back writes its block of `G`. -/
theorem flushed_eq (c : Dev nD) (t : Fin cfg4.N) (hf : (cfg4.win 5).flush t = true) :
    (dat' V c).flushed 5 t = ((cfg4.win 5).blk t).view.read (Elt Ideal) (G V c) := by
  funext y
  have hy : y = ix2 (n0 := tm) (n1 := Np) (y 0) (y 1) := eq_ix2 (n0 := tm) (n1 := Np) y
  exact (congrArg ((dat' V c).flushed 5 t) hy).trans ((flushed_apply V c t hf (y 0) (y 1)).trans
    (congrArg (((cfg4.win 5).blk t).view.read (Elt Ideal) (G V c)) hy.symm))

/-- The blocks written back tile the output array. -/
theorem cover (c : Dev nD) (i : ((cfg4.win 5).arr.view.loc (c : Thread nD τ)).2.ty.Idx) :
    ∃ t : Fin cfg4.N, (cfg4.win 5).flush t = true ∧ i ∈ ((cfg4.win 5).blk t).view.set := by
  have hi0 : (i 0).val < Mp := (i 0).isLt
  have hi1 : (i 1).val < Np := (i 1).isLt
  have htv : (i 0).val / tm * nk + kl < cfg4.N := by rw [N_eq]; simp only [tm, nk, kl, Mp] at *; omega
  refine ⟨⟨(i 0).val / tm * nk + kl, htv⟩, (flush4_5 _).mpr (by simp only [nk, kl]; omega), ?_⟩
  obtain ⟨-, -, -, -, -, -, -, -, h0, h1⟩ := idx_facts ⟨(i 0).val / tm * nk + kl, htv⟩
  have he : ((cfg4.win 5).blk ⟨(i 0).val / tm * nk + kl, htv⟩).view.emb
      (ix2 (⟨(i 0).val % tm, Nat.mod_lt _ (by decide)⟩ : Fin tm) (⟨(i 1).val, hi1⟩ : Fin Np)) = i := by
    funext a; apply Fin.ext; fin_cases a
    · refine (Pipeline.Window.rect_emb_val win4_5 ⟨(i 0).val / tm * nk + kl, htv⟩ _ 0).trans ?_; rw [h0]
      show ((i 0).val / tm * nk + kl) / nk * tm + (i 0).val % tm = (i 0).val
      simp only [nk, kl, tm]; omega
    · refine (Pipeline.Window.rect_emb_val win4_5 ⟨(i 0).val / tm * nk + kl, htv⟩ _ 1).trans ?_; rw [h1]
      exact Nat.zero_add _
  have hm := View.emb_mem_set ((cfg4.win 5).blk ⟨(i 0).val / tm * nk + kl, htv⟩).view
    (ix2 (⟨(i 0).val % tm, Nat.mod_lt _ (by decide)⟩ : Fin tm) (⟨(i 1).val, hi1⟩ : Fin Np))
  rwa [he] at hm

/-- THE OUTPUT ARRAY after the region, element by element, over the entry valuation's arrays. -/
theorem out_apply_at (c : Dev nD) (r : Fin Mp) (j : Fin Np) :
    (dat' V c).arrAt 5 cfg4.N (ix2 r j)
      = act ((∑ q : Fin Kp, rA V c r q * rB V c q j) * rD V c r + rE V c j) :=
  congrFun ((dat' V c).arrAt_eq_of_cover 5 (G V c) (flushed_eq V c) (cover c)) (ix2 r j)

/-- The four operand arrays and the output array as arrays of their literal types. -/
abbrev arrA (c : Dev nD) : (⟨2, ![Mp, Kp]⟩ : Shape).Idx → EReal := V c vA
abbrev arrB (c : Dev nD) : (⟨2, ![Kp, Np]⟩ : Shape).Idx → EReal := V c vB
abbrev arrS (c : Dev nD) : (⟨2, ![Mp, 1]⟩ : Shape).Idx → EReal := V c vD
abbrev arrZ (c : Dev nD) : (⟨2, ![1, Np]⟩ : Shape).Idx → EReal := V c vE
abbrev outArr (c : Dev nD) : (⟨2, ![Mp, Np]⟩ : Shape).Idx → EReal := (dat' V c).arrAt 5 cfg4.N

/-- THE OUTPUT ARRAY after the region over the operand arrays, element by element. -/
theorem out_apply (c : Dev nD) (r : Fin Mp) (j : Fin Np) :
    outArr (Ix := Ix) (U := U) (Lvl := Lvl) V c (ix2 r j)
      = act ((∑ q : Fin Kp, arrA V c (ix2 r q) * arrB V c (ix2 q j)) * arrS V c (ix2 r 0) + arrZ V c (ix2 0 j)) :=
  out_apply_at V c r j

end Cert.KernelIdeal.Region4
end
-- ==== Proof.KI.Region5Value.lean ====
/-
  REGION 5 at the ideal values: the output array after the region, element by element.

  The grid's point t = i * nk + k adds to the accumulator the product of the left operand's block (i, k) and the right
  operand's block k; so after point t the accumulator holds, at (r, j), the sum of the products' terms over the first
  (k + 1) * tk contracted indices, by induction on the point (a sum over blocks is one sum: associativity only). The
  point that ends a run (k = nk - 1) stores accumulator * row scale + bias into the output block i, the blocks written
  back tile the output array, and so the array ends holding at (r, j) the whole contracted sum scaled by row r's scale
  plus column j's bias.
-/
import proofs.«414035_j83562883711810_2_alg».proof.Proof.KI.Region5
import proofs.«414035_j83562883711810_2_alg».proof.Proof.KI.MatmulMath
import Idealize.ShloMosaic.Lib.ValueIdx
import Idealize.ShloMosaic.Lib.Pipeline.Value

noncomputable section
open scoped BigOperators
namespace Cert.KernelIdeal.Region5
open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Window)
variable {Ix : Type} [DecidableEq Ix] {U : Type} [URA U] {Lvl : Type} [Preorder Lvl]

/-! ## The value's literals -/

/-- The arrays of windows 0, 1, 3 and 4 (left operand, right operand, row scales, bias row). -/
abbrev vA : Ref sig .tc := main_v87
abbrev vB : Ref sig .tc := main_v89
abbrev vD : Ref sig .tc := main_v91
abbrev vE : Ref sig .tc := main_v39
/-- The arrays' extents (rows, contracted extent, columns) and the blocks' (rows, contracted extent). -/
abbrev Mp : ℕ := 4096
abbrev Kp : ℕ := 2048
abbrev Np : ℕ := 256
abbrev tm : ℕ := 1024
abbrev tk : ℕ := 1024
theorem N_eq : cfg5.N = 8 := N_5
/-- The output's activation. -/
abbrev act (x : EReal) : EReal := x

variable (V : Dev nD → Valuation τ sig (Elt Ideal))

/-- The four arrays read at a row and a column, as extended reals. -/
abbrev rA (c : Dev nD) (x : Fin Mp) (y : Fin Kp) : EReal := V c vA (ix2 x y)
abbrev rB (c : Dev nD) (x : Fin Kp) (y : Fin Np) : EReal := V c vB (ix2 x y)
abbrev rD (c : Dev nD) (x : Fin Mp) : EReal := V c vD (ix2 x 0)
abbrev rE (c : Dev nD) (y : Fin Np) : EReal := V c vE (ix2 0 y)

/-! ## The blocks in the arrays -/

/-- The index maps over the grid: window 0's block is (row tile, reduction tile), window 1's (reduction tile, 0), windows
    3's and 5's (row tile, 0), window 4's (0, 0). -/
theorem idx_facts : ∀ t : Fin cfg5.N,
    win5_0.index t (0 : Fin 2) = t.val / nk ∧ win5_0.index t (1 : Fin 2) = t.val % nk
    ∧ win5_1.index t (0 : Fin 2) = t.val % nk ∧ win5_1.index t (1 : Fin 2) = 0
    ∧ win5_3.index t (0 : Fin 2) = t.val / nk ∧ win5_3.index t (1 : Fin 2) = 0
    ∧ win5_4.index t (0 : Fin 2) = 0 ∧ win5_4.index t (1 : Fin 2) = 0
    ∧ win5_5.index t (0 : Fin 2) = t.val / nk ∧ win5_5.index t (1 : Fin 2) = 0 :=
  (by decide +kernel : ∀ t : Fin grid5.N, _)

/-- An uncut window moves the whole block. -/
theorem lt_xsize (w : Fin cfg5.W) (hclip : ∀ (i : cfg5.grid.Coords) a, (cfg5.win w).clip i a = none)
    (t : Fin cfg5.N) (y : (cfg5.win w).block.Idx) (a : Fin (cfg5.win w).shape.rank) :
    (y a).val < (cfg5.win w).xsize (cfg5.grid.coords t) a := by
  show (y a).val < ((cfg5.win w).clip (cfg5.grid.coords t) a).extent ((cfg5.win w).size a)
  rw [hclip]; exact (y a).isLt

/-- An element of an input window's block at point `t` is the array's element at the block index times the block's size
    plus its own coordinate, on each axis. -/
theorem inBlk_apply (c : Dev nD) (w : Fin cfg5.W) (hclip : ∀ (i : cfg5.grid.Coords) a, (cfg5.win w).clip i a = none)
    (t : Fin cfg5.N) (y : (cfg5.win w).block.Idx) :
    inBlk V c w t y = _root_.cast (congrArg (Elt Ideal) ((cfg5.win w).blk t).view.elt_eq)
      (A0 V c w (((cfg5.win w).blk t).view.emb fun a => ⟨(y a).val, lt_xsize w hclip t y a⟩)) := by
  unfold inBlk
  have hy : y = (cfg5.win w).xinj (cfg5.grid.coords t) (fun a => ⟨(y a).val, lt_xsize w hclip t y a⟩) := rfl
  conv_lhs => rw [hy]
  rw [Window.fill_xinj, View.read_apply]

/-- The arrays as functions of two naturals, zero outside their extents. -/
def fA (c : Dev nD) (x y : ℕ) : EReal := if h : x < Mp ∧ y < Kp then rA V c ⟨x, h.1⟩ ⟨y, h.2⟩ else 0
def fB (c : Dev nD) (x y : ℕ) : EReal := if h : x < Kp ∧ y < Np then rB V c ⟨x, h.1⟩ ⟨y, h.2⟩ else 0
def fD (c : Dev nD) (x : ℕ) : EReal := if h : x < Mp then rD V c ⟨x, h⟩ else 0
def fE (c : Dev nD) (y : ℕ) : EReal := if h : y < Np then rE V c ⟨y, h⟩ else 0

theorem blkA (c : Dev nD) (t : Fin cfg5.N) (r : Fin tm) (l : Fin tk) :
    inBlk V c 0 t (ix2 r l) = fA V c (t.val / nk * tm + r) (t.val % nk * tk + l) := by
  rw [inBlk_apply V c 0 (fun _ _ => rfl) t]
  have ht := lt_of_lt_of_eq t.isLt N_eq
  have hr := r.isLt; have hl := l.isLt
  obtain ⟨h0, h1, -⟩ := idx_facts t
  unfold fA
  rw [dif_pos ⟨by simp only [nk, tm, Mp] at *; omega, by simp only [nk, tk, Kp] at *; omega⟩]
  refine (cast_eq _ _).trans ?_
  show V c vA _ = V c vA _
  congr 1
  funext a
  apply Fin.ext
  fin_cases a
  · refine (Pipeline.Window.rect_emb_val win5_0 t _ 0).trans ?_; rw [h0]; rfl
  · refine (Pipeline.Window.rect_emb_val win5_0 t _ 1).trans ?_; rw [h1]; rfl

theorem blkB (c : Dev nD) (t : Fin cfg5.N) (l : Fin tk) (j : Fin Np) :
    inBlk V c 1 t (ix2 l j) = fB V c (t.val % nk * tk + l) j := by
  rw [inBlk_apply V c 1 (fun _ _ => rfl) t]
  have ht := lt_of_lt_of_eq t.isLt N_eq
  have hl := l.isLt; have hj := j.isLt
  obtain ⟨-, -, h0, h1, -⟩ := idx_facts t
  unfold fB
  rw [dif_pos ⟨by simp only [nk, tk, Kp] at *; omega, hj⟩]
  refine (cast_eq _ _).trans ?_
  show V c vB _ = V c vB _
  congr 1
  funext a
  apply Fin.ext
  fin_cases a
  · refine (Pipeline.Window.rect_emb_val win5_1 t _ 0).trans ?_; rw [h0]; rfl
  · refine (Pipeline.Window.rect_emb_val win5_1 t _ 1).trans ?_; rw [h1]; exact Nat.zero_add _

theorem blkD (c : Dev nD) (t : Fin cfg5.N) (r : Fin tm) :
    inBlk V c 3 t (ix2 r 0) = fD V c (t.val / nk * tm + r) := by
  rw [inBlk_apply V c 3 (fun _ _ => rfl) t]
  have ht := lt_of_lt_of_eq t.isLt N_eq
  have hr := r.isLt
  obtain ⟨-, -, -, -, h0, h1, -⟩ := idx_facts t
  unfold fD
  rw [dif_pos (by simp only [nk, tm, Mp] at *; omega)]
  refine (cast_eq _ _).trans ?_
  show V c vD _ = V c vD _
  congr 1
  funext a
  apply Fin.ext
  fin_cases a
  · refine (Pipeline.Window.rect_emb_val win5_3 t _ 0).trans ?_; rw [h0]; rfl
  · refine (Pipeline.Window.rect_emb_val win5_3 t _ 1).trans ?_; rw [h1]; rfl

theorem blkE (c : Dev nD) (t : Fin cfg5.N) (j : Fin Np) :
    inBlk V c 4 t (ix2 0 j) = fE V c j := by
  rw [inBlk_apply V c 4 (fun _ _ => rfl) t]
  have hj := j.isLt
  obtain ⟨-, -, -, -, -, -, h0, h1, -⟩ := idx_facts t
  unfold fE
  rw [dif_pos hj]
  refine (cast_eq _ _).trans ?_
  show V c vE _ = V c vE _
  congr 1
  funext a
  apply Fin.ext
  fin_cases a
  · refine (Pipeline.Window.rect_emb_val win5_4 t _ 0).trans ?_; rw [h0]; rfl
  · refine (Pipeline.Window.rect_emb_val win5_4 t _ 1).trans ?_; rw [h1]; exact Nat.zero_add _

/-! ## The accumulator is the partial sum -/

/-- One term of the product at row `x`, column `y`. -/
def gAB (c : Dev nD) (x y K : ℕ) : EReal := fA V c x K * fB V c K y

/-- The first block of a sum over blocks. -/
theorem sum_first_block (g : ℕ → EReal) : ∑ l : Fin tk, g (0 * tk + l) = ∑ K : Fin ((0 + 1) * tk), g K := by
  rw [MatmulMath.sum_fin_succ_block 0 tk g, Nat.zero_mul, Fin.sum_univ_zero, zero_add]

/-- After point `n` the accumulator holds, at (r, j), the sum of the product's terms over the reduction blocks of the
    run so far. -/
theorem acc_apply (c : Dev nD) : ∀ (n : ℕ) (h : n < cfg5.N) (r : Fin tm) (j : Fin Np),
    acc V c n h (ix2 r j) = ∑ K : Fin ((n % nk + 1) * tk), gAB V c (n / nk * tm + r) j K
  | 0, h, r, j => by
    show k5_pay2 (inBlk V c 0 ⟨0, h⟩) (inBlk V c 1 ⟨0, h⟩) (k5_pay1 (F := Ideal)) (ix2 r j) = _
    rw [MatmulMath.k5_pay2_apply, MatmulMath.k5_pay1_apply, zero_add]
    simp only [blkA, blkB]
    rw [Nat.zero_mod]
    exact sum_first_block (gAB V c (0 / nk * tm + r) j)
  | m + 1, h, r, j => by
    show k5_pay2 (inBlk V c 0 ⟨m + 1, h⟩) (inBlk V c 1 ⟨m + 1, h⟩)
      (if (m + 1) % nk = 0 then k5_pay1 (F := Ideal) else acc V c m (Nat.lt_of_succ_lt h)) (ix2 r j) = _
    rw [MatmulMath.k5_pay2_apply]
    simp only [blkA, blkB]
    by_cases hm : (m + 1) % nk = 0
    · rw [if_pos hm, MatmulMath.k5_pay1_apply, zero_add, hm]
      exact sum_first_block (gAB V c ((m + 1) / nk * tm + r) j)
    · have e1 : (m + 1) / nk = m / nk := by simp only [nk] at *; omega
      have e2 : (m + 1) % nk = m % nk + 1 := by simp only [nk] at *; omega
      rw [if_neg hm, acc_apply c m (Nat.lt_of_succ_lt h) r j, e1, e2]
      exact (MatmulMath.sum_fin_succ_block (m % nk + 1) tk (gAB V c (m / nk * tm + r) j)).symm

/-! ## The output array -/

local notation "dat'" => dat (F := Ideal) (Ix := Ix) (U := U) (Lvl := Lvl)

theorem fA_val (c : Dev nD) (x : Fin Mp) (K : Fin Kp) : fA V c x.val K.val = rA V c x K := by
  unfold fA; rw [dif_pos ⟨x.isLt, K.isLt⟩]
theorem fB_val (c : Dev nD) (K : Fin Kp) (y : Fin Np) : fB V c K.val y.val = rB V c K y := by
  unfold fB; rw [dif_pos ⟨K.isLt, y.isLt⟩]
theorem fD_val (c : Dev nD) (x : Fin Mp) : fD V c x.val = rD V c x := by
  unfold fD; rw [dif_pos x.isLt]
theorem fE_val (c : Dev nD) (y : Fin Np) : fE V c y.val = rE V c y := by
  unfold fE; rw [dif_pos y.isLt]

/-- What a point that ends a reduction run leaves in the output block, at (r, j). -/
theorem after5_apply (c : Dev nD) (t : Fin cfg5.N) (ht : t.val % nk = kl) (r : Fin tm) (j : Fin Np) :
    (dat' V c).after 5 t (ix2 r j)
      = act ((∑ K : Fin Kp, gAB V c (t.val / nk * tm + r) j K) * fD V c (t.val / nk * tm + r) + fE V c j) := by
  rw [after5, MatmulMath.k5_pay3_apply, acc_apply, blkD, blkE, ht]
  rfl

/-- The output array as the claim names it: at (r, j) the whole contracted sum, scaled by row r's scale, plus column j's
    bias. -/
def G (c : Dev nD) : Buf (Elt Ideal) ((cfg5.win 5).arr.view.loc (c : Thread nD τ)) := fun i =>
  act ((∑ q : Fin Kp, rA V c (i 0) q * rB V c q (i 1)) * rD V c (i 0) + rE V c (i 1))

/-- A point that ends a reduction run leaves, at (r, j) of the output block, `G` at that element of the array. -/
theorem flushed_apply (c : Dev nD) (t : Fin cfg5.N) (hf : (cfg5.win 5).flush t = true) (r : Fin tm) (j : Fin Np) :
    (dat' V c).flushed 5 t (ix2 r j) = ((cfg5.win 5).blk t).view.read (Elt Ideal) (G V c) (ix2 r j) := by
  have ht : t.val % nk = kl := (flush5_5 t).mp hf
  obtain ⟨-, -, -, -, -, -, -, -, h0, h1⟩ := idx_facts t
  rw [View.read_apply]
  refine Eq.trans ?_ (cast_eq _ _).symm
  show (dat' V c).after 5 t (ix2 r j) = _
  rw [after5_apply V c t ht]
  have e0 : ((((cfg5.win 5).blk t).view.emb (ix2 r j)) 0 : Fin Mp).val = t.val / nk * tm + r.val := by
    refine (Pipeline.Window.rect_emb_val win5_5 t _ 0).trans ?_; rw [h0]; rfl
  have e1 : ((((cfg5.win 5).blk t).view.emb (ix2 r j)) 1 : Fin Np).val = j.val := by
    refine (Pipeline.Window.rect_emb_val win5_5 t _ 1).trans ?_; rw [h1]; exact Nat.zero_add _
  unfold G
  rw [← e0, ← e1]
  simp only [gAB]
  exact congrArg act (congrArg₂ (· + ·) (congrArg₂ (· * ·)
    (Finset.sum_congr rfl fun K _ => congrArg₂ (· * ·) (fA_val V c _ K) (fB_val V c K _)) (fD_val V c _)) (fE_val V c _))

/-- Every point that writes the output back writes its block of `G`. -/
theorem flushed_eq (c : Dev nD) (t : Fin cfg5.N) (hf : (cfg5.win 5).flush t = true) :
    (dat' V c).flushed 5 t = ((cfg5.win 5).blk t).view.read (Elt Ideal) (G V c) := by
  funext y
  have hy : y = ix2 (n0 := tm) (n1 := Np) (y 0) (y 1) := eq_ix2 (n0 := tm) (n1 := Np) y
  exact (congrArg ((dat' V c).flushed 5 t) hy).trans ((flushed_apply V c t hf (y 0) (y 1)).trans
    (congrArg (((cfg5.win 5).blk t).view.read (Elt Ideal) (G V c)) hy.symm))

/-- The blocks written back tile the output array. -/
theorem cover (c : Dev nD) (i : ((cfg5.win 5).arr.view.loc (c : Thread nD τ)).2.ty.Idx) :
    ∃ t : Fin cfg5.N, (cfg5.win 5).flush t = true ∧ i ∈ ((cfg5.win 5).blk t).view.set := by
  have hi0 : (i 0).val < Mp := (i 0).isLt
  have hi1 : (i 1).val < Np := (i 1).isLt
  have htv : (i 0).val / tm * nk + kl < cfg5.N := by rw [N_eq]; simp only [tm, nk, kl, Mp] at *; omega
  refine ⟨⟨(i 0).val / tm * nk + kl, htv⟩, (flush5_5 _).mpr (by simp only [nk, kl]; omega), ?_⟩
  obtain ⟨-, -, -, -, -, -, -, -, h0, h1⟩ := idx_facts ⟨(i 0).val / tm * nk + kl, htv⟩
  have he : ((cfg5.win 5).blk ⟨(i 0).val / tm * nk + kl, htv⟩).view.emb
      (ix2 (⟨(i 0).val % tm, Nat.mod_lt _ (by decide)⟩ : Fin tm) (⟨(i 1).val, hi1⟩ : Fin Np)) = i := by
    funext a; apply Fin.ext; fin_cases a
    · refine (Pipeline.Window.rect_emb_val win5_5 ⟨(i 0).val / tm * nk + kl, htv⟩ _ 0).trans ?_; rw [h0]
      show ((i 0).val / tm * nk + kl) / nk * tm + (i 0).val % tm = (i 0).val
      simp only [nk, kl, tm]; omega
    · refine (Pipeline.Window.rect_emb_val win5_5 ⟨(i 0).val / tm * nk + kl, htv⟩ _ 1).trans ?_; rw [h1]
      exact Nat.zero_add _
  have hm := View.emb_mem_set ((cfg5.win 5).blk ⟨(i 0).val / tm * nk + kl, htv⟩).view
    (ix2 (⟨(i 0).val % tm, Nat.mod_lt _ (by decide)⟩ : Fin tm) (⟨(i 1).val, hi1⟩ : Fin Np))
  rwa [he] at hm

/-- THE OUTPUT ARRAY after the region, element by element, over the entry valuation's arrays. -/
theorem out_apply_at (c : Dev nD) (r : Fin Mp) (j : Fin Np) :
    (dat' V c).arrAt 5 cfg5.N (ix2 r j)
      = act ((∑ q : Fin Kp, rA V c r q * rB V c q j) * rD V c r + rE V c j) :=
  congrFun ((dat' V c).arrAt_eq_of_cover 5 (G V c) (flushed_eq V c) (cover c)) (ix2 r j)

/-- The four operand arrays and the output array as arrays of their literal types. -/
abbrev arrA (c : Dev nD) : (⟨2, ![Mp, Kp]⟩ : Shape).Idx → EReal := V c vA
abbrev arrB (c : Dev nD) : (⟨2, ![Kp, Np]⟩ : Shape).Idx → EReal := V c vB
abbrev arrS (c : Dev nD) : (⟨2, ![Mp, 1]⟩ : Shape).Idx → EReal := V c vD
abbrev arrZ (c : Dev nD) : (⟨2, ![1, Np]⟩ : Shape).Idx → EReal := V c vE
abbrev outArr (c : Dev nD) : (⟨2, ![Mp, Np]⟩ : Shape).Idx → EReal := (dat' V c).arrAt 5 cfg5.N

/-- THE OUTPUT ARRAY after the region over the operand arrays, element by element. -/
theorem out_apply (c : Dev nD) (r : Fin Mp) (j : Fin Np) :
    outArr (Ix := Ix) (U := U) (Lvl := Lvl) V c (ix2 r j)
      = act ((∑ q : Fin Kp, arrA V c (ix2 r q) * arrB V c (ix2 q j)) * arrS V c (ix2 r 0) + arrZ V c (ix2 0 j)) :=
  out_apply_at V c r j

end Cert.KernelIdeal.Region5
end
-- ==== Proof.KI.Region6Value.lean ====
/-
  REGION 6 at the ideal values: the output array after the region, element by element.

  The grid's point t = i * nk + k adds to the accumulator the product of the left operand's block (i, k) and the right
  operand's block k; so after point t the accumulator holds, at (r, j), the sum of the products' terms over the first
  (k + 1) * tk contracted indices, by induction on the point (a sum over blocks is one sum: associativity only). The
  point that ends a run (k = nk - 1) stores accumulator * row scale + bias into the output block i, the blocks written
  back tile the output array, and so the array ends holding at (r, j) the whole contracted sum scaled by row r's scale
  plus column j's bias.
-/
import proofs.«414035_j83562883711810_2_alg».proof.Proof.KI.Region6
import proofs.«414035_j83562883711810_2_alg».proof.Proof.KI.MatmulMath
import Idealize.ShloMosaic.Lib.ValueIdx
import Idealize.ShloMosaic.Lib.Pipeline.Value

noncomputable section
open scoped BigOperators
namespace Cert.KernelIdeal.Region6
open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Window)
variable {Ix : Type} [DecidableEq Ix] {U : Type} [URA U] {Lvl : Type} [Preorder Lvl]

/-! ## The value's literals -/

/-- The arrays of windows 0, 1, 3 and 4 (left operand, right operand, row scales, bias row). -/
abbrev vA : Ref sig .tc := main_v95
abbrev vB : Ref sig .tc := main_v97
abbrev vD : Ref sig .tc := main_v99
abbrev vE : Ref sig .tc := main_v100
/-- The arrays' extents (rows, contracted extent, columns) and the blocks' (rows, contracted extent). -/
abbrev Mp : ℕ := 2048
abbrev Kp : ℕ := 2048
abbrev Np : ℕ := 256
abbrev tm : ℕ := 1024
abbrev tk : ℕ := 1024
theorem N_eq : cfg6.N = 4 := N_6
/-- The output's activation. -/
abbrev act (x : EReal) : EReal := x

variable (V : Dev nD → Valuation τ sig (Elt Ideal))

/-- The four arrays read at a row and a column, as extended reals. -/
abbrev rA (c : Dev nD) (x : Fin Mp) (y : Fin Kp) : EReal := V c vA (ix2 x y)
abbrev rB (c : Dev nD) (x : Fin Kp) (y : Fin Np) : EReal := V c vB (ix2 x y)
abbrev rD (c : Dev nD) (x : Fin Mp) : EReal := V c vD (ix2 x 0)
abbrev rE (c : Dev nD) (y : Fin Np) : EReal := V c vE (ix2 0 y)

/-! ## The blocks in the arrays -/

/-- The index maps over the grid: window 0's block is (row tile, reduction tile), window 1's (reduction tile, 0), windows
    3's and 5's (row tile, 0), window 4's (0, 0). -/
theorem idx_facts : ∀ t : Fin cfg6.N,
    win6_0.index t (0 : Fin 2) = t.val / nk ∧ win6_0.index t (1 : Fin 2) = t.val % nk
    ∧ win6_1.index t (0 : Fin 2) = t.val % nk ∧ win6_1.index t (1 : Fin 2) = 0
    ∧ win6_3.index t (0 : Fin 2) = t.val / nk ∧ win6_3.index t (1 : Fin 2) = 0
    ∧ win6_4.index t (0 : Fin 2) = 0 ∧ win6_4.index t (1 : Fin 2) = 0
    ∧ win6_5.index t (0 : Fin 2) = t.val / nk ∧ win6_5.index t (1 : Fin 2) = 0 :=
  (by decide +kernel : ∀ t : Fin grid6.N, _)

/-- An uncut window moves the whole block. -/
theorem lt_xsize (w : Fin cfg6.W) (hclip : ∀ (i : cfg6.grid.Coords) a, (cfg6.win w).clip i a = none)
    (t : Fin cfg6.N) (y : (cfg6.win w).block.Idx) (a : Fin (cfg6.win w).shape.rank) :
    (y a).val < (cfg6.win w).xsize (cfg6.grid.coords t) a := by
  show (y a).val < ((cfg6.win w).clip (cfg6.grid.coords t) a).extent ((cfg6.win w).size a)
  rw [hclip]; exact (y a).isLt

/-- An element of an input window's block at point `t` is the array's element at the block index times the block's size
    plus its own coordinate, on each axis. -/
theorem inBlk_apply (c : Dev nD) (w : Fin cfg6.W) (hclip : ∀ (i : cfg6.grid.Coords) a, (cfg6.win w).clip i a = none)
    (t : Fin cfg6.N) (y : (cfg6.win w).block.Idx) :
    inBlk V c w t y = _root_.cast (congrArg (Elt Ideal) ((cfg6.win w).blk t).view.elt_eq)
      (A0 V c w (((cfg6.win w).blk t).view.emb fun a => ⟨(y a).val, lt_xsize w hclip t y a⟩)) := by
  unfold inBlk
  have hy : y = (cfg6.win w).xinj (cfg6.grid.coords t) (fun a => ⟨(y a).val, lt_xsize w hclip t y a⟩) := rfl
  conv_lhs => rw [hy]
  rw [Window.fill_xinj, View.read_apply]

/-- The arrays as functions of two naturals, zero outside their extents. -/
def fA (c : Dev nD) (x y : ℕ) : EReal := if h : x < Mp ∧ y < Kp then rA V c ⟨x, h.1⟩ ⟨y, h.2⟩ else 0
def fB (c : Dev nD) (x y : ℕ) : EReal := if h : x < Kp ∧ y < Np then rB V c ⟨x, h.1⟩ ⟨y, h.2⟩ else 0
def fD (c : Dev nD) (x : ℕ) : EReal := if h : x < Mp then rD V c ⟨x, h⟩ else 0
def fE (c : Dev nD) (y : ℕ) : EReal := if h : y < Np then rE V c ⟨y, h⟩ else 0

theorem blkA (c : Dev nD) (t : Fin cfg6.N) (r : Fin tm) (l : Fin tk) :
    inBlk V c 0 t (ix2 r l) = fA V c (t.val / nk * tm + r) (t.val % nk * tk + l) := by
  rw [inBlk_apply V c 0 (fun _ _ => rfl) t]
  have ht := lt_of_lt_of_eq t.isLt N_eq
  have hr := r.isLt; have hl := l.isLt
  obtain ⟨h0, h1, -⟩ := idx_facts t
  unfold fA
  rw [dif_pos ⟨by simp only [nk, tm, Mp] at *; omega, by simp only [nk, tk, Kp] at *; omega⟩]
  refine (cast_eq _ _).trans ?_
  show V c vA _ = V c vA _
  congr 1
  funext a
  apply Fin.ext
  fin_cases a
  · refine (Pipeline.Window.rect_emb_val win6_0 t _ 0).trans ?_; rw [h0]; rfl
  · refine (Pipeline.Window.rect_emb_val win6_0 t _ 1).trans ?_; rw [h1]; rfl

theorem blkB (c : Dev nD) (t : Fin cfg6.N) (l : Fin tk) (j : Fin Np) :
    inBlk V c 1 t (ix2 l j) = fB V c (t.val % nk * tk + l) j := by
  rw [inBlk_apply V c 1 (fun _ _ => rfl) t]
  have ht := lt_of_lt_of_eq t.isLt N_eq
  have hl := l.isLt; have hj := j.isLt
  obtain ⟨-, -, h0, h1, -⟩ := idx_facts t
  unfold fB
  rw [dif_pos ⟨by simp only [nk, tk, Kp] at *; omega, hj⟩]
  refine (cast_eq _ _).trans ?_
  show V c vB _ = V c vB _
  congr 1
  funext a
  apply Fin.ext
  fin_cases a
  · refine (Pipeline.Window.rect_emb_val win6_1 t _ 0).trans ?_; rw [h0]; rfl
  · refine (Pipeline.Window.rect_emb_val win6_1 t _ 1).trans ?_; rw [h1]; exact Nat.zero_add _

theorem blkD (c : Dev nD) (t : Fin cfg6.N) (r : Fin tm) :
    inBlk V c 3 t (ix2 r 0) = fD V c (t.val / nk * tm + r) := by
  rw [inBlk_apply V c 3 (fun _ _ => rfl) t]
  have ht := lt_of_lt_of_eq t.isLt N_eq
  have hr := r.isLt
  obtain ⟨-, -, -, -, h0, h1, -⟩ := idx_facts t
  unfold fD
  rw [dif_pos (by simp only [nk, tm, Mp] at *; omega)]
  refine (cast_eq _ _).trans ?_
  show V c vD _ = V c vD _
  congr 1
  funext a
  apply Fin.ext
  fin_cases a
  · refine (Pipeline.Window.rect_emb_val win6_3 t _ 0).trans ?_; rw [h0]; rfl
  · refine (Pipeline.Window.rect_emb_val win6_3 t _ 1).trans ?_; rw [h1]; rfl

theorem blkE (c : Dev nD) (t : Fin cfg6.N) (j : Fin Np) :
    inBlk V c 4 t (ix2 0 j) = fE V c j := by
  rw [inBlk_apply V c 4 (fun _ _ => rfl) t]
  have hj := j.isLt
  obtain ⟨-, -, -, -, -, -, h0, h1, -⟩ := idx_facts t
  unfold fE
  rw [dif_pos hj]
  refine (cast_eq _ _).trans ?_
  show V c vE _ = V c vE _
  congr 1
  funext a
  apply Fin.ext
  fin_cases a
  · refine (Pipeline.Window.rect_emb_val win6_4 t _ 0).trans ?_; rw [h0]; rfl
  · refine (Pipeline.Window.rect_emb_val win6_4 t _ 1).trans ?_; rw [h1]; exact Nat.zero_add _

/-! ## The accumulator is the partial sum -/

/-- One term of the product at row `x`, column `y`. -/
def gAB (c : Dev nD) (x y K : ℕ) : EReal := fA V c x K * fB V c K y

/-- The first block of a sum over blocks. -/
theorem sum_first_block (g : ℕ → EReal) : ∑ l : Fin tk, g (0 * tk + l) = ∑ K : Fin ((0 + 1) * tk), g K := by
  rw [MatmulMath.sum_fin_succ_block 0 tk g, Nat.zero_mul, Fin.sum_univ_zero, zero_add]

/-- After point `n` the accumulator holds, at (r, j), the sum of the product's terms over the reduction blocks of the
    run so far. -/
theorem acc_apply (c : Dev nD) : ∀ (n : ℕ) (h : n < cfg6.N) (r : Fin tm) (j : Fin Np),
    acc V c n h (ix2 r j) = ∑ K : Fin ((n % nk + 1) * tk), gAB V c (n / nk * tm + r) j K
  | 0, h, r, j => by
    show k6_pay2 (inBlk V c 0 ⟨0, h⟩) (inBlk V c 1 ⟨0, h⟩) (k6_pay1 (F := Ideal)) (ix2 r j) = _
    rw [MatmulMath.k6_pay2_apply, MatmulMath.k6_pay1_apply, zero_add]
    simp only [blkA, blkB]
    rw [Nat.zero_mod]
    exact sum_first_block (gAB V c (0 / nk * tm + r) j)
  | m + 1, h, r, j => by
    show k6_pay2 (inBlk V c 0 ⟨m + 1, h⟩) (inBlk V c 1 ⟨m + 1, h⟩)
      (if (m + 1) % nk = 0 then k6_pay1 (F := Ideal) else acc V c m (Nat.lt_of_succ_lt h)) (ix2 r j) = _
    rw [MatmulMath.k6_pay2_apply]
    simp only [blkA, blkB]
    by_cases hm : (m + 1) % nk = 0
    · rw [if_pos hm, MatmulMath.k6_pay1_apply, zero_add, hm]
      exact sum_first_block (gAB V c ((m + 1) / nk * tm + r) j)
    · have e1 : (m + 1) / nk = m / nk := by simp only [nk] at *; omega
      have e2 : (m + 1) % nk = m % nk + 1 := by simp only [nk] at *; omega
      rw [if_neg hm, acc_apply c m (Nat.lt_of_succ_lt h) r j, e1, e2]
      exact (MatmulMath.sum_fin_succ_block (m % nk + 1) tk (gAB V c (m / nk * tm + r) j)).symm

/-! ## The output array -/

local notation "dat'" => dat (F := Ideal) (Ix := Ix) (U := U) (Lvl := Lvl)

theorem fA_val (c : Dev nD) (x : Fin Mp) (K : Fin Kp) : fA V c x.val K.val = rA V c x K := by
  unfold fA; rw [dif_pos ⟨x.isLt, K.isLt⟩]
theorem fB_val (c : Dev nD) (K : Fin Kp) (y : Fin Np) : fB V c K.val y.val = rB V c K y := by
  unfold fB; rw [dif_pos ⟨K.isLt, y.isLt⟩]
theorem fD_val (c : Dev nD) (x : Fin Mp) : fD V c x.val = rD V c x := by
  unfold fD; rw [dif_pos x.isLt]
theorem fE_val (c : Dev nD) (y : Fin Np) : fE V c y.val = rE V c y := by
  unfold fE; rw [dif_pos y.isLt]

/-- What a point that ends a reduction run leaves in the output block, at (r, j). -/
theorem after5_apply (c : Dev nD) (t : Fin cfg6.N) (ht : t.val % nk = kl) (r : Fin tm) (j : Fin Np) :
    (dat' V c).after 5 t (ix2 r j)
      = act ((∑ K : Fin Kp, gAB V c (t.val / nk * tm + r) j K) * fD V c (t.val / nk * tm + r) + fE V c j) := by
  rw [after5, MatmulMath.k6_pay3_apply, acc_apply, blkD, blkE, ht]
  rfl

/-- The output array as the claim names it: at (r, j) the whole contracted sum, scaled by row r's scale, plus column j's
    bias. -/
def G (c : Dev nD) : Buf (Elt Ideal) ((cfg6.win 5).arr.view.loc (c : Thread nD τ)) := fun i =>
  act ((∑ q : Fin Kp, rA V c (i 0) q * rB V c q (i 1)) * rD V c (i 0) + rE V c (i 1))

/-- A point that ends a reduction run leaves, at (r, j) of the output block, `G` at that element of the array. -/
theorem flushed_apply (c : Dev nD) (t : Fin cfg6.N) (hf : (cfg6.win 5).flush t = true) (r : Fin tm) (j : Fin Np) :
    (dat' V c).flushed 5 t (ix2 r j) = ((cfg6.win 5).blk t).view.read (Elt Ideal) (G V c) (ix2 r j) := by
  have ht : t.val % nk = kl := (flush6_5 t).mp hf
  obtain ⟨-, -, -, -, -, -, -, -, h0, h1⟩ := idx_facts t
  rw [View.read_apply]
  refine Eq.trans ?_ (cast_eq _ _).symm
  show (dat' V c).after 5 t (ix2 r j) = _
  rw [after5_apply V c t ht]
  have e0 : ((((cfg6.win 5).blk t).view.emb (ix2 r j)) 0 : Fin Mp).val = t.val / nk * tm + r.val := by
    refine (Pipeline.Window.rect_emb_val win6_5 t _ 0).trans ?_; rw [h0]; rfl
  have e1 : ((((cfg6.win 5).blk t).view.emb (ix2 r j)) 1 : Fin Np).val = j.val := by
    refine (Pipeline.Window.rect_emb_val win6_5 t _ 1).trans ?_; rw [h1]; exact Nat.zero_add _
  unfold G
  rw [← e0, ← e1]
  simp only [gAB]
  exact congrArg act (congrArg₂ (· + ·) (congrArg₂ (· * ·)
    (Finset.sum_congr rfl fun K _ => congrArg₂ (· * ·) (fA_val V c _ K) (fB_val V c K _)) (fD_val V c _)) (fE_val V c _))

/-- Every point that writes the output back writes its block of `G`. -/
theorem flushed_eq (c : Dev nD) (t : Fin cfg6.N) (hf : (cfg6.win 5).flush t = true) :
    (dat' V c).flushed 5 t = ((cfg6.win 5).blk t).view.read (Elt Ideal) (G V c) := by
  funext y
  have hy : y = ix2 (n0 := tm) (n1 := Np) (y 0) (y 1) := eq_ix2 (n0 := tm) (n1 := Np) y
  exact (congrArg ((dat' V c).flushed 5 t) hy).trans ((flushed_apply V c t hf (y 0) (y 1)).trans
    (congrArg (((cfg6.win 5).blk t).view.read (Elt Ideal) (G V c)) hy.symm))

/-- The blocks written back tile the output array. -/
theorem cover (c : Dev nD) (i : ((cfg6.win 5).arr.view.loc (c : Thread nD τ)).2.ty.Idx) :
    ∃ t : Fin cfg6.N, (cfg6.win 5).flush t = true ∧ i ∈ ((cfg6.win 5).blk t).view.set := by
  have hi0 : (i 0).val < Mp := (i 0).isLt
  have hi1 : (i 1).val < Np := (i 1).isLt
  have htv : (i 0).val / tm * nk + kl < cfg6.N := by rw [N_eq]; simp only [tm, nk, kl, Mp] at *; omega
  refine ⟨⟨(i 0).val / tm * nk + kl, htv⟩, (flush6_5 _).mpr (by simp only [nk, kl]; omega), ?_⟩
  obtain ⟨-, -, -, -, -, -, -, -, h0, h1⟩ := idx_facts ⟨(i 0).val / tm * nk + kl, htv⟩
  have he : ((cfg6.win 5).blk ⟨(i 0).val / tm * nk + kl, htv⟩).view.emb
      (ix2 (⟨(i 0).val % tm, Nat.mod_lt _ (by decide)⟩ : Fin tm) (⟨(i 1).val, hi1⟩ : Fin Np)) = i := by
    funext a; apply Fin.ext; fin_cases a
    · refine (Pipeline.Window.rect_emb_val win6_5 ⟨(i 0).val / tm * nk + kl, htv⟩ _ 0).trans ?_; rw [h0]
      show ((i 0).val / tm * nk + kl) / nk * tm + (i 0).val % tm = (i 0).val
      simp only [nk, kl, tm]; omega
    · refine (Pipeline.Window.rect_emb_val win6_5 ⟨(i 0).val / tm * nk + kl, htv⟩ _ 1).trans ?_; rw [h1]
      exact Nat.zero_add _
  have hm := View.emb_mem_set ((cfg6.win 5).blk ⟨(i 0).val / tm * nk + kl, htv⟩).view
    (ix2 (⟨(i 0).val % tm, Nat.mod_lt _ (by decide)⟩ : Fin tm) (⟨(i 1).val, hi1⟩ : Fin Np))
  rwa [he] at hm

/-- THE OUTPUT ARRAY after the region, element by element, over the entry valuation's arrays. -/
theorem out_apply_at (c : Dev nD) (r : Fin Mp) (j : Fin Np) :
    (dat' V c).arrAt 5 cfg6.N (ix2 r j)
      = act ((∑ q : Fin Kp, rA V c r q * rB V c q j) * rD V c r + rE V c j) :=
  congrFun ((dat' V c).arrAt_eq_of_cover 5 (G V c) (flushed_eq V c) (cover c)) (ix2 r j)

/-- The four operand arrays and the output array as arrays of their literal types. -/
abbrev arrA (c : Dev nD) : (⟨2, ![Mp, Kp]⟩ : Shape).Idx → EReal := V c vA
abbrev arrB (c : Dev nD) : (⟨2, ![Kp, Np]⟩ : Shape).Idx → EReal := V c vB
abbrev arrS (c : Dev nD) : (⟨2, ![Mp, 1]⟩ : Shape).Idx → EReal := V c vD
abbrev arrZ (c : Dev nD) : (⟨2, ![1, Np]⟩ : Shape).Idx → EReal := V c vE
abbrev outArr (c : Dev nD) : (⟨2, ![Mp, Np]⟩ : Shape).Idx → EReal := (dat' V c).arrAt 5 cfg6.N

/-- THE OUTPUT ARRAY after the region over the operand arrays, element by element. -/
theorem out_apply (c : Dev nD) (r : Fin Mp) (j : Fin Np) :
    outArr (Ix := Ix) (U := U) (Lvl := Lvl) V c (ix2 r j)
      = act ((∑ q : Fin Kp, arrA V c (ix2 r q) * arrB V c (ix2 q j)) * arrS V c (ix2 r 0) + arrZ V c (ix2 0 j)) :=
  out_apply_at V c r j

end Cert.KernelIdeal.Region6
end
-- ==== Proof.KI.Region7Value.lean ====
/-
  REGION 7 at the ideal values: the output array after the region, element by element.

  The grid's point t = i * nk + k adds to the accumulator the product of the left operand's block (i, k) and the right
  operand's block k; so after point t the accumulator holds, at (r, j), the sum of the products' terms over the first
  (k + 1) * tk contracted indices, by induction on the point (a sum over blocks is one sum: associativity only). The
  point that ends a run (k = nk - 1) stores accumulator * row scale + bias into the output block i, the blocks written
  back tile the output array, and so the array ends holding at (r, j) the whole contracted sum scaled by row r's scale
  plus column j's bias.
-/
import proofs.«414035_j83562883711810_2_alg».proof.Proof.KI.Region7
import proofs.«414035_j83562883711810_2_alg».proof.Proof.KI.MatmulMath
import Idealize.ShloMosaic.Lib.ValueIdx
import Idealize.ShloMosaic.Lib.Pipeline.Value

noncomputable section
open scoped BigOperators
namespace Cert.KernelIdeal.Region7
open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Window)
variable {Ix : Type} [DecidableEq Ix] {U : Type} [URA U] {Lvl : Type} [Preorder Lvl]

/-! ## The value's literals -/

/-- The arrays of windows 0, 1, 3 and 4 (left operand, right operand, row scales, bias row). -/
abbrev vA : Ref sig .tc := main_v104
abbrev vB : Ref sig .tc := main_v106
abbrev vD : Ref sig .tc := main_v37
abbrev vE : Ref sig .tc := main_v108
/-- The arrays' extents (rows, contracted extent, columns) and the blocks' (rows, contracted extent). -/
abbrev Mp : ℕ := 1000
abbrev Kp : ℕ := 2048
abbrev Np : ℕ := 256
abbrev tm : ℕ := 1000
abbrev tk : ℕ := 1024
theorem N_eq : cfg7.N = 2 := N_7
/-- The output's activation. -/
abbrev act (x : EReal) : EReal := x

variable (V : Dev nD → Valuation τ sig (Elt Ideal))

/-- The four arrays read at a row and a column, as extended reals. -/
abbrev rA (c : Dev nD) (x : Fin Mp) (y : Fin Kp) : EReal := V c vA (ix2 x y)
abbrev rB (c : Dev nD) (x : Fin Kp) (y : Fin Np) : EReal := V c vB (ix2 x y)
abbrev rD (c : Dev nD) (x : Fin Mp) : EReal := V c vD (ix2 x 0)
abbrev rE (c : Dev nD) (y : Fin Np) : EReal := V c vE (ix2 0 y)

/-! ## The blocks in the arrays -/

/-- The index maps over the grid: window 0's block is (row tile, reduction tile), window 1's (reduction tile, 0), windows
    3's and 5's (row tile, 0), window 4's (0, 0). -/
theorem idx_facts : ∀ t : Fin cfg7.N,
    win7_0.index t (0 : Fin 2) = t.val / nk ∧ win7_0.index t (1 : Fin 2) = t.val % nk
    ∧ win7_1.index t (0 : Fin 2) = t.val % nk ∧ win7_1.index t (1 : Fin 2) = 0
    ∧ win7_3.index t (0 : Fin 2) = t.val / nk ∧ win7_3.index t (1 : Fin 2) = 0
    ∧ win7_4.index t (0 : Fin 2) = 0 ∧ win7_4.index t (1 : Fin 2) = 0
    ∧ win7_5.index t (0 : Fin 2) = t.val / nk ∧ win7_5.index t (1 : Fin 2) = 0 :=
  (by decide +kernel : ∀ t : Fin grid7.N, _)

/-- An uncut window moves the whole block. -/
theorem lt_xsize (w : Fin cfg7.W) (hclip : ∀ (i : cfg7.grid.Coords) a, (cfg7.win w).clip i a = none)
    (t : Fin cfg7.N) (y : (cfg7.win w).block.Idx) (a : Fin (cfg7.win w).shape.rank) :
    (y a).val < (cfg7.win w).xsize (cfg7.grid.coords t) a := by
  show (y a).val < ((cfg7.win w).clip (cfg7.grid.coords t) a).extent ((cfg7.win w).size a)
  rw [hclip]; exact (y a).isLt

/-- An element of an input window's block at point `t` is the array's element at the block index times the block's size
    plus its own coordinate, on each axis. -/
theorem inBlk_apply (c : Dev nD) (w : Fin cfg7.W) (hclip : ∀ (i : cfg7.grid.Coords) a, (cfg7.win w).clip i a = none)
    (t : Fin cfg7.N) (y : (cfg7.win w).block.Idx) :
    inBlk V c w t y = _root_.cast (congrArg (Elt Ideal) ((cfg7.win w).blk t).view.elt_eq)
      (A0 V c w (((cfg7.win w).blk t).view.emb fun a => ⟨(y a).val, lt_xsize w hclip t y a⟩)) := by
  unfold inBlk
  have hy : y = (cfg7.win w).xinj (cfg7.grid.coords t) (fun a => ⟨(y a).val, lt_xsize w hclip t y a⟩) := rfl
  conv_lhs => rw [hy]
  rw [Window.fill_xinj, View.read_apply]

/-- The arrays as functions of two naturals, zero outside their extents. -/
def fA (c : Dev nD) (x y : ℕ) : EReal := if h : x < Mp ∧ y < Kp then rA V c ⟨x, h.1⟩ ⟨y, h.2⟩ else 0
def fB (c : Dev nD) (x y : ℕ) : EReal := if h : x < Kp ∧ y < Np then rB V c ⟨x, h.1⟩ ⟨y, h.2⟩ else 0
def fD (c : Dev nD) (x : ℕ) : EReal := if h : x < Mp then rD V c ⟨x, h⟩ else 0
def fE (c : Dev nD) (y : ℕ) : EReal := if h : y < Np then rE V c ⟨y, h⟩ else 0

theorem blkA (c : Dev nD) (t : Fin cfg7.N) (r : Fin tm) (l : Fin tk) :
    inBlk V c 0 t (ix2 r l) = fA V c (t.val / nk * tm + r) (t.val % nk * tk + l) := by
  rw [inBlk_apply V c 0 (fun _ _ => rfl) t]
  have ht := lt_of_lt_of_eq t.isLt N_eq
  have hr := r.isLt; have hl := l.isLt
  obtain ⟨h0, h1, -⟩ := idx_facts t
  unfold fA
  rw [dif_pos ⟨by simp only [nk, tm, Mp] at *; omega, by simp only [nk, tk, Kp] at *; omega⟩]
  refine (cast_eq _ _).trans ?_
  show V c vA _ = V c vA _
  congr 1
  funext a
  apply Fin.ext
  fin_cases a
  · refine (Pipeline.Window.rect_emb_val win7_0 t _ 0).trans ?_; rw [h0]; rfl
  · refine (Pipeline.Window.rect_emb_val win7_0 t _ 1).trans ?_; rw [h1]; rfl

theorem blkB (c : Dev nD) (t : Fin cfg7.N) (l : Fin tk) (j : Fin Np) :
    inBlk V c 1 t (ix2 l j) = fB V c (t.val % nk * tk + l) j := by
  rw [inBlk_apply V c 1 (fun _ _ => rfl) t]
  have ht := lt_of_lt_of_eq t.isLt N_eq
  have hl := l.isLt; have hj := j.isLt
  obtain ⟨-, -, h0, h1, -⟩ := idx_facts t
  unfold fB
  rw [dif_pos ⟨by simp only [nk, tk, Kp] at *; omega, hj⟩]
  refine (cast_eq _ _).trans ?_
  show V c vB _ = V c vB _
  congr 1
  funext a
  apply Fin.ext
  fin_cases a
  · refine (Pipeline.Window.rect_emb_val win7_1 t _ 0).trans ?_; rw [h0]; rfl
  · refine (Pipeline.Window.rect_emb_val win7_1 t _ 1).trans ?_; rw [h1]; exact Nat.zero_add _

theorem blkD (c : Dev nD) (t : Fin cfg7.N) (r : Fin tm) :
    inBlk V c 3 t (ix2 r 0) = fD V c (t.val / nk * tm + r) := by
  rw [inBlk_apply V c 3 (fun _ _ => rfl) t]
  have ht := lt_of_lt_of_eq t.isLt N_eq
  have hr := r.isLt
  obtain ⟨-, -, -, -, h0, h1, -⟩ := idx_facts t
  unfold fD
  rw [dif_pos (by simp only [nk, tm, Mp] at *; omega)]
  refine (cast_eq _ _).trans ?_
  show V c vD _ = V c vD _
  congr 1
  funext a
  apply Fin.ext
  fin_cases a
  · refine (Pipeline.Window.rect_emb_val win7_3 t _ 0).trans ?_; rw [h0]; rfl
  · refine (Pipeline.Window.rect_emb_val win7_3 t _ 1).trans ?_; rw [h1]; rfl

theorem blkE (c : Dev nD) (t : Fin cfg7.N) (j : Fin Np) :
    inBlk V c 4 t (ix2 0 j) = fE V c j := by
  rw [inBlk_apply V c 4 (fun _ _ => rfl) t]
  have hj := j.isLt
  obtain ⟨-, -, -, -, -, -, h0, h1, -⟩ := idx_facts t
  unfold fE
  rw [dif_pos hj]
  refine (cast_eq _ _).trans ?_
  show V c vE _ = V c vE _
  congr 1
  funext a
  apply Fin.ext
  fin_cases a
  · refine (Pipeline.Window.rect_emb_val win7_4 t _ 0).trans ?_; rw [h0]; rfl
  · refine (Pipeline.Window.rect_emb_val win7_4 t _ 1).trans ?_; rw [h1]; exact Nat.zero_add _

/-! ## The accumulator is the partial sum -/

/-- One term of the product at row `x`, column `y`. -/
def gAB (c : Dev nD) (x y K : ℕ) : EReal := fA V c x K * fB V c K y

/-- The first block of a sum over blocks. -/
theorem sum_first_block (g : ℕ → EReal) : ∑ l : Fin tk, g (0 * tk + l) = ∑ K : Fin ((0 + 1) * tk), g K := by
  rw [MatmulMath.sum_fin_succ_block 0 tk g, Nat.zero_mul, Fin.sum_univ_zero, zero_add]

/-- After point `n` the accumulator holds, at (r, j), the sum of the product's terms over the reduction blocks of the
    run so far. -/
theorem acc_apply (c : Dev nD) : ∀ (n : ℕ) (h : n < cfg7.N) (r : Fin tm) (j : Fin Np),
    acc V c n h (ix2 r j) = ∑ K : Fin ((n % nk + 1) * tk), gAB V c (n / nk * tm + r) j K
  | 0, h, r, j => by
    show k7_pay2 (inBlk V c 0 ⟨0, h⟩) (inBlk V c 1 ⟨0, h⟩) (k7_pay1 (F := Ideal)) (ix2 r j) = _
    rw [MatmulMath.k7_pay2_apply, MatmulMath.k7_pay1_apply, zero_add]
    simp only [blkA, blkB]
    rw [Nat.zero_mod]
    exact sum_first_block (gAB V c (0 / nk * tm + r) j)
  | m + 1, h, r, j => by
    show k7_pay2 (inBlk V c 0 ⟨m + 1, h⟩) (inBlk V c 1 ⟨m + 1, h⟩)
      (if (m + 1) % nk = 0 then k7_pay1 (F := Ideal) else acc V c m (Nat.lt_of_succ_lt h)) (ix2 r j) = _
    rw [MatmulMath.k7_pay2_apply]
    simp only [blkA, blkB]
    by_cases hm : (m + 1) % nk = 0
    · rw [if_pos hm, MatmulMath.k7_pay1_apply, zero_add, hm]
      exact sum_first_block (gAB V c ((m + 1) / nk * tm + r) j)
    · have e1 : (m + 1) / nk = m / nk := by simp only [nk] at *; omega
      have e2 : (m + 1) % nk = m % nk + 1 := by simp only [nk] at *; omega
      rw [if_neg hm, acc_apply c m (Nat.lt_of_succ_lt h) r j, e1, e2]
      exact (MatmulMath.sum_fin_succ_block (m % nk + 1) tk (gAB V c (m / nk * tm + r) j)).symm

/-! ## The output array -/

local notation "dat'" => dat (F := Ideal) (Ix := Ix) (U := U) (Lvl := Lvl)

theorem fA_val (c : Dev nD) (x : Fin Mp) (K : Fin Kp) : fA V c x.val K.val = rA V c x K := by
  unfold fA; rw [dif_pos ⟨x.isLt, K.isLt⟩]
theorem fB_val (c : Dev nD) (K : Fin Kp) (y : Fin Np) : fB V c K.val y.val = rB V c K y := by
  unfold fB; rw [dif_pos ⟨K.isLt, y.isLt⟩]
theorem fD_val (c : Dev nD) (x : Fin Mp) : fD V c x.val = rD V c x := by
  unfold fD; rw [dif_pos x.isLt]
theorem fE_val (c : Dev nD) (y : Fin Np) : fE V c y.val = rE V c y := by
  unfold fE; rw [dif_pos y.isLt]

/-- What a point that ends a reduction run leaves in the output block, at (r, j). -/
theorem after5_apply (c : Dev nD) (t : Fin cfg7.N) (ht : t.val % nk = kl) (r : Fin tm) (j : Fin Np) :
    (dat' V c).after 5 t (ix2 r j)
      = act ((∑ K : Fin Kp, gAB V c (t.val / nk * tm + r) j K) * fD V c (t.val / nk * tm + r) + fE V c j) := by
  rw [after5, MatmulMath.k7_pay3_apply, acc_apply, blkD, blkE, ht]
  rfl

/-- The output array as the claim names it: at (r, j) the whole contracted sum, scaled by row r's scale, plus column j's
    bias. -/
def G (c : Dev nD) : Buf (Elt Ideal) ((cfg7.win 5).arr.view.loc (c : Thread nD τ)) := fun i =>
  act ((∑ q : Fin Kp, rA V c (i 0) q * rB V c q (i 1)) * rD V c (i 0) + rE V c (i 1))

/-- A point that ends a reduction run leaves, at (r, j) of the output block, `G` at that element of the array. -/
theorem flushed_apply (c : Dev nD) (t : Fin cfg7.N) (hf : (cfg7.win 5).flush t = true) (r : Fin tm) (j : Fin Np) :
    (dat' V c).flushed 5 t (ix2 r j) = ((cfg7.win 5).blk t).view.read (Elt Ideal) (G V c) (ix2 r j) := by
  have ht : t.val % nk = kl := (flush7_5 t).mp hf
  obtain ⟨-, -, -, -, -, -, -, -, h0, h1⟩ := idx_facts t
  rw [View.read_apply]
  refine Eq.trans ?_ (cast_eq _ _).symm
  show (dat' V c).after 5 t (ix2 r j) = _
  rw [after5_apply V c t ht]
  have e0 : ((((cfg7.win 5).blk t).view.emb (ix2 r j)) 0 : Fin Mp).val = t.val / nk * tm + r.val := by
    refine (Pipeline.Window.rect_emb_val win7_5 t _ 0).trans ?_; rw [h0]; rfl
  have e1 : ((((cfg7.win 5).blk t).view.emb (ix2 r j)) 1 : Fin Np).val = j.val := by
    refine (Pipeline.Window.rect_emb_val win7_5 t _ 1).trans ?_; rw [h1]; exact Nat.zero_add _
  unfold G
  rw [← e0, ← e1]
  simp only [gAB]
  exact congrArg act (congrArg₂ (· + ·) (congrArg₂ (· * ·)
    (Finset.sum_congr rfl fun K _ => congrArg₂ (· * ·) (fA_val V c _ K) (fB_val V c K _)) (fD_val V c _)) (fE_val V c _))

/-- Every point that writes the output back writes its block of `G`. -/
theorem flushed_eq (c : Dev nD) (t : Fin cfg7.N) (hf : (cfg7.win 5).flush t = true) :
    (dat' V c).flushed 5 t = ((cfg7.win 5).blk t).view.read (Elt Ideal) (G V c) := by
  funext y
  have hy : y = ix2 (n0 := tm) (n1 := Np) (y 0) (y 1) := eq_ix2 (n0 := tm) (n1 := Np) y
  exact (congrArg ((dat' V c).flushed 5 t) hy).trans ((flushed_apply V c t hf (y 0) (y 1)).trans
    (congrArg (((cfg7.win 5).blk t).view.read (Elt Ideal) (G V c)) hy.symm))

/-- The blocks written back tile the output array. -/
theorem cover (c : Dev nD) (i : ((cfg7.win 5).arr.view.loc (c : Thread nD τ)).2.ty.Idx) :
    ∃ t : Fin cfg7.N, (cfg7.win 5).flush t = true ∧ i ∈ ((cfg7.win 5).blk t).view.set := by
  have hi0 : (i 0).val < Mp := (i 0).isLt
  have hi1 : (i 1).val < Np := (i 1).isLt
  have htv : (i 0).val / tm * nk + kl < cfg7.N := by rw [N_eq]; simp only [tm, nk, kl, Mp] at *; omega
  refine ⟨⟨(i 0).val / tm * nk + kl, htv⟩, (flush7_5 _).mpr (by simp only [nk, kl]; omega), ?_⟩
  obtain ⟨-, -, -, -, -, -, -, -, h0, h1⟩ := idx_facts ⟨(i 0).val / tm * nk + kl, htv⟩
  have he : ((cfg7.win 5).blk ⟨(i 0).val / tm * nk + kl, htv⟩).view.emb
      (ix2 (⟨(i 0).val % tm, Nat.mod_lt _ (by decide)⟩ : Fin tm) (⟨(i 1).val, hi1⟩ : Fin Np)) = i := by
    funext a; apply Fin.ext; fin_cases a
    · refine (Pipeline.Window.rect_emb_val win7_5 ⟨(i 0).val / tm * nk + kl, htv⟩ _ 0).trans ?_; rw [h0]
      show ((i 0).val / tm * nk + kl) / nk * tm + (i 0).val % tm = (i 0).val
      simp only [nk, kl, tm]; omega
    · refine (Pipeline.Window.rect_emb_val win7_5 ⟨(i 0).val / tm * nk + kl, htv⟩ _ 1).trans ?_; rw [h1]
      exact Nat.zero_add _
  have hm := View.emb_mem_set ((cfg7.win 5).blk ⟨(i 0).val / tm * nk + kl, htv⟩).view
    (ix2 (⟨(i 0).val % tm, Nat.mod_lt _ (by decide)⟩ : Fin tm) (⟨(i 1).val, hi1⟩ : Fin Np))
  rwa [he] at hm

/-- THE OUTPUT ARRAY after the region, element by element, over the entry valuation's arrays. -/
theorem out_apply_at (c : Dev nD) (r : Fin Mp) (j : Fin Np) :
    (dat' V c).arrAt 5 cfg7.N (ix2 r j)
      = act ((∑ q : Fin Kp, rA V c r q * rB V c q j) * rD V c r + rE V c j) :=
  congrFun ((dat' V c).arrAt_eq_of_cover 5 (G V c) (flushed_eq V c) (cover c)) (ix2 r j)

/-- The four operand arrays and the output array as arrays of their literal types. -/
abbrev arrA (c : Dev nD) : (⟨2, ![Mp, Kp]⟩ : Shape).Idx → EReal := V c vA
abbrev arrB (c : Dev nD) : (⟨2, ![Kp, Np]⟩ : Shape).Idx → EReal := V c vB
abbrev arrS (c : Dev nD) : (⟨2, ![Mp, 1]⟩ : Shape).Idx → EReal := V c vD
abbrev arrZ (c : Dev nD) : (⟨2, ![1, Np]⟩ : Shape).Idx → EReal := V c vE
abbrev outArr (c : Dev nD) : (⟨2, ![Mp, Np]⟩ : Shape).Idx → EReal := (dat' V c).arrAt 5 cfg7.N

/-- THE OUTPUT ARRAY after the region over the operand arrays, element by element. -/
theorem out_apply (c : Dev nD) (r : Fin Mp) (j : Fin Np) :
    outArr (Ix := Ix) (U := U) (Lvl := Lvl) V c (ix2 r j)
      = act ((∑ q : Fin Kp, arrA V c (ix2 r q) * arrB V c (ix2 q j)) * arrS V c (ix2 r 0) + arrZ V c (ix2 0 j)) :=
  out_apply_at V c r j

end Cert.KernelIdeal.Region7
end
-- ==== Proof.KI.Region8Value.lean ====
/-
  Region 8 of @main, the value of its output array at the ideal values.

  The grid has two points, one per block of 1024 rows; the reduction axis has one tile of 1000. At point t the body reads
  rows [1024 t, 1024 t + 1024) of the left operand, the whole right operand, the same rows of the scale column and the
  whole bias row, starts its accumulator at 0, adds the block product, multiplies each row by its scale entry, adds the
  bias row, and writes the result back to the same rows of the output array. So what every point writes back is its own
  block of ONE function of the four operand arrays,

      G (R, J) = (sum over q < 1000 of A (R, q) * B (q, J)) * S (R, 0) + Z (0, J),

  the two row blocks cover the output array, and the array ends holding G.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic
import proofs.«414035_j83562883711810_2_alg».proof.Proof.KI.MatmulMath
import proofs.«414035_j83562883711810_2_alg».proof.Proof.KI.Region8

set_option maxRecDepth 16384

noncomputable section

open scoped BigOperators

namespace Cert.KernelIdeal.Region8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The output array after the region, index by index -/

section Value
open Cert.KernelIdeal.MatmulMath Idealize.ShloMosaic.ValueIdx

variable {Ix : Type} [DecidableEq Ix] {U : Type} [URA U] {Lvl : Type} [Preorder Lvl]
variable (V : Dev nD → Valuation τ sig (Elt Ideal)) (c : Dev nD)

/-- The region's four operand arrays as it finds them, and its output array as it leaves it, as arrays of their
    literal types. -/
abbrev arrA : S2048x1000.Idx → EReal := V c main_v111
abbrev arrB : S1000x256.Idx → EReal := V c main_v112
abbrev arrS : S2048x1.Idx → EReal := V c main_v114
abbrev arrZ : S1x256.Idx → EReal := V c main_v40
abbrev outArr : S2048x256.Idx → EReal := (dat (F := Ideal) (Ix := Ix) (U := U) (Lvl := Lvl) V c).arrAt 5 cfg8.N

/-- The activation applied last: none here. -/
abbrev act (x : EReal) : EReal := max x 0

/-- The product of the two operands, each row scaled by the column's entry, plus the bias row: the whole output array. -/
abbrev G (A : S2048x1000.Idx → EReal) (B : S1000x256.Idx → EReal) (S : S2048x1.Idx → EReal) (Z : S1x256.Idx → EReal) :
    S2048x256.Idx → EReal :=
  fun i => act ((∑ q : Fin 1000, A (ix2 (i 0) q) * B (ix2 q (i 1))) * S (ix2 (i 0) 0) + Z (ix2 0 (i 1)))

/-- The index maps over the two grid points: the left operand and the scale column move with the output's row block,
    the right operand and the bias row stay; the output has two row blocks and one column block. -/
theorem idx_facts : ∀ t : Fin cfg8.N,
    win8_0.index t (0 : Fin 2) = win8_5.index t (0 : Fin 2) ∧ win8_0.index t (1 : Fin 2) = 0
    ∧ win8_1.index t (0 : Fin 2) = 0 ∧ win8_1.index t (1 : Fin 2) = 0
    ∧ win8_3.index t (0 : Fin 2) = win8_5.index t (0 : Fin 2) ∧ win8_3.index t (1 : Fin 2) = 0
    ∧ win8_4.index t (0 : Fin 2) = 0 ∧ win8_4.index t (1 : Fin 2) = 0
    ∧ win8_5.index t (0 : Fin 2) ≤ 1 ∧ win8_5.index t (1 : Fin 2) = 0 :=
  (by decide +kernel : ∀ t : Fin grid8.N, _)

/-- Every row block of the output is some point's. -/
theorem idx_onto : ∀ q0 : Fin 2, ∃ t : Fin cfg8.N, win8_5.index t = ![q0.val, 0] :=
  (by decide +kernel : ∀ q0 : Fin 2, ∃ t : Fin grid8.N, win8_5.index t = ![q0.val, 0])

/-- One point's result at block coordinates (r, j), from what the four loaded blocks are at the matching array
    coordinates (R, J): the accumulator starts at 0, takes the row's product with the column, is scaled and shifted. -/
theorem point_eq (A : S2048x1000.Idx → EReal) (B : S1000x256.Idx → EReal) (S : S2048x1.Idx → EReal) (Z : S1x256.Idx → EReal)
    (xA : Vec Ideal S1024x1000 .bf16) (xB : Vec Ideal S1000x256 .bf16) (xs : Vec Ideal S1024x1 .f32) (xb : Vec Ideal S1x256 .f32)
    (R : Fin 2048) (J : Fin 256) (r : Fin 1024) (j : Fin 256)
    (hA : ∀ l : Fin 1000, xA (ix2 r l) = A (ix2 R l))
    (hB : ∀ l : Fin 1000, xB (ix2 l j) = B (ix2 l J))
    (hS : xs (ix2 r 0) = S (ix2 R 0))
    (hZ : xb (ix2 0 j) = Z (ix2 0 J)) :
    k8_pay3 (k8_pay2 xA xB (k8_pay1 (F := Ideal))) xs xb (ix2 r j) = G A B S Z (ix2 R J) := by
  rw [k8_pay3_apply, k8_pay2_apply, k8_pay1_apply, zero_add, hS, hZ]
  show _ = act ((∑ q : Fin 1000, A (ix2 R q) * B (ix2 q J)) * S (ix2 R 0) + Z (ix2 0 J))
  exact congrArg (fun s => act (s * S (ix2 R 0) + Z (ix2 0 J))) (Finset.sum_congr rfl fun l _ => by rw [hA, hB])

/-- What point t writes back is block t of the whole output array. -/
theorem flushed_eq (t : Fin cfg8.N) :
    (dat (F := Ideal) (Ix := Ix) (U := U) (Lvl := Lvl) V c).flushed 5 t
      = ((cfg8.win 5).blk t).view.read (Elt Ideal) (G (arrA V c) (arrB V c) (arrS V c) (arrZ V c)) := by
  show (cfg8.win 5).cut (grid8.coords t) ((dat V c).after 5 t) = _
  rw [after_5]
  obtain ⟨e0, e1, e2, e3, e4, e5, e6, e7, e8, e9⟩ := idx_facts t
  funext y
  obtain ⟨p, q, rfl⟩ : ∃ (p : Fin 1024) (q : Fin 256), y = ix2 p q := ⟨y 0, y 1, eq_ix2 y⟩
  have hp := p.isLt
  have hR : win8_5.index t (0 : Fin 2) * 1024 + p.val < 2048 := by omega
  refine (point_eq (arrA V c) (arrB V c) (arrS V c) (arrZ V c) (blk V c 0 t) (blk V c 1 t) (blk V c 3 t) (blk V c 4 t)
    ⟨win8_5.index t (0 : Fin 2) * 1024 + p.val, hR⟩ q p q ?_ ?_ ?_ ?_).trans ?_
  · intro l
    show V c main_v111 (((cfg8.win 0).blk t).view.emb (ix2 p l)) = V c main_v111 (ix2 ⟨win8_5.index t (0 : Fin 2) * 1024 + p.val, hR⟩ l)
    refine congrArg _ (funext fun a => Fin.ext ?_)
    match a with
    | ⟨0, _⟩ => show win8_0.index t (0 : Fin 2) * 1024 + 1 * p.val = win8_5.index t (0 : Fin 2) * 1024 + p.val; omega
    | ⟨1, _⟩ => show win8_0.index t (1 : Fin 2) * 1000 + 1 * l.val = l.val; omega
  · intro l
    show V c main_v112 (((cfg8.win 1).blk t).view.emb (ix2 l q)) = V c main_v112 (ix2 l q)
    refine congrArg _ (funext fun a => Fin.ext ?_)
    match a with
    | ⟨0, _⟩ => show win8_1.index t (0 : Fin 2) * 1000 + 1 * l.val = l.val; omega
    | ⟨1, _⟩ => show win8_1.index t (1 : Fin 2) * 256 + 1 * q.val = q.val; omega
  · show V c main_v114 (((cfg8.win 3).blk t).view.emb (ix2 p 0)) = V c main_v114 (ix2 ⟨win8_5.index t (0 : Fin 2) * 1024 + p.val, hR⟩ 0)
    refine congrArg _ (funext fun a => Fin.ext ?_)
    match a with
    | ⟨0, _⟩ => show win8_3.index t (0 : Fin 2) * 1024 + 1 * p.val = win8_5.index t (0 : Fin 2) * 1024 + p.val; omega
    | ⟨1, _⟩ => show win8_3.index t (1 : Fin 2) * 1 + 1 * 0 = 0; omega
  · show V c main_v40 (((cfg8.win 4).blk t).view.emb (ix2 0 q)) = V c main_v40 (ix2 0 q)
    refine congrArg _ (funext fun a => Fin.ext ?_)
    match a with
    | ⟨0, _⟩ => show win8_4.index t (0 : Fin 2) * 1 + 1 * 0 = 0; omega
    | ⟨1, _⟩ => show win8_4.index t (1 : Fin 2) * 256 + 1 * q.val = q.val; omega
  · show G (arrA V c) (arrB V c) (arrS V c) (arrZ V c) (ix2 ⟨win8_5.index t (0 : Fin 2) * 1024 + p.val, hR⟩ q)
      = G (arrA V c) (arrB V c) (arrS V c) (arrZ V c) (((cfg8.win 5).blk t).view.emb (ix2 p q))
    refine congrArg _ (funext fun a => Fin.ext ?_)
    match a with
    | ⟨0, _⟩ => show win8_5.index t (0 : Fin 2) * 1024 + p.val = win8_5.index t (0 : Fin 2) * 1024 + 1 * p.val; omega
    | ⟨1, _⟩ => show q.val = win8_5.index t (1 : Fin 2) * 256 + 1 * q.val; omega

/-- An index of the output array is in point t's block iff each coordinate is in the block's range on its axis. -/
theorem mem_blk (t : Fin cfg8.N) (i : S2048x256.Idx) :
    i ∈ ((cfg8.win 5).blk t).view.set ↔ ∀ a : Fin 2, win8_5.index t a * S1024x256.size a ≤ (i a).val
      ∧ (i a).val < win8_5.index t a * S1024x256.size a + S1024x256.size a := by
  show i ∈ ((View.whole main_v115).slice (win8_5.rect t)).set ↔ _
  rw [View.set_slice_whole, Rect.mem_set_unit]
  exact Iff.rfl

/-- Every index of the output array is in some point's block: row R is in row block R / 1024. -/
theorem cover (i : S2048x256.Idx) :
    ∃ t : Fin cfg8.N, (cfg8.win 5).flush t = true ∧ i ∈ ((cfg8.win 5).blk t).view.set := by
  have hi0 : (i 0).val < 2048 := (i 0).isLt
  have hi1 : (i 1).val < 256 := (i 1).isLt
  obtain ⟨t, ht⟩ := idx_onto ⟨(i 0).val / 1024, by omega⟩
  have q0 : win8_5.index t (0 : Fin 2) = (i 0).val / 1024 := congrFun ht 0
  have q1 : win8_5.index t (1 : Fin 2) = 0 := congrFun ht 1
  refine ⟨t, flush8_5 t, ?_⟩
  rw [mem_blk]
  intro a
  match a with
  | ⟨0, _⟩ => show win8_5.index t (0 : Fin 2) * 1024 ≤ (i 0).val ∧ (i 0).val < win8_5.index t (0 : Fin 2) * 1024 + 1024; omega
  | ⟨1, _⟩ => show win8_5.index t (1 : Fin 2) * 256 ≤ (i 1).val ∧ (i 1).val < win8_5.index t (1 : Fin 2) * 256 + 256; omega

/-- The output array after the region is the whole-array function of the operand arrays. -/
theorem final : outArr (Ix := Ix) (U := U) (Lvl := Lvl) V c = G (arrA V c) (arrB V c) (arrS V c) (arrZ V c) :=
  (dat (F := Ideal) (Ix := Ix) (U := U) (Lvl := Lvl) V c).arrAt_eq_of_cover 5 _ (fun t _ => flushed_eq V c t) cover

/-- THE VALUE of the region: its output array at (r, j) is the row of the left operand times the column of the right,
    scaled by the row's scale entry, plus the column's bias entry, all over the arrays as the region finds them. -/
theorem out_apply (r : Fin 2048) (j : Fin 256) :
    outArr (Ix := Ix) (U := U) (Lvl := Lvl) V c (ix2 r j)
      = act ((∑ q : Fin 1000, arrA V c (ix2 r q) * arrB V c (ix2 q j)) * arrS V c (ix2 r 0) + arrZ V c (ix2 0 j)) :=
  congrFun (final (Ix := Ix) (U := U) (Lvl := Lvl) V c) (ix2 r j)

end Value

end Cert.KernelIdeal.Region8
end
-- ==== Proof.KI.Region9Value.lean ====
/-
  Region 9 of @main, the value of its output array at the ideal values.

  The grid has two points, one per block of 1024 rows; the reduction axis has one tile. At point t the body reads rows
  [1024 t, 1024 t + 1024) of the left operand, the whole right operand, the same rows of the scale column and the whole
  bias row, starts its accumulator at 0, adds the block product, multiplies each row by its scale entry, adds the bias
  row, and writes the result back to the same rows of the output array. So what every point writes back is its own block
  of ONE function of the four operand arrays,

      G (R, J) = (sum over q < 256 of A (R, q) * B (q, J)) * S (R, 0) + Z (0, J),

  the two row blocks cover the output array, and the array ends holding G.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic
import proofs.«414035_j83562883711810_2_alg».proof.Proof.KI.MatmulMath
import proofs.«414035_j83562883711810_2_alg».proof.Proof.KI.Region9

set_option maxRecDepth 16384

noncomputable section

open scoped BigOperators

namespace Cert.KernelIdeal.Region9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The output array after the region, index by index -/

section Value
open Cert.KernelIdeal.MatmulMath Idealize.ShloMosaic.ValueIdx

variable {Ix : Type} [DecidableEq Ix] {U : Type} [URA U] {Lvl : Type} [Preorder Lvl]
variable (V : Dev nD → Valuation τ sig (Elt Ideal)) (c : Dev nD)

/-- The region's four operand arrays as it finds them, and its output array as it leaves it, as arrays of their
    literal types. -/
abbrev arrA : S2048x256.Idx → EReal := V c main_v118
abbrev arrB : S256x256.Idx → EReal := V c main_v119
abbrev arrS : S2048x1.Idx → EReal := V c main_v121
abbrev arrZ : S1x256.Idx → EReal := V c main_v122
abbrev outArr : S2048x256.Idx → EReal := (dat (F := Ideal) (Ix := Ix) (U := U) (Lvl := Lvl) V c).arrAt 5 cfg9.N

/-- The product of the two operands, each row scaled by the column's entry, plus the bias row: the whole output array. -/
abbrev G (A : S2048x256.Idx → EReal) (B : S256x256.Idx → EReal) (S : S2048x1.Idx → EReal) (Z : S1x256.Idx → EReal) :
    S2048x256.Idx → EReal :=
  fun i => (∑ q : Fin 256, A (ix2 (i 0) q) * B (ix2 q (i 1))) * S (ix2 (i 0) 0) + Z (ix2 0 (i 1))

/-- The index maps over the two grid points: the left operand and the scale column move with the output's row block,
    the right operand and the bias row stay; the output has two row blocks and one column block. -/
theorem idx_facts : ∀ t : Fin cfg9.N,
    win9_0.index t (0 : Fin 2) = win9_5.index t (0 : Fin 2) ∧ win9_0.index t (1 : Fin 2) = 0
    ∧ win9_1.index t (0 : Fin 2) = 0 ∧ win9_1.index t (1 : Fin 2) = 0
    ∧ win9_3.index t (0 : Fin 2) = win9_5.index t (0 : Fin 2) ∧ win9_3.index t (1 : Fin 2) = 0
    ∧ win9_4.index t (0 : Fin 2) = 0 ∧ win9_4.index t (1 : Fin 2) = 0
    ∧ win9_5.index t (0 : Fin 2) ≤ 1 ∧ win9_5.index t (1 : Fin 2) = 0 :=
  (by decide +kernel : ∀ t : Fin grid9.N, _)

/-- Every row block of the output is some point's. -/
theorem idx_onto : ∀ q0 : Fin 2, ∃ t : Fin cfg9.N, win9_5.index t = ![q0.val, 0] :=
  (by decide +kernel : ∀ q0 : Fin 2, ∃ t : Fin grid9.N, win9_5.index t = ![q0.val, 0])

/-- One point's result at block coordinates (r, j), from what the four loaded blocks are at the matching array
    coordinates (R, J): the accumulator starts at 0, takes the row's product with the column, is scaled and shifted. -/
theorem point_eq (A : S2048x256.Idx → EReal) (B : S256x256.Idx → EReal) (S : S2048x1.Idx → EReal) (Z : S1x256.Idx → EReal)
    (xA : Vec Ideal S1024x256 .bf16) (xB : Vec Ideal S256x256 .bf16) (xs : Vec Ideal S1024x1 .f32) (xb : Vec Ideal S1x256 .f32)
    (R : Fin 2048) (J : Fin 256) (r : Fin 1024) (j : Fin 256)
    (hA : ∀ l : Fin 256, xA (ix2 r l) = A (ix2 R l))
    (hB : ∀ l : Fin 256, xB (ix2 l j) = B (ix2 l J))
    (hS : xs (ix2 r 0) = S (ix2 R 0))
    (hZ : xb (ix2 0 j) = Z (ix2 0 J)) :
    k9_pay3 (k9_pay2 xA xB (k9_pay1 (F := Ideal))) xs xb (ix2 r j) = G A B S Z (ix2 R J) := by
  rw [k9_pay3_apply, k9_pay2_apply, k9_pay1_apply, zero_add, hS, hZ]
  show _ = (∑ q : Fin 256, A (ix2 R q) * B (ix2 q J)) * S (ix2 R 0) + Z (ix2 0 J)
  exact congrArg (fun s => s * S (ix2 R 0) + Z (ix2 0 J)) (Finset.sum_congr rfl fun l _ => by rw [hA, hB])

/-- What point t writes back is block t of the whole output array. -/
theorem flushed_eq (t : Fin cfg9.N) :
    (dat (F := Ideal) (Ix := Ix) (U := U) (Lvl := Lvl) V c).flushed 5 t
      = ((cfg9.win 5).blk t).view.read (Elt Ideal) (G (arrA V c) (arrB V c) (arrS V c) (arrZ V c)) := by
  show (cfg9.win 5).cut (grid9.coords t) ((dat V c).after 5 t) = _
  rw [after_5]
  obtain ⟨e0, e1, e2, e3, e4, e5, e6, e7, e8, e9⟩ := idx_facts t
  funext y
  obtain ⟨p, q, rfl⟩ : ∃ (p : Fin 1024) (q : Fin 256), y = ix2 p q := ⟨y 0, y 1, eq_ix2 y⟩
  have hp := p.isLt
  have hR : win9_5.index t (0 : Fin 2) * 1024 + p.val < 2048 := by omega
  refine (point_eq (arrA V c) (arrB V c) (arrS V c) (arrZ V c) (blk V c 0 t) (blk V c 1 t) (blk V c 3 t) (blk V c 4 t)
    ⟨win9_5.index t (0 : Fin 2) * 1024 + p.val, hR⟩ q p q ?_ ?_ ?_ ?_).trans ?_
  · intro l
    show V c main_v118 (((cfg9.win 0).blk t).view.emb (ix2 p l)) = V c main_v118 (ix2 ⟨win9_5.index t (0 : Fin 2) * 1024 + p.val, hR⟩ l)
    refine congrArg _ (funext fun a => Fin.ext ?_)
    match a with
    | ⟨0, _⟩ => show win9_0.index t (0 : Fin 2) * 1024 + 1 * p.val = win9_5.index t (0 : Fin 2) * 1024 + p.val; omega
    | ⟨1, _⟩ => show win9_0.index t (1 : Fin 2) * 256 + 1 * l.val = l.val; omega
  · intro l
    show V c main_v119 (((cfg9.win 1).blk t).view.emb (ix2 l q)) = V c main_v119 (ix2 l q)
    refine congrArg _ (funext fun a => Fin.ext ?_)
    match a with
    | ⟨0, _⟩ => show win9_1.index t (0 : Fin 2) * 256 + 1 * l.val = l.val; omega
    | ⟨1, _⟩ => show win9_1.index t (1 : Fin 2) * 256 + 1 * q.val = q.val; omega
  · show V c main_v121 (((cfg9.win 3).blk t).view.emb (ix2 p 0)) = V c main_v121 (ix2 ⟨win9_5.index t (0 : Fin 2) * 1024 + p.val, hR⟩ 0)
    refine congrArg _ (funext fun a => Fin.ext ?_)
    match a with
    | ⟨0, _⟩ => show win9_3.index t (0 : Fin 2) * 1024 + 1 * p.val = win9_5.index t (0 : Fin 2) * 1024 + p.val; omega
    | ⟨1, _⟩ => show win9_3.index t (1 : Fin 2) * 1 + 1 * 0 = 0; omega
  · show V c main_v122 (((cfg9.win 4).blk t).view.emb (ix2 0 q)) = V c main_v122 (ix2 0 q)
    refine congrArg _ (funext fun a => Fin.ext ?_)
    match a with
    | ⟨0, _⟩ => show win9_4.index t (0 : Fin 2) * 1 + 1 * 0 = 0; omega
    | ⟨1, _⟩ => show win9_4.index t (1 : Fin 2) * 256 + 1 * q.val = q.val; omega
  · show G (arrA V c) (arrB V c) (arrS V c) (arrZ V c) (ix2 ⟨win9_5.index t (0 : Fin 2) * 1024 + p.val, hR⟩ q)
      = G (arrA V c) (arrB V c) (arrS V c) (arrZ V c) (((cfg9.win 5).blk t).view.emb (ix2 p q))
    refine congrArg _ (funext fun a => Fin.ext ?_)
    match a with
    | ⟨0, _⟩ => show win9_5.index t (0 : Fin 2) * 1024 + p.val = win9_5.index t (0 : Fin 2) * 1024 + 1 * p.val; omega
    | ⟨1, _⟩ => show q.val = win9_5.index t (1 : Fin 2) * 256 + 1 * q.val; omega

/-- An index of the output array is in point t's block iff each coordinate is in the block's range on its axis. -/
theorem mem_blk (t : Fin cfg9.N) (i : S2048x256.Idx) :
    i ∈ ((cfg9.win 5).blk t).view.set ↔ ∀ a : Fin 2, win9_5.index t a * S1024x256.size a ≤ (i a).val
      ∧ (i a).val < win9_5.index t a * S1024x256.size a + S1024x256.size a := by
  show i ∈ ((View.whole main_v123).slice (win9_5.rect t)).set ↔ _
  rw [View.set_slice_whole, Rect.mem_set_unit]
  exact Iff.rfl

/-- Every index of the output array is in some point's block: row R is in row block R / 1024. -/
theorem cover (i : S2048x256.Idx) :
    ∃ t : Fin cfg9.N, (cfg9.win 5).flush t = true ∧ i ∈ ((cfg9.win 5).blk t).view.set := by
  have hi0 : (i 0).val < 2048 := (i 0).isLt
  have hi1 : (i 1).val < 256 := (i 1).isLt
  obtain ⟨t, ht⟩ := idx_onto ⟨(i 0).val / 1024, by omega⟩
  have q0 : win9_5.index t (0 : Fin 2) = (i 0).val / 1024 := congrFun ht 0
  have q1 : win9_5.index t (1 : Fin 2) = 0 := congrFun ht 1
  refine ⟨t, flush9_5 t, ?_⟩
  rw [mem_blk]
  intro a
  match a with
  | ⟨0, _⟩ => show win9_5.index t (0 : Fin 2) * 1024 ≤ (i 0).val ∧ (i 0).val < win9_5.index t (0 : Fin 2) * 1024 + 1024; omega
  | ⟨1, _⟩ => show win9_5.index t (1 : Fin 2) * 256 ≤ (i 1).val ∧ (i 1).val < win9_5.index t (1 : Fin 2) * 256 + 256; omega

/-- The output array after the region is the whole-array function of the operand arrays. -/
theorem final : outArr (Ix := Ix) (U := U) (Lvl := Lvl) V c = G (arrA V c) (arrB V c) (arrS V c) (arrZ V c) :=
  (dat (F := Ideal) (Ix := Ix) (U := U) (Lvl := Lvl) V c).arrAt_eq_of_cover 5 _ (fun t _ => flushed_eq V c t) cover

/-- THE VALUE of the region: its output array at (r, j) is the row of the left operand times the column of the right,
    scaled by the row's scale entry, plus the column's bias entry, all over the arrays as the region finds them. -/
theorem out_apply (r : Fin 2048) (j : Fin 256) :
    outArr (Ix := Ix) (U := U) (Lvl := Lvl) V c (ix2 r j)
      = (∑ q : Fin 256, arrA V c (ix2 r q) * arrB V c (ix2 q j)) * arrS V c (ix2 r 0) + arrZ V c (ix2 0 j) :=
  congrFun (final (Ix := Ix) (U := U) (Lvl := Lvl) V c) (ix2 r j)

end Value

end Cert.KernelIdeal.Region9
end
-- ==== Proof.KI.Region10Value.lean ====
/-
  REGION 10 at the ideal values: the output array after the region, element by element.

  The grid's point t = i * nk + k adds to the accumulator the product of the left operand's block (i, k) and the right
  operand's block k; so after point t the accumulator holds, at (r, j), the sum of the products' terms over the first
  (k + 1) * tk contracted indices, by induction on the point (a sum over blocks is one sum: associativity only). The
  point that ends a run (k = nk - 1) stores accumulator * row scale + bias into the output block i, the blocks written
  back tile the output array, and so the array ends holding at (r, j) the whole contracted sum scaled by row r's scale
  plus column j's bias.
-/
import proofs.«414035_j83562883711810_2_alg».proof.Proof.KI.Region10
import proofs.«414035_j83562883711810_2_alg».proof.Proof.KI.MatmulMath
import Idealize.ShloMosaic.Lib.ValueIdx
import Idealize.ShloMosaic.Lib.Pipeline.Value

noncomputable section
open scoped BigOperators
namespace Cert.KernelIdeal.Region10
open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Window)
variable {Ix : Type} [DecidableEq Ix] {U : Type} [URA U] {Lvl : Type} [Preorder Lvl]

/-! ## The value's literals -/

/-- The arrays of windows 0, 1, 3 and 4 (left operand, right operand, row scales, bias row). -/
abbrev vA : Ref sig .tc := main_v126
abbrev vB : Ref sig .tc := main_v128
abbrev vD : Ref sig .tc := main_v37
abbrev vE : Ref sig .tc := main_v130
/-- The arrays' extents (rows, contracted extent, columns) and the blocks' (rows, contracted extent). -/
abbrev Mp : ℕ := 1000
abbrev Kp : ℕ := 2048
abbrev Np : ℕ := 256
abbrev tm : ℕ := 1000
abbrev tk : ℕ := 1024
theorem N_eq : cfg10.N = 2 := N_10
/-- The output's activation. -/
abbrev act (x : EReal) : EReal := x

variable (V : Dev nD → Valuation τ sig (Elt Ideal))

/-- The four arrays read at a row and a column, as extended reals. -/
abbrev rA (c : Dev nD) (x : Fin Mp) (y : Fin Kp) : EReal := V c vA (ix2 x y)
abbrev rB (c : Dev nD) (x : Fin Kp) (y : Fin Np) : EReal := V c vB (ix2 x y)
abbrev rD (c : Dev nD) (x : Fin Mp) : EReal := V c vD (ix2 x 0)
abbrev rE (c : Dev nD) (y : Fin Np) : EReal := V c vE (ix2 0 y)

/-! ## The blocks in the arrays -/

/-- The index maps over the grid: window 0's block is (row tile, reduction tile), window 1's (reduction tile, 0), windows
    3's and 5's (row tile, 0), window 4's (0, 0). -/
theorem idx_facts : ∀ t : Fin cfg10.N,
    win10_0.index t (0 : Fin 2) = t.val / nk ∧ win10_0.index t (1 : Fin 2) = t.val % nk
    ∧ win10_1.index t (0 : Fin 2) = t.val % nk ∧ win10_1.index t (1 : Fin 2) = 0
    ∧ win10_3.index t (0 : Fin 2) = t.val / nk ∧ win10_3.index t (1 : Fin 2) = 0
    ∧ win10_4.index t (0 : Fin 2) = 0 ∧ win10_4.index t (1 : Fin 2) = 0
    ∧ win10_5.index t (0 : Fin 2) = t.val / nk ∧ win10_5.index t (1 : Fin 2) = 0 :=
  (by decide +kernel : ∀ t : Fin grid10.N, _)

/-- An uncut window moves the whole block. -/
theorem lt_xsize (w : Fin cfg10.W) (hclip : ∀ (i : cfg10.grid.Coords) a, (cfg10.win w).clip i a = none)
    (t : Fin cfg10.N) (y : (cfg10.win w).block.Idx) (a : Fin (cfg10.win w).shape.rank) :
    (y a).val < (cfg10.win w).xsize (cfg10.grid.coords t) a := by
  show (y a).val < ((cfg10.win w).clip (cfg10.grid.coords t) a).extent ((cfg10.win w).size a)
  rw [hclip]; exact (y a).isLt

/-- An element of an input window's block at point `t` is the array's element at the block index times the block's size
    plus its own coordinate, on each axis. -/
theorem inBlk_apply (c : Dev nD) (w : Fin cfg10.W) (hclip : ∀ (i : cfg10.grid.Coords) a, (cfg10.win w).clip i a = none)
    (t : Fin cfg10.N) (y : (cfg10.win w).block.Idx) :
    inBlk V c w t y = _root_.cast (congrArg (Elt Ideal) ((cfg10.win w).blk t).view.elt_eq)
      (A0 V c w (((cfg10.win w).blk t).view.emb fun a => ⟨(y a).val, lt_xsize w hclip t y a⟩)) := by
  unfold inBlk
  have hy : y = (cfg10.win w).xinj (cfg10.grid.coords t) (fun a => ⟨(y a).val, lt_xsize w hclip t y a⟩) := rfl
  conv_lhs => rw [hy]
  rw [Window.fill_xinj, View.read_apply]

/-- The arrays as functions of two naturals, zero outside their extents. -/
def fA (c : Dev nD) (x y : ℕ) : EReal := if h : x < Mp ∧ y < Kp then rA V c ⟨x, h.1⟩ ⟨y, h.2⟩ else 0
def fB (c : Dev nD) (x y : ℕ) : EReal := if h : x < Kp ∧ y < Np then rB V c ⟨x, h.1⟩ ⟨y, h.2⟩ else 0
def fD (c : Dev nD) (x : ℕ) : EReal := if h : x < Mp then rD V c ⟨x, h⟩ else 0
def fE (c : Dev nD) (y : ℕ) : EReal := if h : y < Np then rE V c ⟨y, h⟩ else 0

theorem blkA (c : Dev nD) (t : Fin cfg10.N) (r : Fin tm) (l : Fin tk) :
    inBlk V c 0 t (ix2 r l) = fA V c (t.val / nk * tm + r) (t.val % nk * tk + l) := by
  rw [inBlk_apply V c 0 (fun _ _ => rfl) t]
  have ht := lt_of_lt_of_eq t.isLt N_eq
  have hr := r.isLt; have hl := l.isLt
  obtain ⟨h0, h1, -⟩ := idx_facts t
  unfold fA
  rw [dif_pos ⟨by simp only [nk, tm, Mp] at *; omega, by simp only [nk, tk, Kp] at *; omega⟩]
  refine (cast_eq _ _).trans ?_
  show V c vA _ = V c vA _
  congr 1
  funext a
  apply Fin.ext
  fin_cases a
  · refine (Pipeline.Window.rect_emb_val win10_0 t _ 0).trans ?_; rw [h0]; rfl
  · refine (Pipeline.Window.rect_emb_val win10_0 t _ 1).trans ?_; rw [h1]; rfl

theorem blkB (c : Dev nD) (t : Fin cfg10.N) (l : Fin tk) (j : Fin Np) :
    inBlk V c 1 t (ix2 l j) = fB V c (t.val % nk * tk + l) j := by
  rw [inBlk_apply V c 1 (fun _ _ => rfl) t]
  have ht := lt_of_lt_of_eq t.isLt N_eq
  have hl := l.isLt; have hj := j.isLt
  obtain ⟨-, -, h0, h1, -⟩ := idx_facts t
  unfold fB
  rw [dif_pos ⟨by simp only [nk, tk, Kp] at *; omega, hj⟩]
  refine (cast_eq _ _).trans ?_
  show V c vB _ = V c vB _
  congr 1
  funext a
  apply Fin.ext
  fin_cases a
  · refine (Pipeline.Window.rect_emb_val win10_1 t _ 0).trans ?_; rw [h0]; rfl
  · refine (Pipeline.Window.rect_emb_val win10_1 t _ 1).trans ?_; rw [h1]; exact Nat.zero_add _

theorem blkD (c : Dev nD) (t : Fin cfg10.N) (r : Fin tm) :
    inBlk V c 3 t (ix2 r 0) = fD V c (t.val / nk * tm + r) := by
  rw [inBlk_apply V c 3 (fun _ _ => rfl) t]
  have ht := lt_of_lt_of_eq t.isLt N_eq
  have hr := r.isLt
  obtain ⟨-, -, -, -, h0, h1, -⟩ := idx_facts t
  unfold fD
  rw [dif_pos (by simp only [nk, tm, Mp] at *; omega)]
  refine (cast_eq _ _).trans ?_
  show V c vD _ = V c vD _
  congr 1
  funext a
  apply Fin.ext
  fin_cases a
  · refine (Pipeline.Window.rect_emb_val win10_3 t _ 0).trans ?_; rw [h0]; rfl
  · refine (Pipeline.Window.rect_emb_val win10_3 t _ 1).trans ?_; rw [h1]; rfl

theorem blkE (c : Dev nD) (t : Fin cfg10.N) (j : Fin Np) :
    inBlk V c 4 t (ix2 0 j) = fE V c j := by
  rw [inBlk_apply V c 4 (fun _ _ => rfl) t]
  have hj := j.isLt
  obtain ⟨-, -, -, -, -, -, h0, h1, -⟩ := idx_facts t
  unfold fE
  rw [dif_pos hj]
  refine (cast_eq _ _).trans ?_
  show V c vE _ = V c vE _
  congr 1
  funext a
  apply Fin.ext
  fin_cases a
  · refine (Pipeline.Window.rect_emb_val win10_4 t _ 0).trans ?_; rw [h0]; rfl
  · refine (Pipeline.Window.rect_emb_val win10_4 t _ 1).trans ?_; rw [h1]; exact Nat.zero_add _

/-! ## The accumulator is the partial sum -/

/-- One term of the product at row `x`, column `y`. -/
def gAB (c : Dev nD) (x y K : ℕ) : EReal := fA V c x K * fB V c K y

/-- The first block of a sum over blocks. -/
theorem sum_first_block (g : ℕ → EReal) : ∑ l : Fin tk, g (0 * tk + l) = ∑ K : Fin ((0 + 1) * tk), g K := by
  rw [MatmulMath.sum_fin_succ_block 0 tk g, Nat.zero_mul, Fin.sum_univ_zero, zero_add]

/-- After point `n` the accumulator holds, at (r, j), the sum of the product's terms over the reduction blocks of the
    run so far. -/
theorem acc_apply (c : Dev nD) : ∀ (n : ℕ) (h : n < cfg10.N) (r : Fin tm) (j : Fin Np),
    acc V c n h (ix2 r j) = ∑ K : Fin ((n % nk + 1) * tk), gAB V c (n / nk * tm + r) j K
  | 0, h, r, j => by
    show k10_pay2 (inBlk V c 0 ⟨0, h⟩) (inBlk V c 1 ⟨0, h⟩) (k10_pay1 (F := Ideal)) (ix2 r j) = _
    rw [MatmulMath.k10_pay2_apply, MatmulMath.k10_pay1_apply, zero_add]
    simp only [blkA, blkB]
    rw [Nat.zero_mod]
    exact sum_first_block (gAB V c (0 / nk * tm + r) j)
  | m + 1, h, r, j => by
    show k10_pay2 (inBlk V c 0 ⟨m + 1, h⟩) (inBlk V c 1 ⟨m + 1, h⟩)
      (if (m + 1) % nk = 0 then k10_pay1 (F := Ideal) else acc V c m (Nat.lt_of_succ_lt h)) (ix2 r j) = _
    rw [MatmulMath.k10_pay2_apply]
    simp only [blkA, blkB]
    by_cases hm : (m + 1) % nk = 0
    · rw [if_pos hm, MatmulMath.k10_pay1_apply, zero_add, hm]
      exact sum_first_block (gAB V c ((m + 1) / nk * tm + r) j)
    · have e1 : (m + 1) / nk = m / nk := by simp only [nk] at *; omega
      have e2 : (m + 1) % nk = m % nk + 1 := by simp only [nk] at *; omega
      rw [if_neg hm, acc_apply c m (Nat.lt_of_succ_lt h) r j, e1, e2]
      exact (MatmulMath.sum_fin_succ_block (m % nk + 1) tk (gAB V c (m / nk * tm + r) j)).symm

/-! ## The output array -/

local notation "dat'" => dat (F := Ideal) (Ix := Ix) (U := U) (Lvl := Lvl)

theorem fA_val (c : Dev nD) (x : Fin Mp) (K : Fin Kp) : fA V c x.val K.val = rA V c x K := by
  unfold fA; rw [dif_pos ⟨x.isLt, K.isLt⟩]
theorem fB_val (c : Dev nD) (K : Fin Kp) (y : Fin Np) : fB V c K.val y.val = rB V c K y := by
  unfold fB; rw [dif_pos ⟨K.isLt, y.isLt⟩]
theorem fD_val (c : Dev nD) (x : Fin Mp) : fD V c x.val = rD V c x := by
  unfold fD; rw [dif_pos x.isLt]
theorem fE_val (c : Dev nD) (y : Fin Np) : fE V c y.val = rE V c y := by
  unfold fE; rw [dif_pos y.isLt]

/-- What a point that ends a reduction run leaves in the output block, at (r, j). -/
theorem after5_apply (c : Dev nD) (t : Fin cfg10.N) (ht : t.val % nk = kl) (r : Fin tm) (j : Fin Np) :
    (dat' V c).after 5 t (ix2 r j)
      = act ((∑ K : Fin Kp, gAB V c (t.val / nk * tm + r) j K) * fD V c (t.val / nk * tm + r) + fE V c j) := by
  rw [after5, MatmulMath.k10_pay3_apply, acc_apply, blkD, blkE, ht]
  rfl

/-- The output array as the claim names it: at (r, j) the whole contracted sum, scaled by row r's scale, plus column j's
    bias. -/
def G (c : Dev nD) : Buf (Elt Ideal) ((cfg10.win 5).arr.view.loc (c : Thread nD τ)) := fun i =>
  act ((∑ q : Fin Kp, rA V c (i 0) q * rB V c q (i 1)) * rD V c (i 0) + rE V c (i 1))

/-- A point that ends a reduction run leaves, at (r, j) of the output block, `G` at that element of the array. -/
theorem flushed_apply (c : Dev nD) (t : Fin cfg10.N) (hf : (cfg10.win 5).flush t = true) (r : Fin tm) (j : Fin Np) :
    (dat' V c).flushed 5 t (ix2 r j) = ((cfg10.win 5).blk t).view.read (Elt Ideal) (G V c) (ix2 r j) := by
  have ht : t.val % nk = kl := (flush10_5 t).mp hf
  obtain ⟨-, -, -, -, -, -, -, -, h0, h1⟩ := idx_facts t
  rw [View.read_apply]
  refine Eq.trans ?_ (cast_eq _ _).symm
  show (dat' V c).after 5 t (ix2 r j) = _
  rw [after5_apply V c t ht]
  have e0 : ((((cfg10.win 5).blk t).view.emb (ix2 r j)) 0 : Fin Mp).val = t.val / nk * tm + r.val := by
    refine (Pipeline.Window.rect_emb_val win10_5 t _ 0).trans ?_; rw [h0]; rfl
  have e1 : ((((cfg10.win 5).blk t).view.emb (ix2 r j)) 1 : Fin Np).val = j.val := by
    refine (Pipeline.Window.rect_emb_val win10_5 t _ 1).trans ?_; rw [h1]; exact Nat.zero_add _
  unfold G
  rw [← e0, ← e1]
  simp only [gAB]
  exact congrArg act (congrArg₂ (· + ·) (congrArg₂ (· * ·)
    (Finset.sum_congr rfl fun K _ => congrArg₂ (· * ·) (fA_val V c _ K) (fB_val V c K _)) (fD_val V c _)) (fE_val V c _))

/-- Every point that writes the output back writes its block of `G`. -/
theorem flushed_eq (c : Dev nD) (t : Fin cfg10.N) (hf : (cfg10.win 5).flush t = true) :
    (dat' V c).flushed 5 t = ((cfg10.win 5).blk t).view.read (Elt Ideal) (G V c) := by
  funext y
  have hy : y = ix2 (n0 := tm) (n1 := Np) (y 0) (y 1) := eq_ix2 (n0 := tm) (n1 := Np) y
  exact (congrArg ((dat' V c).flushed 5 t) hy).trans ((flushed_apply V c t hf (y 0) (y 1)).trans
    (congrArg (((cfg10.win 5).blk t).view.read (Elt Ideal) (G V c)) hy.symm))

/-- The blocks written back tile the output array. -/
theorem cover (c : Dev nD) (i : ((cfg10.win 5).arr.view.loc (c : Thread nD τ)).2.ty.Idx) :
    ∃ t : Fin cfg10.N, (cfg10.win 5).flush t = true ∧ i ∈ ((cfg10.win 5).blk t).view.set := by
  have hi0 : (i 0).val < Mp := (i 0).isLt
  have hi1 : (i 1).val < Np := (i 1).isLt
  have htv : (i 0).val / tm * nk + kl < cfg10.N := by rw [N_eq]; simp only [tm, nk, kl, Mp] at *; omega
  refine ⟨⟨(i 0).val / tm * nk + kl, htv⟩, (flush10_5 _).mpr (by simp only [nk, kl]; omega), ?_⟩
  obtain ⟨-, -, -, -, -, -, -, -, h0, h1⟩ := idx_facts ⟨(i 0).val / tm * nk + kl, htv⟩
  have he : ((cfg10.win 5).blk ⟨(i 0).val / tm * nk + kl, htv⟩).view.emb
      (ix2 (⟨(i 0).val % tm, Nat.mod_lt _ (by decide)⟩ : Fin tm) (⟨(i 1).val, hi1⟩ : Fin Np)) = i := by
    funext a; apply Fin.ext; fin_cases a
    · refine (Pipeline.Window.rect_emb_val win10_5 ⟨(i 0).val / tm * nk + kl, htv⟩ _ 0).trans ?_; rw [h0]
      show ((i 0).val / tm * nk + kl) / nk * tm + (i 0).val % tm = (i 0).val
      simp only [nk, kl, tm]; omega
    · refine (Pipeline.Window.rect_emb_val win10_5 ⟨(i 0).val / tm * nk + kl, htv⟩ _ 1).trans ?_; rw [h1]
      exact Nat.zero_add _
  have hm := View.emb_mem_set ((cfg10.win 5).blk ⟨(i 0).val / tm * nk + kl, htv⟩).view
    (ix2 (⟨(i 0).val % tm, Nat.mod_lt _ (by decide)⟩ : Fin tm) (⟨(i 1).val, hi1⟩ : Fin Np))
  rwa [he] at hm

/-- THE OUTPUT ARRAY after the region, element by element, over the entry valuation's arrays. -/
theorem out_apply_at (c : Dev nD) (r : Fin Mp) (j : Fin Np) :
    (dat' V c).arrAt 5 cfg10.N (ix2 r j)
      = act ((∑ q : Fin Kp, rA V c r q * rB V c q j) * rD V c r + rE V c j) :=
  congrFun ((dat' V c).arrAt_eq_of_cover 5 (G V c) (flushed_eq V c) (cover c)) (ix2 r j)

/-- The four operand arrays and the output array as arrays of their literal types. -/
abbrev arrA (c : Dev nD) : (⟨2, ![Mp, Kp]⟩ : Shape).Idx → EReal := V c vA
abbrev arrB (c : Dev nD) : (⟨2, ![Kp, Np]⟩ : Shape).Idx → EReal := V c vB
abbrev arrS (c : Dev nD) : (⟨2, ![Mp, 1]⟩ : Shape).Idx → EReal := V c vD
abbrev arrZ (c : Dev nD) : (⟨2, ![1, Np]⟩ : Shape).Idx → EReal := V c vE
abbrev outArr (c : Dev nD) : (⟨2, ![Mp, Np]⟩ : Shape).Idx → EReal := (dat' V c).arrAt 5 cfg10.N

/-- THE OUTPUT ARRAY after the region over the operand arrays, element by element. -/
theorem out_apply (c : Dev nD) (r : Fin Mp) (j : Fin Np) :
    outArr (Ix := Ix) (U := U) (Lvl := Lvl) V c (ix2 r j)
      = act ((∑ q : Fin Kp, arrA V c (ix2 r q) * arrB V c (ix2 q j)) * arrS V c (ix2 r 0) + arrZ V c (ix2 0 j)) :=
  out_apply_at V c r j

end Cert.KernelIdeal.Region10
end
-- ==== Proof.KI.Region11Value.lean ====
/-
  Region 11 of @main, the value of its output array at the ideal values.

  The grid has two points, one per block of 1024 rows; the reduction axis has one tile of 1000. At point t the body reads
  rows [1024 t, 1024 t + 1024) of the left operand, the whole right operand, the same rows of the scale column and the
  whole bias row, starts its accumulator at 0, adds the block product, multiplies each row by its scale entry, adds the
  bias row, and writes the result back to the same rows of the output array. So what every point writes back is its own
  block of ONE function of the four operand arrays,

      G (R, J) = (sum over q < 1000 of A (R, q) * B (q, J)) * S (R, 0) + Z (0, J),

  the two row blocks cover the output array, and the array ends holding G.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic
import proofs.«414035_j83562883711810_2_alg».proof.Proof.KI.MatmulMath
import proofs.«414035_j83562883711810_2_alg».proof.Proof.KI.Region11

set_option maxRecDepth 16384

noncomputable section

open scoped BigOperators

namespace Cert.KernelIdeal.Region11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The output array after the region, index by index -/

section Value
open Cert.KernelIdeal.MatmulMath Idealize.ShloMosaic.ValueIdx

variable {Ix : Type} [DecidableEq Ix] {U : Type} [URA U] {Lvl : Type} [Preorder Lvl]
variable (V : Dev nD → Valuation τ sig (Elt Ideal)) (c : Dev nD)

/-- The region's four operand arrays as it finds them, and its output array as it leaves it, as arrays of their
    literal types. -/
abbrev arrA : S2048x1000.Idx → EReal := V c main_v133
abbrev arrB : S1000x256.Idx → EReal := V c main_v134
abbrev arrS : S2048x1.Idx → EReal := V c main_v136
abbrev arrZ : S1x256.Idx → EReal := V c main_v41
abbrev outArr : S2048x256.Idx → EReal := (dat (F := Ideal) (Ix := Ix) (U := U) (Lvl := Lvl) V c).arrAt 5 cfg11.N

/-- The activation applied last: none here. -/
abbrev act (x : EReal) : EReal := x

/-- The product of the two operands, each row scaled by the column's entry, plus the bias row: the whole output array. -/
abbrev G (A : S2048x1000.Idx → EReal) (B : S1000x256.Idx → EReal) (S : S2048x1.Idx → EReal) (Z : S1x256.Idx → EReal) :
    S2048x256.Idx → EReal :=
  fun i => act ((∑ q : Fin 1000, A (ix2 (i 0) q) * B (ix2 q (i 1))) * S (ix2 (i 0) 0) + Z (ix2 0 (i 1)))

/-- The index maps over the two grid points: the left operand and the scale column move with the output's row block,
    the right operand and the bias row stay; the output has two row blocks and one column block. -/
theorem idx_facts : ∀ t : Fin cfg11.N,
    win11_0.index t (0 : Fin 2) = win11_5.index t (0 : Fin 2) ∧ win11_0.index t (1 : Fin 2) = 0
    ∧ win11_1.index t (0 : Fin 2) = 0 ∧ win11_1.index t (1 : Fin 2) = 0
    ∧ win11_3.index t (0 : Fin 2) = win11_5.index t (0 : Fin 2) ∧ win11_3.index t (1 : Fin 2) = 0
    ∧ win11_4.index t (0 : Fin 2) = 0 ∧ win11_4.index t (1 : Fin 2) = 0
    ∧ win11_5.index t (0 : Fin 2) ≤ 1 ∧ win11_5.index t (1 : Fin 2) = 0 :=
  (by decide +kernel : ∀ t : Fin grid11.N, _)

/-- Every row block of the output is some point's. -/
theorem idx_onto : ∀ q0 : Fin 2, ∃ t : Fin cfg11.N, win11_5.index t = ![q0.val, 0] :=
  (by decide +kernel : ∀ q0 : Fin 2, ∃ t : Fin grid11.N, win11_5.index t = ![q0.val, 0])

/-- One point's result at block coordinates (r, j), from what the four loaded blocks are at the matching array
    coordinates (R, J): the accumulator starts at 0, takes the row's product with the column, is scaled and shifted. -/
theorem point_eq (A : S2048x1000.Idx → EReal) (B : S1000x256.Idx → EReal) (S : S2048x1.Idx → EReal) (Z : S1x256.Idx → EReal)
    (xA : Vec Ideal S1024x1000 .bf16) (xB : Vec Ideal S1000x256 .bf16) (xs : Vec Ideal S1024x1 .f32) (xb : Vec Ideal S1x256 .f32)
    (R : Fin 2048) (J : Fin 256) (r : Fin 1024) (j : Fin 256)
    (hA : ∀ l : Fin 1000, xA (ix2 r l) = A (ix2 R l))
    (hB : ∀ l : Fin 1000, xB (ix2 l j) = B (ix2 l J))
    (hS : xs (ix2 r 0) = S (ix2 R 0))
    (hZ : xb (ix2 0 j) = Z (ix2 0 J)) :
    k11_pay3 (k11_pay2 xA xB (k11_pay1 (F := Ideal))) xs xb (ix2 r j) = G A B S Z (ix2 R J) := by
  rw [k11_pay3_apply, k11_pay2_apply, k11_pay1_apply, zero_add, hS, hZ]
  show _ = act ((∑ q : Fin 1000, A (ix2 R q) * B (ix2 q J)) * S (ix2 R 0) + Z (ix2 0 J))
  exact congrArg (fun s => act (s * S (ix2 R 0) + Z (ix2 0 J))) (Finset.sum_congr rfl fun l _ => by rw [hA, hB])

/-- What point t writes back is block t of the whole output array. -/
theorem flushed_eq (t : Fin cfg11.N) :
    (dat (F := Ideal) (Ix := Ix) (U := U) (Lvl := Lvl) V c).flushed 5 t
      = ((cfg11.win 5).blk t).view.read (Elt Ideal) (G (arrA V c) (arrB V c) (arrS V c) (arrZ V c)) := by
  show (cfg11.win 5).cut (grid11.coords t) ((dat V c).after 5 t) = _
  rw [after_5]
  obtain ⟨e0, e1, e2, e3, e4, e5, e6, e7, e8, e9⟩ := idx_facts t
  funext y
  obtain ⟨p, q, rfl⟩ : ∃ (p : Fin 1024) (q : Fin 256), y = ix2 p q := ⟨y 0, y 1, eq_ix2 y⟩
  have hp := p.isLt
  have hR : win11_5.index t (0 : Fin 2) * 1024 + p.val < 2048 := by omega
  refine (point_eq (arrA V c) (arrB V c) (arrS V c) (arrZ V c) (blk V c 0 t) (blk V c 1 t) (blk V c 3 t) (blk V c 4 t)
    ⟨win11_5.index t (0 : Fin 2) * 1024 + p.val, hR⟩ q p q ?_ ?_ ?_ ?_).trans ?_
  · intro l
    show V c main_v133 (((cfg11.win 0).blk t).view.emb (ix2 p l)) = V c main_v133 (ix2 ⟨win11_5.index t (0 : Fin 2) * 1024 + p.val, hR⟩ l)
    refine congrArg _ (funext fun a => Fin.ext ?_)
    match a with
    | ⟨0, _⟩ => show win11_0.index t (0 : Fin 2) * 1024 + 1 * p.val = win11_5.index t (0 : Fin 2) * 1024 + p.val; omega
    | ⟨1, _⟩ => show win11_0.index t (1 : Fin 2) * 1000 + 1 * l.val = l.val; omega
  · intro l
    show V c main_v134 (((cfg11.win 1).blk t).view.emb (ix2 l q)) = V c main_v134 (ix2 l q)
    refine congrArg _ (funext fun a => Fin.ext ?_)
    match a with
    | ⟨0, _⟩ => show win11_1.index t (0 : Fin 2) * 1000 + 1 * l.val = l.val; omega
    | ⟨1, _⟩ => show win11_1.index t (1 : Fin 2) * 256 + 1 * q.val = q.val; omega
  · show V c main_v136 (((cfg11.win 3).blk t).view.emb (ix2 p 0)) = V c main_v136 (ix2 ⟨win11_5.index t (0 : Fin 2) * 1024 + p.val, hR⟩ 0)
    refine congrArg _ (funext fun a => Fin.ext ?_)
    match a with
    | ⟨0, _⟩ => show win11_3.index t (0 : Fin 2) * 1024 + 1 * p.val = win11_5.index t (0 : Fin 2) * 1024 + p.val; omega
    | ⟨1, _⟩ => show win11_3.index t (1 : Fin 2) * 1 + 1 * 0 = 0; omega
  · show V c main_v41 (((cfg11.win 4).blk t).view.emb (ix2 0 q)) = V c main_v41 (ix2 0 q)
    refine congrArg _ (funext fun a => Fin.ext ?_)
    match a with
    | ⟨0, _⟩ => show win11_4.index t (0 : Fin 2) * 1 + 1 * 0 = 0; omega
    | ⟨1, _⟩ => show win11_4.index t (1 : Fin 2) * 256 + 1 * q.val = q.val; omega
  · show G (arrA V c) (arrB V c) (arrS V c) (arrZ V c) (ix2 ⟨win11_5.index t (0 : Fin 2) * 1024 + p.val, hR⟩ q)
      = G (arrA V c) (arrB V c) (arrS V c) (arrZ V c) (((cfg11.win 5).blk t).view.emb (ix2 p q))
    refine congrArg _ (funext fun a => Fin.ext ?_)
    match a with
    | ⟨0, _⟩ => show win11_5.index t (0 : Fin 2) * 1024 + p.val = win11_5.index t (0 : Fin 2) * 1024 + 1 * p.val; omega
    | ⟨1, _⟩ => show q.val = win11_5.index t (1 : Fin 2) * 256 + 1 * q.val; omega

/-- An index of the output array is in point t's block iff each coordinate is in the block's range on its axis. -/
theorem mem_blk (t : Fin cfg11.N) (i : S2048x256.Idx) :
    i ∈ ((cfg11.win 5).blk t).view.set ↔ ∀ a : Fin 2, win11_5.index t a * S1024x256.size a ≤ (i a).val
      ∧ (i a).val < win11_5.index t a * S1024x256.size a + S1024x256.size a := by
  show i ∈ ((View.whole main_v137).slice (win11_5.rect t)).set ↔ _
  rw [View.set_slice_whole, Rect.mem_set_unit]
  exact Iff.rfl

/-- Every index of the output array is in some point's block: row R is in row block R / 1024. -/
theorem cover (i : S2048x256.Idx) :
    ∃ t : Fin cfg11.N, (cfg11.win 5).flush t = true ∧ i ∈ ((cfg11.win 5).blk t).view.set := by
  have hi0 : (i 0).val < 2048 := (i 0).isLt
  have hi1 : (i 1).val < 256 := (i 1).isLt
  obtain ⟨t, ht⟩ := idx_onto ⟨(i 0).val / 1024, by omega⟩
  have q0 : win11_5.index t (0 : Fin 2) = (i 0).val / 1024 := congrFun ht 0
  have q1 : win11_5.index t (1 : Fin 2) = 0 := congrFun ht 1
  refine ⟨t, flush11_5 t, ?_⟩
  rw [mem_blk]
  intro a
  match a with
  | ⟨0, _⟩ => show win11_5.index t (0 : Fin 2) * 1024 ≤ (i 0).val ∧ (i 0).val < win11_5.index t (0 : Fin 2) * 1024 + 1024; omega
  | ⟨1, _⟩ => show win11_5.index t (1 : Fin 2) * 256 ≤ (i 1).val ∧ (i 1).val < win11_5.index t (1 : Fin 2) * 256 + 256; omega

/-- The output array after the region is the whole-array function of the operand arrays. -/
theorem final : outArr (Ix := Ix) (U := U) (Lvl := Lvl) V c = G (arrA V c) (arrB V c) (arrS V c) (arrZ V c) :=
  (dat (F := Ideal) (Ix := Ix) (U := U) (Lvl := Lvl) V c).arrAt_eq_of_cover 5 _ (fun t _ => flushed_eq V c t) cover

/-- THE VALUE of the region: its output array at (r, j) is the row of the left operand times the column of the right,
    scaled by the row's scale entry, plus the column's bias entry, all over the arrays as the region finds them. -/
theorem out_apply (r : Fin 2048) (j : Fin 256) :
    outArr (Ix := Ix) (U := U) (Lvl := Lvl) V c (ix2 r j)
      = act ((∑ q : Fin 1000, arrA V c (ix2 r q) * arrB V c (ix2 q j)) * arrS V c (ix2 r 0) + arrZ V c (ix2 0 j)) :=
  congrFun (final (Ix := Ix) (U := U) (Lvl := Lvl) V c) (ix2 r j)

end Value

end Cert.KernelIdeal.Region11
end
-- ==== Proof.KI.Region12Value.lean ====
/-
  Region 12 of @main, the value of its output array at the ideal values.

  The grid has six points, one per block of 1024 rows; the reduction axis has one tile. At point t the body reads rows
  [1024 t, 1024 t + 1024) of the left operand, the whole right operand, the same rows of the scale column and the whole
  bias row, starts its accumulator at 0, adds the block product, multiplies each row by its scale entry, adds the bias
  row, and writes the result back to the same rows of the output array. So what every point writes back is its own block
  of ONE function of the four operand arrays,

      G (R, J) = (sum over q < 256 of A (R, q) * B (q, J)) * S (R, 0) + Z (0, J),

  the six row blocks cover the output array, and the array ends holding G.
-/
import proofs.«414035_j83562883711810_2_alg».proof.Proof.Gen.KernelIdeal.Skeleton
import proofs.«414035_j83562883711810_2_alg».proof.Proof.Gen.KernelIdeal.Launch
import proofs.«414035_j83562883711810_2_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.RegionsLoop
import Idealize.ShloMosaic.Lib.Tactic
import proofs.«414035_j83562883711810_2_alg».proof.Proof.KI.MatmulMath
import proofs.«414035_j83562883711810_2_alg».proof.Proof.KI.Region12

set_option maxRecDepth 16384

noncomputable section

open scoped BigOperators

namespace Cert.KernelIdeal.Region12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The output array after the region, index by index -/

section Value
open Cert.KernelIdeal.MatmulMath Idealize.ShloMosaic.ValueIdx

variable {Ix : Type} [DecidableEq Ix] {U : Type} [URA U] {Lvl : Type} [Preorder Lvl]
variable (V : Dev nD → Valuation τ sig (Elt Ideal)) (c : Dev nD)

/-- The region's four operand arrays as it finds them, and its output array as it leaves it, as arrays of their
    literal types. -/
abbrev arrA : S6144x256.Idx → EReal := V c main_v151
abbrev arrB : S256x256.Idx → EReal := V c main_v152
abbrev arrS : S6144x1.Idx → EReal := V c main_v154
abbrev arrZ : S1x256.Idx → EReal := V c main_v42
abbrev outArr : S6144x256.Idx → EReal := (dat (F := Ideal) (Ix := Ix) (U := U) (Lvl := Lvl) V c).arrAt 5 cfg12.N

/-- The product of the two operands, each row scaled by the column's entry, plus the bias row: the whole output array. -/
abbrev G (A : S6144x256.Idx → EReal) (B : S256x256.Idx → EReal) (S : S6144x1.Idx → EReal) (Z : S1x256.Idx → EReal) :
    S6144x256.Idx → EReal :=
  fun i => (∑ q : Fin 256, A (ix2 (i 0) q) * B (ix2 q (i 1))) * S (ix2 (i 0) 0) + Z (ix2 0 (i 1))

/-- The index maps over the six grid points: the left operand and the scale column move with the output's row block,
    the right operand and the bias row stay; the output has six row blocks and one column block. -/
theorem idx_facts : ∀ t : Fin cfg12.N,
    win12_0.index t (0 : Fin 2) = win12_5.index t (0 : Fin 2) ∧ win12_0.index t (1 : Fin 2) = 0
    ∧ win12_1.index t (0 : Fin 2) = 0 ∧ win12_1.index t (1 : Fin 2) = 0
    ∧ win12_3.index t (0 : Fin 2) = win12_5.index t (0 : Fin 2) ∧ win12_3.index t (1 : Fin 2) = 0
    ∧ win12_4.index t (0 : Fin 2) = 0 ∧ win12_4.index t (1 : Fin 2) = 0
    ∧ win12_5.index t (0 : Fin 2) ≤ 5 ∧ win12_5.index t (1 : Fin 2) = 0 :=
  (by decide +kernel : ∀ t : Fin grid12.N, _)

/-- Every row block of the output is some point's. -/
theorem idx_onto : ∀ q0 : Fin 6, ∃ t : Fin cfg12.N, win12_5.index t = ![q0.val, 0] :=
  (by decide +kernel : ∀ q0 : Fin 6, ∃ t : Fin grid12.N, win12_5.index t = ![q0.val, 0])

/-- One point's result at block coordinates (r, j), from what the four loaded blocks are at the matching array
    coordinates (R, J): the accumulator starts at 0, takes the row's product with the column, is scaled and shifted. -/
theorem point_eq (A : S6144x256.Idx → EReal) (B : S256x256.Idx → EReal) (S : S6144x1.Idx → EReal) (Z : S1x256.Idx → EReal)
    (xA : Vec Ideal S1024x256 .bf16) (xB : Vec Ideal S256x256 .bf16) (xs : Vec Ideal S1024x1 .f32) (xb : Vec Ideal S1x256 .f32)
    (R : Fin 6144) (J : Fin 256) (r : Fin 1024) (j : Fin 256)
    (hA : ∀ l : Fin 256, xA (ix2 r l) = A (ix2 R l))
    (hB : ∀ l : Fin 256, xB (ix2 l j) = B (ix2 l J))
    (hS : xs (ix2 r 0) = S (ix2 R 0))
    (hZ : xb (ix2 0 j) = Z (ix2 0 J)) :
    k12_pay3 (k12_pay2 xA xB (k12_pay1 (F := Ideal))) xs xb (ix2 r j) = G A B S Z (ix2 R J) := by
  rw [k12_pay3_apply, k12_pay2_apply, k12_pay1_apply, zero_add, hS, hZ]
  show _ = (∑ q : Fin 256, A (ix2 R q) * B (ix2 q J)) * S (ix2 R 0) + Z (ix2 0 J)
  exact congrArg (fun s => s * S (ix2 R 0) + Z (ix2 0 J)) (Finset.sum_congr rfl fun l _ => by rw [hA, hB])

/-- What point t writes back is block t of the whole output array. -/
theorem flushed_eq (t : Fin cfg12.N) :
    (dat (F := Ideal) (Ix := Ix) (U := U) (Lvl := Lvl) V c).flushed 5 t
      = ((cfg12.win 5).blk t).view.read (Elt Ideal) (G (arrA V c) (arrB V c) (arrS V c) (arrZ V c)) := by
  show (cfg12.win 5).cut (grid12.coords t) ((dat V c).after 5 t) = _
  rw [after_5]
  obtain ⟨e0, e1, e2, e3, e4, e5, e6, e7, e8, e9⟩ := idx_facts t
  funext y
  obtain ⟨p, q, rfl⟩ : ∃ (p : Fin 1024) (q : Fin 256), y = ix2 p q := ⟨y 0, y 1, eq_ix2 y⟩
  have hp := p.isLt
  have hR : win12_5.index t (0 : Fin 2) * 1024 + p.val < 6144 := by omega
  refine (point_eq (arrA V c) (arrB V c) (arrS V c) (arrZ V c) (blk V c 0 t) (blk V c 1 t) (blk V c 3 t) (blk V c 4 t)
    ⟨win12_5.index t (0 : Fin 2) * 1024 + p.val, hR⟩ q p q ?_ ?_ ?_ ?_).trans ?_
  · intro l
    show V c main_v151 (((cfg12.win 0).blk t).view.emb (ix2 p l)) = V c main_v151 (ix2 ⟨win12_5.index t (0 : Fin 2) * 1024 + p.val, hR⟩ l)
    refine congrArg _ (funext fun a => Fin.ext ?_)
    match a with
    | ⟨0, _⟩ => show win12_0.index t (0 : Fin 2) * 1024 + 1 * p.val = win12_5.index t (0 : Fin 2) * 1024 + p.val; omega
    | ⟨1, _⟩ => show win12_0.index t (1 : Fin 2) * 256 + 1 * l.val = l.val; omega
  · intro l
    show V c main_v152 (((cfg12.win 1).blk t).view.emb (ix2 l q)) = V c main_v152 (ix2 l q)
    refine congrArg _ (funext fun a => Fin.ext ?_)
    match a with
    | ⟨0, _⟩ => show win12_1.index t (0 : Fin 2) * 256 + 1 * l.val = l.val; omega
    | ⟨1, _⟩ => show win12_1.index t (1 : Fin 2) * 256 + 1 * q.val = q.val; omega
  · show V c main_v154 (((cfg12.win 3).blk t).view.emb (ix2 p 0)) = V c main_v154 (ix2 ⟨win12_5.index t (0 : Fin 2) * 1024 + p.val, hR⟩ 0)
    refine congrArg _ (funext fun a => Fin.ext ?_)
    match a with
    | ⟨0, _⟩ => show win12_3.index t (0 : Fin 2) * 1024 + 1 * p.val = win12_5.index t (0 : Fin 2) * 1024 + p.val; omega
    | ⟨1, _⟩ => show win12_3.index t (1 : Fin 2) * 1 + 1 * 0 = 0; omega
  · show V c main_v42 (((cfg12.win 4).blk t).view.emb (ix2 0 q)) = V c main_v42 (ix2 0 q)
    refine congrArg _ (funext fun a => Fin.ext ?_)
    match a with
    | ⟨0, _⟩ => show win12_4.index t (0 : Fin 2) * 1 + 1 * 0 = 0; omega
    | ⟨1, _⟩ => show win12_4.index t (1 : Fin 2) * 256 + 1 * q.val = q.val; omega
  · show G (arrA V c) (arrB V c) (arrS V c) (arrZ V c) (ix2 ⟨win12_5.index t (0 : Fin 2) * 1024 + p.val, hR⟩ q)
      = G (arrA V c) (arrB V c) (arrS V c) (arrZ V c) (((cfg12.win 5).blk t).view.emb (ix2 p q))
    refine congrArg _ (funext fun a => Fin.ext ?_)
    match a with
    | ⟨0, _⟩ => show win12_5.index t (0 : Fin 2) * 1024 + p.val = win12_5.index t (0 : Fin 2) * 1024 + 1 * p.val; omega
    | ⟨1, _⟩ => show q.val = win12_5.index t (1 : Fin 2) * 256 + 1 * q.val; omega

/-- An index of the output array is in point t's block iff each coordinate is in the block's range on its axis. -/
theorem mem_blk (t : Fin cfg12.N) (i : S6144x256.Idx) :
    i ∈ ((cfg12.win 5).blk t).view.set ↔ ∀ a : Fin 2, win12_5.index t a * S1024x256.size a ≤ (i a).val
      ∧ (i a).val < win12_5.index t a * S1024x256.size a + S1024x256.size a := by
  show i ∈ ((View.whole main_v155).slice (win12_5.rect t)).set ↔ _
  rw [View.set_slice_whole, Rect.mem_set_unit]
  exact Iff.rfl

/-- Every index of the output array is in some point's block: row R is in row block R / 1024. -/
theorem cover (i : S6144x256.Idx) :
    ∃ t : Fin cfg12.N, (cfg12.win 5).flush t = true ∧ i ∈ ((cfg12.win 5).blk t).view.set := by
  have hi0 : (i 0).val < 6144 := (i 0).isLt
  have hi1 : (i 1).val < 256 := (i 1).isLt
  obtain ⟨t, ht⟩ := idx_onto ⟨(i 0).val / 1024, by omega⟩
  have q0 : win12_5.index t (0 : Fin 2) = (i 0).val / 1024 := congrFun ht 0
  have q1 : win12_5.index t (1 : Fin 2) = 0 := congrFun ht 1
  refine ⟨t, flush12_5 t, ?_⟩
  rw [mem_blk]
  intro a
  match a with
  | ⟨0, _⟩ => show win12_5.index t (0 : Fin 2) * 1024 ≤ (i 0).val ∧ (i 0).val < win12_5.index t (0 : Fin 2) * 1024 + 1024; omega
  | ⟨1, _⟩ => show win12_5.index t (1 : Fin 2) * 256 ≤ (i 1).val ∧ (i 1).val < win12_5.index t (1 : Fin 2) * 256 + 256; omega

/-- The output array after the region is the whole-array function of the operand arrays. -/
theorem final : outArr (Ix := Ix) (U := U) (Lvl := Lvl) V c = G (arrA V c) (arrB V c) (arrS V c) (arrZ V c) :=
  (dat (F := Ideal) (Ix := Ix) (U := U) (Lvl := Lvl) V c).arrAt_eq_of_cover 5 _ (fun t _ => flushed_eq V c t) cover

/-- THE VALUE of the region: its output array at (r, j) is the row of the left operand times the column of the right,
    scaled by the row's scale entry, plus the column's bias entry, all over the arrays as the region finds them. -/
theorem out_apply (r : Fin 6144) (j : Fin 256) :
    outArr (Ix := Ix) (U := U) (Lvl := Lvl) V c (ix2 r j)
      = (∑ q : Fin 256, arrA V c (ix2 r q) * arrB V c (ix2 q j)) * arrS V c (ix2 r 0) + arrZ V c (ix2 0 j) :=
  congrFun (final (Ix := Ix) (U := U) (Lvl := Lvl) V c) (ix2 r j)

end Value

end Cert.KernelIdeal.Region12
end
-- ==== Proof.KI.HopMath.lean ====
/-
  The hop kernels' payloads read at an index, at the ideal values: the accumulate step multiplies the adjacency block
  by feature rows each scaled by its own factor; the epilogue scales the accumulator by a column and feeds it to a
  dense layer. Format changes are the identity on the extended reals.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«414035_j83562883711810_2_alg».proof.Proof.Gen.KernelIdeal.Skeleton
import proofs.«414035_j83562883711810_2_alg».proof.Proof.KI.MatmulMath

noncomputable section

open scoped BigOperators

namespace Cert.KernelIdeal.HopMath

open Idealize.ShloMosaic Idealize.ShloMosaic.ValueIdx Cert.KernelIdeal Cert.KernelIdeal.Gen Cert.KernelIdeal.MatmulMath

/-! ### Region 13 -/

theorem k13_pay1_apply (r : Fin 1024) (j : Fin 256) : k13_pay1 (F := Ideal) (ix2 r j) = 0 :=
  zeros_ix2 _ _

/-- The accumulate step: the adjacency block times the feature rows, each feature row scaled by its own factor. -/
theorem k13_pay2_apply (a : Vec Ideal S1024x1024 .bf16) (b : Vec Ideal S1024x256 .bf16) (sin : Vec Ideal S1024x1 .f32)
    (acc : Vec Ideal S1024x256 .f32) (r : Fin 1024) (j : Fin 256) :
    k13_pay2 a b sin acc (ix2 r j)
      = acc (ix2 r j) + ∑ l : Fin 1024, a (ix2 r l) * (b (ix2 l j) * sin (ix2 l 0)) := by
  unfold k13_pay2
  simp only [shapeCast_self]
  rw [addf_apply, matmul_zero_ix2 _ rfl rfl rfl rfl rfl rfl]
  simp only [truncf_apply, mulf_apply, extf_apply, colBroadcast_ix2]

/-- The scaled accumulator. -/
theorem k13_pay3_apply (acc : Vec Ideal S1024x256 .f32) (so : Vec Ideal S1024x1 .f32) (r : Fin 1024) (j : Fin 256) :
    k13_pay3 acc so (ix2 r j) = acc (ix2 r j) * so (ix2 r 0) := by
  unfold k13_pay3
  simp only [shapeCast_self]
  rw [mulf_apply, colBroadcast_ix2]

/-- Its narrow copy has the same value. -/
theorem k13_pay4_apply (acc : Vec Ideal S1024x256 .f32) (so : Vec Ideal S1024x1 .f32) (r : Fin 1024) (j : Fin 256) :
    k13_pay4 acc so (ix2 r j) = acc (ix2 r j) * so (ix2 r 0) :=
  k13_pay3_apply acc so r j

/-- The dense layer on the scaled accumulator. -/
theorem k13_pay5_apply (acc : Vec Ideal S1024x256 .f32) (so : Vec Ideal S1024x1 .f32) (gw : Vec Ideal S256x256 .bf16)
    (gb : Vec Ideal S1x256 .f32) (r : Fin 1024) (j : Fin 256) :
    k13_pay5 acc so gw gb (ix2 r j)
      = (∑ l : Fin 256, (acc (ix2 r l) * so (ix2 r 0)) * gw (ix2 l j)) + gb (ix2 0 j) := by
  unfold k13_pay5
  simp only [shapeCast_self]
  rw [dense_ix2 _ rfl rfl rfl rfl rfl rfl]
  simp only [truncf_apply, k13_pay3_apply]

/-! ### Region 14 -/

theorem k14_pay1_apply (r : Fin 1024) (j : Fin 256) : k14_pay1 (F := Ideal) (ix2 r j) = 0 :=
  zeros_ix2 _ _

/-- The accumulate step: the adjacency block times the feature rows, each feature row scaled by its own factor. -/
theorem k14_pay2_apply (a : Vec Ideal S1024x1024 .bf16) (b : Vec Ideal S1024x256 .bf16) (sin : Vec Ideal S1024x1 .f32)
    (acc : Vec Ideal S1024x256 .f32) (r : Fin 1024) (j : Fin 256) :
    k14_pay2 a b sin acc (ix2 r j)
      = acc (ix2 r j) + ∑ l : Fin 1024, a (ix2 r l) * (b (ix2 l j) * sin (ix2 l 0)) := by
  unfold k14_pay2
  simp only [shapeCast_self]
  rw [addf_apply, matmul_zero_ix2 _ rfl rfl rfl rfl rfl rfl]
  simp only [truncf_apply, mulf_apply, extf_apply, colBroadcast_ix2]

/-- The scaled accumulator. -/
theorem k14_pay3_apply (acc : Vec Ideal S1024x256 .f32) (so : Vec Ideal S1024x1 .f32) (r : Fin 1024) (j : Fin 256) :
    k14_pay3 acc so (ix2 r j) = acc (ix2 r j) * so (ix2 r 0) := by
  unfold k14_pay3
  simp only [shapeCast_self]
  rw [mulf_apply, colBroadcast_ix2]

/-- Its narrow copy has the same value. -/
theorem k14_pay4_apply (acc : Vec Ideal S1024x256 .f32) (so : Vec Ideal S1024x1 .f32) (r : Fin 1024) (j : Fin 256) :
    k14_pay4 acc so (ix2 r j) = acc (ix2 r j) * so (ix2 r 0) :=
  k14_pay3_apply acc so r j

/-- The dense layer on the scaled accumulator. -/
theorem k14_pay5_apply (acc : Vec Ideal S1024x256 .f32) (so : Vec Ideal S1024x1 .f32) (gw : Vec Ideal S256x256 .bf16)
    (gb : Vec Ideal S1x256 .f32) (r : Fin 1024) (j : Fin 256) :
    k14_pay5 acc so gw gb (ix2 r j)
      = (∑ l : Fin 256, (acc (ix2 r l) * so (ix2 r 0)) * gw (ix2 l j)) + gb (ix2 0 j) := by
  unfold k14_pay5
  simp only [shapeCast_self]
  rw [dense_ix2 _ rfl rfl rfl rfl rfl rfl]
  simp only [truncf_apply, k14_pay3_apply]

/-! ### Region 15 -/

theorem k15_pay1_apply (r : Fin 1024) (j : Fin 256) : k15_pay1 (F := Ideal) (ix2 r j) = 0 :=
  zeros_ix2 _ _

/-- The accumulate step: the adjacency block times the feature rows, each feature row scaled by its own factor. -/
theorem k15_pay2_apply (a : Vec Ideal S1024x1024 .bf16) (b : Vec Ideal S1024x256 .bf16) (sin : Vec Ideal S1024x1 .f32)
    (acc : Vec Ideal S1024x256 .f32) (r : Fin 1024) (j : Fin 256) :
    k15_pay2 a b sin acc (ix2 r j)
      = acc (ix2 r j) + ∑ l : Fin 1024, a (ix2 r l) * (b (ix2 l j) * sin (ix2 l 0)) := by
  unfold k15_pay2
  simp only [shapeCast_self]
  rw [addf_apply, matmul_zero_ix2 _ rfl rfl rfl rfl rfl rfl]
  simp only [truncf_apply, mulf_apply, extf_apply, colBroadcast_ix2]

/-- The scaled accumulator. -/
theorem k15_pay3_apply (acc : Vec Ideal S1024x256 .f32) (so : Vec Ideal S1024x1 .f32) (r : Fin 1024) (j : Fin 256) :
    k15_pay3 acc so (ix2 r j) = acc (ix2 r j) * so (ix2 r 0) := by
  unfold k15_pay3
  simp only [shapeCast_self]
  rw [mulf_apply, colBroadcast_ix2]

/-- Its narrow copy has the same value. -/
theorem k15_pay4_apply (acc : Vec Ideal S1024x256 .f32) (so : Vec Ideal S1024x1 .f32) (r : Fin 1024) (j : Fin 256) :
    k15_pay4 acc so (ix2 r j) = acc (ix2 r j) * so (ix2 r 0) :=
  k15_pay3_apply acc so r j

/-- The dense layer on the scaled accumulator. -/
theorem k15_pay5_apply (acc : Vec Ideal S1024x256 .f32) (so : Vec Ideal S1024x1 .f32) (gw : Vec Ideal S256x256 .bf16)
    (gb : Vec Ideal S1x256 .f32) (r : Fin 1024) (j : Fin 256) :
    k15_pay5 acc so gw gb (ix2 r j)
      = (∑ l : Fin 256, (acc (ix2 r l) * so (ix2 r 0)) * gw (ix2 l j)) + gb (ix2 0 j) := by
  unfold k15_pay5
  simp only [shapeCast_self]
  rw [dense_ix2 _ rfl rfl rfl rfl rfl rfl]
  simp only [truncf_apply, k15_pay3_apply]

end Cert.KernelIdeal.HopMath
-- ==== Proof.KI.Region13Value.lean ====
/-
  Region 13 at the ideal values: the two output arrays after the region, entry by entry.

  The grid is (6, 6) and the point t = 6 i + k multiplies the (i, k) tile of the adjacency operand by rows
  [1024 k, 1024 k + 1024) of the feature operand, each row scaled by its own factor, and adds the product to the
  accumulator, which starts from zero at k = 0. After k = 5 the accumulator holds, at local row r, the whole sum over
  the 6144 columns of row 1024 i + r: six blocks of 1024 terms are one sum of 6144 terms. That point writes back the
  accumulator scaled by the row's factor, and that block's product with the gate matrix plus the bias row; the six
  blocks written at the points 6 i + 5 tile the 6144 rows of each output. Only associativity and commutativity of +
  are used, so everything holds in the extended reals without any finiteness.
-/
import proofs.«414035_j83562883711810_2_alg».proof.Proof.KI.Region13Base
import proofs.«414035_j83562883711810_2_alg».proof.Proof.KI.HopMath
import proofs.«414035_j83562883711810_2_alg».proof.Proof.KI.MatmulMath
import Idealize.ShloMosaic.Lib.ValueIdx
import Idealize.ShloMosaic.Lib.Pipeline.Value

set_option maxRecDepth 16384

noncomputable section

open scoped BigOperators

namespace Cert.KernelIdeal.Region13

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)

variable {Ix : Type} [DecidableEq Ix] {U : Type} [URA U] {Lvl : Type} [Preorder Lvl]
variable (V : Dev nD → Valuation τ sig (Elt Ideal))

theorem N13 : cfg13.N = 36 := N_13

/-! ## The windows' blocks in the arrays -/

/-- The printed index maps and the dynamic row offset, decided over the grid (point t = 6 i + k). -/
theorem idx_facts : ∀ t : Fin cfg13.N,
    win13_0.index t (0 : Fin 2) = t.val / 6 ∧ win13_0.index t (1 : Fin 2) = t.val % 6
    ∧ win13_1.index t (0 : Fin 2) = 0 ∧ win13_1.index t (1 : Fin 2) = 0
    ∧ win13_2.index t (0 : Fin 2) = t.val % 6 ∧ win13_2.index t (1 : Fin 2) = 0
    ∧ win13_3.index t (0 : Fin 2) = t.val / 6 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val / 6 ∧ win13_6.index t (1 : Fin 2) = 0
    ∧ win13_7.index t (0 : Fin 2) = t.val / 6 ∧ win13_7.index t (1 : Fin 2) = 0
    ∧ k13_off1 (grid13.coords t) (0 : Fin 2) = 1024 * (t.val % 6) ∧ k13_off1 (grid13.coords t) (1 : Fin 2) = 0 :=
  (by decide +kernel : ∀ t : Fin grid13.N, _)

/-- The five arrays the region reads, at its entry. -/
abbrev Aadj (c : Dev nD) : S6144x6144.Idx → EReal := V c main_v147
abbrev Xf (c : Dev nD) : S6144x256.Idx → EReal := V c main_v158
abbrev Sc (c : Dev nD) : S6144x1.Idx → EReal := V c main_v148
abbrev Gw (c : Dev nD) : S256x256.Idx → EReal := V c main_v149
abbrev Gb (c : Dev nD) : S1x256.Idx → EReal := V c main_v42

/-- The same arrays read at natural coordinates (taken modulo the extent, so that every natural is a coordinate). -/
def AN (c : Dev nD) (R K : ℕ) : EReal :=
  Aadj V c (ix2 ⟨R % 6144, Nat.mod_lt _ (by norm_num)⟩ ⟨K % 6144, Nat.mod_lt _ (by norm_num)⟩)
def XN (c : Dev nD) (K : ℕ) (j : Fin 256) : EReal := Xf V c (ix2 ⟨K % 6144, Nat.mod_lt _ (by norm_num)⟩ j)
def SN (c : Dev nD) (K : ℕ) : EReal := Sc V c (ix2 ⟨K % 6144, Nat.mod_lt _ (by norm_num)⟩ 0)

theorem iblk0_at (c : Dev nD) (t : Fin cfg13.N) (r l : Fin 1024) :
    iblk V c 0 t (ix2 r l) = AN V c (1024 * (t.val / 6) + r.val) (1024 * (t.val % 6) + l.val) := by
  obtain ⟨h00, h01, -⟩ := idx_facts t
  have := lt_of_lt_of_eq t.isLt N13
  unfold iblk AN
  rw [View.read_apply]
  show V c main_v147 _ = V c main_v147 _
  congr 1
  funext a
  apply Fin.ext
  match a with
  | ⟨0, _⟩ => show win13_0.index t 0 * 1024 + 1 * r.val = (1024 * (t.val / 6) + r.val) % 6144; rw [h00]; omega
  | ⟨1, _⟩ => show win13_0.index t 1 * 1024 + 1 * l.val = (1024 * (t.val % 6) + l.val) % 6144; rw [h01]; omega

theorem rows_at (c : Dev nD) (t : Fin cfg13.N) (l : Fin 1024) (j : Fin 256) :
    rows (grid13.coords t) (iblk V c 1 t) (ix2 l j) = XN V c (1024 * (t.val % 6) + l.val) j := by
  obtain ⟨-, -, h10, h11, -, -, -, -, -, -, -, -, -, -, -, -, ho0, ho1⟩ := idx_facts t
  unfold iblk XN
  show V c main_v158 _ = V c main_v158 _
  congr 1
  funext a
  apply Fin.ext
  match a with
  | ⟨0, _⟩ =>
    show win13_1.index t 0 * 6144 + 1 * (k13_off1 (grid13.coords t) 0 + 1 * l.val) = (1024 * (t.val % 6) + l.val) % 6144
    rw [h10, ho0]; omega
  | ⟨1, _⟩ =>
    show win13_1.index t 1 * 256 + 1 * (k13_off1 (grid13.coords t) 1 + 1 * j.val) = j.val
    rw [h11, ho1]; omega

theorem iblk2_at (c : Dev nD) (t : Fin cfg13.N) (l : Fin 1024) :
    iblk V c 2 t (ix2 l 0) = SN V c (1024 * (t.val % 6) + l.val) := by
  obtain ⟨-, -, -, -, h20, h21, -⟩ := idx_facts t
  unfold iblk SN
  rw [View.read_apply]
  show V c main_v148 _ = V c main_v148 _
  congr 1
  funext a
  apply Fin.ext
  match a with
  | ⟨0, _⟩ => show win13_2.index t 0 * 1024 + 1 * l.val = (1024 * (t.val % 6) + l.val) % 6144; rw [h20]; omega
  | ⟨1, _⟩ => show win13_2.index t 1 * 1 + 1 * 0 = 0; rw [h21]

theorem iblk3_at (c : Dev nD) (t : Fin cfg13.N) (r : Fin 1024) :
    iblk V c 3 t (ix2 r 0) = SN V c (1024 * (t.val / 6) + r.val) := by
  obtain ⟨-, -, -, -, -, -, h30, h31, -⟩ := idx_facts t
  have := lt_of_lt_of_eq t.isLt N13
  unfold iblk SN
  rw [View.read_apply]
  show V c main_v148 _ = V c main_v148 _
  congr 1
  funext a
  apply Fin.ext
  match a with
  | ⟨0, _⟩ => show win13_3.index t 0 * 1024 + 1 * r.val = (1024 * (t.val / 6) + r.val) % 6144; rw [h30]; omega
  | ⟨1, _⟩ => show win13_3.index t 1 * 1 + 1 * 0 = 0; rw [h31]

theorem iblk4_at (c : Dev nD) (t : Fin cfg13.N) (l j : Fin 256) : iblk V c 4 t (ix2 l j) = Gw V c (ix2 l j) := by
  obtain ⟨-, -, -, -, -, -, -, -, h40, h41, -⟩ := idx_facts t
  unfold iblk
  rw [View.read_apply]
  show V c main_v149 _ = V c main_v149 _
  congr 1
  funext a
  apply Fin.ext
  match a with
  | ⟨0, _⟩ => show win13_4.index t 0 * 256 + 1 * l.val = l.val; rw [h40]; omega
  | ⟨1, _⟩ => show win13_4.index t 1 * 256 + 1 * j.val = j.val; rw [h41]; omega

theorem iblk5_at (c : Dev nD) (t : Fin cfg13.N) (j : Fin 256) : iblk V c 5 t (ix2 0 j) = Gb V c (ix2 0 j) := by
  obtain ⟨-, -, -, -, -, -, -, -, -, -, h50, h51, -⟩ := idx_facts t
  unfold iblk
  rw [View.read_apply]
  show V c main_v42 _ = V c main_v42 _
  congr 1
  funext a
  apply Fin.ext
  match a with
  | ⟨0, _⟩ => show win13_5.index t 0 * 1 + 1 * 0 = 0; rw [h50]
  | ⟨1, _⟩ => show win13_5.index t 1 * 256 + 1 * j.val = j.val; rw [h51]; omega

/-! ## The accumulator -/

/-- The three blocks a point multiplies, as matrices of extended reals. -/
abbrev B0 (c : Dev nD) (t : Fin cfg13.N) : S1024x1024.Idx → EReal := iblk V c 0 t
abbrev B1 (c : Dev nD) (t : Fin cfg13.N) : S1024x256.Idx → EReal := rows (grid13.coords t) (iblk V c 1 t)
abbrev B2 (c : Dev nD) (t : Fin cfg13.N) : S1024x1.Idx → EReal := iblk V c 2 t
abbrev B3 (c : Dev nD) (t : Fin cfg13.N) : S1024x1.Idx → EReal := iblk V c 3 t

/-- The K-th term of the sum of row R and column j: the adjacency entry times the feature entry scaled by its row's factor. -/
def term (c : Dev nD) (R : ℕ) (j : Fin 256) (K : ℕ) : EReal := AN V c R K * (XN V c K j * SN V c K)

/-- At the point 6 i + k the l-th product the body forms at local row r is the (1024 k + l)-th term of row 1024 i + r. -/
theorem term_eq (c : Dev nD) (t : Fin cfg13.N) (i k : ℕ) (ht : t.val = 6 * i + k) (hk : k < 6) (r l : Fin 1024) (j : Fin 256) :
    B0 V c t (ix2 r l) * (B1 V c t (ix2 l j) * B2 V c t (ix2 l 0))
      = term V c (1024 * i + r.val) j (k * 1024 + l.val) := by
  dsimp only [B0, B1, B2]
  rw [iblk0_at, rows_at, iblk2_at]
  unfold term
  rw [show t.val / 6 = i by omega, show t.val % 6 = k by omega, show 1024 * k + l.val = k * 1024 + l.val by omega]

theorem accAt_congr (c : Dev nD) {n n' : ℕ} (e : n = n') (h : n < cfg13.N) (h' : n' < cfg13.N) :
    accAt V c n h = accAt V c n' h' := by subst e; rfl

/-- After the point 6 i + k the accumulator holds, at local row r, the first (k + 1) * 1024 terms of row 1024 i + r. -/
theorem acc_eq (c : Dev nD) (i : ℕ) (hi : i < 6) (r : Fin 1024) (j : Fin 256) :
    ∀ (k : ℕ) (hk : k < 6), accAt V c (6 * i + k) (by rw [N13]; omega) (ix2 r j)
      = ∑ K : Fin ((k + 1) * 1024), term V c (1024 * i + r.val) j K
  | 0, hk => by
    refine (congrFun (accAt_first V c ⟨6 * i + 0, by rw [N13]; omega⟩ (by show (6 * i + 0) % 6 = 0; omega)) (ix2 r j)).trans ?_
    rw [HopMath.k13_pay2_apply, HopMath.k13_pay1_apply, zero_add]
    show _ = ∑ K : Fin 1024, term V c (1024 * i + r.val) j K
    exact Finset.sum_congr rfl fun l _ => (term_eq V c _ i 0 rfl hk r l j).trans (by rw [Nat.zero_mul, Nat.zero_add])
  | k + 1, hk => by
    refine (congrFun (accAt_next V c ⟨6 * i + (k + 1), by rw [N13]; omega⟩ (by show ¬ (6 * i + (k + 1)) % 6 = 0; omega)) (ix2 r j)).trans ?_
    rw [HopMath.k13_pay2_apply, MatmulMath.sum_fin_succ_block (k + 1) 1024,
      accAt_congr V c (show (6 * i + (k + 1)) - 1 = 6 * i + k by omega) _ (by rw [N13]; omega),
      acc_eq c i hi r j k (by omega)]
    congr 1
    exact Finset.sum_congr rfl fun l _ => term_eq V c _ i (k + 1) rfl hk r l j

/-- After the last point of row tile i the accumulator holds, at local row r, the whole sum of row 1024 i + r. -/
theorem acc_last (c : Dev nD) (t : Fin cfg13.N) (h5 : t.val % 6 = 5) (r : Fin 1024) (j : Fin 256) :
    accAt V c t.val t.isLt (ix2 r j) = ∑ K : Fin 6144, term V c (1024 * (t.val / 6) + r.val) j K := by
  have h36 := lt_of_lt_of_eq t.isLt N13
  rw [accAt_congr V c (show t.val = 6 * (t.val / 6) + 5 by omega) t.isLt (by have := N13; omega),
    acc_eq V c (t.val / 6) (by omega) r j 5 (by norm_num)]

/-! ## The two outputs over the whole arrays -/

/-- The feature output: row R's sum, scaled by row R's factor. -/
def GF (c : Dev nD) : S6144x256.Idx → EReal :=
  fun i => (∑ K : Fin 6144, term V c (i 0).val (i 1) K) * SN V c (i 0).val

/-- The readout: the feature output's row times the gate matrix, plus the bias row. -/
def GR (c : Dev nD) : S6144x256.Idx → EReal :=
  fun i => (∑ l : Fin 256, GF V c (ix2 (i 0) l) * Gw V c (ix2 l (i 1))) + Gb V c (ix2 0 (i 1))

/-- What the last point of row tile i leaves scaled at local row r is the feature output at row 1024 i + r. -/
theorem scaled_eq (c : Dev nD) (t : Fin cfg13.N) (h5 : t.val % 6 = 5) (r : Fin 1024) (l : Fin 256) :
    accAt V c t.val t.isLt (ix2 r l) * B3 V c t (ix2 r 0)
      = GF V c (ix2 ⟨1024 * (t.val / 6) + r.val, by have := lt_of_lt_of_eq t.isLt N13; omega⟩ l) := by
  dsimp only [B3]
  rw [acc_last V c t h5, iblk3_at]
  rfl

theorem flushedF (c : Dev nD) (t : Fin cfg13.N) (hf : (cfg13.win 6).flush t = true) :
    (dat (Ix := Ix) (U := U) (Lvl := Lvl) V c).flushed 6 t = ((cfg13.win 6).blk t).view.read (Elt Ideal) (GF V c) := by
  have h5 : t.val % 6 = 5 := (flush13_6 t).mp hf
  have h36 := lt_of_lt_of_eq t.isLt N13
  obtain ⟨-, -, -, -, -, -, -, -, -, -, -, -, h60, h61, h70, h71, -⟩ := idx_facts t
  funext y
  obtain ⟨r, j, rfl⟩ : ∃ (r : Fin 1024) (j : Fin 256), y = ix2 r j := ⟨_, _, eq_ix2 (n0 := 1024) (n1 := 256) y⟩
  rw [View.read_apply]
  show k13_pay4 (accAt V c t.val t.isLt) (iblk V c 3 t) (ix2 r j) = GF V c (((cfg13.win 6).blk t).view.emb (ix2 r j))
  rw [HopMath.k13_pay4_apply]
  refine (scaled_eq V c t h5 r j).trans (congrArg (GF V c) ?_)
  funext a
  apply Fin.ext
  match a with
  | ⟨0, _⟩ => show 1024 * (t.val / 6) + r.val = win13_6.index t 0 * 1024 + 1 * r.val; rw [h60]; omega
  | ⟨1, _⟩ => show j.val = win13_6.index t 1 * 256 + 1 * j.val; rw [h61]; omega

theorem flushedR (c : Dev nD) (t : Fin cfg13.N) (hf : (cfg13.win 7).flush t = true) :
    (dat (Ix := Ix) (U := U) (Lvl := Lvl) V c).flushed 7 t = ((cfg13.win 7).blk t).view.read (Elt Ideal) (GR V c) := by
  have h5 : t.val % 6 = 5 := (flush13_7 t).mp hf
  have h36 := lt_of_lt_of_eq t.isLt N13
  obtain ⟨-, -, -, -, -, -, -, -, -, -, -, -, h60, h61, h70, h71, -⟩ := idx_facts t
  funext y
  obtain ⟨r, j, rfl⟩ : ∃ (r : Fin 1024) (j : Fin 256), y = ix2 r j := ⟨_, _, eq_ix2 (n0 := 1024) (n1 := 256) y⟩
  rw [View.read_apply]
  show k13_pay5 (accAt V c t.val t.isLt) (iblk V c 3 t) (iblk V c 4 t) (iblk V c 5 t) (ix2 r j)
    = GR V c (((cfg13.win 7).blk t).view.emb (ix2 r j))
  rw [HopMath.k13_pay5_apply, iblk5_at]
  have e : ((cfg13.win 7).blk t).view.emb (ix2 r j)
      = ix2 ⟨1024 * (t.val / 6) + r.val, by omega⟩ j := by
    funext a
    apply Fin.ext
    match a with
    | ⟨0, _⟩ => show win13_7.index t 0 * 1024 + 1 * r.val = 1024 * (t.val / 6) + r.val; rw [h70]; omega
    | ⟨1, _⟩ => show win13_7.index t 1 * 256 + 1 * j.val = j.val; rw [h71]; omega
  rw [e]
  show _ = (∑ l : Fin 256, GF V c (ix2 ⟨1024 * (t.val / 6) + r.val, _⟩ l) * Gw V c (ix2 l j)) + Gb V c (ix2 0 j)
  congr 1
  exact Finset.sum_congr rfl fun l _ => by rw [iblk4_at]; exact congrArg (· * _) (scaled_eq V c t h5 r l)

/-- Every row lies in the block its row tile's last point writes back. -/
theorem coverF (c : Dev nD) (i : ((cfg13.win 6).arr.view.loc (c.tc : Thread nD τ)).2.ty.Idx) :
    ∃ t : Fin cfg13.N, (cfg13.win 6).flush t = true ∧ i ∈ ((cfg13.win 6).blk t).view.set := by
  have hi : (i 0 : ℕ) < 6144 := (i 0).isLt
  have hj : (i 1 : ℕ) < 256 := (i 1).isLt
  have hT : 6 * ((i 0 : ℕ) / 1024) + 5 < cfg13.N := by rw [N13]; omega
  obtain ⟨-, -, -, -, -, -, -, -, -, -, -, -, h60, h61, h70, h71, -⟩ := idx_facts ⟨6 * ((i 0 : ℕ) / 1024) + 5, hT⟩
  refine ⟨⟨6 * ((i 0 : ℕ) / 1024) + 5, hT⟩, (flush13_6 _).mpr (by show (6 * ((i 0 : ℕ) / 1024) + 5) % 6 = 5; omega), ?_⟩
  show i ∈ ((View.whole main_v159_0).slice (win13_6.rect ⟨6 * ((i 0 : ℕ) / 1024) + 5, hT⟩)).set
  rw [View.set_slice_whole, Rect.mem_set_unit]
  intro a
  match a with
  | ⟨0, _⟩ =>
    show win13_6.index ⟨6 * ((i 0 : ℕ) / 1024) + 5, hT⟩ 0 * 1024 ≤ (i 0 : ℕ)
      ∧ (i 0 : ℕ) < win13_6.index ⟨6 * ((i 0 : ℕ) / 1024) + 5, hT⟩ 0 * 1024 + 1024
    rw [h60]
    show (6 * ((i 0 : ℕ) / 1024) + 5) / 6 * 1024 ≤ (i 0 : ℕ) ∧ (i 0 : ℕ) < (6 * ((i 0 : ℕ) / 1024) + 5) / 6 * 1024 + 1024
    omega
  | ⟨1, _⟩ =>
    show win13_6.index ⟨6 * ((i 0 : ℕ) / 1024) + 5, hT⟩ 1 * 256 ≤ (i 1 : ℕ)
      ∧ (i 1 : ℕ) < win13_6.index ⟨6 * ((i 0 : ℕ) / 1024) + 5, hT⟩ 1 * 256 + 256
    rw [h61]; omega

theorem coverR (c : Dev nD) (i : ((cfg13.win 7).arr.view.loc (c.tc : Thread nD τ)).2.ty.Idx) :
    ∃ t : Fin cfg13.N, (cfg13.win 7).flush t = true ∧ i ∈ ((cfg13.win 7).blk t).view.set := by
  have hi : (i 0 : ℕ) < 6144 := (i 0).isLt
  have hj : (i 1 : ℕ) < 256 := (i 1).isLt
  have hT : 6 * ((i 0 : ℕ) / 1024) + 5 < cfg13.N := by rw [N13]; omega
  obtain ⟨-, -, -, -, -, -, -, -, -, -, -, -, h60, h61, h70, h71, -⟩ := idx_facts ⟨6 * ((i 0 : ℕ) / 1024) + 5, hT⟩
  refine ⟨⟨6 * ((i 0 : ℕ) / 1024) + 5, hT⟩, (flush13_7 _).mpr (by show (6 * ((i 0 : ℕ) / 1024) + 5) % 6 = 5; omega), ?_⟩
  show i ∈ ((View.whole main_v159_1).slice (win13_7.rect ⟨6 * ((i 0 : ℕ) / 1024) + 5, hT⟩)).set
  rw [View.set_slice_whole, Rect.mem_set_unit]
  intro a
  match a with
  | ⟨0, _⟩ =>
    show win13_7.index ⟨6 * ((i 0 : ℕ) / 1024) + 5, hT⟩ 0 * 1024 ≤ (i 0 : ℕ)
      ∧ (i 0 : ℕ) < win13_7.index ⟨6 * ((i 0 : ℕ) / 1024) + 5, hT⟩ 0 * 1024 + 1024
    rw [h70]
    show (6 * ((i 0 : ℕ) / 1024) + 5) / 6 * 1024 ≤ (i 0 : ℕ) ∧ (i 0 : ℕ) < (6 * ((i 0 : ℕ) / 1024) + 5) / 6 * 1024 + 1024
    omega
  | ⟨1, _⟩ =>
    show win13_7.index ⟨6 * ((i 0 : ℕ) / 1024) + 5, hT⟩ 1 * 256 ≤ (i 1 : ℕ)
      ∧ (i 1 : ℕ) < win13_7.index ⟨6 * ((i 0 : ℕ) / 1024) + 5, hT⟩ 1 * 256 + 256
    rw [h71]; omega

/-! ## The region's value -/

/-- The two output arrays after the region. -/
abbrev OF (c : Dev nD) : S6144x256.Idx → EReal := (dat (Ix := Ix) (U := U) (Lvl := Lvl) V c).arrAt 6 cfg13.N
abbrev OR (c : Dev nD) : S6144x256.Idx → EReal := (dat (Ix := Ix) (U := U) (Lvl := Lvl) V c).arrAt 7 cfg13.N

theorem arrF (c : Dev nD) : OF (Ix := Ix) (U := U) (Lvl := Lvl) V c = GF V c :=
  (dat V c).arrAt_eq_of_cover 6 (GF V c) (flushedF V c) (coverF c)

theorem arrR (c : Dev nD) : OR (Ix := Ix) (U := U) (Lvl := Lvl) V c = GR V c :=
  (dat V c).arrAt_eq_of_cover 7 (GR V c) (flushedR V c) (coverR c)

theorem AN_of (c : Dev nD) (r q : Fin 6144) : AN V c r.val q.val = Aadj V c (ix2 r q) :=
  congrArg₂ (fun a b => Aadj V c (ix2 a b)) (Fin.ext (Nat.mod_eq_of_lt r.isLt)) (Fin.ext (Nat.mod_eq_of_lt q.isLt))
theorem XN_of (c : Dev nD) (q : Fin 6144) (j : Fin 256) : XN V c q.val j = Xf V c (ix2 q j) :=
  congrArg (fun a => Xf V c (ix2 a j)) (Fin.ext (Nat.mod_eq_of_lt q.isLt))
theorem SN_of (c : Dev nD) (q : Fin 6144) : SN V c q.val = Sc V c (ix2 q 0) :=
  congrArg (fun a => Sc V c (ix2 a 0)) (Fin.ext (Nat.mod_eq_of_lt q.isLt))

/-- The feature output after the region, entry by entry, over the arrays at the region's entry. -/
theorem valueF (c : Dev nD) (r : Fin 6144) (j : Fin 256) :
    OF (Ix := Ix) (U := U) (Lvl := Lvl) V c (ix2 r j)
      = (∑ q : Fin 6144, Aadj V c (ix2 r q) * (Xf V c (ix2 q j) * Sc V c (ix2 q 0))) * Sc V c (ix2 r 0) := by
  rw [arrF]
  show (∑ K : Fin 6144, term V c r.val j K) * SN V c r.val = _
  rw [SN_of]
  congr 1
  exact Finset.sum_congr rfl fun q _ => by unfold term; rw [AN_of, XN_of, SN_of]

/-- The readout after the region, entry by entry, over the feature output and the arrays at the region's entry. -/
theorem valueR (c : Dev nD) (r : Fin 6144) (j : Fin 256) :
    OR (Ix := Ix) (U := U) (Lvl := Lvl) V c (ix2 r j)
      = (∑ l : Fin 256, OF (Ix := Ix) (U := U) (Lvl := Lvl) V c (ix2 r l) * Gw V c (ix2 l j)) + Gb V c (ix2 0 j) := by
  rw [arrR, arrF]
  rfl

end Cert.KernelIdeal.Region13

end
-- ==== Proof.KI.Region14Value.lean ====
/-
  Region 14 at the ideal values: the two output arrays after the region, entry by entry.

  The grid is (6, 6) and the point t = 6 i + k multiplies the (i, k) tile of the adjacency operand by rows
  [1024 k, 1024 k + 1024) of the feature operand, each row scaled by its own factor, and adds the product to the
  accumulator, which starts from zero at k = 0. After k = 5 the accumulator holds, at local row r, the whole sum over
  the 6144 columns of row 1024 i + r: six blocks of 1024 terms are one sum of 6144 terms. That point writes back the
  accumulator scaled by the row's factor, and that block's product with the gate matrix plus the bias row; the six
  blocks written at the points 6 i + 5 tile the 6144 rows of each output. Only associativity and commutativity of +
  are used, so everything holds in the extended reals without any finiteness.
-/
import proofs.«414035_j83562883711810_2_alg».proof.Proof.KI.Region14Base
import proofs.«414035_j83562883711810_2_alg».proof.Proof.KI.HopMath
import proofs.«414035_j83562883711810_2_alg».proof.Proof.KI.MatmulMath
import Idealize.ShloMosaic.Lib.ValueIdx
import Idealize.ShloMosaic.Lib.Pipeline.Value

set_option maxRecDepth 16384

noncomputable section

open scoped BigOperators

namespace Cert.KernelIdeal.Region14

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)

variable {Ix : Type} [DecidableEq Ix] {U : Type} [URA U] {Lvl : Type} [Preorder Lvl]
variable (V : Dev nD → Valuation τ sig (Elt Ideal))

theorem N13 : cfg14.N = 36 := N_14

/-! ## The windows' blocks in the arrays -/

/-- The printed index maps and the dynamic row offset, decided over the grid (point t = 6 i + k). -/
theorem idx_facts : ∀ t : Fin cfg14.N,
    win14_0.index t (0 : Fin 2) = t.val / 6 ∧ win14_0.index t (1 : Fin 2) = t.val % 6
    ∧ win14_1.index t (0 : Fin 2) = 0 ∧ win14_1.index t (1 : Fin 2) = 0
    ∧ win14_2.index t (0 : Fin 2) = t.val % 6 ∧ win14_2.index t (1 : Fin 2) = 0
    ∧ win14_3.index t (0 : Fin 2) = t.val / 6 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = t.val / 6 ∧ win14_6.index t (1 : Fin 2) = 0
    ∧ win14_7.index t (0 : Fin 2) = t.val / 6 ∧ win14_7.index t (1 : Fin 2) = 0
    ∧ k14_off1 (grid14.coords t) (0 : Fin 2) = 1024 * (t.val % 6) ∧ k14_off1 (grid14.coords t) (1 : Fin 2) = 0 :=
  (by decide +kernel : ∀ t : Fin grid14.N, _)

/-- The five arrays the region reads, at its entry. -/
abbrev Aadj (c : Dev nD) : S6144x6144.Idx → EReal := V c main_v147
abbrev Xf (c : Dev nD) : S6144x256.Idx → EReal := V c main_v159_0
abbrev Sc (c : Dev nD) : S6144x1.Idx → EReal := V c main_v148
abbrev Gw (c : Dev nD) : S256x256.Idx → EReal := V c main_v149
abbrev Gb (c : Dev nD) : S1x256.Idx → EReal := V c main_v42

/-- The same arrays read at natural coordinates (taken modulo the extent, so that every natural is a coordinate). -/
def AN (c : Dev nD) (R K : ℕ) : EReal :=
  Aadj V c (ix2 ⟨R % 6144, Nat.mod_lt _ (by norm_num)⟩ ⟨K % 6144, Nat.mod_lt _ (by norm_num)⟩)
def XN (c : Dev nD) (K : ℕ) (j : Fin 256) : EReal := Xf V c (ix2 ⟨K % 6144, Nat.mod_lt _ (by norm_num)⟩ j)
def SN (c : Dev nD) (K : ℕ) : EReal := Sc V c (ix2 ⟨K % 6144, Nat.mod_lt _ (by norm_num)⟩ 0)

theorem iblk0_at (c : Dev nD) (t : Fin cfg14.N) (r l : Fin 1024) :
    iblk V c 0 t (ix2 r l) = AN V c (1024 * (t.val / 6) + r.val) (1024 * (t.val % 6) + l.val) := by
  obtain ⟨h00, h01, -⟩ := idx_facts t
  have := lt_of_lt_of_eq t.isLt N13
  unfold iblk AN
  rw [View.read_apply]
  show V c main_v147 _ = V c main_v147 _
  congr 1
  funext a
  apply Fin.ext
  match a with
  | ⟨0, _⟩ => show win14_0.index t 0 * 1024 + 1 * r.val = (1024 * (t.val / 6) + r.val) % 6144; rw [h00]; omega
  | ⟨1, _⟩ => show win14_0.index t 1 * 1024 + 1 * l.val = (1024 * (t.val % 6) + l.val) % 6144; rw [h01]; omega

theorem rows_at (c : Dev nD) (t : Fin cfg14.N) (l : Fin 1024) (j : Fin 256) :
    rows (grid14.coords t) (iblk V c 1 t) (ix2 l j) = XN V c (1024 * (t.val % 6) + l.val) j := by
  obtain ⟨-, -, h10, h11, -, -, -, -, -, -, -, -, -, -, -, -, ho0, ho1⟩ := idx_facts t
  unfold iblk XN
  show V c main_v159_0 _ = V c main_v159_0 _
  congr 1
  funext a
  apply Fin.ext
  match a with
  | ⟨0, _⟩ =>
    show win14_1.index t 0 * 6144 + 1 * (k14_off1 (grid14.coords t) 0 + 1 * l.val) = (1024 * (t.val % 6) + l.val) % 6144
    rw [h10, ho0]; omega
  | ⟨1, _⟩ =>
    show win14_1.index t 1 * 256 + 1 * (k14_off1 (grid14.coords t) 1 + 1 * j.val) = j.val
    rw [h11, ho1]; omega

theorem iblk2_at (c : Dev nD) (t : Fin cfg14.N) (l : Fin 1024) :
    iblk V c 2 t (ix2 l 0) = SN V c (1024 * (t.val % 6) + l.val) := by
  obtain ⟨-, -, -, -, h20, h21, -⟩ := idx_facts t
  unfold iblk SN
  rw [View.read_apply]
  show V c main_v148 _ = V c main_v148 _
  congr 1
  funext a
  apply Fin.ext
  match a with
  | ⟨0, _⟩ => show win14_2.index t 0 * 1024 + 1 * l.val = (1024 * (t.val % 6) + l.val) % 6144; rw [h20]; omega
  | ⟨1, _⟩ => show win14_2.index t 1 * 1 + 1 * 0 = 0; rw [h21]

theorem iblk3_at (c : Dev nD) (t : Fin cfg14.N) (r : Fin 1024) :
    iblk V c 3 t (ix2 r 0) = SN V c (1024 * (t.val / 6) + r.val) := by
  obtain ⟨-, -, -, -, -, -, h30, h31, -⟩ := idx_facts t
  have := lt_of_lt_of_eq t.isLt N13
  unfold iblk SN
  rw [View.read_apply]
  show V c main_v148 _ = V c main_v148 _
  congr 1
  funext a
  apply Fin.ext
  match a with
  | ⟨0, _⟩ => show win14_3.index t 0 * 1024 + 1 * r.val = (1024 * (t.val / 6) + r.val) % 6144; rw [h30]; omega
  | ⟨1, _⟩ => show win14_3.index t 1 * 1 + 1 * 0 = 0; rw [h31]

theorem iblk4_at (c : Dev nD) (t : Fin cfg14.N) (l j : Fin 256) : iblk V c 4 t (ix2 l j) = Gw V c (ix2 l j) := by
  obtain ⟨-, -, -, -, -, -, -, -, h40, h41, -⟩ := idx_facts t
  unfold iblk
  rw [View.read_apply]
  show V c main_v149 _ = V c main_v149 _
  congr 1
  funext a
  apply Fin.ext
  match a with
  | ⟨0, _⟩ => show win14_4.index t 0 * 256 + 1 * l.val = l.val; rw [h40]; omega
  | ⟨1, _⟩ => show win14_4.index t 1 * 256 + 1 * j.val = j.val; rw [h41]; omega

theorem iblk5_at (c : Dev nD) (t : Fin cfg14.N) (j : Fin 256) : iblk V c 5 t (ix2 0 j) = Gb V c (ix2 0 j) := by
  obtain ⟨-, -, -, -, -, -, -, -, -, -, h50, h51, -⟩ := idx_facts t
  unfold iblk
  rw [View.read_apply]
  show V c main_v42 _ = V c main_v42 _
  congr 1
  funext a
  apply Fin.ext
  match a with
  | ⟨0, _⟩ => show win14_5.index t 0 * 1 + 1 * 0 = 0; rw [h50]
  | ⟨1, _⟩ => show win14_5.index t 1 * 256 + 1 * j.val = j.val; rw [h51]; omega

/-! ## The accumulator -/

/-- The three blocks a point multiplies, as matrices of extended reals. -/
abbrev B0 (c : Dev nD) (t : Fin cfg14.N) : S1024x1024.Idx → EReal := iblk V c 0 t
abbrev B1 (c : Dev nD) (t : Fin cfg14.N) : S1024x256.Idx → EReal := rows (grid14.coords t) (iblk V c 1 t)
abbrev B2 (c : Dev nD) (t : Fin cfg14.N) : S1024x1.Idx → EReal := iblk V c 2 t
abbrev B3 (c : Dev nD) (t : Fin cfg14.N) : S1024x1.Idx → EReal := iblk V c 3 t

/-- The K-th term of the sum of row R and column j: the adjacency entry times the feature entry scaled by its row's factor. -/
def term (c : Dev nD) (R : ℕ) (j : Fin 256) (K : ℕ) : EReal := AN V c R K * (XN V c K j * SN V c K)

/-- At the point 6 i + k the l-th product the body forms at local row r is the (1024 k + l)-th term of row 1024 i + r. -/
theorem term_eq (c : Dev nD) (t : Fin cfg14.N) (i k : ℕ) (ht : t.val = 6 * i + k) (hk : k < 6) (r l : Fin 1024) (j : Fin 256) :
    B0 V c t (ix2 r l) * (B1 V c t (ix2 l j) * B2 V c t (ix2 l 0))
      = term V c (1024 * i + r.val) j (k * 1024 + l.val) := by
  dsimp only [B0, B1, B2]
  rw [iblk0_at, rows_at, iblk2_at]
  unfold term
  rw [show t.val / 6 = i by omega, show t.val % 6 = k by omega, show 1024 * k + l.val = k * 1024 + l.val by omega]

theorem accAt_congr (c : Dev nD) {n n' : ℕ} (e : n = n') (h : n < cfg14.N) (h' : n' < cfg14.N) :
    accAt V c n h = accAt V c n' h' := by subst e; rfl

/-- After the point 6 i + k the accumulator holds, at local row r, the first (k + 1) * 1024 terms of row 1024 i + r. -/
theorem acc_eq (c : Dev nD) (i : ℕ) (hi : i < 6) (r : Fin 1024) (j : Fin 256) :
    ∀ (k : ℕ) (hk : k < 6), accAt V c (6 * i + k) (by rw [N13]; omega) (ix2 r j)
      = ∑ K : Fin ((k + 1) * 1024), term V c (1024 * i + r.val) j K
  | 0, hk => by
    refine (congrFun (accAt_first V c ⟨6 * i + 0, by rw [N13]; omega⟩ (by show (6 * i + 0) % 6 = 0; omega)) (ix2 r j)).trans ?_
    rw [HopMath.k14_pay2_apply, HopMath.k14_pay1_apply, zero_add]
    show _ = ∑ K : Fin 1024, term V c (1024 * i + r.val) j K
    exact Finset.sum_congr rfl fun l _ => (term_eq V c _ i 0 rfl hk r l j).trans (by rw [Nat.zero_mul, Nat.zero_add])
  | k + 1, hk => by
    refine (congrFun (accAt_next V c ⟨6 * i + (k + 1), by rw [N13]; omega⟩ (by show ¬ (6 * i + (k + 1)) % 6 = 0; omega)) (ix2 r j)).trans ?_
    rw [HopMath.k14_pay2_apply, MatmulMath.sum_fin_succ_block (k + 1) 1024,
      accAt_congr V c (show (6 * i + (k + 1)) - 1 = 6 * i + k by omega) _ (by rw [N13]; omega),
      acc_eq c i hi r j k (by omega)]
    congr 1
    exact Finset.sum_congr rfl fun l _ => term_eq V c _ i (k + 1) rfl hk r l j

/-- After the last point of row tile i the accumulator holds, at local row r, the whole sum of row 1024 i + r. -/
theorem acc_last (c : Dev nD) (t : Fin cfg14.N) (h5 : t.val % 6 = 5) (r : Fin 1024) (j : Fin 256) :
    accAt V c t.val t.isLt (ix2 r j) = ∑ K : Fin 6144, term V c (1024 * (t.val / 6) + r.val) j K := by
  have h36 := lt_of_lt_of_eq t.isLt N13
  rw [accAt_congr V c (show t.val = 6 * (t.val / 6) + 5 by omega) t.isLt (by have := N13; omega),
    acc_eq V c (t.val / 6) (by omega) r j 5 (by norm_num)]

/-! ## The two outputs over the whole arrays -/

/-- The feature output: row R's sum, scaled by row R's factor. -/
def GF (c : Dev nD) : S6144x256.Idx → EReal :=
  fun i => (∑ K : Fin 6144, term V c (i 0).val (i 1) K) * SN V c (i 0).val

/-- The readout: the feature output's row times the gate matrix, plus the bias row. -/
def GR (c : Dev nD) : S6144x256.Idx → EReal :=
  fun i => (∑ l : Fin 256, GF V c (ix2 (i 0) l) * Gw V c (ix2 l (i 1))) + Gb V c (ix2 0 (i 1))

/-- What the last point of row tile i leaves scaled at local row r is the feature output at row 1024 i + r. -/
theorem scaled_eq (c : Dev nD) (t : Fin cfg14.N) (h5 : t.val % 6 = 5) (r : Fin 1024) (l : Fin 256) :
    accAt V c t.val t.isLt (ix2 r l) * B3 V c t (ix2 r 0)
      = GF V c (ix2 ⟨1024 * (t.val / 6) + r.val, by have := lt_of_lt_of_eq t.isLt N13; omega⟩ l) := by
  dsimp only [B3]
  rw [acc_last V c t h5, iblk3_at]
  rfl

theorem flushedF (c : Dev nD) (t : Fin cfg14.N) (hf : (cfg14.win 6).flush t = true) :
    (dat (Ix := Ix) (U := U) (Lvl := Lvl) V c).flushed 6 t = ((cfg14.win 6).blk t).view.read (Elt Ideal) (GF V c) := by
  have h5 : t.val % 6 = 5 := (flush14_6 t).mp hf
  have h36 := lt_of_lt_of_eq t.isLt N13
  obtain ⟨-, -, -, -, -, -, -, -, -, -, -, -, h60, h61, h70, h71, -⟩ := idx_facts t
  funext y
  obtain ⟨r, j, rfl⟩ : ∃ (r : Fin 1024) (j : Fin 256), y = ix2 r j := ⟨_, _, eq_ix2 (n0 := 1024) (n1 := 256) y⟩
  rw [View.read_apply]
  show k14_pay4 (accAt V c t.val t.isLt) (iblk V c 3 t) (ix2 r j) = GF V c (((cfg14.win 6).blk t).view.emb (ix2 r j))
  rw [HopMath.k14_pay4_apply]
  refine (scaled_eq V c t h5 r j).trans (congrArg (GF V c) ?_)
  funext a
  apply Fin.ext
  match a with
  | ⟨0, _⟩ => show 1024 * (t.val / 6) + r.val = win14_6.index t 0 * 1024 + 1 * r.val; rw [h60]; omega
  | ⟨1, _⟩ => show j.val = win14_6.index t 1 * 256 + 1 * j.val; rw [h61]; omega

theorem flushedR (c : Dev nD) (t : Fin cfg14.N) (hf : (cfg14.win 7).flush t = true) :
    (dat (Ix := Ix) (U := U) (Lvl := Lvl) V c).flushed 7 t = ((cfg14.win 7).blk t).view.read (Elt Ideal) (GR V c) := by
  have h5 : t.val % 6 = 5 := (flush14_7 t).mp hf
  have h36 := lt_of_lt_of_eq t.isLt N13
  obtain ⟨-, -, -, -, -, -, -, -, -, -, -, -, h60, h61, h70, h71, -⟩ := idx_facts t
  funext y
  obtain ⟨r, j, rfl⟩ : ∃ (r : Fin 1024) (j : Fin 256), y = ix2 r j := ⟨_, _, eq_ix2 (n0 := 1024) (n1 := 256) y⟩
  rw [View.read_apply]
  show k14_pay5 (accAt V c t.val t.isLt) (iblk V c 3 t) (iblk V c 4 t) (iblk V c 5 t) (ix2 r j)
    = GR V c (((cfg14.win 7).blk t).view.emb (ix2 r j))
  rw [HopMath.k14_pay5_apply, iblk5_at]
  have e : ((cfg14.win 7).blk t).view.emb (ix2 r j)
      = ix2 ⟨1024 * (t.val / 6) + r.val, by omega⟩ j := by
    funext a
    apply Fin.ext
    match a with
    | ⟨0, _⟩ => show win14_7.index t 0 * 1024 + 1 * r.val = 1024 * (t.val / 6) + r.val; rw [h70]; omega
    | ⟨1, _⟩ => show win14_7.index t 1 * 256 + 1 * j.val = j.val; rw [h71]; omega
  rw [e]
  show _ = (∑ l : Fin 256, GF V c (ix2 ⟨1024 * (t.val / 6) + r.val, _⟩ l) * Gw V c (ix2 l j)) + Gb V c (ix2 0 j)
  congr 1
  exact Finset.sum_congr rfl fun l _ => by rw [iblk4_at]; exact congrArg (· * _) (scaled_eq V c t h5 r l)

/-- Every row lies in the block its row tile's last point writes back. -/
theorem coverF (c : Dev nD) (i : ((cfg14.win 6).arr.view.loc (c.tc : Thread nD τ)).2.ty.Idx) :
    ∃ t : Fin cfg14.N, (cfg14.win 6).flush t = true ∧ i ∈ ((cfg14.win 6).blk t).view.set := by
  have hi : (i 0 : ℕ) < 6144 := (i 0).isLt
  have hj : (i 1 : ℕ) < 256 := (i 1).isLt
  have hT : 6 * ((i 0 : ℕ) / 1024) + 5 < cfg14.N := by rw [N13]; omega
  obtain ⟨-, -, -, -, -, -, -, -, -, -, -, -, h60, h61, h70, h71, -⟩ := idx_facts ⟨6 * ((i 0 : ℕ) / 1024) + 5, hT⟩
  refine ⟨⟨6 * ((i 0 : ℕ) / 1024) + 5, hT⟩, (flush14_6 _).mpr (by show (6 * ((i 0 : ℕ) / 1024) + 5) % 6 = 5; omega), ?_⟩
  show i ∈ ((View.whole main_v162_0).slice (win14_6.rect ⟨6 * ((i 0 : ℕ) / 1024) + 5, hT⟩)).set
  rw [View.set_slice_whole, Rect.mem_set_unit]
  intro a
  match a with
  | ⟨0, _⟩ =>
    show win14_6.index ⟨6 * ((i 0 : ℕ) / 1024) + 5, hT⟩ 0 * 1024 ≤ (i 0 : ℕ)
      ∧ (i 0 : ℕ) < win14_6.index ⟨6 * ((i 0 : ℕ) / 1024) + 5, hT⟩ 0 * 1024 + 1024
    rw [h60]
    show (6 * ((i 0 : ℕ) / 1024) + 5) / 6 * 1024 ≤ (i 0 : ℕ) ∧ (i 0 : ℕ) < (6 * ((i 0 : ℕ) / 1024) + 5) / 6 * 1024 + 1024
    omega
  | ⟨1, _⟩ =>
    show win14_6.index ⟨6 * ((i 0 : ℕ) / 1024) + 5, hT⟩ 1 * 256 ≤ (i 1 : ℕ)
      ∧ (i 1 : ℕ) < win14_6.index ⟨6 * ((i 0 : ℕ) / 1024) + 5, hT⟩ 1 * 256 + 256
    rw [h61]; omega

theorem coverR (c : Dev nD) (i : ((cfg14.win 7).arr.view.loc (c.tc : Thread nD τ)).2.ty.Idx) :
    ∃ t : Fin cfg14.N, (cfg14.win 7).flush t = true ∧ i ∈ ((cfg14.win 7).blk t).view.set := by
  have hi : (i 0 : ℕ) < 6144 := (i 0).isLt
  have hj : (i 1 : ℕ) < 256 := (i 1).isLt
  have hT : 6 * ((i 0 : ℕ) / 1024) + 5 < cfg14.N := by rw [N13]; omega
  obtain ⟨-, -, -, -, -, -, -, -, -, -, -, -, h60, h61, h70, h71, -⟩ := idx_facts ⟨6 * ((i 0 : ℕ) / 1024) + 5, hT⟩
  refine ⟨⟨6 * ((i 0 : ℕ) / 1024) + 5, hT⟩, (flush14_7 _).mpr (by show (6 * ((i 0 : ℕ) / 1024) + 5) % 6 = 5; omega), ?_⟩
  show i ∈ ((View.whole main_v162_1).slice (win14_7.rect ⟨6 * ((i 0 : ℕ) / 1024) + 5, hT⟩)).set
  rw [View.set_slice_whole, Rect.mem_set_unit]
  intro a
  match a with
  | ⟨0, _⟩ =>
    show win14_7.index ⟨6 * ((i 0 : ℕ) / 1024) + 5, hT⟩ 0 * 1024 ≤ (i 0 : ℕ)
      ∧ (i 0 : ℕ) < win14_7.index ⟨6 * ((i 0 : ℕ) / 1024) + 5, hT⟩ 0 * 1024 + 1024
    rw [h70]
    show (6 * ((i 0 : ℕ) / 1024) + 5) / 6 * 1024 ≤ (i 0 : ℕ) ∧ (i 0 : ℕ) < (6 * ((i 0 : ℕ) / 1024) + 5) / 6 * 1024 + 1024
    omega
  | ⟨1, _⟩ =>
    show win14_7.index ⟨6 * ((i 0 : ℕ) / 1024) + 5, hT⟩ 1 * 256 ≤ (i 1 : ℕ)
      ∧ (i 1 : ℕ) < win14_7.index ⟨6 * ((i 0 : ℕ) / 1024) + 5, hT⟩ 1 * 256 + 256
    rw [h71]; omega

/-! ## The region's value -/

/-- The two output arrays after the region. -/
abbrev OF (c : Dev nD) : S6144x256.Idx → EReal := (dat (Ix := Ix) (U := U) (Lvl := Lvl) V c).arrAt 6 cfg14.N
abbrev OR (c : Dev nD) : S6144x256.Idx → EReal := (dat (Ix := Ix) (U := U) (Lvl := Lvl) V c).arrAt 7 cfg14.N

theorem arrF (c : Dev nD) : OF (Ix := Ix) (U := U) (Lvl := Lvl) V c = GF V c :=
  (dat V c).arrAt_eq_of_cover 6 (GF V c) (flushedF V c) (coverF c)

theorem arrR (c : Dev nD) : OR (Ix := Ix) (U := U) (Lvl := Lvl) V c = GR V c :=
  (dat V c).arrAt_eq_of_cover 7 (GR V c) (flushedR V c) (coverR c)

theorem AN_of (c : Dev nD) (r q : Fin 6144) : AN V c r.val q.val = Aadj V c (ix2 r q) :=
  congrArg₂ (fun a b => Aadj V c (ix2 a b)) (Fin.ext (Nat.mod_eq_of_lt r.isLt)) (Fin.ext (Nat.mod_eq_of_lt q.isLt))
theorem XN_of (c : Dev nD) (q : Fin 6144) (j : Fin 256) : XN V c q.val j = Xf V c (ix2 q j) :=
  congrArg (fun a => Xf V c (ix2 a j)) (Fin.ext (Nat.mod_eq_of_lt q.isLt))
theorem SN_of (c : Dev nD) (q : Fin 6144) : SN V c q.val = Sc V c (ix2 q 0) :=
  congrArg (fun a => Sc V c (ix2 a 0)) (Fin.ext (Nat.mod_eq_of_lt q.isLt))

/-- The feature output after the region, entry by entry, over the arrays at the region's entry. -/
theorem valueF (c : Dev nD) (r : Fin 6144) (j : Fin 256) :
    OF (Ix := Ix) (U := U) (Lvl := Lvl) V c (ix2 r j)
      = (∑ q : Fin 6144, Aadj V c (ix2 r q) * (Xf V c (ix2 q j) * Sc V c (ix2 q 0))) * Sc V c (ix2 r 0) := by
  rw [arrF]
  show (∑ K : Fin 6144, term V c r.val j K) * SN V c r.val = _
  rw [SN_of]
  congr 1
  exact Finset.sum_congr rfl fun q _ => by unfold term; rw [AN_of, XN_of, SN_of]

/-- The readout after the region, entry by entry, over the feature output and the arrays at the region's entry. -/
theorem valueR (c : Dev nD) (r : Fin 6144) (j : Fin 256) :
    OR (Ix := Ix) (U := U) (Lvl := Lvl) V c (ix2 r j)
      = (∑ l : Fin 256, OF (Ix := Ix) (U := U) (Lvl := Lvl) V c (ix2 r l) * Gw V c (ix2 l j)) + Gb V c (ix2 0 j) := by
  rw [arrR, arrF]
  rfl

end Cert.KernelIdeal.Region14

end
-- ==== Proof.KI.Region15Value.lean ====
/-
  Region 15 at the ideal values: the two output arrays after the region, entry by entry.

  The grid is (6, 6) and the point t = 6 i + k multiplies the (i, k) tile of the adjacency operand by rows
  [1024 k, 1024 k + 1024) of the feature operand, each row scaled by its own factor, and adds the product to the
  accumulator, which starts from zero at k = 0. After k = 5 the accumulator holds, at local row r, the whole sum over
  the 6144 columns of row 1024 i + r: six blocks of 1024 terms are one sum of 6144 terms. That point writes back the
  accumulator scaled by the row's factor, and that block's product with the gate matrix plus the bias row; the six
  blocks written at the points 6 i + 5 tile the 6144 rows of each output. Only associativity and commutativity of +
  are used, so everything holds in the extended reals without any finiteness.
-/
import proofs.«414035_j83562883711810_2_alg».proof.Proof.KI.Region15Base
import proofs.«414035_j83562883711810_2_alg».proof.Proof.KI.HopMath
import proofs.«414035_j83562883711810_2_alg».proof.Proof.KI.MatmulMath
import Idealize.ShloMosaic.Lib.ValueIdx
import Idealize.ShloMosaic.Lib.Pipeline.Value

set_option maxRecDepth 16384

noncomputable section

open scoped BigOperators

namespace Cert.KernelIdeal.Region15

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)

variable {Ix : Type} [DecidableEq Ix] {U : Type} [URA U] {Lvl : Type} [Preorder Lvl]
variable (V : Dev nD → Valuation τ sig (Elt Ideal))

theorem N13 : cfg15.N = 36 := N_15

/-! ## The windows' blocks in the arrays -/

/-- The printed index maps and the dynamic row offset, decided over the grid (point t = 6 i + k). -/
theorem idx_facts : ∀ t : Fin cfg15.N,
    win15_0.index t (0 : Fin 2) = t.val / 6 ∧ win15_0.index t (1 : Fin 2) = t.val % 6
    ∧ win15_1.index t (0 : Fin 2) = 0 ∧ win15_1.index t (1 : Fin 2) = 0
    ∧ win15_2.index t (0 : Fin 2) = t.val % 6 ∧ win15_2.index t (1 : Fin 2) = 0
    ∧ win15_3.index t (0 : Fin 2) = t.val / 6 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = t.val / 6 ∧ win15_6.index t (1 : Fin 2) = 0
    ∧ win15_7.index t (0 : Fin 2) = t.val / 6 ∧ win15_7.index t (1 : Fin 2) = 0
    ∧ k15_off1 (grid15.coords t) (0 : Fin 2) = 1024 * (t.val % 6) ∧ k15_off1 (grid15.coords t) (1 : Fin 2) = 0 :=
  (by decide +kernel : ∀ t : Fin grid15.N, _)

/-- The five arrays the region reads, at its entry. -/
abbrev Aadj (c : Dev nD) : S6144x6144.Idx → EReal := V c main_v147
abbrev Xf (c : Dev nD) : S6144x256.Idx → EReal := V c main_v162_0
abbrev Sc (c : Dev nD) : S6144x1.Idx → EReal := V c main_v148
abbrev Gw (c : Dev nD) : S256x256.Idx → EReal := V c main_v149
abbrev Gb (c : Dev nD) : S1x256.Idx → EReal := V c main_v42

/-- The same arrays read at natural coordinates (taken modulo the extent, so that every natural is a coordinate). -/
def AN (c : Dev nD) (R K : ℕ) : EReal :=
  Aadj V c (ix2 ⟨R % 6144, Nat.mod_lt _ (by norm_num)⟩ ⟨K % 6144, Nat.mod_lt _ (by norm_num)⟩)
def XN (c : Dev nD) (K : ℕ) (j : Fin 256) : EReal := Xf V c (ix2 ⟨K % 6144, Nat.mod_lt _ (by norm_num)⟩ j)
def SN (c : Dev nD) (K : ℕ) : EReal := Sc V c (ix2 ⟨K % 6144, Nat.mod_lt _ (by norm_num)⟩ 0)

theorem iblk0_at (c : Dev nD) (t : Fin cfg15.N) (r l : Fin 1024) :
    iblk V c 0 t (ix2 r l) = AN V c (1024 * (t.val / 6) + r.val) (1024 * (t.val % 6) + l.val) := by
  obtain ⟨h00, h01, -⟩ := idx_facts t
  have := lt_of_lt_of_eq t.isLt N13
  unfold iblk AN
  rw [View.read_apply]
  show V c main_v147 _ = V c main_v147 _
  congr 1
  funext a
  apply Fin.ext
  match a with
  | ⟨0, _⟩ => show win15_0.index t 0 * 1024 + 1 * r.val = (1024 * (t.val / 6) + r.val) % 6144; rw [h00]; omega
  | ⟨1, _⟩ => show win15_0.index t 1 * 1024 + 1 * l.val = (1024 * (t.val % 6) + l.val) % 6144; rw [h01]; omega

theorem rows_at (c : Dev nD) (t : Fin cfg15.N) (l : Fin 1024) (j : Fin 256) :
    rows (grid15.coords t) (iblk V c 1 t) (ix2 l j) = XN V c (1024 * (t.val % 6) + l.val) j := by
  obtain ⟨-, -, h10, h11, -, -, -, -, -, -, -, -, -, -, -, -, ho0, ho1⟩ := idx_facts t
  unfold iblk XN
  show V c main_v162_0 _ = V c main_v162_0 _
  congr 1
  funext a
  apply Fin.ext
  match a with
  | ⟨0, _⟩ =>
    show win15_1.index t 0 * 6144 + 1 * (k15_off1 (grid15.coords t) 0 + 1 * l.val) = (1024 * (t.val % 6) + l.val) % 6144
    rw [h10, ho0]; omega
  | ⟨1, _⟩ =>
    show win15_1.index t 1 * 256 + 1 * (k15_off1 (grid15.coords t) 1 + 1 * j.val) = j.val
    rw [h11, ho1]; omega

theorem iblk2_at (c : Dev nD) (t : Fin cfg15.N) (l : Fin 1024) :
    iblk V c 2 t (ix2 l 0) = SN V c (1024 * (t.val % 6) + l.val) := by
  obtain ⟨-, -, -, -, h20, h21, -⟩ := idx_facts t
  unfold iblk SN
  rw [View.read_apply]
  show V c main_v148 _ = V c main_v148 _
  congr 1
  funext a
  apply Fin.ext
  match a with
  | ⟨0, _⟩ => show win15_2.index t 0 * 1024 + 1 * l.val = (1024 * (t.val % 6) + l.val) % 6144; rw [h20]; omega
  | ⟨1, _⟩ => show win15_2.index t 1 * 1 + 1 * 0 = 0; rw [h21]

theorem iblk3_at (c : Dev nD) (t : Fin cfg15.N) (r : Fin 1024) :
    iblk V c 3 t (ix2 r 0) = SN V c (1024 * (t.val / 6) + r.val) := by
  obtain ⟨-, -, -, -, -, -, h30, h31, -⟩ := idx_facts t
  have := lt_of_lt_of_eq t.isLt N13
  unfold iblk SN
  rw [View.read_apply]
  show V c main_v148 _ = V c main_v148 _
  congr 1
  funext a
  apply Fin.ext
  match a with
  | ⟨0, _⟩ => show win15_3.index t 0 * 1024 + 1 * r.val = (1024 * (t.val / 6) + r.val) % 6144; rw [h30]; omega
  | ⟨1, _⟩ => show win15_3.index t 1 * 1 + 1 * 0 = 0; rw [h31]

theorem iblk4_at (c : Dev nD) (t : Fin cfg15.N) (l j : Fin 256) : iblk V c 4 t (ix2 l j) = Gw V c (ix2 l j) := by
  obtain ⟨-, -, -, -, -, -, -, -, h40, h41, -⟩ := idx_facts t
  unfold iblk
  rw [View.read_apply]
  show V c main_v149 _ = V c main_v149 _
  congr 1
  funext a
  apply Fin.ext
  match a with
  | ⟨0, _⟩ => show win15_4.index t 0 * 256 + 1 * l.val = l.val; rw [h40]; omega
  | ⟨1, _⟩ => show win15_4.index t 1 * 256 + 1 * j.val = j.val; rw [h41]; omega

theorem iblk5_at (c : Dev nD) (t : Fin cfg15.N) (j : Fin 256) : iblk V c 5 t (ix2 0 j) = Gb V c (ix2 0 j) := by
  obtain ⟨-, -, -, -, -, -, -, -, -, -, h50, h51, -⟩ := idx_facts t
  unfold iblk
  rw [View.read_apply]
  show V c main_v42 _ = V c main_v42 _
  congr 1
  funext a
  apply Fin.ext
  match a with
  | ⟨0, _⟩ => show win15_5.index t 0 * 1 + 1 * 0 = 0; rw [h50]
  | ⟨1, _⟩ => show win15_5.index t 1 * 256 + 1 * j.val = j.val; rw [h51]; omega

/-! ## The accumulator -/

/-- The three blocks a point multiplies, as matrices of extended reals. -/
abbrev B0 (c : Dev nD) (t : Fin cfg15.N) : S1024x1024.Idx → EReal := iblk V c 0 t
abbrev B1 (c : Dev nD) (t : Fin cfg15.N) : S1024x256.Idx → EReal := rows (grid15.coords t) (iblk V c 1 t)
abbrev B2 (c : Dev nD) (t : Fin cfg15.N) : S1024x1.Idx → EReal := iblk V c 2 t
abbrev B3 (c : Dev nD) (t : Fin cfg15.N) : S1024x1.Idx → EReal := iblk V c 3 t

/-- The K-th term of the sum of row R and column j: the adjacency entry times the feature entry scaled by its row's factor. -/
def term (c : Dev nD) (R : ℕ) (j : Fin 256) (K : ℕ) : EReal := AN V c R K * (XN V c K j * SN V c K)

/-- At the point 6 i + k the l-th product the body forms at local row r is the (1024 k + l)-th term of row 1024 i + r. -/
theorem term_eq (c : Dev nD) (t : Fin cfg15.N) (i k : ℕ) (ht : t.val = 6 * i + k) (hk : k < 6) (r l : Fin 1024) (j : Fin 256) :
    B0 V c t (ix2 r l) * (B1 V c t (ix2 l j) * B2 V c t (ix2 l 0))
      = term V c (1024 * i + r.val) j (k * 1024 + l.val) := by
  dsimp only [B0, B1, B2]
  rw [iblk0_at, rows_at, iblk2_at]
  unfold term
  rw [show t.val / 6 = i by omega, show t.val % 6 = k by omega, show 1024 * k + l.val = k * 1024 + l.val by omega]

theorem accAt_congr (c : Dev nD) {n n' : ℕ} (e : n = n') (h : n < cfg15.N) (h' : n' < cfg15.N) :
    accAt V c n h = accAt V c n' h' := by subst e; rfl

/-- After the point 6 i + k the accumulator holds, at local row r, the first (k + 1) * 1024 terms of row 1024 i + r. -/
theorem acc_eq (c : Dev nD) (i : ℕ) (hi : i < 6) (r : Fin 1024) (j : Fin 256) :
    ∀ (k : ℕ) (hk : k < 6), accAt V c (6 * i + k) (by rw [N13]; omega) (ix2 r j)
      = ∑ K : Fin ((k + 1) * 1024), term V c (1024 * i + r.val) j K
  | 0, hk => by
    refine (congrFun (accAt_first V c ⟨6 * i + 0, by rw [N13]; omega⟩ (by show (6 * i + 0) % 6 = 0; omega)) (ix2 r j)).trans ?_
    rw [HopMath.k15_pay2_apply, HopMath.k15_pay1_apply, zero_add]
    show _ = ∑ K : Fin 1024, term V c (1024 * i + r.val) j K
    exact Finset.sum_congr rfl fun l _ => (term_eq V c _ i 0 rfl hk r l j).trans (by rw [Nat.zero_mul, Nat.zero_add])
  | k + 1, hk => by
    refine (congrFun (accAt_next V c ⟨6 * i + (k + 1), by rw [N13]; omega⟩ (by show ¬ (6 * i + (k + 1)) % 6 = 0; omega)) (ix2 r j)).trans ?_
    rw [HopMath.k15_pay2_apply, MatmulMath.sum_fin_succ_block (k + 1) 1024,
      accAt_congr V c (show (6 * i + (k + 1)) - 1 = 6 * i + k by omega) _ (by rw [N13]; omega),
      acc_eq c i hi r j k (by omega)]
    congr 1
    exact Finset.sum_congr rfl fun l _ => term_eq V c _ i (k + 1) rfl hk r l j

/-- After the last point of row tile i the accumulator holds, at local row r, the whole sum of row 1024 i + r. -/
theorem acc_last (c : Dev nD) (t : Fin cfg15.N) (h5 : t.val % 6 = 5) (r : Fin 1024) (j : Fin 256) :
    accAt V c t.val t.isLt (ix2 r j) = ∑ K : Fin 6144, term V c (1024 * (t.val / 6) + r.val) j K := by
  have h36 := lt_of_lt_of_eq t.isLt N13
  rw [accAt_congr V c (show t.val = 6 * (t.val / 6) + 5 by omega) t.isLt (by have := N13; omega),
    acc_eq V c (t.val / 6) (by omega) r j 5 (by norm_num)]

/-! ## The two outputs over the whole arrays -/

/-- The feature output: row R's sum, scaled by row R's factor. -/
def GF (c : Dev nD) : S6144x256.Idx → EReal :=
  fun i => (∑ K : Fin 6144, term V c (i 0).val (i 1) K) * SN V c (i 0).val

/-- The readout: the feature output's row times the gate matrix, plus the bias row. -/
def GR (c : Dev nD) : S6144x256.Idx → EReal :=
  fun i => (∑ l : Fin 256, GF V c (ix2 (i 0) l) * Gw V c (ix2 l (i 1))) + Gb V c (ix2 0 (i 1))

/-- What the last point of row tile i leaves scaled at local row r is the feature output at row 1024 i + r. -/
theorem scaled_eq (c : Dev nD) (t : Fin cfg15.N) (h5 : t.val % 6 = 5) (r : Fin 1024) (l : Fin 256) :
    accAt V c t.val t.isLt (ix2 r l) * B3 V c t (ix2 r 0)
      = GF V c (ix2 ⟨1024 * (t.val / 6) + r.val, by have := lt_of_lt_of_eq t.isLt N13; omega⟩ l) := by
  dsimp only [B3]
  rw [acc_last V c t h5, iblk3_at]
  rfl

theorem flushedF (c : Dev nD) (t : Fin cfg15.N) (hf : (cfg15.win 6).flush t = true) :
    (dat (Ix := Ix) (U := U) (Lvl := Lvl) V c).flushed 6 t = ((cfg15.win 6).blk t).view.read (Elt Ideal) (GF V c) := by
  have h5 : t.val % 6 = 5 := (flush15_6 t).mp hf
  have h36 := lt_of_lt_of_eq t.isLt N13
  obtain ⟨-, -, -, -, -, -, -, -, -, -, -, -, h60, h61, h70, h71, -⟩ := idx_facts t
  funext y
  obtain ⟨r, j, rfl⟩ : ∃ (r : Fin 1024) (j : Fin 256), y = ix2 r j := ⟨_, _, eq_ix2 (n0 := 1024) (n1 := 256) y⟩
  rw [View.read_apply]
  show k15_pay4 (accAt V c t.val t.isLt) (iblk V c 3 t) (ix2 r j) = GF V c (((cfg15.win 6).blk t).view.emb (ix2 r j))
  rw [HopMath.k15_pay4_apply]
  refine (scaled_eq V c t h5 r j).trans (congrArg (GF V c) ?_)
  funext a
  apply Fin.ext
  match a with
  | ⟨0, _⟩ => show 1024 * (t.val / 6) + r.val = win15_6.index t 0 * 1024 + 1 * r.val; rw [h60]; omega
  | ⟨1, _⟩ => show j.val = win15_6.index t 1 * 256 + 1 * j.val; rw [h61]; omega

theorem flushedR (c : Dev nD) (t : Fin cfg15.N) (hf : (cfg15.win 7).flush t = true) :
    (dat (Ix := Ix) (U := U) (Lvl := Lvl) V c).flushed 7 t = ((cfg15.win 7).blk t).view.read (Elt Ideal) (GR V c) := by
  have h5 : t.val % 6 = 5 := (flush15_7 t).mp hf
  have h36 := lt_of_lt_of_eq t.isLt N13
  obtain ⟨-, -, -, -, -, -, -, -, -, -, -, -, h60, h61, h70, h71, -⟩ := idx_facts t
  funext y
  obtain ⟨r, j, rfl⟩ : ∃ (r : Fin 1024) (j : Fin 256), y = ix2 r j := ⟨_, _, eq_ix2 (n0 := 1024) (n1 := 256) y⟩
  rw [View.read_apply]
  show k15_pay5 (accAt V c t.val t.isLt) (iblk V c 3 t) (iblk V c 4 t) (iblk V c 5 t) (ix2 r j)
    = GR V c (((cfg15.win 7).blk t).view.emb (ix2 r j))
  rw [HopMath.k15_pay5_apply, iblk5_at]
  have e : ((cfg15.win 7).blk t).view.emb (ix2 r j)
      = ix2 ⟨1024 * (t.val / 6) + r.val, by omega⟩ j := by
    funext a
    apply Fin.ext
    match a with
    | ⟨0, _⟩ => show win15_7.index t 0 * 1024 + 1 * r.val = 1024 * (t.val / 6) + r.val; rw [h70]; omega
    | ⟨1, _⟩ => show win15_7.index t 1 * 256 + 1 * j.val = j.val; rw [h71]; omega
  rw [e]
  show _ = (∑ l : Fin 256, GF V c (ix2 ⟨1024 * (t.val / 6) + r.val, _⟩ l) * Gw V c (ix2 l j)) + Gb V c (ix2 0 j)
  congr 1
  exact Finset.sum_congr rfl fun l _ => by rw [iblk4_at]; exact congrArg (· * _) (scaled_eq V c t h5 r l)

/-- Every row lies in the block its row tile's last point writes back. -/
theorem coverF (c : Dev nD) (i : ((cfg15.win 6).arr.view.loc (c.tc : Thread nD τ)).2.ty.Idx) :
    ∃ t : Fin cfg15.N, (cfg15.win 6).flush t = true ∧ i ∈ ((cfg15.win 6).blk t).view.set := by
  have hi : (i 0 : ℕ) < 6144 := (i 0).isLt
  have hj : (i 1 : ℕ) < 256 := (i 1).isLt
  have hT : 6 * ((i 0 : ℕ) / 1024) + 5 < cfg15.N := by rw [N13]; omega
  obtain ⟨-, -, -, -, -, -, -, -, -, -, -, -, h60, h61, h70, h71, -⟩ := idx_facts ⟨6 * ((i 0 : ℕ) / 1024) + 5, hT⟩
  refine ⟨⟨6 * ((i 0 : ℕ) / 1024) + 5, hT⟩, (flush15_6 _).mpr (by show (6 * ((i 0 : ℕ) / 1024) + 5) % 6 = 5; omega), ?_⟩
  show i ∈ ((View.whole main_v165_0).slice (win15_6.rect ⟨6 * ((i 0 : ℕ) / 1024) + 5, hT⟩)).set
  rw [View.set_slice_whole, Rect.mem_set_unit]
  intro a
  match a with
  | ⟨0, _⟩ =>
    show win15_6.index ⟨6 * ((i 0 : ℕ) / 1024) + 5, hT⟩ 0 * 1024 ≤ (i 0 : ℕ)
      ∧ (i 0 : ℕ) < win15_6.index ⟨6 * ((i 0 : ℕ) / 1024) + 5, hT⟩ 0 * 1024 + 1024
    rw [h60]
    show (6 * ((i 0 : ℕ) / 1024) + 5) / 6 * 1024 ≤ (i 0 : ℕ) ∧ (i 0 : ℕ) < (6 * ((i 0 : ℕ) / 1024) + 5) / 6 * 1024 + 1024
    omega
  | ⟨1, _⟩ =>
    show win15_6.index ⟨6 * ((i 0 : ℕ) / 1024) + 5, hT⟩ 1 * 256 ≤ (i 1 : ℕ)
      ∧ (i 1 : ℕ) < win15_6.index ⟨6 * ((i 0 : ℕ) / 1024) + 5, hT⟩ 1 * 256 + 256
    rw [h61]; omega

theorem coverR (c : Dev nD) (i : ((cfg15.win 7).arr.view.loc (c.tc : Thread nD τ)).2.ty.Idx) :
    ∃ t : Fin cfg15.N, (cfg15.win 7).flush t = true ∧ i ∈ ((cfg15.win 7).blk t).view.set := by
  have hi : (i 0 : ℕ) < 6144 := (i 0).isLt
  have hj : (i 1 : ℕ) < 256 := (i 1).isLt
  have hT : 6 * ((i 0 : ℕ) / 1024) + 5 < cfg15.N := by rw [N13]; omega
  obtain ⟨-, -, -, -, -, -, -, -, -, -, -, -, h60, h61, h70, h71, -⟩ := idx_facts ⟨6 * ((i 0 : ℕ) / 1024) + 5, hT⟩
  refine ⟨⟨6 * ((i 0 : ℕ) / 1024) + 5, hT⟩, (flush15_7 _).mpr (by show (6 * ((i 0 : ℕ) / 1024) + 5) % 6 = 5; omega), ?_⟩
  show i ∈ ((View.whole main_v165_1).slice (win15_7.rect ⟨6 * ((i 0 : ℕ) / 1024) + 5, hT⟩)).set
  rw [View.set_slice_whole, Rect.mem_set_unit]
  intro a
  match a with
  | ⟨0, _⟩ =>
    show win15_7.index ⟨6 * ((i 0 : ℕ) / 1024) + 5, hT⟩ 0 * 1024 ≤ (i 0 : ℕ)
      ∧ (i 0 : ℕ) < win15_7.index ⟨6 * ((i 0 : ℕ) / 1024) + 5, hT⟩ 0 * 1024 + 1024
    rw [h70]
    show (6 * ((i 0 : ℕ) / 1024) + 5) / 6 * 1024 ≤ (i 0 : ℕ) ∧ (i 0 : ℕ) < (6 * ((i 0 : ℕ) / 1024) + 5) / 6 * 1024 + 1024
    omega
  | ⟨1, _⟩ =>
    show win15_7.index ⟨6 * ((i 0 : ℕ) / 1024) + 5, hT⟩ 1 * 256 ≤ (i 1 : ℕ)
      ∧ (i 1 : ℕ) < win15_7.index ⟨6 * ((i 0 : ℕ) / 1024) + 5, hT⟩ 1 * 256 + 256
    rw [h71]; omega

/-! ## The region's value -/

/-- The two output arrays after the region. -/
abbrev OF (c : Dev nD) : S6144x256.Idx → EReal := (dat (Ix := Ix) (U := U) (Lvl := Lvl) V c).arrAt 6 cfg15.N
abbrev OR (c : Dev nD) : S6144x256.Idx → EReal := (dat (Ix := Ix) (U := U) (Lvl := Lvl) V c).arrAt 7 cfg15.N

theorem arrF (c : Dev nD) : OF (Ix := Ix) (U := U) (Lvl := Lvl) V c = GF V c :=
  (dat V c).arrAt_eq_of_cover 6 (GF V c) (flushedF V c) (coverF c)

theorem arrR (c : Dev nD) : OR (Ix := Ix) (U := U) (Lvl := Lvl) V c = GR V c :=
  (dat V c).arrAt_eq_of_cover 7 (GR V c) (flushedR V c) (coverR c)

theorem AN_of (c : Dev nD) (r q : Fin 6144) : AN V c r.val q.val = Aadj V c (ix2 r q) :=
  congrArg₂ (fun a b => Aadj V c (ix2 a b)) (Fin.ext (Nat.mod_eq_of_lt r.isLt)) (Fin.ext (Nat.mod_eq_of_lt q.isLt))
theorem XN_of (c : Dev nD) (q : Fin 6144) (j : Fin 256) : XN V c q.val j = Xf V c (ix2 q j) :=
  congrArg (fun a => Xf V c (ix2 a j)) (Fin.ext (Nat.mod_eq_of_lt q.isLt))
theorem SN_of (c : Dev nD) (q : Fin 6144) : SN V c q.val = Sc V c (ix2 q 0) :=
  congrArg (fun a => Sc V c (ix2 a 0)) (Fin.ext (Nat.mod_eq_of_lt q.isLt))

/-- The feature output after the region, entry by entry, over the arrays at the region's entry. -/
theorem valueF (c : Dev nD) (r : Fin 6144) (j : Fin 256) :
    OF (Ix := Ix) (U := U) (Lvl := Lvl) V c (ix2 r j)
      = (∑ q : Fin 6144, Aadj V c (ix2 r q) * (Xf V c (ix2 q j) * Sc V c (ix2 q 0))) * Sc V c (ix2 r 0) := by
  rw [arrF]
  show (∑ K : Fin 6144, term V c r.val j K) * SN V c r.val = _
  rw [SN_of]
  congr 1
  exact Finset.sum_congr rfl fun q _ => by unfold term; rw [AN_of, XN_of, SN_of]

/-- The readout after the region, entry by entry, over the feature output and the arrays at the region's entry. -/
theorem valueR (c : Dev nD) (r : Fin 6144) (j : Fin 256) :
    OR (Ix := Ix) (U := U) (Lvl := Lvl) V c (ix2 r j)
      = (∑ l : Fin 256, OF (Ix := Ix) (U := U) (Lvl := Lvl) V c (ix2 r l) * Gw V c (ix2 l j)) + Gb V c (ix2 0 j) := by
  rw [arrR, arrF]
  rfl

end Cert.KernelIdeal.Region15

end
-- ==== Proof.KI.DecodeMath.lean ====
/-
  The decoder's payload read at an index, at the ideal values: three dense layers each followed by the hyperbolic
  tangent, then a linear read-out to one column. Format changes are the identity on the extended reals.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«414035_j83562883711810_2_alg».proof.Proof.Gen.KernelIdeal.Skeleton
import proofs.«414035_j83562883711810_2_alg».proof.Proof.KI.MatmulMath

noncomputable section

open scoped BigOperators

namespace Cert.KernelIdeal.DecodeMath

open Idealize.ShloMosaic Idealize.ShloMosaic.ValueIdx Cert.KernelIdeal Cert.KernelIdeal.Gen Cert.KernelIdeal.MatmulMath

/-- The first hidden layer at row r, unit j. -/
def h1 (x : Vec Ideal S2048x256 .bf16) (W1 : Vec Ideal S256x128 .bf16) (b1 : Vec Ideal S1x128 .f32)
    (r : Fin 2048) (j : Fin 128) : EReal :=
  Ideal.tanh ((∑ l : Fin 256, x (ix2 r l) * W1 (ix2 l j)) + b1 (ix2 0 j))

/-- The second hidden layer at row r, unit j. -/
def h2 (x : Vec Ideal S2048x256 .bf16) (W1 : Vec Ideal S256x128 .bf16) (b1 : Vec Ideal S1x128 .f32)
    (W2 : Vec Ideal S128x64 .bf16) (b2 : Vec Ideal S1x64 .f32) (r : Fin 2048) (j : Fin 64) : EReal :=
  Ideal.tanh ((∑ l : Fin 128, h1 x W1 b1 r l * W2 (ix2 l j)) + b2 (ix2 0 j))

/-- The third hidden layer at row r, unit j. -/
def h3 (x : Vec Ideal S2048x256 .bf16) (W1 : Vec Ideal S256x128 .bf16) (b1 : Vec Ideal S1x128 .f32)
    (W2 : Vec Ideal S128x64 .bf16) (b2 : Vec Ideal S1x64 .f32) (W3 : Vec Ideal S64x32 .bf16) (b3 : Vec Ideal S1x32 .f32)
    (r : Fin 2048) (j : Fin 32) : EReal :=
  Ideal.tanh ((∑ l : Fin 64, h2 x W1 b1 W2 b2 r l * W3 (ix2 l j)) + b3 (ix2 0 j))

/-- The decoder's block at row r: three tanh layers and a linear read-out. -/
theorem k16_pay1_apply (x : Vec Ideal S2048x256 .bf16) (W1 : Vec Ideal S256x128 .bf16) (b1 : Vec Ideal S1x128 .f32)
    (W2 : Vec Ideal S128x64 .bf16) (b2 : Vec Ideal S1x64 .f32) (W3 : Vec Ideal S64x32 .bf16) (b3 : Vec Ideal S1x32 .f32)
    (W4 : Vec Ideal S32x1 .bf16) (b4 : Vec Ideal S1x1 .f32) (r : Fin 2048) :
    k16_pay1 x W1 b1 W2 b2 W3 b3 W4 b4 (ix2 r 0)
      = (∑ l : Fin 32, h3 x W1 b1 W2 b2 W3 b3 r l * W4 (ix2 l 0)) + b4 (ix2 0 0) := by
  unfold k16_pay1 h3 h2 h1
  simp only [shapeCast_self]
  rw [dense_ix2 dot_S2048x32_S32x1_S2048x1_1_0_0_1_n_n rfl rfl rfl rfl rfl rfl]
  simp only [truncf_apply, tanh_apply,
    dense_ix2 dot_S2048x64_S64x32_S2048x32_1_0_0_1_n_n rfl rfl rfl rfl rfl rfl,
    dense_ix2 dot_S2048x128_S128x64_S2048x64_1_0_0_1_n_n rfl rfl rfl rfl rfl rfl,
    dense_ix2 dot_S2048x256_S256x128_S2048x128_1_0_0_1_n_n rfl rfl rfl rfl rfl rfl]

end Cert.KernelIdeal.DecodeMath
-- ==== Proof.KI.Region16Value.lean ====
/-
  Region 16 at the ideal values: the output column after the region, row by row.

  Row r of the column is the decoder applied to row r of the features: three layers "product with a weight matrix,
  plus a bias row, then tanh" and a last layer "product with a weight column, plus a bias". Point t of the grid
  writes rows 2048 t to 2048 t + 2047, computed from the same rows of the features and from the whole weights and
  biases; the eight blocks tile the column, so the column ends holding the decoder on every row.
-/
import proofs.«414035_j83562883711810_2_alg».proof.Proof.KI.Region16
import proofs.«414035_j83562883711810_2_alg».proof.Proof.KI.DecodeMath
import Idealize.ShloMosaic.Lib.ValueIdx
import Idealize.ShloMosaic.Lib.Pipeline.Value

set_option maxRecDepth 16384

noncomputable section

open scoped BigOperators

namespace Cert.KernelIdeal.Region16

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable {Ix : Type} [DecidableEq Ix] {U : Type} [URA U] {Lvl : Type} [Preorder Lvl]
variable (V : Dev nD → Valuation τ sig (Elt Ideal))

/-! ## The decoder on one row of the features -/

/-- The region's nine input arrays at its entry, as arrays of extended reals: the features, then each layer's
    weights and bias row. -/
abbrev aX (c : Dev nD) : S16384x256.Idx → EReal := V c main_v175
abbrev aW1 (c : Dev nD) : S256x128.Idx → EReal := V c main_v176
abbrev aB1 (c : Dev nD) : S1x128.Idx → EReal := V c main_v180
abbrev aW2 (c : Dev nD) : S128x64.Idx → EReal := V c main_v177
abbrev aB2 (c : Dev nD) : S1x64.Idx → EReal := V c main_v181
abbrev aW3 (c : Dev nD) : S64x32.Idx → EReal := V c main_v178
abbrev aB3 (c : Dev nD) : S1x32.Idx → EReal := V c main_v182
abbrev aW4 (c : Dev nD) : S32x1.Idx → EReal := V c main_v179
abbrev aB4 (c : Dev nD) : S1x1.Idx → EReal := V c main_v183

/-- The decoder on row `r`: three layers "product with a weight matrix, plus a bias row, then tanh" and a last
    layer "product with a weight column, plus a bias". -/
def decRow (c : Dev nD) (r : Fin 16384) : EReal :=
  (∑ l : Fin 32, Ideal.tanh ((∑ l2 : Fin 64, Ideal.tanh ((∑ l1 : Fin 128,
      Ideal.tanh ((∑ l0 : Fin 256, aX V c (ix2 r l0) * aW1 V c (ix2 l0 l1)) + aB1 V c (ix2 0 l1))
        * aW2 V c (ix2 l1 l2)) + aB2 V c (ix2 0 l2)) * aW3 V c (ix2 l2 l)) + aB3 V c (ix2 0 l))
          * aW4 V c (ix2 l 0)) + aB4 V c (ix2 0 0)

/-! ## The windows' blocks in the arrays -/

/-- The grid has eight points. -/
theorem t_lt (t : Fin cfg16.N) : t.val < 8 := by
  have h := t.isLt
  have e : cfg16.N = 8 := N_16
  omega

/-- The printed index maps over the grid: the features' and the output's block is the point's, on the rows; every
    other block index is zero. -/
theorem idx_facts : ∀ t : Fin cfg16.N,
    win16_0.index t (0 : Fin 2) = t.val ∧ win16_0.index t (1 : Fin 2) = 0
    ∧ win16_9.index t (0 : Fin 2) = t.val ∧ win16_9.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) = 0 ∧ win16_6.index t (1 : Fin 2) = 0
    ∧ win16_7.index t (0 : Fin 2) = 0 ∧ win16_7.index t (1 : Fin 2) = 0
    ∧ win16_8.index t (0 : Fin 2) = 0 ∧ win16_8.index t (1 : Fin 2) = 0 :=
  (by decide +kernel : ∀ t : Fin grid16.N, _)

/-- The features' block at point `t` is rows `2048 t … 2048 t + 2047` of the features. -/
theorem iblk0 (c : Dev nD) (t : Fin cfg16.N) (r : Fin 2048) (l : Fin 256) :
    iblk V c 0 t (ix2 r l) = aX V c (ix2 ⟨t.val * 2048 + r.val, by have := t_lt t; omega⟩ l) := by
  obtain ⟨h0, h1, -⟩ := idx_facts t
  unfold iblk
  rw [View.read_apply]
  show V c main_v175 _ = V c main_v175 _
  congr 1
  funext a
  apply Fin.ext
  match a with
  | ⟨0, _⟩ => show win16_0.index t 0 * 2048 + 1 * r.val = t.val * 2048 + r.val; rw [h0]; omega
  | ⟨1, _⟩ => show win16_0.index t 1 * 256 + 1 * l.val = l.val; rw [h1]; omega

/-- A weight's or a bias row's block is, at every point, the whole array (one statement per window: the block's
    type is computed from the literal window). -/
theorem iblk1 (c : Dev nD) (t : Fin cfg16.N) : iblk V c 1 t = aW1 V c := by
  obtain ⟨-, -, -, -, h0, h1, -⟩ := idx_facts t
  funext j; unfold iblk; rw [View.read_apply]
  show V c main_v176 _ = V c main_v176 j
  congr 1; funext a; apply Fin.ext
  match a with
  | ⟨0, _⟩ => show win16_1.index t 0 * 256 + 1 * (j 0).val = (j 0).val; rw [h0]; omega
  | ⟨1, _⟩ => show win16_1.index t 1 * 128 + 1 * (j 1).val = (j 1).val; rw [h1]; omega
theorem iblk2 (c : Dev nD) (t : Fin cfg16.N) : iblk V c 2 t = aB1 V c := by
  obtain ⟨-, -, -, -, -, -, h0, h1, -⟩ := idx_facts t
  funext j; unfold iblk; rw [View.read_apply]
  show V c main_v180 _ = V c main_v180 j
  congr 1; funext a; apply Fin.ext
  match a with
  | ⟨0, _⟩ => show win16_2.index t 0 * 1 + 1 * (j 0).val = (j 0).val; rw [h0]; omega
  | ⟨1, _⟩ => show win16_2.index t 1 * 128 + 1 * (j 1).val = (j 1).val; rw [h1]; omega
theorem iblk3 (c : Dev nD) (t : Fin cfg16.N) : iblk V c 3 t = aW2 V c := by
  obtain ⟨-, -, -, -, -, -, -, -, h0, h1, -⟩ := idx_facts t
  funext j; unfold iblk; rw [View.read_apply]
  show V c main_v177 _ = V c main_v177 j
  congr 1; funext a; apply Fin.ext
  match a with
  | ⟨0, _⟩ => show win16_3.index t 0 * 128 + 1 * (j 0).val = (j 0).val; rw [h0]; omega
  | ⟨1, _⟩ => show win16_3.index t 1 * 64 + 1 * (j 1).val = (j 1).val; rw [h1]; omega
theorem iblk4 (c : Dev nD) (t : Fin cfg16.N) : iblk V c 4 t = aB2 V c := by
  obtain ⟨-, -, -, -, -, -, -, -, -, -, h0, h1, -⟩ := idx_facts t
  funext j; unfold iblk; rw [View.read_apply]
  show V c main_v181 _ = V c main_v181 j
  congr 1; funext a; apply Fin.ext
  match a with
  | ⟨0, _⟩ => show win16_4.index t 0 * 1 + 1 * (j 0).val = (j 0).val; rw [h0]; omega
  | ⟨1, _⟩ => show win16_4.index t 1 * 64 + 1 * (j 1).val = (j 1).val; rw [h1]; omega
theorem iblk5 (c : Dev nD) (t : Fin cfg16.N) : iblk V c 5 t = aW3 V c := by
  obtain ⟨-, -, -, -, -, -, -, -, -, -, -, -, h0, h1, -⟩ := idx_facts t
  funext j; unfold iblk; rw [View.read_apply]
  show V c main_v178 _ = V c main_v178 j
  congr 1; funext a; apply Fin.ext
  match a with
  | ⟨0, _⟩ => show win16_5.index t 0 * 64 + 1 * (j 0).val = (j 0).val; rw [h0]; omega
  | ⟨1, _⟩ => show win16_5.index t 1 * 32 + 1 * (j 1).val = (j 1).val; rw [h1]; omega
theorem iblk6 (c : Dev nD) (t : Fin cfg16.N) : iblk V c 6 t = aB3 V c := by
  obtain ⟨-, -, -, -, -, -, -, -, -, -, -, -, -, -, h0, h1, -⟩ := idx_facts t
  funext j; unfold iblk; rw [View.read_apply]
  show V c main_v182 _ = V c main_v182 j
  congr 1; funext a; apply Fin.ext
  match a with
  | ⟨0, _⟩ => show win16_6.index t 0 * 1 + 1 * (j 0).val = (j 0).val; rw [h0]; omega
  | ⟨1, _⟩ => show win16_6.index t 1 * 32 + 1 * (j 1).val = (j 1).val; rw [h1]; omega
theorem iblk7 (c : Dev nD) (t : Fin cfg16.N) : iblk V c 7 t = aW4 V c := by
  obtain ⟨-, -, -, -, -, -, -, -, -, -, -, -, -, -, -, -, h0, h1, -⟩ := idx_facts t
  funext j; unfold iblk; rw [View.read_apply]
  show V c main_v179 _ = V c main_v179 j
  congr 1; funext a; apply Fin.ext
  match a with
  | ⟨0, _⟩ => show win16_7.index t 0 * 32 + 1 * (j 0).val = (j 0).val; rw [h0]; omega
  | ⟨1, _⟩ => show win16_7.index t 1 * 1 + 1 * (j 1).val = (j 1).val; rw [h1]; omega
theorem iblk8 (c : Dev nD) (t : Fin cfg16.N) : iblk V c 8 t = aB4 V c := by
  obtain ⟨-, -, -, -, -, -, -, -, -, -, -, -, -, -, -, -, -, -, h0, h1⟩ := idx_facts t
  funext j; unfold iblk; rw [View.read_apply]
  show V c main_v183 _ = V c main_v183 j
  congr 1; funext a; apply Fin.ext
  match a with
  | ⟨0, _⟩ => show win16_8.index t 0 * 1 + 1 * (j 0).val = (j 0).val; rw [h0]; omega
  | ⟨1, _⟩ => show win16_8.index t 1 * 1 + 1 * (j 1).val = (j 1).val; rw [h1]; omega

/-! ## What a point stores, and the column after the region -/

/-- Local row `r` of what point `t` stores is the decoder on row `2048 t + r` of the features. -/
theorem out16_apply (c : Dev nD) (t : Fin cfg16.N) (r : Fin 2048) :
    out16 V c t (ix2 r 0) = decRow V c ⟨t.val * 2048 + r.val, by have := t_lt t; omega⟩ := by
  unfold out16
  rw [DecodeMath.k16_pay1_apply, iblk1, iblk2, iblk3, iblk4, iblk5, iblk6, iblk7, iblk8]
  unfold DecodeMath.h3 DecodeMath.h2 DecodeMath.h1 decRow
  simp only [iblk0]
  try rfl

/-- The output's window is not cut: a write-back writes all of what the body left. -/
theorem flushed9 (c : Dev nD) (t : Fin cfg16.N) :
    (dat (Ix := Ix) (U := U) (Lvl := Lvl) V c).flushed 9 t = out16 V c t := by
  show (cfg16.win 9).cut (grid16.coords t) ((dat (Ix := Ix) (U := U) (Lvl := Lvl) V c).after 9 t) = _
  rw [after_9]
  rfl

set_option maxHeartbeats 1000000 in
/-- Every write-back writes its block of the one column "the decoder on each row". -/
theorem flushed_eq (c : Dev nD) (t : Fin cfg16.N) (hf : (cfg16.win 9).flush t = true) :
    (dat (Ix := Ix) (U := U) (Lvl := Lvl) V c).flushed 9 t
      = ((cfg16.win 9).blk t).view.read (Elt Ideal) (fun i => decRow V c (i 0) : S16384x1.Idx → EReal) := by
  obtain ⟨-, -, h90, -⟩ := idx_facts t
  rw [flushed9]
  funext y
  obtain ⟨r, z, rfl⟩ : ∃ (r : Fin 2048) (z : Fin 1), y = ix2 r z := ⟨y 0, y 1, eq_ix2 (n0 := 2048) (n1 := 1) y⟩
  obtain rfl : z = 0 := Subsingleton.elim _ _
  rw [View.read_apply, out16_apply]
  show decRow V c _ = decRow V c _
  exact congrArg (decRow V c) (Fin.ext (by
    show t.val * 2048 + r.val = win16_9.index t 0 * 2048 + 1 * r.val
    rw [h90]; omega))

/-- Every row of the output column lies in the block of the point its number divided by 2048 names. -/
theorem cover9 (c : Dev nD) (i : ((cfg16.win 9).arr.view.loc (c.tc : Thread nD τ)).2.ty.Idx) :
    ∃ t : Fin cfg16.N, (cfg16.win 9).flush t = true ∧ i ∈ ((cfg16.win 9).blk t).view.set := by
  have hi : (i 0).val < 16384 := (i 0).isLt
  have hz : (i 1).val < 1 := (i 1).isLt
  have hN : cfg16.N = 8 := N_16
  have hq : (i 0).val / 2048 < cfg16.N := by omega
  obtain ⟨-, -, h90, h91, -⟩ := idx_facts ⟨(i 0).val / 2048, hq⟩
  refine ⟨⟨(i 0).val / 2048, hq⟩, flush16_9 _, ?_⟩
  show i ∈ ((View.whole main_v184).slice (win16_9.rect ⟨(i 0).val / 2048, hq⟩)).set
  rw [View.set_slice_whole, Rect.mem_set_unit]
  intro a
  match a with
  | ⟨0, _⟩ =>
    show win16_9.index ⟨(i 0).val / 2048, hq⟩ 0 * 2048 ≤ (i 0 : Nat)
      ∧ (i 0 : Nat) < win16_9.index ⟨(i 0).val / 2048, hq⟩ 0 * 2048 + 2048
    rw [h90]
    show (i 0).val / 2048 * 2048 ≤ (i 0).val ∧ (i 0).val < (i 0).val / 2048 * 2048 + 2048
    omega
  | ⟨1, _⟩ =>
    show win16_9.index ⟨(i 0).val / 2048, hq⟩ 1 * 1 ≤ (i 1 : Nat)
      ∧ (i 1 : Nat) < win16_9.index ⟨(i 0).val / 2048, hq⟩ 1 * 1 + 1
    rw [h91]
    omega

/-- The output column after the region: the decoder on each row of the features. -/
theorem arrAt9 (c : Dev nD) :
    ((dat (Ix := Ix) (U := U) (Lvl := Lvl) V c).arrAt 9 cfg16.N : S16384x1.Idx → EReal) = fun i => decRow V c (i 0) :=
  (dat (Ix := Ix) (U := U) (Lvl := Lvl) V c).arrAt_eq_of_cover 9 _ (flushed_eq V c) (cover9 c)

/-- Row by row. -/
theorem arrAt9_apply (c : Dev nD) (r : Fin 16384) :
    ((dat (Ix := Ix) (U := U) (Lvl := Lvl) V c).arrAt 9 cfg16.N : S16384x1.Idx → EReal) (ix2 r 0) = decRow V c r :=
  congrFun (arrAt9 V c) (ix2 r 0)

end Cert.KernelIdeal.Region16

end
-- ==== Proof.KI.Glue.lean ====
/-
  The regions' output formulas for the outputs the seventeen regions leave, and the kernel's result.

  The program's unknown outputs are instantiated by what each region's pipeline leaves in its output array, read off
  the region's proof data at its last point. Each region's value lemma gives that array entry by entry as the region's
  formula over its entry valuation; rewriting the instantiated output to the array and applying the value lemma is the
  formula in the form the stage lemmas take. With all twenty formulas the chain of stages makes the kernel's result
  the reference's.
-/
import proofs.«414035_j83562883711810_2_alg».proof.Proof.KI.Assembly
import proofs.«414035_j83562883711810_2_alg».proof.Proof.KI.Bridge
import proofs.«414035_j83562883711810_2_alg».proof.Proof.KI.Region0Value
import proofs.«414035_j83562883711810_2_alg».proof.Proof.KI.Region1Value
import proofs.«414035_j83562883711810_2_alg».proof.Proof.KI.Region2Value
import proofs.«414035_j83562883711810_2_alg».proof.Proof.KI.Region3Value
import proofs.«414035_j83562883711810_2_alg».proof.Proof.KI.Region4Value
import proofs.«414035_j83562883711810_2_alg».proof.Proof.KI.Region5Value
import proofs.«414035_j83562883711810_2_alg».proof.Proof.KI.Region6Value
import proofs.«414035_j83562883711810_2_alg».proof.Proof.KI.Region7Value
import proofs.«414035_j83562883711810_2_alg».proof.Proof.KI.Region8Value
import proofs.«414035_j83562883711810_2_alg».proof.Proof.KI.Region9Value
import proofs.«414035_j83562883711810_2_alg».proof.Proof.KI.Region10Value
import proofs.«414035_j83562883711810_2_alg».proof.Proof.KI.Region11Value
import proofs.«414035_j83562883711810_2_alg».proof.Proof.KI.Region12Value
import proofs.«414035_j83562883711810_2_alg».proof.Proof.KI.Region13Value
import proofs.«414035_j83562883711810_2_alg».proof.Proof.KI.Region14Value
import proofs.«414035_j83562883711810_2_alg».proof.Proof.KI.Region15Value
import proofs.«414035_j83562883711810_2_alg».proof.Proof.KI.Region16Value

set_option maxRecDepth 2808

noncomputable section

open scoped BigOperators

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The thirteen matrix products -/

/-- X θ. -/
theorem g0 (c : Dev nD) : ∀ (r : Fin 4096) (j : Fin 256), Stage0.o50 (Assembly.outs m) c (ix2 r j)
    = (∑ q : Fin 4096, Stage0.wA m c (ix2 r q) * Stage0.wB m c (ix2 q j)) * Stage0.wSO m c (ix2 r 0) + Stage0.wBIAS m c (ix2 0 j) :=
  fun r j => (congrArg (fun f : S4096x256.Idx → EReal => f (ix2 r j)) (Assembly.outs_R0 m c)).trans
    (Region0.out_apply (GenP.V13 m) c r j)

/-- The second product of the m branch. -/
theorem g1 (c : Dev nD) : ∀ (r : Fin 2048) (j : Fin 256), Stage1.o59 (Assembly.outs m) c (ix2 r j)
    = (∑ q : Fin 4096, Stage1.wA m (Assembly.outs m) c (ix2 r q) * Stage1.wB m (Assembly.outs m) c (ix2 q j))
        * Stage1.wSO m (Assembly.outs m) c (ix2 r 0) + Stage1.wBIAS m (Assembly.outs m) c (ix2 0 j) :=
  fun r j => (congrArg (fun f : S2048x256.Idx → EReal => f (ix2 r j)) (Assembly.outs_R1 m c)).trans
    (Region1.out_apply (GenP.V21 m (Assembly.outs m)) c r j)

/-- The third product of the m branch, with its maximum with zero. -/
theorem g2 (c : Dev nD) : ∀ (r : Fin 4096) (j : Fin 256), Stage2.o67 (Assembly.outs m) c (ix2 r j)
    = max ((∑ q : Fin 2048, Stage2.wA m (Assembly.outs m) c (ix2 r q) * Stage2.wB m (Assembly.outs m) c (ix2 q j))
        * Stage2.wSO m (Assembly.outs m) c (ix2 r 0) + Stage2.wBIAS m (Assembly.outs m) c (ix2 0 j)) 0 :=
  fun r j => (congrArg (fun f : S4096x256.Idx → EReal => f (ix2 r j)) (Assembly.outs_R2 m c)).trans
    (Region2.out_apply (GenP.V28 m (Assembly.outs m)) c r j)

/-- The fourth product of the m branch. -/
theorem g3 (c : Dev nD) : ∀ (r : Fin 4096) (j : Fin 256), Stage3.out3 (Assembly.outs m) c (ix2 r j)
    = (∑ q : Fin 256, Stage3.arrA m (Assembly.outs m) c (ix2 r q) * Stage3.arrB m (Assembly.outs m) c (ix2 q j))
        * Stage3.arrS m (Assembly.outs m) c (ix2 r 0) + Stage3.arrZ m (Assembly.outs m) c (ix2 0 j) :=
  fun r j => (congrArg (fun f : S4096x256.Idx → EReal => f (ix2 r j)) (Assembly.outs_R3 m c)).trans
    (Region3.out_apply (GenP.V32 m (Assembly.outs m)) c r j)

/-- The fifth product of the m branch. -/
theorem g4 (c : Dev nD) : ∀ (r : Fin 2048) (j : Fin 256), Stage4.out4 (Assembly.outs m) c (ix2 r j)
    = (∑ q : Fin 4096, Stage4.arrA m (Assembly.outs m) c (ix2 r q) * Stage4.arrB m (Assembly.outs m) c (ix2 q j))
        * Stage4.arrS m (Assembly.outs m) c (ix2 r 0) + Stage4.arrZ m (Assembly.outs m) c (ix2 0 j) :=
  fun r j => (congrArg (fun f : S2048x256.Idx → EReal => f (ix2 r j)) (Assembly.outs_R4 m c)).trans
    (Region4.out_apply (GenP.V40 m (Assembly.outs m)) c r j)

/-- The sixth product of the m branch. -/
theorem g5 (c : Dev nD) : ∀ (r : Fin 4096) (j : Fin 256), Stage5.out5 (Assembly.outs m) c (ix2 r j)
    = (∑ q : Fin 2048, Stage5.arrA m (Assembly.outs m) c (ix2 r q) * Stage5.arrB m (Assembly.outs m) c (ix2 q j))
        * Stage5.arrS m (Assembly.outs m) c (ix2 r 0) + Stage5.arrZ m (Assembly.outs m) c (ix2 0 j) :=
  fun r j => (congrArg (fun f : S4096x256.Idx → EReal => f (ix2 r j)) (Assembly.outs_R5 m c)).trans
    (Region5.out_apply (GenP.V47 m (Assembly.outs m)) c r j)

/-- The first product of the d branch. -/
theorem g6 (c : Dev nD) : ∀ (r : Fin 2048) (j : Fin 256), Stage6.O (Assembly.outs m) c (ix2 r j)
    = (∑ q : Fin 2048, Stage6.A m (Assembly.outs m) c (ix2 r q) * Stage6.B m (Assembly.outs m) c (ix2 q j))
        * Stage6.SO m (Assembly.outs m) c (ix2 r 0) + Stage6.BI m (Assembly.outs m) c (ix2 0 j) :=
  fun r j => (congrArg (fun f : S2048x256.Idx → EReal => f (ix2 r j)) (Assembly.outs_R6 m c)).trans
    (Region6.out_apply (GenP.V53 m (Assembly.outs m)) c r j)

/-- The second product of the d branch. -/
theorem g7 (c : Dev nD) : ∀ (r : Fin 1000) (j : Fin 256), Stage7.O (Assembly.outs m) c (ix2 r j)
    = (∑ q : Fin 2048, Stage7.A m (Assembly.outs m) c (ix2 r q) * Stage7.B m (Assembly.outs m) c (ix2 q j))
        * Stage7.SO m (Assembly.outs m) c (ix2 r 0) + Stage7.BI m (Assembly.outs m) c (ix2 0 j) :=
  fun r j => (congrArg (fun f : S1000x256.Idx → EReal => f (ix2 r j)) (Assembly.outs_R7 m c)).trans
    (Region7.out_apply (GenP.V59 m (Assembly.outs m)) c r j)

/-- The third product of the d branch, with its maximum with zero. -/
theorem g8 (c : Dev nD) : ∀ (r : Fin 2048) (j : Fin 256), Stage8.O (Assembly.outs m) c (ix2 r j)
    = max ((∑ q : Fin 1000, Stage8.A m (Assembly.outs m) c (ix2 r q) * Stage8.B m (Assembly.outs m) c (ix2 q j))
        * Stage8.SO m (Assembly.outs m) c (ix2 r 0) + Stage8.BI m (Assembly.outs m) c (ix2 0 j)) 0 :=
  fun r j => (congrArg (fun f : S2048x256.Idx → EReal => f (ix2 r j)) (Assembly.outs_R8 m c)).trans
    (Region8.out_apply (GenP.V64 m (Assembly.outs m)) c r j)

/-- The fourth product of the d branch. -/
theorem g9 (c : Dev nD) : ∀ (r : Fin 2048) (j : Fin 256), Stage9.O9 (Assembly.outs m) c (ix2 r j)
    = (∑ q : Fin 256, Stage9.A m (Assembly.outs m) c (ix2 r q) * Stage9.B m (Assembly.outs m) c (ix2 q j))
        * Stage9.SO m (Assembly.outs m) c (ix2 r 0) + Stage9.BI m (Assembly.outs m) c (ix2 0 j) :=
  fun r j => (congrArg (fun f : S2048x256.Idx → EReal => f (ix2 r j)) (Assembly.outs_R9 m c)).trans
    (Region9.out_apply (GenP.V68 m (Assembly.outs m)) c r j)

/-- The fifth product of the d branch. -/
theorem g10 (c : Dev nD) : ∀ (r : Fin 1000) (j : Fin 256), Stage10.O10 (Assembly.outs m) c (ix2 r j)
    = (∑ q : Fin 2048, Stage10.A m (Assembly.outs m) c (ix2 r q) * Stage10.B m (Assembly.outs m) c (ix2 q j))
        * Stage10.SO m (Assembly.outs m) c (ix2 r 0) + Stage10.BI m (Assembly.outs m) c (ix2 0 j) :=
  fun r j => (congrArg (fun f : S1000x256.Idx → EReal => f (ix2 r j)) (Assembly.outs_R10 m c)).trans
    (Region10.out_apply (GenP.V74 m (Assembly.outs m)) c r j)

/-- The sixth product of the d branch. -/
theorem g11 (c : Dev nD) : ∀ (r : Fin 2048) (j : Fin 256), Stage11.O11 (Assembly.outs m) c (ix2 r j)
    = (∑ q : Fin 1000, Stage11.A m (Assembly.outs m) c (ix2 r q) * Stage11.B m (Assembly.outs m) c (ix2 q j))
        * Stage11.SO m (Assembly.outs m) c (ix2 r 0) + Stage11.BI m (Assembly.outs m) c (ix2 0 j) :=
  fun r j => (congrArg (fun f : S2048x256.Idx → EReal => f (ix2 r j)) (Assembly.outs_R11 m c)).trans
    (Region11.out_apply (GenP.V79 m (Assembly.outs m)) c r j)

/-- The product over the joined feature matrix. -/
theorem g12 (c : Dev nD) : Stage12.Formula12 m (Assembly.outs m) c :=
  fun r j => (congrArg (fun f : S6144x256.Idx → EReal => f (ix2 r j)) (Assembly.outs_R12 m c)).trans
    (Region12.out_apply (GenP.V89 m (Assembly.outs m)) c r j)

/-! ## The three propagation hops -/

/-- The first hop's propagated features. -/
theorem g13f (c : Dev nD) : Stage13.FormulaF m (Assembly.outs m) c :=
  fun r j => (congrArg (fun f : S6144x256.Idx → EReal => f (ix2 r j)) (Assembly.outs_R13_0 m c)).trans
    (Region13.valueF (GenP.V93 m (Assembly.outs m)) c r j)

/-- The first hop's residual contribution, over its own propagated features. -/
theorem g13r (c : Dev nD) : Stage13.FormulaR m (Assembly.outs m) c := by
  intro r j
  rw [Assembly.outs_R13_1 m c, Assembly.outs_R13_0 m c]
  exact Region13.valueR (GenP.V93 m (Assembly.outs m)) c r j

/-- The second hop's propagated features. -/
theorem g14f (c : Dev nD) : Stage14.FormulaF m (Assembly.outs m) c :=
  fun r j => (congrArg (fun f : S6144x256.Idx → EReal => f (ix2 r j)) (Assembly.outs_R14_0 m c)).trans
    (Region14.valueF (GenP.V95 m (Assembly.outs m)) c r j)

/-- The second hop's residual contribution, over its own propagated features. -/
theorem g14r (c : Dev nD) : Stage14.FormulaR m (Assembly.outs m) c := by
  intro r j
  rw [Assembly.outs_R14_1 m c, Assembly.outs_R14_0 m c]
  exact Region14.valueR (GenP.V95 m (Assembly.outs m)) c r j

/-- The third hop's propagated features. -/
theorem g15f (c : Dev nD) : Stage15.FormulaF m (Assembly.outs m) c :=
  fun r j => (congrArg (fun f : S6144x256.Idx → EReal => f (ix2 r j)) (Assembly.outs_R15_0 m c)).trans
    (Region15.valueF (GenP.V97 m (Assembly.outs m)) c r j)

/-- The third hop's residual contribution, over its own propagated features. -/
theorem g15r (c : Dev nD) : Stage15.FormulaR m (Assembly.outs m) c := by
  intro r j
  rw [Assembly.outs_R15_1 m c, Assembly.outs_R15_0 m c]
  exact Region15.valueR (GenP.V97 m (Assembly.outs m)) c r j

/-! ## The decoder -/

/-- The decoder's column, row by row. -/
theorem g16 (c : Dev nD) : ∀ r : Fin 16384, Stage16.o184 (Assembly.outs m) c (ix2 r 0)
    = (∑ l : Fin 32, Ideal.tanh ((∑ l2 : Fin 64, Ideal.tanh ((∑ l1 : Fin 128,
        Ideal.tanh ((∑ l0 : Fin 256, Stage16.dX m (Assembly.outs m) c (ix2 r l0) * Stage16.dW1 m (Assembly.outs m) c (ix2 l0 l1)) + Stage16.dB1 m (Assembly.outs m) c (ix2 0 l1))
          * Stage16.dW2 m (Assembly.outs m) c (ix2 l1 l2)) + Stage16.dB2 m (Assembly.outs m) c (ix2 0 l2)) * Stage16.dW3 m (Assembly.outs m) c (ix2 l2 l)) + Stage16.dB3 m (Assembly.outs m) c (ix2 0 l))
            * Stage16.dW4 m (Assembly.outs m) c (ix2 l 0)) + Stage16.dB4 m (Assembly.outs m) c (ix2 0 0) :=
  fun r => (congrArg (fun f : S16384x1.Idx → EReal => f (ix2 r 0)) (Assembly.outs_R16 m c)).trans
    (Region16.arrAt9_apply (GenP.V103 m (Assembly.outs m)) c r)

/-! ## The kernel's result -/

/-- With every region's output instantiated by what its pipeline leaves, the kernel's result array is the reference's. -/
theorem final [Cert.KernelIdeal.Facts] [Cert.Pre_finite_inputs.Facts] (hpre : Cert.Pre_KernelIdeal m) (c : Dev nD) :
    (Assembly.outs m 104 main_v184 c : S16384x1.Idx → EReal)
      = Cert.ReferenceIdeal.Read.val_main_v199 (F := Ideal) (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23))
        (m ((c : Thread nD τ).loc main_arg24)) :=
  Bridge.final_of_formulas m (Assembly.outs m) c hpre (g0 m c) (g1 m c) (g2 m c) (g3 m c) (g4 m c) (g5 m c) (g6 m c) (g7 m c) (g8 m c)
    (g9 m c) (g10 m c) (g11 m c) (g12 m c) (g13f m c) (g13r m c) (g14f m c) (g14r m c) (g15f m c) (g15r m c) (g16 m c)

end Cert.KernelIdeal.Glue

end
-- ==== Proof.RefRun0.lean ====
/-
  The reference program's run, read over stages. The program is a straight line of 272 host operations; it is cut
  into six stretches, and between two stretches only a few buffers are still to be read. For each cut, the state says
  what those buffers hold: each at its stage function of the launch contents of the arguments, the arguments unchanged.
-/
import proofs.«414035_j83562883711810_2_alg».proof.Proof.Gen.ReferenceIdeal
import Idealize.ShloMosaic.Lib.StableHlo.Run
import proofs.«414035_j83562883711810_2_alg».proof.Proof.ReadP

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- What the buffers hold at launch: the arguments unchanged, and each intermediate value still to be read
    at its stage function of the arguments. -/
structure St0 (V0 W : Valuation τ sig (Elt F)) : Prop where
  h_main_arg0 : W (no_index (Proc.devRef .tc main_arg0)) = V0 (Proc.devRef .tc main_arg0)
  h_main_arg1 : W (no_index (Proc.devRef .tc main_arg1)) = V0 (Proc.devRef .tc main_arg1)
  h_main_arg2 : W (no_index (Proc.devRef .tc main_arg2)) = V0 (Proc.devRef .tc main_arg2)
  h_main_arg3 : W (no_index (Proc.devRef .tc main_arg3)) = V0 (Proc.devRef .tc main_arg3)
  h_main_arg4 : W (no_index (Proc.devRef .tc main_arg4)) = V0 (Proc.devRef .tc main_arg4)
  h_main_arg5 : W (no_index (Proc.devRef .tc main_arg5)) = V0 (Proc.devRef .tc main_arg5)
  h_main_arg6 : W (no_index (Proc.devRef .tc main_arg6)) = V0 (Proc.devRef .tc main_arg6)
  h_main_arg7 : W (no_index (Proc.devRef .tc main_arg7)) = V0 (Proc.devRef .tc main_arg7)
  h_main_arg8 : W (no_index (Proc.devRef .tc main_arg8)) = V0 (Proc.devRef .tc main_arg8)
  h_main_arg9 : W (no_index (Proc.devRef .tc main_arg9)) = V0 (Proc.devRef .tc main_arg9)
  h_main_arg10 : W (no_index (Proc.devRef .tc main_arg10)) = V0 (Proc.devRef .tc main_arg10)
  h_main_arg11 : W (no_index (Proc.devRef .tc main_arg11)) = V0 (Proc.devRef .tc main_arg11)
  h_main_arg12 : W (no_index (Proc.devRef .tc main_arg12)) = V0 (Proc.devRef .tc main_arg12)
  h_main_arg13 : W (no_index (Proc.devRef .tc main_arg13)) = V0 (Proc.devRef .tc main_arg13)
  h_main_arg14 : W (no_index (Proc.devRef .tc main_arg14)) = V0 (Proc.devRef .tc main_arg14)
  h_main_arg15 : W (no_index (Proc.devRef .tc main_arg15)) = V0 (Proc.devRef .tc main_arg15)
  h_main_arg16 : W (no_index (Proc.devRef .tc main_arg16)) = V0 (Proc.devRef .tc main_arg16)
  h_main_arg17 : W (no_index (Proc.devRef .tc main_arg17)) = V0 (Proc.devRef .tc main_arg17)
  h_main_arg18 : W (no_index (Proc.devRef .tc main_arg18)) = V0 (Proc.devRef .tc main_arg18)
  h_main_arg19 : W (no_index (Proc.devRef .tc main_arg19)) = V0 (Proc.devRef .tc main_arg19)
  h_main_arg20 : W (no_index (Proc.devRef .tc main_arg20)) = V0 (Proc.devRef .tc main_arg20)
  h_main_arg21 : W (no_index (Proc.devRef .tc main_arg21)) = V0 (Proc.devRef .tc main_arg21)
  h_main_arg22 : W (no_index (Proc.devRef .tc main_arg22)) = V0 (Proc.devRef .tc main_arg22)
  h_main_arg23 : W (no_index (Proc.devRef .tc main_arg23)) = V0 (Proc.devRef .tc main_arg23)
  h_main_arg24 : W (no_index (Proc.devRef .tc main_arg24)) = V0 (Proc.devRef .tc main_arg24)

/-- What the buffers hold after the first 68 operations: the arguments unchanged, and each intermediate value still to be read
    at its stage function of the arguments. -/
structure St1 (V0 W : Valuation τ sig (Elt F)) : Prop where
  h_main_arg0 : W (no_index (Proc.devRef .tc main_arg0)) = V0 (Proc.devRef .tc main_arg0)
  h_main_arg1 : W (no_index (Proc.devRef .tc main_arg1)) = V0 (Proc.devRef .tc main_arg1)
  h_main_arg2 : W (no_index (Proc.devRef .tc main_arg2)) = V0 (Proc.devRef .tc main_arg2)
  h_main_arg3 : W (no_index (Proc.devRef .tc main_arg3)) = V0 (Proc.devRef .tc main_arg3)
  h_main_arg4 : W (no_index (Proc.devRef .tc main_arg4)) = V0 (Proc.devRef .tc main_arg4)
  h_main_arg5 : W (no_index (Proc.devRef .tc main_arg5)) = V0 (Proc.devRef .tc main_arg5)
  h_main_arg6 : W (no_index (Proc.devRef .tc main_arg6)) = V0 (Proc.devRef .tc main_arg6)
  h_main_arg7 : W (no_index (Proc.devRef .tc main_arg7)) = V0 (Proc.devRef .tc main_arg7)
  h_main_arg8 : W (no_index (Proc.devRef .tc main_arg8)) = V0 (Proc.devRef .tc main_arg8)
  h_main_arg9 : W (no_index (Proc.devRef .tc main_arg9)) = V0 (Proc.devRef .tc main_arg9)
  h_main_arg10 : W (no_index (Proc.devRef .tc main_arg10)) = V0 (Proc.devRef .tc main_arg10)
  h_main_arg11 : W (no_index (Proc.devRef .tc main_arg11)) = V0 (Proc.devRef .tc main_arg11)
  h_main_arg12 : W (no_index (Proc.devRef .tc main_arg12)) = V0 (Proc.devRef .tc main_arg12)
  h_main_arg13 : W (no_index (Proc.devRef .tc main_arg13)) = V0 (Proc.devRef .tc main_arg13)
  h_main_arg14 : W (no_index (Proc.devRef .tc main_arg14)) = V0 (Proc.devRef .tc main_arg14)
  h_main_arg15 : W (no_index (Proc.devRef .tc main_arg15)) = V0 (Proc.devRef .tc main_arg15)
  h_main_arg16 : W (no_index (Proc.devRef .tc main_arg16)) = V0 (Proc.devRef .tc main_arg16)
  h_main_arg17 : W (no_index (Proc.devRef .tc main_arg17)) = V0 (Proc.devRef .tc main_arg17)
  h_main_arg18 : W (no_index (Proc.devRef .tc main_arg18)) = V0 (Proc.devRef .tc main_arg18)
  h_main_arg19 : W (no_index (Proc.devRef .tc main_arg19)) = V0 (Proc.devRef .tc main_arg19)
  h_main_arg20 : W (no_index (Proc.devRef .tc main_arg20)) = V0 (Proc.devRef .tc main_arg20)
  h_main_arg21 : W (no_index (Proc.devRef .tc main_arg21)) = V0 (Proc.devRef .tc main_arg21)
  h_main_arg22 : W (no_index (Proc.devRef .tc main_arg22)) = V0 (Proc.devRef .tc main_arg22)
  h_main_arg23 : W (no_index (Proc.devRef .tc main_arg23)) = V0 (Proc.devRef .tc main_arg23)
  h_main_arg24 : W (no_index (Proc.devRef .tc main_arg24)) = V0 (Proc.devRef .tc main_arg24)
  h_main_v0 : W (no_index (Proc.devRef .tc main_v0)) = val_main_v0 (F := F) (V0 (Proc.devRef .tc main_arg2))
  h_main_v1 : W (no_index (Proc.devRef .tc main_v1)) = val_main_v1 (F := F) (V0 (Proc.devRef .tc main_arg3))
  h_main_v31 : W (no_index (Proc.devRef .tc main_v31)) = val_main_v31 (F := F) (V0 (Proc.devRef .tc main_arg0)) (V0 (Proc.devRef .tc main_arg2)) (V0 (Proc.devRef .tc main_arg7)) (V0 (Proc.devRef .tc main_arg8))
  h_main_v39 : W (no_index (Proc.devRef .tc main_v39)) = val_main_v39 (F := F) (V0 (Proc.devRef .tc main_arg2))
  h_main_v40 : W (no_index (Proc.devRef .tc main_v40)) = val_main_v40 (F := F) (V0 (Proc.devRef .tc main_arg2))
  h_main_v42 : W (no_index (Proc.devRef .tc main_v42)) = val_main_v42 (F := F) (V0 (Proc.devRef .tc main_arg2))

/-- What the buffers hold after the first 134 operations: the arguments unchanged, and each intermediate value still to be read
    at its stage function of the arguments. -/
structure St2 (V0 W : Valuation τ sig (Elt F)) : Prop where
  h_main_arg0 : W (no_index (Proc.devRef .tc main_arg0)) = V0 (Proc.devRef .tc main_arg0)
  h_main_arg1 : W (no_index (Proc.devRef .tc main_arg1)) = V0 (Proc.devRef .tc main_arg1)
  h_main_arg2 : W (no_index (Proc.devRef .tc main_arg2)) = V0 (Proc.devRef .tc main_arg2)
  h_main_arg3 : W (no_index (Proc.devRef .tc main_arg3)) = V0 (Proc.devRef .tc main_arg3)
  h_main_arg4 : W (no_index (Proc.devRef .tc main_arg4)) = V0 (Proc.devRef .tc main_arg4)
  h_main_arg5 : W (no_index (Proc.devRef .tc main_arg5)) = V0 (Proc.devRef .tc main_arg5)
  h_main_arg6 : W (no_index (Proc.devRef .tc main_arg6)) = V0 (Proc.devRef .tc main_arg6)
  h_main_arg7 : W (no_index (Proc.devRef .tc main_arg7)) = V0 (Proc.devRef .tc main_arg7)
  h_main_arg8 : W (no_index (Proc.devRef .tc main_arg8)) = V0 (Proc.devRef .tc main_arg8)
  h_main_arg9 : W (no_index (Proc.devRef .tc main_arg9)) = V0 (Proc.devRef .tc main_arg9)
  h_main_arg10 : W (no_index (Proc.devRef .tc main_arg10)) = V0 (Proc.devRef .tc main_arg10)
  h_main_arg11 : W (no_index (Proc.devRef .tc main_arg11)) = V0 (Proc.devRef .tc main_arg11)
  h_main_arg12 : W (no_index (Proc.devRef .tc main_arg12)) = V0 (Proc.devRef .tc main_arg12)
  h_main_arg13 : W (no_index (Proc.devRef .tc main_arg13)) = V0 (Proc.devRef .tc main_arg13)
  h_main_arg14 : W (no_index (Proc.devRef .tc main_arg14)) = V0 (Proc.devRef .tc main_arg14)
  h_main_arg15 : W (no_index (Proc.devRef .tc main_arg15)) = V0 (Proc.devRef .tc main_arg15)
  h_main_arg16 : W (no_index (Proc.devRef .tc main_arg16)) = V0 (Proc.devRef .tc main_arg16)
  h_main_arg17 : W (no_index (Proc.devRef .tc main_arg17)) = V0 (Proc.devRef .tc main_arg17)
  h_main_arg18 : W (no_index (Proc.devRef .tc main_arg18)) = V0 (Proc.devRef .tc main_arg18)
  h_main_arg19 : W (no_index (Proc.devRef .tc main_arg19)) = V0 (Proc.devRef .tc main_arg19)
  h_main_arg20 : W (no_index (Proc.devRef .tc main_arg20)) = V0 (Proc.devRef .tc main_arg20)
  h_main_arg21 : W (no_index (Proc.devRef .tc main_arg21)) = V0 (Proc.devRef .tc main_arg21)
  h_main_arg22 : W (no_index (Proc.devRef .tc main_arg22)) = V0 (Proc.devRef .tc main_arg22)
  h_main_arg23 : W (no_index (Proc.devRef .tc main_arg23)) = V0 (Proc.devRef .tc main_arg23)
  h_main_arg24 : W (no_index (Proc.devRef .tc main_arg24)) = V0 (Proc.devRef .tc main_arg24)
  h_main_v1 : W (no_index (Proc.devRef .tc main_v1)) = val_main_v1 (F := F) (V0 (Proc.devRef .tc main_arg3))
  h_main_v60 : W (no_index (Proc.devRef .tc main_v60)) = val_main_v60 (F := F) (V0 (Proc.devRef .tc main_arg0)) (V0 (Proc.devRef .tc main_arg2)) (V0 (Proc.devRef .tc main_arg7)) (V0 (Proc.devRef .tc main_arg8)) (V0 (Proc.devRef .tc main_arg9)) (V0 (Proc.devRef .tc main_arg10))
  h_main_v89 : W (no_index (Proc.devRef .tc main_v89)) = val_main_v89 (F := F) (V0 (Proc.devRef .tc main_arg1)) (V0 (Proc.devRef .tc main_arg3)) (V0 (Proc.devRef .tc main_arg11)) (V0 (Proc.devRef .tc main_arg12))

/-- What the buffers hold after the first 180 operations: the arguments unchanged, and each intermediate value still to be read
    at its stage function of the arguments. -/
structure St3 (V0 W : Valuation τ sig (Elt F)) : Prop where
  h_main_arg0 : W (no_index (Proc.devRef .tc main_arg0)) = V0 (Proc.devRef .tc main_arg0)
  h_main_arg1 : W (no_index (Proc.devRef .tc main_arg1)) = V0 (Proc.devRef .tc main_arg1)
  h_main_arg2 : W (no_index (Proc.devRef .tc main_arg2)) = V0 (Proc.devRef .tc main_arg2)
  h_main_arg3 : W (no_index (Proc.devRef .tc main_arg3)) = V0 (Proc.devRef .tc main_arg3)
  h_main_arg4 : W (no_index (Proc.devRef .tc main_arg4)) = V0 (Proc.devRef .tc main_arg4)
  h_main_arg5 : W (no_index (Proc.devRef .tc main_arg5)) = V0 (Proc.devRef .tc main_arg5)
  h_main_arg6 : W (no_index (Proc.devRef .tc main_arg6)) = V0 (Proc.devRef .tc main_arg6)
  h_main_arg7 : W (no_index (Proc.devRef .tc main_arg7)) = V0 (Proc.devRef .tc main_arg7)
  h_main_arg8 : W (no_index (Proc.devRef .tc main_arg8)) = V0 (Proc.devRef .tc main_arg8)
  h_main_arg9 : W (no_index (Proc.devRef .tc main_arg9)) = V0 (Proc.devRef .tc main_arg9)
  h_main_arg10 : W (no_index (Proc.devRef .tc main_arg10)) = V0 (Proc.devRef .tc main_arg10)
  h_main_arg11 : W (no_index (Proc.devRef .tc main_arg11)) = V0 (Proc.devRef .tc main_arg11)
  h_main_arg12 : W (no_index (Proc.devRef .tc main_arg12)) = V0 (Proc.devRef .tc main_arg12)
  h_main_arg13 : W (no_index (Proc.devRef .tc main_arg13)) = V0 (Proc.devRef .tc main_arg13)
  h_main_arg14 : W (no_index (Proc.devRef .tc main_arg14)) = V0 (Proc.devRef .tc main_arg14)
  h_main_arg15 : W (no_index (Proc.devRef .tc main_arg15)) = V0 (Proc.devRef .tc main_arg15)
  h_main_arg16 : W (no_index (Proc.devRef .tc main_arg16)) = V0 (Proc.devRef .tc main_arg16)
  h_main_arg17 : W (no_index (Proc.devRef .tc main_arg17)) = V0 (Proc.devRef .tc main_arg17)
  h_main_arg18 : W (no_index (Proc.devRef .tc main_arg18)) = V0 (Proc.devRef .tc main_arg18)
  h_main_arg19 : W (no_index (Proc.devRef .tc main_arg19)) = V0 (Proc.devRef .tc main_arg19)
  h_main_arg20 : W (no_index (Proc.devRef .tc main_arg20)) = V0 (Proc.devRef .tc main_arg20)
  h_main_arg21 : W (no_index (Proc.devRef .tc main_arg21)) = V0 (Proc.devRef .tc main_arg21)
  h_main_arg22 : W (no_index (Proc.devRef .tc main_arg22)) = V0 (Proc.devRef .tc main_arg22)
  h_main_arg23 : W (no_index (Proc.devRef .tc main_arg23)) = V0 (Proc.devRef .tc main_arg23)
  h_main_arg24 : W (no_index (Proc.devRef .tc main_arg24)) = V0 (Proc.devRef .tc main_arg24)
  h_main_v60 : W (no_index (Proc.devRef .tc main_v60)) = val_main_v60 (F := F) (V0 (Proc.devRef .tc main_arg0)) (V0 (Proc.devRef .tc main_arg2)) (V0 (Proc.devRef .tc main_arg7)) (V0 (Proc.devRef .tc main_arg8)) (V0 (Proc.devRef .tc main_arg9)) (V0 (Proc.devRef .tc main_arg10))
  h_main_v119 : W (no_index (Proc.devRef .tc main_v119)) = val_main_v119 (F := F) (V0 (Proc.devRef .tc main_arg1)) (V0 (Proc.devRef .tc main_arg3)) (V0 (Proc.devRef .tc main_arg11)) (V0 (Proc.devRef .tc main_arg12)) (V0 (Proc.devRef .tc main_arg13)) (V0 (Proc.devRef .tc main_arg14))

/-- What the buffers hold after the first 202 operations: the arguments unchanged, and each intermediate value still to be read
    at its stage function of the arguments. -/
structure St4 (V0 W : Valuation τ sig (Elt F)) : Prop where
  h_main_arg0 : W (no_index (Proc.devRef .tc main_arg0)) = V0 (Proc.devRef .tc main_arg0)
  h_main_arg1 : W (no_index (Proc.devRef .tc main_arg1)) = V0 (Proc.devRef .tc main_arg1)
  h_main_arg2 : W (no_index (Proc.devRef .tc main_arg2)) = V0 (Proc.devRef .tc main_arg2)
  h_main_arg3 : W (no_index (Proc.devRef .tc main_arg3)) = V0 (Proc.devRef .tc main_arg3)
  h_main_arg4 : W (no_index (Proc.devRef .tc main_arg4)) = V0 (Proc.devRef .tc main_arg4)
  h_main_arg5 : W (no_index (Proc.devRef .tc main_arg5)) = V0 (Proc.devRef .tc main_arg5)
  h_main_arg6 : W (no_index (Proc.devRef .tc main_arg6)) = V0 (Proc.devRef .tc main_arg6)
  h_main_arg7 : W (no_index (Proc.devRef .tc main_arg7)) = V0 (Proc.devRef .tc main_arg7)
  h_main_arg8 : W (no_index (Proc.devRef .tc main_arg8)) = V0 (Proc.devRef .tc main_arg8)
  h_main_arg9 : W (no_index (Proc.devRef .tc main_arg9)) = V0 (Proc.devRef .tc main_arg9)
  h_main_arg10 : W (no_index (Proc.devRef .tc main_arg10)) = V0 (Proc.devRef .tc main_arg10)
  h_main_arg11 : W (no_index (Proc.devRef .tc main_arg11)) = V0 (Proc.devRef .tc main_arg11)
  h_main_arg12 : W (no_index (Proc.devRef .tc main_arg12)) = V0 (Proc.devRef .tc main_arg12)
  h_main_arg13 : W (no_index (Proc.devRef .tc main_arg13)) = V0 (Proc.devRef .tc main_arg13)
  h_main_arg14 : W (no_index (Proc.devRef .tc main_arg14)) = V0 (Proc.devRef .tc main_arg14)
  h_main_arg15 : W (no_index (Proc.devRef .tc main_arg15)) = V0 (Proc.devRef .tc main_arg15)
  h_main_arg16 : W (no_index (Proc.devRef .tc main_arg16)) = V0 (Proc.devRef .tc main_arg16)
  h_main_arg17 : W (no_index (Proc.devRef .tc main_arg17)) = V0 (Proc.devRef .tc main_arg17)
  h_main_arg18 : W (no_index (Proc.devRef .tc main_arg18)) = V0 (Proc.devRef .tc main_arg18)
  h_main_arg19 : W (no_index (Proc.devRef .tc main_arg19)) = V0 (Proc.devRef .tc main_arg19)
  h_main_arg20 : W (no_index (Proc.devRef .tc main_arg20)) = V0 (Proc.devRef .tc main_arg20)
  h_main_arg21 : W (no_index (Proc.devRef .tc main_arg21)) = V0 (Proc.devRef .tc main_arg21)
  h_main_arg22 : W (no_index (Proc.devRef .tc main_arg22)) = V0 (Proc.devRef .tc main_arg22)
  h_main_arg23 : W (no_index (Proc.devRef .tc main_arg23)) = V0 (Proc.devRef .tc main_arg23)
  h_main_arg24 : W (no_index (Proc.devRef .tc main_arg24)) = V0 (Proc.devRef .tc main_arg24)
  h_main_v125 : W (no_index (Proc.devRef .tc main_v125)) = val_main_v125 (F := F) (V0 (Proc.devRef .tc main_arg4))
  h_main_v129 : W (no_index (Proc.devRef .tc main_v129)) = val_main_v129 (F := F) (V0 (Proc.devRef .tc main_arg0)) (V0 (Proc.devRef .tc main_arg1)) (V0 (Proc.devRef .tc main_arg2)) (V0 (Proc.devRef .tc main_arg3)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))
  h_main_v135 : W (no_index (Proc.devRef .tc main_v135)) = val_main_v135 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))
  h_main_v136 : W (no_index (Proc.devRef .tc main_v136)) = val_main_v136 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))

/-- What the buffers hold after the first 264 operations: the arguments unchanged, and each intermediate value still to be read
    at its stage function of the arguments. -/
structure St5 (V0 W : Valuation τ sig (Elt F)) : Prop where
  h_main_arg0 : W (no_index (Proc.devRef .tc main_arg0)) = V0 (Proc.devRef .tc main_arg0)
  h_main_arg1 : W (no_index (Proc.devRef .tc main_arg1)) = V0 (Proc.devRef .tc main_arg1)
  h_main_arg2 : W (no_index (Proc.devRef .tc main_arg2)) = V0 (Proc.devRef .tc main_arg2)
  h_main_arg3 : W (no_index (Proc.devRef .tc main_arg3)) = V0 (Proc.devRef .tc main_arg3)
  h_main_arg4 : W (no_index (Proc.devRef .tc main_arg4)) = V0 (Proc.devRef .tc main_arg4)
  h_main_arg5 : W (no_index (Proc.devRef .tc main_arg5)) = V0 (Proc.devRef .tc main_arg5)
  h_main_arg6 : W (no_index (Proc.devRef .tc main_arg6)) = V0 (Proc.devRef .tc main_arg6)
  h_main_arg7 : W (no_index (Proc.devRef .tc main_arg7)) = V0 (Proc.devRef .tc main_arg7)
  h_main_arg8 : W (no_index (Proc.devRef .tc main_arg8)) = V0 (Proc.devRef .tc main_arg8)
  h_main_arg9 : W (no_index (Proc.devRef .tc main_arg9)) = V0 (Proc.devRef .tc main_arg9)
  h_main_arg10 : W (no_index (Proc.devRef .tc main_arg10)) = V0 (Proc.devRef .tc main_arg10)
  h_main_arg11 : W (no_index (Proc.devRef .tc main_arg11)) = V0 (Proc.devRef .tc main_arg11)
  h_main_arg12 : W (no_index (Proc.devRef .tc main_arg12)) = V0 (Proc.devRef .tc main_arg12)
  h_main_arg13 : W (no_index (Proc.devRef .tc main_arg13)) = V0 (Proc.devRef .tc main_arg13)
  h_main_arg14 : W (no_index (Proc.devRef .tc main_arg14)) = V0 (Proc.devRef .tc main_arg14)
  h_main_arg15 : W (no_index (Proc.devRef .tc main_arg15)) = V0 (Proc.devRef .tc main_arg15)
  h_main_arg16 : W (no_index (Proc.devRef .tc main_arg16)) = V0 (Proc.devRef .tc main_arg16)
  h_main_arg17 : W (no_index (Proc.devRef .tc main_arg17)) = V0 (Proc.devRef .tc main_arg17)
  h_main_arg18 : W (no_index (Proc.devRef .tc main_arg18)) = V0 (Proc.devRef .tc main_arg18)
  h_main_arg19 : W (no_index (Proc.devRef .tc main_arg19)) = V0 (Proc.devRef .tc main_arg19)
  h_main_arg20 : W (no_index (Proc.devRef .tc main_arg20)) = V0 (Proc.devRef .tc main_arg20)
  h_main_arg21 : W (no_index (Proc.devRef .tc main_arg21)) = V0 (Proc.devRef .tc main_arg21)
  h_main_arg22 : W (no_index (Proc.devRef .tc main_arg22)) = V0 (Proc.devRef .tc main_arg22)
  h_main_arg23 : W (no_index (Proc.devRef .tc main_arg23)) = V0 (Proc.devRef .tc main_arg23)
  h_main_arg24 : W (no_index (Proc.devRef .tc main_arg24)) = V0 (Proc.devRef .tc main_arg24)
  h_main_v191 : W (no_index (Proc.devRef .tc main_v191)) = val_main_v191 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21))

/-- What the buffers hold after the first 272 operations: the arguments unchanged, and each intermediate value still to be read
    at its stage function of the arguments. -/
structure St6 (V0 W : Valuation τ sig (Elt F)) : Prop where
  h_main_arg0 : W (no_index (Proc.devRef .tc main_arg0)) = V0 (Proc.devRef .tc main_arg0)
  h_main_arg1 : W (no_index (Proc.devRef .tc main_arg1)) = V0 (Proc.devRef .tc main_arg1)
  h_main_arg2 : W (no_index (Proc.devRef .tc main_arg2)) = V0 (Proc.devRef .tc main_arg2)
  h_main_arg3 : W (no_index (Proc.devRef .tc main_arg3)) = V0 (Proc.devRef .tc main_arg3)
  h_main_arg4 : W (no_index (Proc.devRef .tc main_arg4)) = V0 (Proc.devRef .tc main_arg4)
  h_main_arg5 : W (no_index (Proc.devRef .tc main_arg5)) = V0 (Proc.devRef .tc main_arg5)
  h_main_arg6 : W (no_index (Proc.devRef .tc main_arg6)) = V0 (Proc.devRef .tc main_arg6)
  h_main_arg7 : W (no_index (Proc.devRef .tc main_arg7)) = V0 (Proc.devRef .tc main_arg7)
  h_main_arg8 : W (no_index (Proc.devRef .tc main_arg8)) = V0 (Proc.devRef .tc main_arg8)
  h_main_arg9 : W (no_index (Proc.devRef .tc main_arg9)) = V0 (Proc.devRef .tc main_arg9)
  h_main_arg10 : W (no_index (Proc.devRef .tc main_arg10)) = V0 (Proc.devRef .tc main_arg10)
  h_main_arg11 : W (no_index (Proc.devRef .tc main_arg11)) = V0 (Proc.devRef .tc main_arg11)
  h_main_arg12 : W (no_index (Proc.devRef .tc main_arg12)) = V0 (Proc.devRef .tc main_arg12)
  h_main_arg13 : W (no_index (Proc.devRef .tc main_arg13)) = V0 (Proc.devRef .tc main_arg13)
  h_main_arg14 : W (no_index (Proc.devRef .tc main_arg14)) = V0 (Proc.devRef .tc main_arg14)
  h_main_arg15 : W (no_index (Proc.devRef .tc main_arg15)) = V0 (Proc.devRef .tc main_arg15)
  h_main_arg16 : W (no_index (Proc.devRef .tc main_arg16)) = V0 (Proc.devRef .tc main_arg16)
  h_main_arg17 : W (no_index (Proc.devRef .tc main_arg17)) = V0 (Proc.devRef .tc main_arg17)
  h_main_arg18 : W (no_index (Proc.devRef .tc main_arg18)) = V0 (Proc.devRef .tc main_arg18)
  h_main_arg19 : W (no_index (Proc.devRef .tc main_arg19)) = V0 (Proc.devRef .tc main_arg19)
  h_main_arg20 : W (no_index (Proc.devRef .tc main_arg20)) = V0 (Proc.devRef .tc main_arg20)
  h_main_arg21 : W (no_index (Proc.devRef .tc main_arg21)) = V0 (Proc.devRef .tc main_arg21)
  h_main_arg22 : W (no_index (Proc.devRef .tc main_arg22)) = V0 (Proc.devRef .tc main_arg22)
  h_main_arg23 : W (no_index (Proc.devRef .tc main_arg23)) = V0 (Proc.devRef .tc main_arg23)
  h_main_arg24 : W (no_index (Proc.devRef .tc main_arg24)) = V0 (Proc.devRef .tc main_arg24)
  h_main_v199 : W (no_index (Proc.devRef .tc main_v199)) = val_main_v199 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24))

/-- At launch the buffers hold the launch contents. -/
theorem st0 (V0 : Valuation τ sig (Elt F)) : St0 V0 V0 where
  h_main_arg0 := rfl
  h_main_arg1 := rfl
  h_main_arg2 := rfl
  h_main_arg3 := rfl
  h_main_arg4 := rfl
  h_main_arg5 := rfl
  h_main_arg6 := rfl
  h_main_arg7 := rfl
  h_main_arg8 := rfl
  h_main_arg9 := rfl
  h_main_arg10 := rfl
  h_main_arg11 := rfl
  h_main_arg12 := rfl
  h_main_arg13 := rfl
  h_main_arg14 := rfl
  h_main_arg15 := rfl
  h_main_arg16 := rfl
  h_main_arg17 := rfl
  h_main_arg18 := rfl
  h_main_arg19 := rfl
  h_main_arg20 := rfl
  h_main_arg21 := rfl
  h_main_arg22 := rfl
  h_main_arg23 := rfl
  h_main_arg24 := rfl

end Cert.Proof.RefRun

end
-- ==== Proof.RefRun1.lean ====
/-
  The reference program's run, stretch 1 of 6: the operations 1 … 68 as a literal list, the buffers they
  write, and the step from the state before them to the state after them (each buffer still to be read holds its
  stage function of the arguments' launch contents).
-/
import proofs.«414035_j83562883711810_2_alg».proof.Proof.RefRun0

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations 1 … 68 of the program's 272, in order (a called function's operations stand in its call's place). -/
abbrev ops1 : List (HloOp τ sig (Elt F)) :=
  [ unary main_arg2 main_v0 ((transpose S4000x2000 [1, 0] · transposes_S2000x4000_S4000x2000_1_0) : (⟨S2000x4000, .f32⟩ : BufTy).Contents (Elt F) → (⟨S4000x2000, .f32⟩ : BufTy).Contents (Elt F)),
    unary main_arg3 main_v1 ((transpose S2000x1000 [1, 0] · transposes_S1000x2000_S2000x1000_1_0) : (⟨S1000x2000, .f32⟩ : BufTy).Contents (Elt F) → (⟨S2000x1000, .f32⟩ : BufTy).Contents (Elt F)),
    nullary main_cst (constant S_ .f32 0x00000000#32),
    binary main_v0 main_cst main_v2 ((fun x v => Host.reduceAdd x v reducesTo_S4000x2000_S4000_d1 h_S_) : (⟨S4000x2000, .f32⟩ : BufTy).Contents (Elt F) → (⟨S_, .f32⟩ : BufTy).Contents (Elt F) → (⟨S4000, .f32⟩ : BufTy).Contents (Elt F)),
    nullary main_cst_0 (constant S_ .f32 0x00000000#32),
    unary main_cst_0 main_v3 (broadcastInDim S4000 ![] bcast_S_S4000 : (⟨S_, .f32⟩ : BufTy).Contents (Elt F) → (⟨S4000, .f32⟩ : BufTy).Contents (Elt F)),
    binary main_v2 main_v3 main_v4 (cmpf .ogt : (⟨S4000, .f32⟩ : BufTy).Contents (Elt F) → (⟨S4000, .f32⟩ : BufTy).Contents (Elt F) → (⟨S4000, .i1⟩ : BufTy).Contents (Elt F)),
    nullary main_cst_1 (constant S_ .f32 0x2B8CBCCC#32),
    unary main_cst_1 main_v5 (broadcastInDim S4000 ![] bcast_S_S4000 : (⟨S_, .f32⟩ : BufTy).Contents (Elt F) → (⟨S4000, .f32⟩ : BufTy).Contents (Elt F)),
    binary main_v2 main_v5 main_v6 (maximumf : (⟨S4000, .f32⟩ : BufTy).Contents (Elt F) → (⟨S4000, .f32⟩ : BufTy).Contents (Elt F) → (⟨S4000, .f32⟩ : BufTy).Contents (Elt F)),
    nullary main_cst_2 (constant S_ .f32 0x3F800000#32),
    unary main_cst_2 main_v7 (broadcastInDim S4000 ![] bcast_S_S4000 : (⟨S_, .f32⟩ : BufTy).Contents (Elt F) → (⟨S4000, .f32⟩ : BufTy).Contents (Elt F)),
    binary main_v7 main_v6 main_v8 (Host.divf : (⟨S4000, .f32⟩ : BufTy).Contents (Elt F) → (⟨S4000, .f32⟩ : BufTy).Contents (Elt F) → (⟨S4000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S4000, .f32⟩) main_call0_v1) (broadcastInDim S4000 ![] bcast_S_S4000),
    TRef.ternary (TRef.of (T := ⟨S4000, .i1⟩) main_v4) (TRef.of (T := ⟨S4000, .f32⟩) main_v8) (TRef.of (T := ⟨S4000, .f32⟩) main_call0_v1) (TRef.of (T := ⟨S4000, .f32⟩) main_v9) select,
    nullary main_cst_4 (constant S_ .f32 0x00000000#32),
    binary main_v0 main_cst_4 main_v10 ((fun x v => Host.reduceAdd x v reducesTo_S4000x2000_S2000_d0 h_S_) : (⟨S4000x2000, .f32⟩ : BufTy).Contents (Elt F) → (⟨S_, .f32⟩ : BufTy).Contents (Elt F) → (⟨S2000, .f32⟩ : BufTy).Contents (Elt F)),
    nullary main_cst_5 (constant S_ .f32 0x00000000#32),
    unary main_cst_5 main_v11 (broadcastInDim S2000 ![] bcast_S_S2000 : (⟨S_, .f32⟩ : BufTy).Contents (Elt F) → (⟨S2000, .f32⟩ : BufTy).Contents (Elt F)),
    binary main_v10 main_v11 main_v12 (cmpf .ogt : (⟨S2000, .f32⟩ : BufTy).Contents (Elt F) → (⟨S2000, .f32⟩ : BufTy).Contents (Elt F) → (⟨S2000, .i1⟩ : BufTy).Contents (Elt F)),
    nullary main_cst_6 (constant S_ .f32 0x2B8CBCCC#32),
    unary main_cst_6 main_v13 (broadcastInDim S2000 ![] bcast_S_S2000 : (⟨S_, .f32⟩ : BufTy).Contents (Elt F) → (⟨S2000, .f32⟩ : BufTy).Contents (Elt F)),
    binary main_v10 main_v13 main_v14 (maximumf : (⟨S2000, .f32⟩ : BufTy).Contents (Elt F) → (⟨S2000, .f32⟩ : BufTy).Contents (Elt F) → (⟨S2000, .f32⟩ : BufTy).Contents (Elt F)),
    nullary main_cst_7 (constant S_ .f32 0x3F800000#32),
    unary main_cst_7 main_v15 (broadcastInDim S2000 ![] bcast_S_S2000 : (⟨S_, .f32⟩ : BufTy).Contents (Elt F) → (⟨S2000, .f32⟩ : BufTy).Contents (Elt F)),
    binary main_v15 main_v14 main_v16 (Host.divf : (⟨S2000, .f32⟩ : BufTy).Contents (Elt F) → (⟨S2000, .f32⟩ : BufTy).Contents (Elt F) → (⟨S2000, .f32⟩ : BufTy).Contents (Elt F)),
    nullary main_cst_8 (constant S_ .f32 0x00000000#32),
    TRef.unary (TRef.of (T := ⟨S_, .f32⟩) main_cst_8) (TRef.of (T := ⟨S_, .f32⟩) main_call1_v0) id,
    TRef.unary (TRef.of (T := ⟨S_, .f32⟩) main_call1_v0) (TRef.of (T := ⟨S2000, .f32⟩) main_call1_v1) (broadcastInDim S2000 ![] bcast_S_S2000),
    TRef.ternary (TRef.of (T := ⟨S2000, .i1⟩) main_v12) (TRef.of (T := ⟨S2000, .f32⟩) main_v16) (TRef.of (T := ⟨S2000, .f32⟩) main_call1_v1) (TRef.of (T := ⟨S2000, .f32⟩) main_v17) select,
    binary main_arg0 main_arg7 main_v18 ((fun l r => Host.dotGeneral dot_S4000x4000_S4000x256_S4000x256_1_0_0_1_n_n none l r) : (⟨S4000x4000, .f32⟩ : BufTy).Contents (Elt F) → (⟨S4000x256, .f32⟩ : BufTy).Contents (Elt F) → (⟨S4000x256, .f32⟩ : BufTy).Contents (Elt F)),
    unary main_v0 main_v19 ((transpose S2000x4000 [1, 0] · transposes_S4000x2000_S2000x4000_1_0) : (⟨S4000x2000, .f32⟩ : BufTy).Contents (Elt F) → (⟨S2000x4000, .f32⟩ : BufTy).Contents (Elt F)),
    binary main_v19 main_v18 main_v20 ((fun l r => Host.dotGeneral dot_S2000x4000_S4000x256_S2000x256_1_0_0_1_n_n none l r) : (⟨S2000x4000, .f32⟩ : BufTy).Contents (Elt F) → (⟨S4000x256, .f32⟩ : BufTy).Contents (Elt F) → (⟨S2000x256, .f32⟩ : BufTy).Contents (Elt F)),
    unary main_v17 main_v21 (broadcastInDim S2000x1 ![0] bcast_S2000_S2000x1_0 : (⟨S2000, .f32⟩ : BufTy).Contents (Elt F) → (⟨S2000x1, .f32⟩ : BufTy).Contents (Elt F)),
    unary main_v21 main_v22 (broadcastInDim S2000x256 ![0, 1] bcast_S2000x1_S2000x256_0_1 : (⟨S2000x1, .f32⟩ : BufTy).Contents (Elt F) → (⟨S2000x256, .f32⟩ : BufTy).Contents (Elt F)),
    binary main_v20 main_v22 main_v23 (mulf : (⟨S2000x256, .f32⟩ : BufTy).Contents (Elt F) → (⟨S2000x256, .f32⟩ : BufTy).Contents (Elt F) → (⟨S2000x256, .f32⟩ : BufTy).Contents (Elt F)),
    binary main_v0 main_v23 main_v24 ((fun l r => Host.dotGeneral dot_S4000x2000_S2000x256_S4000x256_1_0_0_1_n_n none l r) : (⟨S4000x2000, .f32⟩ : BufTy).Contents (Elt F) → (⟨S2000x256, .f32⟩ : BufTy).Contents (Elt F) → (⟨S4000x256, .f32⟩ : BufTy).Contents (Elt F)),
    unary main_v9 main_v25 (broadcastInDim S4000x1 ![0] bcast_S4000_S4000x1_0 : (⟨S4000, .f32⟩ : BufTy).Contents (Elt F) → (⟨S4000x1, .f32⟩ : BufTy).Contents (Elt F)),
    unary main_v25 main_v26 (broadcastInDim S4000x256 ![0, 1] bcast_S4000x1_S4000x256_0_1 : (⟨S4000x1, .f32⟩ : BufTy).Contents (Elt F) → (⟨S4000x256, .f32⟩ : BufTy).Contents (Elt F)),
    binary main_v24 main_v26 main_v27 (mulf : (⟨S4000x256, .f32⟩ : BufTy).Contents (Elt F) → (⟨S4000x256, .f32⟩ : BufTy).Contents (Elt F) → (⟨S4000x256, .f32⟩ : BufTy).Contents (Elt F)),
    unary main_arg8 main_v28 (broadcastInDim S1x256 ![1] bcast_S256_S1x256_1 : (⟨S256, .f32⟩ : BufTy).Contents (Elt F) → (⟨S1x256, .f32⟩ : BufTy).Contents (Elt F)),
    unary main_v28 main_v29 (broadcastInDim S4000x256 ![0, 1] bcast_S1x256_S4000x256_0_1 : (⟨S1x256, .f32⟩ : BufTy).Contents (Elt F) → (⟨S4000x256, .f32⟩ : BufTy).Contents (Elt F)),
    binary main_v27 main_v29 main_v30 (addf : (⟨S4000x256, .f32⟩ : BufTy).Contents (Elt F) → (⟨S4000x256, .f32⟩ : BufTy).Contents (Elt F) → (⟨S4000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4000x256, .f32⟩) main_call2_v0) (broadcastInDim S4000x256 ![] bcast_S_S4000x256),
    TRef.binary (TRef.of (T := ⟨S4000x256, .f32⟩) main_v30) (TRef.of (T := ⟨S4000x256, .f32⟩) main_call2_v0) (TRef.of (T := ⟨S4000x256, .f32⟩) main_v31) maximumf,
    nullary main_cst_9 (constant S_ .f32 0x00000000#32),
    binary main_v0 main_cst_9 main_v32 ((fun x v => Host.reduceAdd x v reducesTo_S4000x2000_S4000_d1 h_S_) : (⟨S4000x2000, .f32⟩ : BufTy).Contents (Elt F) → (⟨S_, .f32⟩ : BufTy).Contents (Elt F) → (⟨S4000, .f32⟩ : BufTy).Contents (Elt F)),
    nullary main_cst_10 (constant S_ .f32 0x00000000#32),
    unary main_cst_10 main_v33 (broadcastInDim S4000 ![] bcast_S_S4000 : (⟨S_, .f32⟩ : BufTy).Contents (Elt F) → (⟨S4000, .f32⟩ : BufTy).Contents (Elt F)),
    binary main_v32 main_v33 main_v34 (cmpf .ogt : (⟨S4000, .f32⟩ : BufTy).Contents (Elt F) → (⟨S4000, .f32⟩ : BufTy).Contents (Elt F) → (⟨S4000, .i1⟩ : BufTy).Contents (Elt F)),
    nullary main_cst_11 (constant S_ .f32 0x2B8CBCCC#32),
    unary main_cst_11 main_v35 (broadcastInDim S4000 ![] bcast_S_S4000 : (⟨S_, .f32⟩ : BufTy).Contents (Elt F) → (⟨S4000, .f32⟩ : BufTy).Contents (Elt F)),
    binary main_v32 main_v35 main_v36 (maximumf : (⟨S4000, .f32⟩ : BufTy).Contents (Elt F) → (⟨S4000, .f32⟩ : BufTy).Contents (Elt F) → (⟨S4000, .f32⟩ : BufTy).Contents (Elt F)),
    nullary main_cst_12 (constant S_ .f32 0x3F800000#32),
    unary main_cst_12 main_v37 (broadcastInDim S4000 ![] bcast_S_S4000 : (⟨S_, .f32⟩ : BufTy).Contents (Elt F) → (⟨S4000, .f32⟩ : BufTy).Contents (Elt F)),
    binary main_v37 main_v36 main_v38 (Host.divf : (⟨S4000, .f32⟩ : BufTy).Contents (Elt F) → (⟨S4000, .f32⟩ : BufTy).Contents (Elt F) → (⟨S4000, .f32⟩ : BufTy).Contents (Elt F)),
    nullary main_cst_13 (constant S_ .f32 0x00000000#32),
    TRef.unary (TRef.of (T := ⟨S_, .f32⟩) main_cst_13) (TRef.of (T := ⟨S_, .f32⟩) main_call3_v0) id,
    TRef.unary (TRef.of (T := ⟨S_, .f32⟩) main_call3_v0) (TRef.of (T := ⟨S4000, .f32⟩) main_call3_v1) (broadcastInDim S4000 ![] bcast_S_S4000),
    TRef.ternary (TRef.of (T := ⟨S4000, .i1⟩) main_v34) (TRef.of (T := ⟨S4000, .f32⟩) main_v38) (TRef.of (T := ⟨S4000, .f32⟩) main_call3_v1) (TRef.of (T := ⟨S4000, .f32⟩) main_v39) select,
    nullary main_cst_14 (constant S_ .f32 0x00000000#32),
    binary main_v0 main_cst_14 main_v40 ((fun x v => Host.reduceAdd x v reducesTo_S4000x2000_S2000_d0 h_S_) : (⟨S4000x2000, .f32⟩ : BufTy).Contents (Elt F) → (⟨S_, .f32⟩ : BufTy).Contents (Elt F) → (⟨S2000, .f32⟩ : BufTy).Contents (Elt F)),
    nullary main_cst_15 (constant S_ .f32 0x00000000#32),
    unary main_cst_15 main_v41 (broadcastInDim S2000 ![] bcast_S_S2000 : (⟨S_, .f32⟩ : BufTy).Contents (Elt F) → (⟨S2000, .f32⟩ : BufTy).Contents (Elt F)),
    binary main_v40 main_v41 main_v42 (cmpf .ogt : (⟨S2000, .f32⟩ : BufTy).Contents (Elt F) → (⟨S2000, .f32⟩ : BufTy).Contents (Elt F) → (⟨S2000, .i1⟩ : BufTy).Contents (Elt F)) ]

set_option maxRecDepth 8192 in
/-- They touch only the device's own buffers. -/
theorem ops1_sub : (ops1 : List (HloOp τ sig (Elt F))).Forall fun op => op.bufs ⊆ tcRefs τ sig :=
  ⟨unary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub ..⟩

set_option maxRecDepth 8192 in
/-- Each determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers they write. -/
abbrev ops1_W : List (Ref sig .tc) := [main_v0, main_v1, main_cst, main_v2, main_cst_0, main_v3, main_v4, main_cst_1, main_v5, main_v6, main_cst_2, main_v7, main_v8, main_cst_3, main_call0_v0, main_call0_v1, main_v9, main_cst_4, main_v10, main_cst_5, main_v11, main_v12, main_cst_6, main_v13, main_v14, main_cst_7, main_v15, main_v16, main_cst_8, main_call1_v0, main_call1_v1, main_v17, main_v18, main_v19, main_v20, main_v21, main_v22, main_v23, main_v24, main_v25, main_v26, main_v27, main_v28, main_v29, main_v30, main_call2_cst, main_call2_v0, main_v31, main_cst_9, main_v32, main_cst_10, main_v33, main_v34, main_cst_11, main_v35, main_v36, main_cst_12, main_v37, main_v38, main_cst_13, main_call3_v0, main_call3_v1, main_v39, main_cst_14, main_v40, main_cst_15, main_v41, main_v42]

set_option maxRecDepth 8192 in
set_option maxHeartbeats 4000000 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer they do not write keeps its contents through them. -/
theorem keep1 (W : Valuation τ sig (Elt F)) (r : Ref sig .tc) (h : r ∉ ops1_W) :
    after ops1 W (Proc.devRef .tc r) = W (Proc.devRef .tc r) :=
  after_of_writes_sub ops1 _ ops1_writes h

set_option maxRecDepth 8192 in
set_option maxHeartbeats 4000000 in
/-- From the state before them to the state after them. -/
theorem step1 (V0 W : Valuation τ sig (Elt F)) (h : St0 V0 W) : St1 V0 (after ops1 W) where
  h_main_arg0 := (keep1 W main_arg0 (by decide)).trans h.h_main_arg0
  h_main_arg1 := (keep1 W main_arg1 (by decide)).trans h.h_main_arg1
  h_main_arg2 := (keep1 W main_arg2 (by decide)).trans h.h_main_arg2
  h_main_arg3 := (keep1 W main_arg3 (by decide)).trans h.h_main_arg3
  h_main_arg4 := (keep1 W main_arg4 (by decide)).trans h.h_main_arg4
  h_main_arg5 := (keep1 W main_arg5 (by decide)).trans h.h_main_arg5
  h_main_arg6 := (keep1 W main_arg6 (by decide)).trans h.h_main_arg6
  h_main_arg7 := (keep1 W main_arg7 (by decide)).trans h.h_main_arg7
  h_main_arg8 := (keep1 W main_arg8 (by decide)).trans h.h_main_arg8
  h_main_arg9 := (keep1 W main_arg9 (by decide)).trans h.h_main_arg9
  h_main_arg10 := (keep1 W main_arg10 (by decide)).trans h.h_main_arg10
  h_main_arg11 := (keep1 W main_arg11 (by decide)).trans h.h_main_arg11
  h_main_arg12 := (keep1 W main_arg12 (by decide)).trans h.h_main_arg12
  h_main_arg13 := (keep1 W main_arg13 (by decide)).trans h.h_main_arg13
  h_main_arg14 := (keep1 W main_arg14 (by decide)).trans h.h_main_arg14
  h_main_arg15 := (keep1 W main_arg15 (by decide)).trans h.h_main_arg15
  h_main_arg16 := (keep1 W main_arg16 (by decide)).trans h.h_main_arg16
  h_main_arg17 := (keep1 W main_arg17 (by decide)).trans h.h_main_arg17
  h_main_arg18 := (keep1 W main_arg18 (by decide)).trans h.h_main_arg18
  h_main_arg19 := (keep1 W main_arg19 (by decide)).trans h.h_main_arg19
  h_main_arg20 := (keep1 W main_arg20 (by decide)).trans h.h_main_arg20
  h_main_arg21 := (keep1 W main_arg21 (by decide)).trans h.h_main_arg21
  h_main_arg22 := (keep1 W main_arg22 (by decide)).trans h.h_main_arg22
  h_main_arg23 := (keep1 W main_arg23 (by decide)).trans h.h_main_arg23
  h_main_arg24 := (keep1 W main_arg24 (by decide)).trans h.h_main_arg24
  h_main_v0 := by
    simp only [ops1]
    after_results_simp
    simp only [h.h_main_arg2] <;> rfl
  h_main_v1 := by
    simp only [ops1]
    after_results_simp
    simp only [h.h_main_arg3] <;> rfl
  h_main_v31 := by
    simp only [ops1]
    after_results_simp
    simp only [h.h_main_arg8, h.h_main_arg2, h.h_main_arg7, h.h_main_arg0] <;> rfl
  h_main_v39 := by
    simp only [ops1]
    after_results_simp
    simp only [h.h_main_arg2] <;> rfl
  h_main_v40 := by
    simp only [ops1]
    after_results_simp
    simp only [h.h_main_arg2] <;> rfl
  h_main_v42 := by
    simp only [ops1]
    after_results_simp
    simp only [h.h_main_arg2] <;> rfl

end Cert.Proof.RefRun

end
-- ==== Proof.RefRun2.lean ====
/-
  The reference program's run, stretch 2 of 6: the operations 69 … 134 as a literal list, the buffers they
  write, and the step from the state before them to the state after them (each buffer still to be read holds its
  stage function of the arguments' launch contents).
-/
import proofs.«414035_j83562883711810_2_alg».proof.Proof.RefRun0

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations 69 … 134 of the program's 272, in order (a called function's operations stand in its call's place). -/
abbrev ops2 : List (HloOp τ sig (Elt F)) :=
  [ nullary main_cst_16 (constant S_ .f32 0x2B8CBCCC#32),
    unary main_cst_16 main_v43 (broadcastInDim S2000 ![] bcast_S_S2000 : (⟨S_, .f32⟩ : BufTy).Contents (Elt F) → (⟨S2000, .f32⟩ : BufTy).Contents (Elt F)),
    binary main_v40 main_v43 main_v44 (maximumf : (⟨S2000, .f32⟩ : BufTy).Contents (Elt F) → (⟨S2000, .f32⟩ : BufTy).Contents (Elt F) → (⟨S2000, .f32⟩ : BufTy).Contents (Elt F)),
    nullary main_cst_17 (constant S_ .f32 0x3F800000#32),
    unary main_cst_17 main_v45 (broadcastInDim S2000 ![] bcast_S_S2000 : (⟨S_, .f32⟩ : BufTy).Contents (Elt F) → (⟨S2000, .f32⟩ : BufTy).Contents (Elt F)),
    binary main_v45 main_v44 main_v46 (Host.divf : (⟨S2000, .f32⟩ : BufTy).Contents (Elt F) → (⟨S2000, .f32⟩ : BufTy).Contents (Elt F) → (⟨S2000, .f32⟩ : BufTy).Contents (Elt F)),
    nullary main_cst_18 (constant S_ .f32 0x00000000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S2000, .f32⟩) main_call4_v1) (broadcastInDim S2000 ![] bcast_S_S2000),
    TRef.ternary (TRef.of (T := ⟨S2000, .i1⟩) main_v42) (TRef.of (T := ⟨S2000, .f32⟩) main_v46) (TRef.of (T := ⟨S2000, .f32⟩) main_call4_v1) (TRef.of (T := ⟨S2000, .f32⟩) main_v47) select,
    binary main_v31 main_arg9 main_v48 ((fun l r => Host.dotGeneral dot_S4000x256_S256x256_S4000x256_1_0_0_1_n_n none l r) : (⟨S4000x256, .f32⟩ : BufTy).Contents (Elt F) → (⟨S256x256, .f32⟩ : BufTy).Contents (Elt F) → (⟨S4000x256, .f32⟩ : BufTy).Contents (Elt F)),
    unary main_v0 main_v49 ((transpose S2000x4000 [1, 0] · transposes_S4000x2000_S2000x4000_1_0) : (⟨S4000x2000, .f32⟩ : BufTy).Contents (Elt F) → (⟨S2000x4000, .f32⟩ : BufTy).Contents (Elt F)),
    binary main_v49 main_v48 main_v50 ((fun l r => Host.dotGeneral dot_S2000x4000_S4000x256_S2000x256_1_0_0_1_n_n none l r) : (⟨S2000x4000, .f32⟩ : BufTy).Contents (Elt F) → (⟨S4000x256, .f32⟩ : BufTy).Contents (Elt F) → (⟨S2000x256, .f32⟩ : BufTy).Contents (Elt F)),
    unary main_v47 main_v51 (broadcastInDim S2000x1 ![0] bcast_S2000_S2000x1_0 : (⟨S2000, .f32⟩ : BufTy).Contents (Elt F) → (⟨S2000x1, .f32⟩ : BufTy).Contents (Elt F)),
    unary main_v51 main_v52 (broadcastInDim S2000x256 ![0, 1] bcast_S2000x1_S2000x256_0_1 : (⟨S2000x1, .f32⟩ : BufTy).Contents (Elt F) → (⟨S2000x256, .f32⟩ : BufTy).Contents (Elt F)),
    binary main_v50 main_v52 main_v53 (mulf : (⟨S2000x256, .f32⟩ : BufTy).Contents (Elt F) → (⟨S2000x256, .f32⟩ : BufTy).Contents (Elt F) → (⟨S2000x256, .f32⟩ : BufTy).Contents (Elt F)),
    binary main_v0 main_v53 main_v54 ((fun l r => Host.dotGeneral dot_S4000x2000_S2000x256_S4000x256_1_0_0_1_n_n none l r) : (⟨S4000x2000, .f32⟩ : BufTy).Contents (Elt F) → (⟨S2000x256, .f32⟩ : BufTy).Contents (Elt F) → (⟨S4000x256, .f32⟩ : BufTy).Contents (Elt F)),
    unary main_v39 main_v55 (broadcastInDim S4000x1 ![0] bcast_S4000_S4000x1_0 : (⟨S4000, .f32⟩ : BufTy).Contents (Elt F) → (⟨S4000x1, .f32⟩ : BufTy).Contents (Elt F)),
    unary main_v55 main_v56 (broadcastInDim S4000x256 ![0, 1] bcast_S4000x1_S4000x256_0_1 : (⟨S4000x1, .f32⟩ : BufTy).Contents (Elt F) → (⟨S4000x256, .f32⟩ : BufTy).Contents (Elt F)),
    binary main_v54 main_v56 main_v57 (mulf : (⟨S4000x256, .f32⟩ : BufTy).Contents (Elt F) → (⟨S4000x256, .f32⟩ : BufTy).Contents (Elt F) → (⟨S4000x256, .f32⟩ : BufTy).Contents (Elt F)),
    unary main_arg10 main_v58 (broadcastInDim S1x256 ![1] bcast_S256_S1x256_1 : (⟨S256, .f32⟩ : BufTy).Contents (Elt F) → (⟨S1x256, .f32⟩ : BufTy).Contents (Elt F)),
    unary main_v58 main_v59 (broadcastInDim S4000x256 ![0, 1] bcast_S1x256_S4000x256_0_1 : (⟨S1x256, .f32⟩ : BufTy).Contents (Elt F) → (⟨S4000x256, .f32⟩ : BufTy).Contents (Elt F)),
    binary main_v57 main_v59 main_v60 (addf : (⟨S4000x256, .f32⟩ : BufTy).Contents (Elt F) → (⟨S4000x256, .f32⟩ : BufTy).Contents (Elt F) → (⟨S4000x256, .f32⟩ : BufTy).Contents (Elt F)),
    nullary main_cst_19 (constant S_ .f32 0x00000000#32),
    binary main_v1 main_cst_19 main_v61 ((fun x v => Host.reduceAdd x v reducesTo_S2000x1000_S2000_d1 h_S_) : (⟨S2000x1000, .f32⟩ : BufTy).Contents (Elt F) → (⟨S_, .f32⟩ : BufTy).Contents (Elt F) → (⟨S2000, .f32⟩ : BufTy).Contents (Elt F)),
    nullary main_cst_20 (constant S_ .f32 0x00000000#32),
    unary main_cst_20 main_v62 (broadcastInDim S2000 ![] bcast_S_S2000 : (⟨S_, .f32⟩ : BufTy).Contents (Elt F) → (⟨S2000, .f32⟩ : BufTy).Contents (Elt F)),
    binary main_v61 main_v62 main_v63 (cmpf .ogt : (⟨S2000, .f32⟩ : BufTy).Contents (Elt F) → (⟨S2000, .f32⟩ : BufTy).Contents (Elt F) → (⟨S2000, .i1⟩ : BufTy).Contents (Elt F)),
    nullary main_cst_21 (constant S_ .f32 0x2B8CBCCC#32),
    unary main_cst_21 main_v64 (broadcastInDim S2000 ![] bcast_S_S2000 : (⟨S_, .f32⟩ : BufTy).Contents (Elt F) → (⟨S2000, .f32⟩ : BufTy).Contents (Elt F)),
    binary main_v61 main_v64 main_v65 (maximumf : (⟨S2000, .f32⟩ : BufTy).Contents (Elt F) → (⟨S2000, .f32⟩ : BufTy).Contents (Elt F) → (⟨S2000, .f32⟩ : BufTy).Contents (Elt F)),
    nullary main_cst_22 (constant S_ .f32 0x3F800000#32),
    unary main_cst_22 main_v66 (broadcastInDim S2000 ![] bcast_S_S2000 : (⟨S_, .f32⟩ : BufTy).Contents (Elt F) → (⟨S2000, .f32⟩ : BufTy).Contents (Elt F)),
    binary main_v66 main_v65 main_v67 (Host.divf : (⟨S2000, .f32⟩ : BufTy).Contents (Elt F) → (⟨S2000, .f32⟩ : BufTy).Contents (Elt F) → (⟨S2000, .f32⟩ : BufTy).Contents (Elt F)),
    nullary main_cst_23 (constant S_ .f32 0x00000000#32),
    TRef.unary (TRef.of (T := ⟨S_, .f32⟩) main_cst_23) (TRef.of (T := ⟨S_, .f32⟩) main_call5_v0) id,
    TRef.unary (TRef.of (T := ⟨S_, .f32⟩) main_call5_v0) (TRef.of (T := ⟨S2000, .f32⟩) main_call5_v1) (broadcastInDim S2000 ![] bcast_S_S2000),
    TRef.ternary (TRef.of (T := ⟨S2000, .i1⟩) main_v63) (TRef.of (T := ⟨S2000, .f32⟩) main_v67) (TRef.of (T := ⟨S2000, .f32⟩) main_call5_v1) (TRef.of (T := ⟨S2000, .f32⟩) main_v68) select,
    nullary main_cst_24 (constant S_ .f32 0x00000000#32),
    binary main_v1 main_cst_24 main_v69 ((fun x v => Host.reduceAdd x v reducesTo_S2000x1000_S1000_d0 h_S_) : (⟨S2000x1000, .f32⟩ : BufTy).Contents (Elt F) → (⟨S_, .f32⟩ : BufTy).Contents (Elt F) → (⟨S1000, .f32⟩ : BufTy).Contents (Elt F)),
    nullary main_cst_25 (constant S_ .f32 0x00000000#32),
    unary main_cst_25 main_v70 (broadcastInDim S1000 ![] bcast_S_S1000 : (⟨S_, .f32⟩ : BufTy).Contents (Elt F) → (⟨S1000, .f32⟩ : BufTy).Contents (Elt F)),
    binary main_v69 main_v70 main_v71 (cmpf .ogt : (⟨S1000, .f32⟩ : BufTy).Contents (Elt F) → (⟨S1000, .f32⟩ : BufTy).Contents (Elt F) → (⟨S1000, .i1⟩ : BufTy).Contents (Elt F)),
    nullary main_cst_26 (constant S_ .f32 0x2B8CBCCC#32),
    unary main_cst_26 main_v72 (broadcastInDim S1000 ![] bcast_S_S1000 : (⟨S_, .f32⟩ : BufTy).Contents (Elt F) → (⟨S1000, .f32⟩ : BufTy).Contents (Elt F)),
    binary main_v69 main_v72 main_v73 (maximumf : (⟨S1000, .f32⟩ : BufTy).Contents (Elt F) → (⟨S1000, .f32⟩ : BufTy).Contents (Elt F) → (⟨S1000, .f32⟩ : BufTy).Contents (Elt F)),
    nullary main_cst_27 (constant S_ .f32 0x3F800000#32),
    unary main_cst_27 main_v74 (broadcastInDim S1000 ![] bcast_S_S1000 : (⟨S_, .f32⟩ : BufTy).Contents (Elt F) → (⟨S1000, .f32⟩ : BufTy).Contents (Elt F)),
    binary main_v74 main_v73 main_v75 (Host.divf : (⟨S1000, .f32⟩ : BufTy).Contents (Elt F) → (⟨S1000, .f32⟩ : BufTy).Contents (Elt F) → (⟨S1000, .f32⟩ : BufTy).Contents (Elt F)),
    nullary main_cst_28 (constant S_ .f32 0x00000000#32),
    TRef.unary (TRef.of (T := ⟨S_, .f32⟩) main_cst_28) (TRef.of (T := ⟨S_, .f32⟩) main_call6_v0) id,
    TRef.unary (TRef.of (T := ⟨S_, .f32⟩) main_call6_v0) (TRef.of (T := ⟨S1000, .f32⟩) main_call6_v1) (broadcastInDim S1000 ![] bcast_S_S1000),
    TRef.ternary (TRef.of (T := ⟨S1000, .i1⟩) main_v71) (TRef.of (T := ⟨S1000, .f32⟩) main_v75) (TRef.of (T := ⟨S1000, .f32⟩) main_call6_v1) (TRef.of (T := ⟨S1000, .f32⟩) main_v76) select,
    binary main_arg1 main_arg11 main_v77 ((fun l r => Host.dotGeneral dot_S2000x2000_S2000x256_S2000x256_1_0_0_1_n_n none l r) : (⟨S2000x2000, .f32⟩ : BufTy).Contents (Elt F) → (⟨S2000x256, .f32⟩ : BufTy).Contents (Elt F) → (⟨S2000x256, .f32⟩ : BufTy).Contents (Elt F)),
    unary main_v1 main_v78 ((transpose S1000x2000 [1, 0] · transposes_S2000x1000_S1000x2000_1_0) : (⟨S2000x1000, .f32⟩ : BufTy).Contents (Elt F) → (⟨S1000x2000, .f32⟩ : BufTy).Contents (Elt F)),
    binary main_v78 main_v77 main_v79 ((fun l r => Host.dotGeneral dot_S1000x2000_S2000x256_S1000x256_1_0_0_1_n_n none l r) : (⟨S1000x2000, .f32⟩ : BufTy).Contents (Elt F) → (⟨S2000x256, .f32⟩ : BufTy).Contents (Elt F) → (⟨S1000x256, .f32⟩ : BufTy).Contents (Elt F)),
    unary main_v76 main_v80 (broadcastInDim S1000x1 ![0] bcast_S1000_S1000x1_0 : (⟨S1000, .f32⟩ : BufTy).Contents (Elt F) → (⟨S1000x1, .f32⟩ : BufTy).Contents (Elt F)),
    unary main_v80 main_v81 (broadcastInDim S1000x256 ![0, 1] bcast_S1000x1_S1000x256_0_1 : (⟨S1000x1, .f32⟩ : BufTy).Contents (Elt F) → (⟨S1000x256, .f32⟩ : BufTy).Contents (Elt F)),
    binary main_v79 main_v81 main_v82 (mulf : (⟨S1000x256, .f32⟩ : BufTy).Contents (Elt F) → (⟨S1000x256, .f32⟩ : BufTy).Contents (Elt F) → (⟨S1000x256, .f32⟩ : BufTy).Contents (Elt F)),
    binary main_v1 main_v82 main_v83 ((fun l r => Host.dotGeneral dot_S2000x1000_S1000x256_S2000x256_1_0_0_1_n_n none l r) : (⟨S2000x1000, .f32⟩ : BufTy).Contents (Elt F) → (⟨S1000x256, .f32⟩ : BufTy).Contents (Elt F) → (⟨S2000x256, .f32⟩ : BufTy).Contents (Elt F)),
    unary main_v68 main_v84 (broadcastInDim S2000x1 ![0] bcast_S2000_S2000x1_0 : (⟨S2000, .f32⟩ : BufTy).Contents (Elt F) → (⟨S2000x1, .f32⟩ : BufTy).Contents (Elt F)),
    unary main_v84 main_v85 (broadcastInDim S2000x256 ![0, 1] bcast_S2000x1_S2000x256_0_1 : (⟨S2000x1, .f32⟩ : BufTy).Contents (Elt F) → (⟨S2000x256, .f32⟩ : BufTy).Contents (Elt F)),
    binary main_v83 main_v85 main_v86 (mulf : (⟨S2000x256, .f32⟩ : BufTy).Contents (Elt F) → (⟨S2000x256, .f32⟩ : BufTy).Contents (Elt F) → (⟨S2000x256, .f32⟩ : BufTy).Contents (Elt F)),
    unary main_arg12 main_v87 (broadcastInDim S1x256 ![1] bcast_S256_S1x256_1 : (⟨S256, .f32⟩ : BufTy).Contents (Elt F) → (⟨S1x256, .f32⟩ : BufTy).Contents (Elt F)),
    unary main_v87 main_v88 (broadcastInDim S2000x256 ![0, 1] bcast_S1x256_S2000x256_0_1 : (⟨S1x256, .f32⟩ : BufTy).Contents (Elt F) → (⟨S2000x256, .f32⟩ : BufTy).Contents (Elt F)),
    binary main_v86 main_v88 main_v89 (addf : (⟨S2000x256, .f32⟩ : BufTy).Contents (Elt F) → (⟨S2000x256, .f32⟩ : BufTy).Contents (Elt F) → (⟨S2000x256, .f32⟩ : BufTy).Contents (Elt F)) ]

set_option maxRecDepth 8192 in
/-- They touch only the device's own buffers. -/
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub ..⟩

set_option maxRecDepth 8192 in
/-- Each determines its result. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers they write. -/
abbrev ops2_W : List (Ref sig .tc) := [main_cst_16, main_v43, main_v44, main_cst_17, main_v45, main_v46, main_cst_18, main_call4_v0, main_call4_v1, main_v47, main_v48, main_v49, main_v50, main_v51, main_v52, main_v53, main_v54, main_v55, main_v56, main_v57, main_v58, main_v59, main_v60, main_cst_19, main_v61, main_cst_20, main_v62, main_v63, main_cst_21, main_v64, main_v65, main_cst_22, main_v66, main_v67, main_cst_23, main_call5_v0, main_call5_v1, main_v68, main_cst_24, main_v69, main_cst_25, main_v70, main_v71, main_cst_26, main_v72, main_v73, main_cst_27, main_v74, main_v75, main_cst_28, main_call6_v0, main_call6_v1, main_v76, main_v77, main_v78, main_v79, main_v80, main_v81, main_v82, main_v83, main_v84, main_v85, main_v86, main_v87, main_v88, main_v89]

set_option maxRecDepth 8192 in
set_option maxHeartbeats 4000000 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer they do not write keeps its contents through them. -/
theorem keep2 (W : Valuation τ sig (Elt F)) (r : Ref sig .tc) (h : r ∉ ops2_W) :
    after ops2 W (Proc.devRef .tc r) = W (Proc.devRef .tc r) :=
  after_of_writes_sub ops2 _ ops2_writes h

set_option maxRecDepth 8192 in
set_option maxHeartbeats 4000000 in
/-- From the state before them to the state after them. -/
theorem step2 (V0 W : Valuation τ sig (Elt F)) (h : St1 V0 W) : St2 V0 (after ops2 W) where
  h_main_arg0 := (keep2 W main_arg0 (by decide)).trans h.h_main_arg0
  h_main_arg1 := (keep2 W main_arg1 (by decide)).trans h.h_main_arg1
  h_main_arg2 := (keep2 W main_arg2 (by decide)).trans h.h_main_arg2
  h_main_arg3 := (keep2 W main_arg3 (by decide)).trans h.h_main_arg3
  h_main_arg4 := (keep2 W main_arg4 (by decide)).trans h.h_main_arg4
  h_main_arg5 := (keep2 W main_arg5 (by decide)).trans h.h_main_arg5
  h_main_arg6 := (keep2 W main_arg6 (by decide)).trans h.h_main_arg6
  h_main_arg7 := (keep2 W main_arg7 (by decide)).trans h.h_main_arg7
  h_main_arg8 := (keep2 W main_arg8 (by decide)).trans h.h_main_arg8
  h_main_arg9 := (keep2 W main_arg9 (by decide)).trans h.h_main_arg9
  h_main_arg10 := (keep2 W main_arg10 (by decide)).trans h.h_main_arg10
  h_main_arg11 := (keep2 W main_arg11 (by decide)).trans h.h_main_arg11
  h_main_arg12 := (keep2 W main_arg12 (by decide)).trans h.h_main_arg12
  h_main_arg13 := (keep2 W main_arg13 (by decide)).trans h.h_main_arg13
  h_main_arg14 := (keep2 W main_arg14 (by decide)).trans h.h_main_arg14
  h_main_arg15 := (keep2 W main_arg15 (by decide)).trans h.h_main_arg15
  h_main_arg16 := (keep2 W main_arg16 (by decide)).trans h.h_main_arg16
  h_main_arg17 := (keep2 W main_arg17 (by decide)).trans h.h_main_arg17
  h_main_arg18 := (keep2 W main_arg18 (by decide)).trans h.h_main_arg18
  h_main_arg19 := (keep2 W main_arg19 (by decide)).trans h.h_main_arg19
  h_main_arg20 := (keep2 W main_arg20 (by decide)).trans h.h_main_arg20
  h_main_arg21 := (keep2 W main_arg21 (by decide)).trans h.h_main_arg21
  h_main_arg22 := (keep2 W main_arg22 (by decide)).trans h.h_main_arg22
  h_main_arg23 := (keep2 W main_arg23 (by decide)).trans h.h_main_arg23
  h_main_arg24 := (keep2 W main_arg24 (by decide)).trans h.h_main_arg24
  h_main_v1 := (keep2 W main_v1 (by decide)).trans h.h_main_v1
  h_main_v60 := by
    simp only [ops2]
    after_results_simp
    simp only [h.h_main_arg10, h.h_main_v39, h.h_main_v40, h.h_main_v42, h.h_main_arg9, h.h_main_v31, h.h_main_v0] <;> rfl
  h_main_v89 := by
    simp only [ops2]
    after_results_simp
    simp only [h.h_main_arg12, h.h_main_v1, h.h_main_arg11, h.h_main_arg1] <;> rfl

end Cert.Proof.RefRun

end
-- ==== Proof.RefRun3.lean ====
/-
  The reference program's run, stretch 3 of 6: the operations 135 … 180 as a literal list, the buffers they
  write, and the step from the state before them to the state after them (each buffer still to be read holds its
  stage function of the arguments' launch contents).
-/
import proofs.«414035_j83562883711810_2_alg».proof.Proof.RefRun0

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations 135 … 180 of the program's 272, in order (a called function's operations stand in its call's place). -/
abbrev ops3 : List (HloOp τ sig (Elt F)) :=
  [ TRef.nullary (TRef.of (T := ⟨S_, .f32⟩) main_call7_cst) (constant S_ .f32 0x00000000#32),
    TRef.unary (TRef.of (T := ⟨S_, .f32⟩) main_call7_cst) (TRef.of (T := ⟨S2000x256, .f32⟩) main_call7_v0) (broadcastInDim S2000x256 ![] bcast_S_S2000x256),
    TRef.binary (TRef.of (T := ⟨S2000x256, .f32⟩) main_v89) (TRef.of (T := ⟨S2000x256, .f32⟩) main_call7_v0) (TRef.of (T := ⟨S2000x256, .f32⟩) main_v90) maximumf,
    nullary main_cst_29 (constant S_ .f32 0x00000000#32),
    binary main_v1 main_cst_29 main_v91 ((fun x v => Host.reduceAdd x v reducesTo_S2000x1000_S2000_d1 h_S_) : (⟨S2000x1000, .f32⟩ : BufTy).Contents (Elt F) → (⟨S_, .f32⟩ : BufTy).Contents (Elt F) → (⟨S2000, .f32⟩ : BufTy).Contents (Elt F)),
    nullary main_cst_30 (constant S_ .f32 0x00000000#32),
    unary main_cst_30 main_v92 (broadcastInDim S2000 ![] bcast_S_S2000 : (⟨S_, .f32⟩ : BufTy).Contents (Elt F) → (⟨S2000, .f32⟩ : BufTy).Contents (Elt F)),
    binary main_v91 main_v92 main_v93 (cmpf .ogt : (⟨S2000, .f32⟩ : BufTy).Contents (Elt F) → (⟨S2000, .f32⟩ : BufTy).Contents (Elt F) → (⟨S2000, .i1⟩ : BufTy).Contents (Elt F)),
    nullary main_cst_31 (constant S_ .f32 0x2B8CBCCC#32),
    unary main_cst_31 main_v94 (broadcastInDim S2000 ![] bcast_S_S2000 : (⟨S_, .f32⟩ : BufTy).Contents (Elt F) → (⟨S2000, .f32⟩ : BufTy).Contents (Elt F)),
    binary main_v91 main_v94 main_v95 (maximumf : (⟨S2000, .f32⟩ : BufTy).Contents (Elt F) → (⟨S2000, .f32⟩ : BufTy).Contents (Elt F) → (⟨S2000, .f32⟩ : BufTy).Contents (Elt F)),
    nullary main_cst_32 (constant S_ .f32 0x3F800000#32),
    unary main_cst_32 main_v96 (broadcastInDim S2000 ![] bcast_S_S2000 : (⟨S_, .f32⟩ : BufTy).Contents (Elt F) → (⟨S2000, .f32⟩ : BufTy).Contents (Elt F)),
    binary main_v96 main_v95 main_v97 (Host.divf : (⟨S2000, .f32⟩ : BufTy).Contents (Elt F) → (⟨S2000, .f32⟩ : BufTy).Contents (Elt F) → (⟨S2000, .f32⟩ : BufTy).Contents (Elt F)),
    nullary main_cst_33 (constant S_ .f32 0x00000000#32),
    TRef.unary (TRef.of (T := ⟨S_, .f32⟩) main_cst_33) (TRef.of (T := ⟨S_, .f32⟩) main_call8_v0) id,
    TRef.unary (TRef.of (T := ⟨S_, .f32⟩) main_call8_v0) (TRef.of (T := ⟨S2000, .f32⟩) main_call8_v1) (broadcastInDim S2000 ![] bcast_S_S2000),
    TRef.ternary (TRef.of (T := ⟨S2000, .i1⟩) main_v93) (TRef.of (T := ⟨S2000, .f32⟩) main_v97) (TRef.of (T := ⟨S2000, .f32⟩) main_call8_v1) (TRef.of (T := ⟨S2000, .f32⟩) main_v98) select,
    nullary main_cst_34 (constant S_ .f32 0x00000000#32),
    binary main_v1 main_cst_34 main_v99 ((fun x v => Host.reduceAdd x v reducesTo_S2000x1000_S1000_d0 h_S_) : (⟨S2000x1000, .f32⟩ : BufTy).Contents (Elt F) → (⟨S_, .f32⟩ : BufTy).Contents (Elt F) → (⟨S1000, .f32⟩ : BufTy).Contents (Elt F)),
    nullary main_cst_35 (constant S_ .f32 0x00000000#32),
    unary main_cst_35 main_v100 (broadcastInDim S1000 ![] bcast_S_S1000 : (⟨S_, .f32⟩ : BufTy).Contents (Elt F) → (⟨S1000, .f32⟩ : BufTy).Contents (Elt F)),
    binary main_v99 main_v100 main_v101 (cmpf .ogt : (⟨S1000, .f32⟩ : BufTy).Contents (Elt F) → (⟨S1000, .f32⟩ : BufTy).Contents (Elt F) → (⟨S1000, .i1⟩ : BufTy).Contents (Elt F)),
    nullary main_cst_36 (constant S_ .f32 0x2B8CBCCC#32),
    unary main_cst_36 main_v102 (broadcastInDim S1000 ![] bcast_S_S1000 : (⟨S_, .f32⟩ : BufTy).Contents (Elt F) → (⟨S1000, .f32⟩ : BufTy).Contents (Elt F)),
    binary main_v99 main_v102 main_v103 (maximumf : (⟨S1000, .f32⟩ : BufTy).Contents (Elt F) → (⟨S1000, .f32⟩ : BufTy).Contents (Elt F) → (⟨S1000, .f32⟩ : BufTy).Contents (Elt F)),
    nullary main_cst_37 (constant S_ .f32 0x3F800000#32),
    unary main_cst_37 main_v104 (broadcastInDim S1000 ![] bcast_S_S1000 : (⟨S_, .f32⟩ : BufTy).Contents (Elt F) → (⟨S1000, .f32⟩ : BufTy).Contents (Elt F)),
    binary main_v104 main_v103 main_v105 (Host.divf : (⟨S1000, .f32⟩ : BufTy).Contents (Elt F) → (⟨S1000, .f32⟩ : BufTy).Contents (Elt F) → (⟨S1000, .f32⟩ : BufTy).Contents (Elt F)),
    nullary main_cst_38 (constant S_ .f32 0x00000000#32),
    TRef.unary (TRef.of (T := ⟨S_, .f32⟩) main_cst_38) (TRef.of (T := ⟨S_, .f32⟩) main_call9_v0) id,
    TRef.unary (TRef.of (T := ⟨S_, .f32⟩) main_call9_v0) (TRef.of (T := ⟨S1000, .f32⟩) main_call9_v1) (broadcastInDim S1000 ![] bcast_S_S1000),
    TRef.ternary (TRef.of (T := ⟨S1000, .i1⟩) main_v101) (TRef.of (T := ⟨S1000, .f32⟩) main_v105) (TRef.of (T := ⟨S1000, .f32⟩) main_call9_v1) (TRef.of (T := ⟨S1000, .f32⟩) main_v106) select,
    binary main_v90 main_arg13 main_v107 ((fun l r => Host.dotGeneral dot_S2000x256_S256x256_S2000x256_1_0_0_1_n_n none l r) : (⟨S2000x256, .f32⟩ : BufTy).Contents (Elt F) → (⟨S256x256, .f32⟩ : BufTy).Contents (Elt F) → (⟨S2000x256, .f32⟩ : BufTy).Contents (Elt F)),
    unary main_v1 main_v108 ((transpose S1000x2000 [1, 0] · transposes_S2000x1000_S1000x2000_1_0) : (⟨S2000x1000, .f32⟩ : BufTy).Contents (Elt F) → (⟨S1000x2000, .f32⟩ : BufTy).Contents (Elt F)),
    binary main_v108 main_v107 main_v109 ((fun l r => Host.dotGeneral dot_S1000x2000_S2000x256_S1000x256_1_0_0_1_n_n none l r) : (⟨S1000x2000, .f32⟩ : BufTy).Contents (Elt F) → (⟨S2000x256, .f32⟩ : BufTy).Contents (Elt F) → (⟨S1000x256, .f32⟩ : BufTy).Contents (Elt F)),
    unary main_v106 main_v110 (broadcastInDim S1000x1 ![0] bcast_S1000_S1000x1_0 : (⟨S1000, .f32⟩ : BufTy).Contents (Elt F) → (⟨S1000x1, .f32⟩ : BufTy).Contents (Elt F)),
    unary main_v110 main_v111 (broadcastInDim S1000x256 ![0, 1] bcast_S1000x1_S1000x256_0_1 : (⟨S1000x1, .f32⟩ : BufTy).Contents (Elt F) → (⟨S1000x256, .f32⟩ : BufTy).Contents (Elt F)),
    binary main_v109 main_v111 main_v112 (mulf : (⟨S1000x256, .f32⟩ : BufTy).Contents (Elt F) → (⟨S1000x256, .f32⟩ : BufTy).Contents (Elt F) → (⟨S1000x256, .f32⟩ : BufTy).Contents (Elt F)),
    binary main_v1 main_v112 main_v113 ((fun l r => Host.dotGeneral dot_S2000x1000_S1000x256_S2000x256_1_0_0_1_n_n none l r) : (⟨S2000x1000, .f32⟩ : BufTy).Contents (Elt F) → (⟨S1000x256, .f32⟩ : BufTy).Contents (Elt F) → (⟨S2000x256, .f32⟩ : BufTy).Contents (Elt F)),
    unary main_v98 main_v114 (broadcastInDim S2000x1 ![0] bcast_S2000_S2000x1_0 : (⟨S2000, .f32⟩ : BufTy).Contents (Elt F) → (⟨S2000x1, .f32⟩ : BufTy).Contents (Elt F)),
    unary main_v114 main_v115 (broadcastInDim S2000x256 ![0, 1] bcast_S2000x1_S2000x256_0_1 : (⟨S2000x1, .f32⟩ : BufTy).Contents (Elt F) → (⟨S2000x256, .f32⟩ : BufTy).Contents (Elt F)),
    binary main_v113 main_v115 main_v116 (mulf : (⟨S2000x256, .f32⟩ : BufTy).Contents (Elt F) → (⟨S2000x256, .f32⟩ : BufTy).Contents (Elt F) → (⟨S2000x256, .f32⟩ : BufTy).Contents (Elt F)),
    unary main_arg14 main_v117 (broadcastInDim S1x256 ![1] bcast_S256_S1x256_1 : (⟨S256, .f32⟩ : BufTy).Contents (Elt F) → (⟨S1x256, .f32⟩ : BufTy).Contents (Elt F)),
    unary main_v117 main_v118 (broadcastInDim S2000x256 ![0, 1] bcast_S1x256_S2000x256_0_1 : (⟨S1x256, .f32⟩ : BufTy).Contents (Elt F) → (⟨S2000x256, .f32⟩ : BufTy).Contents (Elt F)),
    binary main_v116 main_v118 main_v119 (addf : (⟨S2000x256, .f32⟩ : BufTy).Contents (Elt F) → (⟨S2000x256, .f32⟩ : BufTy).Contents (Elt F) → (⟨S2000x256, .f32⟩ : BufTy).Contents (Elt F)) ]

set_option maxRecDepth 8192 in
/-- They touch only the device's own buffers. -/
theorem ops3_sub : (ops3 : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub ..⟩

set_option maxRecDepth 8192 in
/-- Each determines its result. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers they write. -/
abbrev ops3_W : List (Ref sig .tc) := [main_call7_cst, main_call7_v0, main_v90, main_cst_29, main_v91, main_cst_30, main_v92, main_v93, main_cst_31, main_v94, main_v95, main_cst_32, main_v96, main_v97, main_cst_33, main_call8_v0, main_call8_v1, main_v98, main_cst_34, main_v99, main_cst_35, main_v100, main_v101, main_cst_36, main_v102, main_v103, main_cst_37, main_v104, main_v105, main_cst_38, main_call9_v0, main_call9_v1, main_v106, main_v107, main_v108, main_v109, main_v110, main_v111, main_v112, main_v113, main_v114, main_v115, main_v116, main_v117, main_v118, main_v119]

set_option maxRecDepth 8192 in
set_option maxHeartbeats 4000000 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer they do not write keeps its contents through them. -/
theorem keep3 (W : Valuation τ sig (Elt F)) (r : Ref sig .tc) (h : r ∉ ops3_W) :
    after ops3 W (Proc.devRef .tc r) = W (Proc.devRef .tc r) :=
  after_of_writes_sub ops3 _ ops3_writes h

set_option maxRecDepth 8192 in
set_option maxHeartbeats 4000000 in
/-- From the state before them to the state after them. -/
theorem step3 (V0 W : Valuation τ sig (Elt F)) (h : St2 V0 W) : St3 V0 (after ops3 W) where
  h_main_arg0 := (keep3 W main_arg0 (by decide)).trans h.h_main_arg0
  h_main_arg1 := (keep3 W main_arg1 (by decide)).trans h.h_main_arg1
  h_main_arg2 := (keep3 W main_arg2 (by decide)).trans h.h_main_arg2
  h_main_arg3 := (keep3 W main_arg3 (by decide)).trans h.h_main_arg3
  h_main_arg4 := (keep3 W main_arg4 (by decide)).trans h.h_main_arg4
  h_main_arg5 := (keep3 W main_arg5 (by decide)).trans h.h_main_arg5
  h_main_arg6 := (keep3 W main_arg6 (by decide)).trans h.h_main_arg6
  h_main_arg7 := (keep3 W main_arg7 (by decide)).trans h.h_main_arg7
  h_main_arg8 := (keep3 W main_arg8 (by decide)).trans h.h_main_arg8
  h_main_arg9 := (keep3 W main_arg9 (by decide)).trans h.h_main_arg9
  h_main_arg10 := (keep3 W main_arg10 (by decide)).trans h.h_main_arg10
  h_main_arg11 := (keep3 W main_arg11 (by decide)).trans h.h_main_arg11
  h_main_arg12 := (keep3 W main_arg12 (by decide)).trans h.h_main_arg12
  h_main_arg13 := (keep3 W main_arg13 (by decide)).trans h.h_main_arg13
  h_main_arg14 := (keep3 W main_arg14 (by decide)).trans h.h_main_arg14
  h_main_arg15 := (keep3 W main_arg15 (by decide)).trans h.h_main_arg15
  h_main_arg16 := (keep3 W main_arg16 (by decide)).trans h.h_main_arg16
  h_main_arg17 := (keep3 W main_arg17 (by decide)).trans h.h_main_arg17
  h_main_arg18 := (keep3 W main_arg18 (by decide)).trans h.h_main_arg18
  h_main_arg19 := (keep3 W main_arg19 (by decide)).trans h.h_main_arg19
  h_main_arg20 := (keep3 W main_arg20 (by decide)).trans h.h_main_arg20
  h_main_arg21 := (keep3 W main_arg21 (by decide)).trans h.h_main_arg21
  h_main_arg22 := (keep3 W main_arg22 (by decide)).trans h.h_main_arg22
  h_main_arg23 := (keep3 W main_arg23 (by decide)).trans h.h_main_arg23
  h_main_arg24 := (keep3 W main_arg24 (by decide)).trans h.h_main_arg24
  h_main_v60 := (keep3 W main_v60 (by decide)).trans h.h_main_v60
  h_main_v119 := by
    simp only [ops3]
    after_results_simp
    simp only [h.h_main_arg14, h.h_main_v1, h.h_main_arg13, h.h_main_v89] <;> rfl

end Cert.Proof.RefRun

end
-- ==== Proof.RefRun4.lean ====
/-
  The reference program's run, stretch 4 of 6: the operations 181 … 202 as a literal list, the buffers they
  write, and the step from the state before them to the state after them (each buffer still to be read holds its
  stage function of the arguments' launch contents).
-/
import proofs.«414035_j83562883711810_2_alg».proof.Proof.RefRun0

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations 181 … 202 of the program's 272, in order (a called function's operations stand in its call's place). -/
abbrev ops4 : List (HloOp τ sig (Elt F)) :=
  [ binary main_v60 main_v119 main_v120 ((fun a b => concatenate S6000x256 0 [⟨S4000x256, a⟩, ⟨S2000x256, b⟩] concatenates_S4000x256_S2000x256_S6000x256_d0) : (⟨S4000x256, .f32⟩ : BufTy).Contents (Elt F) → (⟨S2000x256, .f32⟩ : BufTy).Contents (Elt F) → (⟨S6000x256, .f32⟩ : BufTy).Contents (Elt F)),
    nullary main_cst_39 (constant S_ .f32 0x00000000#32),
    binary main_arg4 main_cst_39 main_v121 ((fun x v => Host.reduceAdd x v reducesTo_S6000x6000_S6000_d1 h_S_) : (⟨S6000x6000, .f32⟩ : BufTy).Contents (Elt F) → (⟨S_, .f32⟩ : BufTy).Contents (Elt F) → (⟨S6000, .f32⟩ : BufTy).Contents (Elt F)),
    nullary main_cst_40 (constant S_ .f32 0x3F800000#32),
    TRef.unary (TRef.of (T := ⟨S_, .f32⟩) main_cst_40) (TRef.of (T := ⟨S_, .f32⟩) main_call10_v0) id,
    TRef.unary (TRef.of (T := ⟨S_, .f32⟩) main_call10_v0) (TRef.of (T := ⟨S6000, .f32⟩) main_call10_v1) (broadcastInDim S6000 ![] bcast_S_S6000),
    TRef.binary (TRef.of (T := ⟨S6000, .f32⟩) main_call10_v1) (TRef.of (T := ⟨S6000, .f32⟩) main_v121) (TRef.of (T := ⟨S6000, .f32⟩) main_v122) maximumf,
    nullary main_cst_41 (constant S_ .f32 0xBF000000#32),
    unary main_cst_41 main_v123 (broadcastInDim S6000 ![] bcast_S_S6000 : (⟨S_, .f32⟩ : BufTy).Contents (Elt F) → (⟨S6000, .f32⟩ : BufTy).Contents (Elt F)),
    binary main_v122 main_v123 main_v124 (Host.powf : (⟨S6000, .f32⟩ : BufTy).Contents (Elt F) → (⟨S6000, .f32⟩ : BufTy).Contents (Elt F) → (⟨S6000, .f32⟩ : BufTy).Contents (Elt F)),
    unary main_v124 main_v125 (broadcastInDim S6000x1 ![0] bcast_S6000_S6000x1_0 : (⟨S6000, .f32⟩ : BufTy).Contents (Elt F) → (⟨S6000x1, .f32⟩ : BufTy).Contents (Elt F)),
    binary main_v120 main_arg15 main_v126 ((fun l r => Host.dotGeneral dot_S6000x256_S256x256_S6000x256_1_0_0_1_n_n none l r) : (⟨S6000x256, .f32⟩ : BufTy).Contents (Elt F) → (⟨S256x256, .f32⟩ : BufTy).Contents (Elt F) → (⟨S6000x256, .f32⟩ : BufTy).Contents (Elt F)),
    unary main_arg16 main_v127 (broadcastInDim S1x256 ![1] bcast_S256_S1x256_1 : (⟨S256, .f32⟩ : BufTy).Contents (Elt F) → (⟨S1x256, .f32⟩ : BufTy).Contents (Elt F)),
    unary main_v127 main_v128 (broadcastInDim S6000x256 ![0, 1] bcast_S1x256_S6000x256_0_1 : (⟨S1x256, .f32⟩ : BufTy).Contents (Elt F) → (⟨S6000x256, .f32⟩ : BufTy).Contents (Elt F)),
    binary main_v126 main_v128 main_v129 (addf : (⟨S6000x256, .f32⟩ : BufTy).Contents (Elt F) → (⟨S6000x256, .f32⟩ : BufTy).Contents (Elt F) → (⟨S6000x256, .f32⟩ : BufTy).Contents (Elt F)),
    unary main_arg4 main_v130 ((transpose S6000x6000 [1, 0] · transposes_S6000x6000_S6000x6000_1_0) : (⟨S6000x6000, .f32⟩ : BufTy).Contents (Elt F) → (⟨S6000x6000, .f32⟩ : BufTy).Contents (Elt F)),
    unary main_v125 main_v131 (broadcastInDim S6000x256 ![0, 1] bcast_S6000x1_S6000x256_0_1 : (⟨S6000x1, .f32⟩ : BufTy).Contents (Elt F) → (⟨S6000x256, .f32⟩ : BufTy).Contents (Elt F)),
    binary main_v120 main_v131 main_v132 (mulf : (⟨S6000x256, .f32⟩ : BufTy).Contents (Elt F) → (⟨S6000x256, .f32⟩ : BufTy).Contents (Elt F) → (⟨S6000x256, .f32⟩ : BufTy).Contents (Elt F)),
    binary main_v130 main_v132 main_v133 ((fun l r => Host.dotGeneral dot_S6000x6000_S6000x256_S6000x256_1_0_0_1_n_n none l r) : (⟨S6000x6000, .f32⟩ : BufTy).Contents (Elt F) → (⟨S6000x256, .f32⟩ : BufTy).Contents (Elt F) → (⟨S6000x256, .f32⟩ : BufTy).Contents (Elt F)),
    unary main_v125 main_v134 (broadcastInDim S6000x256 ![0, 1] bcast_S6000x1_S6000x256_0_1 : (⟨S6000x1, .f32⟩ : BufTy).Contents (Elt F) → (⟨S6000x256, .f32⟩ : BufTy).Contents (Elt F)),
    binary main_v133 main_v134 main_v135 (mulf : (⟨S6000x256, .f32⟩ : BufTy).Contents (Elt F) → (⟨S6000x256, .f32⟩ : BufTy).Contents (Elt F) → (⟨S6000x256, .f32⟩ : BufTy).Contents (Elt F)),
    binary main_v135 main_arg15 main_v136 ((fun l r => Host.dotGeneral dot_S6000x256_S256x256_S6000x256_1_0_0_1_n_n none l r) : (⟨S6000x256, .f32⟩ : BufTy).Contents (Elt F) → (⟨S256x256, .f32⟩ : BufTy).Contents (Elt F) → (⟨S6000x256, .f32⟩ : BufTy).Contents (Elt F)) ]

set_option maxRecDepth 8192 in
/-- They touch only the device's own buffers. -/
theorem ops4_sub : (ops4 : List (HloOp τ sig (Elt F))).Forall fun op => op.bufs ⊆ tcRefs τ sig :=
  ⟨binary_bufs_sub .., nullary_bufs_sub .., binary_bufs_sub .., nullary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., binary_bufs_sub .., unary_bufs_sub .., binary_bufs_sub .., binary_bufs_sub ..⟩

set_option maxRecDepth 8192 in
/-- Each determines its result. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The buffers they write. -/
abbrev ops4_W : List (Ref sig .tc) := [main_v120, main_cst_39, main_v121, main_cst_40, main_call10_v0, main_call10_v1, main_v122, main_cst_41, main_v123, main_v124, main_v125, main_v126, main_v127, main_v128, main_v129, main_v130, main_v131, main_v132, main_v133, main_v134, main_v135, main_v136]

set_option maxRecDepth 8192 in
set_option maxHeartbeats 4000000 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer they do not write keeps its contents through them. -/
theorem keep4 (W : Valuation τ sig (Elt F)) (r : Ref sig .tc) (h : r ∉ ops4_W) :
    after ops4 W (Proc.devRef .tc r) = W (Proc.devRef .tc r) :=
  after_of_writes_sub ops4 _ ops4_writes h

set_option maxRecDepth 8192 in
set_option maxHeartbeats 4000000 in
/-- From the state before them to the state after them. -/
theorem step4 (V0 W : Valuation τ sig (Elt F)) (h : St3 V0 W) : St4 V0 (after ops4 W) where
  h_main_arg0 := (keep4 W main_arg0 (by decide)).trans h.h_main_arg0
  h_main_arg1 := (keep4 W main_arg1 (by decide)).trans h.h_main_arg1
  h_main_arg2 := (keep4 W main_arg2 (by decide)).trans h.h_main_arg2
  h_main_arg3 := (keep4 W main_arg3 (by decide)).trans h.h_main_arg3
  h_main_arg4 := (keep4 W main_arg4 (by decide)).trans h.h_main_arg4
  h_main_arg5 := (keep4 W main_arg5 (by decide)).trans h.h_main_arg5
  h_main_arg6 := (keep4 W main_arg6 (by decide)).trans h.h_main_arg6
  h_main_arg7 := (keep4 W main_arg7 (by decide)).trans h.h_main_arg7
  h_main_arg8 := (keep4 W main_arg8 (by decide)).trans h.h_main_arg8
  h_main_arg9 := (keep4 W main_arg9 (by decide)).trans h.h_main_arg9
  h_main_arg10 := (keep4 W main_arg10 (by decide)).trans h.h_main_arg10
  h_main_arg11 := (keep4 W main_arg11 (by decide)).trans h.h_main_arg11
  h_main_arg12 := (keep4 W main_arg12 (by decide)).trans h.h_main_arg12
  h_main_arg13 := (keep4 W main_arg13 (by decide)).trans h.h_main_arg13
  h_main_arg14 := (keep4 W main_arg14 (by decide)).trans h.h_main_arg14
  h_main_arg15 := (keep4 W main_arg15 (by decide)).trans h.h_main_arg15
  h_main_arg16 := (keep4 W main_arg16 (by decide)).trans h.h_main_arg16
  h_main_arg17 := (keep4 W main_arg17 (by decide)).trans h.h_main_arg17
  h_main_arg18 := (keep4 W main_arg18 (by decide)).trans h.h_main_arg18
  h_main_arg19 := (keep4 W main_arg19 (by decide)).trans h.h_main_arg19
  h_main_arg20 := (keep4 W main_arg20 (by decide)).trans h.h_main_arg20
  h_main_arg21 := (keep4 W main_arg21 (by decide)).trans h.h_main_arg21
  h_main_arg22 := (keep4 W main_arg22 (by decide)).trans h.h_main_arg22
  h_main_arg23 := (keep4 W main_arg23 (by decide)).trans h.h_main_arg23
  h_main_arg24 := (keep4 W main_arg24 (by decide)).trans h.h_main_arg24
  h_main_v125 := by
    simp only [ops4]
    after_results_simp
    all_goals (try simp only [h.h_main_arg4])
    all_goals rfl
  h_main_v129 := by
    simp only [ops4]
    after_results_simp
    all_goals (try simp only [h.h_main_arg16, h.h_main_arg15, h.h_main_v119, h.h_main_v60])
    all_goals (repeat (first | rw [h.h_main_v119] | rw [h.h_main_v60]))
    all_goals rfl
  h_main_v135 := by
    simp only [ops4]
    after_results_simp
    all_goals (try simp only [h.h_main_arg4, h.h_main_v119, h.h_main_v60])
    all_goals (repeat (first | rw [h.h_main_v119] | rw [h.h_main_v60]))
    all_goals rfl
  h_main_v136 := by
    simp only [ops4]
    after_results_simp
    all_goals (try simp only [h.h_main_arg15, h.h_main_arg4, h.h_main_v119, h.h_main_v60])
    all_goals (repeat (first | rw [h.h_main_v119] | rw [h.h_main_v60]))
    all_goals rfl

end Cert.Proof.RefRun

end
-- ==== Proof.RefRun5.lean ====
/-
  The reference program's run, stretch 5 of 6: the operations 203 … 264 as a literal list, the buffers they
  write, and the step from the state before them to the state after them (each buffer still to be read holds its
  stage function of the arguments' launch contents).
-/
import proofs.«414035_j83562883711810_2_alg».proof.Proof.RefRun0

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations 203 … 264 of the program's 272, in order (a called function's operations stand in its call's place). -/
abbrev ops5 : List (HloOp τ sig (Elt F)) :=
  [ unary main_arg16 main_v137 (broadcastInDim S1x256 ![1] bcast_S256_S1x256_1 : (⟨S256, .f32⟩ : BufTy).Contents (Elt F) → (⟨S1x256, .f32⟩ : BufTy).Contents (Elt F)),
    unary main_v137 main_v138 (broadcastInDim S6000x256 ![0, 1] bcast_S1x256_S6000x256_0_1 : (⟨S1x256, .f32⟩ : BufTy).Contents (Elt F) → (⟨S6000x256, .f32⟩ : BufTy).Contents (Elt F)),
    binary main_v136 main_v138 main_v139 (addf : (⟨S6000x256, .f32⟩ : BufTy).Contents (Elt F) → (⟨S6000x256, .f32⟩ : BufTy).Contents (Elt F) → (⟨S6000x256, .f32⟩ : BufTy).Contents (Elt F)),
    binary main_v129 main_v139 main_v140 (addf : (⟨S6000x256, .f32⟩ : BufTy).Contents (Elt F) → (⟨S6000x256, .f32⟩ : BufTy).Contents (Elt F) → (⟨S6000x256, .f32⟩ : BufTy).Contents (Elt F)),
    unary main_arg4 main_v141 ((transpose S6000x6000 [1, 0] · transposes_S6000x6000_S6000x6000_1_0) : (⟨S6000x6000, .f32⟩ : BufTy).Contents (Elt F) → (⟨S6000x6000, .f32⟩ : BufTy).Contents (Elt F)),
    unary main_v125 main_v142 (broadcastInDim S6000x256 ![0, 1] bcast_S6000x1_S6000x256_0_1 : (⟨S6000x1, .f32⟩ : BufTy).Contents (Elt F) → (⟨S6000x256, .f32⟩ : BufTy).Contents (Elt F)),
    binary main_v135 main_v142 main_v143 (mulf : (⟨S6000x256, .f32⟩ : BufTy).Contents (Elt F) → (⟨S6000x256, .f32⟩ : BufTy).Contents (Elt F) → (⟨S6000x256, .f32⟩ : BufTy).Contents (Elt F)),
    binary main_v141 main_v143 main_v144 ((fun l r => Host.dotGeneral dot_S6000x6000_S6000x256_S6000x256_1_0_0_1_n_n none l r) : (⟨S6000x6000, .f32⟩ : BufTy).Contents (Elt F) → (⟨S6000x256, .f32⟩ : BufTy).Contents (Elt F) → (⟨S6000x256, .f32⟩ : BufTy).Contents (Elt F)),
    unary main_v125 main_v145 (broadcastInDim S6000x256 ![0, 1] bcast_S6000x1_S6000x256_0_1 : (⟨S6000x1, .f32⟩ : BufTy).Contents (Elt F) → (⟨S6000x256, .f32⟩ : BufTy).Contents (Elt F)),
    binary main_v144 main_v145 main_v146 (mulf : (⟨S6000x256, .f32⟩ : BufTy).Contents (Elt F) → (⟨S6000x256, .f32⟩ : BufTy).Contents (Elt F) → (⟨S6000x256, .f32⟩ : BufTy).Contents (Elt F)),
    binary main_v146 main_arg15 main_v147 ((fun l r => Host.dotGeneral dot_S6000x256_S256x256_S6000x256_1_0_0_1_n_n none l r) : (⟨S6000x256, .f32⟩ : BufTy).Contents (Elt F) → (⟨S256x256, .f32⟩ : BufTy).Contents (Elt F) → (⟨S6000x256, .f32⟩ : BufTy).Contents (Elt F)),
    unary main_arg16 main_v148 (broadcastInDim S1x256 ![1] bcast_S256_S1x256_1 : (⟨S256, .f32⟩ : BufTy).Contents (Elt F) → (⟨S1x256, .f32⟩ : BufTy).Contents (Elt F)),
    unary main_v148 main_v149 (broadcastInDim S6000x256 ![0, 1] bcast_S1x256_S6000x256_0_1 : (⟨S1x256, .f32⟩ : BufTy).Contents (Elt F) → (⟨S6000x256, .f32⟩ : BufTy).Contents (Elt F)),
    binary main_v147 main_v149 main_v150 (addf : (⟨S6000x256, .f32⟩ : BufTy).Contents (Elt F) → (⟨S6000x256, .f32⟩ : BufTy).Contents (Elt F) → (⟨S6000x256, .f32⟩ : BufTy).Contents (Elt F)),
    binary main_v140 main_v150 main_v151 (addf : (⟨S6000x256, .f32⟩ : BufTy).Contents (Elt F) → (⟨S6000x256, .f32⟩ : BufTy).Contents (Elt F) → (⟨S6000x256, .f32⟩ : BufTy).Contents (Elt F)),
    unary main_arg4 main_v152 ((transpose S6000x6000 [1, 0] · transposes_S6000x6000_S6000x6000_1_0) : (⟨S6000x6000, .f32⟩ : BufTy).Contents (Elt F) → (⟨S6000x6000, .f32⟩ : BufTy).Contents (Elt F)),
    unary main_v125 main_v153 (broadcastInDim S6000x256 ![0, 1] bcast_S6000x1_S6000x256_0_1 : (⟨S6000x1, .f32⟩ : BufTy).Contents (Elt F) → (⟨S6000x256, .f32⟩ : BufTy).Contents (Elt F)),
    binary main_v146 main_v153 main_v154 (mulf : (⟨S6000x256, .f32⟩ : BufTy).Contents (Elt F) → (⟨S6000x256, .f32⟩ : BufTy).Contents (Elt F) → (⟨S6000x256, .f32⟩ : BufTy).Contents (Elt F)),
    binary main_v152 main_v154 main_v155 ((fun l r => Host.dotGeneral dot_S6000x6000_S6000x256_S6000x256_1_0_0_1_n_n none l r) : (⟨S6000x6000, .f32⟩ : BufTy).Contents (Elt F) → (⟨S6000x256, .f32⟩ : BufTy).Contents (Elt F) → (⟨S6000x256, .f32⟩ : BufTy).Contents (Elt F)),
    unary main_v125 main_v156 (broadcastInDim S6000x256 ![0, 1] bcast_S6000x1_S6000x256_0_1 : (⟨S6000x1, .f32⟩ : BufTy).Contents (Elt F) → (⟨S6000x256, .f32⟩ : BufTy).Contents (Elt F)),
    binary main_v155 main_v156 main_v157 (mulf : (⟨S6000x256, .f32⟩ : BufTy).Contents (Elt F) → (⟨S6000x256, .f32⟩ : BufTy).Contents (Elt F) → (⟨S6000x256, .f32⟩ : BufTy).Contents (Elt F)),
    binary main_v157 main_arg15 main_v158 ((fun l r => Host.dotGeneral dot_S6000x256_S256x256_S6000x256_1_0_0_1_n_n none l r) : (⟨S6000x256, .f32⟩ : BufTy).Contents (Elt F) → (⟨S256x256, .f32⟩ : BufTy).Contents (Elt F) → (⟨S6000x256, .f32⟩ : BufTy).Contents (Elt F)),
    unary main_arg16 main_v159 (broadcastInDim S1x256 ![1] bcast_S256_S1x256_1 : (⟨S256, .f32⟩ : BufTy).Contents (Elt F) → (⟨S1x256, .f32⟩ : BufTy).Contents (Elt F)),
    unary main_v159 main_v160 (broadcastInDim S6000x256 ![0, 1] bcast_S1x256_S6000x256_0_1 : (⟨S1x256, .f32⟩ : BufTy).Contents (Elt F) → (⟨S6000x256, .f32⟩ : BufTy).Contents (Elt F)),
    binary main_v158 main_v160 main_v161 (addf : (⟨S6000x256, .f32⟩ : BufTy).Contents (Elt F) → (⟨S6000x256, .f32⟩ : BufTy).Contents (Elt F) → (⟨S6000x256, .f32⟩ : BufTy).Contents (Elt F)),
    binary main_v151 main_v161 main_v162 (addf : (⟨S6000x256, .f32⟩ : BufTy).Contents (Elt F) → (⟨S6000x256, .f32⟩ : BufTy).Contents (Elt F) → (⟨S6000x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S6000x256, .f32⟩) main_call11_v0) (broadcastInDim S6000x256 ![] bcast_S_S6000x256),
    TRef.binary (TRef.of (T := ⟨S6000x256, .f32⟩) main_v162) (TRef.of (T := ⟨S6000x256, .f32⟩) main_call11_v0) (TRef.of (T := ⟨S6000x256, .f32⟩) main_v163) maximumf,
    nullary main_c (constantI S_ 32 0#32),
    unary main_c main_v164 (broadcastInDim S16384 ![] bcast_S_S16384 : (⟨S_, .i32⟩ : BufTy).Contents (Elt F) → (⟨S16384, .i32⟩ : BufTy).Contents (Elt F)),
    binary main_arg5 main_v164 main_v165 (cmpi .slt : (⟨S16384, .i32⟩ : BufTy).Contents (Elt F) → (⟨S16384, .i32⟩ : BufTy).Contents (Elt F) → (⟨S16384, .i1⟩ : BufTy).Contents (Elt F)),
    nullary main_c_42 (constantI S_ 32 6000#32),
    unary main_c_42 main_v166 (broadcastInDim S16384 ![] bcast_S_S16384 : (⟨S_, .i32⟩ : BufTy).Contents (Elt F) → (⟨S16384, .i32⟩ : BufTy).Contents (Elt F)),
    binary main_arg5 main_v166 main_v167 (addi : (⟨S16384, .i32⟩ : BufTy).Contents (Elt F) → (⟨S16384, .i32⟩ : BufTy).Contents (Elt F) → (⟨S16384, .i32⟩ : BufTy).Contents (Elt F)),
    ternary main_v165 main_v167 main_arg5 main_v168 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v168 main_v169 (broadcastInDim S16384x1 ![0] bcast_S16384_S16384x1_0 : (⟨S16384, .i32⟩ : BufTy).Contents (Elt F) → (⟨S16384x1, .i32⟩ : BufTy).Contents (Elt F)),
    binary main_v163 main_v169 main_v170 ((fun x i => Host.gather gather_S6000x256_S16384x1_S16384x256_1_0_n_n_0_1_1256 x i) : (⟨S6000x256, .f32⟩ : BufTy).Contents (Elt F) → (⟨S16384x1, .i32⟩ : BufTy).Contents (Elt F) → (⟨S16384x256, .f32⟩ : BufTy).Contents (Elt F)),
    nullary main_c_43 (constantI S_ 32 4000#32),
    unary main_c_43 main_v171 (broadcastInDim S16384 ![] bcast_S_S16384 : (⟨S_, .i32⟩ : BufTy).Contents (Elt F) → (⟨S16384, .i32⟩ : BufTy).Contents (Elt F)),
    binary main_v171 main_arg6 main_v172 (addi : (⟨S16384, .i32⟩ : BufTy).Contents (Elt F) → (⟨S16384, .i32⟩ : BufTy).Contents (Elt F) → (⟨S16384, .i32⟩ : BufTy).Contents (Elt F)),
    nullary main_c_44 (constantI S_ 32 0#32),
    unary main_c_44 main_v173 (broadcastInDim S16384 ![] bcast_S_S16384 : (⟨S_, .i32⟩ : BufTy).Contents (Elt F) → (⟨S16384, .i32⟩ : BufTy).Contents (Elt F)),
    binary main_v172 main_v173 main_v174 (cmpi .slt : (⟨S16384, .i32⟩ : BufTy).Contents (Elt F) → (⟨S16384, .i32⟩ : BufTy).Contents (Elt F) → (⟨S16384, .i1⟩ : BufTy).Contents (Elt F)),
    nullary main_c_45 (constantI S_ 32 6000#32),
    unary main_c_45 main_v175 (broadcastInDim S16384 ![] bcast_S_S16384 : (⟨S_, .i32⟩ : BufTy).Contents (Elt F) → (⟨S16384, .i32⟩ : BufTy).Contents (Elt F)),
    binary main_v172 main_v175 main_v176 (addi : (⟨S16384, .i32⟩ : BufTy).Contents (Elt F) → (⟨S16384, .i32⟩ : BufTy).Contents (Elt F) → (⟨S16384, .i32⟩ : BufTy).Contents (Elt F)),
    ternary main_v174 main_v176 main_v172 main_v177 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v177 main_v178 (broadcastInDim S16384x1 ![0] bcast_S16384_S16384x1_0 : (⟨S16384, .i32⟩ : BufTy).Contents (Elt F) → (⟨S16384x1, .i32⟩ : BufTy).Contents (Elt F)),
    binary main_v163 main_v178 main_v179 ((fun x i => Host.gather gather_S6000x256_S16384x1_S16384x256_1_0_n_n_0_1_1256 x i) : (⟨S6000x256, .f32⟩ : BufTy).Contents (Elt F) → (⟨S16384x1, .i32⟩ : BufTy).Contents (Elt F) → (⟨S16384x256, .f32⟩ : BufTy).Contents (Elt F)),
    binary main_v170 main_v179 main_v180 (mulf : (⟨S16384x256, .f32⟩ : BufTy).Contents (Elt F) → (⟨S16384x256, .f32⟩ : BufTy).Contents (Elt F) → (⟨S16384x256, .f32⟩ : BufTy).Contents (Elt F)),
    binary main_v180 main_arg17 main_v181 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg18 main_v182 (broadcastInDim S1x128 ![1] bcast_S128_S1x128_1 : (⟨S128, .f32⟩ : BufTy).Contents (Elt F) → (⟨S1x128, .f32⟩ : BufTy).Contents (Elt F)),
    unary main_v182 main_v183 (broadcastInDim S16384x128 ![0, 1] bcast_S1x128_S16384x128_0_1 : (⟨S1x128, .f32⟩ : BufTy).Contents (Elt F) → (⟨S16384x128, .f32⟩ : BufTy).Contents (Elt F)),
    binary main_v181 main_v183 main_v184 (addf : (⟨S16384x128, .f32⟩ : BufTy).Contents (Elt F) → (⟨S16384x128, .f32⟩ : BufTy).Contents (Elt F) → (⟨S16384x128, .f32⟩ : BufTy).Contents (Elt F)),
    unary main_v184 main_v185 (Host.tanh : (⟨S16384x128, .f32⟩ : BufTy).Contents (Elt F) → (⟨S16384x128, .f32⟩ : BufTy).Contents (Elt F)),
    binary main_v185 main_arg19 main_v186 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg20 main_v187 (broadcastInDim S1x64 ![1] bcast_S64_S1x64_1 : (⟨S64, .f32⟩ : BufTy).Contents (Elt F) → (⟨S1x64, .f32⟩ : BufTy).Contents (Elt F)),
    unary main_v187 main_v188 (broadcastInDim S16384x64 ![0, 1] bcast_S1x64_S16384x64_0_1 : (⟨S1x64, .f32⟩ : BufTy).Contents (Elt F) → (⟨S16384x64, .f32⟩ : BufTy).Contents (Elt F)),
    binary main_v186 main_v188 main_v189 (addf : (⟨S16384x64, .f32⟩ : BufTy).Contents (Elt F) → (⟨S16384x64, .f32⟩ : BufTy).Contents (Elt F) → (⟨S16384x64, .f32⟩ : BufTy).Contents (Elt F)),
    unary main_v189 main_v190 (Host.tanh : (⟨S16384x64, .f32⟩ : BufTy).Contents (Elt F) → (⟨S16384x64, .f32⟩ : BufTy).Contents (Elt F)),
    binary main_v190 main_arg21 main_v191 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)) ]

set_option maxRecDepth 8192 in
/-- They touch only the device's own buffers. -/
theorem ops5_sub : (ops5 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., binary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub ..⟩

set_option maxRecDepth 8192 in
/-- Each determines its result. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers they write. -/
abbrev ops5_W : List (Ref sig .tc) := [main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_call11_cst, main_call11_v0, main_v163, main_c, main_v164, main_v165, main_c_42, main_v166, main_v167, main_v168, main_v169, main_v170, main_c_43, main_v171, main_v172, main_c_44, main_v173, main_v174, main_c_45, main_v175, main_v176, main_v177, main_v178, main_v179, main_v180, main_v181, main_v182, main_v183, main_v184, main_v185, main_v186, main_v187, main_v188, main_v189, main_v190, main_v191]

set_option maxRecDepth 8192 in
set_option maxHeartbeats 4000000 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer they do not write keeps its contents through them. -/
theorem keep5 (W : Valuation τ sig (Elt F)) (r : Ref sig .tc) (h : r ∉ ops5_W) :
    after ops5 W (Proc.devRef .tc r) = W (Proc.devRef .tc r) :=
  after_of_writes_sub ops5 _ ops5_writes h

set_option maxRecDepth 8192 in
set_option maxHeartbeats 4000000 in
/-- From the state before them to the state after them. -/
theorem step5 (V0 W : Valuation τ sig (Elt F)) (h : St4 V0 W) : St5 V0 (after ops5 W) where
  h_main_arg0 := (keep5 W main_arg0 (by decide)).trans h.h_main_arg0
  h_main_arg1 := (keep5 W main_arg1 (by decide)).trans h.h_main_arg1
  h_main_arg2 := (keep5 W main_arg2 (by decide)).trans h.h_main_arg2
  h_main_arg3 := (keep5 W main_arg3 (by decide)).trans h.h_main_arg3
  h_main_arg4 := (keep5 W main_arg4 (by decide)).trans h.h_main_arg4
  h_main_arg5 := (keep5 W main_arg5 (by decide)).trans h.h_main_arg5
  h_main_arg6 := (keep5 W main_arg6 (by decide)).trans h.h_main_arg6
  h_main_arg7 := (keep5 W main_arg7 (by decide)).trans h.h_main_arg7
  h_main_arg8 := (keep5 W main_arg8 (by decide)).trans h.h_main_arg8
  h_main_arg9 := (keep5 W main_arg9 (by decide)).trans h.h_main_arg9
  h_main_arg10 := (keep5 W main_arg10 (by decide)).trans h.h_main_arg10
  h_main_arg11 := (keep5 W main_arg11 (by decide)).trans h.h_main_arg11
  h_main_arg12 := (keep5 W main_arg12 (by decide)).trans h.h_main_arg12
  h_main_arg13 := (keep5 W main_arg13 (by decide)).trans h.h_main_arg13
  h_main_arg14 := (keep5 W main_arg14 (by decide)).trans h.h_main_arg14
  h_main_arg15 := (keep5 W main_arg15 (by decide)).trans h.h_main_arg15
  h_main_arg16 := (keep5 W main_arg16 (by decide)).trans h.h_main_arg16
  h_main_arg17 := (keep5 W main_arg17 (by decide)).trans h.h_main_arg17
  h_main_arg18 := (keep5 W main_arg18 (by decide)).trans h.h_main_arg18
  h_main_arg19 := (keep5 W main_arg19 (by decide)).trans h.h_main_arg19
  h_main_arg20 := (keep5 W main_arg20 (by decide)).trans h.h_main_arg20
  h_main_arg21 := (keep5 W main_arg21 (by decide)).trans h.h_main_arg21
  h_main_arg22 := (keep5 W main_arg22 (by decide)).trans h.h_main_arg22
  h_main_arg23 := (keep5 W main_arg23 (by decide)).trans h.h_main_arg23
  h_main_arg24 := (keep5 W main_arg24 (by decide)).trans h.h_main_arg24
  h_main_v191 := by
    simp only [ops5]
    after_results_simp
    simp only [h.h_main_arg21, h.h_main_arg20, h.h_main_arg19, h.h_main_arg18, h.h_main_arg17, h.h_main_arg6, h.h_main_arg16, h.h_main_arg15, h.h_main_v125, h.h_main_v135, h.h_main_arg4, h.h_main_v136, h.h_main_v129, h.h_main_arg5] <;> rfl

end Cert.Proof.RefRun

end
-- ==== Proof.RefRun6.lean ====
/-
  The reference program's run, stretch 6 of 6: the operations 265 … 272 as a literal list, the buffers they
  write, and the step from the state before them to the state after them (each buffer still to be read holds its
  stage function of the arguments' launch contents).
-/
import proofs.«414035_j83562883711810_2_alg».proof.Proof.RefRun0

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations 265 … 272 of the program's 272, in order (a called function's operations stand in its call's place). -/
abbrev ops6 : List (HloOp τ sig (Elt F)) :=
  [ unary main_arg22 main_v192 (broadcastInDim S1x32 ![1] bcast_S32_S1x32_1 : (⟨S32, .f32⟩ : BufTy).Contents (Elt F) → (⟨S1x32, .f32⟩ : BufTy).Contents (Elt F)),
    unary main_v192 main_v193 (broadcastInDim S16384x32 ![0, 1] bcast_S1x32_S16384x32_0_1 : (⟨S1x32, .f32⟩ : BufTy).Contents (Elt F) → (⟨S16384x32, .f32⟩ : BufTy).Contents (Elt F)),
    binary main_v191 main_v193 main_v194 (addf : (⟨S16384x32, .f32⟩ : BufTy).Contents (Elt F) → (⟨S16384x32, .f32⟩ : BufTy).Contents (Elt F) → (⟨S16384x32, .f32⟩ : BufTy).Contents (Elt F)),
    unary main_v194 main_v195 (Host.tanh : (⟨S16384x32, .f32⟩ : BufTy).Contents (Elt F) → (⟨S16384x32, .f32⟩ : BufTy).Contents (Elt F)),
    binary main_v195 main_arg23 main_v196 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
    unary main_arg24 main_v197 (broadcastInDim S1x1 ![1] bcast_S1_S1x1_1 : (⟨S1, .f32⟩ : BufTy).Contents (Elt F) → (⟨S1x1, .f32⟩ : BufTy).Contents (Elt F)),
    unary main_v197 main_v198 (broadcastInDim S16384x1 ![0, 1] bcast_S1x1_S16384x1_0_1 : (⟨S1x1, .f32⟩ : BufTy).Contents (Elt F) → (⟨S16384x1, .f32⟩ : BufTy).Contents (Elt F)),
    binary main_v196 main_v198 main_v199 (addf : (⟨S16384x1, .f32⟩ : BufTy).Contents (Elt F) → (⟨S16384x1, .f32⟩ : BufTy).Contents (Elt F) → (⟨S16384x1, .f32⟩ : BufTy).Contents (Elt F)) ]

set_option maxRecDepth 8192 in
/-- They touch only the device's own buffers. -/
theorem ops6_sub : (ops6 : List (HloOp τ sig (Elt F))).Forall fun op => op.bufs ⊆ tcRefs τ sig :=
  ⟨unary_bufs_sub .., unary_bufs_sub .., binary_bufs_sub .., unary_bufs_sub .., binary_bufs_sub .., unary_bufs_sub .., unary_bufs_sub .., binary_bufs_sub ..⟩

set_option maxRecDepth 8192 in
/-- Each determines its result. -/
theorem ops6_fresh : (ops6 : List (HloOp τ sig (Elt F))).Forall fun op => op.fresh = ∅ :=
  ⟨rfl, rfl, rfl, rfl, rfl, rfl, rfl, rfl⟩

/-- The buffers they write. -/
abbrev ops6_W : List (Ref sig .tc) := [main_v192, main_v193, main_v194, main_v195, main_v196, main_v197, main_v198, main_v199]

set_option maxRecDepth 8192 in
set_option maxHeartbeats 4000000 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer they do not write keeps its contents through them. -/
theorem keep6 (W : Valuation τ sig (Elt F)) (r : Ref sig .tc) (h : r ∉ ops6_W) :
    after ops6 W (Proc.devRef .tc r) = W (Proc.devRef .tc r) :=
  after_of_writes_sub ops6 _ ops6_writes h

set_option maxRecDepth 8192 in
set_option maxHeartbeats 4000000 in
/-- From the state before them to the state after them. -/
theorem step6 (V0 W : Valuation τ sig (Elt F)) (h : St5 V0 W) : St6 V0 (after ops6 W) where
  h_main_arg0 := (keep6 W main_arg0 (by decide)).trans h.h_main_arg0
  h_main_arg1 := (keep6 W main_arg1 (by decide)).trans h.h_main_arg1
  h_main_arg2 := (keep6 W main_arg2 (by decide)).trans h.h_main_arg2
  h_main_arg3 := (keep6 W main_arg3 (by decide)).trans h.h_main_arg3
  h_main_arg4 := (keep6 W main_arg4 (by decide)).trans h.h_main_arg4
  h_main_arg5 := (keep6 W main_arg5 (by decide)).trans h.h_main_arg5
  h_main_arg6 := (keep6 W main_arg6 (by decide)).trans h.h_main_arg6
  h_main_arg7 := (keep6 W main_arg7 (by decide)).trans h.h_main_arg7
  h_main_arg8 := (keep6 W main_arg8 (by decide)).trans h.h_main_arg8
  h_main_arg9 := (keep6 W main_arg9 (by decide)).trans h.h_main_arg9
  h_main_arg10 := (keep6 W main_arg10 (by decide)).trans h.h_main_arg10
  h_main_arg11 := (keep6 W main_arg11 (by decide)).trans h.h_main_arg11
  h_main_arg12 := (keep6 W main_arg12 (by decide)).trans h.h_main_arg12
  h_main_arg13 := (keep6 W main_arg13 (by decide)).trans h.h_main_arg13
  h_main_arg14 := (keep6 W main_arg14 (by decide)).trans h.h_main_arg14
  h_main_arg15 := (keep6 W main_arg15 (by decide)).trans h.h_main_arg15
  h_main_arg16 := (keep6 W main_arg16 (by decide)).trans h.h_main_arg16
  h_main_arg17 := (keep6 W main_arg17 (by decide)).trans h.h_main_arg17
  h_main_arg18 := (keep6 W main_arg18 (by decide)).trans h.h_main_arg18
  h_main_arg19 := (keep6 W main_arg19 (by decide)).trans h.h_main_arg19
  h_main_arg20 := (keep6 W main_arg20 (by decide)).trans h.h_main_arg20
  h_main_arg21 := (keep6 W main_arg21 (by decide)).trans h.h_main_arg21
  h_main_arg22 := (keep6 W main_arg22 (by decide)).trans h.h_main_arg22
  h_main_arg23 := (keep6 W main_arg23 (by decide)).trans h.h_main_arg23
  h_main_arg24 := (keep6 W main_arg24 (by decide)).trans h.h_main_arg24
  h_main_v199 := by
    simp only [ops6]
    after_results_simp
    simp only [h.h_main_arg24, h.h_main_arg23, h.h_main_arg22, h.h_main_v191] <;> rfl

end Cert.Proof.RefRun

end
-- ==== Proof.RefRun.lean ====
/-
  The reference program's run: the program is the six stretches in order, each touching only the device's buffers and
  determining its results; chaining the six steps gives, from any launch contents, the result buffer at its stage
  function of the arguments and the arguments unchanged.
-/
import proofs.«414035_j83562883711810_2_alg».proof.Proof.RefRun1
import proofs.«414035_j83562883711810_2_alg».proof.Proof.RefRun2
import proofs.«414035_j83562883711810_2_alg».proof.Proof.RefRun3
import proofs.«414035_j83562883711810_2_alg».proof.Proof.RefRun4
import proofs.«414035_j83562883711810_2_alg».proof.Proof.RefRun5
import proofs.«414035_j83562883711810_2_alg».proof.Proof.RefRun6

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The whole line: the six stretches in order (the third printed window is two stretches). -/
abbrev ops : List (HloOp τ sig (Elt F)) := ops1 ++ (ops2 ++ ((ops3 ++ ops4) ++ (ops5 ++ ops6)))

/-- A property of every element of two lists holds of every element of their concatenation. -/
theorem forall_app {α : Type} {P : α → Prop} {l₁ l₂ : List α} (h₁ : l₁.Forall P) (h₂ : l₂.Forall P) : (l₁ ++ l₂).Forall P :=
  List.forall_iff_forall_mem.mpr fun x hx =>
    (List.mem_append.mp hx).elim (List.forall_iff_forall_mem.mp h₁ x) (List.forall_iff_forall_mem.mp h₂ x)

set_option maxRecDepth 8192 in
set_option maxHeartbeats 4000000 in
theorem main_part0_eq (c : Dev nD) : main_part0 (F := F) c = seq ops1 := rfl
set_option maxRecDepth 8192 in
set_option maxHeartbeats 4000000 in
theorem main_part1_eq (c : Dev nD) : main_part1 (F := F) c = seq ops2 := rfl
set_option maxRecDepth 8192 in
set_option maxHeartbeats 4000000 in
theorem main_part2_eq (c : Dev nD) : main_part2 (F := F) c = seq (ops3 ++ ops4) := rfl
set_option maxRecDepth 8192 in
set_option maxHeartbeats 4000000 in
theorem main_part3_eq (c : Dev nD) : main_part3 (F := F) c = seq ops5 := rfl
set_option maxRecDepth 8192 in
theorem main_part4_eq (c : Dev nD) : main_part4 (F := F) c = seq ops6 := rfl

set_option maxRecDepth 8192 in
/-- The program is the line. -/
theorem main_eq (c : Dev nD) : main (F := F) c = seq ops := by
  show (main_part0 (F := F) c >>= fun _ => main_part1 (F := F) c >>= fun _ => main_part2 (F := F) c >>= fun _ =>
    main_part3 (F := F) c >>= fun _ => main_part4 (F := F) c) = _
  rw [main_part0_eq, main_part1_eq, main_part2_eq, main_part3_eq, main_part4_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app ops1_sub (forall_app ops2_sub (forall_app (forall_app ops3_sub ops4_sub) (forall_app ops5_sub ops6_sub)))

theorem ops_fresh : (ops : List (HloOp τ sig (Elt F))).Forall fun op => op.fresh = ∅ :=
  forall_app ops1_fresh (forall_app ops2_fresh (forall_app (forall_app ops3_fresh ops4_fresh) (forall_app ops5_fresh ops6_fresh)))

/-- After the whole line, from any contents: the result at its stage function of the arguments, the arguments unchanged. -/
theorem after_ops (V0 : Valuation τ sig (Elt F)) : St6 V0 (after ops V0) := by
  simp only [ops, after_append]
  exact step6 V0 _ (step5 V0 _ (step4 V0 _ (step3 V0 _ (step2 V0 _ (step1 V0 _ (st0 V0))))))

/-- On every device, for any float values, from any memory with zero counters: every weakly fair execution of the
    program terminates with the result at its stage function of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v199) = val_main_v199 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c =>
      have S := after_ops (F := F) (launchContents m c)
      ⟨(h c main_v199).trans S.h_main_v199,
       (h c main_arg0).trans S.h_main_arg0,
       (h c main_arg1).trans S.h_main_arg1,
       (h c main_arg2).trans S.h_main_arg2,
       (h c main_arg3).trans S.h_main_arg3,
       (h c main_arg4).trans S.h_main_arg4,
       (h c main_arg5).trans S.h_main_arg5,
       (h c main_arg6).trans S.h_main_arg6,
       (h c main_arg7).trans S.h_main_arg7,
       (h c main_arg8).trans S.h_main_arg8,
       (h c main_arg9).trans S.h_main_arg9,
       (h c main_arg10).trans S.h_main_arg10,
       (h c main_arg11).trans S.h_main_arg11,
       (h c main_arg12).trans S.h_main_arg12,
       (h c main_arg13).trans S.h_main_arg13,
       (h c main_arg14).trans S.h_main_arg14,
       (h c main_arg15).trans S.h_main_arg15,
       (h c main_arg16).trans S.h_main_arg16,
       (h c main_arg17).trans S.h_main_arg17,
       (h c main_arg18).trans S.h_main_arg18,
       (h c main_arg19).trans S.h_main_arg19,
       (h c main_arg20).trans S.h_main_arg20,
       (h c main_arg21).trans S.h_main_arg21,
       (h c main_arg22).trans S.h_main_arg22,
       (h c main_arg23).trans S.h_main_arg23,
       (h c main_arg24).trans S.h_main_arg24⟩)
    (run_seq scopedRefs_eq scopedSems_eq defs main (fun _ => ops) main_eq (fun _ => ops_sub) m ρ
      (fun _ => List.forall_iff_forall_mem.mp ops_fresh))

end Cert.Proof.RefRun

end
-- ==== Proof.RefSide.lean ====
/-
  The reference program's side of the certificate: its frame (the host program runs to the end and leaves every
  argument as it found it), read off the run of its operations with what that run says of the result dropped.
-/
import proofs.«414035_j83562883711810_2_alg».proof.Defs
import proofs.«414035_j83562883711810_2_alg».proof.Proof.Gen.Pre_finite_inputs
import proofs.«414035_j83562883711810_2_alg».proof.Proof.RefRun

noncomputable section

open Idealize.ShloMosaic Idealize.ShloMosaic.TcCoe Idealize.SL.Sem

namespace Cert.Proof.RefSide

/-- Every weakly fair execution of the reference ends, faults nowhere, and its arguments end unchanged: the run of
    its operations, stage by stage, with the result's value forgotten. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.Proof.RefRun.run (F := Ideal) m ρ)

end Cert.Proof.RefSide

end
-- ==== Proof.lean ====
/- The proof of the certificate's claim: the kernel program as printed (at machine words) and at the ideal values, and
   the reference program at the ideal values, each run to the end from any admitted memory with the argument arrays
   unchanged; and at the ideal values kernel and reference end with the same result, element by element.

   THE MATHEMATICS. Inputs: node features Xm [4000, 4000] and Xd [2000, 2000]; incidence matrices Tm [2000, 4000] and
   Td [1000, 2000] (hyperedges by nodes); an adjacency matrix A [6000, 6000]; two index vectors of 16384 entries; weights
   and biases. For a vector x write inv x for the vector that is 1 / max(x, 1e-12) where x > 0 and 0 elsewhere.

   1. Two hypergraph branches of two layers each. For an incidence matrix T with node degrees D (column sums) and
      hyperedge degrees B (row sums), a layer sends X to  inv D * (Tᵀ (inv B * (T (X Θ)))) + b  (the factors scale rows),
      and the first layer's result passes through max(·, 0). The kernel computes every one of these matrix products by
      one pipelined call over row tiles and contraction tiles of 1024: an accumulator is set to zero at the first
      contraction tile, the product of the two current blocks is added at every tile, and at the last tile the
      accumulator is multiplied by the row's factor, the column's bias is added and, where the layer asks it, the maximum
      with zero is taken. Because addition of extended reals is commutative and associative, the accumulated sum of the
      block sums is the one sum over the whole contraction range; no finiteness is needed for that. The operands are
      padded with zeros up to multiples of the tile: the padded contraction positions contribute products with a zero
      factor, so the sum over the padded range is the sum over the true range; the padded rows are cut off before the
      result is used again. At the ideal values a change of float format is the identity, so the narrow copies the
      kernel feeds to its products are the values themselves.

   2. Propagation on the joined graph. With X [6000, 256] the two branches' results one above the other,
      deg = max(row sums of A, 1) and n = deg ^ (-1/2):  res₀ = X W + g,  f₀ = X,  fₜ₊₁ = n * (Aᵀ (n * fₜ)),
      resₜ₊₁ = resₜ + (fₜ₊₁ W + g)  for three hops, and the embedding is max(res₃, 0). The kernel runs each hop as one
      pipelined call with the features resident, padded to 6144 rows by zeros; the padded rows stay zero from hop to
      hop because their scale factor is zero, the read-out fₜ₊₁ W + g is computed in the same call, and its padded rows
      are cut off. Again each product is the block-wise accumulation of the whole sum, and zero padding adds nothing.

   3. The pairwise decoder. Row p of the decoder's input is the product, element by element, of the embedding's rows
      rna_idx[p] and 4000 + dis_idx[p]; then three dense layers each followed by tanh and a linear read-out to one
      column, computed by the kernel in blocks of 2048 rows. The kernel's row gather fills rows whose index is out of
      range; under the stated precondition on the indices (0 ≤ rna_idx < 6000 and −4000 ≤ dis_idx < 2000) every row read
      is in range, where the filled gather is the plain gather the reference performs.

   The reference program is a straight line of 272 host operations. Its run is read stage by stage: the line is cut into
   six stretches, between two stretches only a handful of buffers are still to be read, and each of them holds its
   stage function of the arguments' launch contents; the last stage is the result. The kernel program's run is read
   region by region in the same way, its host operations between the regions included, down to the same stage
   function, and the two results are then equal. The frames say that every pipelined call writes only its own output
   and scratch, so that the argument arrays end as they began. -/
import proofs.«414035_j83562883711810_2_alg».proof.Defs
import proofs.«414035_j83562883711810_2_alg».proof.Proof.Gen.Kernel
import proofs.«414035_j83562883711810_2_alg».proof.Proof.Gen.KernelIdeal
import proofs.«414035_j83562883711810_2_alg».proof.Proof.Gen.ReferenceIdeal
import proofs.«414035_j83562883711810_2_alg».proof.Proof.Gen.Pre_finite_inputs
import proofs.«414035_j83562883711810_2_alg».proof.Proof.K.Assembly
import proofs.«414035_j83562883711810_2_alg».proof.Proof.KI.Assembly
import proofs.«414035_j83562883711810_2_alg».proof.Proof.KI.Glue
import proofs.«414035_j83562883711810_2_alg».proof.Proof.ReadP
import proofs.«414035_j83562883711810_2_alg».proof.Proof.RefRun
import proofs.«414035_j83562883711810_2_alg».proof.Proof.RefSide

noncomputable section

namespace Cert.Proof

open Idealize.ShloMosaic Idealize.SL.Sem

/-- The five claims, under the programs' stated side conditions as the generated modules prove them. The three frames
    are the programs' runs with what they say of the results dropped. For the value claim the kernel's result is
    named, both programs run, and the reference's result — its last stage function of the arguments — is the
    kernel's: the reference's arguments are the kernel's by hypothesis, and at the kernel's arguments the kernel's
    result is that same stage function. -/
theorem claim : Cert.Claim :=
  ⟨Cert.Kernel.Gen.facts, Cert.KernelIdeal.Gen.facts, Cert.ReferenceIdeal.Gen.facts, Cert.Pre_finite_inputs.Gen.facts,
    fun m ρ _ => Cert.Kernel.Assembly.frame_main (F := Bits) m ρ,
    fun m ρ _ => Cert.KernelIdeal.Assembly.frame_main (F := Ideal) m ρ,
    Cert.Proof.RefSide.frame_ri,
    trivial,
    fun m ρ m' ρ' hpre hagree =>
      ⟨fun c => Cert.KernelIdeal.Assembly.outs m 104 Cert.KernelIdeal.main_v184 c, Cert.KernelIdeal.Assembly.run_main m ρ,
        (θ_run (Cert.ReferenceIdeal.defs (F := Ideal)) _ _).mono (fun _ h c => ⟨(h c).1.trans (by
            obtain ⟨a0, a1, a2, a3, a4, a5, a6, a7, a8, a9, a10, a11, a12, a13, a14, a15, a16, a17, a18, a19, a20, a21, a22, a23, a24⟩ := hagree c
            rw [a0, a1, a2, a3, a4, a5, a6, a7, a8, a9, a10, a11, a12, a13, a14, a15, a16, a17, a18, a19, a20, a21, a22, a23, a24]
            exact (Cert.KernelIdeal.Glue.final m hpre c).symm), (h c).2⟩)
          (Cert.Proof.RefRun.run (F := Ideal) m' ρ')⟩⟩

end Cert.Proof

end
